-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v403)) (v1 : (c : Dev Cert.KernelIdeal.nD) → Buf (Elt Ideal) ((c.tc : Thread Cert.KernelIdeal.nD Cert.KernelIdeal.τ).loc Cert.KernelIdeal.main_v404)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v403) = v0 c
          ∧ r.2.mem ((c.tc : Thread Cert.KernelIdeal.nD Cert.KernelIdeal.τ).loc Cert.KernelIdeal.main_v404) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v691) = v0 c
          ∧ r.2.mem ((c.tc : Thread Cert.ReferenceIdeal.nD Cert.ReferenceIdeal.τ).loc Cert.ReferenceIdeal.main_v695) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x7 : Shape := ⟨2, ![80000, 7]⟩
abbrev S20000x4 : Shape := ⟨2, ![20000, 4]⟩
abbrev S4x7 : Shape := ⟨2, ![4, 7]⟩
abbrev S7 : Shape := ⟨1, ![7]⟩
abbrev S4x7x128 : Shape := ⟨3, ![4, 7, 128]⟩
abbrev S4x128 : Shape := ⟨2, ![4, 128]⟩
abbrev S4x128x128 : Shape := ⟨3, ![4, 128, 128]⟩
abbrev S2x4x128x128 : Shape := ⟨4, ![2, 4, 128, 128]⟩
abbrev S2x4x128 : Shape := ⟨3, ![2, 4, 128]⟩
abbrev S128x128 : Shape := ⟨2, ![128, 128]⟩
abbrev S128 : Shape := ⟨1, ![128]⟩
abbrev S2x1000000 : Shape := ⟨2, ![2, 1000000]⟩
abbrev S2x300000 : Shape := ⟨2, ![2, 300000]⟩
abbrev S2x100000 : Shape := ⟨2, ![2, 100000]⟩
abbrev S_ : Shape := ⟨0, ![]⟩

class Facts : Prop where
  bcast_S_S80000x7 : S_.BroadcastsInDim S80000x7 (![] : Fin 0 → Fin S80000x7.rank)
  reducesTo_S80000x7_S_d0_1 : S80000x7.ReducesTo [0, 1] S_
  h_S_ : 0 < S_.numel
  bcast_S_S20000x4 : S_.BroadcastsInDim S20000x4 (![] : Fin 0 → Fin S20000x4.rank)
  reducesTo_S20000x4_S_d0_1 : S20000x4.ReducesTo [0, 1] S_
  bcast_S_S4x7 : S_.BroadcastsInDim S4x7 (![] : Fin 0 → Fin S4x7.rank)
  reducesTo_S4x7_S_d0_1 : S4x7.ReducesTo [0, 1] S_
  bcast_S_S7 : S_.BroadcastsInDim S7 (![] : Fin 0 → Fin S7.rank)
  reducesTo_S7_S_d0 : S7.ReducesTo [0] S_
  bcast_S_S4x7x128 : S_.BroadcastsInDim S4x7x128 (![] : Fin 0 → Fin S4x7x128.rank)
  reducesTo_S4x7x128_S_d0_1_2 : S4x7x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S2x4x128x128 : S_.BroadcastsInDim S2x4x128x128 (![] : Fin 0 → Fin S2x4x128x128.rank)
  reducesTo_S2x4x128x128_S_d0_1_2_3 : S2x4x128x128.ReducesTo [0, 1, 2, 3] S_
  bcast_S_S2x4x128 : S_.BroadcastsInDim S2x4x128 (![] : Fin 0 → Fin S2x4x128.rank)
  reducesTo_S2x4x128_S_d0_1_2 : S2x4x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg18 : FVec F S128x128 .f32) (main_arg19 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg18
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  main_v98

def fn_part4 {F : FTy → Type} [FloatOps F] (main_arg14 : FVec F S2x4x128x128 .f32) (main_arg15 : FVec F S2x4x128 .f32) (main_arg16 : FVec F S128x128 .f32) (main_arg17 : FVec F S128 .f32) (main_arg18 : FVec F S128x128 .f32) (main_arg19 : FVec F S128 .f32) (main_v63 : IVec S_ 1) (main_v67 : IVec S_ 1) : IVec S_ 1 :=
  let main_v68 : IVec S_ 1 := andi main_v63 main_v67
  let main_v69 : FVec F S2x4x128x128 .f32 := Host.absf main_arg14
  let main_cst_26 : FVec F S_ .f32 := constant S_ .f32 0x7F800000#32
  let main_v70 : FVec F S2x4x128x128 .f32 := broadcastInDim S2x4x128x128 ![] bcast_S_S2x4x128x128 main_cst_26
  let main_v71 : IVec S2x4x128x128 1 := cmpf .olt main_v69 main_v70
  let main_c_27 : IVec S_ 1 := constantI S_ 1 1#1
  let main_v72 : IVec S_ 1 := (fun x v => Host.reduce IntOp.andi x v reducesTo_S2x4x128x128_S_d0_1_2_3 h_S_) main_v71 main_c_27
  let main_v73 : IVec S_ 1 := andi main_v68 main_v72
  let main_v74 : FVec F S2x4x128 .f32 := Host.absf main_arg15
  let main_cst_28 : FVec F S_ .f32 := constant S_ .f32 0x7F800000#32
  let main_v75 : FVec F S2x4x128 .f32 := broadcastInDim S2x4x128 ![] bcast_S_S2x4x128 main_cst_28
  let main_v76 : IVec S2x4x128 1 := cmpf .olt main_v74 main_v75
  let main_c_29 : IVec S_ 1 := constantI S_ 1 1#1
  let main_v77 : IVec S_ 1 := (fun x v => Host.reduce IntOp.andi x v reducesTo_S2x4x128_S_d0_1_2 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S2x4x128 .f32) (main_arg12 : FVec F S2x4x128 .f32) (main_arg13 : FVec F S2x4x128 .f32) (main_arg14 : FVec F S2x4x128x128 .f32) (main_arg15 : FVec F S2x4x128 .f32) (main_arg16 : FVec F S128x128 .f32) (main_arg17 : FVec F S128 .f32) (main_arg18 : FVec F S128x128 .f32) (main_arg19 : FVec F S128 .f32) (main_v48 : IVec S_ 1) (main_v49 : FVec F S2x4x128x128 .f32) (main_v50 : FVec F S2x4x128x128 .f32) : IVec S_ 1 :=
  let main_v51 : IVec S2x4x128x128 1 := cmpf .olt main_v49 main_v50
  let main_c_19 : IVec S_ 1 := constantI S_ 1 1#1
  let main_v52 : IVec S_ 1 := (fun x v => Host.reduce IntOp.andi x v reducesTo_S2x4x128x128_S_d0_1_2_3 h_S_) main_v51 main_c_19
  let main_v53 : IVec S_ 1 := andi main_v48 main_v52
  let main_v54 : FVec F S2x4x128 .f32 := Host.absf main_arg11
  let main_cst_20 : FVec F S_ .f32 := constant S_ .f32 0x7F800000#32
  let main_v55 : FVec F S2x4x128 .f32 := broadcastInDim S2x4x128 ![] bcast_S_S2x4x128 main_cst_20
  let main_v56 : IVec S2x4x128 1 := cmpf .olt main_v54 main_v55
  let main_c_21 : IVec S_ 1 := constantI S_ 1 1#1
  let main_v57 : IVec S_ 1 := (fun x v => Host.reduce IntOp.andi x v reducesTo_S2x4x128_S_d0_1_2 h_S_) main_v56 main_c_21
  let main_v58 : IVec S_ 1 := andi main_v53 main_v57
  let main_v59 : FVec F S2x4x128 .f32 := Host.absf main_arg12
  let main_cst_22 : FVec F S_ .f32 := constant S_ .f32 0x7F800000#32
  let main_v60 : FVec F S2x4x128 .f32 := broadcastInDim S2x4x128 ![] bcast_S_S2x4x128 main_cst_22
  let main_v61 : IVec S2x4x128 1 := cmpf .olt main_v59 main_v60
  let main_c_23 : IVec S_ 1 := constantI S_ 1 1#1
  let main_v62 : IVec S_ 1 := (fun x v => Host.reduce IntOp.andi x v reducesTo_S2x4x128_S_d0_1_2 h_S_) main_v61 main_c_23
  let main_v63 : IVec S_ 1 := andi main_v58 main_v62
  let main_v64 : FVec F S2x4x128 .f32 := Host.absf main_arg13
  let main_cst_24 : FVec F S_ .f32 := constant S_ .f32 0x7F800000#32
  let main_v65 : FVec F S2x4x128 .f32 := broadcastInDim S2x4x128 ![] bcast_S_S2x4x128 main_cst_24
  let main_v66 : IVec S2x4x128 1 := cmpf .olt main_v64 main_v65
  let main_c_25 : IVec S_ 1 := constantI S_ 1 1#1
  let main_v67 : IVec S_ 1 := (fun x v => Host.reduce IntOp.andi x v reducesTo_S2x4x128_S_d0_1_2 h_S_) main_v66 main_c_25
  fn_part4 (F := F) main_arg14 main_arg15 main_arg16 main_arg17 main_arg18 main_arg19 main_v63 main_v67

def fn_part2 {F : FTy → Type} [FloatOps F] (main_arg7 : FVec F S4x128 .f32) (main_arg8 : FVec F S4x128x128 .f32) (main_arg9 : FVec F S4x128 .f32) (main_arg10 : FVec F S2x4x128x128 .f32) (main_arg11 : FVec F S2x4x128 .f32) (main_arg12 : FVec F S2x4x128 .f32) (main_arg13 : FVec F S2x4x128 .f32) (main_arg14 : FVec F S2x4x128x128 .f32) (main_arg15 : FVec F S2x4x128 .f32) (main_arg16 : FVec F S128x128 .f32) (main_arg17 : FVec F S128 .f32) (main_arg18 : FVec F S128x128 .f32) (main_arg19 : FVec F S128 .f32) (main_v33 : IVec S_ 1) : IVec S_ 1 :=
  let main_v34 : FVec F S4x128 .f32 := Host.absf main_arg7
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128x128 .f32 := Host.absf main_arg8
  let main_cst_14 : FVec F S_ .f32 := constant S_ .f32 0x7F800000#32
  let main_v40 : FVec F S4x128x128 .f32 := broadcastInDim S4x128x128 ![] bcast_S_S4x128x128 main_cst_14
  let main_v41 : IVec S4x128x128 1 := cmpf .olt main_v39 main_v40
  let main_c_15 : IVec S_ 1 := constantI S_ 1 1#1
  let main_v42 : IVec S_ 1 := (fun x v => Host.reduce IntOp.andi x v reducesTo_S4x128x128_S_d0_1_2 h_S_) main_v41 main_c_15
  let main_v43 : IVec S_ 1 := andi main_v38 main_v42
  let main_v44 : FVec F S4x128 .f32 := Host.absf main_arg9
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S2x4x128x128 .f32 := Host.absf main_arg10
  let main_cst_18 : FVec F S_ .f32 := constant S_ .f32 0x7F800000#32
  let main_v50 : FVec F S2x4x128x128 .f32 := broadcastInDim S2x4x128x128 ![] bcast_S_S2x4x128x128 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S4x7x128 .f32) (main_arg5 : FVec F S4x128 .f32) (main_arg6 : FVec F S4x128 .f32) (main_arg7 : FVec F S4x128 .f32) (main_arg8 : FVec F S4x128x128 .f32) (main_arg9 : FVec F S4x128 .f32) (main_arg10 : FVec F S2x4x128x128 .f32) (main_arg11 : FVec F S2x4x128 .f32) (main_arg12 : FVec F S2x4x128 .f32) (main_arg13 : FVec F S2x4x128 .f32) (main_arg14 : FVec F S2x4x128x128 .f32) (main_arg15 : FVec F S2x4x128 .f32) (main_arg16 : FVec F S128x128 .f32) (main_arg17 : FVec F S128 .f32) (main_arg18 : FVec F S128x128 .f32) (main_arg19 : FVec F S128 .f32) (main_v13 : IVec S_ 1) (main_v16 : IVec S7 1) : IVec S_ 1 :=
  let main_c_5 : IVec S_ 1 := constantI S_ 1 1#1
  let main_v17 : IVec S_ 1 := (fun x v => Host.reduce IntOp.andi x v reducesTo_S7_S_d0 h_S_) main_v16 main_c_5
  let main_v18 : IVec S_ 1 := andi main_v13 main_v17
  let main_v19 : FVec F S4x7x128 .f32 := Host.absf main_arg4
  let main_cst_6 : FVec F S_ .f32 := constant S_ .f32 0x7F800000#32
  let main_v20 : FVec F S4x7x128 .f32 := broadcastInDim S4x7x128 ![] bcast_S_S4x7x128 main_cst_6
  let main_v21 : IVec S4x7x128 1 := cmpf .olt main_v19 main_v20
  let main_c_7 : IVec S_ 1 := constantI S_ 1 1#1
  let main_v22 : IVec S_ 1 := (fun x v => Host.reduce IntOp.andi x v reducesTo_S4x7x128_S_d0_1_2 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg6
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S80000x7 .f32) (main_arg1 : FVec F S20000x4 .f32) (main_arg2 : FVec F S4x7 .f32) (main_arg3 : FVec F S7 .f32) (main_arg4 : FVec F S4x7x128 .f32) (main_arg5 : FVec F S4x128 .f32) (main_arg6 : FVec F S4x128 .f32) (main_arg7 : FVec F S4x128 .f32) (main_arg8 : FVec F S4x128x128 .f32) (main_arg9 : FVec F S4x128 .f32) (main_arg10 : FVec F S2x4x128x128 .f32) (main_arg11 : FVec F S2x4x128 .f32) (main_arg12 : FVec F S2x4x128 .f32) (main_arg13 : FVec F S2x4x128 .f32) (main_arg14 : FVec F S2x4x128x128 .f32) (main_arg15 : FVec F S2x4x128 .f32) (main_arg16 : FVec F S128x128 .f32) (main_arg17 : FVec F S128 .f32) (main_arg18 : FVec F S128x128 .f32) (main_arg19 : FVec F S128 .f32) (main_arg20 : IVec S2x1000000 32) (main_arg21 : IVec S2x300000 32) (main_arg22 : IVec S2x300000 32) (main_arg23 : IVec S2x100000 32) : IVec S_ 1 :=
  let main_v0 : FVec F S80000x7 .f32 := Host.absf main_arg0
  let main_cst : FVec F S_ .f32 := constant S_ .f32 0x7F800000#32
  let main_v1 : FVec F S80000x7 .f32 := broadcastInDim S80000x7 ![] bcast_S_S80000x7 main_cst
  let main_v2 : IVec S80000x7 1 := cmpf .olt main_v0 main_v1
  let main_c : IVec S_ 1 := constantI S_ 1 1#1
  let main_v3 : IVec S_ 1 := (fun x v => Host.reduce IntOp.andi x v reducesTo_S80000x7_S_d0_1 h_S_) main_v2 main_c
  let main_v4 : FVec F S20000x4 .f32 := Host.absf main_arg1
  let main_cst_0 : FVec F S_ .f32 := constant S_ .f32 0x7F800000#32
  let main_v5 : FVec F S20000x4 .f32 := broadcastInDim S20000x4 ![] bcast_S_S20000x4 main_cst_0
  let main_v6 : IVec S20000x4 1 := cmpf .olt main_v4 main_v5
  let main_c_1 : IVec S_ 1 := constantI S_ 1 1#1
  let main_v7 : IVec S_ 1 := (fun x v => Host.reduce IntOp.andi x v reducesTo_S20000x4_S_d0_1 h_S_) main_v6 main_c_1
  let main_v8 : IVec S_ 1 := andi main_v3 main_v7
  let main_v9 : FVec F S4x7 .f32 := Host.absf main_arg2
  let main_cst_2 : FVec F S_ .f32 := constant S_ .f32 0x7F800000#32
  let main_v10 : FVec F S4x7 .f32 := broadcastInDim S4x7 ![] bcast_S_S4x7 main_cst_2
  let main_v11 : IVec S4x7 1 := cmpf .olt main_v9 main_v10
  let main_c_3 : IVec S_ 1 := constantI S_ 1 1#1
  let main_v12 : IVec S_ 1 := (fun x v => Host.reduce IntOp.andi x v reducesTo_S4x7_S_d0_1 h_S_) main_v11 main_c_3
  let main_v13 : IVec S_ 1 := andi main_v8 main_v12
  let main_v14 : FVec F S7 .f32 := Host.absf main_arg3
  let main_cst_4 : FVec F S_ .f32 := constant S_ .f32 0x7F800000#32
  let main_v15 : FVec F S7 .f32 := broadcastInDim S7 ![] bcast_S_S7 main_cst_4
  let main_v16 : IVec S7 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S80000x7 : Shape := ⟨2, ![80000, 7]⟩
abbrev S20000x4 : Shape := ⟨2, ![20000, 4]⟩
abbrev S4x7 : Shape := ⟨2, ![4, 7]⟩
abbrev S7 : Shape := ⟨1, ![7]⟩
abbrev S4x7x128 : Shape := ⟨3, ![4, 7, 128]⟩
abbrev S4x128 : Shape := ⟨2, ![4, 128]⟩
abbrev S4x128x128 : Shape := ⟨3, ![4, 128, 128]⟩
abbrev S2x4x128x128 : Shape := ⟨4, ![2, 4, 128, 128]⟩
abbrev S2x4x128 : Shape := ⟨3, ![2, 4, 128]⟩
abbrev S128x128 : Shape := ⟨2, ![128, 128]⟩
abbrev S128 : Shape := ⟨1, ![128]⟩
abbrev S2x1000000 : Shape := ⟨2, ![2, 1000000]⟩
abbrev S2x300000 : Shape := ⟨2, ![2, 300000]⟩
abbrev S2x100000 : Shape := ⟨2, ![2, 100000]⟩
abbrev S20000x7 : Shape := ⟨2, ![20000, 7]⟩
abbrev S2000x4 : Shape := ⟨2, ![2000, 4]⟩
abbrev S2000x7 : Shape := ⟨2, ![2000, 7]⟩
abbrev S1x7 : Shape := ⟨2, ![1, 7]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x7 : Shape := ⟨2, ![1000000, 7]⟩
abbrev S1x300000 : Shape := ⟨2, ![1, 300000]⟩
abbrev S300000 : Shape := ⟨1, ![300000]⟩
abbrev S300000x1 : Shape := ⟨2, ![300000, 1]⟩
abbrev S300000x7 : Shape := ⟨2, ![300000, 7]⟩
abbrev S1x100000 : Shape := ⟨2, ![1, 100000]⟩
abbrev S100000 : Shape := ⟨1, ![100000]⟩
abbrev S100000x1 : Shape := ⟨2, ![100000, 1]⟩
abbrev S100000x7 : Shape := ⟨2, ![100000, 7]⟩
abbrev S1x7x128 : Shape := ⟨3, ![1, 7, 128]⟩
abbrev S7x128 : Shape := ⟨2, ![7, 128]⟩
abbrev S1x128 : Shape := ⟨2, ![1, 128]⟩
abbrev S80000x128 : Shape := ⟨2, ![80000, 128]⟩
abbrev S2000x128 : Shape := ⟨2, ![2000, 128]⟩
abbrev S20000x128 : Shape := ⟨2, ![20000, 128]⟩
abbrev S1x128x128 : Shape := ⟨3, ![1, 128, 128]⟩
abbrev S1x4x128x128 : Shape := ⟨4, ![1, 4, 128, 128]⟩
abbrev S1x4x128 : Shape := ⟨3, ![1, 4, 128]⟩
abbrev S1000000x128 : Shape := ⟨2, ![1000000, 128]⟩
abbrev S300000x128 : Shape := ⟨2, ![300000, 128]⟩
abbrev S100000x128 : Shape := ⟨2, ![100000, 128]⟩

abbrev nBuf : Space → Nat
  | .hbm => 753
  | .vmem => 198
  | .smem => 0
  | _ => 0

abbrev hbmTy0_0 (i : Nat) : BufTy := match i % 128 with
  | 0 => ⟨S80000x7, .f32⟩
  | 1 => ⟨S20000x4, .f32⟩
  | 2 => ⟨S4x7, .f32⟩
  | 3 => ⟨S7, .f32⟩
  | 4 => ⟨S4x7x128, .f32⟩
  | 5 => ⟨S4x128, .f32⟩
  | 6 => ⟨S4x128, .f32⟩
  | 7 => ⟨S4x128, .f32⟩
  | 8 => ⟨S4x128x128, .f32⟩
  | 9 => ⟨S4x128, .f32⟩
  | 10 => ⟨S2x4x128x128, .f32⟩
  | 11 => ⟨S2x4x128, .f32⟩
  | 12 => ⟨S2x4x128, .f32⟩
  | 13 => ⟨S2x4x128, .f32⟩
  | 14 => ⟨S2x4x128x128, .f32⟩
  | 15 => ⟨S2x4x128, .f32⟩
  | 16 => ⟨S128x128, .f32⟩
  | 17 => ⟨S128, .f32⟩
  | 18 => ⟨S128x128, .f32⟩
  | 19 => ⟨S128, .f32⟩
  | 20 => ⟨S2x1000000, .i32⟩
  | 21 => ⟨S2x300000, .i32⟩
  | 22 => ⟨S2x300000, .i32⟩
  | 23 => ⟨S2x100000, .i32⟩
  | 24 => ⟨S20000x7, .f32⟩
  | 25 => ⟨S1x1000000, .i32⟩
  | 26 => ⟨S1000000, .i32⟩
  | 27 => ⟨S_, .i32⟩
  | 28 => ⟨S1000000, .i32⟩
  | 29 => ⟨S1000000, .i1⟩
  | 30 => ⟨S_, .i32⟩
  | 31 => ⟨S1000000, .i32⟩
  | 32 => ⟨S1000000, .i32⟩
  | 33 => ⟨S1000000, .i32⟩
  | 34 => ⟨S1000000x1, .i32⟩
  | 35 => ⟨S1000000x7, .f32⟩
  | 36 => ⟨S1x1000000, .i32⟩
  | 37 => ⟨S1000000, .i32⟩
  | 38 => ⟨S_, .f32⟩
  | 39 => ⟨S80000x7, .f32⟩
  | 40 => ⟨S1000000x1, .i32⟩
  | 41 => ⟨S80000x7, .f32⟩
  | 42 => ⟨S1x300000, .i32⟩
  | 43 => ⟨S300000, .i32⟩
  | 44 => ⟨S_, .i32⟩
  | 45 => ⟨S300000, .i32⟩
  | 46 => ⟨S300000, .i1⟩
  | 47 => ⟨S_, .i32⟩
  | 48 => ⟨S300000, .i32⟩
  | 49 => ⟨S300000, .i32⟩
  | 50 => ⟨S300000, .i32⟩
  | 51 => ⟨S300000x1, .i32⟩
  | 52 => ⟨S300000x7, .f32⟩
  | 53 => ⟨S1x300000, .i32⟩
  | 54 => ⟨S300000, .i32⟩
  | 55 => ⟨S_, .f32⟩
  | 56 => ⟨S80000x7, .f32⟩
  | 57 => ⟨S300000x1, .i32⟩
  | 58 => ⟨S80000x7, .f32⟩
  | 59 => ⟨S1x300000, .i32⟩
  | 60 => ⟨S300000, .i32⟩
  | 61 => ⟨S_, .i32⟩
  | 62 => ⟨S300000, .i32⟩
  | 63 => ⟨S300000, .i1⟩
  | 64 => ⟨S_, .i32⟩
  | 65 => ⟨S300000, .i32⟩
  | 66 => ⟨S300000, .i32⟩
  | 67 => ⟨S300000, .i32⟩
  | 68 => ⟨S300000x1, .i32⟩
  | 69 => ⟨S300000x7, .f32⟩
  | 70 => ⟨S1x300000, .i32⟩
  | 71 => ⟨S300000, .i32⟩
  | 72 => ⟨S_, .f32⟩
  | 73 => ⟨S20000x7, .f32⟩
  | 74 => ⟨S300000x1, .i32⟩
  | 75 => ⟨S20000x7, .f32⟩
  | 76 => ⟨S1x100000, .i32⟩
  | 77 => ⟨S100000, .i32⟩
  | 78 => ⟨S_, .i32⟩
  | 79 => ⟨S100000, .i32⟩
  | 80 => ⟨S100000, .i1⟩
  | 81 => ⟨S_, .i32⟩
  | 82 => ⟨S100000, .i32⟩
  | 83 => ⟨S100000, .i32⟩
  | 84 => ⟨S100000, .i32⟩
  | 85 => ⟨S100000x1, .i32⟩
  | 86 => ⟨S100000x7, .f32⟩
  | 87 => ⟨S1x100000, .i32⟩
  | 88 => ⟨S100000, .i32⟩
  | 89 => ⟨S_, .f32⟩
  | 90 => ⟨S20000x7, .f32⟩
  | 91 => ⟨S100000x1, .i32⟩
  | 92 => ⟨S20000x7, .f32⟩
  | 93 => ⟨S1x7x128, .f32⟩
  | 94 => ⟨S7x128, .f32⟩
  | 95 => ⟨S1x128, .f32⟩
  | 96 => ⟨S128, .f32⟩
  | 97 => ⟨S80000x128, .f32⟩
  | 98 => ⟨S1x7x128, .f32⟩
  | 99 => ⟨S7x128, .f32⟩
  | 100 => ⟨S1x128, .f32⟩
  | 101 => ⟨S128, .f32⟩
  | 102 => ⟨S80000x128, .f32⟩
  | 103 => ⟨S1x7x128, .f32⟩
  | 104 => ⟨S7x128, .f32⟩
  | 105 => ⟨S1x128, .f32⟩
  | 106 => ⟨S128, .f32⟩
  | 107 => ⟨S20000x128, .f32⟩
  | 108 => ⟨S1x7x128, .f32⟩
  | 109 => ⟨S7x128, .f32⟩
  | 110 => ⟨S1x128, .f32⟩
  | 111 => ⟨S128, .f32⟩
  | 112 => ⟨S20000x128, .f32⟩
  | 113 => ⟨S_, .f32⟩
  | 114 => ⟨S128, .f32⟩
  | 115 => ⟨S_, .f32⟩
  | 116 => ⟨S128, .f32⟩
  | 117 => ⟨S128, .f32⟩
  | 118 => ⟨S_, .i32⟩
  | 119 => ⟨S_, .f32⟩
  | 120 => ⟨S128, .f32⟩
  | 121 => ⟨S1x128, .f32⟩
  | 122 => ⟨S_, .f32⟩
  | 123 => ⟨S1x128, .f32⟩
  | 124 => ⟨S1x128, .f32⟩
  | 125 => ⟨S80000x128, .f32⟩
  | 126 => ⟨S80000x128, .f32⟩
  | 127 => ⟨S80000x128, .f32⟩
  | _ => ⟨S80000x7, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S128, .f32⟩
  | 5 => ⟨S128, .f32⟩
  | 6 => ⟨S128, .f32⟩
  | 7 => ⟨S_, .f32⟩
  | 8 => ⟨S_, .i1⟩
  | 9 => ⟨S_, .f32⟩
  | 10 => ⟨S_, .f32⟩
  | 11 => ⟨S128, .f32⟩
  | 12 => ⟨S128, .f32⟩
  | 13 => ⟨S_, .f32⟩
  | 14 => ⟨S128, .f32⟩
  | 15 => ⟨S_, .f32⟩
  | 16 => ⟨S128, .f32⟩
  | 17 => ⟨S128, .f32⟩
  | 18 => ⟨S_, .i32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S80000x128, .f32⟩
  | 26 => ⟨S80000x128, .f32⟩
  | 27 => ⟨S80000x128, .f32⟩
  | 28 => ⟨S_, .f32⟩
  | 29 => ⟨S_, .f32⟩
  | 30 => ⟨S_, .f32⟩
  | 31 => ⟨S_, .f32⟩
  | 32 => ⟨S128, .f32⟩
  | 33 => ⟨S128, .f32⟩
  | 34 => ⟨S128, .f32⟩
  | 35 => ⟨S_, .f32⟩
  | 36 => ⟨S_, .i1⟩
  | 37 => ⟨S_, .f32⟩
  | 38 => ⟨S_, .f32⟩
  | 39 => ⟨S128, .f32⟩
  | 40 => ⟨S128, .f32⟩
  | 41 => ⟨S_, .f32⟩
  | 42 => ⟨S128, .f32⟩
  | 43 => ⟨S_, .f32⟩
  | 44 => ⟨S128, .f32⟩
  | 45 => ⟨S128, .f32⟩
  | 46 => ⟨S_, .i32⟩
  | 47 => ⟨S_, .f32⟩
  | 48 => ⟨S128, .f32⟩
  | 49 => ⟨S1x128, .f32⟩
  | 50 => ⟨S_, .f32⟩
  | 51 => ⟨S1x128, .f32⟩
  | 52 => ⟨S1x128, .f32⟩
  | 53 => ⟨S20000x128, .f32⟩
  | 54 => ⟨S20000x128, .f32⟩
  | 55 => ⟨S20000x128, .f32⟩
  | 56 => ⟨S_, .f32⟩
  | 57 => ⟨S_, .f32⟩
  | 58 => ⟨S_, .f32⟩
  | 59 => ⟨S_, .f32⟩
  | 60 => ⟨S128, .f32⟩
  | 61 => ⟨S128, .f32⟩
  | 62 => ⟨S128, .f32⟩
  | 63 => ⟨S_, .f32⟩
  | 64 => ⟨S_, .i1⟩
  | 65 => ⟨S_, .f32⟩
  | 66 => ⟨S_, .f32⟩
  | 67 => ⟨S128, .f32⟩
  | 68 => ⟨S128, .f32⟩
  | 69 => ⟨S_, .f32⟩
  | 70 => ⟨S128, .f32⟩
  | 71 => ⟨S_, .f32⟩
  | 72 => ⟨S128, .f32⟩
  | 73 => ⟨S128, .f32⟩
  | 74 => ⟨S_, .i32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S20000x128, .f32⟩
  | 82 => ⟨S20000x128, .f32⟩
  | 83 => ⟨S20000x128, .f32⟩
  | 84 => ⟨S_, .f32⟩
  | 85 => ⟨S_, .f32⟩
  | 86 => ⟨S_, .f32⟩
  | 87 => ⟨S_, .f32⟩
  | 88 => ⟨S128, .f32⟩
  | 89 => ⟨S128, .f32⟩
  | 90 => ⟨S128, .f32⟩
  | 91 => ⟨S_, .f32⟩
  | 92 => ⟨S_, .i1⟩
  | 93 => ⟨S_, .f32⟩
  | 94 => ⟨S_, .f32⟩
  | 95 => ⟨S128, .f32⟩
  | 96 => ⟨S128, .f32⟩
  | 97 => ⟨S1x128, .f32⟩
  | 98 => ⟨S128, .f32⟩
  | 99 => ⟨S1x128, .f32⟩
  | 100 => ⟨S128, .f32⟩
  | 101 => ⟨S1x128x128, .f32⟩
  | 102 => ⟨S128x128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S128, .f32⟩
  | 109 => ⟨S1x128x128, .f32⟩
  | 110 => ⟨S128x128, .f32⟩
  | 111 => ⟨S1x128, .f32⟩
  | 112 => ⟨S128, .f32⟩
  | 113 => ⟨S80000x128, .f32⟩
  | 114 => ⟨S1x128, .f32⟩
  | 115 => ⟨S128, .f32⟩
  | 116 => ⟨S1x128, .f32⟩
  | 117 => ⟨S128, .f32⟩
  | 118 => ⟨S1x128x128, .f32⟩
  | 119 => ⟨S128x128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S128, .f32⟩
  | 126 => ⟨S1x128x128, .f32⟩
  | 127 => ⟨S128x128, .f32⟩
  | _ => ⟨S80000x7, .f32⟩

abbrev hbmTy0_2 (i : Nat) : BufTy := match i % 128 with
  | 0 => ⟨S1x128, .f32⟩
  | 1 => ⟨S128, .f32⟩
  | 2 => ⟨S20000x128, .f32⟩
  | 3 => ⟨S1x4x128x128, .f32⟩
  | 4 => ⟨S4x128x128, .f32⟩
  | 5 => ⟨S1x4x128, .f32⟩
  | 6 => ⟨S4x128, .f32⟩
  | 7 => ⟨S1x4x128, .f32⟩
  | 8 => ⟨S4x128, .f32⟩
  | 9 => ⟨S1x4x128, .f32⟩
  | 10 => ⟨S4x128, .f32⟩
  | 11 => ⟨S1x4x128x128, .f32⟩
  | 12 => ⟨S4x128x128, .f32⟩
  | 13 => ⟨S1x4x128, .f32⟩
  | 14 => ⟨S4x128, .f32⟩
  | 15 => ⟨S1x1000000, .i32⟩
  | 16 => ⟨S1000000, .i32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x128, .f32⟩
  | 26 => ⟨S1x1000000, .i32⟩
  | 27 => ⟨S1000000, .i32⟩
  | 28 => ⟨S_, .f32⟩
  | 29 => ⟨S80000x128, .f32⟩
  | 30 => ⟨S1000000x1, .i32⟩
  | 31 => ⟨S80000x128, .f32⟩
  | 32 => ⟨S1x300000, .i32⟩
  | 33 => ⟨S300000, .i32⟩
  | 34 => ⟨S_, .i32⟩
  | 35 => ⟨S300000, .i32⟩
  | 36 => ⟨S300000, .i1⟩
  | 37 => ⟨S_, .i32⟩
  | 38 => ⟨S300000, .i32⟩
  | 39 => ⟨S300000, .i32⟩
  | 40 => ⟨S300000, .i32⟩
  | 41 => ⟨S300000x1, .i32⟩
  | 42 => ⟨S300000x128, .f32⟩
  | 43 => ⟨S1x300000, .i32⟩
  | 44 => ⟨S300000, .i32⟩
  | 45 => ⟨S_, .f32⟩
  | 46 => ⟨S80000x128, .f32⟩
  | 47 => ⟨S300000x1, .i32⟩
  | 48 => ⟨S80000x128, .f32⟩
  | 49 => ⟨S1x300000, .i32⟩
  | 50 => ⟨S300000, .i32⟩
  | 51 => ⟨S_, .i32⟩
  | 52 => ⟨S300000, .i32⟩
  | 53 => ⟨S300000, .i1⟩
  | 54 => ⟨S_, .i32⟩
  | 55 => ⟨S300000, .i32⟩
  | 56 => ⟨S300000, .i32⟩
  | 57 => ⟨S300000, .i32⟩
  | 58 => ⟨S300000x1, .i32⟩
  | 59 => ⟨S300000x128, .f32⟩
  | 60 => ⟨S1x300000, .i32⟩
  | 61 => ⟨S300000, .i32⟩
  | 62 => ⟨S_, .f32⟩
  | 63 => ⟨S20000x128, .f32⟩
  | 64 => ⟨S300000x1, .i32⟩
  | 65 => ⟨S20000x128, .f32⟩
  | 66 => ⟨S1x100000, .i32⟩
  | 67 => ⟨S100000, .i32⟩
  | 68 => ⟨S_, .i32⟩
  | 69 => ⟨S100000, .i32⟩
  | 70 => ⟨S100000, .i1⟩
  | 71 => ⟨S_, .i32⟩
  | 72 => ⟨S100000, .i32⟩
  | 73 => ⟨S100000, .i32⟩
  | 74 => ⟨S100000, .i32⟩
  | 75 => ⟨S100000x1, .i32⟩
  | 76 => ⟨S100000x128, .f32⟩
  | 77 => ⟨S1x100000, .i32⟩
  | 78 => ⟨S100000, .i32⟩
  | 79 => ⟨S_, .f32⟩
  | 80 => ⟨S20000x128, .f32⟩
  | 81 => ⟨S100000x1, .i32⟩
  | 82 => ⟨S20000x128, .f32⟩
  | 83 => ⟨S1x128x128, .f32⟩
  | 84 => ⟨S128x128, .f32⟩
  | 85 => ⟨S1x128, .f32⟩
  | 86 => ⟨S128, .f32⟩
  | 87 => ⟨S80000x128, .f32⟩
  | 88 => ⟨S1x128x128, .f32⟩
  | 89 => ⟨S128x128, .f32⟩
  | 90 => ⟨S1x128, .f32⟩
  | 91 => ⟨S128, .f32⟩
  | 92 => ⟨S80000x128, .f32⟩
  | 93 => ⟨S1x128x128, .f32⟩
  | 94 => ⟨S128x128, .f32⟩
  | 95 => ⟨S1x128, .f32⟩
  | 96 => ⟨S128, .f32⟩
  | 97 => ⟨S20000x128, .f32⟩
  | 98 => ⟨S1x128x128, .f32⟩
  | 99 => ⟨S128x128, .f32⟩
  | 100 => ⟨S1x128, .f32⟩
  | 101 => ⟨S128, .f32⟩
  | 102 => ⟨S20000x128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S80000x128, .f32⟩
  | 116 => ⟨S80000x128, .f32⟩
  | 117 => ⟨S80000x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S80000x7, .f32⟩

abbrev hbmTy0_3 (i : Nat) : BufTy := match i % 128 with
  | 0 => ⟨S_, .f32⟩
  | 1 => ⟨S128, .f32⟩
  | 2 => ⟨S128, .f32⟩
  | 3 => ⟨S_, .f32⟩
  | 4 => ⟨S128, .f32⟩
  | 5 => ⟨S_, .f32⟩
  | 6 => ⟨S128, .f32⟩
  | 7 => ⟨S128, .f32⟩
  | 8 => ⟨S_, .i32⟩
  | 9 => ⟨S_, .f32⟩
  | 10 => ⟨S128, .f32⟩
  | 11 => ⟨S1x128, .f32⟩
  | 12 => ⟨S_, .f32⟩
  | 13 => ⟨S1x128, .f32⟩
  | 14 => ⟨S1x128, .f32⟩
  | 15 => ⟨S80000x128, .f32⟩
  | 16 => ⟨S80000x128, .f32⟩
  | 17 => ⟨S80000x128, .f32⟩
  | 18 => ⟨S_, .f32⟩
  | 19 => ⟨S_, .f32⟩
  | 20 => ⟨S_, .f32⟩
  | 21 => ⟨S_, .f32⟩
  | 22 => ⟨S128, .f32⟩
  | 23 => ⟨S128, .f32⟩
  | 24 => ⟨S128, .f32⟩
  | 25 => ⟨S_, .f32⟩
  | 26 => ⟨S_, .i1⟩
  | 27 => ⟨S_, .f32⟩
  | 28 => ⟨S_, .f32⟩
  | 29 => ⟨S128, .f32⟩
  | 30 => ⟨S128, .f32⟩
  | 31 => ⟨S_, .f32⟩
  | 32 => ⟨S128, .f32⟩
  | 33 => ⟨S_, .f32⟩
  | 34 => ⟨S128, .f32⟩
  | 35 => ⟨S128, .f32⟩
  | 36 => ⟨S_, .i32⟩
  | 37 => ⟨S_, .f32⟩
  | 38 => ⟨S128, .f32⟩
  | 39 => ⟨S1x128, .f32⟩
  | 40 => ⟨S_, .f32⟩
  | 41 => ⟨S1x128, .f32⟩
  | 42 => ⟨S1x128, .f32⟩
  | 43 => ⟨S20000x128, .f32⟩
  | 44 => ⟨S20000x128, .f32⟩
  | 45 => ⟨S20000x128, .f32⟩
  | 46 => ⟨S_, .f32⟩
  | 47 => ⟨S_, .f32⟩
  | 48 => ⟨S_, .f32⟩
  | 49 => ⟨S_, .f32⟩
  | 50 => ⟨S128, .f32⟩
  | 51 => ⟨S128, .f32⟩
  | 52 => ⟨S128, .f32⟩
  | 53 => ⟨S_, .f32⟩
  | 54 => ⟨S_, .i1⟩
  | 55 => ⟨S_, .f32⟩
  | 56 => ⟨S_, .f32⟩
  | 57 => ⟨S128, .f32⟩
  | 58 => ⟨S128, .f32⟩
  | 59 => ⟨S_, .f32⟩
  | 60 => ⟨S128, .f32⟩
  | 61 => ⟨S_, .f32⟩
  | 62 => ⟨S128, .f32⟩
  | 63 => ⟨S128, .f32⟩
  | 64 => ⟨S_, .i32⟩
  | 65 => ⟨S_, .f32⟩
  | 66 => ⟨S128, .f32⟩
  | 67 => ⟨S1x128, .f32⟩
  | 68 => ⟨S_, .f32⟩
  | 69 => ⟨S1x128, .f32⟩
  | 70 => ⟨S1x128, .f32⟩
  | 71 => ⟨S20000x128, .f32⟩
  | 72 => ⟨S20000x128, .f32⟩
  | 73 => ⟨S20000x128, .f32⟩
  | 74 => ⟨S_, .f32⟩
  | 75 => ⟨S_, .f32⟩
  | 76 => ⟨S_, .f32⟩
  | 77 => ⟨S_, .f32⟩
  | 78 => ⟨S128, .f32⟩
  | 79 => ⟨S128, .f32⟩
  | 80 => ⟨S128, .f32⟩
  | 81 => ⟨S_, .f32⟩
  | 82 => ⟨S_, .i1⟩
  | 83 => ⟨S_, .f32⟩
  | 84 => ⟨S_, .f32⟩
  | 85 => ⟨S128, .f32⟩
  | 86 => ⟨S128, .f32⟩
  | 87 => ⟨S1x128, .f32⟩
  | 88 => ⟨S128, .f32⟩
  | 89 => ⟨S1x128, .f32⟩
  | 90 => ⟨S128, .f32⟩
  | 91 => ⟨S1x128x128, .f32⟩
  | 92 => ⟨S128x128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S128, .f32⟩
  | 99 => ⟨S1x128x128, .f32⟩
  | 100 => ⟨S128x128, .f32⟩
  | 101 => ⟨S1x128, .f32⟩
  | 102 => ⟨S128, .f32⟩
  | 103 => ⟨S80000x128, .f32⟩
  | 104 => ⟨S1x128, .f32⟩
  | 105 => ⟨S128, .f32⟩
  | 106 => ⟨S1x128, .f32⟩
  | 107 => ⟨S128, .f32⟩
  | 108 => ⟨S1x128x128, .f32⟩
  | 109 => ⟨S128x128, .f32⟩
  | 110 => ⟨S1x128, .f32⟩
  | 111 => ⟨S128, .f32⟩
  | 112 => ⟨S1x128, .f32⟩
  | 113 => ⟨S128, .f32⟩
  | 114 => ⟨S1x128, .f32⟩
  | 115 => ⟨S128, .f32⟩
  | 116 => ⟨S1x128x128, .f32⟩
  | 117 => ⟨S128x128, .f32⟩
  | 118 => ⟨S1x128, .f32⟩
  | 119 => ⟨S128, .f32⟩
  | 120 => ⟨S20000x128, .f32⟩
  | 121 => ⟨S1x4x128x128, .f32⟩
  | 122 => ⟨S4x128x128, .f32⟩
  | 123 => ⟨S1x4x128, .f32⟩
  | 124 => ⟨S4x128, .f32⟩
  | 125 => ⟨S1x4x128, .f32⟩
  | 126 => ⟨S4x128, .f32⟩
  | 127 => ⟨S1x4x128, .f32⟩
  | _ => ⟨S80000x7, .f32⟩

abbrev hbmTy0_4 (i : Nat) : BufTy := match i % 128 with
  | 0 => ⟨S4x128, .f32⟩
  | 1 => ⟨S1x4x128x128, .f32⟩
  | 2 => ⟨S4x128x128, .f32⟩
  | 3 => ⟨S1x4x128, .f32⟩
  | 4 => ⟨S4x128, .f32⟩
  | 5 => ⟨S1x1000000, .i32⟩
  | 6 => ⟨S1000000, .i32⟩
  | 7 => ⟨S_, .i32⟩
  | 8 => ⟨S1000000, .i32⟩
  | 9 => ⟨S1000000, .i1⟩
  | 10 => ⟨S_, .i32⟩
  | 11 => ⟨S1000000, .i32⟩
  | 12 => ⟨S1000000, .i32⟩
  | 13 => ⟨S1000000, .i32⟩
  | 14 => ⟨S1000000x1, .i32⟩
  | 15 => ⟨S1000000x128, .f32⟩
  | 16 => ⟨S1x1000000, .i32⟩
  | 17 => ⟨S1000000, .i32⟩
  | 18 => ⟨S_, .f32⟩
  | 19 => ⟨S80000x128, .f32⟩
  | 20 => ⟨S1000000x1, .i32⟩
  | 21 => ⟨S80000x128, .f32⟩
  | 22 => ⟨S1x300000, .i32⟩
  | 23 => ⟨S300000, .i32⟩
  | 24 => ⟨S_, .i32⟩
  | 25 => ⟨S300000, .i32⟩
  | 26 => ⟨S300000, .i1⟩
  | 27 => ⟨S_, .i32⟩
  | 28 => ⟨S300000, .i32⟩
  | 29 => ⟨S300000, .i32⟩
  | 30 => ⟨S300000, .i32⟩
  | 31 => ⟨S300000x1, .i32⟩
  | 32 => ⟨S300000x128, .f32⟩
  | 33 => ⟨S1x300000, .i32⟩
  | 34 => ⟨S300000, .i32⟩
  | 35 => ⟨S_, .f32⟩
  | 36 => ⟨S80000x128, .f32⟩
  | 37 => ⟨S300000x1, .i32⟩
  | 38 => ⟨S80000x128, .f32⟩
  | 39 => ⟨S1x300000, .i32⟩
  | 40 => ⟨S300000, .i32⟩
  | 41 => ⟨S_, .i32⟩
  | 42 => ⟨S300000, .i32⟩
  | 43 => ⟨S300000, .i1⟩
  | 44 => ⟨S_, .i32⟩
  | 45 => ⟨S300000, .i32⟩
  | 46 => ⟨S300000, .i32⟩
  | 47 => ⟨S300000, .i32⟩
  | 48 => ⟨S300000x1, .i32⟩
  | 49 => ⟨S300000x128, .f32⟩
  | 50 => ⟨S1x300000, .i32⟩
  | 51 => ⟨S300000, .i32⟩
  | 52 => ⟨S_, .f32⟩
  | 53 => ⟨S20000x128, .f32⟩
  | 54 => ⟨S300000x1, .i32⟩
  | 55 => ⟨S20000x128, .f32⟩
  | 56 => ⟨S1x100000, .i32⟩
  | 57 => ⟨S100000, .i32⟩
  | 58 => ⟨S_, .i32⟩
  | 59 => ⟨S100000, .i32⟩
  | 60 => ⟨S100000, .i1⟩
  | 61 => ⟨S_, .i32⟩
  | 62 => ⟨S100000, .i32⟩
  | 63 => ⟨S100000, .i32⟩
  | 64 => ⟨S100000, .i32⟩
  | 65 => ⟨S100000x1, .i32⟩
  | 66 => ⟨S100000x128, .f32⟩
  | 67 => ⟨S1x100000, .i32⟩
  | 68 => ⟨S100000, .i32⟩
  | 69 => ⟨S_, .f32⟩
  | 70 => ⟨S20000x128, .f32⟩
  | 71 => ⟨S100000x1, .i32⟩
  | 72 => ⟨S20000x128, .f32⟩
  | 73 => ⟨S1x128x128, .f32⟩
  | 74 => ⟨S128x128, .f32⟩
  | 75 => ⟨S1x128, .f32⟩
  | 76 => ⟨S128, .f32⟩
  | 77 => ⟨S80000x128, .f32⟩
  | 78 => ⟨S1x128x128, .f32⟩
  | 79 => ⟨S128x128, .f32⟩
  | 80 => ⟨S1x128, .f32⟩
  | 81 => ⟨S128, .f32⟩
  | 82 => ⟨S80000x128, .f32⟩
  | 83 => ⟨S1x128x128, .f32⟩
  | 84 => ⟨S128x128, .f32⟩
  | 85 => ⟨S1x128, .f32⟩
  | 86 => ⟨S128, .f32⟩
  | 87 => ⟨S20000x128, .f32⟩
  | 88 => ⟨S1x128x128, .f32⟩
  | 89 => ⟨S128x128, .f32⟩
  | 90 => ⟨S1x128, .f32⟩
  | 91 => ⟨S128, .f32⟩
  | 92 => ⟨S20000x128, .f32⟩
  | 93 => ⟨S_, .f32⟩
  | 94 => ⟨S128, .f32⟩
  | 95 => ⟨S_, .f32⟩
  | 96 => ⟨S128, .f32⟩
  | 97 => ⟨S128, .f32⟩
  | 98 => ⟨S_, .i32⟩
  | 99 => ⟨S_, .f32⟩
  | 100 => ⟨S128, .f32⟩
  | 101 => ⟨S1x128, .f32⟩
  | 102 => ⟨S_, .f32⟩
  | 103 => ⟨S1x128, .f32⟩
  | 104 => ⟨S1x128, .f32⟩
  | 105 => ⟨S80000x128, .f32⟩
  | 106 => ⟨S80000x128, .f32⟩
  | 107 => ⟨S80000x128, .f32⟩
  | 108 => ⟨S_, .f32⟩
  | 109 => ⟨S_, .f32⟩
  | 110 => ⟨S_, .f32⟩
  | 111 => ⟨S_, .f32⟩
  | 112 => ⟨S128, .f32⟩
  | 113 => ⟨S128, .f32⟩
  | 114 => ⟨S128, .f32⟩
  | 115 => ⟨S_, .f32⟩
  | 116 => ⟨S_, .i1⟩
  | 117 => ⟨S_, .f32⟩
  | 118 => ⟨S_, .f32⟩
  | 119 => ⟨S128, .f32⟩
  | 120 => ⟨S128, .f32⟩
  | 121 => ⟨S_, .f32⟩
  | 122 => ⟨S128, .f32⟩
  | 123 => ⟨S_, .f32⟩
  | 124 => ⟨S128, .f32⟩
  | 125 => ⟨S128, .f32⟩
  | 126 => ⟨S_, .i32⟩
  | 127 => ⟨S_, .f32⟩
  | _ => ⟨S80000x7, .f32⟩

abbrev hbmTy0_5 (i : Nat) : BufTy := match i % 128 with
  | 0 => ⟨S128, .f32⟩
  | 1 => ⟨S1x128, .f32⟩
  | 2 => ⟨S_, .f32⟩
  | 3 => ⟨S1x128, .f32⟩
  | 4 => ⟨S1x128, .f32⟩
  | 5 => ⟨S80000x128, .f32⟩
  | 6 => ⟨S80000x128, .f32⟩
  | 7 => ⟨S80000x128, .f32⟩
  | 8 => ⟨S_, .f32⟩
  | 9 => ⟨S_, .f32⟩
  | 10 => ⟨S_, .f32⟩
  | 11 => ⟨S_, .f32⟩
  | 12 => ⟨S128, .f32⟩
  | 13 => ⟨S128, .f32⟩
  | 14 => ⟨S128, .f32⟩
  | 15 => ⟨S_, .f32⟩
  | 16 => ⟨S_, .i1⟩
  | 17 => ⟨S_, .f32⟩
  | 18 => ⟨S_, .f32⟩
  | 19 => ⟨S128, .f32⟩
  | 20 => ⟨S128, .f32⟩
  | 21 => ⟨S_, .f32⟩
  | 22 => ⟨S128, .f32⟩
  | 23 => ⟨S_, .f32⟩
  | 24 => ⟨S128, .f32⟩
  | 25 => ⟨S128, .f32⟩
  | 26 => ⟨S_, .i32⟩
  | 27 => ⟨S_, .f32⟩
  | 28 => ⟨S128, .f32⟩
  | 29 => ⟨S1x128, .f32⟩
  | 30 => ⟨S_, .f32⟩
  | 31 => ⟨S1x128, .f32⟩
  | 32 => ⟨S1x128, .f32⟩
  | 33 => ⟨S20000x128, .f32⟩
  | 34 => ⟨S20000x128, .f32⟩
  | 35 => ⟨S20000x128, .f32⟩
  | 36 => ⟨S_, .f32⟩
  | 37 => ⟨S_, .f32⟩
  | 38 => ⟨S_, .f32⟩
  | 39 => ⟨S_, .f32⟩
  | 40 => ⟨S128, .f32⟩
  | 41 => ⟨S128, .f32⟩
  | 42 => ⟨S128, .f32⟩
  | 43 => ⟨S_, .f32⟩
  | 44 => ⟨S_, .i1⟩
  | 45 => ⟨S_, .f32⟩
  | 46 => ⟨S_, .f32⟩
  | 47 => ⟨S128, .f32⟩
  | 48 => ⟨S128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S20000x128, .f32⟩
  | 62 => ⟨S20000x128, .f32⟩
  | 63 => ⟨S20000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S128, .f32⟩
  | 79 => ⟨S1x128, .f32⟩
  | 80 => ⟨S128, .f32⟩
  | 81 => ⟨S1x128x128, .f32⟩
  | 82 => ⟨S128x128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128x128, .f32⟩
  | 90 => ⟨S128x128, .f32⟩
  | 91 => ⟨S1x128, .f32⟩
  | 92 => ⟨S128, .f32⟩
  | 93 => ⟨S80000x128, .f32⟩
  | 94 => ⟨S1x128, .f32⟩
  | 95 => ⟨S128, .f32⟩
  | 96 => ⟨S1x128, .f32⟩
  | 97 => ⟨S128, .f32⟩
  | 98 => ⟨S1x128x128, .f32⟩
  | 99 => ⟨S128x128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S128, .f32⟩
  | 106 => ⟨S1x128x128, .f32⟩
  | 107 => ⟨S128x128, .f32⟩
  | 108 => ⟨S1x128, .f32⟩
  | 109 => ⟨S128, .f32⟩
  | 110 => ⟨S20000x128, .f32⟩
  | 111 => ⟨S80000x128, .f32⟩
  | 112 => ⟨S20000x128, .f32⟩
  | _ => ⟨S80000x7, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S80000x7, .f32⟩

abbrev vmemTy0_0 (i : Nat) : BufTy := match i % 128 with
  | 0 => ⟨S2000x4, .f32⟩
  | 1 => ⟨S2000x4, .f32⟩
  | 2 => ⟨S4x7, .f32⟩
  | 3 => ⟨S7, .f32⟩
  | 4 => ⟨S2000x7, .f32⟩
  | 5 => ⟨S2000x7, .f32⟩
  | 6 => ⟨S2000x7, .f32⟩
  | 7 => ⟨S2000x7, .f32⟩
  | 8 => ⟨S7x128, .f32⟩
  | 9 => ⟨S128, .f32⟩
  | 10 => ⟨S2000x128, .f32⟩
  | 11 => ⟨S2000x128, .f32⟩
  | 12 => ⟨S2000x7, .f32⟩
  | 13 => ⟨S2000x7, .f32⟩
  | 14 => ⟨S7x128, .f32⟩
  | 15 => ⟨S128, .f32⟩
  | 16 => ⟨S2000x128, .f32⟩
  | 17 => ⟨S2000x128, .f32⟩
  | 18 => ⟨S2000x7, .f32⟩
  | 19 => ⟨S2000x7, .f32⟩
  | 20 => ⟨S7x128, .f32⟩
  | 21 => ⟨S128, .f32⟩
  | 22 => ⟨S2000x128, .f32⟩
  | 23 => ⟨S2000x128, .f32⟩
  | 24 => ⟨S2000x7, .f32⟩
  | 25 => ⟨S2000x7, .f32⟩
  | 26 => ⟨S7x128, .f32⟩
  | 27 => ⟨S128, .f32⟩
  | 28 => ⟨S2000x128, .f32⟩
  | 29 => ⟨S2000x128, .f32⟩
  | 30 => ⟨S2000x128, .f32⟩
  | 31 => ⟨S2000x128, .f32⟩
  | 32 => ⟨S128, .f32⟩
  | 33 => ⟨S128, .f32⟩
  | 34 => ⟨S128, .f32⟩
  | 35 => ⟨S128, .f32⟩
  | 36 => ⟨S128x128, .f32⟩
  | 37 => ⟨S128, .f32⟩
  | 38 => ⟨S2000x128, .f32⟩
  | 39 => ⟨S2000x128, .f32⟩
  | 40 => ⟨S128, .f32⟩
  | 41 => ⟨S128, .f32⟩
  | 42 => ⟨S128, .f32⟩
  | 43 => ⟨S128, .f32⟩
  | 44 => ⟨S128x128, .f32⟩
  | 45 => ⟨S128, .f32⟩
  | 46 => ⟨S2000x128, .f32⟩
  | 47 => ⟨S2000x128, .f32⟩
  | 48 => ⟨S2000x128, .f32⟩
  | 49 => ⟨S2000x128, .f32⟩
  | 50 => ⟨S128, .f32⟩
  | 51 => ⟨S128, .f32⟩
  | 52 => ⟨S128, .f32⟩
  | 53 => ⟨S128, .f32⟩
  | 54 => ⟨S128x128, .f32⟩
  | 55 => ⟨S128, .f32⟩
  | 56 => ⟨S2000x128, .f32⟩
  | 57 => ⟨S2000x128, .f32⟩
  | 58 => ⟨S128, .f32⟩
  | 59 => ⟨S128, .f32⟩
  | 60 => ⟨S128, .f32⟩
  | 61 => ⟨S128, .f32⟩
  | 62 => ⟨S128x128, .f32⟩
  | 63 => ⟨S128, .f32⟩
  | 64 => ⟨S2000x128, .f32⟩
  | 65 => ⟨S2000x128, .f32⟩
  | 66 => ⟨S2000x128, .f32⟩
  | 67 => ⟨S2000x128, .f32⟩
  | 68 => ⟨S128x128, .f32⟩
  | 69 => ⟨S128, .f32⟩
  | 70 => ⟨S2000x128, .f32⟩
  | 71 => ⟨S2000x128, .f32⟩
  | 72 => ⟨S2000x128, .f32⟩
  | 73 => ⟨S2000x128, .f32⟩
  | 74 => ⟨S128x128, .f32⟩
  | 75 => ⟨S128, .f32⟩
  | 76 => ⟨S2000x128, .f32⟩
  | 77 => ⟨S2000x128, .f32⟩
  | 78 => ⟨S2000x128, .f32⟩
  | 79 => ⟨S2000x128, .f32⟩
  | 80 => ⟨S128x128, .f32⟩
  | 81 => ⟨S128, .f32⟩
  | 82 => ⟨S2000x128, .f32⟩
  | 83 => ⟨S2000x128, .f32⟩
  | 84 => ⟨S2000x128, .f32⟩
  | 85 => ⟨S2000x128, .f32⟩
  | 86 => ⟨S128x128, .f32⟩
  | 87 => ⟨S128, .f32⟩
  | 88 => ⟨S2000x128, .f32⟩
  | 89 => ⟨S2000x128, .f32⟩
  | 90 => ⟨S2000x128, .f32⟩
  | 91 => ⟨S2000x128, .f32⟩
  | 92 => ⟨S128, .f32⟩
  | 93 => ⟨S128, .f32⟩
  | 94 => ⟨S128, .f32⟩
  | 95 => ⟨S128, .f32⟩
  | 96 => ⟨S128x128, .f32⟩
  | 97 => ⟨S128, .f32⟩
  | 98 => ⟨S2000x128, .f32⟩
  | 99 => ⟨S2000x128, .f32⟩
  | 100 => ⟨S128, .f32⟩
  | 101 => ⟨S128, .f32⟩
  | 102 => ⟨S128, .f32⟩
  | 103 => ⟨S128, .f32⟩
  | 104 => ⟨S128x128, .f32⟩
  | 105 => ⟨S128, .f32⟩
  | 106 => ⟨S2000x128, .f32⟩
  | 107 => ⟨S2000x128, .f32⟩
  | 108 => ⟨S2000x128, .f32⟩
  | 109 => ⟨S2000x128, .f32⟩
  | 110 => ⟨S128, .f32⟩
  | 111 => ⟨S128, .f32⟩
  | 112 => ⟨S128, .f32⟩
  | 113 => ⟨S128, .f32⟩
  | 114 => ⟨S128x128, .f32⟩
  | 115 => ⟨S128, .f32⟩
  | 116 => ⟨S2000x128, .f32⟩
  | 117 => ⟨S2000x128, .f32⟩
  | 118 => ⟨S128, .f32⟩
  | 119 => ⟨S128, .f32⟩
  | 120 => ⟨S128, .f32⟩
  | 121 => ⟨S128, .f32⟩
  | 122 => ⟨S128x128, .f32⟩
  | 123 => ⟨S128, .f32⟩
  | 124 => ⟨S2000x128, .f32⟩
  | 125 => ⟨S2000x128, .f32⟩
  | 126 => ⟨S2000x128, .f32⟩
  | 127 => ⟨S2000x128, .f32⟩
  | _ => ⟨S80000x7, .f32⟩

abbrev vmemTy0_1 (i : Nat) : BufTy := match i % 128 with
  | 0 => ⟨S128x128, .f32⟩
  | 1 => ⟨S128, .f32⟩
  | 2 => ⟨S2000x128, .f32⟩
  | 3 => ⟨S2000x128, .f32⟩
  | 4 => ⟨S2000x128, .f32⟩
  | 5 => ⟨S2000x128, .f32⟩
  | 6 => ⟨S128x128, .f32⟩
  | 7 => ⟨S128, .f32⟩
  | 8 => ⟨S2000x128, .f32⟩
  | 9 => ⟨S2000x128, .f32⟩
  | 10 => ⟨S2000x128, .f32⟩
  | 11 => ⟨S2000x128, .f32⟩
  | 12 => ⟨S128x128, .f32⟩
  | 13 => ⟨S128, .f32⟩
  | 14 => ⟨S2000x128, .f32⟩
  | 15 => ⟨S2000x128, .f32⟩
  | 16 => ⟨S2000x128, .f32⟩
  | 17 => ⟨S2000x128, .f32⟩
  | 18 => ⟨S128x128, .f32⟩
  | 19 => ⟨S128, .f32⟩
  | 20 => ⟨S2000x128, .f32⟩
  | 21 => ⟨S2000x128, .f32⟩
  | 22 => ⟨S2000x128, .f32⟩
  | 23 => ⟨S2000x128, .f32⟩
  | 24 => ⟨S128, .f32⟩
  | 25 => ⟨S128, .f32⟩
  | 26 => ⟨S128, .f32⟩
  | 27 => ⟨S128, .f32⟩
  | 28 => ⟨S128x128, .f32⟩
  | 29 => ⟨S128, .f32⟩
  | 30 => ⟨S2000x128, .f32⟩
  | 31 => ⟨S2000x128, .f32⟩
  | 32 => ⟨S128, .f32⟩
  | 33 => ⟨S128, .f32⟩
  | 34 => ⟨S128, .f32⟩
  | 35 => ⟨S128, .f32⟩
  | 36 => ⟨S128x128, .f32⟩
  | 37 => ⟨S128, .f32⟩
  | 38 => ⟨S2000x128, .f32⟩
  | 39 => ⟨S2000x128, .f32⟩
  | 40 => ⟨S2000x128, .f32⟩
  | 41 => ⟨S2000x128, .f32⟩
  | 42 => ⟨S128, .f32⟩
  | 43 => ⟨S128, .f32⟩
  | 44 => ⟨S128, .f32⟩
  | 45 => ⟨S128, .f32⟩
  | 46 => ⟨S128x128, .f32⟩
  | 47 => ⟨S128, .f32⟩
  | 48 => ⟨S2000x128, .f32⟩
  | 49 => ⟨S2000x128, .f32⟩
  | 50 => ⟨S128, .f32⟩
  | 51 => ⟨S128, .f32⟩
  | 52 => ⟨S128, .f32⟩
  | 53 => ⟨S128, .f32⟩
  | 54 => ⟨S128x128, .f32⟩
  | 55 => ⟨S128, .f32⟩
  | 56 => ⟨S2000x128, .f32⟩
  | 57 => ⟨S2000x128, .f32⟩
  | 58 => ⟨S2000x128, .f32⟩
  | 59 => ⟨S2000x128, .f32⟩
  | 60 => ⟨S128x128, .f32⟩
  | 61 => ⟨S128, .f32⟩
  | 62 => ⟨S2000x128, .f32⟩
  | 63 => ⟨S2000x128, .f32⟩
  | 64 => ⟨S2000x128, .f32⟩
  | 65 => ⟨S2000x128, .f32⟩
  | 66 => ⟨S128x128, .f32⟩
  | 67 => ⟨S128, .f32⟩
  | 68 => ⟨S2000x128, .f32⟩
  | 69 => ⟨S2000x128, .f32⟩
  | _ => ⟨S80000x7, .f32⟩

abbrev vmemTy (i : Nat) : BufTy := match i / 128 with
  | 0 => vmemTy0_0 i
  | 1 => vmemTy0_1 i
  | _ => ⟨S80000x7, .f32⟩

abbrev bufTy : (tb : Table) → Fin (tcTables nBuf tb) → BufTy
  | .hbm, ⟨i, _⟩ => hbmTy i
  | .local _ .vmem, ⟨i, _⟩ => vmemTy i
  | _, _ => ⟨S80000x7, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 198 → Bool
  | ⟨i, _⟩ => dmaSemScopedAt i

abbrev sig : RefSig :=
  ofTc nBuf bufTy 0 198 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_c : Ref sig .tc := ⟨.hbm, 27, rfl⟩
abbrev main_v3 : Ref sig .tc := ⟨.hbm, 28, rfl⟩
abbrev main_v4 : Ref sig .tc := ⟨.hbm, 29, rfl⟩
abbrev main_c_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_1 : Ref sig .tc := ⟨.hbm, 44, rfl⟩
abbrev main_v17 : Ref sig .tc := ⟨.hbm, 45, rfl⟩
abbrev main_v18 : Ref sig .tc := ⟨.hbm, 46, rfl⟩
abbrev main_c_2 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_3 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_4 : Ref sig .tc := ⟨.hbm, 61, rfl⟩
abbrev main_v31 : Ref sig .tc := ⟨.hbm, 62, rfl⟩
abbrev main_v32 : Ref sig .tc := ⟨.hbm, 63, rfl⟩
abbrev main_c_5 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_6 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_7 : Ref sig .tc := ⟨.hbm, 78, rfl⟩
abbrev main_v45 : Ref sig .tc := ⟨.hbm, 79, rfl⟩
abbrev main_v46 : Ref sig .tc := ⟨.hbm, 80, rfl⟩
abbrev main_c_8 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_9 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_10 : Ref sig .tc := ⟨.hbm, 113, rfl⟩
abbrev main_v77 : Ref sig .tc := ⟨.hbm, 114, rfl⟩
abbrev main_cst_11 : Ref sig .tc := ⟨.hbm, 115, rfl⟩
abbrev main_v78 : Ref sig .tc := ⟨.hbm, 116, rfl⟩
abbrev main_v79 : Ref sig .tc := ⟨.hbm, 117, rfl⟩
abbrev main_c_12 : Ref sig .tc := ⟨.hbm, 118, rfl⟩
abbrev main_call0_cst : Ref sig .tc := ⟨.hbm, 119, rfl⟩
abbrev main_call0_v0 : Ref sig .tc := ⟨.hbm, 120, rfl⟩
abbrev main_call0_v1 : Ref sig .tc := ⟨.hbm, 121, rfl⟩
abbrev main_call0_cst_0 : Ref sig .tc := ⟨.hbm, 122, rfl⟩
abbrev main_call0_v2 : Ref sig .tc := ⟨.hbm, 123, rfl⟩
abbrev main_call0_v3 : Ref sig .tc := ⟨.hbm, 124, rfl⟩
abbrev main_call0_v4 : Ref sig .tc := ⟨.hbm, 125, rfl⟩
abbrev main_call0_v5 : Ref sig .tc := ⟨.hbm, 126, rfl⟩
abbrev main_call0_v6 : Ref sig .tc := ⟨.hbm, 127, rfl⟩
abbrev main_call0_v7 : Ref sig .tc := ⟨.hbm, 128, rfl⟩
abbrev main_call0_cst_1 : Ref sig .tc := ⟨.hbm, 129, rfl⟩
abbrev main_call0_v8 : Ref sig .tc := ⟨.hbm, 130, rfl⟩
abbrev main_call0_cst_2 : Ref sig .tc := ⟨.hbm, 131, rfl⟩
abbrev main_call0_v9 : Ref sig .tc := ⟨.hbm, 132, rfl⟩
abbrev main_call0_v10 : Ref sig .tc := ⟨.hbm, 133, rfl⟩
abbrev main_call0_v11 : Ref sig .tc := ⟨.hbm, 134, rfl⟩
abbrev main_call0_cst_3 : Ref sig .tc := ⟨.hbm, 135, rfl⟩
abbrev main_call0_v12 : Ref sig .tc := ⟨.hbm, 136, rfl⟩
abbrev main_call0_cst_4 : Ref sig .tc := ⟨.hbm, 137, rfl⟩
abbrev main_call0_call0_v0 : Ref sig .tc := ⟨.hbm, 138, rfl⟩
abbrev main_call0_call0_v1 : Ref sig .tc := ⟨.hbm, 139, rfl⟩
abbrev main_v80 : Ref sig .tc := ⟨.hbm, 140, rfl⟩
abbrev main_cst_13 : Ref sig .tc := ⟨.hbm, 141, rfl⟩
abbrev main_v81 : Ref sig .tc := ⟨.hbm, 142, rfl⟩
abbrev main_cst_14 : Ref sig .tc := ⟨.hbm, 143, rfl⟩
abbrev main_v82 : Ref sig .tc := ⟨.hbm, 144, rfl⟩
abbrev main_v83 : Ref sig .tc := ⟨.hbm, 145, rfl⟩
abbrev main_c_15 : Ref sig .tc := ⟨.hbm, 146, rfl⟩
abbrev main_call1_cst : Ref sig .tc := ⟨.hbm, 147, rfl⟩
abbrev main_call1_v0 : Ref sig .tc := ⟨.hbm, 148, rfl⟩
abbrev main_call1_v1 : Ref sig .tc := ⟨.hbm, 149, rfl⟩
abbrev main_call1_cst_0 : Ref sig .tc := ⟨.hbm, 150, rfl⟩
abbrev main_call1_v2 : Ref sig .tc := ⟨.hbm, 151, rfl⟩
abbrev main_call1_v3 : Ref sig .tc := ⟨.hbm, 152, rfl⟩
abbrev main_call1_v4 : Ref sig .tc := ⟨.hbm, 153, rfl⟩
abbrev main_call1_v5 : Ref sig .tc := ⟨.hbm, 154, rfl⟩
abbrev main_call1_v6 : Ref sig .tc := ⟨.hbm, 155, rfl⟩
abbrev main_call1_v7 : Ref sig .tc := ⟨.hbm, 156, rfl⟩
abbrev main_call1_cst_1 : Ref sig .tc := ⟨.hbm, 157, rfl⟩
abbrev main_call1_v8 : Ref sig .tc := ⟨.hbm, 158, rfl⟩
abbrev main_call1_cst_2 : Ref sig .tc := ⟨.hbm, 159, rfl⟩
abbrev main_call1_v9 : Ref sig .tc := ⟨.hbm, 160, rfl⟩
abbrev main_call1_v10 : Ref sig .tc := ⟨.hbm, 161, rfl⟩
abbrev main_call1_v11 : Ref sig .tc := ⟨.hbm, 162, rfl⟩
abbrev main_call1_cst_3 : Ref sig .tc := ⟨.hbm, 163, rfl⟩
abbrev main_call1_v12 : Ref sig .tc := ⟨.hbm, 164, rfl⟩
abbrev main_call1_cst_4 : Ref sig .tc := ⟨.hbm, 165, rfl⟩
abbrev main_call1_call0_v0 : Ref sig .tc := ⟨.hbm, 166, rfl⟩
abbrev main_call1_call0_v1 : Ref sig .tc := ⟨.hbm, 167, rfl⟩
abbrev main_v84 : Ref sig .tc := ⟨.hbm, 168, rfl⟩
abbrev main_cst_16 : Ref sig .tc := ⟨.hbm, 169, rfl⟩
abbrev main_v85 : Ref sig .tc := ⟨.hbm, 170, rfl⟩
abbrev main_cst_17 : Ref sig .tc := ⟨.hbm, 171, rfl⟩
abbrev main_v86 : Ref sig .tc := ⟨.hbm, 172, rfl⟩
abbrev main_v87 : Ref sig .tc := ⟨.hbm, 173, rfl⟩
abbrev main_c_18 : Ref sig .tc := ⟨.hbm, 174, rfl⟩
abbrev main_call2_cst : Ref sig .tc := ⟨.hbm, 175, rfl⟩
abbrev main_call2_v0 : Ref sig .tc := ⟨.hbm, 176, rfl⟩
abbrev main_call2_v1 : Ref sig .tc := ⟨.hbm, 177, rfl⟩
abbrev main_call2_cst_0 : Ref sig .tc := ⟨.hbm, 178, rfl⟩
abbrev main_call2_v2 : Ref sig .tc := ⟨.hbm, 179, rfl⟩
abbrev main_call2_v3 : Ref sig .tc := ⟨.hbm, 180, rfl⟩
abbrev main_call2_v4 : Ref sig .tc := ⟨.hbm, 181, rfl⟩
abbrev main_call2_v5 : Ref sig .tc := ⟨.hbm, 182, rfl⟩
abbrev main_call2_v6 : Ref sig .tc := ⟨.hbm, 183, rfl⟩
abbrev main_call2_v7 : Ref sig .tc := ⟨.hbm, 184, rfl⟩
abbrev main_call2_cst_1 : Ref sig .tc := ⟨.hbm, 185, rfl⟩
abbrev main_call2_v8 : Ref sig .tc := ⟨.hbm, 186, rfl⟩
abbrev main_call2_cst_2 : Ref sig .tc := ⟨.hbm, 187, rfl⟩
abbrev main_call2_v9 : Ref sig .tc := ⟨.hbm, 188, rfl⟩
abbrev main_call2_v10 : Ref sig .tc := ⟨.hbm, 189, rfl⟩
abbrev main_call2_v11 : Ref sig .tc := ⟨.hbm, 190, rfl⟩
abbrev main_call2_cst_3 : Ref sig .tc := ⟨.hbm, 191, rfl⟩
abbrev main_call2_v12 : Ref sig .tc := ⟨.hbm, 192, rfl⟩
abbrev main_call2_cst_4 : Ref sig .tc := ⟨.hbm, 193, rfl⟩
abbrev main_call2_call0_v0 : Ref sig .tc := ⟨.hbm, 194, rfl⟩
abbrev main_call2_call0_v1 : Ref sig .tc := ⟨.hbm, 195, rfl⟩
abbrev main_v88 : Ref sig .tc := ⟨.hbm, 196, rfl⟩
abbrev main_cst_19 : Ref sig .tc := ⟨.hbm, 197, rfl⟩
abbrev main_v89 : Ref sig .tc := ⟨.hbm, 198, rfl⟩
abbrev main_cst_20 : Ref sig .tc := ⟨.hbm, 199, rfl⟩
abbrev main_v90 : Ref sig .tc := ⟨.hbm, 200, rfl⟩
abbrev main_v91 : Ref sig .tc := ⟨.hbm, 201, rfl⟩
abbrev main_c_21 : Ref sig .tc := ⟨.hbm, 202, rfl⟩
abbrev main_call3_cst : Ref sig .tc := ⟨.hbm, 203, rfl⟩
abbrev main_call3_v0 : Ref sig .tc := ⟨.hbm, 204, rfl⟩
abbrev main_call3_v1 : Ref sig .tc := ⟨.hbm, 205, rfl⟩
abbrev main_call3_cst_0 : Ref sig .tc := ⟨.hbm, 206, rfl⟩
abbrev main_call3_v2 : Ref sig .tc := ⟨.hbm, 207, rfl⟩
abbrev main_call3_v3 : Ref sig .tc := ⟨.hbm, 208, rfl⟩
abbrev main_call3_v4 : Ref sig .tc := ⟨.hbm, 209, rfl⟩
abbrev main_call3_v5 : Ref sig .tc := ⟨.hbm, 210, rfl⟩
abbrev main_call3_v6 : Ref sig .tc := ⟨.hbm, 211, rfl⟩
abbrev main_call3_v7 : Ref sig .tc := ⟨.hbm, 212, rfl⟩
abbrev main_call3_cst_1 : Ref sig .tc := ⟨.hbm, 213, rfl⟩
abbrev main_call3_v8 : Ref sig .tc := ⟨.hbm, 214, rfl⟩
abbrev main_call3_cst_2 : Ref sig .tc := ⟨.hbm, 215, rfl⟩
abbrev main_call3_v9 : Ref sig .tc := ⟨.hbm, 216, rfl⟩
abbrev main_call3_v10 : Ref sig .tc := ⟨.hbm, 217, rfl⟩
abbrev main_call3_v11 : Ref sig .tc := ⟨.hbm, 218, rfl⟩
abbrev main_call3_cst_3 : Ref sig .tc := ⟨.hbm, 219, rfl⟩
abbrev main_call3_v12 : Ref sig .tc := ⟨.hbm, 220, rfl⟩
abbrev main_call3_cst_4 : Ref sig .tc := ⟨.hbm, 221, rfl⟩
abbrev main_call3_call0_v0 : Ref sig .tc := ⟨.hbm, 222, rfl⟩
abbrev main_call3_call0_v1 : Ref sig .tc := ⟨.hbm, 223, rfl⟩
abbrev main_v92 : Ref sig .tc := ⟨.hbm, 224, rfl⟩
abbrev main_v93 : Ref sig .tc := ⟨.hbm, 225, rfl⟩
abbrev main_v94 : Ref sig .tc := ⟨.hbm, 226, rfl⟩
abbrev main_v95 : Ref sig .tc := ⟨.hbm, 227, rfl⟩
abbrev main_v96 : Ref sig .tc := ⟨.hbm, 228, rfl⟩
abbrev main_v97 : Ref sig .tc := ⟨.hbm, 229, rfl⟩
abbrev main_v98 : Ref sig .tc := ⟨.hbm, 230, rfl⟩
abbrev main_v99 : Ref sig .tc := ⟨.hbm, 231, rfl⟩
abbrev main_v100 : Ref sig .tc := ⟨.hbm, 232, rfl⟩
abbrev main_v101 : Ref sig .tc := ⟨.hbm, 233, rfl⟩
abbrev main_v102 : Ref sig .tc := ⟨.hbm, 234, rfl⟩
abbrev main_v103 : Ref sig .tc := ⟨.hbm, 235, rfl⟩
abbrev main_v104 : Ref sig .tc := ⟨.hbm, 236, rfl⟩
abbrev main_v105 : Ref sig .tc := ⟨.hbm, 237, rfl⟩
abbrev main_v106 : Ref sig .tc := ⟨.hbm, 238, rfl⟩
abbrev main_v107 : Ref sig .tc := ⟨.hbm, 239, rfl⟩
abbrev main_v108 : Ref sig .tc := ⟨.hbm, 240, rfl⟩
abbrev main_v109 : Ref sig .tc := ⟨.hbm, 241, rfl⟩
abbrev main_v110 : Ref sig .tc := ⟨.hbm, 242, rfl⟩
abbrev main_v111 : Ref sig .tc := ⟨.hbm, 243, rfl⟩
abbrev main_v112 : Ref sig .tc := ⟨.hbm, 244, rfl⟩
abbrev main_v113 : Ref sig .tc := ⟨.hbm, 245, rfl⟩
abbrev main_v114 : Ref sig .tc := ⟨.hbm, 246, rfl⟩
abbrev main_v115 : Ref sig .tc := ⟨.hbm, 247, rfl⟩
abbrev main_v116 : Ref sig .tc := ⟨.hbm, 248, rfl⟩
abbrev main_v117 : Ref sig .tc := ⟨.hbm, 249, rfl⟩
abbrev main_v118 : Ref sig .tc := ⟨.hbm, 250, rfl⟩
abbrev main_v119 : Ref sig .tc := ⟨.hbm, 251, rfl⟩
abbrev main_v120 : Ref sig .tc := ⟨.hbm, 252, rfl⟩
abbrev main_v121 : Ref sig .tc := ⟨.hbm, 253, rfl⟩
abbrev main_v122 : Ref sig .tc := ⟨.hbm, 254, rfl⟩
abbrev main_v123 : Ref sig .tc := ⟨.hbm, 255, rfl⟩
abbrev main_v124 : Ref sig .tc := ⟨.hbm, 256, rfl⟩
abbrev main_v125 : Ref sig .tc := ⟨.hbm, 257, rfl⟩
abbrev main_v126 : Ref sig .tc := ⟨.hbm, 258, rfl⟩
abbrev main_v127 : Ref sig .tc := ⟨.hbm, 259, rfl⟩
abbrev main_v128 : Ref sig .tc := ⟨.hbm, 260, rfl⟩
abbrev main_v129 : Ref sig .tc := ⟨.hbm, 261, rfl⟩
abbrev main_v130 : Ref sig .tc := ⟨.hbm, 262, rfl⟩
abbrev main_v131 : Ref sig .tc := ⟨.hbm, 263, rfl⟩
abbrev main_v132 : Ref sig .tc := ⟨.hbm, 264, rfl⟩
abbrev main_v133 : Ref sig .tc := ⟨.hbm, 265, rfl⟩
abbrev main_v134 : Ref sig .tc := ⟨.hbm, 266, rfl⟩
abbrev main_v135 : Ref sig .tc := ⟨.hbm, 267, rfl⟩
abbrev main_v136 : Ref sig .tc := ⟨.hbm, 268, rfl⟩
abbrev main_v137 : Ref sig .tc := ⟨.hbm, 269, rfl⟩
abbrev main_v138 : Ref sig .tc := ⟨.hbm, 270, rfl⟩
abbrev main_v139 : Ref sig .tc := ⟨.hbm, 271, rfl⟩
abbrev main_v140 : Ref sig .tc := ⟨.hbm, 272, rfl⟩
abbrev main_c_22 : Ref sig .tc := ⟨.hbm, 273, rfl⟩
abbrev main_v141 : Ref sig .tc := ⟨.hbm, 274, rfl⟩
abbrev main_v142 : Ref sig .tc := ⟨.hbm, 275, rfl⟩
abbrev main_c_23 : Ref sig .tc := ⟨.hbm, 276, rfl⟩
abbrev main_v143 : Ref sig .tc := ⟨.hbm, 277, rfl⟩
abbrev main_v144 : Ref sig .tc := ⟨.hbm, 278, rfl⟩
abbrev main_v145 : Ref sig .tc := ⟨.hbm, 279, rfl⟩
abbrev main_v146 : Ref sig .tc := ⟨.hbm, 280, rfl⟩
abbrev main_v147 : Ref sig .tc := ⟨.hbm, 281, rfl⟩
abbrev main_v148 : Ref sig .tc := ⟨.hbm, 282, rfl⟩
abbrev main_v149 : Ref sig .tc := ⟨.hbm, 283, rfl⟩
abbrev main_cst_24 : Ref sig .tc := ⟨.hbm, 284, rfl⟩
abbrev main_v150 : Ref sig .tc := ⟨.hbm, 285, rfl⟩
abbrev main_v151 : Ref sig .tc := ⟨.hbm, 286, rfl⟩
abbrev main_v152 : Ref sig .tc := ⟨.hbm, 287, rfl⟩
abbrev main_v153 : Ref sig .tc := ⟨.hbm, 288, rfl⟩
abbrev main_v154 : Ref sig .tc := ⟨.hbm, 289, rfl⟩
abbrev main_c_25 : Ref sig .tc := ⟨.hbm, 290, rfl⟩
abbrev main_v155 : Ref sig .tc := ⟨.hbm, 291, rfl⟩
abbrev main_v156 : Ref sig .tc := ⟨.hbm, 292, rfl⟩
abbrev main_c_26 : Ref sig .tc := ⟨.hbm, 293, rfl⟩
abbrev main_v157 : Ref sig .tc := ⟨.hbm, 294, rfl⟩
abbrev main_v158 : Ref sig .tc := ⟨.hbm, 295, rfl⟩
abbrev main_v159 : Ref sig .tc := ⟨.hbm, 296, rfl⟩
abbrev main_v160 : Ref sig .tc := ⟨.hbm, 297, rfl⟩
abbrev main_v161 : Ref sig .tc := ⟨.hbm, 298, rfl⟩
abbrev main_v162 : Ref sig .tc := ⟨.hbm, 299, rfl⟩
abbrev main_v163 : Ref sig .tc := ⟨.hbm, 300, rfl⟩
abbrev main_cst_27 : Ref sig .tc := ⟨.hbm, 301, rfl⟩
abbrev main_v164 : Ref sig .tc := ⟨.hbm, 302, rfl⟩
abbrev main_v165 : Ref sig .tc := ⟨.hbm, 303, rfl⟩
abbrev main_v166 : Ref sig .tc := ⟨.hbm, 304, rfl⟩
abbrev main_v167 : Ref sig .tc := ⟨.hbm, 305, rfl⟩
abbrev main_v168 : Ref sig .tc := ⟨.hbm, 306, rfl⟩
abbrev main_c_28 : Ref sig .tc := ⟨.hbm, 307, rfl⟩
abbrev main_v169 : Ref sig .tc := ⟨.hbm, 308, rfl⟩
abbrev main_v170 : Ref sig .tc := ⟨.hbm, 309, rfl⟩
abbrev main_c_29 : Ref sig .tc := ⟨.hbm, 310, rfl⟩
abbrev main_v171 : Ref sig .tc := ⟨.hbm, 311, rfl⟩
abbrev main_v172 : Ref sig .tc := ⟨.hbm, 312, rfl⟩
abbrev main_v173 : Ref sig .tc := ⟨.hbm, 313, rfl⟩
abbrev main_v174 : Ref sig .tc := ⟨.hbm, 314, rfl⟩
abbrev main_v175 : Ref sig .tc := ⟨.hbm, 315, rfl⟩
abbrev main_v176 : Ref sig .tc := ⟨.hbm, 316, rfl⟩
abbrev main_v177 : Ref sig .tc := ⟨.hbm, 317, rfl⟩
abbrev main_cst_30 : Ref sig .tc := ⟨.hbm, 318, rfl⟩
abbrev main_v178 : Ref sig .tc := ⟨.hbm, 319, rfl⟩
abbrev main_v179 : Ref sig .tc := ⟨.hbm, 320, rfl⟩
abbrev main_v180 : Ref sig .tc := ⟨.hbm, 321, rfl⟩
abbrev main_v181 : Ref sig .tc := ⟨.hbm, 322, rfl⟩
abbrev main_v182 : Ref sig .tc := ⟨.hbm, 323, rfl⟩
abbrev main_c_31 : Ref sig .tc := ⟨.hbm, 324, rfl⟩
abbrev main_v183 : Ref sig .tc := ⟨.hbm, 325, rfl⟩
abbrev main_v184 : Ref sig .tc := ⟨.hbm, 326, rfl⟩
abbrev main_c_32 : Ref sig .tc := ⟨.hbm, 327, rfl⟩
abbrev main_v185 : Ref sig .tc := ⟨.hbm, 328, rfl⟩
abbrev main_v186 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_v190 : Ref sig .tc := ⟨.hbm, 333, rfl⟩
abbrev main_v191 : Ref sig .tc := ⟨.hbm, 334, rfl⟩
abbrev main_cst_33 : Ref sig .tc := ⟨.hbm, 335, rfl⟩
abbrev main_v192 : Ref sig .tc := ⟨.hbm, 336, rfl⟩
abbrev main_v193 : Ref sig .tc := ⟨.hbm, 337, rfl⟩
abbrev main_v194 : Ref sig .tc := ⟨.hbm, 338, rfl⟩
abbrev main_v195 : Ref sig .tc := ⟨.hbm, 339, rfl⟩
abbrev main_v196 : Ref sig .tc := ⟨.hbm, 340, rfl⟩
abbrev main_v197 : Ref sig .tc := ⟨.hbm, 341, rfl⟩
abbrev main_v198 : Ref sig .tc := ⟨.hbm, 342, rfl⟩
abbrev main_v199 : Ref sig .tc := ⟨.hbm, 343, rfl⟩
abbrev main_v200 : Ref sig .tc := ⟨.hbm, 344, rfl⟩
abbrev main_v201 : Ref sig .tc := ⟨.hbm, 345, rfl⟩
abbrev main_v202 : Ref sig .tc := ⟨.hbm, 346, rfl⟩
abbrev main_v203 : Ref sig .tc := ⟨.hbm, 347, rfl⟩
abbrev main_v204 : Ref sig .tc := ⟨.hbm, 348, rfl⟩
abbrev main_v205 : Ref sig .tc := ⟨.hbm, 349, rfl⟩
abbrev main_v206 : Ref sig .tc := ⟨.hbm, 350, rfl⟩
abbrev main_v207 : Ref sig .tc := ⟨.hbm, 351, rfl⟩
abbrev main_v208 : Ref sig .tc := ⟨.hbm, 352, rfl⟩
abbrev main_v209 : Ref sig .tc := ⟨.hbm, 353, rfl⟩
abbrev main_v210 : Ref sig .tc := ⟨.hbm, 354, rfl⟩
abbrev main_v211 : Ref sig .tc := ⟨.hbm, 355, rfl⟩
abbrev main_v212 : Ref sig .tc := ⟨.hbm, 356, rfl⟩
abbrev main_v213 : Ref sig .tc := ⟨.hbm, 357, rfl⟩
abbrev main_v214 : Ref sig .tc := ⟨.hbm, 358, rfl⟩
abbrev main_cst_34 : Ref sig .tc := ⟨.hbm, 359, rfl⟩
abbrev main_v215 : Ref sig .tc := ⟨.hbm, 360, rfl⟩
abbrev main_cst_35 : Ref sig .tc := ⟨.hbm, 361, rfl⟩
abbrev main_v216 : Ref sig .tc := ⟨.hbm, 362, rfl⟩
abbrev main_v217 : Ref sig .tc := ⟨.hbm, 363, rfl⟩
abbrev main_c_36 : Ref sig .tc := ⟨.hbm, 364, rfl⟩
abbrev main_call4_cst : Ref sig .tc := ⟨.hbm, 365, rfl⟩
abbrev main_call4_v0 : Ref sig .tc := ⟨.hbm, 366, rfl⟩
abbrev main_call4_v1 : Ref sig .tc := ⟨.hbm, 367, rfl⟩
abbrev main_call4_cst_0 : Ref sig .tc := ⟨.hbm, 368, rfl⟩
abbrev main_call4_v2 : Ref sig .tc := ⟨.hbm, 369, rfl⟩
abbrev main_call4_v3 : Ref sig .tc := ⟨.hbm, 370, rfl⟩
abbrev main_call4_v4 : Ref sig .tc := ⟨.hbm, 371, rfl⟩
abbrev main_call4_v5 : Ref sig .tc := ⟨.hbm, 372, rfl⟩
abbrev main_call4_v6 : Ref sig .tc := ⟨.hbm, 373, rfl⟩
abbrev main_call4_v7 : Ref sig .tc := ⟨.hbm, 374, rfl⟩
abbrev main_call4_cst_1 : Ref sig .tc := ⟨.hbm, 375, rfl⟩
abbrev main_call4_v8 : Ref sig .tc := ⟨.hbm, 376, rfl⟩
abbrev main_call4_cst_2 : Ref sig .tc := ⟨.hbm, 377, rfl⟩
abbrev main_call4_v9 : Ref sig .tc := ⟨.hbm, 378, rfl⟩
abbrev main_call4_v10 : Ref sig .tc := ⟨.hbm, 379, rfl⟩
abbrev main_call4_v11 : Ref sig .tc := ⟨.hbm, 380, rfl⟩
abbrev main_call4_cst_3 : Ref sig .tc := ⟨.hbm, 381, rfl⟩
abbrev main_call4_v12 : Ref sig .tc := ⟨.hbm, 382, rfl⟩
abbrev main_call4_cst_4 : Ref sig .tc := ⟨.hbm, 383, rfl⟩
abbrev main_call4_call0_v0 : Ref sig .tc := ⟨.hbm, 384, rfl⟩
abbrev main_call4_call0_v1 : Ref sig .tc := ⟨.hbm, 385, rfl⟩
abbrev main_v218 : Ref sig .tc := ⟨.hbm, 386, rfl⟩
abbrev main_cst_37 : Ref sig .tc := ⟨.hbm, 387, rfl⟩
abbrev main_v219 : Ref sig .tc := ⟨.hbm, 388, rfl⟩
abbrev main_cst_38 : Ref sig .tc := ⟨.hbm, 389, rfl⟩
abbrev main_v220 : Ref sig .tc := ⟨.hbm, 390, rfl⟩
abbrev main_v221 : Ref sig .tc := ⟨.hbm, 391, rfl⟩
abbrev main_c_39 : Ref sig .tc := ⟨.hbm, 392, rfl⟩
abbrev main_call5_cst : Ref sig .tc := ⟨.hbm, 393, rfl⟩
abbrev main_call5_v0 : Ref sig .tc := ⟨.hbm, 394, rfl⟩
abbrev main_call5_v1 : Ref sig .tc := ⟨.hbm, 395, rfl⟩
abbrev main_call5_cst_0 : Ref sig .tc := ⟨.hbm, 396, rfl⟩
abbrev main_call5_v2 : Ref sig .tc := ⟨.hbm, 397, rfl⟩
abbrev main_call5_v3 : Ref sig .tc := ⟨.hbm, 398, rfl⟩
abbrev main_call5_v4 : Ref sig .tc := ⟨.hbm, 399, rfl⟩
abbrev main_call5_v5 : Ref sig .tc := ⟨.hbm, 400, rfl⟩
abbrev main_call5_v6 : Ref sig .tc := ⟨.hbm, 401, rfl⟩
abbrev main_call5_v7 : Ref sig .tc := ⟨.hbm, 402, rfl⟩
abbrev main_call5_cst_1 : Ref sig .tc := ⟨.hbm, 403, rfl⟩
abbrev main_call5_v8 : Ref sig .tc := ⟨.hbm, 404, rfl⟩
abbrev main_call5_cst_2 : Ref sig .tc := ⟨.hbm, 405, rfl⟩
abbrev main_call5_v9 : Ref sig .tc := ⟨.hbm, 406, rfl⟩
abbrev main_call5_v10 : Ref sig .tc := ⟨.hbm, 407, rfl⟩
abbrev main_call5_v11 : Ref sig .tc := ⟨.hbm, 408, rfl⟩
abbrev main_call5_cst_3 : Ref sig .tc := ⟨.hbm, 409, rfl⟩
abbrev main_call5_v12 : Ref sig .tc := ⟨.hbm, 410, rfl⟩
abbrev main_call5_cst_4 : Ref sig .tc := ⟨.hbm, 411, rfl⟩
abbrev main_call5_call0_v0 : Ref sig .tc := ⟨.hbm, 412, rfl⟩
abbrev main_call5_call0_v1 : Ref sig .tc := ⟨.hbm, 413, rfl⟩
abbrev main_v222 : Ref sig .tc := ⟨.hbm, 414, rfl⟩
abbrev main_cst_40 : Ref sig .tc := ⟨.hbm, 415, rfl⟩
abbrev main_v223 : Ref sig .tc := ⟨.hbm, 416, rfl⟩
abbrev main_cst_41 : Ref sig .tc := ⟨.hbm, 417, rfl⟩
abbrev main_v224 : Ref sig .tc := ⟨.hbm, 418, rfl⟩
abbrev main_v225 : Ref sig .tc := ⟨.hbm, 419, rfl⟩
abbrev main_c_42 : Ref sig .tc := ⟨.hbm, 420, rfl⟩
abbrev main_call6_cst : Ref sig .tc := ⟨.hbm, 421, rfl⟩
abbrev main_call6_v0 : Ref sig .tc := ⟨.hbm, 422, rfl⟩
abbrev main_call6_v1 : Ref sig .tc := ⟨.hbm, 423, rfl⟩
abbrev main_call6_cst_0 : Ref sig .tc := ⟨.hbm, 424, rfl⟩
abbrev main_call6_v2 : Ref sig .tc := ⟨.hbm, 425, rfl⟩
abbrev main_call6_v3 : Ref sig .tc := ⟨.hbm, 426, rfl⟩
abbrev main_call6_v4 : Ref sig .tc := ⟨.hbm, 427, rfl⟩
abbrev main_call6_v5 : Ref sig .tc := ⟨.hbm, 428, rfl⟩
abbrev main_call6_v6 : Ref sig .tc := ⟨.hbm, 429, rfl⟩
abbrev main_call6_v7 : Ref sig .tc := ⟨.hbm, 430, rfl⟩
abbrev main_call6_cst_1 : Ref sig .tc := ⟨.hbm, 431, rfl⟩
abbrev main_call6_v8 : Ref sig .tc := ⟨.hbm, 432, rfl⟩
abbrev main_call6_cst_2 : Ref sig .tc := ⟨.hbm, 433, rfl⟩
abbrev main_call6_v9 : Ref sig .tc := ⟨.hbm, 434, rfl⟩
abbrev main_call6_v10 : Ref sig .tc := ⟨.hbm, 435, rfl⟩
abbrev main_call6_v11 : Ref sig .tc := ⟨.hbm, 436, rfl⟩
abbrev main_call6_cst_3 : Ref sig .tc := ⟨.hbm, 437, rfl⟩
abbrev main_call6_v12 : Ref sig .tc := ⟨.hbm, 438, rfl⟩
abbrev main_call6_cst_4 : Ref sig .tc := ⟨.hbm, 439, rfl⟩
abbrev main_call6_call0_v0 : Ref sig .tc := ⟨.hbm, 440, rfl⟩
abbrev main_call6_call0_v1 : Ref sig .tc := ⟨.hbm, 441, rfl⟩
abbrev main_v226 : Ref sig .tc := ⟨.hbm, 442, rfl⟩
abbrev main_cst_43 : Ref sig .tc := ⟨.hbm, 443, rfl⟩
abbrev main_v227 : Ref sig .tc := ⟨.hbm, 444, rfl⟩
abbrev main_cst_44 : Ref sig .tc := ⟨.hbm, 445, rfl⟩
abbrev main_v228 : Ref sig .tc := ⟨.hbm, 446, rfl⟩
abbrev main_v229 : Ref sig .tc := ⟨.hbm, 447, rfl⟩
abbrev main_c_45 : Ref sig .tc := ⟨.hbm, 448, rfl⟩
abbrev main_call7_cst : Ref sig .tc := ⟨.hbm, 449, rfl⟩
abbrev main_call7_v0 : Ref sig .tc := ⟨.hbm, 450, rfl⟩
abbrev main_call7_v1 : Ref sig .tc := ⟨.hbm, 451, rfl⟩
abbrev main_call7_cst_0 : Ref sig .tc := ⟨.hbm, 452, rfl⟩
abbrev main_call7_v2 : Ref sig .tc := ⟨.hbm, 453, rfl⟩
abbrev main_call7_v3 : Ref sig .tc := ⟨.hbm, 454, rfl⟩
abbrev main_call7_v4 : Ref sig .tc := ⟨.hbm, 455, rfl⟩
abbrev main_call7_v5 : Ref sig .tc := ⟨.hbm, 456, rfl⟩
abbrev main_call7_v6 : Ref sig .tc := ⟨.hbm, 457, rfl⟩
abbrev main_call7_v7 : Ref sig .tc := ⟨.hbm, 458, rfl⟩
abbrev main_call7_cst_1 : Ref sig .tc := ⟨.hbm, 459, rfl⟩
abbrev main_call7_v8 : Ref sig .tc := ⟨.hbm, 460, rfl⟩
abbrev main_call7_cst_2 : Ref sig .tc := ⟨.hbm, 461, rfl⟩
abbrev main_call7_v9 : Ref sig .tc := ⟨.hbm, 462, rfl⟩
abbrev main_call7_v10 : Ref sig .tc := ⟨.hbm, 463, rfl⟩
abbrev main_call7_v11 : Ref sig .tc := ⟨.hbm, 464, rfl⟩
abbrev main_call7_cst_3 : Ref sig .tc := ⟨.hbm, 465, rfl⟩
abbrev main_call7_v12 : Ref sig .tc := ⟨.hbm, 466, rfl⟩
abbrev main_call7_cst_4 : Ref sig .tc := ⟨.hbm, 467, rfl⟩
abbrev main_call7_call0_v0 : Ref sig .tc := ⟨.hbm, 468, rfl⟩
abbrev main_call7_call0_v1 : Ref sig .tc := ⟨.hbm, 469, rfl⟩
abbrev main_v230 : Ref sig .tc := ⟨.hbm, 470, rfl⟩
abbrev main_v231 : Ref sig .tc := ⟨.hbm, 471, rfl⟩
abbrev main_v232 : Ref sig .tc := ⟨.hbm, 472, rfl⟩
abbrev main_v233 : Ref sig .tc := ⟨.hbm, 473, rfl⟩
abbrev main_v234 : Ref sig .tc := ⟨.hbm, 474, rfl⟩
abbrev main_v235 : Ref sig .tc := ⟨.hbm, 475, rfl⟩
abbrev main_v236 : Ref sig .tc := ⟨.hbm, 476, rfl⟩
abbrev main_v237 : Ref sig .tc := ⟨.hbm, 477, rfl⟩
abbrev main_v238 : Ref sig .tc := ⟨.hbm, 478, rfl⟩
abbrev main_v239 : Ref sig .tc := ⟨.hbm, 479, rfl⟩
abbrev main_v240 : Ref sig .tc := ⟨.hbm, 480, rfl⟩
abbrev main_v241 : Ref sig .tc := ⟨.hbm, 481, rfl⟩
abbrev main_v242 : Ref sig .tc := ⟨.hbm, 482, rfl⟩
abbrev main_v243 : Ref sig .tc := ⟨.hbm, 483, rfl⟩
abbrev main_v244 : Ref sig .tc := ⟨.hbm, 484, rfl⟩
abbrev main_v245 : Ref sig .tc := ⟨.hbm, 485, rfl⟩
abbrev main_v246 : Ref sig .tc := ⟨.hbm, 486, rfl⟩
abbrev main_v247 : Ref sig .tc := ⟨.hbm, 487, rfl⟩
abbrev main_v248 : Ref sig .tc := ⟨.hbm, 488, rfl⟩
abbrev main_v249 : Ref sig .tc := ⟨.hbm, 489, rfl⟩
abbrev main_v250 : Ref sig .tc := ⟨.hbm, 490, rfl⟩
abbrev main_v251 : Ref sig .tc := ⟨.hbm, 491, rfl⟩
abbrev main_v252 : Ref sig .tc := ⟨.hbm, 492, rfl⟩
abbrev main_v253 : Ref sig .tc := ⟨.hbm, 493, rfl⟩
abbrev main_v254 : Ref sig .tc := ⟨.hbm, 494, rfl⟩
abbrev main_v255 : Ref sig .tc := ⟨.hbm, 495, rfl⟩
abbrev main_v256 : Ref sig .tc := ⟨.hbm, 496, rfl⟩
abbrev main_v257 : Ref sig .tc := ⟨.hbm, 497, rfl⟩
abbrev main_v258 : Ref sig .tc := ⟨.hbm, 498, rfl⟩
abbrev main_v259 : Ref sig .tc := ⟨.hbm, 499, rfl⟩
abbrev main_v260 : Ref sig .tc := ⟨.hbm, 500, rfl⟩
abbrev main_v261 : Ref sig .tc := ⟨.hbm, 501, rfl⟩
abbrev main_v262 : Ref sig .tc := ⟨.hbm, 502, rfl⟩
abbrev main_v263 : Ref sig .tc := ⟨.hbm, 503, rfl⟩
abbrev main_v264 : Ref sig .tc := ⟨.hbm, 504, rfl⟩
abbrev main_v265 : Ref sig .tc := ⟨.hbm, 505, rfl⟩
abbrev main_v266 : Ref sig .tc := ⟨.hbm, 506, rfl⟩
abbrev main_v267 : Ref sig .tc := ⟨.hbm, 507, rfl⟩
abbrev main_v268 : Ref sig .tc := ⟨.hbm, 508, rfl⟩
abbrev main_v269 : Ref sig .tc := ⟨.hbm, 509, rfl⟩
abbrev main_v270 : Ref sig .tc := ⟨.hbm, 510, rfl⟩
abbrev main_v271 : Ref sig .tc := ⟨.hbm, 511, rfl⟩
abbrev main_v272 : Ref sig .tc := ⟨.hbm, 512, rfl⟩
abbrev main_v273 : Ref sig .tc := ⟨.hbm, 513, rfl⟩
abbrev main_v274 : Ref sig .tc := ⟨.hbm, 514, rfl⟩
abbrev main_v275 : Ref sig .tc := ⟨.hbm, 515, rfl⟩
abbrev main_v276 : Ref sig .tc := ⟨.hbm, 516, rfl⟩
abbrev main_v277 : Ref sig .tc := ⟨.hbm, 517, rfl⟩
abbrev main_v278 : Ref sig .tc := ⟨.hbm, 518, rfl⟩
abbrev main_c_46 : Ref sig .tc := ⟨.hbm, 519, rfl⟩
abbrev main_v279 : Ref sig .tc := ⟨.hbm, 520, rfl⟩
abbrev main_v280 : Ref sig .tc := ⟨.hbm, 521, rfl⟩
abbrev main_c_47 : Ref sig .tc := ⟨.hbm, 522, rfl⟩
abbrev main_v281 : Ref sig .tc := ⟨.hbm, 523, rfl⟩
abbrev main_v282 : Ref sig .tc := ⟨.hbm, 524, rfl⟩
abbrev main_v283 : Ref sig .tc := ⟨.hbm, 525, rfl⟩
abbrev main_v284 : Ref sig .tc := ⟨.hbm, 526, rfl⟩
abbrev main_v285 : Ref sig .tc := ⟨.hbm, 527, rfl⟩
abbrev main_v286 : Ref sig .tc := ⟨.hbm, 528, rfl⟩
abbrev main_v287 : Ref sig .tc := ⟨.hbm, 529, rfl⟩
abbrev main_cst_48 : Ref sig .tc := ⟨.hbm, 530, rfl⟩
abbrev main_v288 : Ref sig .tc := ⟨.hbm, 531, rfl⟩
abbrev main_v289 : Ref sig .tc := ⟨.hbm, 532, rfl⟩
abbrev main_v290 : Ref sig .tc := ⟨.hbm, 533, rfl⟩
abbrev main_v291 : Ref sig .tc := ⟨.hbm, 534, rfl⟩
abbrev main_v292 : Ref sig .tc := ⟨.hbm, 535, rfl⟩
abbrev main_c_49 : Ref sig .tc := ⟨.hbm, 536, rfl⟩
abbrev main_v293 : Ref sig .tc := ⟨.hbm, 537, rfl⟩
abbrev main_v294 : Ref sig .tc := ⟨.hbm, 538, rfl⟩
abbrev main_c_50 : Ref sig .tc := ⟨.hbm, 539, rfl⟩
abbrev main_v295 : Ref sig .tc := ⟨.hbm, 540, rfl⟩
abbrev main_v296 : Ref sig .tc := ⟨.hbm, 541, rfl⟩
abbrev main_v297 : Ref sig .tc := ⟨.hbm, 542, rfl⟩
abbrev main_v298 : Ref sig .tc := ⟨.hbm, 543, rfl⟩
abbrev main_v299 : Ref sig .tc := ⟨.hbm, 544, rfl⟩
abbrev main_v300 : Ref sig .tc := ⟨.hbm, 545, rfl⟩
abbrev main_v301 : Ref sig .tc := ⟨.hbm, 546, rfl⟩
abbrev main_cst_51 : Ref sig .tc := ⟨.hbm, 547, rfl⟩
abbrev main_v302 : Ref sig .tc := ⟨.hbm, 548, rfl⟩
abbrev main_v303 : Ref sig .tc := ⟨.hbm, 549, rfl⟩
abbrev main_v304 : Ref sig .tc := ⟨.hbm, 550, rfl⟩
abbrev main_v305 : Ref sig .tc := ⟨.hbm, 551, rfl⟩
abbrev main_v306 : Ref sig .tc := ⟨.hbm, 552, rfl⟩
abbrev main_c_52 : Ref sig .tc := ⟨.hbm, 553, rfl⟩
abbrev main_v307 : Ref sig .tc := ⟨.hbm, 554, rfl⟩
abbrev main_v308 : Ref sig .tc := ⟨.hbm, 555, rfl⟩
abbrev main_c_53 : Ref sig .tc := ⟨.hbm, 556, rfl⟩
abbrev main_v309 : Ref sig .tc := ⟨.hbm, 557, rfl⟩
abbrev main_v310 : Ref sig .tc := ⟨.hbm, 558, rfl⟩
abbrev main_v311 : Ref sig .tc := ⟨.hbm, 559, rfl⟩
abbrev main_v312 : Ref sig .tc := ⟨.hbm, 560, rfl⟩
abbrev main_v313 : Ref sig .tc := ⟨.hbm, 561, rfl⟩
abbrev main_v314 : Ref sig .tc := ⟨.hbm, 562, rfl⟩
abbrev main_v315 : Ref sig .tc := ⟨.hbm, 563, rfl⟩
abbrev main_cst_54 : Ref sig .tc := ⟨.hbm, 564, rfl⟩
abbrev main_v316 : Ref sig .tc := ⟨.hbm, 565, rfl⟩
abbrev main_v317 : Ref sig .tc := ⟨.hbm, 566, rfl⟩
abbrev main_v318 : Ref sig .tc := ⟨.hbm, 567, rfl⟩
abbrev main_v319 : Ref sig .tc := ⟨.hbm, 568, rfl⟩
abbrev main_v320 : Ref sig .tc := ⟨.hbm, 569, rfl⟩
abbrev main_c_55 : Ref sig .tc := ⟨.hbm, 570, rfl⟩
abbrev main_v321 : Ref sig .tc := ⟨.hbm, 571, rfl⟩
abbrev main_v322 : Ref sig .tc := ⟨.hbm, 572, rfl⟩
abbrev main_c_56 : Ref sig .tc := ⟨.hbm, 573, rfl⟩
abbrev main_v323 : Ref sig .tc := ⟨.hbm, 574, rfl⟩
abbrev main_v324 : Ref sig .tc := ⟨.hbm, 575, rfl⟩
abbrev main_v325 : Ref sig .tc := ⟨.hbm, 576, rfl⟩
abbrev main_v326 : Ref sig .tc := ⟨.hbm, 577, rfl⟩
abbrev main_v327 : Ref sig .tc := ⟨.hbm, 578, rfl⟩
abbrev main_v328 : Ref sig .tc := ⟨.hbm, 579, rfl⟩
abbrev main_v329 : Ref sig .tc := ⟨.hbm, 580, rfl⟩
abbrev main_cst_57 : Ref sig .tc := ⟨.hbm, 581, rfl⟩
abbrev main_v330 : Ref sig .tc := ⟨.hbm, 582, rfl⟩
abbrev main_v331 : Ref sig .tc := ⟨.hbm, 583, rfl⟩
abbrev main_v332 : Ref sig .tc := ⟨.hbm, 584, rfl⟩
abbrev main_v333 : Ref sig .tc := ⟨.hbm, 585, rfl⟩
abbrev main_v334 : Ref sig .tc := ⟨.hbm, 586, rfl⟩
abbrev main_v335 : Ref sig .tc := ⟨.hbm, 587, rfl⟩
abbrev main_v336 : Ref sig .tc := ⟨.hbm, 588, rfl⟩
abbrev main_v337 : Ref sig .tc := ⟨.hbm, 589, rfl⟩
abbrev main_v338 : Ref sig .tc := ⟨.hbm, 590, rfl⟩
abbrev main_v339 : Ref sig .tc := ⟨.hbm, 591, rfl⟩
abbrev main_v340 : Ref sig .tc := ⟨.hbm, 592, rfl⟩
abbrev main_v341 : Ref sig .tc := ⟨.hbm, 593, rfl⟩
abbrev main_v342 : Ref sig .tc := ⟨.hbm, 594, rfl⟩
abbrev main_v343 : Ref sig .tc := ⟨.hbm, 595, rfl⟩
abbrev main_v344 : Ref sig .tc := ⟨.hbm, 596, rfl⟩
abbrev main_v345 : Ref sig .tc := ⟨.hbm, 597, rfl⟩
abbrev main_v346 : Ref sig .tc := ⟨.hbm, 598, rfl⟩
abbrev main_v347 : Ref sig .tc := ⟨.hbm, 599, rfl⟩
abbrev main_v348 : Ref sig .tc := ⟨.hbm, 600, rfl⟩
abbrev main_v349 : Ref sig .tc := ⟨.hbm, 601, rfl⟩
abbrev main_v350 : Ref sig .tc := ⟨.hbm, 602, rfl⟩
abbrev main_v351 : Ref sig .tc := ⟨.hbm, 603, rfl⟩
abbrev main_v352 : Ref sig .tc := ⟨.hbm, 604, rfl⟩
abbrev main_cst_58 : Ref sig .tc := ⟨.hbm, 605, rfl⟩
abbrev main_v353 : Ref sig .tc := ⟨.hbm, 606, rfl⟩
abbrev main_cst_59 : Ref sig .tc := ⟨.hbm, 607, rfl⟩
abbrev main_v354 : Ref sig .tc := ⟨.hbm, 608, rfl⟩
abbrev main_v355 : Ref sig .tc := ⟨.hbm, 609, rfl⟩
abbrev main_c_60 : Ref sig .tc := ⟨.hbm, 610, rfl⟩
abbrev main_call8_cst : Ref sig .tc := ⟨.hbm, 611, rfl⟩
abbrev main_call8_v0 : Ref sig .tc := ⟨.hbm, 612, rfl⟩
abbrev main_call8_v1 : Ref sig .tc := ⟨.hbm, 613, rfl⟩
abbrev main_call8_cst_0 : Ref sig .tc := ⟨.hbm, 614, rfl⟩
abbrev main_call8_v2 : Ref sig .tc := ⟨.hbm, 615, rfl⟩
abbrev main_call8_v3 : Ref sig .tc := ⟨.hbm, 616, rfl⟩
abbrev main_call8_v4 : Ref sig .tc := ⟨.hbm, 617, rfl⟩
abbrev main_call8_v5 : Ref sig .tc := ⟨.hbm, 618, rfl⟩
abbrev main_call8_v6 : Ref sig .tc := ⟨.hbm, 619, rfl⟩
abbrev main_call8_v7 : Ref sig .tc := ⟨.hbm, 620, rfl⟩
abbrev main_call8_cst_1 : Ref sig .tc := ⟨.hbm, 621, rfl⟩
abbrev main_call8_v8 : Ref sig .tc := ⟨.hbm, 622, rfl⟩
abbrev main_call8_cst_2 : Ref sig .tc := ⟨.hbm, 623, rfl⟩
abbrev main_call8_v9 : Ref sig .tc := ⟨.hbm, 624, rfl⟩
abbrev main_call8_v10 : Ref sig .tc := ⟨.hbm, 625, rfl⟩
abbrev main_call8_v11 : Ref sig .tc := ⟨.hbm, 626, rfl⟩
abbrev main_call8_cst_3 : Ref sig .tc := ⟨.hbm, 627, rfl⟩
abbrev main_call8_v12 : Ref sig .tc := ⟨.hbm, 628, rfl⟩
abbrev main_call8_cst_4 : Ref sig .tc := ⟨.hbm, 629, rfl⟩
abbrev main_call8_call0_v0 : Ref sig .tc := ⟨.hbm, 630, rfl⟩
abbrev main_call8_call0_v1 : Ref sig .tc := ⟨.hbm, 631, rfl⟩
abbrev main_v356 : Ref sig .tc := ⟨.hbm, 632, rfl⟩
abbrev main_cst_61 : Ref sig .tc := ⟨.hbm, 633, rfl⟩
abbrev main_v357 : Ref sig .tc := ⟨.hbm, 634, rfl⟩
abbrev main_cst_62 : Ref sig .tc := ⟨.hbm, 635, rfl⟩
abbrev main_v358 : Ref sig .tc := ⟨.hbm, 636, rfl⟩
abbrev main_v359 : Ref sig .tc := ⟨.hbm, 637, rfl⟩
abbrev main_c_63 : Ref sig .tc := ⟨.hbm, 638, rfl⟩
abbrev main_call9_cst : Ref sig .tc := ⟨.hbm, 639, rfl⟩
abbrev main_call9_v0 : Ref sig .tc := ⟨.hbm, 640, rfl⟩
abbrev main_call9_v1 : Ref sig .tc := ⟨.hbm, 641, rfl⟩
abbrev main_call9_cst_0 : Ref sig .tc := ⟨.hbm, 642, rfl⟩
abbrev main_call9_v2 : Ref sig .tc := ⟨.hbm, 643, rfl⟩
abbrev main_call9_v3 : Ref sig .tc := ⟨.hbm, 644, rfl⟩
abbrev main_call9_v4 : Ref sig .tc := ⟨.hbm, 645, rfl⟩
abbrev main_call9_v5 : Ref sig .tc := ⟨.hbm, 646, rfl⟩
abbrev main_call9_v6 : Ref sig .tc := ⟨.hbm, 647, rfl⟩
abbrev main_call9_v7 : Ref sig .tc := ⟨.hbm, 648, rfl⟩
abbrev main_call9_cst_1 : Ref sig .tc := ⟨.hbm, 649, rfl⟩
abbrev main_call9_v8 : Ref sig .tc := ⟨.hbm, 650, rfl⟩
abbrev main_call9_cst_2 : Ref sig .tc := ⟨.hbm, 651, rfl⟩
abbrev main_call9_v9 : Ref sig .tc := ⟨.hbm, 652, rfl⟩
abbrev main_call9_v10 : Ref sig .tc := ⟨.hbm, 653, rfl⟩
abbrev main_call9_v11 : Ref sig .tc := ⟨.hbm, 654, rfl⟩
abbrev main_call9_cst_3 : Ref sig .tc := ⟨.hbm, 655, rfl⟩
abbrev main_call9_v12 : Ref sig .tc := ⟨.hbm, 656, rfl⟩
abbrev main_call9_cst_4 : Ref sig .tc := ⟨.hbm, 657, rfl⟩
abbrev main_call9_call0_v0 : Ref sig .tc := ⟨.hbm, 658, rfl⟩
abbrev main_call9_call0_v1 : Ref sig .tc := ⟨.hbm, 659, rfl⟩
abbrev main_v360 : Ref sig .tc := ⟨.hbm, 660, rfl⟩
abbrev main_cst_64 : Ref sig .tc := ⟨.hbm, 661, rfl⟩
abbrev main_v361 : Ref sig .tc := ⟨.hbm, 662, rfl⟩
abbrev main_cst_65 : Ref sig .tc := ⟨.hbm, 663, rfl⟩
abbrev main_v362 : Ref sig .tc := ⟨.hbm, 664, rfl⟩
abbrev main_v363 : Ref sig .tc := ⟨.hbm, 665, rfl⟩
abbrev main_c_66 : Ref sig .tc := ⟨.hbm, 666, rfl⟩
abbrev main_call10_cst : Ref sig .tc := ⟨.hbm, 667, rfl⟩
abbrev main_call10_v0 : Ref sig .tc := ⟨.hbm, 668, rfl⟩
abbrev main_call10_v1 : Ref sig .tc := ⟨.hbm, 669, rfl⟩
abbrev main_call10_cst_0 : Ref sig .tc := ⟨.hbm, 670, rfl⟩
abbrev main_call10_v2 : Ref sig .tc := ⟨.hbm, 671, rfl⟩
abbrev main_call10_v3 : Ref sig .tc := ⟨.hbm, 672, rfl⟩
abbrev main_call10_v4 : Ref sig .tc := ⟨.hbm, 673, rfl⟩
abbrev main_call10_v5 : Ref sig .tc := ⟨.hbm, 674, rfl⟩
abbrev main_call10_v6 : Ref sig .tc := ⟨.hbm, 675, rfl⟩
abbrev main_call10_v7 : Ref sig .tc := ⟨.hbm, 676, rfl⟩
abbrev main_call10_cst_1 : Ref sig .tc := ⟨.hbm, 677, rfl⟩
abbrev main_call10_v8 : Ref sig .tc := ⟨.hbm, 678, rfl⟩
abbrev main_call10_cst_2 : Ref sig .tc := ⟨.hbm, 679, rfl⟩
abbrev main_call10_v9 : Ref sig .tc := ⟨.hbm, 680, rfl⟩
abbrev main_call10_v10 : Ref sig .tc := ⟨.hbm, 681, rfl⟩
abbrev main_call10_v11 : Ref sig .tc := ⟨.hbm, 682, rfl⟩
abbrev main_call10_cst_3 : Ref sig .tc := ⟨.hbm, 683, rfl⟩
abbrev main_call10_v12 : Ref sig .tc := ⟨.hbm, 684, rfl⟩
abbrev main_call10_cst_4 : Ref sig .tc := ⟨.hbm, 685, rfl⟩
abbrev main_call10_call0_v0 : Ref sig .tc := ⟨.hbm, 686, rfl⟩
abbrev main_call10_call0_v1 : Ref sig .tc := ⟨.hbm, 687, rfl⟩
abbrev main_v364 : Ref sig .tc := ⟨.hbm, 688, rfl⟩
abbrev main_cst_67 : Ref sig .tc := ⟨.hbm, 689, rfl⟩
abbrev main_v365 : Ref sig .tc := ⟨.hbm, 690, rfl⟩
abbrev main_cst_68 : Ref sig .tc := ⟨.hbm, 691, rfl⟩
abbrev main_v366 : Ref sig .tc := ⟨.hbm, 692, rfl⟩
abbrev main_v367 : Ref sig .tc := ⟨.hbm, 693, rfl⟩
abbrev main_c_69 : Ref sig .tc := ⟨.hbm, 694, rfl⟩
abbrev main_call11_cst : Ref sig .tc := ⟨.hbm, 695, rfl⟩
abbrev main_call11_v0 : Ref sig .tc := ⟨.hbm, 696, rfl⟩
abbrev main_call11_v1 : Ref sig .tc := ⟨.hbm, 697, rfl⟩
abbrev main_call11_cst_0 : Ref sig .tc := ⟨.hbm, 698, rfl⟩
abbrev main_call11_v2 : Ref sig .tc := ⟨.hbm, 699, rfl⟩
abbrev main_call11_v3 : Ref sig .tc := ⟨.hbm, 700, rfl⟩
abbrev main_call11_v4 : Ref sig .tc := ⟨.hbm, 701, rfl⟩
abbrev main_call11_v5 : Ref sig .tc := ⟨.hbm, 702, rfl⟩
abbrev main_call11_v6 : Ref sig .tc := ⟨.hbm, 703, rfl⟩
abbrev main_call11_v7 : Ref sig .tc := ⟨.hbm, 704, rfl⟩
abbrev main_call11_cst_1 : Ref sig .tc := ⟨.hbm, 705, rfl⟩
abbrev main_call11_v8 : Ref sig .tc := ⟨.hbm, 706, rfl⟩
abbrev main_call11_cst_2 : Ref sig .tc := ⟨.hbm, 707, rfl⟩
abbrev main_call11_v9 : Ref sig .tc := ⟨.hbm, 708, rfl⟩
abbrev main_call11_v10 : Ref sig .tc := ⟨.hbm, 709, rfl⟩
abbrev main_call11_v11 : Ref sig .tc := ⟨.hbm, 710, rfl⟩
abbrev main_call11_cst_3 : Ref sig .tc := ⟨.hbm, 711, rfl⟩
abbrev main_call11_v12 : Ref sig .tc := ⟨.hbm, 712, rfl⟩
abbrev main_call11_cst_4 : Ref sig .tc := ⟨.hbm, 713, rfl⟩
abbrev main_call11_call0_v0 : Ref sig .tc := ⟨.hbm, 714, rfl⟩
abbrev main_call11_call0_v1 : Ref sig .tc := ⟨.hbm, 715, rfl⟩
abbrev main_v368 : Ref sig .tc := ⟨.hbm, 716, rfl⟩
abbrev main_v369 : Ref sig .tc := ⟨.hbm, 717, rfl⟩
abbrev main_v370 : Ref sig .tc := ⟨.hbm, 718, rfl⟩
abbrev main_v371 : Ref sig .tc := ⟨.hbm, 719, rfl⟩
abbrev main_v372 : Ref sig .tc := ⟨.hbm, 720, rfl⟩
abbrev main_v373 : Ref sig .tc := ⟨.hbm, 721, rfl⟩
abbrev main_v374 : Ref sig .tc := ⟨.hbm, 722, rfl⟩
abbrev main_v375 : Ref sig .tc := ⟨.hbm, 723, rfl⟩
abbrev main_v376 : Ref sig .tc := ⟨.hbm, 724, rfl⟩
abbrev main_v377 : Ref sig .tc := ⟨.hbm, 725, rfl⟩
abbrev main_v378 : Ref sig .tc := ⟨.hbm, 726, rfl⟩
abbrev main_v379 : Ref sig .tc := ⟨.hbm, 727, rfl⟩
abbrev main_v380 : Ref sig .tc := ⟨.hbm, 728, rfl⟩
abbrev main_v381 : Ref sig .tc := ⟨.hbm, 729, rfl⟩
abbrev main_v382 : Ref sig .tc := ⟨.hbm, 730, rfl⟩
abbrev main_v383 : Ref sig .tc := ⟨.hbm, 731, rfl⟩
abbrev main_v384 : Ref sig .tc := ⟨.hbm, 732, rfl⟩
abbrev main_v385 : Ref sig .tc := ⟨.hbm, 733, rfl⟩
abbrev main_v386 : Ref sig .tc := ⟨.hbm, 734, rfl⟩
abbrev main_v387 : Ref sig .tc := ⟨.hbm, 735, rfl⟩
abbrev main_v388 : Ref sig .tc := ⟨.hbm, 736, rfl⟩
abbrev main_v389 : Ref sig .tc := ⟨.hbm, 737, rfl⟩
abbrev main_v390 : Ref sig .tc := ⟨.hbm, 738, rfl⟩
abbrev main_v391 : Ref sig .tc := ⟨.hbm, 739, rfl⟩
abbrev main_v392 : Ref sig .tc := ⟨.hbm, 740, rfl⟩
abbrev main_v393 : Ref sig .tc := ⟨.hbm, 741, rfl⟩
abbrev main_v394 : Ref sig .tc := ⟨.hbm, 742, rfl⟩
abbrev main_v395 : Ref sig .tc := ⟨.hbm, 743, rfl⟩
abbrev main_v396 : Ref sig .tc := ⟨.hbm, 744, rfl⟩
abbrev main_v397 : Ref sig .tc := ⟨.hbm, 745, rfl⟩
abbrev main_v398 : Ref sig .tc := ⟨.hbm, 746, rfl⟩
abbrev main_v399 : Ref sig .tc := ⟨.hbm, 747, rfl⟩
abbrev main_v400 : Ref sig .tc := ⟨.hbm, 748, rfl⟩
abbrev main_v401 : Ref sig .tc := ⟨.hbm, 749, rfl⟩
abbrev main_v402 : Ref sig .tc := ⟨.hbm, 750, rfl⟩
abbrev main_v403 : Ref sig .tc := ⟨.hbm, 751, rfl⟩
abbrev main_v404 : Ref sig .tc := ⟨.hbm, 752, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg5_0 : Ref sig .tc := ⟨.vmem, 36, rfl⟩
abbrev cc5_stg6_0 : Ref sig .tc := ⟨.vmem, 37, rfl⟩
abbrev cc5_stg7_0 : Ref sig .tc := ⟨.vmem, 38, rfl⟩
abbrev cc5_stg7_1 : Ref sig .tc := ⟨.vmem, 39, rfl⟩
abbrev cc5_stg8_0 : Ref sig .tc := ⟨.vmem, 40, rfl⟩
abbrev cc5_stg9_0 : Ref sig .tc := ⟨.vmem, 41, rfl⟩
abbrev cc5_stg10_0 : Ref sig .tc := ⟨.vmem, 42, rfl⟩
abbrev cc5_stg11_0 : Ref sig .tc := ⟨.vmem, 43, rfl⟩
abbrev cc5_stg12_0 : Ref sig .tc := ⟨.vmem, 44, rfl⟩
abbrev cc5_stg13_0 : Ref sig .tc := ⟨.vmem, 45, rfl⟩
abbrev cc5_stg14_0 : Ref sig .tc := ⟨.vmem, 46, rfl⟩
abbrev cc5_stg14_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg6_0 : Ref sig .tc := ⟨.vmem, 55, rfl⟩
abbrev cc6_stg7_0 : Ref sig .tc := ⟨.vmem, 56, rfl⟩
abbrev cc6_stg7_1 : Ref sig .tc := ⟨.vmem, 57, rfl⟩
abbrev cc6_stg8_0 : Ref sig .tc := ⟨.vmem, 58, rfl⟩
abbrev cc6_stg9_0 : Ref sig .tc := ⟨.vmem, 59, rfl⟩
abbrev cc6_stg10_0 : Ref sig .tc := ⟨.vmem, 60, rfl⟩
abbrev cc6_stg11_0 : Ref sig .tc := ⟨.vmem, 61, rfl⟩
abbrev cc6_stg12_0 : Ref sig .tc := ⟨.vmem, 62, rfl⟩
abbrev cc6_stg13_0 : Ref sig .tc := ⟨.vmem, 63, rfl⟩
abbrev cc6_stg14_0 : Ref sig .tc := ⟨.vmem, 64, rfl⟩
abbrev cc6_stg14_1 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg2_0 : Ref sig .tc := ⟨.vmem, 69, rfl⟩
abbrev cc7_stg3_0 : Ref sig .tc := ⟨.vmem, 70, rfl⟩
abbrev cc7_stg3_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg2_0 : Ref sig .tc := ⟨.vmem, 75, rfl⟩
abbrev cc8_stg3_0 : Ref sig .tc := ⟨.vmem, 76, rfl⟩
abbrev cc8_stg3_1 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg2_0 : Ref sig .tc := ⟨.vmem, 81, rfl⟩
abbrev cc9_stg3_0 : Ref sig .tc := ⟨.vmem, 82, rfl⟩
abbrev cc9_stg3_1 : Ref sig .tc := ⟨.vmem, 83, rfl⟩
abbrev cc10_stg0_0 : Ref sig .tc := ⟨.vmem, 84, rfl⟩
abbrev cc10_stg0_1 : Ref sig .tc := ⟨.vmem, 85, rfl⟩
abbrev cc10_stg1_0 : Ref sig .tc := ⟨.vmem, 86, rfl⟩
abbrev cc10_stg2_0 : Ref sig .tc := ⟨.vmem, 87, rfl⟩
abbrev cc10_stg3_0 : Ref sig .tc := ⟨.vmem, 88, rfl⟩
abbrev cc10_stg3_1 : Ref sig .tc := ⟨.vmem, 89, rfl⟩
abbrev cc11_stg0_0 : Ref sig .tc := ⟨.vmem, 90, rfl⟩
abbrev cc11_stg0_1 : Ref sig .tc := ⟨.vmem, 91, rfl⟩
abbrev cc11_stg1_0 : Ref sig .tc := ⟨.vmem, 92, rfl⟩
abbrev cc11_stg2_0 : Ref sig .tc := ⟨.vmem, 93, rfl⟩
abbrev cc11_stg3_0 : Ref sig .tc := ⟨.vmem, 94, rfl⟩
abbrev cc11_stg4_0 : Ref sig .tc := ⟨.vmem, 95, rfl⟩
abbrev cc11_stg5_0 : Ref sig .tc := ⟨.vmem, 96, rfl⟩
abbrev cc11_stg6_0 : Ref sig .tc := ⟨.vmem, 97, rfl⟩
abbrev cc11_stg7_0 : Ref sig .tc := ⟨.vmem, 98, rfl⟩
abbrev cc11_stg7_1 : Ref sig .tc := ⟨.vmem, 99, rfl⟩
abbrev cc11_stg8_0 : Ref sig .tc := ⟨.vmem, 100, rfl⟩
abbrev cc11_stg9_0 : Ref sig .tc := ⟨.vmem, 101, rfl⟩
abbrev cc11_stg10_0 : Ref sig .tc := ⟨.vmem, 102, rfl⟩
abbrev cc11_stg11_0 : Ref sig .tc := ⟨.vmem, 103, rfl⟩
abbrev cc11_stg12_0 : Ref sig .tc := ⟨.vmem, 104, rfl⟩
abbrev cc11_stg13_0 : Ref sig .tc := ⟨.vmem, 105, rfl⟩
abbrev cc11_stg14_0 : Ref sig .tc := ⟨.vmem, 106, rfl⟩
abbrev cc11_stg14_1 : Ref sig .tc := ⟨.vmem, 107, rfl⟩
abbrev cc12_stg0_0 : Ref sig .tc := ⟨.vmem, 108, rfl⟩
abbrev cc12_stg0_1 : Ref sig .tc := ⟨.vmem, 109, rfl⟩
abbrev cc12_stg1_0 : Ref sig .tc := ⟨.vmem, 110, rfl⟩
abbrev cc12_stg2_0 : Ref sig .tc := ⟨.vmem, 111, rfl⟩
abbrev cc12_stg3_0 : Ref sig .tc := ⟨.vmem, 112, rfl⟩
abbrev cc12_stg4_0 : Ref sig .tc := ⟨.vmem, 113, rfl⟩
abbrev cc12_stg5_0 : Ref sig .tc := ⟨.vmem, 114, rfl⟩
abbrev cc12_stg6_0 : Ref sig .tc := ⟨.vmem, 115, rfl⟩
abbrev cc12_stg7_0 : Ref sig .tc := ⟨.vmem, 116, rfl⟩
abbrev cc12_stg7_1 : Ref sig .tc := ⟨.vmem, 117, rfl⟩
abbrev cc12_stg8_0 : Ref sig .tc := ⟨.vmem, 118, rfl⟩
abbrev cc12_stg9_0 : Ref sig .tc := ⟨.vmem, 119, rfl⟩
abbrev cc12_stg10_0 : Ref sig .tc := ⟨.vmem, 120, rfl⟩
abbrev cc12_stg11_0 : Ref sig .tc := ⟨.vmem, 121, rfl⟩
abbrev cc12_stg12_0 : Ref sig .tc := ⟨.vmem, 122, rfl⟩
abbrev cc12_stg13_0 : Ref sig .tc := ⟨.vmem, 123, rfl⟩
abbrev cc12_stg14_0 : Ref sig .tc := ⟨.vmem, 124, rfl⟩
abbrev cc12_stg14_1 : Ref sig .tc := ⟨.vmem, 125, rfl⟩
abbrev cc13_stg0_0 : Ref sig .tc := ⟨.vmem, 126, rfl⟩
abbrev cc13_stg0_1 : Ref sig .tc := ⟨.vmem, 127, rfl⟩
abbrev cc13_stg1_0 : Ref sig .tc := ⟨.vmem, 128, rfl⟩
abbrev cc13_stg2_0 : Ref sig .tc := ⟨.vmem, 129, rfl⟩
abbrev cc13_stg3_0 : Ref sig .tc := ⟨.vmem, 130, rfl⟩
abbrev cc13_stg3_1 : Ref sig .tc := ⟨.vmem, 131, rfl⟩
abbrev cc14_stg0_0 : Ref sig .tc := ⟨.vmem, 132, rfl⟩
abbrev cc14_stg0_1 : Ref sig .tc := ⟨.vmem, 133, rfl⟩
abbrev cc14_stg1_0 : Ref sig .tc := ⟨.vmem, 134, rfl⟩
abbrev cc14_stg2_0 : Ref sig .tc := ⟨.vmem, 135, rfl⟩
abbrev cc14_stg3_0 : Ref sig .tc := ⟨.vmem, 136, rfl⟩
abbrev cc14_stg3_1 : Ref sig .tc := ⟨.vmem, 137, rfl⟩
abbrev cc15_stg0_0 : Ref sig .tc := ⟨.vmem, 138, rfl⟩
abbrev cc15_stg0_1 : Ref sig .tc := ⟨.vmem, 139, rfl⟩
abbrev cc15_stg1_0 : Ref sig .tc := ⟨.vmem, 140, rfl⟩
abbrev cc15_stg2_0 : Ref sig .tc := ⟨.vmem, 141, rfl⟩
abbrev cc15_stg3_0 : Ref sig .tc := ⟨.vmem, 142, rfl⟩
abbrev cc15_stg3_1 : Ref sig .tc := ⟨.vmem, 143, rfl⟩
abbrev cc16_stg0_0 : Ref sig .tc := ⟨.vmem, 144, rfl⟩
abbrev cc16_stg0_1 : Ref sig .tc := ⟨.vmem, 145, rfl⟩
abbrev cc16_stg1_0 : Ref sig .tc := ⟨.vmem, 146, rfl⟩
abbrev cc16_stg2_0 : Ref sig .tc := ⟨.vmem, 147, rfl⟩
abbrev cc16_stg3_0 : Ref sig .tc := ⟨.vmem, 148, rfl⟩
abbrev cc16_stg3_1 : Ref sig .tc := ⟨.vmem, 149, rfl⟩
abbrev cc17_stg0_0 : Ref sig .tc := ⟨.vmem, 150, rfl⟩
abbrev cc17_stg0_1 : Ref sig .tc := ⟨.vmem, 151, rfl⟩
abbrev cc17_stg1_0 : Ref sig .tc := ⟨.vmem, 152, rfl⟩
abbrev cc17_stg2_0 : Ref sig .tc := ⟨.vmem, 153, rfl⟩
abbrev cc17_stg3_0 : Ref sig .tc := ⟨.vmem, 154, rfl⟩
abbrev cc17_stg4_0 : Ref sig .tc := ⟨.vmem, 155, rfl⟩
abbrev cc17_stg5_0 : Ref sig .tc := ⟨.vmem, 156, rfl⟩
abbrev cc17_stg6_0 : Ref sig .tc := ⟨.vmem, 157, rfl⟩
abbrev cc17_stg7_0 : Ref sig .tc := ⟨.vmem, 158, rfl⟩
abbrev cc17_stg7_1 : Ref sig .tc := ⟨.vmem, 159, rfl⟩
abbrev cc17_stg8_0 : Ref sig .tc := ⟨.vmem, 160, rfl⟩
abbrev cc17_stg9_0 : Ref sig .tc := ⟨.vmem, 161, rfl⟩
abbrev cc17_stg10_0 : Ref sig .tc := ⟨.vmem, 162, rfl⟩
abbrev cc17_stg11_0 : Ref sig .tc := ⟨.vmem, 163, rfl⟩
abbrev cc17_stg12_0 : Ref sig .tc := ⟨.vmem, 164, rfl⟩
abbrev cc17_stg13_0 : Ref sig .tc := ⟨.vmem, 165, rfl⟩
abbrev cc17_stg14_0 : Ref sig .tc := ⟨.vmem, 166, rfl⟩
abbrev cc17_stg14_1 : Ref sig .tc := ⟨.vmem, 167, rfl⟩
abbrev cc18_stg0_0 : Ref sig .tc := ⟨.vmem, 168, rfl⟩
abbrev cc18_stg0_1 : Ref sig .tc := ⟨.vmem, 169, rfl⟩
abbrev cc18_stg1_0 : Ref sig .tc := ⟨.vmem, 170, rfl⟩
abbrev cc18_stg2_0 : Ref sig .tc := ⟨.vmem, 171, rfl⟩
abbrev cc18_stg3_0 : Ref sig .tc := ⟨.vmem, 172, rfl⟩
abbrev cc18_stg4_0 : Ref sig .tc := ⟨.vmem, 173, rfl⟩
abbrev cc18_stg5_0 : Ref sig .tc := ⟨.vmem, 174, rfl⟩
abbrev cc18_stg6_0 : Ref sig .tc := ⟨.vmem, 175, rfl⟩
abbrev cc18_stg7_0 : Ref sig .tc := ⟨.vmem, 176, rfl⟩
abbrev cc18_stg7_1 : Ref sig .tc := ⟨.vmem, 177, rfl⟩
abbrev cc18_stg8_0 : Ref sig .tc := ⟨.vmem, 178, rfl⟩
abbrev cc18_stg9_0 : Ref sig .tc := ⟨.vmem, 179, rfl⟩
abbrev cc18_stg10_0 : Ref sig .tc := ⟨.vmem, 180, rfl⟩
abbrev cc18_stg11_0 : Ref sig .tc := ⟨.vmem, 181, rfl⟩
abbrev cc18_stg12_0 : Ref sig .tc := ⟨.vmem, 182, rfl⟩
abbrev cc18_stg13_0 : Ref sig .tc := ⟨.vmem, 183, rfl⟩
abbrev cc18_stg14_0 : Ref sig .tc := ⟨.vmem, 184, rfl⟩
abbrev cc18_stg14_1 : Ref sig .tc := ⟨.vmem, 185, rfl⟩
abbrev cc19_stg0_0 : Ref sig .tc := ⟨.vmem, 186, rfl⟩
abbrev cc19_stg0_1 : Ref sig .tc := ⟨.vmem, 187, rfl⟩
abbrev cc19_stg1_0 : Ref sig .tc := ⟨.vmem, 188, rfl⟩
abbrev cc19_stg2_0 : Ref sig .tc := ⟨.vmem, 189, rfl⟩
abbrev cc19_stg3_0 : Ref sig .tc := ⟨.vmem, 190, rfl⟩
abbrev cc19_stg3_1 : Ref sig .tc := ⟨.vmem, 191, rfl⟩
abbrev cc20_stg0_0 : Ref sig .tc := ⟨.vmem, 192, rfl⟩
abbrev cc20_stg0_1 : Ref sig .tc := ⟨.vmem, 193, rfl⟩
abbrev cc20_stg1_0 : Ref sig .tc := ⟨.vmem, 194, rfl⟩
abbrev cc20_stg2_0 : Ref sig .tc := ⟨.vmem, 195, rfl⟩
abbrev cc20_stg3_0 : Ref sig .tc := ⟨.vmem, 196, rfl⟩
abbrev cc20_stg3_1 : Ref sig .tc := ⟨.vmem, 197, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem4_0 : DmaSem sig := 35
abbrev cc5_sem5_0 : DmaSem sig := 36
abbrev cc5_sem6_0 : DmaSem sig := 37
abbrev cc5_sem7_0 : DmaSem sig := 38
abbrev cc5_sem7_1 : DmaSem sig := 39
abbrev cc5_sem8_0 : DmaSem sig := 40
abbrev cc5_sem9_0 : DmaSem sig := 41
abbrev cc5_sem10_0 : DmaSem sig := 42
abbrev cc5_sem11_0 : DmaSem sig := 43
abbrev cc5_sem12_0 : DmaSem sig := 44
abbrev cc5_sem13_0 : DmaSem sig := 45
abbrev cc5_sem14_0 : DmaSem sig := 46
abbrev cc5_sem14_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem6_0 : DmaSem sig := 55
abbrev cc6_sem7_0 : DmaSem sig := 56
abbrev cc6_sem7_1 : DmaSem sig := 57
abbrev cc6_sem8_0 : DmaSem sig := 58
abbrev cc6_sem9_0 : DmaSem sig := 59
abbrev cc6_sem10_0 : DmaSem sig := 60
abbrev cc6_sem11_0 : DmaSem sig := 61
abbrev cc6_sem12_0 : DmaSem sig := 62
abbrev cc6_sem13_0 : DmaSem sig := 63
abbrev cc6_sem14_0 : DmaSem sig := 64
abbrev cc6_sem14_1 : DmaSem sig := 65
abbrev cc7_sem0_0 : DmaSem sig := 66
abbrev cc7_sem0_1 : DmaSem sig := 67
abbrev cc7_sem1_0 : DmaSem sig := 68
abbrev cc7_sem2_0 : DmaSem sig := 69
abbrev cc7_sem3_0 : DmaSem sig := 70
abbrev cc7_sem3_1 : DmaSem sig := 71
abbrev cc8_sem0_0 : DmaSem sig := 72
abbrev cc8_sem0_1 : DmaSem sig := 73
abbrev cc8_sem1_0 : DmaSem sig := 74
abbrev cc8_sem2_0 : DmaSem sig := 75
abbrev cc8_sem3_0 : DmaSem sig := 76
abbrev cc8_sem3_1 : DmaSem sig := 77
abbrev cc9_sem0_0 : DmaSem sig := 78
abbrev cc9_sem0_1 : DmaSem sig := 79
abbrev cc9_sem1_0 : DmaSem sig := 80
abbrev cc9_sem2_0 : DmaSem sig := 81
abbrev cc9_sem3_0 : DmaSem sig := 82
abbrev cc9_sem3_1 : DmaSem sig := 83
abbrev cc10_sem0_0 : DmaSem sig := 84
abbrev cc10_sem0_1 : DmaSem sig := 85
abbrev cc10_sem1_0 : DmaSem sig := 86
abbrev cc10_sem2_0 : DmaSem sig := 87
abbrev cc10_sem3_0 : DmaSem sig := 88
abbrev cc10_sem3_1 : DmaSem sig := 89
abbrev cc11_sem0_0 : DmaSem sig := 90
abbrev cc11_sem0_1 : DmaSem sig := 91
abbrev cc11_sem1_0 : DmaSem sig := 92
abbrev cc11_sem2_0 : DmaSem sig := 93
abbrev cc11_sem3_0 : DmaSem sig := 94
abbrev cc11_sem4_0 : DmaSem sig := 95
abbrev cc11_sem5_0 : DmaSem sig := 96
abbrev cc11_sem6_0 : DmaSem sig := 97
abbrev cc11_sem7_0 : DmaSem sig := 98
abbrev cc11_sem7_1 : DmaSem sig := 99
abbrev cc11_sem8_0 : DmaSem sig := 100
abbrev cc11_sem9_0 : DmaSem sig := 101
abbrev cc11_sem10_0 : DmaSem sig := 102
abbrev cc11_sem11_0 : DmaSem sig := 103
abbrev cc11_sem12_0 : DmaSem sig := 104
abbrev cc11_sem13_0 : DmaSem sig := 105
abbrev cc11_sem14_0 : DmaSem sig := 106
abbrev cc11_sem14_1 : DmaSem sig := 107
abbrev cc12_sem0_0 : DmaSem sig := 108
abbrev cc12_sem0_1 : DmaSem sig := 109
abbrev cc12_sem1_0 : DmaSem sig := 110
abbrev cc12_sem2_0 : DmaSem sig := 111
abbrev cc12_sem3_0 : DmaSem sig := 112
abbrev cc12_sem4_0 : DmaSem sig := 113
abbrev cc12_sem5_0 : DmaSem sig := 114
abbrev cc12_sem6_0 : DmaSem sig := 115
abbrev cc12_sem7_0 : DmaSem sig := 116
abbrev cc12_sem7_1 : DmaSem sig := 117
abbrev cc12_sem8_0 : DmaSem sig := 118
abbrev cc12_sem9_0 : DmaSem sig := 119
abbrev cc12_sem10_0 : DmaSem sig := 120
abbrev cc12_sem11_0 : DmaSem sig := 121
abbrev cc12_sem12_0 : DmaSem sig := 122
abbrev cc12_sem13_0 : DmaSem sig := 123
abbrev cc12_sem14_0 : DmaSem sig := 124
abbrev cc12_sem14_1 : DmaSem sig := 125
abbrev cc13_sem0_0 : DmaSem sig := 126
abbrev cc13_sem0_1 : DmaSem sig := 127
abbrev cc13_sem1_0 : DmaSem sig := 128
abbrev cc13_sem2_0 : DmaSem sig := 129
abbrev cc13_sem3_0 : DmaSem sig := 130
abbrev cc13_sem3_1 : DmaSem sig := 131
abbrev cc14_sem0_0 : DmaSem sig := 132
abbrev cc14_sem0_1 : DmaSem sig := 133
abbrev cc14_sem1_0 : DmaSem sig := 134
abbrev cc14_sem2_0 : DmaSem sig := 135
abbrev cc14_sem3_0 : DmaSem sig := 136
abbrev cc14_sem3_1 : DmaSem sig := 137
abbrev cc15_sem0_0 : DmaSem sig := 138
abbrev cc15_sem0_1 : DmaSem sig := 139
abbrev cc15_sem1_0 : DmaSem sig := 140
abbrev cc15_sem2_0 : DmaSem sig := 141
abbrev cc15_sem3_0 : DmaSem sig := 142
abbrev cc15_sem3_1 : DmaSem sig := 143
abbrev cc16_sem0_0 : DmaSem sig := 144
abbrev cc16_sem0_1 : DmaSem sig := 145
abbrev cc16_sem1_0 : DmaSem sig := 146
abbrev cc16_sem2_0 : DmaSem sig := 147
abbrev cc16_sem3_0 : DmaSem sig := 148
abbrev cc16_sem3_1 : DmaSem sig := 149
abbrev cc17_sem0_0 : DmaSem sig := 150
abbrev cc17_sem0_1 : DmaSem sig := 151
abbrev cc17_sem1_0 : DmaSem sig := 152
abbrev cc17_sem2_0 : DmaSem sig := 153
abbrev cc17_sem3_0 : DmaSem sig := 154
abbrev cc17_sem4_0 : DmaSem sig := 155
abbrev cc17_sem5_0 : DmaSem sig := 156
abbrev cc17_sem6_0 : DmaSem sig := 157
abbrev cc17_sem7_0 : DmaSem sig := 158
abbrev cc17_sem7_1 : DmaSem sig := 159
abbrev cc17_sem8_0 : DmaSem sig := 160
abbrev cc17_sem9_0 : DmaSem sig := 161
abbrev cc17_sem10_0 : DmaSem sig := 162
abbrev cc17_sem11_0 : DmaSem sig := 163
abbrev cc17_sem12_0 : DmaSem sig := 164
abbrev cc17_sem13_0 : DmaSem sig := 165
abbrev cc17_sem14_0 : DmaSem sig := 166
abbrev cc17_sem14_1 : DmaSem sig := 167
abbrev cc18_sem0_0 : DmaSem sig := 168
abbrev cc18_sem0_1 : DmaSem sig := 169
abbrev cc18_sem1_0 : DmaSem sig := 170
abbrev cc18_sem2_0 : DmaSem sig := 171
abbrev cc18_sem3_0 : DmaSem sig := 172
abbrev cc18_sem4_0 : DmaSem sig := 173
abbrev cc18_sem5_0 : DmaSem sig := 174
abbrev cc18_sem6_0 : DmaSem sig := 175
abbrev cc18_sem7_0 : DmaSem sig := 176
abbrev cc18_sem7_1 : DmaSem sig := 177
abbrev cc18_sem8_0 : DmaSem sig := 178
abbrev cc18_sem9_0 : DmaSem sig := 179
abbrev cc18_sem10_0 : DmaSem sig := 180
abbrev cc18_sem11_0 : DmaSem sig := 181
abbrev cc18_sem12_0 : DmaSem sig := 182
abbrev cc18_sem13_0 : DmaSem sig := 183
abbrev cc18_sem14_0 : DmaSem sig := 184
abbrev cc18_sem14_1 : DmaSem sig := 185
abbrev cc19_sem0_0 : DmaSem sig := 186
abbrev cc19_sem0_1 : DmaSem sig := 187
abbrev cc19_sem1_0 : DmaSem sig := 188
abbrev cc19_sem2_0 : DmaSem sig := 189
abbrev cc19_sem3_0 : DmaSem sig := 190
abbrev cc19_sem3_1 : DmaSem sig := 191
abbrev cc20_sem0_0 : DmaSem sig := 192
abbrev cc20_sem0_1 : DmaSem sig := 193
abbrev cc20_sem1_0 : DmaSem sig := 194
abbrev cc20_sem2_0 : DmaSem sig := 195
abbrev cc20_sem3_0 : DmaSem sig := 196
abbrev cc20_sem3_1 : DmaSem sig := 197

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x7 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S7x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S7x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S7x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x7 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S7x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_9 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_10 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_11 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_14 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 1 → Memref sig .tc .vmem S128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S128x128 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S128 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 2 → Memref sig .tc .vmem S2000x128 .f32 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_9 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_10 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_11 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_12 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_13 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_14 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 1 → Memref sig .tc .vmem S128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S128 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S128 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false]

abbrev stage6_12 : Fin 1 → Memref sig .tc .vmem S128x128 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false]

abbrev stage6_13 : Fin 1 → Memref sig .tc .vmem S128 .f32 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))
abbrev reads6_13 : Fin grid6.rank → Bool := ![false]

abbrev stage6_14 : Fin 2 → Memref sig .tc .vmem S2000x128 .f32 := fun | 0 => Memref.whole cc6_stg14_0 | 1 => Memref.whole cc6_stg14_1 | ⟨_ + 2, h⟩ => absurd h (Nat.not_lt.2 (Nat.le_add_left _ _))
abbrev sem6_14 : Fin 2 → DmaSem sig := fun | 0 => cc6_sem14_0 | 1 => cc6_sem14_1 | ⟨_ + 2, h⟩ => absurd h (Nat.not_lt.2 (Nat.le_add_left _ _))
abbrev reads6_14 : Fin grid6.rank → Bool := ![true]

abbrev grid7 : Pipeline.Grid := ⟨1, ![40], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![40], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S2000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![40], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_2 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_3 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_4 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_8 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_9 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_10 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_11 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_12 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_13 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_14 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S128x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S2000x128 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev stage11_8 : Fin 1 → Memref sig .tc .vmem S128 .f32 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 1 → Memref sig .tc .vmem S128 .f32 := fun | 0 => Memref.whole cc11_stg9_0 | ⟨_ + 1, h⟩ => absurd h (Nat.not_lt.2 (Nat.le_add_left _ _))
abbrev sem11_9 : Fin 1 → DmaSem sig := fun | 0 => cc11_sem9_0 | ⟨_ + 1, h⟩ => absurd h (Nat.not_lt.2 (Nat.le_add_left _ _))
abbrev reads11_9 : Fin grid11.rank → Bool := ![false]

abbrev stage11_10 : Fin 1 → Memref sig .tc .vmem S128 .f32 := fun | 0 => Memref.whole cc11_stg10_0 | ⟨_ + 1, h⟩ => absurd h (Nat.not_lt.2 (Nat.le_add_left _ _))
abbrev sem11_10 : Fin 1 → DmaSem sig := fun | 0 => cc11_sem10_0 | ⟨_ + 1, h⟩ => absurd h (Nat.not_lt.2 (Nat.le_add_left _ _))
abbrev reads11_10 : Fin grid11.rank → Bool := ![false]

abbrev stage11_11 : Fin 1 → Memref sig .tc .vmem S128 .f32 := fun | 0 => Memref.whole cc11_stg11_0 | ⟨_ + 1, h⟩ => absurd h (Nat.not_lt.2 (Nat.le_add_left _ _))
abbrev sem11_11 : Fin 1 → DmaSem sig := fun | 0 => cc11_sem11_0 | ⟨_ + 1, h⟩ => absurd h (Nat.not_lt.2 (Nat.le_add_left _ _))
abbrev reads11_11 : Fin grid11.rank → Bool := ![false]

abbrev stage11_12 : Fin 1 → Memref sig .tc .vmem S128x128 .f32 := fun | 0 => Memref.whole cc11_stg12_0 | ⟨_ + 1, h⟩ => absurd h (Nat.not_lt.2 (Nat.le_add_left _ _))
abbrev sem11_12 : Fin 1 → DmaSem sig := fun | 0 => cc11_sem12_0 | ⟨_ + 1, h⟩ => absurd h (Nat.not_lt.2 (Nat.le_add_left _ _))
abbrev reads11_12 : Fin grid11.rank → Bool := ![false]

abbrev stage11_13 : Fin 1 → Memref sig .tc .vmem S128 .f32 := fun | 0 => Memref.whole cc11_stg13_0 | ⟨_ + 1, h⟩ => absurd h (Nat.not_lt.2 (Nat.le_add_left _ _))
abbrev sem11_13 : Fin 1 → DmaSem sig := fun | 0 => cc11_sem13_0 | ⟨_ + 1, h⟩ => absurd h (Nat.not_lt.2 (Nat.le_add_left _ _))
abbrev reads11_13 : Fin grid11.rank → Bool := ![false]

abbrev stage11_14 : Fin 2 → Memref sig .tc .vmem S2000x128 .f32 := fun | 0 => Memref.whole cc11_stg14_0 | 1 => Memref.whole cc11_stg14_1 | ⟨_ + 2, h⟩ => absurd h (Nat.not_lt.2 (Nat.le_add_left _ _))
abbrev sem11_14 : Fin 2 → DmaSem sig := fun | 0 => cc11_sem14_0 | 1 => cc11_sem14_1 | ⟨_ + 2, h⟩ => absurd h (Nat.not_lt.2 (Nat.le_add_left _ _))
abbrev reads11_14 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_2 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_3 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_4 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_8 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_9 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_10 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_11 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_12 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_13 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_14 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S128 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S128x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S128 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 2 → Memref sig .tc .vmem S2000x128 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev stage12_8 : Fin 1 → Memref sig .tc .vmem S128 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev stage12_9 : Fin 1 → Memref sig .tc .vmem S128 .f32 := fun | 0 => Memref.whole cc12_stg9_0 | ⟨_ + 1, h⟩ => absurd h (Nat.not_lt.2 (Nat.le_add_left _ _))
abbrev sem12_9 : Fin 1 → DmaSem sig := fun | 0 => cc12_sem9_0 | ⟨_ + 1, h⟩ => absurd h (Nat.not_lt.2 (Nat.le_add_left _ _))
abbrev reads12_9 : Fin grid12.rank → Bool := ![false]

abbrev stage12_10 : Fin 1 → Memref sig .tc .vmem S128 .f32 := fun | 0 => Memref.whole cc12_stg10_0 | ⟨_ + 1, h⟩ => absurd h (Nat.not_lt.2 (Nat.le_add_left _ _))
abbrev sem12_10 : Fin 1 → DmaSem sig := fun | 0 => cc12_sem10_0 | ⟨_ + 1, h⟩ => absurd h (Nat.not_lt.2 (Nat.le_add_left _ _))
abbrev reads12_10 : Fin grid12.rank → Bool := ![false]

abbrev stage12_11 : Fin 1 → Memref sig .tc .vmem S128 .f32 := fun | 0 => Memref.whole cc12_stg11_0 | ⟨_ + 1, h⟩ => absurd h (Nat.not_lt.2 (Nat.le_add_left _ _))
abbrev sem12_11 : Fin 1 → DmaSem sig := fun | 0 => cc12_sem11_0 | ⟨_ + 1, h⟩ => absurd h (Nat.not_lt.2 (Nat.le_add_left _ _))
abbrev reads12_11 : Fin grid12.rank → Bool := ![false]

abbrev stage12_12 : Fin 1 → Memref sig .tc .vmem S128x128 .f32 := fun | 0 => Memref.whole cc12_stg12_0 | ⟨_ + 1, h⟩ => absurd h (Nat.not_lt.2 (Nat.le_add_left _ _))
abbrev sem12_12 : Fin 1 → DmaSem sig := fun | 0 => cc12_sem12_0 | ⟨_ + 1, h⟩ => absurd h (Nat.not_lt.2 (Nat.le_add_left _ _))
abbrev reads12_12 : Fin grid12.rank → Bool := ![false]

abbrev stage12_13 : Fin 1 → Memref sig .tc .vmem S128 .f32 := fun | 0 => Memref.whole cc12_stg13_0 | ⟨_ + 1, h⟩ => absurd h (Nat.not_lt.2 (Nat.le_add_left _ _))
abbrev sem12_13 : Fin 1 → DmaSem sig := fun | 0 => cc12_sem13_0 | ⟨_ + 1, h⟩ => absurd h (Nat.not_lt.2 (Nat.le_add_left _ _))
abbrev reads12_13 : Fin grid12.rank → Bool := ![false]

abbrev stage12_14 : Fin 2 → Memref sig .tc .vmem S2000x128 .f32 := fun | 0 => Memref.whole cc12_stg14_0 | 1 => Memref.whole cc12_stg14_1 | ⟨_ + 2, h⟩ => absurd h (Nat.not_lt.2 (Nat.le_add_left _ _))
abbrev sem12_14 : Fin 2 → DmaSem sig := fun | 0 => cc12_sem14_0 | 1 => cc12_sem14_1 | ⟨_ + 2, h⟩ => absurd h (Nat.not_lt.2 (Nat.le_add_left _ _))
abbrev reads12_14 : Fin grid12.rank → Bool := ![true]

abbrev grid13 : Pipeline.Grid := ⟨1, ![40], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S2000x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![40], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 1 → Nat :=
  let arg0 : BitVec 32 := BitVec.ofNat 32 (i 0).val
  let c0_i32 : BitVec 32 := 0#32
  let c0_i32_0 : BitVec 32 := 0#32
  ![c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S128x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S2000x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 1 → Nat :=
  let arg0 : BitVec 32 := BitVec.ofNat 32 (i 0).val
  let c0_i32 : BitVec 32 := 0#32
  let c0_i32_0 : BitVec 32 := 0#32
  ![c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S128x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S2000x128 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 1 → Nat :=
  let arg0 : BitVec 32 := BitVec.ofNat 32 (i 0).val
  let c0_i32 : BitVec 32 := 0#32
  let c0_i32_0 : BitVec 32 := 0#32
  ![c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S2000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S128x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S2000x128 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev grid17 : Pipeline.Grid := ⟨1, ![40], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 1 → Nat :=
  let arg0 : BitVec 32 := BitVec.ofNat 32 (i 0).val
  let c0_i32 : BitVec 32 := 0#32
  let c0_i32_0 : BitVec 32 := 0#32
  ![c0_i32.toNat]

def cc17_transform_2 (i : grid17.Coords) : Fin 1 → Nat :=
  let arg0 : BitVec 32 := BitVec.ofNat 32 (i 0).val
  let c0_i32 : BitVec 32 := 0#32
  let c0_i32_0 : BitVec 32 := 0#32
  ![c0_i32.toNat]

def cc17_transform_3 (i : grid17.Coords) : Fin 1 → Nat :=
  let arg0 : BitVec 32 := BitVec.ofNat 32 (i 0).val
  let c0_i32 : BitVec 32 := 0#32
  let c0_i32_0 : BitVec 32 := 0#32
  ![c0_i32.toNat]

def cc17_transform_4 (i : grid17.Coords) : Fin 1 → Nat :=
  let arg0 : BitVec 32 := BitVec.ofNat 32 (i 0).val
  let c0_i32 : BitVec 32 := 0#32
  let c0_i32_0 : BitVec 32 := 0#32
  ![c0_i32.toNat]

def cc17_transform_5 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_6 (i : grid17.Coords) : Fin 1 → Nat :=
  let arg0 : BitVec 32 := BitVec.ofNat 32 (i 0).val
  let c0_i32 : BitVec 32 := 0#32
  let c0_i32_0 : BitVec 32 := 0#32
  ![c0_i32.toNat]

def cc17_transform_7 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_8 (i : grid17.Coords) : Fin 1 → Nat :=
  let arg0 : BitVec 32 := BitVec.ofNat 32 (i 0).val
  let c0_i32 : BitVec 32 := 0#32
  let c0_i32_0 : BitVec 32 := 0#32
  ![c0_i32.toNat]

def cc17_transform_9 (i : grid17.Coords) : Fin 1 → Nat :=
  let arg0 : BitVec 32 := BitVec.ofNat 32 (i 0).val
  let c0_i32 : BitVec 32 := 0#32
  let c0_i32_0 : BitVec 32 := 0#32
  ![c0_i32.toNat]

def cc17_transform_10 (i : grid17.Coords) : Fin 1 → Nat :=
  let arg0 : BitVec 32 := BitVec.ofNat 32 (i 0).val
  let c0_i32 : BitVec 32 := 0#32
  let c0_i32_0 : BitVec 32 := 0#32
  ![c0_i32.toNat]

def cc17_transform_11 (i : grid17.Coords) : Fin 1 → Nat :=
  let arg0 : BitVec 32 := BitVec.ofNat 32 (i 0).val
  let c0_i32 : BitVec 32 := 0#32
  let c0_i32_0 : BitVec 32 := 0#32
  ![c0_i32.toNat]

def cc17_transform_12 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_13 (i : grid17.Coords) : Fin 1 → Nat :=
  let arg0 : BitVec 32 := BitVec.ofNat 32 (i 0).val
  let c0_i32 : BitVec 32 := 0#32
  let c0_i32_0 : BitVec 32 := 0#32
  ![c0_i32.toNat]

def cc17_transform_14 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S2000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S128 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 1 → Memref sig .tc .vmem S128 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 1 → Memref sig .tc .vmem S128x128 .f32 := fun | 0 => Memref.whole cc17_stg5_0 | ⟨_ + 1, h⟩ => absurd h (Nat.not_lt.2 (Nat.le_add_left _ _))
abbrev sem17_5 : Fin 1 → DmaSem sig := fun | 0 => cc17_sem5_0 | ⟨_ + 1, h⟩ => absurd h (Nat.not_lt.2 (Nat.le_add_left _ _))
abbrev reads17_5 : Fin grid17.rank → Bool := ![false]

abbrev stage17_6 : Fin 1 → Memref sig .tc .vmem S128 .f32 := fun | 0 => Memref.whole cc17_stg6_0 | ⟨_ + 1, h⟩ => absurd h (Nat.not_lt.2 (Nat.le_add_left _ _))
abbrev sem17_6 : Fin 1 → DmaSem sig := fun | 0 => cc17_sem6_0 | ⟨_ + 1, h⟩ => absurd h (Nat.not_lt.2 (Nat.le_add_left _ _))
abbrev reads17_6 : Fin grid17.rank → Bool := ![false]

abbrev stage17_7 : Fin 2 → Memref sig .tc .vmem S2000x128 .f32 := fun | 0 => Memref.whole cc17_stg7_0 | 1 => Memref.whole cc17_stg7_1 | ⟨_ + 2, h⟩ => absurd h (Nat.not_lt.2 (Nat.le_add_left _ _))
abbrev sem17_7 : Fin 2 → DmaSem sig := fun | 0 => cc17_sem7_0 | 1 => cc17_sem7_1 | ⟨_ + 2, h⟩ => absurd h (Nat.not_lt.2 (Nat.le_add_left _ _))
abbrev reads17_7 : Fin grid17.rank → Bool := ![true]

abbrev stage17_8 : Fin 1 → Memref sig .tc .vmem S128 .f32 := fun | 0 => Memref.whole cc17_stg8_0 | ⟨_ + 1, h⟩ => absurd h (Nat.not_lt.2 (Nat.le_add_left _ _))
abbrev sem17_8 : Fin 1 → DmaSem sig := fun | 0 => cc17_sem8_0 | ⟨_ + 1, h⟩ => absurd h (Nat.not_lt.2 (Nat.le_add_left _ _))
abbrev reads17_8 : Fin grid17.rank → Bool := ![false]

abbrev stage17_9 : Fin 1 → Memref sig .tc .vmem S128 .f32 := fun | 0 => Memref.whole cc17_stg9_0 | ⟨_ + 1, h⟩ => absurd h (Nat.not_lt.2 (Nat.le_add_left _ _))
abbrev sem17_9 : Fin 1 → DmaSem sig := fun | 0 => cc17_sem9_0 | ⟨_ + 1, h⟩ => absurd h (Nat.not_lt.2 (Nat.le_add_left _ _))
abbrev reads17_9 : Fin grid17.rank → Bool := ![false]

abbrev stage17_10 : Fin 1 → Memref sig .tc .vmem S128 .f32 := fun | 0 => Memref.whole cc17_stg10_0 | ⟨_ + 1, h⟩ => absurd h (Nat.not_lt.2 (Nat.le_add_left _ _))
abbrev sem17_10 : Fin 1 → DmaSem sig := fun | 0 => cc17_sem10_0 | ⟨_ + 1, h⟩ => absurd h (Nat.not_lt.2 (Nat.le_add_left _ _))
abbrev reads17_10 : Fin grid17.rank → Bool := ![false]

abbrev stage17_11 : Fin 1 → Memref sig .tc .vmem S128 .f32 := fun | 0 => Memref.whole cc17_stg11_0 | ⟨_ + 1, h⟩ => absurd h (Nat.not_lt.2 (Nat.le_add_left _ _))
abbrev sem17_11 : Fin 1 → DmaSem sig := fun | 0 => cc17_sem11_0 | ⟨_ + 1, h⟩ => absurd h (Nat.not_lt.2 (Nat.le_add_left _ _))
abbrev reads17_11 : Fin grid17.rank → Bool := ![false]

abbrev stage17_12 : Fin 1 → Memref sig .tc .vmem S128x128 .f32 := fun | 0 => Memref.whole cc17_stg12_0 | ⟨_ + 1, h⟩ => absurd h (Nat.not_lt.2 (Nat.le_add_left _ _))
abbrev sem17_12 : Fin 1 → DmaSem sig := fun | 0 => cc17_sem12_0 | ⟨_ + 1, h⟩ => absurd h (Nat.not_lt.2 (Nat.le_add_left _ _))
abbrev reads17_12 : Fin grid17.rank → Bool := ![false]

abbrev stage17_13 : Fin 1 → Memref sig .tc .vmem S128 .f32 := fun | 0 => Memref.whole cc17_stg13_0 | ⟨_ + 1, h⟩ => absurd h (Nat.not_lt.2 (Nat.le_add_left _ _))
abbrev sem17_13 : Fin 1 → DmaSem sig := fun | 0 => cc17_sem13_0 | ⟨_ + 1, h⟩ => absurd h (Nat.not_lt.2 (Nat.le_add_left _ _))
abbrev reads17_13 : Fin grid17.rank → Bool := ![false]

abbrev stage17_14 : Fin 2 → Memref sig .tc .vmem S2000x128 .f32 := fun | 0 => Memref.whole cc17_stg14_0 | 1 => Memref.whole cc17_stg14_1 | ⟨_ + 2, h⟩ => absurd h (Nat.not_lt.2 (Nat.le_add_left _ _))
abbrev sem17_14 : Fin 2 → DmaSem sig := fun | 0 => cc17_sem14_0 | 1 => cc17_sem14_1 | ⟨_ + 2, h⟩ => absurd h (Nat.not_lt.2 (Nat.le_add_left _ _))
abbrev reads17_14 : Fin grid17.rank → Bool := ![true]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 1 → Nat :=
  let arg0 : BitVec 32 := BitVec.ofNat 32 (i 0).val
  let c0_i32 : BitVec 32 := 0#32
  let c0_i32_0 : BitVec 32 := 0#32
  ![c0_i32.toNat]

def cc18_transform_2 (i : grid18.Coords) : Fin 1 → Nat :=
  let arg0 : BitVec 32 := BitVec.ofNat 32 (i 0).val
  let c0_i32 : BitVec 32 := 0#32
  let c0_i32_0 : BitVec 32 := 0#32
  ![c0_i32.toNat]

def cc18_transform_3 (i : grid18.Coords) : Fin 1 → Nat :=
  let arg0 : BitVec 32 := BitVec.ofNat 32 (i 0).val
  let c0_i32 : BitVec 32 := 0#32
  let c0_i32_0 : BitVec 32 := 0#32
  ![c0_i32.toNat]

def cc18_transform_4 (i : grid18.Coords) : Fin 1 → Nat :=
  let arg0 : BitVec 32 := BitVec.ofNat 32 (i 0).val
  let c0_i32 : BitVec 32 := 0#32
  let c0_i32_0 : BitVec 32 := 0#32
  ![c0_i32.toNat]

def cc18_transform_5 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_6 (i : grid18.Coords) : Fin 1 → Nat :=
  let arg0 : BitVec 32 := BitVec.ofNat 32 (i 0).val
  let c0_i32 : BitVec 32 := 0#32
  let c0_i32_0 : BitVec 32 := 0#32
  ![c0_i32.toNat]

def cc18_transform_7 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_8 (i : grid18.Coords) : Fin 1 → Nat :=
  let arg0 : BitVec 32 := BitVec.ofNat 32 (i 0).val
  let c0_i32 : BitVec 32 := 0#32
  let c0_i32_0 : BitVec 32 := 0#32
  ![c0_i32.toNat]

def cc18_transform_9 (i : grid18.Coords) : Fin 1 → Nat :=
  let arg0 : BitVec 32 := BitVec.ofNat 32 (i 0).val
  let c0_i32 : BitVec 32 := 0#32
  let c0_i32_0 : BitVec 32 := 0#32
  ![c0_i32.toNat]

def cc18_transform_10 (i : grid18.Coords) : Fin 1 → Nat :=
  let arg0 : BitVec 32 := BitVec.ofNat 32 (i 0).val
  let c0_i32 : BitVec 32 := 0#32
  let c0_i32_0 : BitVec 32 := 0#32
  ![c0_i32.toNat]

def cc18_transform_11 (i : grid18.Coords) : Fin 1 → Nat :=
  let arg0 : BitVec 32 := BitVec.ofNat 32 (i 0).val
  let c0_i32 : BitVec 32 := 0#32
  let c0_i32_0 : BitVec 32 := 0#32
  ![c0_i32.toNat]

def cc18_transform_12 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_13 (i : grid18.Coords) : Fin 1 → Nat :=
  let arg0 : BitVec 32 := BitVec.ofNat 32 (i 0).val
  let c0_i32 : BitVec 32 := 0#32
  let c0_i32_0 : BitVec 32 := 0#32
  ![c0_i32.toNat]

def cc18_transform_14 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S2000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S128 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S128 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 1 → Memref sig .tc .vmem S128x128 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))
abbrev reads18_5 : Fin grid18.rank → Bool := ![false]

abbrev stage18_6 : Fin 1 → Memref sig .tc .vmem S128 .f32 := fun | 0 => Memref.whole cc18_stg6_0 | ⟨_ + 1, h⟩ => absurd h (Nat.not_lt.2 (Nat.le_add_left _ _))
abbrev sem18_6 : Fin 1 → DmaSem sig := fun | 0 => cc18_sem6_0 | ⟨_ + 1, h⟩ => absurd h (Nat.not_lt.2 (Nat.le_add_left _ _))
abbrev reads18_6 : Fin grid18.rank → Bool := ![false]

abbrev stage18_7 : Fin 2 → Memref sig .tc .vmem S2000x128 .f32 := fun | 0 => Memref.whole cc18_stg7_0 | 1 => Memref.whole cc18_stg7_1 | ⟨_ + 2, h⟩ => absurd h (Nat.not_lt.2 (Nat.le_add_left _ _))
abbrev sem18_7 : Fin 2 → DmaSem sig := fun | 0 => cc18_sem7_0 | 1 => cc18_sem7_1 | ⟨_ + 2, h⟩ => absurd h (Nat.not_lt.2 (Nat.le_add_left _ _))
abbrev reads18_7 : Fin grid18.rank → Bool := ![true]

abbrev stage18_8 : Fin 1 → Memref sig .tc .vmem S128 .f32 := fun | 0 => Memref.whole cc18_stg8_0 | ⟨_ + 1, h⟩ => absurd h (Nat.not_lt.2 (Nat.le_add_left _ _))
abbrev sem18_8 : Fin 1 → DmaSem sig := fun | 0 => cc18_sem8_0 | ⟨_ + 1, h⟩ => absurd h (Nat.not_lt.2 (Nat.le_add_left _ _))
abbrev reads18_8 : Fin grid18.rank → Bool := ![false]

abbrev stage18_9 : Fin 1 → Memref sig .tc .vmem S128 .f32 := fun | 0 => Memref.whole cc18_stg9_0 | ⟨_ + 1, h⟩ => absurd h (Nat.not_lt.2 (Nat.le_add_left _ _))
abbrev sem18_9 : Fin 1 → DmaSem sig := fun | 0 => cc18_sem9_0 | ⟨_ + 1, h⟩ => absurd h (Nat.not_lt.2 (Nat.le_add_left _ _))
abbrev reads18_9 : Fin grid18.rank → Bool := ![false]

abbrev stage18_10 : Fin 1 → Memref sig .tc .vmem S128 .f32 := fun | 0 => Memref.whole cc18_stg10_0 | ⟨_ + 1, h⟩ => absurd h (Nat.not_lt.2 (Nat.le_add_left _ _))
abbrev sem18_10 : Fin 1 → DmaSem sig := fun | 0 => cc18_sem10_0 | ⟨_ + 1, h⟩ => absurd h (Nat.not_lt.2 (Nat.le_add_left _ _))
abbrev reads18_10 : Fin grid18.rank → Bool := ![false]

abbrev stage18_11 : Fin 1 → Memref sig .tc .vmem S128 .f32 := fun | 0 => Memref.whole cc18_stg11_0 | ⟨_ + 1, h⟩ => absurd h (Nat.not_lt.2 (Nat.le_add_left _ _))
abbrev sem18_11 : Fin 1 → DmaSem sig := fun | 0 => cc18_sem11_0 | ⟨_ + 1, h⟩ => absurd h (Nat.not_lt.2 (Nat.le_add_left _ _))
abbrev reads18_11 : Fin grid18.rank → Bool := ![false]

abbrev stage18_12 : Fin 1 → Memref sig .tc .vmem S128x128 .f32 := fun | 0 => Memref.whole cc18_stg12_0 | ⟨_ + 1, h⟩ => absurd h (Nat.not_lt.2 (Nat.le_add_left _ _))
abbrev sem18_12 : Fin 1 → DmaSem sig := fun | 0 => cc18_sem12_0 | ⟨_ + 1, h⟩ => absurd h (Nat.not_lt.2 (Nat.le_add_left _ _))
abbrev reads18_12 : Fin grid18.rank → Bool := ![false]

abbrev stage18_13 : Fin 1 → Memref sig .tc .vmem S128 .f32 := fun | 0 => Memref.whole cc18_stg13_0 | ⟨_ + 1, h⟩ => absurd h (Nat.not_lt.2 (Nat.le_add_left _ _))
abbrev sem18_13 : Fin 1 → DmaSem sig := fun | 0 => cc18_sem13_0 | ⟨_ + 1, h⟩ => absurd h (Nat.not_lt.2 (Nat.le_add_left _ _))
abbrev reads18_13 : Fin grid18.rank → Bool := ![false]

abbrev stage18_14 : Fin 2 → Memref sig .tc .vmem S2000x128 .f32 := fun | 0 => Memref.whole cc18_stg14_0 | 1 => Memref.whole cc18_stg14_1 | ⟨_ + 2, h⟩ => absurd h (Nat.not_lt.2 (Nat.le_add_left _ _))
abbrev sem18_14 : Fin 2 → DmaSem sig := fun | 0 => cc18_sem14_0 | 1 => cc18_sem14_1 | ⟨_ + 2, h⟩ => absurd h (Nat.not_lt.2 (Nat.le_add_left _ _))
abbrev reads18_14 : Fin grid18.rank → Bool := ![true]

abbrev grid19 : Pipeline.Grid := ⟨1, ![40], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 1 → Nat :=
  let arg0 : BitVec 32 := BitVec.ofNat 32 (i 0).val
  let c0_i32 : BitVec 32 := 0#32
  let c0_i32_0 : BitVec 32 := 0#32
  ![c0_i32.toNat]

def cc19_transform_3 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S2000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S128x128 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S128 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 2 → Memref sig .tc .vmem S2000x128 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true]

abbrev grid20 : Pipeline.Grid := ⟨1, ![10], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 1 → Nat :=
  let arg0 : BitVec 32 := BitVec.ofNat 32 (i 0).val
  let c0_i32 : BitVec 32 := 0#32
  let c0_i32_0 : BitVec 32 := 0#32
  ![c0_i32.toNat]

def cc20_transform_3 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S2000x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S128x128 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 1 → Memref sig .tc .vmem S128 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 2 → Memref sig .tc .vmem S2000x128 .f32 := fun | 0 => Memref.whole cc20_stg3_0 | 1 => Memref.whole cc20_stg3_1 | ⟨_ + 2, h⟩ => absurd h (Nat.not_lt.2 (Nat.le_add_left _ _))
abbrev sem20_3 : Fin 2 → DmaSem sig := fun | 0 => cc20_sem3_0 | 1 => cc20_sem3_1 | ⟨_ + 2, h⟩ => absurd h (Nat.not_lt.2 (Nat.le_add_left _ _))
abbrev reads20_3 : Fin grid20.rank → Bool := ![true]

class Facts₀ : Prop where
  inb_S2000x4_S2000x4_0_0 : ∀ a, (![0, 0] : Fin 2 → Nat) a + S2000x4.size a ≤ S2000x4.size a
  h_S2000x4 : 0 < S2000x4.numel
  bitsLt_bf16_f32 : FTy.bits .bf16 < FTy.bits .f32
  inb_S4x7_S4x7_0_0 : ∀ a, (![0, 0] : Fin 2 → Nat) a + S4x7.size a ≤ S4x7.size a
  h_S4x7 : 0 < S4x7.numel
  inb_S7_S7_0 : ∀ a, (![0] : Fin 1 → Nat) a + S7.size a ≤ S7.size a
  h_S7 : 0 < S7.numel
  shapeCasts_S7_S1x7 : S7.ShapeCasts S1x7
  broadcasts_S1x7_S2000x7 : S1x7.Broadcasts S2000x7
  inb_S2000x7_S2000x7_0_0 : ∀ a, (![0, 0] : Fin 2 → Nat) a + S2000x7.size a ≤ S2000x7.size a
  h_S2000x7 : 0 < S2000x7.numel
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S80000x7 : S_.BroadcastsInDim S80000x7 (![] : Fin 0 → Fin S80000x7.rank)
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  bcast_S_S20000x7 : S_.BroadcastsInDim S20000x7 (![] : Fin 0 → Fin S20000x7.rank)
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  slices_S4x7x128_S1x7x128_0_0_0 : S4x7x128.Slices ![0, 0, 0] S1x7x128
  shapeCasts_S1x7x128_S7x128 : S1x7x128.ShapeCasts S7x128
  slices_S4x128_S1x128_0_0 : S4x128.Slices ![0, 0] S1x128
  shapeCasts_S1x128_S128 : S1x128.ShapeCasts S128
  shapeCasts_S2000x7_S2000x7 : S2000x7.ShapeCasts S2000x7
  inb_S7x128_S7x128_0_0 : ∀ a, (![0, 0] : Fin 2 → Nat) a + S7x128.size a ≤ S7x128.size a
  h_S7x128 : 0 < S7x128.numel
  shapeCasts_S7x128_S7x128 : S7x128.ShapeCasts S7x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S4x7x128_S1x7x128_2_0_0 : S4x7x128.Slices ![2, 0, 0] S1x7x128
  slices_S4x128_S1x128_2_0 : S4x128.Slices ![2, 0] S1x128
  slices_S4x7x128_S1x7x128_1_0_0 : S4x7x128.Slices ![1, 0, 0] S1x7x128
  slices_S4x128_S1x128_1_0 : S4x128.Slices ![1, 0] S1x128
  slices_S4x7x128_S1x7x128_3_0_0 : S4x7x128.Slices ![3, 0, 0] S1x7x128
  slices_S4x128_S1x128_3_0 : S4x128.Slices ![3, 0] S1x128
  reducesTo_S80000x128_S128_d0 : S80000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S80000x128_0_1 : S1x128.BroadcastsInDim S80000x128 (![0, 1] : Fin 2 → Fin S80000x128.rank)
  reducesTo_S20000x128_S128_d0 : S20000x128.ReducesTo [0] S128
  bcast_S1x128_S20000x128_0_1 : S1x128.BroadcastsInDim S20000x128 (![0, 1] : Fin 2 → Fin S20000x128.rank)
  slices_S4x128x128_S1x128x128_0_0_0 : S4x128x128.Slices ![0, 0, 0] S1x128x128
  shapeCasts_S1x128x128_S128x128 : S1x128x128.ShapeCasts S128x128
  slices_S4x128x128_S1x128x128_2_0_0 : S4x128x128.Slices ![2, 0, 0] S1x128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S4x128x128_S1x128x128_1_0_0 : S4x128x128.Slices ![1, 0, 0] S1x128x128
  slices_S4x128x128_S1x128x128_3_0_0 : S4x128x128.Slices ![3, 0, 0] S1x128x128
  slices_S2x4x128x128_S1x4x128x128_0_0_0_0 : S2x4x128x128.Slices ![0, 0, 0, 0] S1x4x128x128
  shapeCasts_S1x4x128x128_S4x128x128 : S1x4x128x128.ShapeCasts S4x128x128
  slices_S2x4x128_S1x4x128_0_0_0 : S2x4x128.Slices ![0, 0, 0] S1x4x128
  shapeCasts_S1x4x128_S4x128 : S1x4x128.ShapeCasts S4x128
  bcast_S_S80000x128 : S_.BroadcastsInDim S80000x128 (![] : Fin 0 → Fin S80000x128.rank)
  bcast_S_S20000x128 : S_.BroadcastsInDim S20000x128 (![] : Fin 0 → Fin S20000x128.rank)
  slices_S2x4x128x128_S1x4x128x128_1_0_0_0 : S2x4x128x128.Slices ![1, 0, 0, 0] S1x4x128x128
  slices_S2x4x128_S1x4x128_1_0_0 : S2x4x128.Slices ![1, 0, 0] S1x4x128
  dot_S2000x4_S4x7_S2000x7_1_0_0_1_n_n_wf : DotDims.WF S2000x4 S4x7 S2000x7 [1] [0] [0] [1] [] []
  gather_S80000x7_S1000000x1_S1000000x7_1_0_n_n_0_1_17_wf : GatherDims.WF S80000x7 S1000000x1 S1000000x7 [1] [0] [] [0] [] 1 ![1, 7]
  scatter_S80000x7_S1000000x1_S1000000x7_1_0_0_1_wf : ScatterDims.WF S80000x7 S1000000x1 S1000000x7 [1] [0] [0] 1
  gather_S20000x7_S300000x1_S300000x7_1_0_n_n_0_1_17_wf : GatherDims.WF S20000x7 S300000x1 S300000x7 [1] [0] [] [0] [] 1 ![1, 7]
  scatter_S80000x7_S300000x1_S300000x7_1_0_0_1_wf : ScatterDims.WF S80000x7 S300000x1 S300000x7 [1] [0] [0] 1
  gather_S80000x7_S300000x1_S300000x7_1_0_n_n_0_1_17_wf : GatherDims.WF S80000x7 S300000x1 S300000x7 [1] [0] [] [0] [] 1 ![1, 7]
  scatter_S20000x7_S300000x1_S300000x7_1_0_0_1_wf : ScatterDims.WF S20000x7 S300000x1 S300000x7 [1] [0] [0] 1
  gather_S20000x7_S100000x1_S100000x7_1_0_n_n_0_1_17_wf : GatherDims.WF S20000x7 S100000x1 S100000x7 [1] [0] [] [0] [] 1 ![1, 7]
  scatter_S20000x7_S100000x1_S100000x7_1_0_0_1_wf : ScatterDims.WF S20000x7 S100000x1 S100000x7 [1] [0] [0] 1
  dot_S2000x7_S7x128_S2000x128_1_0_0_1_n_n_wf : DotDims.WF S2000x7 S7x128 S2000x128 [1] [0] [0] [1] [] []
  dot_S2000x128_S128x128_S2000x128_1_0_0_1_n_n_wf : DotDims.WF S2000x128 S128x128 S2000x128 [1] [0] [0] [1] [] []
  gather_S80000x128_S1000000x1_S1000000x128_1_0_n_n_0_1_1128_wf : GatherDims.WF S80000x128 S1000000x1 S1000000x128 [1] [0] [] [0] [] 1 ![1, 128]
  scatter_S80000x128_S1000000x1_S1000000x128_1_0_0_1_wf : ScatterDims.WF S80000x128 S1000000x1 S1000000x128 [1] [0] [0] 1
  gather_S20000x128_S300000x1_S300000x128_1_0_n_n_0_1_1128_wf : GatherDims.WF S20000x128 S300000x1 S300000x128 [1] [0] [] [0] [] 1 ![1, 128]
  scatter_S80000x128_S300000x1_S300000x128_1_0_0_1_wf : ScatterDims.WF S80000x128 S300000x1 S300000x128 [1] [0] [0] 1
  gather_S80000x128_S300000x1_S300000x128_1_0_n_n_0_1_1128_wf : GatherDims.WF S80000x128 S300000x1 S300000x128 [1] [0] [] [0] [] 1 ![1, 128]
  scatter_S20000x128_S300000x1_S300000x128_1_0_0_1_wf : ScatterDims.WF S20000x128 S300000x1 S300000x128 [1] [0] [0] 1
  gather_S20000x128_S100000x1_S100000x128_1_0_n_n_0_1_1128_wf : GatherDims.WF S20000x128 S100000x1 S100000x128 [1] [0] [] [0] [] 1 ![1, 128]
  scatter_S20000x128_S100000x1_S100000x128_1_0_0_1_wf : ScatterDims.WF S20000x128 S100000x1 S100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x4.size a ≤ S20000x4.size a
  hwx0_0 : ∀ i : grid0.Coords, EltTy.bits .f32 = 32 ∨ (Rect.block (s := S20000x4) S2000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x7.size a ≤ S4x7.size a
  hwx0_1 : ∀ i : grid0.Coords, EltTy.bits .f32 = 32 ∨ (Rect.block (s := S4x7) S4x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7.size a ≤ S7.size a
  hwx0_2 : ∀ i : grid0.Coords, EltTy.bits .f32 = 32 ∨ (Rect.block (s := S7) S7.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x7.size a ≤ S20000x7.size a
  hwx0_3 : ∀ i : grid0.Coords, EltTy.bits .f32 = 32 ∨ (Rect.block (s := S20000x7) S2000x7.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x7.size a ≤ S80000x7.size a
  hwx1_0 : ∀ i : grid1.Coords, EltTy.bits .f32 = 32 ∨ (Rect.block (s := S80000x7) S2000x7.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S7x128.size a ≤ S7x128.size a
  hwx1_1 : ∀ i : grid1.Coords, EltTy.bits .f32 = 32 ∨ (Rect.block (s := S7x128) S7x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S80000x128.size a
  hwx1_3 : ∀ i : grid1.Coords, EltTy.bits .f32 = 32 ∨ (Rect.block (s := S80000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x7.size a ≤ S80000x7.size a
  hwx2_0 : ∀ i : grid2.Coords, EltTy.bits .f32 = 32 ∨ (Rect.block (s := S80000x7) S2000x7.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S7x128.size a ≤ S7x128.size a
  hwx2_1 : ∀ i : grid2.Coords, EltTy.bits .f32 = 32 ∨ (Rect.block (s := S7x128) S7x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S80000x128.size a
  hwx2_3 : ∀ i : grid2.Coords, EltTy.bits .f32 = 32 ∨ (Rect.block (s := S80000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x7.size a ≤ S20000x7.size a
  hwx3_0 : ∀ i : grid3.Coords, EltTy.bits .f32 = 32 ∨ (Rect.block (s := S20000x7) S2000x7.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S7x128.size a ≤ S7x128.size a
  hwx3_1 : ∀ i : grid3.Coords, EltTy.bits .f32 = 32 ∨ (Rect.block (s := S7x128) S7x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S20000x128.size a
  hwx3_3 : ∀ i : grid3.Coords, EltTy.bits .f32 = 32 ∨ (Rect.block (s := S20000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x7.size a ≤ S20000x7.size a
  hwx4_0 : ∀ i : grid4.Coords, EltTy.bits .f32 = 32 ∨ (Rect.block (s := S20000x7) S2000x7.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S7x128.size a ≤ S7x128.size a
  hwx4_1 : ∀ i : grid4.Coords, EltTy.bits .f32 = 32 ∨ (Rect.block (s := S7x128) S7x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S20000x128.size a
  hwx4_3 : ∀ i : grid4.Coords, EltTy.bits .f32 = 32 ∨ (Rect.block (s := S20000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S80000x128.size a
  hwx5_0 : ∀ i : grid5.Coords, EltTy.bits .f32 = 32 ∨ (Rect.block (s := S80000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128.size a ≤ S128.size a
  hwx5_6 : ∀ i : grid5.Coords, EltTy.bits .f32 = 32 ∨ (Rect.block (s := S128) S128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x128.size a ≤ S80000x128.size a
  hwx5_7 : ∀ i : grid5.Coords, EltTy.bits .f32 = 32 ∨ (Rect.block (s := S80000x128) S2000x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S128.size a ≤ S128.size a
  hwx5_8 : ∀ i : grid5.Coords, EltTy.bits .f32 = 32 ∨ (Rect.block (s := S128) S128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S128.size a ≤ S128.size a
  hwx5_9 : ∀ i : grid5.Coords, EltTy.bits .f32 = 32 ∨ (Rect.block (s := S128) S128.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S128.size a ≤ S128.size a
  hwx5_10 : ∀ i : grid5.Coords, EltTy.bits .f32 = 32 ∨ (Rect.block (s := S128) S128.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S128.size a ≤ S128.size a
  hwx5_11 : ∀ i : grid5.Coords, EltTy.bits .f32 = 32 ∨ (Rect.block (s := S128) S128.size (cc5_transform_11 i) (hinb5_11 i)).WholeWords (EltTy.packing .f32)
  hstage5_12 : ∀ j, (stage5_12 j).IsWhole
  nbuf5_12 : grid5.bufCount reads5_12 true = 1
  hreads5_12 : ∀ i i' : grid5.Coords, (∀ a, reads5_12 a = true → i a = i' a) → cc5_transform_12 i = cc5_transform_12 i'
  hinb5_12 : ∀ (i : grid5.Coords) a, (cc5_transform_12 i a + 1) * S128x128.size a ≤ S128x128.size a
  hwx5_12 : ∀ i : grid5.Coords, EltTy.bits .f32 = 32 ∨ (Rect.block (s := S128x128) S128x128.size (cc5_transform_12 i) (hinb5_12 i)).WholeWords (EltTy.packing .f32)
  hstage5_13 : ∀ j, (stage5_13 j).IsWhole
  nbuf5_13 : grid5.bufCount reads5_13 true = 1
  hreads5_13 : ∀ i i' : grid5.Coords, (∀ a, reads5_13 a = true → i a = i' a) → cc5_transform_13 i = cc5_transform_13 i'
  hinb5_13 : ∀ (i : grid5.Coords) a, (cc5_transform_13 i a + 1) * S128.size a ≤ S128.size a
  hwx5_13 : ∀ i : grid5.Coords, EltTy.bits .f32 = 32 ∨ (Rect.block (s := S128) S128.size (cc5_transform_13 i) (hinb5_13 i)).WholeWords (EltTy.packing .f32)
  hstage5_14 : ∀ j, (stage5_14 j).IsWhole
  nbuf5_14 : grid5.bufCount reads5_14 false = 2
  hreads5_14 : ∀ i i' : grid5.Coords, (∀ a, reads5_14 a = true → i a = i' a) → cc5_transform_14 i = cc5_transform_14 i'
  hinb5_14 : ∀ (i : grid5.Coords) a, (cc5_transform_14 i a + 1) * S2000x128.size a ≤ S80000x128.size a
  hwx5_14 : ∀ i : grid5.Coords, EltTy.bits .f32 = 32 ∨ (Rect.block (s := S80000x128) S2000x128.size (cc5_transform_14 i) (hinb5_14 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S20000x128.size a
  hwx6_0 : ∀ i : grid6.Coords, EltTy.bits .f32 = 32 ∨ (Rect.block (s := S20000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128.size a ≤ S128.size a
  hwx6_1 : ∀ i : grid6.Coords, EltTy.bits .f32 = 32 ∨ (Rect.block (s := S128) S128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128.size a ≤ S128.size a
  hwx6_3 : ∀ i : grid6.Coords, EltTy.bits .f32 = 32 ∨ (Rect.block (s := S128) S128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128.size a ≤ S128.size a
  hwx6_4 : ∀ i : grid6.Coords, EltTy.bits .f32 = 32 ∨ (Rect.block (s := S128) S128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128.size a ≤ S128.size a
  hwx6_6 : ∀ i : grid6.Coords, EltTy.bits .f32 = 32 ∨ (Rect.block (s := S128) S128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2000x128.size a ≤ S20000x128.size a
  hwx6_7 : ∀ i : grid6.Coords, EltTy.bits .f32 = 32 ∨ (Rect.block (s := S20000x128) S2000x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S128.size a ≤ S128.size a
  hwx6_8 : ∀ i : grid6.Coords, EltTy.bits .f32 = 32 ∨ (Rect.block (s := S128) S128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S128.size a ≤ S128.size a
  hwx6_9 : ∀ i : grid6.Coords, EltTy.bits .f32 = 32 ∨ (Rect.block (s := S128) S128.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S128.size a ≤ S128.size a
  hwx6_10 : ∀ i : grid6.Coords, EltTy.bits .f32 = 32 ∨ (Rect.block (s := S128) S128.size (cc6_transform_10 i) (hinb6_10 i)).WholeWords (EltTy.packing .f32)
  hstage6_11 : ∀ j, (stage6_11 j).IsWhole
  nbuf6_11 : grid6.bufCount reads6_11 true = 1
  hreads6_11 : ∀ i i' : grid6.Coords, (∀ a, reads6_11 a = true → i a = i' a) → cc6_transform_11 i = cc6_transform_11 i'
  hinb6_11 : ∀ (i : grid6.Coords) a, (cc6_transform_11 i a + 1) * S128.size a ≤ S128.size a
  hwx6_11 : ∀ i : grid6.Coords, EltTy.bits .f32 = 32 ∨ (Rect.block (s := S128) S128.size (cc6_transform_11 i) (hinb6_11 i)).WholeWords (EltTy.packing .f32)
  hstage6_12 : ∀ j, (stage6_12 j).IsWhole
  nbuf6_12 : grid6.bufCount reads6_12 true = 1
  hreads6_12 : ∀ i i' : grid6.Coords, (∀ a, reads6_12 a = true → i a = i' a) → cc6_transform_12 i = cc6_transform_12 i'
  hinb6_12 : ∀ (i : grid6.Coords) a, (cc6_transform_12 i a + 1) * S128x128.size a ≤ S128x128.size a
  hwx6_12 : ∀ i : grid6.Coords, EltTy.bits .f32 = 32 ∨ (Rect.block (s := S128x128) S128x128.size (cc6_transform_12 i) (hinb6_12 i)).WholeWords (EltTy.packing .f32)
  hstage6_13 : ∀ j, (stage6_13 j).IsWhole
  nbuf6_13 : grid6.bufCount reads6_13 true = 1
  hreads6_13 : ∀ i i' : grid6.Coords, (∀ a, reads6_13 a = true → i a = i' a) → cc6_transform_13 i = cc6_transform_13 i'
  hinb6_13 : ∀ (i : grid6.Coords) a, (cc6_transform_13 i a + 1) * S128.size a ≤ S128.size a
  hwx6_13 : ∀ i : grid6.Coords, EltTy.bits .f32 = 32 ∨ (Rect.block (s := S128) S128.size (cc6_transform_13 i) (hinb6_13 i)).WholeWords (EltTy.packing .f32)
  hstage6_14 : ∀ j, (stage6_14 j).IsWhole
  nbuf6_14 : grid6.bufCount reads6_14 false = 2
  hreads6_14 : ∀ i i' : grid6.Coords, (∀ a, reads6_14 a = true → i a = i' a) → cc6_transform_14 i = cc6_transform_14 i'
  hinb6_14 : ∀ (i : grid6.Coords) a, (cc6_transform_14 i a + 1) * S2000x128.size a ≤ S20000x128.size a
  hwx6_14 : ∀ i : grid6.Coords, EltTy.bits .f32 = 32 ∨ (Rect.block (s := S20000x128) S2000x128.size (cc6_transform_14 i) (hinb6_14 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S80000x128.size a
  hwx7_0 : ∀ i : grid7.Coords, EltTy.bits .f32 = 32 ∨ (Rect.block (s := S80000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128.size a ≤ S128.size a
  hwx7_2 : ∀ i : grid7.Coords, EltTy.bits .f32 = 32 ∨ (Rect.block (s := S128) S128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S80000x128.size a
  hwx7_3 : ∀ i : grid7.Coords, EltTy.bits .f32 = 32 ∨ (Rect.block (s := S80000x128) S2000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S80000x128.size a
  hwx8_0 : ∀ i : grid8.Coords, EltTy.bits .f32 = 32 ∨ (Rect.block (s := S80000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128.size a ≤ S128.size a
  hwx8_2 : ∀ i : grid8.Coords, EltTy.bits .f32 = 32 ∨ (Rect.block (s := S128) S128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S2000x128.size a ≤ S80000x128.size a
  hwx8_3 : ∀ i : grid8.Coords, EltTy.bits .f32 = 32 ∨ (Rect.block (s := S80000x128) S2000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S20000x128.size a
  hwx9_0 : ∀ i : grid9.Coords, EltTy.bits .f32 = 32 ∨ (Rect.block (s := S20000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128.size a ≤ S128.size a
  hwx9_2 : ∀ i : grid9.Coords, EltTy.bits .f32 = 32 ∨ (Rect.block (s := S128) S128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x128.size a ≤ S20000x128.size a
  hwx9_3 : ∀ i : grid9.Coords, EltTy.bits .f32 = 32 ∨ (Rect.block (s := S20000x128) S2000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S20000x128.size a
  hwx10_0 : ∀ i : grid10.Coords, EltTy.bits .f32 = 32 ∨ (Rect.block (s := S20000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128.size a ≤ S128.size a
  hwx10_2 : ∀ i : grid10.Coords, EltTy.bits .f32 = 32 ∨ (Rect.block (s := S128) S128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x128.size a ≤ S20000x128.size a
  hwx10_3 : ∀ i : grid10.Coords, EltTy.bits .f32 = 32 ∨ (Rect.block (s := S20000x128) S2000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S80000x128.size a
  hwx11_0 : ∀ i : grid11.Coords, EltTy.bits .f32 = 32 ∨ (Rect.block (s := S80000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128.size a ≤ S128.size a
  hwx11_1 : ∀ i : grid11.Coords, EltTy.bits .f32 = 32 ∨ (Rect.block (s := S128) S128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S128.size a ≤ S128.size a
  hwx11_2 : ∀ i : grid11.Coords, EltTy.bits .f32 = 32 ∨ (Rect.block (s := S128) S128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S128.size a ≤ S128.size a
  hwx11_3 : ∀ i : grid11.Coords, EltTy.bits .f32 = 32 ∨ (Rect.block (s := S128) S128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S128.size a ≤ S128.size a
  hwx11_4 : ∀ i : grid11.Coords, EltTy.bits .f32 = 32 ∨ (Rect.block (s := S128) S128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S128x128.size a ≤ S128x128.size a
  hwx11_5 : ∀ i : grid11.Coords, EltTy.bits .f32 = 32 ∨ (Rect.block (s := S128x128) S128x128.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S128.size a ≤ S128.size a
  hwx11_6 : ∀ i : grid11.Coords, EltTy.bits .f32 = 32 ∨ (Rect.block (s := S128) S128.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S2000x128.size a ≤ S80000x128.size a
  hwx11_7 : ∀ i : grid11.Coords, EltTy.bits .f32 = 32 ∨ (Rect.block (s := S80000x128) S2000x128.size (cc11_transform_7 i) (hinb11_7 i)).WholeWords (EltTy.packing .f32)
  hstage11_8 : ∀ j, (stage11_8 j).IsWhole
  nbuf11_8 : grid11.bufCount reads11_8 true = 1
  hreads11_8 : ∀ i i' : grid11.Coords, (∀ a, reads11_8 a = true → i a = i' a) → cc11_transform_8 i = cc11_transform_8 i'
  hinb11_8 : ∀ (i : grid11.Coords) a, (cc11_transform_8 i a + 1) * S128.size a ≤ S128.size a
  hwx11_8 : ∀ i : grid11.Coords, EltTy.bits .f32 = 32 ∨ (Rect.block (s := S128) S128.size (cc11_transform_8 i) (hinb11_8 i)).WholeWords (EltTy.packing .f32)
  hstage11_9 : ∀ j, (stage11_9 j).IsWhole
  nbuf11_9 : grid11.bufCount reads11_9 true = 1
  hreads11_9 : ∀ i i' : grid11.Coords, (∀ a, reads11_9 a = true → i a = i' a) → cc11_transform_9 i = cc11_transform_9 i'
  hinb11_9 : ∀ (i : grid11.Coords) a, (cc11_transform_9 i a + 1) * S128.size a ≤ S128.size a
  hwx11_9 : ∀ i : grid11.Coords, EltTy.bits .f32 = 32 ∨ (Rect.block (s := S128) S128.size (cc11_transform_9 i) (hinb11_9 i)).WholeWords (EltTy.packing .f32)
  hstage11_10 : ∀ j, (stage11_10 j).IsWhole
  nbuf11_10 : grid11.bufCount reads11_10 true = 1
  hreads11_10 : ∀ i i' : grid11.Coords, (∀ a, reads11_10 a = true → i a = i' a) → cc11_transform_10 i = cc11_transform_10 i'
  hinb11_10 : ∀ (i : grid11.Coords) a, (cc11_transform_10 i a + 1) * S128.size a ≤ S128.size a
  hwx11_10 : ∀ i : grid11.Coords, EltTy.bits .f32 = 32 ∨ (Rect.block (s := S128) S128.size (cc11_transform_10 i) (hinb11_10 i)).WholeWords (EltTy.packing .f32)
  hstage11_11 : ∀ j, (stage11_11 j).IsWhole
  nbuf11_11 : grid11.bufCount reads11_11 true = 1
  hreads11_11 : ∀ i i' : grid11.Coords, (∀ a, reads11_11 a = true → i a = i' a) → cc11_transform_11 i = cc11_transform_11 i'
  hinb11_11 : ∀ (i : grid11.Coords) a, (cc11_transform_11 i a + 1) * S128.size a ≤ S128.size a
  hwx11_11 : ∀ i : grid11.Coords, EltTy.bits .f32 = 32 ∨ (Rect.block (s := S128) S128.size (cc11_transform_11 i) (hinb11_11 i)).WholeWords (EltTy.packing .f32)
  hstage11_12 : ∀ j, (stage11_12 j).IsWhole
  nbuf11_12 : grid11.bufCount reads11_12 true = 1
  hreads11_12 : ∀ i i' : grid11.Coords, (∀ a, reads11_12 a = true → i a = i' a) → cc11_transform_12 i = cc11_transform_12 i'
  hinb11_12 : ∀ (i : grid11.Coords) a, (cc11_transform_12 i a + 1) * S128x128.size a ≤ S128x128.size a
  hwx11_12 : ∀ i : grid11.Coords, EltTy.bits .f32 = 32 ∨ (Rect.block (s := S128x128) S128x128.size (cc11_transform_12 i) (hinb11_12 i)).WholeWords (EltTy.packing .f32)
  hstage11_13 : ∀ j, (stage11_13 j).IsWhole
  nbuf11_13 : grid11.bufCount reads11_13 true = 1
  hreads11_13 : ∀ i i' : grid11.Coords, (∀ a, reads11_13 a = true → i a = i' a) → cc11_transform_13 i = cc11_transform_13 i'
  hinb11_13 : ∀ (i : grid11.Coords) a, (cc11_transform_13 i a + 1) * S128.size a ≤ S128.size a
  hwx11_13 : ∀ i : grid11.Coords, EltTy.bits .f32 = 32 ∨ (Rect.block (s := S128) S128.size (cc11_transform_13 i) (hinb11_13 i)).WholeWords (EltTy.packing .f32)
  hstage11_14 : ∀ j, (stage11_14 j).IsWhole
  nbuf11_14 : grid11.bufCount reads11_14 false = 2
  hreads11_14 : ∀ i i' : grid11.Coords, (∀ a, reads11_14 a = true → i a = i' a) → cc11_transform_14 i = cc11_transform_14 i'
  hinb11_14 : ∀ (i : grid11.Coords) a, (cc11_transform_14 i a + 1) * S2000x128.size a ≤ S80000x128.size a
  hwx11_14 : ∀ i : grid11.Coords, EltTy.bits .f32 = 32 ∨ (Rect.block (s := S80000x128) S2000x128.size (cc11_transform_14 i) (hinb11_14 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S20000x128.size a
  hwx12_0 : ∀ i : grid12.Coords, EltTy.bits .f32 = 32 ∨ (Rect.block (s := S20000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128.size a ≤ S128.size a
  hwx12_1 : ∀ i : grid12.Coords, EltTy.bits .f32 = 32 ∨ (Rect.block (s := S128) S128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128.size a ≤ S128.size a
  hwx12_2 : ∀ i : grid12.Coords, EltTy.bits .f32 = 32 ∨ (Rect.block (s := S128) S128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128.size a ≤ S128.size a
  hwx12_3 : ∀ i : grid12.Coords, EltTy.bits .f32 = 32 ∨ (Rect.block (s := S128) S128.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S128.size a ≤ S128.size a
  hwx12_4 : ∀ i : grid12.Coords, EltTy.bits .f32 = 32 ∨ (Rect.block (s := S128) S128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S128x128.size a ≤ S128x128.size a
  hwx12_5 : ∀ i : grid12.Coords, EltTy.bits .f32 = 32 ∨ (Rect.block (s := S128x128) S128x128.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S128.size a ≤ S128.size a
  hwx12_6 : ∀ i : grid12.Coords, EltTy.bits .f32 = 32 ∨ (Rect.block (s := S128) S128.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S2000x128.size a ≤ S20000x128.size a
  hwx12_7 : ∀ i : grid12.Coords, EltTy.bits .f32 = 32 ∨ (Rect.block (s := S20000x128) S2000x128.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S128.size a ≤ S128.size a
  hwx12_8 : ∀ i : grid12.Coords, EltTy.bits .f32 = 32 ∨ (Rect.block (s := S128) S128.size (cc12_transform_8 i) (hinb12_8 i)).WholeWords (EltTy.packing .f32)
  hstage12_9 : ∀ j, (stage12_9 j).IsWhole
  nbuf12_9 : grid12.bufCount reads12_9 true = 1
  hreads12_9 : ∀ i i' : grid12.Coords, (∀ a, reads12_9 a = true → i a = i' a) → cc12_transform_9 i = cc12_transform_9 i'
  hinb12_9 : ∀ (i : grid12.Coords) a, (cc12_transform_9 i a + 1) * S128.size a ≤ S128.size a
  hwx12_9 : ∀ i : grid12.Coords, EltTy.bits .f32 = 32 ∨ (Rect.block (s := S128) S128.size (cc12_transform_9 i) (hinb12_9 i)).WholeWords (EltTy.packing .f32)
  hstage12_10 : ∀ j, (stage12_10 j).IsWhole
  nbuf12_10 : grid12.bufCount reads12_10 true = 1
  hreads12_10 : ∀ i i' : grid12.Coords, (∀ a, reads12_10 a = true → i a = i' a) → cc12_transform_10 i = cc12_transform_10 i'
  hinb12_10 : ∀ (i : grid12.Coords) a, (cc12_transform_10 i a + 1) * S128.size a ≤ S128.size a
  hwx12_10 : ∀ i : grid12.Coords, EltTy.bits .f32 = 32 ∨ (Rect.block (s := S128) S128.size (cc12_transform_10 i) (hinb12_10 i)).WholeWords (EltTy.packing .f32)
  hstage12_11 : ∀ j, (stage12_11 j).IsWhole
  nbuf12_11 : grid12.bufCount reads12_11 true = 1
  hreads12_11 : ∀ i i' : grid12.Coords, (∀ a, reads12_11 a = true → i a = i' a) → cc12_transform_11 i = cc12_transform_11 i'
  hinb12_11 : ∀ (i : grid12.Coords) a, (cc12_transform_11 i a + 1) * S128.size a ≤ S128.size a
  hwx12_11 : ∀ i : grid12.Coords, EltTy.bits .f32 = 32 ∨ (Rect.block (s := S128) S128.size (cc12_transform_11 i) (hinb12_11 i)).WholeWords (EltTy.packing .f32)
  hstage12_12 : ∀ j, (stage12_12 j).IsWhole
  nbuf12_12 : grid12.bufCount reads12_12 true = 1
  hreads12_12 : ∀ i i' : grid12.Coords, (∀ a, reads12_12 a = true → i a = i' a) → cc12_transform_12 i = cc12_transform_12 i'
  hinb12_12 : ∀ (i : grid12.Coords) a, (cc12_transform_12 i a + 1) * S128x128.size a ≤ S128x128.size a
  hwx12_12 : ∀ i : grid12.Coords, EltTy.bits .f32 = 32 ∨ (Rect.block (s := S128x128) S128x128.size (cc12_transform_12 i) (hinb12_12 i)).WholeWords (EltTy.packing .f32)
  hstage12_13 : ∀ j, (stage12_13 j).IsWhole
  nbuf12_13 : grid12.bufCount reads12_13 true = 1
  hreads12_13 : ∀ i i' : grid12.Coords, (∀ a, reads12_13 a = true → i a = i' a) → cc12_transform_13 i = cc12_transform_13 i'
  hinb12_13 : ∀ (i : grid12.Coords) a, (cc12_transform_13 i a + 1) * S128.size a ≤ S128.size a
  hwx12_13 : ∀ i : grid12.Coords, EltTy.bits .f32 = 32 ∨ (Rect.block (s := S128) S128.size (cc12_transform_13 i) (hinb12_13 i)).WholeWords (EltTy.packing .f32)
  hstage12_14 : ∀ j, (stage12_14 j).IsWhole
  nbuf12_14 : grid12.bufCount reads12_14 false = 2
  hreads12_14 : ∀ i i' : grid12.Coords, (∀ a, reads12_14 a = true → i a = i' a) → cc12_transform_14 i = cc12_transform_14 i'
  hinb12_14 : ∀ (i : grid12.Coords) a, (cc12_transform_14 i a + 1) * S2000x128.size a ≤ S20000x128.size a
  hwx12_14 : ∀ i : grid12.Coords, EltTy.bits .f32 = 32 ∨ (Rect.block (s := S20000x128) S2000x128.size (cc12_transform_14 i) (hinb12_14 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S80000x128.size a
  hwx13_0 : ∀ i : grid13.Coords, EltTy.bits .f32 = 32 ∨ (Rect.block (s := S80000x128) S2000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x128.size a ≤ S128x128.size a
  hwx13_1 : ∀ i : grid13.Coords, EltTy.bits .f32 = 32 ∨ (Rect.block (s := S128x128) S128x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S128.size a ≤ S128.size a
  hwx13_2 : ∀ i : grid13.Coords, EltTy.bits .f32 = 32 ∨ (Rect.block (s := S128) S128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S2000x128.size a ≤ S80000x128.size a
  hwx13_3 : ∀ i : grid13.Coords, EltTy.bits .f32 = 32 ∨ (Rect.block (s := S80000x128) S2000x128.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x128.size a ≤ S80000x128.size a
  hwx14_0 : ∀ i : grid14.Coords, EltTy.bits .f32 = 32 ∨ (Rect.block (s := S80000x128) S2000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x128.size a ≤ S128x128.size a
  hwx14_1 : ∀ i : grid14.Coords, EltTy.bits .f32 = 32 ∨ (Rect.block (s := S128x128) S128x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S128.size a ≤ S128.size a
  hwx14_2 : ∀ i : grid14.Coords, EltTy.bits .f32 = 32 ∨ (Rect.block (s := S128) S128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S2000x128.size a ≤ S80000x128.size a
  hwx14_3 : ∀ i : grid14.Coords, EltTy.bits .f32 = 32 ∨ (Rect.block (s := S80000x128) S2000x128.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x128.size a ≤ S20000x128.size a
  hwx15_0 : ∀ i : grid15.Coords, EltTy.bits .f32 = 32 ∨ (Rect.block (s := S20000x128) S2000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S128x128.size a ≤ S128x128.size a
  hwx15_1 : ∀ i : grid15.Coords, EltTy.bits .f32 = 32 ∨ (Rect.block (s := S128x128) S128x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S128.size a ≤ S128.size a
  hwx15_2 : ∀ i : grid15.Coords, EltTy.bits .f32 = 32 ∨ (Rect.block (s := S128) S128.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S2000x128.size a ≤ S20000x128.size a
  hwx15_3 : ∀ i : grid15.Coords, EltTy.bits .f32 = 32 ∨ (Rect.block (s := S20000x128) S2000x128.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2000x128.size a ≤ S20000x128.size a
  hwx16_0 : ∀ i : grid16.Coords, EltTy.bits .f32 = 32 ∨ (Rect.block (s := S20000x128) S2000x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S128x128.size a ≤ S128x128.size a
  hwx16_1 : ∀ i : grid16.Coords, EltTy.bits .f32 = 32 ∨ (Rect.block (s := S128x128) S128x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S128.size a ≤ S128.size a
  hwx16_2 : ∀ i : grid16.Coords, EltTy.bits .f32 = 32 ∨ (Rect.block (s := S128) S128.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S2000x128.size a ≤ S20000x128.size a
  hwx16_3 : ∀ i : grid16.Coords, EltTy.bits .f32 = 32 ∨ (Rect.block (s := S20000x128) S2000x128.size (cc16_transform_3 i) (hinb16_3 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S2000x128.size a ≤ S80000x128.size a
  hwx17_0 : ∀ i : grid17.Coords, EltTy.bits .f32 = 32 ∨ (Rect.block (s := S80000x128) S2000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S128.size a ≤ S128.size a
  hwx17_1 : ∀ i : grid17.Coords, EltTy.bits .f32 = 32 ∨ (Rect.block (s := S128) S128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S128.size a ≤ S128.size a
  hwx17_2 : ∀ i : grid17.Coords, EltTy.bits .f32 = 32 ∨ (Rect.block (s := S128) S128.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S128.size a ≤ S128.size a
  hwx17_3 : ∀ i : grid17.Coords, EltTy.bits .f32 = 32 ∨ (Rect.block (s := S128) S128.size (cc17_transform_3 i) (hinb17_3 i)).WholeWords (EltTy.packing .f32)
  hstage17_4 : ∀ j, (stage17_4 j).IsWhole
  nbuf17_4 : grid17.bufCount reads17_4 true = 1
  hreads17_4 : ∀ i i' : grid17.Coords, (∀ a, reads17_4 a = true → i a = i' a) → cc17_transform_4 i = cc17_transform_4 i'
  hinb17_4 : ∀ (i : grid17.Coords) a, (cc17_transform_4 i a + 1) * S128.size a ≤ S128.size a
  hwx17_4 : ∀ i : grid17.Coords, EltTy.bits .f32 = 32 ∨ (Rect.block (s := S128) S128.size (cc17_transform_4 i) (hinb17_4 i)).WholeWords (EltTy.packing .f32)
  hstage17_5 : ∀ j, (stage17_5 j).IsWhole
  nbuf17_5 : grid17.bufCount reads17_5 true = 1
  hreads17_5 : ∀ i i' : grid17.Coords, (∀ a, reads17_5 a = true → i a = i' a) → cc17_transform_5 i = cc17_transform_5 i'
  hinb17_5 : ∀ (i : grid17.Coords) a, (cc17_transform_5 i a + 1) * S128x128.size a ≤ S128x128.size a
  hwx17_5 : ∀ i : grid17.Coords, EltTy.bits .f32 = 32 ∨ (Rect.block (s := S128x128) S128x128.size (cc17_transform_5 i) (hinb17_5 i)).WholeWords (EltTy.packing .f32)
  hstage17_6 : ∀ j, (stage17_6 j).IsWhole
  nbuf17_6 : grid17.bufCount reads17_6 true = 1
  hreads17_6 : ∀ i i' : grid17.Coords, (∀ a, reads17_6 a = true → i a = i' a) → cc17_transform_6 i = cc17_transform_6 i'
  hinb17_6 : ∀ (i : grid17.Coords) a, (cc17_transform_6 i a + 1) * S128.size a ≤ S128.size a
  hwx17_6 : ∀ i : grid17.Coords, EltTy.bits .f32 = 32 ∨ (Rect.block (s := S128) S128.size (cc17_transform_6 i) (hinb17_6 i)).WholeWords (EltTy.packing .f32)
  hstage17_7 : ∀ j, (stage17_7 j).IsWhole
  nbuf17_7 : grid17.bufCount reads17_7 false = 2
  hreads17_7 : ∀ i i' : grid17.Coords, (∀ a, reads17_7 a = true → i a = i' a) → cc17_transform_7 i = cc17_transform_7 i'
  hinb17_7 : ∀ (i : grid17.Coords) a, (cc17_transform_7 i a + 1) * S2000x128.size a ≤ S80000x128.size a
  hwx17_7 : ∀ i : grid17.Coords, EltTy.bits .f32 = 32 ∨ (Rect.block (s := S80000x128) S2000x128.size (cc17_transform_7 i) (hinb17_7 i)).WholeWords (EltTy.packing .f32)
  hstage17_8 : ∀ j, (stage17_8 j).IsWhole
  nbuf17_8 : grid17.bufCount reads17_8 true = 1
  hreads17_8 : ∀ i i' : grid17.Coords, (∀ a, reads17_8 a = true → i a = i' a) → cc17_transform_8 i = cc17_transform_8 i'
  hinb17_8 : ∀ (i : grid17.Coords) a, (cc17_transform_8 i a + 1) * S128.size a ≤ S128.size a
  hwx17_8 : ∀ i : grid17.Coords, EltTy.bits .f32 = 32 ∨ (Rect.block (s := S128) S128.size (cc17_transform_8 i) (hinb17_8 i)).WholeWords (EltTy.packing .f32)
  hstage17_9 : ∀ j, (stage17_9 j).IsWhole
  nbuf17_9 : grid17.bufCount reads17_9 true = 1
  hreads17_9 : ∀ i i' : grid17.Coords, (∀ a, reads17_9 a = true → i a = i' a) → cc17_transform_9 i = cc17_transform_9 i'
  hinb17_9 : ∀ (i : grid17.Coords) a, (cc17_transform_9 i a + 1) * S128.size a ≤ S128.size a
  hwx17_9 : ∀ i : grid17.Coords, EltTy.bits .f32 = 32 ∨ (Rect.block (s := S128) S128.size (cc17_transform_9 i) (hinb17_9 i)).WholeWords (EltTy.packing .f32)
  hstage17_10 : ∀ j, (stage17_10 j).IsWhole
  nbuf17_10 : grid17.bufCount reads17_10 true = 1
  hreads17_10 : ∀ i i' : grid17.Coords, (∀ a, reads17_10 a = true → i a = i' a) → cc17_transform_10 i = cc17_transform_10 i'
  hinb17_10 : ∀ (i : grid17.Coords) a, (cc17_transform_10 i a + 1) * S128.size a ≤ S128.size a
  hwx17_10 : ∀ i : grid17.Coords, EltTy.bits .f32 = 32 ∨ (Rect.block (s := S128) S128.size (cc17_transform_10 i) (hinb17_10 i)).WholeWords (EltTy.packing .f32)
  hstage17_11 : ∀ j, (stage17_11 j).IsWhole
  nbuf17_11 : grid17.bufCount reads17_11 true = 1
  hreads17_11 : ∀ i i' : grid17.Coords, (∀ a, reads17_11 a = true → i a = i' a) → cc17_transform_11 i = cc17_transform_11 i'
  hinb17_11 : ∀ (i : grid17.Coords) a, (cc17_transform_11 i a + 1) * S128.size a ≤ S128.size a
  hwx17_11 : ∀ i : grid17.Coords, EltTy.bits .f32 = 32 ∨ (Rect.block (s := S128) S128.size (cc17_transform_11 i) (hinb17_11 i)).WholeWords (EltTy.packing .f32)
  hstage17_12 : ∀ j, (stage17_12 j).IsWhole
  nbuf17_12 : grid17.bufCount reads17_12 true = 1
  hreads17_12 : ∀ i i' : grid17.Coords, (∀ a, reads17_12 a = true → i a = i' a) → cc17_transform_12 i = cc17_transform_12 i'
  hinb17_12 : ∀ (i : grid17.Coords) a, (cc17_transform_12 i a + 1) * S128x128.size a ≤ S128x128.size a
  hwx17_12 : ∀ i : grid17.Coords, EltTy.bits .f32 = 32 ∨ (Rect.block (s := S128x128) S128x128.size (cc17_transform_12 i) (hinb17_12 i)).WholeWords (EltTy.packing .f32)
  hstage17_13 : ∀ j, (stage17_13 j).IsWhole
  nbuf17_13 : grid17.bufCount reads17_13 true = 1
  hreads17_13 : ∀ i i' : grid17.Coords, (∀ a, reads17_13 a = true → i a = i' a) → cc17_transform_13 i = cc17_transform_13 i'
  hinb17_13 : ∀ (i : grid17.Coords) a, (cc17_transform_13 i a + 1) * S128.size a ≤ S128.size a
  hwx17_13 : ∀ i : grid17.Coords, EltTy.bits .f32 = 32 ∨ (Rect.block (s := S128) S128.size (cc17_transform_13 i) (hinb17_13 i)).WholeWords (EltTy.packing .f32)
  hstage17_14 : ∀ j, (stage17_14 j).IsWhole
  nbuf17_14 : grid17.bufCount reads17_14 false = 2
  hreads17_14 : ∀ i i' : grid17.Coords, (∀ a, reads17_14 a = true → i a = i' a) → cc17_transform_14 i = cc17_transform_14 i'
  hinb17_14 : ∀ (i : grid17.Coords) a, (cc17_transform_14 i a + 1) * S2000x128.size a ≤ S80000x128.size a
  hwx17_14 : ∀ i : grid17.Coords, EltTy.bits .f32 = 32 ∨ (Rect.block (s := S80000x128) S2000x128.size (cc17_transform_14 i) (hinb17_14 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S2000x128.size a ≤ S20000x128.size a
  hwx18_0 : ∀ i : grid18.Coords, EltTy.bits .f32 = 32 ∨ (Rect.block (s := S20000x128) S2000x128.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S128.size a ≤ S128.size a
  hwx18_1 : ∀ i : grid18.Coords, EltTy.bits .f32 = 32 ∨ (Rect.block (s := S128) S128.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S128.size a ≤ S128.size a
  hwx18_2 : ∀ i : grid18.Coords, EltTy.bits .f32 = 32 ∨ (Rect.block (s := S128) S128.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S128.size a ≤ S128.size a
  hwx18_3 : ∀ i : grid18.Coords, EltTy.bits .f32 = 32 ∨ (Rect.block (s := S128) S128.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S128.size a ≤ S128.size a
  hwx18_4 : ∀ i : grid18.Coords, EltTy.bits .f32 = 32 ∨ (Rect.block (s := S128) S128.size (cc18_transform_4 i) (hinb18_4 i)).WholeWords (EltTy.packing .f32)
  hstage18_5 : ∀ j, (stage18_5 j).IsWhole
  nbuf18_5 : grid18.bufCount reads18_5 true = 1
  hreads18_5 : ∀ i i' : grid18.Coords, (∀ a, reads18_5 a = true → i a = i' a) → cc18_transform_5 i = cc18_transform_5 i'
  hinb18_5 : ∀ (i : grid18.Coords) a, (cc18_transform_5 i a + 1) * S128x128.size a ≤ S128x128.size a
  hwx18_5 : ∀ i : grid18.Coords, EltTy.bits .f32 = 32 ∨ (Rect.block (s := S128x128) S128x128.size (cc18_transform_5 i) (hinb18_5 i)).WholeWords (EltTy.packing .f32)
  hstage18_6 : ∀ j, (stage18_6 j).IsWhole
  nbuf18_6 : grid18.bufCount reads18_6 true = 1
  hreads18_6 : ∀ i i' : grid18.Coords, (∀ a, reads18_6 a = true → i a = i' a) → cc18_transform_6 i = cc18_transform_6 i'
  hinb18_6 : ∀ (i : grid18.Coords) a, (cc18_transform_6 i a + 1) * S128.size a ≤ S128.size a
  hwx18_6 : ∀ i : grid18.Coords, EltTy.bits .f32 = 32 ∨ (Rect.block (s := S128) S128.size (cc18_transform_6 i) (hinb18_6 i)).WholeWords (EltTy.packing .f32)
  hstage18_7 : ∀ j, (stage18_7 j).IsWhole
  nbuf18_7 : grid18.bufCount reads18_7 false = 2
  hreads18_7 : ∀ i i' : grid18.Coords, (∀ a, reads18_7 a = true → i a = i' a) → cc18_transform_7 i = cc18_transform_7 i'
  hinb18_7 : ∀ (i : grid18.Coords) a, (cc18_transform_7 i a + 1) * S2000x128.size a ≤ S20000x128.size a
  hwx18_7 : ∀ i : grid18.Coords, EltTy.bits .f32 = 32 ∨ (Rect.block (s := S20000x128) S2000x128.size (cc18_transform_7 i) (hinb18_7 i)).WholeWords (EltTy.packing .f32)
  hstage18_8 : ∀ j, (stage18_8 j).IsWhole
  nbuf18_8 : grid18.bufCount reads18_8 true = 1
  hreads18_8 : ∀ i i' : grid18.Coords, (∀ a, reads18_8 a = true → i a = i' a) → cc18_transform_8 i = cc18_transform_8 i'
  hinb18_8 : ∀ (i : grid18.Coords) a, (cc18_transform_8 i a + 1) * S128.size a ≤ S128.size a
  hwx18_8 : ∀ i : grid18.Coords, EltTy.bits .f32 = 32 ∨ (Rect.block (s := S128) S128.size (cc18_transform_8 i) (hinb18_8 i)).WholeWords (EltTy.packing .f32)
  hstage18_9 : ∀ j, (stage18_9 j).IsWhole
  nbuf18_9 : grid18.bufCount reads18_9 true = 1
  hreads18_9 : ∀ i i' : grid18.Coords, (∀ a, reads18_9 a = true → i a = i' a) → cc18_transform_9 i = cc18_transform_9 i'
  hinb18_9 : ∀ (i : grid18.Coords) a, (cc18_transform_9 i a + 1) * S128.size a ≤ S128.size a
  hwx18_9 : ∀ i : grid18.Coords, EltTy.bits .f32 = 32 ∨ (Rect.block (s := S128) S128.size (cc18_transform_9 i) (hinb18_9 i)).WholeWords (EltTy.packing .f32)
  hstage18_10 : ∀ j, (stage18_10 j).IsWhole
  nbuf18_10 : grid18.bufCount reads18_10 true = 1
  hreads18_10 : ∀ i i' : grid18.Coords, (∀ a, reads18_10 a = true → i a = i' a) → cc18_transform_10 i = cc18_transform_10 i'
  hinb18_10 : ∀ (i : grid18.Coords) a, (cc18_transform_10 i a + 1) * S128.size a ≤ S128.size a
  hwx18_10 : ∀ i : grid18.Coords, EltTy.bits .f32 = 32 ∨ (Rect.block (s := S128) S128.size (cc18_transform_10 i) (hinb18_10 i)).WholeWords (EltTy.packing .f32)
  hstage18_11 : ∀ j, (stage18_11 j).IsWhole
  nbuf18_11 : grid18.bufCount reads18_11 true = 1
  hreads18_11 : ∀ i i' : grid18.Coords, (∀ a, reads18_11 a = true → i a = i' a) → cc18_transform_11 i = cc18_transform_11 i'
  hinb18_11 : ∀ (i : grid18.Coords) a, (cc18_transform_11 i a + 1) * S128.size a ≤ S128.size a
  hwx18_11 : ∀ i : grid18.Coords, EltTy.bits .f32 = 32 ∨ (Rect.block (s := S128) S128.size (cc18_transform_11 i) (hinb18_11 i)).WholeWords (EltTy.packing .f32)
  hstage18_12 : ∀ j, (stage18_12 j).IsWhole
  nbuf18_12 : grid18.bufCount reads18_12 true = 1
  hreads18_12 : ∀ i i' : grid18.Coords, (∀ a, reads18_12 a = true → i a = i' a) → cc18_transform_12 i = cc18_transform_12 i'
  hinb18_12 : ∀ (i : grid18.Coords) a, (cc18_transform_12 i a + 1) * S128x128.size a ≤ S128x128.size a
  hwx18_12 : ∀ i : grid18.Coords, EltTy.bits .f32 = 32 ∨ (Rect.block (s := S128x128) S128x128.size (cc18_transform_12 i) (hinb18_12 i)).WholeWords (EltTy.packing .f32)
  hstage18_13 : ∀ j, (stage18_13 j).IsWhole
  nbuf18_13 : grid18.bufCount reads18_13 true = 1
  hreads18_13 : ∀ i i' : grid18.Coords, (∀ a, reads18_13 a = true → i a = i' a) → cc18_transform_13 i = cc18_transform_13 i'
  hinb18_13 : ∀ (i : grid18.Coords) a, (cc18_transform_13 i a + 1) * S128.size a ≤ S128.size a
  hwx18_13 : ∀ i : grid18.Coords, EltTy.bits .f32 = 32 ∨ (Rect.block (s := S128) S128.size (cc18_transform_13 i) (hinb18_13 i)).WholeWords (EltTy.packing .f32)
  hstage18_14 : ∀ j, (stage18_14 j).IsWhole
  nbuf18_14 : grid18.bufCount reads18_14 false = 2
  hreads18_14 : ∀ i i' : grid18.Coords, (∀ a, reads18_14 a = true → i a = i' a) → cc18_transform_14 i = cc18_transform_14 i'
  hinb18_14 : ∀ (i : grid18.Coords) a, (cc18_transform_14 i a + 1) * S2000x128.size a ≤ S20000x128.size a
  hwx18_14 : ∀ i : grid18.Coords, EltTy.bits .f32 = 32 ∨ (Rect.block (s := S20000x128) S2000x128.size (cc18_transform_14 i) (hinb18_14 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S2000x128.size a ≤ S80000x128.size a
  hwx19_0 : ∀ i : grid19.Coords, EltTy.bits .f32 = 32 ∨ (Rect.block (s := S80000x128) S2000x128.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S128x128.size a ≤ S128x128.size a
  hwx19_1 : ∀ i : grid19.Coords, EltTy.bits .f32 = 32 ∨ (Rect.block (s := S128x128) S128x128.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S128.size a ≤ S128.size a
  hwx19_2 : ∀ i : grid19.Coords, EltTy.bits .f32 = 32 ∨ (Rect.block (s := S128) S128.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S2000x128.size a ≤ S80000x128.size a
  hwx19_3 : ∀ i : grid19.Coords, EltTy.bits .f32 = 32 ∨ (Rect.block (s := S80000x128) S2000x128.size (cc19_transform_3 i) (hinb19_3 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S2000x128.size a ≤ S20000x128.size a
  hwx20_0 : ∀ i : grid20.Coords, EltTy.bits .f32 = 32 ∨ (Rect.block (s := S20000x128) S2000x128.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S128x128.size a ≤ S128x128.size a
  hwx20_1 : ∀ i : grid20.Coords, EltTy.bits .f32 = 32 ∨ (Rect.block (s := S128x128) S128x128.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S128.size a ≤ S128.size a
  hwx20_2 : ∀ i : grid20.Coords, EltTy.bits .f32 = 32 ∨ (Rect.block (s := S128) S128.size (cc20_transform_2 i) (hinb20_2 i)).WholeWords (EltTy.packing .f32)
  hstage20_3 : ∀ j, (stage20_3 j).IsWhole
  nbuf20_3 : grid20.bufCount reads20_3 false = 2
  hreads20_3 : ∀ i i' : grid20.Coords, (∀ a, reads20_3 a = true → i a = i' a) → cc20_transform_3 i = cc20_transform_3 i'
  hinb20_3 : ∀ (i : grid20.Coords) a, (cc20_transform_3 i a + 1) * S2000x128.size a ≤ S20000x128.size a
  hwx20_3 : ∀ i : grid20.Coords, EltTy.bits .f32 = 32 ∨ (Rect.block (s := S20000x128) S2000x128.size (cc20_transform_3 i) (hinb20_3 i)).WholeWords (EltTy.packing .f32)

variable [Facts₀]

def dot_S2000x4_S4x7_S2000x7_1_0_0_1_n_n : DotDims S2000x4 S4x7 S2000x7 where
  lhsContracting := [1]
  rhsContracting := [0]
  lhsNonContracting := [0]
  rhsNonContracting := [1]
  lhsBatch := []
  rhsBatch := []
  wf := dot_S2000x4_S4x7_S2000x7_1_0_0_1_n_n_wf
def gather_S80000x7_S1000000x1_S1000000x7_1_0_n_n_0_1_17 : GatherDims S80000x7 S1000000x1 S1000000x7 where
  offsetDims := [1]
  collapsedSliceDims := [0]
  operandBatchingDims := []
  startIndicesBatchingDims := []
  startIndexMap := [0]
  indexVectorDim := 1
  sliceSizes := ![1, 7]
  wf := gather_S80000x7_S1000000x1_S1000000x7_1_0_n_n_0_1_17_wf
def scatter_S80000x7_S1000000x1_S1000000x7_1_0_0_1 : ScatterDims S80000x7 S1000000x1 S1000000x7 where
  updateWindowDims := [1]
  insertedWindowDims := [0]
  scatterDimsToOperandDims := [0]
  indexVectorDim := 1
  wf := scatter_S80000x7_S1000000x1_S1000000x7_1_0_0_1_wf
def gather_S20000x7_S300000x1_S300000x7_1_0_n_n_0_1_17 : GatherDims S20000x7 S300000x1 S300000x7 where
  offsetDims := [1]
  collapsedSliceDims := [0]
  operandBatchingDims := []
  startIndicesBatchingDims := []
  startIndexMap := [0]
  indexVectorDim := 1
  sliceSizes := ![1, 7]
  wf := gather_S20000x7_S300000x1_S300000x7_1_0_n_n_0_1_17_wf
def scatter_S80000x7_S300000x1_S300000x7_1_0_0_1 : ScatterDims S80000x7 S300000x1 S300000x7 where
  updateWindowDims := [1]
  insertedWindowDims := [0]
  scatterDimsToOperandDims := [0]
  indexVectorDim := 1
  wf := scatter_S80000x7_S300000x1_S300000x7_1_0_0_1_wf
def gather_S80000x7_S300000x1_S300000x7_1_0_n_n_0_1_17 : GatherDims S80000x7 S300000x1 S300000x7 where
  offsetDims := [1]
  collapsedSliceDims := [0]
  operandBatchingDims := []
  startIndicesBatchingDims := []
  startIndexMap := [0]
  indexVectorDim := 1
  sliceSizes := ![1, 7]
  wf := gather_S80000x7_S300000x1_S300000x7_1_0_n_n_0_1_17_wf
def scatter_S20000x7_S300000x1_S300000x7_1_0_0_1 : ScatterDims S20000x7 S300000x1 S300000x7 where
  updateWindowDims := [1]
  insertedWindowDims := [0]
  scatterDimsToOperandDims := [0]
  indexVectorDim := 1
  wf := scatter_S20000x7_S300000x1_S300000x7_1_0_0_1_wf
def gather_S20000x7_S100000x1_S100000x7_1_0_n_n_0_1_17 : GatherDims S20000x7 S100000x1 S100000x7 where
  offsetDims := [1]
  collapsedSliceDims := [0]
  operandBatchingDims := []
  startIndicesBatchingDims := []
  startIndexMap := [0]
  indexVectorDim := 1
  sliceSizes := ![1, 7]
  wf := gather_S20000x7_S100000x1_S100000x7_1_0_n_n_0_1_17_wf
def scatter_S20000x7_S100000x1_S100000x7_1_0_0_1 : ScatterDims S20000x7 S100000x1 S100000x7 where
  updateWindowDims := [1]
  insertedWindowDims := [0]
  scatterDimsToOperandDims := [0]
  indexVectorDim := 1
  wf := scatter_S20000x7_S100000x1_S100000x7_1_0_0_1_wf
def dot_S2000x7_S7x128_S2000x128_1_0_0_1_n_n : DotDims S2000x7 S7x128 S2000x128 where
  lhsContracting := [1]
  rhsContracting := [0]
  lhsNonContracting := [0]
  rhsNonContracting := [1]
  lhsBatch := []
  rhsBatch := []
  wf := dot_S2000x7_S7x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S80000x128_S1000000x1_S1000000x128_1_0_n_n_0_1_1128 : GatherDims S80000x128 S1000000x1 S1000000x128 where
  offsetDims := [1]
  collapsedSliceDims := [0]
  operandBatchingDims := []
  startIndicesBatchingDims := []
  startIndexMap := [0]
  indexVectorDim := 1
  sliceSizes := ![1, 128]
  wf := gather_S80000x128_S1000000x1_S1000000x128_1_0_n_n_0_1_1128_wf
def scatter_S80000x128_S1000000x1_S1000000x128_1_0_0_1 : ScatterDims S80000x128 S1000000x1 S1000000x128 where
  updateWindowDims := [1]
  insertedWindowDims := [0]
  scatterDimsToOperandDims := [0]
  indexVectorDim := 1
  wf := scatter_S80000x128_S1000000x1_S1000000x128_1_0_0_1_wf
def gather_S20000x128_S300000x1_S300000x128_1_0_n_n_0_1_1128 : GatherDims S20000x128 S300000x1 S300000x128 where
  offsetDims := [1]
  collapsedSliceDims := [0]
  operandBatchingDims := []
  startIndicesBatchingDims := []
  startIndexMap := [0]
  indexVectorDim := 1
  sliceSizes := ![1, 128]
  wf := gather_S20000x128_S300000x1_S300000x128_1_0_n_n_0_1_1128_wf
def scatter_S80000x128_S300000x1_S300000x128_1_0_0_1 : ScatterDims S80000x128 S300000x1 S300000x128 where
  updateWindowDims := [1]
  insertedWindowDims := [0]
  scatterDimsToOperandDims := [0]
  indexVectorDim := 1
  wf := scatter_S80000x128_S300000x1_S300000x128_1_0_0_1_wf
def gather_S80000x128_S300000x1_S300000x128_1_0_n_n_0_1_1128 : GatherDims S80000x128 S300000x1 S300000x128 where
  offsetDims := [1]
  collapsedSliceDims := [0]
  operandBatchingDims := []
  startIndicesBatchingDims := []
  startIndexMap := [0]
  indexVectorDim := 1
  sliceSizes := ![1, 128]
  wf := gather_S80000x128_S300000x1_S300000x128_1_0_n_n_0_1_1128_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf
def gather_S20000x128_S100000x1_S100000x128_1_0_n_n_0_1_1128 : GatherDims S20000x128 S100000x1 S100000x128 where
  offsetDims := [1]
  collapsedSliceDims := [0]
  operandBatchingDims := []
  startIndicesBatchingDims := []
  startIndexMap := [0]
  indexVectorDim := 1
  sliceSizes := ![1, 128]
  wf := gather_S20000x128_S100000x1_S100000x128_1_0_n_n_0_1_1128_wf
def scatter_S20000x128_S100000x1_S100000x128_1_0_0_1 : ScatterDims S20000x128 S100000x1 S100000x128 where
  updateWindowDims := [1]
  insertedWindowDims := [0]
  scatterDimsToOperandDims := [0]
  indexVectorDim := 1
  wf := scatter_S20000x128_S100000x1_S100000x128_1_0_0_1_wf

abbrev win0_0 : Pipeline.Window sig grid0 :=
  Pipeline.Window.ofSpec (Memref.whole main_arg1) S2000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x7.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S2000x7.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S7x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S2000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S7x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S2000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S7x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v56) S2000x7.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v73) S7x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v61) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v96) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v98) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v100) S128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v66) S2000x128.size cc5_transform_7 reads5_7 false false 2 stage5_7 sem5_7
    hrank5 hreads5_7 hinb5_7 nbuf5_7 (Memref.isWhole_whole _) hwx5_7 hstage5_7

abbrev win5_8 : Pipeline.Window sig grid5 :=
  Pipeline.Window.ofSpec (Memref.whole main_v83) S128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v84) S128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v102) S128.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v104) S128.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v106) S128x128.size cc5_transform_12 reads5_12 false true 1 stage5_12 sem5_12
    hrank5 hreads5_12 hinb5_12 nbuf5_12 (Memref.isWhole_whole _) hwx5_12 hstage5_12

abbrev win5_13 : Pipeline.Window sig grid5 :=
  Pipeline.Window.ofSpec (Memref.whole main_v108) S128.size cc5_transform_13 reads5_13 false true 1 stage5_13 sem5_13
    hrank5 hreads5_13 hinb5_13 nbuf5_13 (Memref.isWhole_whole _) hwx5_13 hstage5_13

abbrev win5_14 : Pipeline.Window sig grid5 :=
  Pipeline.Window.ofSpec (Memref.whole main_v109) S2000x128.size cc5_transform_14 reads5_14 true false 2 stage5_14 sem5_14
    hrank5 hreads5_14 hinb5_14 nbuf5_14 (Memref.isWhole_whole _) hwx5_14 hstage5_14

abbrev win5 : Fin 15 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | 13 => win5_13 | 14 => win5_14 | ⟨_ + 15, h⟩ => absurd h (Nat.not_lt.2 (Nat.le_add_left _ _))
abbrev spec5 : Fin 15 → Pipeline.WinSpec sig grid5.rank := fun w => (win5 w).toWinSpec

abbrev win6_0 : Pipeline.Window sig grid6 :=
  Pipeline.Window.ofSpec (Memref.whole main_v71) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v87) S128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v111) S128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v113) S128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v115) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v117) S128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v76) S2000x128.size cc6_transform_7 reads6_7 false false 2 stage6_7 sem6_7
    hrank6 hreads6_7 hinb6_7 nbuf6_7 (Memref.isWhole_whole _) hwx6_7 hstage6_7

abbrev win6_8 : Pipeline.Window sig grid6 :=
  Pipeline.Window.ofSpec (Memref.whole main_v91) S128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v92) S128.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v119) S128.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v121) S128.size cc6_transform_11 reads6_11 false true 1 stage6_11 sem6_11
    hrank6 hreads6_11 hinb6_11 nbuf6_11 (Memref.isWhole_whole _) hwx6_11 hstage6_11

abbrev win6_12 : Pipeline.Window sig grid6 :=
  Pipeline.Window.ofSpec (Memref.whole main_v123) S128x128.size cc6_transform_12 reads6_12 false true 1 stage6_12 sem6_12
    hrank6 hreads6_12 hinb6_12 nbuf6_12 (Memref.isWhole_whole _) hwx6_12 hstage6_12

abbrev win6_13 : Pipeline.Window sig grid6 :=
  Pipeline.Window.ofSpec (Memref.whole main_v125) S128.size cc6_transform_13 reads6_13 false true 1 stage6_13 sem6_13
    hrank6 hreads6_13 hinb6_13 nbuf6_13 (Memref.isWhole_whole _) hwx6_13 hstage6_13

abbrev win6_14 : Pipeline.Window sig grid6 :=
  Pipeline.Window.ofSpec (Memref.whole main_v126) S2000x128.size cc6_transform_14 reads6_14 true false 2 stage6_14 sem6_14
    hrank6 hreads6_14 hinb6_14 nbuf6_14 (Memref.isWhole_whole _) hwx6_14 hstage6_14

abbrev win6 : Fin 15 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | 13 => win6_13 | 14 => win6_14 | ⟨_ + 15, h⟩ => absurd h (Nat.not_lt.2 (Nat.le_add_left _ _))
abbrev spec6 : Fin 15 → Pipeline.WinSpec sig grid6.rank := fun w => (win6 w).toWinSpec

abbrev win7_0 : Pipeline.Window sig grid7 :=
  Pipeline.Window.ofSpec (Memref.whole main_v152) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v196) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v198) S128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v199) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v166) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v201) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v203) S128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v204) S2000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v180) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v206) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v208) S128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v209) S2000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v194) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v211) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v213) S128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v214) S2000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v199) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v217) S128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v218) S128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v232) S128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v234) S128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v236) S128x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v238) S128.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v204) S2000x128.size cc11_transform_7 reads11_7 false false 2 stage11_7 sem11_7
    hrank11 hreads11_7 hinb11_7 nbuf11_7 (Memref.isWhole_whole _) hwx11_7 hstage11_7

abbrev win11_8 : Pipeline.Window sig grid11 :=
  Pipeline.Window.ofSpec (Memref.whole main_v221) S128.size cc11_transform_8 reads11_8 false true 1 stage11_8 sem11_8
    hrank11 hreads11_8 hinb11_8 nbuf11_8 (Memref.isWhole_whole _) hwx11_8 hstage11_8

abbrev win11_9 : Pipeline.Window sig grid11 :=
  Pipeline.Window.ofSpec (Memref.whole main_v222) S128.size cc11_transform_9 reads11_9 false true 1 stage11_9 sem11_9
    hrank11 hreads11_9 hinb11_9 nbuf11_9 (Memref.isWhole_whole _) hwx11_9 hstage11_9

abbrev win11_10 : Pipeline.Window sig grid11 :=
  Pipeline.Window.ofSpec (Memref.whole main_v240) S128.size cc11_transform_10 reads11_10 false true 1 stage11_10 sem11_10
    hrank11 hreads11_10 hinb11_10 nbuf11_10 (Memref.isWhole_whole _) hwx11_10 hstage11_10

abbrev win11_11 : Pipeline.Window sig grid11 :=
  Pipeline.Window.ofSpec (Memref.whole main_v242) S128.size cc11_transform_11 reads11_11 false true 1 stage11_11 sem11_11
    hrank11 hreads11_11 hinb11_11 nbuf11_11 (Memref.isWhole_whole _) hwx11_11 hstage11_11

abbrev win11_12 : Pipeline.Window sig grid11 :=
  Pipeline.Window.ofSpec (Memref.whole main_v244) S128x128.size cc11_transform_12 reads11_12 false true 1 stage11_12 sem11_12
    hrank11 hreads11_12 hinb11_12 nbuf11_12 (Memref.isWhole_whole _) hwx11_12 hstage11_12

abbrev win11_13 : Pipeline.Window sig grid11 :=
  Pipeline.Window.ofSpec (Memref.whole main_v246) S128.size cc11_transform_13 reads11_13 false true 1 stage11_13 sem11_13
    hrank11 hreads11_13 hinb11_13 nbuf11_13 (Memref.isWhole_whole _) hwx11_13 hstage11_13

abbrev win11_14 : Pipeline.Window sig grid11 :=
  Pipeline.Window.ofSpec (Memref.whole main_v247) S2000x128.size cc11_transform_14 reads11_14 true false 2 stage11_14 sem11_14
    hrank11 hreads11_14 hinb11_14 nbuf11_14 (Memref.isWhole_whole _) hwx11_14 hstage11_14

abbrev win11 : Fin 15 → Pipeline.Window sig grid11 := fun | 0 => win11_0 | 1 => win11_1 | 2 => win11_2 | 3 => win11_3 | 4 => win11_4 | 5 => win11_5 | 6 => win11_6 | 7 => win11_7 | 8 => win11_8 | 9 => win11_9 | 10 => win11_10 | 11 => win11_11 | 12 => win11_12 | 13 => win11_13 | 14 => win11_14 | ⟨_ + 15, h⟩ => absurd h (Nat.not_lt.2 (Nat.le_add_left _ _))
abbrev spec11 : Fin 15 → Pipeline.WinSpec sig grid11.rank := fun w => (win11 w).toWinSpec

abbrev win12_0 : Pipeline.Window sig grid12 :=
  Pipeline.Window.ofSpec (Memref.whole main_v209) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v225) S128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v226) S128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v249) S128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v251) S128.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v253) S128x128.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v255) S128.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v214) S2000x128.size cc12_transform_7 reads12_7 false false 2 stage12_7 sem12_7
    hrank12 hreads12_7 hinb12_7 nbuf12_7 (Memref.isWhole_whole _) hwx12_7 hstage12_7

abbrev win12_8 : Pipeline.Window sig grid12 :=
  Pipeline.Window.ofSpec (Memref.whole main_v229) S128.size cc12_transform_8 reads12_8 false true 1 stage12_8 sem12_8
    hrank12 hreads12_8 hinb12_8 nbuf12_8 (Memref.isWhole_whole _) hwx12_8 hstage12_8

abbrev win12_9 : Pipeline.Window sig grid12 :=
  Pipeline.Window.ofSpec (Memref.whole main_v230) S128.size cc12_transform_9 reads12_9 false true 1 stage12_9 sem12_9
    hrank12 hreads12_9 hinb12_9 nbuf12_9 (Memref.isWhole_whole _) hwx12_9 hstage12_9

abbrev win12_10 : Pipeline.Window sig grid12 :=
  Pipeline.Window.ofSpec (Memref.whole main_v257) S128.size cc12_transform_10 reads12_10 false true 1 stage12_10 sem12_10
    hrank12 hreads12_10 hinb12_10 nbuf12_10 (Memref.isWhole_whole _) hwx12_10 hstage12_10

abbrev win12_11 : Pipeline.Window sig grid12 :=
  Pipeline.Window.ofSpec (Memref.whole main_v259) S128.size cc12_transform_11 reads12_11 false true 1 stage12_11 sem12_11
    hrank12 hreads12_11 hinb12_11 nbuf12_11 (Memref.isWhole_whole _) hwx12_11 hstage12_11

abbrev win12_12 : Pipeline.Window sig grid12 :=
  Pipeline.Window.ofSpec (Memref.whole main_v261) S128x128.size cc12_transform_12 reads12_12 false true 1 stage12_12 sem12_12
    hrank12 hreads12_12 hinb12_12 nbuf12_12 (Memref.isWhole_whole _) hwx12_12 hstage12_12

abbrev win12_13 : Pipeline.Window sig grid12 :=
  Pipeline.Window.ofSpec (Memref.whole main_v263) S128.size cc12_transform_13 reads12_13 false true 1 stage12_13 sem12_13
    hrank12 hreads12_13 hinb12_13 nbuf12_13 (Memref.isWhole_whole _) hwx12_13 hstage12_13

abbrev win12_14 : Pipeline.Window sig grid12 :=
  Pipeline.Window.ofSpec (Memref.whole main_v264) S2000x128.size cc12_transform_14 reads12_14 true false 2 stage12_14 sem12_14
    hrank12 hreads12_14 hinb12_14 nbuf12_14 (Memref.isWhole_whole _) hwx12_14 hstage12_14

abbrev win12 : Fin 15 → Pipeline.Window sig grid12 := fun | 0 => win12_0 | 1 => win12_1 | 2 => win12_2 | 3 => win12_3 | 4 => win12_4 | 5 => win12_5 | 6 => win12_6 | 7 => win12_7 | 8 => win12_8 | 9 => win12_9 | 10 => win12_10 | 11 => win12_11 | 12 => win12_12 | 13 => win12_13 | 14 => win12_14 | ⟨_ + 15, h⟩ => absurd h (Nat.not_lt.2 (Nat.le_add_left _ _))
abbrev spec12 : Fin 15 → Pipeline.WinSpec sig grid12.rank := fun w => (win12 w).toWinSpec

abbrev win13_0 : Pipeline.Window sig grid13 :=
  Pipeline.Window.ofSpec (Memref.whole main_v290) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v334) S128x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v336) S128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v337) S2000x128.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v304) S2000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v339) S128x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v341) S128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v342) S2000x128.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v318) S2000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v344) S128x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v346) S128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v347) S2000x128.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v332) S2000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v349) S128x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v351) S128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v352) S2000x128.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v337) S2000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v355) S128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v356) S128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v370) S128.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v372) S128.size cc17_transform_4 reads17_4 false true 1 stage17_4 sem17_4
    hrank17 hreads17_4 hinb17_4 nbuf17_4 (Memref.isWhole_whole _) hwx17_4 hstage17_4

abbrev win17_5 : Pipeline.Window sig grid17 :=
  Pipeline.Window.ofSpec (Memref.whole main_v374) S128x128.size cc17_transform_5 reads17_5 false true 1 stage17_5 sem17_5
    hrank17 hreads17_5 hinb17_5 nbuf17_5 (Memref.isWhole_whole _) hwx17_5 hstage17_5

abbrev win17_6 : Pipeline.Window sig grid17 :=
  Pipeline.Window.ofSpec (Memref.whole main_v376) S128.size cc17_transform_6 reads17_6 false true 1 stage17_6 sem17_6
    hrank17 hreads17_6 hinb17_6 nbuf17_6 (Memref.isWhole_whole _) hwx17_6 hstage17_6

abbrev win17_7 : Pipeline.Window sig grid17 :=
  Pipeline.Window.ofSpec (Memref.whole main_v342) S2000x128.size cc17_transform_7 reads17_7 false false 2 stage17_7 sem17_7
    hrank17 hreads17_7 hinb17_7 nbuf17_7 (Memref.isWhole_whole _) hwx17_7 hstage17_7

abbrev win17_8 : Pipeline.Window sig grid17 :=
  Pipeline.Window.ofSpec (Memref.whole main_v359) S128.size cc17_transform_8 reads17_8 false true 1 stage17_8 sem17_8
    hrank17 hreads17_8 hinb17_8 nbuf17_8 (Memref.isWhole_whole _) hwx17_8 hstage17_8

abbrev win17_9 : Pipeline.Window sig grid17 :=
  Pipeline.Window.ofSpec (Memref.whole main_v360) S128.size cc17_transform_9 reads17_9 false true 1 stage17_9 sem17_9
    hrank17 hreads17_9 hinb17_9 nbuf17_9 (Memref.isWhole_whole _) hwx17_9 hstage17_9

abbrev win17_10 : Pipeline.Window sig grid17 :=
  Pipeline.Window.ofSpec (Memref.whole main_v378) S128.size cc17_transform_10 reads17_10 false true 1 stage17_10 sem17_10
    hrank17 hreads17_10 hinb17_10 nbuf17_10 (Memref.isWhole_whole _) hwx17_10 hstage17_10

abbrev win17_11 : Pipeline.Window sig grid17 :=
  Pipeline.Window.ofSpec (Memref.whole main_v380) S128.size cc17_transform_11 reads17_11 false true 1 stage17_11 sem17_11
    hrank17 hreads17_11 hinb17_11 nbuf17_11 (Memref.isWhole_whole _) hwx17_11 hstage17_11

abbrev win17_12 : Pipeline.Window sig grid17 :=
  Pipeline.Window.ofSpec (Memref.whole main_v382) S128x128.size cc17_transform_12 reads17_12 false true 1 stage17_12 sem17_12
    hrank17 hreads17_12 hinb17_12 nbuf17_12 (Memref.isWhole_whole _) hwx17_12 hstage17_12

abbrev win17_13 : Pipeline.Window sig grid17 :=
  Pipeline.Window.ofSpec (Memref.whole main_v384) S128.size cc17_transform_13 reads17_13 false true 1 stage17_13 sem17_13
    hrank17 hreads17_13 hinb17_13 nbuf17_13 (Memref.isWhole_whole _) hwx17_13 hstage17_13

abbrev win17_14 : Pipeline.Window sig grid17 :=
  Pipeline.Window.ofSpec (Memref.whole main_v385) S2000x128.size cc17_transform_14 reads17_14 true false 2 stage17_14 sem17_14
    hrank17 hreads17_14 hinb17_14 nbuf17_14 (Memref.isWhole_whole _) hwx17_14 hstage17_14

abbrev win17 : Fin 15 → Pipeline.Window sig grid17 := fun | 0 => win17_0 | 1 => win17_1 | 2 => win17_2 | 3 => win17_3 | 4 => win17_4 | 5 => win17_5 | 6 => win17_6 | 7 => win17_7 | 8 => win17_8 | 9 => win17_9 | 10 => win17_10 | 11 => win17_11 | 12 => win17_12 | 13 => win17_13 | 14 => win17_14 | ⟨_ + 15, h⟩ => absurd h (Nat.not_lt.2 (Nat.le_add_left _ _))
abbrev spec17 : Fin 15 → Pipeline.WinSpec sig grid17.rank := fun w => (win17 w).toWinSpec

abbrev win18_0 : Pipeline.Window sig grid18 :=
  Pipeline.Window.ofSpec (Memref.whole main_v347) S2000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v363) S128.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v364) S128.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v387) S128.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v389) S128.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v391) S128x128.size cc18_transform_5 reads18_5 false true 1 stage18_5 sem18_5
    hrank18 hreads18_5 hinb18_5 nbuf18_5 (Memref.isWhole_whole _) hwx18_5 hstage18_5

abbrev win18_6 : Pipeline.Window sig grid18 :=
  Pipeline.Window.ofSpec (Memref.whole main_v393) S128.size cc18_transform_6 reads18_6 false true 1 stage18_6 sem18_6
    hrank18 hreads18_6 hinb18_6 nbuf18_6 (Memref.isWhole_whole _) hwx18_6 hstage18_6

abbrev win18_7 : Pipeline.Window sig grid18 :=
  Pipeline.Window.ofSpec (Memref.whole main_v352) S2000x128.size cc18_transform_7 reads18_7 false false 2 stage18_7 sem18_7
    hrank18 hreads18_7 hinb18_7 nbuf18_7 (Memref.isWhole_whole _) hwx18_7 hstage18_7

abbrev win18_8 : Pipeline.Window sig grid18 :=
  Pipeline.Window.ofSpec (Memref.whole main_v367) S128.size cc18_transform_8 reads18_8 false true 1 stage18_8 sem18_8
    hrank18 hreads18_8 hinb18_8 nbuf18_8 (Memref.isWhole_whole _) hwx18_8 hstage18_8

abbrev win18_9 : Pipeline.Window sig grid18 :=
  Pipeline.Window.ofSpec (Memref.whole main_v368) S128.size cc18_transform_9 reads18_9 false true 1 stage18_9 sem18_9
    hrank18 hreads18_9 hinb18_9 nbuf18_9 (Memref.isWhole_whole _) hwx18_9 hstage18_9

abbrev win18_10 : Pipeline.Window sig grid18 :=
  Pipeline.Window.ofSpec (Memref.whole main_v395) S128.size cc18_transform_10 reads18_10 false true 1 stage18_10 sem18_10
    hrank18 hreads18_10 hinb18_10 nbuf18_10 (Memref.isWhole_whole _) hwx18_10 hstage18_10

abbrev win18_11 : Pipeline.Window sig grid18 :=
  Pipeline.Window.ofSpec (Memref.whole main_v397) S128.size cc18_transform_11 reads18_11 false true 1 stage18_11 sem18_11
    hrank18 hreads18_11 hinb18_11 nbuf18_11 (Memref.isWhole_whole _) hwx18_11 hstage18_11

abbrev win18_12 : Pipeline.Window sig grid18 :=
  Pipeline.Window.ofSpec (Memref.whole main_v399) S128x128.size cc18_transform_12 reads18_12 false true 1 stage18_12 sem18_12
    hrank18 hreads18_12 hinb18_12 nbuf18_12 (Memref.isWhole_whole _) hwx18_12 hstage18_12

abbrev win18_13 : Pipeline.Window sig grid18 :=
  Pipeline.Window.ofSpec (Memref.whole main_v401) S128.size cc18_transform_13 reads18_13 false true 1 stage18_13 sem18_13
    hrank18 hreads18_13 hinb18_13 nbuf18_13 (Memref.isWhole_whole _) hwx18_13 hstage18_13

abbrev win18_14 : Pipeline.Window sig grid18 :=
  Pipeline.Window.ofSpec (Memref.whole main_v402) S2000x128.size cc18_transform_14 reads18_14 true false 2 stage18_14 sem18_14
    hrank18 hreads18_14 hinb18_14 nbuf18_14 (Memref.isWhole_whole _) hwx18_14 hstage18_14

abbrev win18 : Fin 15 → Pipeline.Window sig grid18 := fun | 0 => win18_0 | 1 => win18_1 | 2 => win18_2 | 3 => win18_3 | 4 => win18_4 | 5 => win18_5 | 6 => win18_6 | 7 => win18_7 | 8 => win18_8 | 9 => win18_9 | 10 => win18_10 | 11 => win18_11 | 12 => win18_12 | 13 => win18_13 | 14 => win18_14 | ⟨_ + 15, h⟩ => absurd h (Nat.not_lt.2 (Nat.le_add_left _ _))
abbrev spec18 : Fin 15 → Pipeline.WinSpec sig grid18.rank := fun w => (win18 w).toWinSpec

abbrev win19_0 : Pipeline.Window sig grid19 :=
  Pipeline.Window.ofSpec (Memref.whole main_v385) S2000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_arg16) S128x128.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_arg17) S128.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v403) S2000x128.size cc19_transform_3 reads19_3 true false 2 stage19_3 sem19_3
    hrank19 hreads19_3 hinb19_3 nbuf19_3 (Memref.isWhole_whole _) hwx19_3 hstage19_3

abbrev win19 : Fin 4 → Pipeline.Window sig grid19 := fun | 0 => win19_0 | 1 => win19_1 | 2 => win19_2 | 3 => win19_3 | ⟨_ + 4, h⟩ => absurd h (Nat.not_lt.2 (Nat.le_add_left _ _))
abbrev spec19 : Fin 4 → Pipeline.WinSpec sig grid19.rank := fun w => (win19 w).toWinSpec

abbrev win20_0 : Pipeline.Window sig grid20 :=
  Pipeline.Window.ofSpec (Memref.whole main_v402) S2000x128.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_arg18) S128x128.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_arg19) S128.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v404) S2000x128.size cc20_transform_3 reads20_3 true false 2 stage20_3 sem20_3
    hrank20 hreads20_3 hinb20_3 nbuf20_3 (Memref.isWhole_whole _) hwx20_3 hstage20_3

abbrev win20 : Fin 4 → Pipeline.Window sig grid20 := fun | 0 => win20_0 | 1 => win20_1 | 2 => win20_2 | 3 => win20_3 | ⟨_ + 4, h⟩ => absurd h (Nat.not_lt.2 (Nat.le_add_left _ _))
abbrev spec20 : Fin 4 → Pipeline.WinSpec sig grid20.rank := fun w => (win20 w).toWinSpec

class Facts : Prop extends Facts₀ where

variable [Facts]
-- ==== ReferenceIdeal.lean ====
abbrev S80000x7 : Shape := ⟨2, ![80000, 7]⟩
abbrev S20000x4 : Shape := ⟨2, ![20000, 4]⟩
abbrev S4x7 : Shape := ⟨2, ![4, 7]⟩
abbrev S7 : Shape := ⟨1, ![7]⟩
abbrev S4x7x128 : Shape := ⟨3, ![4, 7, 128]⟩
abbrev S4x128 : Shape := ⟨2, ![4, 128]⟩
abbrev S4x128x128 : Shape := ⟨3, ![4, 128, 128]⟩
abbrev S2x4x128x128 : Shape := ⟨4, ![2, 4, 128, 128]⟩
abbrev S2x4x128 : Shape := ⟨3, ![2, 4, 128]⟩
abbrev S128x128 : Shape := ⟨2, ![128, 128]⟩
abbrev S128 : Shape := ⟨1, ![128]⟩
abbrev S2x1000000 : Shape := ⟨2, ![2, 1000000]⟩
abbrev S2x300000 : Shape := ⟨2, ![2, 300000]⟩
abbrev S2x100000 : Shape := ⟨2, ![2, 100000]⟩
abbrev S20000x7 : Shape := ⟨2, ![20000, 7]⟩
abbrev S1x7 : Shape := ⟨2, ![1, 7]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x7 : Shape := ⟨2, ![1000000, 7]⟩
abbrev S1x300000 : Shape := ⟨2, ![1, 300000]⟩
abbrev S300000 : Shape := ⟨1, ![300000]⟩
abbrev S300000x1 : Shape := ⟨2, ![300000, 1]⟩
abbrev S300000x7 : Shape := ⟨2, ![300000, 7]⟩
abbrev S1x100000 : Shape := ⟨2, ![1, 100000]⟩
abbrev S100000 : Shape := ⟨1, ![100000]⟩
abbrev S100000x1 : Shape := ⟨2, ![100000, 1]⟩
abbrev S100000x7 : Shape := ⟨2, ![100000, 7]⟩
abbrev S1x7x128 : Shape := ⟨3, ![1, 7, 128]⟩
abbrev S7x128 : Shape := ⟨2, ![7, 128]⟩
abbrev S1x128 : Shape := ⟨2, ![1, 128]⟩
abbrev S1x128x128 : Shape := ⟨3, ![1, 128, 128]⟩
abbrev S80000x128 : Shape := ⟨2, ![80000, 128]⟩
abbrev S20000x128 : Shape := ⟨2, ![20000, 128]⟩
abbrev S1x4x128x128 : Shape := ⟨4, ![1, 4, 128, 128]⟩
abbrev S1x4x128 : Shape := ⟨3, ![1, 4, 128]⟩
abbrev S1000000x128 : Shape := ⟨2, ![1000000, 128]⟩
abbrev S300000x128 : Shape := ⟨2, ![300000, 128]⟩
abbrev S100000x128 : Shape := ⟨2, ![100000, 128]⟩

abbrev nBuf : Space → Nat
  | .hbm => 1116
  | .vmem => 0
  | .smem => 0
  | _ => 0

abbrev hbmTy0_0 (i : Nat) : BufTy := match i % 128 with
  | 0 => ⟨S80000x7, .f32⟩
  | 1 => ⟨S20000x4, .f32⟩
  | 2 => ⟨S4x7, .f32⟩
  | 3 => ⟨S7, .f32⟩
  | 4 => ⟨S4x7x128, .f32⟩
  | 5 => ⟨S4x128, .f32⟩
  | 6 => ⟨S4x128, .f32⟩
  | 7 => ⟨S4x128, .f32⟩
  | 8 => ⟨S4x128x128, .f32⟩
  | 9 => ⟨S4x128, .f32⟩
  | 10 => ⟨S2x4x128x128, .f32⟩
  | 11 => ⟨S2x4x128, .f32⟩
  | 12 => ⟨S2x4x128, .f32⟩
  | 13 => ⟨S2x4x128, .f32⟩
  | 14 => ⟨S2x4x128x128, .f32⟩
  | 15 => ⟨S2x4x128, .f32⟩
  | 16 => ⟨S128x128, .f32⟩
  | 17 => ⟨S128, .f32⟩
  | 18 => ⟨S128x128, .f32⟩
  | 19 => ⟨S128, .f32⟩
  | 20 => ⟨S2x1000000, .i32⟩
  | 21 => ⟨S2x300000, .i32⟩
  | 22 => ⟨S2x300000, .i32⟩
  | 23 => ⟨S2x100000, .i32⟩
  | 24 => ⟨S20000x7, .f32⟩
  | 25 => ⟨S1x7, .f32⟩
  | 26 => ⟨S20000x7, .f32⟩
  | 27 => ⟨S20000x7, .f32⟩
  | 28 => ⟨S1x1000000, .i32⟩
  | 29 => ⟨S1000000, .i32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000x7, .f32⟩
  | 39 => ⟨S1x1000000, .i32⟩
  | 40 => ⟨S1000000, .i32⟩
  | 41 => ⟨S_, .f32⟩
  | 42 => ⟨S80000x7, .f32⟩
  | 43 => ⟨S1000000x1, .i32⟩
  | 44 => ⟨S80000x7, .f32⟩
  | 45 => ⟨S1x300000, .i32⟩
  | 46 => ⟨S300000, .i32⟩
  | 47 => ⟨S_, .i32⟩
  | 48 => ⟨S300000, .i32⟩
  | 49 => ⟨S300000, .i1⟩
  | 50 => ⟨S_, .i32⟩
  | 51 => ⟨S300000, .i32⟩
  | 52 => ⟨S300000, .i32⟩
  | 53 => ⟨S300000, .i32⟩
  | 54 => ⟨S300000x1, .i32⟩
  | 55 => ⟨S300000x7, .f32⟩
  | 56 => ⟨S1x300000, .i32⟩
  | 57 => ⟨S300000, .i32⟩
  | 58 => ⟨S_, .f32⟩
  | 59 => ⟨S80000x7, .f32⟩
  | 60 => ⟨S300000x1, .i32⟩
  | 61 => ⟨S80000x7, .f32⟩
  | 62 => ⟨S1x300000, .i32⟩
  | 63 => ⟨S300000, .i32⟩
  | 64 => ⟨S_, .i32⟩
  | 65 => ⟨S300000, .i32⟩
  | 66 => ⟨S300000, .i1⟩
  | 67 => ⟨S_, .i32⟩
  | 68 => ⟨S300000, .i32⟩
  | 69 => ⟨S300000, .i32⟩
  | 70 => ⟨S300000, .i32⟩
  | 71 => ⟨S300000x1, .i32⟩
  | 72 => ⟨S300000x7, .f32⟩
  | 73 => ⟨S1x300000, .i32⟩
  | 74 => ⟨S300000, .i32⟩
  | 75 => ⟨S_, .f32⟩
  | 76 => ⟨S20000x7, .f32⟩
  | 77 => ⟨S300000x1, .i32⟩
  | 78 => ⟨S20000x7, .f32⟩
  | 79 => ⟨S1x100000, .i32⟩
  | 80 => ⟨S100000, .i32⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S100000x1, .i32⟩
  | 89 => ⟨S100000x7, .f32⟩
  | 90 => ⟨S1x100000, .i32⟩
  | 91 => ⟨S100000, .i32⟩
  | 92 => ⟨S_, .f32⟩
  | 93 => ⟨S20000x7, .f32⟩
  | 94 => ⟨S100000x1, .i32⟩
  | 95 => ⟨S20000x7, .f32⟩
  | 96 => ⟨S1x7x128, .f32⟩
  | 97 => ⟨S7x128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S128, .f32⟩
  | 104 => ⟨S1x128x128, .f32⟩
  | 105 => ⟨S128x128, .f32⟩
  | 106 => ⟨S1x128, .f32⟩
  | 107 => ⟨S128, .f32⟩
  | 108 => ⟨S80000x128, .f32⟩
  | 109 => ⟨S1x128, .f32⟩
  | 110 => ⟨S80000x128, .f32⟩
  | 111 => ⟨S80000x128, .f32⟩
  | 112 => ⟨S_, .f32⟩
  | 113 => ⟨S128, .f32⟩
  | 114 => ⟨S_, .f32⟩
  | 115 => ⟨S128, .f32⟩
  | 116 => ⟨S128, .f32⟩
  | 117 => ⟨S_, .i32⟩
  | 118 => ⟨S_, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S80000x128, .f32⟩
  | 125 => ⟨S80000x128, .f32⟩
  | 126 => ⟨S80000x128, .f32⟩
  | 127 => ⟨S_, .f32⟩
  | _ => ⟨S80000x7, .f32⟩

abbrev hbmTy0_1 (i : Nat) : BufTy := match i % 128 with
  | 0 => ⟨S_, .f32⟩
  | 1 => ⟨S_, .f32⟩
  | 2 => ⟨S_, .f32⟩
  | 3 => ⟨S128, .f32⟩
  | 4 => ⟨S128, .f32⟩
  | 5 => ⟨S128, .f32⟩
  | 6 => ⟨S_, .f32⟩
  | 7 => ⟨S_, .i1⟩
  | 8 => ⟨S_, .f32⟩
  | 9 => ⟨S_, .f32⟩
  | 10 => ⟨S128, .f32⟩
  | 11 => ⟨S128, .f32⟩
  | 12 => ⟨S1x128, .f32⟩
  | 13 => ⟨S80000x128, .f32⟩
  | 14 => ⟨S80000x128, .f32⟩
  | 15 => ⟨S1x128, .f32⟩
  | 16 => ⟨S80000x128, .f32⟩
  | 17 => ⟨S80000x128, .f32⟩
  | 18 => ⟨S_, .f32⟩
  | 19 => ⟨S128, .f32⟩
  | 20 => ⟨S128, .f32⟩
  | 21 => ⟨S128, .f32⟩
  | 22 => ⟨S1x128, .f32⟩
  | 23 => ⟨S80000x128, .f32⟩
  | 24 => ⟨S80000x128, .f32⟩
  | 25 => ⟨S1x128, .f32⟩
  | 26 => ⟨S80000x128, .f32⟩
  | 27 => ⟨S80000x128, .f32⟩
  | 28 => ⟨S_, .f32⟩
  | 29 => ⟨S80000x128, .f32⟩
  | 30 => ⟨S80000x128, .f32⟩
  | 31 => ⟨S80000x128, .f32⟩
  | 32 => ⟨S1x128, .f32⟩
  | 33 => ⟨S80000x128, .f32⟩
  | 34 => ⟨S80000x128, .f32⟩
  | 35 => ⟨S1x7x128, .f32⟩
  | 36 => ⟨S7x128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S128, .f32⟩
  | 43 => ⟨S1x128x128, .f32⟩
  | 44 => ⟨S128x128, .f32⟩
  | 45 => ⟨S1x128, .f32⟩
  | 46 => ⟨S128, .f32⟩
  | 47 => ⟨S80000x128, .f32⟩
  | 48 => ⟨S1x128, .f32⟩
  | 49 => ⟨S80000x128, .f32⟩
  | 50 => ⟨S80000x128, .f32⟩
  | 51 => ⟨S_, .f32⟩
  | 52 => ⟨S128, .f32⟩
  | 53 => ⟨S_, .f32⟩
  | 54 => ⟨S128, .f32⟩
  | 55 => ⟨S128, .f32⟩
  | 56 => ⟨S_, .i32⟩
  | 57 => ⟨S_, .f32⟩
  | 58 => ⟨S128, .f32⟩
  | 59 => ⟨S1x128, .f32⟩
  | 60 => ⟨S_, .f32⟩
  | 61 => ⟨S1x128, .f32⟩
  | 62 => ⟨S1x128, .f32⟩
  | 63 => ⟨S80000x128, .f32⟩
  | 64 => ⟨S80000x128, .f32⟩
  | 65 => ⟨S80000x128, .f32⟩
  | 66 => ⟨S_, .f32⟩
  | 67 => ⟨S_, .f32⟩
  | 68 => ⟨S_, .f32⟩
  | 69 => ⟨S_, .f32⟩
  | 70 => ⟨S128, .f32⟩
  | 71 => ⟨S128, .f32⟩
  | 72 => ⟨S128, .f32⟩
  | 73 => ⟨S_, .f32⟩
  | 74 => ⟨S_, .i1⟩
  | 75 => ⟨S_, .f32⟩
  | 76 => ⟨S_, .f32⟩
  | 77 => ⟨S128, .f32⟩
  | 78 => ⟨S128, .f32⟩
  | 79 => ⟨S1x128, .f32⟩
  | 80 => ⟨S80000x128, .f32⟩
  | 81 => ⟨S80000x128, .f32⟩
  | 82 => ⟨S1x128, .f32⟩
  | 83 => ⟨S80000x128, .f32⟩
  | 84 => ⟨S80000x128, .f32⟩
  | 85 => ⟨S_, .f32⟩
  | 86 => ⟨S128, .f32⟩
  | 87 => ⟨S128, .f32⟩
  | 88 => ⟨S128, .f32⟩
  | 89 => ⟨S1x128, .f32⟩
  | 90 => ⟨S80000x128, .f32⟩
  | 91 => ⟨S80000x128, .f32⟩
  | 92 => ⟨S1x128, .f32⟩
  | 93 => ⟨S80000x128, .f32⟩
  | 94 => ⟨S80000x128, .f32⟩
  | 95 => ⟨S_, .f32⟩
  | 96 => ⟨S80000x128, .f32⟩
  | 97 => ⟨S80000x128, .f32⟩
  | 98 => ⟨S80000x128, .f32⟩
  | 99 => ⟨S1x128, .f32⟩
  | 100 => ⟨S80000x128, .f32⟩
  | 101 => ⟨S80000x128, .f32⟩
  | 102 => ⟨S80000x128, .f32⟩
  | 103 => ⟨S_, .f32⟩
  | 104 => ⟨S80000x128, .f32⟩
  | 105 => ⟨S80000x128, .i1⟩
  | 106 => ⟨S_, .f32⟩
  | 107 => ⟨S80000x128, .f32⟩
  | 108 => ⟨S80000x128, .f32⟩
  | 109 => ⟨S80000x128, .f32⟩
  | 110 => ⟨S1x7x128, .f32⟩
  | 111 => ⟨S7x128, .f32⟩
  | 112 => ⟨S1x128, .f32⟩
  | 113 => ⟨S128, .f32⟩
  | 114 => ⟨S1x128, .f32⟩
  | 115 => ⟨S128, .f32⟩
  | 116 => ⟨S1x128, .f32⟩
  | 117 => ⟨S128, .f32⟩
  | 118 => ⟨S1x128x128, .f32⟩
  | 119 => ⟨S128x128, .f32⟩
  | 120 => ⟨S1x128, .f32⟩
  | 121 => ⟨S128, .f32⟩
  | 122 => ⟨S20000x128, .f32⟩
  | 123 => ⟨S1x128, .f32⟩
  | 124 => ⟨S20000x128, .f32⟩
  | 125 => ⟨S20000x128, .f32⟩
  | 126 => ⟨S_, .f32⟩
  | 127 => ⟨S128, .f32⟩
  | _ => ⟨S80000x7, .f32⟩

abbrev hbmTy0_2 (i : Nat) : BufTy := match i % 128 with
  | 0 => ⟨S_, .f32⟩
  | 1 => ⟨S128, .f32⟩
  | 2 => ⟨S128, .f32⟩
  | 3 => ⟨S_, .i32⟩
  | 4 => ⟨S_, .f32⟩
  | 5 => ⟨S128, .f32⟩
  | 6 => ⟨S1x128, .f32⟩
  | 7 => ⟨S_, .f32⟩
  | 8 => ⟨S1x128, .f32⟩
  | 9 => ⟨S1x128, .f32⟩
  | 10 => ⟨S20000x128, .f32⟩
  | 11 => ⟨S20000x128, .f32⟩
  | 12 => ⟨S20000x128, .f32⟩
  | 13 => ⟨S_, .f32⟩
  | 14 => ⟨S_, .f32⟩
  | 15 => ⟨S_, .f32⟩
  | 16 => ⟨S_, .f32⟩
  | 17 => ⟨S128, .f32⟩
  | 18 => ⟨S128, .f32⟩
  | 19 => ⟨S128, .f32⟩
  | 20 => ⟨S_, .f32⟩
  | 21 => ⟨S_, .i1⟩
  | 22 => ⟨S_, .f32⟩
  | 23 => ⟨S_, .f32⟩
  | 24 => ⟨S128, .f32⟩
  | 25 => ⟨S128, .f32⟩
  | 26 => ⟨S1x128, .f32⟩
  | 27 => ⟨S20000x128, .f32⟩
  | 28 => ⟨S20000x128, .f32⟩
  | 29 => ⟨S1x128, .f32⟩
  | 30 => ⟨S20000x128, .f32⟩
  | 31 => ⟨S20000x128, .f32⟩
  | 32 => ⟨S_, .f32⟩
  | 33 => ⟨S128, .f32⟩
  | 34 => ⟨S128, .f32⟩
  | 35 => ⟨S128, .f32⟩
  | 36 => ⟨S1x128, .f32⟩
  | 37 => ⟨S20000x128, .f32⟩
  | 38 => ⟨S20000x128, .f32⟩
  | 39 => ⟨S1x128, .f32⟩
  | 40 => ⟨S20000x128, .f32⟩
  | 41 => ⟨S20000x128, .f32⟩
  | 42 => ⟨S_, .f32⟩
  | 43 => ⟨S20000x128, .f32⟩
  | 44 => ⟨S20000x128, .f32⟩
  | 45 => ⟨S20000x128, .f32⟩
  | 46 => ⟨S1x128, .f32⟩
  | 47 => ⟨S20000x128, .f32⟩
  | 48 => ⟨S20000x128, .f32⟩
  | 49 => ⟨S1x7x128, .f32⟩
  | 50 => ⟨S7x128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S128, .f32⟩
  | 57 => ⟨S1x128x128, .f32⟩
  | 58 => ⟨S128x128, .f32⟩
  | 59 => ⟨S1x128, .f32⟩
  | 60 => ⟨S128, .f32⟩
  | 61 => ⟨S20000x128, .f32⟩
  | 62 => ⟨S1x128, .f32⟩
  | 63 => ⟨S20000x128, .f32⟩
  | 64 => ⟨S20000x128, .f32⟩
  | 65 => ⟨S_, .f32⟩
  | 66 => ⟨S128, .f32⟩
  | 67 => ⟨S_, .f32⟩
  | 68 => ⟨S128, .f32⟩
  | 69 => ⟨S128, .f32⟩
  | 70 => ⟨S_, .i32⟩
  | 71 => ⟨S_, .f32⟩
  | 72 => ⟨S128, .f32⟩
  | 73 => ⟨S1x128, .f32⟩
  | 74 => ⟨S_, .f32⟩
  | 75 => ⟨S1x128, .f32⟩
  | 76 => ⟨S1x128, .f32⟩
  | 77 => ⟨S20000x128, .f32⟩
  | 78 => ⟨S20000x128, .f32⟩
  | 79 => ⟨S20000x128, .f32⟩
  | 80 => ⟨S_, .f32⟩
  | 81 => ⟨S_, .f32⟩
  | 82 => ⟨S_, .f32⟩
  | 83 => ⟨S_, .f32⟩
  | 84 => ⟨S128, .f32⟩
  | 85 => ⟨S128, .f32⟩
  | 86 => ⟨S128, .f32⟩
  | 87 => ⟨S_, .f32⟩
  | 88 => ⟨S_, .i1⟩
  | 89 => ⟨S_, .f32⟩
  | 90 => ⟨S_, .f32⟩
  | 91 => ⟨S128, .f32⟩
  | 92 => ⟨S128, .f32⟩
  | 93 => ⟨S1x128, .f32⟩
  | 94 => ⟨S20000x128, .f32⟩
  | 95 => ⟨S20000x128, .f32⟩
  | 96 => ⟨S1x128, .f32⟩
  | 97 => ⟨S20000x128, .f32⟩
  | 98 => ⟨S20000x128, .f32⟩
  | 99 => ⟨S_, .f32⟩
  | 100 => ⟨S128, .f32⟩
  | 101 => ⟨S128, .f32⟩
  | 102 => ⟨S128, .f32⟩
  | 103 => ⟨S1x128, .f32⟩
  | 104 => ⟨S20000x128, .f32⟩
  | 105 => ⟨S20000x128, .f32⟩
  | 106 => ⟨S1x128, .f32⟩
  | 107 => ⟨S20000x128, .f32⟩
  | 108 => ⟨S20000x128, .f32⟩
  | 109 => ⟨S_, .f32⟩
  | 110 => ⟨S20000x128, .f32⟩
  | 111 => ⟨S20000x128, .f32⟩
  | 112 => ⟨S20000x128, .f32⟩
  | 113 => ⟨S1x128, .f32⟩
  | 114 => ⟨S20000x128, .f32⟩
  | 115 => ⟨S20000x128, .f32⟩
  | 116 => ⟨S20000x128, .f32⟩
  | 117 => ⟨S_, .f32⟩
  | 118 => ⟨S20000x128, .f32⟩
  | 119 => ⟨S20000x128, .i1⟩
  | 120 => ⟨S_, .f32⟩
  | 121 => ⟨S20000x128, .f32⟩
  | 122 => ⟨S20000x128, .f32⟩
  | 123 => ⟨S20000x128, .f32⟩
  | 124 => ⟨S1x4x128x128, .f32⟩
  | 125 => ⟨S4x128x128, .f32⟩
  | 126 => ⟨S1x4x128, .f32⟩
  | 127 => ⟨S4x128, .f32⟩
  | _ => ⟨S80000x7, .f32⟩

abbrev hbmTy0_3 (i : Nat) : BufTy := match i % 128 with
  | 0 => ⟨S1x4x128, .f32⟩
  | 1 => ⟨S4x128, .f32⟩
  | 2 => ⟨S1x4x128, .f32⟩
  | 3 => ⟨S4x128, .f32⟩
  | 4 => ⟨S1x4x128x128, .f32⟩
  | 5 => ⟨S4x128x128, .f32⟩
  | 6 => ⟨S1x4x128, .f32⟩
  | 7 => ⟨S4x128, .f32⟩
  | 8 => ⟨S1x1000000, .i32⟩
  | 9 => ⟨S1000000, .i32⟩
  | 10 => ⟨S_, .i32⟩
  | 11 => ⟨S1000000, .i32⟩
  | 12 => ⟨S1000000, .i1⟩
  | 13 => ⟨S_, .i32⟩
  | 14 => ⟨S1000000, .i32⟩
  | 15 => ⟨S1000000, .i32⟩
  | 16 => ⟨S1000000, .i32⟩
  | 17 => ⟨S1000000x1, .i32⟩
  | 18 => ⟨S1000000x128, .f32⟩
  | 19 => ⟨S1x1000000, .i32⟩
  | 20 => ⟨S1000000, .i32⟩
  | 21 => ⟨S_, .f32⟩
  | 22 => ⟨S80000x128, .f32⟩
  | 23 => ⟨S1000000x1, .i32⟩
  | 24 => ⟨S80000x128, .f32⟩
  | 25 => ⟨S1x300000, .i32⟩
  | 26 => ⟨S300000, .i32⟩
  | 27 => ⟨S_, .i32⟩
  | 28 => ⟨S300000, .i32⟩
  | 29 => ⟨S300000, .i1⟩
  | 30 => ⟨S_, .i32⟩
  | 31 => ⟨S300000, .i32⟩
  | 32 => ⟨S300000, .i32⟩
  | 33 => ⟨S300000, .i32⟩
  | 34 => ⟨S300000x1, .i32⟩
  | 35 => ⟨S300000x128, .f32⟩
  | 36 => ⟨S1x300000, .i32⟩
  | 37 => ⟨S300000, .i32⟩
  | 38 => ⟨S_, .f32⟩
  | 39 => ⟨S80000x128, .f32⟩
  | 40 => ⟨S300000x1, .i32⟩
  | 41 => ⟨S80000x128, .f32⟩
  | 42 => ⟨S1x300000, .i32⟩
  | 43 => ⟨S300000, .i32⟩
  | 44 => ⟨S_, .i32⟩
  | 45 => ⟨S300000, .i32⟩
  | 46 => ⟨S300000, .i1⟩
  | 47 => ⟨S_, .i32⟩
  | 48 => ⟨S300000, .i32⟩
  | 49 => ⟨S300000, .i32⟩
  | 50 => ⟨S300000, .i32⟩
  | 51 => ⟨S300000x1, .i32⟩
  | 52 => ⟨S300000x128, .f32⟩
  | 53 => ⟨S1x300000, .i32⟩
  | 54 => ⟨S300000, .i32⟩
  | 55 => ⟨S_, .f32⟩
  | 56 => ⟨S20000x128, .f32⟩
  | 57 => ⟨S300000x1, .i32⟩
  | 58 => ⟨S20000x128, .f32⟩
  | 59 => ⟨S1x100000, .i32⟩
  | 60 => ⟨S100000, .i32⟩
  | 61 => ⟨S_, .i32⟩
  | 62 => ⟨S100000, .i32⟩
  | 63 => ⟨S100000, .i1⟩
  | 64 => ⟨S_, .i32⟩
  | 65 => ⟨S100000, .i32⟩
  | 66 => ⟨S100000, .i32⟩
  | 67 => ⟨S100000, .i32⟩
  | 68 => ⟨S100000x1, .i32⟩
  | 69 => ⟨S100000x128, .f32⟩
  | 70 => ⟨S1x100000, .i32⟩
  | 71 => ⟨S100000, .i32⟩
  | 72 => ⟨S_, .f32⟩
  | 73 => ⟨S20000x128, .f32⟩
  | 74 => ⟨S100000x1, .i32⟩
  | 75 => ⟨S20000x128, .f32⟩
  | 76 => ⟨S1x128x128, .f32⟩
  | 77 => ⟨S128x128, .f32⟩
  | 78 => ⟨S1x128, .f32⟩
  | 79 => ⟨S128, .f32⟩
  | 80 => ⟨S1x128, .f32⟩
  | 81 => ⟨S128, .f32⟩
  | 82 => ⟨S1x128, .f32⟩
  | 83 => ⟨S128, .f32⟩
  | 84 => ⟨S1x128x128, .f32⟩
  | 85 => ⟨S128x128, .f32⟩
  | 86 => ⟨S1x128, .f32⟩
  | 87 => ⟨S128, .f32⟩
  | 88 => ⟨S80000x128, .f32⟩
  | 89 => ⟨S1x128, .f32⟩
  | 90 => ⟨S80000x128, .f32⟩
  | 91 => ⟨S80000x128, .f32⟩
  | 92 => ⟨S_, .f32⟩
  | 93 => ⟨S128, .f32⟩
  | 94 => ⟨S_, .f32⟩
  | 95 => ⟨S128, .f32⟩
  | 96 => ⟨S128, .f32⟩
  | 97 => ⟨S_, .i32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S80000x128, .f32⟩
  | 105 => ⟨S80000x128, .f32⟩
  | 106 => ⟨S80000x128, .f32⟩
  | 107 => ⟨S_, .f32⟩
  | 108 => ⟨S_, .f32⟩
  | 109 => ⟨S_, .f32⟩
  | 110 => ⟨S_, .f32⟩
  | 111 => ⟨S128, .f32⟩
  | 112 => ⟨S128, .f32⟩
  | 113 => ⟨S128, .f32⟩
  | 114 => ⟨S_, .f32⟩
  | 115 => ⟨S_, .i1⟩
  | 116 => ⟨S_, .f32⟩
  | 117 => ⟨S_, .f32⟩
  | 118 => ⟨S128, .f32⟩
  | 119 => ⟨S128, .f32⟩
  | 120 => ⟨S1x128, .f32⟩
  | 121 => ⟨S80000x128, .f32⟩
  | 122 => ⟨S80000x128, .f32⟩
  | 123 => ⟨S1x128, .f32⟩
  | 124 => ⟨S80000x128, .f32⟩
  | 125 => ⟨S80000x128, .f32⟩
  | 126 => ⟨S_, .f32⟩
  | 127 => ⟨S128, .f32⟩
  | _ => ⟨S80000x7, .f32⟩

abbrev hbmTy0_4 (i : Nat) : BufTy := match i % 128 with
  | 0 => ⟨S128, .f32⟩
  | 1 => ⟨S128, .f32⟩
  | 2 => ⟨S1x128, .f32⟩
  | 3 => ⟨S80000x128, .f32⟩
  | 4 => ⟨S80000x128, .f32⟩
  | 5 => ⟨S1x128, .f32⟩
  | 6 => ⟨S80000x128, .f32⟩
  | 7 => ⟨S80000x128, .f32⟩
  | 8 => ⟨S_, .f32⟩
  | 9 => ⟨S80000x128, .f32⟩
  | 10 => ⟨S80000x128, .f32⟩
  | 11 => ⟨S80000x128, .f32⟩
  | 12 => ⟨S1x128, .f32⟩
  | 13 => ⟨S80000x128, .f32⟩
  | 14 => ⟨S80000x128, .f32⟩
  | 15 => ⟨S1x128x128, .f32⟩
  | 16 => ⟨S128x128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128x128, .f32⟩
  | 24 => ⟨S128x128, .f32⟩
  | 25 => ⟨S1x128, .f32⟩
  | 26 => ⟨S128, .f32⟩
  | 27 => ⟨S80000x128, .f32⟩
  | 28 => ⟨S1x128, .f32⟩
  | 29 => ⟨S80000x128, .f32⟩
  | 30 => ⟨S80000x128, .f32⟩
  | 31 => ⟨S_, .f32⟩
  | 32 => ⟨S128, .f32⟩
  | 33 => ⟨S_, .f32⟩
  | 34 => ⟨S128, .f32⟩
  | 35 => ⟨S128, .f32⟩
  | 36 => ⟨S_, .i32⟩
  | 37 => ⟨S_, .f32⟩
  | 38 => ⟨S128, .f32⟩
  | 39 => ⟨S1x128, .f32⟩
  | 40 => ⟨S_, .f32⟩
  | 41 => ⟨S1x128, .f32⟩
  | 42 => ⟨S1x128, .f32⟩
  | 43 => ⟨S80000x128, .f32⟩
  | 44 => ⟨S80000x128, .f32⟩
  | 45 => ⟨S80000x128, .f32⟩
  | 46 => ⟨S_, .f32⟩
  | 47 => ⟨S_, .f32⟩
  | 48 => ⟨S_, .f32⟩
  | 49 => ⟨S_, .f32⟩
  | 50 => ⟨S128, .f32⟩
  | 51 => ⟨S128, .f32⟩
  | 52 => ⟨S128, .f32⟩
  | 53 => ⟨S_, .f32⟩
  | 54 => ⟨S_, .i1⟩
  | 55 => ⟨S_, .f32⟩
  | 56 => ⟨S_, .f32⟩
  | 57 => ⟨S128, .f32⟩
  | 58 => ⟨S128, .f32⟩
  | 59 => ⟨S1x128, .f32⟩
  | 60 => ⟨S80000x128, .f32⟩
  | 61 => ⟨S80000x128, .f32⟩
  | 62 => ⟨S1x128, .f32⟩
  | 63 => ⟨S80000x128, .f32⟩
  | 64 => ⟨S80000x128, .f32⟩
  | 65 => ⟨S_, .f32⟩
  | 66 => ⟨S128, .f32⟩
  | 67 => ⟨S128, .f32⟩
  | 68 => ⟨S128, .f32⟩
  | 69 => ⟨S1x128, .f32⟩
  | 70 => ⟨S80000x128, .f32⟩
  | 71 => ⟨S80000x128, .f32⟩
  | 72 => ⟨S1x128, .f32⟩
  | 73 => ⟨S80000x128, .f32⟩
  | 74 => ⟨S80000x128, .f32⟩
  | 75 => ⟨S_, .f32⟩
  | 76 => ⟨S80000x128, .f32⟩
  | 77 => ⟨S80000x128, .f32⟩
  | 78 => ⟨S80000x128, .f32⟩
  | 79 => ⟨S1x128, .f32⟩
  | 80 => ⟨S80000x128, .f32⟩
  | 81 => ⟨S80000x128, .f32⟩
  | 82 => ⟨S80000x128, .f32⟩
  | 83 => ⟨S_, .f32⟩
  | 84 => ⟨S80000x128, .f32⟩
  | 85 => ⟨S80000x128, .i1⟩
  | 86 => ⟨S_, .f32⟩
  | 87 => ⟨S80000x128, .f32⟩
  | 88 => ⟨S80000x128, .f32⟩
  | 89 => ⟨S80000x128, .f32⟩
  | 90 => ⟨S1x128x128, .f32⟩
  | 91 => ⟨S128x128, .f32⟩
  | 92 => ⟨S1x128, .f32⟩
  | 93 => ⟨S128, .f32⟩
  | 94 => ⟨S1x128, .f32⟩
  | 95 => ⟨S128, .f32⟩
  | 96 => ⟨S1x128, .f32⟩
  | 97 => ⟨S128, .f32⟩
  | 98 => ⟨S1x128x128, .f32⟩
  | 99 => ⟨S128x128, .f32⟩
  | 100 => ⟨S1x128, .f32⟩
  | 101 => ⟨S128, .f32⟩
  | 102 => ⟨S20000x128, .f32⟩
  | 103 => ⟨S1x128, .f32⟩
  | 104 => ⟨S20000x128, .f32⟩
  | 105 => ⟨S20000x128, .f32⟩
  | 106 => ⟨S_, .f32⟩
  | 107 => ⟨S128, .f32⟩
  | 108 => ⟨S_, .f32⟩
  | 109 => ⟨S128, .f32⟩
  | 110 => ⟨S128, .f32⟩
  | 111 => ⟨S_, .i32⟩
  | 112 => ⟨S_, .f32⟩
  | 113 => ⟨S128, .f32⟩
  | 114 => ⟨S1x128, .f32⟩
  | 115 => ⟨S_, .f32⟩
  | 116 => ⟨S1x128, .f32⟩
  | 117 => ⟨S1x128, .f32⟩
  | 118 => ⟨S20000x128, .f32⟩
  | 119 => ⟨S20000x128, .f32⟩
  | 120 => ⟨S20000x128, .f32⟩
  | 121 => ⟨S_, .f32⟩
  | 122 => ⟨S_, .f32⟩
  | 123 => ⟨S_, .f32⟩
  | 124 => ⟨S_, .f32⟩
  | 125 => ⟨S128, .f32⟩
  | 126 => ⟨S128, .f32⟩
  | 127 => ⟨S128, .f32⟩
  | _ => ⟨S80000x7, .f32⟩

abbrev hbmTy0_5 (i : Nat) : BufTy := match i % 128 with
  | 0 => ⟨S_, .f32⟩
  | 1 => ⟨S_, .i1⟩
  | 2 => ⟨S_, .f32⟩
  | 3 => ⟨S_, .f32⟩
  | 4 => ⟨S128, .f32⟩
  | 5 => ⟨S128, .f32⟩
  | 6 => ⟨S1x128, .f32⟩
  | 7 => ⟨S20000x128, .f32⟩
  | 8 => ⟨S20000x128, .f32⟩
  | 9 => ⟨S1x128, .f32⟩
  | 10 => ⟨S20000x128, .f32⟩
  | 11 => ⟨S20000x128, .f32⟩
  | 12 => ⟨S_, .f32⟩
  | 13 => ⟨S128, .f32⟩
  | 14 => ⟨S128, .f32⟩
  | 15 => ⟨S128, .f32⟩
  | 16 => ⟨S1x128, .f32⟩
  | 17 => ⟨S20000x128, .f32⟩
  | 18 => ⟨S20000x128, .f32⟩
  | 19 => ⟨S1x128, .f32⟩
  | 20 => ⟨S20000x128, .f32⟩
  | 21 => ⟨S20000x128, .f32⟩
  | 22 => ⟨S_, .f32⟩
  | 23 => ⟨S20000x128, .f32⟩
  | 24 => ⟨S20000x128, .f32⟩
  | 25 => ⟨S20000x128, .f32⟩
  | 26 => ⟨S1x128, .f32⟩
  | 27 => ⟨S20000x128, .f32⟩
  | 28 => ⟨S20000x128, .f32⟩
  | 29 => ⟨S1x128x128, .f32⟩
  | 30 => ⟨S128x128, .f32⟩
  | 31 => ⟨S1x128, .f32⟩
  | 32 => ⟨S128, .f32⟩
  | 33 => ⟨S1x128, .f32⟩
  | 34 => ⟨S128, .f32⟩
  | 35 => ⟨S1x128, .f32⟩
  | 36 => ⟨S128, .f32⟩
  | 37 => ⟨S1x128x128, .f32⟩
  | 38 => ⟨S128x128, .f32⟩
  | 39 => ⟨S1x128, .f32⟩
  | 40 => ⟨S128, .f32⟩
  | 41 => ⟨S20000x128, .f32⟩
  | 42 => ⟨S1x128, .f32⟩
  | 43 => ⟨S20000x128, .f32⟩
  | 44 => ⟨S20000x128, .f32⟩
  | 45 => ⟨S_, .f32⟩
  | 46 => ⟨S128, .f32⟩
  | 47 => ⟨S_, .f32⟩
  | 48 => ⟨S128, .f32⟩
  | 49 => ⟨S128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S20000x128, .f32⟩
  | 58 => ⟨S20000x128, .f32⟩
  | 59 => ⟨S20000x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S1x128, .f32⟩
  | 74 => ⟨S20000x128, .f32⟩
  | 75 => ⟨S20000x128, .f32⟩
  | 76 => ⟨S1x128, .f32⟩
  | 77 => ⟨S20000x128, .f32⟩
  | 78 => ⟨S20000x128, .f32⟩
  | 79 => ⟨S_, .f32⟩
  | 80 => ⟨S128, .f32⟩
  | 81 => ⟨S128, .f32⟩
  | 82 => ⟨S128, .f32⟩
  | 83 => ⟨S1x128, .f32⟩
  | 84 => ⟨S20000x128, .f32⟩
  | 85 => ⟨S20000x128, .f32⟩
  | 86 => ⟨S1x128, .f32⟩
  | 87 => ⟨S20000x128, .f32⟩
  | 88 => ⟨S20000x128, .f32⟩
  | 89 => ⟨S_, .f32⟩
  | 90 => ⟨S20000x128, .f32⟩
  | 91 => ⟨S20000x128, .f32⟩
  | 92 => ⟨S20000x128, .f32⟩
  | 93 => ⟨S1x128, .f32⟩
  | 94 => ⟨S20000x128, .f32⟩
  | 95 => ⟨S20000x128, .f32⟩
  | 96 => ⟨S20000x128, .f32⟩
  | 97 => ⟨S_, .f32⟩
  | 98 => ⟨S20000x128, .f32⟩
  | 99 => ⟨S20000x128, .i1⟩
  | 100 => ⟨S_, .f32⟩
  | 101 => ⟨S20000x128, .f32⟩
  | 102 => ⟨S20000x128, .f32⟩
  | 103 => ⟨S20000x128, .f32⟩
  | 104 => ⟨S1x4x128x128, .f32⟩
  | 105 => ⟨S4x128x128, .f32⟩
  | 106 => ⟨S1x4x128, .f32⟩
  | 107 => ⟨S4x128, .f32⟩
  | 108 => ⟨S1x4x128, .f32⟩
  | 109 => ⟨S4x128, .f32⟩
  | 110 => ⟨S1x4x128, .f32⟩
  | 111 => ⟨S4x128, .f32⟩
  | 112 => ⟨S1x4x128x128, .f32⟩
  | 113 => ⟨S4x128x128, .f32⟩
  | 114 => ⟨S1x4x128, .f32⟩
  | 115 => ⟨S4x128, .f32⟩
  | 116 => ⟨S1x1000000, .i32⟩
  | 117 => ⟨S1000000, .i32⟩
  | 118 => ⟨S_, .i32⟩
  | 119 => ⟨S1000000, .i32⟩
  | 120 => ⟨S1000000, .i1⟩
  | 121 => ⟨S_, .i32⟩
  | 122 => ⟨S1000000, .i32⟩
  | 123 => ⟨S1000000, .i32⟩
  | 124 => ⟨S1000000, .i32⟩
  | 125 => ⟨S1000000x1, .i32⟩
  | 126 => ⟨S1000000x128, .f32⟩
  | 127 => ⟨S1x1000000, .i32⟩
  | _ => ⟨S80000x7, .f32⟩

abbrev hbmTy0_6 (i : Nat) : BufTy := match i % 128 with
  | 0 => ⟨S1000000, .i32⟩
  | 1 => ⟨S_, .f32⟩
  | 2 => ⟨S80000x128, .f32⟩
  | 3 => ⟨S1000000x1, .i32⟩
  | 4 => ⟨S80000x128, .f32⟩
  | 5 => ⟨S1x300000, .i32⟩
  | 6 => ⟨S300000, .i32⟩
  | 7 => ⟨S_, .i32⟩
  | 8 => ⟨S300000, .i32⟩
  | 9 => ⟨S300000, .i1⟩
  | 10 => ⟨S_, .i32⟩
  | 11 => ⟨S300000, .i32⟩
  | 12 => ⟨S300000, .i32⟩
  | 13 => ⟨S300000, .i32⟩
  | 14 => ⟨S300000x1, .i32⟩
  | 15 => ⟨S300000x128, .f32⟩
  | 16 => ⟨S1x300000, .i32⟩
  | 17 => ⟨S300000, .i32⟩
  | 18 => ⟨S_, .f32⟩
  | 19 => ⟨S80000x128, .f32⟩
  | 20 => ⟨S300000x1, .i32⟩
  | 21 => ⟨S80000x128, .f32⟩
  | 22 => ⟨S1x300000, .i32⟩
  | 23 => ⟨S300000, .i32⟩
  | 24 => ⟨S_, .i32⟩
  | 25 => ⟨S300000, .i32⟩
  | 26 => ⟨S300000, .i1⟩
  | 27 => ⟨S_, .i32⟩
  | 28 => ⟨S300000, .i32⟩
  | 29 => ⟨S300000, .i32⟩
  | 30 => ⟨S300000, .i32⟩
  | 31 => ⟨S300000x1, .i32⟩
  | 32 => ⟨S300000x128, .f32⟩
  | 33 => ⟨S1x300000, .i32⟩
  | 34 => ⟨S300000, .i32⟩
  | 35 => ⟨S_, .f32⟩
  | 36 => ⟨S20000x128, .f32⟩
  | 37 => ⟨S300000x1, .i32⟩
  | 38 => ⟨S20000x128, .f32⟩
  | 39 => ⟨S1x100000, .i32⟩
  | 40 => ⟨S100000, .i32⟩
  | 41 => ⟨S_, .i32⟩
  | 42 => ⟨S100000, .i32⟩
  | 43 => ⟨S100000, .i1⟩
  | 44 => ⟨S_, .i32⟩
  | 45 => ⟨S100000, .i32⟩
  | 46 => ⟨S100000, .i32⟩
  | 47 => ⟨S100000, .i32⟩
  | 48 => ⟨S100000x1, .i32⟩
  | 49 => ⟨S100000x128, .f32⟩
  | 50 => ⟨S1x100000, .i32⟩
  | 51 => ⟨S100000, .i32⟩
  | 52 => ⟨S_, .f32⟩
  | 53 => ⟨S20000x128, .f32⟩
  | 54 => ⟨S100000x1, .i32⟩
  | 55 => ⟨S20000x128, .f32⟩
  | 56 => ⟨S1x128x128, .f32⟩
  | 57 => ⟨S128x128, .f32⟩
  | 58 => ⟨S1x128, .f32⟩
  | 59 => ⟨S128, .f32⟩
  | 60 => ⟨S1x128, .f32⟩
  | 61 => ⟨S128, .f32⟩
  | 62 => ⟨S1x128, .f32⟩
  | 63 => ⟨S128, .f32⟩
  | 64 => ⟨S1x128x128, .f32⟩
  | 65 => ⟨S128x128, .f32⟩
  | 66 => ⟨S1x128, .f32⟩
  | 67 => ⟨S128, .f32⟩
  | 68 => ⟨S80000x128, .f32⟩
  | 69 => ⟨S1x128, .f32⟩
  | 70 => ⟨S80000x128, .f32⟩
  | 71 => ⟨S80000x128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S80000x128, .f32⟩
  | 85 => ⟨S80000x128, .f32⟩
  | 86 => ⟨S80000x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S80000x128, .f32⟩
  | 102 => ⟨S80000x128, .f32⟩
  | 103 => ⟨S1x128, .f32⟩
  | 104 => ⟨S80000x128, .f32⟩
  | 105 => ⟨S80000x128, .f32⟩
  | 106 => ⟨S_, .f32⟩
  | 107 => ⟨S128, .f32⟩
  | 108 => ⟨S128, .f32⟩
  | 109 => ⟨S128, .f32⟩
  | 110 => ⟨S1x128, .f32⟩
  | 111 => ⟨S80000x128, .f32⟩
  | 112 => ⟨S80000x128, .f32⟩
  | 113 => ⟨S1x128, .f32⟩
  | 114 => ⟨S80000x128, .f32⟩
  | 115 => ⟨S80000x128, .f32⟩
  | 116 => ⟨S_, .f32⟩
  | 117 => ⟨S80000x128, .f32⟩
  | 118 => ⟨S80000x128, .f32⟩
  | 119 => ⟨S80000x128, .f32⟩
  | 120 => ⟨S1x128, .f32⟩
  | 121 => ⟨S80000x128, .f32⟩
  | 122 => ⟨S80000x128, .f32⟩
  | 123 => ⟨S1x128x128, .f32⟩
  | 124 => ⟨S128x128, .f32⟩
  | 125 => ⟨S1x128, .f32⟩
  | 126 => ⟨S128, .f32⟩
  | 127 => ⟨S1x128, .f32⟩
  | _ => ⟨S80000x7, .f32⟩

abbrev hbmTy0_7 (i : Nat) : BufTy := match i % 128 with
  | 0 => ⟨S128, .f32⟩
  | 1 => ⟨S1x128, .f32⟩
  | 2 => ⟨S128, .f32⟩
  | 3 => ⟨S1x128x128, .f32⟩
  | 4 => ⟨S128x128, .f32⟩
  | 5 => ⟨S1x128, .f32⟩
  | 6 => ⟨S128, .f32⟩
  | 7 => ⟨S80000x128, .f32⟩
  | 8 => ⟨S1x128, .f32⟩
  | 9 => ⟨S80000x128, .f32⟩
  | 10 => ⟨S80000x128, .f32⟩
  | 11 => ⟨S_, .f32⟩
  | 12 => ⟨S128, .f32⟩
  | 13 => ⟨S_, .f32⟩
  | 14 => ⟨S128, .f32⟩
  | 15 => ⟨S128, .f32⟩
  | 16 => ⟨S_, .i32⟩
  | 17 => ⟨S_, .f32⟩
  | 18 => ⟨S128, .f32⟩
  | 19 => ⟨S1x128, .f32⟩
  | 20 => ⟨S_, .f32⟩
  | 21 => ⟨S1x128, .f32⟩
  | 22 => ⟨S1x128, .f32⟩
  | 23 => ⟨S80000x128, .f32⟩
  | 24 => ⟨S80000x128, .f32⟩
  | 25 => ⟨S80000x128, .f32⟩
  | 26 => ⟨S_, .f32⟩
  | 27 => ⟨S_, .f32⟩
  | 28 => ⟨S_, .f32⟩
  | 29 => ⟨S_, .f32⟩
  | 30 => ⟨S128, .f32⟩
  | 31 => ⟨S128, .f32⟩
  | 32 => ⟨S128, .f32⟩
  | 33 => ⟨S_, .f32⟩
  | 34 => ⟨S_, .i1⟩
  | 35 => ⟨S_, .f32⟩
  | 36 => ⟨S_, .f32⟩
  | 37 => ⟨S128, .f32⟩
  | 38 => ⟨S128, .f32⟩
  | 39 => ⟨S1x128, .f32⟩
  | 40 => ⟨S80000x128, .f32⟩
  | 41 => ⟨S80000x128, .f32⟩
  | 42 => ⟨S1x128, .f32⟩
  | 43 => ⟨S80000x128, .f32⟩
  | 44 => ⟨S80000x128, .f32⟩
  | 45 => ⟨S_, .f32⟩
  | 46 => ⟨S128, .f32⟩
  | 47 => ⟨S128, .f32⟩
  | 48 => ⟨S128, .f32⟩
  | 49 => ⟨S1x128, .f32⟩
  | 50 => ⟨S80000x128, .f32⟩
  | 51 => ⟨S80000x128, .f32⟩
  | 52 => ⟨S1x128, .f32⟩
  | 53 => ⟨S80000x128, .f32⟩
  | 54 => ⟨S80000x128, .f32⟩
  | 55 => ⟨S_, .f32⟩
  | 56 => ⟨S80000x128, .f32⟩
  | 57 => ⟨S80000x128, .f32⟩
  | 58 => ⟨S80000x128, .f32⟩
  | 59 => ⟨S1x128, .f32⟩
  | 60 => ⟨S80000x128, .f32⟩
  | 61 => ⟨S80000x128, .f32⟩
  | 62 => ⟨S80000x128, .f32⟩
  | 63 => ⟨S_, .f32⟩
  | 64 => ⟨S80000x128, .f32⟩
  | 65 => ⟨S80000x128, .i1⟩
  | 66 => ⟨S_, .f32⟩
  | 67 => ⟨S80000x128, .f32⟩
  | 68 => ⟨S80000x128, .f32⟩
  | 69 => ⟨S80000x128, .f32⟩
  | 70 => ⟨S1x128x128, .f32⟩
  | 71 => ⟨S128x128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128x128, .f32⟩
  | 79 => ⟨S128x128, .f32⟩
  | 80 => ⟨S1x128, .f32⟩
  | 81 => ⟨S128, .f32⟩
  | 82 => ⟨S20000x128, .f32⟩
  | 83 => ⟨S1x128, .f32⟩
  | 84 => ⟨S20000x128, .f32⟩
  | 85 => ⟨S20000x128, .f32⟩
  | 86 => ⟨S_, .f32⟩
  | 87 => ⟨S128, .f32⟩
  | 88 => ⟨S_, .f32⟩
  | 89 => ⟨S128, .f32⟩
  | 90 => ⟨S128, .f32⟩
  | 91 => ⟨S_, .i32⟩
  | 92 => ⟨S_, .f32⟩
  | 93 => ⟨S128, .f32⟩
  | 94 => ⟨S1x128, .f32⟩
  | 95 => ⟨S_, .f32⟩
  | 96 => ⟨S1x128, .f32⟩
  | 97 => ⟨S1x128, .f32⟩
  | 98 => ⟨S20000x128, .f32⟩
  | 99 => ⟨S20000x128, .f32⟩
  | 100 => ⟨S20000x128, .f32⟩
  | 101 => ⟨S_, .f32⟩
  | 102 => ⟨S_, .f32⟩
  | 103 => ⟨S_, .f32⟩
  | 104 => ⟨S_, .f32⟩
  | 105 => ⟨S128, .f32⟩
  | 106 => ⟨S128, .f32⟩
  | 107 => ⟨S128, .f32⟩
  | 108 => ⟨S_, .f32⟩
  | 109 => ⟨S_, .i1⟩
  | 110 => ⟨S_, .f32⟩
  | 111 => ⟨S_, .f32⟩
  | 112 => ⟨S128, .f32⟩
  | 113 => ⟨S128, .f32⟩
  | 114 => ⟨S1x128, .f32⟩
  | 115 => ⟨S20000x128, .f32⟩
  | 116 => ⟨S20000x128, .f32⟩
  | 117 => ⟨S1x128, .f32⟩
  | 118 => ⟨S20000x128, .f32⟩
  | 119 => ⟨S20000x128, .f32⟩
  | 120 => ⟨S_, .f32⟩
  | 121 => ⟨S128, .f32⟩
  | 122 => ⟨S128, .f32⟩
  | 123 => ⟨S128, .f32⟩
  | 124 => ⟨S1x128, .f32⟩
  | 125 => ⟨S20000x128, .f32⟩
  | 126 => ⟨S20000x128, .f32⟩
  | 127 => ⟨S1x128, .f32⟩
  | _ => ⟨S80000x7, .f32⟩

abbrev hbmTy0_8 (i : Nat) : BufTy := match i % 128 with
  | 0 => ⟨S20000x128, .f32⟩
  | 1 => ⟨S20000x128, .f32⟩
  | 2 => ⟨S_, .f32⟩
  | 3 => ⟨S20000x128, .f32⟩
  | 4 => ⟨S20000x128, .f32⟩
  | 5 => ⟨S20000x128, .f32⟩
  | 6 => ⟨S1x128, .f32⟩
  | 7 => ⟨S20000x128, .f32⟩
  | 8 => ⟨S20000x128, .f32⟩
  | 9 => ⟨S1x128x128, .f32⟩
  | 10 => ⟨S128x128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S128, .f32⟩
  | 21 => ⟨S20000x128, .f32⟩
  | 22 => ⟨S1x128, .f32⟩
  | 23 => ⟨S20000x128, .f32⟩
  | 24 => ⟨S20000x128, .f32⟩
  | 25 => ⟨S_, .f32⟩
  | 26 => ⟨S128, .f32⟩
  | 27 => ⟨S_, .f32⟩
  | 28 => ⟨S128, .f32⟩
  | 29 => ⟨S128, .f32⟩
  | 30 => ⟨S_, .i32⟩
  | 31 => ⟨S_, .f32⟩
  | 32 => ⟨S128, .f32⟩
  | 33 => ⟨S1x128, .f32⟩
  | 34 => ⟨S_, .f32⟩
  | 35 => ⟨S1x128, .f32⟩
  | 36 => ⟨S1x128, .f32⟩
  | 37 => ⟨S20000x128, .f32⟩
  | 38 => ⟨S20000x128, .f32⟩
  | 39 => ⟨S20000x128, .f32⟩
  | 40 => ⟨S_, .f32⟩
  | 41 => ⟨S_, .f32⟩
  | 42 => ⟨S_, .f32⟩
  | 43 => ⟨S_, .f32⟩
  | 44 => ⟨S128, .f32⟩
  | 45 => ⟨S128, .f32⟩
  | 46 => ⟨S128, .f32⟩
  | 47 => ⟨S_, .f32⟩
  | 48 => ⟨S_, .i1⟩
  | 49 => ⟨S_, .f32⟩
  | 50 => ⟨S_, .f32⟩
  | 51 => ⟨S128, .f32⟩
  | 52 => ⟨S128, .f32⟩
  | 53 => ⟨S1x128, .f32⟩
  | 54 => ⟨S20000x128, .f32⟩
  | 55 => ⟨S20000x128, .f32⟩
  | 56 => ⟨S1x128, .f32⟩
  | 57 => ⟨S20000x128, .f32⟩
  | 58 => ⟨S20000x128, .f32⟩
  | 59 => ⟨S_, .f32⟩
  | 60 => ⟨S128, .f32⟩
  | 61 => ⟨S128, .f32⟩
  | 62 => ⟨S128, .f32⟩
  | 63 => ⟨S1x128, .f32⟩
  | 64 => ⟨S20000x128, .f32⟩
  | 65 => ⟨S20000x128, .f32⟩
  | 66 => ⟨S1x128, .f32⟩
  | 67 => ⟨S20000x128, .f32⟩
  | 68 => ⟨S20000x128, .f32⟩
  | 69 => ⟨S_, .f32⟩
  | 70 => ⟨S20000x128, .f32⟩
  | 71 => ⟨S20000x128, .f32⟩
  | 72 => ⟨S20000x128, .f32⟩
  | 73 => ⟨S1x128, .f32⟩
  | 74 => ⟨S20000x128, .f32⟩
  | 75 => ⟨S20000x128, .f32⟩
  | 76 => ⟨S20000x128, .f32⟩
  | 77 => ⟨S_, .f32⟩
  | 78 => ⟨S20000x128, .f32⟩
  | 79 => ⟨S20000x128, .i1⟩
  | 80 => ⟨S_, .f32⟩
  | 81 => ⟨S20000x128, .f32⟩
  | 82 => ⟨S20000x128, .f32⟩
  | 83 => ⟨S20000x128, .f32⟩
  | 84 => ⟨S80000x128, .f32⟩
  | 85 => ⟨S1x128, .f32⟩
  | 86 => ⟨S80000x128, .f32⟩
  | 87 => ⟨S80000x128, .f32⟩
  | 88 => ⟨S20000x128, .f32⟩
  | 89 => ⟨S1x128, .f32⟩
  | 90 => ⟨S20000x128, .f32⟩
  | 91 => ⟨S20000x128, .f32⟩
  | _ => ⟨S80000x7, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S80000x7, .f32⟩

abbrev bufTy : (tb : Table) → Fin (tcTables nBuf tb) → BufTy
  | .hbm, ⟨i, _⟩ => hbmTy i
  | _, _ => ⟨S80000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_c : Ref sig .tc := ⟨.hbm, 30, rfl⟩
abbrev main_v6 : Ref sig .tc := ⟨.hbm, 31, rfl⟩
abbrev main_v7 : Ref sig .tc := ⟨.hbm, 32, rfl⟩
abbrev main_c_0 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_1 : Ref sig .tc := ⟨.hbm, 47, rfl⟩
abbrev main_v20 : Ref sig .tc := ⟨.hbm, 48, rfl⟩
abbrev main_v21 : Ref sig .tc := ⟨.hbm, 49, rfl⟩
abbrev main_c_2 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_3 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_4 : Ref sig .tc := ⟨.hbm, 64, rfl⟩
abbrev main_v34 : Ref sig .tc := ⟨.hbm, 65, rfl⟩
abbrev main_v35 : Ref sig .tc := ⟨.hbm, 66, rfl⟩
abbrev main_c_5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_6 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_7 : Ref sig .tc := ⟨.hbm, 81, rfl⟩
abbrev main_v48 : Ref sig .tc := ⟨.hbm, 82, rfl⟩
abbrev main_v49 : Ref sig .tc := ⟨.hbm, 83, rfl⟩
abbrev main_c_8 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_9 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_10 : Ref sig .tc := ⟨.hbm, 112, rfl⟩
abbrev main_v76 : Ref sig .tc := ⟨.hbm, 113, rfl⟩
abbrev main_cst_11 : Ref sig .tc := ⟨.hbm, 114, rfl⟩
abbrev main_v77 : Ref sig .tc := ⟨.hbm, 115, rfl⟩
abbrev main_v78 : Ref sig .tc := ⟨.hbm, 116, rfl⟩
abbrev main_c_12 : Ref sig .tc := ⟨.hbm, 117, rfl⟩
abbrev main_call0_cst : Ref sig .tc := ⟨.hbm, 118, rfl⟩
abbrev main_call0_v0 : Ref sig .tc := ⟨.hbm, 119, rfl⟩
abbrev main_call0_v1 : Ref sig .tc := ⟨.hbm, 120, rfl⟩
abbrev main_call0_cst_0 : Ref sig .tc := ⟨.hbm, 121, rfl⟩
abbrev main_call0_v2 : Ref sig .tc := ⟨.hbm, 122, rfl⟩
abbrev main_call0_v3 : Ref sig .tc := ⟨.hbm, 123, rfl⟩
abbrev main_call0_v4 : Ref sig .tc := ⟨.hbm, 124, rfl⟩
abbrev main_call0_v5 : Ref sig .tc := ⟨.hbm, 125, rfl⟩
abbrev main_call0_v6 : Ref sig .tc := ⟨.hbm, 126, rfl⟩
abbrev main_call0_v7 : Ref sig .tc := ⟨.hbm, 127, rfl⟩
abbrev main_call0_cst_1 : Ref sig .tc := ⟨.hbm, 128, rfl⟩
abbrev main_call0_v8 : Ref sig .tc := ⟨.hbm, 129, rfl⟩
abbrev main_call0_cst_2 : Ref sig .tc := ⟨.hbm, 130, rfl⟩
abbrev main_call0_v9 : Ref sig .tc := ⟨.hbm, 131, rfl⟩
abbrev main_call0_v10 : Ref sig .tc := ⟨.hbm, 132, rfl⟩
abbrev main_call0_v11 : Ref sig .tc := ⟨.hbm, 133, rfl⟩
abbrev main_call0_cst_3 : Ref sig .tc := ⟨.hbm, 134, rfl⟩
abbrev main_call0_v12 : Ref sig .tc := ⟨.hbm, 135, rfl⟩
abbrev main_call0_cst_4 : Ref sig .tc := ⟨.hbm, 136, rfl⟩
abbrev main_call0_call0_v0 : Ref sig .tc := ⟨.hbm, 137, rfl⟩
abbrev main_call0_call0_v1 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_13 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_call1_cst : Ref sig .tc := ⟨.hbm, 156, rfl⟩
abbrev main_call1_v0 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_cst_14 : Ref sig .tc := ⟨.hbm, 179, rfl⟩
abbrev main_v116 : Ref sig .tc := ⟨.hbm, 180, rfl⟩
abbrev main_cst_15 : Ref sig .tc := ⟨.hbm, 181, rfl⟩
abbrev main_v117 : Ref sig .tc := ⟨.hbm, 182, rfl⟩
abbrev main_v118 : Ref sig .tc := ⟨.hbm, 183, rfl⟩
abbrev main_c_16 : Ref sig .tc := ⟨.hbm, 184, rfl⟩
abbrev main_call2_cst : Ref sig .tc := ⟨.hbm, 185, rfl⟩
abbrev main_call2_v0 : Ref sig .tc := ⟨.hbm, 186, rfl⟩
abbrev main_call2_v1 : Ref sig .tc := ⟨.hbm, 187, rfl⟩
abbrev main_call2_cst_0 : Ref sig .tc := ⟨.hbm, 188, rfl⟩
abbrev main_call2_v2 : Ref sig .tc := ⟨.hbm, 189, rfl⟩
abbrev main_call2_v3 : Ref sig .tc := ⟨.hbm, 190, rfl⟩
abbrev main_call2_v4 : Ref sig .tc := ⟨.hbm, 191, rfl⟩
abbrev main_call2_v5 : Ref sig .tc := ⟨.hbm, 192, rfl⟩
abbrev main_call2_v6 : Ref sig .tc := ⟨.hbm, 193, rfl⟩
abbrev main_call2_v7 : Ref sig .tc := ⟨.hbm, 194, rfl⟩
abbrev main_call2_cst_1 : Ref sig .tc := ⟨.hbm, 195, rfl⟩
abbrev main_call2_v8 : Ref sig .tc := ⟨.hbm, 196, rfl⟩
abbrev main_call2_cst_2 : Ref sig .tc := ⟨.hbm, 197, rfl⟩
abbrev main_call2_v9 : Ref sig .tc := ⟨.hbm, 198, rfl⟩
abbrev main_call2_v10 : Ref sig .tc := ⟨.hbm, 199, rfl⟩
abbrev main_call2_v11 : Ref sig .tc := ⟨.hbm, 200, rfl⟩
abbrev main_call2_cst_3 : Ref sig .tc := ⟨.hbm, 201, rfl⟩
abbrev main_call2_v12 : Ref sig .tc := ⟨.hbm, 202, rfl⟩
abbrev main_call2_cst_4 : Ref sig .tc := ⟨.hbm, 203, rfl⟩
abbrev main_call2_call0_v0 : Ref sig .tc := ⟨.hbm, 204, rfl⟩
abbrev main_call2_call0_v1 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_cst_17 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_call3_cst : Ref sig .tc := ⟨.hbm, 223, rfl⟩
abbrev main_call3_v0 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_call4_cst : Ref sig .tc := ⟨.hbm, 231, rfl⟩
abbrev main_call4_v0 : Ref sig .tc := ⟨.hbm, 232, rfl⟩
abbrev main_call4_v1 : Ref sig .tc := ⟨.hbm, 233, rfl⟩
abbrev main_call4_cst_0 : Ref sig .tc := ⟨.hbm, 234, rfl⟩
abbrev main_call4_v2 : Ref sig .tc := ⟨.hbm, 235, rfl⟩
abbrev main_call4_v3 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_cst_18 : Ref sig .tc := ⟨.hbm, 254, rfl⟩
abbrev main_v158 : Ref sig .tc := ⟨.hbm, 255, rfl⟩
abbrev main_cst_19 : Ref sig .tc := ⟨.hbm, 256, rfl⟩
abbrev main_v159 : Ref sig .tc := ⟨.hbm, 257, rfl⟩
abbrev main_v160 : Ref sig .tc := ⟨.hbm, 258, rfl⟩
abbrev main_c_20 : Ref sig .tc := ⟨.hbm, 259, rfl⟩
abbrev main_call5_cst : Ref sig .tc := ⟨.hbm, 260, rfl⟩
abbrev main_call5_v0 : Ref sig .tc := ⟨.hbm, 261, rfl⟩
abbrev main_call5_v1 : Ref sig .tc := ⟨.hbm, 262, rfl⟩
abbrev main_call5_cst_0 : Ref sig .tc := ⟨.hbm, 263, rfl⟩
abbrev main_call5_v2 : Ref sig .tc := ⟨.hbm, 264, rfl⟩
abbrev main_call5_v3 : Ref sig .tc := ⟨.hbm, 265, rfl⟩
abbrev main_call5_v4 : Ref sig .tc := ⟨.hbm, 266, rfl⟩
abbrev main_call5_v5 : Ref sig .tc := ⟨.hbm, 267, rfl⟩
abbrev main_call5_v6 : Ref sig .tc := ⟨.hbm, 268, rfl⟩
abbrev main_call5_v7 : Ref sig .tc := ⟨.hbm, 269, rfl⟩
abbrev main_call5_cst_1 : Ref sig .tc := ⟨.hbm, 270, rfl⟩
abbrev main_call5_v8 : Ref sig .tc := ⟨.hbm, 271, rfl⟩
abbrev main_call5_cst_2 : Ref sig .tc := ⟨.hbm, 272, rfl⟩
abbrev main_call5_v9 : Ref sig .tc := ⟨.hbm, 273, rfl⟩
abbrev main_call5_v10 : Ref sig .tc := ⟨.hbm, 274, rfl⟩
abbrev main_call5_v11 : Ref sig .tc := ⟨.hbm, 275, rfl⟩
abbrev main_call5_cst_3 : Ref sig .tc := ⟨.hbm, 276, rfl⟩
abbrev main_call5_v12 : Ref sig .tc := ⟨.hbm, 277, rfl⟩
abbrev main_call5_cst_4 : Ref sig .tc := ⟨.hbm, 278, rfl⟩
abbrev main_call5_call0_v0 : Ref sig .tc := ⟨.hbm, 279, rfl⟩
abbrev main_call5_call0_v1 : Ref sig .tc := ⟨.hbm, 280, rfl⟩
abbrev main_v161 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_cst_21 : Ref sig .tc := ⟨.hbm, 288, rfl⟩
abbrev main_v168 : Ref sig .tc := ⟨.hbm, 289, rfl⟩
abbrev main_v169 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_call6_cst : Ref sig .tc := ⟨.hbm, 298, rfl⟩
abbrev main_call6_v0 : Ref sig .tc := ⟨.hbm, 299, rfl⟩
abbrev main_v177 : Ref sig .tc := ⟨.hbm, 300, rfl⟩
abbrev main_v178 : Ref sig .tc := ⟨.hbm, 301, rfl⟩
abbrev main_v179 : Ref sig .tc := ⟨.hbm, 302, rfl⟩
abbrev main_v180 : Ref sig .tc := ⟨.hbm, 303, rfl⟩
abbrev main_v181 : Ref sig .tc := ⟨.hbm, 304, rfl⟩
abbrev main_v182 : Ref sig .tc := ⟨.hbm, 305, rfl⟩
abbrev main_v183 : Ref sig .tc := ⟨.hbm, 306, rfl⟩
abbrev main_v184 : Ref sig .tc := ⟨.hbm, 307, rfl⟩
abbrev main_v185 : Ref sig .tc := ⟨.hbm, 308, rfl⟩
abbrev main_v186 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_v190 : Ref sig .tc := ⟨.hbm, 313, rfl⟩
abbrev main_v191 : Ref sig .tc := ⟨.hbm, 314, rfl⟩
abbrev main_v192 : Ref sig .tc := ⟨.hbm, 315, rfl⟩
abbrev main_v193 : Ref sig .tc := ⟨.hbm, 316, rfl⟩
abbrev main_v194 : Ref sig .tc := ⟨.hbm, 317, rfl⟩
abbrev main_v195 : Ref sig .tc := ⟨.hbm, 318, rfl⟩
abbrev main_v196 : Ref sig .tc := ⟨.hbm, 319, rfl⟩
abbrev main_v197 : Ref sig .tc := ⟨.hbm, 320, rfl⟩
abbrev main_cst_22 : Ref sig .tc := ⟨.hbm, 321, rfl⟩
abbrev main_v198 : Ref sig .tc := ⟨.hbm, 322, rfl⟩
abbrev main_cst_23 : Ref sig .tc := ⟨.hbm, 323, rfl⟩
abbrev main_v199 : Ref sig .tc := ⟨.hbm, 324, rfl⟩
abbrev main_v200 : Ref sig .tc := ⟨.hbm, 325, rfl⟩
abbrev main_c_24 : Ref sig .tc := ⟨.hbm, 326, rfl⟩
abbrev main_call7_cst : Ref sig .tc := ⟨.hbm, 327, rfl⟩
abbrev main_call7_v0 : Ref sig .tc := ⟨.hbm, 328, rfl⟩
abbrev main_call7_v1 : Ref sig .tc := ⟨.hbm, 329, rfl⟩
abbrev main_call7_cst_0 : Ref sig .tc := ⟨.hbm, 330, rfl⟩
abbrev main_call7_v2 : Ref sig .tc := ⟨.hbm, 331, rfl⟩
abbrev main_call7_v3 : Ref sig .tc := ⟨.hbm, 332, rfl⟩
abbrev main_call7_v4 : Ref sig .tc := ⟨.hbm, 333, rfl⟩
abbrev main_call7_v5 : Ref sig .tc := ⟨.hbm, 334, rfl⟩
abbrev main_call7_v6 : Ref sig .tc := ⟨.hbm, 335, rfl⟩
abbrev main_call7_v7 : Ref sig .tc := ⟨.hbm, 336, rfl⟩
abbrev main_call7_cst_1 : Ref sig .tc := ⟨.hbm, 337, rfl⟩
abbrev main_call7_v8 : Ref sig .tc := ⟨.hbm, 338, rfl⟩
abbrev main_call7_cst_2 : Ref sig .tc := ⟨.hbm, 339, rfl⟩
abbrev main_call7_v9 : Ref sig .tc := ⟨.hbm, 340, rfl⟩
abbrev main_call7_v10 : Ref sig .tc := ⟨.hbm, 341, rfl⟩
abbrev main_call7_v11 : Ref sig .tc := ⟨.hbm, 342, rfl⟩
abbrev main_call7_cst_3 : Ref sig .tc := ⟨.hbm, 343, rfl⟩
abbrev main_call7_v12 : Ref sig .tc := ⟨.hbm, 344, rfl⟩
abbrev main_call7_cst_4 : Ref sig .tc := ⟨.hbm, 345, rfl⟩
abbrev main_call7_call0_v0 : Ref sig .tc := ⟨.hbm, 346, rfl⟩
abbrev main_call7_call0_v1 : Ref sig .tc := ⟨.hbm, 347, rfl⟩
abbrev main_v201 : Ref sig .tc := ⟨.hbm, 348, rfl⟩
abbrev main_v202 : Ref sig .tc := ⟨.hbm, 349, rfl⟩
abbrev main_v203 : Ref sig .tc := ⟨.hbm, 350, rfl⟩
abbrev main_v204 : Ref sig .tc := ⟨.hbm, 351, rfl⟩
abbrev main_v205 : Ref sig .tc := ⟨.hbm, 352, rfl⟩
abbrev main_v206 : Ref sig .tc := ⟨.hbm, 353, rfl⟩
abbrev main_v207 : Ref sig .tc := ⟨.hbm, 354, rfl⟩
abbrev main_cst_25 : Ref sig .tc := ⟨.hbm, 355, rfl⟩
abbrev main_v208 : Ref sig .tc := ⟨.hbm, 356, rfl⟩
abbrev main_v209 : Ref sig .tc := ⟨.hbm, 357, rfl⟩
abbrev main_v210 : Ref sig .tc := ⟨.hbm, 358, rfl⟩
abbrev main_v211 : Ref sig .tc := ⟨.hbm, 359, rfl⟩
abbrev main_v212 : Ref sig .tc := ⟨.hbm, 360, rfl⟩
abbrev main_v213 : Ref sig .tc := ⟨.hbm, 361, rfl⟩
abbrev main_v214 : Ref sig .tc := ⟨.hbm, 362, rfl⟩
abbrev main_v215 : Ref sig .tc := ⟨.hbm, 363, rfl⟩
abbrev main_v216 : Ref sig .tc := ⟨.hbm, 364, rfl⟩
abbrev main_call8_cst : Ref sig .tc := ⟨.hbm, 365, rfl⟩
abbrev main_call8_v0 : Ref sig .tc := ⟨.hbm, 366, rfl⟩
abbrev main_v217 : Ref sig .tc := ⟨.hbm, 367, rfl⟩
abbrev main_v218 : Ref sig .tc := ⟨.hbm, 368, rfl⟩
abbrev main_v219 : Ref sig .tc := ⟨.hbm, 369, rfl⟩
abbrev main_v220 : Ref sig .tc := ⟨.hbm, 370, rfl⟩
abbrev main_v221 : Ref sig .tc := ⟨.hbm, 371, rfl⟩
abbrev main_v222 : Ref sig .tc := ⟨.hbm, 372, rfl⟩
abbrev main_call9_cst : Ref sig .tc := ⟨.hbm, 373, rfl⟩
abbrev main_call9_v0 : Ref sig .tc := ⟨.hbm, 374, rfl⟩
abbrev main_call9_v1 : Ref sig .tc := ⟨.hbm, 375, rfl⟩
abbrev main_call9_cst_0 : Ref sig .tc := ⟨.hbm, 376, rfl⟩
abbrev main_call9_v2 : Ref sig .tc := ⟨.hbm, 377, rfl⟩
abbrev main_call9_v3 : Ref sig .tc := ⟨.hbm, 378, rfl⟩
abbrev main_v223 : Ref sig .tc := ⟨.hbm, 379, rfl⟩
abbrev main_v224 : Ref sig .tc := ⟨.hbm, 380, rfl⟩
abbrev main_v225 : Ref sig .tc := ⟨.hbm, 381, rfl⟩
abbrev main_v226 : Ref sig .tc := ⟨.hbm, 382, rfl⟩
abbrev main_v227 : Ref sig .tc := ⟨.hbm, 383, rfl⟩
abbrev main_v228 : Ref sig .tc := ⟨.hbm, 384, rfl⟩
abbrev main_v229 : Ref sig .tc := ⟨.hbm, 385, rfl⟩
abbrev main_v230 : Ref sig .tc := ⟨.hbm, 386, rfl⟩
abbrev main_v231 : Ref sig .tc := ⟨.hbm, 387, rfl⟩
abbrev main_v232 : Ref sig .tc := ⟨.hbm, 388, rfl⟩
abbrev main_v233 : Ref sig .tc := ⟨.hbm, 389, rfl⟩
abbrev main_v234 : Ref sig .tc := ⟨.hbm, 390, rfl⟩
abbrev main_v235 : Ref sig .tc := ⟨.hbm, 391, rfl⟩
abbrev main_v236 : Ref sig .tc := ⟨.hbm, 392, rfl⟩
abbrev main_v237 : Ref sig .tc := ⟨.hbm, 393, rfl⟩
abbrev main_c_26 : Ref sig .tc := ⟨.hbm, 394, rfl⟩
abbrev main_v238 : Ref sig .tc := ⟨.hbm, 395, rfl⟩
abbrev main_v239 : Ref sig .tc := ⟨.hbm, 396, rfl⟩
abbrev main_c_27 : Ref sig .tc := ⟨.hbm, 397, rfl⟩
abbrev main_v240 : Ref sig .tc := ⟨.hbm, 398, rfl⟩
abbrev main_v241 : Ref sig .tc := ⟨.hbm, 399, rfl⟩
abbrev main_v242 : Ref sig .tc := ⟨.hbm, 400, rfl⟩
abbrev main_v243 : Ref sig .tc := ⟨.hbm, 401, rfl⟩
abbrev main_v244 : Ref sig .tc := ⟨.hbm, 402, rfl⟩
abbrev main_v245 : Ref sig .tc := ⟨.hbm, 403, rfl⟩
abbrev main_v246 : Ref sig .tc := ⟨.hbm, 404, rfl⟩
abbrev main_cst_28 : Ref sig .tc := ⟨.hbm, 405, rfl⟩
abbrev main_v247 : Ref sig .tc := ⟨.hbm, 406, rfl⟩
abbrev main_v248 : Ref sig .tc := ⟨.hbm, 407, rfl⟩
abbrev main_v249 : Ref sig .tc := ⟨.hbm, 408, rfl⟩
abbrev main_v250 : Ref sig .tc := ⟨.hbm, 409, rfl⟩
abbrev main_v251 : Ref sig .tc := ⟨.hbm, 410, rfl⟩
abbrev main_c_29 : Ref sig .tc := ⟨.hbm, 411, rfl⟩
abbrev main_v252 : Ref sig .tc := ⟨.hbm, 412, rfl⟩
abbrev main_v253 : Ref sig .tc := ⟨.hbm, 413, rfl⟩
abbrev main_c_30 : Ref sig .tc := ⟨.hbm, 414, rfl⟩
abbrev main_v254 : Ref sig .tc := ⟨.hbm, 415, rfl⟩
abbrev main_v255 : Ref sig .tc := ⟨.hbm, 416, rfl⟩
abbrev main_v256 : Ref sig .tc := ⟨.hbm, 417, rfl⟩
abbrev main_v257 : Ref sig .tc := ⟨.hbm, 418, rfl⟩
abbrev main_v258 : Ref sig .tc := ⟨.hbm, 419, rfl⟩
abbrev main_v259 : Ref sig .tc := ⟨.hbm, 420, rfl⟩
abbrev main_v260 : Ref sig .tc := ⟨.hbm, 421, rfl⟩
abbrev main_cst_31 : Ref sig .tc := ⟨.hbm, 422, rfl⟩
abbrev main_v261 : Ref sig .tc := ⟨.hbm, 423, rfl⟩
abbrev main_v262 : Ref sig .tc := ⟨.hbm, 424, rfl⟩
abbrev main_v263 : Ref sig .tc := ⟨.hbm, 425, rfl⟩
abbrev main_v264 : Ref sig .tc := ⟨.hbm, 426, rfl⟩
abbrev main_v265 : Ref sig .tc := ⟨.hbm, 427, rfl⟩
abbrev main_c_32 : Ref sig .tc := ⟨.hbm, 428, rfl⟩
abbrev main_v266 : Ref sig .tc := ⟨.hbm, 429, rfl⟩
abbrev main_v267 : Ref sig .tc := ⟨.hbm, 430, rfl⟩
abbrev main_c_33 : Ref sig .tc := ⟨.hbm, 431, rfl⟩
abbrev main_v268 : Ref sig .tc := ⟨.hbm, 432, rfl⟩
abbrev main_v269 : Ref sig .tc := ⟨.hbm, 433, rfl⟩
abbrev main_v270 : Ref sig .tc := ⟨.hbm, 434, rfl⟩
abbrev main_v271 : Ref sig .tc := ⟨.hbm, 435, rfl⟩
abbrev main_v272 : Ref sig .tc := ⟨.hbm, 436, rfl⟩
abbrev main_v273 : Ref sig .tc := ⟨.hbm, 437, rfl⟩
abbrev main_v274 : Ref sig .tc := ⟨.hbm, 438, rfl⟩
abbrev main_cst_34 : Ref sig .tc := ⟨.hbm, 439, rfl⟩
abbrev main_v275 : Ref sig .tc := ⟨.hbm, 440, rfl⟩
abbrev main_v276 : Ref sig .tc := ⟨.hbm, 441, rfl⟩
abbrev main_v277 : Ref sig .tc := ⟨.hbm, 442, rfl⟩
abbrev main_v278 : Ref sig .tc := ⟨.hbm, 443, rfl⟩
abbrev main_v279 : Ref sig .tc := ⟨.hbm, 444, rfl⟩
abbrev main_c_35 : Ref sig .tc := ⟨.hbm, 445, rfl⟩
abbrev main_v280 : Ref sig .tc := ⟨.hbm, 446, rfl⟩
abbrev main_v281 : Ref sig .tc := ⟨.hbm, 447, rfl⟩
abbrev main_c_36 : Ref sig .tc := ⟨.hbm, 448, rfl⟩
abbrev main_v282 : Ref sig .tc := ⟨.hbm, 449, rfl⟩
abbrev main_v283 : Ref sig .tc := ⟨.hbm, 450, rfl⟩
abbrev main_v284 : Ref sig .tc := ⟨.hbm, 451, rfl⟩
abbrev main_v285 : Ref sig .tc := ⟨.hbm, 452, rfl⟩
abbrev main_v286 : Ref sig .tc := ⟨.hbm, 453, rfl⟩
abbrev main_v287 : Ref sig .tc := ⟨.hbm, 454, rfl⟩
abbrev main_v288 : Ref sig .tc := ⟨.hbm, 455, rfl⟩
abbrev main_cst_37 : Ref sig .tc := ⟨.hbm, 456, rfl⟩
abbrev main_v289 : Ref sig .tc := ⟨.hbm, 457, rfl⟩
abbrev main_v290 : Ref sig .tc := ⟨.hbm, 458, rfl⟩
abbrev main_v291 : Ref sig .tc := ⟨.hbm, 459, rfl⟩
abbrev main_v292 : Ref sig .tc := ⟨.hbm, 460, rfl⟩
abbrev main_v293 : Ref sig .tc := ⟨.hbm, 461, rfl⟩
abbrev main_v294 : Ref sig .tc := ⟨.hbm, 462, rfl⟩
abbrev main_v295 : Ref sig .tc := ⟨.hbm, 463, rfl⟩
abbrev main_v296 : Ref sig .tc := ⟨.hbm, 464, rfl⟩
abbrev main_v297 : Ref sig .tc := ⟨.hbm, 465, rfl⟩
abbrev main_v298 : Ref sig .tc := ⟨.hbm, 466, rfl⟩
abbrev main_v299 : Ref sig .tc := ⟨.hbm, 467, rfl⟩
abbrev main_v300 : Ref sig .tc := ⟨.hbm, 468, rfl⟩
abbrev main_v301 : Ref sig .tc := ⟨.hbm, 469, rfl⟩
abbrev main_v302 : Ref sig .tc := ⟨.hbm, 470, rfl⟩
abbrev main_v303 : Ref sig .tc := ⟨.hbm, 471, rfl⟩
abbrev main_v304 : Ref sig .tc := ⟨.hbm, 472, rfl⟩
abbrev main_v305 : Ref sig .tc := ⟨.hbm, 473, rfl⟩
abbrev main_v306 : Ref sig .tc := ⟨.hbm, 474, rfl⟩
abbrev main_v307 : Ref sig .tc := ⟨.hbm, 475, rfl⟩
abbrev main_cst_38 : Ref sig .tc := ⟨.hbm, 476, rfl⟩
abbrev main_v308 : Ref sig .tc := ⟨.hbm, 477, rfl⟩
abbrev main_cst_39 : Ref sig .tc := ⟨.hbm, 478, rfl⟩
abbrev main_v309 : Ref sig .tc := ⟨.hbm, 479, rfl⟩
abbrev main_v310 : Ref sig .tc := ⟨.hbm, 480, rfl⟩
abbrev main_c_40 : Ref sig .tc := ⟨.hbm, 481, rfl⟩
abbrev main_call10_cst : Ref sig .tc := ⟨.hbm, 482, rfl⟩
abbrev main_call10_v0 : Ref sig .tc := ⟨.hbm, 483, rfl⟩
abbrev main_call10_v1 : Ref sig .tc := ⟨.hbm, 484, rfl⟩
abbrev main_call10_cst_0 : Ref sig .tc := ⟨.hbm, 485, rfl⟩
abbrev main_call10_v2 : Ref sig .tc := ⟨.hbm, 486, rfl⟩
abbrev main_call10_v3 : Ref sig .tc := ⟨.hbm, 487, rfl⟩
abbrev main_call10_v4 : Ref sig .tc := ⟨.hbm, 488, rfl⟩
abbrev main_call10_v5 : Ref sig .tc := ⟨.hbm, 489, rfl⟩
abbrev main_call10_v6 : Ref sig .tc := ⟨.hbm, 490, rfl⟩
abbrev main_call10_v7 : Ref sig .tc := ⟨.hbm, 491, rfl⟩
abbrev main_call10_cst_1 : Ref sig .tc := ⟨.hbm, 492, rfl⟩
abbrev main_call10_v8 : Ref sig .tc := ⟨.hbm, 493, rfl⟩
abbrev main_call10_cst_2 : Ref sig .tc := ⟨.hbm, 494, rfl⟩
abbrev main_call10_v9 : Ref sig .tc := ⟨.hbm, 495, rfl⟩
abbrev main_call10_v10 : Ref sig .tc := ⟨.hbm, 496, rfl⟩
abbrev main_call10_v11 : Ref sig .tc := ⟨.hbm, 497, rfl⟩
abbrev main_call10_cst_3 : Ref sig .tc := ⟨.hbm, 498, rfl⟩
abbrev main_call10_v12 : Ref sig .tc := ⟨.hbm, 499, rfl⟩
abbrev main_call10_cst_4 : Ref sig .tc := ⟨.hbm, 500, rfl⟩
abbrev main_call10_call0_v0 : Ref sig .tc := ⟨.hbm, 501, rfl⟩
abbrev main_call10_call0_v1 : Ref sig .tc := ⟨.hbm, 502, rfl⟩
abbrev main_v311 : Ref sig .tc := ⟨.hbm, 503, rfl⟩
abbrev main_v312 : Ref sig .tc := ⟨.hbm, 504, rfl⟩
abbrev main_v313 : Ref sig .tc := ⟨.hbm, 505, rfl⟩
abbrev main_v314 : Ref sig .tc := ⟨.hbm, 506, rfl⟩
abbrev main_v315 : Ref sig .tc := ⟨.hbm, 507, rfl⟩
abbrev main_v316 : Ref sig .tc := ⟨.hbm, 508, rfl⟩
abbrev main_v317 : Ref sig .tc := ⟨.hbm, 509, rfl⟩
abbrev main_cst_41 : Ref sig .tc := ⟨.hbm, 510, rfl⟩
abbrev main_v318 : Ref sig .tc := ⟨.hbm, 511, rfl⟩
abbrev main_v319 : Ref sig .tc := ⟨.hbm, 512, rfl⟩
abbrev main_v320 : Ref sig .tc := ⟨.hbm, 513, rfl⟩
abbrev main_v321 : Ref sig .tc := ⟨.hbm, 514, rfl⟩
abbrev main_v322 : Ref sig .tc := ⟨.hbm, 515, rfl⟩
abbrev main_v323 : Ref sig .tc := ⟨.hbm, 516, rfl⟩
abbrev main_v324 : Ref sig .tc := ⟨.hbm, 517, rfl⟩
abbrev main_v325 : Ref sig .tc := ⟨.hbm, 518, rfl⟩
abbrev main_v326 : Ref sig .tc := ⟨.hbm, 519, rfl⟩
abbrev main_call11_cst : Ref sig .tc := ⟨.hbm, 520, rfl⟩
abbrev main_call11_v0 : Ref sig .tc := ⟨.hbm, 521, rfl⟩
abbrev main_v327 : Ref sig .tc := ⟨.hbm, 522, rfl⟩
abbrev main_v328 : Ref sig .tc := ⟨.hbm, 523, rfl⟩
abbrev main_v329 : Ref sig .tc := ⟨.hbm, 524, rfl⟩
abbrev main_v330 : Ref sig .tc := ⟨.hbm, 525, rfl⟩
abbrev main_v331 : Ref sig .tc := ⟨.hbm, 526, rfl⟩
abbrev main_v332 : Ref sig .tc := ⟨.hbm, 527, rfl⟩
abbrev main_v333 : Ref sig .tc := ⟨.hbm, 528, rfl⟩
abbrev main_v334 : Ref sig .tc := ⟨.hbm, 529, rfl⟩
abbrev main_v335 : Ref sig .tc := ⟨.hbm, 530, rfl⟩
abbrev main_v336 : Ref sig .tc := ⟨.hbm, 531, rfl⟩
abbrev main_v337 : Ref sig .tc := ⟨.hbm, 532, rfl⟩
abbrev main_v338 : Ref sig .tc := ⟨.hbm, 533, rfl⟩
abbrev main_v339 : Ref sig .tc := ⟨.hbm, 534, rfl⟩
abbrev main_v340 : Ref sig .tc := ⟨.hbm, 535, rfl⟩
abbrev main_v341 : Ref sig .tc := ⟨.hbm, 536, rfl⟩
abbrev main_v342 : Ref sig .tc := ⟨.hbm, 537, rfl⟩
abbrev main_v343 : Ref sig .tc := ⟨.hbm, 538, rfl⟩
abbrev main_v344 : Ref sig .tc := ⟨.hbm, 539, rfl⟩
abbrev main_v345 : Ref sig .tc := ⟨.hbm, 540, rfl⟩
abbrev main_v346 : Ref sig .tc := ⟨.hbm, 541, rfl⟩
abbrev main_v347 : Ref sig .tc := ⟨.hbm, 542, rfl⟩
abbrev main_cst_42 : Ref sig .tc := ⟨.hbm, 543, rfl⟩
abbrev main_v348 : Ref sig .tc := ⟨.hbm, 544, rfl⟩
abbrev main_cst_43 : Ref sig .tc := ⟨.hbm, 545, rfl⟩
abbrev main_v349 : Ref sig .tc := ⟨.hbm, 546, rfl⟩
abbrev main_v350 : Ref sig .tc := ⟨.hbm, 547, rfl⟩
abbrev main_c_44 : Ref sig .tc := ⟨.hbm, 548, rfl⟩
abbrev main_call12_cst : Ref sig .tc := ⟨.hbm, 549, rfl⟩
abbrev main_call12_v0 : Ref sig .tc := ⟨.hbm, 550, rfl⟩
abbrev main_call12_v1 : Ref sig .tc := ⟨.hbm, 551, rfl⟩
abbrev main_call12_cst_0 : Ref sig .tc := ⟨.hbm, 552, rfl⟩
abbrev main_call12_v2 : Ref sig .tc := ⟨.hbm, 553, rfl⟩
abbrev main_call12_v3 : Ref sig .tc := ⟨.hbm, 554, rfl⟩
abbrev main_call12_v4 : Ref sig .tc := ⟨.hbm, 555, rfl⟩
abbrev main_call12_v5 : Ref sig .tc := ⟨.hbm, 556, rfl⟩
abbrev main_call12_v6 : Ref sig .tc := ⟨.hbm, 557, rfl⟩
abbrev main_call12_v7 : Ref sig .tc := ⟨.hbm, 558, rfl⟩
abbrev main_call12_cst_1 : Ref sig .tc := ⟨.hbm, 559, rfl⟩
abbrev main_call12_v8 : Ref sig .tc := ⟨.hbm, 560, rfl⟩
abbrev main_call12_cst_2 : Ref sig .tc := ⟨.hbm, 561, rfl⟩
abbrev main_call12_v9 : Ref sig .tc := ⟨.hbm, 562, rfl⟩
abbrev main_call12_v10 : Ref sig .tc := ⟨.hbm, 563, rfl⟩
abbrev main_call12_v11 : Ref sig .tc := ⟨.hbm, 564, rfl⟩
abbrev main_call12_cst_3 : Ref sig .tc := ⟨.hbm, 565, rfl⟩
abbrev main_call12_v12 : Ref sig .tc := ⟨.hbm, 566, rfl⟩
abbrev main_call12_cst_4 : Ref sig .tc := ⟨.hbm, 567, rfl⟩
abbrev main_call12_call0_v0 : Ref sig .tc := ⟨.hbm, 568, rfl⟩
abbrev main_call12_call0_v1 : Ref sig .tc := ⟨.hbm, 569, rfl⟩
abbrev main_v351 : Ref sig .tc := ⟨.hbm, 570, rfl⟩
abbrev main_v352 : Ref sig .tc := ⟨.hbm, 571, rfl⟩
abbrev main_v353 : Ref sig .tc := ⟨.hbm, 572, rfl⟩
abbrev main_v354 : Ref sig .tc := ⟨.hbm, 573, rfl⟩
abbrev main_v355 : Ref sig .tc := ⟨.hbm, 574, rfl⟩
abbrev main_v356 : Ref sig .tc := ⟨.hbm, 575, rfl⟩
abbrev main_v357 : Ref sig .tc := ⟨.hbm, 576, rfl⟩
abbrev main_cst_45 : Ref sig .tc := ⟨.hbm, 577, rfl⟩
abbrev main_v358 : Ref sig .tc := ⟨.hbm, 578, rfl⟩
abbrev main_v359 : Ref sig .tc := ⟨.hbm, 579, rfl⟩
abbrev main_v360 : Ref sig .tc := ⟨.hbm, 580, rfl⟩
abbrev main_v361 : Ref sig .tc := ⟨.hbm, 581, rfl⟩
abbrev main_v362 : Ref sig .tc := ⟨.hbm, 582, rfl⟩
abbrev main_v363 : Ref sig .tc := ⟨.hbm, 583, rfl⟩
abbrev main_v364 : Ref sig .tc := ⟨.hbm, 584, rfl⟩
abbrev main_v365 : Ref sig .tc := ⟨.hbm, 585, rfl⟩
abbrev main_v366 : Ref sig .tc := ⟨.hbm, 586, rfl⟩
abbrev main_call13_cst : Ref sig .tc := ⟨.hbm, 587, rfl⟩
abbrev main_call13_v0 : Ref sig .tc := ⟨.hbm, 588, rfl⟩
abbrev main_v367 : Ref sig .tc := ⟨.hbm, 589, rfl⟩
abbrev main_v368 : Ref sig .tc := ⟨.hbm, 590, rfl⟩
abbrev main_v369 : Ref sig .tc := ⟨.hbm, 591, rfl⟩
abbrev main_v370 : Ref sig .tc := ⟨.hbm, 592, rfl⟩
abbrev main_v371 : Ref sig .tc := ⟨.hbm, 593, rfl⟩
abbrev main_v372 : Ref sig .tc := ⟨.hbm, 594, rfl⟩
abbrev main_call14_cst : Ref sig .tc := ⟨.hbm, 595, rfl⟩
abbrev main_call14_v0 : Ref sig .tc := ⟨.hbm, 596, rfl⟩
abbrev main_call14_v1 : Ref sig .tc := ⟨.hbm, 597, rfl⟩
abbrev main_call14_cst_0 : Ref sig .tc := ⟨.hbm, 598, rfl⟩
abbrev main_call14_v2 : Ref sig .tc := ⟨.hbm, 599, rfl⟩
abbrev main_call14_v3 : Ref sig .tc := ⟨.hbm, 600, rfl⟩
abbrev main_v373 : Ref sig .tc := ⟨.hbm, 601, rfl⟩
abbrev main_v374 : Ref sig .tc := ⟨.hbm, 602, rfl⟩
abbrev main_v375 : Ref sig .tc := ⟨.hbm, 603, rfl⟩
abbrev main_v376 : Ref sig .tc := ⟨.hbm, 604, rfl⟩
abbrev main_v377 : Ref sig .tc := ⟨.hbm, 605, rfl⟩
abbrev main_v378 : Ref sig .tc := ⟨.hbm, 606, rfl⟩
abbrev main_v379 : Ref sig .tc := ⟨.hbm, 607, rfl⟩
abbrev main_v380 : Ref sig .tc := ⟨.hbm, 608, rfl⟩
abbrev main_v381 : Ref sig .tc := ⟨.hbm, 609, rfl⟩
abbrev main_v382 : Ref sig .tc := ⟨.hbm, 610, rfl⟩
abbrev main_v383 : Ref sig .tc := ⟨.hbm, 611, rfl⟩
abbrev main_v384 : Ref sig .tc := ⟨.hbm, 612, rfl⟩
abbrev main_v385 : Ref sig .tc := ⟨.hbm, 613, rfl⟩
abbrev main_v386 : Ref sig .tc := ⟨.hbm, 614, rfl⟩
abbrev main_v387 : Ref sig .tc := ⟨.hbm, 615, rfl⟩
abbrev main_v388 : Ref sig .tc := ⟨.hbm, 616, rfl⟩
abbrev main_v389 : Ref sig .tc := ⟨.hbm, 617, rfl⟩
abbrev main_cst_46 : Ref sig .tc := ⟨.hbm, 618, rfl⟩
abbrev main_v390 : Ref sig .tc := ⟨.hbm, 619, rfl⟩
abbrev main_cst_47 : Ref sig .tc := ⟨.hbm, 620, rfl⟩
abbrev main_v391 : Ref sig .tc := ⟨.hbm, 621, rfl⟩
abbrev main_v392 : Ref sig .tc := ⟨.hbm, 622, rfl⟩
abbrev main_c_48 : Ref sig .tc := ⟨.hbm, 623, rfl⟩
abbrev main_call15_cst : Ref sig .tc := ⟨.hbm, 624, rfl⟩
abbrev main_call15_v0 : Ref sig .tc := ⟨.hbm, 625, rfl⟩
abbrev main_call15_v1 : Ref sig .tc := ⟨.hbm, 626, rfl⟩
abbrev main_call15_cst_0 : Ref sig .tc := ⟨.hbm, 627, rfl⟩
abbrev main_call15_v2 : Ref sig .tc := ⟨.hbm, 628, rfl⟩
abbrev main_call15_v3 : Ref sig .tc := ⟨.hbm, 629, rfl⟩
abbrev main_call15_v4 : Ref sig .tc := ⟨.hbm, 630, rfl⟩
abbrev main_call15_v5 : Ref sig .tc := ⟨.hbm, 631, rfl⟩
abbrev main_call15_v6 : Ref sig .tc := ⟨.hbm, 632, rfl⟩
abbrev main_call15_v7 : Ref sig .tc := ⟨.hbm, 633, rfl⟩
abbrev main_call15_cst_1 : Ref sig .tc := ⟨.hbm, 634, rfl⟩
abbrev main_call15_v8 : Ref sig .tc := ⟨.hbm, 635, rfl⟩
abbrev main_call15_cst_2 : Ref sig .tc := ⟨.hbm, 636, rfl⟩
abbrev main_call15_v9 : Ref sig .tc := ⟨.hbm, 637, rfl⟩
abbrev main_call15_v10 : Ref sig .tc := ⟨.hbm, 638, rfl⟩
abbrev main_call15_v11 : Ref sig .tc := ⟨.hbm, 639, rfl⟩
abbrev main_call15_cst_3 : Ref sig .tc := ⟨.hbm, 640, rfl⟩
abbrev main_call15_v12 : Ref sig .tc := ⟨.hbm, 641, rfl⟩
abbrev main_call15_cst_4 : Ref sig .tc := ⟨.hbm, 642, rfl⟩
abbrev main_call15_call0_v0 : Ref sig .tc := ⟨.hbm, 643, rfl⟩
abbrev main_call15_call0_v1 : Ref sig .tc := ⟨.hbm, 644, rfl⟩
abbrev main_v393 : Ref sig .tc := ⟨.hbm, 645, rfl⟩
abbrev main_v394 : Ref sig .tc := ⟨.hbm, 646, rfl⟩
abbrev main_v395 : Ref sig .tc := ⟨.hbm, 647, rfl⟩
abbrev main_v396 : Ref sig .tc := ⟨.hbm, 648, rfl⟩
abbrev main_v397 : Ref sig .tc := ⟨.hbm, 649, rfl⟩
abbrev main_v398 : Ref sig .tc := ⟨.hbm, 650, rfl⟩
abbrev main_v399 : Ref sig .tc := ⟨.hbm, 651, rfl⟩
abbrev main_cst_49 : Ref sig .tc := ⟨.hbm, 652, rfl⟩
abbrev main_v400 : Ref sig .tc := ⟨.hbm, 653, rfl⟩
abbrev main_v401 : Ref sig .tc := ⟨.hbm, 654, rfl⟩
abbrev main_v402 : Ref sig .tc := ⟨.hbm, 655, rfl⟩
abbrev main_v403 : Ref sig .tc := ⟨.hbm, 656, rfl⟩
abbrev main_v404 : Ref sig .tc := ⟨.hbm, 657, rfl⟩
abbrev main_v405 : Ref sig .tc := ⟨.hbm, 658, rfl⟩
abbrev main_v406 : Ref sig .tc := ⟨.hbm, 659, rfl⟩
abbrev main_v407 : Ref sig .tc := ⟨.hbm, 660, rfl⟩
abbrev main_v408 : Ref sig .tc := ⟨.hbm, 661, rfl⟩
abbrev main_call16_cst : Ref sig .tc := ⟨.hbm, 662, rfl⟩
abbrev main_call16_v0 : Ref sig .tc := ⟨.hbm, 663, rfl⟩
abbrev main_v409 : Ref sig .tc := ⟨.hbm, 664, rfl⟩
abbrev main_v410 : Ref sig .tc := ⟨.hbm, 665, rfl⟩
abbrev main_v411 : Ref sig .tc := ⟨.hbm, 666, rfl⟩
abbrev main_v412 : Ref sig .tc := ⟨.hbm, 667, rfl⟩
abbrev main_v413 : Ref sig .tc := ⟨.hbm, 668, rfl⟩
abbrev main_v414 : Ref sig .tc := ⟨.hbm, 669, rfl⟩
abbrev main_v415 : Ref sig .tc := ⟨.hbm, 670, rfl⟩
abbrev main_v416 : Ref sig .tc := ⟨.hbm, 671, rfl⟩
abbrev main_v417 : Ref sig .tc := ⟨.hbm, 672, rfl⟩
abbrev main_v418 : Ref sig .tc := ⟨.hbm, 673, rfl⟩
abbrev main_v419 : Ref sig .tc := ⟨.hbm, 674, rfl⟩
abbrev main_v420 : Ref sig .tc := ⟨.hbm, 675, rfl⟩
abbrev main_v421 : Ref sig .tc := ⟨.hbm, 676, rfl⟩
abbrev main_v422 : Ref sig .tc := ⟨.hbm, 677, rfl⟩
abbrev main_v423 : Ref sig .tc := ⟨.hbm, 678, rfl⟩
abbrev main_v424 : Ref sig .tc := ⟨.hbm, 679, rfl⟩
abbrev main_v425 : Ref sig .tc := ⟨.hbm, 680, rfl⟩
abbrev main_v426 : Ref sig .tc := ⟨.hbm, 681, rfl⟩
abbrev main_v427 : Ref sig .tc := ⟨.hbm, 682, rfl⟩
abbrev main_v428 : Ref sig .tc := ⟨.hbm, 683, rfl⟩
abbrev main_v429 : Ref sig .tc := ⟨.hbm, 684, rfl⟩
abbrev main_cst_50 : Ref sig .tc := ⟨.hbm, 685, rfl⟩
abbrev main_v430 : Ref sig .tc := ⟨.hbm, 686, rfl⟩
abbrev main_cst_51 : Ref sig .tc := ⟨.hbm, 687, rfl⟩
abbrev main_v431 : Ref sig .tc := ⟨.hbm, 688, rfl⟩
abbrev main_v432 : Ref sig .tc := ⟨.hbm, 689, rfl⟩
abbrev main_c_52 : Ref sig .tc := ⟨.hbm, 690, rfl⟩
abbrev main_call17_cst : Ref sig .tc := ⟨.hbm, 691, rfl⟩
abbrev main_call17_v0 : Ref sig .tc := ⟨.hbm, 692, rfl⟩
abbrev main_call17_v1 : Ref sig .tc := ⟨.hbm, 693, rfl⟩
abbrev main_call17_cst_0 : Ref sig .tc := ⟨.hbm, 694, rfl⟩
abbrev main_call17_v2 : Ref sig .tc := ⟨.hbm, 695, rfl⟩
abbrev main_call17_v3 : Ref sig .tc := ⟨.hbm, 696, rfl⟩
abbrev main_call17_v4 : Ref sig .tc := ⟨.hbm, 697, rfl⟩
abbrev main_call17_v5 : Ref sig .tc := ⟨.hbm, 698, rfl⟩
abbrev main_call17_v6 : Ref sig .tc := ⟨.hbm, 699, rfl⟩
abbrev main_call17_v7 : Ref sig .tc := ⟨.hbm, 700, rfl⟩
abbrev main_call17_cst_1 : Ref sig .tc := ⟨.hbm, 701, rfl⟩
abbrev main_call17_v8 : Ref sig .tc := ⟨.hbm, 702, rfl⟩
abbrev main_call17_cst_2 : Ref sig .tc := ⟨.hbm, 703, rfl⟩
abbrev main_call17_v9 : Ref sig .tc := ⟨.hbm, 704, rfl⟩
abbrev main_call17_v10 : Ref sig .tc := ⟨.hbm, 705, rfl⟩
abbrev main_call17_v11 : Ref sig .tc := ⟨.hbm, 706, rfl⟩
abbrev main_call17_cst_3 : Ref sig .tc := ⟨.hbm, 707, rfl⟩
abbrev main_call17_v12 : Ref sig .tc := ⟨.hbm, 708, rfl⟩
abbrev main_call17_cst_4 : Ref sig .tc := ⟨.hbm, 709, rfl⟩
abbrev main_call17_call0_v0 : Ref sig .tc := ⟨.hbm, 710, rfl⟩
abbrev main_call17_call0_v1 : Ref sig .tc := ⟨.hbm, 711, rfl⟩
abbrev main_v433 : Ref sig .tc := ⟨.hbm, 712, rfl⟩
abbrev main_v434 : Ref sig .tc := ⟨.hbm, 713, rfl⟩
abbrev main_v435 : Ref sig .tc := ⟨.hbm, 714, rfl⟩
abbrev main_v436 : Ref sig .tc := ⟨.hbm, 715, rfl⟩
abbrev main_v437 : Ref sig .tc := ⟨.hbm, 716, rfl⟩
abbrev main_v438 : Ref sig .tc := ⟨.hbm, 717, rfl⟩
abbrev main_v439 : Ref sig .tc := ⟨.hbm, 718, rfl⟩
abbrev main_cst_53 : Ref sig .tc := ⟨.hbm, 719, rfl⟩
abbrev main_v440 : Ref sig .tc := ⟨.hbm, 720, rfl⟩
abbrev main_v441 : Ref sig .tc := ⟨.hbm, 721, rfl⟩
abbrev main_v442 : Ref sig .tc := ⟨.hbm, 722, rfl⟩
abbrev main_v443 : Ref sig .tc := ⟨.hbm, 723, rfl⟩
abbrev main_v444 : Ref sig .tc := ⟨.hbm, 724, rfl⟩
abbrev main_v445 : Ref sig .tc := ⟨.hbm, 725, rfl⟩
abbrev main_v446 : Ref sig .tc := ⟨.hbm, 726, rfl⟩
abbrev main_v447 : Ref sig .tc := ⟨.hbm, 727, rfl⟩
abbrev main_v448 : Ref sig .tc := ⟨.hbm, 728, rfl⟩
abbrev main_call18_cst : Ref sig .tc := ⟨.hbm, 729, rfl⟩
abbrev main_call18_v0 : Ref sig .tc := ⟨.hbm, 730, rfl⟩
abbrev main_v449 : Ref sig .tc := ⟨.hbm, 731, rfl⟩
abbrev main_v450 : Ref sig .tc := ⟨.hbm, 732, rfl⟩
abbrev main_v451 : Ref sig .tc := ⟨.hbm, 733, rfl⟩
abbrev main_v452 : Ref sig .tc := ⟨.hbm, 734, rfl⟩
abbrev main_v453 : Ref sig .tc := ⟨.hbm, 735, rfl⟩
abbrev main_v454 : Ref sig .tc := ⟨.hbm, 736, rfl⟩
abbrev main_call19_cst : Ref sig .tc := ⟨.hbm, 737, rfl⟩
abbrev main_call19_v0 : Ref sig .tc := ⟨.hbm, 738, rfl⟩
abbrev main_call19_v1 : Ref sig .tc := ⟨.hbm, 739, rfl⟩
abbrev main_call19_cst_0 : Ref sig .tc := ⟨.hbm, 740, rfl⟩
abbrev main_call19_v2 : Ref sig .tc := ⟨.hbm, 741, rfl⟩
abbrev main_call19_v3 : Ref sig .tc := ⟨.hbm, 742, rfl⟩
abbrev main_v455 : Ref sig .tc := ⟨.hbm, 743, rfl⟩
abbrev main_v456 : Ref sig .tc := ⟨.hbm, 744, rfl⟩
abbrev main_v457 : Ref sig .tc := ⟨.hbm, 745, rfl⟩
abbrev main_v458 : Ref sig .tc := ⟨.hbm, 746, rfl⟩
abbrev main_v459 : Ref sig .tc := ⟨.hbm, 747, rfl⟩
abbrev main_v460 : Ref sig .tc := ⟨.hbm, 748, rfl⟩
abbrev main_v461 : Ref sig .tc := ⟨.hbm, 749, rfl⟩
abbrev main_v462 : Ref sig .tc := ⟨.hbm, 750, rfl⟩
abbrev main_v463 : Ref sig .tc := ⟨.hbm, 751, rfl⟩
abbrev main_v464 : Ref sig .tc := ⟨.hbm, 752, rfl⟩
abbrev main_v465 : Ref sig .tc := ⟨.hbm, 753, rfl⟩
abbrev main_v466 : Ref sig .tc := ⟨.hbm, 754, rfl⟩
abbrev main_v467 : Ref sig .tc := ⟨.hbm, 755, rfl⟩
abbrev main_v468 : Ref sig .tc := ⟨.hbm, 756, rfl⟩
abbrev main_v469 : Ref sig .tc := ⟨.hbm, 757, rfl⟩
abbrev main_c_54 : Ref sig .tc := ⟨.hbm, 758, rfl⟩
abbrev main_v470 : Ref sig .tc := ⟨.hbm, 759, rfl⟩
abbrev main_v471 : Ref sig .tc := ⟨.hbm, 760, rfl⟩
abbrev main_c_55 : Ref sig .tc := ⟨.hbm, 761, rfl⟩
abbrev main_v472 : Ref sig .tc := ⟨.hbm, 762, rfl⟩
abbrev main_v473 : Ref sig .tc := ⟨.hbm, 763, rfl⟩
abbrev main_v474 : Ref sig .tc := ⟨.hbm, 764, rfl⟩
abbrev main_v475 : Ref sig .tc := ⟨.hbm, 765, rfl⟩
abbrev main_v476 : Ref sig .tc := ⟨.hbm, 766, rfl⟩
abbrev main_v477 : Ref sig .tc := ⟨.hbm, 767, rfl⟩
abbrev main_v478 : Ref sig .tc := ⟨.hbm, 768, rfl⟩
abbrev main_cst_56 : Ref sig .tc := ⟨.hbm, 769, rfl⟩
abbrev main_v479 : Ref sig .tc := ⟨.hbm, 770, rfl⟩
abbrev main_v480 : Ref sig .tc := ⟨.hbm, 771, rfl⟩
abbrev main_v481 : Ref sig .tc := ⟨.hbm, 772, rfl⟩
abbrev main_v482 : Ref sig .tc := ⟨.hbm, 773, rfl⟩
abbrev main_v483 : Ref sig .tc := ⟨.hbm, 774, rfl⟩
abbrev main_c_57 : Ref sig .tc := ⟨.hbm, 775, rfl⟩
abbrev main_v484 : Ref sig .tc := ⟨.hbm, 776, rfl⟩
abbrev main_v485 : Ref sig .tc := ⟨.hbm, 777, rfl⟩
abbrev main_c_58 : Ref sig .tc := ⟨.hbm, 778, rfl⟩
abbrev main_v486 : Ref sig .tc := ⟨.hbm, 779, rfl⟩
abbrev main_v487 : Ref sig .tc := ⟨.hbm, 780, rfl⟩
abbrev main_v488 : Ref sig .tc := ⟨.hbm, 781, rfl⟩
abbrev main_v489 : Ref sig .tc := ⟨.hbm, 782, rfl⟩
abbrev main_v490 : Ref sig .tc := ⟨.hbm, 783, rfl⟩
abbrev main_v491 : Ref sig .tc := ⟨.hbm, 784, rfl⟩
abbrev main_v492 : Ref sig .tc := ⟨.hbm, 785, rfl⟩
abbrev main_cst_59 : Ref sig .tc := ⟨.hbm, 786, rfl⟩
abbrev main_v493 : Ref sig .tc := ⟨.hbm, 787, rfl⟩
abbrev main_v494 : Ref sig .tc := ⟨.hbm, 788, rfl⟩
abbrev main_v495 : Ref sig .tc := ⟨.hbm, 789, rfl⟩
abbrev main_v496 : Ref sig .tc := ⟨.hbm, 790, rfl⟩
abbrev main_v497 : Ref sig .tc := ⟨.hbm, 791, rfl⟩
abbrev main_c_60 : Ref sig .tc := ⟨.hbm, 792, rfl⟩
abbrev main_v498 : Ref sig .tc := ⟨.hbm, 793, rfl⟩
abbrev main_v499 : Ref sig .tc := ⟨.hbm, 794, rfl⟩
abbrev main_c_61 : Ref sig .tc := ⟨.hbm, 795, rfl⟩
abbrev main_v500 : Ref sig .tc := ⟨.hbm, 796, rfl⟩
abbrev main_v501 : Ref sig .tc := ⟨.hbm, 797, rfl⟩
abbrev main_v502 : Ref sig .tc := ⟨.hbm, 798, rfl⟩
abbrev main_v503 : Ref sig .tc := ⟨.hbm, 799, rfl⟩
abbrev main_v504 : Ref sig .tc := ⟨.hbm, 800, rfl⟩
abbrev main_v505 : Ref sig .tc := ⟨.hbm, 801, rfl⟩
abbrev main_v506 : Ref sig .tc := ⟨.hbm, 802, rfl⟩
abbrev main_cst_62 : Ref sig .tc := ⟨.hbm, 803, rfl⟩
abbrev main_v507 : Ref sig .tc := ⟨.hbm, 804, rfl⟩
abbrev main_v508 : Ref sig .tc := ⟨.hbm, 805, rfl⟩
abbrev main_v509 : Ref sig .tc := ⟨.hbm, 806, rfl⟩
abbrev main_v510 : Ref sig .tc := ⟨.hbm, 807, rfl⟩
abbrev main_v511 : Ref sig .tc := ⟨.hbm, 808, rfl⟩
abbrev main_c_63 : Ref sig .tc := ⟨.hbm, 809, rfl⟩
abbrev main_v512 : Ref sig .tc := ⟨.hbm, 810, rfl⟩
abbrev main_v513 : Ref sig .tc := ⟨.hbm, 811, rfl⟩
abbrev main_c_64 : Ref sig .tc := ⟨.hbm, 812, rfl⟩
abbrev main_v514 : Ref sig .tc := ⟨.hbm, 813, rfl⟩
abbrev main_v515 : Ref sig .tc := ⟨.hbm, 814, rfl⟩
abbrev main_v516 : Ref sig .tc := ⟨.hbm, 815, rfl⟩
abbrev main_v517 : Ref sig .tc := ⟨.hbm, 816, rfl⟩
abbrev main_v518 : Ref sig .tc := ⟨.hbm, 817, rfl⟩
abbrev main_v519 : Ref sig .tc := ⟨.hbm, 818, rfl⟩
abbrev main_v520 : Ref sig .tc := ⟨.hbm, 819, rfl⟩
abbrev main_cst_65 : Ref sig .tc := ⟨.hbm, 820, rfl⟩
abbrev main_v521 : Ref sig .tc := ⟨.hbm, 821, rfl⟩
abbrev main_v522 : Ref sig .tc := ⟨.hbm, 822, rfl⟩
abbrev main_v523 : Ref sig .tc := ⟨.hbm, 823, rfl⟩
abbrev main_v524 : Ref sig .tc := ⟨.hbm, 824, rfl⟩
abbrev main_v525 : Ref sig .tc := ⟨.hbm, 825, rfl⟩
abbrev main_v526 : Ref sig .tc := ⟨.hbm, 826, rfl⟩
abbrev main_v527 : Ref sig .tc := ⟨.hbm, 827, rfl⟩
abbrev main_v528 : Ref sig .tc := ⟨.hbm, 828, rfl⟩
abbrev main_v529 : Ref sig .tc := ⟨.hbm, 829, rfl⟩
abbrev main_v530 : Ref sig .tc := ⟨.hbm, 830, rfl⟩
abbrev main_v531 : Ref sig .tc := ⟨.hbm, 831, rfl⟩
abbrev main_v532 : Ref sig .tc := ⟨.hbm, 832, rfl⟩
abbrev main_v533 : Ref sig .tc := ⟨.hbm, 833, rfl⟩
abbrev main_v534 : Ref sig .tc := ⟨.hbm, 834, rfl⟩
abbrev main_v535 : Ref sig .tc := ⟨.hbm, 835, rfl⟩
abbrev main_v536 : Ref sig .tc := ⟨.hbm, 836, rfl⟩
abbrev main_v537 : Ref sig .tc := ⟨.hbm, 837, rfl⟩
abbrev main_v538 : Ref sig .tc := ⟨.hbm, 838, rfl⟩
abbrev main_v539 : Ref sig .tc := ⟨.hbm, 839, rfl⟩
abbrev main_cst_66 : Ref sig .tc := ⟨.hbm, 840, rfl⟩
abbrev main_v540 : Ref sig .tc := ⟨.hbm, 841, rfl⟩
abbrev main_cst_67 : Ref sig .tc := ⟨.hbm, 842, rfl⟩
abbrev main_v541 : Ref sig .tc := ⟨.hbm, 843, rfl⟩
abbrev main_v542 : Ref sig .tc := ⟨.hbm, 844, rfl⟩
abbrev main_c_68 : Ref sig .tc := ⟨.hbm, 845, rfl⟩
abbrev main_call20_cst : Ref sig .tc := ⟨.hbm, 846, rfl⟩
abbrev main_call20_v0 : Ref sig .tc := ⟨.hbm, 847, rfl⟩
abbrev main_call20_v1 : Ref sig .tc := ⟨.hbm, 848, rfl⟩
abbrev main_call20_cst_0 : Ref sig .tc := ⟨.hbm, 849, rfl⟩
abbrev main_call20_v2 : Ref sig .tc := ⟨.hbm, 850, rfl⟩
abbrev main_call20_v3 : Ref sig .tc := ⟨.hbm, 851, rfl⟩
abbrev main_call20_v4 : Ref sig .tc := ⟨.hbm, 852, rfl⟩
abbrev main_call20_v5 : Ref sig .tc := ⟨.hbm, 853, rfl⟩
abbrev main_call20_v6 : Ref sig .tc := ⟨.hbm, 854, rfl⟩
abbrev main_call20_v7 : Ref sig .tc := ⟨.hbm, 855, rfl⟩
abbrev main_call20_cst_1 : Ref sig .tc := ⟨.hbm, 856, rfl⟩
abbrev main_call20_v8 : Ref sig .tc := ⟨.hbm, 857, rfl⟩
abbrev main_call20_cst_2 : Ref sig .tc := ⟨.hbm, 858, rfl⟩
abbrev main_call20_v9 : Ref sig .tc := ⟨.hbm, 859, rfl⟩
abbrev main_call20_v10 : Ref sig .tc := ⟨.hbm, 860, rfl⟩
abbrev main_call20_v11 : Ref sig .tc := ⟨.hbm, 861, rfl⟩
abbrev main_call20_cst_3 : Ref sig .tc := ⟨.hbm, 862, rfl⟩
abbrev main_call20_v12 : Ref sig .tc := ⟨.hbm, 863, rfl⟩
abbrev main_call20_cst_4 : Ref sig .tc := ⟨.hbm, 864, rfl⟩
abbrev main_call20_call0_v0 : Ref sig .tc := ⟨.hbm, 865, rfl⟩
abbrev main_call20_call0_v1 : Ref sig .tc := ⟨.hbm, 866, rfl⟩
abbrev main_v543 : Ref sig .tc := ⟨.hbm, 867, rfl⟩
abbrev main_v544 : Ref sig .tc := ⟨.hbm, 868, rfl⟩
abbrev main_v545 : Ref sig .tc := ⟨.hbm, 869, rfl⟩
abbrev main_v546 : Ref sig .tc := ⟨.hbm, 870, rfl⟩
abbrev main_v547 : Ref sig .tc := ⟨.hbm, 871, rfl⟩
abbrev main_v548 : Ref sig .tc := ⟨.hbm, 872, rfl⟩
abbrev main_v549 : Ref sig .tc := ⟨.hbm, 873, rfl⟩
abbrev main_cst_69 : Ref sig .tc := ⟨.hbm, 874, rfl⟩
abbrev main_v550 : Ref sig .tc := ⟨.hbm, 875, rfl⟩
abbrev main_v551 : Ref sig .tc := ⟨.hbm, 876, rfl⟩
abbrev main_v552 : Ref sig .tc := ⟨.hbm, 877, rfl⟩
abbrev main_v553 : Ref sig .tc := ⟨.hbm, 878, rfl⟩
abbrev main_v554 : Ref sig .tc := ⟨.hbm, 879, rfl⟩
abbrev main_v555 : Ref sig .tc := ⟨.hbm, 880, rfl⟩
abbrev main_v556 : Ref sig .tc := ⟨.hbm, 881, rfl⟩
abbrev main_v557 : Ref sig .tc := ⟨.hbm, 882, rfl⟩
abbrev main_v558 : Ref sig .tc := ⟨.hbm, 883, rfl⟩
abbrev main_call21_cst : Ref sig .tc := ⟨.hbm, 884, rfl⟩
abbrev main_call21_v0 : Ref sig .tc := ⟨.hbm, 885, rfl⟩
abbrev main_v559 : Ref sig .tc := ⟨.hbm, 886, rfl⟩
abbrev main_v560 : Ref sig .tc := ⟨.hbm, 887, rfl⟩
abbrev main_v561 : Ref sig .tc := ⟨.hbm, 888, rfl⟩
abbrev main_v562 : Ref sig .tc := ⟨.hbm, 889, rfl⟩
abbrev main_v563 : Ref sig .tc := ⟨.hbm, 890, rfl⟩
abbrev main_v564 : Ref sig .tc := ⟨.hbm, 891, rfl⟩
abbrev main_v565 : Ref sig .tc := ⟨.hbm, 892, rfl⟩
abbrev main_v566 : Ref sig .tc := ⟨.hbm, 893, rfl⟩
abbrev main_v567 : Ref sig .tc := ⟨.hbm, 894, rfl⟩
abbrev main_v568 : Ref sig .tc := ⟨.hbm, 895, rfl⟩
abbrev main_v569 : Ref sig .tc := ⟨.hbm, 896, rfl⟩
abbrev main_v570 : Ref sig .tc := ⟨.hbm, 897, rfl⟩
abbrev main_v571 : Ref sig .tc := ⟨.hbm, 898, rfl⟩
abbrev main_v572 : Ref sig .tc := ⟨.hbm, 899, rfl⟩
abbrev main_v573 : Ref sig .tc := ⟨.hbm, 900, rfl⟩
abbrev main_v574 : Ref sig .tc := ⟨.hbm, 901, rfl⟩
abbrev main_v575 : Ref sig .tc := ⟨.hbm, 902, rfl⟩
abbrev main_v576 : Ref sig .tc := ⟨.hbm, 903, rfl⟩
abbrev main_v577 : Ref sig .tc := ⟨.hbm, 904, rfl⟩
abbrev main_v578 : Ref sig .tc := ⟨.hbm, 905, rfl⟩
abbrev main_v579 : Ref sig .tc := ⟨.hbm, 906, rfl⟩
abbrev main_cst_70 : Ref sig .tc := ⟨.hbm, 907, rfl⟩
abbrev main_v580 : Ref sig .tc := ⟨.hbm, 908, rfl⟩
abbrev main_cst_71 : Ref sig .tc := ⟨.hbm, 909, rfl⟩
abbrev main_v581 : Ref sig .tc := ⟨.hbm, 910, rfl⟩
abbrev main_v582 : Ref sig .tc := ⟨.hbm, 911, rfl⟩
abbrev main_c_72 : Ref sig .tc := ⟨.hbm, 912, rfl⟩
abbrev main_call22_cst : Ref sig .tc := ⟨.hbm, 913, rfl⟩
abbrev main_call22_v0 : Ref sig .tc := ⟨.hbm, 914, rfl⟩
abbrev main_call22_v1 : Ref sig .tc := ⟨.hbm, 915, rfl⟩
abbrev main_call22_cst_0 : Ref sig .tc := ⟨.hbm, 916, rfl⟩
abbrev main_call22_v2 : Ref sig .tc := ⟨.hbm, 917, rfl⟩
abbrev main_call22_v3 : Ref sig .tc := ⟨.hbm, 918, rfl⟩
abbrev main_call22_v4 : Ref sig .tc := ⟨.hbm, 919, rfl⟩
abbrev main_call22_v5 : Ref sig .tc := ⟨.hbm, 920, rfl⟩
abbrev main_call22_v6 : Ref sig .tc := ⟨.hbm, 921, rfl⟩
abbrev main_call22_v7 : Ref sig .tc := ⟨.hbm, 922, rfl⟩
abbrev main_call22_cst_1 : Ref sig .tc := ⟨.hbm, 923, rfl⟩
abbrev main_call22_v8 : Ref sig .tc := ⟨.hbm, 924, rfl⟩
abbrev main_call22_cst_2 : Ref sig .tc := ⟨.hbm, 925, rfl⟩
abbrev main_call22_v9 : Ref sig .tc := ⟨.hbm, 926, rfl⟩
abbrev main_call22_v10 : Ref sig .tc := ⟨.hbm, 927, rfl⟩
abbrev main_call22_v11 : Ref sig .tc := ⟨.hbm, 928, rfl⟩
abbrev main_call22_cst_3 : Ref sig .tc := ⟨.hbm, 929, rfl⟩
abbrev main_call22_v12 : Ref sig .tc := ⟨.hbm, 930, rfl⟩
abbrev main_call22_cst_4 : Ref sig .tc := ⟨.hbm, 931, rfl⟩
abbrev main_call22_call0_v0 : Ref sig .tc := ⟨.hbm, 932, rfl⟩
abbrev main_call22_call0_v1 : Ref sig .tc := ⟨.hbm, 933, rfl⟩
abbrev main_v583 : Ref sig .tc := ⟨.hbm, 934, rfl⟩
abbrev main_v584 : Ref sig .tc := ⟨.hbm, 935, rfl⟩
abbrev main_v585 : Ref sig .tc := ⟨.hbm, 936, rfl⟩
abbrev main_v586 : Ref sig .tc := ⟨.hbm, 937, rfl⟩
abbrev main_v587 : Ref sig .tc := ⟨.hbm, 938, rfl⟩
abbrev main_v588 : Ref sig .tc := ⟨.hbm, 939, rfl⟩
abbrev main_v589 : Ref sig .tc := ⟨.hbm, 940, rfl⟩
abbrev main_cst_73 : Ref sig .tc := ⟨.hbm, 941, rfl⟩
abbrev main_v590 : Ref sig .tc := ⟨.hbm, 942, rfl⟩
abbrev main_v591 : Ref sig .tc := ⟨.hbm, 943, rfl⟩
abbrev main_v592 : Ref sig .tc := ⟨.hbm, 944, rfl⟩
abbrev main_v593 : Ref sig .tc := ⟨.hbm, 945, rfl⟩
abbrev main_v594 : Ref sig .tc := ⟨.hbm, 946, rfl⟩
abbrev main_v595 : Ref sig .tc := ⟨.hbm, 947, rfl⟩
abbrev main_v596 : Ref sig .tc := ⟨.hbm, 948, rfl⟩
abbrev main_v597 : Ref sig .tc := ⟨.hbm, 949, rfl⟩
abbrev main_v598 : Ref sig .tc := ⟨.hbm, 950, rfl⟩
abbrev main_call23_cst : Ref sig .tc := ⟨.hbm, 951, rfl⟩
abbrev main_call23_v0 : Ref sig .tc := ⟨.hbm, 952, rfl⟩
abbrev main_v599 : Ref sig .tc := ⟨.hbm, 953, rfl⟩
abbrev main_v600 : Ref sig .tc := ⟨.hbm, 954, rfl⟩
abbrev main_v601 : Ref sig .tc := ⟨.hbm, 955, rfl⟩
abbrev main_v602 : Ref sig .tc := ⟨.hbm, 956, rfl⟩
abbrev main_v603 : Ref sig .tc := ⟨.hbm, 957, rfl⟩
abbrev main_v604 : Ref sig .tc := ⟨.hbm, 958, rfl⟩
abbrev main_call24_cst : Ref sig .tc := ⟨.hbm, 959, rfl⟩
abbrev main_call24_v0 : Ref sig .tc := ⟨.hbm, 960, rfl⟩
abbrev main_call24_v1 : Ref sig .tc := ⟨.hbm, 961, rfl⟩
abbrev main_call24_cst_0 : Ref sig .tc := ⟨.hbm, 962, rfl⟩
abbrev main_call24_v2 : Ref sig .tc := ⟨.hbm, 963, rfl⟩
abbrev main_call24_v3 : Ref sig .tc := ⟨.hbm, 964, rfl⟩
abbrev main_v605 : Ref sig .tc := ⟨.hbm, 965, rfl⟩
abbrev main_v606 : Ref sig .tc := ⟨.hbm, 966, rfl⟩
abbrev main_v607 : Ref sig .tc := ⟨.hbm, 967, rfl⟩
abbrev main_v608 : Ref sig .tc := ⟨.hbm, 968, rfl⟩
abbrev main_v609 : Ref sig .tc := ⟨.hbm, 969, rfl⟩
abbrev main_v610 : Ref sig .tc := ⟨.hbm, 970, rfl⟩
abbrev main_v611 : Ref sig .tc := ⟨.hbm, 971, rfl⟩
abbrev main_v612 : Ref sig .tc := ⟨.hbm, 972, rfl⟩
abbrev main_v613 : Ref sig .tc := ⟨.hbm, 973, rfl⟩
abbrev main_v614 : Ref sig .tc := ⟨.hbm, 974, rfl⟩
abbrev main_v615 : Ref sig .tc := ⟨.hbm, 975, rfl⟩
abbrev main_v616 : Ref sig .tc := ⟨.hbm, 976, rfl⟩
abbrev main_v617 : Ref sig .tc := ⟨.hbm, 977, rfl⟩
abbrev main_v618 : Ref sig .tc := ⟨.hbm, 978, rfl⟩
abbrev main_v619 : Ref sig .tc := ⟨.hbm, 979, rfl⟩
abbrev main_v620 : Ref sig .tc := ⟨.hbm, 980, rfl⟩
abbrev main_v621 : Ref sig .tc := ⟨.hbm, 981, rfl⟩
abbrev main_cst_74 : Ref sig .tc := ⟨.hbm, 982, rfl⟩
abbrev main_v622 : Ref sig .tc := ⟨.hbm, 983, rfl⟩
abbrev main_cst_75 : Ref sig .tc := ⟨.hbm, 984, rfl⟩
abbrev main_v623 : Ref sig .tc := ⟨.hbm, 985, rfl⟩
abbrev main_v624 : Ref sig .tc := ⟨.hbm, 986, rfl⟩
abbrev main_c_76 : Ref sig .tc := ⟨.hbm, 987, rfl⟩
abbrev main_call25_cst : Ref sig .tc := ⟨.hbm, 988, rfl⟩
abbrev main_call25_v0 : Ref sig .tc := ⟨.hbm, 989, rfl⟩
abbrev main_call25_v1 : Ref sig .tc := ⟨.hbm, 990, rfl⟩
abbrev main_call25_cst_0 : Ref sig .tc := ⟨.hbm, 991, rfl⟩
abbrev main_call25_v2 : Ref sig .tc := ⟨.hbm, 992, rfl⟩
abbrev main_call25_v3 : Ref sig .tc := ⟨.hbm, 993, rfl⟩
abbrev main_call25_v4 : Ref sig .tc := ⟨.hbm, 994, rfl⟩
abbrev main_call25_v5 : Ref sig .tc := ⟨.hbm, 995, rfl⟩
abbrev main_call25_v6 : Ref sig .tc := ⟨.hbm, 996, rfl⟩
abbrev main_call25_v7 : Ref sig .tc := ⟨.hbm, 997, rfl⟩
abbrev main_call25_cst_1 : Ref sig .tc := ⟨.hbm, 998, rfl⟩
abbrev main_call25_v8 : Ref sig .tc := ⟨.hbm, 999, rfl⟩
abbrev main_call25_cst_2 : Ref sig .tc := ⟨.hbm, 1000, rfl⟩
abbrev main_call25_v9 : Ref sig .tc := ⟨.hbm, 1001, rfl⟩
abbrev main_call25_v10 : Ref sig .tc := ⟨.hbm, 1002, rfl⟩
abbrev main_call25_v11 : Ref sig .tc := ⟨.hbm, 1003, rfl⟩
abbrev main_call25_cst_3 : Ref sig .tc := ⟨.hbm, 1004, rfl⟩
abbrev main_call25_v12 : Ref sig .tc := ⟨.hbm, 1005, rfl⟩
abbrev main_call25_cst_4 : Ref sig .tc := ⟨.hbm, 1006, rfl⟩
abbrev main_call25_call0_v0 : Ref sig .tc := ⟨.hbm, 1007, rfl⟩
abbrev main_call25_call0_v1 : Ref sig .tc := ⟨.hbm, 1008, rfl⟩
abbrev main_v625 : Ref sig .tc := ⟨.hbm, 1009, rfl⟩
abbrev main_v626 : Ref sig .tc := ⟨.hbm, 1010, rfl⟩
abbrev main_v627 : Ref sig .tc := ⟨.hbm, 1011, rfl⟩
abbrev main_v628 : Ref sig .tc := ⟨.hbm, 1012, rfl⟩
abbrev main_v629 : Ref sig .tc := ⟨.hbm, 1013, rfl⟩
abbrev main_v630 : Ref sig .tc := ⟨.hbm, 1014, rfl⟩
abbrev main_v631 : Ref sig .tc := ⟨.hbm, 1015, rfl⟩
abbrev main_cst_77 : Ref sig .tc := ⟨.hbm, 1016, rfl⟩
abbrev main_v632 : Ref sig .tc := ⟨.hbm, 1017, rfl⟩
abbrev main_v633 : Ref sig .tc := ⟨.hbm, 1018, rfl⟩
abbrev main_v634 : Ref sig .tc := ⟨.hbm, 1019, rfl⟩
abbrev main_v635 : Ref sig .tc := ⟨.hbm, 1020, rfl⟩
abbrev main_v636 : Ref sig .tc := ⟨.hbm, 1021, rfl⟩
abbrev main_v637 : Ref sig .tc := ⟨.hbm, 1022, rfl⟩
abbrev main_v638 : Ref sig .tc := ⟨.hbm, 1023, rfl⟩
abbrev main_v639 : Ref sig .tc := ⟨.hbm, 1024, rfl⟩
abbrev main_v640 : Ref sig .tc := ⟨.hbm, 1025, rfl⟩
abbrev main_call26_cst : Ref sig .tc := ⟨.hbm, 1026, rfl⟩
abbrev main_call26_v0 : Ref sig .tc := ⟨.hbm, 1027, rfl⟩
abbrev main_v641 : Ref sig .tc := ⟨.hbm, 1028, rfl⟩
abbrev main_v642 : Ref sig .tc := ⟨.hbm, 1029, rfl⟩
abbrev main_v643 : Ref sig .tc := ⟨.hbm, 1030, rfl⟩
abbrev main_v644 : Ref sig .tc := ⟨.hbm, 1031, rfl⟩
abbrev main_v645 : Ref sig .tc := ⟨.hbm, 1032, rfl⟩
abbrev main_v646 : Ref sig .tc := ⟨.hbm, 1033, rfl⟩
abbrev main_v647 : Ref sig .tc := ⟨.hbm, 1034, rfl⟩
abbrev main_v648 : Ref sig .tc := ⟨.hbm, 1035, rfl⟩
abbrev main_v649 : Ref sig .tc := ⟨.hbm, 1036, rfl⟩
abbrev main_v650 : Ref sig .tc := ⟨.hbm, 1037, rfl⟩
abbrev main_v651 : Ref sig .tc := ⟨.hbm, 1038, rfl⟩
abbrev main_v652 : Ref sig .tc := ⟨.hbm, 1039, rfl⟩
abbrev main_v653 : Ref sig .tc := ⟨.hbm, 1040, rfl⟩
abbrev main_v654 : Ref sig .tc := ⟨.hbm, 1041, rfl⟩
abbrev main_v655 : Ref sig .tc := ⟨.hbm, 1042, rfl⟩
abbrev main_v656 : Ref sig .tc := ⟨.hbm, 1043, rfl⟩
abbrev main_v657 : Ref sig .tc := ⟨.hbm, 1044, rfl⟩
abbrev main_v658 : Ref sig .tc := ⟨.hbm, 1045, rfl⟩
abbrev main_v659 : Ref sig .tc := ⟨.hbm, 1046, rfl⟩
abbrev main_v660 : Ref sig .tc := ⟨.hbm, 1047, rfl⟩
abbrev main_v661 : Ref sig .tc := ⟨.hbm, 1048, rfl⟩
abbrev main_cst_78 : Ref sig .tc := ⟨.hbm, 1049, rfl⟩
abbrev main_v662 : Ref sig .tc := ⟨.hbm, 1050, rfl⟩
abbrev main_cst_79 : Ref sig .tc := ⟨.hbm, 1051, rfl⟩
abbrev main_v663 : Ref sig .tc := ⟨.hbm, 1052, rfl⟩
abbrev main_v664 : Ref sig .tc := ⟨.hbm, 1053, rfl⟩
abbrev main_c_80 : Ref sig .tc := ⟨.hbm, 1054, rfl⟩
abbrev main_call27_cst : Ref sig .tc := ⟨.hbm, 1055, rfl⟩
abbrev main_call27_v0 : Ref sig .tc := ⟨.hbm, 1056, rfl⟩
abbrev main_call27_v1 : Ref sig .tc := ⟨.hbm, 1057, rfl⟩
abbrev main_call27_cst_0 : Ref sig .tc := ⟨.hbm, 1058, rfl⟩
abbrev main_call27_v2 : Ref sig .tc := ⟨.hbm, 1059, rfl⟩
abbrev main_call27_v3 : Ref sig .tc := ⟨.hbm, 1060, rfl⟩
abbrev main_call27_v4 : Ref sig .tc := ⟨.hbm, 1061, rfl⟩
abbrev main_call27_v5 : Ref sig .tc := ⟨.hbm, 1062, rfl⟩
abbrev main_call27_v6 : Ref sig .tc := ⟨.hbm, 1063, rfl⟩
abbrev main_call27_v7 : Ref sig .tc := ⟨.hbm, 1064, rfl⟩
abbrev main_call27_cst_1 : Ref sig .tc := ⟨.hbm, 1065, rfl⟩
abbrev main_call27_v8 : Ref sig .tc := ⟨.hbm, 1066, rfl⟩
abbrev main_call27_cst_2 : Ref sig .tc := ⟨.hbm, 1067, rfl⟩
abbrev main_call27_v9 : Ref sig .tc := ⟨.hbm, 1068, rfl⟩
abbrev main_call27_v10 : Ref sig .tc := ⟨.hbm, 1069, rfl⟩
abbrev main_call27_v11 : Ref sig .tc := ⟨.hbm, 1070, rfl⟩
abbrev main_call27_cst_3 : Ref sig .tc := ⟨.hbm, 1071, rfl⟩
abbrev main_call27_v12 : Ref sig .tc := ⟨.hbm, 1072, rfl⟩
abbrev main_call27_cst_4 : Ref sig .tc := ⟨.hbm, 1073, rfl⟩
abbrev main_call27_call0_v0 : Ref sig .tc := ⟨.hbm, 1074, rfl⟩
abbrev main_call27_call0_v1 : Ref sig .tc := ⟨.hbm, 1075, rfl⟩
abbrev main_v665 : Ref sig .tc := ⟨.hbm, 1076, rfl⟩
abbrev main_v666 : Ref sig .tc := ⟨.hbm, 1077, rfl⟩
abbrev main_v667 : Ref sig .tc := ⟨.hbm, 1078, rfl⟩
abbrev main_v668 : Ref sig .tc := ⟨.hbm, 1079, rfl⟩
abbrev main_v669 : Ref sig .tc := ⟨.hbm, 1080, rfl⟩
abbrev main_v670 : Ref sig .tc := ⟨.hbm, 1081, rfl⟩
abbrev main_v671 : Ref sig .tc := ⟨.hbm, 1082, rfl⟩
abbrev main_cst_81 : Ref sig .tc := ⟨.hbm, 1083, rfl⟩
abbrev main_v672 : Ref sig .tc := ⟨.hbm, 1084, rfl⟩
abbrev main_v673 : Ref sig .tc := ⟨.hbm, 1085, rfl⟩
abbrev main_v674 : Ref sig .tc := ⟨.hbm, 1086, rfl⟩
abbrev main_v675 : Ref sig .tc := ⟨.hbm, 1087, rfl⟩
abbrev main_v676 : Ref sig .tc := ⟨.hbm, 1088, rfl⟩
abbrev main_v677 : Ref sig .tc := ⟨.hbm, 1089, rfl⟩
abbrev main_v678 : Ref sig .tc := ⟨.hbm, 1090, rfl⟩
abbrev main_v679 : Ref sig .tc := ⟨.hbm, 1091, rfl⟩
abbrev main_v680 : Ref sig .tc := ⟨.hbm, 1092, rfl⟩
abbrev main_call28_cst : Ref sig .tc := ⟨.hbm, 1093, rfl⟩
abbrev main_call28_v0 : Ref sig .tc := ⟨.hbm, 1094, rfl⟩
abbrev main_v681 : Ref sig .tc := ⟨.hbm, 1095, rfl⟩
abbrev main_v682 : Ref sig .tc := ⟨.hbm, 1096, rfl⟩
abbrev main_v683 : Ref sig .tc := ⟨.hbm, 1097, rfl⟩
abbrev main_v684 : Ref sig .tc := ⟨.hbm, 1098, rfl⟩
abbrev main_v685 : Ref sig .tc := ⟨.hbm, 1099, rfl⟩
abbrev main_v686 : Ref sig .tc := ⟨.hbm, 1100, rfl⟩
abbrev main_call29_cst : Ref sig .tc := ⟨.hbm, 1101, rfl⟩
abbrev main_call29_v0 : Ref sig .tc := ⟨.hbm, 1102, rfl⟩
abbrev main_call29_v1 : Ref sig .tc := ⟨.hbm, 1103, rfl⟩
abbrev main_call29_cst_0 : Ref sig .tc := ⟨.hbm, 1104, rfl⟩
abbrev main_call29_v2 : Ref sig .tc := ⟨.hbm, 1105, rfl⟩
abbrev main_call29_v3 : Ref sig .tc := ⟨.hbm, 1106, rfl⟩
abbrev main_v687 : Ref sig .tc := ⟨.hbm, 1107, rfl⟩
abbrev main_v688 : Ref sig .tc := ⟨.hbm, 1108, rfl⟩
abbrev main_v689 : Ref sig .tc := ⟨.hbm, 1109, rfl⟩
abbrev main_v690 : Ref sig .tc := ⟨.hbm, 1110, rfl⟩
abbrev main_v691 : Ref sig .tc := ⟨.hbm, 1111, rfl⟩
abbrev main_v692 : Ref sig .tc := ⟨.hbm, 1112, rfl⟩
abbrev main_v693 : Ref sig .tc := ⟨.hbm, 1113, rfl⟩
abbrev main_v694 : Ref sig .tc := ⟨.hbm, 1114, rfl⟩
abbrev main_v695 : Ref sig .tc := ⟨.hbm, 1115, rfl⟩

abbrev nD : Nat := 1
abbrev τ : Topo := Topo.v7x

variable {F : FTy → Type} [FloatOps F]

class Facts₀ : Prop where
  bcast_S7_S1x7_1 : S7.BroadcastsInDim S1x7 (![1] : Fin 1 → Fin S1x7.rank)
  bcast_S1x7_S20000x7_0_1 : S1x7.BroadcastsInDim S20000x7 (![0, 1] : Fin 2 → Fin S20000x7.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S80000x7 : S_.BroadcastsInDim S80000x7 (![] : Fin 0 → Fin S80000x7.rank)
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  bcast_S_S20000x7 : S_.BroadcastsInDim S20000x7 (![] : Fin 0 → Fin S20000x7.rank)
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  slices_S4x7x128_S1x7x128_0_0_0 : S4x7x128.Slices ![0, 0, 0] S1x7x128
  shapeCasts_S1x7x128_S7x128 : S1x7x128.ShapeCasts S7x128
  slices_S4x128_S1x128_0_0 : S4x128.Slices ![0, 0] S1x128
  shapeCasts_S1x128_S128 : S1x128.ShapeCasts S128
  slices_S4x128x128_S1x128x128_0_0_0 : S4x128x128.Slices ![0, 0, 0] S1x128x128
  shapeCasts_S1x128x128_S128x128 : S1x128x128.ShapeCasts S128x128
  bcast_S128_S1x128_1 : S128.BroadcastsInDim S1x128 (![1] : Fin 1 → Fin S1x128.rank)
  bcast_S1x128_S80000x128_0_1 : S1x128.BroadcastsInDim S80000x128 (![0, 1] : Fin 2 → Fin S80000x128.rank)
  reducesTo_S80000x128_S128_d0 : S80000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S80000x128 : S_.BroadcastsInDim S80000x128 (![] : Fin 0 → Fin S80000x128.rank)
  slices_S4x7x128_S1x7x128_2_0_0 : S4x7x128.Slices ![2, 0, 0] S1x7x128
  slices_S4x128_S1x128_2_0 : S4x128.Slices ![2, 0] S1x128
  slices_S4x128x128_S1x128x128_2_0_0 : S4x128x128.Slices ![2, 0, 0] S1x128x128
  slices_S4x7x128_S1x7x128_1_0_0 : S4x7x128.Slices ![1, 0, 0] S1x7x128
  slices_S4x128_S1x128_1_0 : S4x128.Slices ![1, 0] S1x128
  slices_S4x128x128_S1x128x128_1_0_0 : S4x128x128.Slices ![1, 0, 0] S1x128x128
  bcast_S1x128_S20000x128_0_1 : S1x128.BroadcastsInDim S20000x128 (![0, 1] : Fin 2 → Fin S20000x128.rank)
  reducesTo_S20000x128_S128_d0 : S20000x128.ReducesTo [0] S128
  bcast_S_S20000x128 : S_.BroadcastsInDim S20000x128 (![] : Fin 0 → Fin S20000x128.rank)
  slices_S4x7x128_S1x7x128_3_0_0 : S4x7x128.Slices ![3, 0, 0] S1x7x128
  slices_S4x128_S1x128_3_0 : S4x128.Slices ![3, 0] S1x128
  slices_S4x128x128_S1x128x128_3_0_0 : S4x128x128.Slices ![3, 0, 0] S1x128x128
  slices_S2x4x128x128_S1x4x128x128_0_0_0_0 : S2x4x128x128.Slices ![0, 0, 0, 0] S1x4x128x128
  shapeCasts_S1x4x128x128_S4x128x128 : S1x4x128x128.ShapeCasts S4x128x128
  slices_S2x4x128_S1x4x128_0_0_0 : S2x4x128.Slices ![0, 0, 0] S1x4x128
  shapeCasts_S1x4x128_S4x128 : S1x4x128.ShapeCasts S4x128
  slices_S2x4x128x128_S1x4x128x128_1_0_0_0 : S2x4x128x128.Slices ![1, 0, 0, 0] S1x4x128x128
  slices_S2x4x128_S1x4x128_1_0_0 : S2x4x128.Slices ![1, 0, 0] S1x4x128
  dot_S20000x4_S4x7_S20000x7_1_0_0_1_n_n_wf : DotDims.WF S20000x4 S4x7 S20000x7 [1] [0] [0] [1] [] []
  gather_S80000x7_S1000000x1_S1000000x7_1_0_n_n_0_1_17_wf : GatherDims.WF S80000x7 S1000000x1 S1000000x7 [1] [0] [] [0] [] 1 ![1, 7]
  scatter_S80000x7_S1000000x1_S1000000x7_1_0_0_1_wf : ScatterDims.WF S80000x7 S1000000x1 S1000000x7 [1] [0] [0] 1
  gather_S20000x7_S300000x1_S300000x7_1_0_n_n_0_1_17_wf : GatherDims.WF S20000x7 S300000x1 S300000x7 [1] [0] [] [0] [] 1 ![1, 7]
  scatter_S80000x7_S300000x1_S300000x7_1_0_0_1_wf : ScatterDims.WF S80000x7 S300000x1 S300000x7 [1] [0] [0] 1
  gather_S80000x7_S300000x1_S300000x7_1_0_n_n_0_1_17_wf : GatherDims.WF S80000x7 S300000x1 S300000x7 [1] [0] [] [0] [] 1 ![1, 7]
  scatter_S20000x7_S300000x1_S300000x7_1_0_0_1_wf : ScatterDims.WF S20000x7 S300000x1 S300000x7 [1] [0] [0] 1
  gather_S20000x7_S100000x1_S100000x7_1_0_n_n_0_1_17_wf : GatherDims.WF S20000x7 S100000x1 S100000x7 [1] [0] [] [0] [] 1 ![1, 7]
  scatter_S20000x7_S100000x1_S100000x7_1_0_0_1_wf : ScatterDims.WF S20000x7 S100000x1 S100000x7 [1] [0] [0] 1
  dot_S80000x7_S7x128_S80000x128_1_0_0_1_n_n_wf : DotDims.WF S80000x7 S7x128 S80000x128 [1] [0] [0] [1] [] []
  dot_S80000x128_S128x128_S80000x128_1_0_0_1_n_n_wf : DotDims.WF S80000x128 S128x128 S80000x128 [1] [0] [0] [1] [] []
  dot_S20000x7_S7x128_S20000x128_1_0_0_1_n_n_wf : DotDims.WF S20000x7 S7x128 S20000x128 [1] [0] [0] [1] [] []
  dot_S20000x128_S128x128_S20000x128_1_0_0_1_n_n_wf : DotDims.WF S20000x128 S128x128 S20000x128 [1] [0] [0] [1] [] []
  gather_S80000x128_S1000000x1_S1000000x128_1_0_n_n_0_1_1128_wf : GatherDims.WF S80000x128 S1000000x1 S1000000x128 [1] [0] [] [0] [] 1 ![1, 128]
  scatter_S80000x128_S1000000x1_S1000000x128_1_0_0_1_wf : ScatterDims.WF S80000x128 S1000000x1 S1000000x128 [1] [0] [0] 1
  gather_S20000x128_S300000x1_S300000x128_1_0_n_n_0_1_1128_wf : GatherDims.WF S20000x128 S300000x1 S300000x128 [1] [0] [] [0] [] 1 ![1, 128]
  scatter_S80000x128_S300000x1_S300000x128_1_0_0_1_wf : ScatterDims.WF S80000x128 S300000x1 S300000x128 [1] [0] [0] 1
  gather_S80000x128_S300000x1_S300000x128_1_0_n_n_0_1_1128_wf : GatherDims.WF S80000x128 S300000x1 S300000x128 [1] [0] [] [0] [] 1 ![1, 128]
  scatter_S20000x128_S300000x1_S300000x128_1_0_0_1_wf : ScatterDims.WF S20000x128 S300000x1 S300000x128 [1] [0] [0] 1
  gather_S20000x128_S100000x1_S100000x128_1_0_n_n_0_1_1128_wf : GatherDims.WF S20000x128 S100000x1 S100000x128 [1] [0] [] [0] [] 1 ![1, 128]
  scatter_S20000x128_S100000x1_S100000x128_1_0_0_1_wf : ScatterDims.WF S20000x128 S100000x1 S100000x128 [1] [0] [0] 1

variable [Facts₀]

def dot_S20000x4_S4x7_S20000x7_1_0_0_1_n_n : DotDims S20000x4 S4x7 S20000x7 where
  lhsContracting := [1]
  rhsContracting := [0]
  lhsNonContracting := [0]
  rhsNonContracting := [1]
  lhsBatch := []
  rhsBatch := []
  wf := dot_S20000x4_S4x7_S20000x7_1_0_0_1_n_n_wf
def gather_S80000x7_S1000000x1_S1000000x7_1_0_n_n_0_1_17 : GatherDims S80000x7 S1000000x1 S1000000x7 where
  offsetDims := [1]
  collapsedSliceDims := [0]
  operandBatchingDims := []
  startIndicesBatchingDims := []
  startIndexMap := [0]
  indexVectorDim := 1
  sliceSizes := ![1, 7]
  wf := gather_S80000x7_S1000000x1_S1000000x7_1_0_n_n_0_1_17_wf
def scatter_S80000x7_S1000000x1_S1000000x7_1_0_0_1 : ScatterDims S80000x7 S1000000x1 S1000000x7 where
  updateWindowDims := [1]
  insertedWindowDims := [0]
  scatterDimsToOperandDims := [0]
  indexVectorDim := 1
  wf := scatter_S80000x7_S1000000x1_S1000000x7_1_0_0_1_wf
def gather_S20000x7_S300000x1_S300000x7_1_0_n_n_0_1_17 : GatherDims S20000x7 S300000x1 S300000x7 where
  offsetDims := [1]
  collapsedSliceDims := [0]
  operandBatchingDims := []
  startIndicesBatchingDims := []
  startIndexMap := [0]
  indexVectorDim := 1
  sliceSizes := ![1, 7]
  wf := gather_S20000x7_S300000x1_S300000x7_1_0_n_n_0_1_17_wf
def scatter_S80000x7_S300000x1_S300000x7_1_0_0_1 : ScatterDims S80000x7 S300000x1 S300000x7 where
  updateWindowDims := [1]
  insertedWindowDims := [0]
  scatterDimsToOperandDims := [0]
  indexVectorDim := 1
  wf := scatter_S80000x7_S300000x1_S300000x7_1_0_0_1_wf
def gather_S80000x7_S300000x1_S300000x7_1_0_n_n_0_1_17 : GatherDims S80000x7 S300000x1 S300000x7 where
  offsetDims := [1]
  collapsedSliceDims := [0]
  operandBatchingDims := []
  startIndicesBatchingDims := []
  startIndexMap := [0]
  indexVectorDim := 1
  sliceSizes := ![1, 7]
  wf := gather_S80000x7_S300000x1_S300000x7_1_0_n_n_0_1_17_wf
def scatter_S20000x7_S300000x1_S300000x7_1_0_0_1 : ScatterDims S20000x7 S300000x1 S300000x7 where
  updateWindowDims := [1]
  insertedWindowDims := [0]
  scatterDimsToOperandDims := [0]
  indexVectorDim := 1
  wf := scatter_S20000x7_S300000x1_S300000x7_1_0_0_1_wf
def gather_S20000x7_S100000x1_S100000x7_1_0_n_n_0_1_17 : GatherDims S20000x7 S100000x1 S100000x7 where
  offsetDims := [1]
  collapsedSliceDims := [0]
  operandBatchingDims := []
  startIndicesBatchingDims := []
  startIndexMap := [0]
  indexVectorDim := 1
  sliceSizes := ![1, 7]
  wf := gather_S20000x7_S100000x1_S100000x7_1_0_n_n_0_1_17_wf
def scatter_S20000x7_S100000x1_S100000x7_1_0_0_1 : ScatterDims S20000x7 S100000x1 S100000x7 where
  updateWindowDims := [1]
  insertedWindowDims := [0]
  scatterDimsToOperandDims := [0]
  indexVectorDim := 1
  wf := scatter_S20000x7_S100000x1_S100000x7_1_0_0_1_wf
def dot_S80000x7_S7x128_S80000x128_1_0_0_1_n_n : DotDims S80000x7 S7x128 S80000x128 where
  lhsContracting := [1]
  rhsContracting := [0]
  lhsNonContracting := [0]
  rhsNonContracting := [1]
  lhsBatch := []
  rhsBatch := []
  wf := dot_S80000x7_S7x128_S80000x128_1_0_0_1_n_n_wf
def dot_S80000x128_S128x128_S80000x128_1_0_0_1_n_n : DotDims S80000x128 S128x128 S80000x128 where
  lhsContracting := [1]
  rhsContracting := [0]
  lhsNonContracting := [0]
  rhsNonContracting := [1]
  lhsBatch := []
  rhsBatch := []
  wf := dot_S80000x128_S128x128_S80000x128_1_0_0_1_n_n_wf
def dot_S20000x7_S7x128_S20000x128_1_0_0_1_n_n : DotDims S20000x7 S7x128 S20000x128 where
  lhsContracting := [1]
  rhsContracting := [0]
  lhsNonContracting := [0]
  rhsNonContracting := [1]
  lhsBatch := []
  rhsBatch := []
  wf := dot_S20000x7_S7x128_S20000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S80000x128_S1000000x1_S1000000x128_1_0_n_n_0_1_1128 : GatherDims S80000x128 S1000000x1 S1000000x128 where
  offsetDims := [1]
  collapsedSliceDims := [0]
  operandBatchingDims := []
  startIndicesBatchingDims := []
  startIndexMap := [0]
  indexVectorDim := 1
  sliceSizes := ![1, 128]
  wf := gather_S80000x128_S1000000x1_S1000000x128_1_0_n_n_0_1_1128_wf
def scatter_S80000x128_S1000000x1_S1000000x128_1_0_0_1 : ScatterDims S80000x128 S1000000x1 S1000000x128 where
  updateWindowDims := [1]
  insertedWindowDims := [0]
  scatterDimsToOperandDims := [0]
  indexVectorDim := 1
  wf := scatter_S80000x128_S1000000x1_S1000000x128_1_0_0_1_wf
def gather_S20000x128_S300000x1_S300000x128_1_0_n_n_0_1_1128 : GatherDims S20000x128 S300000x1 S300000x128 where
  offsetDims := [1]
  collapsedSliceDims := [0]
  operandBatchingDims := []
  startIndicesBatchingDims := []
  startIndexMap := [0]
  indexVectorDim := 1
  sliceSizes := ![1, 128]
  wf := gather_S20000x128_S300000x1_S300000x128_1_0_n_n_0_1_1128_wf
def scatter_S80000x128_S300000x1_S300000x128_1_0_0_1 : ScatterDims S80000x128 S300000x1 S300000x128 where
  updateWindowDims := [1]
  insertedWindowDims := [0]
  scatterDimsToOperandDims := [0]
  indexVectorDim := 1
  wf := scatter_S80000x128_S300000x1_S300000x128_1_0_0_1_wf
def gather_S80000x128_S300000x1_S300000x128_1_0_n_n_0_1_1128 : GatherDims S80000x128 S300000x1 S300000x128 where
  offsetDims := [1]
  collapsedSliceDims := [0]
  operandBatchingDims := []
  startIndicesBatchingDims := []
  startIndexMap := [0]
  indexVectorDim := 1
  sliceSizes := ![1, 128]
  wf := gather_S80000x128_S300000x1_S300000x128_1_0_n_n_0_1_1128_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf
def gather_S20000x128_S100000x1_S100000x128_1_0_n_n_0_1_1128 : GatherDims S20000x128 S100000x1 S100000x128 where
  offsetDims := [1]
  collapsedSliceDims := [0]
  operandBatchingDims := []
  startIndicesBatchingDims := []
  startIndexMap := [0]
  indexVectorDim := 1
  sliceSizes := ![1, 128]
  wf := gather_S20000x128_S100000x1_S100000x128_1_0_n_n_0_1_1128_wf
def scatter_S20000x128_S100000x1_S100000x128_1_0_0_1 : ScatterDims S20000x128 S100000x1 S100000x128 where
  updateWindowDims := [1]
  insertedWindowDims := [0]
  scatterDimsToOperandDims := [0]
  indexVectorDim := 1
  wf := scatter_S20000x128_S100000x1_S100000x128_1_0_0_1_wf

class Facts : Prop extends Facts₀ where

variable [Facts]
-- ==== Proof.KWrites.lean ====
import proofs.«116822_j38594576122568_1_alg».proof.Proof.Gen.KernelIdeal.Launch
import Idealize.ShloMosaic.Lib.StableHlo.Run

/-! For each stretch of host operations of the kernel program, the buffers it writes; a buffer outside that list keeps its
    contents across the stretch. -/

noncomputable section

namespace Cert.KernelIdeal.Thread

open Cert.KernelIdeal Cert.KernelIdeal.Gen Idealize.ShloMosaic Idealize.ShloMosaic.TcCoe Idealize.SL.Sem Idealize.ShloMosaic.StableHlo

variable {F : FTy → Type} [FloatOps F]

/-- An operation that writes exactly `y` writes inside any list of references that has `y`. -/
theorem wsub {y : Ref sig .tc} {W : List (Ref sig .tc)} (h : y ∈ W) :
    ({(Proc.devRef .tc y : DevRef τ sig)} : Finset (DevRef τ sig)) ⊆ (W.map (Proc.devRef (τ := τ) .tc)).toFinset :=
  Finset.singleton_subset_iff.mpr (List.mem_toFinset.mpr (List.mem_map_of_mem h))

abbrev kwrites2 : List (Ref sig .tc) := [main_v1, main_v2, main_c, main_v3, main_v4, main_c_0, main_v5, main_v6, main_v7, main_v8, main_v9, main_v10, main_v11, main_cst, main_v12, main_v13, main_v14, main_v15, main_v16, main_c_1, main_v17, main_v18, main_c_2, main_v19, main_v20, main_v21, main_v22, main_v23, main_v24, main_v25, main_cst_3, main_v26, main_v27, main_v28, main_v29, main_v30, main_c_4, main_v31, main_v32, main_c_5, main_v33, main_v34, main_v35, main_v36, main_v37, main_v38, main_v39, main_cst_6, main_v40, main_v41, main_v42, main_v43, main_v44, main_c_7, main_v45, main_v46, main_c_8, main_v47, main_v48, main_v49, main_v50, main_v51, main_v52, main_v53, main_cst_9, main_v54, main_v55, main_v56, main_v57, main_v58, main_v59, main_v60]
theorem kwrites2_sub : (hostOps1 : List (HloOp τ sig (Elt F))).Forall fun op => op.writes ⊆ ((kwrites2).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites4 : List (Ref sig .tc) := [main_v62, main_v63, main_v64, main_v65]
theorem kwrites4_sub : (hostOps2 : List (HloOp τ sig (Elt F))).Forall fun op => op.writes ⊆ ((kwrites4).map (Proc.devRef (τ := τ) .tc)).toFinset :=
  ⟨wsub (by decide), wsub (by decide), wsub (by decide), wsub (by decide)⟩

abbrev kwrites6 : List (Ref sig .tc) := [main_v67, main_v68, main_v69, main_v70]
theorem kwrites6_sub : (hostOps3 : List (HloOp τ sig (Elt F))).Forall fun op => op.writes ⊆ ((kwrites6).map (Proc.devRef (τ := τ) .tc)).toFinset :=
  ⟨wsub (by decide), wsub (by decide), wsub (by decide), wsub (by decide)⟩

abbrev kwrites8 : List (Ref sig .tc) := [main_v72, main_v73, main_v74, main_v75]
theorem kwrites8_sub : (hostOps4 : List (HloOp τ sig (Elt F))).Forall fun op => op.writes ⊆ ((kwrites8).map (Proc.devRef (τ := τ) .tc)).toFinset :=
  ⟨wsub (by decide), wsub (by decide), wsub (by decide), wsub (by decide)⟩

abbrev kwrites10 : List (Ref sig .tc) := [main_cst_10, main_v77, main_cst_11, main_v78, main_v79, main_c_12]
theorem kwrites10_sub : (hostOps5 : List (HloOp τ sig (Elt F))).Forall fun op => op.writes ⊆ ((kwrites10).map (Proc.devRef (τ := τ) .tc)).toFinset :=
  ⟨wsub (by decide), wsub (by decide), wsub (by decide), wsub (by decide), wsub (by decide), wsub (by decide)⟩

abbrev kwrites11 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v80]
theorem kwrites11_sub : (hostOps5_1 : List (HloOp τ sig (Elt F))).Forall fun op => op.writes ⊆ ((kwrites11).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites12 : List (Ref sig .tc) := [main_cst_13, main_v81, main_cst_14, main_v82, main_v83, main_c_15]
theorem kwrites12_sub : (hostOps5_2 : List (HloOp τ sig (Elt F))).Forall fun op => op.writes ⊆ ((kwrites12).map (Proc.devRef (τ := τ) .tc)).toFinset :=
  ⟨wsub (by decide), wsub (by decide), wsub (by decide), wsub (by decide), wsub (by decide), wsub (by decide)⟩

abbrev kwrites13 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v84]
theorem kwrites13_sub : (hostOps5_3 : List (HloOp τ sig (Elt F))).Forall fun op => op.writes ⊆ ((kwrites13).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites14 : List (Ref sig .tc) := [main_cst_16, main_v85, main_cst_17, main_v86, main_v87, main_c_18]
theorem kwrites14_sub : (hostOps5_4 : List (HloOp τ sig (Elt F))).Forall fun op => op.writes ⊆ ((kwrites14).map (Proc.devRef (τ := τ) .tc)).toFinset :=
  ⟨wsub (by decide), wsub (by decide), wsub (by decide), wsub (by decide), wsub (by decide), wsub (by decide)⟩

abbrev kwrites15 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v88]
theorem kwrites15_sub : (hostOps5_5 : List (HloOp τ sig (Elt F))).Forall fun op => op.writes ⊆ ((kwrites15).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites16 : List (Ref sig .tc) := [main_cst_19, main_v89, main_cst_20, main_v90, main_v91, main_c_21]
theorem kwrites16_sub : (hostOps5_6 : List (HloOp τ sig (Elt F))).Forall fun op => op.writes ⊆ ((kwrites16).map (Proc.devRef (τ := τ) .tc)).toFinset :=
  ⟨wsub (by decide), wsub (by decide), wsub (by decide), wsub (by decide), wsub (by decide), wsub (by decide)⟩

abbrev kwrites17 : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v92]
theorem kwrites17_sub : (hostOps5_7 : List (HloOp τ sig (Elt F))).Forall fun op => op.writes ⊆ ((kwrites17).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites18 : List (Ref sig .tc) := [main_v93, main_v94, main_v95, main_v96, main_v97, main_v98, main_v99, main_v100, main_v101, main_v102, main_v103, main_v104, main_v105, main_v106, main_v107, main_v108]
theorem kwrites18_sub : (hostOps5_8 : List (HloOp τ sig (Elt F))).Forall fun op => op.writes ⊆ ((kwrites18).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites20 : List (Ref sig .tc) := [main_v110, main_v111, main_v112, main_v113, main_v114, main_v115, main_v116, main_v117, main_v118, main_v119, main_v120, main_v121, main_v122, main_v123, main_v124, main_v125]
theorem kwrites20_sub : (hostOps6 : List (HloOp τ sig (Elt F))).Forall fun op => op.writes ⊆ ((kwrites20).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites22 : List (Ref sig .tc) := [main_v127, main_v128, main_v129, main_v130, main_v131, main_v132, main_v133, main_v134, main_v135, main_v136, main_v137, main_v138, main_v139, main_v140, main_c_22, main_v141, main_v142, main_c_23, main_v143, main_v144, main_v145, main_v146, main_v147, main_v148, main_v149, main_cst_24, main_v150, main_v151, main_v152, main_v153, main_v154, main_c_25, main_v155, main_v156, main_c_26, main_v157, main_v158, main_v159, main_v160, main_v161, main_v162, main_v163, main_cst_27, main_v164, main_v165, main_v166, main_v167, main_v168, main_c_28, main_v169, main_v170, main_c_29, main_v171, main_v172, main_v173, main_v174, main_v175, main_v176, main_v177, main_cst_30, main_v178, main_v179, main_v180, main_v181, main_v182, main_c_31, main_v183, main_v184, main_c_32, main_v185, main_v186, main_v187, main_v188, main_v189, main_v190, main_v191, main_cst_33, main_v192, main_v193, main_v194, main_v195, main_v196, main_v197, main_v198]
theorem kwrites22_sub : (hostOps7 : List (HloOp τ sig (Elt F))).Forall fun op => op.writes ⊆ ((kwrites22).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites24 : List (Ref sig .tc) := [main_v200, main_v201, main_v202, main_v203]
theorem kwrites24_sub : (hostOps8 : List (HloOp τ sig (Elt F))).Forall fun op => op.writes ⊆ ((kwrites24).map (Proc.devRef (τ := τ) .tc)).toFinset :=
  ⟨wsub (by decide), wsub (by decide), wsub (by decide), wsub (by decide)⟩

abbrev kwrites26 : List (Ref sig .tc) := [main_v205, main_v206, main_v207, main_v208]
theorem kwrites26_sub : (hostOps9 : List (HloOp τ sig (Elt F))).Forall fun op => op.writes ⊆ ((kwrites26).map (Proc.devRef (τ := τ) .tc)).toFinset :=
  ⟨wsub (by decide), wsub (by decide), wsub (by decide), wsub (by decide)⟩

abbrev kwrites28 : List (Ref sig .tc) := [main_v210, main_v211, main_v212, main_v213]
theorem kwrites28_sub : (hostOps10 : List (HloOp τ sig (Elt F))).Forall fun op => op.writes ⊆ ((kwrites28).map (Proc.devRef (τ := τ) .tc)).toFinset :=
  ⟨wsub (by decide), wsub (by decide), wsub (by decide), wsub (by decide)⟩

abbrev kwrites30 : List (Ref sig .tc) := [main_cst_34, main_v215, main_cst_35, main_v216, main_v217, main_c_36]
theorem kwrites30_sub : (hostOps11 : List (HloOp τ sig (Elt F))).Forall fun op => op.writes ⊆ ((kwrites30).map (Proc.devRef (τ := τ) .tc)).toFinset :=
  ⟨wsub (by decide), wsub (by decide), wsub (by decide), wsub (by decide), wsub (by decide), wsub (by decide)⟩

abbrev kwrites31 : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v218]
theorem kwrites31_sub : (hostOps11_1 : List (HloOp τ sig (Elt F))).Forall fun op => op.writes ⊆ ((kwrites31).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites32 : List (Ref sig .tc) := [main_cst_37, main_v219, main_cst_38, main_v220, main_v221, main_c_39]
theorem kwrites32_sub : (hostOps11_2 : List (HloOp τ sig (Elt F))).Forall fun op => op.writes ⊆ ((kwrites32).map (Proc.devRef (τ := τ) .tc)).toFinset :=
  ⟨wsub (by decide), wsub (by decide), wsub (by decide), wsub (by decide), wsub (by decide), wsub (by decide)⟩

abbrev kwrites33 : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v222]
theorem kwrites33_sub : (hostOps11_3 : List (HloOp τ sig (Elt F))).Forall fun op => op.writes ⊆ ((kwrites33).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites34 : List (Ref sig .tc) := [main_cst_40, main_v223, main_cst_41, main_v224, main_v225, main_c_42]
theorem kwrites34_sub : (hostOps11_4 : List (HloOp τ sig (Elt F))).Forall fun op => op.writes ⊆ ((kwrites34).map (Proc.devRef (τ := τ) .tc)).toFinset :=
  ⟨wsub (by decide), wsub (by decide), wsub (by decide), wsub (by decide), wsub (by decide), wsub (by decide)⟩

abbrev kwrites35 : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v226]
theorem kwrites35_sub : (hostOps11_5 : List (HloOp τ sig (Elt F))).Forall fun op => op.writes ⊆ ((kwrites35).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites36 : List (Ref sig .tc) := [main_cst_43, main_v227, main_cst_44, main_v228, main_v229, main_c_45]
theorem kwrites36_sub : (hostOps11_6 : List (HloOp τ sig (Elt F))).Forall fun op => op.writes ⊆ ((kwrites36).map (Proc.devRef (τ := τ) .tc)).toFinset :=
  ⟨wsub (by decide), wsub (by decide), wsub (by decide), wsub (by decide), wsub (by decide), wsub (by decide)⟩

abbrev kwrites37 : List (Ref sig .tc) := [main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v230]
theorem kwrites37_sub : (hostOps11_7 : List (HloOp τ sig (Elt F))).Forall fun op => op.writes ⊆ ((kwrites37).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites38 : List (Ref sig .tc) := [main_v231, main_v232, main_v233, main_v234, main_v235, main_v236, main_v237, main_v238, main_v239, main_v240, main_v241, main_v242, main_v243, main_v244, main_v245, main_v246]
theorem kwrites38_sub : (hostOps11_8 : List (HloOp τ sig (Elt F))).Forall fun op => op.writes ⊆ ((kwrites38).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites40 : List (Ref sig .tc) := [main_v248, main_v249, main_v250, main_v251, main_v252, main_v253, main_v254, main_v255, main_v256, main_v257, main_v258, main_v259, main_v260, main_v261, main_v262, main_v263]
theorem kwrites40_sub : (hostOps12 : List (HloOp τ sig (Elt F))).Forall fun op => op.writes ⊆ ((kwrites40).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites42 : List (Ref sig .tc) := [main_v265, main_v266, main_v267, main_v268, main_v269, main_v270, main_v271, main_v272, main_v273, main_v274, main_v275, main_v276, main_v277, main_v278, main_c_46, main_v279, main_v280, main_c_47, main_v281, main_v282, main_v283, main_v284, main_v285, main_v286, main_v287, main_cst_48, main_v288, main_v289, main_v290, main_v291, main_v292, main_c_49, main_v293, main_v294, main_c_50, main_v295, main_v296, main_v297, main_v298, main_v299, main_v300, main_v301, main_cst_51, main_v302, main_v303, main_v304, main_v305, main_v306, main_c_52, main_v307, main_v308, main_c_53, main_v309, main_v310, main_v311, main_v312, main_v313, main_v314, main_v315, main_cst_54, main_v316, main_v317, main_v318, main_v319, main_v320, main_c_55, main_v321, main_v322, main_c_56, main_v323, main_v324, main_v325, main_v326, main_v327, main_v328, main_v329, main_cst_57, main_v330, main_v331, main_v332, main_v333, main_v334, main_v335, main_v336]
theorem kwrites42_sub : (hostOps13 : List (HloOp τ sig (Elt F))).Forall fun op => op.writes ⊆ ((kwrites42).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites44 : List (Ref sig .tc) := [main_v338, main_v339, main_v340, main_v341]
theorem kwrites44_sub : (hostOps14 : List (HloOp τ sig (Elt F))).Forall fun op => op.writes ⊆ ((kwrites44).map (Proc.devRef (τ := τ) .tc)).toFinset :=
  ⟨wsub (by decide), wsub (by decide), wsub (by decide), wsub (by decide)⟩

abbrev kwrites46 : List (Ref sig .tc) := [main_v343, main_v344, main_v345, main_v346]
theorem kwrites46_sub : (hostOps15 : List (HloOp τ sig (Elt F))).Forall fun op => op.writes ⊆ ((kwrites46).map (Proc.devRef (τ := τ) .tc)).toFinset :=
  ⟨wsub (by decide), wsub (by decide), wsub (by decide), wsub (by decide)⟩

abbrev kwrites48 : List (Ref sig .tc) := [main_v348, main_v349, main_v350, main_v351]
theorem kwrites48_sub : (hostOps16 : List (HloOp τ sig (Elt F))).Forall fun op => op.writes ⊆ ((kwrites48).map (Proc.devRef (τ := τ) .tc)).toFinset :=
  ⟨wsub (by decide), wsub (by decide), wsub (by decide), wsub (by decide)⟩

abbrev kwrites50 : List (Ref sig .tc) := [main_cst_58, main_v353, main_cst_59, main_v354, main_v355, main_c_60]
theorem kwrites50_sub : (hostOps17 : List (HloOp τ sig (Elt F))).Forall fun op => op.writes ⊆ ((kwrites50).map (Proc.devRef (τ := τ) .tc)).toFinset :=
  ⟨wsub (by decide), wsub (by decide), wsub (by decide), wsub (by decide), wsub (by decide), wsub (by decide)⟩

abbrev kwrites51 : List (Ref sig .tc) := [main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v356]
theorem kwrites51_sub : (hostOps17_1 : List (HloOp τ sig (Elt F))).Forall fun op => op.writes ⊆ ((kwrites51).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites52 : List (Ref sig .tc) := [main_cst_61, main_v357, main_cst_62, main_v358, main_v359, main_c_63]
theorem kwrites52_sub : (hostOps17_2 : List (HloOp τ sig (Elt F))).Forall fun op => op.writes ⊆ ((kwrites52).map (Proc.devRef (τ := τ) .tc)).toFinset :=
  ⟨wsub (by decide), wsub (by decide), wsub (by decide), wsub (by decide), wsub (by decide), wsub (by decide)⟩

abbrev kwrites53 : List (Ref sig .tc) := [main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v360]
theorem kwrites53_sub : (hostOps17_3 : List (HloOp τ sig (Elt F))).Forall fun op => op.writes ⊆ ((kwrites53).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites54 : List (Ref sig .tc) := [main_cst_64, main_v361, main_cst_65, main_v362, main_v363, main_c_66]
theorem kwrites54_sub : (hostOps17_4 : List (HloOp τ sig (Elt F))).Forall fun op => op.writes ⊆ ((kwrites54).map (Proc.devRef (τ := τ) .tc)).toFinset :=
  ⟨wsub (by decide), wsub (by decide), wsub (by decide), wsub (by decide), wsub (by decide), wsub (by decide)⟩

abbrev kwrites55 : List (Ref sig .tc) := [main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v364]
theorem kwrites55_sub : (hostOps17_5 : List (HloOp τ sig (Elt F))).Forall fun op => op.writes ⊆ ((kwrites55).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites56 : List (Ref sig .tc) := [main_cst_67, main_v365, main_cst_68, main_v366, main_v367, main_c_69]
theorem kwrites56_sub : (hostOps17_6 : List (HloOp τ sig (Elt F))).Forall fun op => op.writes ⊆ ((kwrites56).map (Proc.devRef (τ := τ) .tc)).toFinset :=
  ⟨wsub (by decide), wsub (by decide), wsub (by decide), wsub (by decide), wsub (by decide), wsub (by decide)⟩

abbrev kwrites57 : List (Ref sig .tc) := [main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v368]
theorem kwrites57_sub : (hostOps17_7 : List (HloOp τ sig (Elt F))).Forall fun op => op.writes ⊆ ((kwrites57).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites58 : List (Ref sig .tc) := [main_v369, main_v370, main_v371, main_v372, main_v373, main_v374, main_v375, main_v376, main_v377, main_v378, main_v379, main_v380, main_v381, main_v382, main_v383, main_v384]
theorem kwrites58_sub : (hostOps17_8 : List (HloOp τ sig (Elt F))).Forall fun op => op.writes ⊆ ((kwrites58).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

abbrev kwrites60 : List (Ref sig .tc) := [main_v386, main_v387, main_v388, main_v389, main_v390, main_v391, main_v392, main_v393, main_v394, main_v395, main_v396, main_v397, main_v398, main_v399, main_v400, main_v401]
theorem kwrites60_sub : (hostOps18 : List (HloOp τ sig (Elt F))).Forall fun op => op.writes ⊆ ((kwrites60).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

end Cert.KernelIdeal.Thread

end
-- ==== Proof.KPlain.lean ====
import proofs.«116822_j38594576122568_1_alg».proof.Proof.Gen.KernelIdeal.Launch
import Idealize.ShloMosaic.Lib.StableHlo.Run

/-! The host stretches of the kernel program that hold an outlined function's operations (the column variance), each
    restated as a list of operations over the buffers themselves: the same list, the typed references being those buffers
    at their own types. The run is read through the restated lists. -/

noncomputable section

namespace Cert.KernelIdeal.Thread

open Cert.KernelIdeal Cert.KernelIdeal.Gen Idealize.ShloMosaic Idealize.ShloMosaic.TcCoe Idealize.SL.Sem Idealize.ShloMosaic.StableHlo

variable {F : FTy → Type} [FloatOps F]

/-- The stretch hostOps5_1 with each operation of an outlined function stated over its buffers directly. -/
abbrev plain11 : List (HloOp τ sig (Elt F)) :=
  [ StableHlo.nullary main_call0_cst ((constant S_ .f32 0x00000000#32) : (⟨S_, .f32⟩ : BufTy).Contents (Elt F)),
    StableHlo.binary main_v61 main_call0_cst main_call0_v0 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call0_v0 main_call0_v1 ((broadcastInDim S1x128 ![1] bcast_S128_S1x128_1) : (⟨S128, .f32⟩ : BufTy).Contents (Elt F) → (⟨S1x128, .f32⟩ : BufTy).Contents (Elt F)),
    StableHlo.nullary main_call0_cst_0 ((constant S_ .f32 0x479C4000#32) : (⟨S_, .f32⟩ : BufTy).Contents (Elt F)),
    StableHlo.unary main_call0_cst_0 main_call0_v2 ((broadcastInDim S1x128 ![] bcast_S_S1x128) : (⟨S_, .f32⟩ : BufTy).Contents (Elt F) → (⟨S1x128, .f32⟩ : BufTy).Contents (Elt F)),
    StableHlo.binary main_call0_v1 main_call0_v2 main_call0_v3 (Host.divf : (⟨S1x128, .f32⟩ : BufTy).Contents (Elt F) → (⟨S1x128, .f32⟩ : BufTy).Contents (Elt F) → (⟨S1x128, .f32⟩ : BufTy).Contents (Elt F)),
    StableHlo.unary main_call0_v3 main_call0_v4 ((broadcastInDim S80000x128 ![0, 1] bcast_S1x128_S80000x128_0_1) : (⟨S1x128, .f32⟩ : BufTy).Contents (Elt F) → (⟨S80000x128, .f32⟩ : BufTy).Contents (Elt F)),
    StableHlo.binary main_v61 main_call0_v4 main_call0_v5 (subf : (⟨S80000x128, .f32⟩ : BufTy).Contents (Elt F) → (⟨S80000x128, .f32⟩ : BufTy).Contents (Elt F) → (⟨S80000x128, .f32⟩ : BufTy).Contents (Elt F)),
    StableHlo.binary main_call0_v5 main_call0_v5 main_call0_v6 (mulf : (⟨S80000x128, .f32⟩ : BufTy).Contents (Elt F) → (⟨S80000x128, .f32⟩ : BufTy).Contents (Elt F) → (⟨S80000x128, .f32⟩ : BufTy).Contents (Elt F)),
    StableHlo.unary main_c_12 main_call0_v7 ((sitofp .f32) : (⟨S_, .i32⟩ : BufTy).Contents (Elt F) → (⟨S_, .f32⟩ : BufTy).Contents (Elt F)),
    StableHlo.nullary main_call0_cst_1 ((constant S_ .f32 0x479C4000#32) : (⟨S_, .f32⟩ : BufTy).Contents (Elt F)),
    StableHlo.binary main_call0_cst_1 main_call0_v7 main_call0_v8 (subf : (⟨S_, .f32⟩ : BufTy).Contents (Elt F) → (⟨S_, .f32⟩ : BufTy).Contents (Elt F) → (⟨S_, .f32⟩ : BufTy).Contents (Elt F)),
    StableHlo.nullary main_call0_cst_2 ((constant S_ .f32 0x00000000#32) : (⟨S_, .f32⟩ : BufTy).Contents (Elt F)),
    StableHlo.binary main_call0_v6 main_call0_cst_2 main_call0_v9 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call0_v8 main_call0_v10 ((broadcastInDim S128 ![] bcast_S_S128) : (⟨S_, .f32⟩ : BufTy).Contents (Elt F) → (⟨S128, .f32⟩ : BufTy).Contents (Elt F)),
    StableHlo.binary main_call0_v9 main_call0_v10 main_call0_v11 (Host.divf : (⟨S128, .f32⟩ : BufTy).Contents (Elt F) → (⟨S128, .f32⟩ : BufTy).Contents (Elt F) → (⟨S128, .f32⟩ : BufTy).Contents (Elt F)),
    StableHlo.nullary main_call0_cst_3 ((constant S_ .f32 0x00000000#32) : (⟨S_, .f32⟩ : BufTy).Contents (Elt F)),
    StableHlo.binary main_call0_v8 main_call0_cst_3 main_call0_v12 ((cmpf .ogt) : (⟨S_, .f32⟩ : BufTy).Contents (Elt F) → (⟨S_, .f32⟩ : BufTy).Contents (Elt F) → (⟨S_, .i1⟩ : BufTy).Contents (Elt F)),
    StableHlo.nullary main_call0_cst_4 ((constant S_ .f32 0x7FC00000#32) : (⟨S_, .f32⟩ : BufTy).Contents (Elt F)),
    StableHlo.unary main_call0_cst_4 main_call0_call0_v0 (id : (⟨S_, .f32⟩ : BufTy).Contents (Elt F) → (⟨S_, .f32⟩ : BufTy).Contents (Elt F)),
    StableHlo.unary main_call0_call0_v0 main_call0_call0_v1 ((broadcastInDim S128 ![] bcast_S_S128) : (⟨S_, .f32⟩ : BufTy).Contents (Elt F) → (⟨S128, .f32⟩ : BufTy).Contents (Elt F)),
    StableHlo.ternary main_call0_v12 main_call0_v11 main_call0_call0_v1 main_v80 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- The outlined functions' typed references are these buffers at their own types, so the two lists are one. -/
theorem hostOps5_1_plain : (hostOps5_1 : List (HloOp τ sig (Elt F))) = plain11 := rfl

/-- The stretch hostOps5_3 with each operation of an outlined function stated over its buffers directly. -/
abbrev plain13 : List (HloOp τ sig (Elt F)) :=
  [ StableHlo.nullary main_call1_cst ((constant S_ .f32 0x00000000#32) : (⟨S_, .f32⟩ : BufTy).Contents (Elt F)),
    StableHlo.binary main_v66 main_call1_cst main_call1_v0 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call1_v0 main_call1_v1 ((broadcastInDim S1x128 ![1] bcast_S128_S1x128_1) : (⟨S128, .f32⟩ : BufTy).Contents (Elt F) → (⟨S1x128, .f32⟩ : BufTy).Contents (Elt F)),
    StableHlo.nullary main_call1_cst_0 ((constant S_ .f32 0x479C4000#32) : (⟨S_, .f32⟩ : BufTy).Contents (Elt F)),
    StableHlo.unary main_call1_cst_0 main_call1_v2 ((broadcastInDim S1x128 ![] bcast_S_S1x128) : (⟨S_, .f32⟩ : BufTy).Contents (Elt F) → (⟨S1x128, .f32⟩ : BufTy).Contents (Elt F)),
    StableHlo.binary main_call1_v1 main_call1_v2 main_call1_v3 (Host.divf : (⟨S1x128, .f32⟩ : BufTy).Contents (Elt F) → (⟨S1x128, .f32⟩ : BufTy).Contents (Elt F) → (⟨S1x128, .f32⟩ : BufTy).Contents (Elt F)),
    StableHlo.unary main_call1_v3 main_call1_v4 ((broadcastInDim S80000x128 ![0, 1] bcast_S1x128_S80000x128_0_1) : (⟨S1x128, .f32⟩ : BufTy).Contents (Elt F) → (⟨S80000x128, .f32⟩ : BufTy).Contents (Elt F)),
    StableHlo.binary main_v66 main_call1_v4 main_call1_v5 (subf : (⟨S80000x128, .f32⟩ : BufTy).Contents (Elt F) → (⟨S80000x128, .f32⟩ : BufTy).Contents (Elt F) → (⟨S80000x128, .f32⟩ : BufTy).Contents (Elt F)),
    StableHlo.binary main_call1_v5 main_call1_v5 main_call1_v6 (mulf : (⟨S80000x128, .f32⟩ : BufTy).Contents (Elt F) → (⟨S80000x128, .f32⟩ : BufTy).Contents (Elt F) → (⟨S80000x128, .f32⟩ : BufTy).Contents (Elt F)),
    StableHlo.unary main_c_15 main_call1_v7 ((sitofp .f32) : (⟨S_, .i32⟩ : BufTy).Contents (Elt F) → (⟨S_, .f32⟩ : BufTy).Contents (Elt F)),
    StableHlo.nullary main_call1_cst_1 ((constant S_ .f32 0x479C4000#32) : (⟨S_, .f32⟩ : BufTy).Contents (Elt F)),
    StableHlo.binary main_call1_cst_1 main_call1_v7 main_call1_v8 (subf : (⟨S_, .f32⟩ : BufTy).Contents (Elt F) → (⟨S_, .f32⟩ : BufTy).Contents (Elt F) → (⟨S_, .f32⟩ : BufTy).Contents (Elt F)),
    StableHlo.nullary main_call1_cst_2 ((constant S_ .f32 0x00000000#32) : (⟨S_, .f32⟩ : BufTy).Contents (Elt F)),
    StableHlo.binary main_call1_v6 main_call1_cst_2 main_call1_v9 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call1_v8 main_call1_v10 ((broadcastInDim S128 ![] bcast_S_S128) : (⟨S_, .f32⟩ : BufTy).Contents (Elt F) → (⟨S128, .f32⟩ : BufTy).Contents (Elt F)),
    StableHlo.binary main_call1_v9 main_call1_v10 main_call1_v11 (Host.divf : (⟨S128, .f32⟩ : BufTy).Contents (Elt F) → (⟨S128, .f32⟩ : BufTy).Contents (Elt F) → (⟨S128, .f32⟩ : BufTy).Contents (Elt F)),
    StableHlo.nullary main_call1_cst_3 ((constant S_ .f32 0x00000000#32) : (⟨S_, .f32⟩ : BufTy).Contents (Elt F)),
    StableHlo.binary main_call1_v8 main_call1_cst_3 main_call1_v12 ((cmpf .ogt) : (⟨S_, .f32⟩ : BufTy).Contents (Elt F) → (⟨S_, .f32⟩ : BufTy).Contents (Elt F) → (⟨S_, .i1⟩ : BufTy).Contents (Elt F)),
    StableHlo.nullary main_call1_cst_4 ((constant S_ .f32 0x7FC00000#32) : (⟨S_, .f32⟩ : BufTy).Contents (Elt F)),
    StableHlo.unary main_call1_cst_4 main_call1_call0_v0 (id : (⟨S_, .f32⟩ : BufTy).Contents (Elt F) → (⟨S_, .f32⟩ : BufTy).Contents (Elt F)),
    StableHlo.unary main_call1_call0_v0 main_call1_call0_v1 ((broadcastInDim S128 ![] bcast_S_S128) : (⟨S_, .f32⟩ : BufTy).Contents (Elt F) → (⟨S128, .f32⟩ : BufTy).Contents (Elt F)),
    StableHlo.ternary main_call1_v12 main_call1_v11 main_call1_call0_v1 main_v84 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- The outlined functions' typed references are these buffers at their own types, so the two lists are one. -/
theorem hostOps5_3_plain : (hostOps5_3 : List (HloOp τ sig (Elt F))) = plain13 := rfl

/-- The stretch hostOps5_5 with each operation of an outlined function stated over its buffers directly. -/
abbrev plain15 : List (HloOp τ sig (Elt F)) :=
  [ StableHlo.nullary main_call2_cst ((constant S_ .f32 0x00000000#32) : (⟨S_, .f32⟩ : BufTy).Contents (Elt F)),
    StableHlo.binary main_v71 main_call2_cst main_call2_v0 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.unary main_call2_v0 main_call2_v1 ((broadcastInDim S1x128 ![1] bcast_S128_S1x128_1) : (⟨S128, .f32⟩ : BufTy).Contents (Elt F) → (⟨S1x128, .f32⟩ : BufTy).Contents (Elt F)),
    StableHlo.nullary main_call2_cst_0 ((constant S_ .f32 0x469C4000#32) : (⟨S_, .f32⟩ : BufTy).Contents (Elt F)),
    StableHlo.unary main_call2_cst_0 main_call2_v2 ((broadcastInDim S1x128 ![] bcast_S_S1x128) : (⟨S_, .f32⟩ : BufTy).Contents (Elt F) → (⟨S1x128, .f32⟩ : BufTy).Contents (Elt F)),
    StableHlo.binary main_call2_v1 main_call2_v2 main_call2_v3 (Host.divf : (⟨S1x128, .f32⟩ : BufTy).Contents (Elt F) → (⟨S1x128, .f32⟩ : BufTy).Contents (Elt F) → (⟨S1x128, .f32⟩ : BufTy).Contents (Elt F)),
    StableHlo.unary main_call2_v3 main_call2_v4 ((broadcastInDim S20000x128 ![0, 1] bcast_S1x128_S20000x128_0_1) : (⟨S1x128, .f32⟩ : BufTy).Contents (Elt F) → (⟨S20000x128, .f32⟩ : BufTy).Contents (Elt F)),
    StableHlo.binary main_v71 main_call2_v4 main_call2_v5 (subf : (⟨S20000x128, .f32⟩ : BufTy).Contents (Elt F) → (⟨S20000x128, .f32⟩ : BufTy).Contents (Elt F) → (⟨S20000x128, .f32⟩ : BufTy).Contents (Elt F)),
    StableHlo.binary main_call2_v5 main_call2_v5 main_call2_v6 (mulf : (⟨S20000x128, .f32⟩ : BufTy).Contents (Elt F) → (⟨S20000x128, .f32⟩ : BufTy).Contents (Elt F) → (⟨S20000x128, .f32⟩ : BufTy).Contents (Elt F)),
    StableHlo.unary main_c_18 main_call2_v7 ((sitofp .f32) : (⟨S_, .i32⟩ : BufTy).Contents (Elt F) → (⟨S_, .f32⟩ : BufTy).Contents (Elt F)),
    StableHlo.nullary main_call2_cst_1 ((constant S_ .f32 0x469C4000#32) : (⟨S_, .f32⟩ : BufTy).Contents (Elt F)),
    StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F)),
    StableHlo.nullary main_call2_cst_2 ((constant S_ .f32 0x00000000#32) : (⟨S_, .f32⟩ : BufTy).Contents (Elt F)),
    StableHlo.binary main_call2_v6 main_call2_cst_2 main_call2_v9 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.unary main_call2_v8 main_call2_v10 ((broadcastInDim S128 ![] bcast_S_S128) : (⟨S_, .f32⟩ : BufTy).Contents (Elt F) → (⟨S128, .f32⟩ : BufTy).Contents (Elt F)),
    StableHlo.binary main_call2_v9 main_call2_v10 main_call2_v11 (Host.divf : (⟨S128, .f32⟩ : BufTy).Contents (Elt F) → (⟨S128, .f32⟩ : BufTy).Contents (Elt F) → (⟨S128, .f32⟩ : BufTy).Contents (Elt F)),
    StableHlo.nullary main_call2_cst_3 ((constant S_ .f32 0x00000000#32) : (⟨S_, .f32⟩ : BufTy).Contents (Elt F)),
    StableHlo.binary main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)),
    StableHlo.nullary main_call2_cst_4 ((constant S_ .f32 0x7FC00000#32) : (⟨S_, .f32⟩ : BufTy).Contents (Elt F)),
    StableHlo.unary main_call2_cst_4 main_call2_call0_v0 (id : (⟨S_, .f32⟩ : BufTy).Contents (Elt F) → (⟨S_, .f32⟩ : BufTy).Contents (Elt F)),
    StableHlo.unary main_call2_call0_v0 main_call2_call0_v1 ((broadcastInDim S128 ![] bcast_S_S128) : (⟨S_, .f32⟩ : BufTy).Contents (Elt F) → (⟨S128, .f32⟩ : BufTy).Contents (Elt F)),
    StableHlo.ternary main_call2_v12 main_call2_v11 main_call2_call0_v1 main_v88 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- The outlined functions' typed references are these buffers at their own types, so the two lists are one. -/
theorem hostOps5_5_plain : (hostOps5_5 : List (HloOp τ sig (Elt F))) = plain15 := rfl

/-- The stretch hostOps5_7 with each operation of an outlined function stated over its buffers directly. -/
abbrev plain17 : List (HloOp τ sig (Elt F)) :=
  [ StableHlo.nullary main_call3_cst ((constant S_ .f32 0x00000000#32) : (⟨S_, .f32⟩ : BufTy).Contents (Elt F)),
    StableHlo.binary main_v76 main_call3_cst main_call3_v0 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.unary main_call3_v0 main_call3_v1 ((broadcastInDim S1x128 ![1] bcast_S128_S1x128_1) : (⟨S128, .f32⟩ : BufTy).Contents (Elt F) → (⟨S1x128, .f32⟩ : BufTy).Contents (Elt F)),
    StableHlo.nullary main_call3_cst_0 ((constant S_ .f32 0x469C4000#32) : (⟨S_, .f32⟩ : BufTy).Contents (Elt F)),
    StableHlo.unary main_call3_cst_0 main_call3_v2 ((broadcastInDim S1x128 ![] bcast_S_S1x128) : (⟨S_, .f32⟩ : BufTy).Contents (Elt F) → (⟨S1x128, .f32⟩ : BufTy).Contents (Elt F)),
    StableHlo.binary main_call3_v1 main_call3_v2 main_call3_v3 (Host.divf : (⟨S1x128, .f32⟩ : BufTy).Contents (Elt F) → (⟨S1x128, .f32⟩ : BufTy).Contents (Elt F) → (⟨S1x128, .f32⟩ : BufTy).Contents (Elt F)),
    StableHlo.unary main_call3_v3 main_call3_v4 ((broadcastInDim S20000x128 ![0, 1] bcast_S1x128_S20000x128_0_1) : (⟨S1x128, .f32⟩ : BufTy).Contents (Elt F) → (⟨S20000x128, .f32⟩ : BufTy).Contents (Elt F)),
    StableHlo.binary main_v76 main_call3_v4 main_call3_v5 (subf : (⟨S20000x128, .f32⟩ : BufTy).Contents (Elt F) → (⟨S20000x128, .f32⟩ : BufTy).Contents (Elt F) → (⟨S20000x128, .f32⟩ : BufTy).Contents (Elt F)),
    StableHlo.binary main_call3_v5 main_call3_v5 main_call3_v6 (mulf : (⟨S20000x128, .f32⟩ : BufTy).Contents (Elt F) → (⟨S20000x128, .f32⟩ : BufTy).Contents (Elt F) → (⟨S20000x128, .f32⟩ : BufTy).Contents (Elt F)),
    StableHlo.unary main_c_21 main_call3_v7 ((sitofp .f32) : (⟨S_, .i32⟩ : BufTy).Contents (Elt F) → (⟨S_, .f32⟩ : BufTy).Contents (Elt F)),
    StableHlo.nullary main_call3_cst_1 ((constant S_ .f32 0x469C4000#32) : (⟨S_, .f32⟩ : BufTy).Contents (Elt F)),
    StableHlo.binary main_call3_cst_1 main_call3_v7 main_call3_v8 (subf : (⟨S_, .f32⟩ : BufTy).Contents (Elt F) → (⟨S_, .f32⟩ : BufTy).Contents (Elt F) → (⟨S_, .f32⟩ : BufTy).Contents (Elt F)),
    StableHlo.nullary main_call3_cst_2 ((constant S_ .f32 0x00000000#32) : (⟨S_, .f32⟩ : BufTy).Contents (Elt F)),
    StableHlo.binary main_call3_v6 main_call3_cst_2 main_call3_v9 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.unary main_call3_v8 main_call3_v10 ((broadcastInDim S128 ![] bcast_S_S128) : (⟨S_, .f32⟩ : BufTy).Contents (Elt F) → (⟨S128, .f32⟩ : BufTy).Contents (Elt F)),
    StableHlo.binary main_call3_v9 main_call3_v10 main_call3_v11 (Host.divf : (⟨S128, .f32⟩ : BufTy).Contents (Elt F) → (⟨S128, .f32⟩ : BufTy).Contents (Elt F) → (⟨S128, .f32⟩ : BufTy).Contents (Elt F)),
    StableHlo.nullary main_call3_cst_3 ((constant S_ .f32 0x00000000#32) : (⟨S_, .f32⟩ : BufTy).Contents (Elt F)),
    StableHlo.binary main_call3_v8 main_call3_cst_3 main_call3_v12 ((cmpf .ogt) : (⟨S_, .f32⟩ : BufTy).Contents (Elt F) → (⟨S_, .f32⟩ : BufTy).Contents (Elt F) → (⟨S_, .i1⟩ : BufTy).Contents (Elt F)),
    StableHlo.nullary main_call3_cst_4 ((constant S_ .f32 0x7FC00000#32) : (⟨S_, .f32⟩ : BufTy).Contents (Elt F)),
    StableHlo.unary main_call3_cst_4 main_call3_call0_v0 (id : (⟨S_, .f32⟩ : BufTy).Contents (Elt F) → (⟨S_, .f32⟩ : BufTy).Contents (Elt F)),
    StableHlo.unary main_call3_call0_v0 main_call3_call0_v1 ((broadcastInDim S128 ![] bcast_S_S128) : (⟨S_, .f32⟩ : BufTy).Contents (Elt F) → (⟨S128, .f32⟩ : BufTy).Contents (Elt F)),
    StableHlo.ternary main_call3_v12 main_call3_v11 main_call3_call0_v1 main_v92 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- The outlined functions' typed references are these buffers at their own types, so the two lists are one. -/
theorem hostOps5_7_plain : (hostOps5_7 : List (HloOp τ sig (Elt F))) = plain17 := rfl

/-- The stretch hostOps11_1 with each operation of an outlined function stated over its buffers directly. -/
abbrev plain31 : List (HloOp τ sig (Elt F)) :=
  [ StableHlo.nullary main_call4_cst ((constant S_ .f32 0x00000000#32) : (⟨S_, .f32⟩ : BufTy).Contents (Elt F)),
    StableHlo.binary main_v199 main_call4_cst main_call4_v0 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call4_v0 main_call4_v1 ((broadcastInDim S1x128 ![1] bcast_S128_S1x128_1) : (⟨S128, .f32⟩ : BufTy).Contents (Elt F) → (⟨S1x128, .f32⟩ : BufTy).Contents (Elt F)),
    StableHlo.nullary main_call4_cst_0 ((constant S_ .f32 0x479C4000#32) : (⟨S_, .f32⟩ : BufTy).Contents (Elt F)),
    StableHlo.unary main_call4_cst_0 main_call4_v2 ((broadcastInDim S1x128 ![] bcast_S_S1x128) : (⟨S_, .f32⟩ : BufTy).Contents (Elt F) → (⟨S1x128, .f32⟩ : BufTy).Contents (Elt F)),
    StableHlo.binary main_call4_v1 main_call4_v2 main_call4_v3 (Host.divf : (⟨S1x128, .f32⟩ : BufTy).Contents (Elt F) → (⟨S1x128, .f32⟩ : BufTy).Contents (Elt F) → (⟨S1x128, .f32⟩ : BufTy).Contents (Elt F)),
    StableHlo.unary main_call4_v3 main_call4_v4 ((broadcastInDim S80000x128 ![0, 1] bcast_S1x128_S80000x128_0_1) : (⟨S1x128, .f32⟩ : BufTy).Contents (Elt F) → (⟨S80000x128, .f32⟩ : BufTy).Contents (Elt F)),
    StableHlo.binary main_v199 main_call4_v4 main_call4_v5 (subf : (⟨S80000x128, .f32⟩ : BufTy).Contents (Elt F) → (⟨S80000x128, .f32⟩ : BufTy).Contents (Elt F) → (⟨S80000x128, .f32⟩ : BufTy).Contents (Elt F)),
    StableHlo.binary main_call4_v5 main_call4_v5 main_call4_v6 (mulf : (⟨S80000x128, .f32⟩ : BufTy).Contents (Elt F) → (⟨S80000x128, .f32⟩ : BufTy).Contents (Elt F) → (⟨S80000x128, .f32⟩ : BufTy).Contents (Elt F)),
    StableHlo.unary main_c_36 main_call4_v7 ((sitofp .f32) : (⟨S_, .i32⟩ : BufTy).Contents (Elt F) → (⟨S_, .f32⟩ : BufTy).Contents (Elt F)),
    StableHlo.nullary main_call4_cst_1 ((constant S_ .f32 0x479C4000#32) : (⟨S_, .f32⟩ : BufTy).Contents (Elt F)),
    StableHlo.binary main_call4_cst_1 main_call4_v7 main_call4_v8 (subf : (⟨S_, .f32⟩ : BufTy).Contents (Elt F) → (⟨S_, .f32⟩ : BufTy).Contents (Elt F) → (⟨S_, .f32⟩ : BufTy).Contents (Elt F)),
    StableHlo.nullary main_call4_cst_2 ((constant S_ .f32 0x00000000#32) : (⟨S_, .f32⟩ : BufTy).Contents (Elt F)),
    StableHlo.binary main_call4_v6 main_call4_cst_2 main_call4_v9 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call4_v8 main_call4_v10 ((broadcastInDim S128 ![] bcast_S_S128) : (⟨S_, .f32⟩ : BufTy).Contents (Elt F) → (⟨S128, .f32⟩ : BufTy).Contents (Elt F)),
    StableHlo.binary main_call4_v9 main_call4_v10 main_call4_v11 (Host.divf : (⟨S128, .f32⟩ : BufTy).Contents (Elt F) → (⟨S128, .f32⟩ : BufTy).Contents (Elt F) → (⟨S128, .f32⟩ : BufTy).Contents (Elt F)),
    StableHlo.nullary main_call4_cst_3 ((constant S_ .f32 0x00000000#32) : (⟨S_, .f32⟩ : BufTy).Contents (Elt F)),
    StableHlo.binary main_call4_v8 main_call4_cst_3 main_call4_v12 ((cmpf .ogt) : (⟨S_, .f32⟩ : BufTy).Contents (Elt F) → (⟨S_, .f32⟩ : BufTy).Contents (Elt F) → (⟨S_, .i1⟩ : BufTy).Contents (Elt F)),
    StableHlo.nullary main_call4_cst_4 ((constant S_ .f32 0x7FC00000#32) : (⟨S_, .f32⟩ : BufTy).Contents (Elt F)),
    StableHlo.unary main_call4_cst_4 main_call4_call0_v0 (id : (⟨S_, .f32⟩ : BufTy).Contents (Elt F) → (⟨S_, .f32⟩ : BufTy).Contents (Elt F)),
    StableHlo.unary main_call4_call0_v0 main_call4_call0_v1 ((broadcastInDim S128 ![] bcast_S_S128) : (⟨S_, .f32⟩ : BufTy).Contents (Elt F) → (⟨S128, .f32⟩ : BufTy).Contents (Elt F)),
    StableHlo.ternary main_call4_v12 main_call4_v11 main_call4_call0_v1 main_v218 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- The outlined functions' typed references are these buffers at their own types, so the two lists are one. -/
theorem hostOps11_1_plain : (hostOps11_1 : List (HloOp τ sig (Elt F))) = plain31 := rfl

/-- The stretch hostOps11_3 with each operation of an outlined function stated over its buffers directly. -/
abbrev plain33 : List (HloOp τ sig (Elt F)) :=
  [ StableHlo.nullary main_call5_cst ((constant S_ .f32 0x00000000#32) : (⟨S_, .f32⟩ : BufTy).Contents (Elt F)),
    StableHlo.binary main_v204 main_call5_cst main_call5_v0 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call5_v0 main_call5_v1 ((broadcastInDim S1x128 ![1] bcast_S128_S1x128_1) : (⟨S128, .f32⟩ : BufTy).Contents (Elt F) → (⟨S1x128, .f32⟩ : BufTy).Contents (Elt F)),
    StableHlo.nullary main_call5_cst_0 ((constant S_ .f32 0x479C4000#32) : (⟨S_, .f32⟩ : BufTy).Contents (Elt F)),
    StableHlo.unary main_call5_cst_0 main_call5_v2 ((broadcastInDim S1x128 ![] bcast_S_S1x128) : (⟨S_, .f32⟩ : BufTy).Contents (Elt F) → (⟨S1x128, .f32⟩ : BufTy).Contents (Elt F)),
    StableHlo.binary main_call5_v1 main_call5_v2 main_call5_v3 (Host.divf : (⟨S1x128, .f32⟩ : BufTy).Contents (Elt F) → (⟨S1x128, .f32⟩ : BufTy).Contents (Elt F) → (⟨S1x128, .f32⟩ : BufTy).Contents (Elt F)),
    StableHlo.unary main_call5_v3 main_call5_v4 ((broadcastInDim S80000x128 ![0, 1] bcast_S1x128_S80000x128_0_1) : (⟨S1x128, .f32⟩ : BufTy).Contents (Elt F) → (⟨S80000x128, .f32⟩ : BufTy).Contents (Elt F)),
    StableHlo.binary main_v204 main_call5_v4 main_call5_v5 (subf : (⟨S80000x128, .f32⟩ : BufTy).Contents (Elt F) → (⟨S80000x128, .f32⟩ : BufTy).Contents (Elt F) → (⟨S80000x128, .f32⟩ : BufTy).Contents (Elt F)),
    StableHlo.binary main_call5_v5 main_call5_v5 main_call5_v6 (mulf : (⟨S80000x128, .f32⟩ : BufTy).Contents (Elt F) → (⟨S80000x128, .f32⟩ : BufTy).Contents (Elt F) → (⟨S80000x128, .f32⟩ : BufTy).Contents (Elt F)),
    StableHlo.unary main_c_39 main_call5_v7 ((sitofp .f32) : (⟨S_, .i32⟩ : BufTy).Contents (Elt F) → (⟨S_, .f32⟩ : BufTy).Contents (Elt F)),
    StableHlo.nullary main_call5_cst_1 ((constant S_ .f32 0x479C4000#32) : (⟨S_, .f32⟩ : BufTy).Contents (Elt F)),
    StableHlo.binary main_call5_cst_1 main_call5_v7 main_call5_v8 (subf : (⟨S_, .f32⟩ : BufTy).Contents (Elt F) → (⟨S_, .f32⟩ : BufTy).Contents (Elt F) → (⟨S_, .f32⟩ : BufTy).Contents (Elt F)),
    StableHlo.nullary main_call5_cst_2 ((constant S_ .f32 0x00000000#32) : (⟨S_, .f32⟩ : BufTy).Contents (Elt F)),
    StableHlo.binary main_call5_v6 main_call5_cst_2 main_call5_v9 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call5_v8 main_call5_v10 ((broadcastInDim S128 ![] bcast_S_S128) : (⟨S_, .f32⟩ : BufTy).Contents (Elt F) → (⟨S128, .f32⟩ : BufTy).Contents (Elt F)),
    StableHlo.binary main_call5_v9 main_call5_v10 main_call5_v11 (Host.divf : (⟨S128, .f32⟩ : BufTy).Contents (Elt F) → (⟨S128, .f32⟩ : BufTy).Contents (Elt F) → (⟨S128, .f32⟩ : BufTy).Contents (Elt F)),
    StableHlo.nullary main_call5_cst_3 ((constant S_ .f32 0x00000000#32) : (⟨S_, .f32⟩ : BufTy).Contents (Elt F)),
    StableHlo.binary main_call5_v8 main_call5_cst_3 main_call5_v12 ((cmpf .ogt) : (⟨S_, .f32⟩ : BufTy).Contents (Elt F) → (⟨S_, .f32⟩ : BufTy).Contents (Elt F) → (⟨S_, .i1⟩ : BufTy).Contents (Elt F)),
    StableHlo.nullary main_call5_cst_4 ((constant S_ .f32 0x7FC00000#32) : (⟨S_, .f32⟩ : BufTy).Contents (Elt F)),
    StableHlo.unary main_call5_cst_4 main_call5_call0_v0 (id : (⟨S_, .f32⟩ : BufTy).Contents (Elt F) → (⟨S_, .f32⟩ : BufTy).Contents (Elt F)),
    StableHlo.unary main_call5_call0_v0 main_call5_call0_v1 ((broadcastInDim S128 ![] bcast_S_S128) : (⟨S_, .f32⟩ : BufTy).Contents (Elt F) → (⟨S128, .f32⟩ : BufTy).Contents (Elt F)),
    StableHlo.ternary main_call5_v12 main_call5_v11 main_call5_call0_v1 main_v222 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- The outlined functions' typed references are these buffers at their own types, so the two lists are one. -/
theorem hostOps11_3_plain : (hostOps11_3 : List (HloOp τ sig (Elt F))) = plain33 := rfl

/-- The stretch hostOps11_5 with each operation of an outlined function stated over its buffers directly. -/
abbrev plain35 : List (HloOp τ sig (Elt F)) :=
  [ StableHlo.nullary main_call6_cst ((constant S_ .f32 0x00000000#32) : (⟨S_, .f32⟩ : BufTy).Contents (Elt F)),
    StableHlo.binary main_v209 main_call6_cst main_call6_v0 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.unary main_call6_v0 main_call6_v1 ((broadcastInDim S1x128 ![1] bcast_S128_S1x128_1) : (⟨S128, .f32⟩ : BufTy).Contents (Elt F) → (⟨S1x128, .f32⟩ : BufTy).Contents (Elt F)),
    StableHlo.nullary main_call6_cst_0 ((constant S_ .f32 0x469C4000#32) : (⟨S_, .f32⟩ : BufTy).Contents (Elt F)),
    StableHlo.unary main_call6_cst_0 main_call6_v2 ((broadcastInDim S1x128 ![] bcast_S_S1x128) : (⟨S_, .f32⟩ : BufTy).Contents (Elt F) → (⟨S1x128, .f32⟩ : BufTy).Contents (Elt F)),
    StableHlo.binary main_call6_v1 main_call6_v2 main_call6_v3 (Host.divf : (⟨S1x128, .f32⟩ : BufTy).Contents (Elt F) → (⟨S1x128, .f32⟩ : BufTy).Contents (Elt F) → (⟨S1x128, .f32⟩ : BufTy).Contents (Elt F)),
    StableHlo.unary main_call6_v3 main_call6_v4 ((broadcastInDim S20000x128 ![0, 1] bcast_S1x128_S20000x128_0_1) : (⟨S1x128, .f32⟩ : BufTy).Contents (Elt F) → (⟨S20000x128, .f32⟩ : BufTy).Contents (Elt F)),
    StableHlo.binary main_v209 main_call6_v4 main_call6_v5 (subf : (⟨S20000x128, .f32⟩ : BufTy).Contents (Elt F) → (⟨S20000x128, .f32⟩ : BufTy).Contents (Elt F) → (⟨S20000x128, .f32⟩ : BufTy).Contents (Elt F)),
    StableHlo.binary main_call6_v5 main_call6_v5 main_call6_v6 (mulf : (⟨S20000x128, .f32⟩ : BufTy).Contents (Elt F) → (⟨S20000x128, .f32⟩ : BufTy).Contents (Elt F) → (⟨S20000x128, .f32⟩ : BufTy).Contents (Elt F)),
    StableHlo.unary main_c_42 main_call6_v7 ((sitofp .f32) : (⟨S_, .i32⟩ : BufTy).Contents (Elt F) → (⟨S_, .f32⟩ : BufTy).Contents (Elt F)),
    StableHlo.nullary main_call6_cst_1 ((constant S_ .f32 0x469C4000#32) : (⟨S_, .f32⟩ : BufTy).Contents (Elt F)),
    StableHlo.binary main_call6_cst_1 main_call6_v7 main_call6_v8 (subf : (⟨S_, .f32⟩ : BufTy).Contents (Elt F) → (⟨S_, .f32⟩ : BufTy).Contents (Elt F) → (⟨S_, .f32⟩ : BufTy).Contents (Elt F)),
    StableHlo.nullary main_call6_cst_2 ((constant S_ .f32 0x00000000#32) : (⟨S_, .f32⟩ : BufTy).Contents (Elt F)),
    StableHlo.binary main_call6_v6 main_call6_cst_2 main_call6_v9 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.unary main_call6_v8 main_call6_v10 ((broadcastInDim S128 ![] bcast_S_S128) : (⟨S_, .f32⟩ : BufTy).Contents (Elt F) → (⟨S128, .f32⟩ : BufTy).Contents (Elt F)),
    StableHlo.binary main_call6_v9 main_call6_v10 main_call6_v11 (Host.divf : (⟨S128, .f32⟩ : BufTy).Contents (Elt F) → (⟨S128, .f32⟩ : BufTy).Contents (Elt F) → (⟨S128, .f32⟩ : BufTy).Contents (Elt F)),
    StableHlo.nullary main_call6_cst_3 ((constant S_ .f32 0x00000000#32) : (⟨S_, .f32⟩ : BufTy).Contents (Elt F)),
    StableHlo.binary main_call6_v8 main_call6_cst_3 main_call6_v12 ((cmpf .ogt) : (⟨S_, .f32⟩ : BufTy).Contents (Elt F) → (⟨S_, .f32⟩ : BufTy).Contents (Elt F) → (⟨S_, .i1⟩ : BufTy).Contents (Elt F)),
    StableHlo.nullary main_call6_cst_4 ((constant S_ .f32 0x7FC00000#32) : (⟨S_, .f32⟩ : BufTy).Contents (Elt F)),
    StableHlo.unary main_call6_cst_4 main_call6_call0_v0 (id : (⟨S_, .f32⟩ : BufTy).Contents (Elt F) → (⟨S_, .f32⟩ : BufTy).Contents (Elt F)),
    StableHlo.unary main_call6_call0_v0 main_call6_call0_v1 ((broadcastInDim S128 ![] bcast_S_S128) : (⟨S_, .f32⟩ : BufTy).Contents (Elt F) → (⟨S128, .f32⟩ : BufTy).Contents (Elt F)),
    StableHlo.ternary main_call6_v12 main_call6_v11 main_call6_call0_v1 main_v226 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- The outlined functions' typed references are these buffers at their own types, so the two lists are one. -/
theorem hostOps11_5_plain : (hostOps11_5 : List (HloOp τ sig (Elt F))) = plain35 := rfl

/-- The stretch hostOps11_7 with each operation of an outlined function stated over its buffers directly. -/
abbrev plain37 : List (HloOp τ sig (Elt F)) :=
  [ StableHlo.nullary main_call7_cst ((constant S_ .f32 0x00000000#32) : (⟨S_, .f32⟩ : BufTy).Contents (Elt F)),
    StableHlo.binary main_v214 main_call7_cst main_call7_v0 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.unary main_call7_v0 main_call7_v1 ((broadcastInDim S1x128 ![1] bcast_S128_S1x128_1) : (⟨S128, .f32⟩ : BufTy).Contents (Elt F) → (⟨S1x128, .f32⟩ : BufTy).Contents (Elt F)),
    StableHlo.nullary main_call7_cst_0 ((constant S_ .f32 0x469C4000#32) : (⟨S_, .f32⟩ : BufTy).Contents (Elt F)),
    StableHlo.unary main_call7_cst_0 main_call7_v2 ((broadcastInDim S1x128 ![] bcast_S_S1x128) : (⟨S_, .f32⟩ : BufTy).Contents (Elt F) → (⟨S1x128, .f32⟩ : BufTy).Contents (Elt F)),
    StableHlo.binary main_call7_v1 main_call7_v2 main_call7_v3 (Host.divf : (⟨S1x128, .f32⟩ : BufTy).Contents (Elt F) → (⟨S1x128, .f32⟩ : BufTy).Contents (Elt F) → (⟨S1x128, .f32⟩ : BufTy).Contents (Elt F)),
    StableHlo.unary main_call7_v3 main_call7_v4 ((broadcastInDim S20000x128 ![0, 1] bcast_S1x128_S20000x128_0_1) : (⟨S1x128, .f32⟩ : BufTy).Contents (Elt F) → (⟨S20000x128, .f32⟩ : BufTy).Contents (Elt F)),
    StableHlo.binary main_v214 main_call7_v4 main_call7_v5 (subf : (⟨S20000x128, .f32⟩ : BufTy).Contents (Elt F) → (⟨S20000x128, .f32⟩ : BufTy).Contents (Elt F) → (⟨S20000x128, .f32⟩ : BufTy).Contents (Elt F)),
    StableHlo.binary main_call7_v5 main_call7_v5 main_call7_v6 (mulf : (⟨S20000x128, .f32⟩ : BufTy).Contents (Elt F) → (⟨S20000x128, .f32⟩ : BufTy).Contents (Elt F) → (⟨S20000x128, .f32⟩ : BufTy).Contents (Elt F)),
    StableHlo.unary main_c_45 main_call7_v7 ((sitofp .f32) : (⟨S_, .i32⟩ : BufTy).Contents (Elt F) → (⟨S_, .f32⟩ : BufTy).Contents (Elt F)),
    StableHlo.nullary main_call7_cst_1 ((constant S_ .f32 0x469C4000#32) : (⟨S_, .f32⟩ : BufTy).Contents (Elt F)),
    StableHlo.binary main_call7_cst_1 main_call7_v7 main_call7_v8 (subf : (⟨S_, .f32⟩ : BufTy).Contents (Elt F) → (⟨S_, .f32⟩ : BufTy).Contents (Elt F) → (⟨S_, .f32⟩ : BufTy).Contents (Elt F)),
    StableHlo.nullary main_call7_cst_2 ((constant S_ .f32 0x00000000#32) : (⟨S_, .f32⟩ : BufTy).Contents (Elt F)),
    StableHlo.binary main_call7_v6 main_call7_cst_2 main_call7_v9 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.unary main_call7_v8 main_call7_v10 ((broadcastInDim S128 ![] bcast_S_S128) : (⟨S_, .f32⟩ : BufTy).Contents (Elt F) → (⟨S128, .f32⟩ : BufTy).Contents (Elt F)),
    StableHlo.binary main_call7_v9 main_call7_v10 main_call7_v11 (Host.divf : (⟨S128, .f32⟩ : BufTy).Contents (Elt F) → (⟨S128, .f32⟩ : BufTy).Contents (Elt F) → (⟨S128, .f32⟩ : BufTy).Contents (Elt F)),
    StableHlo.nullary main_call7_cst_3 ((constant S_ .f32 0x00000000#32) : (⟨S_, .f32⟩ : BufTy).Contents (Elt F)),
    StableHlo.binary main_call7_v8 main_call7_cst_3 main_call7_v12 ((cmpf .ogt) : (⟨S_, .f32⟩ : BufTy).Contents (Elt F) → (⟨S_, .f32⟩ : BufTy).Contents (Elt F) → (⟨S_, .i1⟩ : BufTy).Contents (Elt F)),
    StableHlo.nullary main_call7_cst_4 ((constant S_ .f32 0x7FC00000#32) : (⟨S_, .f32⟩ : BufTy).Contents (Elt F)),
    StableHlo.unary main_call7_cst_4 main_call7_call0_v0 (id : (⟨S_, .f32⟩ : BufTy).Contents (Elt F) → (⟨S_, .f32⟩ : BufTy).Contents (Elt F)),
    StableHlo.unary main_call7_call0_v0 main_call7_call0_v1 ((broadcastInDim S128 ![] bcast_S_S128) : (⟨S_, .f32⟩ : BufTy).Contents (Elt F) → (⟨S128, .f32⟩ : BufTy).Contents (Elt F)),
    StableHlo.ternary main_call7_v12 main_call7_v11 main_call7_call0_v1 main_v230 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- The outlined functions' typed references are these buffers at their own types, so the two lists are one. -/
theorem hostOps11_7_plain : (hostOps11_7 : List (HloOp τ sig (Elt F))) = plain37 := rfl

/-- The stretch hostOps17_1 with each operation of an outlined function stated over its buffers directly. -/
abbrev plain51 : List (HloOp τ sig (Elt F)) :=
  [ StableHlo.nullary main_call8_cst ((constant S_ .f32 0x00000000#32) : (⟨S_, .f32⟩ : BufTy).Contents (Elt F)),
    StableHlo.binary main_v337 main_call8_cst main_call8_v0 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call8_v0 main_call8_v1 ((broadcastInDim S1x128 ![1] bcast_S128_S1x128_1) : (⟨S128, .f32⟩ : BufTy).Contents (Elt F) → (⟨S1x128, .f32⟩ : BufTy).Contents (Elt F)),
    StableHlo.nullary main_call8_cst_0 ((constant S_ .f32 0x479C4000#32) : (⟨S_, .f32⟩ : BufTy).Contents (Elt F)),
    StableHlo.unary main_call8_cst_0 main_call8_v2 ((broadcastInDim S1x128 ![] bcast_S_S1x128) : (⟨S_, .f32⟩ : BufTy).Contents (Elt F) → (⟨S1x128, .f32⟩ : BufTy).Contents (Elt F)),
    StableHlo.binary main_call8_v1 main_call8_v2 main_call8_v3 (Host.divf : (⟨S1x128, .f32⟩ : BufTy).Contents (Elt F) → (⟨S1x128, .f32⟩ : BufTy).Contents (Elt F) → (⟨S1x128, .f32⟩ : BufTy).Contents (Elt F)),
    StableHlo.unary main_call8_v3 main_call8_v4 ((broadcastInDim S80000x128 ![0, 1] bcast_S1x128_S80000x128_0_1) : (⟨S1x128, .f32⟩ : BufTy).Contents (Elt F) → (⟨S80000x128, .f32⟩ : BufTy).Contents (Elt F)),
    StableHlo.binary main_v337 main_call8_v4 main_call8_v5 (subf : (⟨S80000x128, .f32⟩ : BufTy).Contents (Elt F) → (⟨S80000x128, .f32⟩ : BufTy).Contents (Elt F) → (⟨S80000x128, .f32⟩ : BufTy).Contents (Elt F)),
    StableHlo.binary main_call8_v5 main_call8_v5 main_call8_v6 (mulf : (⟨S80000x128, .f32⟩ : BufTy).Contents (Elt F) → (⟨S80000x128, .f32⟩ : BufTy).Contents (Elt F) → (⟨S80000x128, .f32⟩ : BufTy).Contents (Elt F)),
    StableHlo.unary main_c_60 main_call8_v7 ((sitofp .f32) : (⟨S_, .i32⟩ : BufTy).Contents (Elt F) → (⟨S_, .f32⟩ : BufTy).Contents (Elt F)),
    StableHlo.nullary main_call8_cst_1 ((constant S_ .f32 0x479C4000#32) : (⟨S_, .f32⟩ : BufTy).Contents (Elt F)),
    StableHlo.binary main_call8_cst_1 main_call8_v7 main_call8_v8 (subf : (⟨S_, .f32⟩ : BufTy).Contents (Elt F) → (⟨S_, .f32⟩ : BufTy).Contents (Elt F) → (⟨S_, .f32⟩ : BufTy).Contents (Elt F)),
    StableHlo.nullary main_call8_cst_2 ((constant S_ .f32 0x00000000#32) : (⟨S_, .f32⟩ : BufTy).Contents (Elt F)),
    StableHlo.binary main_call8_v6 main_call8_cst_2 main_call8_v9 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call8_v8 main_call8_v10 ((broadcastInDim S128 ![] bcast_S_S128) : (⟨S_, .f32⟩ : BufTy).Contents (Elt F) → (⟨S128, .f32⟩ : BufTy).Contents (Elt F)),
    StableHlo.binary main_call8_v9 main_call8_v10 main_call8_v11 (Host.divf : (⟨S128, .f32⟩ : BufTy).Contents (Elt F) → (⟨S128, .f32⟩ : BufTy).Contents (Elt F) → (⟨S128, .f32⟩ : BufTy).Contents (Elt F)),
    StableHlo.nullary main_call8_cst_3 ((constant S_ .f32 0x00000000#32) : (⟨S_, .f32⟩ : BufTy).Contents (Elt F)),
    StableHlo.binary main_call8_v8 main_call8_cst_3 main_call8_v12 ((cmpf .ogt) : (⟨S_, .f32⟩ : BufTy).Contents (Elt F) → (⟨S_, .f32⟩ : BufTy).Contents (Elt F) → (⟨S_, .i1⟩ : BufTy).Contents (Elt F)),
    StableHlo.nullary main_call8_cst_4 ((constant S_ .f32 0x7FC00000#32) : (⟨S_, .f32⟩ : BufTy).Contents (Elt F)),
    StableHlo.unary main_call8_cst_4 main_call8_call0_v0 (id : (⟨S_, .f32⟩ : BufTy).Contents (Elt F) → (⟨S_, .f32⟩ : BufTy).Contents (Elt F)),
    StableHlo.unary main_call8_call0_v0 main_call8_call0_v1 ((broadcastInDim S128 ![] bcast_S_S128) : (⟨S_, .f32⟩ : BufTy).Contents (Elt F) → (⟨S128, .f32⟩ : BufTy).Contents (Elt F)),
    StableHlo.ternary main_call8_v12 main_call8_v11 main_call8_call0_v1 main_v356 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- The outlined functions' typed references are these buffers at their own types, so the two lists are one. -/
theorem hostOps17_1_plain : (hostOps17_1 : List (HloOp τ sig (Elt F))) = plain51 := rfl

/-- The stretch hostOps17_3 with each operation of an outlined function stated over its buffers directly. -/
abbrev plain53 : List (HloOp τ sig (Elt F)) :=
  [ StableHlo.nullary main_call9_cst ((constant S_ .f32 0x00000000#32) : (⟨S_, .f32⟩ : BufTy).Contents (Elt F)),
    StableHlo.binary main_v342 main_call9_cst main_call9_v0 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call9_v0 main_call9_v1 ((broadcastInDim S1x128 ![1] bcast_S128_S1x128_1) : (⟨S128, .f32⟩ : BufTy).Contents (Elt F) → (⟨S1x128, .f32⟩ : BufTy).Contents (Elt F)),
    StableHlo.nullary main_call9_cst_0 ((constant S_ .f32 0x479C4000#32) : (⟨S_, .f32⟩ : BufTy).Contents (Elt F)),
    StableHlo.unary main_call9_cst_0 main_call9_v2 ((broadcastInDim S1x128 ![] bcast_S_S1x128) : (⟨S_, .f32⟩ : BufTy).Contents (Elt F) → (⟨S1x128, .f32⟩ : BufTy).Contents (Elt F)),
    StableHlo.binary main_call9_v1 main_call9_v2 main_call9_v3 (Host.divf : (⟨S1x128, .f32⟩ : BufTy).Contents (Elt F) → (⟨S1x128, .f32⟩ : BufTy).Contents (Elt F) → (⟨S1x128, .f32⟩ : BufTy).Contents (Elt F)),
    StableHlo.unary main_call9_v3 main_call9_v4 ((broadcastInDim S80000x128 ![0, 1] bcast_S1x128_S80000x128_0_1) : (⟨S1x128, .f32⟩ : BufTy).Contents (Elt F) → (⟨S80000x128, .f32⟩ : BufTy).Contents (Elt F)),
    StableHlo.binary main_v342 main_call9_v4 main_call9_v5 (subf : (⟨S80000x128, .f32⟩ : BufTy).Contents (Elt F) → (⟨S80000x128, .f32⟩ : BufTy).Contents (Elt F) → (⟨S80000x128, .f32⟩ : BufTy).Contents (Elt F)),
    StableHlo.binary main_call9_v5 main_call9_v5 main_call9_v6 (mulf : (⟨S80000x128, .f32⟩ : BufTy).Contents (Elt F) → (⟨S80000x128, .f32⟩ : BufTy).Contents (Elt F) → (⟨S80000x128, .f32⟩ : BufTy).Contents (Elt F)),
    StableHlo.unary main_c_63 main_call9_v7 ((sitofp .f32) : (⟨S_, .i32⟩ : BufTy).Contents (Elt F) → (⟨S_, .f32⟩ : BufTy).Contents (Elt F)),
    StableHlo.nullary main_call9_cst_1 ((constant S_ .f32 0x479C4000#32) : (⟨S_, .f32⟩ : BufTy).Contents (Elt F)),
    StableHlo.binary main_call9_cst_1 main_call9_v7 main_call9_v8 (subf : (⟨S_, .f32⟩ : BufTy).Contents (Elt F) → (⟨S_, .f32⟩ : BufTy).Contents (Elt F) → (⟨S_, .f32⟩ : BufTy).Contents (Elt F)),
    StableHlo.nullary main_call9_cst_2 ((constant S_ .f32 0x00000000#32) : (⟨S_, .f32⟩ : BufTy).Contents (Elt F)),
    StableHlo.binary main_call9_v6 main_call9_cst_2 main_call9_v9 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.unary main_call9_v8 main_call9_v10 ((broadcastInDim S128 ![] bcast_S_S128) : (⟨S_, .f32⟩ : BufTy).Contents (Elt F) → (⟨S128, .f32⟩ : BufTy).Contents (Elt F)),
    StableHlo.binary main_call9_v9 main_call9_v10 main_call9_v11 (Host.divf : (⟨S128, .f32⟩ : BufTy).Contents (Elt F) → (⟨S128, .f32⟩ : BufTy).Contents (Elt F) → (⟨S128, .f32⟩ : BufTy).Contents (Elt F)),
    StableHlo.nullary main_call9_cst_3 ((constant S_ .f32 0x00000000#32) : (⟨S_, .f32⟩ : BufTy).Contents (Elt F)),
    StableHlo.binary main_call9_v8 main_call9_cst_3 main_call9_v12 ((cmpf .ogt) : (⟨S_, .f32⟩ : BufTy).Contents (Elt F) → (⟨S_, .f32⟩ : BufTy).Contents (Elt F) → (⟨S_, .i1⟩ : BufTy).Contents (Elt F)),
    StableHlo.nullary main_call9_cst_4 ((constant S_ .f32 0x7FC00000#32) : (⟨S_, .f32⟩ : BufTy).Contents (Elt F)),
    StableHlo.unary main_call9_cst_4 main_call9_call0_v0 (id : (⟨S_, .f32⟩ : BufTy).Contents (Elt F) → (⟨S_, .f32⟩ : BufTy).Contents (Elt F)),
    StableHlo.unary main_call9_call0_v0 main_call9_call0_v1 ((broadcastInDim S128 ![] bcast_S_S128) : (⟨S_, .f32⟩ : BufTy).Contents (Elt F) → (⟨S128, .f32⟩ : BufTy).Contents (Elt F)),
    StableHlo.ternary main_call9_v12 main_call9_v11 main_call9_call0_v1 main_v360 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- The outlined functions' typed references are these buffers at their own types, so the two lists are one. -/
theorem hostOps17_3_plain : (hostOps17_3 : List (HloOp τ sig (Elt F))) = plain53 := rfl

/-- The stretch hostOps17_5 with each operation of an outlined function stated over its buffers directly. -/
abbrev plain55 : List (HloOp τ sig (Elt F)) :=
  [ StableHlo.nullary main_call10_cst ((constant S_ .f32 0x00000000#32) : (⟨S_, .f32⟩ : BufTy).Contents (Elt F)),
    StableHlo.binary main_v347 main_call10_cst main_call10_v0 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.unary main_call10_v0 main_call10_v1 ((broadcastInDim S1x128 ![1] bcast_S128_S1x128_1) : (⟨S128, .f32⟩ : BufTy).Contents (Elt F) → (⟨S1x128, .f32⟩ : BufTy).Contents (Elt F)),
    StableHlo.nullary main_call10_cst_0 ((constant S_ .f32 0x469C4000#32) : (⟨S_, .f32⟩ : BufTy).Contents (Elt F)),
    StableHlo.unary main_call10_cst_0 main_call10_v2 ((broadcastInDim S1x128 ![] bcast_S_S1x128) : (⟨S_, .f32⟩ : BufTy).Contents (Elt F) → (⟨S1x128, .f32⟩ : BufTy).Contents (Elt F)),
    StableHlo.binary main_call10_v1 main_call10_v2 main_call10_v3 (Host.divf : (⟨S1x128, .f32⟩ : BufTy).Contents (Elt F) → (⟨S1x128, .f32⟩ : BufTy).Contents (Elt F) → (⟨S1x128, .f32⟩ : BufTy).Contents (Elt F)),
    StableHlo.unary main_call10_v3 main_call10_v4 ((broadcastInDim S20000x128 ![0, 1] bcast_S1x128_S20000x128_0_1) : (⟨S1x128, .f32⟩ : BufTy).Contents (Elt F) → (⟨S20000x128, .f32⟩ : BufTy).Contents (Elt F)),
    StableHlo.binary main_v347 main_call10_v4 main_call10_v5 (subf : (⟨S20000x128, .f32⟩ : BufTy).Contents (Elt F) → (⟨S20000x128, .f32⟩ : BufTy).Contents (Elt F) → (⟨S20000x128, .f32⟩ : BufTy).Contents (Elt F)),
    StableHlo.binary main_call10_v5 main_call10_v5 main_call10_v6 (mulf : (⟨S20000x128, .f32⟩ : BufTy).Contents (Elt F) → (⟨S20000x128, .f32⟩ : BufTy).Contents (Elt F) → (⟨S20000x128, .f32⟩ : BufTy).Contents (Elt F)),
    StableHlo.unary main_c_66 main_call10_v7 ((sitofp .f32) : (⟨S_, .i32⟩ : BufTy).Contents (Elt F) → (⟨S_, .f32⟩ : BufTy).Contents (Elt F)),
    StableHlo.nullary main_call10_cst_1 ((constant S_ .f32 0x469C4000#32) : (⟨S_, .f32⟩ : BufTy).Contents (Elt F)),
    StableHlo.binary main_call10_cst_1 main_call10_v7 main_call10_v8 (subf : (⟨S_, .f32⟩ : BufTy).Contents (Elt F) → (⟨S_, .f32⟩ : BufTy).Contents (Elt F) → (⟨S_, .f32⟩ : BufTy).Contents (Elt F)),
    StableHlo.nullary main_call10_cst_2 ((constant S_ .f32 0x00000000#32) : (⟨S_, .f32⟩ : BufTy).Contents (Elt F)),
    StableHlo.binary main_call10_v6 main_call10_cst_2 main_call10_v9 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.unary main_call10_v8 main_call10_v10 ((broadcastInDim S128 ![] bcast_S_S128) : (⟨S_, .f32⟩ : BufTy).Contents (Elt F) → (⟨S128, .f32⟩ : BufTy).Contents (Elt F)),
    StableHlo.binary main_call10_v9 main_call10_v10 main_call10_v11 (Host.divf : (⟨S128, .f32⟩ : BufTy).Contents (Elt F) → (⟨S128, .f32⟩ : BufTy).Contents (Elt F) → (⟨S128, .f32⟩ : BufTy).Contents (Elt F)),
    StableHlo.nullary main_call10_cst_3 ((constant S_ .f32 0x00000000#32) : (⟨S_, .f32⟩ : BufTy).Contents (Elt F)),
    StableHlo.binary main_call10_v8 main_call10_cst_3 main_call10_v12 ((cmpf .ogt) : (⟨S_, .f32⟩ : BufTy).Contents (Elt F) → (⟨S_, .f32⟩ : BufTy).Contents (Elt F) → (⟨S_, .i1⟩ : BufTy).Contents (Elt F)),
    StableHlo.nullary main_call10_cst_4 ((constant S_ .f32 0x7FC00000#32) : (⟨S_, .f32⟩ : BufTy).Contents (Elt F)),
    StableHlo.unary main_call10_cst_4 main_call10_call0_v0 (id : (⟨S_, .f32⟩ : BufTy).Contents (Elt F) → (⟨S_, .f32⟩ : BufTy).Contents (Elt F)),
    StableHlo.unary main_call10_call0_v0 main_call10_call0_v1 ((broadcastInDim S128 ![] bcast_S_S128) : (⟨S_, .f32⟩ : BufTy).Contents (Elt F) → (⟨S128, .f32⟩ : BufTy).Contents (Elt F)),
    StableHlo.ternary main_call10_v12 main_call10_v11 main_call10_call0_v1 main_v364 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- The outlined functions' typed references are these buffers at their own types, so the two lists are one. -/
theorem hostOps17_5_plain : (hostOps17_5 : List (HloOp τ sig (Elt F))) = plain55 := rfl

/-- The stretch hostOps17_7 with each operation of an outlined function stated over its buffers directly. -/
abbrev plain57 : List (HloOp τ sig (Elt F)) :=
  [ StableHlo.nullary main_call11_cst ((constant S_ .f32 0x00000000#32) : (⟨S_, .f32⟩ : BufTy).Contents (Elt F)),
    StableHlo.binary main_v352 main_call11_cst main_call11_v0 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.unary main_call11_v0 main_call11_v1 ((broadcastInDim S1x128 ![1] bcast_S128_S1x128_1) : (⟨S128, .f32⟩ : BufTy).Contents (Elt F) → (⟨S1x128, .f32⟩ : BufTy).Contents (Elt F)),
    StableHlo.nullary main_call11_cst_0 ((constant S_ .f32 0x469C4000#32) : (⟨S_, .f32⟩ : BufTy).Contents (Elt F)),
    StableHlo.unary main_call11_cst_0 main_call11_v2 ((broadcastInDim S1x128 ![] bcast_S_S1x128) : (⟨S_, .f32⟩ : BufTy).Contents (Elt F) → (⟨S1x128, .f32⟩ : BufTy).Contents (Elt F)),
    StableHlo.binary main_call11_v1 main_call11_v2 main_call11_v3 (Host.divf : (⟨S1x128, .f32⟩ : BufTy).Contents (Elt F) → (⟨S1x128, .f32⟩ : BufTy).Contents (Elt F) → (⟨S1x128, .f32⟩ : BufTy).Contents (Elt F)),
    StableHlo.unary main_call11_v3 main_call11_v4 ((broadcastInDim S20000x128 ![0, 1] bcast_S1x128_S20000x128_0_1) : (⟨S1x128, .f32⟩ : BufTy).Contents (Elt F) → (⟨S20000x128, .f32⟩ : BufTy).Contents (Elt F)),
    StableHlo.binary main_v352 main_call11_v4 main_call11_v5 (subf : (⟨S20000x128, .f32⟩ : BufTy).Contents (Elt F) → (⟨S20000x128, .f32⟩ : BufTy).Contents (Elt F) → (⟨S20000x128, .f32⟩ : BufTy).Contents (Elt F)),
    StableHlo.binary main_call11_v5 main_call11_v5 main_call11_v6 (mulf : (⟨S20000x128, .f32⟩ : BufTy).Contents (Elt F) → (⟨S20000x128, .f32⟩ : BufTy).Contents (Elt F) → (⟨S20000x128, .f32⟩ : BufTy).Contents (Elt F)),
    StableHlo.unary main_c_69 main_call11_v7 ((sitofp .f32) : (⟨S_, .i32⟩ : BufTy).Contents (Elt F) → (⟨S_, .f32⟩ : BufTy).Contents (Elt F)),
    StableHlo.nullary main_call11_cst_1 ((constant S_ .f32 0x469C4000#32) : (⟨S_, .f32⟩ : BufTy).Contents (Elt F)),
    StableHlo.binary main_call11_cst_1 main_call11_v7 main_call11_v8 (subf : (⟨S_, .f32⟩ : BufTy).Contents (Elt F) → (⟨S_, .f32⟩ : BufTy).Contents (Elt F) → (⟨S_, .f32⟩ : BufTy).Contents (Elt F)),
    StableHlo.nullary main_call11_cst_2 ((constant S_ .f32 0x00000000#32) : (⟨S_, .f32⟩ : BufTy).Contents (Elt F)),
    StableHlo.binary main_call11_v6 main_call11_cst_2 main_call11_v9 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.unary main_call11_v8 main_call11_v10 ((broadcastInDim S128 ![] bcast_S_S128) : (⟨S_, .f32⟩ : BufTy).Contents (Elt F) → (⟨S128, .f32⟩ : BufTy).Contents (Elt F)),
    StableHlo.binary main_call11_v9 main_call11_v10 main_call11_v11 (Host.divf : (⟨S128, .f32⟩ : BufTy).Contents (Elt F) → (⟨S128, .f32⟩ : BufTy).Contents (Elt F) → (⟨S128, .f32⟩ : BufTy).Contents (Elt F)),
    StableHlo.nullary main_call11_cst_3 ((constant S_ .f32 0x00000000#32) : (⟨S_, .f32⟩ : BufTy).Contents (Elt F)),
    StableHlo.binary main_call11_v8 main_call11_cst_3 main_call11_v12 ((cmpf .ogt) : (⟨S_, .f32⟩ : BufTy).Contents (Elt F) → (⟨S_, .f32⟩ : BufTy).Contents (Elt F) → (⟨S_, .i1⟩ : BufTy).Contents (Elt F)),
    StableHlo.nullary main_call11_cst_4 ((constant S_ .f32 0x7FC00000#32) : (⟨S_, .f32⟩ : BufTy).Contents (Elt F)),
    StableHlo.unary main_call11_cst_4 main_call11_call0_v0 (id : (⟨S_, .f32⟩ : BufTy).Contents (Elt F) → (⟨S_, .f32⟩ : BufTy).Contents (Elt F)),
    StableHlo.unary main_call11_call0_v0 main_call11_call0_v1 ((broadcastInDim S128 ![] bcast_S_S128) : (⟨S_, .f32⟩ : BufTy).Contents (Elt F) → (⟨S128, .f32⟩ : BufTy).Contents (Elt F)),
    StableHlo.ternary main_call11_v12 main_call11_v11 main_call11_call0_v1 main_v368 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- The outlined functions' typed references are these buffers at their own types, so the two lists are one. -/
theorem hostOps17_7_plain : (hostOps17_7 : List (HloOp τ sig (Elt F))) = plain57 := rfl

end Cert.KernelIdeal.Thread

end
-- ==== Proof.SpecLayers.lean ====
import proofs.«116822_j38594576122568_1_alg».proof.ReferenceIdeal
import Idealize.ShloMosaic.PureOps.Ideal

/-! The two shapes of computation the kernel program runs on the accelerator, written as the reference's own host
    operations: a linear layer (product with a weight matrix plus a bias row) at the five sizes that occur, and the
    two-branch normalise / clamp / linear / sum / leaky-clamp step at the two node counts. Every later module states
    what a kernel region leaves in its output array as one of these functions of the region's input arrays. -/

noncomputable section

namespace Cert.Spec

open Idealize.ShloMosaic Idealize.SL.Sem Cert.ReferenceIdeal

variable {F : FTy → Type} [FloatOps F] [Cert.ReferenceIdeal.Facts]

open Cert.ReferenceIdeal.Facts₀ Cert.ReferenceIdeal.Facts

/-- One linear layer as the reference's host program computes it: the product of `a` and `w` contracted over
    `a`'s columns, plus the bias row `b` repeated down the rows. -/
def linA (a : (⟨S20000x4, .f32⟩ : BufTy).Contents (Elt F)) (w : (⟨S4x7, .f32⟩ : BufTy).Contents (Elt F)) (b : (⟨S7, .f32⟩ : BufTy).Contents (Elt F)) : (⟨S20000x7, .f32⟩ : BufTy).Contents (Elt F) :=
  (addf ((fun l r => Host.dotGeneral dot_S20000x4_S4x7_S20000x7_1_0_0_1_n_n none l r) a w) (broadcastInDim S20000x7 ![0, 1] bcast_S1x7_S20000x7_0_1 (broadcastInDim S1x7 ![1] bcast_S7_S1x7_1 b)))
/-- One linear layer as the reference's host program computes it: the product of `a` and `w` contracted over
    `a`'s columns, plus the bias row `b` repeated down the rows. -/
def linB (a : (⟨S80000x7, .f32⟩ : BufTy).Contents (Elt F)) (w : (⟨S7x128, .f32⟩ : BufTy).Contents (Elt F)) (b : (⟨S128, .f32⟩ : BufTy).Contents (Elt F)) : (⟨S80000x128, .f32⟩ : BufTy).Contents (Elt F) :=
  (addf ((fun l r => Host.dotGeneral dot_S80000x7_S7x128_S80000x128_1_0_0_1_n_n none l r) a w) (broadcastInDim S80000x128 ![0, 1] bcast_S1x128_S80000x128_0_1 (broadcastInDim S1x128 ![1] bcast_S128_S1x128_1 b)))
/-- One linear layer as the reference's host program computes it: the product of `a` and `w` contracted over
    `a`'s columns, plus the bias row `b` repeated down the rows. -/
def linC (a : (⟨S20000x7, .f32⟩ : BufTy).Contents (Elt F)) (w : (⟨S7x128, .f32⟩ : BufTy).Contents (Elt F)) (b : (⟨S128, .f32⟩ : BufTy).Contents (Elt F)) : (⟨S20000x128, .f32⟩ : BufTy).Contents (Elt F) :=
  (addf ((fun l r => Host.dotGeneral dot_S20000x7_S7x128_S20000x128_1_0_0_1_n_n none l r) a w) (broadcastInDim S20000x128 ![0, 1] bcast_S1x128_S20000x128_0_1 (broadcastInDim S1x128 ![1] bcast_S128_S1x128_1 b)))
/-- One linear layer as the reference's host program computes it: the product of `a` and `w` contracted over
    `a`'s columns, plus the bias row `b` repeated down the rows. -/
def linD (a : (⟨S80000x128, .f32⟩ : BufTy).Contents (Elt F)) (w : (⟨S128x128, .f32⟩ : BufTy).Contents (Elt F)) (b : (⟨S128, .f32⟩ : BufTy).Contents (Elt F)) : (⟨S80000x128, .f32⟩ : BufTy).Contents (Elt F) :=
  (addf ((fun l r => Host.dotGeneral dot_S80000x128_S128x128_S80000x128_1_0_0_1_n_n none l r) a w) (broadcastInDim S80000x128 ![0, 1] bcast_S1x128_S80000x128_0_1 (broadcastInDim S1x128 ![1] bcast_S128_S1x128_1 b)))
/-- One linear layer as the reference's host program computes it: the product of `a` and `w` contracted over
    `a`'s columns, plus the bias row `b` repeated down the rows. -/
def linE (a : (⟨S20000x128, .f32⟩ : BufTy).Contents (Elt F)) (w : (⟨S128x128, .f32⟩ : BufTy).Contents (Elt F)) (b : (⟨S128, .f32⟩ : BufTy).Contents (Elt F)) : (⟨S20000x128, .f32⟩ : BufTy).Contents (Elt F) :=
  (addf ((fun l r => Host.dotGeneral dot_S20000x128_S128x128_S20000x128_1_0_0_1_n_n none l r) a w) (broadcastInDim S20000x128 ![0, 1] bcast_S1x128_S20000x128_0_1 (broadcastInDim S1x128 ![1] bcast_S128_S1x128_1 b)))
/-- Two branches, each: batch-normalise `h` with the column statistics `mu`, `var` (scale `g`, shift `be`), clamp below at
    zero, apply the second linear layer (`w`, `b`); then the sum of the two branches through the leaky clamp
    (slope 0.01 on the negative side) — as the reference's host program computes it. -/
def combOp (h1 : (⟨S80000x128, .f32⟩ : BufTy).Contents (Elt F)) (mu1 : (⟨S128, .f32⟩ : BufTy).Contents (Elt F)) (var1 : (⟨S128, .f32⟩ : BufTy).Contents (Elt F)) (g1 : (⟨S128, .f32⟩ : BufTy).Contents (Elt F)) (be1 : (⟨S128, .f32⟩ : BufTy).Contents (Elt F)) (w1 : (⟨S128x128, .f32⟩ : BufTy).Contents (Elt F)) (b1 : (⟨S128, .f32⟩ : BufTy).Contents (Elt F)) (h2 : (⟨S80000x128, .f32⟩ : BufTy).Contents (Elt F)) (mu2 : (⟨S128, .f32⟩ : BufTy).Contents (Elt F)) (var2 : (⟨S128, .f32⟩ : BufTy).Contents (Elt F)) (g2 : (⟨S128, .f32⟩ : BufTy).Contents (Elt F)) (be2 : (⟨S128, .f32⟩ : BufTy).Contents (Elt F)) (w2 : (⟨S128x128, .f32⟩ : BufTy).Contents (Elt F)) (b2 : (⟨S128, .f32⟩ : BufTy).Contents (Elt F)) : (⟨S80000x128, .f32⟩ : BufTy).Contents (Elt F) :=
  (select ((cmpf .oge) (addf (addf ((fun l r => Host.dotGeneral dot_S80000x128_S128x128_S80000x128_1_0_0_1_n_n none l r) (maximumf (addf (mulf (mulf (broadcastInDim S80000x128 ![0, 1] bcast_S1x128_S80000x128_0_1 (broadcastInDim S1x128 ![1] bcast_S128_S1x128_1 g1)) (subf h1 (broadcastInDim S80000x128 ![0, 1] bcast_S1x128_S80000x128_0_1 (broadcastInDim S1x128 ![1] bcast_S128_S1x128_1 mu1)))) (broadcastInDim S80000x128 ![0, 1] bcast_S1x128_S80000x128_0_1 (broadcastInDim S1x128 ![1] bcast_S128_S1x128_1 (Host.rsqrt (addf var1 (broadcastInDim S128 ![] bcast_S_S128 (constant S_ .f32 0x3727C5AC#32))))))) (broadcastInDim S80000x128 ![0, 1] bcast_S1x128_S80000x128_0_1 (broadcastInDim S1x128 ![1] bcast_S128_S1x128_1 be1))) ((broadcastInDim S80000x128 ![] bcast_S_S80000x128) (constant S_ .f32 0x00000000#32))) w1) (broadcastInDim S80000x128 ![0, 1] bcast_S1x128_S80000x128_0_1 (broadcastInDim S1x128 ![1] bcast_S128_S1x128_1 b1))) (addf ((fun l r => Host.dotGeneral dot_S80000x128_S128x128_S80000x128_1_0_0_1_n_n none l r) (maximumf (addf (mulf (mulf (broadcastInDim S80000x128 ![0, 1] bcast_S1x128_S80000x128_0_1 (broadcastInDim S1x128 ![1] bcast_S128_S1x128_1 g2)) (subf h2 (broadcastInDim S80000x128 ![0, 1] bcast_S1x128_S80000x128_0_1 (broadcastInDim S1x128 ![1] bcast_S128_S1x128_1 mu2)))) (broadcastInDim S80000x128 ![0, 1] bcast_S1x128_S80000x128_0_1 (broadcastInDim S1x128 ![1] bcast_S128_S1x128_1 (Host.rsqrt (addf var2 (broadcastInDim S128 ![] bcast_S_S128 (constant S_ .f32 0x3727C5AC#32))))))) (broadcastInDim S80000x128 ![0, 1] bcast_S1x128_S80000x128_0_1 (broadcastInDim S1x128 ![1] bcast_S128_S1x128_1 be2))) ((broadcastInDim S80000x128 ![] bcast_S_S80000x128) (constant S_ .f32 0x00000000#32))) w2) (broadcastInDim S80000x128 ![0, 1] bcast_S1x128_S80000x128_0_1 (broadcastInDim S1x128 ![1] bcast_S128_S1x128_1 b2)))) ((broadcastInDim S80000x128 ![] bcast_S_S80000x128) (constant S_ .f32 0x00000000#32))) (addf (addf ((fun l r => Host.dotGeneral dot_S80000x128_S128x128_S80000x128_1_0_0_1_n_n none l r) (maximumf (addf (mulf (mulf (broadcastInDim S80000x128 ![0, 1] bcast_S1x128_S80000x128_0_1 (broadcastInDim S1x128 ![1] bcast_S128_S1x128_1 g1)) (subf h1 (broadcastInDim S80000x128 ![0, 1] bcast_S1x128_S80000x128_0_1 (broadcastInDim S1x128 ![1] bcast_S128_S1x128_1 mu1)))) (broadcastInDim S80000x128 ![0, 1] bcast_S1x128_S80000x128_0_1 (broadcastInDim S1x128 ![1] bcast_S128_S1x128_1 (Host.rsqrt (addf var1 (broadcastInDim S128 ![] bcast_S_S128 (constant S_ .f32 0x3727C5AC#32))))))) (broadcastInDim S80000x128 ![0, 1] bcast_S1x128_S80000x128_0_1 (broadcastInDim S1x128 ![1] bcast_S128_S1x128_1 be1))) ((broadcastInDim S80000x128 ![] bcast_S_S80000x128) (constant S_ .f32 0x00000000#32))) w1) (broadcastInDim S80000x128 ![0, 1] bcast_S1x128_S80000x128_0_1 (broadcastInDim S1x128 ![1] bcast_S128_S1x128_1 b1))) (addf ((fun l r => Host.dotGeneral dot_S80000x128_S128x128_S80000x128_1_0_0_1_n_n none l r) (maximumf (addf (mulf (mulf (broadcastInDim S80000x128 ![0, 1] bcast_S1x128_S80000x128_0_1 (broadcastInDim S1x128 ![1] bcast_S128_S1x128_1 g2)) (subf h2 (broadcastInDim S80000x128 ![0, 1] bcast_S1x128_S80000x128_0_1 (broadcastInDim S1x128 ![1] bcast_S128_S1x128_1 mu2)))) (broadcastInDim S80000x128 ![0, 1] bcast_S1x128_S80000x128_0_1 (broadcastInDim S1x128 ![1] bcast_S128_S1x128_1 (Host.rsqrt (addf var2 (broadcastInDim S128 ![] bcast_S_S128 (constant S_ .f32 0x3727C5AC#32))))))) (broadcastInDim S80000x128 ![0, 1] bcast_S1x128_S80000x128_0_1 (broadcastInDim S1x128 ![1] bcast_S128_S1x128_1 be2))) ((broadcastInDim S80000x128 ![] bcast_S_S80000x128) (constant S_ .f32 0x00000000#32))) w2) (broadcastInDim S80000x128 ![0, 1] bcast_S1x128_S80000x128_0_1 (broadcastInDim S1x128 ![1] bcast_S128_S1x128_1 b2)))) (mulf ((broadcastInDim S80000x128 ![] bcast_S_S80000x128) (constant S_ .f32 0x3C23D70A#32)) (addf (addf ((fun l r => Host.dotGeneral dot_S80000x128_S128x128_S80000x128_1_0_0_1_n_n none l r) (maximumf (addf (mulf (mulf (broadcastInDim S80000x128 ![0, 1] bcast_S1x128_S80000x128_0_1 (broadcastInDim S1x128 ![1] bcast_S128_S1x128_1 g1)) (subf h1 (broadcastInDim S80000x128 ![0, 1] bcast_S1x128_S80000x128_0_1 (broadcastInDim S1x128 ![1] bcast_S128_S1x128_1 mu1)))) (broadcastInDim S80000x128 ![0, 1] bcast_S1x128_S80000x128_0_1 (broadcastInDim S1x128 ![1] bcast_S128_S1x128_1 (Host.rsqrt (addf var1 (broadcastInDim S128 ![] bcast_S_S128 (constant S_ .f32 0x3727C5AC#32))))))) (broadcastInDim S80000x128 ![0, 1] bcast_S1x128_S80000x128_0_1 (broadcastInDim S1x128 ![1] bcast_S128_S1x128_1 be1))) ((broadcastInDim S80000x128 ![] bcast_S_S80000x128) (constant S_ .f32 0x00000000#32))) w1) (broadcastInDim S80000x128 ![0, 1] bcast_S1x128_S80000x128_0_1 (broadcastInDim S1x128 ![1] bcast_S128_S1x128_1 b1))) (addf ((fun l r => Host.dotGeneral dot_S80000x128_S128x128_S80000x128_1_0_0_1_n_n none l r) (maximumf (addf (mulf (mulf (broadcastInDim S80000x128 ![0, 1] bcast_S1x128_S80000x128_0_1 (broadcastInDim S1x128 ![1] bcast_S128_S1x128_1 g2)) (subf h2 (broadcastInDim S80000x128 ![0, 1] bcast_S1x128_S80000x128_0_1 (broadcastInDim S1x128 ![1] bcast_S128_S1x128_1 mu2)))) (broadcastInDim S80000x128 ![0, 1] bcast_S1x128_S80000x128_0_1 (broadcastInDim S1x128 ![1] bcast_S128_S1x128_1 (Host.rsqrt (addf var2 (broadcastInDim S128 ![] bcast_S_S128 (constant S_ .f32 0x3727C5AC#32))))))) (broadcastInDim S80000x128 ![0, 1] bcast_S1x128_S80000x128_0_1 (broadcastInDim S1x128 ![1] bcast_S128_S1x128_1 be2))) ((broadcastInDim S80000x128 ![] bcast_S_S80000x128) (constant S_ .f32 0x00000000#32))) w2) (broadcastInDim S80000x128 ![0, 1] bcast_S1x128_S80000x128_0_1 (broadcastInDim S1x128 ![1] bcast_S128_S1x128_1 b2))))))
/-- Two branches, each: batch-normalise `h` with the column statistics `mu`, `var` (scale `g`, shift `be`), clamp below at
    zero, apply the second linear layer (`w`, `b`); then the sum of the two branches through the leaky clamp
    (slope 0.01 on the negative side) — as the reference's host program computes it. -/
def combM (h1 : (⟨S20000x128, .f32⟩ : BufTy).Contents (Elt F)) (mu1 : (⟨S128, .f32⟩ : BufTy).Contents (Elt F)) (var1 : (⟨S128, .f32⟩ : BufTy).Contents (Elt F)) (g1 : (⟨S128, .f32⟩ : BufTy).Contents (Elt F)) (be1 : (⟨S128, .f32⟩ : BufTy).Contents (Elt F)) (w1 : (⟨S128x128, .f32⟩ : BufTy).Contents (Elt F)) (b1 : (⟨S128, .f32⟩ : BufTy).Contents (Elt F)) (h2 : (⟨S20000x128, .f32⟩ : BufTy).Contents (Elt F)) (mu2 : (⟨S128, .f32⟩ : BufTy).Contents (Elt F)) (var2 : (⟨S128, .f32⟩ : BufTy).Contents (Elt F)) (g2 : (⟨S128, .f32⟩ : BufTy).Contents (Elt F)) (be2 : (⟨S128, .f32⟩ : BufTy).Contents (Elt F)) (w2 : (⟨S128x128, .f32⟩ : BufTy).Contents (Elt F)) (b2 : (⟨S128, .f32⟩ : BufTy).Contents (Elt F)) : (⟨S20000x128, .f32⟩ : BufTy).Contents (Elt F) :=
  (select ((cmpf .oge) (addf (addf ((fun l r => Host.dotGeneral dot_S20000x128_S128x128_S20000x128_1_0_0_1_n_n none l r) (maximumf (addf (mulf (mulf (broadcastInDim S20000x128 ![0, 1] bcast_S1x128_S20000x128_0_1 (broadcastInDim S1x128 ![1] bcast_S128_S1x128_1 g1)) (subf h1 (broadcastInDim S20000x128 ![0, 1] bcast_S1x128_S20000x128_0_1 (broadcastInDim S1x128 ![1] bcast_S128_S1x128_1 mu1)))) (broadcastInDim S20000x128 ![0, 1] bcast_S1x128_S20000x128_0_1 (broadcastInDim S1x128 ![1] bcast_S128_S1x128_1 (Host.rsqrt (addf var1 (broadcastInDim S128 ![] bcast_S_S128 (constant S_ .f32 0x3727C5AC#32))))))) (broadcastInDim S20000x128 ![0, 1] bcast_S1x128_S20000x128_0_1 (broadcastInDim S1x128 ![1] bcast_S128_S1x128_1 be1))) ((broadcastInDim S20000x128 ![] bcast_S_S20000x128) (constant S_ .f32 0x00000000#32))) w1) (broadcastInDim S20000x128 ![0, 1] bcast_S1x128_S20000x128_0_1 (broadcastInDim S1x128 ![1] bcast_S128_S1x128_1 b1))) (addf ((fun l r => Host.dotGeneral dot_S20000x128_S128x128_S20000x128_1_0_0_1_n_n none l r) (maximumf (addf (mulf (mulf (broadcastInDim S20000x128 ![0, 1] bcast_S1x128_S20000x128_0_1 (broadcastInDim S1x128 ![1] bcast_S128_S1x128_1 g2)) (subf h2 (broadcastInDim S20000x128 ![0, 1] bcast_S1x128_S20000x128_0_1 (broadcastInDim S1x128 ![1] bcast_S128_S1x128_1 mu2)))) (broadcastInDim S20000x128 ![0, 1] bcast_S1x128_S20000x128_0_1 (broadcastInDim S1x128 ![1] bcast_S128_S1x128_1 (Host.rsqrt (addf var2 (broadcastInDim S128 ![] bcast_S_S128 (constant S_ .f32 0x3727C5AC#32))))))) (broadcastInDim S20000x128 ![0, 1] bcast_S1x128_S20000x128_0_1 (broadcastInDim S1x128 ![1] bcast_S128_S1x128_1 be2))) ((broadcastInDim S20000x128 ![] bcast_S_S20000x128) (constant S_ .f32 0x00000000#32))) w2) (broadcastInDim S20000x128 ![0, 1] bcast_S1x128_S20000x128_0_1 (broadcastInDim S1x128 ![1] bcast_S128_S1x128_1 b2)))) ((broadcastInDim S20000x128 ![] bcast_S_S20000x128) (constant S_ .f32 0x00000000#32))) (addf (addf ((fun l r => Host.dotGeneral dot_S20000x128_S128x128_S20000x128_1_0_0_1_n_n none l r) (maximumf (addf (mulf (mulf (broadcastInDim S20000x128 ![0, 1] bcast_S1x128_S20000x128_0_1 (broadcastInDim S1x128 ![1] bcast_S128_S1x128_1 g1)) (subf h1 (broadcastInDim S20000x128 ![0, 1] bcast_S1x128_S20000x128_0_1 (broadcastInDim S1x128 ![1] bcast_S128_S1x128_1 mu1)))) (broadcastInDim S20000x128 ![0, 1] bcast_S1x128_S20000x128_0_1 (broadcastInDim S1x128 ![1] bcast_S128_S1x128_1 (Host.rsqrt (addf var1 (broadcastInDim S128 ![] bcast_S_S128 (constant S_ .f32 0x3727C5AC#32))))))) (broadcastInDim S20000x128 ![0, 1] bcast_S1x128_S20000x128_0_1 (broadcastInDim S1x128 ![1] bcast_S128_S1x128_1 be1))) ((broadcastInDim S20000x128 ![] bcast_S_S20000x128) (constant S_ .f32 0x00000000#32))) w1) (broadcastInDim S20000x128 ![0, 1] bcast_S1x128_S20000x128_0_1 (broadcastInDim S1x128 ![1] bcast_S128_S1x128_1 b1))) (addf ((fun l r => Host.dotGeneral dot_S20000x128_S128x128_S20000x128_1_0_0_1_n_n none l r) (maximumf (addf (mulf (mulf (broadcastInDim S20000x128 ![0, 1] bcast_S1x128_S20000x128_0_1 (broadcastInDim S1x128 ![1] bcast_S128_S1x128_1 g2)) (subf h2 (broadcastInDim S20000x128 ![0, 1] bcast_S1x128_S20000x128_0_1 (broadcastInDim S1x128 ![1] bcast_S128_S1x128_1 mu2)))) (broadcastInDim S20000x128 ![0, 1] bcast_S1x128_S20000x128_0_1 (broadcastInDim S1x128 ![1] bcast_S128_S1x128_1 (Host.rsqrt (addf var2 (broadcastInDim S128 ![] bcast_S_S128 (constant S_ .f32 0x3727C5AC#32))))))) (broadcastInDim S20000x128 ![0, 1] bcast_S1x128_S20000x128_0_1 (broadcastInDim S1x128 ![1] bcast_S128_S1x128_1 be2))) ((broadcastInDim S20000x128 ![] bcast_S_S20000x128) (constant S_ .f32 0x00000000#32))) w2) (broadcastInDim S20000x128 ![0, 1] bcast_S1x128_S20000x128_0_1 (broadcastInDim S1x128 ![1] bcast_S128_S1x128_1 b2)))) (mulf ((broadcastInDim S20000x128 ![] bcast_S_S20000x128) (constant S_ .f32 0x3C23D70A#32)) (addf (addf ((fun l r => Host.dotGeneral dot_S20000x128_S128x128_S20000x128_1_0_0_1_n_n none l r) (maximumf (addf (mulf (mulf (broadcastInDim S20000x128 ![0, 1] bcast_S1x128_S20000x128_0_1 (broadcastInDim S1x128 ![1] bcast_S128_S1x128_1 g1)) (subf h1 (broadcastInDim S20000x128 ![0, 1] bcast_S1x128_S20000x128_0_1 (broadcastInDim S1x128 ![1] bcast_S128_S1x128_1 mu1)))) (broadcastInDim S20000x128 ![0, 1] bcast_S1x128_S20000x128_0_1 (broadcastInDim S1x128 ![1] bcast_S128_S1x128_1 (Host.rsqrt (addf var1 (broadcastInDim S128 ![] bcast_S_S128 (constant S_ .f32 0x3727C5AC#32))))))) (broadcastInDim S20000x128 ![0, 1] bcast_S1x128_S20000x128_0_1 (broadcastInDim S1x128 ![1] bcast_S128_S1x128_1 be1))) ((broadcastInDim S20000x128 ![] bcast_S_S20000x128) (constant S_ .f32 0x00000000#32))) w1) (broadcastInDim S20000x128 ![0, 1] bcast_S1x128_S20000x128_0_1 (broadcastInDim S1x128 ![1] bcast_S128_S1x128_1 b1))) (addf ((fun l r => Host.dotGeneral dot_S20000x128_S128x128_S20000x128_1_0_0_1_n_n none l r) (maximumf (addf (mulf (mulf (broadcastInDim S20000x128 ![0, 1] bcast_S1x128_S20000x128_0_1 (broadcastInDim S1x128 ![1] bcast_S128_S1x128_1 g2)) (subf h2 (broadcastInDim S20000x128 ![0, 1] bcast_S1x128_S20000x128_0_1 (broadcastInDim S1x128 ![1] bcast_S128_S1x128_1 mu2)))) (broadcastInDim S20000x128 ![0, 1] bcast_S1x128_S20000x128_0_1 (broadcastInDim S1x128 ![1] bcast_S128_S1x128_1 (Host.rsqrt (addf var2 (broadcastInDim S128 ![] bcast_S_S128 (constant S_ .f32 0x3727C5AC#32))))))) (broadcastInDim S20000x128 ![0, 1] bcast_S1x128_S20000x128_0_1 (broadcastInDim S1x128 ![1] bcast_S128_S1x128_1 be2))) ((broadcastInDim S20000x128 ![] bcast_S_S20000x128) (constant S_ .f32 0x00000000#32))) w2) (broadcastInDim S20000x128 ![0, 1] bcast_S1x128_S20000x128_0_1 (broadcastInDim S1x128 ![1] bcast_S128_S1x128_1 b2))))))

end Cert.Spec

end
-- ==== Proof.SpecValues.lean ====
import proofs.«116822_j38594576122568_1_alg».proof.Proof.SpecLayers

/-! Every value of the reference's run that is read again in a later window of either program, as a definition over the
    record of the 24 argument arrays and the earlier such values: the aggregations (gather by source, sum by destination),
    the parameter slices, the linear layers, the column means and variances, the combined layer outputs, the two results.
    Both programs' runs are read against these. -/

noncomputable section

namespace Cert.Spec

open Idealize.ShloMosaic Idealize.SL.Sem Cert.ReferenceIdeal

variable {F : FTy → Type} [FloatOps F] [Cert.ReferenceIdeal.Facts]

open Cert.ReferenceIdeal.Facts₀ Cert.ReferenceIdeal.Facts

/-- The 24 argument arrays, by position. -/
structure Args (F : FTy → Type) [FloatOps F] where
  a0 : (⟨S80000x7, .f32⟩ : BufTy).Contents (Elt F)
  a1 : (⟨S20000x4, .f32⟩ : BufTy).Contents (Elt F)
  a2 : (⟨S4x7, .f32⟩ : BufTy).Contents (Elt F)
  a3 : (⟨S7, .f32⟩ : BufTy).Contents (Elt F)
  a4 : (⟨S4x7x128, .f32⟩ : BufTy).Contents (Elt F)
  a5 : (⟨S4x128, .f32⟩ : BufTy).Contents (Elt F)
  a6 : (⟨S4x128, .f32⟩ : BufTy).Contents (Elt F)
  a7 : (⟨S4x128, .f32⟩ : BufTy).Contents (Elt F)
  a8 : (⟨S4x128x128, .f32⟩ : BufTy).Contents (Elt F)
  a9 : (⟨S4x128, .f32⟩ : BufTy).Contents (Elt F)
  a10 : (⟨S2x4x128x128, .f32⟩ : BufTy).Contents (Elt F)
  a11 : (⟨S2x4x128, .f32⟩ : BufTy).Contents (Elt F)
  a12 : (⟨S2x4x128, .f32⟩ : BufTy).Contents (Elt F)
  a13 : (⟨S2x4x128, .f32⟩ : BufTy).Contents (Elt F)
  a14 : (⟨S2x4x128x128, .f32⟩ : BufTy).Contents (Elt F)
  a15 : (⟨S2x4x128, .f32⟩ : BufTy).Contents (Elt F)
  a16 : (⟨S128x128, .f32⟩ : BufTy).Contents (Elt F)
  a17 : (⟨S128, .f32⟩ : BufTy).Contents (Elt F)
  a18 : (⟨S128x128, .f32⟩ : BufTy).Contents (Elt F)
  a19 : (⟨S128, .f32⟩ : BufTy).Contents (Elt F)
  a20 : (⟨S2x1000000, .i32⟩ : BufTy).Contents (Elt F)
  a21 : (⟨S2x300000, .i32⟩ : BufTy).Contents (Elt F)
  a22 : (⟨S2x300000, .i32⟩ : BufTy).Contents (Elt F)
  a23 : (⟨S2x100000, .i32⟩ : BufTy).Contents (Elt F)

def g_v3 (A : Args F) : (⟨S20000x7, .f32⟩ : BufTy).Contents (Elt F) :=
  Spec.linA A.a1 A.a2 A.a3
def g_c (A : Args F) : (⟨S_, .i32⟩ : BufTy).Contents (Elt F) :=
  (constantI S_ 32 0#32)
def g_v17 (A : Args F) : (⟨S80000x7, .f32⟩ : BufTy).Contents (Elt F) :=
  ((fun x i u => Host.scatterAdd scatter_S80000x7_S1000000x1_S1000000x7_1_0_0_1 x i u) (broadcastInDim S80000x7 ![] bcast_S_S80000x7 (constant (F := F) S_ .f32 0x00000000#32)) (broadcastInDim S1000000x1 ![0] bcast_S1000000_S1000000x1_0 (shapeCast S1000000 ((extractStridedSlice S1x1000000 ![1, 0] · slices_S2x1000000_S1x1000000_1_0) A.a20) shapeCasts_S1x1000000_S1000000)) ((fun x i => Host.gather gather_S80000x7_S1000000x1_S1000000x7_1_0_n_n_0_1_17 x i) A.a0 (broadcastInDim S1000000x1 ![0] bcast_S1000000_S1000000x1_0 (select (cmpi .slt (shapeCast S1000000 ((extractStridedSlice S1x1000000 ![0, 0] · slices_S2x1000000_S1x1000000_0_0) A.a20) shapeCasts_S1x1000000_S1000000) (broadcastInDim S1000000 ![] bcast_S_S1000000 (g_c A))) (addi (shapeCast S1000000 ((extractStridedSlice S1x1000000 ![0, 0] · slices_S2x1000000_S1x1000000_0_0) A.a20) shapeCasts_S1x1000000_S1000000) (broadcastInDim S1000000 ![] bcast_S_S1000000 (constantI S_ 32 80000#32))) (shapeCast S1000000 ((extractStridedSlice S1x1000000 ![0, 0] · slices_S2x1000000_S1x1000000_0_0) A.a20) shapeCasts_S1x1000000_S1000000)))))
def g_c_1 (A : Args F) : (⟨S_, .i32⟩ : BufTy).Contents (Elt F) :=
  (constantI S_ 32 0#32)
def g_v31 (A : Args F) : (⟨S80000x7, .f32⟩ : BufTy).Contents (Elt F) :=
  ((fun x i u => Host.scatterAdd scatter_S80000x7_S300000x1_S300000x7_1_0_0_1 x i u) (broadcastInDim S80000x7 ![] bcast_S_S80000x7 (constant (F := F) S_ .f32 0x00000000#32)) (broadcastInDim S300000x1 ![0] bcast_S300000_S300000x1_0 (shapeCast S300000 ((extractStridedSlice S1x300000 ![1, 0] · slices_S2x300000_S1x300000_1_0) A.a22) shapeCasts_S1x300000_S300000)) ((fun x i => Host.gather gather_S20000x7_S300000x1_S300000x7_1_0_n_n_0_1_17 x i) (g_v3 A) (broadcastInDim S300000x1 ![0] bcast_S300000_S300000x1_0 (select (cmpi .slt (shapeCast S300000 ((extractStridedSlice S1x300000 ![0, 0] · slices_S2x300000_S1x300000_0_0) A.a22) shapeCasts_S1x300000_S300000) (broadcastInDim S300000 ![] bcast_S_S300000 (g_c_1 A))) (addi (shapeCast S300000 ((extractStridedSlice S1x300000 ![0, 0] · slices_S2x300000_S1x300000_0_0) A.a22) shapeCasts_S1x300000_S300000) (broadcastInDim S300000 ![] bcast_S_S300000 (constantI S_ 32 20000#32))) (shapeCast S300000 ((extractStridedSlice S1x300000 ![0, 0] · slices_S2x300000_S1x300000_0_0) A.a22) shapeCasts_S1x300000_S300000)))))
def g_c_4 (A : Args F) : (⟨S_, .i32⟩ : BufTy).Contents (Elt F) :=
  (constantI S_ 32 0#32)
def g_v45 (A : Args F) : (⟨S20000x7, .f32⟩ : BufTy).Contents (Elt F) :=
  ((fun x i u => Host.scatterAdd scatter_S20000x7_S300000x1_S300000x7_1_0_0_1 x i u) (broadcastInDim S20000x7 ![] bcast_S_S20000x7 (constant (F := F) S_ .f32 0x00000000#32)) (broadcastInDim S300000x1 ![0] bcast_S300000_S300000x1_0 (shapeCast S300000 ((extractStridedSlice S1x300000 ![1, 0] · slices_S2x300000_S1x300000_1_0) A.a21) shapeCasts_S1x300000_S300000)) ((fun x i => Host.gather gather_S80000x7_S300000x1_S300000x7_1_0_n_n_0_1_17 x i) A.a0 (broadcastInDim S300000x1 ![0] bcast_S300000_S300000x1_0 (select (cmpi .slt (shapeCast S300000 ((extractStridedSlice S1x300000 ![0, 0] · slices_S2x300000_S1x300000_0_0) A.a21) shapeCasts_S1x300000_S300000) (broadcastInDim S300000 ![] bcast_S_S300000 (g_c_4 A))) (addi (shapeCast S300000 ((extractStridedSlice S1x300000 ![0, 0] · slices_S2x300000_S1x300000_0_0) A.a21) shapeCasts_S1x300000_S300000) (broadcastInDim S300000 ![] bcast_S_S300000 (constantI S_ 32 80000#32))) (shapeCast S300000 ((extractStridedSlice S1x300000 ![0, 0] · slices_S2x300000_S1x300000_0_0) A.a21) shapeCasts_S1x300000_S300000)))))
def g_v47 (A : Args F) : (⟨S100000, .i32⟩ : BufTy).Contents (Elt F) :=
  (shapeCast S100000 ((extractStridedSlice S1x100000 ![0, 0] · slices_S2x100000_S1x100000_0_0) A.a23) shapeCasts_S1x100000_S100000)
def g_c_7 (A : Args F) : (⟨S_, .i32⟩ : BufTy).Contents (Elt F) :=
  (constantI S_ 32 0#32)
def g_v49 (A : Args F) : (⟨S100000, .i1⟩ : BufTy).Contents (Elt F) :=
  (cmpi .slt (g_v47 A) (broadcastInDim S100000 ![] bcast_S_S100000 (g_c_7 A)))
def g_v59 (A : Args F) : (⟨S20000x7, .f32⟩ : BufTy).Contents (Elt F) :=
  ((fun x i u => Host.scatterAdd scatter_S20000x7_S100000x1_S100000x7_1_0_0_1 x i u) (broadcastInDim S20000x7 ![] bcast_S_S20000x7 (constant (F := F) S_ .f32 0x00000000#32)) (broadcastInDim S100000x1 ![0] bcast_S100000_S100000x1_0 (shapeCast S100000 ((extractStridedSlice S1x100000 ![1, 0] · slices_S2x100000_S1x100000_1_0) A.a23) shapeCasts_S1x100000_S100000)) ((fun x i => Host.gather gather_S20000x7_S100000x1_S100000x7_1_0_n_n_0_1_17 x i) (g_v3 A) (broadcastInDim S100000x1 ![0] bcast_S100000_S100000x1_0 (select (g_v49 A) (addi (g_v47 A) (broadcastInDim S100000 ![] bcast_S_S100000 (constantI S_ 32 20000#32))) (g_v47 A)))))
def g_v61 (A : Args F) : (⟨S7x128, .f32⟩ : BufTy).Contents (Elt F) :=
  (shapeCast S7x128 ((extractStridedSlice S1x7x128 ![0, 0, 0] · slices_S4x7x128_S1x7x128_0_0_0) A.a4) shapeCasts_S1x7x128_S7x128)
def g_v63 (A : Args F) : (⟨S128, .f32⟩ : BufTy).Contents (Elt F) :=
  (shapeCast S128 ((extractStridedSlice S1x128 ![0, 0] · slices_S4x128_S1x128_0_0) A.a5) shapeCasts_S1x128_S128)
def g_v65 (A : Args F) : (⟨S128, .f32⟩ : BufTy).Contents (Elt F) :=
  (shapeCast S128 ((extractStridedSlice S1x128 ![0, 0] · slices_S4x128_S1x128_0_0) A.a6) shapeCasts_S1x128_S128)
def g_v67 (A : Args F) : (⟨S128, .f32⟩ : BufTy).Contents (Elt F) :=
  (shapeCast S128 ((extractStridedSlice S1x128 ![0, 0] · slices_S4x128_S1x128_0_0) A.a7) shapeCasts_S1x128_S128)
def g_v69 (A : Args F) : (⟨S128x128, .f32⟩ : BufTy).Contents (Elt F) :=
  (shapeCast S128x128 ((extractStridedSlice S1x128x128 ![0, 0, 0] · slices_S4x128x128_S1x128x128_0_0_0) A.a8) shapeCasts_S1x128x128_S128x128)
def g_v71 (A : Args F) : (⟨S128, .f32⟩ : BufTy).Contents (Elt F) :=
  (shapeCast S128 ((extractStridedSlice S1x128 ![0, 0] · slices_S4x128_S1x128_0_0) A.a9) shapeCasts_S1x128_S128)
def g_v75 (A : Args F) : (⟨S80000x128, .f32⟩ : BufTy).Contents (Elt F) :=
  Spec.linB (g_v17 A) (g_v61 A) (g_v63 A)
def g_v78 (A : Args F) : (⟨S128, .f32⟩ : BufTy).Contents (Elt F) :=
  (Host.divf ((fun x v => Host.reduceAdd x v reducesTo_S80000x128_S128_d0 h_S_) (g_v75 A) (constant (F := F) S_ .f32 0x00000000#32)) (broadcastInDim S128 ![] bcast_S_S128 (constant (F := F) S_ .f32 0x479C4000#32)))
def g_c_12 (A : Args F) : (⟨S_, .i32⟩ : BufTy).Contents (Elt F) :=
  (constantI S_ 32 0#32)
def g_v79 (A : Args F) : (⟨S128, .f32⟩ : BufTy).Contents (Elt F) :=
  ((fun p a b => select (broadcastInDim S128 ![] bcast_S_S128 p) a b) ((cmpf .ogt) (subf (constant (F := F) S_ .f32 0x479C4000#32) ((sitofp .f32) (g_c_12 A))) (constant (F := F) S_ .f32 0x00000000#32)) (Host.divf ((fun x v => Host.reduceAdd x v reducesTo_S80000x128_S128_d0 h_S_) (mulf (subf (g_v75 A) ((broadcastInDim S80000x128 ![0, 1] bcast_S1x128_S80000x128_0_1) (Host.divf ((broadcastInDim S1x128 ![1] bcast_S128_S1x128_1) ((fun x v => Host.reduceAdd x v reducesTo_S80000x128_S128_d0 h_S_) (g_v75 A) (constant (F := F) S_ .f32 0x00000000#32))) ((broadcastInDim S1x128 ![] bcast_S_S1x128) (constant (F := F) S_ .f32 0x479C4000#32))))) (subf (g_v75 A) ((broadcastInDim S80000x128 ![0, 1] bcast_S1x128_S80000x128_0_1) (Host.divf ((broadcastInDim S1x128 ![1] bcast_S128_S1x128_1) ((fun x v => Host.reduceAdd x v reducesTo_S80000x128_S128_d0 h_S_) (g_v75 A) (constant (F := F) S_ .f32 0x00000000#32))) ((broadcastInDim S1x128 ![] bcast_S_S1x128) (constant (F := F) S_ .f32 0x479C4000#32)))))) (constant (F := F) S_ .f32 0x00000000#32)) ((broadcastInDim S128 ![] bcast_S_S128) (subf (constant (F := F) S_ .f32 0x479C4000#32) ((sitofp .f32) (g_c_12 A))))) ((broadcastInDim S128 ![] bcast_S_S128) (id (constant (F := F) S_ .f32 0x7FC00000#32))))
def g_v99 (A : Args F) : (⟨S80000x128, .f32⟩ : BufTy).Contents (Elt F) :=
  (addf ((fun l r => Host.dotGeneral dot_S80000x128_S128x128_S80000x128_1_0_0_1_n_n none l r) (maximumf (addf (mulf (mulf (broadcastInDim S80000x128 ![0, 1] bcast_S1x128_S80000x128_0_1 (broadcastInDim S1x128 ![1] bcast_S128_S1x128_1 (g_v65 A))) (subf (g_v75 A) (broadcastInDim S80000x128 ![0, 1] bcast_S1x128_S80000x128_0_1 (broadcastInDim S1x128 ![1] bcast_S128_S1x128_1 (g_v78 A))))) (broadcastInDim S80000x128 ![0, 1] bcast_S1x128_S80000x128_0_1 (broadcastInDim S1x128 ![1] bcast_S128_S1x128_1 (Host.rsqrt (addf (g_v79 A) (broadcastInDim S128 ![] bcast_S_S128 (constant (F := F) S_ .f32 0x3727C5AC#32))))))) (broadcastInDim S80000x128 ![0, 1] bcast_S1x128_S80000x128_0_1 (broadcastInDim S1x128 ![1] bcast_S128_S1x128_1 (g_v67 A)))) ((broadcastInDim S80000x128 ![] bcast_S_S80000x128) (constant (F := F) S_ .f32 0x00000000#32))) (g_v69 A)) (broadcastInDim S80000x128 ![0, 1] bcast_S1x128_S80000x128_0_1 (broadcastInDim S1x128 ![1] bcast_S128_S1x128_1 (g_v71 A))))
def g_v101 (A : Args F) : (⟨S7x128, .f32⟩ : BufTy).Contents (Elt F) :=
  (shapeCast S7x128 ((extractStridedSlice S1x7x128 ![2, 0, 0] · slices_S4x7x128_S1x7x128_2_0_0) A.a4) shapeCasts_S1x7x128_S7x128)
def g_v103 (A : Args F) : (⟨S128, .f32⟩ : BufTy).Contents (Elt F) :=
  (shapeCast S128 ((extractStridedSlice S1x128 ![2, 0] · slices_S4x128_S1x128_2_0) A.a5) shapeCasts_S1x128_S128)
def g_v105 (A : Args F) : (⟨S128, .f32⟩ : BufTy).Contents (Elt F) :=
  (shapeCast S128 ((extractStridedSlice S1x128 ![2, 0] · slices_S4x128_S1x128_2_0) A.a6) shapeCasts_S1x128_S128)
def g_v107 (A : Args F) : (⟨S128, .f32⟩ : BufTy).Contents (Elt F) :=
  (shapeCast S128 ((extractStridedSlice S1x128 ![2, 0] · slices_S4x128_S1x128_2_0) A.a7) shapeCasts_S1x128_S128)
def g_v109 (A : Args F) : (⟨S128x128, .f32⟩ : BufTy).Contents (Elt F) :=
  (shapeCast S128x128 ((extractStridedSlice S1x128x128 ![2, 0, 0] · slices_S4x128x128_S1x128x128_2_0_0) A.a8) shapeCasts_S1x128x128_S128x128)
def g_v111 (A : Args F) : (⟨S128, .f32⟩ : BufTy).Contents (Elt F) :=
  (shapeCast S128 ((extractStridedSlice S1x128 ![2, 0] · slices_S4x128_S1x128_2_0) A.a9) shapeCasts_S1x128_S128)
def g_v115 (A : Args F) : (⟨S80000x128, .f32⟩ : BufTy).Contents (Elt F) :=
  Spec.linB (g_v31 A) (g_v101 A) (g_v103 A)
def g_v118 (A : Args F) : (⟨S128, .f32⟩ : BufTy).Contents (Elt F) :=
  (Host.divf ((fun x v => Host.reduceAdd x v reducesTo_S80000x128_S128_d0 h_S_) (g_v115 A) (constant (F := F) S_ .f32 0x00000000#32)) (broadcastInDim S128 ![] bcast_S_S128 (constant (F := F) S_ .f32 0x479C4000#32)))
def g_c_16 (A : Args F) : (⟨S_, .i32⟩ : BufTy).Contents (Elt F) :=
  (constantI S_ 32 0#32)
def g_v119 (A : Args F) : (⟨S128, .f32⟩ : BufTy).Contents (Elt F) :=
  ((fun p a b => select (broadcastInDim S128 ![] bcast_S_S128 p) a b) ((cmpf .ogt) (subf (constant (F := F) S_ .f32 0x479C4000#32) ((sitofp .f32) (g_c_16 A))) (constant (F := F) S_ .f32 0x00000000#32)) (Host.divf ((fun x v => Host.reduceAdd x v reducesTo_S80000x128_S128_d0 h_S_) (mulf (subf (g_v115 A) ((broadcastInDim S80000x128 ![0, 1] bcast_S1x128_S80000x128_0_1) (Host.divf ((broadcastInDim S1x128 ![1] bcast_S128_S1x128_1) ((fun x v => Host.reduceAdd x v reducesTo_S80000x128_S128_d0 h_S_) (g_v115 A) (constant (F := F) S_ .f32 0x00000000#32))) ((broadcastInDim S1x128 ![] bcast_S_S1x128) (constant (F := F) S_ .f32 0x479C4000#32))))) (subf (g_v115 A) ((broadcastInDim S80000x128 ![0, 1] bcast_S1x128_S80000x128_0_1) (Host.divf ((broadcastInDim S1x128 ![1] bcast_S128_S1x128_1) ((fun x v => Host.reduceAdd x v reducesTo_S80000x128_S128_d0 h_S_) (g_v115 A) (constant (F := F) S_ .f32 0x00000000#32))) ((broadcastInDim S1x128 ![] bcast_S_S1x128) (constant (F := F) S_ .f32 0x479C4000#32)))))) (constant (F := F) S_ .f32 0x00000000#32)) ((broadcastInDim S128 ![] bcast_S_S128) (subf (constant (F := F) S_ .f32 0x479C4000#32) ((sitofp .f32) (g_c_16 A))))) ((broadcastInDim S128 ![] bcast_S_S128) (id (constant (F := F) S_ .f32 0x7FC00000#32))))
def g_v141 (A : Args F) : (⟨S80000x128, .f32⟩ : BufTy).Contents (Elt F) :=
  Spec.combOp (g_v75 A) (g_v78 A) (g_v79 A) (g_v65 A) (g_v67 A) (g_v69 A) (g_v71 A) (g_v115 A) (g_v118 A) (g_v119 A) (g_v105 A) (g_v107 A) (g_v109 A) (g_v111 A)
def g_v143 (A : Args F) : (⟨S7x128, .f32⟩ : BufTy).Contents (Elt F) :=
  (shapeCast S7x128 ((extractStridedSlice S1x7x128 ![1, 0, 0] · slices_S4x7x128_S1x7x128_1_0_0) A.a4) shapeCasts_S1x7x128_S7x128)
def g_v145 (A : Args F) : (⟨S128, .f32⟩ : BufTy).Contents (Elt F) :=
  (shapeCast S128 ((extractStridedSlice S1x128 ![1, 0] · slices_S4x128_S1x128_1_0) A.a5) shapeCasts_S1x128_S128)
def g_v147 (A : Args F) : (⟨S128, .f32⟩ : BufTy).Contents (Elt F) :=
  (shapeCast S128 ((extractStridedSlice S1x128 ![1, 0] · slices_S4x128_S1x128_1_0) A.a6) shapeCasts_S1x128_S128)
def g_v149 (A : Args F) : (⟨S128, .f32⟩ : BufTy).Contents (Elt F) :=
  (shapeCast S128 ((extractStridedSlice S1x128 ![1, 0] · slices_S4x128_S1x128_1_0) A.a7) shapeCasts_S1x128_S128)
def g_v151 (A : Args F) : (⟨S128x128, .f32⟩ : BufTy).Contents (Elt F) :=
  (shapeCast S128x128 ((extractStridedSlice S1x128x128 ![1, 0, 0] · slices_S4x128x128_S1x128x128_1_0_0) A.a8) shapeCasts_S1x128x128_S128x128)
def g_v153 (A : Args F) : (⟨S128, .f32⟩ : BufTy).Contents (Elt F) :=
  (shapeCast S128 ((extractStridedSlice S1x128 ![1, 0] · slices_S4x128_S1x128_1_0) A.a9) shapeCasts_S1x128_S128)
def g_v157 (A : Args F) : (⟨S20000x128, .f32⟩ : BufTy).Contents (Elt F) :=
  Spec.linC (g_v45 A) (g_v143 A) (g_v145 A)
def g_v158 (A : Args F) : (⟨S128, .f32⟩ : BufTy).Contents (Elt F) :=
  ((fun x v => Host.reduceAdd x v reducesTo_S20000x128_S128_d0 h_S_) (g_v157 A) (constant (F := F) S_ .f32 0x00000000#32))
def g_v160 (A : Args F) : (⟨S128, .f32⟩ : BufTy).Contents (Elt F) :=
  (Host.divf (g_v158 A) (broadcastInDim S128 ![] bcast_S_S128 (constant (F := F) S_ .f32 0x469C4000#32)))
def g_c_20 (A : Args F) : (⟨S_, .i32⟩ : BufTy).Contents (Elt F) :=
  (constantI S_ 32 0#32)
def g_v161 (A : Args F) : (⟨S128, .f32⟩ : BufTy).Contents (Elt F) :=
  ((fun p a b => select (broadcastInDim S128 ![] bcast_S_S128 p) a b) ((cmpf .ogt) (subf (constant (F := F) S_ .f32 0x469C4000#32) ((sitofp .f32) (g_c_20 A))) (constant (F := F) S_ .f32 0x00000000#32)) (Host.divf ((fun x v => Host.reduceAdd x v reducesTo_S20000x128_S128_d0 h_S_) (mulf (subf (g_v157 A) ((broadcastInDim S20000x128 ![0, 1] bcast_S1x128_S20000x128_0_1) (Host.divf ((broadcastInDim S1x128 ![1] bcast_S128_S1x128_1) ((fun x v => Host.reduceAdd x v reducesTo_S20000x128_S128_d0 h_S_) (g_v157 A) (constant (F := F) S_ .f32 0x00000000#32))) ((broadcastInDim S1x128 ![] bcast_S_S1x128) (constant (F := F) S_ .f32 0x469C4000#32))))) (subf (g_v157 A) ((broadcastInDim S20000x128 ![0, 1] bcast_S1x128_S20000x128_0_1) (Host.divf ((broadcastInDim S1x128 ![1] bcast_S128_S1x128_1) ((fun x v => Host.reduceAdd x v reducesTo_S20000x128_S128_d0 h_S_) (g_v157 A) (constant (F := F) S_ .f32 0x00000000#32))) ((broadcastInDim S1x128 ![] bcast_S_S1x128) (constant (F := F) S_ .f32 0x469C4000#32)))))) (constant (F := F) S_ .f32 0x00000000#32)) ((broadcastInDim S128 ![] bcast_S_S128) (subf (constant (F := F) S_ .f32 0x469C4000#32) ((sitofp .f32) (g_c_20 A))))) ((broadcastInDim S128 ![] bcast_S_S128) (id (constant (F := F) S_ .f32 0x7FC00000#32))))
def g_v181 (A : Args F) : (⟨S20000x128, .f32⟩ : BufTy).Contents (Elt F) :=
  (addf ((fun l r => Host.dotGeneral dot_S20000x128_S128x128_S20000x128_1_0_0_1_n_n none l r) (maximumf (addf (mulf (mulf (broadcastInDim S20000x128 ![0, 1] bcast_S1x128_S20000x128_0_1 (broadcastInDim S1x128 ![1] bcast_S128_S1x128_1 (g_v147 A))) (subf (g_v157 A) (broadcastInDim S20000x128 ![0, 1] bcast_S1x128_S20000x128_0_1 (broadcastInDim S1x128 ![1] bcast_S128_S1x128_1 (g_v160 A))))) (broadcastInDim S20000x128 ![0, 1] bcast_S1x128_S20000x128_0_1 (broadcastInDim S1x128 ![1] bcast_S128_S1x128_1 (Host.rsqrt (addf (g_v161 A) (broadcastInDim S128 ![] bcast_S_S128 (constant (F := F) S_ .f32 0x3727C5AC#32))))))) (broadcastInDim S20000x128 ![0, 1] bcast_S1x128_S20000x128_0_1 (broadcastInDim S1x128 ![1] bcast_S128_S1x128_1 (g_v149 A)))) ((broadcastInDim S20000x128 ![] bcast_S_S20000x128) (constant (F := F) S_ .f32 0x00000000#32))) (g_v151 A)) (broadcastInDim S20000x128 ![0, 1] bcast_S1x128_S20000x128_0_1 (broadcastInDim S1x128 ![1] bcast_S128_S1x128_1 (g_v153 A))))
def g_v183 (A : Args F) : (⟨S7x128, .f32⟩ : BufTy).Contents (Elt F) :=
  (shapeCast S7x128 ((extractStridedSlice S1x7x128 ![3, 0, 0] · slices_S4x7x128_S1x7x128_3_0_0) A.a4) shapeCasts_S1x7x128_S7x128)
def g_v185 (A : Args F) : (⟨S128, .f32⟩ : BufTy).Contents (Elt F) :=
  (shapeCast S128 ((extractStridedSlice S1x128 ![3, 0] · slices_S4x128_S1x128_3_0) A.a5) shapeCasts_S1x128_S128)
def g_v187 (A : Args F) : (⟨S128, .f32⟩ : BufTy).Contents (Elt F) :=
  (shapeCast S128 ((extractStridedSlice S1x128 ![3, 0] · slices_S4x128_S1x128_3_0) A.a6) shapeCasts_S1x128_S128)
def g_v189 (A : Args F) : (⟨S128, .f32⟩ : BufTy).Contents (Elt F) :=
  (shapeCast S128 ((extractStridedSlice S1x128 ![3, 0] · slices_S4x128_S1x128_3_0) A.a7) shapeCasts_S1x128_S128)
def g_v191 (A : Args F) : (⟨S128x128, .f32⟩ : BufTy).Contents (Elt F) :=
  (shapeCast S128x128 ((extractStridedSlice S1x128x128 ![3, 0, 0] · slices_S4x128x128_S1x128x128_3_0_0) A.a8) shapeCasts_S1x128x128_S128x128)
def g_v193 (A : Args F) : (⟨S128, .f32⟩ : BufTy).Contents (Elt F) :=
  (shapeCast S128 ((extractStridedSlice S1x128 ![3, 0] · slices_S4x128_S1x128_3_0) A.a9) shapeCasts_S1x128_S128)
def g_v197 (A : Args F) : (⟨S20000x128, .f32⟩ : BufTy).Contents (Elt F) :=
  Spec.linC (g_v59 A) (g_v183 A) (g_v185 A)
def g_v200 (A : Args F) : (⟨S128, .f32⟩ : BufTy).Contents (Elt F) :=
  (Host.divf ((fun x v => Host.reduceAdd x v reducesTo_S20000x128_S128_d0 h_S_) (g_v197 A) (constant (F := F) S_ .f32 0x00000000#32)) (broadcastInDim S128 ![] bcast_S_S128 (constant (F := F) S_ .f32 0x469C4000#32)))
def g_c_24 (A : Args F) : (⟨S_, .i32⟩ : BufTy).Contents (Elt F) :=
  (constantI S_ 32 0#32)
def g_v201 (A : Args F) : (⟨S128, .f32⟩ : BufTy).Contents (Elt F) :=
  ((fun p a b => select (broadcastInDim S128 ![] bcast_S_S128 p) a b) ((cmpf .ogt) (subf (constant (F := F) S_ .f32 0x469C4000#32) ((sitofp .f32) (g_c_24 A))) (constant (F := F) S_ .f32 0x00000000#32)) (Host.divf ((fun x v => Host.reduceAdd x v reducesTo_S20000x128_S128_d0 h_S_) (mulf (subf (g_v197 A) ((broadcastInDim S20000x128 ![0, 1] bcast_S1x128_S20000x128_0_1) (Host.divf ((broadcastInDim S1x128 ![1] bcast_S128_S1x128_1) ((fun x v => Host.reduceAdd x v reducesTo_S20000x128_S128_d0 h_S_) (g_v197 A) (constant (F := F) S_ .f32 0x00000000#32))) ((broadcastInDim S1x128 ![] bcast_S_S1x128) (constant (F := F) S_ .f32 0x469C4000#32))))) (subf (g_v197 A) ((broadcastInDim S20000x128 ![0, 1] bcast_S1x128_S20000x128_0_1) (Host.divf ((broadcastInDim S1x128 ![1] bcast_S128_S1x128_1) ((fun x v => Host.reduceAdd x v reducesTo_S20000x128_S128_d0 h_S_) (g_v197 A) (constant (F := F) S_ .f32 0x00000000#32))) ((broadcastInDim S1x128 ![] bcast_S_S1x128) (constant (F := F) S_ .f32 0x469C4000#32)))))) (constant (F := F) S_ .f32 0x00000000#32)) ((broadcastInDim S128 ![] bcast_S_S128) (subf (constant (F := F) S_ .f32 0x469C4000#32) ((sitofp .f32) (g_c_24 A))))) ((broadcastInDim S128 ![] bcast_S_S128) (id (constant (F := F) S_ .f32 0x7FC00000#32))))
def g_v207 (A : Args F) : (⟨S20000x128, .f32⟩ : BufTy).Contents (Elt F) :=
  (mulf (broadcastInDim S20000x128 ![0, 1] bcast_S1x128_S20000x128_0_1 (broadcastInDim S1x128 ![1] bcast_S128_S1x128_1 (g_v187 A))) (subf (g_v197 A) (broadcastInDim S20000x128 ![0, 1] bcast_S1x128_S20000x128_0_1 (broadcastInDim S1x128 ![1] bcast_S128_S1x128_1 (g_v200 A)))))
def g_v211 (A : Args F) : (⟨S1x128, .f32⟩ : BufTy).Contents (Elt F) :=
  (broadcastInDim S1x128 ![1] bcast_S128_S1x128_1 (Host.rsqrt (addf (g_v201 A) (broadcastInDim S128 ![] bcast_S_S128 (constant (F := F) S_ .f32 0x3727C5AC#32)))))
def g_v223 (A : Args F) : (⟨S20000x128, .f32⟩ : BufTy).Contents (Elt F) :=
  Spec.combM (g_v157 A) (g_v160 A) (g_v161 A) (g_v147 A) (g_v149 A) (g_v151 A) (g_v153 A) (g_v197 A) (g_v200 A) (g_v201 A) (g_v187 A) (g_v189 A) (g_v191 A) (g_v193 A)
def g_v225 (A : Args F) : (⟨S4x128x128, .f32⟩ : BufTy).Contents (Elt F) :=
  (shapeCast S4x128x128 ((extractStridedSlice S1x4x128x128 ![0, 0, 0, 0] · slices_S2x4x128x128_S1x4x128x128_0_0_0_0) A.a10) shapeCasts_S1x4x128x128_S4x128x128)
def g_v227 (A : Args F) : (⟨S4x128, .f32⟩ : BufTy).Contents (Elt F) :=
  (shapeCast S4x128 ((extractStridedSlice S1x4x128 ![0, 0, 0] · slices_S2x4x128_S1x4x128_0_0_0) A.a11) shapeCasts_S1x4x128_S4x128)
def g_v229 (A : Args F) : (⟨S4x128, .f32⟩ : BufTy).Contents (Elt F) :=
  (shapeCast S4x128 ((extractStridedSlice S1x4x128 ![0, 0, 0] · slices_S2x4x128_S1x4x128_0_0_0) A.a12) shapeCasts_S1x4x128_S4x128)
def g_v231 (A : Args F) : (⟨S4x128, .f32⟩ : BufTy).Contents (Elt F) :=
  (shapeCast S4x128 ((extractStridedSlice S1x4x128 ![0, 0, 0] · slices_S2x4x128_S1x4x128_0_0_0) A.a13) shapeCasts_S1x4x128_S4x128)
def g_v233 (A : Args F) : (⟨S4x128x128, .f32⟩ : BufTy).Contents (Elt F) :=
  (shapeCast S4x128x128 ((extractStridedSlice S1x4x128x128 ![0, 0, 0, 0] · slices_S2x4x128x128_S1x4x128x128_0_0_0_0) A.a14) shapeCasts_S1x4x128x128_S4x128x128)
def g_v235 (A : Args F) : (⟨S4x128, .f32⟩ : BufTy).Contents (Elt F) :=
  (shapeCast S4x128 ((extractStridedSlice S1x4x128 ![0, 0, 0] · slices_S2x4x128_S1x4x128_0_0_0) A.a15) shapeCasts_S1x4x128_S4x128)
def g_c_26 (A : Args F) : (⟨S_, .i32⟩ : BufTy).Contents (Elt F) :=
  (constantI S_ 32 0#32)
def g_v249 (A : Args F) : (⟨S80000x128, .f32⟩ : BufTy).Contents (Elt F) :=
  ((fun x i u => Host.scatterAdd scatter_S80000x128_S1000000x1_S1000000x128_1_0_0_1 x i u) (broadcastInDim S80000x128 ![] bcast_S_S80000x128 (constant (F := F) S_ .f32 0x00000000#32)) (broadcastInDim S1000000x1 ![0] bcast_S1000000_S1000000x1_0 (shapeCast S1000000 ((extractStridedSlice S1x1000000 ![1, 0] · slices_S2x1000000_S1x1000000_1_0) A.a20) shapeCasts_S1x1000000_S1000000)) ((fun x i => Host.gather gather_S80000x128_S1000000x1_S1000000x128_1_0_n_n_0_1_1128 x i) (g_v141 A) (broadcastInDim S1000000x1 ![0] bcast_S1000000_S1000000x1_0 (select (cmpi .slt (shapeCast S1000000 ((extractStridedSlice S1x1000000 ![0, 0] · slices_S2x1000000_S1x1000000_0_0) A.a20) shapeCasts_S1x1000000_S1000000) (broadcastInDim S1000000 ![] bcast_S_S1000000 (g_c_26 A))) (addi (shapeCast S1000000 ((extractStridedSlice S1x1000000 ![0, 0] · slices_S2x1000000_S1x1000000_0_0) A.a20) shapeCasts_S1x1000000_S1000000) (broadcastInDim S1000000 ![] bcast_S_S1000000 (constantI S_ 32 80000#32))) (shapeCast S1000000 ((extractStridedSlice S1x1000000 ![0, 0] · slices_S2x1000000_S1x1000000_0_0) A.a20) shapeCasts_S1x1000000_S1000000)))))
def g_c_29 (A : Args F) : (⟨S_, .i32⟩ : BufTy).Contents (Elt F) :=
  (constantI S_ 32 0#32)
def g_v263 (A : Args F) : (⟨S80000x128, .f32⟩ : BufTy).Contents (Elt F) :=
  ((fun x i u => Host.scatterAdd scatter_S80000x128_S300000x1_S300000x128_1_0_0_1 x i u) (broadcastInDim S80000x128 ![] bcast_S_S80000x128 (constant (F := F) S_ .f32 0x00000000#32)) (broadcastInDim S300000x1 ![0] bcast_S300000_S300000x1_0 (shapeCast S300000 ((extractStridedSlice S1x300000 ![1, 0] · slices_S2x300000_S1x300000_1_0) A.a22) shapeCasts_S1x300000_S300000)) ((fun x i => Host.gather gather_S20000x128_S300000x1_S300000x128_1_0_n_n_0_1_1128 x i) (g_v223 A) (broadcastInDim S300000x1 ![0] bcast_S300000_S300000x1_0 (select (cmpi .slt (shapeCast S300000 ((extractStridedSlice S1x300000 ![0, 0] · slices_S2x300000_S1x300000_0_0) A.a22) shapeCasts_S1x300000_S300000) (broadcastInDim S300000 ![] bcast_S_S300000 (g_c_29 A))) (addi (shapeCast S300000 ((extractStridedSlice S1x300000 ![0, 0] · slices_S2x300000_S1x300000_0_0) A.a22) shapeCasts_S1x300000_S300000) (broadcastInDim S300000 ![] bcast_S_S300000 (constantI S_ 32 20000#32))) (shapeCast S300000 ((extractStridedSlice S1x300000 ![0, 0] · slices_S2x300000_S1x300000_0_0) A.a22) shapeCasts_S1x300000_S300000)))))
def g_v265 (A : Args F) : (⟨S300000, .i32⟩ : BufTy).Contents (Elt F) :=
  (shapeCast S300000 ((extractStridedSlice S1x300000 ![0, 0] · slices_S2x300000_S1x300000_0_0) A.a21) shapeCasts_S1x300000_S300000)
def g_c_32 (A : Args F) : (⟨S_, .i32⟩ : BufTy).Contents (Elt F) :=
  (constantI S_ 32 0#32)
def g_v277 (A : Args F) : (⟨S20000x128, .f32⟩ : BufTy).Contents (Elt F) :=
  ((fun x i u => Host.scatterAdd scatter_S20000x128_S300000x1_S300000x128_1_0_0_1 x i u) (broadcastInDim S20000x128 ![] bcast_S_S20000x128 (constant (F := F) S_ .f32 0x00000000#32)) (broadcastInDim S300000x1 ![0] bcast_S300000_S300000x1_0 (shapeCast S300000 ((extractStridedSlice S1x300000 ![1, 0] · slices_S2x300000_S1x300000_1_0) A.a21) shapeCasts_S1x300000_S300000)) ((fun x i => Host.gather gather_S80000x128_S300000x1_S300000x128_1_0_n_n_0_1_1128 x i) (g_v141 A) (broadcastInDim S300000x1 ![0] bcast_S300000_S300000x1_0 (select (cmpi .slt (g_v265 A) (broadcastInDim S300000 ![] bcast_S_S300000 (g_c_32 A))) (addi (g_v265 A) (broadcastInDim S300000 ![] bcast_S_S300000 (constantI S_ 32 80000#32))) (g_v265 A)))))
def g_c_35 (A : Args F) : (⟨S_, .i32⟩ : BufTy).Contents (Elt F) :=
  (constantI S_ 32 0#32)
def g_v291 (A : Args F) : (⟨S20000x128, .f32⟩ : BufTy).Contents (Elt F) :=
  ((fun x i u => Host.scatterAdd scatter_S20000x128_S100000x1_S100000x128_1_0_0_1 x i u) (broadcastInDim S20000x128 ![] bcast_S_S20000x128 (constant (F := F) S_ .f32 0x00000000#32)) (broadcastInDim S100000x1 ![0] bcast_S100000_S100000x1_0 (shapeCast S100000 ((extractStridedSlice S1x100000 ![1, 0] · slices_S2x100000_S1x100000_1_0) A.a23) shapeCasts_S1x100000_S100000)) ((fun x i => Host.gather gather_S20000x128_S100000x1_S100000x128_1_0_n_n_0_1_1128 x i) (g_v223 A) (broadcastInDim S100000x1 ![0] bcast_S100000_S100000x1_0 (select (cmpi .slt (shapeCast S100000 ((extractStridedSlice S1x100000 ![0, 0] · slices_S2x100000_S1x100000_0_0) A.a23) shapeCasts_S1x100000_S100000) (broadcastInDim S100000 ![] bcast_S_S100000 (g_c_35 A))) (addi (shapeCast S100000 ((extractStridedSlice S1x100000 ![0, 0] · slices_S2x100000_S1x100000_0_0) A.a23) shapeCasts_S1x100000_S100000) (broadcastInDim S100000 ![] bcast_S_S100000 (constantI S_ 32 20000#32))) (shapeCast S100000 ((extractStridedSlice S1x100000 ![0, 0] · slices_S2x100000_S1x100000_0_0) A.a23) shapeCasts_S1x100000_S100000)))))
def g_v293 (A : Args F) : (⟨S128x128, .f32⟩ : BufTy).Contents (Elt F) :=
  (shapeCast S128x128 ((extractStridedSlice S1x128x128 ![0, 0, 0] · slices_S4x128x128_S1x128x128_0_0_0) (g_v225 A)) shapeCasts_S1x128x128_S128x128)
def g_v295 (A : Args F) : (⟨S128, .f32⟩ : BufTy).Contents (Elt F) :=
  (shapeCast S128 ((extractStridedSlice S1x128 ![0, 0] · slices_S4x128_S1x128_0_0) (g_v227 A)) shapeCasts_S1x128_S128)
def g_v297 (A : Args F) : (⟨S128, .f32⟩ : BufTy).Contents (Elt F) :=
  (shapeCast S128 ((extractStridedSlice S1x128 ![0, 0] · slices_S4x128_S1x128_0_0) (g_v229 A)) shapeCasts_S1x128_S128)
def g_v299 (A : Args F) : (⟨S128, .f32⟩ : BufTy).Contents (Elt F) :=
  (shapeCast S128 ((extractStridedSlice S1x128 ![0, 0] · slices_S4x128_S1x128_0_0) (g_v231 A)) shapeCasts_S1x128_S128)
def g_v301 (A : Args F) : (⟨S128x128, .f32⟩ : BufTy).Contents (Elt F) :=
  (shapeCast S128x128 ((extractStridedSlice S1x128x128 ![0, 0, 0] · slices_S4x128x128_S1x128x128_0_0_0) (g_v233 A)) shapeCasts_S1x128x128_S128x128)
def g_v303 (A : Args F) : (⟨S128, .f32⟩ : BufTy).Contents (Elt F) :=
  (shapeCast S128 ((extractStridedSlice S1x128 ![0, 0] · slices_S4x128_S1x128_0_0) (g_v235 A)) shapeCasts_S1x128_S128)
def g_v307 (A : Args F) : (⟨S80000x128, .f32⟩ : BufTy).Contents (Elt F) :=
  Spec.linD (g_v249 A) (g_v293 A) (g_v295 A)
def g_v310 (A : Args F) : (⟨S128, .f32⟩ : BufTy).Contents (Elt F) :=
  (Host.divf ((fun x v => Host.reduceAdd x v reducesTo_S80000x128_S128_d0 h_S_) (g_v307 A) (constant (F := F) S_ .f32 0x00000000#32)) (broadcastInDim S128 ![] bcast_S_S128 (constant (F := F) S_ .f32 0x479C4000#32)))
def g_v311 (A : Args F) : (⟨S128, .f32⟩ : BufTy).Contents (Elt F) :=
  ((fun p a b => select (broadcastInDim S128 ![] bcast_S_S128 p) a b) ((cmpf .ogt) (subf (constant (F := F) S_ .f32 0x479C4000#32) ((sitofp .f32) (constantI S_ 32 0#32))) (constant (F := F) S_ .f32 0x00000000#32)) (Host.divf ((fun x v => Host.reduceAdd x v reducesTo_S80000x128_S128_d0 h_S_) (mulf (subf (g_v307 A) ((broadcastInDim S80000x128 ![0, 1] bcast_S1x128_S80000x128_0_1) (Host.divf ((broadcastInDim S1x128 ![1] bcast_S128_S1x128_1) ((fun x v => Host.reduceAdd x v reducesTo_S80000x128_S128_d0 h_S_) (g_v307 A) (constant (F := F) S_ .f32 0x00000000#32))) ((broadcastInDim S1x128 ![] bcast_S_S1x128) (constant (F := F) S_ .f32 0x479C4000#32))))) (subf (g_v307 A) ((broadcastInDim S80000x128 ![0, 1] bcast_S1x128_S80000x128_0_1) (Host.divf ((broadcastInDim S1x128 ![1] bcast_S128_S1x128_1) ((fun x v => Host.reduceAdd x v reducesTo_S80000x128_S128_d0 h_S_) (g_v307 A) (constant (F := F) S_ .f32 0x00000000#32))) ((broadcastInDim S1x128 ![] bcast_S_S1x128) (constant (F := F) S_ .f32 0x479C4000#32)))))) (constant (F := F) S_ .f32 0x00000000#32)) ((broadcastInDim S128 ![] bcast_S_S128) (subf (constant (F := F) S_ .f32 0x479C4000#32) ((sitofp .f32) (constantI S_ 32 0#32))))) ((broadcastInDim S128 ![] bcast_S_S128) (id (constant (F := F) S_ .f32 0x7FC00000#32))))
def g_v314 (A : Args F) : (⟨S80000x128, .f32⟩ : BufTy).Contents (Elt F) :=
  (subf (g_v307 A) (broadcastInDim S80000x128 ![0, 1] bcast_S1x128_S80000x128_0_1 (broadcastInDim S1x128 ![1] bcast_S128_S1x128_1 (g_v310 A))))
def g_v316 (A : Args F) : (⟨S80000x128, .f32⟩ : BufTy).Contents (Elt F) :=
  (broadcastInDim S80000x128 ![0, 1] bcast_S1x128_S80000x128_0_1 (broadcastInDim S1x128 ![1] bcast_S128_S1x128_1 (g_v297 A)))
def g_v331 (A : Args F) : (⟨S80000x128, .f32⟩ : BufTy).Contents (Elt F) :=
  (addf ((fun l r => Host.dotGeneral dot_S80000x128_S128x128_S80000x128_1_0_0_1_n_n none l r) (maximumf (addf (mulf (mulf (g_v316 A) (g_v314 A)) (broadcastInDim S80000x128 ![0, 1] bcast_S1x128_S80000x128_0_1 (broadcastInDim S1x128 ![1] bcast_S128_S1x128_1 (Host.rsqrt (addf (g_v311 A) (broadcastInDim S128 ![] bcast_S_S128 (constant (F := F) S_ .f32 0x3727C5AC#32))))))) (broadcastInDim S80000x128 ![0, 1] bcast_S1x128_S80000x128_0_1 (broadcastInDim S1x128 ![1] bcast_S128_S1x128_1 (g_v299 A)))) ((broadcastInDim S80000x128 ![] bcast_S_S80000x128) (constant (F := F) S_ .f32 0x00000000#32))) (g_v301 A)) (broadcastInDim S80000x128 ![0, 1] bcast_S1x128_S80000x128_0_1 (broadcastInDim S1x128 ![1] bcast_S128_S1x128_1 (g_v303 A))))
def g_v333 (A : Args F) : (⟨S128x128, .f32⟩ : BufTy).Contents (Elt F) :=
  (shapeCast S128x128 ((extractStridedSlice S1x128x128 ![2, 0, 0] · slices_S4x128x128_S1x128x128_2_0_0) (g_v225 A)) shapeCasts_S1x128x128_S128x128)
def g_v335 (A : Args F) : (⟨S128, .f32⟩ : BufTy).Contents (Elt F) :=
  (shapeCast S128 ((extractStridedSlice S1x128 ![2, 0] · slices_S4x128_S1x128_2_0) (g_v227 A)) shapeCasts_S1x128_S128)
def g_v337 (A : Args F) : (⟨S128, .f32⟩ : BufTy).Contents (Elt F) :=
  (shapeCast S128 ((extractStridedSlice S1x128 ![2, 0] · slices_S4x128_S1x128_2_0) (g_v229 A)) shapeCasts_S1x128_S128)
def g_v339 (A : Args F) : (⟨S128, .f32⟩ : BufTy).Contents (Elt F) :=
  (shapeCast S128 ((extractStridedSlice S1x128 ![2, 0] · slices_S4x128_S1x128_2_0) (g_v231 A)) shapeCasts_S1x128_S128)
def g_v341 (A : Args F) : (⟨S128x128, .f32⟩ : BufTy).Contents (Elt F) :=
  (shapeCast S128x128 ((extractStridedSlice S1x128x128 ![2, 0, 0] · slices_S4x128x128_S1x128x128_2_0_0) (g_v233 A)) shapeCasts_S1x128x128_S128x128)
def g_v343 (A : Args F) : (⟨S128, .f32⟩ : BufTy).Contents (Elt F) :=
  (shapeCast S128 ((extractStridedSlice S1x128 ![2, 0] · slices_S4x128_S1x128_2_0) (g_v235 A)) shapeCasts_S1x128_S128)
def g_v347 (A : Args F) : (⟨S80000x128, .f32⟩ : BufTy).Contents (Elt F) :=
  Spec.linD (g_v263 A) (g_v333 A) (g_v335 A)
def g_v350 (A : Args F) : (⟨S128, .f32⟩ : BufTy).Contents (Elt F) :=
  (Host.divf ((fun x v => Host.reduceAdd x v reducesTo_S80000x128_S128_d0 h_S_) (g_v347 A) (constant (F := F) S_ .f32 0x00000000#32)) (broadcastInDim S128 ![] bcast_S_S128 (constant (F := F) S_ .f32 0x479C4000#32)))
def g_v351 (A : Args F) : (⟨S128, .f32⟩ : BufTy).Contents (Elt F) :=
  ((fun p a b => select (broadcastInDim S128 ![] bcast_S_S128 p) a b) ((cmpf .ogt) (subf (constant (F := F) S_ .f32 0x479C4000#32) ((sitofp .f32) (constantI S_ 32 0#32))) (constant (F := F) S_ .f32 0x00000000#32)) (Host.divf ((fun x v => Host.reduceAdd x v reducesTo_S80000x128_S128_d0 h_S_) (mulf (subf (g_v347 A) ((broadcastInDim S80000x128 ![0, 1] bcast_S1x128_S80000x128_0_1) (Host.divf ((broadcastInDim S1x128 ![1] bcast_S128_S1x128_1) ((fun x v => Host.reduceAdd x v reducesTo_S80000x128_S128_d0 h_S_) (g_v347 A) (constant (F := F) S_ .f32 0x00000000#32))) ((broadcastInDim S1x128 ![] bcast_S_S1x128) (constant (F := F) S_ .f32 0x479C4000#32))))) (subf (g_v347 A) ((broadcastInDim S80000x128 ![0, 1] bcast_S1x128_S80000x128_0_1) (Host.divf ((broadcastInDim S1x128 ![1] bcast_S128_S1x128_1) ((fun x v => Host.reduceAdd x v reducesTo_S80000x128_S128_d0 h_S_) (g_v347 A) (constant (F := F) S_ .f32 0x00000000#32))) ((broadcastInDim S1x128 ![] bcast_S_S1x128) (constant (F := F) S_ .f32 0x479C4000#32)))))) (constant (F := F) S_ .f32 0x00000000#32)) ((broadcastInDim S128 ![] bcast_S_S128) (subf (constant (F := F) S_ .f32 0x479C4000#32) ((sitofp .f32) (constantI S_ 32 0#32))))) ((broadcastInDim S128 ![] bcast_S_S128) (id (constant (F := F) S_ .f32 0x7FC00000#32))))
def g_v371 (A : Args F) : (⟨S80000x128, .f32⟩ : BufTy).Contents (Elt F) :=
  (addf ((fun l r => Host.dotGeneral dot_S80000x128_S128x128_S80000x128_1_0_0_1_n_n none l r) (maximumf (addf (mulf (mulf (broadcastInDim S80000x128 ![0, 1] bcast_S1x128_S80000x128_0_1 (broadcastInDim S1x128 ![1] bcast_S128_S1x128_1 (g_v337 A))) (subf (g_v347 A) (broadcastInDim S80000x128 ![0, 1] bcast_S1x128_S80000x128_0_1 (broadcastInDim S1x128 ![1] bcast_S128_S1x128_1 (g_v350 A))))) (broadcastInDim S80000x128 ![0, 1] bcast_S1x128_S80000x128_0_1 (broadcastInDim S1x128 ![1] bcast_S128_S1x128_1 (Host.rsqrt (addf (g_v351 A) (broadcastInDim S128 ![] bcast_S_S128 (constant (F := F) S_ .f32 0x3727C5AC#32))))))) (broadcastInDim S80000x128 ![0, 1] bcast_S1x128_S80000x128_0_1 (broadcastInDim S1x128 ![1] bcast_S128_S1x128_1 (g_v339 A)))) ((broadcastInDim S80000x128 ![] bcast_S_S80000x128) (constant (F := F) S_ .f32 0x00000000#32))) (g_v341 A)) (broadcastInDim S80000x128 ![0, 1] bcast_S1x128_S80000x128_0_1 (broadcastInDim S1x128 ![1] bcast_S128_S1x128_1 (g_v343 A))))
def g_v373 (A : Args F) : (⟨S80000x128, .f32⟩ : BufTy).Contents (Elt F) :=
  Spec.combOp (g_v307 A) (g_v310 A) (g_v311 A) (g_v297 A) (g_v299 A) (g_v301 A) (g_v303 A) (g_v347 A) (g_v350 A) (g_v351 A) (g_v337 A) (g_v339 A) (g_v341 A) (g_v343 A)
def g_v375 (A : Args F) : (⟨S128x128, .f32⟩ : BufTy).Contents (Elt F) :=
  (shapeCast S128x128 ((extractStridedSlice S1x128x128 ![1, 0, 0] · slices_S4x128x128_S1x128x128_1_0_0) (g_v225 A)) shapeCasts_S1x128x128_S128x128)
def g_v377 (A : Args F) : (⟨S128, .f32⟩ : BufTy).Contents (Elt F) :=
  (shapeCast S128 ((extractStridedSlice S1x128 ![1, 0] · slices_S4x128_S1x128_1_0) (g_v227 A)) shapeCasts_S1x128_S128)
def g_v379 (A : Args F) : (⟨S128, .f32⟩ : BufTy).Contents (Elt F) :=
  (shapeCast S128 ((extractStridedSlice S1x128 ![1, 0] · slices_S4x128_S1x128_1_0) (g_v229 A)) shapeCasts_S1x128_S128)
def g_v381 (A : Args F) : (⟨S128, .f32⟩ : BufTy).Contents (Elt F) :=
  (shapeCast S128 ((extractStridedSlice S1x128 ![1, 0] · slices_S4x128_S1x128_1_0) (g_v231 A)) shapeCasts_S1x128_S128)
def g_v383 (A : Args F) : (⟨S128x128, .f32⟩ : BufTy).Contents (Elt F) :=
  (shapeCast S128x128 ((extractStridedSlice S1x128x128 ![1, 0, 0] · slices_S4x128x128_S1x128x128_1_0_0) (g_v233 A)) shapeCasts_S1x128x128_S128x128)
def g_v385 (A : Args F) : (⟨S128, .f32⟩ : BufTy).Contents (Elt F) :=
  (shapeCast S128 ((extractStridedSlice S1x128 ![1, 0] · slices_S4x128_S1x128_1_0) (g_v235 A)) shapeCasts_S1x128_S128)
def g_v389 (A : Args F) : (⟨S20000x128, .f32⟩ : BufTy).Contents (Elt F) :=
  Spec.linE (g_v277 A) (g_v375 A) (g_v377 A)
def g_v392 (A : Args F) : (⟨S128, .f32⟩ : BufTy).Contents (Elt F) :=
  (Host.divf ((fun x v => Host.reduceAdd x v reducesTo_S20000x128_S128_d0 h_S_) (g_v389 A) (constant (F := F) S_ .f32 0x00000000#32)) (broadcastInDim S128 ![] bcast_S_S128 (constant (F := F) S_ .f32 0x469C4000#32)))
def g_v393 (A : Args F) : (⟨S128, .f32⟩ : BufTy).Contents (Elt F) :=
  ((fun p a b => select (broadcastInDim S128 ![] bcast_S_S128 p) a b) ((cmpf .ogt) (subf (constant (F := F) S_ .f32 0x469C4000#32) ((sitofp .f32) (constantI S_ 32 0#32))) (constant (F := F) S_ .f32 0x00000000#32)) (Host.divf ((fun x v => Host.reduceAdd x v reducesTo_S20000x128_S128_d0 h_S_) (mulf (subf (g_v389 A) ((broadcastInDim S20000x128 ![0, 1] bcast_S1x128_S20000x128_0_1) (Host.divf ((broadcastInDim S1x128 ![1] bcast_S128_S1x128_1) ((fun x v => Host.reduceAdd x v reducesTo_S20000x128_S128_d0 h_S_) (g_v389 A) (constant (F := F) S_ .f32 0x00000000#32))) ((broadcastInDim S1x128 ![] bcast_S_S1x128) (constant (F := F) S_ .f32 0x469C4000#32))))) (subf (g_v389 A) ((broadcastInDim S20000x128 ![0, 1] bcast_S1x128_S20000x128_0_1) (Host.divf ((broadcastInDim S1x128 ![1] bcast_S128_S1x128_1) ((fun x v => Host.reduceAdd x v reducesTo_S20000x128_S128_d0 h_S_) (g_v389 A) (constant (F := F) S_ .f32 0x00000000#32))) ((broadcastInDim S1x128 ![] bcast_S_S1x128) (constant (F := F) S_ .f32 0x469C4000#32)))))) (constant (F := F) S_ .f32 0x00000000#32)) ((broadcastInDim S128 ![] bcast_S_S128) (subf (constant (F := F) S_ .f32 0x469C4000#32) ((sitofp .f32) (constantI S_ 32 0#32))))) ((broadcastInDim S128 ![] bcast_S_S128) (id (constant (F := F) S_ .f32 0x7FC00000#32))))
def g_v413 (A : Args F) : (⟨S20000x128, .f32⟩ : BufTy).Contents (Elt F) :=
  (addf ((fun l r => Host.dotGeneral dot_S20000x128_S128x128_S20000x128_1_0_0_1_n_n none l r) (maximumf (addf (mulf (mulf (broadcastInDim S20000x128 ![0, 1] bcast_S1x128_S20000x128_0_1 (broadcastInDim S1x128 ![1] bcast_S128_S1x128_1 (g_v379 A))) (subf (g_v389 A) (broadcastInDim S20000x128 ![0, 1] bcast_S1x128_S20000x128_0_1 (broadcastInDim S1x128 ![1] bcast_S128_S1x128_1 (g_v392 A))))) (broadcastInDim S20000x128 ![0, 1] bcast_S1x128_S20000x128_0_1 (broadcastInDim S1x128 ![1] bcast_S128_S1x128_1 (Host.rsqrt (addf (g_v393 A) (broadcastInDim S128 ![] bcast_S_S128 (constant (F := F) S_ .f32 0x3727C5AC#32))))))) (broadcastInDim S20000x128 ![0, 1] bcast_S1x128_S20000x128_0_1 (broadcastInDim S1x128 ![1] bcast_S128_S1x128_1 (g_v381 A)))) ((broadcastInDim S20000x128 ![] bcast_S_S20000x128) (constant (F := F) S_ .f32 0x00000000#32))) (g_v383 A)) (broadcastInDim S20000x128 ![0, 1] bcast_S1x128_S20000x128_0_1 (broadcastInDim S1x128 ![1] bcast_S128_S1x128_1 (g_v385 A))))
def g_v415 (A : Args F) : (⟨S128x128, .f32⟩ : BufTy).Contents (Elt F) :=
  (shapeCast S128x128 ((extractStridedSlice S1x128x128 ![3, 0, 0] · slices_S4x128x128_S1x128x128_3_0_0) (g_v225 A)) shapeCasts_S1x128x128_S128x128)
def g_v417 (A : Args F) : (⟨S128, .f32⟩ : BufTy).Contents (Elt F) :=
  (shapeCast S128 ((extractStridedSlice S1x128 ![3, 0] · slices_S4x128_S1x128_3_0) (g_v227 A)) shapeCasts_S1x128_S128)
def g_v419 (A : Args F) : (⟨S128, .f32⟩ : BufTy).Contents (Elt F) :=
  (shapeCast S128 ((extractStridedSlice S1x128 ![3, 0] · slices_S4x128_S1x128_3_0) (g_v229 A)) shapeCasts_S1x128_S128)
def g_v421 (A : Args F) : (⟨S128, .f32⟩ : BufTy).Contents (Elt F) :=
  (shapeCast S128 ((extractStridedSlice S1x128 ![3, 0] · slices_S4x128_S1x128_3_0) (g_v231 A)) shapeCasts_S1x128_S128)
def g_v423 (A : Args F) : (⟨S128x128, .f32⟩ : BufTy).Contents (Elt F) :=
  (shapeCast S128x128 ((extractStridedSlice S1x128x128 ![3, 0, 0] · slices_S4x128x128_S1x128x128_3_0_0) (g_v233 A)) shapeCasts_S1x128x128_S128x128)
def g_v425 (A : Args F) : (⟨S128, .f32⟩ : BufTy).Contents (Elt F) :=
  (shapeCast S128 ((extractStridedSlice S1x128 ![3, 0] · slices_S4x128_S1x128_3_0) (g_v235 A)) shapeCasts_S1x128_S128)
def g_v426 (A : Args F) : (⟨S20000x128, .f32⟩ : BufTy).Contents (Elt F) :=
  ((fun l r => Host.dotGeneral dot_S20000x128_S128x128_S20000x128_1_0_0_1_n_n none l r) (g_v291 A) (g_v415 A))
def g_v427 (A : Args F) : (⟨S1x128, .f32⟩ : BufTy).Contents (Elt F) :=
  (broadcastInDim S1x128 ![1] bcast_S128_S1x128_1 (g_v417 A))
def g_v429 (A : Args F) : (⟨S20000x128, .f32⟩ : BufTy).Contents (Elt F) :=
  Spec.linE (g_v291 A) (g_v415 A) (g_v417 A)
def g_v432 (A : Args F) : (⟨S128, .f32⟩ : BufTy).Contents (Elt F) :=
  (Host.divf ((fun x v => Host.reduceAdd x v reducesTo_S20000x128_S128_d0 h_S_) (g_v429 A) (constant (F := F) S_ .f32 0x00000000#32)) (broadcastInDim S128 ![] bcast_S_S128 (constant (F := F) S_ .f32 0x469C4000#32)))
def g_v433 (A : Args F) : (⟨S128, .f32⟩ : BufTy).Contents (Elt F) :=
  ((fun p a b => select (broadcastInDim S128 ![] bcast_S_S128 p) a b) ((cmpf .ogt) (subf (constant (F := F) S_ .f32 0x469C4000#32) ((sitofp .f32) (constantI S_ 32 0#32))) (constant (F := F) S_ .f32 0x00000000#32)) (Host.divf ((fun x v => Host.reduceAdd x v reducesTo_S20000x128_S128_d0 h_S_) (mulf (subf (g_v429 A) ((broadcastInDim S20000x128 ![0, 1] bcast_S1x128_S20000x128_0_1) (Host.divf ((broadcastInDim S1x128 ![1] bcast_S128_S1x128_1) ((fun x v => Host.reduceAdd x v reducesTo_S20000x128_S128_d0 h_S_) (g_v429 A) (constant (F := F) S_ .f32 0x00000000#32))) ((broadcastInDim S1x128 ![] bcast_S_S1x128) (constant (F := F) S_ .f32 0x469C4000#32))))) (subf (g_v429 A) ((broadcastInDim S20000x128 ![0, 1] bcast_S1x128_S20000x128_0_1) (Host.divf ((broadcastInDim S1x128 ![1] bcast_S128_S1x128_1) ((fun x v => Host.reduceAdd x v reducesTo_S20000x128_S128_d0 h_S_) (g_v429 A) (constant (F := F) S_ .f32 0x00000000#32))) ((broadcastInDim S1x128 ![] bcast_S_S1x128) (constant (F := F) S_ .f32 0x469C4000#32)))))) (constant (F := F) S_ .f32 0x00000000#32)) ((broadcastInDim S128 ![] bcast_S_S128) (subf (constant (F := F) S_ .f32 0x469C4000#32) ((sitofp .f32) (constantI S_ 32 0#32))))) ((broadcastInDim S128 ![] bcast_S_S128) (id (constant (F := F) S_ .f32 0x7FC00000#32))))
def g_v455 (A : Args F) : (⟨S20000x128, .f32⟩ : BufTy).Contents (Elt F) :=
  Spec.combM (g_v389 A) (g_v392 A) (g_v393 A) (g_v379 A) (g_v381 A) (g_v383 A) (g_v385 A) (g_v429 A) (g_v432 A) (g_v433 A) (g_v419 A) (g_v421 A) (g_v423 A) (g_v425 A)
def g_v457 (A : Args F) : (⟨S4x128x128, .f32⟩ : BufTy).Contents (Elt F) :=
  (shapeCast S4x128x128 ((extractStridedSlice S1x4x128x128 ![1, 0, 0, 0] · slices_S2x4x128x128_S1x4x128x128_1_0_0_0) A.a10) shapeCasts_S1x4x128x128_S4x128x128)
def g_v459 (A : Args F) : (⟨S4x128, .f32⟩ : BufTy).Contents (Elt F) :=
  (shapeCast S4x128 ((extractStridedSlice S1x4x128 ![1, 0, 0] · slices_S2x4x128_S1x4x128_1_0_0) A.a11) shapeCasts_S1x4x128_S4x128)
def g_v461 (A : Args F) : (⟨S4x128, .f32⟩ : BufTy).Contents (Elt F) :=
  (shapeCast S4x128 ((extractStridedSlice S1x4x128 ![1, 0, 0] · slices_S2x4x128_S1x4x128_1_0_0) A.a12) shapeCasts_S1x4x128_S4x128)
def g_v463 (A : Args F) : (⟨S4x128, .f32⟩ : BufTy).Contents (Elt F) :=
  (shapeCast S4x128 ((extractStridedSlice S1x4x128 ![1, 0, 0] · slices_S2x4x128_S1x4x128_1_0_0) A.a13) shapeCasts_S1x4x128_S4x128)
def g_v465 (A : Args F) : (⟨S4x128x128, .f32⟩ : BufTy).Contents (Elt F) :=
  (shapeCast S4x128x128 ((extractStridedSlice S1x4x128x128 ![1, 0, 0, 0] · slices_S2x4x128x128_S1x4x128x128_1_0_0_0) A.a14) shapeCasts_S1x4x128x128_S4x128x128)
def g_v467 (A : Args F) : (⟨S4x128, .f32⟩ : BufTy).Contents (Elt F) :=
  (shapeCast S4x128 ((extractStridedSlice S1x4x128 ![1, 0, 0] · slices_S2x4x128_S1x4x128_1_0_0) A.a15) shapeCasts_S1x4x128_S4x128)
def g_v476 (A : Args F) : (⟨S1000000x128, .f32⟩ : BufTy).Contents (Elt F) :=
  ((fun x i => Host.gather gather_S80000x128_S1000000x1_S1000000x128_1_0_n_n_0_1_1128 x i) (g_v373 A) (broadcastInDim S1000000x1 ![0] bcast_S1000000_S1000000x1_0 (select (cmpi .slt (shapeCast S1000000 ((extractStridedSlice S1x1000000 ![0, 0] · slices_S2x1000000_S1x1000000_0_0) A.a20) shapeCasts_S1x1000000_S1000000) (broadcastInDim S1000000 ![] bcast_S_S1000000 (constantI S_ 32 0#32))) (addi (shapeCast S1000000 ((extractStridedSlice S1x1000000 ![0, 0] · slices_S2x1000000_S1x1000000_0_0) A.a20) shapeCasts_S1x1000000_S1000000) (broadcastInDim S1000000 ![] bcast_S_S1000000 (constantI S_ 32 80000#32))) (shapeCast S1000000 ((extractStridedSlice S1x1000000 ![0, 0] · slices_S2x1000000_S1x1000000_0_0) A.a20) shapeCasts_S1x1000000_S1000000))))
def g_v479 (A : Args F) : (⟨S80000x128, .f32⟩ : BufTy).Contents (Elt F) :=
  (broadcastInDim S80000x128 ![] bcast_S_S80000x128 (constant (F := F) S_ .f32 0x00000000#32))
def g_v480 (A : Args F) : (⟨S1000000x1, .i32⟩ : BufTy).Contents (Elt F) :=
  (broadcastInDim S1000000x1 ![0] bcast_S1000000_S1000000x1_0 (shapeCast S1000000 ((extractStridedSlice S1x1000000 ![1, 0] · slices_S2x1000000_S1x1000000_1_0) A.a20) shapeCasts_S1x1000000_S1000000))
def g_v481 (A : Args F) : (⟨S80000x128, .f32⟩ : BufTy).Contents (Elt F) :=
  ((fun x i u => Host.scatterAdd scatter_S80000x128_S1000000x1_S1000000x128_1_0_0_1 x i u) (g_v479 A) (g_v480 A) (g_v476 A))
def g_v495 (A : Args F) : (⟨S80000x128, .f32⟩ : BufTy).Contents (Elt F) :=
  ((fun x i u => Host.scatterAdd scatter_S80000x128_S300000x1_S300000x128_1_0_0_1 x i u) (broadcastInDim S80000x128 ![] bcast_S_S80000x128 (constant (F := F) S_ .f32 0x00000000#32)) (broadcastInDim S300000x1 ![0] bcast_S300000_S300000x1_0 (shapeCast S300000 ((extractStridedSlice S1x300000 ![1, 0] · slices_S2x300000_S1x300000_1_0) A.a22) shapeCasts_S1x300000_S300000)) ((fun x i => Host.gather gather_S20000x128_S300000x1_S300000x128_1_0_n_n_0_1_1128 x i) (g_v455 A) (broadcastInDim S300000x1 ![0] bcast_S300000_S300000x1_0 (select (cmpi .slt (shapeCast S300000 ((extractStridedSlice S1x300000 ![0, 0] · slices_S2x300000_S1x300000_0_0) A.a22) shapeCasts_S1x300000_S300000) (broadcastInDim S300000 ![] bcast_S_S300000 (constantI S_ 32 0#32))) (addi (shapeCast S300000 ((extractStridedSlice S1x300000 ![0, 0] · slices_S2x300000_S1x300000_0_0) A.a22) shapeCasts_S1x300000_S300000) (broadcastInDim S300000 ![] bcast_S_S300000 (constantI S_ 32 20000#32))) (shapeCast S300000 ((extractStridedSlice S1x300000 ![0, 0] · slices_S2x300000_S1x300000_0_0) A.a22) shapeCasts_S1x300000_S300000)))))
def g_v509 (A : Args F) : (⟨S20000x128, .f32⟩ : BufTy).Contents (Elt F) :=
  ((fun x i u => Host.scatterAdd scatter_S20000x128_S300000x1_S300000x128_1_0_0_1 x i u) (broadcastInDim S20000x128 ![] bcast_S_S20000x128 (constant (F := F) S_ .f32 0x00000000#32)) (broadcastInDim S300000x1 ![0] bcast_S300000_S300000x1_0 (shapeCast S300000 ((extractStridedSlice S1x300000 ![1, 0] · slices_S2x300000_S1x300000_1_0) A.a21) shapeCasts_S1x300000_S300000)) ((fun x i => Host.gather gather_S80000x128_S300000x1_S300000x128_1_0_n_n_0_1_1128 x i) (g_v373 A) (broadcastInDim S300000x1 ![0] bcast_S300000_S300000x1_0 (select (cmpi .slt (shapeCast S300000 ((extractStridedSlice S1x300000 ![0, 0] · slices_S2x300000_S1x300000_0_0) A.a21) shapeCasts_S1x300000_S300000) (broadcastInDim S300000 ![] bcast_S_S300000 (constantI S_ 32 0#32))) (addi (shapeCast S300000 ((extractStridedSlice S1x300000 ![0, 0] · slices_S2x300000_S1x300000_0_0) A.a21) shapeCasts_S1x300000_S300000) (broadcastInDim S300000 ![] bcast_S_S300000 (constantI S_ 32 80000#32))) (shapeCast S300000 ((extractStridedSlice S1x300000 ![0, 0] · slices_S2x300000_S1x300000_0_0) A.a21) shapeCasts_S1x300000_S300000)))))
def g_v523 (A : Args F) : (⟨S20000x128, .f32⟩ : BufTy).Contents (Elt F) :=
  ((fun x i u => Host.scatterAdd scatter_S20000x128_S100000x1_S100000x128_1_0_0_1 x i u) (broadcastInDim S20000x128 ![] bcast_S_S20000x128 (constant (F := F) S_ .f32 0x00000000#32)) (broadcastInDim S100000x1 ![0] bcast_S100000_S100000x1_0 (shapeCast S100000 ((extractStridedSlice S1x100000 ![1, 0] · slices_S2x100000_S1x100000_1_0) A.a23) shapeCasts_S1x100000_S100000)) ((fun x i => Host.gather gather_S20000x128_S100000x1_S100000x128_1_0_n_n_0_1_1128 x i) (g_v455 A) (broadcastInDim S100000x1 ![0] bcast_S100000_S100000x1_0 (select (cmpi .slt (shapeCast S100000 ((extractStridedSlice S1x100000 ![0, 0] · slices_S2x100000_S1x100000_0_0) A.a23) shapeCasts_S1x100000_S100000) (broadcastInDim S100000 ![] bcast_S_S100000 (constantI S_ 32 0#32))) (addi (shapeCast S100000 ((extractStridedSlice S1x100000 ![0, 0] · slices_S2x100000_S1x100000_0_0) A.a23) shapeCasts_S1x100000_S100000) (broadcastInDim S100000 ![] bcast_S_S100000 (constantI S_ 32 20000#32))) (shapeCast S100000 ((extractStridedSlice S1x100000 ![0, 0] · slices_S2x100000_S1x100000_0_0) A.a23) shapeCasts_S1x100000_S100000)))))
def g_v525 (A : Args F) : (⟨S128x128, .f32⟩ : BufTy).Contents (Elt F) :=
  (shapeCast S128x128 ((extractStridedSlice S1x128x128 ![0, 0, 0] · slices_S4x128x128_S1x128x128_0_0_0) (g_v457 A)) shapeCasts_S1x128x128_S128x128)
def g_v527 (A : Args F) : (⟨S128, .f32⟩ : BufTy).Contents (Elt F) :=
  (shapeCast S128 ((extractStridedSlice S1x128 ![0, 0] · slices_S4x128_S1x128_0_0) (g_v459 A)) shapeCasts_S1x128_S128)
def g_v529 (A : Args F) : (⟨S128, .f32⟩ : BufTy).Contents (Elt F) :=
  (shapeCast S128 ((extractStridedSlice S1x128 ![0, 0] · slices_S4x128_S1x128_0_0) (g_v461 A)) shapeCasts_S1x128_S128)
def g_v531 (A : Args F) : (⟨S128, .f32⟩ : BufTy).Contents (Elt F) :=
  (shapeCast S128 ((extractStridedSlice S1x128 ![0, 0] · slices_S4x128_S1x128_0_0) (g_v463 A)) shapeCasts_S1x128_S128)
def g_v533 (A : Args F) : (⟨S128x128, .f32⟩ : BufTy).Contents (Elt F) :=
  (shapeCast S128x128 ((extractStridedSlice S1x128x128 ![0, 0, 0] · slices_S4x128x128_S1x128x128_0_0_0) (g_v465 A)) shapeCasts_S1x128x128_S128x128)
def g_v535 (A : Args F) : (⟨S128, .f32⟩ : BufTy).Contents (Elt F) :=
  (shapeCast S128 ((extractStridedSlice S1x128 ![0, 0] · slices_S4x128_S1x128_0_0) (g_v467 A)) shapeCasts_S1x128_S128)
def g_v539 (A : Args F) : (⟨S80000x128, .f32⟩ : BufTy).Contents (Elt F) :=
  Spec.linD (g_v481 A) (g_v525 A) (g_v527 A)
def g_v542 (A : Args F) : (⟨S128, .f32⟩ : BufTy).Contents (Elt F) :=
  (Host.divf ((fun x v => Host.reduceAdd x v reducesTo_S80000x128_S128_d0 h_S_) (g_v539 A) (constant (F := F) S_ .f32 0x00000000#32)) (broadcastInDim S128 ![] bcast_S_S128 (constant (F := F) S_ .f32 0x479C4000#32)))
def g_v543 (A : Args F) : (⟨S128, .f32⟩ : BufTy).Contents (Elt F) :=
  ((fun p a b => select (broadcastInDim S128 ![] bcast_S_S128 p) a b) ((cmpf .ogt) (subf (constant (F := F) S_ .f32 0x479C4000#32) ((sitofp .f32) (constantI S_ 32 0#32))) (constant (F := F) S_ .f32 0x00000000#32)) (Host.divf ((fun x v => Host.reduceAdd x v reducesTo_S80000x128_S128_d0 h_S_) (mulf (subf (g_v539 A) ((broadcastInDim S80000x128 ![0, 1] bcast_S1x128_S80000x128_0_1) (Host.divf ((broadcastInDim S1x128 ![1] bcast_S128_S1x128_1) ((fun x v => Host.reduceAdd x v reducesTo_S80000x128_S128_d0 h_S_) (g_v539 A) (constant (F := F) S_ .f32 0x00000000#32))) ((broadcastInDim S1x128 ![] bcast_S_S1x128) (constant (F := F) S_ .f32 0x479C4000#32))))) (subf (g_v539 A) ((broadcastInDim S80000x128 ![0, 1] bcast_S1x128_S80000x128_0_1) (Host.divf ((broadcastInDim S1x128 ![1] bcast_S128_S1x128_1) ((fun x v => Host.reduceAdd x v reducesTo_S80000x128_S128_d0 h_S_) (g_v539 A) (constant (F := F) S_ .f32 0x00000000#32))) ((broadcastInDim S1x128 ![] bcast_S_S1x128) (constant (F := F) S_ .f32 0x479C4000#32)))))) (constant (F := F) S_ .f32 0x00000000#32)) ((broadcastInDim S128 ![] bcast_S_S128) (subf (constant (F := F) S_ .f32 0x479C4000#32) ((sitofp .f32) (constantI S_ 32 0#32))))) ((broadcastInDim S128 ![] bcast_S_S128) (id (constant (F := F) S_ .f32 0x7FC00000#32))))
def g_v563 (A : Args F) : (⟨S80000x128, .f32⟩ : BufTy).Contents (Elt F) :=
  (addf ((fun l r => Host.dotGeneral dot_S80000x128_S128x128_S80000x128_1_0_0_1_n_n none l r) (maximumf (addf (mulf (mulf (broadcastInDim S80000x128 ![0, 1] bcast_S1x128_S80000x128_0_1 (broadcastInDim S1x128 ![1] bcast_S128_S1x128_1 (g_v529 A))) (subf (g_v539 A) (broadcastInDim S80000x128 ![0, 1] bcast_S1x128_S80000x128_0_1 (broadcastInDim S1x128 ![1] bcast_S128_S1x128_1 (g_v542 A))))) (broadcastInDim S80000x128 ![0, 1] bcast_S1x128_S80000x128_0_1 (broadcastInDim S1x128 ![1] bcast_S128_S1x128_1 (Host.rsqrt (addf (g_v543 A) (broadcastInDim S128 ![] bcast_S_S128 (constant (F := F) S_ .f32 0x3727C5AC#32))))))) (broadcastInDim S80000x128 ![0, 1] bcast_S1x128_S80000x128_0_1 (broadcastInDim S1x128 ![1] bcast_S128_S1x128_1 (g_v531 A)))) ((broadcastInDim S80000x128 ![] bcast_S_S80000x128) (constant (F := F) S_ .f32 0x00000000#32))) (g_v533 A)) (broadcastInDim S80000x128 ![0, 1] bcast_S1x128_S80000x128_0_1 (broadcastInDim S1x128 ![1] bcast_S128_S1x128_1 (g_v535 A))))
def g_v565 (A : Args F) : (⟨S128x128, .f32⟩ : BufTy).Contents (Elt F) :=
  (shapeCast S128x128 ((extractStridedSlice S1x128x128 ![2, 0, 0] · slices_S4x128x128_S1x128x128_2_0_0) (g_v457 A)) shapeCasts_S1x128x128_S128x128)
def g_v567 (A : Args F) : (⟨S128, .f32⟩ : BufTy).Contents (Elt F) :=
  (shapeCast S128 ((extractStridedSlice S1x128 ![2, 0] · slices_S4x128_S1x128_2_0) (g_v459 A)) shapeCasts_S1x128_S128)
def g_v569 (A : Args F) : (⟨S128, .f32⟩ : BufTy).Contents (Elt F) :=
  (shapeCast S128 ((extractStridedSlice S1x128 ![2, 0] · slices_S4x128_S1x128_2_0) (g_v461 A)) shapeCasts_S1x128_S128)
def g_v571 (A : Args F) : (⟨S128, .f32⟩ : BufTy).Contents (Elt F) :=
  (shapeCast S128 ((extractStridedSlice S1x128 ![2, 0] · slices_S4x128_S1x128_2_0) (g_v463 A)) shapeCasts_S1x128_S128)
def g_v573 (A : Args F) : (⟨S128x128, .f32⟩ : BufTy).Contents (Elt F) :=
  (shapeCast S128x128 ((extractStridedSlice S1x128x128 ![2, 0, 0] · slices_S4x128x128_S1x128x128_2_0_0) (g_v465 A)) shapeCasts_S1x128x128_S128x128)
def g_v575 (A : Args F) : (⟨S128, .f32⟩ : BufTy).Contents (Elt F) :=
  (shapeCast S128 ((extractStridedSlice S1x128 ![2, 0] · slices_S4x128_S1x128_2_0) (g_v467 A)) shapeCasts_S1x128_S128)
def g_v579 (A : Args F) : (⟨S80000x128, .f32⟩ : BufTy).Contents (Elt F) :=
  Spec.linD (g_v495 A) (g_v565 A) (g_v567 A)
def g_v582 (A : Args F) : (⟨S128, .f32⟩ : BufTy).Contents (Elt F) :=
  (Host.divf ((fun x v => Host.reduceAdd x v reducesTo_S80000x128_S128_d0 h_S_) (g_v579 A) (constant (F := F) S_ .f32 0x00000000#32)) (broadcastInDim S128 ![] bcast_S_S128 (constant (F := F) S_ .f32 0x479C4000#32)))
def g_v583 (A : Args F) : (⟨S128, .f32⟩ : BufTy).Contents (Elt F) :=
  ((fun p a b => select (broadcastInDim S128 ![] bcast_S_S128 p) a b) ((cmpf .ogt) (subf (constant (F := F) S_ .f32 0x479C4000#32) ((sitofp .f32) (constantI S_ 32 0#32))) (constant (F := F) S_ .f32 0x00000000#32)) (Host.divf ((fun x v => Host.reduceAdd x v reducesTo_S80000x128_S128_d0 h_S_) (mulf (subf (g_v579 A) ((broadcastInDim S80000x128 ![0, 1] bcast_S1x128_S80000x128_0_1) (Host.divf ((broadcastInDim S1x128 ![1] bcast_S128_S1x128_1) ((fun x v => Host.reduceAdd x v reducesTo_S80000x128_S128_d0 h_S_) (g_v579 A) (constant (F := F) S_ .f32 0x00000000#32))) ((broadcastInDim S1x128 ![] bcast_S_S1x128) (constant (F := F) S_ .f32 0x479C4000#32))))) (subf (g_v579 A) ((broadcastInDim S80000x128 ![0, 1] bcast_S1x128_S80000x128_0_1) (Host.divf ((broadcastInDim S1x128 ![1] bcast_S128_S1x128_1) ((fun x v => Host.reduceAdd x v reducesTo_S80000x128_S128_d0 h_S_) (g_v579 A) (constant (F := F) S_ .f32 0x00000000#32))) ((broadcastInDim S1x128 ![] bcast_S_S1x128) (constant (F := F) S_ .f32 0x479C4000#32)))))) (constant (F := F) S_ .f32 0x00000000#32)) ((broadcastInDim S128 ![] bcast_S_S128) (subf (constant (F := F) S_ .f32 0x479C4000#32) ((sitofp .f32) (constantI S_ 32 0#32))))) ((broadcastInDim S128 ![] bcast_S_S128) (id (constant (F := F) S_ .f32 0x7FC00000#32))))
def g_v584 (A : Args F) : (⟨S1x128, .f32⟩ : BufTy).Contents (Elt F) :=
  (broadcastInDim S1x128 ![1] bcast_S128_S1x128_1 (g_v582 A))
def g_v605 (A : Args F) : (⟨S80000x128, .f32⟩ : BufTy).Contents (Elt F) :=
  Spec.combOp (g_v539 A) (g_v542 A) (g_v543 A) (g_v529 A) (g_v531 A) (g_v533 A) (g_v535 A) (g_v579 A) (g_v582 A) (g_v583 A) (g_v569 A) (g_v571 A) (g_v573 A) (g_v575 A)
def g_v607 (A : Args F) : (⟨S128x128, .f32⟩ : BufTy).Contents (Elt F) :=
  (shapeCast S128x128 ((extractStridedSlice S1x128x128 ![1, 0, 0] · slices_S4x128x128_S1x128x128_1_0_0) (g_v457 A)) shapeCasts_S1x128x128_S128x128)
def g_v609 (A : Args F) : (⟨S128, .f32⟩ : BufTy).Contents (Elt F) :=
  (shapeCast S128 ((extractStridedSlice S1x128 ![1, 0] · slices_S4x128_S1x128_1_0) (g_v459 A)) shapeCasts_S1x128_S128)
def g_v611 (A : Args F) : (⟨S128, .f32⟩ : BufTy).Contents (Elt F) :=
  (shapeCast S128 ((extractStridedSlice S1x128 ![1, 0] · slices_S4x128_S1x128_1_0) (g_v461 A)) shapeCasts_S1x128_S128)
def g_v613 (A : Args F) : (⟨S128, .f32⟩ : BufTy).Contents (Elt F) :=
  (shapeCast S128 ((extractStridedSlice S1x128 ![1, 0] · slices_S4x128_S1x128_1_0) (g_v463 A)) shapeCasts_S1x128_S128)
def g_v615 (A : Args F) : (⟨S128x128, .f32⟩ : BufTy).Contents (Elt F) :=
  (shapeCast S128x128 ((extractStridedSlice S1x128x128 ![1, 0, 0] · slices_S4x128x128_S1x128x128_1_0_0) (g_v465 A)) shapeCasts_S1x128x128_S128x128)
def g_v617 (A : Args F) : (⟨S128, .f32⟩ : BufTy).Contents (Elt F) :=
  (shapeCast S128 ((extractStridedSlice S1x128 ![1, 0] · slices_S4x128_S1x128_1_0) (g_v467 A)) shapeCasts_S1x128_S128)
def g_v621 (A : Args F) : (⟨S20000x128, .f32⟩ : BufTy).Contents (Elt F) :=
  Spec.linE (g_v509 A) (g_v607 A) (g_v609 A)
def g_v624 (A : Args F) : (⟨S128, .f32⟩ : BufTy).Contents (Elt F) :=
  (Host.divf ((fun x v => Host.reduceAdd x v reducesTo_S20000x128_S128_d0 h_S_) (g_v621 A) (constant (F := F) S_ .f32 0x00000000#32)) (broadcastInDim S128 ![] bcast_S_S128 (constant (F := F) S_ .f32 0x469C4000#32)))
def g_v625 (A : Args F) : (⟨S128, .f32⟩ : BufTy).Contents (Elt F) :=
  ((fun p a b => select (broadcastInDim S128 ![] bcast_S_S128 p) a b) ((cmpf .ogt) (subf (constant (F := F) S_ .f32 0x469C4000#32) ((sitofp .f32) (constantI S_ 32 0#32))) (constant (F := F) S_ .f32 0x00000000#32)) (Host.divf ((fun x v => Host.reduceAdd x v reducesTo_S20000x128_S128_d0 h_S_) (mulf (subf (g_v621 A) ((broadcastInDim S20000x128 ![0, 1] bcast_S1x128_S20000x128_0_1) (Host.divf ((broadcastInDim S1x128 ![1] bcast_S128_S1x128_1) ((fun x v => Host.reduceAdd x v reducesTo_S20000x128_S128_d0 h_S_) (g_v621 A) (constant (F := F) S_ .f32 0x00000000#32))) ((broadcastInDim S1x128 ![] bcast_S_S1x128) (constant (F := F) S_ .f32 0x469C4000#32))))) (subf (g_v621 A) ((broadcastInDim S20000x128 ![0, 1] bcast_S1x128_S20000x128_0_1) (Host.divf ((broadcastInDim S1x128 ![1] bcast_S128_S1x128_1) ((fun x v => Host.reduceAdd x v reducesTo_S20000x128_S128_d0 h_S_) (g_v621 A) (constant (F := F) S_ .f32 0x00000000#32))) ((broadcastInDim S1x128 ![] bcast_S_S1x128) (constant (F := F) S_ .f32 0x469C4000#32)))))) (constant (F := F) S_ .f32 0x00000000#32)) ((broadcastInDim S128 ![] bcast_S_S128) (subf (constant (F := F) S_ .f32 0x469C4000#32) ((sitofp .f32) (constantI S_ 32 0#32))))) ((broadcastInDim S128 ![] bcast_S_S128) (id (constant (F := F) S_ .f32 0x7FC00000#32))))
def g_v637 (A : Args F) : (⟨S20000x128, .f32⟩ : BufTy).Contents (Elt F) :=
  (mulf (mulf (broadcastInDim S20000x128 ![0, 1] bcast_S1x128_S20000x128_0_1 (broadcastInDim S1x128 ![1] bcast_S128_S1x128_1 (g_v611 A))) (subf (g_v621 A) (broadcastInDim S20000x128 ![0, 1] bcast_S1x128_S20000x128_0_1 (broadcastInDim S1x128 ![1] bcast_S128_S1x128_1 (g_v624 A))))) (broadcastInDim S20000x128 ![0, 1] bcast_S1x128_S20000x128_0_1 (broadcastInDim S1x128 ![1] bcast_S128_S1x128_1 (Host.rsqrt (addf (g_v625 A) (broadcastInDim S128 ![] bcast_S_S128 (constant (F := F) S_ .f32 0x3727C5AC#32)))))))
def g_v639 (A : Args F) : (⟨S20000x128, .f32⟩ : BufTy).Contents (Elt F) :=
  (broadcastInDim S20000x128 ![0, 1] bcast_S1x128_S20000x128_0_1 (broadcastInDim S1x128 ![1] bcast_S128_S1x128_1 (g_v613 A)))
def g_v647 (A : Args F) : (⟨S128x128, .f32⟩ : BufTy).Contents (Elt F) :=
  (shapeCast S128x128 ((extractStridedSlice S1x128x128 ![3, 0, 0] · slices_S4x128x128_S1x128x128_3_0_0) (g_v457 A)) shapeCasts_S1x128x128_S128x128)
def g_v649 (A : Args F) : (⟨S128, .f32⟩ : BufTy).Contents (Elt F) :=
  (shapeCast S128 ((extractStridedSlice S1x128 ![3, 0] · slices_S4x128_S1x128_3_0) (g_v459 A)) shapeCasts_S1x128_S128)
def g_v651 (A : Args F) : (⟨S128, .f32⟩ : BufTy).Contents (Elt F) :=
  (shapeCast S128 ((extractStridedSlice S1x128 ![3, 0] · slices_S4x128_S1x128_3_0) (g_v461 A)) shapeCasts_S1x128_S128)
def g_v653 (A : Args F) : (⟨S128, .f32⟩ : BufTy).Contents (Elt F) :=
  (shapeCast S128 ((extractStridedSlice S1x128 ![3, 0] · slices_S4x128_S1x128_3_0) (g_v463 A)) shapeCasts_S1x128_S128)
def g_v655 (A : Args F) : (⟨S128x128, .f32⟩ : BufTy).Contents (Elt F) :=
  (shapeCast S128x128 ((extractStridedSlice S1x128x128 ![3, 0, 0] · slices_S4x128x128_S1x128x128_3_0_0) (g_v465 A)) shapeCasts_S1x128x128_S128x128)
def g_v657 (A : Args F) : (⟨S128, .f32⟩ : BufTy).Contents (Elt F) :=
  (shapeCast S128 ((extractStridedSlice S1x128 ![3, 0] · slices_S4x128_S1x128_3_0) (g_v467 A)) shapeCasts_S1x128_S128)
def g_v661 (A : Args F) : (⟨S20000x128, .f32⟩ : BufTy).Contents (Elt F) :=
  Spec.linE (g_v523 A) (g_v647 A) (g_v649 A)
def g_v664 (A : Args F) : (⟨S128, .f32⟩ : BufTy).Contents (Elt F) :=
  (Host.divf ((fun x v => Host.reduceAdd x v reducesTo_S20000x128_S128_d0 h_S_) (g_v661 A) (constant (F := F) S_ .f32 0x00000000#32)) (broadcastInDim S128 ![] bcast_S_S128 (constant (F := F) S_ .f32 0x469C4000#32)))
def g_v665 (A : Args F) : (⟨S128, .f32⟩ : BufTy).Contents (Elt F) :=
  ((fun p a b => select (broadcastInDim S128 ![] bcast_S_S128 p) a b) ((cmpf .ogt) (subf (constant (F := F) S_ .f32 0x469C4000#32) ((sitofp .f32) (constantI S_ 32 0#32))) (constant (F := F) S_ .f32 0x00000000#32)) (Host.divf ((fun x v => Host.reduceAdd x v reducesTo_S20000x128_S128_d0 h_S_) (mulf (subf (g_v661 A) ((broadcastInDim S20000x128 ![0, 1] bcast_S1x128_S20000x128_0_1) (Host.divf ((broadcastInDim S1x128 ![1] bcast_S128_S1x128_1) ((fun x v => Host.reduceAdd x v reducesTo_S20000x128_S128_d0 h_S_) (g_v661 A) (constant (F := F) S_ .f32 0x00000000#32))) ((broadcastInDim S1x128 ![] bcast_S_S1x128) (constant (F := F) S_ .f32 0x469C4000#32))))) (subf (g_v661 A) ((broadcastInDim S20000x128 ![0, 1] bcast_S1x128_S20000x128_0_1) (Host.divf ((broadcastInDim S1x128 ![1] bcast_S128_S1x128_1) ((fun x v => Host.reduceAdd x v reducesTo_S20000x128_S128_d0 h_S_) (g_v661 A) (constant (F := F) S_ .f32 0x00000000#32))) ((broadcastInDim S1x128 ![] bcast_S_S1x128) (constant (F := F) S_ .f32 0x469C4000#32)))))) (constant (F := F) S_ .f32 0x00000000#32)) ((broadcastInDim S128 ![] bcast_S_S128) (subf (constant (F := F) S_ .f32 0x469C4000#32) ((sitofp .f32) (constantI S_ 32 0#32))))) ((broadcastInDim S128 ![] bcast_S_S128) (id (constant (F := F) S_ .f32 0x7FC00000#32))))
def g_v687 (A : Args F) : (⟨S20000x128, .f32⟩ : BufTy).Contents (Elt F) :=
  Spec.combM (g_v621 A) (g_v624 A) (g_v625 A) (g_v611 A) (g_v613 A) (g_v615 A) (g_v617 A) (g_v661 A) (g_v664 A) (g_v665 A) (g_v651 A) (g_v653 A) (g_v655 A) (g_v657 A)
def g_v691 (A : Args F) : (⟨S80000x128, .f32⟩ : BufTy).Contents (Elt F) :=
  Spec.linD (g_v605 A) A.a16 A.a17
def g_v695 (A : Args F) : (⟨S20000x128, .f32⟩ : BufTy).Contents (Elt F) :=
  Spec.linE (g_v687 A) A.a18 A.a19

end Cert.Spec

end
-- ==== Proof.RegionStatements.lean ====
import proofs.«116822_j38594576122568_1_alg».proof.Proof.Gen.KernelIdeal.Frame
import proofs.«116822_j38594576122568_1_alg».proof.Proof.Gen.ReferenceIdeal
import proofs.«116822_j38594576122568_1_alg».proof.Proof.SpecLayers

/-! What each of the 21 regions of the kernel program leaves in its output array, as its layer function of the arrays the
    region finds in its input windows — the 21 statements the run is read over, gathered so that the reading of the run and
    the proofs of the statements (one module per region) stand side by side. -/

noncomputable section

namespace Cert.KernelIdeal.RegionValue

open Cert.KernelIdeal Cert.KernelIdeal.Gen Idealize.ShloMosaic Idealize.ShloMosaic.TcCoe Idealize.SL.Sem

set_option maxHeartbeats 4000000 in
/-- Region by region: the output array after the region's last grid point is the layer function of the input arrays at entry. -/
class RegionFacts : Prop where
  reg0 : ∀ (V : (c : Dev nD) → (b : Ref sig .tc) → Buf (Elt Ideal) ((c : Thread nD τ).loc b)) (c : Dev nD),
    (dat0 (F := Ideal) V c).arrAt 3 cfg0.N
      = Cert.Spec.linA (F := Ideal) (V c (Pipeline.arrRef spec0 0)) (V c (Pipeline.arrRef spec0 1)) (V c (Pipeline.arrRef spec0 2))
  reg1 : ∀ (V : (c : Dev nD) → (b : Ref sig .tc) → Buf (Elt Ideal) ((c : Thread nD τ).loc b)) (c : Dev nD),
    (dat1 (F := Ideal) V c).arrAt 3 cfg1.N
      = Cert.Spec.linB (F := Ideal) (V c (Pipeline.arrRef spec1 0)) (V c (Pipeline.arrRef spec1 1)) (V c (Pipeline.arrRef spec1 2))
  reg2 : ∀ (V : (c : Dev nD) → (b : Ref sig .tc) → Buf (Elt Ideal) ((c : Thread nD τ).loc b)) (c : Dev nD),
    (dat2 (F := Ideal) V c).arrAt 3 cfg2.N
      = Cert.Spec.linB (F := Ideal) (V c (Pipeline.arrRef spec2 0)) (V c (Pipeline.arrRef spec2 1)) (V c (Pipeline.arrRef spec2 2))
  reg3 : ∀ (V : (c : Dev nD) → (b : Ref sig .tc) → Buf (Elt Ideal) ((c : Thread nD τ).loc b)) (c : Dev nD),
    (dat3 (F := Ideal) V c).arrAt 3 cfg3.N
      = Cert.Spec.linC (F := Ideal) (V c (Pipeline.arrRef spec3 0)) (V c (Pipeline.arrRef spec3 1)) (V c (Pipeline.arrRef spec3 2))
  reg4 : ∀ (V : (c : Dev nD) → (b : Ref sig .tc) → Buf (Elt Ideal) ((c : Thread nD τ).loc b)) (c : Dev nD),
    (dat4 (F := Ideal) V c).arrAt 3 cfg4.N
      = Cert.Spec.linC (F := Ideal) (V c (Pipeline.arrRef spec4 0)) (V c (Pipeline.arrRef spec4 1)) (V c (Pipeline.arrRef spec4 2))
  reg5 : ∀ (V : (c : Dev nD) → (b : Ref sig .tc) → Buf (Elt Ideal) ((c : Thread nD τ).loc b)) (c : Dev nD),
    (dat5 (F := Ideal) V c).arrAt 14 cfg5.N
      = Cert.Spec.combOp (F := Ideal) (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) (V c (Pipeline.arrRef spec5 13))
  reg6 : ∀ (V : (c : Dev nD) → (b : Ref sig .tc) → Buf (Elt Ideal) ((c : Thread nD τ).loc b)) (c : Dev nD),
    (dat6 (F := Ideal) V c).arrAt 14 cfg6.N
      = Cert.Spec.combM (F := Ideal) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10)) (V c (Pipeline.arrRef spec6 11)) (V c (Pipeline.arrRef spec6 12)) (V c (Pipeline.arrRef spec6 13))
  reg7 : ∀ (V : (c : Dev nD) → (b : Ref sig .tc) → Buf (Elt Ideal) ((c : Thread nD τ).loc b)) (c : Dev nD),
    (dat7 (F := Ideal) V c).arrAt 3 cfg7.N
      = Cert.Spec.linD (F := Ideal) (V c (Pipeline.arrRef spec7 0)) (V c (Pipeline.arrRef spec7 1)) (V c (Pipeline.arrRef spec7 2))
  reg8 : ∀ (V : (c : Dev nD) → (b : Ref sig .tc) → Buf (Elt Ideal) ((c : Thread nD τ).loc b)) (c : Dev nD),
    (dat8 (F := Ideal) V c).arrAt 3 cfg8.N
      = Cert.Spec.linD (F := Ideal) (V c (Pipeline.arrRef spec8 0)) (V c (Pipeline.arrRef spec8 1)) (V c (Pipeline.arrRef spec8 2))
  reg9 : ∀ (V : (c : Dev nD) → (b : Ref sig .tc) → Buf (Elt Ideal) ((c : Thread nD τ).loc b)) (c : Dev nD),
    (dat9 (F := Ideal) V c).arrAt 3 cfg9.N
      = Cert.Spec.linE (F := Ideal) (V c (Pipeline.arrRef spec9 0)) (V c (Pipeline.arrRef spec9 1)) (V c (Pipeline.arrRef spec9 2))
  reg10 : ∀ (V : (c : Dev nD) → (b : Ref sig .tc) → Buf (Elt Ideal) ((c : Thread nD τ).loc b)) (c : Dev nD),
    (dat10 (F := Ideal) V c).arrAt 3 cfg10.N
      = Cert.Spec.linE (F := Ideal) (V c (Pipeline.arrRef spec10 0)) (V c (Pipeline.arrRef spec10 1)) (V c (Pipeline.arrRef spec10 2))
  reg11 : ∀ (V : (c : Dev nD) → (b : Ref sig .tc) → Buf (Elt Ideal) ((c : Thread nD τ).loc b)) (c : Dev nD),
    (dat11 (F := Ideal) V c).arrAt 14 cfg11.N
      = Cert.Spec.combOp (F := Ideal) (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (V c (Pipeline.arrRef spec11 6)) (V c (Pipeline.arrRef spec11 7)) (V c (Pipeline.arrRef spec11 8)) (V c (Pipeline.arrRef spec11 9)) (V c (Pipeline.arrRef spec11 10)) (V c (Pipeline.arrRef spec11 11)) (V c (Pipeline.arrRef spec11 12)) (V c (Pipeline.arrRef spec11 13))
  reg12 : ∀ (V : (c : Dev nD) → (b : Ref sig .tc) → Buf (Elt Ideal) ((c : Thread nD τ).loc b)) (c : Dev nD),
    (dat12 (F := Ideal) V c).arrAt 14 cfg12.N
      = Cert.Spec.combM (F := Ideal) (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) (V c (Pipeline.arrRef spec12 7)) (V c (Pipeline.arrRef spec12 8)) (V c (Pipeline.arrRef spec12 9)) (V c (Pipeline.arrRef spec12 10)) (V c (Pipeline.arrRef spec12 11)) (V c (Pipeline.arrRef spec12 12)) (V c (Pipeline.arrRef spec12 13))
  reg13 : ∀ (V : (c : Dev nD) → (b : Ref sig .tc) → Buf (Elt Ideal) ((c : Thread nD τ).loc b)) (c : Dev nD),
    (dat13 (F := Ideal) V c).arrAt 3 cfg13.N
      = Cert.Spec.linD (F := Ideal) (V c (Pipeline.arrRef spec13 0)) (V c (Pipeline.arrRef spec13 1)) (V c (Pipeline.arrRef spec13 2))
  reg14 : ∀ (V : (c : Dev nD) → (b : Ref sig .tc) → Buf (Elt Ideal) ((c : Thread nD τ).loc b)) (c : Dev nD),
    (dat14 (F := Ideal) V c).arrAt 3 cfg14.N
      = Cert.Spec.linD (F := Ideal) (V c (Pipeline.arrRef spec14 0)) (V c (Pipeline.arrRef spec14 1)) (V c (Pipeline.arrRef spec14 2))
  reg15 : ∀ (V : (c : Dev nD) → (b : Ref sig .tc) → Buf (Elt Ideal) ((c : Thread nD τ).loc b)) (c : Dev nD),
    (dat15 (F := Ideal) V c).arrAt 3 cfg15.N
      = Cert.Spec.linE (F := Ideal) (V c (Pipeline.arrRef spec15 0)) (V c (Pipeline.arrRef spec15 1)) (V c (Pipeline.arrRef spec15 2))
  reg16 : ∀ (V : (c : Dev nD) → (b : Ref sig .tc) → Buf (Elt Ideal) ((c : Thread nD τ).loc b)) (c : Dev nD),
    (dat16 (F := Ideal) V c).arrAt 3 cfg16.N
      = Cert.Spec.linE (F := Ideal) (V c (Pipeline.arrRef spec16 0)) (V c (Pipeline.arrRef spec16 1)) (V c (Pipeline.arrRef spec16 2))
  reg17 : ∀ (V : (c : Dev nD) → (b : Ref sig .tc) → Buf (Elt Ideal) ((c : Thread nD τ).loc b)) (c : Dev nD),
    (dat17 (F := Ideal) V c).arrAt 14 cfg17.N
      = Cert.Spec.combOp (F := Ideal) (V c (Pipeline.arrRef spec17 0)) (V c (Pipeline.arrRef spec17 1)) (V c (Pipeline.arrRef spec17 2)) (V c (Pipeline.arrRef spec17 3)) (V c (Pipeline.arrRef spec17 4)) (V c (Pipeline.arrRef spec17 5)) (V c (Pipeline.arrRef spec17 6)) (V c (Pipeline.arrRef spec17 7)) (V c (Pipeline.arrRef spec17 8)) (V c (Pipeline.arrRef spec17 9)) (V c (Pipeline.arrRef spec17 10)) (V c (Pipeline.arrRef spec17 11)) (V c (Pipeline.arrRef spec17 12)) (V c (Pipeline.arrRef spec17 13))
  reg18 : ∀ (V : (c : Dev nD) → (b : Ref sig .tc) → Buf (Elt Ideal) ((c : Thread nD τ).loc b)) (c : Dev nD),
    (dat18 (F := Ideal) V c).arrAt 14 cfg18.N
      = Cert.Spec.combM (F := Ideal) (V c (Pipeline.arrRef spec18 0)) (V c (Pipeline.arrRef spec18 1)) (V c (Pipeline.arrRef spec18 2)) (V c (Pipeline.arrRef spec18 3)) (V c (Pipeline.arrRef spec18 4)) (V c (Pipeline.arrRef spec18 5)) (V c (Pipeline.arrRef spec18 6)) (V c (Pipeline.arrRef spec18 7)) (V c (Pipeline.arrRef spec18 8)) (V c (Pipeline.arrRef spec18 9)) (V c (Pipeline.arrRef spec18 10)) (V c (Pipeline.arrRef spec18 11)) (V c (Pipeline.arrRef spec18 12)) (V c (Pipeline.arrRef spec18 13))
  reg19 : ∀ (V : (c : Dev nD) → (b : Ref sig .tc) → Buf (Elt Ideal) ((c : Thread nD τ).loc b)) (c : Dev nD),
    (dat19 (F := Ideal) V c).arrAt 3 cfg19.N
      = Cert.Spec.linD (F := Ideal) (V c (Pipeline.arrRef spec19 0)) (V c (Pipeline.arrRef spec19 1)) (V c (Pipeline.arrRef spec19 2))
  reg20 : ∀ (V : (c : Dev nD) → (b : Ref sig .tc) → Buf (Elt Ideal) ((c : Thread nD τ).loc b)) (c : Dev nD),
    (dat20 (F := Ideal) V c).arrAt 3 cfg20.N
      = Cert.Spec.linE (F := Ideal) (V c (Pipeline.arrRef spec20 0)) (V c (Pipeline.arrRef spec20 1)) (V c (Pipeline.arrRef spec20 2))

end Cert.KernelIdeal.RegionValue

end
-- ==== Proof.KThread0.lean ====
import proofs.«116822_j38594576122568_1_alg».proof.Proof.Gen.KernelIdeal.Frame
import proofs.«116822_j38594576122568_1_alg».proof.Proof.KWrites
import proofs.«116822_j38594576122568_1_alg».proof.Proof.KPlain
import proofs.«116822_j38594576122568_1_alg».proof.Proof.SpecValues
import proofs.«116822_j38594576122568_1_alg».proof.Proof.RegionStatements
import Idealize.ShloMosaic.Lib.StableHlo.Run

/-! The kernel program's run read boundary by boundary (boundaries 1 to 9 of the generated frame's valuations): what each
    buffer read again later holds there, as the shared value of the reference's run. A stretch of host operations is read
    through; a region's output array is the region's layer function of its input arrays; everything else is carried. -/

set_option maxRecDepth 16384

noncomputable section

namespace Cert.KernelIdeal.Thread

open Cert.KernelIdeal Cert.KernelIdeal.Gen Idealize.ShloMosaic Idealize.ShloMosaic.TcCoe Idealize.SL.Sem Idealize.ShloMosaic.StableHlo

variable [RegionValue.RegionFacts] (m : (ℓ : Loc nD τ sig) → Buf (Elt Ideal) ℓ) (ρ : Dev nD → PrngReg) (c : Dev nD)

/-- The argument arrays as the kernel program is launched with them. -/
def KA : Spec.Args Ideal :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18),
   m ((c.tc : Thread nD τ).loc main_arg19),
   m ((c.tc : Thread nD τ).loc main_arg20),
   m ((c.tc : Thread nD τ).loc main_arg21),
   m ((c.tc : Thread nD τ).loc main_arg22),
   m ((c.tc : Thread nD τ).loc main_arg23)⟩

theorem k_arg1_0 : W0 m ρ c (Proc.devRef .tc main_arg1) = (KA m c).a1 := rfl
theorem k_arg2_0 : W0 m ρ c (Proc.devRef .tc main_arg2) = (KA m c).a2 := rfl
theorem k_arg3_0 : W0 m ρ c (Proc.devRef .tc main_arg3) = (KA m c).a3 := rfl
theorem k_arg20_0 : W0 m ρ c (Proc.devRef .tc main_arg20) = (KA m c).a20 := rfl
theorem k_arg0_0 : W0 m ρ c (Proc.devRef .tc main_arg0) = (KA m c).a0 := rfl
theorem k_arg22_0 : W0 m ρ c (Proc.devRef .tc main_arg22) = (KA m c).a22 := rfl
theorem k_arg21_0 : W0 m ρ c (Proc.devRef .tc main_arg21) = (KA m c).a21 := rfl
theorem k_arg23_0 : W0 m ρ c (Proc.devRef .tc main_arg23) = (KA m c).a23 := rfl
theorem k_arg4_0 : W0 m ρ c (Proc.devRef .tc main_arg4) = (KA m c).a4 := rfl
theorem k_arg5_0 : W0 m ρ c (Proc.devRef .tc main_arg5) = (KA m c).a5 := rfl
theorem k_arg6_0 : W0 m ρ c (Proc.devRef .tc main_arg6) = (KA m c).a6 := rfl
theorem k_arg7_0 : W0 m ρ c (Proc.devRef .tc main_arg7) = (KA m c).a7 := rfl
theorem k_arg8_0 : W0 m ρ c (Proc.devRef .tc main_arg8) = (KA m c).a8 := rfl
theorem k_arg9_0 : W0 m ρ c (Proc.devRef .tc main_arg9) = (KA m c).a9 := rfl
theorem k_arg10_0 : W0 m ρ c (Proc.devRef .tc main_arg10) = (KA m c).a10 := rfl
theorem k_arg11_0 : W0 m ρ c (Proc.devRef .tc main_arg11) = (KA m c).a11 := rfl
theorem k_arg12_0 : W0 m ρ c (Proc.devRef .tc main_arg12) = (KA m c).a12 := rfl
theorem k_arg13_0 : W0 m ρ c (Proc.devRef .tc main_arg13) = (KA m c).a13 := rfl
theorem k_arg14_0 : W0 m ρ c (Proc.devRef .tc main_arg14) = (KA m c).a14 := rfl
theorem k_arg15_0 : W0 m ρ c (Proc.devRef .tc main_arg15) = (KA m c).a15 := rfl
theorem k_arg16_0 : W0 m ρ c (Proc.devRef .tc main_arg16) = (KA m c).a16 := rfl
theorem k_arg17_0 : W0 m ρ c (Proc.devRef .tc main_arg17) = (KA m c).a17 := rfl
theorem k_arg18_0 : W0 m ρ c (Proc.devRef .tc main_arg18) = (KA m c).a18 := rfl
theorem k_arg19_0 : W0 m ρ c (Proc.devRef .tc main_arg19) = (KA m c).a19 := rfl

/-! ### Boundary 1: after region 0 -/

theorem k_arg20_1 : W1 m ρ c (Proc.devRef .tc main_arg20) = (KA m c).a20 :=
  (W1_of_ne m ρ c main_arg20 (by decide)).trans (k_arg20_0 m ρ c)
theorem k_arg0_1 : W1 m ρ c (Proc.devRef .tc main_arg0) = (KA m c).a0 :=
  (W1_of_ne m ρ c main_arg0 (by decide)).trans (k_arg0_0 m ρ c)
theorem k_arg22_1 : W1 m ρ c (Proc.devRef .tc main_arg22) = (KA m c).a22 :=
  (W1_of_ne m ρ c main_arg22 (by decide)).trans (k_arg22_0 m ρ c)
theorem k_arg21_1 : W1 m ρ c (Proc.devRef .tc main_arg21) = (KA m c).a21 :=
  (W1_of_ne m ρ c main_arg21 (by decide)).trans (k_arg21_0 m ρ c)
theorem k_arg23_1 : W1 m ρ c (Proc.devRef .tc main_arg23) = (KA m c).a23 :=
  (W1_of_ne m ρ c main_arg23 (by decide)).trans (k_arg23_0 m ρ c)
theorem k_arg4_1 : W1 m ρ c (Proc.devRef .tc main_arg4) = (KA m c).a4 :=
  (W1_of_ne m ρ c main_arg4 (by decide)).trans (k_arg4_0 m ρ c)
theorem k_arg5_1 : W1 m ρ c (Proc.devRef .tc main_arg5) = (KA m c).a5 :=
  (W1_of_ne m ρ c main_arg5 (by decide)).trans (k_arg5_0 m ρ c)
theorem k_arg6_1 : W1 m ρ c (Proc.devRef .tc main_arg6) = (KA m c).a6 :=
  (W1_of_ne m ρ c main_arg6 (by decide)).trans (k_arg6_0 m ρ c)
theorem k_arg7_1 : W1 m ρ c (Proc.devRef .tc main_arg7) = (KA m c).a7 :=
  (W1_of_ne m ρ c main_arg7 (by decide)).trans (k_arg7_0 m ρ c)
theorem k_arg8_1 : W1 m ρ c (Proc.devRef .tc main_arg8) = (KA m c).a8 :=
  (W1_of_ne m ρ c main_arg8 (by decide)).trans (k_arg8_0 m ρ c)
theorem k_arg9_1 : W1 m ρ c (Proc.devRef .tc main_arg9) = (KA m c).a9 :=
  (W1_of_ne m ρ c main_arg9 (by decide)).trans (k_arg9_0 m ρ c)
theorem k_arg10_1 : W1 m ρ c (Proc.devRef .tc main_arg10) = (KA m c).a10 :=
  (W1_of_ne m ρ c main_arg10 (by decide)).trans (k_arg10_0 m ρ c)
theorem k_arg11_1 : W1 m ρ c (Proc.devRef .tc main_arg11) = (KA m c).a11 :=
  (W1_of_ne m ρ c main_arg11 (by decide)).trans (k_arg11_0 m ρ c)
theorem k_arg12_1 : W1 m ρ c (Proc.devRef .tc main_arg12) = (KA m c).a12 :=
  (W1_of_ne m ρ c main_arg12 (by decide)).trans (k_arg12_0 m ρ c)
theorem k_arg13_1 : W1 m ρ c (Proc.devRef .tc main_arg13) = (KA m c).a13 :=
  (W1_of_ne m ρ c main_arg13 (by decide)).trans (k_arg13_0 m ρ c)
theorem k_arg14_1 : W1 m ρ c (Proc.devRef .tc main_arg14) = (KA m c).a14 :=
  (W1_of_ne m ρ c main_arg14 (by decide)).trans (k_arg14_0 m ρ c)
theorem k_arg15_1 : W1 m ρ c (Proc.devRef .tc main_arg15) = (KA m c).a15 :=
  (W1_of_ne m ρ c main_arg15 (by decide)).trans (k_arg15_0 m ρ c)
theorem k_arg16_1 : W1 m ρ c (Proc.devRef .tc main_arg16) = (KA m c).a16 :=
  (W1_of_ne m ρ c main_arg16 (by decide)).trans (k_arg16_0 m ρ c)
theorem k_arg17_1 : W1 m ρ c (Proc.devRef .tc main_arg17) = (KA m c).a17 :=
  (W1_of_ne m ρ c main_arg17 (by decide)).trans (k_arg17_0 m ρ c)
theorem k_arg18_1 : W1 m ρ c (Proc.devRef .tc main_arg18) = (KA m c).a18 :=
  (W1_of_ne m ρ c main_arg18 (by decide)).trans (k_arg18_0 m ρ c)
theorem k_arg19_1 : W1 m ρ c (Proc.devRef .tc main_arg19) = (KA m c).a19 :=
  (W1_of_ne m ρ c main_arg19 (by decide)).trans (k_arg19_0 m ρ c)
theorem k_v0_1 : W1 m ρ c (Proc.devRef .tc main_v0) = Spec.g_v3 (KA m c) := by
  refine (W1_arr m ρ c (3 : Fin cfg0.W)).trans ?_
  refine (RegionValue.RegionFacts.reg0 (V0 m ρ) c).trans ?_
  show Spec.linA (W0 m ρ c (Proc.devRef .tc main_arg1)) (W0 m ρ c (Proc.devRef .tc main_arg2)) (W0 m ρ c (Proc.devRef .tc main_arg3)) = _
  rw [k_arg1_0 m ρ c, k_arg2_0 m ρ c, k_arg3_0 m ρ c]
  rfl

/-! ### Boundary 2: after the host stretch hostOps1 -/

theorem k_arg4_2 : W2 m ρ c (Proc.devRef .tc main_arg4) = (KA m c).a4 :=
  (StableHlo.after_of_writes_sub hostOps1 (W1 m ρ c) kwrites2_sub (by decide)).trans (k_arg4_1 m ρ c)
theorem k_arg5_2 : W2 m ρ c (Proc.devRef .tc main_arg5) = (KA m c).a5 :=
  (StableHlo.after_of_writes_sub hostOps1 (W1 m ρ c) kwrites2_sub (by decide)).trans (k_arg5_1 m ρ c)
theorem k_arg6_2 : W2 m ρ c (Proc.devRef .tc main_arg6) = (KA m c).a6 :=
  (StableHlo.after_of_writes_sub hostOps1 (W1 m ρ c) kwrites2_sub (by decide)).trans (k_arg6_1 m ρ c)
theorem k_arg7_2 : W2 m ρ c (Proc.devRef .tc main_arg7) = (KA m c).a7 :=
  (StableHlo.after_of_writes_sub hostOps1 (W1 m ρ c) kwrites2_sub (by decide)).trans (k_arg7_1 m ρ c)
theorem k_arg8_2 : W2 m ρ c (Proc.devRef .tc main_arg8) = (KA m c).a8 :=
  (StableHlo.after_of_writes_sub hostOps1 (W1 m ρ c) kwrites2_sub (by decide)).trans (k_arg8_1 m ρ c)
theorem k_arg9_2 : W2 m ρ c (Proc.devRef .tc main_arg9) = (KA m c).a9 :=
  (StableHlo.after_of_writes_sub hostOps1 (W1 m ρ c) kwrites2_sub (by decide)).trans (k_arg9_1 m ρ c)
theorem k_arg10_2 : W2 m ρ c (Proc.devRef .tc main_arg10) = (KA m c).a10 :=
  (StableHlo.after_of_writes_sub hostOps1 (W1 m ρ c) kwrites2_sub (by decide)).trans (k_arg10_1 m ρ c)
theorem k_arg11_2 : W2 m ρ c (Proc.devRef .tc main_arg11) = (KA m c).a11 :=
  (StableHlo.after_of_writes_sub hostOps1 (W1 m ρ c) kwrites2_sub (by decide)).trans (k_arg11_1 m ρ c)
theorem k_arg12_2 : W2 m ρ c (Proc.devRef .tc main_arg12) = (KA m c).a12 :=
  (StableHlo.after_of_writes_sub hostOps1 (W1 m ρ c) kwrites2_sub (by decide)).trans (k_arg12_1 m ρ c)
theorem k_arg13_2 : W2 m ρ c (Proc.devRef .tc main_arg13) = (KA m c).a13 :=
  (StableHlo.after_of_writes_sub hostOps1 (W1 m ρ c) kwrites2_sub (by decide)).trans (k_arg13_1 m ρ c)
theorem k_arg14_2 : W2 m ρ c (Proc.devRef .tc main_arg14) = (KA m c).a14 :=
  (StableHlo.after_of_writes_sub hostOps1 (W1 m ρ c) kwrites2_sub (by decide)).trans (k_arg14_1 m ρ c)
theorem k_arg15_2 : W2 m ρ c (Proc.devRef .tc main_arg15) = (KA m c).a15 :=
  (StableHlo.after_of_writes_sub hostOps1 (W1 m ρ c) kwrites2_sub (by decide)).trans (k_arg15_1 m ρ c)
theorem k_arg20_2 : W2 m ρ c (Proc.devRef .tc main_arg20) = (KA m c).a20 :=
  (StableHlo.after_of_writes_sub hostOps1 (W1 m ρ c) kwrites2_sub (by decide)).trans (k_arg20_1 m ρ c)
theorem k_arg22_2 : W2 m ρ c (Proc.devRef .tc main_arg22) = (KA m c).a22 :=
  (StableHlo.after_of_writes_sub hostOps1 (W1 m ρ c) kwrites2_sub (by decide)).trans (k_arg22_1 m ρ c)
theorem k_arg21_2 : W2 m ρ c (Proc.devRef .tc main_arg21) = (KA m c).a21 :=
  (StableHlo.after_of_writes_sub hostOps1 (W1 m ρ c) kwrites2_sub (by decide)).trans (k_arg21_1 m ρ c)
theorem k_arg23_2 : W2 m ρ c (Proc.devRef .tc main_arg23) = (KA m c).a23 :=
  (StableHlo.after_of_writes_sub hostOps1 (W1 m ρ c) kwrites2_sub (by decide)).trans (k_arg23_1 m ρ c)
theorem k_arg16_2 : W2 m ρ c (Proc.devRef .tc main_arg16) = (KA m c).a16 :=
  (StableHlo.after_of_writes_sub hostOps1 (W1 m ρ c) kwrites2_sub (by decide)).trans (k_arg16_1 m ρ c)
theorem k_arg17_2 : W2 m ρ c (Proc.devRef .tc main_arg17) = (KA m c).a17 :=
  (StableHlo.after_of_writes_sub hostOps1 (W1 m ρ c) kwrites2_sub (by decide)).trans (k_arg17_1 m ρ c)
theorem k_arg18_2 : W2 m ρ c (Proc.devRef .tc main_arg18) = (KA m c).a18 :=
  (StableHlo.after_of_writes_sub hostOps1 (W1 m ρ c) kwrites2_sub (by decide)).trans (k_arg18_1 m ρ c)
theorem k_arg19_2 : W2 m ρ c (Proc.devRef .tc main_arg19) = (KA m c).a19 :=
  (StableHlo.after_of_writes_sub hostOps1 (W1 m ρ c) kwrites2_sub (by decide)).trans (k_arg19_1 m ρ c)
theorem k_v14_2 : W2 m ρ c (Proc.devRef .tc main_v14) = Spec.g_v17 (KA m c) := by
  show StableHlo.after hostOps1 (W1 m ρ c) (Proc.devRef .tc main_v14) = _
  after_results_simp
  try simp only [k_arg20_1 m ρ c, k_arg0_1 m ρ c]
  rfl
theorem k_v28_2 : W2 m ρ c (Proc.devRef .tc main_v28) = Spec.g_v31 (KA m c) := by
  show StableHlo.after hostOps1 (W1 m ρ c) (Proc.devRef .tc main_v28) = _
  after_results_simp
  try simp only [k_arg22_1 m ρ c, k_v0_1 m ρ c]
  rfl
theorem k_v42_2 : W2 m ρ c (Proc.devRef .tc main_v42) = Spec.g_v45 (KA m c) := by
  show StableHlo.after hostOps1 (W1 m ρ c) (Proc.devRef .tc main_v42) = _
  after_results_simp
  try simp only [k_arg21_1 m ρ c, k_arg0_1 m ρ c]
  rfl
theorem k_v56_2 : W2 m ρ c (Proc.devRef .tc main_v56) = Spec.g_v59 (KA m c) := by
  show StableHlo.after hostOps1 (W1 m ρ c) (Proc.devRef .tc main_v56) = _
  after_results_simp
  try simp only [k_arg23_1 m ρ c, k_v0_1 m ρ c]
  rfl
theorem k_v58_2 : W2 m ρ c (Proc.devRef .tc main_v58) = Spec.g_v61 (KA m c) := by
  show StableHlo.after hostOps1 (W1 m ρ c) (Proc.devRef .tc main_v58) = _
  after_results_simp
  try simp only [k_arg4_1 m ρ c]
  rfl
theorem k_v60_2 : W2 m ρ c (Proc.devRef .tc main_v60) = Spec.g_v63 (KA m c) := by
  show StableHlo.after hostOps1 (W1 m ρ c) (Proc.devRef .tc main_v60) = _
  after_results_simp
  try simp only [k_arg5_1 m ρ c]
  rfl

/-! ### Boundary 3: after region 1 -/

theorem k_arg4_3 : W3 m ρ c (Proc.devRef .tc main_arg4) = (KA m c).a4 :=
  (W3_of_ne m ρ c main_arg4 (by decide)).trans (k_arg4_2 m ρ c)
theorem k_arg5_3 : W3 m ρ c (Proc.devRef .tc main_arg5) = (KA m c).a5 :=
  (W3_of_ne m ρ c main_arg5 (by decide)).trans (k_arg5_2 m ρ c)
theorem k_arg6_3 : W3 m ρ c (Proc.devRef .tc main_arg6) = (KA m c).a6 :=
  (W3_of_ne m ρ c main_arg6 (by decide)).trans (k_arg6_2 m ρ c)
theorem k_arg7_3 : W3 m ρ c (Proc.devRef .tc main_arg7) = (KA m c).a7 :=
  (W3_of_ne m ρ c main_arg7 (by decide)).trans (k_arg7_2 m ρ c)
theorem k_arg8_3 : W3 m ρ c (Proc.devRef .tc main_arg8) = (KA m c).a8 :=
  (W3_of_ne m ρ c main_arg8 (by decide)).trans (k_arg8_2 m ρ c)
theorem k_arg9_3 : W3 m ρ c (Proc.devRef .tc main_arg9) = (KA m c).a9 :=
  (W3_of_ne m ρ c main_arg9 (by decide)).trans (k_arg9_2 m ρ c)
theorem k_arg10_3 : W3 m ρ c (Proc.devRef .tc main_arg10) = (KA m c).a10 :=
  (W3_of_ne m ρ c main_arg10 (by decide)).trans (k_arg10_2 m ρ c)
theorem k_arg11_3 : W3 m ρ c (Proc.devRef .tc main_arg11) = (KA m c).a11 :=
  (W3_of_ne m ρ c main_arg11 (by decide)).trans (k_arg11_2 m ρ c)
theorem k_arg12_3 : W3 m ρ c (Proc.devRef .tc main_arg12) = (KA m c).a12 :=
  (W3_of_ne m ρ c main_arg12 (by decide)).trans (k_arg12_2 m ρ c)
theorem k_arg13_3 : W3 m ρ c (Proc.devRef .tc main_arg13) = (KA m c).a13 :=
  (W3_of_ne m ρ c main_arg13 (by decide)).trans (k_arg13_2 m ρ c)
theorem k_arg14_3 : W3 m ρ c (Proc.devRef .tc main_arg14) = (KA m c).a14 :=
  (W3_of_ne m ρ c main_arg14 (by decide)).trans (k_arg14_2 m ρ c)
theorem k_arg15_3 : W3 m ρ c (Proc.devRef .tc main_arg15) = (KA m c).a15 :=
  (W3_of_ne m ρ c main_arg15 (by decide)).trans (k_arg15_2 m ρ c)
theorem k_arg20_3 : W3 m ρ c (Proc.devRef .tc main_arg20) = (KA m c).a20 :=
  (W3_of_ne m ρ c main_arg20 (by decide)).trans (k_arg20_2 m ρ c)
theorem k_arg22_3 : W3 m ρ c (Proc.devRef .tc main_arg22) = (KA m c).a22 :=
  (W3_of_ne m ρ c main_arg22 (by decide)).trans (k_arg22_2 m ρ c)
theorem k_arg21_3 : W3 m ρ c (Proc.devRef .tc main_arg21) = (KA m c).a21 :=
  (W3_of_ne m ρ c main_arg21 (by decide)).trans (k_arg21_2 m ρ c)
theorem k_arg23_3 : W3 m ρ c (Proc.devRef .tc main_arg23) = (KA m c).a23 :=
  (W3_of_ne m ρ c main_arg23 (by decide)).trans (k_arg23_2 m ρ c)
theorem k_arg16_3 : W3 m ρ c (Proc.devRef .tc main_arg16) = (KA m c).a16 :=
  (W3_of_ne m ρ c main_arg16 (by decide)).trans (k_arg16_2 m ρ c)
theorem k_arg17_3 : W3 m ρ c (Proc.devRef .tc main_arg17) = (KA m c).a17 :=
  (W3_of_ne m ρ c main_arg17 (by decide)).trans (k_arg17_2 m ρ c)
theorem k_arg18_3 : W3 m ρ c (Proc.devRef .tc main_arg18) = (KA m c).a18 :=
  (W3_of_ne m ρ c main_arg18 (by decide)).trans (k_arg18_2 m ρ c)
theorem k_arg19_3 : W3 m ρ c (Proc.devRef .tc main_arg19) = (KA m c).a19 :=
  (W3_of_ne m ρ c main_arg19 (by decide)).trans (k_arg19_2 m ρ c)
theorem k_v28_3 : W3 m ρ c (Proc.devRef .tc main_v28) = Spec.g_v31 (KA m c) :=
  (W3_of_ne m ρ c main_v28 (by decide)).trans (k_v28_2 m ρ c)
theorem k_v42_3 : W3 m ρ c (Proc.devRef .tc main_v42) = Spec.g_v45 (KA m c) :=
  (W3_of_ne m ρ c main_v42 (by decide)).trans (k_v42_2 m ρ c)
theorem k_v56_3 : W3 m ρ c (Proc.devRef .tc main_v56) = Spec.g_v59 (KA m c) :=
  (W3_of_ne m ρ c main_v56 (by decide)).trans (k_v56_2 m ρ c)
theorem k_v61_3 : W3 m ρ c (Proc.devRef .tc main_v61) = Spec.g_v75 (KA m c) := by
  refine (W3_arr m ρ c (3 : Fin cfg1.W)).trans ?_
  refine (RegionValue.RegionFacts.reg1 (V2 m ρ) c).trans ?_
  show Spec.linB (W2 m ρ c (Proc.devRef .tc main_v14)) (W2 m ρ c (Proc.devRef .tc main_v58)) (W2 m ρ c (Proc.devRef .tc main_v60)) = _
  rw [k_v14_2 m ρ c, k_v58_2 m ρ c, k_v60_2 m ρ c]
  rfl

/-! ### Boundary 4: after the host stretch hostOps2 -/

theorem k_arg4_4 : W4 m ρ c (Proc.devRef .tc main_arg4) = (KA m c).a4 :=
  (StableHlo.after_of_writes_sub hostOps2 (W3 m ρ c) kwrites4_sub (by decide)).trans (k_arg4_3 m ρ c)
theorem k_arg5_4 : W4 m ρ c (Proc.devRef .tc main_arg5) = (KA m c).a5 :=
  (StableHlo.after_of_writes_sub hostOps2 (W3 m ρ c) kwrites4_sub (by decide)).trans (k_arg5_3 m ρ c)
theorem k_arg6_4 : W4 m ρ c (Proc.devRef .tc main_arg6) = (KA m c).a6 :=
  (StableHlo.after_of_writes_sub hostOps2 (W3 m ρ c) kwrites4_sub (by decide)).trans (k_arg6_3 m ρ c)
theorem k_arg7_4 : W4 m ρ c (Proc.devRef .tc main_arg7) = (KA m c).a7 :=
  (StableHlo.after_of_writes_sub hostOps2 (W3 m ρ c) kwrites4_sub (by decide)).trans (k_arg7_3 m ρ c)
theorem k_arg8_4 : W4 m ρ c (Proc.devRef .tc main_arg8) = (KA m c).a8 :=
  (StableHlo.after_of_writes_sub hostOps2 (W3 m ρ c) kwrites4_sub (by decide)).trans (k_arg8_3 m ρ c)
theorem k_arg9_4 : W4 m ρ c (Proc.devRef .tc main_arg9) = (KA m c).a9 :=
  (StableHlo.after_of_writes_sub hostOps2 (W3 m ρ c) kwrites4_sub (by decide)).trans (k_arg9_3 m ρ c)
theorem k_arg10_4 : W4 m ρ c (Proc.devRef .tc main_arg10) = (KA m c).a10 :=
  (StableHlo.after_of_writes_sub hostOps2 (W3 m ρ c) kwrites4_sub (by decide)).trans (k_arg10_3 m ρ c)
theorem k_arg11_4 : W4 m ρ c (Proc.devRef .tc main_arg11) = (KA m c).a11 :=
  (StableHlo.after_of_writes_sub hostOps2 (W3 m ρ c) kwrites4_sub (by decide)).trans (k_arg11_3 m ρ c)
theorem k_arg12_4 : W4 m ρ c (Proc.devRef .tc main_arg12) = (KA m c).a12 :=
  (StableHlo.after_of_writes_sub hostOps2 (W3 m ρ c) kwrites4_sub (by decide)).trans (k_arg12_3 m ρ c)
theorem k_arg13_4 : W4 m ρ c (Proc.devRef .tc main_arg13) = (KA m c).a13 :=
  (StableHlo.after_of_writes_sub hostOps2 (W3 m ρ c) kwrites4_sub (by decide)).trans (k_arg13_3 m ρ c)
theorem k_arg14_4 : W4 m ρ c (Proc.devRef .tc main_arg14) = (KA m c).a14 :=
  (StableHlo.after_of_writes_sub hostOps2 (W3 m ρ c) kwrites4_sub (by decide)).trans (k_arg14_3 m ρ c)
theorem k_arg15_4 : W4 m ρ c (Proc.devRef .tc main_arg15) = (KA m c).a15 :=
  (StableHlo.after_of_writes_sub hostOps2 (W3 m ρ c) kwrites4_sub (by decide)).trans (k_arg15_3 m ρ c)
theorem k_arg20_4 : W4 m ρ c (Proc.devRef .tc main_arg20) = (KA m c).a20 :=
  (StableHlo.after_of_writes_sub hostOps2 (W3 m ρ c) kwrites4_sub (by decide)).trans (k_arg20_3 m ρ c)
theorem k_arg22_4 : W4 m ρ c (Proc.devRef .tc main_arg22) = (KA m c).a22 :=
  (StableHlo.after_of_writes_sub hostOps2 (W3 m ρ c) kwrites4_sub (by decide)).trans (k_arg22_3 m ρ c)
theorem k_arg21_4 : W4 m ρ c (Proc.devRef .tc main_arg21) = (KA m c).a21 :=
  (StableHlo.after_of_writes_sub hostOps2 (W3 m ρ c) kwrites4_sub (by decide)).trans (k_arg21_3 m ρ c)
theorem k_arg23_4 : W4 m ρ c (Proc.devRef .tc main_arg23) = (KA m c).a23 :=
  (StableHlo.after_of_writes_sub hostOps2 (W3 m ρ c) kwrites4_sub (by decide)).trans (k_arg23_3 m ρ c)
theorem k_arg16_4 : W4 m ρ c (Proc.devRef .tc main_arg16) = (KA m c).a16 :=
  (StableHlo.after_of_writes_sub hostOps2 (W3 m ρ c) kwrites4_sub (by decide)).trans (k_arg16_3 m ρ c)
theorem k_arg17_4 : W4 m ρ c (Proc.devRef .tc main_arg17) = (KA m c).a17 :=
  (StableHlo.after_of_writes_sub hostOps2 (W3 m ρ c) kwrites4_sub (by decide)).trans (k_arg17_3 m ρ c)
theorem k_arg18_4 : W4 m ρ c (Proc.devRef .tc main_arg18) = (KA m c).a18 :=
  (StableHlo.after_of_writes_sub hostOps2 (W3 m ρ c) kwrites4_sub (by decide)).trans (k_arg18_3 m ρ c)
theorem k_arg19_4 : W4 m ρ c (Proc.devRef .tc main_arg19) = (KA m c).a19 :=
  (StableHlo.after_of_writes_sub hostOps2 (W3 m ρ c) kwrites4_sub (by decide)).trans (k_arg19_3 m ρ c)
theorem k_v28_4 : W4 m ρ c (Proc.devRef .tc main_v28) = Spec.g_v31 (KA m c) :=
  (StableHlo.after_of_writes_sub hostOps2 (W3 m ρ c) kwrites4_sub (by decide)).trans (k_v28_3 m ρ c)
theorem k_v42_4 : W4 m ρ c (Proc.devRef .tc main_v42) = Spec.g_v45 (KA m c) :=
  (StableHlo.after_of_writes_sub hostOps2 (W3 m ρ c) kwrites4_sub (by decide)).trans (k_v42_3 m ρ c)
theorem k_v56_4 : W4 m ρ c (Proc.devRef .tc main_v56) = Spec.g_v59 (KA m c) :=
  (StableHlo.after_of_writes_sub hostOps2 (W3 m ρ c) kwrites4_sub (by decide)).trans (k_v56_3 m ρ c)
theorem k_v61_4 : W4 m ρ c (Proc.devRef .tc main_v61) = Spec.g_v75 (KA m c) :=
  (StableHlo.after_of_writes_sub hostOps2 (W3 m ρ c) kwrites4_sub (by decide)).trans (k_v61_3 m ρ c)
theorem k_v63_4 : W4 m ρ c (Proc.devRef .tc main_v63) = Spec.g_v101 (KA m c) := by
  show StableHlo.after hostOps2 (W3 m ρ c) (Proc.devRef .tc main_v63) = _
  after_results_simp
  try simp only [k_arg4_3 m ρ c]
  rfl
theorem k_v65_4 : W4 m ρ c (Proc.devRef .tc main_v65) = Spec.g_v103 (KA m c) := by
  show StableHlo.after hostOps2 (W3 m ρ c) (Proc.devRef .tc main_v65) = _
  after_results_simp
  try simp only [k_arg5_3 m ρ c]
  rfl

/-! ### Boundary 5: after region 2 -/

theorem k_arg4_5 : W5 m ρ c (Proc.devRef .tc main_arg4) = (KA m c).a4 :=
  (W5_of_ne m ρ c main_arg4 (by decide)).trans (k_arg4_4 m ρ c)
theorem k_arg5_5 : W5 m ρ c (Proc.devRef .tc main_arg5) = (KA m c).a5 :=
  (W5_of_ne m ρ c main_arg5 (by decide)).trans (k_arg5_4 m ρ c)
theorem k_arg6_5 : W5 m ρ c (Proc.devRef .tc main_arg6) = (KA m c).a6 :=
  (W5_of_ne m ρ c main_arg6 (by decide)).trans (k_arg6_4 m ρ c)
theorem k_arg7_5 : W5 m ρ c (Proc.devRef .tc main_arg7) = (KA m c).a7 :=
  (W5_of_ne m ρ c main_arg7 (by decide)).trans (k_arg7_4 m ρ c)
theorem k_arg8_5 : W5 m ρ c (Proc.devRef .tc main_arg8) = (KA m c).a8 :=
  (W5_of_ne m ρ c main_arg8 (by decide)).trans (k_arg8_4 m ρ c)
theorem k_arg9_5 : W5 m ρ c (Proc.devRef .tc main_arg9) = (KA m c).a9 :=
  (W5_of_ne m ρ c main_arg9 (by decide)).trans (k_arg9_4 m ρ c)
theorem k_arg10_5 : W5 m ρ c (Proc.devRef .tc main_arg10) = (KA m c).a10 :=
  (W5_of_ne m ρ c main_arg10 (by decide)).trans (k_arg10_4 m ρ c)
theorem k_arg11_5 : W5 m ρ c (Proc.devRef .tc main_arg11) = (KA m c).a11 :=
  (W5_of_ne m ρ c main_arg11 (by decide)).trans (k_arg11_4 m ρ c)
theorem k_arg12_5 : W5 m ρ c (Proc.devRef .tc main_arg12) = (KA m c).a12 :=
  (W5_of_ne m ρ c main_arg12 (by decide)).trans (k_arg12_4 m ρ c)
theorem k_arg13_5 : W5 m ρ c (Proc.devRef .tc main_arg13) = (KA m c).a13 :=
  (W5_of_ne m ρ c main_arg13 (by decide)).trans (k_arg13_4 m ρ c)
theorem k_arg14_5 : W5 m ρ c (Proc.devRef .tc main_arg14) = (KA m c).a14 :=
  (W5_of_ne m ρ c main_arg14 (by decide)).trans (k_arg14_4 m ρ c)
theorem k_arg15_5 : W5 m ρ c (Proc.devRef .tc main_arg15) = (KA m c).a15 :=
  (W5_of_ne m ρ c main_arg15 (by decide)).trans (k_arg15_4 m ρ c)
theorem k_arg20_5 : W5 m ρ c (Proc.devRef .tc main_arg20) = (KA m c).a20 :=
  (W5_of_ne m ρ c main_arg20 (by decide)).trans (k_arg20_4 m ρ c)
theorem k_arg22_5 : W5 m ρ c (Proc.devRef .tc main_arg22) = (KA m c).a22 :=
  (W5_of_ne m ρ c main_arg22 (by decide)).trans (k_arg22_4 m ρ c)
theorem k_arg21_5 : W5 m ρ c (Proc.devRef .tc main_arg21) = (KA m c).a21 :=
  (W5_of_ne m ρ c main_arg21 (by decide)).trans (k_arg21_4 m ρ c)
theorem k_arg23_5 : W5 m ρ c (Proc.devRef .tc main_arg23) = (KA m c).a23 :=
  (W5_of_ne m ρ c main_arg23 (by decide)).trans (k_arg23_4 m ρ c)
theorem k_arg16_5 : W5 m ρ c (Proc.devRef .tc main_arg16) = (KA m c).a16 :=
  (W5_of_ne m ρ c main_arg16 (by decide)).trans (k_arg16_4 m ρ c)
theorem k_arg17_5 : W5 m ρ c (Proc.devRef .tc main_arg17) = (KA m c).a17 :=
  (W5_of_ne m ρ c main_arg17 (by decide)).trans (k_arg17_4 m ρ c)
theorem k_arg18_5 : W5 m ρ c (Proc.devRef .tc main_arg18) = (KA m c).a18 :=
  (W5_of_ne m ρ c main_arg18 (by decide)).trans (k_arg18_4 m ρ c)
theorem k_arg19_5 : W5 m ρ c (Proc.devRef .tc main_arg19) = (KA m c).a19 :=
  (W5_of_ne m ρ c main_arg19 (by decide)).trans (k_arg19_4 m ρ c)
theorem k_v42_5 : W5 m ρ c (Proc.devRef .tc main_v42) = Spec.g_v45 (KA m c) :=
  (W5_of_ne m ρ c main_v42 (by decide)).trans (k_v42_4 m ρ c)
theorem k_v56_5 : W5 m ρ c (Proc.devRef .tc main_v56) = Spec.g_v59 (KA m c) :=
  (W5_of_ne m ρ c main_v56 (by decide)).trans (k_v56_4 m ρ c)
theorem k_v61_5 : W5 m ρ c (Proc.devRef .tc main_v61) = Spec.g_v75 (KA m c) :=
  (W5_of_ne m ρ c main_v61 (by decide)).trans (k_v61_4 m ρ c)
theorem k_v66_5 : W5 m ρ c (Proc.devRef .tc main_v66) = Spec.g_v115 (KA m c) := by
  refine (W5_arr m ρ c (3 : Fin cfg2.W)).trans ?_
  refine (RegionValue.RegionFacts.reg2 (V4 m ρ) c).trans ?_
  show Spec.linB (W4 m ρ c (Proc.devRef .tc main_v28)) (W4 m ρ c (Proc.devRef .tc main_v63)) (W4 m ρ c (Proc.devRef .tc main_v65)) = _
  rw [k_v28_4 m ρ c, k_v63_4 m ρ c, k_v65_4 m ρ c]
  rfl

/-! ### Boundary 6: after the host stretch hostOps3 -/

theorem k_arg4_6 : W6 m ρ c (Proc.devRef .tc main_arg4) = (KA m c).a4 :=
  (StableHlo.after_of_writes_sub hostOps3 (W5 m ρ c) kwrites6_sub (by decide)).trans (k_arg4_5 m ρ c)
theorem k_arg5_6 : W6 m ρ c (Proc.devRef .tc main_arg5) = (KA m c).a5 :=
  (StableHlo.after_of_writes_sub hostOps3 (W5 m ρ c) kwrites6_sub (by decide)).trans (k_arg5_5 m ρ c)
theorem k_arg6_6 : W6 m ρ c (Proc.devRef .tc main_arg6) = (KA m c).a6 :=
  (StableHlo.after_of_writes_sub hostOps3 (W5 m ρ c) kwrites6_sub (by decide)).trans (k_arg6_5 m ρ c)
theorem k_arg7_6 : W6 m ρ c (Proc.devRef .tc main_arg7) = (KA m c).a7 :=
  (StableHlo.after_of_writes_sub hostOps3 (W5 m ρ c) kwrites6_sub (by decide)).trans (k_arg7_5 m ρ c)
theorem k_arg8_6 : W6 m ρ c (Proc.devRef .tc main_arg8) = (KA m c).a8 :=
  (StableHlo.after_of_writes_sub hostOps3 (W5 m ρ c) kwrites6_sub (by decide)).trans (k_arg8_5 m ρ c)
theorem k_arg9_6 : W6 m ρ c (Proc.devRef .tc main_arg9) = (KA m c).a9 :=
  (StableHlo.after_of_writes_sub hostOps3 (W5 m ρ c) kwrites6_sub (by decide)).trans (k_arg9_5 m ρ c)
theorem k_arg10_6 : W6 m ρ c (Proc.devRef .tc main_arg10) = (KA m c).a10 :=
  (StableHlo.after_of_writes_sub hostOps3 (W5 m ρ c) kwrites6_sub (by decide)).trans (k_arg10_5 m ρ c)
theorem k_arg11_6 : W6 m ρ c (Proc.devRef .tc main_arg11) = (KA m c).a11 :=
  (StableHlo.after_of_writes_sub hostOps3 (W5 m ρ c) kwrites6_sub (by decide)).trans (k_arg11_5 m ρ c)
theorem k_arg12_6 : W6 m ρ c (Proc.devRef .tc main_arg12) = (KA m c).a12 :=
  (StableHlo.after_of_writes_sub hostOps3 (W5 m ρ c) kwrites6_sub (by decide)).trans (k_arg12_5 m ρ c)
theorem k_arg13_6 : W6 m ρ c (Proc.devRef .tc main_arg13) = (KA m c).a13 :=
  (StableHlo.after_of_writes_sub hostOps3 (W5 m ρ c) kwrites6_sub (by decide)).trans (k_arg13_5 m ρ c)
theorem k_arg14_6 : W6 m ρ c (Proc.devRef .tc main_arg14) = (KA m c).a14 :=
  (StableHlo.after_of_writes_sub hostOps3 (W5 m ρ c) kwrites6_sub (by decide)).trans (k_arg14_5 m ρ c)
theorem k_arg15_6 : W6 m ρ c (Proc.devRef .tc main_arg15) = (KA m c).a15 :=
  (StableHlo.after_of_writes_sub hostOps3 (W5 m ρ c) kwrites6_sub (by decide)).trans (k_arg15_5 m ρ c)
theorem k_arg20_6 : W6 m ρ c (Proc.devRef .tc main_arg20) = (KA m c).a20 :=
  (StableHlo.after_of_writes_sub hostOps3 (W5 m ρ c) kwrites6_sub (by decide)).trans (k_arg20_5 m ρ c)
theorem k_arg22_6 : W6 m ρ c (Proc.devRef .tc main_arg22) = (KA m c).a22 :=
  (StableHlo.after_of_writes_sub hostOps3 (W5 m ρ c) kwrites6_sub (by decide)).trans (k_arg22_5 m ρ c)
theorem k_arg21_6 : W6 m ρ c (Proc.devRef .tc main_arg21) = (KA m c).a21 :=
  (StableHlo.after_of_writes_sub hostOps3 (W5 m ρ c) kwrites6_sub (by decide)).trans (k_arg21_5 m ρ c)
theorem k_arg23_6 : W6 m ρ c (Proc.devRef .tc main_arg23) = (KA m c).a23 :=
  (StableHlo.after_of_writes_sub hostOps3 (W5 m ρ c) kwrites6_sub (by decide)).trans (k_arg23_5 m ρ c)
theorem k_arg16_6 : W6 m ρ c (Proc.devRef .tc main_arg16) = (KA m c).a16 :=
  (StableHlo.after_of_writes_sub hostOps3 (W5 m ρ c) kwrites6_sub (by decide)).trans (k_arg16_5 m ρ c)
theorem k_arg17_6 : W6 m ρ c (Proc.devRef .tc main_arg17) = (KA m c).a17 :=
  (StableHlo.after_of_writes_sub hostOps3 (W5 m ρ c) kwrites6_sub (by decide)).trans (k_arg17_5 m ρ c)
theorem k_arg18_6 : W6 m ρ c (Proc.devRef .tc main_arg18) = (KA m c).a18 :=
  (StableHlo.after_of_writes_sub hostOps3 (W5 m ρ c) kwrites6_sub (by decide)).trans (k_arg18_5 m ρ c)
theorem k_arg19_6 : W6 m ρ c (Proc.devRef .tc main_arg19) = (KA m c).a19 :=
  (StableHlo.after_of_writes_sub hostOps3 (W5 m ρ c) kwrites6_sub (by decide)).trans (k_arg19_5 m ρ c)
theorem k_v42_6 : W6 m ρ c (Proc.devRef .tc main_v42) = Spec.g_v45 (KA m c) :=
  (StableHlo.after_of_writes_sub hostOps3 (W5 m ρ c) kwrites6_sub (by decide)).trans (k_v42_5 m ρ c)
theorem k_v56_6 : W6 m ρ c (Proc.devRef .tc main_v56) = Spec.g_v59 (KA m c) :=
  (StableHlo.after_of_writes_sub hostOps3 (W5 m ρ c) kwrites6_sub (by decide)).trans (k_v56_5 m ρ c)
theorem k_v61_6 : W6 m ρ c (Proc.devRef .tc main_v61) = Spec.g_v75 (KA m c) :=
  (StableHlo.after_of_writes_sub hostOps3 (W5 m ρ c) kwrites6_sub (by decide)).trans (k_v61_5 m ρ c)
theorem k_v66_6 : W6 m ρ c (Proc.devRef .tc main_v66) = Spec.g_v115 (KA m c) :=
  (StableHlo.after_of_writes_sub hostOps3 (W5 m ρ c) kwrites6_sub (by decide)).trans (k_v66_5 m ρ c)
theorem k_v68_6 : W6 m ρ c (Proc.devRef .tc main_v68) = Spec.g_v143 (KA m c) := by
  show StableHlo.after hostOps3 (W5 m ρ c) (Proc.devRef .tc main_v68) = _
  after_results_simp
  try simp only [k_arg4_5 m ρ c]
  rfl
theorem k_v70_6 : W6 m ρ c (Proc.devRef .tc main_v70) = Spec.g_v145 (KA m c) := by
  show StableHlo.after hostOps3 (W5 m ρ c) (Proc.devRef .tc main_v70) = _
  after_results_simp
  try simp only [k_arg5_5 m ρ c]
  rfl

/-! ### Boundary 7: after region 3 -/

theorem k_arg4_7 : W7 m ρ c (Proc.devRef .tc main_arg4) = (KA m c).a4 :=
  (W7_of_ne m ρ c main_arg4 (by decide)).trans (k_arg4_6 m ρ c)
theorem k_arg5_7 : W7 m ρ c (Proc.devRef .tc main_arg5) = (KA m c).a5 :=
  (W7_of_ne m ρ c main_arg5 (by decide)).trans (k_arg5_6 m ρ c)
theorem k_arg6_7 : W7 m ρ c (Proc.devRef .tc main_arg6) = (KA m c).a6 :=
  (W7_of_ne m ρ c main_arg6 (by decide)).trans (k_arg6_6 m ρ c)
theorem k_arg7_7 : W7 m ρ c (Proc.devRef .tc main_arg7) = (KA m c).a7 :=
  (W7_of_ne m ρ c main_arg7 (by decide)).trans (k_arg7_6 m ρ c)
theorem k_arg8_7 : W7 m ρ c (Proc.devRef .tc main_arg8) = (KA m c).a8 :=
  (W7_of_ne m ρ c main_arg8 (by decide)).trans (k_arg8_6 m ρ c)
theorem k_arg9_7 : W7 m ρ c (Proc.devRef .tc main_arg9) = (KA m c).a9 :=
  (W7_of_ne m ρ c main_arg9 (by decide)).trans (k_arg9_6 m ρ c)
theorem k_arg10_7 : W7 m ρ c (Proc.devRef .tc main_arg10) = (KA m c).a10 :=
  (W7_of_ne m ρ c main_arg10 (by decide)).trans (k_arg10_6 m ρ c)
theorem k_arg11_7 : W7 m ρ c (Proc.devRef .tc main_arg11) = (KA m c).a11 :=
  (W7_of_ne m ρ c main_arg11 (by decide)).trans (k_arg11_6 m ρ c)
theorem k_arg12_7 : W7 m ρ c (Proc.devRef .tc main_arg12) = (KA m c).a12 :=
  (W7_of_ne m ρ c main_arg12 (by decide)).trans (k_arg12_6 m ρ c)
theorem k_arg13_7 : W7 m ρ c (Proc.devRef .tc main_arg13) = (KA m c).a13 :=
  (W7_of_ne m ρ c main_arg13 (by decide)).trans (k_arg13_6 m ρ c)
theorem k_arg14_7 : W7 m ρ c (Proc.devRef .tc main_arg14) = (KA m c).a14 :=
  (W7_of_ne m ρ c main_arg14 (by decide)).trans (k_arg14_6 m ρ c)
theorem k_arg15_7 : W7 m ρ c (Proc.devRef .tc main_arg15) = (KA m c).a15 :=
  (W7_of_ne m ρ c main_arg15 (by decide)).trans (k_arg15_6 m ρ c)
theorem k_arg20_7 : W7 m ρ c (Proc.devRef .tc main_arg20) = (KA m c).a20 :=
  (W7_of_ne m ρ c main_arg20 (by decide)).trans (k_arg20_6 m ρ c)
theorem k_arg22_7 : W7 m ρ c (Proc.devRef .tc main_arg22) = (KA m c).a22 :=
  (W7_of_ne m ρ c main_arg22 (by decide)).trans (k_arg22_6 m ρ c)
theorem k_arg21_7 : W7 m ρ c (Proc.devRef .tc main_arg21) = (KA m c).a21 :=
  (W7_of_ne m ρ c main_arg21 (by decide)).trans (k_arg21_6 m ρ c)
theorem k_arg23_7 : W7 m ρ c (Proc.devRef .tc main_arg23) = (KA m c).a23 :=
  (W7_of_ne m ρ c main_arg23 (by decide)).trans (k_arg23_6 m ρ c)
theorem k_arg16_7 : W7 m ρ c (Proc.devRef .tc main_arg16) = (KA m c).a16 :=
  (W7_of_ne m ρ c main_arg16 (by decide)).trans (k_arg16_6 m ρ c)
theorem k_arg17_7 : W7 m ρ c (Proc.devRef .tc main_arg17) = (KA m c).a17 :=
  (W7_of_ne m ρ c main_arg17 (by decide)).trans (k_arg17_6 m ρ c)
theorem k_arg18_7 : W7 m ρ c (Proc.devRef .tc main_arg18) = (KA m c).a18 :=
  (W7_of_ne m ρ c main_arg18 (by decide)).trans (k_arg18_6 m ρ c)
theorem k_arg19_7 : W7 m ρ c (Proc.devRef .tc main_arg19) = (KA m c).a19 :=
  (W7_of_ne m ρ c main_arg19 (by decide)).trans (k_arg19_6 m ρ c)
theorem k_v56_7 : W7 m ρ c (Proc.devRef .tc main_v56) = Spec.g_v59 (KA m c) :=
  (W7_of_ne m ρ c main_v56 (by decide)).trans (k_v56_6 m ρ c)
theorem k_v61_7 : W7 m ρ c (Proc.devRef .tc main_v61) = Spec.g_v75 (KA m c) :=
  (W7_of_ne m ρ c main_v61 (by decide)).trans (k_v61_6 m ρ c)
theorem k_v66_7 : W7 m ρ c (Proc.devRef .tc main_v66) = Spec.g_v115 (KA m c) :=
  (W7_of_ne m ρ c main_v66 (by decide)).trans (k_v66_6 m ρ c)
theorem k_v71_7 : W7 m ρ c (Proc.devRef .tc main_v71) = Spec.g_v157 (KA m c) := by
  refine (W7_arr m ρ c (3 : Fin cfg3.W)).trans ?_
  refine (RegionValue.RegionFacts.reg3 (V6 m ρ) c).trans ?_
  show Spec.linC (W6 m ρ c (Proc.devRef .tc main_v42)) (W6 m ρ c (Proc.devRef .tc main_v68)) (W6 m ρ c (Proc.devRef .tc main_v70)) = _
  rw [k_v42_6 m ρ c, k_v68_6 m ρ c, k_v70_6 m ρ c]
  rfl

/-! ### Boundary 8: after the host stretch hostOps4 -/

theorem k_arg6_8 : W8 m ρ c (Proc.devRef .tc main_arg6) = (KA m c).a6 :=
  (StableHlo.after_of_writes_sub hostOps4 (W7 m ρ c) kwrites8_sub (by decide)).trans (k_arg6_7 m ρ c)
theorem k_arg7_8 : W8 m ρ c (Proc.devRef .tc main_arg7) = (KA m c).a7 :=
  (StableHlo.after_of_writes_sub hostOps4 (W7 m ρ c) kwrites8_sub (by decide)).trans (k_arg7_7 m ρ c)
theorem k_arg8_8 : W8 m ρ c (Proc.devRef .tc main_arg8) = (KA m c).a8 :=
  (StableHlo.after_of_writes_sub hostOps4 (W7 m ρ c) kwrites8_sub (by decide)).trans (k_arg8_7 m ρ c)
theorem k_arg9_8 : W8 m ρ c (Proc.devRef .tc main_arg9) = (KA m c).a9 :=
  (StableHlo.after_of_writes_sub hostOps4 (W7 m ρ c) kwrites8_sub (by decide)).trans (k_arg9_7 m ρ c)
theorem k_arg10_8 : W8 m ρ c (Proc.devRef .tc main_arg10) = (KA m c).a10 :=
  (StableHlo.after_of_writes_sub hostOps4 (W7 m ρ c) kwrites8_sub (by decide)).trans (k_arg10_7 m ρ c)
theorem k_arg11_8 : W8 m ρ c (Proc.devRef .tc main_arg11) = (KA m c).a11 :=
  (StableHlo.after_of_writes_sub hostOps4 (W7 m ρ c) kwrites8_sub (by decide)).trans (k_arg11_7 m ρ c)
theorem k_arg12_8 : W8 m ρ c (Proc.devRef .tc main_arg12) = (KA m c).a12 :=
  (StableHlo.after_of_writes_sub hostOps4 (W7 m ρ c) kwrites8_sub (by decide)).trans (k_arg12_7 m ρ c)
theorem k_arg13_8 : W8 m ρ c (Proc.devRef .tc main_arg13) = (KA m c).a13 :=
  (StableHlo.after_of_writes_sub hostOps4 (W7 m ρ c) kwrites8_sub (by decide)).trans (k_arg13_7 m ρ c)
theorem k_arg14_8 : W8 m ρ c (Proc.devRef .tc main_arg14) = (KA m c).a14 :=
  (StableHlo.after_of_writes_sub hostOps4 (W7 m ρ c) kwrites8_sub (by decide)).trans (k_arg14_7 m ρ c)
theorem k_arg15_8 : W8 m ρ c (Proc.devRef .tc main_arg15) = (KA m c).a15 :=
  (StableHlo.after_of_writes_sub hostOps4 (W7 m ρ c) kwrites8_sub (by decide)).trans (k_arg15_7 m ρ c)
theorem k_arg20_8 : W8 m ρ c (Proc.devRef .tc main_arg20) = (KA m c).a20 :=
  (StableHlo.after_of_writes_sub hostOps4 (W7 m ρ c) kwrites8_sub (by decide)).trans (k_arg20_7 m ρ c)
theorem k_arg22_8 : W8 m ρ c (Proc.devRef .tc main_arg22) = (KA m c).a22 :=
  (StableHlo.after_of_writes_sub hostOps4 (W7 m ρ c) kwrites8_sub (by decide)).trans (k_arg22_7 m ρ c)
theorem k_arg21_8 : W8 m ρ c (Proc.devRef .tc main_arg21) = (KA m c).a21 :=
  (StableHlo.after_of_writes_sub hostOps4 (W7 m ρ c) kwrites8_sub (by decide)).trans (k_arg21_7 m ρ c)
theorem k_arg23_8 : W8 m ρ c (Proc.devRef .tc main_arg23) = (KA m c).a23 :=
  (StableHlo.after_of_writes_sub hostOps4 (W7 m ρ c) kwrites8_sub (by decide)).trans (k_arg23_7 m ρ c)
theorem k_arg16_8 : W8 m ρ c (Proc.devRef .tc main_arg16) = (KA m c).a16 :=
  (StableHlo.after_of_writes_sub hostOps4 (W7 m ρ c) kwrites8_sub (by decide)).trans (k_arg16_7 m ρ c)
theorem k_arg17_8 : W8 m ρ c (Proc.devRef .tc main_arg17) = (KA m c).a17 :=
  (StableHlo.after_of_writes_sub hostOps4 (W7 m ρ c) kwrites8_sub (by decide)).trans (k_arg17_7 m ρ c)
theorem k_arg18_8 : W8 m ρ c (Proc.devRef .tc main_arg18) = (KA m c).a18 :=
  (StableHlo.after_of_writes_sub hostOps4 (W7 m ρ c) kwrites8_sub (by decide)).trans (k_arg18_7 m ρ c)
theorem k_arg19_8 : W8 m ρ c (Proc.devRef .tc main_arg19) = (KA m c).a19 :=
  (StableHlo.after_of_writes_sub hostOps4 (W7 m ρ c) kwrites8_sub (by decide)).trans (k_arg19_7 m ρ c)
theorem k_v56_8 : W8 m ρ c (Proc.devRef .tc main_v56) = Spec.g_v59 (KA m c) :=
  (StableHlo.after_of_writes_sub hostOps4 (W7 m ρ c) kwrites8_sub (by decide)).trans (k_v56_7 m ρ c)
theorem k_v61_8 : W8 m ρ c (Proc.devRef .tc main_v61) = Spec.g_v75 (KA m c) :=
  (StableHlo.after_of_writes_sub hostOps4 (W7 m ρ c) kwrites8_sub (by decide)).trans (k_v61_7 m ρ c)
theorem k_v66_8 : W8 m ρ c (Proc.devRef .tc main_v66) = Spec.g_v115 (KA m c) :=
  (StableHlo.after_of_writes_sub hostOps4 (W7 m ρ c) kwrites8_sub (by decide)).trans (k_v66_7 m ρ c)
theorem k_v71_8 : W8 m ρ c (Proc.devRef .tc main_v71) = Spec.g_v157 (KA m c) :=
  (StableHlo.after_of_writes_sub hostOps4 (W7 m ρ c) kwrites8_sub (by decide)).trans (k_v71_7 m ρ c)
theorem k_v73_8 : W8 m ρ c (Proc.devRef .tc main_v73) = Spec.g_v183 (KA m c) := by
  show StableHlo.after hostOps4 (W7 m ρ c) (Proc.devRef .tc main_v73) = _
  after_results_simp
  try simp only [k_arg4_7 m ρ c]
  rfl
theorem k_v75_8 : W8 m ρ c (Proc.devRef .tc main_v75) = Spec.g_v185 (KA m c) := by
  show StableHlo.after hostOps4 (W7 m ρ c) (Proc.devRef .tc main_v75) = _
  after_results_simp
  try simp only [k_arg5_7 m ρ c]
  rfl

/-! ### Boundary 9: after region 4 -/

theorem k_arg6_9 : W9 m ρ c (Proc.devRef .tc main_arg6) = (KA m c).a6 :=
  (W9_of_ne m ρ c main_arg6 (by decide)).trans (k_arg6_8 m ρ c)
theorem k_arg7_9 : W9 m ρ c (Proc.devRef .tc main_arg7) = (KA m c).a7 :=
  (W9_of_ne m ρ c main_arg7 (by decide)).trans (k_arg7_8 m ρ c)
theorem k_arg8_9 : W9 m ρ c (Proc.devRef .tc main_arg8) = (KA m c).a8 :=
  (W9_of_ne m ρ c main_arg8 (by decide)).trans (k_arg8_8 m ρ c)
theorem k_arg9_9 : W9 m ρ c (Proc.devRef .tc main_arg9) = (KA m c).a9 :=
  (W9_of_ne m ρ c main_arg9 (by decide)).trans (k_arg9_8 m ρ c)
theorem k_arg10_9 : W9 m ρ c (Proc.devRef .tc main_arg10) = (KA m c).a10 :=
  (W9_of_ne m ρ c main_arg10 (by decide)).trans (k_arg10_8 m ρ c)
theorem k_arg11_9 : W9 m ρ c (Proc.devRef .tc main_arg11) = (KA m c).a11 :=
  (W9_of_ne m ρ c main_arg11 (by decide)).trans (k_arg11_8 m ρ c)
theorem k_arg12_9 : W9 m ρ c (Proc.devRef .tc main_arg12) = (KA m c).a12 :=
  (W9_of_ne m ρ c main_arg12 (by decide)).trans (k_arg12_8 m ρ c)
theorem k_arg13_9 : W9 m ρ c (Proc.devRef .tc main_arg13) = (KA m c).a13 :=
  (W9_of_ne m ρ c main_arg13 (by decide)).trans (k_arg13_8 m ρ c)
theorem k_arg14_9 : W9 m ρ c (Proc.devRef .tc main_arg14) = (KA m c).a14 :=
  (W9_of_ne m ρ c main_arg14 (by decide)).trans (k_arg14_8 m ρ c)
theorem k_arg15_9 : W9 m ρ c (Proc.devRef .tc main_arg15) = (KA m c).a15 :=
  (W9_of_ne m ρ c main_arg15 (by decide)).trans (k_arg15_8 m ρ c)
theorem k_arg20_9 : W9 m ρ c (Proc.devRef .tc main_arg20) = (KA m c).a20 :=
  (W9_of_ne m ρ c main_arg20 (by decide)).trans (k_arg20_8 m ρ c)
theorem k_arg22_9 : W9 m ρ c (Proc.devRef .tc main_arg22) = (KA m c).a22 :=
  (W9_of_ne m ρ c main_arg22 (by decide)).trans (k_arg22_8 m ρ c)
theorem k_arg21_9 : W9 m ρ c (Proc.devRef .tc main_arg21) = (KA m c).a21 :=
  (W9_of_ne m ρ c main_arg21 (by decide)).trans (k_arg21_8 m ρ c)
theorem k_arg23_9 : W9 m ρ c (Proc.devRef .tc main_arg23) = (KA m c).a23 :=
  (W9_of_ne m ρ c main_arg23 (by decide)).trans (k_arg23_8 m ρ c)
theorem k_arg16_9 : W9 m ρ c (Proc.devRef .tc main_arg16) = (KA m c).a16 :=
  (W9_of_ne m ρ c main_arg16 (by decide)).trans (k_arg16_8 m ρ c)
theorem k_arg17_9 : W9 m ρ c (Proc.devRef .tc main_arg17) = (KA m c).a17 :=
  (W9_of_ne m ρ c main_arg17 (by decide)).trans (k_arg17_8 m ρ c)
theorem k_arg18_9 : W9 m ρ c (Proc.devRef .tc main_arg18) = (KA m c).a18 :=
  (W9_of_ne m ρ c main_arg18 (by decide)).trans (k_arg18_8 m ρ c)
theorem k_arg19_9 : W9 m ρ c (Proc.devRef .tc main_arg19) = (KA m c).a19 :=
  (W9_of_ne m ρ c main_arg19 (by decide)).trans (k_arg19_8 m ρ c)
theorem k_v61_9 : W9 m ρ c (Proc.devRef .tc main_v61) = Spec.g_v75 (KA m c) :=
  (W9_of_ne m ρ c main_v61 (by decide)).trans (k_v61_8 m ρ c)
theorem k_v66_9 : W9 m ρ c (Proc.devRef .tc main_v66) = Spec.g_v115 (KA m c) :=
  (W9_of_ne m ρ c main_v66 (by decide)).trans (k_v66_8 m ρ c)
theorem k_v71_9 : W9 m ρ c (Proc.devRef .tc main_v71) = Spec.g_v157 (KA m c) :=
  (W9_of_ne m ρ c main_v71 (by decide)).trans (k_v71_8 m ρ c)
theorem k_v76_9 : W9 m ρ c (Proc.devRef .tc main_v76) = Spec.g_v197 (KA m c) := by
  refine (W9_arr m ρ c (3 : Fin cfg4.W)).trans ?_
  refine (RegionValue.RegionFacts.reg4 (V8 m ρ) c).trans ?_
  show Spec.linC (W8 m ρ c (Proc.devRef .tc main_v56)) (W8 m ρ c (Proc.devRef .tc main_v73)) (W8 m ρ c (Proc.devRef .tc main_v75)) = _
  rw [k_v56_8 m ρ c, k_v73_8 m ρ c, k_v75_8 m ρ c]
  rfl

end Cert.KernelIdeal.Thread

end
-- ==== Proof.KThread1.lean ====
import proofs.«116822_j38594576122568_1_alg».proof.Proof.Gen.KernelIdeal.Frame
import proofs.«116822_j38594576122568_1_alg».proof.Proof.KWrites
import proofs.«116822_j38594576122568_1_alg».proof.Proof.KPlain
import proofs.«116822_j38594576122568_1_alg».proof.Proof.SpecValues
import proofs.«116822_j38594576122568_1_alg».proof.Proof.RegionStatements
import proofs.«116822_j38594576122568_1_alg».proof.Proof.KThread0
import Idealize.ShloMosaic.Lib.StableHlo.Run

/-! The kernel program's run read boundary by boundary (boundaries 10 to 21 of the generated frame's valuations): what each
    buffer read again later holds there, as the shared value of the reference's run. A stretch of host operations is read
    through; a region's output array is the region's layer function of its input arrays; everything else is carried. -/

set_option maxRecDepth 16384

noncomputable section

namespace Cert.KernelIdeal.Thread

open Cert.KernelIdeal Cert.KernelIdeal.Gen Idealize.ShloMosaic Idealize.ShloMosaic.TcCoe Idealize.SL.Sem Idealize.ShloMosaic.StableHlo

variable [RegionValue.RegionFacts] (m : (ℓ : Loc nD τ sig) → Buf (Elt Ideal) ℓ) (ρ : Dev nD → PrngReg) (c : Dev nD)

/-! ### Boundary 10: after the host stretch hostOps5 -/

theorem k_arg6_10 : W10 m ρ c (Proc.devRef .tc main_arg6) = (KA m c).a6 :=
  (StableHlo.after_of_writes_sub hostOps5 (W9 m ρ c) kwrites10_sub (by decide)).trans (k_arg6_9 m ρ c)
theorem k_arg7_10 : W10 m ρ c (Proc.devRef .tc main_arg7) = (KA m c).a7 :=
  (StableHlo.after_of_writes_sub hostOps5 (W9 m ρ c) kwrites10_sub (by decide)).trans (k_arg7_9 m ρ c)
theorem k_arg8_10 : W10 m ρ c (Proc.devRef .tc main_arg8) = (KA m c).a8 :=
  (StableHlo.after_of_writes_sub hostOps5 (W9 m ρ c) kwrites10_sub (by decide)).trans (k_arg8_9 m ρ c)
theorem k_arg9_10 : W10 m ρ c (Proc.devRef .tc main_arg9) = (KA m c).a9 :=
  (StableHlo.after_of_writes_sub hostOps5 (W9 m ρ c) kwrites10_sub (by decide)).trans (k_arg9_9 m ρ c)
theorem k_arg10_10 : W10 m ρ c (Proc.devRef .tc main_arg10) = (KA m c).a10 :=
  (StableHlo.after_of_writes_sub hostOps5 (W9 m ρ c) kwrites10_sub (by decide)).trans (k_arg10_9 m ρ c)
theorem k_arg11_10 : W10 m ρ c (Proc.devRef .tc main_arg11) = (KA m c).a11 :=
  (StableHlo.after_of_writes_sub hostOps5 (W9 m ρ c) kwrites10_sub (by decide)).trans (k_arg11_9 m ρ c)
theorem k_arg12_10 : W10 m ρ c (Proc.devRef .tc main_arg12) = (KA m c).a12 :=
  (StableHlo.after_of_writes_sub hostOps5 (W9 m ρ c) kwrites10_sub (by decide)).trans (k_arg12_9 m ρ c)
theorem k_arg13_10 : W10 m ρ c (Proc.devRef .tc main_arg13) = (KA m c).a13 :=
  (StableHlo.after_of_writes_sub hostOps5 (W9 m ρ c) kwrites10_sub (by decide)).trans (k_arg13_9 m ρ c)
theorem k_arg14_10 : W10 m ρ c (Proc.devRef .tc main_arg14) = (KA m c).a14 :=
  (StableHlo.after_of_writes_sub hostOps5 (W9 m ρ c) kwrites10_sub (by decide)).trans (k_arg14_9 m ρ c)
theorem k_arg15_10 : W10 m ρ c (Proc.devRef .tc main_arg15) = (KA m c).a15 :=
  (StableHlo.after_of_writes_sub hostOps5 (W9 m ρ c) kwrites10_sub (by decide)).trans (k_arg15_9 m ρ c)
theorem k_arg20_10 : W10 m ρ c (Proc.devRef .tc main_arg20) = (KA m c).a20 :=
  (StableHlo.after_of_writes_sub hostOps5 (W9 m ρ c) kwrites10_sub (by decide)).trans (k_arg20_9 m ρ c)
theorem k_arg22_10 : W10 m ρ c (Proc.devRef .tc main_arg22) = (KA m c).a22 :=
  (StableHlo.after_of_writes_sub hostOps5 (W9 m ρ c) kwrites10_sub (by decide)).trans (k_arg22_9 m ρ c)
theorem k_arg21_10 : W10 m ρ c (Proc.devRef .tc main_arg21) = (KA m c).a21 :=
  (StableHlo.after_of_writes_sub hostOps5 (W9 m ρ c) kwrites10_sub (by decide)).trans (k_arg21_9 m ρ c)
theorem k_arg23_10 : W10 m ρ c (Proc.devRef .tc main_arg23) = (KA m c).a23 :=
  (StableHlo.after_of_writes_sub hostOps5 (W9 m ρ c) kwrites10_sub (by decide)).trans (k_arg23_9 m ρ c)
theorem k_arg16_10 : W10 m ρ c (Proc.devRef .tc main_arg16) = (KA m c).a16 :=
  (StableHlo.after_of_writes_sub hostOps5 (W9 m ρ c) kwrites10_sub (by decide)).trans (k_arg16_9 m ρ c)
theorem k_arg17_10 : W10 m ρ c (Proc.devRef .tc main_arg17) = (KA m c).a17 :=
  (StableHlo.after_of_writes_sub hostOps5 (W9 m ρ c) kwrites10_sub (by decide)).trans (k_arg17_9 m ρ c)
theorem k_arg18_10 : W10 m ρ c (Proc.devRef .tc main_arg18) = (KA m c).a18 :=
  (StableHlo.after_of_writes_sub hostOps5 (W9 m ρ c) kwrites10_sub (by decide)).trans (k_arg18_9 m ρ c)
theorem k_arg19_10 : W10 m ρ c (Proc.devRef .tc main_arg19) = (KA m c).a19 :=
  (StableHlo.after_of_writes_sub hostOps5 (W9 m ρ c) kwrites10_sub (by decide)).trans (k_arg19_9 m ρ c)
theorem k_v61_10 : W10 m ρ c (Proc.devRef .tc main_v61) = Spec.g_v75 (KA m c) :=
  (StableHlo.after_of_writes_sub hostOps5 (W9 m ρ c) kwrites10_sub (by decide)).trans (k_v61_9 m ρ c)
theorem k_v66_10 : W10 m ρ c (Proc.devRef .tc main_v66) = Spec.g_v115 (KA m c) :=
  (StableHlo.after_of_writes_sub hostOps5 (W9 m ρ c) kwrites10_sub (by decide)).trans (k_v66_9 m ρ c)
theorem k_v71_10 : W10 m ρ c (Proc.devRef .tc main_v71) = Spec.g_v157 (KA m c) :=
  (StableHlo.after_of_writes_sub hostOps5 (W9 m ρ c) kwrites10_sub (by decide)).trans (k_v71_9 m ρ c)
theorem k_v76_10 : W10 m ρ c (Proc.devRef .tc main_v76) = Spec.g_v197 (KA m c) :=
  (StableHlo.after_of_writes_sub hostOps5 (W9 m ρ c) kwrites10_sub (by decide)).trans (k_v76_9 m ρ c)
theorem k_v79_10 : W10 m ρ c (Proc.devRef .tc main_v79) = Spec.g_v78 (KA m c) := by
  show StableHlo.after hostOps5 (W9 m ρ c) (Proc.devRef .tc main_v79) = _
  after_results_simp
  try simp only [k_v61_9 m ρ c]
  rfl
theorem k_c_12_10 : W10 m ρ c (Proc.devRef .tc main_c_12) = Spec.g_c (KA m c) := by
  show StableHlo.after hostOps5 (W9 m ρ c) (Proc.devRef .tc main_c_12) = _
  after_results_simp
  rfl

/-! ### Boundary 11: after the host stretch hostOps5_1 -/

theorem k_arg6_11 : W11 m ρ c (Proc.devRef .tc main_arg6) = (KA m c).a6 :=
  (StableHlo.after_of_writes_sub hostOps5_1 (W10 m ρ c) kwrites11_sub (by decide)).trans (k_arg6_10 m ρ c)
theorem k_arg7_11 : W11 m ρ c (Proc.devRef .tc main_arg7) = (KA m c).a7 :=
  (StableHlo.after_of_writes_sub hostOps5_1 (W10 m ρ c) kwrites11_sub (by decide)).trans (k_arg7_10 m ρ c)
theorem k_arg8_11 : W11 m ρ c (Proc.devRef .tc main_arg8) = (KA m c).a8 :=
  (StableHlo.after_of_writes_sub hostOps5_1 (W10 m ρ c) kwrites11_sub (by decide)).trans (k_arg8_10 m ρ c)
theorem k_arg9_11 : W11 m ρ c (Proc.devRef .tc main_arg9) = (KA m c).a9 :=
  (StableHlo.after_of_writes_sub hostOps5_1 (W10 m ρ c) kwrites11_sub (by decide)).trans (k_arg9_10 m ρ c)
theorem k_arg10_11 : W11 m ρ c (Proc.devRef .tc main_arg10) = (KA m c).a10 :=
  (StableHlo.after_of_writes_sub hostOps5_1 (W10 m ρ c) kwrites11_sub (by decide)).trans (k_arg10_10 m ρ c)
theorem k_arg11_11 : W11 m ρ c (Proc.devRef .tc main_arg11) = (KA m c).a11 :=
  (StableHlo.after_of_writes_sub hostOps5_1 (W10 m ρ c) kwrites11_sub (by decide)).trans (k_arg11_10 m ρ c)
theorem k_arg12_11 : W11 m ρ c (Proc.devRef .tc main_arg12) = (KA m c).a12 :=
  (StableHlo.after_of_writes_sub hostOps5_1 (W10 m ρ c) kwrites11_sub (by decide)).trans (k_arg12_10 m ρ c)
theorem k_arg13_11 : W11 m ρ c (Proc.devRef .tc main_arg13) = (KA m c).a13 :=
  (StableHlo.after_of_writes_sub hostOps5_1 (W10 m ρ c) kwrites11_sub (by decide)).trans (k_arg13_10 m ρ c)
theorem k_arg14_11 : W11 m ρ c (Proc.devRef .tc main_arg14) = (KA m c).a14 :=
  (StableHlo.after_of_writes_sub hostOps5_1 (W10 m ρ c) kwrites11_sub (by decide)).trans (k_arg14_10 m ρ c)
theorem k_arg15_11 : W11 m ρ c (Proc.devRef .tc main_arg15) = (KA m c).a15 :=
  (StableHlo.after_of_writes_sub hostOps5_1 (W10 m ρ c) kwrites11_sub (by decide)).trans (k_arg15_10 m ρ c)
theorem k_arg20_11 : W11 m ρ c (Proc.devRef .tc main_arg20) = (KA m c).a20 :=
  (StableHlo.after_of_writes_sub hostOps5_1 (W10 m ρ c) kwrites11_sub (by decide)).trans (k_arg20_10 m ρ c)
theorem k_arg22_11 : W11 m ρ c (Proc.devRef .tc main_arg22) = (KA m c).a22 :=
  (StableHlo.after_of_writes_sub hostOps5_1 (W10 m ρ c) kwrites11_sub (by decide)).trans (k_arg22_10 m ρ c)
theorem k_arg21_11 : W11 m ρ c (Proc.devRef .tc main_arg21) = (KA m c).a21 :=
  (StableHlo.after_of_writes_sub hostOps5_1 (W10 m ρ c) kwrites11_sub (by decide)).trans (k_arg21_10 m ρ c)
theorem k_arg23_11 : W11 m ρ c (Proc.devRef .tc main_arg23) = (KA m c).a23 :=
  (StableHlo.after_of_writes_sub hostOps5_1 (W10 m ρ c) kwrites11_sub (by decide)).trans (k_arg23_10 m ρ c)
theorem k_arg16_11 : W11 m ρ c (Proc.devRef .tc main_arg16) = (KA m c).a16 :=
  (StableHlo.after_of_writes_sub hostOps5_1 (W10 m ρ c) kwrites11_sub (by decide)).trans (k_arg16_10 m ρ c)
theorem k_arg17_11 : W11 m ρ c (Proc.devRef .tc main_arg17) = (KA m c).a17 :=
  (StableHlo.after_of_writes_sub hostOps5_1 (W10 m ρ c) kwrites11_sub (by decide)).trans (k_arg17_10 m ρ c)
theorem k_arg18_11 : W11 m ρ c (Proc.devRef .tc main_arg18) = (KA m c).a18 :=
  (StableHlo.after_of_writes_sub hostOps5_1 (W10 m ρ c) kwrites11_sub (by decide)).trans (k_arg18_10 m ρ c)
theorem k_arg19_11 : W11 m ρ c (Proc.devRef .tc main_arg19) = (KA m c).a19 :=
  (StableHlo.after_of_writes_sub hostOps5_1 (W10 m ρ c) kwrites11_sub (by decide)).trans (k_arg19_10 m ρ c)
theorem k_v61_11 : W11 m ρ c (Proc.devRef .tc main_v61) = Spec.g_v75 (KA m c) :=
  (StableHlo.after_of_writes_sub hostOps5_1 (W10 m ρ c) kwrites11_sub (by decide)).trans (k_v61_10 m ρ c)
theorem k_v66_11 : W11 m ρ c (Proc.devRef .tc main_v66) = Spec.g_v115 (KA m c) :=
  (StableHlo.after_of_writes_sub hostOps5_1 (W10 m ρ c) kwrites11_sub (by decide)).trans (k_v66_10 m ρ c)
theorem k_v71_11 : W11 m ρ c (Proc.devRef .tc main_v71) = Spec.g_v157 (KA m c) :=
  (StableHlo.after_of_writes_sub hostOps5_1 (W10 m ρ c) kwrites11_sub (by decide)).trans (k_v71_10 m ρ c)
theorem k_v76_11 : W11 m ρ c (Proc.devRef .tc main_v76) = Spec.g_v197 (KA m c) :=
  (StableHlo.after_of_writes_sub hostOps5_1 (W10 m ρ c) kwrites11_sub (by decide)).trans (k_v76_10 m ρ c)
theorem k_v79_11 : W11 m ρ c (Proc.devRef .tc main_v79) = Spec.g_v78 (KA m c) :=
  (StableHlo.after_of_writes_sub hostOps5_1 (W10 m ρ c) kwrites11_sub (by decide)).trans (k_v79_10 m ρ c)
theorem k_v80_11 : W11 m ρ c (Proc.devRef .tc main_v80) = Spec.g_v79 (KA m c) := by
  have e0 := k_c_12_10 m ρ c
  have e1 := k_v61_10 m ρ c
  show StableHlo.after hostOps5_1 (W10 m ρ c) (Proc.devRef .tc main_v80) = _
  rw [hostOps5_1_plain]
  generalize W10 m ρ c = V at e0 e1 ⊢
  after_results_simp
  try simp only [e0, e1]
  rfl

/-! ### Boundary 12: after the host stretch hostOps5_2 -/

theorem k_arg6_12 : W12 m ρ c (Proc.devRef .tc main_arg6) = (KA m c).a6 :=
  (StableHlo.after_of_writes_sub hostOps5_2 (W11 m ρ c) kwrites12_sub (by decide)).trans (k_arg6_11 m ρ c)
theorem k_arg7_12 : W12 m ρ c (Proc.devRef .tc main_arg7) = (KA m c).a7 :=
  (StableHlo.after_of_writes_sub hostOps5_2 (W11 m ρ c) kwrites12_sub (by decide)).trans (k_arg7_11 m ρ c)
theorem k_arg8_12 : W12 m ρ c (Proc.devRef .tc main_arg8) = (KA m c).a8 :=
  (StableHlo.after_of_writes_sub hostOps5_2 (W11 m ρ c) kwrites12_sub (by decide)).trans (k_arg8_11 m ρ c)
theorem k_arg9_12 : W12 m ρ c (Proc.devRef .tc main_arg9) = (KA m c).a9 :=
  (StableHlo.after_of_writes_sub hostOps5_2 (W11 m ρ c) kwrites12_sub (by decide)).trans (k_arg9_11 m ρ c)
theorem k_arg10_12 : W12 m ρ c (Proc.devRef .tc main_arg10) = (KA m c).a10 :=
  (StableHlo.after_of_writes_sub hostOps5_2 (W11 m ρ c) kwrites12_sub (by decide)).trans (k_arg10_11 m ρ c)
theorem k_arg11_12 : W12 m ρ c (Proc.devRef .tc main_arg11) = (KA m c).a11 :=
  (StableHlo.after_of_writes_sub hostOps5_2 (W11 m ρ c) kwrites12_sub (by decide)).trans (k_arg11_11 m ρ c)
theorem k_arg12_12 : W12 m ρ c (Proc.devRef .tc main_arg12) = (KA m c).a12 :=
  (StableHlo.after_of_writes_sub hostOps5_2 (W11 m ρ c) kwrites12_sub (by decide)).trans (k_arg12_11 m ρ c)
theorem k_arg13_12 : W12 m ρ c (Proc.devRef .tc main_arg13) = (KA m c).a13 :=
  (StableHlo.after_of_writes_sub hostOps5_2 (W11 m ρ c) kwrites12_sub (by decide)).trans (k_arg13_11 m ρ c)
theorem k_arg14_12 : W12 m ρ c (Proc.devRef .tc main_arg14) = (KA m c).a14 :=
  (StableHlo.after_of_writes_sub hostOps5_2 (W11 m ρ c) kwrites12_sub (by decide)).trans (k_arg14_11 m ρ c)
theorem k_arg15_12 : W12 m ρ c (Proc.devRef .tc main_arg15) = (KA m c).a15 :=
  (StableHlo.after_of_writes_sub hostOps5_2 (W11 m ρ c) kwrites12_sub (by decide)).trans (k_arg15_11 m ρ c)
theorem k_arg20_12 : W12 m ρ c (Proc.devRef .tc main_arg20) = (KA m c).a20 :=
  (StableHlo.after_of_writes_sub hostOps5_2 (W11 m ρ c) kwrites12_sub (by decide)).trans (k_arg20_11 m ρ c)
theorem k_arg22_12 : W12 m ρ c (Proc.devRef .tc main_arg22) = (KA m c).a22 :=
  (StableHlo.after_of_writes_sub hostOps5_2 (W11 m ρ c) kwrites12_sub (by decide)).trans (k_arg22_11 m ρ c)
theorem k_arg21_12 : W12 m ρ c (Proc.devRef .tc main_arg21) = (KA m c).a21 :=
  (StableHlo.after_of_writes_sub hostOps5_2 (W11 m ρ c) kwrites12_sub (by decide)).trans (k_arg21_11 m ρ c)
theorem k_arg23_12 : W12 m ρ c (Proc.devRef .tc main_arg23) = (KA m c).a23 :=
  (StableHlo.after_of_writes_sub hostOps5_2 (W11 m ρ c) kwrites12_sub (by decide)).trans (k_arg23_11 m ρ c)
theorem k_arg16_12 : W12 m ρ c (Proc.devRef .tc main_arg16) = (KA m c).a16 :=
  (StableHlo.after_of_writes_sub hostOps5_2 (W11 m ρ c) kwrites12_sub (by decide)).trans (k_arg16_11 m ρ c)
theorem k_arg17_12 : W12 m ρ c (Proc.devRef .tc main_arg17) = (KA m c).a17 :=
  (StableHlo.after_of_writes_sub hostOps5_2 (W11 m ρ c) kwrites12_sub (by decide)).trans (k_arg17_11 m ρ c)
theorem k_arg18_12 : W12 m ρ c (Proc.devRef .tc main_arg18) = (KA m c).a18 :=
  (StableHlo.after_of_writes_sub hostOps5_2 (W11 m ρ c) kwrites12_sub (by decide)).trans (k_arg18_11 m ρ c)
theorem k_arg19_12 : W12 m ρ c (Proc.devRef .tc main_arg19) = (KA m c).a19 :=
  (StableHlo.after_of_writes_sub hostOps5_2 (W11 m ρ c) kwrites12_sub (by decide)).trans (k_arg19_11 m ρ c)
theorem k_v61_12 : W12 m ρ c (Proc.devRef .tc main_v61) = Spec.g_v75 (KA m c) :=
  (StableHlo.after_of_writes_sub hostOps5_2 (W11 m ρ c) kwrites12_sub (by decide)).trans (k_v61_11 m ρ c)
theorem k_v66_12 : W12 m ρ c (Proc.devRef .tc main_v66) = Spec.g_v115 (KA m c) :=
  (StableHlo.after_of_writes_sub hostOps5_2 (W11 m ρ c) kwrites12_sub (by decide)).trans (k_v66_11 m ρ c)
theorem k_v71_12 : W12 m ρ c (Proc.devRef .tc main_v71) = Spec.g_v157 (KA m c) :=
  (StableHlo.after_of_writes_sub hostOps5_2 (W11 m ρ c) kwrites12_sub (by decide)).trans (k_v71_11 m ρ c)
theorem k_v76_12 : W12 m ρ c (Proc.devRef .tc main_v76) = Spec.g_v197 (KA m c) :=
  (StableHlo.after_of_writes_sub hostOps5_2 (W11 m ρ c) kwrites12_sub (by decide)).trans (k_v76_11 m ρ c)
theorem k_v79_12 : W12 m ρ c (Proc.devRef .tc main_v79) = Spec.g_v78 (KA m c) :=
  (StableHlo.after_of_writes_sub hostOps5_2 (W11 m ρ c) kwrites12_sub (by decide)).trans (k_v79_11 m ρ c)
theorem k_v80_12 : W12 m ρ c (Proc.devRef .tc main_v80) = Spec.g_v79 (KA m c) :=
  (StableHlo.after_of_writes_sub hostOps5_2 (W11 m ρ c) kwrites12_sub (by decide)).trans (k_v80_11 m ρ c)
theorem k_v83_12 : W12 m ρ c (Proc.devRef .tc main_v83) = Spec.g_v118 (KA m c) := by
  have e0 := k_v66_11 m ρ c
  show StableHlo.after hostOps5_2 (W11 m ρ c) (Proc.devRef .tc main_v83) = _
  generalize W11 m ρ c = V at e0 ⊢
  after_results_simp
  try simp only [e0]
  rfl
theorem k_c_15_12 : W12 m ρ c (Proc.devRef .tc main_c_15) = Spec.g_c_1 (KA m c) := by
  show StableHlo.after hostOps5_2 (W11 m ρ c) (Proc.devRef .tc main_c_15) = _
  generalize W11 m ρ c = V at  ⊢
  after_results_simp
  rfl

/-! ### Boundary 13: after the host stretch hostOps5_3 -/

theorem k_arg6_13 : W13 m ρ c (Proc.devRef .tc main_arg6) = (KA m c).a6 :=
  (StableHlo.after_of_writes_sub hostOps5_3 (W12 m ρ c) kwrites13_sub (by decide)).trans (k_arg6_12 m ρ c)
theorem k_arg7_13 : W13 m ρ c (Proc.devRef .tc main_arg7) = (KA m c).a7 :=
  (StableHlo.after_of_writes_sub hostOps5_3 (W12 m ρ c) kwrites13_sub (by decide)).trans (k_arg7_12 m ρ c)
theorem k_arg8_13 : W13 m ρ c (Proc.devRef .tc main_arg8) = (KA m c).a8 :=
  (StableHlo.after_of_writes_sub hostOps5_3 (W12 m ρ c) kwrites13_sub (by decide)).trans (k_arg8_12 m ρ c)
theorem k_arg9_13 : W13 m ρ c (Proc.devRef .tc main_arg9) = (KA m c).a9 :=
  (StableHlo.after_of_writes_sub hostOps5_3 (W12 m ρ c) kwrites13_sub (by decide)).trans (k_arg9_12 m ρ c)
theorem k_arg10_13 : W13 m ρ c (Proc.devRef .tc main_arg10) = (KA m c).a10 :=
  (StableHlo.after_of_writes_sub hostOps5_3 (W12 m ρ c) kwrites13_sub (by decide)).trans (k_arg10_12 m ρ c)
theorem k_arg11_13 : W13 m ρ c (Proc.devRef .tc main_arg11) = (KA m c).a11 :=
  (StableHlo.after_of_writes_sub hostOps5_3 (W12 m ρ c) kwrites13_sub (by decide)).trans (k_arg11_12 m ρ c)
theorem k_arg12_13 : W13 m ρ c (Proc.devRef .tc main_arg12) = (KA m c).a12 :=
  (StableHlo.after_of_writes_sub hostOps5_3 (W12 m ρ c) kwrites13_sub (by decide)).trans (k_arg12_12 m ρ c)
theorem k_arg13_13 : W13 m ρ c (Proc.devRef .tc main_arg13) = (KA m c).a13 :=
  (StableHlo.after_of_writes_sub hostOps5_3 (W12 m ρ c) kwrites13_sub (by decide)).trans (k_arg13_12 m ρ c)
theorem k_arg14_13 : W13 m ρ c (Proc.devRef .tc main_arg14) = (KA m c).a14 :=
  (StableHlo.after_of_writes_sub hostOps5_3 (W12 m ρ c) kwrites13_sub (by decide)).trans (k_arg14_12 m ρ c)
theorem k_arg15_13 : W13 m ρ c (Proc.devRef .tc main_arg15) = (KA m c).a15 :=
  (StableHlo.after_of_writes_sub hostOps5_3 (W12 m ρ c) kwrites13_sub (by decide)).trans (k_arg15_12 m ρ c)
theorem k_arg20_13 : W13 m ρ c (Proc.devRef .tc main_arg20) = (KA m c).a20 :=
  (StableHlo.after_of_writes_sub hostOps5_3 (W12 m ρ c) kwrites13_sub (by decide)).trans (k_arg20_12 m ρ c)
theorem k_arg22_13 : W13 m ρ c (Proc.devRef .tc main_arg22) = (KA m c).a22 :=
  (StableHlo.after_of_writes_sub hostOps5_3 (W12 m ρ c) kwrites13_sub (by decide)).trans (k_arg22_12 m ρ c)
theorem k_arg21_13 : W13 m ρ c (Proc.devRef .tc main_arg21) = (KA m c).a21 :=
  (StableHlo.after_of_writes_sub hostOps5_3 (W12 m ρ c) kwrites13_sub (by decide)).trans (k_arg21_12 m ρ c)
theorem k_arg23_13 : W13 m ρ c (Proc.devRef .tc main_arg23) = (KA m c).a23 :=
  (StableHlo.after_of_writes_sub hostOps5_3 (W12 m ρ c) kwrites13_sub (by decide)).trans (k_arg23_12 m ρ c)
theorem k_arg16_13 : W13 m ρ c (Proc.devRef .tc main_arg16) = (KA m c).a16 :=
  (StableHlo.after_of_writes_sub hostOps5_3 (W12 m ρ c) kwrites13_sub (by decide)).trans (k_arg16_12 m ρ c)
theorem k_arg17_13 : W13 m ρ c (Proc.devRef .tc main_arg17) = (KA m c).a17 :=
  (StableHlo.after_of_writes_sub hostOps5_3 (W12 m ρ c) kwrites13_sub (by decide)).trans (k_arg17_12 m ρ c)
theorem k_arg18_13 : W13 m ρ c (Proc.devRef .tc main_arg18) = (KA m c).a18 :=
  (StableHlo.after_of_writes_sub hostOps5_3 (W12 m ρ c) kwrites13_sub (by decide)).trans (k_arg18_12 m ρ c)
theorem k_arg19_13 : W13 m ρ c (Proc.devRef .tc main_arg19) = (KA m c).a19 :=
  (StableHlo.after_of_writes_sub hostOps5_3 (W12 m ρ c) kwrites13_sub (by decide)).trans (k_arg19_12 m ρ c)
theorem k_v61_13 : W13 m ρ c (Proc.devRef .tc main_v61) = Spec.g_v75 (KA m c) :=
  (StableHlo.after_of_writes_sub hostOps5_3 (W12 m ρ c) kwrites13_sub (by decide)).trans (k_v61_12 m ρ c)
theorem k_v66_13 : W13 m ρ c (Proc.devRef .tc main_v66) = Spec.g_v115 (KA m c) :=
  (StableHlo.after_of_writes_sub hostOps5_3 (W12 m ρ c) kwrites13_sub (by decide)).trans (k_v66_12 m ρ c)
theorem k_v71_13 : W13 m ρ c (Proc.devRef .tc main_v71) = Spec.g_v157 (KA m c) :=
  (StableHlo.after_of_writes_sub hostOps5_3 (W12 m ρ c) kwrites13_sub (by decide)).trans (k_v71_12 m ρ c)
theorem k_v76_13 : W13 m ρ c (Proc.devRef .tc main_v76) = Spec.g_v197 (KA m c) :=
  (StableHlo.after_of_writes_sub hostOps5_3 (W12 m ρ c) kwrites13_sub (by decide)).trans (k_v76_12 m ρ c)
theorem k_v79_13 : W13 m ρ c (Proc.devRef .tc main_v79) = Spec.g_v78 (KA m c) :=
  (StableHlo.after_of_writes_sub hostOps5_3 (W12 m ρ c) kwrites13_sub (by decide)).trans (k_v79_12 m ρ c)
theorem k_v80_13 : W13 m ρ c (Proc.devRef .tc main_v80) = Spec.g_v79 (KA m c) :=
  (StableHlo.after_of_writes_sub hostOps5_3 (W12 m ρ c) kwrites13_sub (by decide)).trans (k_v80_12 m ρ c)
theorem k_v83_13 : W13 m ρ c (Proc.devRef .tc main_v83) = Spec.g_v118 (KA m c) :=
  (StableHlo.after_of_writes_sub hostOps5_3 (W12 m ρ c) kwrites13_sub (by decide)).trans (k_v83_12 m ρ c)
theorem k_v84_13 : W13 m ρ c (Proc.devRef .tc main_v84) = Spec.g_v119 (KA m c) := by
  have e0 := k_c_15_12 m ρ c
  have e1 := k_v66_12 m ρ c
  show StableHlo.after hostOps5_3 (W12 m ρ c) (Proc.devRef .tc main_v84) = _
  rw [hostOps5_3_plain]
  generalize W12 m ρ c = V at e0 e1 ⊢
  after_results_simp
  try simp only [e0, e1]
  rfl

/-! ### Boundary 14: after the host stretch hostOps5_4 -/

theorem k_arg6_14 : W14 m ρ c (Proc.devRef .tc main_arg6) = (KA m c).a6 :=
  (StableHlo.after_of_writes_sub hostOps5_4 (W13 m ρ c) kwrites14_sub (by decide)).trans (k_arg6_13 m ρ c)
theorem k_arg7_14 : W14 m ρ c (Proc.devRef .tc main_arg7) = (KA m c).a7 :=
  (StableHlo.after_of_writes_sub hostOps5_4 (W13 m ρ c) kwrites14_sub (by decide)).trans (k_arg7_13 m ρ c)
theorem k_arg8_14 : W14 m ρ c (Proc.devRef .tc main_arg8) = (KA m c).a8 :=
  (StableHlo.after_of_writes_sub hostOps5_4 (W13 m ρ c) kwrites14_sub (by decide)).trans (k_arg8_13 m ρ c)
theorem k_arg9_14 : W14 m ρ c (Proc.devRef .tc main_arg9) = (KA m c).a9 :=
  (StableHlo.after_of_writes_sub hostOps5_4 (W13 m ρ c) kwrites14_sub (by decide)).trans (k_arg9_13 m ρ c)
theorem k_arg10_14 : W14 m ρ c (Proc.devRef .tc main_arg10) = (KA m c).a10 :=
  (StableHlo.after_of_writes_sub hostOps5_4 (W13 m ρ c) kwrites14_sub (by decide)).trans (k_arg10_13 m ρ c)
theorem k_arg11_14 : W14 m ρ c (Proc.devRef .tc main_arg11) = (KA m c).a11 :=
  (StableHlo.after_of_writes_sub hostOps5_4 (W13 m ρ c) kwrites14_sub (by decide)).trans (k_arg11_13 m ρ c)
theorem k_arg12_14 : W14 m ρ c (Proc.devRef .tc main_arg12) = (KA m c).a12 :=
  (StableHlo.after_of_writes_sub hostOps5_4 (W13 m ρ c) kwrites14_sub (by decide)).trans (k_arg12_13 m ρ c)
theorem k_arg13_14 : W14 m ρ c (Proc.devRef .tc main_arg13) = (KA m c).a13 :=
  (StableHlo.after_of_writes_sub hostOps5_4 (W13 m ρ c) kwrites14_sub (by decide)).trans (k_arg13_13 m ρ c)
theorem k_arg14_14 : W14 m ρ c (Proc.devRef .tc main_arg14) = (KA m c).a14 :=
  (StableHlo.after_of_writes_sub hostOps5_4 (W13 m ρ c) kwrites14_sub (by decide)).trans (k_arg14_13 m ρ c)
theorem k_arg15_14 : W14 m ρ c (Proc.devRef .tc main_arg15) = (KA m c).a15 :=
  (StableHlo.after_of_writes_sub hostOps5_4 (W13 m ρ c) kwrites14_sub (by decide)).trans (k_arg15_13 m ρ c)
theorem k_arg20_14 : W14 m ρ c (Proc.devRef .tc main_arg20) = (KA m c).a20 :=
  (StableHlo.after_of_writes_sub hostOps5_4 (W13 m ρ c) kwrites14_sub (by decide)).trans (k_arg20_13 m ρ c)
theorem k_arg22_14 : W14 m ρ c (Proc.devRef .tc main_arg22) = (KA m c).a22 :=
  (StableHlo.after_of_writes_sub hostOps5_4 (W13 m ρ c) kwrites14_sub (by decide)).trans (k_arg22_13 m ρ c)
theorem k_arg21_14 : W14 m ρ c (Proc.devRef .tc main_arg21) = (KA m c).a21 :=
  (StableHlo.after_of_writes_sub hostOps5_4 (W13 m ρ c) kwrites14_sub (by decide)).trans (k_arg21_13 m ρ c)
theorem k_arg23_14 : W14 m ρ c (Proc.devRef .tc main_arg23) = (KA m c).a23 :=
  (StableHlo.after_of_writes_sub hostOps5_4 (W13 m ρ c) kwrites14_sub (by decide)).trans (k_arg23_13 m ρ c)
theorem k_arg16_14 : W14 m ρ c (Proc.devRef .tc main_arg16) = (KA m c).a16 :=
  (StableHlo.after_of_writes_sub hostOps5_4 (W13 m ρ c) kwrites14_sub (by decide)).trans (k_arg16_13 m ρ c)
theorem k_arg17_14 : W14 m ρ c (Proc.devRef .tc main_arg17) = (KA m c).a17 :=
  (StableHlo.after_of_writes_sub hostOps5_4 (W13 m ρ c) kwrites14_sub (by decide)).trans (k_arg17_13 m ρ c)
theorem k_arg18_14 : W14 m ρ c (Proc.devRef .tc main_arg18) = (KA m c).a18 :=
  (StableHlo.after_of_writes_sub hostOps5_4 (W13 m ρ c) kwrites14_sub (by decide)).trans (k_arg18_13 m ρ c)
theorem k_arg19_14 : W14 m ρ c (Proc.devRef .tc main_arg19) = (KA m c).a19 :=
  (StableHlo.after_of_writes_sub hostOps5_4 (W13 m ρ c) kwrites14_sub (by decide)).trans (k_arg19_13 m ρ c)
theorem k_v61_14 : W14 m ρ c (Proc.devRef .tc main_v61) = Spec.g_v75 (KA m c) :=
  (StableHlo.after_of_writes_sub hostOps5_4 (W13 m ρ c) kwrites14_sub (by decide)).trans (k_v61_13 m ρ c)
theorem k_v66_14 : W14 m ρ c (Proc.devRef .tc main_v66) = Spec.g_v115 (KA m c) :=
  (StableHlo.after_of_writes_sub hostOps5_4 (W13 m ρ c) kwrites14_sub (by decide)).trans (k_v66_13 m ρ c)
theorem k_v71_14 : W14 m ρ c (Proc.devRef .tc main_v71) = Spec.g_v157 (KA m c) :=
  (StableHlo.after_of_writes_sub hostOps5_4 (W13 m ρ c) kwrites14_sub (by decide)).trans (k_v71_13 m ρ c)
theorem k_v76_14 : W14 m ρ c (Proc.devRef .tc main_v76) = Spec.g_v197 (KA m c) :=
  (StableHlo.after_of_writes_sub hostOps5_4 (W13 m ρ c) kwrites14_sub (by decide)).trans (k_v76_13 m ρ c)
theorem k_v79_14 : W14 m ρ c (Proc.devRef .tc main_v79) = Spec.g_v78 (KA m c) :=
  (StableHlo.after_of_writes_sub hostOps5_4 (W13 m ρ c) kwrites14_sub (by decide)).trans (k_v79_13 m ρ c)
theorem k_v80_14 : W14 m ρ c (Proc.devRef .tc main_v80) = Spec.g_v79 (KA m c) :=
  (StableHlo.after_of_writes_sub hostOps5_4 (W13 m ρ c) kwrites14_sub (by decide)).trans (k_v80_13 m ρ c)
theorem k_v83_14 : W14 m ρ c (Proc.devRef .tc main_v83) = Spec.g_v118 (KA m c) :=
  (StableHlo.after_of_writes_sub hostOps5_4 (W13 m ρ c) kwrites14_sub (by decide)).trans (k_v83_13 m ρ c)
theorem k_v84_14 : W14 m ρ c (Proc.devRef .tc main_v84) = Spec.g_v119 (KA m c) :=
  (StableHlo.after_of_writes_sub hostOps5_4 (W13 m ρ c) kwrites14_sub (by decide)).trans (k_v84_13 m ρ c)
theorem k_v87_14 : W14 m ρ c (Proc.devRef .tc main_v87) = Spec.g_v160 (KA m c) := by
  have e0 := k_v71_13 m ρ c
  show StableHlo.after hostOps5_4 (W13 m ρ c) (Proc.devRef .tc main_v87) = _
  generalize W13 m ρ c = V at e0 ⊢
  after_results_simp
  try simp only [e0]
  rfl
theorem k_c_18_14 : W14 m ρ c (Proc.devRef .tc main_c_18) = Spec.g_c_4 (KA m c) := by
  show StableHlo.after hostOps5_4 (W13 m ρ c) (Proc.devRef .tc main_c_18) = _
  generalize W13 m ρ c = V at  ⊢
  after_results_simp
  rfl

/-! ### Boundary 15: after the host stretch hostOps5_5 -/

theorem k_arg6_15 : W15 m ρ c (Proc.devRef .tc main_arg6) = (KA m c).a6 :=
  (StableHlo.after_of_writes_sub hostOps5_5 (W14 m ρ c) kwrites15_sub (by decide)).trans (k_arg6_14 m ρ c)
theorem k_arg7_15 : W15 m ρ c (Proc.devRef .tc main_arg7) = (KA m c).a7 :=
  (StableHlo.after_of_writes_sub hostOps5_5 (W14 m ρ c) kwrites15_sub (by decide)).trans (k_arg7_14 m ρ c)
theorem k_arg8_15 : W15 m ρ c (Proc.devRef .tc main_arg8) = (KA m c).a8 :=
  (StableHlo.after_of_writes_sub hostOps5_5 (W14 m ρ c) kwrites15_sub (by decide)).trans (k_arg8_14 m ρ c)
theorem k_arg9_15 : W15 m ρ c (Proc.devRef .tc main_arg9) = (KA m c).a9 :=
  (StableHlo.after_of_writes_sub hostOps5_5 (W14 m ρ c) kwrites15_sub (by decide)).trans (k_arg9_14 m ρ c)
theorem k_arg10_15 : W15 m ρ c (Proc.devRef .tc main_arg10) = (KA m c).a10 :=
  (StableHlo.after_of_writes_sub hostOps5_5 (W14 m ρ c) kwrites15_sub (by decide)).trans (k_arg10_14 m ρ c)
theorem k_arg11_15 : W15 m ρ c (Proc.devRef .tc main_arg11) = (KA m c).a11 :=
  (StableHlo.after_of_writes_sub hostOps5_5 (W14 m ρ c) kwrites15_sub (by decide)).trans (k_arg11_14 m ρ c)
theorem k_arg12_15 : W15 m ρ c (Proc.devRef .tc main_arg12) = (KA m c).a12 :=
  (StableHlo.after_of_writes_sub hostOps5_5 (W14 m ρ c) kwrites15_sub (by decide)).trans (k_arg12_14 m ρ c)
theorem k_arg13_15 : W15 m ρ c (Proc.devRef .tc main_arg13) = (KA m c).a13 :=
  (StableHlo.after_of_writes_sub hostOps5_5 (W14 m ρ c) kwrites15_sub (by decide)).trans (k_arg13_14 m ρ c)
theorem k_arg14_15 : W15 m ρ c (Proc.devRef .tc main_arg14) = (KA m c).a14 :=
  (StableHlo.after_of_writes_sub hostOps5_5 (W14 m ρ c) kwrites15_sub (by decide)).trans (k_arg14_14 m ρ c)
theorem k_arg15_15 : W15 m ρ c (Proc.devRef .tc main_arg15) = (KA m c).a15 :=
  (StableHlo.after_of_writes_sub hostOps5_5 (W14 m ρ c) kwrites15_sub (by decide)).trans (k_arg15_14 m ρ c)
theorem k_arg20_15 : W15 m ρ c (Proc.devRef .tc main_arg20) = (KA m c).a20 :=
  (StableHlo.after_of_writes_sub hostOps5_5 (W14 m ρ c) kwrites15_sub (by decide)).trans (k_arg20_14 m ρ c)
theorem k_arg22_15 : W15 m ρ c (Proc.devRef .tc main_arg22) = (KA m c).a22 :=
  (StableHlo.after_of_writes_sub hostOps5_5 (W14 m ρ c) kwrites15_sub (by decide)).trans (k_arg22_14 m ρ c)
theorem k_arg21_15 : W15 m ρ c (Proc.devRef .tc main_arg21) = (KA m c).a21 :=
  (StableHlo.after_of_writes_sub hostOps5_5 (W14 m ρ c) kwrites15_sub (by decide)).trans (k_arg21_14 m ρ c)
theorem k_arg23_15 : W15 m ρ c (Proc.devRef .tc main_arg23) = (KA m c).a23 :=
  (StableHlo.after_of_writes_sub hostOps5_5 (W14 m ρ c) kwrites15_sub (by decide)).trans (k_arg23_14 m ρ c)
theorem k_arg16_15 : W15 m ρ c (Proc.devRef .tc main_arg16) = (KA m c).a16 :=
  (StableHlo.after_of_writes_sub hostOps5_5 (W14 m ρ c) kwrites15_sub (by decide)).trans (k_arg16_14 m ρ c)
theorem k_arg17_15 : W15 m ρ c (Proc.devRef .tc main_arg17) = (KA m c).a17 :=
  (StableHlo.after_of_writes_sub hostOps5_5 (W14 m ρ c) kwrites15_sub (by decide)).trans (k_arg17_14 m ρ c)
theorem k_arg18_15 : W15 m ρ c (Proc.devRef .tc main_arg18) = (KA m c).a18 :=
  (StableHlo.after_of_writes_sub hostOps5_5 (W14 m ρ c) kwrites15_sub (by decide)).trans (k_arg18_14 m ρ c)
theorem k_arg19_15 : W15 m ρ c (Proc.devRef .tc main_arg19) = (KA m c).a19 :=
  (StableHlo.after_of_writes_sub hostOps5_5 (W14 m ρ c) kwrites15_sub (by decide)).trans (k_arg19_14 m ρ c)
theorem k_v61_15 : W15 m ρ c (Proc.devRef .tc main_v61) = Spec.g_v75 (KA m c) :=
  (StableHlo.after_of_writes_sub hostOps5_5 (W14 m ρ c) kwrites15_sub (by decide)).trans (k_v61_14 m ρ c)
theorem k_v66_15 : W15 m ρ c (Proc.devRef .tc main_v66) = Spec.g_v115 (KA m c) :=
  (StableHlo.after_of_writes_sub hostOps5_5 (W14 m ρ c) kwrites15_sub (by decide)).trans (k_v66_14 m ρ c)
theorem k_v71_15 : W15 m ρ c (Proc.devRef .tc main_v71) = Spec.g_v157 (KA m c) :=
  (StableHlo.after_of_writes_sub hostOps5_5 (W14 m ρ c) kwrites15_sub (by decide)).trans (k_v71_14 m ρ c)
theorem k_v76_15 : W15 m ρ c (Proc.devRef .tc main_v76) = Spec.g_v197 (KA m c) :=
  (StableHlo.after_of_writes_sub hostOps5_5 (W14 m ρ c) kwrites15_sub (by decide)).trans (k_v76_14 m ρ c)
theorem k_v79_15 : W15 m ρ c (Proc.devRef .tc main_v79) = Spec.g_v78 (KA m c) :=
  (StableHlo.after_of_writes_sub hostOps5_5 (W14 m ρ c) kwrites15_sub (by decide)).trans (k_v79_14 m ρ c)
theorem k_v80_15 : W15 m ρ c (Proc.devRef .tc main_v80) = Spec.g_v79 (KA m c) :=
  (StableHlo.after_of_writes_sub hostOps5_5 (W14 m ρ c) kwrites15_sub (by decide)).trans (k_v80_14 m ρ c)
theorem k_v83_15 : W15 m ρ c (Proc.devRef .tc main_v83) = Spec.g_v118 (KA m c) :=
  (StableHlo.after_of_writes_sub hostOps5_5 (W14 m ρ c) kwrites15_sub (by decide)).trans (k_v83_14 m ρ c)
theorem k_v84_15 : W15 m ρ c (Proc.devRef .tc main_v84) = Spec.g_v119 (KA m c) :=
  (StableHlo.after_of_writes_sub hostOps5_5 (W14 m ρ c) kwrites15_sub (by decide)).trans (k_v84_14 m ρ c)
theorem k_v87_15 : W15 m ρ c (Proc.devRef .tc main_v87) = Spec.g_v160 (KA m c) :=
  (StableHlo.after_of_writes_sub hostOps5_5 (W14 m ρ c) kwrites15_sub (by decide)).trans (k_v87_14 m ρ c)
theorem k_v88_15 : W15 m ρ c (Proc.devRef .tc main_v88) = Spec.g_v161 (KA m c) := by
  have e0 := k_c_18_14 m ρ c
  have e1 := k_v71_14 m ρ c
  show StableHlo.after hostOps5_5 (W14 m ρ c) (Proc.devRef .tc main_v88) = _
  rw [hostOps5_5_plain]
  generalize W14 m ρ c = V at e0 e1 ⊢
  after_results_simp
  try simp only [e0, e1]
  rfl

/-! ### Boundary 16: after the host stretch hostOps5_6 -/

theorem k_arg6_16 : W16 m ρ c (Proc.devRef .tc main_arg6) = (KA m c).a6 :=
  (StableHlo.after_of_writes_sub hostOps5_6 (W15 m ρ c) kwrites16_sub (by decide)).trans (k_arg6_15 m ρ c)
theorem k_arg7_16 : W16 m ρ c (Proc.devRef .tc main_arg7) = (KA m c).a7 :=
  (StableHlo.after_of_writes_sub hostOps5_6 (W15 m ρ c) kwrites16_sub (by decide)).trans (k_arg7_15 m ρ c)
theorem k_arg8_16 : W16 m ρ c (Proc.devRef .tc main_arg8) = (KA m c).a8 :=
  (StableHlo.after_of_writes_sub hostOps5_6 (W15 m ρ c) kwrites16_sub (by decide)).trans (k_arg8_15 m ρ c)
theorem k_arg9_16 : W16 m ρ c (Proc.devRef .tc main_arg9) = (KA m c).a9 :=
  (StableHlo.after_of_writes_sub hostOps5_6 (W15 m ρ c) kwrites16_sub (by decide)).trans (k_arg9_15 m ρ c)
theorem k_arg10_16 : W16 m ρ c (Proc.devRef .tc main_arg10) = (KA m c).a10 :=
  (StableHlo.after_of_writes_sub hostOps5_6 (W15 m ρ c) kwrites16_sub (by decide)).trans (k_arg10_15 m ρ c)
theorem k_arg11_16 : W16 m ρ c (Proc.devRef .tc main_arg11) = (KA m c).a11 :=
  (StableHlo.after_of_writes_sub hostOps5_6 (W15 m ρ c) kwrites16_sub (by decide)).trans (k_arg11_15 m ρ c)
theorem k_arg12_16 : W16 m ρ c (Proc.devRef .tc main_arg12) = (KA m c).a12 :=
  (StableHlo.after_of_writes_sub hostOps5_6 (W15 m ρ c) kwrites16_sub (by decide)).trans (k_arg12_15 m ρ c)
theorem k_arg13_16 : W16 m ρ c (Proc.devRef .tc main_arg13) = (KA m c).a13 :=
  (StableHlo.after_of_writes_sub hostOps5_6 (W15 m ρ c) kwrites16_sub (by decide)).trans (k_arg13_15 m ρ c)
theorem k_arg14_16 : W16 m ρ c (Proc.devRef .tc main_arg14) = (KA m c).a14 :=
  (StableHlo.after_of_writes_sub hostOps5_6 (W15 m ρ c) kwrites16_sub (by decide)).trans (k_arg14_15 m ρ c)
theorem k_arg15_16 : W16 m ρ c (Proc.devRef .tc main_arg15) = (KA m c).a15 :=
  (StableHlo.after_of_writes_sub hostOps5_6 (W15 m ρ c) kwrites16_sub (by decide)).trans (k_arg15_15 m ρ c)
theorem k_arg20_16 : W16 m ρ c (Proc.devRef .tc main_arg20) = (KA m c).a20 :=
  (StableHlo.after_of_writes_sub hostOps5_6 (W15 m ρ c) kwrites16_sub (by decide)).trans (k_arg20_15 m ρ c)
theorem k_arg22_16 : W16 m ρ c (Proc.devRef .tc main_arg22) = (KA m c).a22 :=
  (StableHlo.after_of_writes_sub hostOps5_6 (W15 m ρ c) kwrites16_sub (by decide)).trans (k_arg22_15 m ρ c)
theorem k_arg21_16 : W16 m ρ c (Proc.devRef .tc main_arg21) = (KA m c).a21 :=
  (StableHlo.after_of_writes_sub hostOps5_6 (W15 m ρ c) kwrites16_sub (by decide)).trans (k_arg21_15 m ρ c)
theorem k_arg23_16 : W16 m ρ c (Proc.devRef .tc main_arg23) = (KA m c).a23 :=
  (StableHlo.after_of_writes_sub hostOps5_6 (W15 m ρ c) kwrites16_sub (by decide)).trans (k_arg23_15 m ρ c)
theorem k_arg16_16 : W16 m ρ c (Proc.devRef .tc main_arg16) = (KA m c).a16 :=
  (StableHlo.after_of_writes_sub hostOps5_6 (W15 m ρ c) kwrites16_sub (by decide)).trans (k_arg16_15 m ρ c)
theorem k_arg17_16 : W16 m ρ c (Proc.devRef .tc main_arg17) = (KA m c).a17 :=
  (StableHlo.after_of_writes_sub hostOps5_6 (W15 m ρ c) kwrites16_sub (by decide)).trans (k_arg17_15 m ρ c)
theorem k_arg18_16 : W16 m ρ c (Proc.devRef .tc main_arg18) = (KA m c).a18 :=
  (StableHlo.after_of_writes_sub hostOps5_6 (W15 m ρ c) kwrites16_sub (by decide)).trans (k_arg18_15 m ρ c)
theorem k_arg19_16 : W16 m ρ c (Proc.devRef .tc main_arg19) = (KA m c).a19 :=
  (StableHlo.after_of_writes_sub hostOps5_6 (W15 m ρ c) kwrites16_sub (by decide)).trans (k_arg19_15 m ρ c)
theorem k_v61_16 : W16 m ρ c (Proc.devRef .tc main_v61) = Spec.g_v75 (KA m c) :=
  (StableHlo.after_of_writes_sub hostOps5_6 (W15 m ρ c) kwrites16_sub (by decide)).trans (k_v61_15 m ρ c)
theorem k_v66_16 : W16 m ρ c (Proc.devRef .tc main_v66) = Spec.g_v115 (KA m c) :=
  (StableHlo.after_of_writes_sub hostOps5_6 (W15 m ρ c) kwrites16_sub (by decide)).trans (k_v66_15 m ρ c)
theorem k_v71_16 : W16 m ρ c (Proc.devRef .tc main_v71) = Spec.g_v157 (KA m c) :=
  (StableHlo.after_of_writes_sub hostOps5_6 (W15 m ρ c) kwrites16_sub (by decide)).trans (k_v71_15 m ρ c)
theorem k_v76_16 : W16 m ρ c (Proc.devRef .tc main_v76) = Spec.g_v197 (KA m c) :=
  (StableHlo.after_of_writes_sub hostOps5_6 (W15 m ρ c) kwrites16_sub (by decide)).trans (k_v76_15 m ρ c)
theorem k_v79_16 : W16 m ρ c (Proc.devRef .tc main_v79) = Spec.g_v78 (KA m c) :=
  (StableHlo.after_of_writes_sub hostOps5_6 (W15 m ρ c) kwrites16_sub (by decide)).trans (k_v79_15 m ρ c)
theorem k_v80_16 : W16 m ρ c (Proc.devRef .tc main_v80) = Spec.g_v79 (KA m c) :=
  (StableHlo.after_of_writes_sub hostOps5_6 (W15 m ρ c) kwrites16_sub (by decide)).trans (k_v80_15 m ρ c)
theorem k_v83_16 : W16 m ρ c (Proc.devRef .tc main_v83) = Spec.g_v118 (KA m c) :=
  (StableHlo.after_of_writes_sub hostOps5_6 (W15 m ρ c) kwrites16_sub (by decide)).trans (k_v83_15 m ρ c)
theorem k_v84_16 : W16 m ρ c (Proc.devRef .tc main_v84) = Spec.g_v119 (KA m c) :=
  (StableHlo.after_of_writes_sub hostOps5_6 (W15 m ρ c) kwrites16_sub (by decide)).trans (k_v84_15 m ρ c)
theorem k_v87_16 : W16 m ρ c (Proc.devRef .tc main_v87) = Spec.g_v160 (KA m c) :=
  (StableHlo.after_of_writes_sub hostOps5_6 (W15 m ρ c) kwrites16_sub (by decide)).trans (k_v87_15 m ρ c)
theorem k_v88_16 : W16 m ρ c (Proc.devRef .tc main_v88) = Spec.g_v161 (KA m c) :=
  (StableHlo.after_of_writes_sub hostOps5_6 (W15 m ρ c) kwrites16_sub (by decide)).trans (k_v88_15 m ρ c)
theorem k_v91_16 : W16 m ρ c (Proc.devRef .tc main_v91) = Spec.g_v200 (KA m c) := by
  have e0 := k_v76_15 m ρ c
  show StableHlo.after hostOps5_6 (W15 m ρ c) (Proc.devRef .tc main_v91) = _
  generalize W15 m ρ c = V at e0 ⊢
  after_results_simp
  try simp only [e0]
  rfl
theorem k_c_21_16 : W16 m ρ c (Proc.devRef .tc main_c_21) = Spec.g_c_7 (KA m c) := by
  show StableHlo.after hostOps5_6 (W15 m ρ c) (Proc.devRef .tc main_c_21) = _
  generalize W15 m ρ c = V at  ⊢
  after_results_simp
  rfl

/-! ### Boundary 17: after the host stretch hostOps5_7 -/

theorem k_arg6_17 : W17 m ρ c (Proc.devRef .tc main_arg6) = (KA m c).a6 :=
  (StableHlo.after_of_writes_sub hostOps5_7 (W16 m ρ c) kwrites17_sub (by decide)).trans (k_arg6_16 m ρ c)
theorem k_arg7_17 : W17 m ρ c (Proc.devRef .tc main_arg7) = (KA m c).a7 :=
  (StableHlo.after_of_writes_sub hostOps5_7 (W16 m ρ c) kwrites17_sub (by decide)).trans (k_arg7_16 m ρ c)
theorem k_arg8_17 : W17 m ρ c (Proc.devRef .tc main_arg8) = (KA m c).a8 :=
  (StableHlo.after_of_writes_sub hostOps5_7 (W16 m ρ c) kwrites17_sub (by decide)).trans (k_arg8_16 m ρ c)
theorem k_arg9_17 : W17 m ρ c (Proc.devRef .tc main_arg9) = (KA m c).a9 :=
  (StableHlo.after_of_writes_sub hostOps5_7 (W16 m ρ c) kwrites17_sub (by decide)).trans (k_arg9_16 m ρ c)
theorem k_arg10_17 : W17 m ρ c (Proc.devRef .tc main_arg10) = (KA m c).a10 :=
  (StableHlo.after_of_writes_sub hostOps5_7 (W16 m ρ c) kwrites17_sub (by decide)).trans (k_arg10_16 m ρ c)
theorem k_arg11_17 : W17 m ρ c (Proc.devRef .tc main_arg11) = (KA m c).a11 :=
  (StableHlo.after_of_writes_sub hostOps5_7 (W16 m ρ c) kwrites17_sub (by decide)).trans (k_arg11_16 m ρ c)
theorem k_arg12_17 : W17 m ρ c (Proc.devRef .tc main_arg12) = (KA m c).a12 :=
  (StableHlo.after_of_writes_sub hostOps5_7 (W16 m ρ c) kwrites17_sub (by decide)).trans (k_arg12_16 m ρ c)
theorem k_arg13_17 : W17 m ρ c (Proc.devRef .tc main_arg13) = (KA m c).a13 :=
  (StableHlo.after_of_writes_sub hostOps5_7 (W16 m ρ c) kwrites17_sub (by decide)).trans (k_arg13_16 m ρ c)
theorem k_arg14_17 : W17 m ρ c (Proc.devRef .tc main_arg14) = (KA m c).a14 :=
  (StableHlo.after_of_writes_sub hostOps5_7 (W16 m ρ c) kwrites17_sub (by decide)).trans (k_arg14_16 m ρ c)
theorem k_arg15_17 : W17 m ρ c (Proc.devRef .tc main_arg15) = (KA m c).a15 :=
  (StableHlo.after_of_writes_sub hostOps5_7 (W16 m ρ c) kwrites17_sub (by decide)).trans (k_arg15_16 m ρ c)
theorem k_arg20_17 : W17 m ρ c (Proc.devRef .tc main_arg20) = (KA m c).a20 :=
  (StableHlo.after_of_writes_sub hostOps5_7 (W16 m ρ c) kwrites17_sub (by decide)).trans (k_arg20_16 m ρ c)
theorem k_arg22_17 : W17 m ρ c (Proc.devRef .tc main_arg22) = (KA m c).a22 :=
  (StableHlo.after_of_writes_sub hostOps5_7 (W16 m ρ c) kwrites17_sub (by decide)).trans (k_arg22_16 m ρ c)
theorem k_arg21_17 : W17 m ρ c (Proc.devRef .tc main_arg21) = (KA m c).a21 :=
  (StableHlo.after_of_writes_sub hostOps5_7 (W16 m ρ c) kwrites17_sub (by decide)).trans (k_arg21_16 m ρ c)
theorem k_arg23_17 : W17 m ρ c (Proc.devRef .tc main_arg23) = (KA m c).a23 :=
  (StableHlo.after_of_writes_sub hostOps5_7 (W16 m ρ c) kwrites17_sub (by decide)).trans (k_arg23_16 m ρ c)
theorem k_arg16_17 : W17 m ρ c (Proc.devRef .tc main_arg16) = (KA m c).a16 :=
  (StableHlo.after_of_writes_sub hostOps5_7 (W16 m ρ c) kwrites17_sub (by decide)).trans (k_arg16_16 m ρ c)
theorem k_arg17_17 : W17 m ρ c (Proc.devRef .tc main_arg17) = (KA m c).a17 :=
  (StableHlo.after_of_writes_sub hostOps5_7 (W16 m ρ c) kwrites17_sub (by decide)).trans (k_arg17_16 m ρ c)
theorem k_arg18_17 : W17 m ρ c (Proc.devRef .tc main_arg18) = (KA m c).a18 :=
  (StableHlo.after_of_writes_sub hostOps5_7 (W16 m ρ c) kwrites17_sub (by decide)).trans (k_arg18_16 m ρ c)
theorem k_arg19_17 : W17 m ρ c (Proc.devRef .tc main_arg19) = (KA m c).a19 :=
  (StableHlo.after_of_writes_sub hostOps5_7 (W16 m ρ c) kwrites17_sub (by decide)).trans (k_arg19_16 m ρ c)
theorem k_v61_17 : W17 m ρ c (Proc.devRef .tc main_v61) = Spec.g_v75 (KA m c) :=
  (StableHlo.after_of_writes_sub hostOps5_7 (W16 m ρ c) kwrites17_sub (by decide)).trans (k_v61_16 m ρ c)
theorem k_v66_17 : W17 m ρ c (Proc.devRef .tc main_v66) = Spec.g_v115 (KA m c) :=
  (StableHlo.after_of_writes_sub hostOps5_7 (W16 m ρ c) kwrites17_sub (by decide)).trans (k_v66_16 m ρ c)
theorem k_v71_17 : W17 m ρ c (Proc.devRef .tc main_v71) = Spec.g_v157 (KA m c) :=
  (StableHlo.after_of_writes_sub hostOps5_7 (W16 m ρ c) kwrites17_sub (by decide)).trans (k_v71_16 m ρ c)
theorem k_v76_17 : W17 m ρ c (Proc.devRef .tc main_v76) = Spec.g_v197 (KA m c) :=
  (StableHlo.after_of_writes_sub hostOps5_7 (W16 m ρ c) kwrites17_sub (by decide)).trans (k_v76_16 m ρ c)
theorem k_v79_17 : W17 m ρ c (Proc.devRef .tc main_v79) = Spec.g_v78 (KA m c) :=
  (StableHlo.after_of_writes_sub hostOps5_7 (W16 m ρ c) kwrites17_sub (by decide)).trans (k_v79_16 m ρ c)
theorem k_v80_17 : W17 m ρ c (Proc.devRef .tc main_v80) = Spec.g_v79 (KA m c) :=
  (StableHlo.after_of_writes_sub hostOps5_7 (W16 m ρ c) kwrites17_sub (by decide)).trans (k_v80_16 m ρ c)
theorem k_v83_17 : W17 m ρ c (Proc.devRef .tc main_v83) = Spec.g_v118 (KA m c) :=
  (StableHlo.after_of_writes_sub hostOps5_7 (W16 m ρ c) kwrites17_sub (by decide)).trans (k_v83_16 m ρ c)
theorem k_v84_17 : W17 m ρ c (Proc.devRef .tc main_v84) = Spec.g_v119 (KA m c) :=
  (StableHlo.after_of_writes_sub hostOps5_7 (W16 m ρ c) kwrites17_sub (by decide)).trans (k_v84_16 m ρ c)
theorem k_v87_17 : W17 m ρ c (Proc.devRef .tc main_v87) = Spec.g_v160 (KA m c) :=
  (StableHlo.after_of_writes_sub hostOps5_7 (W16 m ρ c) kwrites17_sub (by decide)).trans (k_v87_16 m ρ c)
theorem k_v88_17 : W17 m ρ c (Proc.devRef .tc main_v88) = Spec.g_v161 (KA m c) :=
  (StableHlo.after_of_writes_sub hostOps5_7 (W16 m ρ c) kwrites17_sub (by decide)).trans (k_v88_16 m ρ c)
theorem k_v91_17 : W17 m ρ c (Proc.devRef .tc main_v91) = Spec.g_v200 (KA m c) :=
  (StableHlo.after_of_writes_sub hostOps5_7 (W16 m ρ c) kwrites17_sub (by decide)).trans (k_v91_16 m ρ c)
theorem k_v92_17 : W17 m ρ c (Proc.devRef .tc main_v92) = Spec.g_v201 (KA m c) := by
  have e0 := k_c_21_16 m ρ c
  have e1 := k_v76_16 m ρ c
  show StableHlo.after hostOps5_7 (W16 m ρ c) (Proc.devRef .tc main_v92) = _
  rw [hostOps5_7_plain]
  generalize W16 m ρ c = V at e0 e1 ⊢
  after_results_simp
  try simp only [e0, e1]
  rfl

/-! ### Boundary 18: after the host stretch hostOps5_8 -/

theorem k_arg6_18 : W18 m ρ c (Proc.devRef .tc main_arg6) = (KA m c).a6 :=
  (StableHlo.after_of_writes_sub hostOps5_8 (W17 m ρ c) kwrites18_sub (by decide)).trans (k_arg6_17 m ρ c)
theorem k_arg7_18 : W18 m ρ c (Proc.devRef .tc main_arg7) = (KA m c).a7 :=
  (StableHlo.after_of_writes_sub hostOps5_8 (W17 m ρ c) kwrites18_sub (by decide)).trans (k_arg7_17 m ρ c)
theorem k_arg8_18 : W18 m ρ c (Proc.devRef .tc main_arg8) = (KA m c).a8 :=
  (StableHlo.after_of_writes_sub hostOps5_8 (W17 m ρ c) kwrites18_sub (by decide)).trans (k_arg8_17 m ρ c)
theorem k_arg9_18 : W18 m ρ c (Proc.devRef .tc main_arg9) = (KA m c).a9 :=
  (StableHlo.after_of_writes_sub hostOps5_8 (W17 m ρ c) kwrites18_sub (by decide)).trans (k_arg9_17 m ρ c)
theorem k_arg10_18 : W18 m ρ c (Proc.devRef .tc main_arg10) = (KA m c).a10 :=
  (StableHlo.after_of_writes_sub hostOps5_8 (W17 m ρ c) kwrites18_sub (by decide)).trans (k_arg10_17 m ρ c)
theorem k_arg11_18 : W18 m ρ c (Proc.devRef .tc main_arg11) = (KA m c).a11 :=
  (StableHlo.after_of_writes_sub hostOps5_8 (W17 m ρ c) kwrites18_sub (by decide)).trans (k_arg11_17 m ρ c)
theorem k_arg12_18 : W18 m ρ c (Proc.devRef .tc main_arg12) = (KA m c).a12 :=
  (StableHlo.after_of_writes_sub hostOps5_8 (W17 m ρ c) kwrites18_sub (by decide)).trans (k_arg12_17 m ρ c)
theorem k_arg13_18 : W18 m ρ c (Proc.devRef .tc main_arg13) = (KA m c).a13 :=
  (StableHlo.after_of_writes_sub hostOps5_8 (W17 m ρ c) kwrites18_sub (by decide)).trans (k_arg13_17 m ρ c)
theorem k_arg14_18 : W18 m ρ c (Proc.devRef .tc main_arg14) = (KA m c).a14 :=
  (StableHlo.after_of_writes_sub hostOps5_8 (W17 m ρ c) kwrites18_sub (by decide)).trans (k_arg14_17 m ρ c)
theorem k_arg15_18 : W18 m ρ c (Proc.devRef .tc main_arg15) = (KA m c).a15 :=
  (StableHlo.after_of_writes_sub hostOps5_8 (W17 m ρ c) kwrites18_sub (by decide)).trans (k_arg15_17 m ρ c)
theorem k_arg20_18 : W18 m ρ c (Proc.devRef .tc main_arg20) = (KA m c).a20 :=
  (StableHlo.after_of_writes_sub hostOps5_8 (W17 m ρ c) kwrites18_sub (by decide)).trans (k_arg20_17 m ρ c)
theorem k_arg22_18 : W18 m ρ c (Proc.devRef .tc main_arg22) = (KA m c).a22 :=
  (StableHlo.after_of_writes_sub hostOps5_8 (W17 m ρ c) kwrites18_sub (by decide)).trans (k_arg22_17 m ρ c)
theorem k_arg21_18 : W18 m ρ c (Proc.devRef .tc main_arg21) = (KA m c).a21 :=
  (StableHlo.after_of_writes_sub hostOps5_8 (W17 m ρ c) kwrites18_sub (by decide)).trans (k_arg21_17 m ρ c)
theorem k_arg23_18 : W18 m ρ c (Proc.devRef .tc main_arg23) = (KA m c).a23 :=
  (StableHlo.after_of_writes_sub hostOps5_8 (W17 m ρ c) kwrites18_sub (by decide)).trans (k_arg23_17 m ρ c)
theorem k_arg16_18 : W18 m ρ c (Proc.devRef .tc main_arg16) = (KA m c).a16 :=
  (StableHlo.after_of_writes_sub hostOps5_8 (W17 m ρ c) kwrites18_sub (by decide)).trans (k_arg16_17 m ρ c)
theorem k_arg17_18 : W18 m ρ c (Proc.devRef .tc main_arg17) = (KA m c).a17 :=
  (StableHlo.after_of_writes_sub hostOps5_8 (W17 m ρ c) kwrites18_sub (by decide)).trans (k_arg17_17 m ρ c)
theorem k_arg18_18 : W18 m ρ c (Proc.devRef .tc main_arg18) = (KA m c).a18 :=
  (StableHlo.after_of_writes_sub hostOps5_8 (W17 m ρ c) kwrites18_sub (by decide)).trans (k_arg18_17 m ρ c)
theorem k_arg19_18 : W18 m ρ c (Proc.devRef .tc main_arg19) = (KA m c).a19 :=
  (StableHlo.after_of_writes_sub hostOps5_8 (W17 m ρ c) kwrites18_sub (by decide)).trans (k_arg19_17 m ρ c)
theorem k_v61_18 : W18 m ρ c (Proc.devRef .tc main_v61) = Spec.g_v75 (KA m c) :=
  (StableHlo.after_of_writes_sub hostOps5_8 (W17 m ρ c) kwrites18_sub (by decide)).trans (k_v61_17 m ρ c)
theorem k_v66_18 : W18 m ρ c (Proc.devRef .tc main_v66) = Spec.g_v115 (KA m c) :=
  (StableHlo.after_of_writes_sub hostOps5_8 (W17 m ρ c) kwrites18_sub (by decide)).trans (k_v66_17 m ρ c)
theorem k_v71_18 : W18 m ρ c (Proc.devRef .tc main_v71) = Spec.g_v157 (KA m c) :=
  (StableHlo.after_of_writes_sub hostOps5_8 (W17 m ρ c) kwrites18_sub (by decide)).trans (k_v71_17 m ρ c)
theorem k_v76_18 : W18 m ρ c (Proc.devRef .tc main_v76) = Spec.g_v197 (KA m c) :=
  (StableHlo.after_of_writes_sub hostOps5_8 (W17 m ρ c) kwrites18_sub (by decide)).trans (k_v76_17 m ρ c)
theorem k_v79_18 : W18 m ρ c (Proc.devRef .tc main_v79) = Spec.g_v78 (KA m c) :=
  (StableHlo.after_of_writes_sub hostOps5_8 (W17 m ρ c) kwrites18_sub (by decide)).trans (k_v79_17 m ρ c)
theorem k_v80_18 : W18 m ρ c (Proc.devRef .tc main_v80) = Spec.g_v79 (KA m c) :=
  (StableHlo.after_of_writes_sub hostOps5_8 (W17 m ρ c) kwrites18_sub (by decide)).trans (k_v80_17 m ρ c)
theorem k_v83_18 : W18 m ρ c (Proc.devRef .tc main_v83) = Spec.g_v118 (KA m c) :=
  (StableHlo.after_of_writes_sub hostOps5_8 (W17 m ρ c) kwrites18_sub (by decide)).trans (k_v83_17 m ρ c)
theorem k_v84_18 : W18 m ρ c (Proc.devRef .tc main_v84) = Spec.g_v119 (KA m c) :=
  (StableHlo.after_of_writes_sub hostOps5_8 (W17 m ρ c) kwrites18_sub (by decide)).trans (k_v84_17 m ρ c)
theorem k_v87_18 : W18 m ρ c (Proc.devRef .tc main_v87) = Spec.g_v160 (KA m c) :=
  (StableHlo.after_of_writes_sub hostOps5_8 (W17 m ρ c) kwrites18_sub (by decide)).trans (k_v87_17 m ρ c)
theorem k_v88_18 : W18 m ρ c (Proc.devRef .tc main_v88) = Spec.g_v161 (KA m c) :=
  (StableHlo.after_of_writes_sub hostOps5_8 (W17 m ρ c) kwrites18_sub (by decide)).trans (k_v88_17 m ρ c)
theorem k_v91_18 : W18 m ρ c (Proc.devRef .tc main_v91) = Spec.g_v200 (KA m c) :=
  (StableHlo.after_of_writes_sub hostOps5_8 (W17 m ρ c) kwrites18_sub (by decide)).trans (k_v91_17 m ρ c)
theorem k_v92_18 : W18 m ρ c (Proc.devRef .tc main_v92) = Spec.g_v201 (KA m c) :=
  (StableHlo.after_of_writes_sub hostOps5_8 (W17 m ρ c) kwrites18_sub (by decide)).trans (k_v92_17 m ρ c)
theorem k_v94_18 : W18 m ρ c (Proc.devRef .tc main_v94) = Spec.g_v65 (KA m c) := by
  have e0 := k_arg6_17 m ρ c
  show StableHlo.after hostOps5_8 (W17 m ρ c) (Proc.devRef .tc main_v94) = _
  generalize W17 m ρ c = V at e0 ⊢
  after_results_simp
  try simp only [e0]
  rfl
theorem k_v96_18 : W18 m ρ c (Proc.devRef .tc main_v96) = Spec.g_v67 (KA m c) := by
  have e0 := k_arg7_17 m ρ c
  show StableHlo.after hostOps5_8 (W17 m ρ c) (Proc.devRef .tc main_v96) = _
  generalize W17 m ρ c = V at e0 ⊢
  after_results_simp
  try simp only [e0]
  rfl
theorem k_v98_18 : W18 m ρ c (Proc.devRef .tc main_v98) = Spec.g_v69 (KA m c) := by
  have e0 := k_arg8_17 m ρ c
  show StableHlo.after hostOps5_8 (W17 m ρ c) (Proc.devRef .tc main_v98) = _
  generalize W17 m ρ c = V at e0 ⊢
  after_results_simp
  try simp only [e0]
  rfl
theorem k_v100_18 : W18 m ρ c (Proc.devRef .tc main_v100) = Spec.g_v71 (KA m c) := by
  have e0 := k_arg9_17 m ρ c
  show StableHlo.after hostOps5_8 (W17 m ρ c) (Proc.devRef .tc main_v100) = _
  generalize W17 m ρ c = V at e0 ⊢
  after_results_simp
  try simp only [e0]
  rfl
theorem k_v102_18 : W18 m ρ c (Proc.devRef .tc main_v102) = Spec.g_v105 (KA m c) := by
  have e0 := k_arg6_17 m ρ c
  show StableHlo.after hostOps5_8 (W17 m ρ c) (Proc.devRef .tc main_v102) = _
  generalize W17 m ρ c = V at e0 ⊢
  after_results_simp
  try simp only [e0]
  rfl
theorem k_v104_18 : W18 m ρ c (Proc.devRef .tc main_v104) = Spec.g_v107 (KA m c) := by
  have e0 := k_arg7_17 m ρ c
  show StableHlo.after hostOps5_8 (W17 m ρ c) (Proc.devRef .tc main_v104) = _
  generalize W17 m ρ c = V at e0 ⊢
  after_results_simp
  try simp only [e0]
  rfl
theorem k_v106_18 : W18 m ρ c (Proc.devRef .tc main_v106) = Spec.g_v109 (KA m c) := by
  have e0 := k_arg8_17 m ρ c
  show StableHlo.after hostOps5_8 (W17 m ρ c) (Proc.devRef .tc main_v106) = _
  generalize W17 m ρ c = V at e0 ⊢
  after_results_simp
  try simp only [e0]
  rfl
theorem k_v108_18 : W18 m ρ c (Proc.devRef .tc main_v108) = Spec.g_v111 (KA m c) := by
  have e0 := k_arg9_17 m ρ c
  show StableHlo.after hostOps5_8 (W17 m ρ c) (Proc.devRef .tc main_v108) = _
  generalize W17 m ρ c = V at e0 ⊢
  after_results_simp
  try simp only [e0]
  rfl

/-! ### Boundary 19: after region 5 -/

theorem k_arg6_19 : W19 m ρ c (Proc.devRef .tc main_arg6) = (KA m c).a6 :=
  (W19_of_ne m ρ c main_arg6 (by decide)).trans (k_arg6_18 m ρ c)
theorem k_arg7_19 : W19 m ρ c (Proc.devRef .tc main_arg7) = (KA m c).a7 :=
  (W19_of_ne m ρ c main_arg7 (by decide)).trans (k_arg7_18 m ρ c)
theorem k_arg8_19 : W19 m ρ c (Proc.devRef .tc main_arg8) = (KA m c).a8 :=
  (W19_of_ne m ρ c main_arg8 (by decide)).trans (k_arg8_18 m ρ c)
theorem k_arg9_19 : W19 m ρ c (Proc.devRef .tc main_arg9) = (KA m c).a9 :=
  (W19_of_ne m ρ c main_arg9 (by decide)).trans (k_arg9_18 m ρ c)
theorem k_arg10_19 : W19 m ρ c (Proc.devRef .tc main_arg10) = (KA m c).a10 :=
  (W19_of_ne m ρ c main_arg10 (by decide)).trans (k_arg10_18 m ρ c)
theorem k_arg11_19 : W19 m ρ c (Proc.devRef .tc main_arg11) = (KA m c).a11 :=
  (W19_of_ne m ρ c main_arg11 (by decide)).trans (k_arg11_18 m ρ c)
theorem k_arg12_19 : W19 m ρ c (Proc.devRef .tc main_arg12) = (KA m c).a12 :=
  (W19_of_ne m ρ c main_arg12 (by decide)).trans (k_arg12_18 m ρ c)
theorem k_arg13_19 : W19 m ρ c (Proc.devRef .tc main_arg13) = (KA m c).a13 :=
  (W19_of_ne m ρ c main_arg13 (by decide)).trans (k_arg13_18 m ρ c)
theorem k_arg14_19 : W19 m ρ c (Proc.devRef .tc main_arg14) = (KA m c).a14 :=
  (W19_of_ne m ρ c main_arg14 (by decide)).trans (k_arg14_18 m ρ c)
theorem k_arg15_19 : W19 m ρ c (Proc.devRef .tc main_arg15) = (KA m c).a15 :=
  (W19_of_ne m ρ c main_arg15 (by decide)).trans (k_arg15_18 m ρ c)
theorem k_arg20_19 : W19 m ρ c (Proc.devRef .tc main_arg20) = (KA m c).a20 :=
  (W19_of_ne m ρ c main_arg20 (by decide)).trans (k_arg20_18 m ρ c)
theorem k_arg22_19 : W19 m ρ c (Proc.devRef .tc main_arg22) = (KA m c).a22 :=
  (W19_of_ne m ρ c main_arg22 (by decide)).trans (k_arg22_18 m ρ c)
theorem k_arg21_19 : W19 m ρ c (Proc.devRef .tc main_arg21) = (KA m c).a21 :=
  (W19_of_ne m ρ c main_arg21 (by decide)).trans (k_arg21_18 m ρ c)
theorem k_arg23_19 : W19 m ρ c (Proc.devRef .tc main_arg23) = (KA m c).a23 :=
  (W19_of_ne m ρ c main_arg23 (by decide)).trans (k_arg23_18 m ρ c)
theorem k_arg16_19 : W19 m ρ c (Proc.devRef .tc main_arg16) = (KA m c).a16 :=
  (W19_of_ne m ρ c main_arg16 (by decide)).trans (k_arg16_18 m ρ c)
theorem k_arg17_19 : W19 m ρ c (Proc.devRef .tc main_arg17) = (KA m c).a17 :=
  (W19_of_ne m ρ c main_arg17 (by decide)).trans (k_arg17_18 m ρ c)
theorem k_arg18_19 : W19 m ρ c (Proc.devRef .tc main_arg18) = (KA m c).a18 :=
  (W19_of_ne m ρ c main_arg18 (by decide)).trans (k_arg18_18 m ρ c)
theorem k_arg19_19 : W19 m ρ c (Proc.devRef .tc main_arg19) = (KA m c).a19 :=
  (W19_of_ne m ρ c main_arg19 (by decide)).trans (k_arg19_18 m ρ c)
theorem k_v71_19 : W19 m ρ c (Proc.devRef .tc main_v71) = Spec.g_v157 (KA m c) :=
  (W19_of_ne m ρ c main_v71 (by decide)).trans (k_v71_18 m ρ c)
theorem k_v76_19 : W19 m ρ c (Proc.devRef .tc main_v76) = Spec.g_v197 (KA m c) :=
  (W19_of_ne m ρ c main_v76 (by decide)).trans (k_v76_18 m ρ c)
theorem k_v87_19 : W19 m ρ c (Proc.devRef .tc main_v87) = Spec.g_v160 (KA m c) :=
  (W19_of_ne m ρ c main_v87 (by decide)).trans (k_v87_18 m ρ c)
theorem k_v88_19 : W19 m ρ c (Proc.devRef .tc main_v88) = Spec.g_v161 (KA m c) :=
  (W19_of_ne m ρ c main_v88 (by decide)).trans (k_v88_18 m ρ c)
theorem k_v91_19 : W19 m ρ c (Proc.devRef .tc main_v91) = Spec.g_v200 (KA m c) :=
  (W19_of_ne m ρ c main_v91 (by decide)).trans (k_v91_18 m ρ c)
theorem k_v92_19 : W19 m ρ c (Proc.devRef .tc main_v92) = Spec.g_v201 (KA m c) :=
  (W19_of_ne m ρ c main_v92 (by decide)).trans (k_v92_18 m ρ c)
theorem k_v109_19 : W19 m ρ c (Proc.devRef .tc main_v109) = Spec.g_v141 (KA m c) := by
  refine (W19_arr m ρ c (14 : Fin cfg5.W)).trans ?_
  refine (RegionValue.RegionFacts.reg5 (V18 m ρ) c).trans ?_
  show Spec.combOp (W18 m ρ c (Proc.devRef .tc main_v61)) (W18 m ρ c (Proc.devRef .tc main_v79)) (W18 m ρ c (Proc.devRef .tc main_v80)) (W18 m ρ c (Proc.devRef .tc main_v94)) (W18 m ρ c (Proc.devRef .tc main_v96)) (W18 m ρ c (Proc.devRef .tc main_v98)) (W18 m ρ c (Proc.devRef .tc main_v100)) (W18 m ρ c (Proc.devRef .tc main_v66)) (W18 m ρ c (Proc.devRef .tc main_v83)) (W18 m ρ c (Proc.devRef .tc main_v84)) (W18 m ρ c (Proc.devRef .tc main_v102)) (W18 m ρ c (Proc.devRef .tc main_v104)) (W18 m ρ c (Proc.devRef .tc main_v106)) (W18 m ρ c (Proc.devRef .tc main_v108)) = _
  rw [k_v61_18 m ρ c, k_v79_18 m ρ c, k_v80_18 m ρ c, k_v94_18 m ρ c, k_v96_18 m ρ c, k_v98_18 m ρ c, k_v100_18 m ρ c, k_v66_18 m ρ c, k_v83_18 m ρ c, k_v84_18 m ρ c, k_v102_18 m ρ c, k_v104_18 m ρ c, k_v106_18 m ρ c, k_v108_18 m ρ c]
  rfl

/-! ### Boundary 20: after the host stretch hostOps6 -/

theorem k_arg10_20 : W20 m ρ c (Proc.devRef .tc main_arg10) = (KA m c).a10 :=
  (StableHlo.after_of_writes_sub hostOps6 (W19 m ρ c) kwrites20_sub (by decide)).trans (k_arg10_19 m ρ c)
theorem k_arg11_20 : W20 m ρ c (Proc.devRef .tc main_arg11) = (KA m c).a11 :=
  (StableHlo.after_of_writes_sub hostOps6 (W19 m ρ c) kwrites20_sub (by decide)).trans (k_arg11_19 m ρ c)
theorem k_arg12_20 : W20 m ρ c (Proc.devRef .tc main_arg12) = (KA m c).a12 :=
  (StableHlo.after_of_writes_sub hostOps6 (W19 m ρ c) kwrites20_sub (by decide)).trans (k_arg12_19 m ρ c)
theorem k_arg13_20 : W20 m ρ c (Proc.devRef .tc main_arg13) = (KA m c).a13 :=
  (StableHlo.after_of_writes_sub hostOps6 (W19 m ρ c) kwrites20_sub (by decide)).trans (k_arg13_19 m ρ c)
theorem k_arg14_20 : W20 m ρ c (Proc.devRef .tc main_arg14) = (KA m c).a14 :=
  (StableHlo.after_of_writes_sub hostOps6 (W19 m ρ c) kwrites20_sub (by decide)).trans (k_arg14_19 m ρ c)
theorem k_arg15_20 : W20 m ρ c (Proc.devRef .tc main_arg15) = (KA m c).a15 :=
  (StableHlo.after_of_writes_sub hostOps6 (W19 m ρ c) kwrites20_sub (by decide)).trans (k_arg15_19 m ρ c)
theorem k_arg20_20 : W20 m ρ c (Proc.devRef .tc main_arg20) = (KA m c).a20 :=
  (StableHlo.after_of_writes_sub hostOps6 (W19 m ρ c) kwrites20_sub (by decide)).trans (k_arg20_19 m ρ c)
theorem k_arg22_20 : W20 m ρ c (Proc.devRef .tc main_arg22) = (KA m c).a22 :=
  (StableHlo.after_of_writes_sub hostOps6 (W19 m ρ c) kwrites20_sub (by decide)).trans (k_arg22_19 m ρ c)
theorem k_arg21_20 : W20 m ρ c (Proc.devRef .tc main_arg21) = (KA m c).a21 :=
  (StableHlo.after_of_writes_sub hostOps6 (W19 m ρ c) kwrites20_sub (by decide)).trans (k_arg21_19 m ρ c)
theorem k_arg23_20 : W20 m ρ c (Proc.devRef .tc main_arg23) = (KA m c).a23 :=
  (StableHlo.after_of_writes_sub hostOps6 (W19 m ρ c) kwrites20_sub (by decide)).trans (k_arg23_19 m ρ c)
theorem k_arg16_20 : W20 m ρ c (Proc.devRef .tc main_arg16) = (KA m c).a16 :=
  (StableHlo.after_of_writes_sub hostOps6 (W19 m ρ c) kwrites20_sub (by decide)).trans (k_arg16_19 m ρ c)
theorem k_arg17_20 : W20 m ρ c (Proc.devRef .tc main_arg17) = (KA m c).a17 :=
  (StableHlo.after_of_writes_sub hostOps6 (W19 m ρ c) kwrites20_sub (by decide)).trans (k_arg17_19 m ρ c)
theorem k_arg18_20 : W20 m ρ c (Proc.devRef .tc main_arg18) = (KA m c).a18 :=
  (StableHlo.after_of_writes_sub hostOps6 (W19 m ρ c) kwrites20_sub (by decide)).trans (k_arg18_19 m ρ c)
theorem k_arg19_20 : W20 m ρ c (Proc.devRef .tc main_arg19) = (KA m c).a19 :=
  (StableHlo.after_of_writes_sub hostOps6 (W19 m ρ c) kwrites20_sub (by decide)).trans (k_arg19_19 m ρ c)
theorem k_v71_20 : W20 m ρ c (Proc.devRef .tc main_v71) = Spec.g_v157 (KA m c) :=
  (StableHlo.after_of_writes_sub hostOps6 (W19 m ρ c) kwrites20_sub (by decide)).trans (k_v71_19 m ρ c)
theorem k_v76_20 : W20 m ρ c (Proc.devRef .tc main_v76) = Spec.g_v197 (KA m c) :=
  (StableHlo.after_of_writes_sub hostOps6 (W19 m ρ c) kwrites20_sub (by decide)).trans (k_v76_19 m ρ c)
theorem k_v87_20 : W20 m ρ c (Proc.devRef .tc main_v87) = Spec.g_v160 (KA m c) :=
  (StableHlo.after_of_writes_sub hostOps6 (W19 m ρ c) kwrites20_sub (by decide)).trans (k_v87_19 m ρ c)
theorem k_v88_20 : W20 m ρ c (Proc.devRef .tc main_v88) = Spec.g_v161 (KA m c) :=
  (StableHlo.after_of_writes_sub hostOps6 (W19 m ρ c) kwrites20_sub (by decide)).trans (k_v88_19 m ρ c)
theorem k_v91_20 : W20 m ρ c (Proc.devRef .tc main_v91) = Spec.g_v200 (KA m c) :=
  (StableHlo.after_of_writes_sub hostOps6 (W19 m ρ c) kwrites20_sub (by decide)).trans (k_v91_19 m ρ c)
theorem k_v92_20 : W20 m ρ c (Proc.devRef .tc main_v92) = Spec.g_v201 (KA m c) :=
  (StableHlo.after_of_writes_sub hostOps6 (W19 m ρ c) kwrites20_sub (by decide)).trans (k_v92_19 m ρ c)
theorem k_v109_20 : W20 m ρ c (Proc.devRef .tc main_v109) = Spec.g_v141 (KA m c) :=
  (StableHlo.after_of_writes_sub hostOps6 (W19 m ρ c) kwrites20_sub (by decide)).trans (k_v109_19 m ρ c)
theorem k_v111_20 : W20 m ρ c (Proc.devRef .tc main_v111) = Spec.g_v147 (KA m c) := by
  show StableHlo.after hostOps6 (W19 m ρ c) (Proc.devRef .tc main_v111) = _
  after_results_simp
  try simp only [k_arg6_19 m ρ c]
  rfl
theorem k_v113_20 : W20 m ρ c (Proc.devRef .tc main_v113) = Spec.g_v149 (KA m c) := by
  show StableHlo.after hostOps6 (W19 m ρ c) (Proc.devRef .tc main_v113) = _
  after_results_simp
  try simp only [k_arg7_19 m ρ c]
  rfl
theorem k_v115_20 : W20 m ρ c (Proc.devRef .tc main_v115) = Spec.g_v151 (KA m c) := by
  show StableHlo.after hostOps6 (W19 m ρ c) (Proc.devRef .tc main_v115) = _
  after_results_simp
  try simp only [k_arg8_19 m ρ c]
  rfl
theorem k_v117_20 : W20 m ρ c (Proc.devRef .tc main_v117) = Spec.g_v153 (KA m c) := by
  show StableHlo.after hostOps6 (W19 m ρ c) (Proc.devRef .tc main_v117) = _
  after_results_simp
  try simp only [k_arg9_19 m ρ c]
  rfl
theorem k_v119_20 : W20 m ρ c (Proc.devRef .tc main_v119) = Spec.g_v187 (KA m c) := by
  show StableHlo.after hostOps6 (W19 m ρ c) (Proc.devRef .tc main_v119) = _
  after_results_simp
  try simp only [k_arg6_19 m ρ c]
  rfl
theorem k_v121_20 : W20 m ρ c (Proc.devRef .tc main_v121) = Spec.g_v189 (KA m c) := by
  show StableHlo.after hostOps6 (W19 m ρ c) (Proc.devRef .tc main_v121) = _
  after_results_simp
  try simp only [k_arg7_19 m ρ c]
  rfl
theorem k_v123_20 : W20 m ρ c (Proc.devRef .tc main_v123) = Spec.g_v191 (KA m c) := by
  show StableHlo.after hostOps6 (W19 m ρ c) (Proc.devRef .tc main_v123) = _
  after_results_simp
  try simp only [k_arg8_19 m ρ c]
  rfl
theorem k_v125_20 : W20 m ρ c (Proc.devRef .tc main_v125) = Spec.g_v193 (KA m c) := by
  show StableHlo.after hostOps6 (W19 m ρ c) (Proc.devRef .tc main_v125) = _
  after_results_simp
  try simp only [k_arg9_19 m ρ c]
  rfl

/-! ### Boundary 21: after region 6 -/

theorem k_arg10_21 : W21 m ρ c (Proc.devRef .tc main_arg10) = (KA m c).a10 :=
  (W21_of_ne m ρ c main_arg10 (by decide)).trans (k_arg10_20 m ρ c)
theorem k_arg11_21 : W21 m ρ c (Proc.devRef .tc main_arg11) = (KA m c).a11 :=
  (W21_of_ne m ρ c main_arg11 (by decide)).trans (k_arg11_20 m ρ c)
theorem k_arg12_21 : W21 m ρ c (Proc.devRef .tc main_arg12) = (KA m c).a12 :=
  (W21_of_ne m ρ c main_arg12 (by decide)).trans (k_arg12_20 m ρ c)
theorem k_arg13_21 : W21 m ρ c (Proc.devRef .tc main_arg13) = (KA m c).a13 :=
  (W21_of_ne m ρ c main_arg13 (by decide)).trans (k_arg13_20 m ρ c)
theorem k_arg14_21 : W21 m ρ c (Proc.devRef .tc main_arg14) = (KA m c).a14 :=
  (W21_of_ne m ρ c main_arg14 (by decide)).trans (k_arg14_20 m ρ c)
theorem k_arg15_21 : W21 m ρ c (Proc.devRef .tc main_arg15) = (KA m c).a15 :=
  (W21_of_ne m ρ c main_arg15 (by decide)).trans (k_arg15_20 m ρ c)
theorem k_arg20_21 : W21 m ρ c (Proc.devRef .tc main_arg20) = (KA m c).a20 :=
  (W21_of_ne m ρ c main_arg20 (by decide)).trans (k_arg20_20 m ρ c)
theorem k_arg22_21 : W21 m ρ c (Proc.devRef .tc main_arg22) = (KA m c).a22 :=
  (W21_of_ne m ρ c main_arg22 (by decide)).trans (k_arg22_20 m ρ c)
theorem k_arg21_21 : W21 m ρ c (Proc.devRef .tc main_arg21) = (KA m c).a21 :=
  (W21_of_ne m ρ c main_arg21 (by decide)).trans (k_arg21_20 m ρ c)
theorem k_arg23_21 : W21 m ρ c (Proc.devRef .tc main_arg23) = (KA m c).a23 :=
  (W21_of_ne m ρ c main_arg23 (by decide)).trans (k_arg23_20 m ρ c)
theorem k_arg16_21 : W21 m ρ c (Proc.devRef .tc main_arg16) = (KA m c).a16 :=
  (W21_of_ne m ρ c main_arg16 (by decide)).trans (k_arg16_20 m ρ c)
theorem k_arg17_21 : W21 m ρ c (Proc.devRef .tc main_arg17) = (KA m c).a17 :=
  (W21_of_ne m ρ c main_arg17 (by decide)).trans (k_arg17_20 m ρ c)
theorem k_arg18_21 : W21 m ρ c (Proc.devRef .tc main_arg18) = (KA m c).a18 :=
  (W21_of_ne m ρ c main_arg18 (by decide)).trans (k_arg18_20 m ρ c)
theorem k_arg19_21 : W21 m ρ c (Proc.devRef .tc main_arg19) = (KA m c).a19 :=
  (W21_of_ne m ρ c main_arg19 (by decide)).trans (k_arg19_20 m ρ c)
theorem k_v109_21 : W21 m ρ c (Proc.devRef .tc main_v109) = Spec.g_v141 (KA m c) :=
  (W21_of_ne m ρ c main_v109 (by decide)).trans (k_v109_20 m ρ c)
theorem k_v126_21 : W21 m ρ c (Proc.devRef .tc main_v126) = Spec.g_v223 (KA m c) := by
  refine (W21_arr m ρ c (14 : Fin cfg6.W)).trans ?_
  refine (RegionValue.RegionFacts.reg6 (V20 m ρ) c).trans ?_
  show Spec.combM (W20 m ρ c (Proc.devRef .tc main_v71)) (W20 m ρ c (Proc.devRef .tc main_v87)) (W20 m ρ c (Proc.devRef .tc main_v88)) (W20 m ρ c (Proc.devRef .tc main_v111)) (W20 m ρ c (Proc.devRef .tc main_v113)) (W20 m ρ c (Proc.devRef .tc main_v115)) (W20 m ρ c (Proc.devRef .tc main_v117)) (W20 m ρ c (Proc.devRef .tc main_v76)) (W20 m ρ c (Proc.devRef .tc main_v91)) (W20 m ρ c (Proc.devRef .tc main_v92)) (W20 m ρ c (Proc.devRef .tc main_v119)) (W20 m ρ c (Proc.devRef .tc main_v121)) (W20 m ρ c (Proc.devRef .tc main_v123)) (W20 m ρ c (Proc.devRef .tc main_v125)) = _
  rw [k_v71_20 m ρ c, k_v87_20 m ρ c, k_v88_20 m ρ c, k_v111_20 m ρ c, k_v113_20 m ρ c, k_v115_20 m ρ c, k_v117_20 m ρ c, k_v76_20 m ρ c, k_v91_20 m ρ c, k_v92_20 m ρ c, k_v119_20 m ρ c, k_v121_20 m ρ c, k_v123_20 m ρ c, k_v125_20 m ρ c]
  rfl

end Cert.KernelIdeal.Thread

end
-- ==== Proof.KThread2.lean ====
import proofs.«116822_j38594576122568_1_alg».proof.Proof.Gen.KernelIdeal.Frame
import proofs.«116822_j38594576122568_1_alg».proof.Proof.KWrites
import proofs.«116822_j38594576122568_1_alg».proof.Proof.KPlain
import proofs.«116822_j38594576122568_1_alg».proof.Proof.SpecValues
import proofs.«116822_j38594576122568_1_alg».proof.Proof.RegionStatements
import proofs.«116822_j38594576122568_1_alg».proof.Proof.KThread1
import Idealize.ShloMosaic.Lib.StableHlo.Run

/-! The kernel program's run read boundary by boundary (boundaries 22 to 29 of the generated frame's valuations): what each
    buffer read again later holds there, as the shared value of the reference's run. A stretch of host operations is read
    through; a region's output array is the region's layer function of its input arrays; everything else is carried. -/

set_option maxRecDepth 16384

noncomputable section

namespace Cert.KernelIdeal.Thread

open Cert.KernelIdeal Cert.KernelIdeal.Gen Idealize.ShloMosaic Idealize.ShloMosaic.TcCoe Idealize.SL.Sem Idealize.ShloMosaic.StableHlo

variable [RegionValue.RegionFacts] (m : (ℓ : Loc nD τ sig) → Buf (Elt Ideal) ℓ) (ρ : Dev nD → PrngReg) (c : Dev nD)

/-! ### Boundary 22: after the host stretch hostOps7 -/

theorem k_arg10_22 : W22 m ρ c (Proc.devRef .tc main_arg10) = (KA m c).a10 :=
  (StableHlo.after_of_writes_sub hostOps7 (W21 m ρ c) kwrites22_sub (by decide)).trans (k_arg10_21 m ρ c)
theorem k_arg11_22 : W22 m ρ c (Proc.devRef .tc main_arg11) = (KA m c).a11 :=
  (StableHlo.after_of_writes_sub hostOps7 (W21 m ρ c) kwrites22_sub (by decide)).trans (k_arg11_21 m ρ c)
theorem k_arg12_22 : W22 m ρ c (Proc.devRef .tc main_arg12) = (KA m c).a12 :=
  (StableHlo.after_of_writes_sub hostOps7 (W21 m ρ c) kwrites22_sub (by decide)).trans (k_arg12_21 m ρ c)
theorem k_arg13_22 : W22 m ρ c (Proc.devRef .tc main_arg13) = (KA m c).a13 :=
  (StableHlo.after_of_writes_sub hostOps7 (W21 m ρ c) kwrites22_sub (by decide)).trans (k_arg13_21 m ρ c)
theorem k_arg14_22 : W22 m ρ c (Proc.devRef .tc main_arg14) = (KA m c).a14 :=
  (StableHlo.after_of_writes_sub hostOps7 (W21 m ρ c) kwrites22_sub (by decide)).trans (k_arg14_21 m ρ c)
theorem k_arg15_22 : W22 m ρ c (Proc.devRef .tc main_arg15) = (KA m c).a15 :=
  (StableHlo.after_of_writes_sub hostOps7 (W21 m ρ c) kwrites22_sub (by decide)).trans (k_arg15_21 m ρ c)
theorem k_arg20_22 : W22 m ρ c (Proc.devRef .tc main_arg20) = (KA m c).a20 :=
  (StableHlo.after_of_writes_sub hostOps7 (W21 m ρ c) kwrites22_sub (by decide)).trans (k_arg20_21 m ρ c)
theorem k_arg22_22 : W22 m ρ c (Proc.devRef .tc main_arg22) = (KA m c).a22 :=
  (StableHlo.after_of_writes_sub hostOps7 (W21 m ρ c) kwrites22_sub (by decide)).trans (k_arg22_21 m ρ c)
theorem k_arg21_22 : W22 m ρ c (Proc.devRef .tc main_arg21) = (KA m c).a21 :=
  (StableHlo.after_of_writes_sub hostOps7 (W21 m ρ c) kwrites22_sub (by decide)).trans (k_arg21_21 m ρ c)
theorem k_arg23_22 : W22 m ρ c (Proc.devRef .tc main_arg23) = (KA m c).a23 :=
  (StableHlo.after_of_writes_sub hostOps7 (W21 m ρ c) kwrites22_sub (by decide)).trans (k_arg23_21 m ρ c)
theorem k_arg16_22 : W22 m ρ c (Proc.devRef .tc main_arg16) = (KA m c).a16 :=
  (StableHlo.after_of_writes_sub hostOps7 (W21 m ρ c) kwrites22_sub (by decide)).trans (k_arg16_21 m ρ c)
theorem k_arg17_22 : W22 m ρ c (Proc.devRef .tc main_arg17) = (KA m c).a17 :=
  (StableHlo.after_of_writes_sub hostOps7 (W21 m ρ c) kwrites22_sub (by decide)).trans (k_arg17_21 m ρ c)
theorem k_arg18_22 : W22 m ρ c (Proc.devRef .tc main_arg18) = (KA m c).a18 :=
  (StableHlo.after_of_writes_sub hostOps7 (W21 m ρ c) kwrites22_sub (by decide)).trans (k_arg18_21 m ρ c)
theorem k_arg19_22 : W22 m ρ c (Proc.devRef .tc main_arg19) = (KA m c).a19 :=
  (StableHlo.after_of_writes_sub hostOps7 (W21 m ρ c) kwrites22_sub (by decide)).trans (k_arg19_21 m ρ c)
theorem k_v128_22 : W22 m ρ c (Proc.devRef .tc main_v128) = Spec.g_v225 (KA m c) := by
  show StableHlo.after hostOps7 (W21 m ρ c) (Proc.devRef .tc main_v128) = _
  after_results_simp
  try simp only [k_arg10_21 m ρ c]
  rfl
theorem k_v130_22 : W22 m ρ c (Proc.devRef .tc main_v130) = Spec.g_v227 (KA m c) := by
  show StableHlo.after hostOps7 (W21 m ρ c) (Proc.devRef .tc main_v130) = _
  after_results_simp
  try simp only [k_arg11_21 m ρ c]
  rfl
theorem k_v132_22 : W22 m ρ c (Proc.devRef .tc main_v132) = Spec.g_v229 (KA m c) := by
  show StableHlo.after hostOps7 (W21 m ρ c) (Proc.devRef .tc main_v132) = _
  after_results_simp
  try simp only [k_arg12_21 m ρ c]
  rfl
theorem k_v134_22 : W22 m ρ c (Proc.devRef .tc main_v134) = Spec.g_v231 (KA m c) := by
  show StableHlo.after hostOps7 (W21 m ρ c) (Proc.devRef .tc main_v134) = _
  after_results_simp
  try simp only [k_arg13_21 m ρ c]
  rfl
theorem k_v136_22 : W22 m ρ c (Proc.devRef .tc main_v136) = Spec.g_v233 (KA m c) := by
  show StableHlo.after hostOps7 (W21 m ρ c) (Proc.devRef .tc main_v136) = _
  after_results_simp
  try simp only [k_arg14_21 m ρ c]
  rfl
theorem k_v138_22 : W22 m ρ c (Proc.devRef .tc main_v138) = Spec.g_v235 (KA m c) := by
  show StableHlo.after hostOps7 (W21 m ρ c) (Proc.devRef .tc main_v138) = _
  after_results_simp
  try simp only [k_arg15_21 m ρ c]
  rfl
theorem k_v152_22 : W22 m ρ c (Proc.devRef .tc main_v152) = Spec.g_v249 (KA m c) := by
  show StableHlo.after hostOps7 (W21 m ρ c) (Proc.devRef .tc main_v152) = _
  after_results_simp
  try simp only [k_arg20_21 m ρ c, k_v109_21 m ρ c]
  rfl
theorem k_v166_22 : W22 m ρ c (Proc.devRef .tc main_v166) = Spec.g_v263 (KA m c) := by
  show StableHlo.after hostOps7 (W21 m ρ c) (Proc.devRef .tc main_v166) = _
  after_results_simp
  try simp only [k_arg22_21 m ρ c, k_v126_21 m ρ c]
  rfl
theorem k_v180_22 : W22 m ρ c (Proc.devRef .tc main_v180) = Spec.g_v277 (KA m c) := by
  show StableHlo.after hostOps7 (W21 m ρ c) (Proc.devRef .tc main_v180) = _
  after_results_simp
  try simp only [k_arg21_21 m ρ c, k_v109_21 m ρ c]
  rfl
theorem k_v194_22 : W22 m ρ c (Proc.devRef .tc main_v194) = Spec.g_v291 (KA m c) := by
  show StableHlo.after hostOps7 (W21 m ρ c) (Proc.devRef .tc main_v194) = _
  after_results_simp
  try simp only [k_arg23_21 m ρ c, k_v126_21 m ρ c]
  rfl
theorem k_v196_22 : W22 m ρ c (Proc.devRef .tc main_v196) = Spec.g_v293 (KA m c) := by
  show StableHlo.after hostOps7 (W21 m ρ c) (Proc.devRef .tc main_v196) = _
  after_results_simp
  try simp only [k_arg10_21 m ρ c]
  rfl
theorem k_v198_22 : W22 m ρ c (Proc.devRef .tc main_v198) = Spec.g_v295 (KA m c) := by
  show StableHlo.after hostOps7 (W21 m ρ c) (Proc.devRef .tc main_v198) = _
  after_results_simp
  try simp only [k_arg11_21 m ρ c]
  rfl

/-! ### Boundary 23: after region 7 -/

theorem k_arg10_23 : W23 m ρ c (Proc.devRef .tc main_arg10) = (KA m c).a10 :=
  (W23_of_ne m ρ c main_arg10 (by decide)).trans (k_arg10_22 m ρ c)
theorem k_arg11_23 : W23 m ρ c (Proc.devRef .tc main_arg11) = (KA m c).a11 :=
  (W23_of_ne m ρ c main_arg11 (by decide)).trans (k_arg11_22 m ρ c)
theorem k_arg12_23 : W23 m ρ c (Proc.devRef .tc main_arg12) = (KA m c).a12 :=
  (W23_of_ne m ρ c main_arg12 (by decide)).trans (k_arg12_22 m ρ c)
theorem k_arg13_23 : W23 m ρ c (Proc.devRef .tc main_arg13) = (KA m c).a13 :=
  (W23_of_ne m ρ c main_arg13 (by decide)).trans (k_arg13_22 m ρ c)
theorem k_arg14_23 : W23 m ρ c (Proc.devRef .tc main_arg14) = (KA m c).a14 :=
  (W23_of_ne m ρ c main_arg14 (by decide)).trans (k_arg14_22 m ρ c)
theorem k_arg15_23 : W23 m ρ c (Proc.devRef .tc main_arg15) = (KA m c).a15 :=
  (W23_of_ne m ρ c main_arg15 (by decide)).trans (k_arg15_22 m ρ c)
theorem k_arg20_23 : W23 m ρ c (Proc.devRef .tc main_arg20) = (KA m c).a20 :=
  (W23_of_ne m ρ c main_arg20 (by decide)).trans (k_arg20_22 m ρ c)
theorem k_arg22_23 : W23 m ρ c (Proc.devRef .tc main_arg22) = (KA m c).a22 :=
  (W23_of_ne m ρ c main_arg22 (by decide)).trans (k_arg22_22 m ρ c)
theorem k_arg21_23 : W23 m ρ c (Proc.devRef .tc main_arg21) = (KA m c).a21 :=
  (W23_of_ne m ρ c main_arg21 (by decide)).trans (k_arg21_22 m ρ c)
theorem k_arg23_23 : W23 m ρ c (Proc.devRef .tc main_arg23) = (KA m c).a23 :=
  (W23_of_ne m ρ c main_arg23 (by decide)).trans (k_arg23_22 m ρ c)
theorem k_arg16_23 : W23 m ρ c (Proc.devRef .tc main_arg16) = (KA m c).a16 :=
  (W23_of_ne m ρ c main_arg16 (by decide)).trans (k_arg16_22 m ρ c)
theorem k_arg17_23 : W23 m ρ c (Proc.devRef .tc main_arg17) = (KA m c).a17 :=
  (W23_of_ne m ρ c main_arg17 (by decide)).trans (k_arg17_22 m ρ c)
theorem k_arg18_23 : W23 m ρ c (Proc.devRef .tc main_arg18) = (KA m c).a18 :=
  (W23_of_ne m ρ c main_arg18 (by decide)).trans (k_arg18_22 m ρ c)
theorem k_arg19_23 : W23 m ρ c (Proc.devRef .tc main_arg19) = (KA m c).a19 :=
  (W23_of_ne m ρ c main_arg19 (by decide)).trans (k_arg19_22 m ρ c)
theorem k_v128_23 : W23 m ρ c (Proc.devRef .tc main_v128) = Spec.g_v225 (KA m c) :=
  (W23_of_ne m ρ c main_v128 (by decide)).trans (k_v128_22 m ρ c)
theorem k_v130_23 : W23 m ρ c (Proc.devRef .tc main_v130) = Spec.g_v227 (KA m c) :=
  (W23_of_ne m ρ c main_v130 (by decide)).trans (k_v130_22 m ρ c)
theorem k_v132_23 : W23 m ρ c (Proc.devRef .tc main_v132) = Spec.g_v229 (KA m c) :=
  (W23_of_ne m ρ c main_v132 (by decide)).trans (k_v132_22 m ρ c)
theorem k_v134_23 : W23 m ρ c (Proc.devRef .tc main_v134) = Spec.g_v231 (KA m c) :=
  (W23_of_ne m ρ c main_v134 (by decide)).trans (k_v134_22 m ρ c)
theorem k_v136_23 : W23 m ρ c (Proc.devRef .tc main_v136) = Spec.g_v233 (KA m c) :=
  (W23_of_ne m ρ c main_v136 (by decide)).trans (k_v136_22 m ρ c)
theorem k_v138_23 : W23 m ρ c (Proc.devRef .tc main_v138) = Spec.g_v235 (KA m c) :=
  (W23_of_ne m ρ c main_v138 (by decide)).trans (k_v138_22 m ρ c)
theorem k_v166_23 : W23 m ρ c (Proc.devRef .tc main_v166) = Spec.g_v263 (KA m c) :=
  (W23_of_ne m ρ c main_v166 (by decide)).trans (k_v166_22 m ρ c)
theorem k_v180_23 : W23 m ρ c (Proc.devRef .tc main_v180) = Spec.g_v277 (KA m c) :=
  (W23_of_ne m ρ c main_v180 (by decide)).trans (k_v180_22 m ρ c)
theorem k_v194_23 : W23 m ρ c (Proc.devRef .tc main_v194) = Spec.g_v291 (KA m c) :=
  (W23_of_ne m ρ c main_v194 (by decide)).trans (k_v194_22 m ρ c)
theorem k_v199_23 : W23 m ρ c (Proc.devRef .tc main_v199) = Spec.g_v307 (KA m c) := by
  refine (W23_arr m ρ c (3 : Fin cfg7.W)).trans ?_
  refine (RegionValue.RegionFacts.reg7 (V22 m ρ) c).trans ?_
  show Spec.linD (W22 m ρ c (Proc.devRef .tc main_v152)) (W22 m ρ c (Proc.devRef .tc main_v196)) (W22 m ρ c (Proc.devRef .tc main_v198)) = _
  rw [k_v152_22 m ρ c, k_v196_22 m ρ c, k_v198_22 m ρ c]
  rfl

/-! ### Boundary 24: after the host stretch hostOps8 -/

theorem k_arg10_24 : W24 m ρ c (Proc.devRef .tc main_arg10) = (KA m c).a10 :=
  (StableHlo.after_of_writes_sub hostOps8 (W23 m ρ c) kwrites24_sub (by decide)).trans (k_arg10_23 m ρ c)
theorem k_arg11_24 : W24 m ρ c (Proc.devRef .tc main_arg11) = (KA m c).a11 :=
  (StableHlo.after_of_writes_sub hostOps8 (W23 m ρ c) kwrites24_sub (by decide)).trans (k_arg11_23 m ρ c)
theorem k_arg12_24 : W24 m ρ c (Proc.devRef .tc main_arg12) = (KA m c).a12 :=
  (StableHlo.after_of_writes_sub hostOps8 (W23 m ρ c) kwrites24_sub (by decide)).trans (k_arg12_23 m ρ c)
theorem k_arg13_24 : W24 m ρ c (Proc.devRef .tc main_arg13) = (KA m c).a13 :=
  (StableHlo.after_of_writes_sub hostOps8 (W23 m ρ c) kwrites24_sub (by decide)).trans (k_arg13_23 m ρ c)
theorem k_arg14_24 : W24 m ρ c (Proc.devRef .tc main_arg14) = (KA m c).a14 :=
  (StableHlo.after_of_writes_sub hostOps8 (W23 m ρ c) kwrites24_sub (by decide)).trans (k_arg14_23 m ρ c)
theorem k_arg15_24 : W24 m ρ c (Proc.devRef .tc main_arg15) = (KA m c).a15 :=
  (StableHlo.after_of_writes_sub hostOps8 (W23 m ρ c) kwrites24_sub (by decide)).trans (k_arg15_23 m ρ c)
theorem k_arg20_24 : W24 m ρ c (Proc.devRef .tc main_arg20) = (KA m c).a20 :=
  (StableHlo.after_of_writes_sub hostOps8 (W23 m ρ c) kwrites24_sub (by decide)).trans (k_arg20_23 m ρ c)
theorem k_arg22_24 : W24 m ρ c (Proc.devRef .tc main_arg22) = (KA m c).a22 :=
  (StableHlo.after_of_writes_sub hostOps8 (W23 m ρ c) kwrites24_sub (by decide)).trans (k_arg22_23 m ρ c)
theorem k_arg21_24 : W24 m ρ c (Proc.devRef .tc main_arg21) = (KA m c).a21 :=
  (StableHlo.after_of_writes_sub hostOps8 (W23 m ρ c) kwrites24_sub (by decide)).trans (k_arg21_23 m ρ c)
theorem k_arg23_24 : W24 m ρ c (Proc.devRef .tc main_arg23) = (KA m c).a23 :=
  (StableHlo.after_of_writes_sub hostOps8 (W23 m ρ c) kwrites24_sub (by decide)).trans (k_arg23_23 m ρ c)
theorem k_arg16_24 : W24 m ρ c (Proc.devRef .tc main_arg16) = (KA m c).a16 :=
  (StableHlo.after_of_writes_sub hostOps8 (W23 m ρ c) kwrites24_sub (by decide)).trans (k_arg16_23 m ρ c)
theorem k_arg17_24 : W24 m ρ c (Proc.devRef .tc main_arg17) = (KA m c).a17 :=
  (StableHlo.after_of_writes_sub hostOps8 (W23 m ρ c) kwrites24_sub (by decide)).trans (k_arg17_23 m ρ c)
theorem k_arg18_24 : W24 m ρ c (Proc.devRef .tc main_arg18) = (KA m c).a18 :=
  (StableHlo.after_of_writes_sub hostOps8 (W23 m ρ c) kwrites24_sub (by decide)).trans (k_arg18_23 m ρ c)
theorem k_arg19_24 : W24 m ρ c (Proc.devRef .tc main_arg19) = (KA m c).a19 :=
  (StableHlo.after_of_writes_sub hostOps8 (W23 m ρ c) kwrites24_sub (by decide)).trans (k_arg19_23 m ρ c)
theorem k_v128_24 : W24 m ρ c (Proc.devRef .tc main_v128) = Spec.g_v225 (KA m c) :=
  (StableHlo.after_of_writes_sub hostOps8 (W23 m ρ c) kwrites24_sub (by decide)).trans (k_v128_23 m ρ c)
theorem k_v130_24 : W24 m ρ c (Proc.devRef .tc main_v130) = Spec.g_v227 (KA m c) :=
  (StableHlo.after_of_writes_sub hostOps8 (W23 m ρ c) kwrites24_sub (by decide)).trans (k_v130_23 m ρ c)
theorem k_v132_24 : W24 m ρ c (Proc.devRef .tc main_v132) = Spec.g_v229 (KA m c) :=
  (StableHlo.after_of_writes_sub hostOps8 (W23 m ρ c) kwrites24_sub (by decide)).trans (k_v132_23 m ρ c)
theorem k_v134_24 : W24 m ρ c (Proc.devRef .tc main_v134) = Spec.g_v231 (KA m c) :=
  (StableHlo.after_of_writes_sub hostOps8 (W23 m ρ c) kwrites24_sub (by decide)).trans (k_v134_23 m ρ c)
theorem k_v136_24 : W24 m ρ c (Proc.devRef .tc main_v136) = Spec.g_v233 (KA m c) :=
  (StableHlo.after_of_writes_sub hostOps8 (W23 m ρ c) kwrites24_sub (by decide)).trans (k_v136_23 m ρ c)
theorem k_v138_24 : W24 m ρ c (Proc.devRef .tc main_v138) = Spec.g_v235 (KA m c) :=
  (StableHlo.after_of_writes_sub hostOps8 (W23 m ρ c) kwrites24_sub (by decide)).trans (k_v138_23 m ρ c)
theorem k_v166_24 : W24 m ρ c (Proc.devRef .tc main_v166) = Spec.g_v263 (KA m c) :=
  (StableHlo.after_of_writes_sub hostOps8 (W23 m ρ c) kwrites24_sub (by decide)).trans (k_v166_23 m ρ c)
theorem k_v180_24 : W24 m ρ c (Proc.devRef .tc main_v180) = Spec.g_v277 (KA m c) :=
  (StableHlo.after_of_writes_sub hostOps8 (W23 m ρ c) kwrites24_sub (by decide)).trans (k_v180_23 m ρ c)
theorem k_v194_24 : W24 m ρ c (Proc.devRef .tc main_v194) = Spec.g_v291 (KA m c) :=
  (StableHlo.after_of_writes_sub hostOps8 (W23 m ρ c) kwrites24_sub (by decide)).trans (k_v194_23 m ρ c)
theorem k_v199_24 : W24 m ρ c (Proc.devRef .tc main_v199) = Spec.g_v307 (KA m c) :=
  (StableHlo.after_of_writes_sub hostOps8 (W23 m ρ c) kwrites24_sub (by decide)).trans (k_v199_23 m ρ c)
theorem k_v201_24 : W24 m ρ c (Proc.devRef .tc main_v201) = Spec.g_v333 (KA m c) := by
  show StableHlo.after hostOps8 (W23 m ρ c) (Proc.devRef .tc main_v201) = _
  after_results_simp
  try simp only [k_v128_23 m ρ c]
  rfl
theorem k_v203_24 : W24 m ρ c (Proc.devRef .tc main_v203) = Spec.g_v335 (KA m c) := by
  show StableHlo.after hostOps8 (W23 m ρ c) (Proc.devRef .tc main_v203) = _
  after_results_simp
  try simp only [k_v130_23 m ρ c]
  rfl

/-! ### Boundary 25: after region 8 -/

theorem k_arg10_25 : W25 m ρ c (Proc.devRef .tc main_arg10) = (KA m c).a10 :=
  (W25_of_ne m ρ c main_arg10 (by decide)).trans (k_arg10_24 m ρ c)
theorem k_arg11_25 : W25 m ρ c (Proc.devRef .tc main_arg11) = (KA m c).a11 :=
  (W25_of_ne m ρ c main_arg11 (by decide)).trans (k_arg11_24 m ρ c)
theorem k_arg12_25 : W25 m ρ c (Proc.devRef .tc main_arg12) = (KA m c).a12 :=
  (W25_of_ne m ρ c main_arg12 (by decide)).trans (k_arg12_24 m ρ c)
theorem k_arg13_25 : W25 m ρ c (Proc.devRef .tc main_arg13) = (KA m c).a13 :=
  (W25_of_ne m ρ c main_arg13 (by decide)).trans (k_arg13_24 m ρ c)
theorem k_arg14_25 : W25 m ρ c (Proc.devRef .tc main_arg14) = (KA m c).a14 :=
  (W25_of_ne m ρ c main_arg14 (by decide)).trans (k_arg14_24 m ρ c)
theorem k_arg15_25 : W25 m ρ c (Proc.devRef .tc main_arg15) = (KA m c).a15 :=
  (W25_of_ne m ρ c main_arg15 (by decide)).trans (k_arg15_24 m ρ c)
theorem k_arg20_25 : W25 m ρ c (Proc.devRef .tc main_arg20) = (KA m c).a20 :=
  (W25_of_ne m ρ c main_arg20 (by decide)).trans (k_arg20_24 m ρ c)
theorem k_arg22_25 : W25 m ρ c (Proc.devRef .tc main_arg22) = (KA m c).a22 :=
  (W25_of_ne m ρ c main_arg22 (by decide)).trans (k_arg22_24 m ρ c)
theorem k_arg21_25 : W25 m ρ c (Proc.devRef .tc main_arg21) = (KA m c).a21 :=
  (W25_of_ne m ρ c main_arg21 (by decide)).trans (k_arg21_24 m ρ c)
theorem k_arg23_25 : W25 m ρ c (Proc.devRef .tc main_arg23) = (KA m c).a23 :=
  (W25_of_ne m ρ c main_arg23 (by decide)).trans (k_arg23_24 m ρ c)
theorem k_arg16_25 : W25 m ρ c (Proc.devRef .tc main_arg16) = (KA m c).a16 :=
  (W25_of_ne m ρ c main_arg16 (by decide)).trans (k_arg16_24 m ρ c)
theorem k_arg17_25 : W25 m ρ c (Proc.devRef .tc main_arg17) = (KA m c).a17 :=
  (W25_of_ne m ρ c main_arg17 (by decide)).trans (k_arg17_24 m ρ c)
theorem k_arg18_25 : W25 m ρ c (Proc.devRef .tc main_arg18) = (KA m c).a18 :=
  (W25_of_ne m ρ c main_arg18 (by decide)).trans (k_arg18_24 m ρ c)
theorem k_arg19_25 : W25 m ρ c (Proc.devRef .tc main_arg19) = (KA m c).a19 :=
  (W25_of_ne m ρ c main_arg19 (by decide)).trans (k_arg19_24 m ρ c)
theorem k_v128_25 : W25 m ρ c (Proc.devRef .tc main_v128) = Spec.g_v225 (KA m c) :=
  (W25_of_ne m ρ c main_v128 (by decide)).trans (k_v128_24 m ρ c)
theorem k_v130_25 : W25 m ρ c (Proc.devRef .tc main_v130) = Spec.g_v227 (KA m c) :=
  (W25_of_ne m ρ c main_v130 (by decide)).trans (k_v130_24 m ρ c)
theorem k_v132_25 : W25 m ρ c (Proc.devRef .tc main_v132) = Spec.g_v229 (KA m c) :=
  (W25_of_ne m ρ c main_v132 (by decide)).trans (k_v132_24 m ρ c)
theorem k_v134_25 : W25 m ρ c (Proc.devRef .tc main_v134) = Spec.g_v231 (KA m c) :=
  (W25_of_ne m ρ c main_v134 (by decide)).trans (k_v134_24 m ρ c)
theorem k_v136_25 : W25 m ρ c (Proc.devRef .tc main_v136) = Spec.g_v233 (KA m c) :=
  (W25_of_ne m ρ c main_v136 (by decide)).trans (k_v136_24 m ρ c)
theorem k_v138_25 : W25 m ρ c (Proc.devRef .tc main_v138) = Spec.g_v235 (KA m c) :=
  (W25_of_ne m ρ c main_v138 (by decide)).trans (k_v138_24 m ρ c)
theorem k_v180_25 : W25 m ρ c (Proc.devRef .tc main_v180) = Spec.g_v277 (KA m c) :=
  (W25_of_ne m ρ c main_v180 (by decide)).trans (k_v180_24 m ρ c)
theorem k_v194_25 : W25 m ρ c (Proc.devRef .tc main_v194) = Spec.g_v291 (KA m c) :=
  (W25_of_ne m ρ c main_v194 (by decide)).trans (k_v194_24 m ρ c)
theorem k_v199_25 : W25 m ρ c (Proc.devRef .tc main_v199) = Spec.g_v307 (KA m c) :=
  (W25_of_ne m ρ c main_v199 (by decide)).trans (k_v199_24 m ρ c)
theorem k_v204_25 : W25 m ρ c (Proc.devRef .tc main_v204) = Spec.g_v347 (KA m c) := by
  refine (W25_arr m ρ c (3 : Fin cfg8.W)).trans ?_
  refine (RegionValue.RegionFacts.reg8 (V24 m ρ) c).trans ?_
  show Spec.linD (W24 m ρ c (Proc.devRef .tc main_v166)) (W24 m ρ c (Proc.devRef .tc main_v201)) (W24 m ρ c (Proc.devRef .tc main_v203)) = _
  rw [k_v166_24 m ρ c, k_v201_24 m ρ c, k_v203_24 m ρ c]
  rfl

/-! ### Boundary 26: after the host stretch hostOps9 -/

theorem k_arg10_26 : W26 m ρ c (Proc.devRef .tc main_arg10) = (KA m c).a10 :=
  (StableHlo.after_of_writes_sub hostOps9 (W25 m ρ c) kwrites26_sub (by decide)).trans (k_arg10_25 m ρ c)
theorem k_arg11_26 : W26 m ρ c (Proc.devRef .tc main_arg11) = (KA m c).a11 :=
  (StableHlo.after_of_writes_sub hostOps9 (W25 m ρ c) kwrites26_sub (by decide)).trans (k_arg11_25 m ρ c)
theorem k_arg12_26 : W26 m ρ c (Proc.devRef .tc main_arg12) = (KA m c).a12 :=
  (StableHlo.after_of_writes_sub hostOps9 (W25 m ρ c) kwrites26_sub (by decide)).trans (k_arg12_25 m ρ c)
theorem k_arg13_26 : W26 m ρ c (Proc.devRef .tc main_arg13) = (KA m c).a13 :=
  (StableHlo.after_of_writes_sub hostOps9 (W25 m ρ c) kwrites26_sub (by decide)).trans (k_arg13_25 m ρ c)
theorem k_arg14_26 : W26 m ρ c (Proc.devRef .tc main_arg14) = (KA m c).a14 :=
  (StableHlo.after_of_writes_sub hostOps9 (W25 m ρ c) kwrites26_sub (by decide)).trans (k_arg14_25 m ρ c)
theorem k_arg15_26 : W26 m ρ c (Proc.devRef .tc main_arg15) = (KA m c).a15 :=
  (StableHlo.after_of_writes_sub hostOps9 (W25 m ρ c) kwrites26_sub (by decide)).trans (k_arg15_25 m ρ c)
theorem k_arg20_26 : W26 m ρ c (Proc.devRef .tc main_arg20) = (KA m c).a20 :=
  (StableHlo.after_of_writes_sub hostOps9 (W25 m ρ c) kwrites26_sub (by decide)).trans (k_arg20_25 m ρ c)
theorem k_arg22_26 : W26 m ρ c (Proc.devRef .tc main_arg22) = (KA m c).a22 :=
  (StableHlo.after_of_writes_sub hostOps9 (W25 m ρ c) kwrites26_sub (by decide)).trans (k_arg22_25 m ρ c)
theorem k_arg21_26 : W26 m ρ c (Proc.devRef .tc main_arg21) = (KA m c).a21 :=
  (StableHlo.after_of_writes_sub hostOps9 (W25 m ρ c) kwrites26_sub (by decide)).trans (k_arg21_25 m ρ c)
theorem k_arg23_26 : W26 m ρ c (Proc.devRef .tc main_arg23) = (KA m c).a23 :=
  (StableHlo.after_of_writes_sub hostOps9 (W25 m ρ c) kwrites26_sub (by decide)).trans (k_arg23_25 m ρ c)
theorem k_arg16_26 : W26 m ρ c (Proc.devRef .tc main_arg16) = (KA m c).a16 :=
  (StableHlo.after_of_writes_sub hostOps9 (W25 m ρ c) kwrites26_sub (by decide)).trans (k_arg16_25 m ρ c)
theorem k_arg17_26 : W26 m ρ c (Proc.devRef .tc main_arg17) = (KA m c).a17 :=
  (StableHlo.after_of_writes_sub hostOps9 (W25 m ρ c) kwrites26_sub (by decide)).trans (k_arg17_25 m ρ c)
theorem k_arg18_26 : W26 m ρ c (Proc.devRef .tc main_arg18) = (KA m c).a18 :=
  (StableHlo.after_of_writes_sub hostOps9 (W25 m ρ c) kwrites26_sub (by decide)).trans (k_arg18_25 m ρ c)
theorem k_arg19_26 : W26 m ρ c (Proc.devRef .tc main_arg19) = (KA m c).a19 :=
  (StableHlo.after_of_writes_sub hostOps9 (W25 m ρ c) kwrites26_sub (by decide)).trans (k_arg19_25 m ρ c)
theorem k_v128_26 : W26 m ρ c (Proc.devRef .tc main_v128) = Spec.g_v225 (KA m c) :=
  (StableHlo.after_of_writes_sub hostOps9 (W25 m ρ c) kwrites26_sub (by decide)).trans (k_v128_25 m ρ c)
theorem k_v130_26 : W26 m ρ c (Proc.devRef .tc main_v130) = Spec.g_v227 (KA m c) :=
  (StableHlo.after_of_writes_sub hostOps9 (W25 m ρ c) kwrites26_sub (by decide)).trans (k_v130_25 m ρ c)
theorem k_v132_26 : W26 m ρ c (Proc.devRef .tc main_v132) = Spec.g_v229 (KA m c) :=
  (StableHlo.after_of_writes_sub hostOps9 (W25 m ρ c) kwrites26_sub (by decide)).trans (k_v132_25 m ρ c)
theorem k_v134_26 : W26 m ρ c (Proc.devRef .tc main_v134) = Spec.g_v231 (KA m c) :=
  (StableHlo.after_of_writes_sub hostOps9 (W25 m ρ c) kwrites26_sub (by decide)).trans (k_v134_25 m ρ c)
theorem k_v136_26 : W26 m ρ c (Proc.devRef .tc main_v136) = Spec.g_v233 (KA m c) :=
  (StableHlo.after_of_writes_sub hostOps9 (W25 m ρ c) kwrites26_sub (by decide)).trans (k_v136_25 m ρ c)
theorem k_v138_26 : W26 m ρ c (Proc.devRef .tc main_v138) = Spec.g_v235 (KA m c) :=
  (StableHlo.after_of_writes_sub hostOps9 (W25 m ρ c) kwrites26_sub (by decide)).trans (k_v138_25 m ρ c)
theorem k_v180_26 : W26 m ρ c (Proc.devRef .tc main_v180) = Spec.g_v277 (KA m c) :=
  (StableHlo.after_of_writes_sub hostOps9 (W25 m ρ c) kwrites26_sub (by decide)).trans (k_v180_25 m ρ c)
theorem k_v194_26 : W26 m ρ c (Proc.devRef .tc main_v194) = Spec.g_v291 (KA m c) :=
  (StableHlo.after_of_writes_sub hostOps9 (W25 m ρ c) kwrites26_sub (by decide)).trans (k_v194_25 m ρ c)
theorem k_v199_26 : W26 m ρ c (Proc.devRef .tc main_v199) = Spec.g_v307 (KA m c) :=
  (StableHlo.after_of_writes_sub hostOps9 (W25 m ρ c) kwrites26_sub (by decide)).trans (k_v199_25 m ρ c)
theorem k_v204_26 : W26 m ρ c (Proc.devRef .tc main_v204) = Spec.g_v347 (KA m c) :=
  (StableHlo.after_of_writes_sub hostOps9 (W25 m ρ c) kwrites26_sub (by decide)).trans (k_v204_25 m ρ c)
theorem k_v206_26 : W26 m ρ c (Proc.devRef .tc main_v206) = Spec.g_v375 (KA m c) := by
  show StableHlo.after hostOps9 (W25 m ρ c) (Proc.devRef .tc main_v206) = _
  after_results_simp
  try simp only [k_v128_25 m ρ c]
  rfl
theorem k_v208_26 : W26 m ρ c (Proc.devRef .tc main_v208) = Spec.g_v377 (KA m c) := by
  show StableHlo.after hostOps9 (W25 m ρ c) (Proc.devRef .tc main_v208) = _
  after_results_simp
  try simp only [k_v130_25 m ρ c]
  rfl

/-! ### Boundary 27: after region 9 -/

theorem k_arg10_27 : W27 m ρ c (Proc.devRef .tc main_arg10) = (KA m c).a10 :=
  (W27_of_ne m ρ c main_arg10 (by decide)).trans (k_arg10_26 m ρ c)
theorem k_arg11_27 : W27 m ρ c (Proc.devRef .tc main_arg11) = (KA m c).a11 :=
  (W27_of_ne m ρ c main_arg11 (by decide)).trans (k_arg11_26 m ρ c)
theorem k_arg12_27 : W27 m ρ c (Proc.devRef .tc main_arg12) = (KA m c).a12 :=
  (W27_of_ne m ρ c main_arg12 (by decide)).trans (k_arg12_26 m ρ c)
theorem k_arg13_27 : W27 m ρ c (Proc.devRef .tc main_arg13) = (KA m c).a13 :=
  (W27_of_ne m ρ c main_arg13 (by decide)).trans (k_arg13_26 m ρ c)
theorem k_arg14_27 : W27 m ρ c (Proc.devRef .tc main_arg14) = (KA m c).a14 :=
  (W27_of_ne m ρ c main_arg14 (by decide)).trans (k_arg14_26 m ρ c)
theorem k_arg15_27 : W27 m ρ c (Proc.devRef .tc main_arg15) = (KA m c).a15 :=
  (W27_of_ne m ρ c main_arg15 (by decide)).trans (k_arg15_26 m ρ c)
theorem k_arg20_27 : W27 m ρ c (Proc.devRef .tc main_arg20) = (KA m c).a20 :=
  (W27_of_ne m ρ c main_arg20 (by decide)).trans (k_arg20_26 m ρ c)
theorem k_arg22_27 : W27 m ρ c (Proc.devRef .tc main_arg22) = (KA m c).a22 :=
  (W27_of_ne m ρ c main_arg22 (by decide)).trans (k_arg22_26 m ρ c)
theorem k_arg21_27 : W27 m ρ c (Proc.devRef .tc main_arg21) = (KA m c).a21 :=
  (W27_of_ne m ρ c main_arg21 (by decide)).trans (k_arg21_26 m ρ c)
theorem k_arg23_27 : W27 m ρ c (Proc.devRef .tc main_arg23) = (KA m c).a23 :=
  (W27_of_ne m ρ c main_arg23 (by decide)).trans (k_arg23_26 m ρ c)
theorem k_arg16_27 : W27 m ρ c (Proc.devRef .tc main_arg16) = (KA m c).a16 :=
  (W27_of_ne m ρ c main_arg16 (by decide)).trans (k_arg16_26 m ρ c)
theorem k_arg17_27 : W27 m ρ c (Proc.devRef .tc main_arg17) = (KA m c).a17 :=
  (W27_of_ne m ρ c main_arg17 (by decide)).trans (k_arg17_26 m ρ c)
theorem k_arg18_27 : W27 m ρ c (Proc.devRef .tc main_arg18) = (KA m c).a18 :=
  (W27_of_ne m ρ c main_arg18 (by decide)).trans (k_arg18_26 m ρ c)
theorem k_arg19_27 : W27 m ρ c (Proc.devRef .tc main_arg19) = (KA m c).a19 :=
  (W27_of_ne m ρ c main_arg19 (by decide)).trans (k_arg19_26 m ρ c)
theorem k_v128_27 : W27 m ρ c (Proc.devRef .tc main_v128) = Spec.g_v225 (KA m c) :=
  (W27_of_ne m ρ c main_v128 (by decide)).trans (k_v128_26 m ρ c)
theorem k_v130_27 : W27 m ρ c (Proc.devRef .tc main_v130) = Spec.g_v227 (KA m c) :=
  (W27_of_ne m ρ c main_v130 (by decide)).trans (k_v130_26 m ρ c)
theorem k_v132_27 : W27 m ρ c (Proc.devRef .tc main_v132) = Spec.g_v229 (KA m c) :=
  (W27_of_ne m ρ c main_v132 (by decide)).trans (k_v132_26 m ρ c)
theorem k_v134_27 : W27 m ρ c (Proc.devRef .tc main_v134) = Spec.g_v231 (KA m c) :=
  (W27_of_ne m ρ c main_v134 (by decide)).trans (k_v134_26 m ρ c)
theorem k_v136_27 : W27 m ρ c (Proc.devRef .tc main_v136) = Spec.g_v233 (KA m c) :=
  (W27_of_ne m ρ c main_v136 (by decide)).trans (k_v136_26 m ρ c)
theorem k_v138_27 : W27 m ρ c (Proc.devRef .tc main_v138) = Spec.g_v235 (KA m c) :=
  (W27_of_ne m ρ c main_v138 (by decide)).trans (k_v138_26 m ρ c)
theorem k_v194_27 : W27 m ρ c (Proc.devRef .tc main_v194) = Spec.g_v291 (KA m c) :=
  (W27_of_ne m ρ c main_v194 (by decide)).trans (k_v194_26 m ρ c)
theorem k_v199_27 : W27 m ρ c (Proc.devRef .tc main_v199) = Spec.g_v307 (KA m c) :=
  (W27_of_ne m ρ c main_v199 (by decide)).trans (k_v199_26 m ρ c)
theorem k_v204_27 : W27 m ρ c (Proc.devRef .tc main_v204) = Spec.g_v347 (KA m c) :=
  (W27_of_ne m ρ c main_v204 (by decide)).trans (k_v204_26 m ρ c)
theorem k_v209_27 : W27 m ρ c (Proc.devRef .tc main_v209) = Spec.g_v389 (KA m c) := by
  refine (W27_arr m ρ c (3 : Fin cfg9.W)).trans ?_
  refine (RegionValue.RegionFacts.reg9 (V26 m ρ) c).trans ?_
  show Spec.linE (W26 m ρ c (Proc.devRef .tc main_v180)) (W26 m ρ c (Proc.devRef .tc main_v206)) (W26 m ρ c (Proc.devRef .tc main_v208)) = _
  rw [k_v180_26 m ρ c, k_v206_26 m ρ c, k_v208_26 m ρ c]
  rfl

/-! ### Boundary 28: after the host stretch hostOps10 -/

theorem k_arg10_28 : W28 m ρ c (Proc.devRef .tc main_arg10) = (KA m c).a10 :=
  (StableHlo.after_of_writes_sub hostOps10 (W27 m ρ c) kwrites28_sub (by decide)).trans (k_arg10_27 m ρ c)
theorem k_arg11_28 : W28 m ρ c (Proc.devRef .tc main_arg11) = (KA m c).a11 :=
  (StableHlo.after_of_writes_sub hostOps10 (W27 m ρ c) kwrites28_sub (by decide)).trans (k_arg11_27 m ρ c)
theorem k_arg12_28 : W28 m ρ c (Proc.devRef .tc main_arg12) = (KA m c).a12 :=
  (StableHlo.after_of_writes_sub hostOps10 (W27 m ρ c) kwrites28_sub (by decide)).trans (k_arg12_27 m ρ c)
theorem k_arg13_28 : W28 m ρ c (Proc.devRef .tc main_arg13) = (KA m c).a13 :=
  (StableHlo.after_of_writes_sub hostOps10 (W27 m ρ c) kwrites28_sub (by decide)).trans (k_arg13_27 m ρ c)
theorem k_arg14_28 : W28 m ρ c (Proc.devRef .tc main_arg14) = (KA m c).a14 :=
  (StableHlo.after_of_writes_sub hostOps10 (W27 m ρ c) kwrites28_sub (by decide)).trans (k_arg14_27 m ρ c)
theorem k_arg15_28 : W28 m ρ c (Proc.devRef .tc main_arg15) = (KA m c).a15 :=
  (StableHlo.after_of_writes_sub hostOps10 (W27 m ρ c) kwrites28_sub (by decide)).trans (k_arg15_27 m ρ c)
theorem k_arg20_28 : W28 m ρ c (Proc.devRef .tc main_arg20) = (KA m c).a20 :=
  (StableHlo.after_of_writes_sub hostOps10 (W27 m ρ c) kwrites28_sub (by decide)).trans (k_arg20_27 m ρ c)
theorem k_arg22_28 : W28 m ρ c (Proc.devRef .tc main_arg22) = (KA m c).a22 :=
  (StableHlo.after_of_writes_sub hostOps10 (W27 m ρ c) kwrites28_sub (by decide)).trans (k_arg22_27 m ρ c)
theorem k_arg21_28 : W28 m ρ c (Proc.devRef .tc main_arg21) = (KA m c).a21 :=
  (StableHlo.after_of_writes_sub hostOps10 (W27 m ρ c) kwrites28_sub (by decide)).trans (k_arg21_27 m ρ c)
theorem k_arg23_28 : W28 m ρ c (Proc.devRef .tc main_arg23) = (KA m c).a23 :=
  (StableHlo.after_of_writes_sub hostOps10 (W27 m ρ c) kwrites28_sub (by decide)).trans (k_arg23_27 m ρ c)
theorem k_arg16_28 : W28 m ρ c (Proc.devRef .tc main_arg16) = (KA m c).a16 :=
  (StableHlo.after_of_writes_sub hostOps10 (W27 m ρ c) kwrites28_sub (by decide)).trans (k_arg16_27 m ρ c)
theorem k_arg17_28 : W28 m ρ c (Proc.devRef .tc main_arg17) = (KA m c).a17 :=
  (StableHlo.after_of_writes_sub hostOps10 (W27 m ρ c) kwrites28_sub (by decide)).trans (k_arg17_27 m ρ c)
theorem k_arg18_28 : W28 m ρ c (Proc.devRef .tc main_arg18) = (KA m c).a18 :=
  (StableHlo.after_of_writes_sub hostOps10 (W27 m ρ c) kwrites28_sub (by decide)).trans (k_arg18_27 m ρ c)
theorem k_arg19_28 : W28 m ρ c (Proc.devRef .tc main_arg19) = (KA m c).a19 :=
  (StableHlo.after_of_writes_sub hostOps10 (W27 m ρ c) kwrites28_sub (by decide)).trans (k_arg19_27 m ρ c)
theorem k_v132_28 : W28 m ρ c (Proc.devRef .tc main_v132) = Spec.g_v229 (KA m c) :=
  (StableHlo.after_of_writes_sub hostOps10 (W27 m ρ c) kwrites28_sub (by decide)).trans (k_v132_27 m ρ c)
theorem k_v134_28 : W28 m ρ c (Proc.devRef .tc main_v134) = Spec.g_v231 (KA m c) :=
  (StableHlo.after_of_writes_sub hostOps10 (W27 m ρ c) kwrites28_sub (by decide)).trans (k_v134_27 m ρ c)
theorem k_v136_28 : W28 m ρ c (Proc.devRef .tc main_v136) = Spec.g_v233 (KA m c) :=
  (StableHlo.after_of_writes_sub hostOps10 (W27 m ρ c) kwrites28_sub (by decide)).trans (k_v136_27 m ρ c)
theorem k_v138_28 : W28 m ρ c (Proc.devRef .tc main_v138) = Spec.g_v235 (KA m c) :=
  (StableHlo.after_of_writes_sub hostOps10 (W27 m ρ c) kwrites28_sub (by decide)).trans (k_v138_27 m ρ c)
theorem k_v194_28 : W28 m ρ c (Proc.devRef .tc main_v194) = Spec.g_v291 (KA m c) :=
  (StableHlo.after_of_writes_sub hostOps10 (W27 m ρ c) kwrites28_sub (by decide)).trans (k_v194_27 m ρ c)
theorem k_v199_28 : W28 m ρ c (Proc.devRef .tc main_v199) = Spec.g_v307 (KA m c) :=
  (StableHlo.after_of_writes_sub hostOps10 (W27 m ρ c) kwrites28_sub (by decide)).trans (k_v199_27 m ρ c)
theorem k_v204_28 : W28 m ρ c (Proc.devRef .tc main_v204) = Spec.g_v347 (KA m c) :=
  (StableHlo.after_of_writes_sub hostOps10 (W27 m ρ c) kwrites28_sub (by decide)).trans (k_v204_27 m ρ c)
theorem k_v209_28 : W28 m ρ c (Proc.devRef .tc main_v209) = Spec.g_v389 (KA m c) :=
  (StableHlo.after_of_writes_sub hostOps10 (W27 m ρ c) kwrites28_sub (by decide)).trans (k_v209_27 m ρ c)
theorem k_v211_28 : W28 m ρ c (Proc.devRef .tc main_v211) = Spec.g_v415 (KA m c) := by
  show StableHlo.after hostOps10 (W27 m ρ c) (Proc.devRef .tc main_v211) = _
  after_results_simp
  try simp only [k_v128_27 m ρ c]
  rfl
theorem k_v213_28 : W28 m ρ c (Proc.devRef .tc main_v213) = Spec.g_v417 (KA m c) := by
  show StableHlo.after hostOps10 (W27 m ρ c) (Proc.devRef .tc main_v213) = _
  after_results_simp
  try simp only [k_v130_27 m ρ c]
  rfl

/-! ### Boundary 29: after region 10 -/

theorem k_arg10_29 : W29 m ρ c (Proc.devRef .tc main_arg10) = (KA m c).a10 :=
  (W29_of_ne m ρ c main_arg10 (by decide)).trans (k_arg10_28 m ρ c)
theorem k_arg11_29 : W29 m ρ c (Proc.devRef .tc main_arg11) = (KA m c).a11 :=
  (W29_of_ne m ρ c main_arg11 (by decide)).trans (k_arg11_28 m ρ c)
theorem k_arg12_29 : W29 m ρ c (Proc.devRef .tc main_arg12) = (KA m c).a12 :=
  (W29_of_ne m ρ c main_arg12 (by decide)).trans (k_arg12_28 m ρ c)
theorem k_arg13_29 : W29 m ρ c (Proc.devRef .tc main_arg13) = (KA m c).a13 :=
  (W29_of_ne m ρ c main_arg13 (by decide)).trans (k_arg13_28 m ρ c)
theorem k_arg14_29 : W29 m ρ c (Proc.devRef .tc main_arg14) = (KA m c).a14 :=
  (W29_of_ne m ρ c main_arg14 (by decide)).trans (k_arg14_28 m ρ c)
theorem k_arg15_29 : W29 m ρ c (Proc.devRef .tc main_arg15) = (KA m c).a15 :=
  (W29_of_ne m ρ c main_arg15 (by decide)).trans (k_arg15_28 m ρ c)
theorem k_arg20_29 : W29 m ρ c (Proc.devRef .tc main_arg20) = (KA m c).a20 :=
  (W29_of_ne m ρ c main_arg20 (by decide)).trans (k_arg20_28 m ρ c)
theorem k_arg22_29 : W29 m ρ c (Proc.devRef .tc main_arg22) = (KA m c).a22 :=
  (W29_of_ne m ρ c main_arg22 (by decide)).trans (k_arg22_28 m ρ c)
theorem k_arg21_29 : W29 m ρ c (Proc.devRef .tc main_arg21) = (KA m c).a21 :=
  (W29_of_ne m ρ c main_arg21 (by decide)).trans (k_arg21_28 m ρ c)
theorem k_arg23_29 : W29 m ρ c (Proc.devRef .tc main_arg23) = (KA m c).a23 :=
  (W29_of_ne m ρ c main_arg23 (by decide)).trans (k_arg23_28 m ρ c)
theorem k_arg16_29 : W29 m ρ c (Proc.devRef .tc main_arg16) = (KA m c).a16 :=
  (W29_of_ne m ρ c main_arg16 (by decide)).trans (k_arg16_28 m ρ c)
theorem k_arg17_29 : W29 m ρ c (Proc.devRef .tc main_arg17) = (KA m c).a17 :=
  (W29_of_ne m ρ c main_arg17 (by decide)).trans (k_arg17_28 m ρ c)
theorem k_arg18_29 : W29 m ρ c (Proc.devRef .tc main_arg18) = (KA m c).a18 :=
  (W29_of_ne m ρ c main_arg18 (by decide)).trans (k_arg18_28 m ρ c)
theorem k_arg19_29 : W29 m ρ c (Proc.devRef .tc main_arg19) = (KA m c).a19 :=
  (W29_of_ne m ρ c main_arg19 (by decide)).trans (k_arg19_28 m ρ c)
theorem k_v132_29 : W29 m ρ c (Proc.devRef .tc main_v132) = Spec.g_v229 (KA m c) :=
  (W29_of_ne m ρ c main_v132 (by decide)).trans (k_v132_28 m ρ c)
theorem k_v134_29 : W29 m ρ c (Proc.devRef .tc main_v134) = Spec.g_v231 (KA m c) :=
  (W29_of_ne m ρ c main_v134 (by decide)).trans (k_v134_28 m ρ c)
theorem k_v136_29 : W29 m ρ c (Proc.devRef .tc main_v136) = Spec.g_v233 (KA m c) :=
  (W29_of_ne m ρ c main_v136 (by decide)).trans (k_v136_28 m ρ c)
theorem k_v138_29 : W29 m ρ c (Proc.devRef .tc main_v138) = Spec.g_v235 (KA m c) :=
  (W29_of_ne m ρ c main_v138 (by decide)).trans (k_v138_28 m ρ c)
theorem k_v199_29 : W29 m ρ c (Proc.devRef .tc main_v199) = Spec.g_v307 (KA m c) :=
  (W29_of_ne m ρ c main_v199 (by decide)).trans (k_v199_28 m ρ c)
theorem k_v204_29 : W29 m ρ c (Proc.devRef .tc main_v204) = Spec.g_v347 (KA m c) :=
  (W29_of_ne m ρ c main_v204 (by decide)).trans (k_v204_28 m ρ c)
theorem k_v209_29 : W29 m ρ c (Proc.devRef .tc main_v209) = Spec.g_v389 (KA m c) :=
  (W29_of_ne m ρ c main_v209 (by decide)).trans (k_v209_28 m ρ c)
theorem k_v214_29 : W29 m ρ c (Proc.devRef .tc main_v214) = Spec.g_v429 (KA m c) := by
  refine (W29_arr m ρ c (3 : Fin cfg10.W)).trans ?_
  refine (RegionValue.RegionFacts.reg10 (V28 m ρ) c).trans ?_
  show Spec.linE (W28 m ρ c (Proc.devRef .tc main_v194)) (W28 m ρ c (Proc.devRef .tc main_v211)) (W28 m ρ c (Proc.devRef .tc main_v213)) = _
  rw [k_v194_28 m ρ c, k_v211_28 m ρ c, k_v213_28 m ρ c]
  rfl

end Cert.KernelIdeal.Thread

end
-- ==== Proof.KThread3.lean ====
import proofs.«116822_j38594576122568_1_alg».proof.Proof.Gen.KernelIdeal.Frame
import proofs.«116822_j38594576122568_1_alg».proof.Proof.KWrites
import proofs.«116822_j38594576122568_1_alg».proof.Proof.KPlain
import proofs.«116822_j38594576122568_1_alg».proof.Proof.SpecValues
import proofs.«116822_j38594576122568_1_alg».proof.Proof.RegionStatements
import proofs.«116822_j38594576122568_1_alg».proof.Proof.KThread2
import Idealize.ShloMosaic.Lib.StableHlo.Run

/-! The kernel program's run read boundary by boundary (boundaries 30 to 41 of the generated frame's valuations): what each
    buffer read again later holds there, as the shared value of the reference's run. A stretch of host operations is read
    through; a region's output array is the region's layer function of its input arrays; everything else is carried. -/

set_option maxRecDepth 16384

noncomputable section

namespace Cert.KernelIdeal.Thread

open Cert.KernelIdeal Cert.KernelIdeal.Gen Idealize.ShloMosaic Idealize.ShloMosaic.TcCoe Idealize.SL.Sem Idealize.ShloMosaic.StableHlo

variable [RegionValue.RegionFacts] (m : (ℓ : Loc nD τ sig) → Buf (Elt Ideal) ℓ) (ρ : Dev nD → PrngReg) (c : Dev nD)

/-! ### Boundary 30: after the host stretch hostOps11 -/

theorem k_arg10_30 : W30 m ρ c (Proc.devRef .tc main_arg10) = (KA m c).a10 :=
  (StableHlo.after_of_writes_sub hostOps11 (W29 m ρ c) kwrites30_sub (by decide)).trans (k_arg10_29 m ρ c)
theorem k_arg11_30 : W30 m ρ c (Proc.devRef .tc main_arg11) = (KA m c).a11 :=
  (StableHlo.after_of_writes_sub hostOps11 (W29 m ρ c) kwrites30_sub (by decide)).trans (k_arg11_29 m ρ c)
theorem k_arg12_30 : W30 m ρ c (Proc.devRef .tc main_arg12) = (KA m c).a12 :=
  (StableHlo.after_of_writes_sub hostOps11 (W29 m ρ c) kwrites30_sub (by decide)).trans (k_arg12_29 m ρ c)
theorem k_arg13_30 : W30 m ρ c (Proc.devRef .tc main_arg13) = (KA m c).a13 :=
  (StableHlo.after_of_writes_sub hostOps11 (W29 m ρ c) kwrites30_sub (by decide)).trans (k_arg13_29 m ρ c)
theorem k_arg14_30 : W30 m ρ c (Proc.devRef .tc main_arg14) = (KA m c).a14 :=
  (StableHlo.after_of_writes_sub hostOps11 (W29 m ρ c) kwrites30_sub (by decide)).trans (k_arg14_29 m ρ c)
theorem k_arg15_30 : W30 m ρ c (Proc.devRef .tc main_arg15) = (KA m c).a15 :=
  (StableHlo.after_of_writes_sub hostOps11 (W29 m ρ c) kwrites30_sub (by decide)).trans (k_arg15_29 m ρ c)
theorem k_arg20_30 : W30 m ρ c (Proc.devRef .tc main_arg20) = (KA m c).a20 :=
  (StableHlo.after_of_writes_sub hostOps11 (W29 m ρ c) kwrites30_sub (by decide)).trans (k_arg20_29 m ρ c)
theorem k_arg22_30 : W30 m ρ c (Proc.devRef .tc main_arg22) = (KA m c).a22 :=
  (StableHlo.after_of_writes_sub hostOps11 (W29 m ρ c) kwrites30_sub (by decide)).trans (k_arg22_29 m ρ c)
theorem k_arg21_30 : W30 m ρ c (Proc.devRef .tc main_arg21) = (KA m c).a21 :=
  (StableHlo.after_of_writes_sub hostOps11 (W29 m ρ c) kwrites30_sub (by decide)).trans (k_arg21_29 m ρ c)
theorem k_arg23_30 : W30 m ρ c (Proc.devRef .tc main_arg23) = (KA m c).a23 :=
  (StableHlo.after_of_writes_sub hostOps11 (W29 m ρ c) kwrites30_sub (by decide)).trans (k_arg23_29 m ρ c)
theorem k_arg16_30 : W30 m ρ c (Proc.devRef .tc main_arg16) = (KA m c).a16 :=
  (StableHlo.after_of_writes_sub hostOps11 (W29 m ρ c) kwrites30_sub (by decide)).trans (k_arg16_29 m ρ c)
theorem k_arg17_30 : W30 m ρ c (Proc.devRef .tc main_arg17) = (KA m c).a17 :=
  (StableHlo.after_of_writes_sub hostOps11 (W29 m ρ c) kwrites30_sub (by decide)).trans (k_arg17_29 m ρ c)
theorem k_arg18_30 : W30 m ρ c (Proc.devRef .tc main_arg18) = (KA m c).a18 :=
  (StableHlo.after_of_writes_sub hostOps11 (W29 m ρ c) kwrites30_sub (by decide)).trans (k_arg18_29 m ρ c)
theorem k_arg19_30 : W30 m ρ c (Proc.devRef .tc main_arg19) = (KA m c).a19 :=
  (StableHlo.after_of_writes_sub hostOps11 (W29 m ρ c) kwrites30_sub (by decide)).trans (k_arg19_29 m ρ c)
theorem k_v132_30 : W30 m ρ c (Proc.devRef .tc main_v132) = Spec.g_v229 (KA m c) :=
  (StableHlo.after_of_writes_sub hostOps11 (W29 m ρ c) kwrites30_sub (by decide)).trans (k_v132_29 m ρ c)
theorem k_v134_30 : W30 m ρ c (Proc.devRef .tc main_v134) = Spec.g_v231 (KA m c) :=
  (StableHlo.after_of_writes_sub hostOps11 (W29 m ρ c) kwrites30_sub (by decide)).trans (k_v134_29 m ρ c)
theorem k_v136_30 : W30 m ρ c (Proc.devRef .tc main_v136) = Spec.g_v233 (KA m c) :=
  (StableHlo.after_of_writes_sub hostOps11 (W29 m ρ c) kwrites30_sub (by decide)).trans (k_v136_29 m ρ c)
theorem k_v138_30 : W30 m ρ c (Proc.devRef .tc main_v138) = Spec.g_v235 (KA m c) :=
  (StableHlo.after_of_writes_sub hostOps11 (W29 m ρ c) kwrites30_sub (by decide)).trans (k_v138_29 m ρ c)
theorem k_v199_30 : W30 m ρ c (Proc.devRef .tc main_v199) = Spec.g_v307 (KA m c) :=
  (StableHlo.after_of_writes_sub hostOps11 (W29 m ρ c) kwrites30_sub (by decide)).trans (k_v199_29 m ρ c)
theorem k_v204_30 : W30 m ρ c (Proc.devRef .tc main_v204) = Spec.g_v347 (KA m c) :=
  (StableHlo.after_of_writes_sub hostOps11 (W29 m ρ c) kwrites30_sub (by decide)).trans (k_v204_29 m ρ c)
theorem k_v209_30 : W30 m ρ c (Proc.devRef .tc main_v209) = Spec.g_v389 (KA m c) :=
  (StableHlo.after_of_writes_sub hostOps11 (W29 m ρ c) kwrites30_sub (by decide)).trans (k_v209_29 m ρ c)
theorem k_v214_30 : W30 m ρ c (Proc.devRef .tc main_v214) = Spec.g_v429 (KA m c) :=
  (StableHlo.after_of_writes_sub hostOps11 (W29 m ρ c) kwrites30_sub (by decide)).trans (k_v214_29 m ρ c)
theorem k_v217_30 : W30 m ρ c (Proc.devRef .tc main_v217) = Spec.g_v310 (KA m c) := by
  show StableHlo.after hostOps11 (W29 m ρ c) (Proc.devRef .tc main_v217) = _
  after_results_simp
  try simp only [k_v199_29 m ρ c]
  rfl
theorem k_c_36_30 : W30 m ρ c (Proc.devRef .tc main_c_36) = Spec.g_c_12 (KA m c) := by
  show StableHlo.after hostOps11 (W29 m ρ c) (Proc.devRef .tc main_c_36) = _
  after_results_simp
  rfl

/-! ### Boundary 31: after the host stretch hostOps11_1 -/

theorem k_arg10_31 : W31 m ρ c (Proc.devRef .tc main_arg10) = (KA m c).a10 :=
  (StableHlo.after_of_writes_sub hostOps11_1 (W30 m ρ c) kwrites31_sub (by decide)).trans (k_arg10_30 m ρ c)
theorem k_arg11_31 : W31 m ρ c (Proc.devRef .tc main_arg11) = (KA m c).a11 :=
  (StableHlo.after_of_writes_sub hostOps11_1 (W30 m ρ c) kwrites31_sub (by decide)).trans (k_arg11_30 m ρ c)
theorem k_arg12_31 : W31 m ρ c (Proc.devRef .tc main_arg12) = (KA m c).a12 :=
  (StableHlo.after_of_writes_sub hostOps11_1 (W30 m ρ c) kwrites31_sub (by decide)).trans (k_arg12_30 m ρ c)
theorem k_arg13_31 : W31 m ρ c (Proc.devRef .tc main_arg13) = (KA m c).a13 :=
  (StableHlo.after_of_writes_sub hostOps11_1 (W30 m ρ c) kwrites31_sub (by decide)).trans (k_arg13_30 m ρ c)
theorem k_arg14_31 : W31 m ρ c (Proc.devRef .tc main_arg14) = (KA m c).a14 :=
  (StableHlo.after_of_writes_sub hostOps11_1 (W30 m ρ c) kwrites31_sub (by decide)).trans (k_arg14_30 m ρ c)
theorem k_arg15_31 : W31 m ρ c (Proc.devRef .tc main_arg15) = (KA m c).a15 :=
  (StableHlo.after_of_writes_sub hostOps11_1 (W30 m ρ c) kwrites31_sub (by decide)).trans (k_arg15_30 m ρ c)
theorem k_arg20_31 : W31 m ρ c (Proc.devRef .tc main_arg20) = (KA m c).a20 :=
  (StableHlo.after_of_writes_sub hostOps11_1 (W30 m ρ c) kwrites31_sub (by decide)).trans (k_arg20_30 m ρ c)
theorem k_arg22_31 : W31 m ρ c (Proc.devRef .tc main_arg22) = (KA m c).a22 :=
  (StableHlo.after_of_writes_sub hostOps11_1 (W30 m ρ c) kwrites31_sub (by decide)).trans (k_arg22_30 m ρ c)
theorem k_arg21_31 : W31 m ρ c (Proc.devRef .tc main_arg21) = (KA m c).a21 :=
  (StableHlo.after_of_writes_sub hostOps11_1 (W30 m ρ c) kwrites31_sub (by decide)).trans (k_arg21_30 m ρ c)
theorem k_arg23_31 : W31 m ρ c (Proc.devRef .tc main_arg23) = (KA m c).a23 :=
  (StableHlo.after_of_writes_sub hostOps11_1 (W30 m ρ c) kwrites31_sub (by decide)).trans (k_arg23_30 m ρ c)
theorem k_arg16_31 : W31 m ρ c (Proc.devRef .tc main_arg16) = (KA m c).a16 :=
  (StableHlo.after_of_writes_sub hostOps11_1 (W30 m ρ c) kwrites31_sub (by decide)).trans (k_arg16_30 m ρ c)
theorem k_arg17_31 : W31 m ρ c (Proc.devRef .tc main_arg17) = (KA m c).a17 :=
  (StableHlo.after_of_writes_sub hostOps11_1 (W30 m ρ c) kwrites31_sub (by decide)).trans (k_arg17_30 m ρ c)
theorem k_arg18_31 : W31 m ρ c (Proc.devRef .tc main_arg18) = (KA m c).a18 :=
  (StableHlo.after_of_writes_sub hostOps11_1 (W30 m ρ c) kwrites31_sub (by decide)).trans (k_arg18_30 m ρ c)
theorem k_arg19_31 : W31 m ρ c (Proc.devRef .tc main_arg19) = (KA m c).a19 :=
  (StableHlo.after_of_writes_sub hostOps11_1 (W30 m ρ c) kwrites31_sub (by decide)).trans (k_arg19_30 m ρ c)
theorem k_v132_31 : W31 m ρ c (Proc.devRef .tc main_v132) = Spec.g_v229 (KA m c) :=
  (StableHlo.after_of_writes_sub hostOps11_1 (W30 m ρ c) kwrites31_sub (by decide)).trans (k_v132_30 m ρ c)
theorem k_v134_31 : W31 m ρ c (Proc.devRef .tc main_v134) = Spec.g_v231 (KA m c) :=
  (StableHlo.after_of_writes_sub hostOps11_1 (W30 m ρ c) kwrites31_sub (by decide)).trans (k_v134_30 m ρ c)
theorem k_v136_31 : W31 m ρ c (Proc.devRef .tc main_v136) = Spec.g_v233 (KA m c) :=
  (StableHlo.after_of_writes_sub hostOps11_1 (W30 m ρ c) kwrites31_sub (by decide)).trans (k_v136_30 m ρ c)
theorem k_v138_31 : W31 m ρ c (Proc.devRef .tc main_v138) = Spec.g_v235 (KA m c) :=
  (StableHlo.after_of_writes_sub hostOps11_1 (W30 m ρ c) kwrites31_sub (by decide)).trans (k_v138_30 m ρ c)
theorem k_v199_31 : W31 m ρ c (Proc.devRef .tc main_v199) = Spec.g_v307 (KA m c) :=
  (StableHlo.after_of_writes_sub hostOps11_1 (W30 m ρ c) kwrites31_sub (by decide)).trans (k_v199_30 m ρ c)
theorem k_v204_31 : W31 m ρ c (Proc.devRef .tc main_v204) = Spec.g_v347 (KA m c) :=
  (StableHlo.after_of_writes_sub hostOps11_1 (W30 m ρ c) kwrites31_sub (by decide)).trans (k_v204_30 m ρ c)
theorem k_v209_31 : W31 m ρ c (Proc.devRef .tc main_v209) = Spec.g_v389 (KA m c) :=
  (StableHlo.after_of_writes_sub hostOps11_1 (W30 m ρ c) kwrites31_sub (by decide)).trans (k_v209_30 m ρ c)
theorem k_v214_31 : W31 m ρ c (Proc.devRef .tc main_v214) = Spec.g_v429 (KA m c) :=
  (StableHlo.after_of_writes_sub hostOps11_1 (W30 m ρ c) kwrites31_sub (by decide)).trans (k_v214_30 m ρ c)
theorem k_v217_31 : W31 m ρ c (Proc.devRef .tc main_v217) = Spec.g_v310 (KA m c) :=
  (StableHlo.after_of_writes_sub hostOps11_1 (W30 m ρ c) kwrites31_sub (by decide)).trans (k_v217_30 m ρ c)
theorem k_v218_31 : W31 m ρ c (Proc.devRef .tc main_v218) = Spec.g_v311 (KA m c) := by
  have e0 := k_c_36_30 m ρ c
  have e1 := k_v199_30 m ρ c
  show StableHlo.after hostOps11_1 (W30 m ρ c) (Proc.devRef .tc main_v218) = _
  rw [hostOps11_1_plain]
  generalize W30 m ρ c = V at e0 e1 ⊢
  after_results_simp
  try simp only [e0, e1]
  rfl

/-! ### Boundary 32: after the host stretch hostOps11_2 -/

theorem k_arg10_32 : W32 m ρ c (Proc.devRef .tc main_arg10) = (KA m c).a10 :=
  (StableHlo.after_of_writes_sub hostOps11_2 (W31 m ρ c) kwrites32_sub (by decide)).trans (k_arg10_31 m ρ c)
theorem k_arg11_32 : W32 m ρ c (Proc.devRef .tc main_arg11) = (KA m c).a11 :=
  (StableHlo.after_of_writes_sub hostOps11_2 (W31 m ρ c) kwrites32_sub (by decide)).trans (k_arg11_31 m ρ c)
theorem k_arg12_32 : W32 m ρ c (Proc.devRef .tc main_arg12) = (KA m c).a12 :=
  (StableHlo.after_of_writes_sub hostOps11_2 (W31 m ρ c) kwrites32_sub (by decide)).trans (k_arg12_31 m ρ c)
theorem k_arg13_32 : W32 m ρ c (Proc.devRef .tc main_arg13) = (KA m c).a13 :=
  (StableHlo.after_of_writes_sub hostOps11_2 (W31 m ρ c) kwrites32_sub (by decide)).trans (k_arg13_31 m ρ c)
theorem k_arg14_32 : W32 m ρ c (Proc.devRef .tc main_arg14) = (KA m c).a14 :=
  (StableHlo.after_of_writes_sub hostOps11_2 (W31 m ρ c) kwrites32_sub (by decide)).trans (k_arg14_31 m ρ c)
theorem k_arg15_32 : W32 m ρ c (Proc.devRef .tc main_arg15) = (KA m c).a15 :=
  (StableHlo.after_of_writes_sub hostOps11_2 (W31 m ρ c) kwrites32_sub (by decide)).trans (k_arg15_31 m ρ c)
theorem k_arg20_32 : W32 m ρ c (Proc.devRef .tc main_arg20) = (KA m c).a20 :=
  (StableHlo.after_of_writes_sub hostOps11_2 (W31 m ρ c) kwrites32_sub (by decide)).trans (k_arg20_31 m ρ c)
theorem k_arg22_32 : W32 m ρ c (Proc.devRef .tc main_arg22) = (KA m c).a22 :=
  (StableHlo.after_of_writes_sub hostOps11_2 (W31 m ρ c) kwrites32_sub (by decide)).trans (k_arg22_31 m ρ c)
theorem k_arg21_32 : W32 m ρ c (Proc.devRef .tc main_arg21) = (KA m c).a21 :=
  (StableHlo.after_of_writes_sub hostOps11_2 (W31 m ρ c) kwrites32_sub (by decide)).trans (k_arg21_31 m ρ c)
theorem k_arg23_32 : W32 m ρ c (Proc.devRef .tc main_arg23) = (KA m c).a23 :=
  (StableHlo.after_of_writes_sub hostOps11_2 (W31 m ρ c) kwrites32_sub (by decide)).trans (k_arg23_31 m ρ c)
theorem k_arg16_32 : W32 m ρ c (Proc.devRef .tc main_arg16) = (KA m c).a16 :=
  (StableHlo.after_of_writes_sub hostOps11_2 (W31 m ρ c) kwrites32_sub (by decide)).trans (k_arg16_31 m ρ c)
theorem k_arg17_32 : W32 m ρ c (Proc.devRef .tc main_arg17) = (KA m c).a17 :=
  (StableHlo.after_of_writes_sub hostOps11_2 (W31 m ρ c) kwrites32_sub (by decide)).trans (k_arg17_31 m ρ c)
theorem k_arg18_32 : W32 m ρ c (Proc.devRef .tc main_arg18) = (KA m c).a18 :=
  (StableHlo.after_of_writes_sub hostOps11_2 (W31 m ρ c) kwrites32_sub (by decide)).trans (k_arg18_31 m ρ c)
theorem k_arg19_32 : W32 m ρ c (Proc.devRef .tc main_arg19) = (KA m c).a19 :=
  (StableHlo.after_of_writes_sub hostOps11_2 (W31 m ρ c) kwrites32_sub (by decide)).trans (k_arg19_31 m ρ c)
theorem k_v132_32 : W32 m ρ c (Proc.devRef .tc main_v132) = Spec.g_v229 (KA m c) :=
  (StableHlo.after_of_writes_sub hostOps11_2 (W31 m ρ c) kwrites32_sub (by decide)).trans (k_v132_31 m ρ c)
theorem k_v134_32 : W32 m ρ c (Proc.devRef .tc main_v134) = Spec.g_v231 (KA m c) :=
  (StableHlo.after_of_writes_sub hostOps11_2 (W31 m ρ c) kwrites32_sub (by decide)).trans (k_v134_31 m ρ c)
theorem k_v136_32 : W32 m ρ c (Proc.devRef .tc main_v136) = Spec.g_v233 (KA m c) :=
  (StableHlo.after_of_writes_sub hostOps11_2 (W31 m ρ c) kwrites32_sub (by decide)).trans (k_v136_31 m ρ c)
theorem k_v138_32 : W32 m ρ c (Proc.devRef .tc main_v138) = Spec.g_v235 (KA m c) :=
  (StableHlo.after_of_writes_sub hostOps11_2 (W31 m ρ c) kwrites32_sub (by decide)).trans (k_v138_31 m ρ c)
theorem k_v199_32 : W32 m ρ c (Proc.devRef .tc main_v199) = Spec.g_v307 (KA m c) :=
  (StableHlo.after_of_writes_sub hostOps11_2 (W31 m ρ c) kwrites32_sub (by decide)).trans (k_v199_31 m ρ c)
theorem k_v204_32 : W32 m ρ c (Proc.devRef .tc main_v204) = Spec.g_v347 (KA m c) :=
  (StableHlo.after_of_writes_sub hostOps11_2 (W31 m ρ c) kwrites32_sub (by decide)).trans (k_v204_31 m ρ c)
theorem k_v209_32 : W32 m ρ c (Proc.devRef .tc main_v209) = Spec.g_v389 (KA m c) :=
  (StableHlo.after_of_writes_sub hostOps11_2 (W31 m ρ c) kwrites32_sub (by decide)).trans (k_v209_31 m ρ c)
theorem k_v214_32 : W32 m ρ c (Proc.devRef .tc main_v214) = Spec.g_v429 (KA m c) :=
  (StableHlo.after_of_writes_sub hostOps11_2 (W31 m ρ c) kwrites32_sub (by decide)).trans (k_v214_31 m ρ c)
theorem k_v217_32 : W32 m ρ c (Proc.devRef .tc main_v217) = Spec.g_v310 (KA m c) :=
  (StableHlo.after_of_writes_sub hostOps11_2 (W31 m ρ c) kwrites32_sub (by decide)).trans (k_v217_31 m ρ c)
theorem k_v218_32 : W32 m ρ c (Proc.devRef .tc main_v218) = Spec.g_v311 (KA m c) :=
  (StableHlo.after_of_writes_sub hostOps11_2 (W31 m ρ c) kwrites32_sub (by decide)).trans (k_v218_31 m ρ c)
theorem k_v221_32 : W32 m ρ c (Proc.devRef .tc main_v221) = Spec.g_v350 (KA m c) := by
  have e0 := k_v204_31 m ρ c
  show StableHlo.after hostOps11_2 (W31 m ρ c) (Proc.devRef .tc main_v221) = _
  generalize W31 m ρ c = V at e0 ⊢
  after_results_simp
  try simp only [e0]
  rfl
theorem k_c_39_32 : W32 m ρ c (Proc.devRef .tc main_c_39) = Spec.g_c_16 (KA m c) := by
  show StableHlo.after hostOps11_2 (W31 m ρ c) (Proc.devRef .tc main_c_39) = _
  generalize W31 m ρ c = V at  ⊢
  after_results_simp
  rfl

/-! ### Boundary 33: after the host stretch hostOps11_3 -/

theorem k_arg10_33 : W33 m ρ c (Proc.devRef .tc main_arg10) = (KA m c).a10 :=
  (StableHlo.after_of_writes_sub hostOps11_3 (W32 m ρ c) kwrites33_sub (by decide)).trans (k_arg10_32 m ρ c)
theorem k_arg11_33 : W33 m ρ c (Proc.devRef .tc main_arg11) = (KA m c).a11 :=
  (StableHlo.after_of_writes_sub hostOps11_3 (W32 m ρ c) kwrites33_sub (by decide)).trans (k_arg11_32 m ρ c)
theorem k_arg12_33 : W33 m ρ c (Proc.devRef .tc main_arg12) = (KA m c).a12 :=
  (StableHlo.after_of_writes_sub hostOps11_3 (W32 m ρ c) kwrites33_sub (by decide)).trans (k_arg12_32 m ρ c)
theorem k_arg13_33 : W33 m ρ c (Proc.devRef .tc main_arg13) = (KA m c).a13 :=
  (StableHlo.after_of_writes_sub hostOps11_3 (W32 m ρ c) kwrites33_sub (by decide)).trans (k_arg13_32 m ρ c)
theorem k_arg14_33 : W33 m ρ c (Proc.devRef .tc main_arg14) = (KA m c).a14 :=
  (StableHlo.after_of_writes_sub hostOps11_3 (W32 m ρ c) kwrites33_sub (by decide)).trans (k_arg14_32 m ρ c)
theorem k_arg15_33 : W33 m ρ c (Proc.devRef .tc main_arg15) = (KA m c).a15 :=
  (StableHlo.after_of_writes_sub hostOps11_3 (W32 m ρ c) kwrites33_sub (by decide)).trans (k_arg15_32 m ρ c)
theorem k_arg20_33 : W33 m ρ c (Proc.devRef .tc main_arg20) = (KA m c).a20 :=
  (StableHlo.after_of_writes_sub hostOps11_3 (W32 m ρ c) kwrites33_sub (by decide)).trans (k_arg20_32 m ρ c)
theorem k_arg22_33 : W33 m ρ c (Proc.devRef .tc main_arg22) = (KA m c).a22 :=
  (StableHlo.after_of_writes_sub hostOps11_3 (W32 m ρ c) kwrites33_sub (by decide)).trans (k_arg22_32 m ρ c)
theorem k_arg21_33 : W33 m ρ c (Proc.devRef .tc main_arg21) = (KA m c).a21 :=
  (StableHlo.after_of_writes_sub hostOps11_3 (W32 m ρ c) kwrites33_sub (by decide)).trans (k_arg21_32 m ρ c)
theorem k_arg23_33 : W33 m ρ c (Proc.devRef .tc main_arg23) = (KA m c).a23 :=
  (StableHlo.after_of_writes_sub hostOps11_3 (W32 m ρ c) kwrites33_sub (by decide)).trans (k_arg23_32 m ρ c)
theorem k_arg16_33 : W33 m ρ c (Proc.devRef .tc main_arg16) = (KA m c).a16 :=
  (StableHlo.after_of_writes_sub hostOps11_3 (W32 m ρ c) kwrites33_sub (by decide)).trans (k_arg16_32 m ρ c)
theorem k_arg17_33 : W33 m ρ c (Proc.devRef .tc main_arg17) = (KA m c).a17 :=
  (StableHlo.after_of_writes_sub hostOps11_3 (W32 m ρ c) kwrites33_sub (by decide)).trans (k_arg17_32 m ρ c)
theorem k_arg18_33 : W33 m ρ c (Proc.devRef .tc main_arg18) = (KA m c).a18 :=
  (StableHlo.after_of_writes_sub hostOps11_3 (W32 m ρ c) kwrites33_sub (by decide)).trans (k_arg18_32 m ρ c)
theorem k_arg19_33 : W33 m ρ c (Proc.devRef .tc main_arg19) = (KA m c).a19 :=
  (StableHlo.after_of_writes_sub hostOps11_3 (W32 m ρ c) kwrites33_sub (by decide)).trans (k_arg19_32 m ρ c)
theorem k_v132_33 : W33 m ρ c (Proc.devRef .tc main_v132) = Spec.g_v229 (KA m c) :=
  (StableHlo.after_of_writes_sub hostOps11_3 (W32 m ρ c) kwrites33_sub (by decide)).trans (k_v132_32 m ρ c)
theorem k_v134_33 : W33 m ρ c (Proc.devRef .tc main_v134) = Spec.g_v231 (KA m c) :=
  (StableHlo.after_of_writes_sub hostOps11_3 (W32 m ρ c) kwrites33_sub (by decide)).trans (k_v134_32 m ρ c)
theorem k_v136_33 : W33 m ρ c (Proc.devRef .tc main_v136) = Spec.g_v233 (KA m c) :=
  (StableHlo.after_of_writes_sub hostOps11_3 (W32 m ρ c) kwrites33_sub (by decide)).trans (k_v136_32 m ρ c)
theorem k_v138_33 : W33 m ρ c (Proc.devRef .tc main_v138) = Spec.g_v235 (KA m c) :=
  (StableHlo.after_of_writes_sub hostOps11_3 (W32 m ρ c) kwrites33_sub (by decide)).trans (k_v138_32 m ρ c)
theorem k_v199_33 : W33 m ρ c (Proc.devRef .tc main_v199) = Spec.g_v307 (KA m c) :=
  (StableHlo.after_of_writes_sub hostOps11_3 (W32 m ρ c) kwrites33_sub (by decide)).trans (k_v199_32 m ρ c)
theorem k_v204_33 : W33 m ρ c (Proc.devRef .tc main_v204) = Spec.g_v347 (KA m c) :=
  (StableHlo.after_of_writes_sub hostOps11_3 (W32 m ρ c) kwrites33_sub (by decide)).trans (k_v204_32 m ρ c)
theorem k_v209_33 : W33 m ρ c (Proc.devRef .tc main_v209) = Spec.g_v389 (KA m c) :=
  (StableHlo.after_of_writes_sub hostOps11_3 (W32 m ρ c) kwrites33_sub (by decide)).trans (k_v209_32 m ρ c)
theorem k_v214_33 : W33 m ρ c (Proc.devRef .tc main_v214) = Spec.g_v429 (KA m c) :=
  (StableHlo.after_of_writes_sub hostOps11_3 (W32 m ρ c) kwrites33_sub (by decide)).trans (k_v214_32 m ρ c)
theorem k_v217_33 : W33 m ρ c (Proc.devRef .tc main_v217) = Spec.g_v310 (KA m c) :=
  (StableHlo.after_of_writes_sub hostOps11_3 (W32 m ρ c) kwrites33_sub (by decide)).trans (k_v217_32 m ρ c)
theorem k_v218_33 : W33 m ρ c (Proc.devRef .tc main_v218) = Spec.g_v311 (KA m c) :=
  (StableHlo.after_of_writes_sub hostOps11_3 (W32 m ρ c) kwrites33_sub (by decide)).trans (k_v218_32 m ρ c)
theorem k_v221_33 : W33 m ρ c (Proc.devRef .tc main_v221) = Spec.g_v350 (KA m c) :=
  (StableHlo.after_of_writes_sub hostOps11_3 (W32 m ρ c) kwrites33_sub (by decide)).trans (k_v221_32 m ρ c)
theorem k_v222_33 : W33 m ρ c (Proc.devRef .tc main_v222) = Spec.g_v351 (KA m c) := by
  have e0 := k_c_39_32 m ρ c
  have e1 := k_v204_32 m ρ c
  show StableHlo.after hostOps11_3 (W32 m ρ c) (Proc.devRef .tc main_v222) = _
  rw [hostOps11_3_plain]
  generalize W32 m ρ c = V at e0 e1 ⊢
  after_results_simp
  try simp only [e0, e1]
  rfl

/-! ### Boundary 34: after the host stretch hostOps11_4 -/

theorem k_arg10_34 : W34 m ρ c (Proc.devRef .tc main_arg10) = (KA m c).a10 :=
  (StableHlo.after_of_writes_sub hostOps11_4 (W33 m ρ c) kwrites34_sub (by decide)).trans (k_arg10_33 m ρ c)
theorem k_arg11_34 : W34 m ρ c (Proc.devRef .tc main_arg11) = (KA m c).a11 :=
  (StableHlo.after_of_writes_sub hostOps11_4 (W33 m ρ c) kwrites34_sub (by decide)).trans (k_arg11_33 m ρ c)
theorem k_arg12_34 : W34 m ρ c (Proc.devRef .tc main_arg12) = (KA m c).a12 :=
  (StableHlo.after_of_writes_sub hostOps11_4 (W33 m ρ c) kwrites34_sub (by decide)).trans (k_arg12_33 m ρ c)
theorem k_arg13_34 : W34 m ρ c (Proc.devRef .tc main_arg13) = (KA m c).a13 :=
  (StableHlo.after_of_writes_sub hostOps11_4 (W33 m ρ c) kwrites34_sub (by decide)).trans (k_arg13_33 m ρ c)
theorem k_arg14_34 : W34 m ρ c (Proc.devRef .tc main_arg14) = (KA m c).a14 :=
  (StableHlo.after_of_writes_sub hostOps11_4 (W33 m ρ c) kwrites34_sub (by decide)).trans (k_arg14_33 m ρ c)
theorem k_arg15_34 : W34 m ρ c (Proc.devRef .tc main_arg15) = (KA m c).a15 :=
  (StableHlo.after_of_writes_sub hostOps11_4 (W33 m ρ c) kwrites34_sub (by decide)).trans (k_arg15_33 m ρ c)
theorem k_arg20_34 : W34 m ρ c (Proc.devRef .tc main_arg20) = (KA m c).a20 :=
  (StableHlo.after_of_writes_sub hostOps11_4 (W33 m ρ c) kwrites34_sub (by decide)).trans (k_arg20_33 m ρ c)
theorem k_arg22_34 : W34 m ρ c (Proc.devRef .tc main_arg22) = (KA m c).a22 :=
  (StableHlo.after_of_writes_sub hostOps11_4 (W33 m ρ c) kwrites34_sub (by decide)).trans (k_arg22_33 m ρ c)
theorem k_arg21_34 : W34 m ρ c (Proc.devRef .tc main_arg21) = (KA m c).a21 :=
  (StableHlo.after_of_writes_sub hostOps11_4 (W33 m ρ c) kwrites34_sub (by decide)).trans (k_arg21_33 m ρ c)
theorem k_arg23_34 : W34 m ρ c (Proc.devRef .tc main_arg23) = (KA m c).a23 :=
  (StableHlo.after_of_writes_sub hostOps11_4 (W33 m ρ c) kwrites34_sub (by decide)).trans (k_arg23_33 m ρ c)
theorem k_arg16_34 : W34 m ρ c (Proc.devRef .tc main_arg16) = (KA m c).a16 :=
  (StableHlo.after_of_writes_sub hostOps11_4 (W33 m ρ c) kwrites34_sub (by decide)).trans (k_arg16_33 m ρ c)
theorem k_arg17_34 : W34 m ρ c (Proc.devRef .tc main_arg17) = (KA m c).a17 :=
  (StableHlo.after_of_writes_sub hostOps11_4 (W33 m ρ c) kwrites34_sub (by decide)).trans (k_arg17_33 m ρ c)
theorem k_arg18_34 : W34 m ρ c (Proc.devRef .tc main_arg18) = (KA m c).a18 :=
  (StableHlo.after_of_writes_sub hostOps11_4 (W33 m ρ c) kwrites34_sub (by decide)).trans (k_arg18_33 m ρ c)
theorem k_arg19_34 : W34 m ρ c (Proc.devRef .tc main_arg19) = (KA m c).a19 :=
  (StableHlo.after_of_writes_sub hostOps11_4 (W33 m ρ c) kwrites34_sub (by decide)).trans (k_arg19_33 m ρ c)
theorem k_v132_34 : W34 m ρ c (Proc.devRef .tc main_v132) = Spec.g_v229 (KA m c) :=
  (StableHlo.after_of_writes_sub hostOps11_4 (W33 m ρ c) kwrites34_sub (by decide)).trans (k_v132_33 m ρ c)
theorem k_v134_34 : W34 m ρ c (Proc.devRef .tc main_v134) = Spec.g_v231 (KA m c) :=
  (StableHlo.after_of_writes_sub hostOps11_4 (W33 m ρ c) kwrites34_sub (by decide)).trans (k_v134_33 m ρ c)
theorem k_v136_34 : W34 m ρ c (Proc.devRef .tc main_v136) = Spec.g_v233 (KA m c) :=
  (StableHlo.after_of_writes_sub hostOps11_4 (W33 m ρ c) kwrites34_sub (by decide)).trans (k_v136_33 m ρ c)
theorem k_v138_34 : W34 m ρ c (Proc.devRef .tc main_v138) = Spec.g_v235 (KA m c) :=
  (StableHlo.after_of_writes_sub hostOps11_4 (W33 m ρ c) kwrites34_sub (by decide)).trans (k_v138_33 m ρ c)
theorem k_v199_34 : W34 m ρ c (Proc.devRef .tc main_v199) = Spec.g_v307 (KA m c) :=
  (StableHlo.after_of_writes_sub hostOps11_4 (W33 m ρ c) kwrites34_sub (by decide)).trans (k_v199_33 m ρ c)
theorem k_v204_34 : W34 m ρ c (Proc.devRef .tc main_v204) = Spec.g_v347 (KA m c) :=
  (StableHlo.after_of_writes_sub hostOps11_4 (W33 m ρ c) kwrites34_sub (by decide)).trans (k_v204_33 m ρ c)
theorem k_v209_34 : W34 m ρ c (Proc.devRef .tc main_v209) = Spec.g_v389 (KA m c) :=
  (StableHlo.after_of_writes_sub hostOps11_4 (W33 m ρ c) kwrites34_sub (by decide)).trans (k_v209_33 m ρ c)
theorem k_v214_34 : W34 m ρ c (Proc.devRef .tc main_v214) = Spec.g_v429 (KA m c) :=
  (StableHlo.after_of_writes_sub hostOps11_4 (W33 m ρ c) kwrites34_sub (by decide)).trans (k_v214_33 m ρ c)
theorem k_v217_34 : W34 m ρ c (Proc.devRef .tc main_v217) = Spec.g_v310 (KA m c) :=
  (StableHlo.after_of_writes_sub hostOps11_4 (W33 m ρ c) kwrites34_sub (by decide)).trans (k_v217_33 m ρ c)
theorem k_v218_34 : W34 m ρ c (Proc.devRef .tc main_v218) = Spec.g_v311 (KA m c) :=
  (StableHlo.after_of_writes_sub hostOps11_4 (W33 m ρ c) kwrites34_sub (by decide)).trans (k_v218_33 m ρ c)
theorem k_v221_34 : W34 m ρ c (Proc.devRef .tc main_v221) = Spec.g_v350 (KA m c) :=
  (StableHlo.after_of_writes_sub hostOps11_4 (W33 m ρ c) kwrites34_sub (by decide)).trans (k_v221_33 m ρ c)
theorem k_v222_34 : W34 m ρ c (Proc.devRef .tc main_v222) = Spec.g_v351 (KA m c) :=
  (StableHlo.after_of_writes_sub hostOps11_4 (W33 m ρ c) kwrites34_sub (by decide)).trans (k_v222_33 m ρ c)
theorem k_v225_34 : W34 m ρ c (Proc.devRef .tc main_v225) = Spec.g_v392 (KA m c) := by
  have e0 := k_v209_33 m ρ c
  show StableHlo.after hostOps11_4 (W33 m ρ c) (Proc.devRef .tc main_v225) = _
  generalize W33 m ρ c = V at e0 ⊢
  after_results_simp
  try simp only [e0]
  rfl
theorem k_c_42_34 : W34 m ρ c (Proc.devRef .tc main_c_42) = Spec.g_c_20 (KA m c) := by
  show StableHlo.after hostOps11_4 (W33 m ρ c) (Proc.devRef .tc main_c_42) = _
  generalize W33 m ρ c = V at  ⊢
  after_results_simp
  rfl

/-! ### Boundary 35: after the host stretch hostOps11_5 -/

theorem k_arg10_35 : W35 m ρ c (Proc.devRef .tc main_arg10) = (KA m c).a10 :=
  (StableHlo.after_of_writes_sub hostOps11_5 (W34 m ρ c) kwrites35_sub (by decide)).trans (k_arg10_34 m ρ c)
theorem k_arg11_35 : W35 m ρ c (Proc.devRef .tc main_arg11) = (KA m c).a11 :=
  (StableHlo.after_of_writes_sub hostOps11_5 (W34 m ρ c) kwrites35_sub (by decide)).trans (k_arg11_34 m ρ c)
theorem k_arg12_35 : W35 m ρ c (Proc.devRef .tc main_arg12) = (KA m c).a12 :=
  (StableHlo.after_of_writes_sub hostOps11_5 (W34 m ρ c) kwrites35_sub (by decide)).trans (k_arg12_34 m ρ c)
theorem k_arg13_35 : W35 m ρ c (Proc.devRef .tc main_arg13) = (KA m c).a13 :=
  (StableHlo.after_of_writes_sub hostOps11_5 (W34 m ρ c) kwrites35_sub (by decide)).trans (k_arg13_34 m ρ c)
theorem k_arg14_35 : W35 m ρ c (Proc.devRef .tc main_arg14) = (KA m c).a14 :=
  (StableHlo.after_of_writes_sub hostOps11_5 (W34 m ρ c) kwrites35_sub (by decide)).trans (k_arg14_34 m ρ c)
theorem k_arg15_35 : W35 m ρ c (Proc.devRef .tc main_arg15) = (KA m c).a15 :=
  (StableHlo.after_of_writes_sub hostOps11_5 (W34 m ρ c) kwrites35_sub (by decide)).trans (k_arg15_34 m ρ c)
theorem k_arg20_35 : W35 m ρ c (Proc.devRef .tc main_arg20) = (KA m c).a20 :=
  (StableHlo.after_of_writes_sub hostOps11_5 (W34 m ρ c) kwrites35_sub (by decide)).trans (k_arg20_34 m ρ c)
theorem k_arg22_35 : W35 m ρ c (Proc.devRef .tc main_arg22) = (KA m c).a22 :=
  (StableHlo.after_of_writes_sub hostOps11_5 (W34 m ρ c) kwrites35_sub (by decide)).trans (k_arg22_34 m ρ c)
theorem k_arg21_35 : W35 m ρ c (Proc.devRef .tc main_arg21) = (KA m c).a21 :=
  (StableHlo.after_of_writes_sub hostOps11_5 (W34 m ρ c) kwrites35_sub (by decide)).trans (k_arg21_34 m ρ c)
theorem k_arg23_35 : W35 m ρ c (Proc.devRef .tc main_arg23) = (KA m c).a23 :=
  (StableHlo.after_of_writes_sub hostOps11_5 (W34 m ρ c) kwrites35_sub (by decide)).trans (k_arg23_34 m ρ c)
theorem k_arg16_35 : W35 m ρ c (Proc.devRef .tc main_arg16) = (KA m c).a16 :=
  (StableHlo.after_of_writes_sub hostOps11_5 (W34 m ρ c) kwrites35_sub (by decide)).trans (k_arg16_34 m ρ c)
theorem k_arg17_35 : W35 m ρ c (Proc.devRef .tc main_arg17) = (KA m c).a17 :=
  (StableHlo.after_of_writes_sub hostOps11_5 (W34 m ρ c) kwrites35_sub (by decide)).trans (k_arg17_34 m ρ c)
theorem k_arg18_35 : W35 m ρ c (Proc.devRef .tc main_arg18) = (KA m c).a18 :=
  (StableHlo.after_of_writes_sub hostOps11_5 (W34 m ρ c) kwrites35_sub (by decide)).trans (k_arg18_34 m ρ c)
theorem k_arg19_35 : W35 m ρ c (Proc.devRef .tc main_arg19) = (KA m c).a19 :=
  (StableHlo.after_of_writes_sub hostOps11_5 (W34 m ρ c) kwrites35_sub (by decide)).trans (k_arg19_34 m ρ c)
theorem k_v132_35 : W35 m ρ c (Proc.devRef .tc main_v132) = Spec.g_v229 (KA m c) :=
  (StableHlo.after_of_writes_sub hostOps11_5 (W34 m ρ c) kwrites35_sub (by decide)).trans (k_v132_34 m ρ c)
theorem k_v134_35 : W35 m ρ c (Proc.devRef .tc main_v134) = Spec.g_v231 (KA m c) :=
  (StableHlo.after_of_writes_sub hostOps11_5 (W34 m ρ c) kwrites35_sub (by decide)).trans (k_v134_34 m ρ c)
theorem k_v136_35 : W35 m ρ c (Proc.devRef .tc main_v136) = Spec.g_v233 (KA m c) :=
  (StableHlo.after_of_writes_sub hostOps11_5 (W34 m ρ c) kwrites35_sub (by decide)).trans (k_v136_34 m ρ c)
theorem k_v138_35 : W35 m ρ c (Proc.devRef .tc main_v138) = Spec.g_v235 (KA m c) :=
  (StableHlo.after_of_writes_sub hostOps11_5 (W34 m ρ c) kwrites35_sub (by decide)).trans (k_v138_34 m ρ c)
theorem k_v199_35 : W35 m ρ c (Proc.devRef .tc main_v199) = Spec.g_v307 (KA m c) :=
  (StableHlo.after_of_writes_sub hostOps11_5 (W34 m ρ c) kwrites35_sub (by decide)).trans (k_v199_34 m ρ c)
theorem k_v204_35 : W35 m ρ c (Proc.devRef .tc main_v204) = Spec.g_v347 (KA m c) :=
  (StableHlo.after_of_writes_sub hostOps11_5 (W34 m ρ c) kwrites35_sub (by decide)).trans (k_v204_34 m ρ c)
theorem k_v209_35 : W35 m ρ c (Proc.devRef .tc main_v209) = Spec.g_v389 (KA m c) :=
  (StableHlo.after_of_writes_sub hostOps11_5 (W34 m ρ c) kwrites35_sub (by decide)).trans (k_v209_34 m ρ c)
theorem k_v214_35 : W35 m ρ c (Proc.devRef .tc main_v214) = Spec.g_v429 (KA m c) :=
  (StableHlo.after_of_writes_sub hostOps11_5 (W34 m ρ c) kwrites35_sub (by decide)).trans (k_v214_34 m ρ c)
theorem k_v217_35 : W35 m ρ c (Proc.devRef .tc main_v217) = Spec.g_v310 (KA m c) :=
  (StableHlo.after_of_writes_sub hostOps11_5 (W34 m ρ c) kwrites35_sub (by decide)).trans (k_v217_34 m ρ c)
theorem k_v218_35 : W35 m ρ c (Proc.devRef .tc main_v218) = Spec.g_v311 (KA m c) :=
  (StableHlo.after_of_writes_sub hostOps11_5 (W34 m ρ c) kwrites35_sub (by decide)).trans (k_v218_34 m ρ c)
theorem k_v221_35 : W35 m ρ c (Proc.devRef .tc main_v221) = Spec.g_v350 (KA m c) :=
  (StableHlo.after_of_writes_sub hostOps11_5 (W34 m ρ c) kwrites35_sub (by decide)).trans (k_v221_34 m ρ c)
theorem k_v222_35 : W35 m ρ c (Proc.devRef .tc main_v222) = Spec.g_v351 (KA m c) :=
  (StableHlo.after_of_writes_sub hostOps11_5 (W34 m ρ c) kwrites35_sub (by decide)).trans (k_v222_34 m ρ c)
theorem k_v225_35 : W35 m ρ c (Proc.devRef .tc main_v225) = Spec.g_v392 (KA m c) :=
  (StableHlo.after_of_writes_sub hostOps11_5 (W34 m ρ c) kwrites35_sub (by decide)).trans (k_v225_34 m ρ c)
theorem k_v226_35 : W35 m ρ c (Proc.devRef .tc main_v226) = Spec.g_v393 (KA m c) := by
  have e0 := k_c_42_34 m ρ c
  have e1 := k_v209_34 m ρ c
  show StableHlo.after hostOps11_5 (W34 m ρ c) (Proc.devRef .tc main_v226) = _
  rw [hostOps11_5_plain]
  generalize W34 m ρ c = V at e0 e1 ⊢
  after_results_simp
  try simp only [e0, e1]
  rfl

/-! ### Boundary 36: after the host stretch hostOps11_6 -/

theorem k_arg10_36 : W36 m ρ c (Proc.devRef .tc main_arg10) = (KA m c).a10 :=
  (StableHlo.after_of_writes_sub hostOps11_6 (W35 m ρ c) kwrites36_sub (by decide)).trans (k_arg10_35 m ρ c)
theorem k_arg11_36 : W36 m ρ c (Proc.devRef .tc main_arg11) = (KA m c).a11 :=
  (StableHlo.after_of_writes_sub hostOps11_6 (W35 m ρ c) kwrites36_sub (by decide)).trans (k_arg11_35 m ρ c)
theorem k_arg12_36 : W36 m ρ c (Proc.devRef .tc main_arg12) = (KA m c).a12 :=
  (StableHlo.after_of_writes_sub hostOps11_6 (W35 m ρ c) kwrites36_sub (by decide)).trans (k_arg12_35 m ρ c)
theorem k_arg13_36 : W36 m ρ c (Proc.devRef .tc main_arg13) = (KA m c).a13 :=
  (StableHlo.after_of_writes_sub hostOps11_6 (W35 m ρ c) kwrites36_sub (by decide)).trans (k_arg13_35 m ρ c)
theorem k_arg14_36 : W36 m ρ c (Proc.devRef .tc main_arg14) = (KA m c).a14 :=
  (StableHlo.after_of_writes_sub hostOps11_6 (W35 m ρ c) kwrites36_sub (by decide)).trans (k_arg14_35 m ρ c)
theorem k_arg15_36 : W36 m ρ c (Proc.devRef .tc main_arg15) = (KA m c).a15 :=
  (StableHlo.after_of_writes_sub hostOps11_6 (W35 m ρ c) kwrites36_sub (by decide)).trans (k_arg15_35 m ρ c)
theorem k_arg20_36 : W36 m ρ c (Proc.devRef .tc main_arg20) = (KA m c).a20 :=
  (StableHlo.after_of_writes_sub hostOps11_6 (W35 m ρ c) kwrites36_sub (by decide)).trans (k_arg20_35 m ρ c)
theorem k_arg22_36 : W36 m ρ c (Proc.devRef .tc main_arg22) = (KA m c).a22 :=
  (StableHlo.after_of_writes_sub hostOps11_6 (W35 m ρ c) kwrites36_sub (by decide)).trans (k_arg22_35 m ρ c)
theorem k_arg21_36 : W36 m ρ c (Proc.devRef .tc main_arg21) = (KA m c).a21 :=
  (StableHlo.after_of_writes_sub hostOps11_6 (W35 m ρ c) kwrites36_sub (by decide)).trans (k_arg21_35 m ρ c)
theorem k_arg23_36 : W36 m ρ c (Proc.devRef .tc main_arg23) = (KA m c).a23 :=
  (StableHlo.after_of_writes_sub hostOps11_6 (W35 m ρ c) kwrites36_sub (by decide)).trans (k_arg23_35 m ρ c)
theorem k_arg16_36 : W36 m ρ c (Proc.devRef .tc main_arg16) = (KA m c).a16 :=
  (StableHlo.after_of_writes_sub hostOps11_6 (W35 m ρ c) kwrites36_sub (by decide)).trans (k_arg16_35 m ρ c)
theorem k_arg17_36 : W36 m ρ c (Proc.devRef .tc main_arg17) = (KA m c).a17 :=
  (StableHlo.after_of_writes_sub hostOps11_6 (W35 m ρ c) kwrites36_sub (by decide)).trans (k_arg17_35 m ρ c)
theorem k_arg18_36 : W36 m ρ c (Proc.devRef .tc main_arg18) = (KA m c).a18 :=
  (StableHlo.after_of_writes_sub hostOps11_6 (W35 m ρ c) kwrites36_sub (by decide)).trans (k_arg18_35 m ρ c)
theorem k_arg19_36 : W36 m ρ c (Proc.devRef .tc main_arg19) = (KA m c).a19 :=
  (StableHlo.after_of_writes_sub hostOps11_6 (W35 m ρ c) kwrites36_sub (by decide)).trans (k_arg19_35 m ρ c)
theorem k_v132_36 : W36 m ρ c (Proc.devRef .tc main_v132) = Spec.g_v229 (KA m c) :=
  (StableHlo.after_of_writes_sub hostOps11_6 (W35 m ρ c) kwrites36_sub (by decide)).trans (k_v132_35 m ρ c)
theorem k_v134_36 : W36 m ρ c (Proc.devRef .tc main_v134) = Spec.g_v231 (KA m c) :=
  (StableHlo.after_of_writes_sub hostOps11_6 (W35 m ρ c) kwrites36_sub (by decide)).trans (k_v134_35 m ρ c)
theorem k_v136_36 : W36 m ρ c (Proc.devRef .tc main_v136) = Spec.g_v233 (KA m c) :=
  (StableHlo.after_of_writes_sub hostOps11_6 (W35 m ρ c) kwrites36_sub (by decide)).trans (k_v136_35 m ρ c)
theorem k_v138_36 : W36 m ρ c (Proc.devRef .tc main_v138) = Spec.g_v235 (KA m c) :=
  (StableHlo.after_of_writes_sub hostOps11_6 (W35 m ρ c) kwrites36_sub (by decide)).trans (k_v138_35 m ρ c)
theorem k_v199_36 : W36 m ρ c (Proc.devRef .tc main_v199) = Spec.g_v307 (KA m c) :=
  (StableHlo.after_of_writes_sub hostOps11_6 (W35 m ρ c) kwrites36_sub (by decide)).trans (k_v199_35 m ρ c)
theorem k_v204_36 : W36 m ρ c (Proc.devRef .tc main_v204) = Spec.g_v347 (KA m c) :=
  (StableHlo.after_of_writes_sub hostOps11_6 (W35 m ρ c) kwrites36_sub (by decide)).trans (k_v204_35 m ρ c)
theorem k_v209_36 : W36 m ρ c (Proc.devRef .tc main_v209) = Spec.g_v389 (KA m c) :=
  (StableHlo.after_of_writes_sub hostOps11_6 (W35 m ρ c) kwrites36_sub (by decide)).trans (k_v209_35 m ρ c)
theorem k_v214_36 : W36 m ρ c (Proc.devRef .tc main_v214) = Spec.g_v429 (KA m c) :=
  (StableHlo.after_of_writes_sub hostOps11_6 (W35 m ρ c) kwrites36_sub (by decide)).trans (k_v214_35 m ρ c)
theorem k_v217_36 : W36 m ρ c (Proc.devRef .tc main_v217) = Spec.g_v310 (KA m c) :=
  (StableHlo.after_of_writes_sub hostOps11_6 (W35 m ρ c) kwrites36_sub (by decide)).trans (k_v217_35 m ρ c)
theorem k_v218_36 : W36 m ρ c (Proc.devRef .tc main_v218) = Spec.g_v311 (KA m c) :=
  (StableHlo.after_of_writes_sub hostOps11_6 (W35 m ρ c) kwrites36_sub (by decide)).trans (k_v218_35 m ρ c)
theorem k_v221_36 : W36 m ρ c (Proc.devRef .tc main_v221) = Spec.g_v350 (KA m c) :=
  (StableHlo.after_of_writes_sub hostOps11_6 (W35 m ρ c) kwrites36_sub (by decide)).trans (k_v221_35 m ρ c)
theorem k_v222_36 : W36 m ρ c (Proc.devRef .tc main_v222) = Spec.g_v351 (KA m c) :=
  (StableHlo.after_of_writes_sub hostOps11_6 (W35 m ρ c) kwrites36_sub (by decide)).trans (k_v222_35 m ρ c)
theorem k_v225_36 : W36 m ρ c (Proc.devRef .tc main_v225) = Spec.g_v392 (KA m c) :=
  (StableHlo.after_of_writes_sub hostOps11_6 (W35 m ρ c) kwrites36_sub (by decide)).trans (k_v225_35 m ρ c)
theorem k_v226_36 : W36 m ρ c (Proc.devRef .tc main_v226) = Spec.g_v393 (KA m c) :=
  (StableHlo.after_of_writes_sub hostOps11_6 (W35 m ρ c) kwrites36_sub (by decide)).trans (k_v226_35 m ρ c)
theorem k_v229_36 : W36 m ρ c (Proc.devRef .tc main_v229) = Spec.g_v432 (KA m c) := by
  have e0 := k_v214_35 m ρ c
  show StableHlo.after hostOps11_6 (W35 m ρ c) (Proc.devRef .tc main_v229) = _
  generalize W35 m ρ c = V at e0 ⊢
  after_results_simp
  try simp only [e0]
  rfl
theorem k_c_45_36 : W36 m ρ c (Proc.devRef .tc main_c_45) = Spec.g_c_24 (KA m c) := by
  show StableHlo.after hostOps11_6 (W35 m ρ c) (Proc.devRef .tc main_c_45) = _
  generalize W35 m ρ c = V at  ⊢
  after_results_simp
  rfl

/-! ### Boundary 37: after the host stretch hostOps11_7 -/

theorem k_arg10_37 : W37 m ρ c (Proc.devRef .tc main_arg10) = (KA m c).a10 :=
  (StableHlo.after_of_writes_sub hostOps11_7 (W36 m ρ c) kwrites37_sub (by decide)).trans (k_arg10_36 m ρ c)
theorem k_arg11_37 : W37 m ρ c (Proc.devRef .tc main_arg11) = (KA m c).a11 :=
  (StableHlo.after_of_writes_sub hostOps11_7 (W36 m ρ c) kwrites37_sub (by decide)).trans (k_arg11_36 m ρ c)
theorem k_arg12_37 : W37 m ρ c (Proc.devRef .tc main_arg12) = (KA m c).a12 :=
  (StableHlo.after_of_writes_sub hostOps11_7 (W36 m ρ c) kwrites37_sub (by decide)).trans (k_arg12_36 m ρ c)
theorem k_arg13_37 : W37 m ρ c (Proc.devRef .tc main_arg13) = (KA m c).a13 :=
  (StableHlo.after_of_writes_sub hostOps11_7 (W36 m ρ c) kwrites37_sub (by decide)).trans (k_arg13_36 m ρ c)
theorem k_arg14_37 : W37 m ρ c (Proc.devRef .tc main_arg14) = (KA m c).a14 :=
  (StableHlo.after_of_writes_sub hostOps11_7 (W36 m ρ c) kwrites37_sub (by decide)).trans (k_arg14_36 m ρ c)
theorem k_arg15_37 : W37 m ρ c (Proc.devRef .tc main_arg15) = (KA m c).a15 :=
  (StableHlo.after_of_writes_sub hostOps11_7 (W36 m ρ c) kwrites37_sub (by decide)).trans (k_arg15_36 m ρ c)
theorem k_arg20_37 : W37 m ρ c (Proc.devRef .tc main_arg20) = (KA m c).a20 :=
  (StableHlo.after_of_writes_sub hostOps11_7 (W36 m ρ c) kwrites37_sub (by decide)).trans (k_arg20_36 m ρ c)
theorem k_arg22_37 : W37 m ρ c (Proc.devRef .tc main_arg22) = (KA m c).a22 :=
  (StableHlo.after_of_writes_sub hostOps11_7 (W36 m ρ c) kwrites37_sub (by decide)).trans (k_arg22_36 m ρ c)
theorem k_arg21_37 : W37 m ρ c (Proc.devRef .tc main_arg21) = (KA m c).a21 :=
  (StableHlo.after_of_writes_sub hostOps11_7 (W36 m ρ c) kwrites37_sub (by decide)).trans (k_arg21_36 m ρ c)
theorem k_arg23_37 : W37 m ρ c (Proc.devRef .tc main_arg23) = (KA m c).a23 :=
  (StableHlo.after_of_writes_sub hostOps11_7 (W36 m ρ c) kwrites37_sub (by decide)).trans (k_arg23_36 m ρ c)
theorem k_arg16_37 : W37 m ρ c (Proc.devRef .tc main_arg16) = (KA m c).a16 :=
  (StableHlo.after_of_writes_sub hostOps11_7 (W36 m ρ c) kwrites37_sub (by decide)).trans (k_arg16_36 m ρ c)
theorem k_arg17_37 : W37 m ρ c (Proc.devRef .tc main_arg17) = (KA m c).a17 :=
  (StableHlo.after_of_writes_sub hostOps11_7 (W36 m ρ c) kwrites37_sub (by decide)).trans (k_arg17_36 m ρ c)
theorem k_arg18_37 : W37 m ρ c (Proc.devRef .tc main_arg18) = (KA m c).a18 :=
  (StableHlo.after_of_writes_sub hostOps11_7 (W36 m ρ c) kwrites37_sub (by decide)).trans (k_arg18_36 m ρ c)
theorem k_arg19_37 : W37 m ρ c (Proc.devRef .tc main_arg19) = (KA m c).a19 :=
  (StableHlo.after_of_writes_sub hostOps11_7 (W36 m ρ c) kwrites37_sub (by decide)).trans (k_arg19_36 m ρ c)
theorem k_v132_37 : W37 m ρ c (Proc.devRef .tc main_v132) = Spec.g_v229 (KA m c) :=
  (StableHlo.after_of_writes_sub hostOps11_7 (W36 m ρ c) kwrites37_sub (by decide)).trans (k_v132_36 m ρ c)
theorem k_v134_37 : W37 m ρ c (Proc.devRef .tc main_v134) = Spec.g_v231 (KA m c) :=
  (StableHlo.after_of_writes_sub hostOps11_7 (W36 m ρ c) kwrites37_sub (by decide)).trans (k_v134_36 m ρ c)
theorem k_v136_37 : W37 m ρ c (Proc.devRef .tc main_v136) = Spec.g_v233 (KA m c) :=
  (StableHlo.after_of_writes_sub hostOps11_7 (W36 m ρ c) kwrites37_sub (by decide)).trans (k_v136_36 m ρ c)
theorem k_v138_37 : W37 m ρ c (Proc.devRef .tc main_v138) = Spec.g_v235 (KA m c) :=
  (StableHlo.after_of_writes_sub hostOps11_7 (W36 m ρ c) kwrites37_sub (by decide)).trans (k_v138_36 m ρ c)
theorem k_v199_37 : W37 m ρ c (Proc.devRef .tc main_v199) = Spec.g_v307 (KA m c) :=
  (StableHlo.after_of_writes_sub hostOps11_7 (W36 m ρ c) kwrites37_sub (by decide)).trans (k_v199_36 m ρ c)
theorem k_v204_37 : W37 m ρ c (Proc.devRef .tc main_v204) = Spec.g_v347 (KA m c) :=
  (StableHlo.after_of_writes_sub hostOps11_7 (W36 m ρ c) kwrites37_sub (by decide)).trans (k_v204_36 m ρ c)
theorem k_v209_37 : W37 m ρ c (Proc.devRef .tc main_v209) = Spec.g_v389 (KA m c) :=
  (StableHlo.after_of_writes_sub hostOps11_7 (W36 m ρ c) kwrites37_sub (by decide)).trans (k_v209_36 m ρ c)
theorem k_v214_37 : W37 m ρ c (Proc.devRef .tc main_v214) = Spec.g_v429 (KA m c) :=
  (StableHlo.after_of_writes_sub hostOps11_7 (W36 m ρ c) kwrites37_sub (by decide)).trans (k_v214_36 m ρ c)
theorem k_v217_37 : W37 m ρ c (Proc.devRef .tc main_v217) = Spec.g_v310 (KA m c) :=
  (StableHlo.after_of_writes_sub hostOps11_7 (W36 m ρ c) kwrites37_sub (by decide)).trans (k_v217_36 m ρ c)
theorem k_v218_37 : W37 m ρ c (Proc.devRef .tc main_v218) = Spec.g_v311 (KA m c) :=
  (StableHlo.after_of_writes_sub hostOps11_7 (W36 m ρ c) kwrites37_sub (by decide)).trans (k_v218_36 m ρ c)
theorem k_v221_37 : W37 m ρ c (Proc.devRef .tc main_v221) = Spec.g_v350 (KA m c) :=
  (StableHlo.after_of_writes_sub hostOps11_7 (W36 m ρ c) kwrites37_sub (by decide)).trans (k_v221_36 m ρ c)
theorem k_v222_37 : W37 m ρ c (Proc.devRef .tc main_v222) = Spec.g_v351 (KA m c) :=
  (StableHlo.after_of_writes_sub hostOps11_7 (W36 m ρ c) kwrites37_sub (by decide)).trans (k_v222_36 m ρ c)
theorem k_v225_37 : W37 m ρ c (Proc.devRef .tc main_v225) = Spec.g_v392 (KA m c) :=
  (StableHlo.after_of_writes_sub hostOps11_7 (W36 m ρ c) kwrites37_sub (by decide)).trans (k_v225_36 m ρ c)
theorem k_v226_37 : W37 m ρ c (Proc.devRef .tc main_v226) = Spec.g_v393 (KA m c) :=
  (StableHlo.after_of_writes_sub hostOps11_7 (W36 m ρ c) kwrites37_sub (by decide)).trans (k_v226_36 m ρ c)
theorem k_v229_37 : W37 m ρ c (Proc.devRef .tc main_v229) = Spec.g_v432 (KA m c) :=
  (StableHlo.after_of_writes_sub hostOps11_7 (W36 m ρ c) kwrites37_sub (by decide)).trans (k_v229_36 m ρ c)
theorem k_v230_37 : W37 m ρ c (Proc.devRef .tc main_v230) = Spec.g_v433 (KA m c) := by
  have e0 := k_c_45_36 m ρ c
  have e1 := k_v214_36 m ρ c
  show StableHlo.after hostOps11_7 (W36 m ρ c) (Proc.devRef .tc main_v230) = _
  rw [hostOps11_7_plain]
  generalize W36 m ρ c = V at e0 e1 ⊢
  after_results_simp
  try simp only [e0, e1]
  rfl

/-! ### Boundary 38: after the host stretch hostOps11_8 -/

theorem k_arg10_38 : W38 m ρ c (Proc.devRef .tc main_arg10) = (KA m c).a10 :=
  (StableHlo.after_of_writes_sub hostOps11_8 (W37 m ρ c) kwrites38_sub (by decide)).trans (k_arg10_37 m ρ c)
theorem k_arg11_38 : W38 m ρ c (Proc.devRef .tc main_arg11) = (KA m c).a11 :=
  (StableHlo.after_of_writes_sub hostOps11_8 (W37 m ρ c) kwrites38_sub (by decide)).trans (k_arg11_37 m ρ c)
theorem k_arg12_38 : W38 m ρ c (Proc.devRef .tc main_arg12) = (KA m c).a12 :=
  (StableHlo.after_of_writes_sub hostOps11_8 (W37 m ρ c) kwrites38_sub (by decide)).trans (k_arg12_37 m ρ c)
theorem k_arg13_38 : W38 m ρ c (Proc.devRef .tc main_arg13) = (KA m c).a13 :=
  (StableHlo.after_of_writes_sub hostOps11_8 (W37 m ρ c) kwrites38_sub (by decide)).trans (k_arg13_37 m ρ c)
theorem k_arg14_38 : W38 m ρ c (Proc.devRef .tc main_arg14) = (KA m c).a14 :=
  (StableHlo.after_of_writes_sub hostOps11_8 (W37 m ρ c) kwrites38_sub (by decide)).trans (k_arg14_37 m ρ c)
theorem k_arg15_38 : W38 m ρ c (Proc.devRef .tc main_arg15) = (KA m c).a15 :=
  (StableHlo.after_of_writes_sub hostOps11_8 (W37 m ρ c) kwrites38_sub (by decide)).trans (k_arg15_37 m ρ c)
theorem k_arg20_38 : W38 m ρ c (Proc.devRef .tc main_arg20) = (KA m c).a20 :=
  (StableHlo.after_of_writes_sub hostOps11_8 (W37 m ρ c) kwrites38_sub (by decide)).trans (k_arg20_37 m ρ c)
theorem k_arg22_38 : W38 m ρ c (Proc.devRef .tc main_arg22) = (KA m c).a22 :=
  (StableHlo.after_of_writes_sub hostOps11_8 (W37 m ρ c) kwrites38_sub (by decide)).trans (k_arg22_37 m ρ c)
theorem k_arg21_38 : W38 m ρ c (Proc.devRef .tc main_arg21) = (KA m c).a21 :=
  (StableHlo.after_of_writes_sub hostOps11_8 (W37 m ρ c) kwrites38_sub (by decide)).trans (k_arg21_37 m ρ c)
theorem k_arg23_38 : W38 m ρ c (Proc.devRef .tc main_arg23) = (KA m c).a23 :=
  (StableHlo.after_of_writes_sub hostOps11_8 (W37 m ρ c) kwrites38_sub (by decide)).trans (k_arg23_37 m ρ c)
theorem k_arg16_38 : W38 m ρ c (Proc.devRef .tc main_arg16) = (KA m c).a16 :=
  (StableHlo.after_of_writes_sub hostOps11_8 (W37 m ρ c) kwrites38_sub (by decide)).trans (k_arg16_37 m ρ c)
theorem k_arg17_38 : W38 m ρ c (Proc.devRef .tc main_arg17) = (KA m c).a17 :=
  (StableHlo.after_of_writes_sub hostOps11_8 (W37 m ρ c) kwrites38_sub (by decide)).trans (k_arg17_37 m ρ c)
theorem k_arg18_38 : W38 m ρ c (Proc.devRef .tc main_arg18) = (KA m c).a18 :=
  (StableHlo.after_of_writes_sub hostOps11_8 (W37 m ρ c) kwrites38_sub (by decide)).trans (k_arg18_37 m ρ c)
theorem k_arg19_38 : W38 m ρ c (Proc.devRef .tc main_arg19) = (KA m c).a19 :=
  (StableHlo.after_of_writes_sub hostOps11_8 (W37 m ρ c) kwrites38_sub (by decide)).trans (k_arg19_37 m ρ c)
theorem k_v132_38 : W38 m ρ c (Proc.devRef .tc main_v132) = Spec.g_v229 (KA m c) :=
  (StableHlo.after_of_writes_sub hostOps11_8 (W37 m ρ c) kwrites38_sub (by decide)).trans (k_v132_37 m ρ c)
theorem k_v134_38 : W38 m ρ c (Proc.devRef .tc main_v134) = Spec.g_v231 (KA m c) :=
  (StableHlo.after_of_writes_sub hostOps11_8 (W37 m ρ c) kwrites38_sub (by decide)).trans (k_v134_37 m ρ c)
theorem k_v136_38 : W38 m ρ c (Proc.devRef .tc main_v136) = Spec.g_v233 (KA m c) :=
  (StableHlo.after_of_writes_sub hostOps11_8 (W37 m ρ c) kwrites38_sub (by decide)).trans (k_v136_37 m ρ c)
theorem k_v138_38 : W38 m ρ c (Proc.devRef .tc main_v138) = Spec.g_v235 (KA m c) :=
  (StableHlo.after_of_writes_sub hostOps11_8 (W37 m ρ c) kwrites38_sub (by decide)).trans (k_v138_37 m ρ c)
theorem k_v199_38 : W38 m ρ c (Proc.devRef .tc main_v199) = Spec.g_v307 (KA m c) :=
  (StableHlo.after_of_writes_sub hostOps11_8 (W37 m ρ c) kwrites38_sub (by decide)).trans (k_v199_37 m ρ c)
theorem k_v204_38 : W38 m ρ c (Proc.devRef .tc main_v204) = Spec.g_v347 (KA m c) :=
  (StableHlo.after_of_writes_sub hostOps11_8 (W37 m ρ c) kwrites38_sub (by decide)).trans (k_v204_37 m ρ c)
theorem k_v209_38 : W38 m ρ c (Proc.devRef .tc main_v209) = Spec.g_v389 (KA m c) :=
  (StableHlo.after_of_writes_sub hostOps11_8 (W37 m ρ c) kwrites38_sub (by decide)).trans (k_v209_37 m ρ c)
theorem k_v214_38 : W38 m ρ c (Proc.devRef .tc main_v214) = Spec.g_v429 (KA m c) :=
  (StableHlo.after_of_writes_sub hostOps11_8 (W37 m ρ c) kwrites38_sub (by decide)).trans (k_v214_37 m ρ c)
theorem k_v217_38 : W38 m ρ c (Proc.devRef .tc main_v217) = Spec.g_v310 (KA m c) :=
  (StableHlo.after_of_writes_sub hostOps11_8 (W37 m ρ c) kwrites38_sub (by decide)).trans (k_v217_37 m ρ c)
theorem k_v218_38 : W38 m ρ c (Proc.devRef .tc main_v218) = Spec.g_v311 (KA m c) :=
  (StableHlo.after_of_writes_sub hostOps11_8 (W37 m ρ c) kwrites38_sub (by decide)).trans (k_v218_37 m ρ c)
theorem k_v221_38 : W38 m ρ c (Proc.devRef .tc main_v221) = Spec.g_v350 (KA m c) :=
  (StableHlo.after_of_writes_sub hostOps11_8 (W37 m ρ c) kwrites38_sub (by decide)).trans (k_v221_37 m ρ c)
theorem k_v222_38 : W38 m ρ c (Proc.devRef .tc main_v222) = Spec.g_v351 (KA m c) :=
  (StableHlo.after_of_writes_sub hostOps11_8 (W37 m ρ c) kwrites38_sub (by decide)).trans (k_v222_37 m ρ c)
theorem k_v225_38 : W38 m ρ c (Proc.devRef .tc main_v225) = Spec.g_v392 (KA m c) :=
  (StableHlo.after_of_writes_sub hostOps11_8 (W37 m ρ c) kwrites38_sub (by decide)).trans (k_v225_37 m ρ c)
theorem k_v226_38 : W38 m ρ c (Proc.devRef .tc main_v226) = Spec.g_v393 (KA m c) :=
  (StableHlo.after_of_writes_sub hostOps11_8 (W37 m ρ c) kwrites38_sub (by decide)).trans (k_v226_37 m ρ c)
theorem k_v229_38 : W38 m ρ c (Proc.devRef .tc main_v229) = Spec.g_v432 (KA m c) :=
  (StableHlo.after_of_writes_sub hostOps11_8 (W37 m ρ c) kwrites38_sub (by decide)).trans (k_v229_37 m ρ c)
theorem k_v230_38 : W38 m ρ c (Proc.devRef .tc main_v230) = Spec.g_v433 (KA m c) :=
  (StableHlo.after_of_writes_sub hostOps11_8 (W37 m ρ c) kwrites38_sub (by decide)).trans (k_v230_37 m ρ c)
theorem k_v232_38 : W38 m ρ c (Proc.devRef .tc main_v232) = Spec.g_v297 (KA m c) := by
  have e0 := k_v132_37 m ρ c
  show StableHlo.after hostOps11_8 (W37 m ρ c) (Proc.devRef .tc main_v232) = _
  generalize W37 m ρ c = V at e0 ⊢
  after_results_simp
  try simp only [e0]
  rfl
theorem k_v234_38 : W38 m ρ c (Proc.devRef .tc main_v234) = Spec.g_v299 (KA m c) := by
  have e0 := k_v134_37 m ρ c
  show StableHlo.after hostOps11_8 (W37 m ρ c) (Proc.devRef .tc main_v234) = _
  generalize W37 m ρ c = V at e0 ⊢
  after_results_simp
  try simp only [e0]
  rfl
theorem k_v236_38 : W38 m ρ c (Proc.devRef .tc main_v236) = Spec.g_v301 (KA m c) := by
  have e0 := k_v136_37 m ρ c
  show StableHlo.after hostOps11_8 (W37 m ρ c) (Proc.devRef .tc main_v236) = _
  generalize W37 m ρ c = V at e0 ⊢
  after_results_simp
  try simp only [e0]
  rfl
theorem k_v238_38 : W38 m ρ c (Proc.devRef .tc main_v238) = Spec.g_v303 (KA m c) := by
  have e0 := k_v138_37 m ρ c
  show StableHlo.after hostOps11_8 (W37 m ρ c) (Proc.devRef .tc main_v238) = _
  generalize W37 m ρ c = V at e0 ⊢
  after_results_simp
  try simp only [e0]
  rfl
theorem k_v240_38 : W38 m ρ c (Proc.devRef .tc main_v240) = Spec.g_v337 (KA m c) := by
  have e0 := k_v132_37 m ρ c
  show StableHlo.after hostOps11_8 (W37 m ρ c) (Proc.devRef .tc main_v240) = _
  generalize W37 m ρ c = V at e0 ⊢
  after_results_simp
  try simp only [e0]
  rfl
theorem k_v242_38 : W38 m ρ c (Proc.devRef .tc main_v242) = Spec.g_v339 (KA m c) := by
  have e0 := k_v134_37 m ρ c
  show StableHlo.after hostOps11_8 (W37 m ρ c) (Proc.devRef .tc main_v242) = _
  generalize W37 m ρ c = V at e0 ⊢
  after_results_simp
  try simp only [e0]
  rfl
theorem k_v244_38 : W38 m ρ c (Proc.devRef .tc main_v244) = Spec.g_v341 (KA m c) := by
  have e0 := k_v136_37 m ρ c
  show StableHlo.after hostOps11_8 (W37 m ρ c) (Proc.devRef .tc main_v244) = _
  generalize W37 m ρ c = V at e0 ⊢
  after_results_simp
  try simp only [e0]
  rfl
theorem k_v246_38 : W38 m ρ c (Proc.devRef .tc main_v246) = Spec.g_v343 (KA m c) := by
  have e0 := k_v138_37 m ρ c
  show StableHlo.after hostOps11_8 (W37 m ρ c) (Proc.devRef .tc main_v246) = _
  generalize W37 m ρ c = V at e0 ⊢
  after_results_simp
  try simp only [e0]
  rfl

/-! ### Boundary 39: after region 11 -/

theorem k_arg10_39 : W39 m ρ c (Proc.devRef .tc main_arg10) = (KA m c).a10 :=
  (W39_of_ne m ρ c main_arg10 (by decide)).trans (k_arg10_38 m ρ c)
theorem k_arg11_39 : W39 m ρ c (Proc.devRef .tc main_arg11) = (KA m c).a11 :=
  (W39_of_ne m ρ c main_arg11 (by decide)).trans (k_arg11_38 m ρ c)
theorem k_arg12_39 : W39 m ρ c (Proc.devRef .tc main_arg12) = (KA m c).a12 :=
  (W39_of_ne m ρ c main_arg12 (by decide)).trans (k_arg12_38 m ρ c)
theorem k_arg13_39 : W39 m ρ c (Proc.devRef .tc main_arg13) = (KA m c).a13 :=
  (W39_of_ne m ρ c main_arg13 (by decide)).trans (k_arg13_38 m ρ c)
theorem k_arg14_39 : W39 m ρ c (Proc.devRef .tc main_arg14) = (KA m c).a14 :=
  (W39_of_ne m ρ c main_arg14 (by decide)).trans (k_arg14_38 m ρ c)
theorem k_arg15_39 : W39 m ρ c (Proc.devRef .tc main_arg15) = (KA m c).a15 :=
  (W39_of_ne m ρ c main_arg15 (by decide)).trans (k_arg15_38 m ρ c)
theorem k_arg20_39 : W39 m ρ c (Proc.devRef .tc main_arg20) = (KA m c).a20 :=
  (W39_of_ne m ρ c main_arg20 (by decide)).trans (k_arg20_38 m ρ c)
theorem k_arg22_39 : W39 m ρ c (Proc.devRef .tc main_arg22) = (KA m c).a22 :=
  (W39_of_ne m ρ c main_arg22 (by decide)).trans (k_arg22_38 m ρ c)
theorem k_arg21_39 : W39 m ρ c (Proc.devRef .tc main_arg21) = (KA m c).a21 :=
  (W39_of_ne m ρ c main_arg21 (by decide)).trans (k_arg21_38 m ρ c)
theorem k_arg23_39 : W39 m ρ c (Proc.devRef .tc main_arg23) = (KA m c).a23 :=
  (W39_of_ne m ρ c main_arg23 (by decide)).trans (k_arg23_38 m ρ c)
theorem k_arg16_39 : W39 m ρ c (Proc.devRef .tc main_arg16) = (KA m c).a16 :=
  (W39_of_ne m ρ c main_arg16 (by decide)).trans (k_arg16_38 m ρ c)
theorem k_arg17_39 : W39 m ρ c (Proc.devRef .tc main_arg17) = (KA m c).a17 :=
  (W39_of_ne m ρ c main_arg17 (by decide)).trans (k_arg17_38 m ρ c)
theorem k_arg18_39 : W39 m ρ c (Proc.devRef .tc main_arg18) = (KA m c).a18 :=
  (W39_of_ne m ρ c main_arg18 (by decide)).trans (k_arg18_38 m ρ c)
theorem k_arg19_39 : W39 m ρ c (Proc.devRef .tc main_arg19) = (KA m c).a19 :=
  (W39_of_ne m ρ c main_arg19 (by decide)).trans (k_arg19_38 m ρ c)
theorem k_v132_39 : W39 m ρ c (Proc.devRef .tc main_v132) = Spec.g_v229 (KA m c) :=
  (W39_of_ne m ρ c main_v132 (by decide)).trans (k_v132_38 m ρ c)
theorem k_v134_39 : W39 m ρ c (Proc.devRef .tc main_v134) = Spec.g_v231 (KA m c) :=
  (W39_of_ne m ρ c main_v134 (by decide)).trans (k_v134_38 m ρ c)
theorem k_v136_39 : W39 m ρ c (Proc.devRef .tc main_v136) = Spec.g_v233 (KA m c) :=
  (W39_of_ne m ρ c main_v136 (by decide)).trans (k_v136_38 m ρ c)
theorem k_v138_39 : W39 m ρ c (Proc.devRef .tc main_v138) = Spec.g_v235 (KA m c) :=
  (W39_of_ne m ρ c main_v138 (by decide)).trans (k_v138_38 m ρ c)
theorem k_v209_39 : W39 m ρ c (Proc.devRef .tc main_v209) = Spec.g_v389 (KA m c) :=
  (W39_of_ne m ρ c main_v209 (by decide)).trans (k_v209_38 m ρ c)
theorem k_v214_39 : W39 m ρ c (Proc.devRef .tc main_v214) = Spec.g_v429 (KA m c) :=
  (W39_of_ne m ρ c main_v214 (by decide)).trans (k_v214_38 m ρ c)
theorem k_v225_39 : W39 m ρ c (Proc.devRef .tc main_v225) = Spec.g_v392 (KA m c) :=
  (W39_of_ne m ρ c main_v225 (by decide)).trans (k_v225_38 m ρ c)
theorem k_v226_39 : W39 m ρ c (Proc.devRef .tc main_v226) = Spec.g_v393 (KA m c) :=
  (W39_of_ne m ρ c main_v226 (by decide)).trans (k_v226_38 m ρ c)
theorem k_v229_39 : W39 m ρ c (Proc.devRef .tc main_v229) = Spec.g_v432 (KA m c) :=
  (W39_of_ne m ρ c main_v229 (by decide)).trans (k_v229_38 m ρ c)
theorem k_v230_39 : W39 m ρ c (Proc.devRef .tc main_v230) = Spec.g_v433 (KA m c) :=
  (W39_of_ne m ρ c main_v230 (by decide)).trans (k_v230_38 m ρ c)
theorem k_v247_39 : W39 m ρ c (Proc.devRef .tc main_v247) = Spec.g_v373 (KA m c) := by
  refine (W39_arr m ρ c (14 : Fin cfg11.W)).trans ?_
  refine (RegionValue.RegionFacts.reg11 (V38 m ρ) c).trans ?_
  show Spec.combOp (W38 m ρ c (Proc.devRef .tc main_v199)) (W38 m ρ c (Proc.devRef .tc main_v217)) (W38 m ρ c (Proc.devRef .tc main_v218)) (W38 m ρ c (Proc.devRef .tc main_v232)) (W38 m ρ c (Proc.devRef .tc main_v234)) (W38 m ρ c (Proc.devRef .tc main_v236)) (W38 m ρ c (Proc.devRef .tc main_v238)) (W38 m ρ c (Proc.devRef .tc main_v204)) (W38 m ρ c (Proc.devRef .tc main_v221)) (W38 m ρ c (Proc.devRef .tc main_v222)) (W38 m ρ c (Proc.devRef .tc main_v240)) (W38 m ρ c (Proc.devRef .tc main_v242)) (W38 m ρ c (Proc.devRef .tc main_v244)) (W38 m ρ c (Proc.devRef .tc main_v246)) = _
  rw [k_v199_38 m ρ c, k_v217_38 m ρ c, k_v218_38 m ρ c, k_v232_38 m ρ c, k_v234_38 m ρ c, k_v236_38 m ρ c, k_v238_38 m ρ c, k_v204_38 m ρ c, k_v221_38 m ρ c, k_v222_38 m ρ c, k_v240_38 m ρ c, k_v242_38 m ρ c, k_v244_38 m ρ c, k_v246_38 m ρ c]
  rfl

/-! ### Boundary 40: after the host stretch hostOps12 -/

theorem k_arg10_40 : W40 m ρ c (Proc.devRef .tc main_arg10) = (KA m c).a10 :=
  (StableHlo.after_of_writes_sub hostOps12 (W39 m ρ c) kwrites40_sub (by decide)).trans (k_arg10_39 m ρ c)
theorem k_arg11_40 : W40 m ρ c (Proc.devRef .tc main_arg11) = (KA m c).a11 :=
  (StableHlo.after_of_writes_sub hostOps12 (W39 m ρ c) kwrites40_sub (by decide)).trans (k_arg11_39 m ρ c)
theorem k_arg12_40 : W40 m ρ c (Proc.devRef .tc main_arg12) = (KA m c).a12 :=
  (StableHlo.after_of_writes_sub hostOps12 (W39 m ρ c) kwrites40_sub (by decide)).trans (k_arg12_39 m ρ c)
theorem k_arg13_40 : W40 m ρ c (Proc.devRef .tc main_arg13) = (KA m c).a13 :=
  (StableHlo.after_of_writes_sub hostOps12 (W39 m ρ c) kwrites40_sub (by decide)).trans (k_arg13_39 m ρ c)
theorem k_arg14_40 : W40 m ρ c (Proc.devRef .tc main_arg14) = (KA m c).a14 :=
  (StableHlo.after_of_writes_sub hostOps12 (W39 m ρ c) kwrites40_sub (by decide)).trans (k_arg14_39 m ρ c)
theorem k_arg15_40 : W40 m ρ c (Proc.devRef .tc main_arg15) = (KA m c).a15 :=
  (StableHlo.after_of_writes_sub hostOps12 (W39 m ρ c) kwrites40_sub (by decide)).trans (k_arg15_39 m ρ c)
theorem k_arg20_40 : W40 m ρ c (Proc.devRef .tc main_arg20) = (KA m c).a20 :=
  (StableHlo.after_of_writes_sub hostOps12 (W39 m ρ c) kwrites40_sub (by decide)).trans (k_arg20_39 m ρ c)
theorem k_arg22_40 : W40 m ρ c (Proc.devRef .tc main_arg22) = (KA m c).a22 :=
  (StableHlo.after_of_writes_sub hostOps12 (W39 m ρ c) kwrites40_sub (by decide)).trans (k_arg22_39 m ρ c)
theorem k_arg21_40 : W40 m ρ c (Proc.devRef .tc main_arg21) = (KA m c).a21 :=
  (StableHlo.after_of_writes_sub hostOps12 (W39 m ρ c) kwrites40_sub (by decide)).trans (k_arg21_39 m ρ c)
theorem k_arg23_40 : W40 m ρ c (Proc.devRef .tc main_arg23) = (KA m c).a23 :=
  (StableHlo.after_of_writes_sub hostOps12 (W39 m ρ c) kwrites40_sub (by decide)).trans (k_arg23_39 m ρ c)
theorem k_arg16_40 : W40 m ρ c (Proc.devRef .tc main_arg16) = (KA m c).a16 :=
  (StableHlo.after_of_writes_sub hostOps12 (W39 m ρ c) kwrites40_sub (by decide)).trans (k_arg16_39 m ρ c)
theorem k_arg17_40 : W40 m ρ c (Proc.devRef .tc main_arg17) = (KA m c).a17 :=
  (StableHlo.after_of_writes_sub hostOps12 (W39 m ρ c) kwrites40_sub (by decide)).trans (k_arg17_39 m ρ c)
theorem k_arg18_40 : W40 m ρ c (Proc.devRef .tc main_arg18) = (KA m c).a18 :=
  (StableHlo.after_of_writes_sub hostOps12 (W39 m ρ c) kwrites40_sub (by decide)).trans (k_arg18_39 m ρ c)
theorem k_arg19_40 : W40 m ρ c (Proc.devRef .tc main_arg19) = (KA m c).a19 :=
  (StableHlo.after_of_writes_sub hostOps12 (W39 m ρ c) kwrites40_sub (by decide)).trans (k_arg19_39 m ρ c)
theorem k_v209_40 : W40 m ρ c (Proc.devRef .tc main_v209) = Spec.g_v389 (KA m c) :=
  (StableHlo.after_of_writes_sub hostOps12 (W39 m ρ c) kwrites40_sub (by decide)).trans (k_v209_39 m ρ c)
theorem k_v214_40 : W40 m ρ c (Proc.devRef .tc main_v214) = Spec.g_v429 (KA m c) :=
  (StableHlo.after_of_writes_sub hostOps12 (W39 m ρ c) kwrites40_sub (by decide)).trans (k_v214_39 m ρ c)
theorem k_v225_40 : W40 m ρ c (Proc.devRef .tc main_v225) = Spec.g_v392 (KA m c) :=
  (StableHlo.after_of_writes_sub hostOps12 (W39 m ρ c) kwrites40_sub (by decide)).trans (k_v225_39 m ρ c)
theorem k_v226_40 : W40 m ρ c (Proc.devRef .tc main_v226) = Spec.g_v393 (KA m c) :=
  (StableHlo.after_of_writes_sub hostOps12 (W39 m ρ c) kwrites40_sub (by decide)).trans (k_v226_39 m ρ c)
theorem k_v229_40 : W40 m ρ c (Proc.devRef .tc main_v229) = Spec.g_v432 (KA m c) :=
  (StableHlo.after_of_writes_sub hostOps12 (W39 m ρ c) kwrites40_sub (by decide)).trans (k_v229_39 m ρ c)
theorem k_v230_40 : W40 m ρ c (Proc.devRef .tc main_v230) = Spec.g_v433 (KA m c) :=
  (StableHlo.after_of_writes_sub hostOps12 (W39 m ρ c) kwrites40_sub (by decide)).trans (k_v230_39 m ρ c)
theorem k_v247_40 : W40 m ρ c (Proc.devRef .tc main_v247) = Spec.g_v373 (KA m c) :=
  (StableHlo.after_of_writes_sub hostOps12 (W39 m ρ c) kwrites40_sub (by decide)).trans (k_v247_39 m ρ c)
theorem k_v249_40 : W40 m ρ c (Proc.devRef .tc main_v249) = Spec.g_v379 (KA m c) := by
  show StableHlo.after hostOps12 (W39 m ρ c) (Proc.devRef .tc main_v249) = _
  after_results_simp
  try simp only [k_v132_39 m ρ c]
  rfl
theorem k_v251_40 : W40 m ρ c (Proc.devRef .tc main_v251) = Spec.g_v381 (KA m c) := by
  show StableHlo.after hostOps12 (W39 m ρ c) (Proc.devRef .tc main_v251) = _
  after_results_simp
  try simp only [k_v134_39 m ρ c]
  rfl
theorem k_v253_40 : W40 m ρ c (Proc.devRef .tc main_v253) = Spec.g_v383 (KA m c) := by
  show StableHlo.after hostOps12 (W39 m ρ c) (Proc.devRef .tc main_v253) = _
  after_results_simp
  try simp only [k_v136_39 m ρ c]
  rfl
theorem k_v255_40 : W40 m ρ c (Proc.devRef .tc main_v255) = Spec.g_v385 (KA m c) := by
  show StableHlo.after hostOps12 (W39 m ρ c) (Proc.devRef .tc main_v255) = _
  after_results_simp
  try simp only [k_v138_39 m ρ c]
  rfl
theorem k_v257_40 : W40 m ρ c (Proc.devRef .tc main_v257) = Spec.g_v419 (KA m c) := by
  show StableHlo.after hostOps12 (W39 m ρ c) (Proc.devRef .tc main_v257) = _
  after_results_simp
  try simp only [k_v132_39 m ρ c]
  rfl
theorem k_v259_40 : W40 m ρ c (Proc.devRef .tc main_v259) = Spec.g_v421 (KA m c) := by
  show StableHlo.after hostOps12 (W39 m ρ c) (Proc.devRef .tc main_v259) = _
  after_results_simp
  try simp only [k_v134_39 m ρ c]
  rfl
theorem k_v261_40 : W40 m ρ c (Proc.devRef .tc main_v261) = Spec.g_v423 (KA m c) := by
  show StableHlo.after hostOps12 (W39 m ρ c) (Proc.devRef .tc main_v261) = _
  after_results_simp
  try simp only [k_v136_39 m ρ c]
  rfl
theorem k_v263_40 : W40 m ρ c (Proc.devRef .tc main_v263) = Spec.g_v425 (KA m c) := by
  show StableHlo.after hostOps12 (W39 m ρ c) (Proc.devRef .tc main_v263) = _
  after_results_simp
  try simp only [k_v138_39 m ρ c]
  rfl

/-! ### Boundary 41: after region 12 -/

theorem k_arg10_41 : W41 m ρ c (Proc.devRef .tc main_arg10) = (KA m c).a10 :=
  (W41_of_ne m ρ c main_arg10 (by decide)).trans (k_arg10_40 m ρ c)
theorem k_arg11_41 : W41 m ρ c (Proc.devRef .tc main_arg11) = (KA m c).a11 :=
  (W41_of_ne m ρ c main_arg11 (by decide)).trans (k_arg11_40 m ρ c)
theorem k_arg12_41 : W41 m ρ c (Proc.devRef .tc main_arg12) = (KA m c).a12 :=
  (W41_of_ne m ρ c main_arg12 (by decide)).trans (k_arg12_40 m ρ c)
theorem k_arg13_41 : W41 m ρ c (Proc.devRef .tc main_arg13) = (KA m c).a13 :=
  (W41_of_ne m ρ c main_arg13 (by decide)).trans (k_arg13_40 m ρ c)
theorem k_arg14_41 : W41 m ρ c (Proc.devRef .tc main_arg14) = (KA m c).a14 :=
  (W41_of_ne m ρ c main_arg14 (by decide)).trans (k_arg14_40 m ρ c)
theorem k_arg15_41 : W41 m ρ c (Proc.devRef .tc main_arg15) = (KA m c).a15 :=
  (W41_of_ne m ρ c main_arg15 (by decide)).trans (k_arg15_40 m ρ c)
theorem k_arg20_41 : W41 m ρ c (Proc.devRef .tc main_arg20) = (KA m c).a20 :=
  (W41_of_ne m ρ c main_arg20 (by decide)).trans (k_arg20_40 m ρ c)
theorem k_arg22_41 : W41 m ρ c (Proc.devRef .tc main_arg22) = (KA m c).a22 :=
  (W41_of_ne m ρ c main_arg22 (by decide)).trans (k_arg22_40 m ρ c)
theorem k_arg21_41 : W41 m ρ c (Proc.devRef .tc main_arg21) = (KA m c).a21 :=
  (W41_of_ne m ρ c main_arg21 (by decide)).trans (k_arg21_40 m ρ c)
theorem k_arg23_41 : W41 m ρ c (Proc.devRef .tc main_arg23) = (KA m c).a23 :=
  (W41_of_ne m ρ c main_arg23 (by decide)).trans (k_arg23_40 m ρ c)
theorem k_arg16_41 : W41 m ρ c (Proc.devRef .tc main_arg16) = (KA m c).a16 :=
  (W41_of_ne m ρ c main_arg16 (by decide)).trans (k_arg16_40 m ρ c)
theorem k_arg17_41 : W41 m ρ c (Proc.devRef .tc main_arg17) = (KA m c).a17 :=
  (W41_of_ne m ρ c main_arg17 (by decide)).trans (k_arg17_40 m ρ c)
theorem k_arg18_41 : W41 m ρ c (Proc.devRef .tc main_arg18) = (KA m c).a18 :=
  (W41_of_ne m ρ c main_arg18 (by decide)).trans (k_arg18_40 m ρ c)
theorem k_arg19_41 : W41 m ρ c (Proc.devRef .tc main_arg19) = (KA m c).a19 :=
  (W41_of_ne m ρ c main_arg19 (by decide)).trans (k_arg19_40 m ρ c)
theorem k_v247_41 : W41 m ρ c (Proc.devRef .tc main_v247) = Spec.g_v373 (KA m c) :=
  (W41_of_ne m ρ c main_v247 (by decide)).trans (k_v247_40 m ρ c)
theorem k_v264_41 : W41 m ρ c (Proc.devRef .tc main_v264) = Spec.g_v455 (KA m c) := by
  refine (W41_arr m ρ c (14 : Fin cfg12.W)).trans ?_
  refine (RegionValue.RegionFacts.reg12 (V40 m ρ) c).trans ?_
  show Spec.combM (W40 m ρ c (Proc.devRef .tc main_v209)) (W40 m ρ c (Proc.devRef .tc main_v225)) (W40 m ρ c (Proc.devRef .tc main_v226)) (W40 m ρ c (Proc.devRef .tc main_v249)) (W40 m ρ c (Proc.devRef .tc main_v251)) (W40 m ρ c (Proc.devRef .tc main_v253)) (W40 m ρ c (Proc.devRef .tc main_v255)) (W40 m ρ c (Proc.devRef .tc main_v214)) (W40 m ρ c (Proc.devRef .tc main_v229)) (W40 m ρ c (Proc.devRef .tc main_v230)) (W40 m ρ c (Proc.devRef .tc main_v257)) (W40 m ρ c (Proc.devRef .tc main_v259)) (W40 m ρ c (Proc.devRef .tc main_v261)) (W40 m ρ c (Proc.devRef .tc main_v263)) = _
  rw [k_v209_40 m ρ c, k_v225_40 m ρ c, k_v226_40 m ρ c, k_v249_40 m ρ c, k_v251_40 m ρ c, k_v253_40 m ρ c, k_v255_40 m ρ c, k_v214_40 m ρ c, k_v229_40 m ρ c, k_v230_40 m ρ c, k_v257_40 m ρ c, k_v259_40 m ρ c, k_v261_40 m ρ c, k_v263_40 m ρ c]
  rfl

end Cert.KernelIdeal.Thread

end
-- ==== Proof.KThread4.lean ====
import proofs.«116822_j38594576122568_1_alg».proof.Proof.Gen.KernelIdeal.Frame
import proofs.«116822_j38594576122568_1_alg».proof.Proof.KWrites
import proofs.«116822_j38594576122568_1_alg».proof.Proof.KPlain
import proofs.«116822_j38594576122568_1_alg».proof.Proof.SpecValues
import proofs.«116822_j38594576122568_1_alg».proof.Proof.RegionStatements
import proofs.«116822_j38594576122568_1_alg».proof.Proof.KThread3
import Idealize.ShloMosaic.Lib.StableHlo.Run

/-! The kernel program's run read boundary by boundary (boundaries 42 to 49 of the generated frame's valuations): what each
    buffer read again later holds there, as the shared value of the reference's run. A stretch of host operations is read
    through; a region's output array is the region's layer function of its input arrays; everything else is carried. -/

set_option maxRecDepth 16384

noncomputable section

namespace Cert.KernelIdeal.Thread

open Cert.KernelIdeal Cert.KernelIdeal.Gen Idealize.ShloMosaic Idealize.ShloMosaic.TcCoe Idealize.SL.Sem Idealize.ShloMosaic.StableHlo

variable [RegionValue.RegionFacts] (m : (ℓ : Loc nD τ sig) → Buf (Elt Ideal) ℓ) (ρ : Dev nD → PrngReg) (c : Dev nD)

/-! ### Boundary 42: after the host stretch hostOps13 -/

theorem k_arg16_42 : W42 m ρ c (Proc.devRef .tc main_arg16) = (KA m c).a16 :=
  (StableHlo.after_of_writes_sub hostOps13 (W41 m ρ c) kwrites42_sub (by decide)).trans (k_arg16_41 m ρ c)
theorem k_arg17_42 : W42 m ρ c (Proc.devRef .tc main_arg17) = (KA m c).a17 :=
  (StableHlo.after_of_writes_sub hostOps13 (W41 m ρ c) kwrites42_sub (by decide)).trans (k_arg17_41 m ρ c)
theorem k_arg18_42 : W42 m ρ c (Proc.devRef .tc main_arg18) = (KA m c).a18 :=
  (StableHlo.after_of_writes_sub hostOps13 (W41 m ρ c) kwrites42_sub (by decide)).trans (k_arg18_41 m ρ c)
theorem k_arg19_42 : W42 m ρ c (Proc.devRef .tc main_arg19) = (KA m c).a19 :=
  (StableHlo.after_of_writes_sub hostOps13 (W41 m ρ c) kwrites42_sub (by decide)).trans (k_arg19_41 m ρ c)
theorem k_v266_42 : W42 m ρ c (Proc.devRef .tc main_v266) = Spec.g_v457 (KA m c) := by
  show StableHlo.after hostOps13 (W41 m ρ c) (Proc.devRef .tc main_v266) = _
  after_results_simp
  try simp only [k_arg10_41 m ρ c]
  rfl
theorem k_v268_42 : W42 m ρ c (Proc.devRef .tc main_v268) = Spec.g_v459 (KA m c) := by
  show StableHlo.after hostOps13 (W41 m ρ c) (Proc.devRef .tc main_v268) = _
  after_results_simp
  try simp only [k_arg11_41 m ρ c]
  rfl
theorem k_v270_42 : W42 m ρ c (Proc.devRef .tc main_v270) = Spec.g_v461 (KA m c) := by
  show StableHlo.after hostOps13 (W41 m ρ c) (Proc.devRef .tc main_v270) = _
  after_results_simp
  try simp only [k_arg12_41 m ρ c]
  rfl
theorem k_v272_42 : W42 m ρ c (Proc.devRef .tc main_v272) = Spec.g_v463 (KA m c) := by
  show StableHlo.after hostOps13 (W41 m ρ c) (Proc.devRef .tc main_v272) = _
  after_results_simp
  try simp only [k_arg13_41 m ρ c]
  rfl
theorem k_v274_42 : W42 m ρ c (Proc.devRef .tc main_v274) = Spec.g_v465 (KA m c) := by
  show StableHlo.after hostOps13 (W41 m ρ c) (Proc.devRef .tc main_v274) = _
  after_results_simp
  try simp only [k_arg14_41 m ρ c]
  rfl
theorem k_v276_42 : W42 m ρ c (Proc.devRef .tc main_v276) = Spec.g_v467 (KA m c) := by
  show StableHlo.after hostOps13 (W41 m ρ c) (Proc.devRef .tc main_v276) = _
  after_results_simp
  try simp only [k_arg15_41 m ρ c]
  rfl
theorem k_v290_42 : W42 m ρ c (Proc.devRef .tc main_v290) = Spec.g_v481 (KA m c) := by
  show StableHlo.after hostOps13 (W41 m ρ c) (Proc.devRef .tc main_v290) = _
  after_results_simp
  try simp only [k_arg20_41 m ρ c, k_v247_41 m ρ c]
  rfl
theorem k_v304_42 : W42 m ρ c (Proc.devRef .tc main_v304) = Spec.g_v495 (KA m c) := by
  show StableHlo.after hostOps13 (W41 m ρ c) (Proc.devRef .tc main_v304) = _
  after_results_simp
  try simp only [k_arg22_41 m ρ c, k_v264_41 m ρ c]
  rfl
theorem k_v318_42 : W42 m ρ c (Proc.devRef .tc main_v318) = Spec.g_v509 (KA m c) := by
  show StableHlo.after hostOps13 (W41 m ρ c) (Proc.devRef .tc main_v318) = _
  after_results_simp
  try simp only [k_arg21_41 m ρ c, k_v247_41 m ρ c]
  rfl
theorem k_v332_42 : W42 m ρ c (Proc.devRef .tc main_v332) = Spec.g_v523 (KA m c) := by
  show StableHlo.after hostOps13 (W41 m ρ c) (Proc.devRef .tc main_v332) = _
  after_results_simp
  try simp only [k_arg23_41 m ρ c, k_v264_41 m ρ c]
  rfl
theorem k_v334_42 : W42 m ρ c (Proc.devRef .tc main_v334) = Spec.g_v525 (KA m c) := by
  show StableHlo.after hostOps13 (W41 m ρ c) (Proc.devRef .tc main_v334) = _
  after_results_simp
  try simp only [k_arg10_41 m ρ c]
  rfl
theorem k_v336_42 : W42 m ρ c (Proc.devRef .tc main_v336) = Spec.g_v527 (KA m c) := by
  show StableHlo.after hostOps13 (W41 m ρ c) (Proc.devRef .tc main_v336) = _
  after_results_simp
  try simp only [k_arg11_41 m ρ c]
  rfl

/-! ### Boundary 43: after region 13 -/

theorem k_arg16_43 : W43 m ρ c (Proc.devRef .tc main_arg16) = (KA m c).a16 :=
  (W43_of_ne m ρ c main_arg16 (by decide)).trans (k_arg16_42 m ρ c)
theorem k_arg17_43 : W43 m ρ c (Proc.devRef .tc main_arg17) = (KA m c).a17 :=
  (W43_of_ne m ρ c main_arg17 (by decide)).trans (k_arg17_42 m ρ c)
theorem k_arg18_43 : W43 m ρ c (Proc.devRef .tc main_arg18) = (KA m c).a18 :=
  (W43_of_ne m ρ c main_arg18 (by decide)).trans (k_arg18_42 m ρ c)
theorem k_arg19_43 : W43 m ρ c (Proc.devRef .tc main_arg19) = (KA m c).a19 :=
  (W43_of_ne m ρ c main_arg19 (by decide)).trans (k_arg19_42 m ρ c)
theorem k_v266_43 : W43 m ρ c (Proc.devRef .tc main_v266) = Spec.g_v457 (KA m c) :=
  (W43_of_ne m ρ c main_v266 (by decide)).trans (k_v266_42 m ρ c)
theorem k_v268_43 : W43 m ρ c (Proc.devRef .tc main_v268) = Spec.g_v459 (KA m c) :=
  (W43_of_ne m ρ c main_v268 (by decide)).trans (k_v268_42 m ρ c)
theorem k_v270_43 : W43 m ρ c (Proc.devRef .tc main_v270) = Spec.g_v461 (KA m c) :=
  (W43_of_ne m ρ c main_v270 (by decide)).trans (k_v270_42 m ρ c)
theorem k_v272_43 : W43 m ρ c (Proc.devRef .tc main_v272) = Spec.g_v463 (KA m c) :=
  (W43_of_ne m ρ c main_v272 (by decide)).trans (k_v272_42 m ρ c)
theorem k_v274_43 : W43 m ρ c (Proc.devRef .tc main_v274) = Spec.g_v465 (KA m c) :=
  (W43_of_ne m ρ c main_v274 (by decide)).trans (k_v274_42 m ρ c)
theorem k_v276_43 : W43 m ρ c (Proc.devRef .tc main_v276) = Spec.g_v467 (KA m c) :=
  (W43_of_ne m ρ c main_v276 (by decide)).trans (k_v276_42 m ρ c)
theorem k_v304_43 : W43 m ρ c (Proc.devRef .tc main_v304) = Spec.g_v495 (KA m c) :=
  (W43_of_ne m ρ c main_v304 (by decide)).trans (k_v304_42 m ρ c)
theorem k_v318_43 : W43 m ρ c (Proc.devRef .tc main_v318) = Spec.g_v509 (KA m c) :=
  (W43_of_ne m ρ c main_v318 (by decide)).trans (k_v318_42 m ρ c)
theorem k_v332_43 : W43 m ρ c (Proc.devRef .tc main_v332) = Spec.g_v523 (KA m c) :=
  (W43_of_ne m ρ c main_v332 (by decide)).trans (k_v332_42 m ρ c)
theorem k_v337_43 : W43 m ρ c (Proc.devRef .tc main_v337) = Spec.g_v539 (KA m c) := by
  refine (W43_arr m ρ c (3 : Fin cfg13.W)).trans ?_
  refine (RegionValue.RegionFacts.reg13 (V42 m ρ) c).trans ?_
  show Spec.linD (W42 m ρ c (Proc.devRef .tc main_v290)) (W42 m ρ c (Proc.devRef .tc main_v334)) (W42 m ρ c (Proc.devRef .tc main_v336)) = _
  rw [k_v290_42 m ρ c, k_v334_42 m ρ c, k_v336_42 m ρ c]
  rfl

/-! ### Boundary 44: after the host stretch hostOps14 -/

theorem k_arg16_44 : W44 m ρ c (Proc.devRef .tc main_arg16) = (KA m c).a16 :=
  (StableHlo.after_of_writes_sub hostOps14 (W43 m ρ c) kwrites44_sub (by decide)).trans (k_arg16_43 m ρ c)
theorem k_arg17_44 : W44 m ρ c (Proc.devRef .tc main_arg17) = (KA m c).a17 :=
  (StableHlo.after_of_writes_sub hostOps14 (W43 m ρ c) kwrites44_sub (by decide)).trans (k_arg17_43 m ρ c)
theorem k_arg18_44 : W44 m ρ c (Proc.devRef .tc main_arg18) = (KA m c).a18 :=
  (StableHlo.after_of_writes_sub hostOps14 (W43 m ρ c) kwrites44_sub (by decide)).trans (k_arg18_43 m ρ c)
theorem k_arg19_44 : W44 m ρ c (Proc.devRef .tc main_arg19) = (KA m c).a19 :=
  (StableHlo.after_of_writes_sub hostOps14 (W43 m ρ c) kwrites44_sub (by decide)).trans (k_arg19_43 m ρ c)
theorem k_v266_44 : W44 m ρ c (Proc.devRef .tc main_v266) = Spec.g_v457 (KA m c) :=
  (StableHlo.after_of_writes_sub hostOps14 (W43 m ρ c) kwrites44_sub (by decide)).trans (k_v266_43 m ρ c)
theorem k_v268_44 : W44 m ρ c (Proc.devRef .tc main_v268) = Spec.g_v459 (KA m c) :=
  (StableHlo.after_of_writes_sub hostOps14 (W43 m ρ c) kwrites44_sub (by decide)).trans (k_v268_43 m ρ c)
theorem k_v270_44 : W44 m ρ c (Proc.devRef .tc main_v270) = Spec.g_v461 (KA m c) :=
  (StableHlo.after_of_writes_sub hostOps14 (W43 m ρ c) kwrites44_sub (by decide)).trans (k_v270_43 m ρ c)
theorem k_v272_44 : W44 m ρ c (Proc.devRef .tc main_v272) = Spec.g_v463 (KA m c) :=
  (StableHlo.after_of_writes_sub hostOps14 (W43 m ρ c) kwrites44_sub (by decide)).trans (k_v272_43 m ρ c)
theorem k_v274_44 : W44 m ρ c (Proc.devRef .tc main_v274) = Spec.g_v465 (KA m c) :=
  (StableHlo.after_of_writes_sub hostOps14 (W43 m ρ c) kwrites44_sub (by decide)).trans (k_v274_43 m ρ c)
theorem k_v276_44 : W44 m ρ c (Proc.devRef .tc main_v276) = Spec.g_v467 (KA m c) :=
  (StableHlo.after_of_writes_sub hostOps14 (W43 m ρ c) kwrites44_sub (by decide)).trans (k_v276_43 m ρ c)
theorem k_v304_44 : W44 m ρ c (Proc.devRef .tc main_v304) = Spec.g_v495 (KA m c) :=
  (StableHlo.after_of_writes_sub hostOps14 (W43 m ρ c) kwrites44_sub (by decide)).trans (k_v304_43 m ρ c)
theorem k_v318_44 : W44 m ρ c (Proc.devRef .tc main_v318) = Spec.g_v509 (KA m c) :=
  (StableHlo.after_of_writes_sub hostOps14 (W43 m ρ c) kwrites44_sub (by decide)).trans (k_v318_43 m ρ c)
theorem k_v332_44 : W44 m ρ c (Proc.devRef .tc main_v332) = Spec.g_v523 (KA m c) :=
  (StableHlo.after_of_writes_sub hostOps14 (W43 m ρ c) kwrites44_sub (by decide)).trans (k_v332_43 m ρ c)
theorem k_v337_44 : W44 m ρ c (Proc.devRef .tc main_v337) = Spec.g_v539 (KA m c) :=
  (StableHlo.after_of_writes_sub hostOps14 (W43 m ρ c) kwrites44_sub (by decide)).trans (k_v337_43 m ρ c)
theorem k_v339_44 : W44 m ρ c (Proc.devRef .tc main_v339) = Spec.g_v565 (KA m c) := by
  show StableHlo.after hostOps14 (W43 m ρ c) (Proc.devRef .tc main_v339) = _
  after_results_simp
  try simp only [k_v266_43 m ρ c]
  rfl
theorem k_v341_44 : W44 m ρ c (Proc.devRef .tc main_v341) = Spec.g_v567 (KA m c) := by
  show StableHlo.after hostOps14 (W43 m ρ c) (Proc.devRef .tc main_v341) = _
  after_results_simp
  try simp only [k_v268_43 m ρ c]
  rfl

/-! ### Boundary 45: after region 14 -/

theorem k_arg16_45 : W45 m ρ c (Proc.devRef .tc main_arg16) = (KA m c).a16 :=
  (W45_of_ne m ρ c main_arg16 (by decide)).trans (k_arg16_44 m ρ c)
theorem k_arg17_45 : W45 m ρ c (Proc.devRef .tc main_arg17) = (KA m c).a17 :=
  (W45_of_ne m ρ c main_arg17 (by decide)).trans (k_arg17_44 m ρ c)
theorem k_arg18_45 : W45 m ρ c (Proc.devRef .tc main_arg18) = (KA m c).a18 :=
  (W45_of_ne m ρ c main_arg18 (by decide)).trans (k_arg18_44 m ρ c)
theorem k_arg19_45 : W45 m ρ c (Proc.devRef .tc main_arg19) = (KA m c).a19 :=
  (W45_of_ne m ρ c main_arg19 (by decide)).trans (k_arg19_44 m ρ c)
theorem k_v266_45 : W45 m ρ c (Proc.devRef .tc main_v266) = Spec.g_v457 (KA m c) :=
  (W45_of_ne m ρ c main_v266 (by decide)).trans (k_v266_44 m ρ c)
theorem k_v268_45 : W45 m ρ c (Proc.devRef .tc main_v268) = Spec.g_v459 (KA m c) :=
  (W45_of_ne m ρ c main_v268 (by decide)).trans (k_v268_44 m ρ c)
theorem k_v270_45 : W45 m ρ c (Proc.devRef .tc main_v270) = Spec.g_v461 (KA m c) :=
  (W45_of_ne m ρ c main_v270 (by decide)).trans (k_v270_44 m ρ c)
theorem k_v272_45 : W45 m ρ c (Proc.devRef .tc main_v272) = Spec.g_v463 (KA m c) :=
  (W45_of_ne m ρ c main_v272 (by decide)).trans (k_v272_44 m ρ c)
theorem k_v274_45 : W45 m ρ c (Proc.devRef .tc main_v274) = Spec.g_v465 (KA m c) :=
  (W45_of_ne m ρ c main_v274 (by decide)).trans (k_v274_44 m ρ c)
theorem k_v276_45 : W45 m ρ c (Proc.devRef .tc main_v276) = Spec.g_v467 (KA m c) :=
  (W45_of_ne m ρ c main_v276 (by decide)).trans (k_v276_44 m ρ c)
theorem k_v318_45 : W45 m ρ c (Proc.devRef .tc main_v318) = Spec.g_v509 (KA m c) :=
  (W45_of_ne m ρ c main_v318 (by decide)).trans (k_v318_44 m ρ c)
theorem k_v332_45 : W45 m ρ c (Proc.devRef .tc main_v332) = Spec.g_v523 (KA m c) :=
  (W45_of_ne m ρ c main_v332 (by decide)).trans (k_v332_44 m ρ c)
theorem k_v337_45 : W45 m ρ c (Proc.devRef .tc main_v337) = Spec.g_v539 (KA m c) :=
  (W45_of_ne m ρ c main_v337 (by decide)).trans (k_v337_44 m ρ c)
theorem k_v342_45 : W45 m ρ c (Proc.devRef .tc main_v342) = Spec.g_v579 (KA m c) := by
  refine (W45_arr m ρ c (3 : Fin cfg14.W)).trans ?_
  refine (RegionValue.RegionFacts.reg14 (V44 m ρ) c).trans ?_
  show Spec.linD (W44 m ρ c (Proc.devRef .tc main_v304)) (W44 m ρ c (Proc.devRef .tc main_v339)) (W44 m ρ c (Proc.devRef .tc main_v341)) = _
  rw [k_v304_44 m ρ c, k_v339_44 m ρ c, k_v341_44 m ρ c]
  rfl

/-! ### Boundary 46: after the host stretch hostOps15 -/

theorem k_arg16_46 : W46 m ρ c (Proc.devRef .tc main_arg16) = (KA m c).a16 :=
  (StableHlo.after_of_writes_sub hostOps15 (W45 m ρ c) kwrites46_sub (by decide)).trans (k_arg16_45 m ρ c)
theorem k_arg17_46 : W46 m ρ c (Proc.devRef .tc main_arg17) = (KA m c).a17 :=
  (StableHlo.after_of_writes_sub hostOps15 (W45 m ρ c) kwrites46_sub (by decide)).trans (k_arg17_45 m ρ c)
theorem k_arg18_46 : W46 m ρ c (Proc.devRef .tc main_arg18) = (KA m c).a18 :=
  (StableHlo.after_of_writes_sub hostOps15 (W45 m ρ c) kwrites46_sub (by decide)).trans (k_arg18_45 m ρ c)
theorem k_arg19_46 : W46 m ρ c (Proc.devRef .tc main_arg19) = (KA m c).a19 :=
  (StableHlo.after_of_writes_sub hostOps15 (W45 m ρ c) kwrites46_sub (by decide)).trans (k_arg19_45 m ρ c)
theorem k_v266_46 : W46 m ρ c (Proc.devRef .tc main_v266) = Spec.g_v457 (KA m c) :=
  (StableHlo.after_of_writes_sub hostOps15 (W45 m ρ c) kwrites46_sub (by decide)).trans (k_v266_45 m ρ c)
theorem k_v268_46 : W46 m ρ c (Proc.devRef .tc main_v268) = Spec.g_v459 (KA m c) :=
  (StableHlo.after_of_writes_sub hostOps15 (W45 m ρ c) kwrites46_sub (by decide)).trans (k_v268_45 m ρ c)
theorem k_v270_46 : W46 m ρ c (Proc.devRef .tc main_v270) = Spec.g_v461 (KA m c) :=
  (StableHlo.after_of_writes_sub hostOps15 (W45 m ρ c) kwrites46_sub (by decide)).trans (k_v270_45 m ρ c)
theorem k_v272_46 : W46 m ρ c (Proc.devRef .tc main_v272) = Spec.g_v463 (KA m c) :=
  (StableHlo.after_of_writes_sub hostOps15 (W45 m ρ c) kwrites46_sub (by decide)).trans (k_v272_45 m ρ c)
theorem k_v274_46 : W46 m ρ c (Proc.devRef .tc main_v274) = Spec.g_v465 (KA m c) :=
  (StableHlo.after_of_writes_sub hostOps15 (W45 m ρ c) kwrites46_sub (by decide)).trans (k_v274_45 m ρ c)
theorem k_v276_46 : W46 m ρ c (Proc.devRef .tc main_v276) = Spec.g_v467 (KA m c) :=
  (StableHlo.after_of_writes_sub hostOps15 (W45 m ρ c) kwrites46_sub (by decide)).trans (k_v276_45 m ρ c)
theorem k_v318_46 : W46 m ρ c (Proc.devRef .tc main_v318) = Spec.g_v509 (KA m c) :=
  (StableHlo.after_of_writes_sub hostOps15 (W45 m ρ c) kwrites46_sub (by decide)).trans (k_v318_45 m ρ c)
theorem k_v332_46 : W46 m ρ c (Proc.devRef .tc main_v332) = Spec.g_v523 (KA m c) :=
  (StableHlo.after_of_writes_sub hostOps15 (W45 m ρ c) kwrites46_sub (by decide)).trans (k_v332_45 m ρ c)
theorem k_v337_46 : W46 m ρ c (Proc.devRef .tc main_v337) = Spec.g_v539 (KA m c) :=
  (StableHlo.after_of_writes_sub hostOps15 (W45 m ρ c) kwrites46_sub (by decide)).trans (k_v337_45 m ρ c)
theorem k_v342_46 : W46 m ρ c (Proc.devRef .tc main_v342) = Spec.g_v579 (KA m c) :=
  (StableHlo.after_of_writes_sub hostOps15 (W45 m ρ c) kwrites46_sub (by decide)).trans (k_v342_45 m ρ c)
theorem k_v344_46 : W46 m ρ c (Proc.devRef .tc main_v344) = Spec.g_v607 (KA m c) := by
  show StableHlo.after hostOps15 (W45 m ρ c) (Proc.devRef .tc main_v344) = _
  after_results_simp
  try simp only [k_v266_45 m ρ c]
  rfl
theorem k_v346_46 : W46 m ρ c (Proc.devRef .tc main_v346) = Spec.g_v609 (KA m c) := by
  show StableHlo.after hostOps15 (W45 m ρ c) (Proc.devRef .tc main_v346) = _
  after_results_simp
  try simp only [k_v268_45 m ρ c]
  rfl

/-! ### Boundary 47: after region 15 -/

theorem k_arg16_47 : W47 m ρ c (Proc.devRef .tc main_arg16) = (KA m c).a16 :=
  (W47_of_ne m ρ c main_arg16 (by decide)).trans (k_arg16_46 m ρ c)
theorem k_arg17_47 : W47 m ρ c (Proc.devRef .tc main_arg17) = (KA m c).a17 :=
  (W47_of_ne m ρ c main_arg17 (by decide)).trans (k_arg17_46 m ρ c)
theorem k_arg18_47 : W47 m ρ c (Proc.devRef .tc main_arg18) = (KA m c).a18 :=
  (W47_of_ne m ρ c main_arg18 (by decide)).trans (k_arg18_46 m ρ c)
theorem k_arg19_47 : W47 m ρ c (Proc.devRef .tc main_arg19) = (KA m c).a19 :=
  (W47_of_ne m ρ c main_arg19 (by decide)).trans (k_arg19_46 m ρ c)
theorem k_v266_47 : W47 m ρ c (Proc.devRef .tc main_v266) = Spec.g_v457 (KA m c) :=
  (W47_of_ne m ρ c main_v266 (by decide)).trans (k_v266_46 m ρ c)
theorem k_v268_47 : W47 m ρ c (Proc.devRef .tc main_v268) = Spec.g_v459 (KA m c) :=
  (W47_of_ne m ρ c main_v268 (by decide)).trans (k_v268_46 m ρ c)
theorem k_v270_47 : W47 m ρ c (Proc.devRef .tc main_v270) = Spec.g_v461 (KA m c) :=
  (W47_of_ne m ρ c main_v270 (by decide)).trans (k_v270_46 m ρ c)
theorem k_v272_47 : W47 m ρ c (Proc.devRef .tc main_v272) = Spec.g_v463 (KA m c) :=
  (W47_of_ne m ρ c main_v272 (by decide)).trans (k_v272_46 m ρ c)
theorem k_v274_47 : W47 m ρ c (Proc.devRef .tc main_v274) = Spec.g_v465 (KA m c) :=
  (W47_of_ne m ρ c main_v274 (by decide)).trans (k_v274_46 m ρ c)
theorem k_v276_47 : W47 m ρ c (Proc.devRef .tc main_v276) = Spec.g_v467 (KA m c) :=
  (W47_of_ne m ρ c main_v276 (by decide)).trans (k_v276_46 m ρ c)
theorem k_v332_47 : W47 m ρ c (Proc.devRef .tc main_v332) = Spec.g_v523 (KA m c) :=
  (W47_of_ne m ρ c main_v332 (by decide)).trans (k_v332_46 m ρ c)
theorem k_v337_47 : W47 m ρ c (Proc.devRef .tc main_v337) = Spec.g_v539 (KA m c) :=
  (W47_of_ne m ρ c main_v337 (by decide)).trans (k_v337_46 m ρ c)
theorem k_v342_47 : W47 m ρ c (Proc.devRef .tc main_v342) = Spec.g_v579 (KA m c) :=
  (W47_of_ne m ρ c main_v342 (by decide)).trans (k_v342_46 m ρ c)
theorem k_v347_47 : W47 m ρ c (Proc.devRef .tc main_v347) = Spec.g_v621 (KA m c) := by
  refine (W47_arr m ρ c (3 : Fin cfg15.W)).trans ?_
  refine (RegionValue.RegionFacts.reg15 (V46 m ρ) c).trans ?_
  show Spec.linE (W46 m ρ c (Proc.devRef .tc main_v318)) (W46 m ρ c (Proc.devRef .tc main_v344)) (W46 m ρ c (Proc.devRef .tc main_v346)) = _
  rw [k_v318_46 m ρ c, k_v344_46 m ρ c, k_v346_46 m ρ c]
  rfl

/-! ### Boundary 48: after the host stretch hostOps16 -/

theorem k_arg16_48 : W48 m ρ c (Proc.devRef .tc main_arg16) = (KA m c).a16 :=
  (StableHlo.after_of_writes_sub hostOps16 (W47 m ρ c) kwrites48_sub (by decide)).trans (k_arg16_47 m ρ c)
theorem k_arg17_48 : W48 m ρ c (Proc.devRef .tc main_arg17) = (KA m c).a17 :=
  (StableHlo.after_of_writes_sub hostOps16 (W47 m ρ c) kwrites48_sub (by decide)).trans (k_arg17_47 m ρ c)
theorem k_arg18_48 : W48 m ρ c (Proc.devRef .tc main_arg18) = (KA m c).a18 :=
  (StableHlo.after_of_writes_sub hostOps16 (W47 m ρ c) kwrites48_sub (by decide)).trans (k_arg18_47 m ρ c)
theorem k_arg19_48 : W48 m ρ c (Proc.devRef .tc main_arg19) = (KA m c).a19 :=
  (StableHlo.after_of_writes_sub hostOps16 (W47 m ρ c) kwrites48_sub (by decide)).trans (k_arg19_47 m ρ c)
theorem k_v270_48 : W48 m ρ c (Proc.devRef .tc main_v270) = Spec.g_v461 (KA m c) :=
  (StableHlo.after_of_writes_sub hostOps16 (W47 m ρ c) kwrites48_sub (by decide)).trans (k_v270_47 m ρ c)
theorem k_v272_48 : W48 m ρ c (Proc.devRef .tc main_v272) = Spec.g_v463 (KA m c) :=
  (StableHlo.after_of_writes_sub hostOps16 (W47 m ρ c) kwrites48_sub (by decide)).trans (k_v272_47 m ρ c)
theorem k_v274_48 : W48 m ρ c (Proc.devRef .tc main_v274) = Spec.g_v465 (KA m c) :=
  (StableHlo.after_of_writes_sub hostOps16 (W47 m ρ c) kwrites48_sub (by decide)).trans (k_v274_47 m ρ c)
theorem k_v276_48 : W48 m ρ c (Proc.devRef .tc main_v276) = Spec.g_v467 (KA m c) :=
  (StableHlo.after_of_writes_sub hostOps16 (W47 m ρ c) kwrites48_sub (by decide)).trans (k_v276_47 m ρ c)
theorem k_v332_48 : W48 m ρ c (Proc.devRef .tc main_v332) = Spec.g_v523 (KA m c) :=
  (StableHlo.after_of_writes_sub hostOps16 (W47 m ρ c) kwrites48_sub (by decide)).trans (k_v332_47 m ρ c)
theorem k_v337_48 : W48 m ρ c (Proc.devRef .tc main_v337) = Spec.g_v539 (KA m c) :=
  (StableHlo.after_of_writes_sub hostOps16 (W47 m ρ c) kwrites48_sub (by decide)).trans (k_v337_47 m ρ c)
theorem k_v342_48 : W48 m ρ c (Proc.devRef .tc main_v342) = Spec.g_v579 (KA m c) :=
  (StableHlo.after_of_writes_sub hostOps16 (W47 m ρ c) kwrites48_sub (by decide)).trans (k_v342_47 m ρ c)
theorem k_v347_48 : W48 m ρ c (Proc.devRef .tc main_v347) = Spec.g_v621 (KA m c) :=
  (StableHlo.after_of_writes_sub hostOps16 (W47 m ρ c) kwrites48_sub (by decide)).trans (k_v347_47 m ρ c)
theorem k_v349_48 : W48 m ρ c (Proc.devRef .tc main_v349) = Spec.g_v647 (KA m c) := by
  show StableHlo.after hostOps16 (W47 m ρ c) (Proc.devRef .tc main_v349) = _
  after_results_simp
  try simp only [k_v266_47 m ρ c]
  rfl
theorem k_v351_48 : W48 m ρ c (Proc.devRef .tc main_v351) = Spec.g_v649 (KA m c) := by
  show StableHlo.after hostOps16 (W47 m ρ c) (Proc.devRef .tc main_v351) = _
  after_results_simp
  try simp only [k_v268_47 m ρ c]
  rfl

/-! ### Boundary 49: after region 16 -/

theorem k_arg16_49 : W49 m ρ c (Proc.devRef .tc main_arg16) = (KA m c).a16 :=
  (W49_of_ne m ρ c main_arg16 (by decide)).trans (k_arg16_48 m ρ c)
theorem k_arg17_49 : W49 m ρ c (Proc.devRef .tc main_arg17) = (KA m c).a17 :=
  (W49_of_ne m ρ c main_arg17 (by decide)).trans (k_arg17_48 m ρ c)
theorem k_arg18_49 : W49 m ρ c (Proc.devRef .tc main_arg18) = (KA m c).a18 :=
  (W49_of_ne m ρ c main_arg18 (by decide)).trans (k_arg18_48 m ρ c)
theorem k_arg19_49 : W49 m ρ c (Proc.devRef .tc main_arg19) = (KA m c).a19 :=
  (W49_of_ne m ρ c main_arg19 (by decide)).trans (k_arg19_48 m ρ c)
theorem k_v270_49 : W49 m ρ c (Proc.devRef .tc main_v270) = Spec.g_v461 (KA m c) :=
  (W49_of_ne m ρ c main_v270 (by decide)).trans (k_v270_48 m ρ c)
theorem k_v272_49 : W49 m ρ c (Proc.devRef .tc main_v272) = Spec.g_v463 (KA m c) :=
  (W49_of_ne m ρ c main_v272 (by decide)).trans (k_v272_48 m ρ c)
theorem k_v274_49 : W49 m ρ c (Proc.devRef .tc main_v274) = Spec.g_v465 (KA m c) :=
  (W49_of_ne m ρ c main_v274 (by decide)).trans (k_v274_48 m ρ c)
theorem k_v276_49 : W49 m ρ c (Proc.devRef .tc main_v276) = Spec.g_v467 (KA m c) :=
  (W49_of_ne m ρ c main_v276 (by decide)).trans (k_v276_48 m ρ c)
theorem k_v337_49 : W49 m ρ c (Proc.devRef .tc main_v337) = Spec.g_v539 (KA m c) :=
  (W49_of_ne m ρ c main_v337 (by decide)).trans (k_v337_48 m ρ c)
theorem k_v342_49 : W49 m ρ c (Proc.devRef .tc main_v342) = Spec.g_v579 (KA m c) :=
  (W49_of_ne m ρ c main_v342 (by decide)).trans (k_v342_48 m ρ c)
theorem k_v347_49 : W49 m ρ c (Proc.devRef .tc main_v347) = Spec.g_v621 (KA m c) :=
  (W49_of_ne m ρ c main_v347 (by decide)).trans (k_v347_48 m ρ c)
theorem k_v352_49 : W49 m ρ c (Proc.devRef .tc main_v352) = Spec.g_v661 (KA m c) := by
  refine (W49_arr m ρ c (3 : Fin cfg16.W)).trans ?_
  refine (RegionValue.RegionFacts.reg16 (V48 m ρ) c).trans ?_
  show Spec.linE (W48 m ρ c (Proc.devRef .tc main_v332)) (W48 m ρ c (Proc.devRef .tc main_v349)) (W48 m ρ c (Proc.devRef .tc main_v351)) = _
  rw [k_v332_48 m ρ c, k_v349_48 m ρ c, k_v351_48 m ρ c]
  rfl

end Cert.KernelIdeal.Thread

end
-- ==== Proof.KThread5.lean ====
import proofs.«116822_j38594576122568_1_alg».proof.Proof.Gen.KernelIdeal.Frame
import proofs.«116822_j38594576122568_1_alg».proof.Proof.KWrites
import proofs.«116822_j38594576122568_1_alg».proof.Proof.KPlain
import proofs.«116822_j38594576122568_1_alg».proof.Proof.SpecValues
import proofs.«116822_j38594576122568_1_alg».proof.Proof.RegionStatements
import proofs.«116822_j38594576122568_1_alg».proof.Proof.KThread4
import Idealize.ShloMosaic.Lib.StableHlo.Run

/-! The kernel program's run read boundary by boundary (boundaries 50 to 63 of the generated frame's valuations): what each
    buffer read again later holds there, as the shared value of the reference's run. A stretch of host operations is read
    through; a region's output array is the region's layer function of its input arrays; everything else is carried. -/

set_option maxRecDepth 16384

noncomputable section

namespace Cert.KernelIdeal.Thread

open Cert.KernelIdeal Cert.KernelIdeal.Gen Idealize.ShloMosaic Idealize.ShloMosaic.TcCoe Idealize.SL.Sem Idealize.ShloMosaic.StableHlo

variable [RegionValue.RegionFacts] (m : (ℓ : Loc nD τ sig) → Buf (Elt Ideal) ℓ) (ρ : Dev nD → PrngReg) (c : Dev nD)

/-! ### Boundary 50: after the host stretch hostOps17 -/

theorem k_arg16_50 : W50 m ρ c (Proc.devRef .tc main_arg16) = (KA m c).a16 :=
  (StableHlo.after_of_writes_sub hostOps17 (W49 m ρ c) kwrites50_sub (by decide)).trans (k_arg16_49 m ρ c)
theorem k_arg17_50 : W50 m ρ c (Proc.devRef .tc main_arg17) = (KA m c).a17 :=
  (StableHlo.after_of_writes_sub hostOps17 (W49 m ρ c) kwrites50_sub (by decide)).trans (k_arg17_49 m ρ c)
theorem k_arg18_50 : W50 m ρ c (Proc.devRef .tc main_arg18) = (KA m c).a18 :=
  (StableHlo.after_of_writes_sub hostOps17 (W49 m ρ c) kwrites50_sub (by decide)).trans (k_arg18_49 m ρ c)
theorem k_arg19_50 : W50 m ρ c (Proc.devRef .tc main_arg19) = (KA m c).a19 :=
  (StableHlo.after_of_writes_sub hostOps17 (W49 m ρ c) kwrites50_sub (by decide)).trans (k_arg19_49 m ρ c)
theorem k_v270_50 : W50 m ρ c (Proc.devRef .tc main_v270) = Spec.g_v461 (KA m c) :=
  (StableHlo.after_of_writes_sub hostOps17 (W49 m ρ c) kwrites50_sub (by decide)).trans (k_v270_49 m ρ c)
theorem k_v272_50 : W50 m ρ c (Proc.devRef .tc main_v272) = Spec.g_v463 (KA m c) :=
  (StableHlo.after_of_writes_sub hostOps17 (W49 m ρ c) kwrites50_sub (by decide)).trans (k_v272_49 m ρ c)
theorem k_v274_50 : W50 m ρ c (Proc.devRef .tc main_v274) = Spec.g_v465 (KA m c) :=
  (StableHlo.after_of_writes_sub hostOps17 (W49 m ρ c) kwrites50_sub (by decide)).trans (k_v274_49 m ρ c)
theorem k_v276_50 : W50 m ρ c (Proc.devRef .tc main_v276) = Spec.g_v467 (KA m c) :=
  (StableHlo.after_of_writes_sub hostOps17 (W49 m ρ c) kwrites50_sub (by decide)).trans (k_v276_49 m ρ c)
theorem k_v337_50 : W50 m ρ c (Proc.devRef .tc main_v337) = Spec.g_v539 (KA m c) :=
  (StableHlo.after_of_writes_sub hostOps17 (W49 m ρ c) kwrites50_sub (by decide)).trans (k_v337_49 m ρ c)
theorem k_v342_50 : W50 m ρ c (Proc.devRef .tc main_v342) = Spec.g_v579 (KA m c) :=
  (StableHlo.after_of_writes_sub hostOps17 (W49 m ρ c) kwrites50_sub (by decide)).trans (k_v342_49 m ρ c)
theorem k_v347_50 : W50 m ρ c (Proc.devRef .tc main_v347) = Spec.g_v621 (KA m c) :=
  (StableHlo.after_of_writes_sub hostOps17 (W49 m ρ c) kwrites50_sub (by decide)).trans (k_v347_49 m ρ c)
theorem k_v352_50 : W50 m ρ c (Proc.devRef .tc main_v352) = Spec.g_v661 (KA m c) :=
  (StableHlo.after_of_writes_sub hostOps17 (W49 m ρ c) kwrites50_sub (by decide)).trans (k_v352_49 m ρ c)
theorem k_v355_50 : W50 m ρ c (Proc.devRef .tc main_v355) = Spec.g_v542 (KA m c) := by
  show StableHlo.after hostOps17 (W49 m ρ c) (Proc.devRef .tc main_v355) = _
  after_results_simp
  try simp only [k_v337_49 m ρ c]
  rfl
theorem k_c_60_50 : W50 m ρ c (Proc.devRef .tc main_c_60) = Spec.g_c_26 (KA m c) := by
  show StableHlo.after hostOps17 (W49 m ρ c) (Proc.devRef .tc main_c_60) = _
  after_results_simp
  rfl

/-! ### Boundary 51: after the host stretch hostOps17_1 -/

theorem k_arg16_51 : W51 m ρ c (Proc.devRef .tc main_arg16) = (KA m c).a16 :=
  (StableHlo.after_of_writes_sub hostOps17_1 (W50 m ρ c) kwrites51_sub (by decide)).trans (k_arg16_50 m ρ c)
theorem k_arg17_51 : W51 m ρ c (Proc.devRef .tc main_arg17) = (KA m c).a17 :=
  (StableHlo.after_of_writes_sub hostOps17_1 (W50 m ρ c) kwrites51_sub (by decide)).trans (k_arg17_50 m ρ c)
theorem k_arg18_51 : W51 m ρ c (Proc.devRef .tc main_arg18) = (KA m c).a18 :=
  (StableHlo.after_of_writes_sub hostOps17_1 (W50 m ρ c) kwrites51_sub (by decide)).trans (k_arg18_50 m ρ c)
theorem k_arg19_51 : W51 m ρ c (Proc.devRef .tc main_arg19) = (KA m c).a19 :=
  (StableHlo.after_of_writes_sub hostOps17_1 (W50 m ρ c) kwrites51_sub (by decide)).trans (k_arg19_50 m ρ c)
theorem k_v270_51 : W51 m ρ c (Proc.devRef .tc main_v270) = Spec.g_v461 (KA m c) :=
  (StableHlo.after_of_writes_sub hostOps17_1 (W50 m ρ c) kwrites51_sub (by decide)).trans (k_v270_50 m ρ c)
theorem k_v272_51 : W51 m ρ c (Proc.devRef .tc main_v272) = Spec.g_v463 (KA m c) :=
  (StableHlo.after_of_writes_sub hostOps17_1 (W50 m ρ c) kwrites51_sub (by decide)).trans (k_v272_50 m ρ c)
theorem k_v274_51 : W51 m ρ c (Proc.devRef .tc main_v274) = Spec.g_v465 (KA m c) :=
  (StableHlo.after_of_writes_sub hostOps17_1 (W50 m ρ c) kwrites51_sub (by decide)).trans (k_v274_50 m ρ c)
theorem k_v276_51 : W51 m ρ c (Proc.devRef .tc main_v276) = Spec.g_v467 (KA m c) :=
  (StableHlo.after_of_writes_sub hostOps17_1 (W50 m ρ c) kwrites51_sub (by decide)).trans (k_v276_50 m ρ c)
theorem k_v337_51 : W51 m ρ c (Proc.devRef .tc main_v337) = Spec.g_v539 (KA m c) :=
  (StableHlo.after_of_writes_sub hostOps17_1 (W50 m ρ c) kwrites51_sub (by decide)).trans (k_v337_50 m ρ c)
theorem k_v342_51 : W51 m ρ c (Proc.devRef .tc main_v342) = Spec.g_v579 (KA m c) :=
  (StableHlo.after_of_writes_sub hostOps17_1 (W50 m ρ c) kwrites51_sub (by decide)).trans (k_v342_50 m ρ c)
theorem k_v347_51 : W51 m ρ c (Proc.devRef .tc main_v347) = Spec.g_v621 (KA m c) :=
  (StableHlo.after_of_writes_sub hostOps17_1 (W50 m ρ c) kwrites51_sub (by decide)).trans (k_v347_50 m ρ c)
theorem k_v352_51 : W51 m ρ c (Proc.devRef .tc main_v352) = Spec.g_v661 (KA m c) :=
  (StableHlo.after_of_writes_sub hostOps17_1 (W50 m ρ c) kwrites51_sub (by decide)).trans (k_v352_50 m ρ c)
theorem k_v355_51 : W51 m ρ c (Proc.devRef .tc main_v355) = Spec.g_v542 (KA m c) :=
  (StableHlo.after_of_writes_sub hostOps17_1 (W50 m ρ c) kwrites51_sub (by decide)).trans (k_v355_50 m ρ c)
theorem k_v356_51 : W51 m ρ c (Proc.devRef .tc main_v356) = Spec.g_v543 (KA m c) := by
  have e0 := k_c_60_50 m ρ c
  have e1 := k_v337_50 m ρ c
  show StableHlo.after hostOps17_1 (W50 m ρ c) (Proc.devRef .tc main_v356) = _
  rw [hostOps17_1_plain]
  generalize W50 m ρ c = V at e0 e1 ⊢
  after_results_simp
  try simp only [e0, e1]
  rfl

/-! ### Boundary 52: after the host stretch hostOps17_2 -/

theorem k_arg16_52 : W52 m ρ c (Proc.devRef .tc main_arg16) = (KA m c).a16 :=
  (StableHlo.after_of_writes_sub hostOps17_2 (W51 m ρ c) kwrites52_sub (by decide)).trans (k_arg16_51 m ρ c)
theorem k_arg17_52 : W52 m ρ c (Proc.devRef .tc main_arg17) = (KA m c).a17 :=
  (StableHlo.after_of_writes_sub hostOps17_2 (W51 m ρ c) kwrites52_sub (by decide)).trans (k_arg17_51 m ρ c)
theorem k_arg18_52 : W52 m ρ c (Proc.devRef .tc main_arg18) = (KA m c).a18 :=
  (StableHlo.after_of_writes_sub hostOps17_2 (W51 m ρ c) kwrites52_sub (by decide)).trans (k_arg18_51 m ρ c)
theorem k_arg19_52 : W52 m ρ c (Proc.devRef .tc main_arg19) = (KA m c).a19 :=
  (StableHlo.after_of_writes_sub hostOps17_2 (W51 m ρ c) kwrites52_sub (by decide)).trans (k_arg19_51 m ρ c)
theorem k_v270_52 : W52 m ρ c (Proc.devRef .tc main_v270) = Spec.g_v461 (KA m c) :=
  (StableHlo.after_of_writes_sub hostOps17_2 (W51 m ρ c) kwrites52_sub (by decide)).trans (k_v270_51 m ρ c)
theorem k_v272_52 : W52 m ρ c (Proc.devRef .tc main_v272) = Spec.g_v463 (KA m c) :=
  (StableHlo.after_of_writes_sub hostOps17_2 (W51 m ρ c) kwrites52_sub (by decide)).trans (k_v272_51 m ρ c)
theorem k_v274_52 : W52 m ρ c (Proc.devRef .tc main_v274) = Spec.g_v465 (KA m c) :=
  (StableHlo.after_of_writes_sub hostOps17_2 (W51 m ρ c) kwrites52_sub (by decide)).trans (k_v274_51 m ρ c)
theorem k_v276_52 : W52 m ρ c (Proc.devRef .tc main_v276) = Spec.g_v467 (KA m c) :=
  (StableHlo.after_of_writes_sub hostOps17_2 (W51 m ρ c) kwrites52_sub (by decide)).trans (k_v276_51 m ρ c)
theorem k_v337_52 : W52 m ρ c (Proc.devRef .tc main_v337) = Spec.g_v539 (KA m c) :=
  (StableHlo.after_of_writes_sub hostOps17_2 (W51 m ρ c) kwrites52_sub (by decide)).trans (k_v337_51 m ρ c)
theorem k_v342_52 : W52 m ρ c (Proc.devRef .tc main_v342) = Spec.g_v579 (KA m c) :=
  (StableHlo.after_of_writes_sub hostOps17_2 (W51 m ρ c) kwrites52_sub (by decide)).trans (k_v342_51 m ρ c)
theorem k_v347_52 : W52 m ρ c (Proc.devRef .tc main_v347) = Spec.g_v621 (KA m c) :=
  (StableHlo.after_of_writes_sub hostOps17_2 (W51 m ρ c) kwrites52_sub (by decide)).trans (k_v347_51 m ρ c)
theorem k_v352_52 : W52 m ρ c (Proc.devRef .tc main_v352) = Spec.g_v661 (KA m c) :=
  (StableHlo.after_of_writes_sub hostOps17_2 (W51 m ρ c) kwrites52_sub (by decide)).trans (k_v352_51 m ρ c)
theorem k_v355_52 : W52 m ρ c (Proc.devRef .tc main_v355) = Spec.g_v542 (KA m c) :=
  (StableHlo.after_of_writes_sub hostOps17_2 (W51 m ρ c) kwrites52_sub (by decide)).trans (k_v355_51 m ρ c)
theorem k_v356_52 : W52 m ρ c (Proc.devRef .tc main_v356) = Spec.g_v543 (KA m c) :=
  (StableHlo.after_of_writes_sub hostOps17_2 (W51 m ρ c) kwrites52_sub (by decide)).trans (k_v356_51 m ρ c)
theorem k_v359_52 : W52 m ρ c (Proc.devRef .tc main_v359) = Spec.g_v582 (KA m c) := by
  have e0 := k_v342_51 m ρ c
  show StableHlo.after hostOps17_2 (W51 m ρ c) (Proc.devRef .tc main_v359) = _
  generalize W51 m ρ c = V at e0 ⊢
  after_results_simp
  try simp only [e0]
  rfl
theorem k_c_63_52 : W52 m ρ c (Proc.devRef .tc main_c_63) = Spec.g_c_29 (KA m c) := by
  show StableHlo.after hostOps17_2 (W51 m ρ c) (Proc.devRef .tc main_c_63) = _
  generalize W51 m ρ c = V at  ⊢
  after_results_simp
  rfl

/-! ### Boundary 53: after the host stretch hostOps17_3 -/

theorem k_arg16_53 : W53 m ρ c (Proc.devRef .tc main_arg16) = (KA m c).a16 :=
  (StableHlo.after_of_writes_sub hostOps17_3 (W52 m ρ c) kwrites53_sub (by decide)).trans (k_arg16_52 m ρ c)
theorem k_arg17_53 : W53 m ρ c (Proc.devRef .tc main_arg17) = (KA m c).a17 :=
  (StableHlo.after_of_writes_sub hostOps17_3 (W52 m ρ c) kwrites53_sub (by decide)).trans (k_arg17_52 m ρ c)
theorem k_arg18_53 : W53 m ρ c (Proc.devRef .tc main_arg18) = (KA m c).a18 :=
  (StableHlo.after_of_writes_sub hostOps17_3 (W52 m ρ c) kwrites53_sub (by decide)).trans (k_arg18_52 m ρ c)
theorem k_arg19_53 : W53 m ρ c (Proc.devRef .tc main_arg19) = (KA m c).a19 :=
  (StableHlo.after_of_writes_sub hostOps17_3 (W52 m ρ c) kwrites53_sub (by decide)).trans (k_arg19_52 m ρ c)
theorem k_v270_53 : W53 m ρ c (Proc.devRef .tc main_v270) = Spec.g_v461 (KA m c) :=
  (StableHlo.after_of_writes_sub hostOps17_3 (W52 m ρ c) kwrites53_sub (by decide)).trans (k_v270_52 m ρ c)
theorem k_v272_53 : W53 m ρ c (Proc.devRef .tc main_v272) = Spec.g_v463 (KA m c) :=
  (StableHlo.after_of_writes_sub hostOps17_3 (W52 m ρ c) kwrites53_sub (by decide)).trans (k_v272_52 m ρ c)
theorem k_v274_53 : W53 m ρ c (Proc.devRef .tc main_v274) = Spec.g_v465 (KA m c) :=
  (StableHlo.after_of_writes_sub hostOps17_3 (W52 m ρ c) kwrites53_sub (by decide)).trans (k_v274_52 m ρ c)
theorem k_v276_53 : W53 m ρ c (Proc.devRef .tc main_v276) = Spec.g_v467 (KA m c) :=
  (StableHlo.after_of_writes_sub hostOps17_3 (W52 m ρ c) kwrites53_sub (by decide)).trans (k_v276_52 m ρ c)
theorem k_v337_53 : W53 m ρ c (Proc.devRef .tc main_v337) = Spec.g_v539 (KA m c) :=
  (StableHlo.after_of_writes_sub hostOps17_3 (W52 m ρ c) kwrites53_sub (by decide)).trans (k_v337_52 m ρ c)
theorem k_v342_53 : W53 m ρ c (Proc.devRef .tc main_v342) = Spec.g_v579 (KA m c) :=
  (StableHlo.after_of_writes_sub hostOps17_3 (W52 m ρ c) kwrites53_sub (by decide)).trans (k_v342_52 m ρ c)
theorem k_v347_53 : W53 m ρ c (Proc.devRef .tc main_v347) = Spec.g_v621 (KA m c) :=
  (StableHlo.after_of_writes_sub hostOps17_3 (W52 m ρ c) kwrites53_sub (by decide)).trans (k_v347_52 m ρ c)
theorem k_v352_53 : W53 m ρ c (Proc.devRef .tc main_v352) = Spec.g_v661 (KA m c) :=
  (StableHlo.after_of_writes_sub hostOps17_3 (W52 m ρ c) kwrites53_sub (by decide)).trans (k_v352_52 m ρ c)
theorem k_v355_53 : W53 m ρ c (Proc.devRef .tc main_v355) = Spec.g_v542 (KA m c) :=
  (StableHlo.after_of_writes_sub hostOps17_3 (W52 m ρ c) kwrites53_sub (by decide)).trans (k_v355_52 m ρ c)
theorem k_v356_53 : W53 m ρ c (Proc.devRef .tc main_v356) = Spec.g_v543 (KA m c) :=
  (StableHlo.after_of_writes_sub hostOps17_3 (W52 m ρ c) kwrites53_sub (by decide)).trans (k_v356_52 m ρ c)
theorem k_v359_53 : W53 m ρ c (Proc.devRef .tc main_v359) = Spec.g_v582 (KA m c) :=
  (StableHlo.after_of_writes_sub hostOps17_3 (W52 m ρ c) kwrites53_sub (by decide)).trans (k_v359_52 m ρ c)
theorem k_v360_53 : W53 m ρ c (Proc.devRef .tc main_v360) = Spec.g_v583 (KA m c) := by
  have e0 := k_c_63_52 m ρ c
  have e1 := k_v342_52 m ρ c
  show StableHlo.after hostOps17_3 (W52 m ρ c) (Proc.devRef .tc main_v360) = _
  rw [hostOps17_3_plain]
  generalize W52 m ρ c = V at e0 e1 ⊢
  after_results_simp
  try simp only [e0, e1]
  rfl

/-! ### Boundary 54: after the host stretch hostOps17_4 -/

theorem k_arg16_54 : W54 m ρ c (Proc.devRef .tc main_arg16) = (KA m c).a16 :=
  (StableHlo.after_of_writes_sub hostOps17_4 (W53 m ρ c) kwrites54_sub (by decide)).trans (k_arg16_53 m ρ c)
theorem k_arg17_54 : W54 m ρ c (Proc.devRef .tc main_arg17) = (KA m c).a17 :=
  (StableHlo.after_of_writes_sub hostOps17_4 (W53 m ρ c) kwrites54_sub (by decide)).trans (k_arg17_53 m ρ c)
theorem k_arg18_54 : W54 m ρ c (Proc.devRef .tc main_arg18) = (KA m c).a18 :=
  (StableHlo.after_of_writes_sub hostOps17_4 (W53 m ρ c) kwrites54_sub (by decide)).trans (k_arg18_53 m ρ c)
theorem k_arg19_54 : W54 m ρ c (Proc.devRef .tc main_arg19) = (KA m c).a19 :=
  (StableHlo.after_of_writes_sub hostOps17_4 (W53 m ρ c) kwrites54_sub (by decide)).trans (k_arg19_53 m ρ c)
theorem k_v270_54 : W54 m ρ c (Proc.devRef .tc main_v270) = Spec.g_v461 (KA m c) :=
  (StableHlo.after_of_writes_sub hostOps17_4 (W53 m ρ c) kwrites54_sub (by decide)).trans (k_v270_53 m ρ c)
theorem k_v272_54 : W54 m ρ c (Proc.devRef .tc main_v272) = Spec.g_v463 (KA m c) :=
  (StableHlo.after_of_writes_sub hostOps17_4 (W53 m ρ c) kwrites54_sub (by decide)).trans (k_v272_53 m ρ c)
theorem k_v274_54 : W54 m ρ c (Proc.devRef .tc main_v274) = Spec.g_v465 (KA m c) :=
  (StableHlo.after_of_writes_sub hostOps17_4 (W53 m ρ c) kwrites54_sub (by decide)).trans (k_v274_53 m ρ c)
theorem k_v276_54 : W54 m ρ c (Proc.devRef .tc main_v276) = Spec.g_v467 (KA m c) :=
  (StableHlo.after_of_writes_sub hostOps17_4 (W53 m ρ c) kwrites54_sub (by decide)).trans (k_v276_53 m ρ c)
theorem k_v337_54 : W54 m ρ c (Proc.devRef .tc main_v337) = Spec.g_v539 (KA m c) :=
  (StableHlo.after_of_writes_sub hostOps17_4 (W53 m ρ c) kwrites54_sub (by decide)).trans (k_v337_53 m ρ c)
theorem k_v342_54 : W54 m ρ c (Proc.devRef .tc main_v342) = Spec.g_v579 (KA m c) :=
  (StableHlo.after_of_writes_sub hostOps17_4 (W53 m ρ c) kwrites54_sub (by decide)).trans (k_v342_53 m ρ c)
theorem k_v347_54 : W54 m ρ c (Proc.devRef .tc main_v347) = Spec.g_v621 (KA m c) :=
  (StableHlo.after_of_writes_sub hostOps17_4 (W53 m ρ c) kwrites54_sub (by decide)).trans (k_v347_53 m ρ c)
theorem k_v352_54 : W54 m ρ c (Proc.devRef .tc main_v352) = Spec.g_v661 (KA m c) :=
  (StableHlo.after_of_writes_sub hostOps17_4 (W53 m ρ c) kwrites54_sub (by decide)).trans (k_v352_53 m ρ c)
theorem k_v355_54 : W54 m ρ c (Proc.devRef .tc main_v355) = Spec.g_v542 (KA m c) :=
  (StableHlo.after_of_writes_sub hostOps17_4 (W53 m ρ c) kwrites54_sub (by decide)).trans (k_v355_53 m ρ c)
theorem k_v356_54 : W54 m ρ c (Proc.devRef .tc main_v356) = Spec.g_v543 (KA m c) :=
  (StableHlo.after_of_writes_sub hostOps17_4 (W53 m ρ c) kwrites54_sub (by decide)).trans (k_v356_53 m ρ c)
theorem k_v359_54 : W54 m ρ c (Proc.devRef .tc main_v359) = Spec.g_v582 (KA m c) :=
  (StableHlo.after_of_writes_sub hostOps17_4 (W53 m ρ c) kwrites54_sub (by decide)).trans (k_v359_53 m ρ c)
theorem k_v360_54 : W54 m ρ c (Proc.devRef .tc main_v360) = Spec.g_v583 (KA m c) :=
  (StableHlo.after_of_writes_sub hostOps17_4 (W53 m ρ c) kwrites54_sub (by decide)).trans (k_v360_53 m ρ c)
theorem k_v363_54 : W54 m ρ c (Proc.devRef .tc main_v363) = Spec.g_v624 (KA m c) := by
  have e0 := k_v347_53 m ρ c
  show StableHlo.after hostOps17_4 (W53 m ρ c) (Proc.devRef .tc main_v363) = _
  generalize W53 m ρ c = V at e0 ⊢
  after_results_simp
  try simp only [e0]
  rfl
theorem k_c_66_54 : W54 m ρ c (Proc.devRef .tc main_c_66) = Spec.g_c_32 (KA m c) := by
  show StableHlo.after hostOps17_4 (W53 m ρ c) (Proc.devRef .tc main_c_66) = _
  generalize W53 m ρ c = V at  ⊢
  after_results_simp
  rfl

/-! ### Boundary 55: after the host stretch hostOps17_5 -/

theorem k_arg16_55 : W55 m ρ c (Proc.devRef .tc main_arg16) = (KA m c).a16 :=
  (StableHlo.after_of_writes_sub hostOps17_5 (W54 m ρ c) kwrites55_sub (by decide)).trans (k_arg16_54 m ρ c)
theorem k_arg17_55 : W55 m ρ c (Proc.devRef .tc main_arg17) = (KA m c).a17 :=
  (StableHlo.after_of_writes_sub hostOps17_5 (W54 m ρ c) kwrites55_sub (by decide)).trans (k_arg17_54 m ρ c)
theorem k_arg18_55 : W55 m ρ c (Proc.devRef .tc main_arg18) = (KA m c).a18 :=
  (StableHlo.after_of_writes_sub hostOps17_5 (W54 m ρ c) kwrites55_sub (by decide)).trans (k_arg18_54 m ρ c)
theorem k_arg19_55 : W55 m ρ c (Proc.devRef .tc main_arg19) = (KA m c).a19 :=
  (StableHlo.after_of_writes_sub hostOps17_5 (W54 m ρ c) kwrites55_sub (by decide)).trans (k_arg19_54 m ρ c)
theorem k_v270_55 : W55 m ρ c (Proc.devRef .tc main_v270) = Spec.g_v461 (KA m c) :=
  (StableHlo.after_of_writes_sub hostOps17_5 (W54 m ρ c) kwrites55_sub (by decide)).trans (k_v270_54 m ρ c)
theorem k_v272_55 : W55 m ρ c (Proc.devRef .tc main_v272) = Spec.g_v463 (KA m c) :=
  (StableHlo.after_of_writes_sub hostOps17_5 (W54 m ρ c) kwrites55_sub (by decide)).trans (k_v272_54 m ρ c)
theorem k_v274_55 : W55 m ρ c (Proc.devRef .tc main_v274) = Spec.g_v465 (KA m c) :=
  (StableHlo.after_of_writes_sub hostOps17_5 (W54 m ρ c) kwrites55_sub (by decide)).trans (k_v274_54 m ρ c)
theorem k_v276_55 : W55 m ρ c (Proc.devRef .tc main_v276) = Spec.g_v467 (KA m c) :=
  (StableHlo.after_of_writes_sub hostOps17_5 (W54 m ρ c) kwrites55_sub (by decide)).trans (k_v276_54 m ρ c)
theorem k_v337_55 : W55 m ρ c (Proc.devRef .tc main_v337) = Spec.g_v539 (KA m c) :=
  (StableHlo.after_of_writes_sub hostOps17_5 (W54 m ρ c) kwrites55_sub (by decide)).trans (k_v337_54 m ρ c)
theorem k_v342_55 : W55 m ρ c (Proc.devRef .tc main_v342) = Spec.g_v579 (KA m c) :=
  (StableHlo.after_of_writes_sub hostOps17_5 (W54 m ρ c) kwrites55_sub (by decide)).trans (k_v342_54 m ρ c)
theorem k_v347_55 : W55 m ρ c (Proc.devRef .tc main_v347) = Spec.g_v621 (KA m c) :=
  (StableHlo.after_of_writes_sub hostOps17_5 (W54 m ρ c) kwrites55_sub (by decide)).trans (k_v347_54 m ρ c)
theorem k_v352_55 : W55 m ρ c (Proc.devRef .tc main_v352) = Spec.g_v661 (KA m c) :=
  (StableHlo.after_of_writes_sub hostOps17_5 (W54 m ρ c) kwrites55_sub (by decide)).trans (k_v352_54 m ρ c)
theorem k_v355_55 : W55 m ρ c (Proc.devRef .tc main_v355) = Spec.g_v542 (KA m c) :=
  (StableHlo.after_of_writes_sub hostOps17_5 (W54 m ρ c) kwrites55_sub (by decide)).trans (k_v355_54 m ρ c)
theorem k_v356_55 : W55 m ρ c (Proc.devRef .tc main_v356) = Spec.g_v543 (KA m c) :=
  (StableHlo.after_of_writes_sub hostOps17_5 (W54 m ρ c) kwrites55_sub (by decide)).trans (k_v356_54 m ρ c)
theorem k_v359_55 : W55 m ρ c (Proc.devRef .tc main_v359) = Spec.g_v582 (KA m c) :=
  (StableHlo.after_of_writes_sub hostOps17_5 (W54 m ρ c) kwrites55_sub (by decide)).trans (k_v359_54 m ρ c)
theorem k_v360_55 : W55 m ρ c (Proc.devRef .tc main_v360) = Spec.g_v583 (KA m c) :=
  (StableHlo.after_of_writes_sub hostOps17_5 (W54 m ρ c) kwrites55_sub (by decide)).trans (k_v360_54 m ρ c)
theorem k_v363_55 : W55 m ρ c (Proc.devRef .tc main_v363) = Spec.g_v624 (KA m c) :=
  (StableHlo.after_of_writes_sub hostOps17_5 (W54 m ρ c) kwrites55_sub (by decide)).trans (k_v363_54 m ρ c)
theorem k_v364_55 : W55 m ρ c (Proc.devRef .tc main_v364) = Spec.g_v625 (KA m c) := by
  have e0 := k_c_66_54 m ρ c
  have e1 := k_v347_54 m ρ c
  show StableHlo.after hostOps17_5 (W54 m ρ c) (Proc.devRef .tc main_v364) = _
  rw [hostOps17_5_plain]
  generalize W54 m ρ c = V at e0 e1 ⊢
  after_results_simp
  try simp only [e0, e1]
  rfl

/-! ### Boundary 56: after the host stretch hostOps17_6 -/

theorem k_arg16_56 : W56 m ρ c (Proc.devRef .tc main_arg16) = (KA m c).a16 :=
  (StableHlo.after_of_writes_sub hostOps17_6 (W55 m ρ c) kwrites56_sub (by decide)).trans (k_arg16_55 m ρ c)
theorem k_arg17_56 : W56 m ρ c (Proc.devRef .tc main_arg17) = (KA m c).a17 :=
  (StableHlo.after_of_writes_sub hostOps17_6 (W55 m ρ c) kwrites56_sub (by decide)).trans (k_arg17_55 m ρ c)
theorem k_arg18_56 : W56 m ρ c (Proc.devRef .tc main_arg18) = (KA m c).a18 :=
  (StableHlo.after_of_writes_sub hostOps17_6 (W55 m ρ c) kwrites56_sub (by decide)).trans (k_arg18_55 m ρ c)
theorem k_arg19_56 : W56 m ρ c (Proc.devRef .tc main_arg19) = (KA m c).a19 :=
  (StableHlo.after_of_writes_sub hostOps17_6 (W55 m ρ c) kwrites56_sub (by decide)).trans (k_arg19_55 m ρ c)
theorem k_v270_56 : W56 m ρ c (Proc.devRef .tc main_v270) = Spec.g_v461 (KA m c) :=
  (StableHlo.after_of_writes_sub hostOps17_6 (W55 m ρ c) kwrites56_sub (by decide)).trans (k_v270_55 m ρ c)
theorem k_v272_56 : W56 m ρ c (Proc.devRef .tc main_v272) = Spec.g_v463 (KA m c) :=
  (StableHlo.after_of_writes_sub hostOps17_6 (W55 m ρ c) kwrites56_sub (by decide)).trans (k_v272_55 m ρ c)
theorem k_v274_56 : W56 m ρ c (Proc.devRef .tc main_v274) = Spec.g_v465 (KA m c) :=
  (StableHlo.after_of_writes_sub hostOps17_6 (W55 m ρ c) kwrites56_sub (by decide)).trans (k_v274_55 m ρ c)
theorem k_v276_56 : W56 m ρ c (Proc.devRef .tc main_v276) = Spec.g_v467 (KA m c) :=
  (StableHlo.after_of_writes_sub hostOps17_6 (W55 m ρ c) kwrites56_sub (by decide)).trans (k_v276_55 m ρ c)
theorem k_v337_56 : W56 m ρ c (Proc.devRef .tc main_v337) = Spec.g_v539 (KA m c) :=
  (StableHlo.after_of_writes_sub hostOps17_6 (W55 m ρ c) kwrites56_sub (by decide)).trans (k_v337_55 m ρ c)
theorem k_v342_56 : W56 m ρ c (Proc.devRef .tc main_v342) = Spec.g_v579 (KA m c) :=
  (StableHlo.after_of_writes_sub hostOps17_6 (W55 m ρ c) kwrites56_sub (by decide)).trans (k_v342_55 m ρ c)
theorem k_v347_56 : W56 m ρ c (Proc.devRef .tc main_v347) = Spec.g_v621 (KA m c) :=
  (StableHlo.after_of_writes_sub hostOps17_6 (W55 m ρ c) kwrites56_sub (by decide)).trans (k_v347_55 m ρ c)
theorem k_v352_56 : W56 m ρ c (Proc.devRef .tc main_v352) = Spec.g_v661 (KA m c) :=
  (StableHlo.after_of_writes_sub hostOps17_6 (W55 m ρ c) kwrites56_sub (by decide)).trans (k_v352_55 m ρ c)
theorem k_v355_56 : W56 m ρ c (Proc.devRef .tc main_v355) = Spec.g_v542 (KA m c) :=
  (StableHlo.after_of_writes_sub hostOps17_6 (W55 m ρ c) kwrites56_sub (by decide)).trans (k_v355_55 m ρ c)
theorem k_v356_56 : W56 m ρ c (Proc.devRef .tc main_v356) = Spec.g_v543 (KA m c) :=
  (StableHlo.after_of_writes_sub hostOps17_6 (W55 m ρ c) kwrites56_sub (by decide)).trans (k_v356_55 m ρ c)
theorem k_v359_56 : W56 m ρ c (Proc.devRef .tc main_v359) = Spec.g_v582 (KA m c) :=
  (StableHlo.after_of_writes_sub hostOps17_6 (W55 m ρ c) kwrites56_sub (by decide)).trans (k_v359_55 m ρ c)
theorem k_v360_56 : W56 m ρ c (Proc.devRef .tc main_v360) = Spec.g_v583 (KA m c) :=
  (StableHlo.after_of_writes_sub hostOps17_6 (W55 m ρ c) kwrites56_sub (by decide)).trans (k_v360_55 m ρ c)
theorem k_v363_56 : W56 m ρ c (Proc.devRef .tc main_v363) = Spec.g_v624 (KA m c) :=
  (StableHlo.after_of_writes_sub hostOps17_6 (W55 m ρ c) kwrites56_sub (by decide)).trans (k_v363_55 m ρ c)
theorem k_v364_56 : W56 m ρ c (Proc.devRef .tc main_v364) = Spec.g_v625 (KA m c) :=
  (StableHlo.after_of_writes_sub hostOps17_6 (W55 m ρ c) kwrites56_sub (by decide)).trans (k_v364_55 m ρ c)
theorem k_v367_56 : W56 m ρ c (Proc.devRef .tc main_v367) = Spec.g_v664 (KA m c) := by
  have e0 := k_v352_55 m ρ c
  show StableHlo.after hostOps17_6 (W55 m ρ c) (Proc.devRef .tc main_v367) = _
  generalize W55 m ρ c = V at e0 ⊢
  after_results_simp
  try simp only [e0]
  rfl
theorem k_c_69_56 : W56 m ρ c (Proc.devRef .tc main_c_69) = Spec.g_c_35 (KA m c) := by
  show StableHlo.after hostOps17_6 (W55 m ρ c) (Proc.devRef .tc main_c_69) = _
  generalize W55 m ρ c = V at  ⊢
  after_results_simp
  rfl

/-! ### Boundary 57: after the host stretch hostOps17_7 -/

theorem k_arg16_57 : W57 m ρ c (Proc.devRef .tc main_arg16) = (KA m c).a16 :=
  (StableHlo.after_of_writes_sub hostOps17_7 (W56 m ρ c) kwrites57_sub (by decide)).trans (k_arg16_56 m ρ c)
theorem k_arg17_57 : W57 m ρ c (Proc.devRef .tc main_arg17) = (KA m c).a17 :=
  (StableHlo.after_of_writes_sub hostOps17_7 (W56 m ρ c) kwrites57_sub (by decide)).trans (k_arg17_56 m ρ c)
theorem k_arg18_57 : W57 m ρ c (Proc.devRef .tc main_arg18) = (KA m c).a18 :=
  (StableHlo.after_of_writes_sub hostOps17_7 (W56 m ρ c) kwrites57_sub (by decide)).trans (k_arg18_56 m ρ c)
theorem k_arg19_57 : W57 m ρ c (Proc.devRef .tc main_arg19) = (KA m c).a19 :=
  (StableHlo.after_of_writes_sub hostOps17_7 (W56 m ρ c) kwrites57_sub (by decide)).trans (k_arg19_56 m ρ c)
theorem k_v270_57 : W57 m ρ c (Proc.devRef .tc main_v270) = Spec.g_v461 (KA m c) :=
  (StableHlo.after_of_writes_sub hostOps17_7 (W56 m ρ c) kwrites57_sub (by decide)).trans (k_v270_56 m ρ c)
theorem k_v272_57 : W57 m ρ c (Proc.devRef .tc main_v272) = Spec.g_v463 (KA m c) :=
  (StableHlo.after_of_writes_sub hostOps17_7 (W56 m ρ c) kwrites57_sub (by decide)).trans (k_v272_56 m ρ c)
theorem k_v274_57 : W57 m ρ c (Proc.devRef .tc main_v274) = Spec.g_v465 (KA m c) :=
  (StableHlo.after_of_writes_sub hostOps17_7 (W56 m ρ c) kwrites57_sub (by decide)).trans (k_v274_56 m ρ c)
theorem k_v276_57 : W57 m ρ c (Proc.devRef .tc main_v276) = Spec.g_v467 (KA m c) :=
  (StableHlo.after_of_writes_sub hostOps17_7 (W56 m ρ c) kwrites57_sub (by decide)).trans (k_v276_56 m ρ c)
theorem k_v337_57 : W57 m ρ c (Proc.devRef .tc main_v337) = Spec.g_v539 (KA m c) :=
  (StableHlo.after_of_writes_sub hostOps17_7 (W56 m ρ c) kwrites57_sub (by decide)).trans (k_v337_56 m ρ c)
theorem k_v342_57 : W57 m ρ c (Proc.devRef .tc main_v342) = Spec.g_v579 (KA m c) :=
  (StableHlo.after_of_writes_sub hostOps17_7 (W56 m ρ c) kwrites57_sub (by decide)).trans (k_v342_56 m ρ c)
theorem k_v347_57 : W57 m ρ c (Proc.devRef .tc main_v347) = Spec.g_v621 (KA m c) :=
  (StableHlo.after_of_writes_sub hostOps17_7 (W56 m ρ c) kwrites57_sub (by decide)).trans (k_v347_56 m ρ c)
theorem k_v352_57 : W57 m ρ c (Proc.devRef .tc main_v352) = Spec.g_v661 (KA m c) :=
  (StableHlo.after_of_writes_sub hostOps17_7 (W56 m ρ c) kwrites57_sub (by decide)).trans (k_v352_56 m ρ c)
theorem k_v355_57 : W57 m ρ c (Proc.devRef .tc main_v355) = Spec.g_v542 (KA m c) :=
  (StableHlo.after_of_writes_sub hostOps17_7 (W56 m ρ c) kwrites57_sub (by decide)).trans (k_v355_56 m ρ c)
theorem k_v356_57 : W57 m ρ c (Proc.devRef .tc main_v356) = Spec.g_v543 (KA m c) :=
  (StableHlo.after_of_writes_sub hostOps17_7 (W56 m ρ c) kwrites57_sub (by decide)).trans (k_v356_56 m ρ c)
theorem k_v359_57 : W57 m ρ c (Proc.devRef .tc main_v359) = Spec.g_v582 (KA m c) :=
  (StableHlo.after_of_writes_sub hostOps17_7 (W56 m ρ c) kwrites57_sub (by decide)).trans (k_v359_56 m ρ c)
theorem k_v360_57 : W57 m ρ c (Proc.devRef .tc main_v360) = Spec.g_v583 (KA m c) :=
  (StableHlo.after_of_writes_sub hostOps17_7 (W56 m ρ c) kwrites57_sub (by decide)).trans (k_v360_56 m ρ c)
theorem k_v363_57 : W57 m ρ c (Proc.devRef .tc main_v363) = Spec.g_v624 (KA m c) :=
  (StableHlo.after_of_writes_sub hostOps17_7 (W56 m ρ c) kwrites57_sub (by decide)).trans (k_v363_56 m ρ c)
theorem k_v364_57 : W57 m ρ c (Proc.devRef .tc main_v364) = Spec.g_v625 (KA m c) :=
  (StableHlo.after_of_writes_sub hostOps17_7 (W56 m ρ c) kwrites57_sub (by decide)).trans (k_v364_56 m ρ c)
theorem k_v367_57 : W57 m ρ c (Proc.devRef .tc main_v367) = Spec.g_v664 (KA m c) :=
  (StableHlo.after_of_writes_sub hostOps17_7 (W56 m ρ c) kwrites57_sub (by decide)).trans (k_v367_56 m ρ c)
theorem k_v368_57 : W57 m ρ c (Proc.devRef .tc main_v368) = Spec.g_v665 (KA m c) := by
  have e0 := k_c_69_56 m ρ c
  have e1 := k_v352_56 m ρ c
  show StableHlo.after hostOps17_7 (W56 m ρ c) (Proc.devRef .tc main_v368) = _
  rw [hostOps17_7_plain]
  generalize W56 m ρ c = V at e0 e1 ⊢
  after_results_simp
  try simp only [e0, e1]
  rfl

/-! ### Boundary 58: after the host stretch hostOps17_8 -/

theorem k_arg16_58 : W58 m ρ c (Proc.devRef .tc main_arg16) = (KA m c).a16 :=
  (StableHlo.after_of_writes_sub hostOps17_8 (W57 m ρ c) kwrites58_sub (by decide)).trans (k_arg16_57 m ρ c)
theorem k_arg17_58 : W58 m ρ c (Proc.devRef .tc main_arg17) = (KA m c).a17 :=
  (StableHlo.after_of_writes_sub hostOps17_8 (W57 m ρ c) kwrites58_sub (by decide)).trans (k_arg17_57 m ρ c)
theorem k_arg18_58 : W58 m ρ c (Proc.devRef .tc main_arg18) = (KA m c).a18 :=
  (StableHlo.after_of_writes_sub hostOps17_8 (W57 m ρ c) kwrites58_sub (by decide)).trans (k_arg18_57 m ρ c)
theorem k_arg19_58 : W58 m ρ c (Proc.devRef .tc main_arg19) = (KA m c).a19 :=
  (StableHlo.after_of_writes_sub hostOps17_8 (W57 m ρ c) kwrites58_sub (by decide)).trans (k_arg19_57 m ρ c)
theorem k_v270_58 : W58 m ρ c (Proc.devRef .tc main_v270) = Spec.g_v461 (KA m c) :=
  (StableHlo.after_of_writes_sub hostOps17_8 (W57 m ρ c) kwrites58_sub (by decide)).trans (k_v270_57 m ρ c)
theorem k_v272_58 : W58 m ρ c (Proc.devRef .tc main_v272) = Spec.g_v463 (KA m c) :=
  (StableHlo.after_of_writes_sub hostOps17_8 (W57 m ρ c) kwrites58_sub (by decide)).trans (k_v272_57 m ρ c)
theorem k_v274_58 : W58 m ρ c (Proc.devRef .tc main_v274) = Spec.g_v465 (KA m c) :=
  (StableHlo.after_of_writes_sub hostOps17_8 (W57 m ρ c) kwrites58_sub (by decide)).trans (k_v274_57 m ρ c)
theorem k_v276_58 : W58 m ρ c (Proc.devRef .tc main_v276) = Spec.g_v467 (KA m c) :=
  (StableHlo.after_of_writes_sub hostOps17_8 (W57 m ρ c) kwrites58_sub (by decide)).trans (k_v276_57 m ρ c)
theorem k_v337_58 : W58 m ρ c (Proc.devRef .tc main_v337) = Spec.g_v539 (KA m c) :=
  (StableHlo.after_of_writes_sub hostOps17_8 (W57 m ρ c) kwrites58_sub (by decide)).trans (k_v337_57 m ρ c)
theorem k_v342_58 : W58 m ρ c (Proc.devRef .tc main_v342) = Spec.g_v579 (KA m c) :=
  (StableHlo.after_of_writes_sub hostOps17_8 (W57 m ρ c) kwrites58_sub (by decide)).trans (k_v342_57 m ρ c)
theorem k_v347_58 : W58 m ρ c (Proc.devRef .tc main_v347) = Spec.g_v621 (KA m c) :=
  (StableHlo.after_of_writes_sub hostOps17_8 (W57 m ρ c) kwrites58_sub (by decide)).trans (k_v347_57 m ρ c)
theorem k_v352_58 : W58 m ρ c (Proc.devRef .tc main_v352) = Spec.g_v661 (KA m c) :=
  (StableHlo.after_of_writes_sub hostOps17_8 (W57 m ρ c) kwrites58_sub (by decide)).trans (k_v352_57 m ρ c)
theorem k_v355_58 : W58 m ρ c (Proc.devRef .tc main_v355) = Spec.g_v542 (KA m c) :=
  (StableHlo.after_of_writes_sub hostOps17_8 (W57 m ρ c) kwrites58_sub (by decide)).trans (k_v355_57 m ρ c)
theorem k_v356_58 : W58 m ρ c (Proc.devRef .tc main_v356) = Spec.g_v543 (KA m c) :=
  (StableHlo.after_of_writes_sub hostOps17_8 (W57 m ρ c) kwrites58_sub (by decide)).trans (k_v356_57 m ρ c)
theorem k_v359_58 : W58 m ρ c (Proc.devRef .tc main_v359) = Spec.g_v582 (KA m c) :=
  (StableHlo.after_of_writes_sub hostOps17_8 (W57 m ρ c) kwrites58_sub (by decide)).trans (k_v359_57 m ρ c)
theorem k_v360_58 : W58 m ρ c (Proc.devRef .tc main_v360) = Spec.g_v583 (KA m c) :=
  (StableHlo.after_of_writes_sub hostOps17_8 (W57 m ρ c) kwrites58_sub (by decide)).trans (k_v360_57 m ρ c)
theorem k_v363_58 : W58 m ρ c (Proc.devRef .tc main_v363) = Spec.g_v624 (KA m c) :=
  (StableHlo.after_of_writes_sub hostOps17_8 (W57 m ρ c) kwrites58_sub (by decide)).trans (k_v363_57 m ρ c)
theorem k_v364_58 : W58 m ρ c (Proc.devRef .tc main_v364) = Spec.g_v625 (KA m c) :=
  (StableHlo.after_of_writes_sub hostOps17_8 (W57 m ρ c) kwrites58_sub (by decide)).trans (k_v364_57 m ρ c)
theorem k_v367_58 : W58 m ρ c (Proc.devRef .tc main_v367) = Spec.g_v664 (KA m c) :=
  (StableHlo.after_of_writes_sub hostOps17_8 (W57 m ρ c) kwrites58_sub (by decide)).trans (k_v367_57 m ρ c)
theorem k_v368_58 : W58 m ρ c (Proc.devRef .tc main_v368) = Spec.g_v665 (KA m c) :=
  (StableHlo.after_of_writes_sub hostOps17_8 (W57 m ρ c) kwrites58_sub (by decide)).trans (k_v368_57 m ρ c)
theorem k_v370_58 : W58 m ρ c (Proc.devRef .tc main_v370) = Spec.g_v529 (KA m c) := by
  have e0 := k_v270_57 m ρ c
  show StableHlo.after hostOps17_8 (W57 m ρ c) (Proc.devRef .tc main_v370) = _
  generalize W57 m ρ c = V at e0 ⊢
  after_results_simp
  try simp only [e0]
  rfl
theorem k_v372_58 : W58 m ρ c (Proc.devRef .tc main_v372) = Spec.g_v531 (KA m c) := by
  have e0 := k_v272_57 m ρ c
  show StableHlo.after hostOps17_8 (W57 m ρ c) (Proc.devRef .tc main_v372) = _
  generalize W57 m ρ c = V at e0 ⊢
  after_results_simp
  try simp only [e0]
  rfl
theorem k_v374_58 : W58 m ρ c (Proc.devRef .tc main_v374) = Spec.g_v533 (KA m c) := by
  have e0 := k_v274_57 m ρ c
  show StableHlo.after hostOps17_8 (W57 m ρ c) (Proc.devRef .tc main_v374) = _
  generalize W57 m ρ c = V at e0 ⊢
  after_results_simp
  try simp only [e0]
  rfl
theorem k_v376_58 : W58 m ρ c (Proc.devRef .tc main_v376) = Spec.g_v535 (KA m c) := by
  have e0 := k_v276_57 m ρ c
  show StableHlo.after hostOps17_8 (W57 m ρ c) (Proc.devRef .tc main_v376) = _
  generalize W57 m ρ c = V at e0 ⊢
  after_results_simp
  try simp only [e0]
  rfl
theorem k_v378_58 : W58 m ρ c (Proc.devRef .tc main_v378) = Spec.g_v569 (KA m c) := by
  have e0 := k_v270_57 m ρ c
  show StableHlo.after hostOps17_8 (W57 m ρ c) (Proc.devRef .tc main_v378) = _
  generalize W57 m ρ c = V at e0 ⊢
  after_results_simp
  try simp only [e0]
  rfl
theorem k_v380_58 : W58 m ρ c (Proc.devRef .tc main_v380) = Spec.g_v571 (KA m c) := by
  have e0 := k_v272_57 m ρ c
  show StableHlo.after hostOps17_8 (W57 m ρ c) (Proc.devRef .tc main_v380) = _
  generalize W57 m ρ c = V at e0 ⊢
  after_results_simp
  try simp only [e0]
  rfl
theorem k_v382_58 : W58 m ρ c (Proc.devRef .tc main_v382) = Spec.g_v573 (KA m c) := by
  have e0 := k_v274_57 m ρ c
  show StableHlo.after hostOps17_8 (W57 m ρ c) (Proc.devRef .tc main_v382) = _
  generalize W57 m ρ c = V at e0 ⊢
  after_results_simp
  try simp only [e0]
  rfl
theorem k_v384_58 : W58 m ρ c (Proc.devRef .tc main_v384) = Spec.g_v575 (KA m c) := by
  have e0 := k_v276_57 m ρ c
  show StableHlo.after hostOps17_8 (W57 m ρ c) (Proc.devRef .tc main_v384) = _
  generalize W57 m ρ c = V at e0 ⊢
  after_results_simp
  try simp only [e0]
  rfl

/-! ### Boundary 59: after region 17 -/

theorem k_arg16_59 : W59 m ρ c (Proc.devRef .tc main_arg16) = (KA m c).a16 :=
  (W59_of_ne m ρ c main_arg16 (by decide)).trans (k_arg16_58 m ρ c)
theorem k_arg17_59 : W59 m ρ c (Proc.devRef .tc main_arg17) = (KA m c).a17 :=
  (W59_of_ne m ρ c main_arg17 (by decide)).trans (k_arg17_58 m ρ c)
theorem k_arg18_59 : W59 m ρ c (Proc.devRef .tc main_arg18) = (KA m c).a18 :=
  (W59_of_ne m ρ c main_arg18 (by decide)).trans (k_arg18_58 m ρ c)
theorem k_arg19_59 : W59 m ρ c (Proc.devRef .tc main_arg19) = (KA m c).a19 :=
  (W59_of_ne m ρ c main_arg19 (by decide)).trans (k_arg19_58 m ρ c)
theorem k_v270_59 : W59 m ρ c (Proc.devRef .tc main_v270) = Spec.g_v461 (KA m c) :=
  (W59_of_ne m ρ c main_v270 (by decide)).trans (k_v270_58 m ρ c)
theorem k_v272_59 : W59 m ρ c (Proc.devRef .tc main_v272) = Spec.g_v463 (KA m c) :=
  (W59_of_ne m ρ c main_v272 (by decide)).trans (k_v272_58 m ρ c)
theorem k_v274_59 : W59 m ρ c (Proc.devRef .tc main_v274) = Spec.g_v465 (KA m c) :=
  (W59_of_ne m ρ c main_v274 (by decide)).trans (k_v274_58 m ρ c)
theorem k_v276_59 : W59 m ρ c (Proc.devRef .tc main_v276) = Spec.g_v467 (KA m c) :=
  (W59_of_ne m ρ c main_v276 (by decide)).trans (k_v276_58 m ρ c)
theorem k_v347_59 : W59 m ρ c (Proc.devRef .tc main_v347) = Spec.g_v621 (KA m c) :=
  (W59_of_ne m ρ c main_v347 (by decide)).trans (k_v347_58 m ρ c)
theorem k_v352_59 : W59 m ρ c (Proc.devRef .tc main_v352) = Spec.g_v661 (KA m c) :=
  (W59_of_ne m ρ c main_v352 (by decide)).trans (k_v352_58 m ρ c)
theorem k_v363_59 : W59 m ρ c (Proc.devRef .tc main_v363) = Spec.g_v624 (KA m c) :=
  (W59_of_ne m ρ c main_v363 (by decide)).trans (k_v363_58 m ρ c)
theorem k_v364_59 : W59 m ρ c (Proc.devRef .tc main_v364) = Spec.g_v625 (KA m c) :=
  (W59_of_ne m ρ c main_v364 (by decide)).trans (k_v364_58 m ρ c)
theorem k_v367_59 : W59 m ρ c (Proc.devRef .tc main_v367) = Spec.g_v664 (KA m c) :=
  (W59_of_ne m ρ c main_v367 (by decide)).trans (k_v367_58 m ρ c)
theorem k_v368_59 : W59 m ρ c (Proc.devRef .tc main_v368) = Spec.g_v665 (KA m c) :=
  (W59_of_ne m ρ c main_v368 (by decide)).trans (k_v368_58 m ρ c)
theorem k_v385_59 : W59 m ρ c (Proc.devRef .tc main_v385) = Spec.g_v605 (KA m c) := by
  refine (W59_arr m ρ c (14 : Fin cfg17.W)).trans ?_
  refine (RegionValue.RegionFacts.reg17 (V58 m ρ) c).trans ?_
  show Spec.combOp (W58 m ρ c (Proc.devRef .tc main_v337)) (W58 m ρ c (Proc.devRef .tc main_v355)) (W58 m ρ c (Proc.devRef .tc main_v356)) (W58 m ρ c (Proc.devRef .tc main_v370)) (W58 m ρ c (Proc.devRef .tc main_v372)) (W58 m ρ c (Proc.devRef .tc main_v374)) (W58 m ρ c (Proc.devRef .tc main_v376)) (W58 m ρ c (Proc.devRef .tc main_v342)) (W58 m ρ c (Proc.devRef .tc main_v359)) (W58 m ρ c (Proc.devRef .tc main_v360)) (W58 m ρ c (Proc.devRef .tc main_v378)) (W58 m ρ c (Proc.devRef .tc main_v380)) (W58 m ρ c (Proc.devRef .tc main_v382)) (W58 m ρ c (Proc.devRef .tc main_v384)) = _
  rw [k_v337_58 m ρ c, k_v355_58 m ρ c, k_v356_58 m ρ c, k_v370_58 m ρ c, k_v372_58 m ρ c, k_v374_58 m ρ c, k_v376_58 m ρ c, k_v342_58 m ρ c, k_v359_58 m ρ c, k_v360_58 m ρ c, k_v378_58 m ρ c, k_v380_58 m ρ c, k_v382_58 m ρ c, k_v384_58 m ρ c]
  rfl

/-! ### Boundary 60: after the host stretch hostOps18 -/

theorem k_arg16_60 : W60 m ρ c (Proc.devRef .tc main_arg16) = (KA m c).a16 :=
  (StableHlo.after_of_writes_sub hostOps18 (W59 m ρ c) kwrites60_sub (by decide)).trans (k_arg16_59 m ρ c)
theorem k_arg17_60 : W60 m ρ c (Proc.devRef .tc main_arg17) = (KA m c).a17 :=
  (StableHlo.after_of_writes_sub hostOps18 (W59 m ρ c) kwrites60_sub (by decide)).trans (k_arg17_59 m ρ c)
theorem k_arg18_60 : W60 m ρ c (Proc.devRef .tc main_arg18) = (KA m c).a18 :=
  (StableHlo.after_of_writes_sub hostOps18 (W59 m ρ c) kwrites60_sub (by decide)).trans (k_arg18_59 m ρ c)
theorem k_arg19_60 : W60 m ρ c (Proc.devRef .tc main_arg19) = (KA m c).a19 :=
  (StableHlo.after_of_writes_sub hostOps18 (W59 m ρ c) kwrites60_sub (by decide)).trans (k_arg19_59 m ρ c)
theorem k_v347_60 : W60 m ρ c (Proc.devRef .tc main_v347) = Spec.g_v621 (KA m c) :=
  (StableHlo.after_of_writes_sub hostOps18 (W59 m ρ c) kwrites60_sub (by decide)).trans (k_v347_59 m ρ c)
theorem k_v352_60 : W60 m ρ c (Proc.devRef .tc main_v352) = Spec.g_v661 (KA m c) :=
  (StableHlo.after_of_writes_sub hostOps18 (W59 m ρ c) kwrites60_sub (by decide)).trans (k_v352_59 m ρ c)
theorem k_v363_60 : W60 m ρ c (Proc.devRef .tc main_v363) = Spec.g_v624 (KA m c) :=
  (StableHlo.after_of_writes_sub hostOps18 (W59 m ρ c) kwrites60_sub (by decide)).trans (k_v363_59 m ρ c)
theorem k_v364_60 : W60 m ρ c (Proc.devRef .tc main_v364) = Spec.g_v625 (KA m c) :=
  (StableHlo.after_of_writes_sub hostOps18 (W59 m ρ c) kwrites60_sub (by decide)).trans (k_v364_59 m ρ c)
theorem k_v367_60 : W60 m ρ c (Proc.devRef .tc main_v367) = Spec.g_v664 (KA m c) :=
  (StableHlo.after_of_writes_sub hostOps18 (W59 m ρ c) kwrites60_sub (by decide)).trans (k_v367_59 m ρ c)
theorem k_v368_60 : W60 m ρ c (Proc.devRef .tc main_v368) = Spec.g_v665 (KA m c) :=
  (StableHlo.after_of_writes_sub hostOps18 (W59 m ρ c) kwrites60_sub (by decide)).trans (k_v368_59 m ρ c)
theorem k_v385_60 : W60 m ρ c (Proc.devRef .tc main_v385) = Spec.g_v605 (KA m c) :=
  (StableHlo.after_of_writes_sub hostOps18 (W59 m ρ c) kwrites60_sub (by decide)).trans (k_v385_59 m ρ c)
theorem k_v387_60 : W60 m ρ c (Proc.devRef .tc main_v387) = Spec.g_v611 (KA m c) := by
  show StableHlo.after hostOps18 (W59 m ρ c) (Proc.devRef .tc main_v387) = _
  after_results_simp
  try simp only [k_v270_59 m ρ c]
  rfl
theorem k_v389_60 : W60 m ρ c (Proc.devRef .tc main_v389) = Spec.g_v613 (KA m c) := by
  show StableHlo.after hostOps18 (W59 m ρ c) (Proc.devRef .tc main_v389) = _
  after_results_simp
  try simp only [k_v272_59 m ρ c]
  rfl
theorem k_v391_60 : W60 m ρ c (Proc.devRef .tc main_v391) = Spec.g_v615 (KA m c) := by
  show StableHlo.after hostOps18 (W59 m ρ c) (Proc.devRef .tc main_v391) = _
  after_results_simp
  try simp only [k_v274_59 m ρ c]
  rfl
theorem k_v393_60 : W60 m ρ c (Proc.devRef .tc main_v393) = Spec.g_v617 (KA m c) := by
  show StableHlo.after hostOps18 (W59 m ρ c) (Proc.devRef .tc main_v393) = _
  after_results_simp
  try simp only [k_v276_59 m ρ c]
  rfl
theorem k_v395_60 : W60 m ρ c (Proc.devRef .tc main_v395) = Spec.g_v651 (KA m c) := by
  show StableHlo.after hostOps18 (W59 m ρ c) (Proc.devRef .tc main_v395) = _
  after_results_simp
  try simp only [k_v270_59 m ρ c]
  rfl
theorem k_v397_60 : W60 m ρ c (Proc.devRef .tc main_v397) = Spec.g_v653 (KA m c) := by
  show StableHlo.after hostOps18 (W59 m ρ c) (Proc.devRef .tc main_v397) = _
  after_results_simp
  try simp only [k_v272_59 m ρ c]
  rfl
theorem k_v399_60 : W60 m ρ c (Proc.devRef .tc main_v399) = Spec.g_v655 (KA m c) := by
  show StableHlo.after hostOps18 (W59 m ρ c) (Proc.devRef .tc main_v399) = _
  after_results_simp
  try simp only [k_v274_59 m ρ c]
  rfl
theorem k_v401_60 : W60 m ρ c (Proc.devRef .tc main_v401) = Spec.g_v657 (KA m c) := by
  show StableHlo.after hostOps18 (W59 m ρ c) (Proc.devRef .tc main_v401) = _
  after_results_simp
  try simp only [k_v276_59 m ρ c]
  rfl

/-! ### Boundary 61: after region 18 -/

theorem k_arg16_61 : W61 m ρ c (Proc.devRef .tc main_arg16) = (KA m c).a16 :=
  (W61_of_ne m ρ c main_arg16 (by decide)).trans (k_arg16_60 m ρ c)
theorem k_arg17_61 : W61 m ρ c (Proc.devRef .tc main_arg17) = (KA m c).a17 :=
  (W61_of_ne m ρ c main_arg17 (by decide)).trans (k_arg17_60 m ρ c)
theorem k_arg18_61 : W61 m ρ c (Proc.devRef .tc main_arg18) = (KA m c).a18 :=
  (W61_of_ne m ρ c main_arg18 (by decide)).trans (k_arg18_60 m ρ c)
theorem k_arg19_61 : W61 m ρ c (Proc.devRef .tc main_arg19) = (KA m c).a19 :=
  (W61_of_ne m ρ c main_arg19 (by decide)).trans (k_arg19_60 m ρ c)
theorem k_v385_61 : W61 m ρ c (Proc.devRef .tc main_v385) = Spec.g_v605 (KA m c) :=
  (W61_of_ne m ρ c main_v385 (by decide)).trans (k_v385_60 m ρ c)
theorem k_v402_61 : W61 m ρ c (Proc.devRef .tc main_v402) = Spec.g_v687 (KA m c) := by
  refine (W61_arr m ρ c (14 : Fin cfg18.W)).trans ?_
  refine (RegionValue.RegionFacts.reg18 (V60 m ρ) c).trans ?_
  show Spec.combM (W60 m ρ c (Proc.devRef .tc main_v347)) (W60 m ρ c (Proc.devRef .tc main_v363)) (W60 m ρ c (Proc.devRef .tc main_v364)) (W60 m ρ c (Proc.devRef .tc main_v387)) (W60 m ρ c (Proc.devRef .tc main_v389)) (W60 m ρ c (Proc.devRef .tc main_v391)) (W60 m ρ c (Proc.devRef .tc main_v393)) (W60 m ρ c (Proc.devRef .tc main_v352)) (W60 m ρ c (Proc.devRef .tc main_v367)) (W60 m ρ c (Proc.devRef .tc main_v368)) (W60 m ρ c (Proc.devRef .tc main_v395)) (W60 m ρ c (Proc.devRef .tc main_v397)) (W60 m ρ c (Proc.devRef .tc main_v399)) (W60 m ρ c (Proc.devRef .tc main_v401)) = _
  rw [k_v347_60 m ρ c, k_v363_60 m ρ c, k_v364_60 m ρ c, k_v387_60 m ρ c, k_v389_60 m ρ c, k_v391_60 m ρ c, k_v393_60 m ρ c, k_v352_60 m ρ c, k_v367_60 m ρ c, k_v368_60 m ρ c, k_v395_60 m ρ c, k_v397_60 m ρ c, k_v399_60 m ρ c, k_v401_60 m ρ c]
  rfl

/-! ### Boundary 62: after region 19 -/

theorem k_arg18_62 : W62 m ρ c (Proc.devRef .tc main_arg18) = (KA m c).a18 :=
  (W62_of_ne m ρ c main_arg18 (by decide)).trans (k_arg18_61 m ρ c)
theorem k_arg19_62 : W62 m ρ c (Proc.devRef .tc main_arg19) = (KA m c).a19 :=
  (W62_of_ne m ρ c main_arg19 (by decide)).trans (k_arg19_61 m ρ c)
theorem k_v402_62 : W62 m ρ c (Proc.devRef .tc main_v402) = Spec.g_v687 (KA m c) :=
  (W62_of_ne m ρ c main_v402 (by decide)).trans (k_v402_61 m ρ c)
theorem k_v403_62 : W62 m ρ c (Proc.devRef .tc main_v403) = Spec.g_v691 (KA m c) := by
  refine (W62_arr m ρ c (3 : Fin cfg19.W)).trans ?_
  refine (RegionValue.RegionFacts.reg19 (V61 m ρ) c).trans ?_
  show Spec.linD (W61 m ρ c (Proc.devRef .tc main_v385)) (W61 m ρ c (Proc.devRef .tc main_arg16)) (W61 m ρ c (Proc.devRef .tc main_arg17)) = _
  rw [k_v385_61 m ρ c, k_arg16_61 m ρ c, k_arg17_61 m ρ c]
  rfl

/-! ### Boundary 63: after region 20 -/

theorem k_v403_63 : W63 m ρ c (Proc.devRef .tc main_v403) = Spec.g_v691 (KA m c) :=
  (W63_of_ne m ρ c main_v403 (by decide)).trans (k_v403_62 m ρ c)
theorem k_v404_63 : W63 m ρ c (Proc.devRef .tc main_v404) = Spec.g_v695 (KA m c) := by
  refine (W63_arr m ρ c (3 : Fin cfg20.W)).trans ?_
  refine (RegionValue.RegionFacts.reg20 (V62 m ρ) c).trans ?_
  show Spec.linE (W62 m ρ c (Proc.devRef .tc main_v402)) (W62 m ρ c (Proc.devRef .tc main_arg18)) (W62 m ρ c (Proc.devRef .tc main_arg19)) = _
  rw [k_v402_62 m ρ c, k_arg18_62 m ρ c, k_arg19_62 m ρ c]
  rfl

end Cert.KernelIdeal.Thread

end
-- ==== Proof.RefOps0.lean ====
import proofs.«116822_j38594576122568_1_alg».proof.ReferenceIdeal
import Idealize.ShloMosaic.Lib.StableHlo.Run
import Idealize.ShloMosaic.Lib.Pipeline.Regions

/-! Window 0 of the reference's @main as the list of its host operations, each outlined function's body written out at its
    call over the call's own buffers, and the window's text is the run of that list. -/

noncomputable section

namespace Cert.ReferenceIdeal.Ops

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

/-- The 60 host operations of window 0, in order. -/
abbrev ops0 : List (HloOp τ sig (Elt F)) :=
  [ StableHlo.binary main_arg1 main_arg2 main_v0 ((fun l r => Host.dotGeneral dot_S20000x4_S4x7_S20000x7_1_0_0_1_n_n none l r) : (⟨S20000x4, .f32⟩ : BufTy).Contents (Elt F) → (⟨S4x7, .f32⟩ : BufTy).Contents (Elt F) → (⟨S20000x7, .f32⟩ : BufTy).Contents (Elt F)),
    StableHlo.unary main_arg3 main_v1 (broadcastInDim S1x7 ![1] bcast_S7_S1x7_1 : (⟨S7, .f32⟩ : BufTy).Contents (Elt F) → (⟨S1x7, .f32⟩ : BufTy).Contents (Elt F)),
    StableHlo.unary main_v1 main_v2 (broadcastInDim S20000x7 ![0, 1] bcast_S1x7_S20000x7_0_1 : (⟨S1x7, .f32⟩ : BufTy).Contents (Elt F) → (⟨S20000x7, .f32⟩ : BufTy).Contents (Elt F)),
    StableHlo.binary main_v0 main_v2 main_v3 (addf : (⟨S20000x7, .f32⟩ : BufTy).Contents (Elt F) → (⟨S20000x7, .f32⟩ : BufTy).Contents (Elt F) → (⟨S20000x7, .f32⟩ : BufTy).Contents (Elt F)),
    StableHlo.unary main_arg20 main_v4 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v4 main_v5 rfl shapeCasts_S1x1000000_S1000000,
    StableHlo.nullary main_c (constantI S_ 32 0#32),
    StableHlo.unary main_c main_v6 (broadcastInDim S1000000 ![] bcast_S_S1000000 : (⟨S_, .i32⟩ : BufTy).Contents (Elt F) → (⟨S1000000, .i32⟩ : BufTy).Contents (Elt F)),
    StableHlo.binary main_v5 main_v6 main_v7 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 80000#32),
    StableHlo.unary main_c_0 main_v8 (broadcastInDim S1000000 ![] bcast_S_S1000000 : (⟨S_, .i32⟩ : BufTy).Contents (Elt F) → (⟨S1000000, .i32⟩ : BufTy).Contents (Elt F)),
    StableHlo.binary main_v5 main_v8 main_v9 (addi : (⟨S1000000, .i32⟩ : BufTy).Contents (Elt F) → (⟨S1000000, .i32⟩ : BufTy).Contents (Elt F) → (⟨S1000000, .i32⟩ : BufTy).Contents (Elt F)),
    StableHlo.ternary main_v7 main_v9 main_v5 main_v10 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v10 main_v11 (broadcastInDim S1000000x1 ![0] bcast_S1000000_S1000000x1_0 : (⟨S1000000, .i32⟩ : BufTy).Contents (Elt F) → (⟨S1000000x1, .i32⟩ : BufTy).Contents (Elt F)),
    StableHlo.binary main_arg0 main_v11 main_v12 ((fun x i => Host.gather gather_S80000x7_S1000000x1_S1000000x7_1_0_n_n_0_1_17 x i) : (⟨S80000x7, .f32⟩ : BufTy).Contents (Elt F) → (⟨S1000000x1, .i32⟩ : BufTy).Contents (Elt F) → (⟨S1000000x7, .f32⟩ : BufTy).Contents (Elt F)),
    StableHlo.unary main_arg20 main_v13 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v13 main_v14 rfl shapeCasts_S1x1000000_S1000000,
    StableHlo.nullary main_cst (constant S_ .f32 0x00000000#32),
    StableHlo.unary main_cst main_v15 (broadcastInDim S80000x7 ![] bcast_S_S80000x7 : (⟨S_, .f32⟩ : BufTy).Contents (Elt F) → (⟨S80000x7, .f32⟩ : BufTy).Contents (Elt F)),
    StableHlo.unary main_v14 main_v16 (broadcastInDim S1000000x1 ![0] bcast_S1000000_S1000000x1_0 : (⟨S1000000, .i32⟩ : BufTy).Contents (Elt F) → (⟨S1000000x1, .i32⟩ : BufTy).Contents (Elt F)),
    StableHlo.ternary main_v15 main_v16 main_v12 main_v17 ((fun x i u => Host.scatterAdd scatter_S80000x7_S1000000x1_S1000000x7_1_0_0_1 x i u) : (⟨S80000x7, .f32⟩ : BufTy).Contents (Elt F) → (⟨S1000000x1, .i32⟩ : BufTy).Contents (Elt F) → (⟨S1000000x7, .f32⟩ : BufTy).Contents (Elt F) → (⟨S80000x7, .f32⟩ : BufTy).Contents (Elt F)),
    StableHlo.unary main_arg22 main_v18 ((extractStridedSlice S1x300000 ![0, 0] · slices_S2x300000_S1x300000_0_0) : (⟨S2x300000, .i32⟩ : BufTy).Contents (Elt F) → (⟨S1x300000, .i32⟩ : BufTy).Contents (Elt F)),
    StableHlo.reshape main_v18 main_v19 rfl shapeCasts_S1x300000_S300000,
    StableHlo.nullary main_c_1 (constantI S_ 32 0#32),
    StableHlo.unary main_c_1 main_v20 (broadcastInDim S300000 ![] bcast_S_S300000 : (⟨S_, .i32⟩ : BufTy).Contents (Elt F) → (⟨S300000, .i32⟩ : BufTy).Contents (Elt F)),
    StableHlo.binary main_v19 main_v20 main_v21 (cmpi .slt : (⟨S300000, .i32⟩ : BufTy).Contents (Elt F) → (⟨S300000, .i32⟩ : BufTy).Contents (Elt F) → (⟨S300000, .i1⟩ : BufTy).Contents (Elt F)),
    StableHlo.nullary main_c_2 (constantI S_ 32 20000#32),
    StableHlo.unary main_c_2 main_v22 (broadcastInDim S300000 ![] bcast_S_S300000 : (⟨S_, .i32⟩ : BufTy).Contents (Elt F) → (⟨S300000, .i32⟩ : BufTy).Contents (Elt F)),
    StableHlo.binary main_v19 main_v22 main_v23 (addi : (⟨S300000, .i32⟩ : BufTy).Contents (Elt F) → (⟨S300000, .i32⟩ : BufTy).Contents (Elt F) → (⟨S300000, .i32⟩ : BufTy).Contents (Elt F)),
    StableHlo.ternary main_v21 main_v23 main_v19 main_v24 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v24 main_v25 (broadcastInDim S300000x1 ![0] bcast_S300000_S300000x1_0 : (⟨S300000, .i32⟩ : BufTy).Contents (Elt F) → (⟨S300000x1, .i32⟩ : BufTy).Contents (Elt F)),
    StableHlo.binary main_v3 main_v25 main_v26 ((fun x i => Host.gather gather_S20000x7_S300000x1_S300000x7_1_0_n_n_0_1_17 x i) : (⟨S20000x7, .f32⟩ : BufTy).Contents (Elt F) → (⟨S300000x1, .i32⟩ : BufTy).Contents (Elt F) → (⟨S300000x7, .f32⟩ : BufTy).Contents (Elt F)),
    StableHlo.unary main_arg22 main_v27 ((extractStridedSlice S1x300000 ![1, 0] · slices_S2x300000_S1x300000_1_0) : (⟨S2x300000, .i32⟩ : BufTy).Contents (Elt F) → (⟨S1x300000, .i32⟩ : BufTy).Contents (Elt F)),
    StableHlo.reshape main_v27 main_v28 rfl shapeCasts_S1x300000_S300000,
    StableHlo.nullary main_cst_3 (constant S_ .f32 0x00000000#32),
    StableHlo.unary main_cst_3 main_v29 (broadcastInDim S80000x7 ![] bcast_S_S80000x7 : (⟨S_, .f32⟩ : BufTy).Contents (Elt F) → (⟨S80000x7, .f32⟩ : BufTy).Contents (Elt F)),
    StableHlo.unary main_v28 main_v30 (broadcastInDim S300000x1 ![0] bcast_S300000_S300000x1_0 : (⟨S300000, .i32⟩ : BufTy).Contents (Elt F) → (⟨S300000x1, .i32⟩ : BufTy).Contents (Elt F)),
    StableHlo.ternary main_v29 main_v30 main_v26 main_v31 ((fun x i u => Host.scatterAdd scatter_S80000x7_S300000x1_S300000x7_1_0_0_1 x i u) : (⟨S80000x7, .f32⟩ : BufTy).Contents (Elt F) → (⟨S300000x1, .i32⟩ : BufTy).Contents (Elt F) → (⟨S300000x7, .f32⟩ : BufTy).Contents (Elt F) → (⟨S80000x7, .f32⟩ : BufTy).Contents (Elt F)),
    StableHlo.unary main_arg21 main_v32 ((extractStridedSlice S1x300000 ![0, 0] · slices_S2x300000_S1x300000_0_0) : (⟨S2x300000, .i32⟩ : BufTy).Contents (Elt F) → (⟨S1x300000, .i32⟩ : BufTy).Contents (Elt F)),
    StableHlo.reshape main_v32 main_v33 rfl shapeCasts_S1x300000_S300000,
    StableHlo.nullary main_c_4 (constantI S_ 32 0#32),
    StableHlo.unary main_c_4 main_v34 (broadcastInDim S300000 ![] bcast_S_S300000 : (⟨S_, .i32⟩ : BufTy).Contents (Elt F) → (⟨S300000, .i32⟩ : BufTy).Contents (Elt F)),
    StableHlo.binary main_v33 main_v34 main_v35 (cmpi .slt : (⟨S300000, .i32⟩ : BufTy).Contents (Elt F) → (⟨S300000, .i32⟩ : BufTy).Contents (Elt F) → (⟨S300000, .i1⟩ : BufTy).Contents (Elt F)),
    StableHlo.nullary main_c_5 (constantI S_ 32 80000#32),
    StableHlo.unary main_c_5 main_v36 (broadcastInDim S300000 ![] bcast_S_S300000 : (⟨S_, .i32⟩ : BufTy).Contents (Elt F) → (⟨S300000, .i32⟩ : BufTy).Contents (Elt F)),
    StableHlo.binary main_v33 main_v36 main_v37 (addi : (⟨S300000, .i32⟩ : BufTy).Contents (Elt F) → (⟨S300000, .i32⟩ : BufTy).Contents (Elt F) → (⟨S300000, .i32⟩ : BufTy).Contents (Elt F)),
    StableHlo.ternary main_v35 main_v37 main_v33 main_v38 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v38 main_v39 (broadcastInDim S300000x1 ![0] bcast_S300000_S300000x1_0 : (⟨S300000, .i32⟩ : BufTy).Contents (Elt F) → (⟨S300000x1, .i32⟩ : BufTy).Contents (Elt F)),
    StableHlo.binary main_arg0 main_v39 main_v40 ((fun x i => Host.gather gather_S80000x7_S300000x1_S300000x7_1_0_n_n_0_1_17 x i) : (⟨S80000x7, .f32⟩ : BufTy).Contents (Elt F) → (⟨S300000x1, .i32⟩ : BufTy).Contents (Elt F) → (⟨S300000x7, .f32⟩ : BufTy).Contents (Elt F)),
    StableHlo.unary main_arg21 main_v41 ((extractStridedSlice S1x300000 ![1, 0] · slices_S2x300000_S1x300000_1_0) : (⟨S2x300000, .i32⟩ : BufTy).Contents (Elt F) → (⟨S1x300000, .i32⟩ : BufTy).Contents (Elt F)),
    StableHlo.reshape main_v41 main_v42 rfl shapeCasts_S1x300000_S300000,
    StableHlo.nullary main_cst_6 (constant S_ .f32 0x00000000#32),
    StableHlo.unary main_cst_6 main_v43 (broadcastInDim S20000x7 ![] bcast_S_S20000x7 : (⟨S_, .f32⟩ : BufTy).Contents (Elt F) → (⟨S20000x7, .f32⟩ : BufTy).Contents (Elt F)),
    StableHlo.unary main_v42 main_v44 (broadcastInDim S300000x1 ![0] bcast_S300000_S300000x1_0 : (⟨S300000, .i32⟩ : BufTy).Contents (Elt F) → (⟨S300000x1, .i32⟩ : BufTy).Contents (Elt F)),
    StableHlo.ternary main_v43 main_v44 main_v40 main_v45 ((fun x i u => Host.scatterAdd scatter_S20000x7_S300000x1_S300000x7_1_0_0_1 x i u) : (⟨S20000x7, .f32⟩ : BufTy).Contents (Elt F) → (⟨S300000x1, .i32⟩ : BufTy).Contents (Elt F) → (⟨S300000x7, .f32⟩ : BufTy).Contents (Elt F) → (⟨S20000x7, .f32⟩ : BufTy).Contents (Elt F)),
    StableHlo.unary main_arg23 main_v46 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v46 main_v47 rfl shapeCasts_S1x100000_S100000,
    StableHlo.nullary main_c_7 (constantI S_ 32 0#32),
    StableHlo.unary main_c_7 main_v48 (broadcastInDim S100000 ![] bcast_S_S100000 : (⟨S_, .i32⟩ : BufTy).Contents (Elt F) → (⟨S100000, .i32⟩ : BufTy).Contents (Elt F)),
    StableHlo.binary main_v47 main_v48 main_v49 (cmpi .slt : (⟨S100000, .i32⟩ : BufTy).Contents (Elt F) → (⟨S100000, .i32⟩ : BufTy).Contents (Elt F) → (⟨S100000, .i1⟩ : BufTy).Contents (Elt F)) ]

/-- Every operation of the window touches TensorCore buffers only. -/
theorem ops0_sub : (ops0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.unary_bufs_sub .., StableHlo.binary_bufs_sub ..⟩

/-- No operation of the window allocates a buffer. -/
theorem ops0_fresh : (ops0 : List (HloOp τ sig (Elt F))).Forall fun op => op.fresh = ∅ := by
  simp only [List.Forall]; repeat' constructor

/-- The window's text is the run of its operations in order: both are one chain of host steps, the outlined functions
    unfolded at their calls. -/
theorem part0_eq (c : Dev nD) : main_part0 (F := F) c = StableHlo.seq ops0 := by
  chain_rfl

end Cert.ReferenceIdeal.Ops

end
-- ==== Proof.RefOps1.lean ====
import proofs.«116822_j38594576122568_1_alg».proof.ReferenceIdeal
import Idealize.ShloMosaic.Lib.StableHlo.Run
import Idealize.ShloMosaic.Lib.Pipeline.Regions

/-! Window 1 of the reference's @main as the list of its host operations, each outlined function's body written out at its
    call over the call's own buffers, and the window's text is the run of that list. -/

noncomputable section

namespace Cert.ReferenceIdeal.Ops

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

/-- The 83 host operations of window 1, in order. -/
abbrev ops1 : List (HloOp τ sig (Elt F)) :=
  [ StableHlo.nullary main_c_8 (constantI S_ 32 20000#32),
    StableHlo.unary main_c_8 main_v50 (broadcastInDim S100000 ![] bcast_S_S100000 : (⟨S_, .i32⟩ : BufTy).Contents (Elt F) → (⟨S100000, .i32⟩ : BufTy).Contents (Elt F)),
    StableHlo.binary main_v47 main_v50 main_v51 (addi : (⟨S100000, .i32⟩ : BufTy).Contents (Elt F) → (⟨S100000, .i32⟩ : BufTy).Contents (Elt F) → (⟨S100000, .i32⟩ : BufTy).Contents (Elt F)),
    StableHlo.ternary main_v49 main_v51 main_v47 main_v52 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v52 main_v53 (broadcastInDim S100000x1 ![0] bcast_S100000_S100000x1_0 : (⟨S100000, .i32⟩ : BufTy).Contents (Elt F) → (⟨S100000x1, .i32⟩ : BufTy).Contents (Elt F)),
    StableHlo.binary main_v3 main_v53 main_v54 ((fun x i => Host.gather gather_S20000x7_S100000x1_S100000x7_1_0_n_n_0_1_17 x i) : (⟨S20000x7, .f32⟩ : BufTy).Contents (Elt F) → (⟨S100000x1, .i32⟩ : BufTy).Contents (Elt F) → (⟨S100000x7, .f32⟩ : BufTy).Contents (Elt F)),
    StableHlo.unary main_arg23 main_v55 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v55 main_v56 rfl shapeCasts_S1x100000_S100000,
    StableHlo.nullary main_cst_9 (constant S_ .f32 0x00000000#32),
    StableHlo.unary main_cst_9 main_v57 (broadcastInDim S20000x7 ![] bcast_S_S20000x7 : (⟨S_, .f32⟩ : BufTy).Contents (Elt F) → (⟨S20000x7, .f32⟩ : BufTy).Contents (Elt F)),
    StableHlo.unary main_v56 main_v58 (broadcastInDim S100000x1 ![0] bcast_S100000_S100000x1_0 : (⟨S100000, .i32⟩ : BufTy).Contents (Elt F) → (⟨S100000x1, .i32⟩ : BufTy).Contents (Elt F)),
    StableHlo.ternary main_v57 main_v58 main_v54 main_v59 ((fun x i u => Host.scatterAdd scatter_S20000x7_S100000x1_S100000x7_1_0_0_1 x i u) : (⟨S20000x7, .f32⟩ : BufTy).Contents (Elt F) → (⟨S100000x1, .i32⟩ : BufTy).Contents (Elt F) → (⟨S100000x7, .f32⟩ : BufTy).Contents (Elt F) → (⟨S20000x7, .f32⟩ : BufTy).Contents (Elt F)),
    StableHlo.unary main_arg4 main_v60 ((extractStridedSlice S1x7x128 ![0, 0, 0] · slices_S4x7x128_S1x7x128_0_0_0) : (⟨S4x7x128, .f32⟩ : BufTy).Contents (Elt F) → (⟨S1x7x128, .f32⟩ : BufTy).Contents (Elt F)),
    StableHlo.reshape main_v60 main_v61 rfl shapeCasts_S1x7x128_S7x128,
    StableHlo.unary main_arg5 main_v62 ((extractStridedSlice S1x128 ![0, 0] · slices_S4x128_S1x128_0_0) : (⟨S4x128, .f32⟩ : BufTy).Contents (Elt F) → (⟨S1x128, .f32⟩ : BufTy).Contents (Elt F)),
    StableHlo.reshape main_v62 main_v63 rfl shapeCasts_S1x128_S128,
    StableHlo.unary main_arg6 main_v64 ((extractStridedSlice S1x128 ![0, 0] · slices_S4x128_S1x128_0_0) : (⟨S4x128, .f32⟩ : BufTy).Contents (Elt F) → (⟨S1x128, .f32⟩ : BufTy).Contents (Elt F)),
    StableHlo.reshape main_v64 main_v65 rfl shapeCasts_S1x128_S128,
    StableHlo.unary main_arg7 main_v66 ((extractStridedSlice S1x128 ![0, 0] · slices_S4x128_S1x128_0_0) : (⟨S4x128, .f32⟩ : BufTy).Contents (Elt F) → (⟨S1x128, .f32⟩ : BufTy).Contents (Elt F)),
    StableHlo.reshape main_v66 main_v67 rfl shapeCasts_S1x128_S128,
    StableHlo.unary main_arg8 main_v68 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v68 main_v69 rfl shapeCasts_S1x128x128_S128x128,
    StableHlo.unary main_arg9 main_v70 ((extractStridedSlice S1x128 ![0, 0] · slices_S4x128_S1x128_0_0) : (⟨S4x128, .f32⟩ : BufTy).Contents (Elt F) → (⟨S1x128, .f32⟩ : BufTy).Contents (Elt F)),
    StableHlo.reshape main_v70 main_v71 rfl shapeCasts_S1x128_S128,
    StableHlo.binary main_v17 main_v61 main_v72 ((fun l r => Host.dotGeneral dot_S80000x7_S7x128_S80000x128_1_0_0_1_n_n none l r) : (⟨S80000x7, .f32⟩ : BufTy).Contents (Elt F) → (⟨S7x128, .f32⟩ : BufTy).Contents (Elt F) → (⟨S80000x128, .f32⟩ : BufTy).Contents (Elt F)),
    StableHlo.unary main_v63 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S80000x128 ![0, 1] bcast_S1x128_S80000x128_0_1 : (⟨S1x128, .f32⟩ : BufTy).Contents (Elt F) → (⟨S80000x128, .f32⟩ : BufTy).Contents (Elt F)),
    StableHlo.binary main_v72 main_v74 main_v75 (addf : (⟨S80000x128, .f32⟩ : BufTy).Contents (Elt F) → (⟨S80000x128, .f32⟩ : BufTy).Contents (Elt F) → (⟨S80000x128, .f32⟩ : BufTy).Contents (Elt F)),
    StableHlo.nullary main_cst_10 (constant S_ .f32 0x00000000#32),
    StableHlo.binary main_v75 main_cst_10 main_v76 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.nullary main_cst_11 (constant S_ .f32 0x479C4000#32),
    StableHlo.unary main_cst_11 main_v77 (broadcastInDim S128 ![] bcast_S_S128 : (⟨S_, .f32⟩ : BufTy).Contents (Elt F) → (⟨S128, .f32⟩ : BufTy).Contents (Elt F)),
    StableHlo.binary main_v76 main_v77 main_v78 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary (.of main_call0_cst : StableHlo.TRef sig ⟨S_, .f32⟩) (constant S_ .f32 0x00000000#32),
    StableHlo.TRef.binary (.of main_v75 : StableHlo.TRef sig ⟨S80000x128, .f32⟩) (.of main_call0_cst : StableHlo.TRef sig ⟨S_, .f32⟩) (.of main_call0_v0 : StableHlo.TRef sig ⟨S128, .f32⟩) (fun x v => Host.reduceAdd x v reducesTo_S80000x128_S128_d0 h_S_),
    StableHlo.TRef.unary (.of main_call0_v0 : StableHlo.TRef sig ⟨S128, .f32⟩) (.of main_call0_v1 : StableHlo.TRef sig ⟨S1x128, .f32⟩) (broadcastInDim S1x128 ![1] bcast_S128_S1x128_1),
    StableHlo.TRef.nullary (.of main_call0_cst_0 : StableHlo.TRef sig ⟨S_, .f32⟩) (constant S_ .f32 0x479C4000#32),
    StableHlo.TRef.unary (.of main_call0_cst_0 : StableHlo.TRef sig ⟨S_, .f32⟩) (.of main_call0_v2 : StableHlo.TRef sig ⟨S1x128, .f32⟩) (broadcastInDim S1x128 ![] bcast_S_S1x128),
    StableHlo.TRef.binary (.of main_call0_v1 : StableHlo.TRef sig ⟨S1x128, .f32⟩) (.of main_call0_v2 : StableHlo.TRef sig ⟨S1x128, .f32⟩) (.of main_call0_v3 : StableHlo.TRef sig ⟨S1x128, .f32⟩) Host.divf,
    StableHlo.TRef.unary (.of main_call0_v3 : StableHlo.TRef sig ⟨S1x128, .f32⟩) (.of main_call0_v4 : StableHlo.TRef sig ⟨S80000x128, .f32⟩) (broadcastInDim S80000x128 ![0, 1] bcast_S1x128_S80000x128_0_1),
    StableHlo.TRef.binary (.of main_v75 : StableHlo.TRef sig ⟨S80000x128, .f32⟩) (.of main_call0_v4 : StableHlo.TRef sig ⟨S80000x128, .f32⟩) (.of main_call0_v5 : StableHlo.TRef sig ⟨S80000x128, .f32⟩) subf,
    StableHlo.TRef.binary (.of main_call0_v5 : StableHlo.TRef sig ⟨S80000x128, .f32⟩) (.of main_call0_v5 : StableHlo.TRef sig ⟨S80000x128, .f32⟩) (.of main_call0_v6 : StableHlo.TRef sig ⟨S80000x128, .f32⟩) mulf,
    StableHlo.TRef.unary (.of main_c_12 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x479C4000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S80000x128, .f32⟩) (.of main_call0_cst_2 : StableHlo.TRef sig ⟨S_, .f32⟩) (.of main_call0_v9 : StableHlo.TRef sig ⟨S128, .f32⟩) (fun x v => Host.reduceAdd x v reducesTo_S80000x128_S128_d0 h_S_),
    StableHlo.TRef.unary (.of main_call0_v8 : StableHlo.TRef sig ⟨S_, .f32⟩) (.of main_call0_v10 : StableHlo.TRef sig ⟨S128, .f32⟩) (broadcastInDim S128 ![] bcast_S_S128),
    StableHlo.TRef.binary (.of main_call0_v9 : StableHlo.TRef sig ⟨S128, .f32⟩) (.of main_call0_v10 : StableHlo.TRef sig ⟨S128, .f32⟩) (.of main_call0_v11 : StableHlo.TRef sig ⟨S128, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S128, .f32⟩) (broadcastInDim S128 ![] bcast_S_S128),
    StableHlo.TRef.ternary (.of main_call0_v12 : StableHlo.TRef sig ⟨S_, .i1⟩) (.of main_call0_v11 : StableHlo.TRef sig ⟨S128, .f32⟩) (.of main_call0_call0_v1 : StableHlo.TRef sig ⟨S128, .f32⟩) (.of main_v79 : StableHlo.TRef sig ⟨S128, .f32⟩) (fun p a b => select (broadcastInDim S128 ![] bcast_S_S128 p) a b),
    StableHlo.unary main_v78 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S80000x128 ![0, 1] bcast_S1x128_S80000x128_0_1 : (⟨S1x128, .f32⟩ : BufTy).Contents (Elt F) → (⟨S80000x128, .f32⟩ : BufTy).Contents (Elt F)),
    StableHlo.binary main_v75 main_v81 main_v82 (subf : (⟨S80000x128, .f32⟩ : BufTy).Contents (Elt F) → (⟨S80000x128, .f32⟩ : BufTy).Contents (Elt F) → (⟨S80000x128, .f32⟩ : BufTy).Contents (Elt F)),
    StableHlo.unary main_v65 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S80000x128 ![0, 1] bcast_S1x128_S80000x128_0_1 : (⟨S1x128, .f32⟩ : BufTy).Contents (Elt F) → (⟨S80000x128, .f32⟩ : BufTy).Contents (Elt F)),
    StableHlo.binary main_v84 main_v82 main_v85 (mulf : (⟨S80000x128, .f32⟩ : BufTy).Contents (Elt F) → (⟨S80000x128, .f32⟩ : BufTy).Contents (Elt F) → (⟨S80000x128, .f32⟩ : BufTy).Contents (Elt F)),
    StableHlo.nullary main_cst_13 (constant S_ .f32 0x3727C5AC#32),
    StableHlo.unary main_cst_13 main_v86 (broadcastInDim S128 ![] bcast_S_S128 : (⟨S_, .f32⟩ : BufTy).Contents (Elt F) → (⟨S128, .f32⟩ : BufTy).Contents (Elt F)),
    StableHlo.binary main_v79 main_v86 main_v87 (addf : (⟨S128, .f32⟩ : BufTy).Contents (Elt F) → (⟨S128, .f32⟩ : BufTy).Contents (Elt F) → (⟨S128, .f32⟩ : BufTy).Contents (Elt F)),
    StableHlo.unary main_v87 main_v88 (Host.rsqrt : (⟨S128, .f32⟩ : BufTy).Contents (Elt F) → (⟨S128, .f32⟩ : BufTy).Contents (Elt F)),
    StableHlo.unary main_v88 main_v89 (broadcastInDim S1x128 ![1] bcast_S128_S1x128_1 : (⟨S128, .f32⟩ : BufTy).Contents (Elt F) → (⟨S1x128, .f32⟩ : BufTy).Contents (Elt F)),
    StableHlo.unary main_v89 main_v90 (broadcastInDim S80000x128 ![0, 1] bcast_S1x128_S80000x128_0_1 : (⟨S1x128, .f32⟩ : BufTy).Contents (Elt F) → (⟨S80000x128, .f32⟩ : BufTy).Contents (Elt F)),
    StableHlo.binary main_v85 main_v90 main_v91 (mulf : (⟨S80000x128, .f32⟩ : BufTy).Contents (Elt F) → (⟨S80000x128, .f32⟩ : BufTy).Contents (Elt F) → (⟨S80000x128, .f32⟩ : BufTy).Contents (Elt F)),
    StableHlo.unary main_v67 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S80000x128 ![0, 1] bcast_S1x128_S80000x128_0_1 : (⟨S1x128, .f32⟩ : BufTy).Contents (Elt F) → (⟨S80000x128, .f32⟩ : BufTy).Contents (Elt F)),
    StableHlo.binary main_v91 main_v93 main_v94 (addf : (⟨S80000x128, .f32⟩ : BufTy).Contents (Elt F) → (⟨S80000x128, .f32⟩ : BufTy).Contents (Elt F) → (⟨S80000x128, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S80000x128, .f32⟩) (broadcastInDim S80000x128 ![] bcast_S_S80000x128),
    StableHlo.TRef.binary (.of main_v94 : StableHlo.TRef sig ⟨S80000x128, .f32⟩) (.of main_call1_v0 : StableHlo.TRef sig ⟨S80000x128, .f32⟩) (.of main_v95 : StableHlo.TRef sig ⟨S80000x128, .f32⟩) maximumf,
    StableHlo.binary main_v95 main_v69 main_v96 ((fun l r => Host.dotGeneral dot_S80000x128_S128x128_S80000x128_1_0_0_1_n_n none l r) : (⟨S80000x128, .f32⟩ : BufTy).Contents (Elt F) → (⟨S128x128, .f32⟩ : BufTy).Contents (Elt F) → (⟨S80000x128, .f32⟩ : BufTy).Contents (Elt F)),
    StableHlo.unary main_v71 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S80000x128 ![0, 1] bcast_S1x128_S80000x128_0_1 : (⟨S1x128, .f32⟩ : BufTy).Contents (Elt F) → (⟨S80000x128, .f32⟩ : BufTy).Contents (Elt F)),
    StableHlo.binary main_v96 main_v98 main_v99 (addf : (⟨S80000x128, .f32⟩ : BufTy).Contents (Elt F) → (⟨S80000x128, .f32⟩ : BufTy).Contents (Elt F) → (⟨S80000x128, .f32⟩ : BufTy).Contents (Elt F)),
    StableHlo.unary main_arg4 main_v100 ((extractStridedSlice S1x7x128 ![2, 0, 0] · slices_S4x7x128_S1x7x128_2_0_0) : (⟨S4x7x128, .f32⟩ : BufTy).Contents (Elt F) → (⟨S1x7x128, .f32⟩ : BufTy).Contents (Elt F)),
    StableHlo.reshape main_v100 main_v101 rfl shapeCasts_S1x7x128_S7x128,
    StableHlo.unary main_arg5 main_v102 ((extractStridedSlice S1x128 ![2, 0] · slices_S4x128_S1x128_2_0) : (⟨S4x128, .f32⟩ : BufTy).Contents (Elt F) → (⟨S1x128, .f32⟩ : BufTy).Contents (Elt F)),
    StableHlo.reshape main_v102 main_v103 rfl shapeCasts_S1x128_S128 ]

/-- Every operation of the window touches TensorCore buffers only. -/
theorem ops1_sub : (ops1 : List (HloOp τ sig (Elt F))).Forall fun op => op.bufs ⊆ StableHlo.tcRefs τ sig :=
  ⟨StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub ..⟩

/-- No operation of the window allocates a buffer. -/
theorem ops1_fresh : (ops1 : List (HloOp τ sig (Elt F))).Forall fun op => op.fresh = ∅ := by
  simp only [List.Forall]; repeat' constructor

/-- The window's text is the run of its operations in order: both are one chain of host steps, the outlined functions
    unfolded at their calls. -/
theorem part1_eq (c : Dev nD) : main_part1 (F := F) c = StableHlo.seq ops1 := by
  chain_rfl

end Cert.ReferenceIdeal.Ops

end
-- ==== Proof.RefOps2.lean ====
import proofs.«116822_j38594576122568_1_alg».proof.ReferenceIdeal
import Idealize.ShloMosaic.Lib.StableHlo.Run
import Idealize.ShloMosaic.Lib.Pipeline.Regions

/-! Window 2 of the reference's @main as the list of its host operations, each outlined function's body written out at its
    call over the call's own buffers, and the window's text is the run of that list. -/

noncomputable section

namespace Cert.ReferenceIdeal.Ops

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

/-- The 89 host operations of window 2, in order. -/
abbrev ops2 : List (HloOp τ sig (Elt F)) :=
  [ StableHlo.unary main_arg6 main_v104 ((extractStridedSlice S1x128 ![2, 0] · slices_S4x128_S1x128_2_0) : (⟨S4x128, .f32⟩ : BufTy).Contents (Elt F) → (⟨S1x128, .f32⟩ : BufTy).Contents (Elt F)),
    StableHlo.reshape main_v104 main_v105 rfl shapeCasts_S1x128_S128,
    StableHlo.unary main_arg7 main_v106 ((extractStridedSlice S1x128 ![2, 0] · slices_S4x128_S1x128_2_0) : (⟨S4x128, .f32⟩ : BufTy).Contents (Elt F) → (⟨S1x128, .f32⟩ : BufTy).Contents (Elt F)),
    StableHlo.reshape main_v106 main_v107 rfl shapeCasts_S1x128_S128,
    StableHlo.unary main_arg8 main_v108 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v108 main_v109 rfl shapeCasts_S1x128x128_S128x128,
    StableHlo.unary main_arg9 main_v110 ((extractStridedSlice S1x128 ![2, 0] · slices_S4x128_S1x128_2_0) : (⟨S4x128, .f32⟩ : BufTy).Contents (Elt F) → (⟨S1x128, .f32⟩ : BufTy).Contents (Elt F)),
    StableHlo.reshape main_v110 main_v111 rfl shapeCasts_S1x128_S128,
    StableHlo.binary main_v31 main_v101 main_v112 ((fun l r => Host.dotGeneral dot_S80000x7_S7x128_S80000x128_1_0_0_1_n_n none l r) : (⟨S80000x7, .f32⟩ : BufTy).Contents (Elt F) → (⟨S7x128, .f32⟩ : BufTy).Contents (Elt F) → (⟨S80000x128, .f32⟩ : BufTy).Contents (Elt F)),
    StableHlo.unary main_v103 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S80000x128 ![0, 1] bcast_S1x128_S80000x128_0_1 : (⟨S1x128, .f32⟩ : BufTy).Contents (Elt F) → (⟨S80000x128, .f32⟩ : BufTy).Contents (Elt F)),
    StableHlo.binary main_v112 main_v114 main_v115 (addf : (⟨S80000x128, .f32⟩ : BufTy).Contents (Elt F) → (⟨S80000x128, .f32⟩ : BufTy).Contents (Elt F) → (⟨S80000x128, .f32⟩ : BufTy).Contents (Elt F)),
    StableHlo.nullary main_cst_14 (constant S_ .f32 0x00000000#32),
    StableHlo.binary main_v115 main_cst_14 main_v116 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.nullary main_cst_15 (constant S_ .f32 0x479C4000#32),
    StableHlo.unary main_cst_15 main_v117 (broadcastInDim S128 ![] bcast_S_S128 : (⟨S_, .f32⟩ : BufTy).Contents (Elt F) → (⟨S128, .f32⟩ : BufTy).Contents (Elt F)),
    StableHlo.binary main_v116 main_v117 main_v118 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary (.of main_call2_cst : StableHlo.TRef sig ⟨S_, .f32⟩) (constant S_ .f32 0x00000000#32),
    StableHlo.TRef.binary (.of main_v115 : StableHlo.TRef sig ⟨S80000x128, .f32⟩) (.of main_call2_cst : StableHlo.TRef sig ⟨S_, .f32⟩) (.of main_call2_v0 : StableHlo.TRef sig ⟨S128, .f32⟩) (fun x v => Host.reduceAdd x v reducesTo_S80000x128_S128_d0 h_S_),
    StableHlo.TRef.unary (.of main_call2_v0 : StableHlo.TRef sig ⟨S128, .f32⟩) (.of main_call2_v1 : StableHlo.TRef sig ⟨S1x128, .f32⟩) (broadcastInDim S1x128 ![1] bcast_S128_S1x128_1),
    StableHlo.TRef.nullary (.of main_call2_cst_0 : StableHlo.TRef sig ⟨S_, .f32⟩) (constant S_ .f32 0x479C4000#32),
    StableHlo.TRef.unary (.of main_call2_cst_0 : StableHlo.TRef sig ⟨S_, .f32⟩) (.of main_call2_v2 : StableHlo.TRef sig ⟨S1x128, .f32⟩) (broadcastInDim S1x128 ![] bcast_S_S1x128),
    StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf,
    StableHlo.TRef.unary (.of main_call2_v3 : StableHlo.TRef sig ⟨S1x128, .f32⟩) (.of main_call2_v4 : StableHlo.TRef sig ⟨S80000x128, .f32⟩) (broadcastInDim S80000x128 ![0, 1] bcast_S1x128_S80000x128_0_1),
    StableHlo.TRef.binary (.of main_v115 : StableHlo.TRef sig ⟨S80000x128, .f32⟩) (.of main_call2_v4 : StableHlo.TRef sig ⟨S80000x128, .f32⟩) (.of main_call2_v5 : StableHlo.TRef sig ⟨S80000x128, .f32⟩) subf,
    StableHlo.TRef.binary (.of main_call2_v5 : StableHlo.TRef sig ⟨S80000x128, .f32⟩) (.of main_call2_v5 : StableHlo.TRef sig ⟨S80000x128, .f32⟩) (.of main_call2_v6 : StableHlo.TRef sig ⟨S80000x128, .f32⟩) mulf,
    StableHlo.TRef.unary (.of main_c_16 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x479C4000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S80000x128, .f32⟩) (.of main_call2_cst_2 : StableHlo.TRef sig ⟨S_, .f32⟩) (.of main_call2_v9 : StableHlo.TRef sig ⟨S128, .f32⟩) (fun x v => Host.reduceAdd x v reducesTo_S80000x128_S128_d0 h_S_),
    StableHlo.TRef.unary (.of main_call2_v8 : StableHlo.TRef sig ⟨S_, .f32⟩) (.of main_call2_v10 : StableHlo.TRef sig ⟨S128, .f32⟩) (broadcastInDim S128 ![] bcast_S_S128),
    StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S128, .f32⟩) (broadcastInDim S128 ![] bcast_S_S128),
    StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v119 : StableHlo.TRef sig ⟨S128, .f32⟩) (fun p a b => select (broadcastInDim S128 ![] bcast_S_S128 p) a b),
    StableHlo.unary main_v118 main_v120 (broadcastInDim S1x128 ![1] bcast_S128_S1x128_1 : (⟨S128, .f32⟩ : BufTy).Contents (Elt F) → (⟨S1x128, .f32⟩ : BufTy).Contents (Elt F)),
    StableHlo.unary main_v120 main_v121 (broadcastInDim S80000x128 ![0, 1] bcast_S1x128_S80000x128_0_1 : (⟨S1x128, .f32⟩ : BufTy).Contents (Elt F) → (⟨S80000x128, .f32⟩ : BufTy).Contents (Elt F)),
    StableHlo.binary main_v115 main_v121 main_v122 (subf : (⟨S80000x128, .f32⟩ : BufTy).Contents (Elt F) → (⟨S80000x128, .f32⟩ : BufTy).Contents (Elt F) → (⟨S80000x128, .f32⟩ : BufTy).Contents (Elt F)),
    StableHlo.unary main_v105 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S80000x128 ![0, 1] bcast_S1x128_S80000x128_0_1 : (⟨S1x128, .f32⟩ : BufTy).Contents (Elt F) → (⟨S80000x128, .f32⟩ : BufTy).Contents (Elt F)),
    StableHlo.binary main_v124 main_v122 main_v125 (mulf : (⟨S80000x128, .f32⟩ : BufTy).Contents (Elt F) → (⟨S80000x128, .f32⟩ : BufTy).Contents (Elt F) → (⟨S80000x128, .f32⟩ : BufTy).Contents (Elt F)),
    StableHlo.nullary main_cst_17 (constant S_ .f32 0x3727C5AC#32),
    StableHlo.unary main_cst_17 main_v126 (broadcastInDim S128 ![] bcast_S_S128 : (⟨S_, .f32⟩ : BufTy).Contents (Elt F) → (⟨S128, .f32⟩ : BufTy).Contents (Elt F)),
    StableHlo.binary main_v119 main_v126 main_v127 (addf : (⟨S128, .f32⟩ : BufTy).Contents (Elt F) → (⟨S128, .f32⟩ : BufTy).Contents (Elt F) → (⟨S128, .f32⟩ : BufTy).Contents (Elt F)),
    StableHlo.unary main_v127 main_v128 (Host.rsqrt : (⟨S128, .f32⟩ : BufTy).Contents (Elt F) → (⟨S128, .f32⟩ : BufTy).Contents (Elt F)),
    StableHlo.unary main_v128 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S80000x128 ![0, 1] bcast_S1x128_S80000x128_0_1 : (⟨S1x128, .f32⟩ : BufTy).Contents (Elt F) → (⟨S80000x128, .f32⟩ : BufTy).Contents (Elt F)),
    StableHlo.binary main_v125 main_v130 main_v131 (mulf : (⟨S80000x128, .f32⟩ : BufTy).Contents (Elt F) → (⟨S80000x128, .f32⟩ : BufTy).Contents (Elt F) → (⟨S80000x128, .f32⟩ : BufTy).Contents (Elt F)),
    StableHlo.unary main_v107 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S80000x128 ![0, 1] bcast_S1x128_S80000x128_0_1 : (⟨S1x128, .f32⟩ : BufTy).Contents (Elt F) → (⟨S80000x128, .f32⟩ : BufTy).Contents (Elt F)),
    StableHlo.binary main_v131 main_v133 main_v134 (addf : (⟨S80000x128, .f32⟩ : BufTy).Contents (Elt F) → (⟨S80000x128, .f32⟩ : BufTy).Contents (Elt F) → (⟨S80000x128, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S80000x128, .f32⟩) (broadcastInDim S80000x128 ![] bcast_S_S80000x128),
    StableHlo.TRef.binary (.of main_v134 : StableHlo.TRef sig ⟨S80000x128, .f32⟩) (.of main_call3_v0 : StableHlo.TRef sig ⟨S80000x128, .f32⟩) (.of main_v135 : StableHlo.TRef sig ⟨S80000x128, .f32⟩) maximumf,
    StableHlo.binary main_v135 main_v109 main_v136 ((fun l r => Host.dotGeneral dot_S80000x128_S128x128_S80000x128_1_0_0_1_n_n none l r) : (⟨S80000x128, .f32⟩ : BufTy).Contents (Elt F) → (⟨S128x128, .f32⟩ : BufTy).Contents (Elt F) → (⟨S80000x128, .f32⟩ : BufTy).Contents (Elt F)),
    StableHlo.unary main_v111 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S80000x128 ![0, 1] bcast_S1x128_S80000x128_0_1 : (⟨S1x128, .f32⟩ : BufTy).Contents (Elt F) → (⟨S80000x128, .f32⟩ : BufTy).Contents (Elt F)),
    StableHlo.binary main_v136 main_v138 main_v139 (addf : (⟨S80000x128, .f32⟩ : BufTy).Contents (Elt F) → (⟨S80000x128, .f32⟩ : BufTy).Contents (Elt F) → (⟨S80000x128, .f32⟩ : BufTy).Contents (Elt F)),
    StableHlo.binary main_v99 main_v139 main_v140 (addf : (⟨S80000x128, .f32⟩ : BufTy).Contents (Elt F) → (⟨S80000x128, .f32⟩ : BufTy).Contents (Elt F) → (⟨S80000x128, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S80000x128, .f32⟩) (broadcastInDim S80000x128 ![] bcast_S_S80000x128),
    StableHlo.TRef.binary (.of main_v140 : StableHlo.TRef sig ⟨S80000x128, .f32⟩) (.of main_call4_v0 : StableHlo.TRef sig ⟨S80000x128, .f32⟩) (.of main_call4_v1 : StableHlo.TRef sig ⟨S80000x128, .i1⟩) (cmpf .oge),
    StableHlo.TRef.nullary (.of main_call4_cst_0 : StableHlo.TRef sig ⟨S_, .f32⟩) (constant S_ .f32 0x3C23D70A#32),
    StableHlo.TRef.unary (.of main_call4_cst_0 : StableHlo.TRef sig ⟨S_, .f32⟩) (.of main_call4_v2 : StableHlo.TRef sig ⟨S80000x128, .f32⟩) (broadcastInDim S80000x128 ![] bcast_S_S80000x128),
    StableHlo.TRef.binary (.of main_call4_v2 : StableHlo.TRef sig ⟨S80000x128, .f32⟩) (.of main_v140 : StableHlo.TRef sig ⟨S80000x128, .f32⟩) (.of main_call4_v3 : StableHlo.TRef sig ⟨S80000x128, .f32⟩) mulf,
    StableHlo.TRef.ternary (.of main_call4_v1 : StableHlo.TRef sig ⟨S80000x128, .i1⟩) (.of main_v140 : StableHlo.TRef sig ⟨S80000x128, .f32⟩) (.of main_call4_v3 : StableHlo.TRef sig ⟨S80000x128, .f32⟩) (.of main_v141 : StableHlo.TRef sig ⟨S80000x128, .f32⟩) select,
    StableHlo.unary main_arg4 main_v142 ((extractStridedSlice S1x7x128 ![1, 0, 0] · slices_S4x7x128_S1x7x128_1_0_0) : (⟨S4x7x128, .f32⟩ : BufTy).Contents (Elt F) → (⟨S1x7x128, .f32⟩ : BufTy).Contents (Elt F)),
    StableHlo.reshape main_v142 main_v143 rfl shapeCasts_S1x7x128_S7x128,
    StableHlo.unary main_arg5 main_v144 ((extractStridedSlice S1x128 ![1, 0] · slices_S4x128_S1x128_1_0) : (⟨S4x128, .f32⟩ : BufTy).Contents (Elt F) → (⟨S1x128, .f32⟩ : BufTy).Contents (Elt F)),
    StableHlo.reshape main_v144 main_v145 rfl shapeCasts_S1x128_S128,
    StableHlo.unary main_arg6 main_v146 ((extractStridedSlice S1x128 ![1, 0] · slices_S4x128_S1x128_1_0) : (⟨S4x128, .f32⟩ : BufTy).Contents (Elt F) → (⟨S1x128, .f32⟩ : BufTy).Contents (Elt F)),
    StableHlo.reshape main_v146 main_v147 rfl shapeCasts_S1x128_S128,
    StableHlo.unary main_arg7 main_v148 ((extractStridedSlice S1x128 ![1, 0] · slices_S4x128_S1x128_1_0) : (⟨S4x128, .f32⟩ : BufTy).Contents (Elt F) → (⟨S1x128, .f32⟩ : BufTy).Contents (Elt F)),
    StableHlo.reshape main_v148 main_v149 rfl shapeCasts_S1x128_S128,
    StableHlo.unary main_arg8 main_v150 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v150 main_v151 rfl shapeCasts_S1x128x128_S128x128,
    StableHlo.unary main_arg9 main_v152 ((extractStridedSlice S1x128 ![1, 0] · slices_S4x128_S1x128_1_0) : (⟨S4x128, .f32⟩ : BufTy).Contents (Elt F) → (⟨S1x128, .f32⟩ : BufTy).Contents (Elt F)),
    StableHlo.reshape main_v152 main_v153 rfl shapeCasts_S1x128_S128,
    StableHlo.binary main_v45 main_v143 main_v154 ((fun l r => Host.dotGeneral dot_S20000x7_S7x128_S20000x128_1_0_0_1_n_n none l r) : (⟨S20000x7, .f32⟩ : BufTy).Contents (Elt F) → (⟨S7x128, .f32⟩ : BufTy).Contents (Elt F) → (⟨S20000x128, .f32⟩ : BufTy).Contents (Elt F)),
    StableHlo.unary main_v145 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S20000x128 ![0, 1] bcast_S1x128_S20000x128_0_1 : (⟨S1x128, .f32⟩ : BufTy).Contents (Elt F) → (⟨S20000x128, .f32⟩ : BufTy).Contents (Elt F)),
    StableHlo.binary main_v154 main_v156 main_v157 (addf : (⟨S20000x128, .f32⟩ : BufTy).Contents (Elt F) → (⟨S20000x128, .f32⟩ : BufTy).Contents (Elt F) → (⟨S20000x128, .f32⟩ : BufTy).Contents (Elt F)),
    StableHlo.nullary main_cst_18 (constant S_ .f32 0x00000000#32),
    StableHlo.binary main_v157 main_cst_18 main_v158 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)) ]

/-- Every operation of the window touches TensorCore buffers only. -/
theorem ops2_sub : (ops2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.binary_bufs_sub ..⟩

/-- No operation of the window allocates a buffer. -/
theorem ops2_fresh : (ops2 : List (HloOp τ sig (Elt F))).Forall fun op => op.fresh = ∅ := by
  simp only [List.Forall]; repeat' constructor

/-- The window's text is the run of its operations in order: both are one chain of host steps, the outlined functions
    unfolded at their calls. -/
theorem part2_eq (c : Dev nD) : main_part2 (F := F) c = StableHlo.seq ops2 := by
  chain_rfl

end Cert.ReferenceIdeal.Ops

end
-- ==== Proof.RefOps3.lean ====
import proofs.«116822_j38594576122568_1_alg».proof.ReferenceIdeal
import Idealize.ShloMosaic.Lib.StableHlo.Run
import Idealize.ShloMosaic.Lib.Pipeline.Regions

/-! Window 3 of the reference's @main as the list of its host operations, each outlined function's body written out at its
    call over the call's own buffers, and the window's text is the run of that list. -/

noncomputable section

namespace Cert.ReferenceIdeal.Ops

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

/-- The 104 host operations of window 3, in order. -/
abbrev ops3 : List (HloOp τ sig (Elt F)) :=
  [ StableHlo.nullary main_cst_19 (constant S_ .f32 0x469C4000#32),
    StableHlo.unary main_cst_19 main_v159 (broadcastInDim S128 ![] bcast_S_S128 : (⟨S_, .f32⟩ : BufTy).Contents (Elt F) → (⟨S128, .f32⟩ : BufTy).Contents (Elt F)),
    StableHlo.binary main_v158 main_v159 main_v160 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary (.of main_call5_cst : StableHlo.TRef sig ⟨S_, .f32⟩) (constant S_ .f32 0x00000000#32),
    StableHlo.TRef.binary (.of main_v157 : StableHlo.TRef sig ⟨S20000x128, .f32⟩) (.of main_call5_cst : StableHlo.TRef sig ⟨S_, .f32⟩) (.of main_call5_v0 : StableHlo.TRef sig ⟨S128, .f32⟩) (fun x v => Host.reduceAdd x v reducesTo_S20000x128_S128_d0 h_S_),
    StableHlo.TRef.unary (.of main_call5_v0 : StableHlo.TRef sig ⟨S128, .f32⟩) (.of main_call5_v1 : StableHlo.TRef sig ⟨S1x128, .f32⟩) (broadcastInDim S1x128 ![1] bcast_S128_S1x128_1),
    StableHlo.TRef.nullary (.of main_call5_cst_0 : StableHlo.TRef sig ⟨S_, .f32⟩) (constant S_ .f32 0x469C4000#32),
    StableHlo.TRef.unary (.of main_call5_cst_0 : StableHlo.TRef sig ⟨S_, .f32⟩) (.of main_call5_v2 : StableHlo.TRef sig ⟨S1x128, .f32⟩) (broadcastInDim S1x128 ![] bcast_S_S1x128),
    StableHlo.TRef.binary (.of main_call5_v1 : StableHlo.TRef sig ⟨S1x128, .f32⟩) (.of main_call5_v2 : StableHlo.TRef sig ⟨S1x128, .f32⟩) (.of main_call5_v3 : StableHlo.TRef sig ⟨S1x128, .f32⟩) Host.divf,
    StableHlo.TRef.unary (.of main_call5_v3 : StableHlo.TRef sig ⟨S1x128, .f32⟩) (.of main_call5_v4 : StableHlo.TRef sig ⟨S20000x128, .f32⟩) (broadcastInDim S20000x128 ![0, 1] bcast_S1x128_S20000x128_0_1),
    StableHlo.TRef.binary (.of main_v157 : StableHlo.TRef sig ⟨S20000x128, .f32⟩) (.of main_call5_v4 : StableHlo.TRef sig ⟨S20000x128, .f32⟩) (.of main_call5_v5 : StableHlo.TRef sig ⟨S20000x128, .f32⟩) subf,
    StableHlo.TRef.binary (.of main_call5_v5 : StableHlo.TRef sig ⟨S20000x128, .f32⟩) (.of main_call5_v5 : StableHlo.TRef sig ⟨S20000x128, .f32⟩) (.of main_call5_v6 : StableHlo.TRef sig ⟨S20000x128, .f32⟩) mulf,
    StableHlo.TRef.unary (.of main_c_20 : StableHlo.TRef sig ⟨S_, .i32⟩) (.of main_call5_v7 : StableHlo.TRef sig ⟨S_, .f32⟩) (sitofp .f32),
    StableHlo.TRef.nullary (.of main_call5_cst_1 : StableHlo.TRef sig ⟨S_, .f32⟩) (constant S_ .f32 0x469C4000#32),
    StableHlo.TRef.binary (.of main_call5_cst_1 : StableHlo.TRef sig ⟨S_, .f32⟩) (.of main_call5_v7 : StableHlo.TRef sig ⟨S_, .f32⟩) (.of main_call5_v8 : StableHlo.TRef sig ⟨S_, .f32⟩) subf,
    StableHlo.TRef.nullary (.of main_call5_cst_2 : StableHlo.TRef sig ⟨S_, .f32⟩) (constant S_ .f32 0x00000000#32),
    StableHlo.TRef.binary (.of main_call5_v6 : StableHlo.TRef sig ⟨S20000x128, .f32⟩) (.of main_call5_cst_2 : StableHlo.TRef sig ⟨S_, .f32⟩) (.of main_call5_v9 : StableHlo.TRef sig ⟨S128, .f32⟩) (fun x v => Host.reduceAdd x v reducesTo_S20000x128_S128_d0 h_S_),
    StableHlo.TRef.unary (.of main_call5_v8 : StableHlo.TRef sig ⟨S_, .f32⟩) (.of main_call5_v10 : StableHlo.TRef sig ⟨S128, .f32⟩) (broadcastInDim S128 ![] bcast_S_S128),
    StableHlo.TRef.binary (.of main_call5_v9 : StableHlo.TRef sig ⟨S128, .f32⟩) (.of main_call5_v10 : StableHlo.TRef sig ⟨S128, .f32⟩) (.of main_call5_v11 : StableHlo.TRef sig ⟨S128, .f32⟩) Host.divf,
    StableHlo.TRef.nullary (.of main_call5_cst_3 : StableHlo.TRef sig ⟨S_, .f32⟩) (constant S_ .f32 0x00000000#32),
    StableHlo.TRef.binary (.of main_call5_v8 : StableHlo.TRef sig ⟨S_, .f32⟩) (.of main_call5_cst_3 : StableHlo.TRef sig ⟨S_, .f32⟩) (.of main_call5_v12 : StableHlo.TRef sig ⟨S_, .i1⟩) (cmpf .ogt),
    StableHlo.TRef.nullary (.of main_call5_cst_4 : StableHlo.TRef sig ⟨S_, .f32⟩) (constant S_ .f32 0x7FC00000#32),
    StableHlo.TRef.unary (.of main_call5_cst_4 : StableHlo.TRef sig ⟨S_, .f32⟩) (.of main_call5_call0_v0 : StableHlo.TRef sig ⟨S_, .f32⟩) id,
    StableHlo.TRef.unary (.of main_call5_call0_v0 : StableHlo.TRef sig ⟨S_, .f32⟩) (.of main_call5_call0_v1 : StableHlo.TRef sig ⟨S128, .f32⟩) (broadcastInDim S128 ![] bcast_S_S128),
    StableHlo.TRef.ternary (.of main_call5_v12 : StableHlo.TRef sig ⟨S_, .i1⟩) (.of main_call5_v11 : StableHlo.TRef sig ⟨S128, .f32⟩) (.of main_call5_call0_v1 : StableHlo.TRef sig ⟨S128, .f32⟩) (.of main_v161 : StableHlo.TRef sig ⟨S128, .f32⟩) (fun p a b => select (broadcastInDim S128 ![] bcast_S_S128 p) a b),
    StableHlo.unary main_v160 main_v162 (broadcastInDim S1x128 ![1] bcast_S128_S1x128_1 : (⟨S128, .f32⟩ : BufTy).Contents (Elt F) → (⟨S1x128, .f32⟩ : BufTy).Contents (Elt F)),
    StableHlo.unary main_v162 main_v163 (broadcastInDim S20000x128 ![0, 1] bcast_S1x128_S20000x128_0_1 : (⟨S1x128, .f32⟩ : BufTy).Contents (Elt F) → (⟨S20000x128, .f32⟩ : BufTy).Contents (Elt F)),
    StableHlo.binary main_v157 main_v163 main_v164 (subf : (⟨S20000x128, .f32⟩ : BufTy).Contents (Elt F) → (⟨S20000x128, .f32⟩ : BufTy).Contents (Elt F) → (⟨S20000x128, .f32⟩ : BufTy).Contents (Elt F)),
    StableHlo.unary main_v147 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S20000x128 ![0, 1] bcast_S1x128_S20000x128_0_1 : (⟨S1x128, .f32⟩ : BufTy).Contents (Elt F) → (⟨S20000x128, .f32⟩ : BufTy).Contents (Elt F)),
    StableHlo.binary main_v166 main_v164 main_v167 (mulf : (⟨S20000x128, .f32⟩ : BufTy).Contents (Elt F) → (⟨S20000x128, .f32⟩ : BufTy).Contents (Elt F) → (⟨S20000x128, .f32⟩ : BufTy).Contents (Elt F)),
    StableHlo.nullary main_cst_21 (constant S_ .f32 0x3727C5AC#32),
    StableHlo.unary main_cst_21 main_v168 (broadcastInDim S128 ![] bcast_S_S128 : (⟨S_, .f32⟩ : BufTy).Contents (Elt F) → (⟨S128, .f32⟩ : BufTy).Contents (Elt F)),
    StableHlo.binary main_v161 main_v168 main_v169 (addf : (⟨S128, .f32⟩ : BufTy).Contents (Elt F) → (⟨S128, .f32⟩ : BufTy).Contents (Elt F) → (⟨S128, .f32⟩ : BufTy).Contents (Elt F)),
    StableHlo.unary main_v169 main_v170 (Host.rsqrt : (⟨S128, .f32⟩ : BufTy).Contents (Elt F) → (⟨S128, .f32⟩ : BufTy).Contents (Elt F)),
    StableHlo.unary main_v170 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S20000x128 ![0, 1] bcast_S1x128_S20000x128_0_1 : (⟨S1x128, .f32⟩ : BufTy).Contents (Elt F) → (⟨S20000x128, .f32⟩ : BufTy).Contents (Elt F)),
    StableHlo.binary main_v167 main_v172 main_v173 (mulf : (⟨S20000x128, .f32⟩ : BufTy).Contents (Elt F) → (⟨S20000x128, .f32⟩ : BufTy).Contents (Elt F) → (⟨S20000x128, .f32⟩ : BufTy).Contents (Elt F)),
    StableHlo.unary main_v149 main_v174 (broadcastInDim S1x128 ![1] bcast_S128_S1x128_1 : (⟨S128, .f32⟩ : BufTy).Contents (Elt F) → (⟨S1x128, .f32⟩ : BufTy).Contents (Elt F)),
    StableHlo.unary main_v174 main_v175 (broadcastInDim S20000x128 ![0, 1] bcast_S1x128_S20000x128_0_1 : (⟨S1x128, .f32⟩ : BufTy).Contents (Elt F) → (⟨S20000x128, .f32⟩ : BufTy).Contents (Elt F)),
    StableHlo.binary main_v173 main_v175 main_v176 (addf : (⟨S20000x128, .f32⟩ : BufTy).Contents (Elt F) → (⟨S20000x128, .f32⟩ : BufTy).Contents (Elt F) → (⟨S20000x128, .f32⟩ : BufTy).Contents (Elt F)),
    StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S20000x128, .f32⟩) (broadcastInDim S20000x128 ![] bcast_S_S20000x128),
    StableHlo.TRef.binary (.of main_v176 : StableHlo.TRef sig ⟨S20000x128, .f32⟩) (.of main_call6_v0 : StableHlo.TRef sig ⟨S20000x128, .f32⟩) (.of main_v177 : StableHlo.TRef sig ⟨S20000x128, .f32⟩) maximumf,
    StableHlo.binary main_v177 main_v151 main_v178 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_v153 main_v179 (broadcastInDim S1x128 ![1] bcast_S128_S1x128_1 : (⟨S128, .f32⟩ : BufTy).Contents (Elt F) → (⟨S1x128, .f32⟩ : BufTy).Contents (Elt F)),
    StableHlo.unary main_v179 main_v180 (broadcastInDim S20000x128 ![0, 1] bcast_S1x128_S20000x128_0_1 : (⟨S1x128, .f32⟩ : BufTy).Contents (Elt F) → (⟨S20000x128, .f32⟩ : BufTy).Contents (Elt F)),
    StableHlo.binary main_v178 main_v180 main_v181 (addf : (⟨S20000x128, .f32⟩ : BufTy).Contents (Elt F) → (⟨S20000x128, .f32⟩ : BufTy).Contents (Elt F) → (⟨S20000x128, .f32⟩ : BufTy).Contents (Elt F)),
    StableHlo.unary main_arg4 main_v182 ((extractStridedSlice S1x7x128 ![3, 0, 0] · slices_S4x7x128_S1x7x128_3_0_0) : (⟨S4x7x128, .f32⟩ : BufTy).Contents (Elt F) → (⟨S1x7x128, .f32⟩ : BufTy).Contents (Elt F)),
    StableHlo.reshape main_v182 main_v183 rfl shapeCasts_S1x7x128_S7x128,
    StableHlo.unary main_arg5 main_v184 ((extractStridedSlice S1x128 ![3, 0] · slices_S4x128_S1x128_3_0) : (⟨S4x128, .f32⟩ : BufTy).Contents (Elt F) → (⟨S1x128, .f32⟩ : BufTy).Contents (Elt F)),
    StableHlo.reshape main_v184 main_v185 rfl shapeCasts_S1x128_S128,
    StableHlo.unary main_arg6 main_v186 ((extractStridedSlice S1x128 ![3, 0] · slices_S4x128_S1x128_3_0) : (⟨S4x128, .f32⟩ : BufTy).Contents (Elt F) → (⟨S1x128, .f32⟩ : BufTy).Contents (Elt F)),
    StableHlo.reshape main_v186 main_v187 rfl shapeCasts_S1x128_S128,
    StableHlo.unary main_arg7 main_v188 ((extractStridedSlice S1x128 ![3, 0] · slices_S4x128_S1x128_3_0) : (⟨S4x128, .f32⟩ : BufTy).Contents (Elt F) → (⟨S1x128, .f32⟩ : BufTy).Contents (Elt F)),
    StableHlo.reshape main_v188 main_v189 rfl shapeCasts_S1x128_S128,
    StableHlo.unary main_arg8 main_v190 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v190 main_v191 rfl shapeCasts_S1x128x128_S128x128,
    StableHlo.unary main_arg9 main_v192 ((extractStridedSlice S1x128 ![3, 0] · slices_S4x128_S1x128_3_0) : (⟨S4x128, .f32⟩ : BufTy).Contents (Elt F) → (⟨S1x128, .f32⟩ : BufTy).Contents (Elt F)),
    StableHlo.reshape main_v192 main_v193 rfl shapeCasts_S1x128_S128,
    StableHlo.binary main_v59 main_v183 main_v194 ((fun l r => Host.dotGeneral dot_S20000x7_S7x128_S20000x128_1_0_0_1_n_n none l r) : (⟨S20000x7, .f32⟩ : BufTy).Contents (Elt F) → (⟨S7x128, .f32⟩ : BufTy).Contents (Elt F) → (⟨S20000x128, .f32⟩ : BufTy).Contents (Elt F)),
    StableHlo.unary main_v185 main_v195 (broadcastInDim S1x128 ![1] bcast_S128_S1x128_1 : (⟨S128, .f32⟩ : BufTy).Contents (Elt F) → (⟨S1x128, .f32⟩ : BufTy).Contents (Elt F)),
    StableHlo.unary main_v195 main_v196 (broadcastInDim S20000x128 ![0, 1] bcast_S1x128_S20000x128_0_1 : (⟨S1x128, .f32⟩ : BufTy).Contents (Elt F) → (⟨S20000x128, .f32⟩ : BufTy).Contents (Elt F)),
    StableHlo.binary main_v194 main_v196 main_v197 (addf : (⟨S20000x128, .f32⟩ : BufTy).Contents (Elt F) → (⟨S20000x128, .f32⟩ : BufTy).Contents (Elt F) → (⟨S20000x128, .f32⟩ : BufTy).Contents (Elt F)),
    StableHlo.nullary main_cst_22 (constant S_ .f32 0x00000000#32),
    StableHlo.binary main_v197 main_cst_22 main_v198 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_23 (constant S_ .f32 0x469C4000#32),
    StableHlo.unary main_cst_23 main_v199 (broadcastInDim S128 ![] bcast_S_S128 : (⟨S_, .f32⟩ : BufTy).Contents (Elt F) → (⟨S128, .f32⟩ : BufTy).Contents (Elt F)),
    StableHlo.binary main_v198 main_v199 main_v200 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary (.of main_call7_cst : StableHlo.TRef sig ⟨S_, .f32⟩) (constant S_ .f32 0x00000000#32),
    StableHlo.TRef.binary (.of main_v197 : StableHlo.TRef sig ⟨S20000x128, .f32⟩) (.of main_call7_cst : StableHlo.TRef sig ⟨S_, .f32⟩) (.of main_call7_v0 : StableHlo.TRef sig ⟨S128, .f32⟩) (fun x v => Host.reduceAdd x v reducesTo_S20000x128_S128_d0 h_S_),
    StableHlo.TRef.unary (.of main_call7_v0 : StableHlo.TRef sig ⟨S128, .f32⟩) (.of main_call7_v1 : StableHlo.TRef sig ⟨S1x128, .f32⟩) (broadcastInDim S1x128 ![1] bcast_S128_S1x128_1),
    StableHlo.TRef.nullary (.of main_call7_cst_0 : StableHlo.TRef sig ⟨S_, .f32⟩) (constant S_ .f32 0x469C4000#32),
    StableHlo.TRef.unary (.of main_call7_cst_0 : StableHlo.TRef sig ⟨S_, .f32⟩) (.of main_call7_v2 : StableHlo.TRef sig ⟨S1x128, .f32⟩) (broadcastInDim S1x128 ![] bcast_S_S1x128),
    StableHlo.TRef.binary (.of main_call7_v1 : StableHlo.TRef sig ⟨S1x128, .f32⟩) (.of main_call7_v2 : StableHlo.TRef sig ⟨S1x128, .f32⟩) (.of main_call7_v3 : StableHlo.TRef sig ⟨S1x128, .f32⟩) Host.divf,
    StableHlo.TRef.unary (.of main_call7_v3 : StableHlo.TRef sig ⟨S1x128, .f32⟩) (.of main_call7_v4 : StableHlo.TRef sig ⟨S20000x128, .f32⟩) (broadcastInDim S20000x128 ![0, 1] bcast_S1x128_S20000x128_0_1),
    StableHlo.TRef.binary (.of main_v197 : StableHlo.TRef sig ⟨S20000x128, .f32⟩) (.of main_call7_v4 : StableHlo.TRef sig ⟨S20000x128, .f32⟩) (.of main_call7_v5 : StableHlo.TRef sig ⟨S20000x128, .f32⟩) subf,
    StableHlo.TRef.binary (.of main_call7_v5 : StableHlo.TRef sig ⟨S20000x128, .f32⟩) (.of main_call7_v5 : StableHlo.TRef sig ⟨S20000x128, .f32⟩) (.of main_call7_v6 : StableHlo.TRef sig ⟨S20000x128, .f32⟩) mulf,
    StableHlo.TRef.unary (.of main_c_24 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x469C4000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S20000x128, .f32⟩) (.of main_call7_cst_2 : StableHlo.TRef sig ⟨S_, .f32⟩) (.of main_call7_v9 : StableHlo.TRef sig ⟨S128, .f32⟩) (fun x v => Host.reduceAdd x v reducesTo_S20000x128_S128_d0 h_S_),
    StableHlo.TRef.unary (.of main_call7_v8 : StableHlo.TRef sig ⟨S_, .f32⟩) (.of main_call7_v10 : StableHlo.TRef sig ⟨S128, .f32⟩) (broadcastInDim S128 ![] bcast_S_S128),
    StableHlo.TRef.binary (.of main_call7_v9 : StableHlo.TRef sig ⟨S128, .f32⟩) (.of main_call7_v10 : StableHlo.TRef sig ⟨S128, .f32⟩) (.of main_call7_v11 : StableHlo.TRef sig ⟨S128, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v12 : StableHlo.TRef sig ⟨S_, .i1⟩) (cmpf .ogt),
    StableHlo.TRef.nullary (.of main_call7_cst_4 : StableHlo.TRef sig ⟨S_, .f32⟩) (constant S_ .f32 0x7FC00000#32),
    StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S128, .f32⟩) (broadcastInDim S128 ![] bcast_S_S128),
    StableHlo.TRef.ternary (.of main_call7_v12 : StableHlo.TRef sig ⟨S_, .i1⟩) (.of main_call7_v11 : StableHlo.TRef sig ⟨S128, .f32⟩) (.of main_call7_call0_v1 : StableHlo.TRef sig ⟨S128, .f32⟩) (.of main_v201 : StableHlo.TRef sig ⟨S128, .f32⟩) (fun p a b => select (broadcastInDim S128 ![] bcast_S_S128 p) a b),
    StableHlo.unary main_v200 main_v202 (broadcastInDim S1x128 ![1] bcast_S128_S1x128_1 : (⟨S128, .f32⟩ : BufTy).Contents (Elt F) → (⟨S1x128, .f32⟩ : BufTy).Contents (Elt F)),
    StableHlo.unary main_v202 main_v203 (broadcastInDim S20000x128 ![0, 1] bcast_S1x128_S20000x128_0_1 : (⟨S1x128, .f32⟩ : BufTy).Contents (Elt F) → (⟨S20000x128, .f32⟩ : BufTy).Contents (Elt F)),
    StableHlo.binary main_v197 main_v203 main_v204 (subf : (⟨S20000x128, .f32⟩ : BufTy).Contents (Elt F) → (⟨S20000x128, .f32⟩ : BufTy).Contents (Elt F) → (⟨S20000x128, .f32⟩ : BufTy).Contents (Elt F)),
    StableHlo.unary main_v187 main_v205 (broadcastInDim S1x128 ![1] bcast_S128_S1x128_1 : (⟨S128, .f32⟩ : BufTy).Contents (Elt F) → (⟨S1x128, .f32⟩ : BufTy).Contents (Elt F)),
    StableHlo.unary main_v205 main_v206 (broadcastInDim S20000x128 ![0, 1] bcast_S1x128_S20000x128_0_1 : (⟨S1x128, .f32⟩ : BufTy).Contents (Elt F) → (⟨S20000x128, .f32⟩ : BufTy).Contents (Elt F)),
    StableHlo.binary main_v206 main_v204 main_v207 (mulf : (⟨S20000x128, .f32⟩ : BufTy).Contents (Elt F) → (⟨S20000x128, .f32⟩ : BufTy).Contents (Elt F) → (⟨S20000x128, .f32⟩ : BufTy).Contents (Elt F)),
    StableHlo.nullary main_cst_25 (constant S_ .f32 0x3727C5AC#32),
    StableHlo.unary main_cst_25 main_v208 (broadcastInDim S128 ![] bcast_S_S128 : (⟨S_, .f32⟩ : BufTy).Contents (Elt F) → (⟨S128, .f32⟩ : BufTy).Contents (Elt F)),
    StableHlo.binary main_v201 main_v208 main_v209 (addf : (⟨S128, .f32⟩ : BufTy).Contents (Elt F) → (⟨S128, .f32⟩ : BufTy).Contents (Elt F) → (⟨S128, .f32⟩ : BufTy).Contents (Elt F)),
    StableHlo.unary main_v209 main_v210 (Host.rsqrt : (⟨S128, .f32⟩ : BufTy).Contents (Elt F) → (⟨S128, .f32⟩ : BufTy).Contents (Elt F)),
    StableHlo.unary main_v210 main_v211 (broadcastInDim S1x128 ![1] bcast_S128_S1x128_1 : (⟨S128, .f32⟩ : BufTy).Contents (Elt F) → (⟨S1x128, .f32⟩ : BufTy).Contents (Elt F)) ]

/-- Every operation of the window touches TensorCore buffers only. -/
theorem ops3_sub : (ops3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub ..⟩

/-- No operation of the window allocates a buffer. -/
theorem ops3_fresh : (ops3 : List (HloOp τ sig (Elt F))).Forall fun op => op.fresh = ∅ := by
  simp only [List.Forall]; repeat' constructor

/-- The window's text is the run of its operations in order: both are one chain of host steps, the outlined functions
    unfolded at their calls. -/
theorem part3_eq (c : Dev nD) : main_part3 (F := F) c = StableHlo.seq ops3 := by
  chain_rfl

end Cert.ReferenceIdeal.Ops

end
-- ==== Proof.RefOps4.lean ====
import proofs.«116822_j38594576122568_1_alg».proof.ReferenceIdeal
import Idealize.ShloMosaic.Lib.StableHlo.Run
import Idealize.ShloMosaic.Lib.Pipeline.Regions

/-! Window 4 of the reference's @main as the list of its host operations, each outlined function's body written out at its
    call over the call's own buffers, and the window's text is the run of that list. -/

noncomputable section

namespace Cert.ReferenceIdeal.Ops

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

/-- The 68 host operations of window 4, in order. -/
abbrev ops4 : List (HloOp τ sig (Elt F)) :=
  [ StableHlo.unary main_v211 main_v212 (broadcastInDim S20000x128 ![0, 1] bcast_S1x128_S20000x128_0_1 : (⟨S1x128, .f32⟩ : BufTy).Contents (Elt F) → (⟨S20000x128, .f32⟩ : BufTy).Contents (Elt F)),
    StableHlo.binary main_v207 main_v212 main_v213 (mulf : (⟨S20000x128, .f32⟩ : BufTy).Contents (Elt F) → (⟨S20000x128, .f32⟩ : BufTy).Contents (Elt F) → (⟨S20000x128, .f32⟩ : BufTy).Contents (Elt F)),
    StableHlo.unary main_v189 main_v214 (broadcastInDim S1x128 ![1] bcast_S128_S1x128_1 : (⟨S128, .f32⟩ : BufTy).Contents (Elt F) → (⟨S1x128, .f32⟩ : BufTy).Contents (Elt F)),
    StableHlo.unary main_v214 main_v215 (broadcastInDim S20000x128 ![0, 1] bcast_S1x128_S20000x128_0_1 : (⟨S1x128, .f32⟩ : BufTy).Contents (Elt F) → (⟨S20000x128, .f32⟩ : BufTy).Contents (Elt F)),
    StableHlo.binary main_v213 main_v215 main_v216 (addf : (⟨S20000x128, .f32⟩ : BufTy).Contents (Elt F) → (⟨S20000x128, .f32⟩ : BufTy).Contents (Elt F) → (⟨S20000x128, .f32⟩ : BufTy).Contents (Elt F)),
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S20000x128, .f32⟩) (broadcastInDim S20000x128 ![] bcast_S_S20000x128),
    StableHlo.TRef.binary (.of main_v216 : StableHlo.TRef sig ⟨S20000x128, .f32⟩) (.of main_call8_v0 : StableHlo.TRef sig ⟨S20000x128, .f32⟩) (.of main_v217 : StableHlo.TRef sig ⟨S20000x128, .f32⟩) maximumf,
    StableHlo.binary main_v217 main_v191 main_v218 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_v193 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S20000x128 ![0, 1] bcast_S1x128_S20000x128_0_1 : (⟨S1x128, .f32⟩ : BufTy).Contents (Elt F) → (⟨S20000x128, .f32⟩ : BufTy).Contents (Elt F)),
    StableHlo.binary main_v218 main_v220 main_v221 (addf : (⟨S20000x128, .f32⟩ : BufTy).Contents (Elt F) → (⟨S20000x128, .f32⟩ : BufTy).Contents (Elt F) → (⟨S20000x128, .f32⟩ : BufTy).Contents (Elt F)),
    StableHlo.binary main_v181 main_v221 main_v222 (addf : (⟨S20000x128, .f32⟩ : BufTy).Contents (Elt F) → (⟨S20000x128, .f32⟩ : BufTy).Contents (Elt F) → (⟨S20000x128, .f32⟩ : BufTy).Contents (Elt F)),
    StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S20000x128, .f32⟩) (broadcastInDim S20000x128 ![] bcast_S_S20000x128),
    StableHlo.TRef.binary (.of main_v222 : StableHlo.TRef sig ⟨S20000x128, .f32⟩) (.of main_call9_v0 : StableHlo.TRef sig ⟨S20000x128, .f32⟩) (.of main_call9_v1 : StableHlo.TRef sig ⟨S20000x128, .i1⟩) (cmpf .oge),
    StableHlo.TRef.nullary (.of main_call9_cst_0 : StableHlo.TRef sig ⟨S_, .f32⟩) (constant S_ .f32 0x3C23D70A#32),
    StableHlo.TRef.unary (.of main_call9_cst_0 : StableHlo.TRef sig ⟨S_, .f32⟩) (.of main_call9_v2 : StableHlo.TRef sig ⟨S20000x128, .f32⟩) (broadcastInDim S20000x128 ![] bcast_S_S20000x128),
    StableHlo.TRef.binary (.of main_call9_v2 : StableHlo.TRef sig ⟨S20000x128, .f32⟩) (.of main_v222 : StableHlo.TRef sig ⟨S20000x128, .f32⟩) (.of main_call9_v3 : StableHlo.TRef sig ⟨S20000x128, .f32⟩) mulf,
    StableHlo.TRef.ternary (.of main_call9_v1 : StableHlo.TRef sig ⟨S20000x128, .i1⟩) (.of main_v222 : StableHlo.TRef sig ⟨S20000x128, .f32⟩) (.of main_call9_v3 : StableHlo.TRef sig ⟨S20000x128, .f32⟩) (.of main_v223 : StableHlo.TRef sig ⟨S20000x128, .f32⟩) select,
    StableHlo.unary main_arg10 main_v224 ((extractStridedSlice S1x4x128x128 ![0, 0, 0, 0] · slices_S2x4x128x128_S1x4x128x128_0_0_0_0) : (⟨S2x4x128x128, .f32⟩ : BufTy).Contents (Elt F) → (⟨S1x4x128x128, .f32⟩ : BufTy).Contents (Elt F)),
    StableHlo.reshape main_v224 main_v225 rfl shapeCasts_S1x4x128x128_S4x128x128,
    StableHlo.unary main_arg11 main_v226 ((extractStridedSlice S1x4x128 ![0, 0, 0] · slices_S2x4x128_S1x4x128_0_0_0) : (⟨S2x4x128, .f32⟩ : BufTy).Contents (Elt F) → (⟨S1x4x128, .f32⟩ : BufTy).Contents (Elt F)),
    StableHlo.reshape main_v226 main_v227 rfl shapeCasts_S1x4x128_S4x128,
    StableHlo.unary main_arg12 main_v228 ((extractStridedSlice S1x4x128 ![0, 0, 0] · slices_S2x4x128_S1x4x128_0_0_0) : (⟨S2x4x128, .f32⟩ : BufTy).Contents (Elt F) → (⟨S1x4x128, .f32⟩ : BufTy).Contents (Elt F)),
    StableHlo.reshape main_v228 main_v229 rfl shapeCasts_S1x4x128_S4x128,
    StableHlo.unary main_arg13 main_v230 ((extractStridedSlice S1x4x128 ![0, 0, 0] · slices_S2x4x128_S1x4x128_0_0_0) : (⟨S2x4x128, .f32⟩ : BufTy).Contents (Elt F) → (⟨S1x4x128, .f32⟩ : BufTy).Contents (Elt F)),
    StableHlo.reshape main_v230 main_v231 rfl shapeCasts_S1x4x128_S4x128,
    StableHlo.unary main_arg14 main_v232 ((extractStridedSlice S1x4x128x128 ![0, 0, 0, 0] · slices_S2x4x128x128_S1x4x128x128_0_0_0_0) : (⟨S2x4x128x128, .f32⟩ : BufTy).Contents (Elt F) → (⟨S1x4x128x128, .f32⟩ : BufTy).Contents (Elt F)),
    StableHlo.reshape main_v232 main_v233 rfl shapeCasts_S1x4x128x128_S4x128x128,
    StableHlo.unary main_arg15 main_v234 ((extractStridedSlice S1x4x128 ![0, 0, 0] · slices_S2x4x128_S1x4x128_0_0_0) : (⟨S2x4x128, .f32⟩ : BufTy).Contents (Elt F) → (⟨S1x4x128, .f32⟩ : BufTy).Contents (Elt F)),
    StableHlo.reshape main_v234 main_v235 rfl shapeCasts_S1x4x128_S4x128,
    StableHlo.unary main_arg20 main_v236 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v236 main_v237 rfl shapeCasts_S1x1000000_S1000000,
    StableHlo.nullary main_c_26 (constantI S_ 32 0#32),
    StableHlo.unary main_c_26 main_v238 (broadcastInDim S1000000 ![] bcast_S_S1000000 : (⟨S_, .i32⟩ : BufTy).Contents (Elt F) → (⟨S1000000, .i32⟩ : BufTy).Contents (Elt F)),
    StableHlo.binary main_v237 main_v238 main_v239 (cmpi .slt : (⟨S1000000, .i32⟩ : BufTy).Contents (Elt F) → (⟨S1000000, .i32⟩ : BufTy).Contents (Elt F) → (⟨S1000000, .i1⟩ : BufTy).Contents (Elt F)),
    StableHlo.nullary main_c_27 (constantI S_ 32 80000#32),
    StableHlo.unary main_c_27 main_v240 (broadcastInDim S1000000 ![] bcast_S_S1000000 : (⟨S_, .i32⟩ : BufTy).Contents (Elt F) → (⟨S1000000, .i32⟩ : BufTy).Contents (Elt F)),
    StableHlo.binary main_v237 main_v240 main_v241 (addi : (⟨S1000000, .i32⟩ : BufTy).Contents (Elt F) → (⟨S1000000, .i32⟩ : BufTy).Contents (Elt F) → (⟨S1000000, .i32⟩ : BufTy).Contents (Elt F)),
    StableHlo.ternary main_v239 main_v241 main_v237 main_v242 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v242 main_v243 (broadcastInDim S1000000x1 ![0] bcast_S1000000_S1000000x1_0 : (⟨S1000000, .i32⟩ : BufTy).Contents (Elt F) → (⟨S1000000x1, .i32⟩ : BufTy).Contents (Elt F)),
    StableHlo.binary main_v141 main_v243 main_v244 ((fun x i => Host.gather gather_S80000x128_S1000000x1_S1000000x128_1_0_n_n_0_1_1128 x i) : (⟨S80000x128, .f32⟩ : BufTy).Contents (Elt F) → (⟨S1000000x1, .i32⟩ : BufTy).Contents (Elt F) → (⟨S1000000x128, .f32⟩ : BufTy).Contents (Elt F)),
    StableHlo.unary main_arg20 main_v245 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v245 main_v246 rfl shapeCasts_S1x1000000_S1000000,
    StableHlo.nullary main_cst_28 (constant S_ .f32 0x00000000#32),
    StableHlo.unary main_cst_28 main_v247 (broadcastInDim S80000x128 ![] bcast_S_S80000x128 : (⟨S_, .f32⟩ : BufTy).Contents (Elt F) → (⟨S80000x128, .f32⟩ : BufTy).Contents (Elt F)),
    StableHlo.unary main_v246 main_v248 (broadcastInDim S1000000x1 ![0] bcast_S1000000_S1000000x1_0 : (⟨S1000000, .i32⟩ : BufTy).Contents (Elt F) → (⟨S1000000x1, .i32⟩ : BufTy).Contents (Elt F)),
    StableHlo.ternary main_v247 main_v248 main_v244 main_v249 ((fun x i u => Host.scatterAdd scatter_S80000x128_S1000000x1_S1000000x128_1_0_0_1 x i u) : (⟨S80000x128, .f32⟩ : BufTy).Contents (Elt F) → (⟨S1000000x1, .i32⟩ : BufTy).Contents (Elt F) → (⟨S1000000x128, .f32⟩ : BufTy).Contents (Elt F) → (⟨S80000x128, .f32⟩ : BufTy).Contents (Elt F)),
    StableHlo.unary main_arg22 main_v250 ((extractStridedSlice S1x300000 ![0, 0] · slices_S2x300000_S1x300000_0_0) : (⟨S2x300000, .i32⟩ : BufTy).Contents (Elt F) → (⟨S1x300000, .i32⟩ : BufTy).Contents (Elt F)),
    StableHlo.reshape main_v250 main_v251 rfl shapeCasts_S1x300000_S300000,
    StableHlo.nullary main_c_29 (constantI S_ 32 0#32),
    StableHlo.unary main_c_29 main_v252 (broadcastInDim S300000 ![] bcast_S_S300000 : (⟨S_, .i32⟩ : BufTy).Contents (Elt F) → (⟨S300000, .i32⟩ : BufTy).Contents (Elt F)),
    StableHlo.binary main_v251 main_v252 main_v253 (cmpi .slt : (⟨S300000, .i32⟩ : BufTy).Contents (Elt F) → (⟨S300000, .i32⟩ : BufTy).Contents (Elt F) → (⟨S300000, .i1⟩ : BufTy).Contents (Elt F)),
    StableHlo.nullary main_c_30 (constantI S_ 32 20000#32),
    StableHlo.unary main_c_30 main_v254 (broadcastInDim S300000 ![] bcast_S_S300000 : (⟨S_, .i32⟩ : BufTy).Contents (Elt F) → (⟨S300000, .i32⟩ : BufTy).Contents (Elt F)),
    StableHlo.binary main_v251 main_v254 main_v255 (addi : (⟨S300000, .i32⟩ : BufTy).Contents (Elt F) → (⟨S300000, .i32⟩ : BufTy).Contents (Elt F) → (⟨S300000, .i32⟩ : BufTy).Contents (Elt F)),
    StableHlo.ternary main_v253 main_v255 main_v251 main_v256 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v256 main_v257 (broadcastInDim S300000x1 ![0] bcast_S300000_S300000x1_0 : (⟨S300000, .i32⟩ : BufTy).Contents (Elt F) → (⟨S300000x1, .i32⟩ : BufTy).Contents (Elt F)),
    StableHlo.binary main_v223 main_v257 main_v258 ((fun x i => Host.gather gather_S20000x128_S300000x1_S300000x128_1_0_n_n_0_1_1128 x i) : (⟨S20000x128, .f32⟩ : BufTy).Contents (Elt F) → (⟨S300000x1, .i32⟩ : BufTy).Contents (Elt F) → (⟨S300000x128, .f32⟩ : BufTy).Contents (Elt F)),
    StableHlo.unary main_arg22 main_v259 ((extractStridedSlice S1x300000 ![1, 0] · slices_S2x300000_S1x300000_1_0) : (⟨S2x300000, .i32⟩ : BufTy).Contents (Elt F) → (⟨S1x300000, .i32⟩ : BufTy).Contents (Elt F)),
    StableHlo.reshape main_v259 main_v260 rfl shapeCasts_S1x300000_S300000,
    StableHlo.nullary main_cst_31 (constant S_ .f32 0x00000000#32),
    StableHlo.unary main_cst_31 main_v261 (broadcastInDim S80000x128 ![] bcast_S_S80000x128 : (⟨S_, .f32⟩ : BufTy).Contents (Elt F) → (⟨S80000x128, .f32⟩ : BufTy).Contents (Elt F)),
    StableHlo.unary main_v260 main_v262 (broadcastInDim S300000x1 ![0] bcast_S300000_S300000x1_0 : (⟨S300000, .i32⟩ : BufTy).Contents (Elt F) → (⟨S300000x1, .i32⟩ : BufTy).Contents (Elt F)),
    StableHlo.ternary main_v261 main_v262 main_v258 main_v263 ((fun x i u => Host.scatterAdd scatter_S80000x128_S300000x1_S300000x128_1_0_0_1 x i u) : (⟨S80000x128, .f32⟩ : BufTy).Contents (Elt F) → (⟨S300000x1, .i32⟩ : BufTy).Contents (Elt F) → (⟨S300000x128, .f32⟩ : BufTy).Contents (Elt F) → (⟨S80000x128, .f32⟩ : BufTy).Contents (Elt F)),
    StableHlo.unary main_arg21 main_v264 ((extractStridedSlice S1x300000 ![0, 0] · slices_S2x300000_S1x300000_0_0) : (⟨S2x300000, .i32⟩ : BufTy).Contents (Elt F) → (⟨S1x300000, .i32⟩ : BufTy).Contents (Elt F)),
    StableHlo.reshape main_v264 main_v265 rfl shapeCasts_S1x300000_S300000 ]

/-- Every operation of the window touches TensorCore buffers only. -/
theorem ops4_sub : (ops4 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.unary_bufs_sub .., StableHlo.reshape_bufs_sub ..⟩

/-- No operation of the window allocates a buffer. -/
theorem ops4_fresh : (ops4 : List (HloOp τ sig (Elt F))).Forall fun op => op.fresh = ∅ := by
  simp only [List.Forall]; repeat' constructor

/-- The window's text is the run of its operations in order: both are one chain of host steps, the outlined functions
    unfolded at their calls. -/
theorem part4_eq (c : Dev nD) : main_part4 (F := F) c = StableHlo.seq ops4 := by
  chain_rfl

end Cert.ReferenceIdeal.Ops

end
-- ==== Proof.RefOps5.lean ====
import proofs.«116822_j38594576122568_1_alg».proof.ReferenceIdeal
import Idealize.ShloMosaic.Lib.StableHlo.Run
import Idealize.ShloMosaic.Lib.Pipeline.Regions

/-! Window 5 of the reference's @main as the list of its host operations, each outlined function's body written out at its
    call over the call's own buffers, and the window's text is the run of that list. -/

noncomputable section

namespace Cert.ReferenceIdeal.Ops

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

/-- The 81 host operations of window 5, in order. -/
abbrev ops5 : List (HloOp τ sig (Elt F)) :=
  [ StableHlo.nullary main_c_32 (constantI S_ 32 0#32),
    StableHlo.unary main_c_32 main_v266 (broadcastInDim S300000 ![] bcast_S_S300000 : (⟨S_, .i32⟩ : BufTy).Contents (Elt F) → (⟨S300000, .i32⟩ : BufTy).Contents (Elt F)),
    StableHlo.binary main_v265 main_v266 main_v267 (cmpi .slt : (⟨S300000, .i32⟩ : BufTy).Contents (Elt F) → (⟨S300000, .i32⟩ : BufTy).Contents (Elt F) → (⟨S300000, .i1⟩ : BufTy).Contents (Elt F)),
    StableHlo.nullary main_c_33 (constantI S_ 32 80000#32),
    StableHlo.unary main_c_33 main_v268 (broadcastInDim S300000 ![] bcast_S_S300000 : (⟨S_, .i32⟩ : BufTy).Contents (Elt F) → (⟨S300000, .i32⟩ : BufTy).Contents (Elt F)),
    StableHlo.binary main_v265 main_v268 main_v269 (addi : (⟨S300000, .i32⟩ : BufTy).Contents (Elt F) → (⟨S300000, .i32⟩ : BufTy).Contents (Elt F) → (⟨S300000, .i32⟩ : BufTy).Contents (Elt F)),
    StableHlo.ternary main_v267 main_v269 main_v265 main_v270 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v270 main_v271 (broadcastInDim S300000x1 ![0] bcast_S300000_S300000x1_0 : (⟨S300000, .i32⟩ : BufTy).Contents (Elt F) → (⟨S300000x1, .i32⟩ : BufTy).Contents (Elt F)),
    StableHlo.binary main_v141 main_v271 main_v272 ((fun x i => Host.gather gather_S80000x128_S300000x1_S300000x128_1_0_n_n_0_1_1128 x i) : (⟨S80000x128, .f32⟩ : BufTy).Contents (Elt F) → (⟨S300000x1, .i32⟩ : BufTy).Contents (Elt F) → (⟨S300000x128, .f32⟩ : BufTy).Contents (Elt F)),
    StableHlo.unary main_arg21 main_v273 ((extractStridedSlice S1x300000 ![1, 0] · slices_S2x300000_S1x300000_1_0) : (⟨S2x300000, .i32⟩ : BufTy).Contents (Elt F) → (⟨S1x300000, .i32⟩ : BufTy).Contents (Elt F)),
    StableHlo.reshape main_v273 main_v274 rfl shapeCasts_S1x300000_S300000,
    StableHlo.nullary main_cst_34 (constant S_ .f32 0x00000000#32),
    StableHlo.unary main_cst_34 main_v275 (broadcastInDim S20000x128 ![] bcast_S_S20000x128 : (⟨S_, .f32⟩ : BufTy).Contents (Elt F) → (⟨S20000x128, .f32⟩ : BufTy).Contents (Elt F)),
    StableHlo.unary main_v274 main_v276 (broadcastInDim S300000x1 ![0] bcast_S300000_S300000x1_0 : (⟨S300000, .i32⟩ : BufTy).Contents (Elt F) → (⟨S300000x1, .i32⟩ : BufTy).Contents (Elt F)),
    StableHlo.ternary main_v275 main_v276 main_v272 main_v277 ((fun x i u => Host.scatterAdd scatter_S20000x128_S300000x1_S300000x128_1_0_0_1 x i u) : (⟨S20000x128, .f32⟩ : BufTy).Contents (Elt F) → (⟨S300000x1, .i32⟩ : BufTy).Contents (Elt F) → (⟨S300000x128, .f32⟩ : BufTy).Contents (Elt F) → (⟨S20000x128, .f32⟩ : BufTy).Contents (Elt F)),
    StableHlo.unary main_arg23 main_v278 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v278 main_v279 rfl shapeCasts_S1x100000_S100000,
    StableHlo.nullary main_c_35 (constantI S_ 32 0#32),
    StableHlo.unary main_c_35 main_v280 (broadcastInDim S100000 ![] bcast_S_S100000 : (⟨S_, .i32⟩ : BufTy).Contents (Elt F) → (⟨S100000, .i32⟩ : BufTy).Contents (Elt F)),
    StableHlo.binary main_v279 main_v280 main_v281 (cmpi .slt : (⟨S100000, .i32⟩ : BufTy).Contents (Elt F) → (⟨S100000, .i32⟩ : BufTy).Contents (Elt F) → (⟨S100000, .i1⟩ : BufTy).Contents (Elt F)),
    StableHlo.nullary main_c_36 (constantI S_ 32 20000#32),
    StableHlo.unary main_c_36 main_v282 (broadcastInDim S100000 ![] bcast_S_S100000 : (⟨S_, .i32⟩ : BufTy).Contents (Elt F) → (⟨S100000, .i32⟩ : BufTy).Contents (Elt F)),
    StableHlo.binary main_v279 main_v282 main_v283 (addi : (⟨S100000, .i32⟩ : BufTy).Contents (Elt F) → (⟨S100000, .i32⟩ : BufTy).Contents (Elt F) → (⟨S100000, .i32⟩ : BufTy).Contents (Elt F)),
    StableHlo.ternary main_v281 main_v283 main_v279 main_v284 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v284 main_v285 (broadcastInDim S100000x1 ![0] bcast_S100000_S100000x1_0 : (⟨S100000, .i32⟩ : BufTy).Contents (Elt F) → (⟨S100000x1, .i32⟩ : BufTy).Contents (Elt F)),
    StableHlo.binary main_v223 main_v285 main_v286 ((fun x i => Host.gather gather_S20000x128_S100000x1_S100000x128_1_0_n_n_0_1_1128 x i) : (⟨S20000x128, .f32⟩ : BufTy).Contents (Elt F) → (⟨S100000x1, .i32⟩ : BufTy).Contents (Elt F) → (⟨S100000x128, .f32⟩ : BufTy).Contents (Elt F)),
    StableHlo.unary main_arg23 main_v287 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v287 main_v288 rfl shapeCasts_S1x100000_S100000,
    StableHlo.nullary main_cst_37 (constant S_ .f32 0x00000000#32),
    StableHlo.unary main_cst_37 main_v289 (broadcastInDim S20000x128 ![] bcast_S_S20000x128 : (⟨S_, .f32⟩ : BufTy).Contents (Elt F) → (⟨S20000x128, .f32⟩ : BufTy).Contents (Elt F)),
    StableHlo.unary main_v288 main_v290 (broadcastInDim S100000x1 ![0] bcast_S100000_S100000x1_0 : (⟨S100000, .i32⟩ : BufTy).Contents (Elt F) → (⟨S100000x1, .i32⟩ : BufTy).Contents (Elt F)),
    StableHlo.ternary main_v289 main_v290 main_v286 main_v291 ((fun x i u => Host.scatterAdd scatter_S20000x128_S100000x1_S100000x128_1_0_0_1 x i u) : (⟨S20000x128, .f32⟩ : BufTy).Contents (Elt F) → (⟨S100000x1, .i32⟩ : BufTy).Contents (Elt F) → (⟨S100000x128, .f32⟩ : BufTy).Contents (Elt F) → (⟨S20000x128, .f32⟩ : BufTy).Contents (Elt F)),
    StableHlo.unary main_v225 main_v292 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v292 main_v293 rfl shapeCasts_S1x128x128_S128x128,
    StableHlo.unary main_v227 main_v294 ((extractStridedSlice S1x128 ![0, 0] · slices_S4x128_S1x128_0_0) : (⟨S4x128, .f32⟩ : BufTy).Contents (Elt F) → (⟨S1x128, .f32⟩ : BufTy).Contents (Elt F)),
    StableHlo.reshape main_v294 main_v295 rfl shapeCasts_S1x128_S128,
    StableHlo.unary main_v229 main_v296 ((extractStridedSlice S1x128 ![0, 0] · slices_S4x128_S1x128_0_0) : (⟨S4x128, .f32⟩ : BufTy).Contents (Elt F) → (⟨S1x128, .f32⟩ : BufTy).Contents (Elt F)),
    StableHlo.reshape main_v296 main_v297 rfl shapeCasts_S1x128_S128,
    StableHlo.unary main_v231 main_v298 ((extractStridedSlice S1x128 ![0, 0] · slices_S4x128_S1x128_0_0) : (⟨S4x128, .f32⟩ : BufTy).Contents (Elt F) → (⟨S1x128, .f32⟩ : BufTy).Contents (Elt F)),
    StableHlo.reshape main_v298 main_v299 rfl shapeCasts_S1x128_S128,
    StableHlo.unary main_v233 main_v300 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v300 main_v301 rfl shapeCasts_S1x128x128_S128x128,
    StableHlo.unary main_v235 main_v302 ((extractStridedSlice S1x128 ![0, 0] · slices_S4x128_S1x128_0_0) : (⟨S4x128, .f32⟩ : BufTy).Contents (Elt F) → (⟨S1x128, .f32⟩ : BufTy).Contents (Elt F)),
    StableHlo.reshape main_v302 main_v303 rfl shapeCasts_S1x128_S128,
    StableHlo.binary main_v249 main_v293 main_v304 ((fun l r => Host.dotGeneral dot_S80000x128_S128x128_S80000x128_1_0_0_1_n_n none l r) : (⟨S80000x128, .f32⟩ : BufTy).Contents (Elt F) → (⟨S128x128, .f32⟩ : BufTy).Contents (Elt F) → (⟨S80000x128, .f32⟩ : BufTy).Contents (Elt F)),
    StableHlo.unary main_v295 main_v305 (broadcastInDim S1x128 ![1] bcast_S128_S1x128_1 : (⟨S128, .f32⟩ : BufTy).Contents (Elt F) → (⟨S1x128, .f32⟩ : BufTy).Contents (Elt F)),
    StableHlo.unary main_v305 main_v306 (broadcastInDim S80000x128 ![0, 1] bcast_S1x128_S80000x128_0_1 : (⟨S1x128, .f32⟩ : BufTy).Contents (Elt F) → (⟨S80000x128, .f32⟩ : BufTy).Contents (Elt F)),
    StableHlo.binary main_v304 main_v306 main_v307 (addf : (⟨S80000x128, .f32⟩ : BufTy).Contents (Elt F) → (⟨S80000x128, .f32⟩ : BufTy).Contents (Elt F) → (⟨S80000x128, .f32⟩ : BufTy).Contents (Elt F)),
    StableHlo.nullary main_cst_38 (constant S_ .f32 0x00000000#32),
    StableHlo.binary main_v307 main_cst_38 main_v308 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.nullary main_cst_39 (constant S_ .f32 0x479C4000#32),
    StableHlo.unary main_cst_39 main_v309 (broadcastInDim S128 ![] bcast_S_S128 : (⟨S_, .f32⟩ : BufTy).Contents (Elt F) → (⟨S128, .f32⟩ : BufTy).Contents (Elt F)),
    StableHlo.binary main_v308 main_v309 main_v310 (Host.divf : (⟨S128, .f32⟩ : BufTy).Contents (Elt F) → (⟨S128, .f32⟩ : BufTy).Contents (Elt F) → (⟨S128, .f32⟩ : BufTy).Contents (Elt F)),
    StableHlo.nullary main_c_40 (constantI S_ 32 0#32),
    StableHlo.TRef.nullary (.of main_call10_cst : StableHlo.TRef sig ⟨S_, .f32⟩) (constant S_ .f32 0x00000000#32),
    StableHlo.TRef.binary (.of main_v307 : StableHlo.TRef sig ⟨S80000x128, .f32⟩) (.of main_call10_cst : StableHlo.TRef sig ⟨S_, .f32⟩) (.of main_call10_v0 : StableHlo.TRef sig ⟨S128, .f32⟩) (fun x v => Host.reduceAdd x v reducesTo_S80000x128_S128_d0 h_S_),
    StableHlo.TRef.unary (.of main_call10_v0 : StableHlo.TRef sig ⟨S128, .f32⟩) (.of main_call10_v1 : StableHlo.TRef sig ⟨S1x128, .f32⟩) (broadcastInDim S1x128 ![1] bcast_S128_S1x128_1),
    StableHlo.TRef.nullary (.of main_call10_cst_0 : StableHlo.TRef sig ⟨S_, .f32⟩) (constant S_ .f32 0x479C4000#32),
    StableHlo.TRef.unary (.of main_call10_cst_0 : StableHlo.TRef sig ⟨S_, .f32⟩) (.of main_call10_v2 : StableHlo.TRef sig ⟨S1x128, .f32⟩) (broadcastInDim S1x128 ![] bcast_S_S1x128),
    StableHlo.TRef.binary (.of main_call10_v1 : StableHlo.TRef sig ⟨S1x128, .f32⟩) (.of main_call10_v2 : StableHlo.TRef sig ⟨S1x128, .f32⟩) (.of main_call10_v3 : StableHlo.TRef sig ⟨S1x128, .f32⟩) Host.divf,
    StableHlo.TRef.unary (.of main_call10_v3 : StableHlo.TRef sig ⟨S1x128, .f32⟩) (.of main_call10_v4 : StableHlo.TRef sig ⟨S80000x128, .f32⟩) (broadcastInDim S80000x128 ![0, 1] bcast_S1x128_S80000x128_0_1),
    StableHlo.TRef.binary (.of main_v307 : StableHlo.TRef sig ⟨S80000x128, .f32⟩) (.of main_call10_v4 : StableHlo.TRef sig ⟨S80000x128, .f32⟩) (.of main_call10_v5 : StableHlo.TRef sig ⟨S80000x128, .f32⟩) subf,
    StableHlo.TRef.binary (.of main_call10_v5 : StableHlo.TRef sig ⟨S80000x128, .f32⟩) (.of main_call10_v5 : StableHlo.TRef sig ⟨S80000x128, .f32⟩) (.of main_call10_v6 : StableHlo.TRef sig ⟨S80000x128, .f32⟩) mulf,
    StableHlo.TRef.unary (.of main_c_40 : StableHlo.TRef sig ⟨S_, .i32⟩) (.of main_call10_v7 : StableHlo.TRef sig ⟨S_, .f32⟩) (sitofp .f32),
    StableHlo.TRef.nullary (.of main_call10_cst_1 : StableHlo.TRef sig ⟨S_, .f32⟩) (constant S_ .f32 0x479C4000#32),
    StableHlo.TRef.binary (.of main_call10_cst_1 : StableHlo.TRef sig ⟨S_, .f32⟩) (.of main_call10_v7 : StableHlo.TRef sig ⟨S_, .f32⟩) (.of main_call10_v8 : StableHlo.TRef sig ⟨S_, .f32⟩) subf,
    StableHlo.TRef.nullary (.of main_call10_cst_2 : StableHlo.TRef sig ⟨S_, .f32⟩) (constant S_ .f32 0x00000000#32),
    StableHlo.TRef.binary (.of main_call10_v6 : StableHlo.TRef sig ⟨S80000x128, .f32⟩) (.of main_call10_cst_2 : StableHlo.TRef sig ⟨S_, .f32⟩) (.of main_call10_v9 : StableHlo.TRef sig ⟨S128, .f32⟩) (fun x v => Host.reduceAdd x v reducesTo_S80000x128_S128_d0 h_S_),
    StableHlo.TRef.unary (.of main_call10_v8 : StableHlo.TRef sig ⟨S_, .f32⟩) (.of main_call10_v10 : StableHlo.TRef sig ⟨S128, .f32⟩) (broadcastInDim S128 ![] bcast_S_S128),
    StableHlo.TRef.binary (.of main_call10_v9 : StableHlo.TRef sig ⟨S128, .f32⟩) (.of main_call10_v10 : StableHlo.TRef sig ⟨S128, .f32⟩) (.of main_call10_v11 : StableHlo.TRef sig ⟨S128, .f32⟩) Host.divf,
    StableHlo.TRef.nullary (.of main_call10_cst_3 : StableHlo.TRef sig ⟨S_, .f32⟩) (constant S_ .f32 0x00000000#32),
    StableHlo.TRef.binary (.of main_call10_v8 : StableHlo.TRef sig ⟨S_, .f32⟩) (.of main_call10_cst_3 : StableHlo.TRef sig ⟨S_, .f32⟩) (.of main_call10_v12 : StableHlo.TRef sig ⟨S_, .i1⟩) (cmpf .ogt),
    StableHlo.TRef.nullary (.of main_call10_cst_4 : StableHlo.TRef sig ⟨S_, .f32⟩) (constant S_ .f32 0x7FC00000#32),
    StableHlo.TRef.unary (.of main_call10_cst_4 : StableHlo.TRef sig ⟨S_, .f32⟩) (.of main_call10_call0_v0 : StableHlo.TRef sig ⟨S_, .f32⟩) id,
    StableHlo.TRef.unary (.of main_call10_call0_v0 : StableHlo.TRef sig ⟨S_, .f32⟩) (.of main_call10_call0_v1 : StableHlo.TRef sig ⟨S128, .f32⟩) (broadcastInDim S128 ![] bcast_S_S128),
    StableHlo.TRef.ternary (.of main_call10_v12 : StableHlo.TRef sig ⟨S_, .i1⟩) (.of main_call10_v11 : StableHlo.TRef sig ⟨S128, .f32⟩) (.of main_call10_call0_v1 : StableHlo.TRef sig ⟨S128, .f32⟩) (.of main_v311 : StableHlo.TRef sig ⟨S128, .f32⟩) (fun p a b => select (broadcastInDim S128 ![] bcast_S_S128 p) a b),
    StableHlo.unary main_v310 main_v312 (broadcastInDim S1x128 ![1] bcast_S128_S1x128_1 : (⟨S128, .f32⟩ : BufTy).Contents (Elt F) → (⟨S1x128, .f32⟩ : BufTy).Contents (Elt F)),
    StableHlo.unary main_v312 main_v313 (broadcastInDim S80000x128 ![0, 1] bcast_S1x128_S80000x128_0_1 : (⟨S1x128, .f32⟩ : BufTy).Contents (Elt F) → (⟨S80000x128, .f32⟩ : BufTy).Contents (Elt F)),
    StableHlo.binary main_v307 main_v313 main_v314 (subf : (⟨S80000x128, .f32⟩ : BufTy).Contents (Elt F) → (⟨S80000x128, .f32⟩ : BufTy).Contents (Elt F) → (⟨S80000x128, .f32⟩ : BufTy).Contents (Elt F)),
    StableHlo.unary main_v297 main_v315 (broadcastInDim S1x128 ![1] bcast_S128_S1x128_1 : (⟨S128, .f32⟩ : BufTy).Contents (Elt F) → (⟨S1x128, .f32⟩ : BufTy).Contents (Elt F)),
    StableHlo.unary main_v315 main_v316 (broadcastInDim S80000x128 ![0, 1] bcast_S1x128_S80000x128_0_1 : (⟨S1x128, .f32⟩ : BufTy).Contents (Elt F) → (⟨S80000x128, .f32⟩ : BufTy).Contents (Elt F)) ]

/-- Every operation of the window touches TensorCore buffers only. -/
theorem ops5_sub : (ops5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub ..⟩

/-- No operation of the window allocates a buffer. -/
theorem ops5_fresh : (ops5 : List (HloOp τ sig (Elt F))).Forall fun op => op.fresh = ∅ := by
  simp only [List.Forall]; repeat' constructor

/-- The window's text is the run of its operations in order: both are one chain of host steps, the outlined functions
    unfolded at their calls. -/
theorem part5_eq (c : Dev nD) : main_part5 (F := F) c = StableHlo.seq ops5 := by
  chain_rfl

end Cert.ReferenceIdeal.Ops

end
-- ==== Proof.RefOps6.lean ====
import proofs.«116822_j38594576122568_1_alg».proof.ReferenceIdeal
import Idealize.ShloMosaic.Lib.StableHlo.Run
import Idealize.ShloMosaic.Lib.Pipeline.Regions

/-! Window 6 of the reference's @main as the list of its host operations, each outlined function's body written out at its
    call over the call's own buffers, and the window's text is the run of that list. -/

noncomputable section

namespace Cert.ReferenceIdeal.Ops

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

/-- The 85 host operations of window 6, in order. -/
abbrev ops6 : List (HloOp τ sig (Elt F)) :=
  [ StableHlo.binary main_v316 main_v314 main_v317 (mulf : (⟨S80000x128, .f32⟩ : BufTy).Contents (Elt F) → (⟨S80000x128, .f32⟩ : BufTy).Contents (Elt F) → (⟨S80000x128, .f32⟩ : BufTy).Contents (Elt F)),
    StableHlo.nullary main_cst_41 (constant S_ .f32 0x3727C5AC#32),
    StableHlo.unary main_cst_41 main_v318 (broadcastInDim S128 ![] bcast_S_S128 : (⟨S_, .f32⟩ : BufTy).Contents (Elt F) → (⟨S128, .f32⟩ : BufTy).Contents (Elt F)),
    StableHlo.binary main_v311 main_v318 main_v319 (addf : (⟨S128, .f32⟩ : BufTy).Contents (Elt F) → (⟨S128, .f32⟩ : BufTy).Contents (Elt F) → (⟨S128, .f32⟩ : BufTy).Contents (Elt F)),
    StableHlo.unary main_v319 main_v320 (Host.rsqrt : (⟨S128, .f32⟩ : BufTy).Contents (Elt F) → (⟨S128, .f32⟩ : BufTy).Contents (Elt F)),
    StableHlo.unary main_v320 main_v321 (broadcastInDim S1x128 ![1] bcast_S128_S1x128_1 : (⟨S128, .f32⟩ : BufTy).Contents (Elt F) → (⟨S1x128, .f32⟩ : BufTy).Contents (Elt F)),
    StableHlo.unary main_v321 main_v322 (broadcastInDim S80000x128 ![0, 1] bcast_S1x128_S80000x128_0_1 : (⟨S1x128, .f32⟩ : BufTy).Contents (Elt F) → (⟨S80000x128, .f32⟩ : BufTy).Contents (Elt F)),
    StableHlo.binary main_v317 main_v322 main_v323 (mulf : (⟨S80000x128, .f32⟩ : BufTy).Contents (Elt F) → (⟨S80000x128, .f32⟩ : BufTy).Contents (Elt F) → (⟨S80000x128, .f32⟩ : BufTy).Contents (Elt F)),
    StableHlo.unary main_v299 main_v324 (broadcastInDim S1x128 ![1] bcast_S128_S1x128_1 : (⟨S128, .f32⟩ : BufTy).Contents (Elt F) → (⟨S1x128, .f32⟩ : BufTy).Contents (Elt F)),
    StableHlo.unary main_v324 main_v325 (broadcastInDim S80000x128 ![0, 1] bcast_S1x128_S80000x128_0_1 : (⟨S1x128, .f32⟩ : BufTy).Contents (Elt F) → (⟨S80000x128, .f32⟩ : BufTy).Contents (Elt F)),
    StableHlo.binary main_v323 main_v325 main_v326 (addf : (⟨S80000x128, .f32⟩ : BufTy).Contents (Elt F) → (⟨S80000x128, .f32⟩ : BufTy).Contents (Elt F) → (⟨S80000x128, .f32⟩ : BufTy).Contents (Elt F)),
    StableHlo.TRef.nullary (.of main_call11_cst : StableHlo.TRef sig ⟨S_, .f32⟩) (constant S_ .f32 0x00000000#32),
    StableHlo.TRef.unary (.of main_call11_cst : StableHlo.TRef sig ⟨S_, .f32⟩) (.of main_call11_v0 : StableHlo.TRef sig ⟨S80000x128, .f32⟩) (broadcastInDim S80000x128 ![] bcast_S_S80000x128),
    StableHlo.TRef.binary (.of main_v326 : StableHlo.TRef sig ⟨S80000x128, .f32⟩) (.of main_call11_v0 : StableHlo.TRef sig ⟨S80000x128, .f32⟩) (.of main_v327 : StableHlo.TRef sig ⟨S80000x128, .f32⟩) maximumf,
    StableHlo.binary main_v327 main_v301 main_v328 ((fun l r => Host.dotGeneral dot_S80000x128_S128x128_S80000x128_1_0_0_1_n_n none l r) : (⟨S80000x128, .f32⟩ : BufTy).Contents (Elt F) → (⟨S128x128, .f32⟩ : BufTy).Contents (Elt F) → (⟨S80000x128, .f32⟩ : BufTy).Contents (Elt F)),
    StableHlo.unary main_v303 main_v329 (broadcastInDim S1x128 ![1] bcast_S128_S1x128_1 : (⟨S128, .f32⟩ : BufTy).Contents (Elt F) → (⟨S1x128, .f32⟩ : BufTy).Contents (Elt F)),
    StableHlo.unary main_v329 main_v330 (broadcastInDim S80000x128 ![0, 1] bcast_S1x128_S80000x128_0_1 : (⟨S1x128, .f32⟩ : BufTy).Contents (Elt F) → (⟨S80000x128, .f32⟩ : BufTy).Contents (Elt F)),
    StableHlo.binary main_v328 main_v330 main_v331 (addf : (⟨S80000x128, .f32⟩ : BufTy).Contents (Elt F) → (⟨S80000x128, .f32⟩ : BufTy).Contents (Elt F) → (⟨S80000x128, .f32⟩ : BufTy).Contents (Elt F)),
    StableHlo.unary main_v225 main_v332 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v332 main_v333 rfl shapeCasts_S1x128x128_S128x128,
    StableHlo.unary main_v227 main_v334 ((extractStridedSlice S1x128 ![2, 0] · slices_S4x128_S1x128_2_0) : (⟨S4x128, .f32⟩ : BufTy).Contents (Elt F) → (⟨S1x128, .f32⟩ : BufTy).Contents (Elt F)),
    StableHlo.reshape main_v334 main_v335 rfl shapeCasts_S1x128_S128,
    StableHlo.unary main_v229 main_v336 ((extractStridedSlice S1x128 ![2, 0] · slices_S4x128_S1x128_2_0) : (⟨S4x128, .f32⟩ : BufTy).Contents (Elt F) → (⟨S1x128, .f32⟩ : BufTy).Contents (Elt F)),
    StableHlo.reshape main_v336 main_v337 rfl shapeCasts_S1x128_S128,
    StableHlo.unary main_v231 main_v338 ((extractStridedSlice S1x128 ![2, 0] · slices_S4x128_S1x128_2_0) : (⟨S4x128, .f32⟩ : BufTy).Contents (Elt F) → (⟨S1x128, .f32⟩ : BufTy).Contents (Elt F)),
    StableHlo.reshape main_v338 main_v339 rfl shapeCasts_S1x128_S128,
    StableHlo.unary main_v233 main_v340 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v340 main_v341 rfl shapeCasts_S1x128x128_S128x128,
    StableHlo.unary main_v235 main_v342 ((extractStridedSlice S1x128 ![2, 0] · slices_S4x128_S1x128_2_0) : (⟨S4x128, .f32⟩ : BufTy).Contents (Elt F) → (⟨S1x128, .f32⟩ : BufTy).Contents (Elt F)),
    StableHlo.reshape main_v342 main_v343 rfl shapeCasts_S1x128_S128,
    StableHlo.binary main_v263 main_v333 main_v344 ((fun l r => Host.dotGeneral dot_S80000x128_S128x128_S80000x128_1_0_0_1_n_n none l r) : (⟨S80000x128, .f32⟩ : BufTy).Contents (Elt F) → (⟨S128x128, .f32⟩ : BufTy).Contents (Elt F) → (⟨S80000x128, .f32⟩ : BufTy).Contents (Elt F)),
    StableHlo.unary main_v335 main_v345 (broadcastInDim S1x128 ![1] bcast_S128_S1x128_1 : (⟨S128, .f32⟩ : BufTy).Contents (Elt F) → (⟨S1x128, .f32⟩ : BufTy).Contents (Elt F)),
    StableHlo.unary main_v345 main_v346 (broadcastInDim S80000x128 ![0, 1] bcast_S1x128_S80000x128_0_1 : (⟨S1x128, .f32⟩ : BufTy).Contents (Elt F) → (⟨S80000x128, .f32⟩ : BufTy).Contents (Elt F)),
    StableHlo.binary main_v344 main_v346 main_v347 (addf : (⟨S80000x128, .f32⟩ : BufTy).Contents (Elt F) → (⟨S80000x128, .f32⟩ : BufTy).Contents (Elt F) → (⟨S80000x128, .f32⟩ : BufTy).Contents (Elt F)),
    StableHlo.nullary main_cst_42 (constant S_ .f32 0x00000000#32),
    StableHlo.binary main_v347 main_cst_42 main_v348 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.nullary main_cst_43 (constant S_ .f32 0x479C4000#32),
    StableHlo.unary main_cst_43 main_v349 (broadcastInDim S128 ![] bcast_S_S128 : (⟨S_, .f32⟩ : BufTy).Contents (Elt F) → (⟨S128, .f32⟩ : BufTy).Contents (Elt F)),
    StableHlo.binary main_v348 main_v349 main_v350 (Host.divf : (⟨S128, .f32⟩ : BufTy).Contents (Elt F) → (⟨S128, .f32⟩ : BufTy).Contents (Elt F) → (⟨S128, .f32⟩ : BufTy).Contents (Elt F)),
    StableHlo.nullary main_c_44 (constantI S_ 32 0#32),
    StableHlo.TRef.nullary (.of main_call12_cst : StableHlo.TRef sig ⟨S_, .f32⟩) (constant S_ .f32 0x00000000#32),
    StableHlo.TRef.binary (.of main_v347 : StableHlo.TRef sig ⟨S80000x128, .f32⟩) (.of main_call12_cst : StableHlo.TRef sig ⟨S_, .f32⟩) (.of main_call12_v0 : StableHlo.TRef sig ⟨S128, .f32⟩) (fun x v => Host.reduceAdd x v reducesTo_S80000x128_S128_d0 h_S_),
    StableHlo.TRef.unary (.of main_call12_v0 : StableHlo.TRef sig ⟨S128, .f32⟩) (.of main_call12_v1 : StableHlo.TRef sig ⟨S1x128, .f32⟩) (broadcastInDim S1x128 ![1] bcast_S128_S1x128_1),
    StableHlo.TRef.nullary (.of main_call12_cst_0 : StableHlo.TRef sig ⟨S_, .f32⟩) (constant S_ .f32 0x479C4000#32),
    StableHlo.TRef.unary (.of main_call12_cst_0 : StableHlo.TRef sig ⟨S_, .f32⟩) (.of main_call12_v2 : StableHlo.TRef sig ⟨S1x128, .f32⟩) (broadcastInDim S1x128 ![] bcast_S_S1x128),
    StableHlo.TRef.binary (.of main_call12_v1 : StableHlo.TRef sig ⟨S1x128, .f32⟩) (.of main_call12_v2 : StableHlo.TRef sig ⟨S1x128, .f32⟩) (.of main_call12_v3 : StableHlo.TRef sig ⟨S1x128, .f32⟩) Host.divf,
    StableHlo.TRef.unary (.of main_call12_v3 : StableHlo.TRef sig ⟨S1x128, .f32⟩) (.of main_call12_v4 : StableHlo.TRef sig ⟨S80000x128, .f32⟩) (broadcastInDim S80000x128 ![0, 1] bcast_S1x128_S80000x128_0_1),
    StableHlo.TRef.binary (.of main_v347 : StableHlo.TRef sig ⟨S80000x128, .f32⟩) (.of main_call12_v4 : StableHlo.TRef sig ⟨S80000x128, .f32⟩) (.of main_call12_v5 : StableHlo.TRef sig ⟨S80000x128, .f32⟩) subf,
    StableHlo.TRef.binary (.of main_call12_v5 : StableHlo.TRef sig ⟨S80000x128, .f32⟩) (.of main_call12_v5 : StableHlo.TRef sig ⟨S80000x128, .f32⟩) (.of main_call12_v6 : StableHlo.TRef sig ⟨S80000x128, .f32⟩) mulf,
    StableHlo.TRef.unary (.of main_c_44 : StableHlo.TRef sig ⟨S_, .i32⟩) (.of main_call12_v7 : StableHlo.TRef sig ⟨S_, .f32⟩) (sitofp .f32),
    StableHlo.TRef.nullary (.of main_call12_cst_1 : StableHlo.TRef sig ⟨S_, .f32⟩) (constant S_ .f32 0x479C4000#32),
    StableHlo.TRef.binary (.of main_call12_cst_1 : StableHlo.TRef sig ⟨S_, .f32⟩) (.of main_call12_v7 : StableHlo.TRef sig ⟨S_, .f32⟩) (.of main_call12_v8 : StableHlo.TRef sig ⟨S_, .f32⟩) subf,
    StableHlo.TRef.nullary (.of main_call12_cst_2 : StableHlo.TRef sig ⟨S_, .f32⟩) (constant S_ .f32 0x00000000#32),
    StableHlo.TRef.binary (.of main_call12_v6 : StableHlo.TRef sig ⟨S80000x128, .f32⟩) (.of main_call12_cst_2 : StableHlo.TRef sig ⟨S_, .f32⟩) (.of main_call12_v9 : StableHlo.TRef sig ⟨S128, .f32⟩) (fun x v => Host.reduceAdd x v reducesTo_S80000x128_S128_d0 h_S_),
    StableHlo.TRef.unary (.of main_call12_v8 : StableHlo.TRef sig ⟨S_, .f32⟩) (.of main_call12_v10 : StableHlo.TRef sig ⟨S128, .f32⟩) (broadcastInDim S128 ![] bcast_S_S128),
    StableHlo.TRef.binary (.of main_call12_v9 : StableHlo.TRef sig ⟨S128, .f32⟩) (.of main_call12_v10 : StableHlo.TRef sig ⟨S128, .f32⟩) (.of main_call12_v11 : StableHlo.TRef sig ⟨S128, .f32⟩) Host.divf,
    StableHlo.TRef.nullary (.of main_call12_cst_3 : StableHlo.TRef sig ⟨S_, .f32⟩) (constant S_ .f32 0x00000000#32),
    StableHlo.TRef.binary (.of main_call12_v8 : StableHlo.TRef sig ⟨S_, .f32⟩) (.of main_call12_cst_3 : StableHlo.TRef sig ⟨S_, .f32⟩) (.of main_call12_v12 : StableHlo.TRef sig ⟨S_, .i1⟩) (cmpf .ogt),
    StableHlo.TRef.nullary (.of main_call12_cst_4 : StableHlo.TRef sig ⟨S_, .f32⟩) (constant S_ .f32 0x7FC00000#32),
    StableHlo.TRef.unary (.of main_call12_cst_4 : StableHlo.TRef sig ⟨S_, .f32⟩) (.of main_call12_call0_v0 : StableHlo.TRef sig ⟨S_, .f32⟩) id,
    StableHlo.TRef.unary (.of main_call12_call0_v0 : StableHlo.TRef sig ⟨S_, .f32⟩) (.of main_call12_call0_v1 : StableHlo.TRef sig ⟨S128, .f32⟩) (broadcastInDim S128 ![] bcast_S_S128),
    StableHlo.TRef.ternary (.of main_call12_v12 : StableHlo.TRef sig ⟨S_, .i1⟩) (.of main_call12_v11 : StableHlo.TRef sig ⟨S128, .f32⟩) (.of main_call12_call0_v1 : StableHlo.TRef sig ⟨S128, .f32⟩) (.of main_v351 : StableHlo.TRef sig ⟨S128, .f32⟩) (fun p a b => select (broadcastInDim S128 ![] bcast_S_S128 p) a b),
    StableHlo.unary main_v350 main_v352 (broadcastInDim S1x128 ![1] bcast_S128_S1x128_1 : (⟨S128, .f32⟩ : BufTy).Contents (Elt F) → (⟨S1x128, .f32⟩ : BufTy).Contents (Elt F)),
    StableHlo.unary main_v352 main_v353 (broadcastInDim S80000x128 ![0, 1] bcast_S1x128_S80000x128_0_1 : (⟨S1x128, .f32⟩ : BufTy).Contents (Elt F) → (⟨S80000x128, .f32⟩ : BufTy).Contents (Elt F)),
    StableHlo.binary main_v347 main_v353 main_v354 (subf : (⟨S80000x128, .f32⟩ : BufTy).Contents (Elt F) → (⟨S80000x128, .f32⟩ : BufTy).Contents (Elt F) → (⟨S80000x128, .f32⟩ : BufTy).Contents (Elt F)),
    StableHlo.unary main_v337 main_v355 (broadcastInDim S1x128 ![1] bcast_S128_S1x128_1 : (⟨S128, .f32⟩ : BufTy).Contents (Elt F) → (⟨S1x128, .f32⟩ : BufTy).Contents (Elt F)),
    StableHlo.unary main_v355 main_v356 (broadcastInDim S80000x128 ![0, 1] bcast_S1x128_S80000x128_0_1 : (⟨S1x128, .f32⟩ : BufTy).Contents (Elt F) → (⟨S80000x128, .f32⟩ : BufTy).Contents (Elt F)),
    StableHlo.binary main_v356 main_v354 main_v357 (mulf : (⟨S80000x128, .f32⟩ : BufTy).Contents (Elt F) → (⟨S80000x128, .f32⟩ : BufTy).Contents (Elt F) → (⟨S80000x128, .f32⟩ : BufTy).Contents (Elt F)),
    StableHlo.nullary main_cst_45 (constant S_ .f32 0x3727C5AC#32),
    StableHlo.unary main_cst_45 main_v358 (broadcastInDim S128 ![] bcast_S_S128 : (⟨S_, .f32⟩ : BufTy).Contents (Elt F) → (⟨S128, .f32⟩ : BufTy).Contents (Elt F)),
    StableHlo.binary main_v351 main_v358 main_v359 (addf : (⟨S128, .f32⟩ : BufTy).Contents (Elt F) → (⟨S128, .f32⟩ : BufTy).Contents (Elt F) → (⟨S128, .f32⟩ : BufTy).Contents (Elt F)),
    StableHlo.unary main_v359 main_v360 (Host.rsqrt : (⟨S128, .f32⟩ : BufTy).Contents (Elt F) → (⟨S128, .f32⟩ : BufTy).Contents (Elt F)),
    StableHlo.unary main_v360 main_v361 (broadcastInDim S1x128 ![1] bcast_S128_S1x128_1 : (⟨S128, .f32⟩ : BufTy).Contents (Elt F) → (⟨S1x128, .f32⟩ : BufTy).Contents (Elt F)),
    StableHlo.unary main_v361 main_v362 (broadcastInDim S80000x128 ![0, 1] bcast_S1x128_S80000x128_0_1 : (⟨S1x128, .f32⟩ : BufTy).Contents (Elt F) → (⟨S80000x128, .f32⟩ : BufTy).Contents (Elt F)),
    StableHlo.binary main_v357 main_v362 main_v363 (mulf : (⟨S80000x128, .f32⟩ : BufTy).Contents (Elt F) → (⟨S80000x128, .f32⟩ : BufTy).Contents (Elt F) → (⟨S80000x128, .f32⟩ : BufTy).Contents (Elt F)),
    StableHlo.unary main_v339 main_v364 (broadcastInDim S1x128 ![1] bcast_S128_S1x128_1 : (⟨S128, .f32⟩ : BufTy).Contents (Elt F) → (⟨S1x128, .f32⟩ : BufTy).Contents (Elt F)),
    StableHlo.unary main_v364 main_v365 (broadcastInDim S80000x128 ![0, 1] bcast_S1x128_S80000x128_0_1 : (⟨S1x128, .f32⟩ : BufTy).Contents (Elt F) → (⟨S80000x128, .f32⟩ : BufTy).Contents (Elt F)),
    StableHlo.binary main_v363 main_v365 main_v366 (addf : (⟨S80000x128, .f32⟩ : BufTy).Contents (Elt F) → (⟨S80000x128, .f32⟩ : BufTy).Contents (Elt F) → (⟨S80000x128, .f32⟩ : BufTy).Contents (Elt F)),
    StableHlo.TRef.nullary (.of main_call13_cst : StableHlo.TRef sig ⟨S_, .f32⟩) (constant S_ .f32 0x00000000#32),
    StableHlo.TRef.unary (.of main_call13_cst : StableHlo.TRef sig ⟨S_, .f32⟩) (.of main_call13_v0 : StableHlo.TRef sig ⟨S80000x128, .f32⟩) (broadcastInDim S80000x128 ![] bcast_S_S80000x128),
    StableHlo.TRef.binary (.of main_v366 : StableHlo.TRef sig ⟨S80000x128, .f32⟩) (.of main_call13_v0 : StableHlo.TRef sig ⟨S80000x128, .f32⟩) (.of main_v367 : StableHlo.TRef sig ⟨S80000x128, .f32⟩) maximumf,
    StableHlo.binary main_v367 main_v341 main_v368 ((fun l r => Host.dotGeneral dot_S80000x128_S128x128_S80000x128_1_0_0_1_n_n none l r) : (⟨S80000x128, .f32⟩ : BufTy).Contents (Elt F) → (⟨S128x128, .f32⟩ : BufTy).Contents (Elt F) → (⟨S80000x128, .f32⟩ : BufTy).Contents (Elt F)),
    StableHlo.unary main_v343 main_v369 (broadcastInDim S1x128 ![1] bcast_S128_S1x128_1 : (⟨S128, .f32⟩ : BufTy).Contents (Elt F) → (⟨S1x128, .f32⟩ : BufTy).Contents (Elt F)),
    StableHlo.unary main_v369 main_v370 (broadcastInDim S80000x128 ![0, 1] bcast_S1x128_S80000x128_0_1 : (⟨S1x128, .f32⟩ : BufTy).Contents (Elt F) → (⟨S80000x128, .f32⟩ : BufTy).Contents (Elt F)),
    StableHlo.binary main_v368 main_v370 main_v371 (addf : (⟨S80000x128, .f32⟩ : BufTy).Contents (Elt F) → (⟨S80000x128, .f32⟩ : BufTy).Contents (Elt F) → (⟨S80000x128, .f32⟩ : BufTy).Contents (Elt F)) ]

/-- Every operation of the window touches TensorCore buffers only. -/
theorem ops6_sub : (ops6 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

/-- No operation of the window allocates a buffer. -/
theorem ops6_fresh : (ops6 : List (HloOp τ sig (Elt F))).Forall fun op => op.fresh = ∅ := by
  simp only [List.Forall]; repeat' constructor

/-- The window's text is the run of its operations in order: both are one chain of host steps, the outlined functions
    unfolded at their calls. -/
theorem part6_eq (c : Dev nD) : main_part6 (F := F) c = StableHlo.seq ops6 := by
  chain_rfl

end Cert.ReferenceIdeal.Ops

end
-- ==== Proof.RefOps7.lean ====
import proofs.«116822_j38594576122568_1_alg».proof.ReferenceIdeal
import Idealize.ShloMosaic.Lib.StableHlo.Run
import Idealize.ShloMosaic.Lib.Pipeline.Regions

/-! Window 7 of the reference's @main as the list of its host operations, each outlined function's body written out at its
    call over the call's own buffers, and the window's text is the run of that list. -/

noncomputable section

namespace Cert.ReferenceIdeal.Ops

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

/-- The 89 host operations of window 7, in order. -/
abbrev ops7 : List (HloOp τ sig (Elt F)) :=
  [ StableHlo.binary main_v331 main_v371 main_v372 (addf : (⟨S80000x128, .f32⟩ : BufTy).Contents (Elt F) → (⟨S80000x128, .f32⟩ : BufTy).Contents (Elt F) → (⟨S80000x128, .f32⟩ : BufTy).Contents (Elt F)),
    StableHlo.TRef.nullary (.of main_call14_cst : StableHlo.TRef sig ⟨S_, .f32⟩) (constant S_ .f32 0x00000000#32),
    StableHlo.TRef.unary (.of main_call14_cst : StableHlo.TRef sig ⟨S_, .f32⟩) (.of main_call14_v0 : StableHlo.TRef sig ⟨S80000x128, .f32⟩) (broadcastInDim S80000x128 ![] bcast_S_S80000x128),
    StableHlo.TRef.binary (.of main_v372 : StableHlo.TRef sig ⟨S80000x128, .f32⟩) (.of main_call14_v0 : StableHlo.TRef sig ⟨S80000x128, .f32⟩) (.of main_call14_v1 : StableHlo.TRef sig ⟨S80000x128, .i1⟩) (cmpf .oge),
    StableHlo.TRef.nullary (.of main_call14_cst_0 : StableHlo.TRef sig ⟨S_, .f32⟩) (constant S_ .f32 0x3C23D70A#32),
    StableHlo.TRef.unary (.of main_call14_cst_0 : StableHlo.TRef sig ⟨S_, .f32⟩) (.of main_call14_v2 : StableHlo.TRef sig ⟨S80000x128, .f32⟩) (broadcastInDim S80000x128 ![] bcast_S_S80000x128),
    StableHlo.TRef.binary (.of main_call14_v2 : StableHlo.TRef sig ⟨S80000x128, .f32⟩) (.of main_v372 : StableHlo.TRef sig ⟨S80000x128, .f32⟩) (.of main_call14_v3 : StableHlo.TRef sig ⟨S80000x128, .f32⟩) mulf,
    StableHlo.TRef.ternary (.of main_call14_v1 : StableHlo.TRef sig ⟨S80000x128, .i1⟩) (.of main_v372 : StableHlo.TRef sig ⟨S80000x128, .f32⟩) (.of main_call14_v3 : StableHlo.TRef sig ⟨S80000x128, .f32⟩) (.of main_v373 : StableHlo.TRef sig ⟨S80000x128, .f32⟩) select,
    StableHlo.unary main_v225 main_v374 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v374 main_v375 rfl shapeCasts_S1x128x128_S128x128,
    StableHlo.unary main_v227 main_v376 ((extractStridedSlice S1x128 ![1, 0] · slices_S4x128_S1x128_1_0) : (⟨S4x128, .f32⟩ : BufTy).Contents (Elt F) → (⟨S1x128, .f32⟩ : BufTy).Contents (Elt F)),
    StableHlo.reshape main_v376 main_v377 rfl shapeCasts_S1x128_S128,
    StableHlo.unary main_v229 main_v378 ((extractStridedSlice S1x128 ![1, 0] · slices_S4x128_S1x128_1_0) : (⟨S4x128, .f32⟩ : BufTy).Contents (Elt F) → (⟨S1x128, .f32⟩ : BufTy).Contents (Elt F)),
    StableHlo.reshape main_v378 main_v379 rfl shapeCasts_S1x128_S128,
    StableHlo.unary main_v231 main_v380 ((extractStridedSlice S1x128 ![1, 0] · slices_S4x128_S1x128_1_0) : (⟨S4x128, .f32⟩ : BufTy).Contents (Elt F) → (⟨S1x128, .f32⟩ : BufTy).Contents (Elt F)),
    StableHlo.reshape main_v380 main_v381 rfl shapeCasts_S1x128_S128,
    StableHlo.unary main_v233 main_v382 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v382 main_v383 rfl shapeCasts_S1x128x128_S128x128,
    StableHlo.unary main_v235 main_v384 ((extractStridedSlice S1x128 ![1, 0] · slices_S4x128_S1x128_1_0) : (⟨S4x128, .f32⟩ : BufTy).Contents (Elt F) → (⟨S1x128, .f32⟩ : BufTy).Contents (Elt F)),
    StableHlo.reshape main_v384 main_v385 rfl shapeCasts_S1x128_S128,
    StableHlo.binary main_v277 main_v375 main_v386 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_v377 main_v387 (broadcastInDim S1x128 ![1] bcast_S128_S1x128_1 : (⟨S128, .f32⟩ : BufTy).Contents (Elt F) → (⟨S1x128, .f32⟩ : BufTy).Contents (Elt F)),
    StableHlo.unary main_v387 main_v388 (broadcastInDim S20000x128 ![0, 1] bcast_S1x128_S20000x128_0_1 : (⟨S1x128, .f32⟩ : BufTy).Contents (Elt F) → (⟨S20000x128, .f32⟩ : BufTy).Contents (Elt F)),
    StableHlo.binary main_v386 main_v388 main_v389 (addf : (⟨S20000x128, .f32⟩ : BufTy).Contents (Elt F) → (⟨S20000x128, .f32⟩ : BufTy).Contents (Elt F) → (⟨S20000x128, .f32⟩ : BufTy).Contents (Elt F)),
    StableHlo.nullary main_cst_46 (constant S_ .f32 0x00000000#32),
    StableHlo.binary main_v389 main_cst_46 main_v390 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_47 (constant S_ .f32 0x469C4000#32),
    StableHlo.unary main_cst_47 main_v391 (broadcastInDim S128 ![] bcast_S_S128 : (⟨S_, .f32⟩ : BufTy).Contents (Elt F) → (⟨S128, .f32⟩ : BufTy).Contents (Elt F)),
    StableHlo.binary main_v390 main_v391 main_v392 (Host.divf : (⟨S128, .f32⟩ : BufTy).Contents (Elt F) → (⟨S128, .f32⟩ : BufTy).Contents (Elt F) → (⟨S128, .f32⟩ : BufTy).Contents (Elt F)),
    StableHlo.nullary main_c_48 (constantI S_ 32 0#32),
    StableHlo.TRef.nullary (.of main_call15_cst : StableHlo.TRef sig ⟨S_, .f32⟩) (constant S_ .f32 0x00000000#32),
    StableHlo.TRef.binary (.of main_v389 : StableHlo.TRef sig ⟨S20000x128, .f32⟩) (.of main_call15_cst : StableHlo.TRef sig ⟨S_, .f32⟩) (.of main_call15_v0 : StableHlo.TRef sig ⟨S128, .f32⟩) (fun x v => Host.reduceAdd x v reducesTo_S20000x128_S128_d0 h_S_),
    StableHlo.TRef.unary (.of main_call15_v0 : StableHlo.TRef sig ⟨S128, .f32⟩) (.of main_call15_v1 : StableHlo.TRef sig ⟨S1x128, .f32⟩) (broadcastInDim S1x128 ![1] bcast_S128_S1x128_1),
    StableHlo.TRef.nullary (.of main_call15_cst_0 : StableHlo.TRef sig ⟨S_, .f32⟩) (constant S_ .f32 0x469C4000#32),
    StableHlo.TRef.unary (.of main_call15_cst_0 : StableHlo.TRef sig ⟨S_, .f32⟩) (.of main_call15_v2 : StableHlo.TRef sig ⟨S1x128, .f32⟩) (broadcastInDim S1x128 ![] bcast_S_S1x128),
    StableHlo.TRef.binary (.of main_call15_v1 : StableHlo.TRef sig ⟨S1x128, .f32⟩) (.of main_call15_v2 : StableHlo.TRef sig ⟨S1x128, .f32⟩) (.of main_call15_v3 : StableHlo.TRef sig ⟨S1x128, .f32⟩) Host.divf,
    StableHlo.TRef.unary (.of main_call15_v3 : StableHlo.TRef sig ⟨S1x128, .f32⟩) (.of main_call15_v4 : StableHlo.TRef sig ⟨S20000x128, .f32⟩) (broadcastInDim S20000x128 ![0, 1] bcast_S1x128_S20000x128_0_1),
    StableHlo.TRef.binary (.of main_v389 : StableHlo.TRef sig ⟨S20000x128, .f32⟩) (.of main_call15_v4 : StableHlo.TRef sig ⟨S20000x128, .f32⟩) (.of main_call15_v5 : StableHlo.TRef sig ⟨S20000x128, .f32⟩) subf,
    StableHlo.TRef.binary (.of main_call15_v5 : StableHlo.TRef sig ⟨S20000x128, .f32⟩) (.of main_call15_v5 : StableHlo.TRef sig ⟨S20000x128, .f32⟩) (.of main_call15_v6 : StableHlo.TRef sig ⟨S20000x128, .f32⟩) mulf,
    StableHlo.TRef.unary (.of main_c_48 : StableHlo.TRef sig ⟨S_, .i32⟩) (.of main_call15_v7 : StableHlo.TRef sig ⟨S_, .f32⟩) (sitofp .f32),
    StableHlo.TRef.nullary (.of main_call15_cst_1 : StableHlo.TRef sig ⟨S_, .f32⟩) (constant S_ .f32 0x469C4000#32),
    StableHlo.TRef.binary (.of main_call15_cst_1 : StableHlo.TRef sig ⟨S_, .f32⟩) (.of main_call15_v7 : StableHlo.TRef sig ⟨S_, .f32⟩) (.of main_call15_v8 : StableHlo.TRef sig ⟨S_, .f32⟩) subf,
    StableHlo.TRef.nullary (.of main_call15_cst_2 : StableHlo.TRef sig ⟨S_, .f32⟩) (constant S_ .f32 0x00000000#32),
    StableHlo.TRef.binary (.of main_call15_v6 : StableHlo.TRef sig ⟨S20000x128, .f32⟩) (.of main_call15_cst_2 : StableHlo.TRef sig ⟨S_, .f32⟩) (.of main_call15_v9 : StableHlo.TRef sig ⟨S128, .f32⟩) (fun x v => Host.reduceAdd x v reducesTo_S20000x128_S128_d0 h_S_),
    StableHlo.TRef.unary (.of main_call15_v8 : StableHlo.TRef sig ⟨S_, .f32⟩) (.of main_call15_v10 : StableHlo.TRef sig ⟨S128, .f32⟩) (broadcastInDim S128 ![] bcast_S_S128),
    StableHlo.TRef.binary (.of main_call15_v9 : StableHlo.TRef sig ⟨S128, .f32⟩) (.of main_call15_v10 : StableHlo.TRef sig ⟨S128, .f32⟩) (.of main_call15_v11 : StableHlo.TRef sig ⟨S128, .f32⟩) Host.divf,
    StableHlo.TRef.nullary (.of main_call15_cst_3 : StableHlo.TRef sig ⟨S_, .f32⟩) (constant S_ .f32 0x00000000#32),
    StableHlo.TRef.binary (.of main_call15_v8 : StableHlo.TRef sig ⟨S_, .f32⟩) (.of main_call15_cst_3 : StableHlo.TRef sig ⟨S_, .f32⟩) (.of main_call15_v12 : StableHlo.TRef sig ⟨S_, .i1⟩) (cmpf .ogt),
    StableHlo.TRef.nullary (.of main_call15_cst_4 : StableHlo.TRef sig ⟨S_, .f32⟩) (constant S_ .f32 0x7FC00000#32),
    StableHlo.TRef.unary (.of main_call15_cst_4 : StableHlo.TRef sig ⟨S_, .f32⟩) (.of main_call15_call0_v0 : StableHlo.TRef sig ⟨S_, .f32⟩) id,
    StableHlo.TRef.unary (.of main_call15_call0_v0 : StableHlo.TRef sig ⟨S_, .f32⟩) (.of main_call15_call0_v1 : StableHlo.TRef sig ⟨S128, .f32⟩) (broadcastInDim S128 ![] bcast_S_S128),
    StableHlo.TRef.ternary (.of main_call15_v12 : StableHlo.TRef sig ⟨S_, .i1⟩) (.of main_call15_v11 : StableHlo.TRef sig ⟨S128, .f32⟩) (.of main_call15_call0_v1 : StableHlo.TRef sig ⟨S128, .f32⟩) (.of main_v393 : StableHlo.TRef sig ⟨S128, .f32⟩) (fun p a b => select (broadcastInDim S128 ![] bcast_S_S128 p) a b),
    StableHlo.unary main_v392 main_v394 (broadcastInDim S1x128 ![1] bcast_S128_S1x128_1 : (⟨S128, .f32⟩ : BufTy).Contents (Elt F) → (⟨S1x128, .f32⟩ : BufTy).Contents (Elt F)),
    StableHlo.unary main_v394 main_v395 (broadcastInDim S20000x128 ![0, 1] bcast_S1x128_S20000x128_0_1 : (⟨S1x128, .f32⟩ : BufTy).Contents (Elt F) → (⟨S20000x128, .f32⟩ : BufTy).Contents (Elt F)),
    StableHlo.binary main_v389 main_v395 main_v396 (subf : (⟨S20000x128, .f32⟩ : BufTy).Contents (Elt F) → (⟨S20000x128, .f32⟩ : BufTy).Contents (Elt F) → (⟨S20000x128, .f32⟩ : BufTy).Contents (Elt F)),
    StableHlo.unary main_v379 main_v397 (broadcastInDim S1x128 ![1] bcast_S128_S1x128_1 : (⟨S128, .f32⟩ : BufTy).Contents (Elt F) → (⟨S1x128, .f32⟩ : BufTy).Contents (Elt F)),
    StableHlo.unary main_v397 main_v398 (broadcastInDim S20000x128 ![0, 1] bcast_S1x128_S20000x128_0_1 : (⟨S1x128, .f32⟩ : BufTy).Contents (Elt F) → (⟨S20000x128, .f32⟩ : BufTy).Contents (Elt F)),
    StableHlo.binary main_v398 main_v396 main_v399 (mulf : (⟨S20000x128, .f32⟩ : BufTy).Contents (Elt F) → (⟨S20000x128, .f32⟩ : BufTy).Contents (Elt F) → (⟨S20000x128, .f32⟩ : BufTy).Contents (Elt F)),
    StableHlo.nullary main_cst_49 (constant S_ .f32 0x3727C5AC#32),
    StableHlo.unary main_cst_49 main_v400 (broadcastInDim S128 ![] bcast_S_S128 : (⟨S_, .f32⟩ : BufTy).Contents (Elt F) → (⟨S128, .f32⟩ : BufTy).Contents (Elt F)),
    StableHlo.binary main_v393 main_v400 main_v401 (addf : (⟨S128, .f32⟩ : BufTy).Contents (Elt F) → (⟨S128, .f32⟩ : BufTy).Contents (Elt F) → (⟨S128, .f32⟩ : BufTy).Contents (Elt F)),
    StableHlo.unary main_v401 main_v402 (Host.rsqrt : (⟨S128, .f32⟩ : BufTy).Contents (Elt F) → (⟨S128, .f32⟩ : BufTy).Contents (Elt F)),
    StableHlo.unary main_v402 main_v403 (broadcastInDim S1x128 ![1] bcast_S128_S1x128_1 : (⟨S128, .f32⟩ : BufTy).Contents (Elt F) → (⟨S1x128, .f32⟩ : BufTy).Contents (Elt F)),
    StableHlo.unary main_v403 main_v404 (broadcastInDim S20000x128 ![0, 1] bcast_S1x128_S20000x128_0_1 : (⟨S1x128, .f32⟩ : BufTy).Contents (Elt F) → (⟨S20000x128, .f32⟩ : BufTy).Contents (Elt F)),
    StableHlo.binary main_v399 main_v404 main_v405 (mulf : (⟨S20000x128, .f32⟩ : BufTy).Contents (Elt F) → (⟨S20000x128, .f32⟩ : BufTy).Contents (Elt F) → (⟨S20000x128, .f32⟩ : BufTy).Contents (Elt F)),
    StableHlo.unary main_v381 main_v406 (broadcastInDim S1x128 ![1] bcast_S128_S1x128_1 : (⟨S128, .f32⟩ : BufTy).Contents (Elt F) → (⟨S1x128, .f32⟩ : BufTy).Contents (Elt F)),
    StableHlo.unary main_v406 main_v407 (broadcastInDim S20000x128 ![0, 1] bcast_S1x128_S20000x128_0_1 : (⟨S1x128, .f32⟩ : BufTy).Contents (Elt F) → (⟨S20000x128, .f32⟩ : BufTy).Contents (Elt F)),
    StableHlo.binary main_v405 main_v407 main_v408 (addf : (⟨S20000x128, .f32⟩ : BufTy).Contents (Elt F) → (⟨S20000x128, .f32⟩ : BufTy).Contents (Elt F) → (⟨S20000x128, .f32⟩ : BufTy).Contents (Elt F)),
    StableHlo.TRef.nullary (.of main_call16_cst : StableHlo.TRef sig ⟨S_, .f32⟩) (constant S_ .f32 0x00000000#32),
    StableHlo.TRef.unary (.of main_call16_cst : StableHlo.TRef sig ⟨S_, .f32⟩) (.of main_call16_v0 : StableHlo.TRef sig ⟨S20000x128, .f32⟩) (broadcastInDim S20000x128 ![] bcast_S_S20000x128),
    StableHlo.TRef.binary (.of main_v408 : StableHlo.TRef sig ⟨S20000x128, .f32⟩) (.of main_call16_v0 : StableHlo.TRef sig ⟨S20000x128, .f32⟩) (.of main_v409 : StableHlo.TRef sig ⟨S20000x128, .f32⟩) maximumf,
    StableHlo.binary main_v409 main_v383 main_v410 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_v385 main_v411 (broadcastInDim S1x128 ![1] bcast_S128_S1x128_1 : (⟨S128, .f32⟩ : BufTy).Contents (Elt F) → (⟨S1x128, .f32⟩ : BufTy).Contents (Elt F)),
    StableHlo.unary main_v411 main_v412 (broadcastInDim S20000x128 ![0, 1] bcast_S1x128_S20000x128_0_1 : (⟨S1x128, .f32⟩ : BufTy).Contents (Elt F) → (⟨S20000x128, .f32⟩ : BufTy).Contents (Elt F)),
    StableHlo.binary main_v410 main_v412 main_v413 (addf : (⟨S20000x128, .f32⟩ : BufTy).Contents (Elt F) → (⟨S20000x128, .f32⟩ : BufTy).Contents (Elt F) → (⟨S20000x128, .f32⟩ : BufTy).Contents (Elt F)),
    StableHlo.unary main_v225 main_v414 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v414 main_v415 rfl shapeCasts_S1x128x128_S128x128,
    StableHlo.unary main_v227 main_v416 ((extractStridedSlice S1x128 ![3, 0] · slices_S4x128_S1x128_3_0) : (⟨S4x128, .f32⟩ : BufTy).Contents (Elt F) → (⟨S1x128, .f32⟩ : BufTy).Contents (Elt F)),
    StableHlo.reshape main_v416 main_v417 rfl shapeCasts_S1x128_S128,
    StableHlo.unary main_v229 main_v418 ((extractStridedSlice S1x128 ![3, 0] · slices_S4x128_S1x128_3_0) : (⟨S4x128, .f32⟩ : BufTy).Contents (Elt F) → (⟨S1x128, .f32⟩ : BufTy).Contents (Elt F)),
    StableHlo.reshape main_v418 main_v419 rfl shapeCasts_S1x128_S128,
    StableHlo.unary main_v231 main_v420 ((extractStridedSlice S1x128 ![3, 0] · slices_S4x128_S1x128_3_0) : (⟨S4x128, .f32⟩ : BufTy).Contents (Elt F) → (⟨S1x128, .f32⟩ : BufTy).Contents (Elt F)),
    StableHlo.reshape main_v420 main_v421 rfl shapeCasts_S1x128_S128,
    StableHlo.unary main_v233 main_v422 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v422 main_v423 rfl shapeCasts_S1x128x128_S128x128,
    StableHlo.unary main_v235 main_v424 ((extractStridedSlice S1x128 ![3, 0] · slices_S4x128_S1x128_3_0) : (⟨S4x128, .f32⟩ : BufTy).Contents (Elt F) → (⟨S1x128, .f32⟩ : BufTy).Contents (Elt F)),
    StableHlo.reshape main_v424 main_v425 rfl shapeCasts_S1x128_S128,
    StableHlo.binary main_v291 main_v415 main_v426 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_v417 main_v427 (broadcastInDim S1x128 ![1] bcast_S128_S1x128_1 : (⟨S128, .f32⟩ : BufTy).Contents (Elt F) → (⟨S1x128, .f32⟩ : BufTy).Contents (Elt F)) ]

/-- Every operation of the window touches TensorCore buffers only. -/
theorem ops7_sub : (ops7 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub ..⟩

/-- No operation of the window allocates a buffer. -/
theorem ops7_fresh : (ops7 : List (HloOp τ sig (Elt F))).Forall fun op => op.fresh = ∅ := by
  simp only [List.Forall]; repeat' constructor

/-- The window's text is the run of its operations in order: both are one chain of host steps, the outlined functions
    unfolded at their calls. -/
theorem part7_eq (c : Dev nD) : main_part7 (F := F) c = StableHlo.seq ops7 := by
  chain_rfl

end Cert.ReferenceIdeal.Ops

end
-- ==== Proof.RefOps8.lean ====
import proofs.«116822_j38594576122568_1_alg».proof.ReferenceIdeal
import Idealize.ShloMosaic.Lib.StableHlo.Run
import Idealize.ShloMosaic.Lib.Pipeline.Regions

/-! Window 8 of the reference's @main as the list of its host operations, each outlined function's body written out at its
    call over the call's own buffers, and the window's text is the run of that list. -/

noncomputable section

namespace Cert.ReferenceIdeal.Ops

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

/-- The 89 host operations of window 8, in order. -/
abbrev ops8 : List (HloOp τ sig (Elt F)) :=
  [ StableHlo.unary main_v427 main_v428 (broadcastInDim S20000x128 ![0, 1] bcast_S1x128_S20000x128_0_1 : (⟨S1x128, .f32⟩ : BufTy).Contents (Elt F) → (⟨S20000x128, .f32⟩ : BufTy).Contents (Elt F)),
    StableHlo.binary main_v426 main_v428 main_v429 (addf : (⟨S20000x128, .f32⟩ : BufTy).Contents (Elt F) → (⟨S20000x128, .f32⟩ : BufTy).Contents (Elt F) → (⟨S20000x128, .f32⟩ : BufTy).Contents (Elt F)),
    StableHlo.nullary main_cst_50 (constant S_ .f32 0x00000000#32),
    StableHlo.binary main_v429 main_cst_50 main_v430 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_51 (constant S_ .f32 0x469C4000#32),
    StableHlo.unary main_cst_51 main_v431 (broadcastInDim S128 ![] bcast_S_S128 : (⟨S_, .f32⟩ : BufTy).Contents (Elt F) → (⟨S128, .f32⟩ : BufTy).Contents (Elt F)),
    StableHlo.binary main_v430 main_v431 main_v432 (Host.divf : (⟨S128, .f32⟩ : BufTy).Contents (Elt F) → (⟨S128, .f32⟩ : BufTy).Contents (Elt F) → (⟨S128, .f32⟩ : BufTy).Contents (Elt F)),
    StableHlo.nullary main_c_52 (constantI S_ 32 0#32),
    StableHlo.TRef.nullary (.of main_call17_cst : StableHlo.TRef sig ⟨S_, .f32⟩) (constant S_ .f32 0x00000000#32),
    StableHlo.TRef.binary (.of main_v429 : StableHlo.TRef sig ⟨S20000x128, .f32⟩) (.of main_call17_cst : StableHlo.TRef sig ⟨S_, .f32⟩) (.of main_call17_v0 : StableHlo.TRef sig ⟨S128, .f32⟩) (fun x v => Host.reduceAdd x v reducesTo_S20000x128_S128_d0 h_S_),
    StableHlo.TRef.unary (.of main_call17_v0 : StableHlo.TRef sig ⟨S128, .f32⟩) (.of main_call17_v1 : StableHlo.TRef sig ⟨S1x128, .f32⟩) (broadcastInDim S1x128 ![1] bcast_S128_S1x128_1),
    StableHlo.TRef.nullary (.of main_call17_cst_0 : StableHlo.TRef sig ⟨S_, .f32⟩) (constant S_ .f32 0x469C4000#32),
    StableHlo.TRef.unary (.of main_call17_cst_0 : StableHlo.TRef sig ⟨S_, .f32⟩) (.of main_call17_v2 : StableHlo.TRef sig ⟨S1x128, .f32⟩) (broadcastInDim S1x128 ![] bcast_S_S1x128),
    StableHlo.TRef.binary (.of main_call17_v1 : StableHlo.TRef sig ⟨S1x128, .f32⟩) (.of main_call17_v2 : StableHlo.TRef sig ⟨S1x128, .f32⟩) (.of main_call17_v3 : StableHlo.TRef sig ⟨S1x128, .f32⟩) Host.divf,
    StableHlo.TRef.unary (.of main_call17_v3 : StableHlo.TRef sig ⟨S1x128, .f32⟩) (.of main_call17_v4 : StableHlo.TRef sig ⟨S20000x128, .f32⟩) (broadcastInDim S20000x128 ![0, 1] bcast_S1x128_S20000x128_0_1),
    StableHlo.TRef.binary (.of main_v429 : StableHlo.TRef sig ⟨S20000x128, .f32⟩) (.of main_call17_v4 : StableHlo.TRef sig ⟨S20000x128, .f32⟩) (.of main_call17_v5 : StableHlo.TRef sig ⟨S20000x128, .f32⟩) subf,
    StableHlo.TRef.binary (.of main_call17_v5 : StableHlo.TRef sig ⟨S20000x128, .f32⟩) (.of main_call17_v5 : StableHlo.TRef sig ⟨S20000x128, .f32⟩) (.of main_call17_v6 : StableHlo.TRef sig ⟨S20000x128, .f32⟩) mulf,
    StableHlo.TRef.unary (.of main_c_52 : StableHlo.TRef sig ⟨S_, .i32⟩) (.of main_call17_v7 : StableHlo.TRef sig ⟨S_, .f32⟩) (sitofp .f32),
    StableHlo.TRef.nullary (.of main_call17_cst_1 : StableHlo.TRef sig ⟨S_, .f32⟩) (constant S_ .f32 0x469C4000#32),
    StableHlo.TRef.binary (.of main_call17_cst_1 : StableHlo.TRef sig ⟨S_, .f32⟩) (.of main_call17_v7 : StableHlo.TRef sig ⟨S_, .f32⟩) (.of main_call17_v8 : StableHlo.TRef sig ⟨S_, .f32⟩) subf,
    StableHlo.TRef.nullary (.of main_call17_cst_2 : StableHlo.TRef sig ⟨S_, .f32⟩) (constant S_ .f32 0x00000000#32),
    StableHlo.TRef.binary (.of main_call17_v6 : StableHlo.TRef sig ⟨S20000x128, .f32⟩) (.of main_call17_cst_2 : StableHlo.TRef sig ⟨S_, .f32⟩) (.of main_call17_v9 : StableHlo.TRef sig ⟨S128, .f32⟩) (fun x v => Host.reduceAdd x v reducesTo_S20000x128_S128_d0 h_S_),
    StableHlo.TRef.unary (.of main_call17_v8 : StableHlo.TRef sig ⟨S_, .f32⟩) (.of main_call17_v10 : StableHlo.TRef sig ⟨S128, .f32⟩) (broadcastInDim S128 ![] bcast_S_S128),
    StableHlo.TRef.binary (.of main_call17_v9 : StableHlo.TRef sig ⟨S128, .f32⟩) (.of main_call17_v10 : StableHlo.TRef sig ⟨S128, .f32⟩) (.of main_call17_v11 : StableHlo.TRef sig ⟨S128, .f32⟩) Host.divf,
    StableHlo.TRef.nullary (.of main_call17_cst_3 : StableHlo.TRef sig ⟨S_, .f32⟩) (constant S_ .f32 0x00000000#32),
    StableHlo.TRef.binary (.of main_call17_v8 : StableHlo.TRef sig ⟨S_, .f32⟩) (.of main_call17_cst_3 : StableHlo.TRef sig ⟨S_, .f32⟩) (.of main_call17_v12 : StableHlo.TRef sig ⟨S_, .i1⟩) (cmpf .ogt),
    StableHlo.TRef.nullary (.of main_call17_cst_4 : StableHlo.TRef sig ⟨S_, .f32⟩) (constant S_ .f32 0x7FC00000#32),
    StableHlo.TRef.unary (.of main_call17_cst_4 : StableHlo.TRef sig ⟨S_, .f32⟩) (.of main_call17_call0_v0 : StableHlo.TRef sig ⟨S_, .f32⟩) id,
    StableHlo.TRef.unary (.of main_call17_call0_v0 : StableHlo.TRef sig ⟨S_, .f32⟩) (.of main_call17_call0_v1 : StableHlo.TRef sig ⟨S128, .f32⟩) (broadcastInDim S128 ![] bcast_S_S128),
    StableHlo.TRef.ternary (.of main_call17_v12 : StableHlo.TRef sig ⟨S_, .i1⟩) (.of main_call17_v11 : StableHlo.TRef sig ⟨S128, .f32⟩) (.of main_call17_call0_v1 : StableHlo.TRef sig ⟨S128, .f32⟩) (.of main_v433 : StableHlo.TRef sig ⟨S128, .f32⟩) (fun p a b => select (broadcastInDim S128 ![] bcast_S_S128 p) a b),
    StableHlo.unary main_v432 main_v434 (broadcastInDim S1x128 ![1] bcast_S128_S1x128_1 : (⟨S128, .f32⟩ : BufTy).Contents (Elt F) → (⟨S1x128, .f32⟩ : BufTy).Contents (Elt F)),
    StableHlo.unary main_v434 main_v435 (broadcastInDim S20000x128 ![0, 1] bcast_S1x128_S20000x128_0_1 : (⟨S1x128, .f32⟩ : BufTy).Contents (Elt F) → (⟨S20000x128, .f32⟩ : BufTy).Contents (Elt F)),
    StableHlo.binary main_v429 main_v435 main_v436 (subf : (⟨S20000x128, .f32⟩ : BufTy).Contents (Elt F) → (⟨S20000x128, .f32⟩ : BufTy).Contents (Elt F) → (⟨S20000x128, .f32⟩ : BufTy).Contents (Elt F)),
    StableHlo.unary main_v419 main_v437 (broadcastInDim S1x128 ![1] bcast_S128_S1x128_1 : (⟨S128, .f32⟩ : BufTy).Contents (Elt F) → (⟨S1x128, .f32⟩ : BufTy).Contents (Elt F)),
    StableHlo.unary main_v437 main_v438 (broadcastInDim S20000x128 ![0, 1] bcast_S1x128_S20000x128_0_1 : (⟨S1x128, .f32⟩ : BufTy).Contents (Elt F) → (⟨S20000x128, .f32⟩ : BufTy).Contents (Elt F)),
    StableHlo.binary main_v438 main_v436 main_v439 (mulf : (⟨S20000x128, .f32⟩ : BufTy).Contents (Elt F) → (⟨S20000x128, .f32⟩ : BufTy).Contents (Elt F) → (⟨S20000x128, .f32⟩ : BufTy).Contents (Elt F)),
    StableHlo.nullary main_cst_53 (constant S_ .f32 0x3727C5AC#32),
    StableHlo.unary main_cst_53 main_v440 (broadcastInDim S128 ![] bcast_S_S128 : (⟨S_, .f32⟩ : BufTy).Contents (Elt F) → (⟨S128, .f32⟩ : BufTy).Contents (Elt F)),
    StableHlo.binary main_v433 main_v440 main_v441 (addf : (⟨S128, .f32⟩ : BufTy).Contents (Elt F) → (⟨S128, .f32⟩ : BufTy).Contents (Elt F) → (⟨S128, .f32⟩ : BufTy).Contents (Elt F)),
    StableHlo.unary main_v441 main_v442 (Host.rsqrt : (⟨S128, .f32⟩ : BufTy).Contents (Elt F) → (⟨S128, .f32⟩ : BufTy).Contents (Elt F)),
    StableHlo.unary main_v442 main_v443 (broadcastInDim S1x128 ![1] bcast_S128_S1x128_1 : (⟨S128, .f32⟩ : BufTy).Contents (Elt F) → (⟨S1x128, .f32⟩ : BufTy).Contents (Elt F)),
    StableHlo.unary main_v443 main_v444 (broadcastInDim S20000x128 ![0, 1] bcast_S1x128_S20000x128_0_1 : (⟨S1x128, .f32⟩ : BufTy).Contents (Elt F) → (⟨S20000x128, .f32⟩ : BufTy).Contents (Elt F)),
    StableHlo.binary main_v439 main_v444 main_v445 (mulf : (⟨S20000x128, .f32⟩ : BufTy).Contents (Elt F) → (⟨S20000x128, .f32⟩ : BufTy).Contents (Elt F) → (⟨S20000x128, .f32⟩ : BufTy).Contents (Elt F)),
    StableHlo.unary main_v421 main_v446 (broadcastInDim S1x128 ![1] bcast_S128_S1x128_1 : (⟨S128, .f32⟩ : BufTy).Contents (Elt F) → (⟨S1x128, .f32⟩ : BufTy).Contents (Elt F)),
    StableHlo.unary main_v446 main_v447 (broadcastInDim S20000x128 ![0, 1] bcast_S1x128_S20000x128_0_1 : (⟨S1x128, .f32⟩ : BufTy).Contents (Elt F) → (⟨S20000x128, .f32⟩ : BufTy).Contents (Elt F)),
    StableHlo.binary main_v445 main_v447 main_v448 (addf : (⟨S20000x128, .f32⟩ : BufTy).Contents (Elt F) → (⟨S20000x128, .f32⟩ : BufTy).Contents (Elt F) → (⟨S20000x128, .f32⟩ : BufTy).Contents (Elt F)),
    StableHlo.TRef.nullary (.of main_call18_cst : StableHlo.TRef sig ⟨S_, .f32⟩) (constant S_ .f32 0x00000000#32),
    StableHlo.TRef.unary (.of main_call18_cst : StableHlo.TRef sig ⟨S_, .f32⟩) (.of main_call18_v0 : StableHlo.TRef sig ⟨S20000x128, .f32⟩) (broadcastInDim S20000x128 ![] bcast_S_S20000x128),
    StableHlo.TRef.binary (.of main_v448 : StableHlo.TRef sig ⟨S20000x128, .f32⟩) (.of main_call18_v0 : StableHlo.TRef sig ⟨S20000x128, .f32⟩) (.of main_v449 : StableHlo.TRef sig ⟨S20000x128, .f32⟩) maximumf,
    StableHlo.binary main_v449 main_v423 main_v450 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_v425 main_v451 (broadcastInDim S1x128 ![1] bcast_S128_S1x128_1 : (⟨S128, .f32⟩ : BufTy).Contents (Elt F) → (⟨S1x128, .f32⟩ : BufTy).Contents (Elt F)),
    StableHlo.unary main_v451 main_v452 (broadcastInDim S20000x128 ![0, 1] bcast_S1x128_S20000x128_0_1 : (⟨S1x128, .f32⟩ : BufTy).Contents (Elt F) → (⟨S20000x128, .f32⟩ : BufTy).Contents (Elt F)),
    StableHlo.binary main_v450 main_v452 main_v453 (addf : (⟨S20000x128, .f32⟩ : BufTy).Contents (Elt F) → (⟨S20000x128, .f32⟩ : BufTy).Contents (Elt F) → (⟨S20000x128, .f32⟩ : BufTy).Contents (Elt F)),
    StableHlo.binary main_v413 main_v453 main_v454 (addf : (⟨S20000x128, .f32⟩ : BufTy).Contents (Elt F) → (⟨S20000x128, .f32⟩ : BufTy).Contents (Elt F) → (⟨S20000x128, .f32⟩ : BufTy).Contents (Elt F)),
    StableHlo.TRef.nullary (.of main_call19_cst : StableHlo.TRef sig ⟨S_, .f32⟩) (constant S_ .f32 0x00000000#32),
    StableHlo.TRef.unary (.of main_call19_cst : StableHlo.TRef sig ⟨S_, .f32⟩) (.of main_call19_v0 : StableHlo.TRef sig ⟨S20000x128, .f32⟩) (broadcastInDim S20000x128 ![] bcast_S_S20000x128),
    StableHlo.TRef.binary (.of main_v454 : StableHlo.TRef sig ⟨S20000x128, .f32⟩) (.of main_call19_v0 : StableHlo.TRef sig ⟨S20000x128, .f32⟩) (.of main_call19_v1 : StableHlo.TRef sig ⟨S20000x128, .i1⟩) (cmpf .oge),
    StableHlo.TRef.nullary (.of main_call19_cst_0 : StableHlo.TRef sig ⟨S_, .f32⟩) (constant S_ .f32 0x3C23D70A#32),
    StableHlo.TRef.unary (.of main_call19_cst_0 : StableHlo.TRef sig ⟨S_, .f32⟩) (.of main_call19_v2 : StableHlo.TRef sig ⟨S20000x128, .f32⟩) (broadcastInDim S20000x128 ![] bcast_S_S20000x128),
    StableHlo.TRef.binary (.of main_call19_v2 : StableHlo.TRef sig ⟨S20000x128, .f32⟩) (.of main_v454 : StableHlo.TRef sig ⟨S20000x128, .f32⟩) (.of main_call19_v3 : StableHlo.TRef sig ⟨S20000x128, .f32⟩) mulf,
    StableHlo.TRef.ternary (.of main_call19_v1 : StableHlo.TRef sig ⟨S20000x128, .i1⟩) (.of main_v454 : StableHlo.TRef sig ⟨S20000x128, .f32⟩) (.of main_call19_v3 : StableHlo.TRef sig ⟨S20000x128, .f32⟩) (.of main_v455 : StableHlo.TRef sig ⟨S20000x128, .f32⟩) select,
    StableHlo.unary main_arg10 main_v456 ((extractStridedSlice S1x4x128x128 ![1, 0, 0, 0] · slices_S2x4x128x128_S1x4x128x128_1_0_0_0) : (⟨S2x4x128x128, .f32⟩ : BufTy).Contents (Elt F) → (⟨S1x4x128x128, .f32⟩ : BufTy).Contents (Elt F)),
    StableHlo.reshape main_v456 main_v457 rfl shapeCasts_S1x4x128x128_S4x128x128,
    StableHlo.unary main_arg11 main_v458 ((extractStridedSlice S1x4x128 ![1, 0, 0] · slices_S2x4x128_S1x4x128_1_0_0) : (⟨S2x4x128, .f32⟩ : BufTy).Contents (Elt F) → (⟨S1x4x128, .f32⟩ : BufTy).Contents (Elt F)),
    StableHlo.reshape main_v458 main_v459 rfl shapeCasts_S1x4x128_S4x128,
    StableHlo.unary main_arg12 main_v460 ((extractStridedSlice S1x4x128 ![1, 0, 0] · slices_S2x4x128_S1x4x128_1_0_0) : (⟨S2x4x128, .f32⟩ : BufTy).Contents (Elt F) → (⟨S1x4x128, .f32⟩ : BufTy).Contents (Elt F)),
    StableHlo.reshape main_v460 main_v461 rfl shapeCasts_S1x4x128_S4x128,
    StableHlo.unary main_arg13 main_v462 ((extractStridedSlice S1x4x128 ![1, 0, 0] · slices_S2x4x128_S1x4x128_1_0_0) : (⟨S2x4x128, .f32⟩ : BufTy).Contents (Elt F) → (⟨S1x4x128, .f32⟩ : BufTy).Contents (Elt F)),
    StableHlo.reshape main_v462 main_v463 rfl shapeCasts_S1x4x128_S4x128,
    StableHlo.unary main_arg14 main_v464 ((extractStridedSlice S1x4x128x128 ![1, 0, 0, 0] · slices_S2x4x128x128_S1x4x128x128_1_0_0_0) : (⟨S2x4x128x128, .f32⟩ : BufTy).Contents (Elt F) → (⟨S1x4x128x128, .f32⟩ : BufTy).Contents (Elt F)),
    StableHlo.reshape main_v464 main_v465 rfl shapeCasts_S1x4x128x128_S4x128x128,
    StableHlo.unary main_arg15 main_v466 ((extractStridedSlice S1x4x128 ![1, 0, 0] · slices_S2x4x128_S1x4x128_1_0_0) : (⟨S2x4x128, .f32⟩ : BufTy).Contents (Elt F) → (⟨S1x4x128, .f32⟩ : BufTy).Contents (Elt F)),
    StableHlo.reshape main_v466 main_v467 rfl shapeCasts_S1x4x128_S4x128,
    StableHlo.unary main_arg20 main_v468 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v468 main_v469 rfl shapeCasts_S1x1000000_S1000000,
    StableHlo.nullary main_c_54 (constantI S_ 32 0#32),
    StableHlo.unary main_c_54 main_v470 (broadcastInDim S1000000 ![] bcast_S_S1000000 : (⟨S_, .i32⟩ : BufTy).Contents (Elt F) → (⟨S1000000, .i32⟩ : BufTy).Contents (Elt F)),
    StableHlo.binary main_v469 main_v470 main_v471 (cmpi .slt : (⟨S1000000, .i32⟩ : BufTy).Contents (Elt F) → (⟨S1000000, .i32⟩ : BufTy).Contents (Elt F) → (⟨S1000000, .i1⟩ : BufTy).Contents (Elt F)),
    StableHlo.nullary main_c_55 (constantI S_ 32 80000#32),
    StableHlo.unary main_c_55 main_v472 (broadcastInDim S1000000 ![] bcast_S_S1000000 : (⟨S_, .i32⟩ : BufTy).Contents (Elt F) → (⟨S1000000, .i32⟩ : BufTy).Contents (Elt F)),
    StableHlo.binary main_v469 main_v472 main_v473 (addi : (⟨S1000000, .i32⟩ : BufTy).Contents (Elt F) → (⟨S1000000, .i32⟩ : BufTy).Contents (Elt F) → (⟨S1000000, .i32⟩ : BufTy).Contents (Elt F)),
    StableHlo.ternary main_v471 main_v473 main_v469 main_v474 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v474 main_v475 (broadcastInDim S1000000x1 ![0] bcast_S1000000_S1000000x1_0 : (⟨S1000000, .i32⟩ : BufTy).Contents (Elt F) → (⟨S1000000x1, .i32⟩ : BufTy).Contents (Elt F)),
    StableHlo.binary main_v373 main_v475 main_v476 ((fun x i => Host.gather gather_S80000x128_S1000000x1_S1000000x128_1_0_n_n_0_1_1128 x i) : (⟨S80000x128, .f32⟩ : BufTy).Contents (Elt F) → (⟨S1000000x1, .i32⟩ : BufTy).Contents (Elt F) → (⟨S1000000x128, .f32⟩ : BufTy).Contents (Elt F)),
    StableHlo.unary main_arg20 main_v477 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v477 main_v478 rfl shapeCasts_S1x1000000_S1000000,
    StableHlo.nullary main_cst_56 (constant S_ .f32 0x00000000#32),
    StableHlo.unary main_cst_56 main_v479 (broadcastInDim S80000x128 ![] bcast_S_S80000x128 : (⟨S_, .f32⟩ : BufTy).Contents (Elt F) → (⟨S80000x128, .f32⟩ : BufTy).Contents (Elt F)),
    StableHlo.unary main_v478 main_v480 (broadcastInDim S1000000x1 ![0] bcast_S1000000_S1000000x1_0 : (⟨S1000000, .i32⟩ : BufTy).Contents (Elt F) → (⟨S1000000x1, .i32⟩ : BufTy).Contents (Elt F)) ]

/-- Every operation of the window touches TensorCore buffers only. -/
theorem ops8_sub : (ops8 : List (HloOp τ sig (Elt F))).Forall fun op => op.bufs ⊆ StableHlo.tcRefs τ sig :=
  ⟨StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub ..⟩

/-- No operation of the window allocates a buffer. -/
theorem ops8_fresh : (ops8 : List (HloOp τ sig (Elt F))).Forall fun op => op.fresh = ∅ := by
  simp only [List.Forall]; repeat' constructor

/-- The window's text is the run of its operations in order: both are one chain of host steps, the outlined functions
    unfolded at their calls. -/
theorem part8_eq (c : Dev nD) : main_part8 (F := F) c = StableHlo.seq ops8 := by
  chain_rfl

end Cert.ReferenceIdeal.Ops

end
-- ==== Proof.RefOps9.lean ====
import proofs.«116822_j38594576122568_1_alg».proof.ReferenceIdeal
import Idealize.ShloMosaic.Lib.StableHlo.Run
import Idealize.ShloMosaic.Lib.Pipeline.Regions

/-! Window 9 of the reference's @main as the list of its host operations, each outlined function's body written out at its
    call over the call's own buffers, and the window's text is the run of that list. -/

noncomputable section

namespace Cert.ReferenceIdeal.Ops

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

/-- The 60 host operations of window 9, in order. -/
abbrev ops9 : List (HloOp τ sig (Elt F)) :=
  [ StableHlo.ternary main_v479 main_v480 main_v476 main_v481 ((fun x i u => Host.scatterAdd scatter_S80000x128_S1000000x1_S1000000x128_1_0_0_1 x i u) : (⟨S80000x128, .f32⟩ : BufTy).Contents (Elt F) → (⟨S1000000x1, .i32⟩ : BufTy).Contents (Elt F) → (⟨S1000000x128, .f32⟩ : BufTy).Contents (Elt F) → (⟨S80000x128, .f32⟩ : BufTy).Contents (Elt F)),
    StableHlo.unary main_arg22 main_v482 ((extractStridedSlice S1x300000 ![0, 0] · slices_S2x300000_S1x300000_0_0) : (⟨S2x300000, .i32⟩ : BufTy).Contents (Elt F) → (⟨S1x300000, .i32⟩ : BufTy).Contents (Elt F)),
    StableHlo.reshape main_v482 main_v483 rfl shapeCasts_S1x300000_S300000,
    StableHlo.nullary main_c_57 (constantI S_ 32 0#32),
    StableHlo.unary main_c_57 main_v484 (broadcastInDim S300000 ![] bcast_S_S300000 : (⟨S_, .i32⟩ : BufTy).Contents (Elt F) → (⟨S300000, .i32⟩ : BufTy).Contents (Elt F)),
    StableHlo.binary main_v483 main_v484 main_v485 (cmpi .slt : (⟨S300000, .i32⟩ : BufTy).Contents (Elt F) → (⟨S300000, .i32⟩ : BufTy).Contents (Elt F) → (⟨S300000, .i1⟩ : BufTy).Contents (Elt F)),
    StableHlo.nullary main_c_58 (constantI S_ 32 20000#32),
    StableHlo.unary main_c_58 main_v486 (broadcastInDim S300000 ![] bcast_S_S300000 : (⟨S_, .i32⟩ : BufTy).Contents (Elt F) → (⟨S300000, .i32⟩ : BufTy).Contents (Elt F)),
    StableHlo.binary main_v483 main_v486 main_v487 (addi : (⟨S300000, .i32⟩ : BufTy).Contents (Elt F) → (⟨S300000, .i32⟩ : BufTy).Contents (Elt F) → (⟨S300000, .i32⟩ : BufTy).Contents (Elt F)),
    StableHlo.ternary main_v485 main_v487 main_v483 main_v488 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v488 main_v489 (broadcastInDim S300000x1 ![0] bcast_S300000_S300000x1_0 : (⟨S300000, .i32⟩ : BufTy).Contents (Elt F) → (⟨S300000x1, .i32⟩ : BufTy).Contents (Elt F)),
    StableHlo.binary main_v455 main_v489 main_v490 ((fun x i => Host.gather gather_S20000x128_S300000x1_S300000x128_1_0_n_n_0_1_1128 x i) : (⟨S20000x128, .f32⟩ : BufTy).Contents (Elt F) → (⟨S300000x1, .i32⟩ : BufTy).Contents (Elt F) → (⟨S300000x128, .f32⟩ : BufTy).Contents (Elt F)),
    StableHlo.unary main_arg22 main_v491 ((extractStridedSlice S1x300000 ![1, 0] · slices_S2x300000_S1x300000_1_0) : (⟨S2x300000, .i32⟩ : BufTy).Contents (Elt F) → (⟨S1x300000, .i32⟩ : BufTy).Contents (Elt F)),
    StableHlo.reshape main_v491 main_v492 rfl shapeCasts_S1x300000_S300000,
    StableHlo.nullary main_cst_59 (constant S_ .f32 0x00000000#32),
    StableHlo.unary main_cst_59 main_v493 (broadcastInDim S80000x128 ![] bcast_S_S80000x128 : (⟨S_, .f32⟩ : BufTy).Contents (Elt F) → (⟨S80000x128, .f32⟩ : BufTy).Contents (Elt F)),
    StableHlo.unary main_v492 main_v494 (broadcastInDim S300000x1 ![0] bcast_S300000_S300000x1_0 : (⟨S300000, .i32⟩ : BufTy).Contents (Elt F) → (⟨S300000x1, .i32⟩ : BufTy).Contents (Elt F)),
    StableHlo.ternary main_v493 main_v494 main_v490 main_v495 ((fun x i u => Host.scatterAdd scatter_S80000x128_S300000x1_S300000x128_1_0_0_1 x i u) : (⟨S80000x128, .f32⟩ : BufTy).Contents (Elt F) → (⟨S300000x1, .i32⟩ : BufTy).Contents (Elt F) → (⟨S300000x128, .f32⟩ : BufTy).Contents (Elt F) → (⟨S80000x128, .f32⟩ : BufTy).Contents (Elt F)),
    StableHlo.unary main_arg21 main_v496 ((extractStridedSlice S1x300000 ![0, 0] · slices_S2x300000_S1x300000_0_0) : (⟨S2x300000, .i32⟩ : BufTy).Contents (Elt F) → (⟨S1x300000, .i32⟩ : BufTy).Contents (Elt F)),
    StableHlo.reshape main_v496 main_v497 rfl shapeCasts_S1x300000_S300000,
    StableHlo.nullary main_c_60 (constantI S_ 32 0#32),
    StableHlo.unary main_c_60 main_v498 (broadcastInDim S300000 ![] bcast_S_S300000 : (⟨S_, .i32⟩ : BufTy).Contents (Elt F) → (⟨S300000, .i32⟩ : BufTy).Contents (Elt F)),
    StableHlo.binary main_v497 main_v498 main_v499 (cmpi .slt : (⟨S300000, .i32⟩ : BufTy).Contents (Elt F) → (⟨S300000, .i32⟩ : BufTy).Contents (Elt F) → (⟨S300000, .i1⟩ : BufTy).Contents (Elt F)),
    StableHlo.nullary main_c_61 (constantI S_ 32 80000#32),
    StableHlo.unary main_c_61 main_v500 (broadcastInDim S300000 ![] bcast_S_S300000 : (⟨S_, .i32⟩ : BufTy).Contents (Elt F) → (⟨S300000, .i32⟩ : BufTy).Contents (Elt F)),
    StableHlo.binary main_v497 main_v500 main_v501 (addi : (⟨S300000, .i32⟩ : BufTy).Contents (Elt F) → (⟨S300000, .i32⟩ : BufTy).Contents (Elt F) → (⟨S300000, .i32⟩ : BufTy).Contents (Elt F)),
    StableHlo.ternary main_v499 main_v501 main_v497 main_v502 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v502 main_v503 (broadcastInDim S300000x1 ![0] bcast_S300000_S300000x1_0 : (⟨S300000, .i32⟩ : BufTy).Contents (Elt F) → (⟨S300000x1, .i32⟩ : BufTy).Contents (Elt F)),
    StableHlo.binary main_v373 main_v503 main_v504 ((fun x i => Host.gather gather_S80000x128_S300000x1_S300000x128_1_0_n_n_0_1_1128 x i) : (⟨S80000x128, .f32⟩ : BufTy).Contents (Elt F) → (⟨S300000x1, .i32⟩ : BufTy).Contents (Elt F) → (⟨S300000x128, .f32⟩ : BufTy).Contents (Elt F)),
    StableHlo.unary main_arg21 main_v505 ((extractStridedSlice S1x300000 ![1, 0] · slices_S2x300000_S1x300000_1_0) : (⟨S2x300000, .i32⟩ : BufTy).Contents (Elt F) → (⟨S1x300000, .i32⟩ : BufTy).Contents (Elt F)),
    StableHlo.reshape main_v505 main_v506 rfl shapeCasts_S1x300000_S300000,
    StableHlo.nullary main_cst_62 (constant S_ .f32 0x00000000#32),
    StableHlo.unary main_cst_62 main_v507 (broadcastInDim S20000x128 ![] bcast_S_S20000x128 : (⟨S_, .f32⟩ : BufTy).Contents (Elt F) → (⟨S20000x128, .f32⟩ : BufTy).Contents (Elt F)),
    StableHlo.unary main_v506 main_v508 (broadcastInDim S300000x1 ![0] bcast_S300000_S300000x1_0 : (⟨S300000, .i32⟩ : BufTy).Contents (Elt F) → (⟨S300000x1, .i32⟩ : BufTy).Contents (Elt F)),
    StableHlo.ternary main_v507 main_v508 main_v504 main_v509 ((fun x i u => Host.scatterAdd scatter_S20000x128_S300000x1_S300000x128_1_0_0_1 x i u) : (⟨S20000x128, .f32⟩ : BufTy).Contents (Elt F) → (⟨S300000x1, .i32⟩ : BufTy).Contents (Elt F) → (⟨S300000x128, .f32⟩ : BufTy).Contents (Elt F) → (⟨S20000x128, .f32⟩ : BufTy).Contents (Elt F)),
    StableHlo.unary main_arg23 main_v510 ((extractStridedSlice S1x100000 ![0, 0] · slices_S2x100000_S1x100000_0_0) : (⟨S2x100000, .i32⟩ : BufTy).Contents (Elt F) → (⟨S1x100000, .i32⟩ : BufTy).Contents (Elt F)),
    StableHlo.reshape main_v510 main_v511 rfl shapeCasts_S1x100000_S100000,
    StableHlo.nullary main_c_63 (constantI S_ 32 0#32),
    StableHlo.unary main_c_63 main_v512 (broadcastInDim S100000 ![] bcast_S_S100000 : (⟨S_, .i32⟩ : BufTy).Contents (Elt F) → (⟨S100000, .i32⟩ : BufTy).Contents (Elt F)),
    StableHlo.binary main_v511 main_v512 main_v513 (cmpi .slt : (⟨S100000, .i32⟩ : BufTy).Contents (Elt F) → (⟨S100000, .i32⟩ : BufTy).Contents (Elt F) → (⟨S100000, .i1⟩ : BufTy).Contents (Elt F)),
    StableHlo.nullary main_c_64 (constantI S_ 32 20000#32),
    StableHlo.unary main_c_64 main_v514 (broadcastInDim S100000 ![] bcast_S_S100000 : (⟨S_, .i32⟩ : BufTy).Contents (Elt F) → (⟨S100000, .i32⟩ : BufTy).Contents (Elt F)),
    StableHlo.binary main_v511 main_v514 main_v515 (addi : (⟨S100000, .i32⟩ : BufTy).Contents (Elt F) → (⟨S100000, .i32⟩ : BufTy).Contents (Elt F) → (⟨S100000, .i32⟩ : BufTy).Contents (Elt F)),
    StableHlo.ternary main_v513 main_v515 main_v511 main_v516 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v516 main_v517 (broadcastInDim S100000x1 ![0] bcast_S100000_S100000x1_0 : (⟨S100000, .i32⟩ : BufTy).Contents (Elt F) → (⟨S100000x1, .i32⟩ : BufTy).Contents (Elt F)),
    StableHlo.binary main_v455 main_v517 main_v518 ((fun x i => Host.gather gather_S20000x128_S100000x1_S100000x128_1_0_n_n_0_1_1128 x i) : (⟨S20000x128, .f32⟩ : BufTy).Contents (Elt F) → (⟨S100000x1, .i32⟩ : BufTy).Contents (Elt F) → (⟨S100000x128, .f32⟩ : BufTy).Contents (Elt F)),
    StableHlo.unary main_arg23 main_v519 ((extractStridedSlice S1x100000 ![1, 0] · slices_S2x100000_S1x100000_1_0) : (⟨S2x100000, .i32⟩ : BufTy).Contents (Elt F) → (⟨S1x100000, .i32⟩ : BufTy).Contents (Elt F)),
    StableHlo.reshape main_v519 main_v520 rfl shapeCasts_S1x100000_S100000,
    StableHlo.nullary main_cst_65 (constant S_ .f32 0x00000000#32),
    StableHlo.unary main_cst_65 main_v521 (broadcastInDim S20000x128 ![] bcast_S_S20000x128 : (⟨S_, .f32⟩ : BufTy).Contents (Elt F) → (⟨S20000x128, .f32⟩ : BufTy).Contents (Elt F)),
    StableHlo.unary main_v520 main_v522 (broadcastInDim S100000x1 ![0] bcast_S100000_S100000x1_0 : (⟨S100000, .i32⟩ : BufTy).Contents (Elt F) → (⟨S100000x1, .i32⟩ : BufTy).Contents (Elt F)),
    StableHlo.ternary main_v521 main_v522 main_v518 main_v523 ((fun x i u => Host.scatterAdd scatter_S20000x128_S100000x1_S100000x128_1_0_0_1 x i u) : (⟨S20000x128, .f32⟩ : BufTy).Contents (Elt F) → (⟨S100000x1, .i32⟩ : BufTy).Contents (Elt F) → (⟨S100000x128, .f32⟩ : BufTy).Contents (Elt F) → (⟨S20000x128, .f32⟩ : BufTy).Contents (Elt F)),
    StableHlo.unary main_v457 main_v524 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v524 main_v525 rfl shapeCasts_S1x128x128_S128x128,
    StableHlo.unary main_v459 main_v526 ((extractStridedSlice S1x128 ![0, 0] · slices_S4x128_S1x128_0_0) : (⟨S4x128, .f32⟩ : BufTy).Contents (Elt F) → (⟨S1x128, .f32⟩ : BufTy).Contents (Elt F)),
    StableHlo.reshape main_v526 main_v527 rfl shapeCasts_S1x128_S128,
    StableHlo.unary main_v461 main_v528 ((extractStridedSlice S1x128 ![0, 0] · slices_S4x128_S1x128_0_0) : (⟨S4x128, .f32⟩ : BufTy).Contents (Elt F) → (⟨S1x128, .f32⟩ : BufTy).Contents (Elt F)),
    StableHlo.reshape main_v528 main_v529 rfl shapeCasts_S1x128_S128,
    StableHlo.unary main_v463 main_v530 ((extractStridedSlice S1x128 ![0, 0] · slices_S4x128_S1x128_0_0) : (⟨S4x128, .f32⟩ : BufTy).Contents (Elt F) → (⟨S1x128, .f32⟩ : BufTy).Contents (Elt F)),
    StableHlo.reshape main_v530 main_v531 rfl shapeCasts_S1x128_S128 ]

/-- Every operation of the window touches TensorCore buffers only. -/
theorem ops9_sub : (ops9 : List (HloOp τ sig (Elt F))).Forall fun op => op.bufs ⊆ StableHlo.tcRefs τ sig :=
  ⟨StableHlo.ternary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩

/-- No operation of the window allocates a buffer. -/
theorem ops9_fresh : (ops9 : List (HloOp τ sig (Elt F))).Forall fun op => op.fresh = ∅ := by
  simp only [List.Forall]; repeat' constructor

/-- The window's text is the run of its operations in order: both are one chain of host steps, the outlined functions
    unfolded at their calls. -/
theorem part9_eq (c : Dev nD) : main_part9 (F := F) c = StableHlo.seq ops9 := by
  chain_rfl

end Cert.ReferenceIdeal.Ops

end
-- ==== Proof.RefOps10.lean ====
import proofs.«116822_j38594576122568_1_alg».proof.ReferenceIdeal
import Idealize.ShloMosaic.Lib.StableHlo.Run
import Idealize.ShloMosaic.Lib.Pipeline.Regions

/-! Window 10 of the reference's @main as the list of its host operations, each outlined function's body written out at its
    call over the call's own buffers, and the window's text is the run of that list. -/

noncomputable section

namespace Cert.ReferenceIdeal.Ops

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

/-- The 104 host operations of window 10, in order. -/
abbrev ops10 : List (HloOp τ sig (Elt F)) :=
  [ StableHlo.unary main_v465 main_v532 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v532 main_v533 rfl shapeCasts_S1x128x128_S128x128,
    StableHlo.unary main_v467 main_v534 ((extractStridedSlice S1x128 ![0, 0] · slices_S4x128_S1x128_0_0) : (⟨S4x128, .f32⟩ : BufTy).Contents (Elt F) → (⟨S1x128, .f32⟩ : BufTy).Contents (Elt F)),
    StableHlo.reshape main_v534 main_v535 rfl shapeCasts_S1x128_S128,
    StableHlo.binary main_v481 main_v525 main_v536 ((fun l r => Host.dotGeneral dot_S80000x128_S128x128_S80000x128_1_0_0_1_n_n none l r) : (⟨S80000x128, .f32⟩ : BufTy).Contents (Elt F) → (⟨S128x128, .f32⟩ : BufTy).Contents (Elt F) → (⟨S80000x128, .f32⟩ : BufTy).Contents (Elt F)),
    StableHlo.unary main_v527 main_v537 (broadcastInDim S1x128 ![1] bcast_S128_S1x128_1 : (⟨S128, .f32⟩ : BufTy).Contents (Elt F) → (⟨S1x128, .f32⟩ : BufTy).Contents (Elt F)),
    StableHlo.unary main_v537 main_v538 (broadcastInDim S80000x128 ![0, 1] bcast_S1x128_S80000x128_0_1 : (⟨S1x128, .f32⟩ : BufTy).Contents (Elt F) → (⟨S80000x128, .f32⟩ : BufTy).Contents (Elt F)),
    StableHlo.binary main_v536 main_v538 main_v539 (addf : (⟨S80000x128, .f32⟩ : BufTy).Contents (Elt F) → (⟨S80000x128, .f32⟩ : BufTy).Contents (Elt F) → (⟨S80000x128, .f32⟩ : BufTy).Contents (Elt F)),
    StableHlo.nullary main_cst_66 (constant S_ .f32 0x00000000#32),
    StableHlo.binary main_v539 main_cst_66 main_v540 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.nullary main_cst_67 (constant S_ .f32 0x479C4000#32),
    StableHlo.unary main_cst_67 main_v541 (broadcastInDim S128 ![] bcast_S_S128 : (⟨S_, .f32⟩ : BufTy).Contents (Elt F) → (⟨S128, .f32⟩ : BufTy).Contents (Elt F)),
    StableHlo.binary main_v540 main_v541 main_v542 (Host.divf : (⟨S128, .f32⟩ : BufTy).Contents (Elt F) → (⟨S128, .f32⟩ : BufTy).Contents (Elt F) → (⟨S128, .f32⟩ : BufTy).Contents (Elt F)),
    StableHlo.nullary main_c_68 (constantI S_ 32 0#32),
    StableHlo.TRef.nullary (.of main_call20_cst : StableHlo.TRef sig ⟨S_, .f32⟩) (constant S_ .f32 0x00000000#32),
    StableHlo.TRef.binary (.of main_v539 : StableHlo.TRef sig ⟨S80000x128, .f32⟩) (.of main_call20_cst : StableHlo.TRef sig ⟨S_, .f32⟩) (.of main_call20_v0 : StableHlo.TRef sig ⟨S128, .f32⟩) (fun x v => Host.reduceAdd x v reducesTo_S80000x128_S128_d0 h_S_),
    StableHlo.TRef.unary (.of main_call20_v0 : StableHlo.TRef sig ⟨S128, .f32⟩) (.of main_call20_v1 : StableHlo.TRef sig ⟨S1x128, .f32⟩) (broadcastInDim S1x128 ![1] bcast_S128_S1x128_1),
    StableHlo.TRef.nullary (.of main_call20_cst_0 : StableHlo.TRef sig ⟨S_, .f32⟩) (constant S_ .f32 0x479C4000#32),
    StableHlo.TRef.unary (.of main_call20_cst_0 : StableHlo.TRef sig ⟨S_, .f32⟩) (.of main_call20_v2 : StableHlo.TRef sig ⟨S1x128, .f32⟩) (broadcastInDim S1x128 ![] bcast_S_S1x128),
    StableHlo.TRef.binary (.of main_call20_v1 : StableHlo.TRef sig ⟨S1x128, .f32⟩) (.of main_call20_v2 : StableHlo.TRef sig ⟨S1x128, .f32⟩) (.of main_call20_v3 : StableHlo.TRef sig ⟨S1x128, .f32⟩) Host.divf,
    StableHlo.TRef.unary (.of main_call20_v3 : StableHlo.TRef sig ⟨S1x128, .f32⟩) (.of main_call20_v4 : StableHlo.TRef sig ⟨S80000x128, .f32⟩) (broadcastInDim S80000x128 ![0, 1] bcast_S1x128_S80000x128_0_1),
    StableHlo.TRef.binary (.of main_v539 : StableHlo.TRef sig ⟨S80000x128, .f32⟩) (.of main_call20_v4 : StableHlo.TRef sig ⟨S80000x128, .f32⟩) (.of main_call20_v5 : StableHlo.TRef sig ⟨S80000x128, .f32⟩) subf,
    StableHlo.TRef.binary (.of main_call20_v5 : StableHlo.TRef sig ⟨S80000x128, .f32⟩) (.of main_call20_v5 : StableHlo.TRef sig ⟨S80000x128, .f32⟩) (.of main_call20_v6 : StableHlo.TRef sig ⟨S80000x128, .f32⟩) mulf,
    StableHlo.TRef.unary (.of main_c_68 : StableHlo.TRef sig ⟨S_, .i32⟩) (.of main_call20_v7 : StableHlo.TRef sig ⟨S_, .f32⟩) (sitofp .f32),
    StableHlo.TRef.nullary (.of main_call20_cst_1 : StableHlo.TRef sig ⟨S_, .f32⟩) (constant S_ .f32 0x479C4000#32),
    StableHlo.TRef.binary (.of main_call20_cst_1 : StableHlo.TRef sig ⟨S_, .f32⟩) (.of main_call20_v7 : StableHlo.TRef sig ⟨S_, .f32⟩) (.of main_call20_v8 : StableHlo.TRef sig ⟨S_, .f32⟩) subf,
    StableHlo.TRef.nullary (.of main_call20_cst_2 : StableHlo.TRef sig ⟨S_, .f32⟩) (constant S_ .f32 0x00000000#32),
    StableHlo.TRef.binary (.of main_call20_v6 : StableHlo.TRef sig ⟨S80000x128, .f32⟩) (.of main_call20_cst_2 : StableHlo.TRef sig ⟨S_, .f32⟩) (.of main_call20_v9 : StableHlo.TRef sig ⟨S128, .f32⟩) (fun x v => Host.reduceAdd x v reducesTo_S80000x128_S128_d0 h_S_),
    StableHlo.TRef.unary (.of main_call20_v8 : StableHlo.TRef sig ⟨S_, .f32⟩) (.of main_call20_v10 : StableHlo.TRef sig ⟨S128, .f32⟩) (broadcastInDim S128 ![] bcast_S_S128),
    StableHlo.TRef.binary (.of main_call20_v9 : StableHlo.TRef sig ⟨S128, .f32⟩) (.of main_call20_v10 : StableHlo.TRef sig ⟨S128, .f32⟩) (.of main_call20_v11 : StableHlo.TRef sig ⟨S128, .f32⟩) Host.divf,
    StableHlo.TRef.nullary (.of main_call20_cst_3 : StableHlo.TRef sig ⟨S_, .f32⟩) (constant S_ .f32 0x00000000#32),
    StableHlo.TRef.binary (.of main_call20_v8 : StableHlo.TRef sig ⟨S_, .f32⟩) (.of main_call20_cst_3 : StableHlo.TRef sig ⟨S_, .f32⟩) (.of main_call20_v12 : StableHlo.TRef sig ⟨S_, .i1⟩) (cmpf .ogt),
    StableHlo.TRef.nullary (.of main_call20_cst_4 : StableHlo.TRef sig ⟨S_, .f32⟩) (constant S_ .f32 0x7FC00000#32),
    StableHlo.TRef.unary (.of main_call20_cst_4 : StableHlo.TRef sig ⟨S_, .f32⟩) (.of main_call20_call0_v0 : StableHlo.TRef sig ⟨S_, .f32⟩) id,
    StableHlo.TRef.unary (.of main_call20_call0_v0 : StableHlo.TRef sig ⟨S_, .f32⟩) (.of main_call20_call0_v1 : StableHlo.TRef sig ⟨S128, .f32⟩) (broadcastInDim S128 ![] bcast_S_S128),
    StableHlo.TRef.ternary (.of main_call20_v12 : StableHlo.TRef sig ⟨S_, .i1⟩) (.of main_call20_v11 : StableHlo.TRef sig ⟨S128, .f32⟩) (.of main_call20_call0_v1 : StableHlo.TRef sig ⟨S128, .f32⟩) (.of main_v543 : StableHlo.TRef sig ⟨S128, .f32⟩) (fun p a b => select (broadcastInDim S128 ![] bcast_S_S128 p) a b),
    StableHlo.unary main_v542 main_v544 (broadcastInDim S1x128 ![1] bcast_S128_S1x128_1 : (⟨S128, .f32⟩ : BufTy).Contents (Elt F) → (⟨S1x128, .f32⟩ : BufTy).Contents (Elt F)),
    StableHlo.unary main_v544 main_v545 (broadcastInDim S80000x128 ![0, 1] bcast_S1x128_S80000x128_0_1 : (⟨S1x128, .f32⟩ : BufTy).Contents (Elt F) → (⟨S80000x128, .f32⟩ : BufTy).Contents (Elt F)),
    StableHlo.binary main_v539 main_v545 main_v546 (subf : (⟨S80000x128, .f32⟩ : BufTy).Contents (Elt F) → (⟨S80000x128, .f32⟩ : BufTy).Contents (Elt F) → (⟨S80000x128, .f32⟩ : BufTy).Contents (Elt F)),
    StableHlo.unary main_v529 main_v547 (broadcastInDim S1x128 ![1] bcast_S128_S1x128_1 : (⟨S128, .f32⟩ : BufTy).Contents (Elt F) → (⟨S1x128, .f32⟩ : BufTy).Contents (Elt F)),
    StableHlo.unary main_v547 main_v548 (broadcastInDim S80000x128 ![0, 1] bcast_S1x128_S80000x128_0_1 : (⟨S1x128, .f32⟩ : BufTy).Contents (Elt F) → (⟨S80000x128, .f32⟩ : BufTy).Contents (Elt F)),
    StableHlo.binary main_v548 main_v546 main_v549 (mulf : (⟨S80000x128, .f32⟩ : BufTy).Contents (Elt F) → (⟨S80000x128, .f32⟩ : BufTy).Contents (Elt F) → (⟨S80000x128, .f32⟩ : BufTy).Contents (Elt F)),
    StableHlo.nullary main_cst_69 (constant S_ .f32 0x3727C5AC#32),
    StableHlo.unary main_cst_69 main_v550 (broadcastInDim S128 ![] bcast_S_S128 : (⟨S_, .f32⟩ : BufTy).Contents (Elt F) → (⟨S128, .f32⟩ : BufTy).Contents (Elt F)),
    StableHlo.binary main_v543 main_v550 main_v551 (addf : (⟨S128, .f32⟩ : BufTy).Contents (Elt F) → (⟨S128, .f32⟩ : BufTy).Contents (Elt F) → (⟨S128, .f32⟩ : BufTy).Contents (Elt F)),
    StableHlo.unary main_v551 main_v552 (Host.rsqrt : (⟨S128, .f32⟩ : BufTy).Contents (Elt F) → (⟨S128, .f32⟩ : BufTy).Contents (Elt F)),
    StableHlo.unary main_v552 main_v553 (broadcastInDim S1x128 ![1] bcast_S128_S1x128_1 : (⟨S128, .f32⟩ : BufTy).Contents (Elt F) → (⟨S1x128, .f32⟩ : BufTy).Contents (Elt F)),
    StableHlo.unary main_v553 main_v554 (broadcastInDim S80000x128 ![0, 1] bcast_S1x128_S80000x128_0_1 : (⟨S1x128, .f32⟩ : BufTy).Contents (Elt F) → (⟨S80000x128, .f32⟩ : BufTy).Contents (Elt F)),
    StableHlo.binary main_v549 main_v554 main_v555 (mulf : (⟨S80000x128, .f32⟩ : BufTy).Contents (Elt F) → (⟨S80000x128, .f32⟩ : BufTy).Contents (Elt F) → (⟨S80000x128, .f32⟩ : BufTy).Contents (Elt F)),
    StableHlo.unary main_v531 main_v556 (broadcastInDim S1x128 ![1] bcast_S128_S1x128_1 : (⟨S128, .f32⟩ : BufTy).Contents (Elt F) → (⟨S1x128, .f32⟩ : BufTy).Contents (Elt F)),
    StableHlo.unary main_v556 main_v557 (broadcastInDim S80000x128 ![0, 1] bcast_S1x128_S80000x128_0_1 : (⟨S1x128, .f32⟩ : BufTy).Contents (Elt F) → (⟨S80000x128, .f32⟩ : BufTy).Contents (Elt F)),
    StableHlo.binary main_v555 main_v557 main_v558 (addf : (⟨S80000x128, .f32⟩ : BufTy).Contents (Elt F) → (⟨S80000x128, .f32⟩ : BufTy).Contents (Elt F) → (⟨S80000x128, .f32⟩ : BufTy).Contents (Elt F)),
    StableHlo.TRef.nullary (.of main_call21_cst : StableHlo.TRef sig ⟨S_, .f32⟩) (constant S_ .f32 0x00000000#32),
    StableHlo.TRef.unary (.of main_call21_cst : StableHlo.TRef sig ⟨S_, .f32⟩) (.of main_call21_v0 : StableHlo.TRef sig ⟨S80000x128, .f32⟩) (broadcastInDim S80000x128 ![] bcast_S_S80000x128),
    StableHlo.TRef.binary (.of main_v558 : StableHlo.TRef sig ⟨S80000x128, .f32⟩) (.of main_call21_v0 : StableHlo.TRef sig ⟨S80000x128, .f32⟩) (.of main_v559 : StableHlo.TRef sig ⟨S80000x128, .f32⟩) maximumf,
    StableHlo.binary main_v559 main_v533 main_v560 ((fun l r => Host.dotGeneral dot_S80000x128_S128x128_S80000x128_1_0_0_1_n_n none l r) : (⟨S80000x128, .f32⟩ : BufTy).Contents (Elt F) → (⟨S128x128, .f32⟩ : BufTy).Contents (Elt F) → (⟨S80000x128, .f32⟩ : BufTy).Contents (Elt F)),
    StableHlo.unary main_v535 main_v561 (broadcastInDim S1x128 ![1] bcast_S128_S1x128_1 : (⟨S128, .f32⟩ : BufTy).Contents (Elt F) → (⟨S1x128, .f32⟩ : BufTy).Contents (Elt F)),
    StableHlo.unary main_v561 main_v562 (broadcastInDim S80000x128 ![0, 1] bcast_S1x128_S80000x128_0_1 : (⟨S1x128, .f32⟩ : BufTy).Contents (Elt F) → (⟨S80000x128, .f32⟩ : BufTy).Contents (Elt F)),
    StableHlo.binary main_v560 main_v562 main_v563 (addf : (⟨S80000x128, .f32⟩ : BufTy).Contents (Elt F) → (⟨S80000x128, .f32⟩ : BufTy).Contents (Elt F) → (⟨S80000x128, .f32⟩ : BufTy).Contents (Elt F)),
    StableHlo.unary main_v457 main_v564 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v564 main_v565 rfl shapeCasts_S1x128x128_S128x128,
    StableHlo.unary main_v459 main_v566 ((extractStridedSlice S1x128 ![2, 0] · slices_S4x128_S1x128_2_0) : (⟨S4x128, .f32⟩ : BufTy).Contents (Elt F) → (⟨S1x128, .f32⟩ : BufTy).Contents (Elt F)),
    StableHlo.reshape main_v566 main_v567 rfl shapeCasts_S1x128_S128,
    StableHlo.unary main_v461 main_v568 ((extractStridedSlice S1x128 ![2, 0] · slices_S4x128_S1x128_2_0) : (⟨S4x128, .f32⟩ : BufTy).Contents (Elt F) → (⟨S1x128, .f32⟩ : BufTy).Contents (Elt F)),
    StableHlo.reshape main_v568 main_v569 rfl shapeCasts_S1x128_S128,
    StableHlo.unary main_v463 main_v570 ((extractStridedSlice S1x128 ![2, 0] · slices_S4x128_S1x128_2_0) : (⟨S4x128, .f32⟩ : BufTy).Contents (Elt F) → (⟨S1x128, .f32⟩ : BufTy).Contents (Elt F)),
    StableHlo.reshape main_v570 main_v571 rfl shapeCasts_S1x128_S128,
    StableHlo.unary main_v465 main_v572 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v572 main_v573 rfl shapeCasts_S1x128x128_S128x128,
    StableHlo.unary main_v467 main_v574 ((extractStridedSlice S1x128 ![2, 0] · slices_S4x128_S1x128_2_0) : (⟨S4x128, .f32⟩ : BufTy).Contents (Elt F) → (⟨S1x128, .f32⟩ : BufTy).Contents (Elt F)),
    StableHlo.reshape main_v574 main_v575 rfl shapeCasts_S1x128_S128,
    StableHlo.binary main_v495 main_v565 main_v576 ((fun l r => Host.dotGeneral dot_S80000x128_S128x128_S80000x128_1_0_0_1_n_n none l r) : (⟨S80000x128, .f32⟩ : BufTy).Contents (Elt F) → (⟨S128x128, .f32⟩ : BufTy).Contents (Elt F) → (⟨S80000x128, .f32⟩ : BufTy).Contents (Elt F)),
    StableHlo.unary main_v567 main_v577 (broadcastInDim S1x128 ![1] bcast_S128_S1x128_1 : (⟨S128, .f32⟩ : BufTy).Contents (Elt F) → (⟨S1x128, .f32⟩ : BufTy).Contents (Elt F)),
    StableHlo.unary main_v577 main_v578 (broadcastInDim S80000x128 ![0, 1] bcast_S1x128_S80000x128_0_1 : (⟨S1x128, .f32⟩ : BufTy).Contents (Elt F) → (⟨S80000x128, .f32⟩ : BufTy).Contents (Elt F)),
    StableHlo.binary main_v576 main_v578 main_v579 (addf : (⟨S80000x128, .f32⟩ : BufTy).Contents (Elt F) → (⟨S80000x128, .f32⟩ : BufTy).Contents (Elt F) → (⟨S80000x128, .f32⟩ : BufTy).Contents (Elt F)),
    StableHlo.nullary main_cst_70 (constant S_ .f32 0x00000000#32),
    StableHlo.binary main_v579 main_cst_70 main_v580 ((fun x v => Host.reduceAdd x v reducesTo_S80000x128_S128_d0 h_S_) : (⟨S80000x128, .f32⟩ : BufTy).Contents (Elt F) → (⟨S_, .f32⟩ : BufTy).Contents (Elt F) → (⟨S128, .f32⟩ : BufTy).Contents (Elt F)),
    StableHlo.nullary main_cst_71 (constant S_ .f32 0x479C4000#32),
    StableHlo.unary main_cst_71 main_v581 (broadcastInDim S128 ![] bcast_S_S128 : (⟨S_, .f32⟩ : BufTy).Contents (Elt F) → (⟨S128, .f32⟩ : BufTy).Contents (Elt F)),
    StableHlo.binary main_v580 main_v581 main_v582 (Host.divf : (⟨S128, .f32⟩ : BufTy).Contents (Elt F) → (⟨S128, .f32⟩ : BufTy).Contents (Elt F) → (⟨S128, .f32⟩ : BufTy).Contents (Elt F)),
    StableHlo.nullary main_c_72 (constantI S_ 32 0#32),
    StableHlo.TRef.nullary (.of main_call22_cst : StableHlo.TRef sig ⟨S_, .f32⟩) (constant S_ .f32 0x00000000#32),
    StableHlo.TRef.binary (.of main_v579 : StableHlo.TRef sig ⟨S80000x128, .f32⟩) (.of main_call22_cst : StableHlo.TRef sig ⟨S_, .f32⟩) (.of main_call22_v0 : StableHlo.TRef sig ⟨S128, .f32⟩) (fun x v => Host.reduceAdd x v reducesTo_S80000x128_S128_d0 h_S_),
    StableHlo.TRef.unary (.of main_call22_v0 : StableHlo.TRef sig ⟨S128, .f32⟩) (.of main_call22_v1 : StableHlo.TRef sig ⟨S1x128, .f32⟩) (broadcastInDim S1x128 ![1] bcast_S128_S1x128_1),
    StableHlo.TRef.nullary (.of main_call22_cst_0 : StableHlo.TRef sig ⟨S_, .f32⟩) (constant S_ .f32 0x479C4000#32),
    StableHlo.TRef.unary (.of main_call22_cst_0 : StableHlo.TRef sig ⟨S_, .f32⟩) (.of main_call22_v2 : StableHlo.TRef sig ⟨S1x128, .f32⟩) (broadcastInDim S1x128 ![] bcast_S_S1x128),
    StableHlo.TRef.binary (.of main_call22_v1 : StableHlo.TRef sig ⟨S1x128, .f32⟩) (.of main_call22_v2 : StableHlo.TRef sig ⟨S1x128, .f32⟩) (.of main_call22_v3 : StableHlo.TRef sig ⟨S1x128, .f32⟩) Host.divf,
    StableHlo.TRef.unary (.of main_call22_v3 : StableHlo.TRef sig ⟨S1x128, .f32⟩) (.of main_call22_v4 : StableHlo.TRef sig ⟨S80000x128, .f32⟩) (broadcastInDim S80000x128 ![0, 1] bcast_S1x128_S80000x128_0_1),
    StableHlo.TRef.binary (.of main_v579 : StableHlo.TRef sig ⟨S80000x128, .f32⟩) (.of main_call22_v4 : StableHlo.TRef sig ⟨S80000x128, .f32⟩) (.of main_call22_v5 : StableHlo.TRef sig ⟨S80000x128, .f32⟩) subf,
    StableHlo.TRef.binary (.of main_call22_v5 : StableHlo.TRef sig ⟨S80000x128, .f32⟩) (.of main_call22_v5 : StableHlo.TRef sig ⟨S80000x128, .f32⟩) (.of main_call22_v6 : StableHlo.TRef sig ⟨S80000x128, .f32⟩) mulf,
    StableHlo.TRef.unary (.of main_c_72 : StableHlo.TRef sig ⟨S_, .i32⟩) (.of main_call22_v7 : StableHlo.TRef sig ⟨S_, .f32⟩) (sitofp .f32),
    StableHlo.TRef.nullary (.of main_call22_cst_1 : StableHlo.TRef sig ⟨S_, .f32⟩) (constant S_ .f32 0x479C4000#32),
    StableHlo.TRef.binary (.of main_call22_cst_1 : StableHlo.TRef sig ⟨S_, .f32⟩) (.of main_call22_v7 : StableHlo.TRef sig ⟨S_, .f32⟩) (.of main_call22_v8 : StableHlo.TRef sig ⟨S_, .f32⟩) subf,
    StableHlo.TRef.nullary (.of main_call22_cst_2 : StableHlo.TRef sig ⟨S_, .f32⟩) (constant S_ .f32 0x00000000#32),
    StableHlo.TRef.binary (.of main_call22_v6 : StableHlo.TRef sig ⟨S80000x128, .f32⟩) (.of main_call22_cst_2 : StableHlo.TRef sig ⟨S_, .f32⟩) (.of main_call22_v9 : StableHlo.TRef sig ⟨S128, .f32⟩) (fun x v => Host.reduceAdd x v reducesTo_S80000x128_S128_d0 h_S_),
    StableHlo.TRef.unary (.of main_call22_v8 : StableHlo.TRef sig ⟨S_, .f32⟩) (.of main_call22_v10 : StableHlo.TRef sig ⟨S128, .f32⟩) (broadcastInDim S128 ![] bcast_S_S128),
    StableHlo.TRef.binary (.of main_call22_v9 : StableHlo.TRef sig ⟨S128, .f32⟩) (.of main_call22_v10 : StableHlo.TRef sig ⟨S128, .f32⟩) (.of main_call22_v11 : StableHlo.TRef sig ⟨S128, .f32⟩) Host.divf,
    StableHlo.TRef.nullary (.of main_call22_cst_3 : StableHlo.TRef sig ⟨S_, .f32⟩) (constant S_ .f32 0x00000000#32),
    StableHlo.TRef.binary (.of main_call22_v8 : StableHlo.TRef sig ⟨S_, .f32⟩) (.of main_call22_cst_3 : StableHlo.TRef sig ⟨S_, .f32⟩) (.of main_call22_v12 : StableHlo.TRef sig ⟨S_, .i1⟩) (cmpf .ogt),
    StableHlo.TRef.nullary (.of main_call22_cst_4 : StableHlo.TRef sig ⟨S_, .f32⟩) (constant S_ .f32 0x7FC00000#32),
    StableHlo.TRef.unary (.of main_call22_cst_4 : StableHlo.TRef sig ⟨S_, .f32⟩) (.of main_call22_call0_v0 : StableHlo.TRef sig ⟨S_, .f32⟩) id,
    StableHlo.TRef.unary (.of main_call22_call0_v0 : StableHlo.TRef sig ⟨S_, .f32⟩) (.of main_call22_call0_v1 : StableHlo.TRef sig ⟨S128, .f32⟩) (broadcastInDim S128 ![] bcast_S_S128),
    StableHlo.TRef.ternary (.of main_call22_v12 : StableHlo.TRef sig ⟨S_, .i1⟩) (.of main_call22_v11 : StableHlo.TRef sig ⟨S128, .f32⟩) (.of main_call22_call0_v1 : StableHlo.TRef sig ⟨S128, .f32⟩) (.of main_v583 : StableHlo.TRef sig ⟨S128, .f32⟩) (fun p a b => select (broadcastInDim S128 ![] bcast_S_S128 p) a b),
    StableHlo.unary main_v582 main_v584 (broadcastInDim S1x128 ![1] bcast_S128_S1x128_1 : (⟨S128, .f32⟩ : BufTy).Contents (Elt F) → (⟨S1x128, .f32⟩ : BufTy).Contents (Elt F)) ]

/-- Every operation of the window touches TensorCore buffers only. -/
theorem ops10_sub : (ops10 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub ..⟩

/-- No operation of the window allocates a buffer. -/
theorem ops10_fresh : (ops10 : List (HloOp τ sig (Elt F))).Forall fun op => op.fresh = ∅ := by
  simp only [List.Forall]; repeat' constructor

/-- The window's text is the run of its operations in order: both are one chain of host steps, the outlined functions
    unfolded at their calls. -/
theorem part10_eq (c : Dev nD) : main_part10 (F := F) c = StableHlo.seq ops10 := by
  chain_rfl

end Cert.ReferenceIdeal.Ops

end
-- ==== Proof.RefOps11.lean ====
import proofs.«116822_j38594576122568_1_alg».proof.ReferenceIdeal
import Idealize.ShloMosaic.Lib.StableHlo.Run
import Idealize.ShloMosaic.Lib.Pipeline.Regions

/-! Window 11 of the reference's @main as the list of its host operations, each outlined function's body written out at its
    call over the call's own buffers, and the window's text is the run of that list. -/

noncomputable section

namespace Cert.ReferenceIdeal.Ops

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

/-- The 89 host operations of window 11, in order. -/
abbrev ops11 : List (HloOp τ sig (Elt F)) :=
  [ StableHlo.unary main_v584 main_v585 (broadcastInDim S80000x128 ![0, 1] bcast_S1x128_S80000x128_0_1 : (⟨S1x128, .f32⟩ : BufTy).Contents (Elt F) → (⟨S80000x128, .f32⟩ : BufTy).Contents (Elt F)),
    StableHlo.binary main_v579 main_v585 main_v586 (subf : (⟨S80000x128, .f32⟩ : BufTy).Contents (Elt F) → (⟨S80000x128, .f32⟩ : BufTy).Contents (Elt F) → (⟨S80000x128, .f32⟩ : BufTy).Contents (Elt F)),
    StableHlo.unary main_v569 main_v587 (broadcastInDim S1x128 ![1] bcast_S128_S1x128_1 : (⟨S128, .f32⟩ : BufTy).Contents (Elt F) → (⟨S1x128, .f32⟩ : BufTy).Contents (Elt F)),
    StableHlo.unary main_v587 main_v588 (broadcastInDim S80000x128 ![0, 1] bcast_S1x128_S80000x128_0_1 : (⟨S1x128, .f32⟩ : BufTy).Contents (Elt F) → (⟨S80000x128, .f32⟩ : BufTy).Contents (Elt F)),
    StableHlo.binary main_v588 main_v586 main_v589 (mulf : (⟨S80000x128, .f32⟩ : BufTy).Contents (Elt F) → (⟨S80000x128, .f32⟩ : BufTy).Contents (Elt F) → (⟨S80000x128, .f32⟩ : BufTy).Contents (Elt F)),
    StableHlo.nullary main_cst_73 (constant S_ .f32 0x3727C5AC#32),
    StableHlo.unary main_cst_73 main_v590 (broadcastInDim S128 ![] bcast_S_S128 : (⟨S_, .f32⟩ : BufTy).Contents (Elt F) → (⟨S128, .f32⟩ : BufTy).Contents (Elt F)),
    StableHlo.binary main_v583 main_v590 main_v591 (addf : (⟨S128, .f32⟩ : BufTy).Contents (Elt F) → (⟨S128, .f32⟩ : BufTy).Contents (Elt F) → (⟨S128, .f32⟩ : BufTy).Contents (Elt F)),
    StableHlo.unary main_v591 main_v592 (Host.rsqrt : (⟨S128, .f32⟩ : BufTy).Contents (Elt F) → (⟨S128, .f32⟩ : BufTy).Contents (Elt F)),
    StableHlo.unary main_v592 main_v593 (broadcastInDim S1x128 ![1] bcast_S128_S1x128_1 : (⟨S128, .f32⟩ : BufTy).Contents (Elt F) → (⟨S1x128, .f32⟩ : BufTy).Contents (Elt F)),
    StableHlo.unary main_v593 main_v594 (broadcastInDim S80000x128 ![0, 1] bcast_S1x128_S80000x128_0_1 : (⟨S1x128, .f32⟩ : BufTy).Contents (Elt F) → (⟨S80000x128, .f32⟩ : BufTy).Contents (Elt F)),
    StableHlo.binary main_v589 main_v594 main_v595 (mulf : (⟨S80000x128, .f32⟩ : BufTy).Contents (Elt F) → (⟨S80000x128, .f32⟩ : BufTy).Contents (Elt F) → (⟨S80000x128, .f32⟩ : BufTy).Contents (Elt F)),
    StableHlo.unary main_v571 main_v596 (broadcastInDim S1x128 ![1] bcast_S128_S1x128_1 : (⟨S128, .f32⟩ : BufTy).Contents (Elt F) → (⟨S1x128, .f32⟩ : BufTy).Contents (Elt F)),
    StableHlo.unary main_v596 main_v597 (broadcastInDim S80000x128 ![0, 1] bcast_S1x128_S80000x128_0_1 : (⟨S1x128, .f32⟩ : BufTy).Contents (Elt F) → (⟨S80000x128, .f32⟩ : BufTy).Contents (Elt F)),
    StableHlo.binary main_v595 main_v597 main_v598 (addf : (⟨S80000x128, .f32⟩ : BufTy).Contents (Elt F) → (⟨S80000x128, .f32⟩ : BufTy).Contents (Elt F) → (⟨S80000x128, .f32⟩ : BufTy).Contents (Elt F)),
    StableHlo.TRef.nullary (.of main_call23_cst : StableHlo.TRef sig ⟨S_, .f32⟩) (constant S_ .f32 0x00000000#32),
    StableHlo.TRef.unary (.of main_call23_cst : StableHlo.TRef sig ⟨S_, .f32⟩) (.of main_call23_v0 : StableHlo.TRef sig ⟨S80000x128, .f32⟩) (broadcastInDim S80000x128 ![] bcast_S_S80000x128),
    StableHlo.TRef.binary (.of main_v598 : StableHlo.TRef sig ⟨S80000x128, .f32⟩) (.of main_call23_v0 : StableHlo.TRef sig ⟨S80000x128, .f32⟩) (.of main_v599 : StableHlo.TRef sig ⟨S80000x128, .f32⟩) maximumf,
    StableHlo.binary main_v599 main_v573 main_v600 ((fun l r => Host.dotGeneral dot_S80000x128_S128x128_S80000x128_1_0_0_1_n_n none l r) : (⟨S80000x128, .f32⟩ : BufTy).Contents (Elt F) → (⟨S128x128, .f32⟩ : BufTy).Contents (Elt F) → (⟨S80000x128, .f32⟩ : BufTy).Contents (Elt F)),
    StableHlo.unary main_v575 main_v601 (broadcastInDim S1x128 ![1] bcast_S128_S1x128_1 : (⟨S128, .f32⟩ : BufTy).Contents (Elt F) → (⟨S1x128, .f32⟩ : BufTy).Contents (Elt F)),
    StableHlo.unary main_v601 main_v602 (broadcastInDim S80000x128 ![0, 1] bcast_S1x128_S80000x128_0_1 : (⟨S1x128, .f32⟩ : BufTy).Contents (Elt F) → (⟨S80000x128, .f32⟩ : BufTy).Contents (Elt F)),
    StableHlo.binary main_v600 main_v602 main_v603 (addf : (⟨S80000x128, .f32⟩ : BufTy).Contents (Elt F) → (⟨S80000x128, .f32⟩ : BufTy).Contents (Elt F) → (⟨S80000x128, .f32⟩ : BufTy).Contents (Elt F)),
    StableHlo.binary main_v563 main_v603 main_v604 (addf : (⟨S80000x128, .f32⟩ : BufTy).Contents (Elt F) → (⟨S80000x128, .f32⟩ : BufTy).Contents (Elt F) → (⟨S80000x128, .f32⟩ : BufTy).Contents (Elt F)),
    StableHlo.TRef.nullary (.of main_call24_cst : StableHlo.TRef sig ⟨S_, .f32⟩) (constant S_ .f32 0x00000000#32),
    StableHlo.TRef.unary (.of main_call24_cst : StableHlo.TRef sig ⟨S_, .f32⟩) (.of main_call24_v0 : StableHlo.TRef sig ⟨S80000x128, .f32⟩) (broadcastInDim S80000x128 ![] bcast_S_S80000x128),
    StableHlo.TRef.binary (.of main_v604 : StableHlo.TRef sig ⟨S80000x128, .f32⟩) (.of main_call24_v0 : StableHlo.TRef sig ⟨S80000x128, .f32⟩) (.of main_call24_v1 : StableHlo.TRef sig ⟨S80000x128, .i1⟩) (cmpf .oge),
    StableHlo.TRef.nullary (.of main_call24_cst_0 : StableHlo.TRef sig ⟨S_, .f32⟩) (constant S_ .f32 0x3C23D70A#32),
    StableHlo.TRef.unary (.of main_call24_cst_0 : StableHlo.TRef sig ⟨S_, .f32⟩) (.of main_call24_v2 : StableHlo.TRef sig ⟨S80000x128, .f32⟩) (broadcastInDim S80000x128 ![] bcast_S_S80000x128),
    StableHlo.TRef.binary (.of main_call24_v2 : StableHlo.TRef sig ⟨S80000x128, .f32⟩) (.of main_v604 : StableHlo.TRef sig ⟨S80000x128, .f32⟩) (.of main_call24_v3 : StableHlo.TRef sig ⟨S80000x128, .f32⟩) mulf,
    StableHlo.TRef.ternary (.of main_call24_v1 : StableHlo.TRef sig ⟨S80000x128, .i1⟩) (.of main_v604 : StableHlo.TRef sig ⟨S80000x128, .f32⟩) (.of main_call24_v3 : StableHlo.TRef sig ⟨S80000x128, .f32⟩) (.of main_v605 : StableHlo.TRef sig ⟨S80000x128, .f32⟩) select,
    StableHlo.unary main_v457 main_v606 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v606 main_v607 rfl shapeCasts_S1x128x128_S128x128,
    StableHlo.unary main_v459 main_v608 ((extractStridedSlice S1x128 ![1, 0] · slices_S4x128_S1x128_1_0) : (⟨S4x128, .f32⟩ : BufTy).Contents (Elt F) → (⟨S1x128, .f32⟩ : BufTy).Contents (Elt F)),
    StableHlo.reshape main_v608 main_v609 rfl shapeCasts_S1x128_S128,
    StableHlo.unary main_v461 main_v610 ((extractStridedSlice S1x128 ![1, 0] · slices_S4x128_S1x128_1_0) : (⟨S4x128, .f32⟩ : BufTy).Contents (Elt F) → (⟨S1x128, .f32⟩ : BufTy).Contents (Elt F)),
    StableHlo.reshape main_v610 main_v611 rfl shapeCasts_S1x128_S128,
    StableHlo.unary main_v463 main_v612 ((extractStridedSlice S1x128 ![1, 0] · slices_S4x128_S1x128_1_0) : (⟨S4x128, .f32⟩ : BufTy).Contents (Elt F) → (⟨S1x128, .f32⟩ : BufTy).Contents (Elt F)),
    StableHlo.reshape main_v612 main_v613 rfl shapeCasts_S1x128_S128,
    StableHlo.unary main_v465 main_v614 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v614 main_v615 rfl shapeCasts_S1x128x128_S128x128,
    StableHlo.unary main_v467 main_v616 ((extractStridedSlice S1x128 ![1, 0] · slices_S4x128_S1x128_1_0) : (⟨S4x128, .f32⟩ : BufTy).Contents (Elt F) → (⟨S1x128, .f32⟩ : BufTy).Contents (Elt F)),
    StableHlo.reshape main_v616 main_v617 rfl shapeCasts_S1x128_S128,
    StableHlo.binary main_v509 main_v607 main_v618 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_v609 main_v619 (broadcastInDim S1x128 ![1] bcast_S128_S1x128_1 : (⟨S128, .f32⟩ : BufTy).Contents (Elt F) → (⟨S1x128, .f32⟩ : BufTy).Contents (Elt F)),
    StableHlo.unary main_v619 main_v620 (broadcastInDim S20000x128 ![0, 1] bcast_S1x128_S20000x128_0_1 : (⟨S1x128, .f32⟩ : BufTy).Contents (Elt F) → (⟨S20000x128, .f32⟩ : BufTy).Contents (Elt F)),
    StableHlo.binary main_v618 main_v620 main_v621 (addf : (⟨S20000x128, .f32⟩ : BufTy).Contents (Elt F) → (⟨S20000x128, .f32⟩ : BufTy).Contents (Elt F) → (⟨S20000x128, .f32⟩ : BufTy).Contents (Elt F)),
    StableHlo.nullary main_cst_74 (constant S_ .f32 0x00000000#32),
    StableHlo.binary main_v621 main_cst_74 main_v622 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_75 (constant S_ .f32 0x469C4000#32),
    StableHlo.unary main_cst_75 main_v623 (broadcastInDim S128 ![] bcast_S_S128 : (⟨S_, .f32⟩ : BufTy).Contents (Elt F) → (⟨S128, .f32⟩ : BufTy).Contents (Elt F)),
    StableHlo.binary main_v622 main_v623 main_v624 (Host.divf : (⟨S128, .f32⟩ : BufTy).Contents (Elt F) → (⟨S128, .f32⟩ : BufTy).Contents (Elt F) → (⟨S128, .f32⟩ : BufTy).Contents (Elt F)),
    StableHlo.nullary main_c_76 (constantI S_ 32 0#32),
    StableHlo.TRef.nullary (.of main_call25_cst : StableHlo.TRef sig ⟨S_, .f32⟩) (constant S_ .f32 0x00000000#32),
    StableHlo.TRef.binary (.of main_v621 : StableHlo.TRef sig ⟨S20000x128, .f32⟩) (.of main_call25_cst : StableHlo.TRef sig ⟨S_, .f32⟩) (.of main_call25_v0 : StableHlo.TRef sig ⟨S128, .f32⟩) (fun x v => Host.reduceAdd x v reducesTo_S20000x128_S128_d0 h_S_),
    StableHlo.TRef.unary (.of main_call25_v0 : StableHlo.TRef sig ⟨S128, .f32⟩) (.of main_call25_v1 : StableHlo.TRef sig ⟨S1x128, .f32⟩) (broadcastInDim S1x128 ![1] bcast_S128_S1x128_1),
    StableHlo.TRef.nullary (.of main_call25_cst_0 : StableHlo.TRef sig ⟨S_, .f32⟩) (constant S_ .f32 0x469C4000#32),
    StableHlo.TRef.unary (.of main_call25_cst_0 : StableHlo.TRef sig ⟨S_, .f32⟩) (.of main_call25_v2 : StableHlo.TRef sig ⟨S1x128, .f32⟩) (broadcastInDim S1x128 ![] bcast_S_S1x128),
    StableHlo.TRef.binary (.of main_call25_v1 : StableHlo.TRef sig ⟨S1x128, .f32⟩) (.of main_call25_v2 : StableHlo.TRef sig ⟨S1x128, .f32⟩) (.of main_call25_v3 : StableHlo.TRef sig ⟨S1x128, .f32⟩) Host.divf,
    StableHlo.TRef.unary (.of main_call25_v3 : StableHlo.TRef sig ⟨S1x128, .f32⟩) (.of main_call25_v4 : StableHlo.TRef sig ⟨S20000x128, .f32⟩) (broadcastInDim S20000x128 ![0, 1] bcast_S1x128_S20000x128_0_1),
    StableHlo.TRef.binary (.of main_v621 : StableHlo.TRef sig ⟨S20000x128, .f32⟩) (.of main_call25_v4 : StableHlo.TRef sig ⟨S20000x128, .f32⟩) (.of main_call25_v5 : StableHlo.TRef sig ⟨S20000x128, .f32⟩) subf,
    StableHlo.TRef.binary (.of main_call25_v5 : StableHlo.TRef sig ⟨S20000x128, .f32⟩) (.of main_call25_v5 : StableHlo.TRef sig ⟨S20000x128, .f32⟩) (.of main_call25_v6 : StableHlo.TRef sig ⟨S20000x128, .f32⟩) mulf,
    StableHlo.TRef.unary (.of main_c_76 : StableHlo.TRef sig ⟨S_, .i32⟩) (.of main_call25_v7 : StableHlo.TRef sig ⟨S_, .f32⟩) (sitofp .f32),
    StableHlo.TRef.nullary (.of main_call25_cst_1 : StableHlo.TRef sig ⟨S_, .f32⟩) (constant S_ .f32 0x469C4000#32),
    StableHlo.TRef.binary (.of main_call25_cst_1 : StableHlo.TRef sig ⟨S_, .f32⟩) (.of main_call25_v7 : StableHlo.TRef sig ⟨S_, .f32⟩) (.of main_call25_v8 : StableHlo.TRef sig ⟨S_, .f32⟩) subf,
    StableHlo.TRef.nullary (.of main_call25_cst_2 : StableHlo.TRef sig ⟨S_, .f32⟩) (constant S_ .f32 0x00000000#32),
    StableHlo.TRef.binary (.of main_call25_v6 : StableHlo.TRef sig ⟨S20000x128, .f32⟩) (.of main_call25_cst_2 : StableHlo.TRef sig ⟨S_, .f32⟩) (.of main_call25_v9 : StableHlo.TRef sig ⟨S128, .f32⟩) (fun x v => Host.reduceAdd x v reducesTo_S20000x128_S128_d0 h_S_),
    StableHlo.TRef.unary (.of main_call25_v8 : StableHlo.TRef sig ⟨S_, .f32⟩) (.of main_call25_v10 : StableHlo.TRef sig ⟨S128, .f32⟩) (broadcastInDim S128 ![] bcast_S_S128),
    StableHlo.TRef.binary (.of main_call25_v9 : StableHlo.TRef sig ⟨S128, .f32⟩) (.of main_call25_v10 : StableHlo.TRef sig ⟨S128, .f32⟩) (.of main_call25_v11 : StableHlo.TRef sig ⟨S128, .f32⟩) Host.divf,
    StableHlo.TRef.nullary (.of main_call25_cst_3 : StableHlo.TRef sig ⟨S_, .f32⟩) (constant S_ .f32 0x00000000#32),
    StableHlo.TRef.binary (.of main_call25_v8 : StableHlo.TRef sig ⟨S_, .f32⟩) (.of main_call25_cst_3 : StableHlo.TRef sig ⟨S_, .f32⟩) (.of main_call25_v12 : StableHlo.TRef sig ⟨S_, .i1⟩) (cmpf .ogt),
    StableHlo.TRef.nullary (.of main_call25_cst_4 : StableHlo.TRef sig ⟨S_, .f32⟩) (constant S_ .f32 0x7FC00000#32),
    StableHlo.TRef.unary (.of main_call25_cst_4 : StableHlo.TRef sig ⟨S_, .f32⟩) (.of main_call25_call0_v0 : StableHlo.TRef sig ⟨S_, .f32⟩) id,
    StableHlo.TRef.unary (.of main_call25_call0_v0 : StableHlo.TRef sig ⟨S_, .f32⟩) (.of main_call25_call0_v1 : StableHlo.TRef sig ⟨S128, .f32⟩) (broadcastInDim S128 ![] bcast_S_S128),
    StableHlo.TRef.ternary (.of main_call25_v12 : StableHlo.TRef sig ⟨S_, .i1⟩) (.of main_call25_v11 : StableHlo.TRef sig ⟨S128, .f32⟩) (.of main_call25_call0_v1 : StableHlo.TRef sig ⟨S128, .f32⟩) (.of main_v625 : StableHlo.TRef sig ⟨S128, .f32⟩) (fun p a b => select (broadcastInDim S128 ![] bcast_S_S128 p) a b),
    StableHlo.unary main_v624 main_v626 (broadcastInDim S1x128 ![1] bcast_S128_S1x128_1 : (⟨S128, .f32⟩ : BufTy).Contents (Elt F) → (⟨S1x128, .f32⟩ : BufTy).Contents (Elt F)),
    StableHlo.unary main_v626 main_v627 (broadcastInDim S20000x128 ![0, 1] bcast_S1x128_S20000x128_0_1 : (⟨S1x128, .f32⟩ : BufTy).Contents (Elt F) → (⟨S20000x128, .f32⟩ : BufTy).Contents (Elt F)),
    StableHlo.binary main_v621 main_v627 main_v628 (subf : (⟨S20000x128, .f32⟩ : BufTy).Contents (Elt F) → (⟨S20000x128, .f32⟩ : BufTy).Contents (Elt F) → (⟨S20000x128, .f32⟩ : BufTy).Contents (Elt F)),
    StableHlo.unary main_v611 main_v629 (broadcastInDim S1x128 ![1] bcast_S128_S1x128_1 : (⟨S128, .f32⟩ : BufTy).Contents (Elt F) → (⟨S1x128, .f32⟩ : BufTy).Contents (Elt F)),
    StableHlo.unary main_v629 main_v630 (broadcastInDim S20000x128 ![0, 1] bcast_S1x128_S20000x128_0_1 : (⟨S1x128, .f32⟩ : BufTy).Contents (Elt F) → (⟨S20000x128, .f32⟩ : BufTy).Contents (Elt F)),
    StableHlo.binary main_v630 main_v628 main_v631 (mulf : (⟨S20000x128, .f32⟩ : BufTy).Contents (Elt F) → (⟨S20000x128, .f32⟩ : BufTy).Contents (Elt F) → (⟨S20000x128, .f32⟩ : BufTy).Contents (Elt F)),
    StableHlo.nullary main_cst_77 (constant S_ .f32 0x3727C5AC#32),
    StableHlo.unary main_cst_77 main_v632 (broadcastInDim S128 ![] bcast_S_S128 : (⟨S_, .f32⟩ : BufTy).Contents (Elt F) → (⟨S128, .f32⟩ : BufTy).Contents (Elt F)),
    StableHlo.binary main_v625 main_v632 main_v633 (addf : (⟨S128, .f32⟩ : BufTy).Contents (Elt F) → (⟨S128, .f32⟩ : BufTy).Contents (Elt F) → (⟨S128, .f32⟩ : BufTy).Contents (Elt F)),
    StableHlo.unary main_v633 main_v634 (Host.rsqrt : (⟨S128, .f32⟩ : BufTy).Contents (Elt F) → (⟨S128, .f32⟩ : BufTy).Contents (Elt F)),
    StableHlo.unary main_v634 main_v635 (broadcastInDim S1x128 ![1] bcast_S128_S1x128_1 : (⟨S128, .f32⟩ : BufTy).Contents (Elt F) → (⟨S1x128, .f32⟩ : BufTy).Contents (Elt F)),
    StableHlo.unary main_v635 main_v636 (broadcastInDim S20000x128 ![0, 1] bcast_S1x128_S20000x128_0_1 : (⟨S1x128, .f32⟩ : BufTy).Contents (Elt F) → (⟨S20000x128, .f32⟩ : BufTy).Contents (Elt F)),
    StableHlo.binary main_v631 main_v636 main_v637 (mulf : (⟨S20000x128, .f32⟩ : BufTy).Contents (Elt F) → (⟨S20000x128, .f32⟩ : BufTy).Contents (Elt F) → (⟨S20000x128, .f32⟩ : BufTy).Contents (Elt F)),
    StableHlo.unary main_v613 main_v638 (broadcastInDim S1x128 ![1] bcast_S128_S1x128_1 : (⟨S128, .f32⟩ : BufTy).Contents (Elt F) → (⟨S1x128, .f32⟩ : BufTy).Contents (Elt F)),
    StableHlo.unary main_v638 main_v639 (broadcastInDim S20000x128 ![0, 1] bcast_S1x128_S20000x128_0_1 : (⟨S1x128, .f32⟩ : BufTy).Contents (Elt F) → (⟨S20000x128, .f32⟩ : BufTy).Contents (Elt F)) ]

/-- Every operation of the window touches TensorCore buffers only. -/
theorem ops11_sub : (ops11 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub ..⟩

/-- No operation of the window allocates a buffer. -/
theorem ops11_fresh : (ops11 : List (HloOp τ sig (Elt F))).Forall fun op => op.fresh = ∅ := by
  simp only [List.Forall]; repeat' constructor

/-- The window's text is the run of its operations in order: both are one chain of host steps, the outlined functions
    unfolded at their calls. -/
theorem part11_eq (c : Dev nD) : main_part11 (F := F) c = StableHlo.seq ops11 := by
  chain_rfl

end Cert.ReferenceIdeal.Ops

end
-- ==== Proof.RefOps12.lean ====
import proofs.«116822_j38594576122568_1_alg».proof.ReferenceIdeal
import Idealize.ShloMosaic.Lib.StableHlo.Run
import Idealize.ShloMosaic.Lib.Pipeline.Regions

/-! Window 12 of the reference's @main as the list of its host operations, each outlined function's body written out at its
    call over the call's own buffers, and the window's text is the run of that list. -/

noncomputable section

namespace Cert.ReferenceIdeal.Ops

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

/-- The 91 host operations of window 12, in order. -/
abbrev ops12 : List (HloOp τ sig (Elt F)) :=
  [ StableHlo.binary main_v637 main_v639 main_v640 (addf : (⟨S20000x128, .f32⟩ : BufTy).Contents (Elt F) → (⟨S20000x128, .f32⟩ : BufTy).Contents (Elt F) → (⟨S20000x128, .f32⟩ : BufTy).Contents (Elt F)),
    StableHlo.TRef.nullary (.of main_call26_cst : StableHlo.TRef sig ⟨S_, .f32⟩) (constant S_ .f32 0x00000000#32),
    StableHlo.TRef.unary (.of main_call26_cst : StableHlo.TRef sig ⟨S_, .f32⟩) (.of main_call26_v0 : StableHlo.TRef sig ⟨S20000x128, .f32⟩) (broadcastInDim S20000x128 ![] bcast_S_S20000x128),
    StableHlo.TRef.binary (.of main_v640 : StableHlo.TRef sig ⟨S20000x128, .f32⟩) (.of main_call26_v0 : StableHlo.TRef sig ⟨S20000x128, .f32⟩) (.of main_v641 : StableHlo.TRef sig ⟨S20000x128, .f32⟩) maximumf,
    StableHlo.binary main_v641 main_v615 main_v642 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_v617 main_v643 (broadcastInDim S1x128 ![1] bcast_S128_S1x128_1 : (⟨S128, .f32⟩ : BufTy).Contents (Elt F) → (⟨S1x128, .f32⟩ : BufTy).Contents (Elt F)),
    StableHlo.unary main_v643 main_v644 (broadcastInDim S20000x128 ![0, 1] bcast_S1x128_S20000x128_0_1 : (⟨S1x128, .f32⟩ : BufTy).Contents (Elt F) → (⟨S20000x128, .f32⟩ : BufTy).Contents (Elt F)),
    StableHlo.binary main_v642 main_v644 main_v645 (addf : (⟨S20000x128, .f32⟩ : BufTy).Contents (Elt F) → (⟨S20000x128, .f32⟩ : BufTy).Contents (Elt F) → (⟨S20000x128, .f32⟩ : BufTy).Contents (Elt F)),
    StableHlo.unary main_v457 main_v646 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v646 main_v647 rfl shapeCasts_S1x128x128_S128x128,
    StableHlo.unary main_v459 main_v648 ((extractStridedSlice S1x128 ![3, 0] · slices_S4x128_S1x128_3_0) : (⟨S4x128, .f32⟩ : BufTy).Contents (Elt F) → (⟨S1x128, .f32⟩ : BufTy).Contents (Elt F)),
    StableHlo.reshape main_v648 main_v649 rfl shapeCasts_S1x128_S128,
    StableHlo.unary main_v461 main_v650 ((extractStridedSlice S1x128 ![3, 0] · slices_S4x128_S1x128_3_0) : (⟨S4x128, .f32⟩ : BufTy).Contents (Elt F) → (⟨S1x128, .f32⟩ : BufTy).Contents (Elt F)),
    StableHlo.reshape main_v650 main_v651 rfl shapeCasts_S1x128_S128,
    StableHlo.unary main_v463 main_v652 ((extractStridedSlice S1x128 ![3, 0] · slices_S4x128_S1x128_3_0) : (⟨S4x128, .f32⟩ : BufTy).Contents (Elt F) → (⟨S1x128, .f32⟩ : BufTy).Contents (Elt F)),
    StableHlo.reshape main_v652 main_v653 rfl shapeCasts_S1x128_S128,
    StableHlo.unary main_v465 main_v654 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v654 main_v655 rfl shapeCasts_S1x128x128_S128x128,
    StableHlo.unary main_v467 main_v656 ((extractStridedSlice S1x128 ![3, 0] · slices_S4x128_S1x128_3_0) : (⟨S4x128, .f32⟩ : BufTy).Contents (Elt F) → (⟨S1x128, .f32⟩ : BufTy).Contents (Elt F)),
    StableHlo.reshape main_v656 main_v657 rfl shapeCasts_S1x128_S128,
    StableHlo.binary main_v523 main_v647 main_v658 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_v649 main_v659 (broadcastInDim S1x128 ![1] bcast_S128_S1x128_1 : (⟨S128, .f32⟩ : BufTy).Contents (Elt F) → (⟨S1x128, .f32⟩ : BufTy).Contents (Elt F)),
    StableHlo.unary main_v659 main_v660 (broadcastInDim S20000x128 ![0, 1] bcast_S1x128_S20000x128_0_1 : (⟨S1x128, .f32⟩ : BufTy).Contents (Elt F) → (⟨S20000x128, .f32⟩ : BufTy).Contents (Elt F)),
    StableHlo.binary main_v658 main_v660 main_v661 (addf : (⟨S20000x128, .f32⟩ : BufTy).Contents (Elt F) → (⟨S20000x128, .f32⟩ : BufTy).Contents (Elt F) → (⟨S20000x128, .f32⟩ : BufTy).Contents (Elt F)),
    StableHlo.nullary main_cst_78 (constant S_ .f32 0x00000000#32),
    StableHlo.binary main_v661 main_cst_78 main_v662 ((fun x v => Host.reduceAdd x v reducesTo_S20000x128_S128_d0 h_S_) : (⟨S20000x128, .f32⟩ : BufTy).Contents (Elt F) → (⟨S_, .f32⟩ : BufTy).Contents (Elt F) → (⟨S128, .f32⟩ : BufTy).Contents (Elt F)),
    StableHlo.nullary main_cst_79 (constant S_ .f32 0x469C4000#32),
    StableHlo.unary main_cst_79 main_v663 (broadcastInDim S128 ![] bcast_S_S128 : (⟨S_, .f32⟩ : BufTy).Contents (Elt F) → (⟨S128, .f32⟩ : BufTy).Contents (Elt F)),
    StableHlo.binary main_v662 main_v663 main_v664 (Host.divf : (⟨S128, .f32⟩ : BufTy).Contents (Elt F) → (⟨S128, .f32⟩ : BufTy).Contents (Elt F) → (⟨S128, .f32⟩ : BufTy).Contents (Elt F)),
    StableHlo.nullary main_c_80 (constantI S_ 32 0#32),
    StableHlo.TRef.nullary (.of main_call27_cst : StableHlo.TRef sig ⟨S_, .f32⟩) (constant S_ .f32 0x00000000#32),
    StableHlo.TRef.binary (.of main_v661 : StableHlo.TRef sig ⟨S20000x128, .f32⟩) (.of main_call27_cst : StableHlo.TRef sig ⟨S_, .f32⟩) (.of main_call27_v0 : StableHlo.TRef sig ⟨S128, .f32⟩) (fun x v => Host.reduceAdd x v reducesTo_S20000x128_S128_d0 h_S_),
    StableHlo.TRef.unary (.of main_call27_v0 : StableHlo.TRef sig ⟨S128, .f32⟩) (.of main_call27_v1 : StableHlo.TRef sig ⟨S1x128, .f32⟩) (broadcastInDim S1x128 ![1] bcast_S128_S1x128_1),
    StableHlo.TRef.nullary (.of main_call27_cst_0 : StableHlo.TRef sig ⟨S_, .f32⟩) (constant S_ .f32 0x469C4000#32),
    StableHlo.TRef.unary (.of main_call27_cst_0 : StableHlo.TRef sig ⟨S_, .f32⟩) (.of main_call27_v2 : StableHlo.TRef sig ⟨S1x128, .f32⟩) (broadcastInDim S1x128 ![] bcast_S_S1x128),
    StableHlo.TRef.binary (.of main_call27_v1 : StableHlo.TRef sig ⟨S1x128, .f32⟩) (.of main_call27_v2 : StableHlo.TRef sig ⟨S1x128, .f32⟩) (.of main_call27_v3 : StableHlo.TRef sig ⟨S1x128, .f32⟩) Host.divf,
    StableHlo.TRef.unary (.of main_call27_v3 : StableHlo.TRef sig ⟨S1x128, .f32⟩) (.of main_call27_v4 : StableHlo.TRef sig ⟨S20000x128, .f32⟩) (broadcastInDim S20000x128 ![0, 1] bcast_S1x128_S20000x128_0_1),
    StableHlo.TRef.binary (.of main_v661 : StableHlo.TRef sig ⟨S20000x128, .f32⟩) (.of main_call27_v4 : StableHlo.TRef sig ⟨S20000x128, .f32⟩) (.of main_call27_v5 : StableHlo.TRef sig ⟨S20000x128, .f32⟩) subf,
    StableHlo.TRef.binary (.of main_call27_v5 : StableHlo.TRef sig ⟨S20000x128, .f32⟩) (.of main_call27_v5 : StableHlo.TRef sig ⟨S20000x128, .f32⟩) (.of main_call27_v6 : StableHlo.TRef sig ⟨S20000x128, .f32⟩) mulf,
    StableHlo.TRef.unary (.of main_c_80 : StableHlo.TRef sig ⟨S_, .i32⟩) (.of main_call27_v7 : StableHlo.TRef sig ⟨S_, .f32⟩) (sitofp .f32),
    StableHlo.TRef.nullary (.of main_call27_cst_1 : StableHlo.TRef sig ⟨S_, .f32⟩) (constant S_ .f32 0x469C4000#32),
    StableHlo.TRef.binary (.of main_call27_cst_1 : StableHlo.TRef sig ⟨S_, .f32⟩) (.of main_call27_v7 : StableHlo.TRef sig ⟨S_, .f32⟩) (.of main_call27_v8 : StableHlo.TRef sig ⟨S_, .f32⟩) subf,
    StableHlo.TRef.nullary (.of main_call27_cst_2 : StableHlo.TRef sig ⟨S_, .f32⟩) (constant S_ .f32 0x00000000#32),
    StableHlo.TRef.binary (.of main_call27_v6 : StableHlo.TRef sig ⟨S20000x128, .f32⟩) (.of main_call27_cst_2 : StableHlo.TRef sig ⟨S_, .f32⟩) (.of main_call27_v9 : StableHlo.TRef sig ⟨S128, .f32⟩) (fun x v => Host.reduceAdd x v reducesTo_S20000x128_S128_d0 h_S_),
    StableHlo.TRef.unary (.of main_call27_v8 : StableHlo.TRef sig ⟨S_, .f32⟩) (.of main_call27_v10 : StableHlo.TRef sig ⟨S128, .f32⟩) (broadcastInDim S128 ![] bcast_S_S128),
    StableHlo.TRef.binary (.of main_call27_v9 : StableHlo.TRef sig ⟨S128, .f32⟩) (.of main_call27_v10 : StableHlo.TRef sig ⟨S128, .f32⟩) (.of main_call27_v11 : StableHlo.TRef sig ⟨S128, .f32⟩) Host.divf,
    StableHlo.TRef.nullary (.of main_call27_cst_3 : StableHlo.TRef sig ⟨S_, .f32⟩) (constant S_ .f32 0x00000000#32),
    StableHlo.TRef.binary (.of main_call27_v8 : StableHlo.TRef sig ⟨S_, .f32⟩) (.of main_call27_cst_3 : StableHlo.TRef sig ⟨S_, .f32⟩) (.of main_call27_v12 : StableHlo.TRef sig ⟨S_, .i1⟩) (cmpf .ogt),
    StableHlo.TRef.nullary (.of main_call27_cst_4 : StableHlo.TRef sig ⟨S_, .f32⟩) (constant S_ .f32 0x7FC00000#32),
    StableHlo.TRef.unary (.of main_call27_cst_4 : StableHlo.TRef sig ⟨S_, .f32⟩) (.of main_call27_call0_v0 : StableHlo.TRef sig ⟨S_, .f32⟩) id,
    StableHlo.TRef.unary (.of main_call27_call0_v0 : StableHlo.TRef sig ⟨S_, .f32⟩) (.of main_call27_call0_v1 : StableHlo.TRef sig ⟨S128, .f32⟩) (broadcastInDim S128 ![] bcast_S_S128),
    StableHlo.TRef.ternary (.of main_call27_v12 : StableHlo.TRef sig ⟨S_, .i1⟩) (.of main_call27_v11 : StableHlo.TRef sig ⟨S128, .f32⟩) (.of main_call27_call0_v1 : StableHlo.TRef sig ⟨S128, .f32⟩) (.of main_v665 : StableHlo.TRef sig ⟨S128, .f32⟩) (fun p a b => select (broadcastInDim S128 ![] bcast_S_S128 p) a b),
    StableHlo.unary main_v664 main_v666 (broadcastInDim S1x128 ![1] bcast_S128_S1x128_1 : (⟨S128, .f32⟩ : BufTy).Contents (Elt F) → (⟨S1x128, .f32⟩ : BufTy).Contents (Elt F)),
    StableHlo.unary main_v666 main_v667 (broadcastInDim S20000x128 ![0, 1] bcast_S1x128_S20000x128_0_1 : (⟨S1x128, .f32⟩ : BufTy).Contents (Elt F) → (⟨S20000x128, .f32⟩ : BufTy).Contents (Elt F)),
    StableHlo.binary main_v661 main_v667 main_v668 (subf : (⟨S20000x128, .f32⟩ : BufTy).Contents (Elt F) → (⟨S20000x128, .f32⟩ : BufTy).Contents (Elt F) → (⟨S20000x128, .f32⟩ : BufTy).Contents (Elt F)),
    StableHlo.unary main_v651 main_v669 (broadcastInDim S1x128 ![1] bcast_S128_S1x128_1 : (⟨S128, .f32⟩ : BufTy).Contents (Elt F) → (⟨S1x128, .f32⟩ : BufTy).Contents (Elt F)),
    StableHlo.unary main_v669 main_v670 (broadcastInDim S20000x128 ![0, 1] bcast_S1x128_S20000x128_0_1 : (⟨S1x128, .f32⟩ : BufTy).Contents (Elt F) → (⟨S20000x128, .f32⟩ : BufTy).Contents (Elt F)),
    StableHlo.binary main_v670 main_v668 main_v671 (mulf : (⟨S20000x128, .f32⟩ : BufTy).Contents (Elt F) → (⟨S20000x128, .f32⟩ : BufTy).Contents (Elt F) → (⟨S20000x128, .f32⟩ : BufTy).Contents (Elt F)),
    StableHlo.nullary main_cst_81 (constant S_ .f32 0x3727C5AC#32),
    StableHlo.unary main_cst_81 main_v672 (broadcastInDim S128 ![] bcast_S_S128 : (⟨S_, .f32⟩ : BufTy).Contents (Elt F) → (⟨S128, .f32⟩ : BufTy).Contents (Elt F)),
    StableHlo.binary main_v665 main_v672 main_v673 (addf : (⟨S128, .f32⟩ : BufTy).Contents (Elt F) → (⟨S128, .f32⟩ : BufTy).Contents (Elt F) → (⟨S128, .f32⟩ : BufTy).Contents (Elt F)),
    StableHlo.unary main_v673 main_v674 (Host.rsqrt : (⟨S128, .f32⟩ : BufTy).Contents (Elt F) → (⟨S128, .f32⟩ : BufTy).Contents (Elt F)),
    StableHlo.unary main_v674 main_v675 (broadcastInDim S1x128 ![1] bcast_S128_S1x128_1 : (⟨S128, .f32⟩ : BufTy).Contents (Elt F) → (⟨S1x128, .f32⟩ : BufTy).Contents (Elt F)),
    StableHlo.unary main_v675 main_v676 (broadcastInDim S20000x128 ![0, 1] bcast_S1x128_S20000x128_0_1 : (⟨S1x128, .f32⟩ : BufTy).Contents (Elt F) → (⟨S20000x128, .f32⟩ : BufTy).Contents (Elt F)),
    StableHlo.binary main_v671 main_v676 main_v677 (mulf : (⟨S20000x128, .f32⟩ : BufTy).Contents (Elt F) → (⟨S20000x128, .f32⟩ : BufTy).Contents (Elt F) → (⟨S20000x128, .f32⟩ : BufTy).Contents (Elt F)),
    StableHlo.unary main_v653 main_v678 (broadcastInDim S1x128 ![1] bcast_S128_S1x128_1 : (⟨S128, .f32⟩ : BufTy).Contents (Elt F) → (⟨S1x128, .f32⟩ : BufTy).Contents (Elt F)),
    StableHlo.unary main_v678 main_v679 (broadcastInDim S20000x128 ![0, 1] bcast_S1x128_S20000x128_0_1 : (⟨S1x128, .f32⟩ : BufTy).Contents (Elt F) → (⟨S20000x128, .f32⟩ : BufTy).Contents (Elt F)),
    StableHlo.binary main_v677 main_v679 main_v680 (addf : (⟨S20000x128, .f32⟩ : BufTy).Contents (Elt F) → (⟨S20000x128, .f32⟩ : BufTy).Contents (Elt F) → (⟨S20000x128, .f32⟩ : BufTy).Contents (Elt F)),
    StableHlo.TRef.nullary (.of main_call28_cst : StableHlo.TRef sig ⟨S_, .f32⟩) (constant S_ .f32 0x00000000#32),
    StableHlo.TRef.unary (.of main_call28_cst : StableHlo.TRef sig ⟨S_, .f32⟩) (.of main_call28_v0 : StableHlo.TRef sig ⟨S20000x128, .f32⟩) (broadcastInDim S20000x128 ![] bcast_S_S20000x128),
    StableHlo.TRef.binary (.of main_v680 : StableHlo.TRef sig ⟨S20000x128, .f32⟩) (.of main_call28_v0 : StableHlo.TRef sig ⟨S20000x128, .f32⟩) (.of main_v681 : StableHlo.TRef sig ⟨S20000x128, .f32⟩) maximumf,
    StableHlo.binary main_v681 main_v655 main_v682 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_v657 main_v683 (broadcastInDim S1x128 ![1] bcast_S128_S1x128_1 : (⟨S128, .f32⟩ : BufTy).Contents (Elt F) → (⟨S1x128, .f32⟩ : BufTy).Contents (Elt F)),
    StableHlo.unary main_v683 main_v684 (broadcastInDim S20000x128 ![0, 1] bcast_S1x128_S20000x128_0_1 : (⟨S1x128, .f32⟩ : BufTy).Contents (Elt F) → (⟨S20000x128, .f32⟩ : BufTy).Contents (Elt F)),
    StableHlo.binary main_v682 main_v684 main_v685 (addf : (⟨S20000x128, .f32⟩ : BufTy).Contents (Elt F) → (⟨S20000x128, .f32⟩ : BufTy).Contents (Elt F) → (⟨S20000x128, .f32⟩ : BufTy).Contents (Elt F)),
    StableHlo.binary main_v645 main_v685 main_v686 (addf : (⟨S20000x128, .f32⟩ : BufTy).Contents (Elt F) → (⟨S20000x128, .f32⟩ : BufTy).Contents (Elt F) → (⟨S20000x128, .f32⟩ : BufTy).Contents (Elt F)),
    StableHlo.TRef.nullary (.of main_call29_cst : StableHlo.TRef sig ⟨S_, .f32⟩) (constant S_ .f32 0x00000000#32),
    StableHlo.TRef.unary (.of main_call29_cst : StableHlo.TRef sig ⟨S_, .f32⟩) (.of main_call29_v0 : StableHlo.TRef sig ⟨S20000x128, .f32⟩) (broadcastInDim S20000x128 ![] bcast_S_S20000x128),
    StableHlo.TRef.binary (.of main_v686 : StableHlo.TRef sig ⟨S20000x128, .f32⟩) (.of main_call29_v0 : StableHlo.TRef sig ⟨S20000x128, .f32⟩) (.of main_call29_v1 : StableHlo.TRef sig ⟨S20000x128, .i1⟩) (cmpf .oge),
    StableHlo.TRef.nullary (.of main_call29_cst_0 : StableHlo.TRef sig ⟨S_, .f32⟩) (constant S_ .f32 0x3C23D70A#32),
    StableHlo.TRef.unary (.of main_call29_cst_0 : StableHlo.TRef sig ⟨S_, .f32⟩) (.of main_call29_v2 : StableHlo.TRef sig ⟨S20000x128, .f32⟩) (broadcastInDim S20000x128 ![] bcast_S_S20000x128),
    StableHlo.TRef.binary (.of main_call29_v2 : StableHlo.TRef sig ⟨S20000x128, .f32⟩) (.of main_v686 : StableHlo.TRef sig ⟨S20000x128, .f32⟩) (.of main_call29_v3 : StableHlo.TRef sig ⟨S20000x128, .f32⟩) mulf,
    StableHlo.TRef.ternary (.of main_call29_v1 : StableHlo.TRef sig ⟨S20000x128, .i1⟩) (.of main_v686 : StableHlo.TRef sig ⟨S20000x128, .f32⟩) (.of main_call29_v3 : StableHlo.TRef sig ⟨S20000x128, .f32⟩) (.of main_v687 : StableHlo.TRef sig ⟨S20000x128, .f32⟩) select,
    StableHlo.binary main_v605 main_arg16 main_v688 ((fun l r => Host.dotGeneral dot_S80000x128_S128x128_S80000x128_1_0_0_1_n_n none l r) : (⟨S80000x128, .f32⟩ : BufTy).Contents (Elt F) → (⟨S128x128, .f32⟩ : BufTy).Contents (Elt F) → (⟨S80000x128, .f32⟩ : BufTy).Contents (Elt F)),
    StableHlo.unary main_arg17 main_v689 (broadcastInDim S1x128 ![1] bcast_S128_S1x128_1 : (⟨S128, .f32⟩ : BufTy).Contents (Elt F) → (⟨S1x128, .f32⟩ : BufTy).Contents (Elt F)),
    StableHlo.unary main_v689 main_v690 (broadcastInDim S80000x128 ![0, 1] bcast_S1x128_S80000x128_0_1 : (⟨S1x128, .f32⟩ : BufTy).Contents (Elt F) → (⟨S80000x128, .f32⟩ : BufTy).Contents (Elt F)),
    StableHlo.binary main_v688 main_v690 main_v691 (addf : (⟨S80000x128, .f32⟩ : BufTy).Contents (Elt F) → (⟨S80000x128, .f32⟩ : BufTy).Contents (Elt F) → (⟨S80000x128, .f32⟩ : BufTy).Contents (Elt F)),
    StableHlo.binary main_v687 main_arg18 main_v692 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg19 main_v693 (broadcastInDim S1x128 ![1] bcast_S128_S1x128_1 : (⟨S128, .f32⟩ : BufTy).Contents (Elt F) → (⟨S1x128, .f32⟩ : BufTy).Contents (Elt F)),
    StableHlo.unary main_v693 main_v694 (broadcastInDim S20000x128 ![0, 1] bcast_S1x128_S20000x128_0_1 : (⟨S1x128, .f32⟩ : BufTy).Contents (Elt F) → (⟨S20000x128, .f32⟩ : BufTy).Contents (Elt F)),
    StableHlo.binary main_v692 main_v694 main_v695 (addf : (⟨S20000x128, .f32⟩ : BufTy).Contents (Elt F) → (⟨S20000x128, .f32⟩ : BufTy).Contents (Elt F) → (⟨S20000x128, .f32⟩ : BufTy).Contents (Elt F)) ]

/-- Every operation of the window touches TensorCore buffers only. -/
theorem ops12_sub : (ops12 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩

/-- No operation of the window allocates a buffer. -/
theorem ops12_fresh : (ops12 : List (HloOp τ sig (Elt F))).Forall fun op => op.fresh = ∅ := by
  simp only [List.Forall]; repeat' constructor

/-- The window's text is the run of its operations in order: both are one chain of host steps, the outlined functions
    unfolded at their calls. -/
theorem part12_eq (c : Dev nD) : main_part12 (F := F) c = StableHlo.seq ops12 := by
  chain_rfl

end Cert.ReferenceIdeal.Ops

end
-- ==== Proof.RefOps13.lean ====
import proofs.«116822_j38594576122568_1_alg».proof.ReferenceIdeal
import Idealize.ShloMosaic.Lib.StableHlo.Run
import Idealize.ShloMosaic.Lib.Pipeline.Regions

/-! Window 13 of the reference's @main as the list of its host operations, each outlined function's body written out at its
    call over the call's own buffers, and the window's text is the run of that list. -/

noncomputable section

namespace Cert.ReferenceIdeal.Ops

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

/-- The 0 host operations of window 13, in order. -/
abbrev ops13 : List (HloOp τ sig (Elt F)) :=
  [  ]

/-- Every operation of the window touches TensorCore buffers only. -/
theorem ops13_sub : (ops13 : List (HloOp τ sig (Elt F))).Forall fun op => op.bufs ⊆ StableHlo.tcRefs τ sig :=
  ⟨⟩

/-- No operation of the window allocates a buffer. -/
theorem ops13_fresh : (ops13 : List (HloOp τ sig (Elt F))).Forall fun op => op.fresh = ∅ := by
  simp only [List.Forall]; repeat' constructor

/-- The window's text is the run of its operations in order: both are one chain of host steps, the outlined functions
    unfolded at their calls. -/
theorem part13_eq (c : Dev nD) : main_part13 (F := F) c = StableHlo.seq ops13 := by
  chain_rfl

end Cert.ReferenceIdeal.Ops

end
-- ==== Proof.RThreadBase.lean ====
import proofs.«116822_j38594576122568_1_alg».proof.Proof.SpecValues
import Idealize.ShloMosaic.Lib.StableHlo.Run

/-! The reference's run read window by window. Here: the record of its argument arrays at launch, and the two facts every
    window uses — an operation's written buffer lies in a list that names it, and at launch each argument buffer holds its array. -/

noncomputable section

namespace Cert.ReferenceIdeal.Thread

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

/-- An operation that writes exactly `y` writes inside any list of references that has `y`. -/
theorem wsub {y : Ref sig .tc} {W : List (Ref sig .tc)} (h : y ∈ W) :
    ({(Proc.devRef .tc y : DevRef τ sig)} : Finset (DevRef τ sig)) ⊆ (W.map (Proc.devRef (τ := τ) .tc)).toFinset :=
  Finset.singleton_subset_iff.mpr (List.mem_toFinset.mpr (List.mem_map_of_mem h))

variable (m : (ℓ : Loc nD τ sig) → Buf (Elt F) ℓ) (c : Dev nD)

/-- The argument arrays as the reference is launched with them. -/
def RA : Spec.Args F :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18),
   m ((c.tc : Thread nD τ).loc main_arg19),
   m ((c.tc : Thread nD τ).loc main_arg20),
   m ((c.tc : Thread nD τ).loc main_arg21),
   m ((c.tc : Thread nD τ).loc main_arg22),
   m ((c.tc : Thread nD τ).loc main_arg23)⟩

theorem r_arg1_m1 : (StableHlo.launchContents m c) (Proc.devRef .tc main_arg1) = (RA m c).a1 := rfl
theorem r_arg2_m1 : (StableHlo.launchContents m c) (Proc.devRef .tc main_arg2) = (RA m c).a2 := rfl
theorem r_arg3_m1 : (StableHlo.launchContents m c) (Proc.devRef .tc main_arg3) = (RA m c).a3 := rfl
theorem r_arg20_m1 : (StableHlo.launchContents m c) (Proc.devRef .tc main_arg20) = (RA m c).a20 := rfl
theorem r_arg0_m1 : (StableHlo.launchContents m c) (Proc.devRef .tc main_arg0) = (RA m c).a0 := rfl
theorem r_arg22_m1 : (StableHlo.launchContents m c) (Proc.devRef .tc main_arg22) = (RA m c).a22 := rfl
theorem r_arg21_m1 : (StableHlo.launchContents m c) (Proc.devRef .tc main_arg21) = (RA m c).a21 := rfl
theorem r_arg23_m1 : (StableHlo.launchContents m c) (Proc.devRef .tc main_arg23) = (RA m c).a23 := rfl
theorem r_arg4_m1 : (StableHlo.launchContents m c) (Proc.devRef .tc main_arg4) = (RA m c).a4 := rfl
theorem r_arg5_m1 : (StableHlo.launchContents m c) (Proc.devRef .tc main_arg5) = (RA m c).a5 := rfl
theorem r_arg6_m1 : (StableHlo.launchContents m c) (Proc.devRef .tc main_arg6) = (RA m c).a6 := rfl
theorem r_arg7_m1 : (StableHlo.launchContents m c) (Proc.devRef .tc main_arg7) = (RA m c).a7 := rfl
theorem r_arg8_m1 : (StableHlo.launchContents m c) (Proc.devRef .tc main_arg8) = (RA m c).a8 := rfl
theorem r_arg9_m1 : (StableHlo.launchContents m c) (Proc.devRef .tc main_arg9) = (RA m c).a9 := rfl
theorem r_arg10_m1 : (StableHlo.launchContents m c) (Proc.devRef .tc main_arg10) = (RA m c).a10 := rfl
theorem r_arg11_m1 : (StableHlo.launchContents m c) (Proc.devRef .tc main_arg11) = (RA m c).a11 := rfl
theorem r_arg12_m1 : (StableHlo.launchContents m c) (Proc.devRef .tc main_arg12) = (RA m c).a12 := rfl
theorem r_arg13_m1 : (StableHlo.launchContents m c) (Proc.devRef .tc main_arg13) = (RA m c).a13 := rfl
theorem r_arg14_m1 : (StableHlo.launchContents m c) (Proc.devRef .tc main_arg14) = (RA m c).a14 := rfl
theorem r_arg15_m1 : (StableHlo.launchContents m c) (Proc.devRef .tc main_arg15) = (RA m c).a15 := rfl
theorem r_arg16_m1 : (StableHlo.launchContents m c) (Proc.devRef .tc main_arg16) = (RA m c).a16 := rfl
theorem r_arg17_m1 : (StableHlo.launchContents m c) (Proc.devRef .tc main_arg17) = (RA m c).a17 := rfl
theorem r_arg18_m1 : (StableHlo.launchContents m c) (Proc.devRef .tc main_arg18) = (RA m c).a18 := rfl
theorem r_arg19_m1 : (StableHlo.launchContents m c) (Proc.devRef .tc main_arg19) = (RA m c).a19 := rfl

end Cert.ReferenceIdeal.Thread

end
-- ==== Proof.RThread0.lean ====
import proofs.«116822_j38594576122568_1_alg».proof.Proof.RefOps0
import proofs.«116822_j38594576122568_1_alg».proof.Proof.RThreadBase
import Idealize.ShloMosaic.Lib.StableHlo.Run

/-! Window 0 of the reference's run: the valuation after it, and what each buffer read again later holds there. -/

noncomputable section

namespace Cert.ReferenceIdeal.Thread

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

variable (m : (ℓ : Loc nD τ sig) → Buf (Elt F) ℓ) (c : Dev nD)

/-- The buffers' contents after window 0. -/
def Rv0 : Valuation τ sig (Elt F) := StableHlo.after Ops.ops0 (StableHlo.launchContents m c)

/-- The buffers window 0 writes. -/
abbrev rwrites0 : List (Ref sig .tc) := [main_v0, main_v1, main_v2, main_v3, main_v4, main_v5, main_c, main_v6, main_v7, main_c_0, main_v8, main_v9, main_v10, main_v11, main_v12, main_v13, main_v14, main_cst, main_v15, main_v16, main_v17, main_v18, main_v19, main_c_1, main_v20, main_v21, main_c_2, main_v22, main_v23, main_v24, main_v25, main_v26, main_v27, main_v28, main_cst_3, main_v29, main_v30, main_v31, main_v32, main_v33, main_c_4, main_v34, main_v35, main_c_5, main_v36, main_v37, main_v38, main_v39, main_v40, main_v41, main_v42, main_cst_6, main_v43, main_v44, main_v45, main_v46, main_v47, main_c_7, main_v48, main_v49]

theorem rwrites0_sub : (Ops.ops0 : List (HloOp τ sig (Elt F))).Forall fun op => op.writes ⊆ ((rwrites0).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem r_v3_0 : Rv0 m c (Proc.devRef .tc main_v3) = Spec.g_v3 (RA m c) := by
  show StableHlo.after Ops.ops0 (StableHlo.launchContents m c) (Proc.devRef .tc main_v3) = _
  after_results_simp
  try simp only [r_arg1_m1 m c, r_arg2_m1 m c, r_arg3_m1 m c]
  rfl
theorem r_c_0 : Rv0 m c (Proc.devRef .tc main_c) = Spec.g_c (RA m c) := by
  show StableHlo.after Ops.ops0 (StableHlo.launchContents m c) (Proc.devRef .tc main_c) = _
  after_results_simp
  rfl
theorem r_v17_0 : Rv0 m c (Proc.devRef .tc main_v17) = Spec.g_v17 (RA m c) := by
  show StableHlo.after Ops.ops0 (StableHlo.launchContents m c) (Proc.devRef .tc main_v17) = _
  after_results_simp
  try simp only [r_arg20_m1 m c, r_arg0_m1 m c]
  rfl
theorem r_c_1_0 : Rv0 m c (Proc.devRef .tc main_c_1) = Spec.g_c_1 (RA m c) := by
  show StableHlo.after Ops.ops0 (StableHlo.launchContents m c) (Proc.devRef .tc main_c_1) = _
  after_results_simp
  rfl
theorem r_v31_0 : Rv0 m c (Proc.devRef .tc main_v31) = Spec.g_v31 (RA m c) := by
  show StableHlo.after Ops.ops0 (StableHlo.launchContents m c) (Proc.devRef .tc main_v31) = _
  after_results_simp
  try simp only [r_arg22_m1 m c, r_arg1_m1 m c, r_arg2_m1 m c, r_arg3_m1 m c]
  rfl
theorem r_c_4_0 : Rv0 m c (Proc.devRef .tc main_c_4) = Spec.g_c_4 (RA m c) := by
  show StableHlo.after Ops.ops0 (StableHlo.launchContents m c) (Proc.devRef .tc main_c_4) = _
  after_results_simp
  rfl
theorem r_v45_0 : Rv0 m c (Proc.devRef .tc main_v45) = Spec.g_v45 (RA m c) := by
  show StableHlo.after Ops.ops0 (StableHlo.launchContents m c) (Proc.devRef .tc main_v45) = _
  after_results_simp
  try simp only [r_arg21_m1 m c, r_arg0_m1 m c]
  rfl
theorem r_v47_0 : Rv0 m c (Proc.devRef .tc main_v47) = Spec.g_v47 (RA m c) := by
  show StableHlo.after Ops.ops0 (StableHlo.launchContents m c) (Proc.devRef .tc main_v47) = _
  after_results_simp
  try simp only [r_arg23_m1 m c]
  rfl
theorem r_c_7_0 : Rv0 m c (Proc.devRef .tc main_c_7) = Spec.g_c_7 (RA m c) := by
  show StableHlo.after Ops.ops0 (StableHlo.launchContents m c) (Proc.devRef .tc main_c_7) = _
  after_results_simp
  rfl
theorem r_v49_0 : Rv0 m c (Proc.devRef .tc main_v49) = Spec.g_v49 (RA m c) := by
  show StableHlo.after Ops.ops0 (StableHlo.launchContents m c) (Proc.devRef .tc main_v49) = _
  after_results_simp
  try simp only [r_arg23_m1 m c]
  rfl
theorem r_arg23_0 : Rv0 m c (Proc.devRef .tc main_arg23) = (RA m c).a23 :=
  (StableHlo.after_of_writes_sub Ops.ops0 (StableHlo.launchContents m c) rwrites0_sub (by decide)).trans (r_arg23_m1 m c)
theorem r_arg4_0 : Rv0 m c (Proc.devRef .tc main_arg4) = (RA m c).a4 :=
  (StableHlo.after_of_writes_sub Ops.ops0 (StableHlo.launchContents m c) rwrites0_sub (by decide)).trans (r_arg4_m1 m c)
theorem r_arg5_0 : Rv0 m c (Proc.devRef .tc main_arg5) = (RA m c).a5 :=
  (StableHlo.after_of_writes_sub Ops.ops0 (StableHlo.launchContents m c) rwrites0_sub (by decide)).trans (r_arg5_m1 m c)
theorem r_arg6_0 : Rv0 m c (Proc.devRef .tc main_arg6) = (RA m c).a6 :=
  (StableHlo.after_of_writes_sub Ops.ops0 (StableHlo.launchContents m c) rwrites0_sub (by decide)).trans (r_arg6_m1 m c)
theorem r_arg7_0 : Rv0 m c (Proc.devRef .tc main_arg7) = (RA m c).a7 :=
  (StableHlo.after_of_writes_sub Ops.ops0 (StableHlo.launchContents m c) rwrites0_sub (by decide)).trans (r_arg7_m1 m c)
theorem r_arg8_0 : Rv0 m c (Proc.devRef .tc main_arg8) = (RA m c).a8 :=
  (StableHlo.after_of_writes_sub Ops.ops0 (StableHlo.launchContents m c) rwrites0_sub (by decide)).trans (r_arg8_m1 m c)
theorem r_arg9_0 : Rv0 m c (Proc.devRef .tc main_arg9) = (RA m c).a9 :=
  (StableHlo.after_of_writes_sub Ops.ops0 (StableHlo.launchContents m c) rwrites0_sub (by decide)).trans (r_arg9_m1 m c)
theorem r_arg10_0 : Rv0 m c (Proc.devRef .tc main_arg10) = (RA m c).a10 :=
  (StableHlo.after_of_writes_sub Ops.ops0 (StableHlo.launchContents m c) rwrites0_sub (by decide)).trans (r_arg10_m1 m c)
theorem r_arg11_0 : Rv0 m c (Proc.devRef .tc main_arg11) = (RA m c).a11 :=
  (StableHlo.after_of_writes_sub Ops.ops0 (StableHlo.launchContents m c) rwrites0_sub (by decide)).trans (r_arg11_m1 m c)
theorem r_arg12_0 : Rv0 m c (Proc.devRef .tc main_arg12) = (RA m c).a12 :=
  (StableHlo.after_of_writes_sub Ops.ops0 (StableHlo.launchContents m c) rwrites0_sub (by decide)).trans (r_arg12_m1 m c)
theorem r_arg13_0 : Rv0 m c (Proc.devRef .tc main_arg13) = (RA m c).a13 :=
  (StableHlo.after_of_writes_sub Ops.ops0 (StableHlo.launchContents m c) rwrites0_sub (by decide)).trans (r_arg13_m1 m c)
theorem r_arg14_0 : Rv0 m c (Proc.devRef .tc main_arg14) = (RA m c).a14 :=
  (StableHlo.after_of_writes_sub Ops.ops0 (StableHlo.launchContents m c) rwrites0_sub (by decide)).trans (r_arg14_m1 m c)
theorem r_arg15_0 : Rv0 m c (Proc.devRef .tc main_arg15) = (RA m c).a15 :=
  (StableHlo.after_of_writes_sub Ops.ops0 (StableHlo.launchContents m c) rwrites0_sub (by decide)).trans (r_arg15_m1 m c)
theorem r_arg20_0 : Rv0 m c (Proc.devRef .tc main_arg20) = (RA m c).a20 :=
  (StableHlo.after_of_writes_sub Ops.ops0 (StableHlo.launchContents m c) rwrites0_sub (by decide)).trans (r_arg20_m1 m c)
theorem r_arg22_0 : Rv0 m c (Proc.devRef .tc main_arg22) = (RA m c).a22 :=
  (StableHlo.after_of_writes_sub Ops.ops0 (StableHlo.launchContents m c) rwrites0_sub (by decide)).trans (r_arg22_m1 m c)
theorem r_arg21_0 : Rv0 m c (Proc.devRef .tc main_arg21) = (RA m c).a21 :=
  (StableHlo.after_of_writes_sub Ops.ops0 (StableHlo.launchContents m c) rwrites0_sub (by decide)).trans (r_arg21_m1 m c)
theorem r_arg16_0 : Rv0 m c (Proc.devRef .tc main_arg16) = (RA m c).a16 :=
  (StableHlo.after_of_writes_sub Ops.ops0 (StableHlo.launchContents m c) rwrites0_sub (by decide)).trans (r_arg16_m1 m c)
theorem r_arg17_0 : Rv0 m c (Proc.devRef .tc main_arg17) = (RA m c).a17 :=
  (StableHlo.after_of_writes_sub Ops.ops0 (StableHlo.launchContents m c) rwrites0_sub (by decide)).trans (r_arg17_m1 m c)
theorem r_arg18_0 : Rv0 m c (Proc.devRef .tc main_arg18) = (RA m c).a18 :=
  (StableHlo.after_of_writes_sub Ops.ops0 (StableHlo.launchContents m c) rwrites0_sub (by decide)).trans (r_arg18_m1 m c)
theorem r_arg19_0 : Rv0 m c (Proc.devRef .tc main_arg19) = (RA m c).a19 :=
  (StableHlo.after_of_writes_sub Ops.ops0 (StableHlo.launchContents m c) rwrites0_sub (by decide)).trans (r_arg19_m1 m c)
theorem r_arg0_0 : Rv0 m c (Proc.devRef .tc main_arg0) = (RA m c).a0 :=
  (StableHlo.after_of_writes_sub Ops.ops0 (StableHlo.launchContents m c) rwrites0_sub (by decide)).trans (r_arg0_m1 m c)
theorem r_arg1_0 : Rv0 m c (Proc.devRef .tc main_arg1) = (RA m c).a1 :=
  (StableHlo.after_of_writes_sub Ops.ops0 (StableHlo.launchContents m c) rwrites0_sub (by decide)).trans (r_arg1_m1 m c)
theorem r_arg2_0 : Rv0 m c (Proc.devRef .tc main_arg2) = (RA m c).a2 :=
  (StableHlo.after_of_writes_sub Ops.ops0 (StableHlo.launchContents m c) rwrites0_sub (by decide)).trans (r_arg2_m1 m c)
theorem r_arg3_0 : Rv0 m c (Proc.devRef .tc main_arg3) = (RA m c).a3 :=
  (StableHlo.after_of_writes_sub Ops.ops0 (StableHlo.launchContents m c) rwrites0_sub (by decide)).trans (r_arg3_m1 m c)

end Cert.ReferenceIdeal.Thread

end
-- ==== Proof.RThread1.lean ====
import proofs.«116822_j38594576122568_1_alg».proof.Proof.RefOps1
import proofs.«116822_j38594576122568_1_alg».proof.Proof.RThread0
import Idealize.ShloMosaic.Lib.StableHlo.Run

/-! Window 1 of the reference's run: the valuation after it, and what each buffer read again later holds there. -/

noncomputable section

namespace Cert.ReferenceIdeal.Thread

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

variable (m : (ℓ : Loc nD τ sig) → Buf (Elt F) ℓ) (c : Dev nD)

/-- The buffers' contents after window 1. -/
def Rv1 : Valuation τ sig (Elt F) := StableHlo.after Ops.ops1 (Rv0 m c)

/-- The buffers window 1 writes. -/
abbrev rwrites1 : List (Ref sig .tc) := [main_c_8, main_v50, main_v51, main_v52, main_v53, main_v54, main_v55, main_v56, main_cst_9, main_v57, main_v58, main_v59, main_v60, main_v61, main_v62, main_v63, main_v64, main_v65, main_v66, main_v67, main_v68, main_v69, main_v70, main_v71, main_v72, main_v73, main_v74, main_v75, main_cst_10, main_v76, main_cst_11, main_v77, main_v78, main_c_12, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v79, main_v80, main_v81, main_v82, main_v83, main_v84, main_v85, main_cst_13, main_v86, main_v87, main_v88, main_v89, main_v90, main_v91, main_v92, main_v93, main_v94, main_call1_cst, main_call1_v0, main_v95, main_v96, main_v97, main_v98, main_v99, main_v100, main_v101, main_v102, main_v103]

theorem rwrites1_sub : (Ops.ops1 : List (HloOp τ sig (Elt F))).Forall fun op => op.writes ⊆ ((rwrites1).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem r_v59_1 : Rv1 m c (Proc.devRef .tc main_v59) = Spec.g_v59 (RA m c) := by
  show StableHlo.after Ops.ops1 (Rv0 m c) (Proc.devRef .tc main_v59) = _
  after_results_simp
  try simp only [r_arg23_0 m c, r_v3_0 m c, r_v49_0 m c, r_v47_0 m c]
  rfl
theorem r_v61_1 : Rv1 m c (Proc.devRef .tc main_v61) = Spec.g_v61 (RA m c) := by
  show StableHlo.after Ops.ops1 (Rv0 m c) (Proc.devRef .tc main_v61) = _
  after_results_simp
  try simp only [r_arg4_0 m c]
  rfl
theorem r_v63_1 : Rv1 m c (Proc.devRef .tc main_v63) = Spec.g_v63 (RA m c) := by
  show StableHlo.after Ops.ops1 (Rv0 m c) (Proc.devRef .tc main_v63) = _
  after_results_simp
  try simp only [r_arg5_0 m c]
  rfl
theorem r_v65_1 : Rv1 m c (Proc.devRef .tc main_v65) = Spec.g_v65 (RA m c) := by
  show StableHlo.after Ops.ops1 (Rv0 m c) (Proc.devRef .tc main_v65) = _
  after_results_simp
  try simp only [r_arg6_0 m c]
  rfl
theorem r_v67_1 : Rv1 m c (Proc.devRef .tc main_v67) = Spec.g_v67 (RA m c) := by
  show StableHlo.after Ops.ops1 (Rv0 m c) (Proc.devRef .tc main_v67) = _
  after_results_simp
  try simp only [r_arg7_0 m c]
  rfl
theorem r_v69_1 : Rv1 m c (Proc.devRef .tc main_v69) = Spec.g_v69 (RA m c) := by
  show StableHlo.after Ops.ops1 (Rv0 m c) (Proc.devRef .tc main_v69) = _
  after_results_simp
  try simp only [r_arg8_0 m c]
  rfl
theorem r_v71_1 : Rv1 m c (Proc.devRef .tc main_v71) = Spec.g_v71 (RA m c) := by
  show StableHlo.after Ops.ops1 (Rv0 m c) (Proc.devRef .tc main_v71) = _
  after_results_simp
  try simp only [r_arg9_0 m c]
  rfl
theorem r_v75_1 : Rv1 m c (Proc.devRef .tc main_v75) = Spec.g_v75 (RA m c) := by
  show StableHlo.after Ops.ops1 (Rv0 m c) (Proc.devRef .tc main_v75) = _
  after_results_simp
  try simp only [r_v17_0 m c, r_arg4_0 m c, r_arg5_0 m c]
  rfl
theorem r_v78_1 : Rv1 m c (Proc.devRef .tc main_v78) = Spec.g_v78 (RA m c) := by
  show StableHlo.after Ops.ops1 (Rv0 m c) (Proc.devRef .tc main_v78) = _
  after_results_simp
  try simp only [r_v17_0 m c, r_arg4_0 m c, r_arg5_0 m c]
  rfl
theorem r_c_12_1 : Rv1 m c (Proc.devRef .tc main_c_12) = Spec.g_c_12 (RA m c) := by
  show StableHlo.after Ops.ops1 (Rv0 m c) (Proc.devRef .tc main_c_12) = _
  after_results_simp
  rfl
theorem r_v79_1 : Rv1 m c (Proc.devRef .tc main_v79) = Spec.g_v79 (RA m c) := by
  show StableHlo.after Ops.ops1 (Rv0 m c) (Proc.devRef .tc main_v79) = _
  after_results_simp
  try simp only [r_v17_0 m c, r_arg4_0 m c, r_arg5_0 m c]
  rfl
theorem r_v99_1 : Rv1 m c (Proc.devRef .tc main_v99) = Spec.g_v99 (RA m c) := by
  show StableHlo.after Ops.ops1 (Rv0 m c) (Proc.devRef .tc main_v99) = _
  after_results_simp
  try simp only [r_arg6_0 m c, r_v17_0 m c, r_arg4_0 m c, r_arg5_0 m c, r_arg7_0 m c, r_arg8_0 m c, r_arg9_0 m c]
  rfl
theorem r_v101_1 : Rv1 m c (Proc.devRef .tc main_v101) = Spec.g_v101 (RA m c) := by
  show StableHlo.after Ops.ops1 (Rv0 m c) (Proc.devRef .tc main_v101) = _
  after_results_simp
  try simp only [r_arg4_0 m c]
  rfl
theorem r_v103_1 : Rv1 m c (Proc.devRef .tc main_v103) = Spec.g_v103 (RA m c) := by
  show StableHlo.after Ops.ops1 (Rv0 m c) (Proc.devRef .tc main_v103) = _
  after_results_simp
  try simp only [r_arg5_0 m c]
  rfl
theorem r_arg6_1 : Rv1 m c (Proc.devRef .tc main_arg6) = (RA m c).a6 :=
  (StableHlo.after_of_writes_sub Ops.ops1 (Rv0 m c) rwrites1_sub (by decide)).trans (r_arg6_0 m c)
theorem r_arg7_1 : Rv1 m c (Proc.devRef .tc main_arg7) = (RA m c).a7 :=
  (StableHlo.after_of_writes_sub Ops.ops1 (Rv0 m c) rwrites1_sub (by decide)).trans (r_arg7_0 m c)
theorem r_arg8_1 : Rv1 m c (Proc.devRef .tc main_arg8) = (RA m c).a8 :=
  (StableHlo.after_of_writes_sub Ops.ops1 (Rv0 m c) rwrites1_sub (by decide)).trans (r_arg8_0 m c)
theorem r_arg9_1 : Rv1 m c (Proc.devRef .tc main_arg9) = (RA m c).a9 :=
  (StableHlo.after_of_writes_sub Ops.ops1 (Rv0 m c) rwrites1_sub (by decide)).trans (r_arg9_0 m c)
theorem r_v31_1 : Rv1 m c (Proc.devRef .tc main_v31) = Spec.g_v31 (RA m c) :=
  (StableHlo.after_of_writes_sub Ops.ops1 (Rv0 m c) rwrites1_sub (by decide)).trans (r_v31_0 m c)
theorem r_arg4_1 : Rv1 m c (Proc.devRef .tc main_arg4) = (RA m c).a4 :=
  (StableHlo.after_of_writes_sub Ops.ops1 (Rv0 m c) rwrites1_sub (by decide)).trans (r_arg4_0 m c)
theorem r_arg5_1 : Rv1 m c (Proc.devRef .tc main_arg5) = (RA m c).a5 :=
  (StableHlo.after_of_writes_sub Ops.ops1 (Rv0 m c) rwrites1_sub (by decide)).trans (r_arg5_0 m c)
theorem r_v45_1 : Rv1 m c (Proc.devRef .tc main_v45) = Spec.g_v45 (RA m c) :=
  (StableHlo.after_of_writes_sub Ops.ops1 (Rv0 m c) rwrites1_sub (by decide)).trans (r_v45_0 m c)
theorem r_arg10_1 : Rv1 m c (Proc.devRef .tc main_arg10) = (RA m c).a10 :=
  (StableHlo.after_of_writes_sub Ops.ops1 (Rv0 m c) rwrites1_sub (by decide)).trans (r_arg10_0 m c)
theorem r_arg11_1 : Rv1 m c (Proc.devRef .tc main_arg11) = (RA m c).a11 :=
  (StableHlo.after_of_writes_sub Ops.ops1 (Rv0 m c) rwrites1_sub (by decide)).trans (r_arg11_0 m c)
theorem r_arg12_1 : Rv1 m c (Proc.devRef .tc main_arg12) = (RA m c).a12 :=
  (StableHlo.after_of_writes_sub Ops.ops1 (Rv0 m c) rwrites1_sub (by decide)).trans (r_arg12_0 m c)
theorem r_arg13_1 : Rv1 m c (Proc.devRef .tc main_arg13) = (RA m c).a13 :=
  (StableHlo.after_of_writes_sub Ops.ops1 (Rv0 m c) rwrites1_sub (by decide)).trans (r_arg13_0 m c)
theorem r_arg14_1 : Rv1 m c (Proc.devRef .tc main_arg14) = (RA m c).a14 :=
  (StableHlo.after_of_writes_sub Ops.ops1 (Rv0 m c) rwrites1_sub (by decide)).trans (r_arg14_0 m c)
theorem r_arg15_1 : Rv1 m c (Proc.devRef .tc main_arg15) = (RA m c).a15 :=
  (StableHlo.after_of_writes_sub Ops.ops1 (Rv0 m c) rwrites1_sub (by decide)).trans (r_arg15_0 m c)
theorem r_arg20_1 : Rv1 m c (Proc.devRef .tc main_arg20) = (RA m c).a20 :=
  (StableHlo.after_of_writes_sub Ops.ops1 (Rv0 m c) rwrites1_sub (by decide)).trans (r_arg20_0 m c)
theorem r_arg22_1 : Rv1 m c (Proc.devRef .tc main_arg22) = (RA m c).a22 :=
  (StableHlo.after_of_writes_sub Ops.ops1 (Rv0 m c) rwrites1_sub (by decide)).trans (r_arg22_0 m c)
theorem r_arg21_1 : Rv1 m c (Proc.devRef .tc main_arg21) = (RA m c).a21 :=
  (StableHlo.after_of_writes_sub Ops.ops1 (Rv0 m c) rwrites1_sub (by decide)).trans (r_arg21_0 m c)
theorem r_arg23_1 : Rv1 m c (Proc.devRef .tc main_arg23) = (RA m c).a23 :=
  (StableHlo.after_of_writes_sub Ops.ops1 (Rv0 m c) rwrites1_sub (by decide)).trans (r_arg23_0 m c)
theorem r_arg16_1 : Rv1 m c (Proc.devRef .tc main_arg16) = (RA m c).a16 :=
  (StableHlo.after_of_writes_sub Ops.ops1 (Rv0 m c) rwrites1_sub (by decide)).trans (r_arg16_0 m c)
theorem r_arg17_1 : Rv1 m c (Proc.devRef .tc main_arg17) = (RA m c).a17 :=
  (StableHlo.after_of_writes_sub Ops.ops1 (Rv0 m c) rwrites1_sub (by decide)).trans (r_arg17_0 m c)
theorem r_arg18_1 : Rv1 m c (Proc.devRef .tc main_arg18) = (RA m c).a18 :=
  (StableHlo.after_of_writes_sub Ops.ops1 (Rv0 m c) rwrites1_sub (by decide)).trans (r_arg18_0 m c)
theorem r_arg19_1 : Rv1 m c (Proc.devRef .tc main_arg19) = (RA m c).a19 :=
  (StableHlo.after_of_writes_sub Ops.ops1 (Rv0 m c) rwrites1_sub (by decide)).trans (r_arg19_0 m c)
theorem r_arg0_1 : Rv1 m c (Proc.devRef .tc main_arg0) = (RA m c).a0 :=
  (StableHlo.after_of_writes_sub Ops.ops1 (Rv0 m c) rwrites1_sub (by decide)).trans (r_arg0_0 m c)
theorem r_arg1_1 : Rv1 m c (Proc.devRef .tc main_arg1) = (RA m c).a1 :=
  (StableHlo.after_of_writes_sub Ops.ops1 (Rv0 m c) rwrites1_sub (by decide)).trans (r_arg1_0 m c)
theorem r_arg2_1 : Rv1 m c (Proc.devRef .tc main_arg2) = (RA m c).a2 :=
  (StableHlo.after_of_writes_sub Ops.ops1 (Rv0 m c) rwrites1_sub (by decide)).trans (r_arg2_0 m c)
theorem r_arg3_1 : Rv1 m c (Proc.devRef .tc main_arg3) = (RA m c).a3 :=
  (StableHlo.after_of_writes_sub Ops.ops1 (Rv0 m c) rwrites1_sub (by decide)).trans (r_arg3_0 m c)

end Cert.ReferenceIdeal.Thread

end
-- ==== Proof.RThread2.lean ====
import proofs.«116822_j38594576122568_1_alg».proof.Proof.RefOps2
import proofs.«116822_j38594576122568_1_alg».proof.Proof.RThread1
import Idealize.ShloMosaic.Lib.StableHlo.Run

/-! Window 2 of the reference's run: the valuation after it, and what each buffer read again later holds there. -/

noncomputable section

namespace Cert.ReferenceIdeal.Thread

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

variable (m : (ℓ : Loc nD τ sig) → Buf (Elt F) ℓ) (c : Dev nD)

/-- The buffers' contents after window 2. -/
def Rv2 : Valuation τ sig (Elt F) := StableHlo.after Ops.ops2 (Rv1 m c)

/-- The buffers window 2 writes. -/
abbrev rwrites2 : List (Ref sig .tc) := [main_v104, main_v105, main_v106, main_v107, main_v108, main_v109, main_v110, main_v111, main_v112, main_v113, main_v114, main_v115, main_cst_14, main_v116, main_cst_15, main_v117, main_v118, main_c_16, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v119, main_v120, main_v121, main_v122, main_v123, main_v124, main_v125, main_cst_17, main_v126, main_v127, main_v128, main_v129, main_v130, main_v131, main_v132, main_v133, main_v134, main_call3_cst, main_call3_v0, main_v135, main_v136, main_v137, main_v138, main_v139, main_v140, main_call4_cst, main_call4_v0, main_call4_v1, main_call4_cst_0, main_call4_v2, main_call4_v3, main_v141, main_v142, main_v143, main_v144, main_v145, main_v146, main_v147, main_v148, main_v149, main_v150, main_v151, main_v152, main_v153, main_v154, main_v155, main_v156, main_v157, main_cst_18, main_v158]

theorem rwrites2_sub : (Ops.ops2 : List (HloOp τ sig (Elt F))).Forall fun op => op.writes ⊆ ((rwrites2).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem r_v105_2 : Rv2 m c (Proc.devRef .tc main_v105) = Spec.g_v105 (RA m c) := by
  show StableHlo.after Ops.ops2 (Rv1 m c) (Proc.devRef .tc main_v105) = _
  after_results_simp
  try simp only [r_arg6_1 m c]
  rfl
theorem r_v107_2 : Rv2 m c (Proc.devRef .tc main_v107) = Spec.g_v107 (RA m c) := by
  show StableHlo.after Ops.ops2 (Rv1 m c) (Proc.devRef .tc main_v107) = _
  after_results_simp
  try simp only [r_arg7_1 m c]
  rfl
theorem r_v109_2 : Rv2 m c (Proc.devRef .tc main_v109) = Spec.g_v109 (RA m c) := by
  show StableHlo.after Ops.ops2 (Rv1 m c) (Proc.devRef .tc main_v109) = _
  after_results_simp
  try simp only [r_arg8_1 m c]
  rfl
theorem r_v111_2 : Rv2 m c (Proc.devRef .tc main_v111) = Spec.g_v111 (RA m c) := by
  show StableHlo.after Ops.ops2 (Rv1 m c) (Proc.devRef .tc main_v111) = _
  after_results_simp
  try simp only [r_arg9_1 m c]
  rfl
theorem r_v115_2 : Rv2 m c (Proc.devRef .tc main_v115) = Spec.g_v115 (RA m c) := by
  show StableHlo.after Ops.ops2 (Rv1 m c) (Proc.devRef .tc main_v115) = _
  after_results_simp
  try simp only [r_v31_1 m c, r_v101_1 m c, r_v103_1 m c]
  rfl
theorem r_v118_2 : Rv2 m c (Proc.devRef .tc main_v118) = Spec.g_v118 (RA m c) := by
  show StableHlo.after Ops.ops2 (Rv1 m c) (Proc.devRef .tc main_v118) = _
  after_results_simp
  try simp only [r_v31_1 m c, r_v101_1 m c, r_v103_1 m c]
  rfl
theorem r_c_16_2 : Rv2 m c (Proc.devRef .tc main_c_16) = Spec.g_c_16 (RA m c) := by
  show StableHlo.after Ops.ops2 (Rv1 m c) (Proc.devRef .tc main_c_16) = _
  after_results_simp
  rfl
theorem r_v119_2 : Rv2 m c (Proc.devRef .tc main_v119) = Spec.g_v119 (RA m c) := by
  show StableHlo.after Ops.ops2 (Rv1 m c) (Proc.devRef .tc main_v119) = _
  after_results_simp
  try simp only [r_v31_1 m c, r_v101_1 m c, r_v103_1 m c]
  rfl
theorem r_v141_2 : Rv2 m c (Proc.devRef .tc main_v141) = Spec.g_v141 (RA m c) := by
  show StableHlo.after Ops.ops2 (Rv1 m c) (Proc.devRef .tc main_v141) = _
  after_results_simp
  try simp only [r_v99_1 m c, r_arg6_1 m c, r_v31_1 m c, r_v101_1 m c, r_v103_1 m c, r_arg7_1 m c, r_arg8_1 m c, r_arg9_1 m c]
  rfl
theorem r_v143_2 : Rv2 m c (Proc.devRef .tc main_v143) = Spec.g_v143 (RA m c) := by
  show StableHlo.after Ops.ops2 (Rv1 m c) (Proc.devRef .tc main_v143) = _
  after_results_simp
  try simp only [r_arg4_1 m c]
  rfl
theorem r_v145_2 : Rv2 m c (Proc.devRef .tc main_v145) = Spec.g_v145 (RA m c) := by
  show StableHlo.after Ops.ops2 (Rv1 m c) (Proc.devRef .tc main_v145) = _
  after_results_simp
  try simp only [r_arg5_1 m c]
  rfl
theorem r_v147_2 : Rv2 m c (Proc.devRef .tc main_v147) = Spec.g_v147 (RA m c) := by
  show StableHlo.after Ops.ops2 (Rv1 m c) (Proc.devRef .tc main_v147) = _
  after_results_simp
  try simp only [r_arg6_1 m c]
  rfl
theorem r_v149_2 : Rv2 m c (Proc.devRef .tc main_v149) = Spec.g_v149 (RA m c) := by
  show StableHlo.after Ops.ops2 (Rv1 m c) (Proc.devRef .tc main_v149) = _
  after_results_simp
  try simp only [r_arg7_1 m c]
  rfl
theorem r_v151_2 : Rv2 m c (Proc.devRef .tc main_v151) = Spec.g_v151 (RA m c) := by
  show StableHlo.after Ops.ops2 (Rv1 m c) (Proc.devRef .tc main_v151) = _
  after_results_simp
  try simp only [r_arg8_1 m c]
  rfl
theorem r_v153_2 : Rv2 m c (Proc.devRef .tc main_v153) = Spec.g_v153 (RA m c) := by
  show StableHlo.after Ops.ops2 (Rv1 m c) (Proc.devRef .tc main_v153) = _
  after_results_simp
  try simp only [r_arg9_1 m c]
  rfl
theorem r_v157_2 : Rv2 m c (Proc.devRef .tc main_v157) = Spec.g_v157 (RA m c) := by
  show StableHlo.after Ops.ops2 (Rv1 m c) (Proc.devRef .tc main_v157) = _
  after_results_simp
  try simp only [r_v45_1 m c, r_arg4_1 m c, r_arg5_1 m c]
  rfl
theorem r_v158_2 : Rv2 m c (Proc.devRef .tc main_v158) = Spec.g_v158 (RA m c) := by
  show StableHlo.after Ops.ops2 (Rv1 m c) (Proc.devRef .tc main_v158) = _
  after_results_simp
  try simp only [r_v45_1 m c, r_arg4_1 m c, r_arg5_1 m c]
  rfl
theorem r_arg4_2 : Rv2 m c (Proc.devRef .tc main_arg4) = (RA m c).a4 :=
  (StableHlo.after_of_writes_sub Ops.ops2 (Rv1 m c) rwrites2_sub (by decide)).trans (r_arg4_1 m c)
theorem r_arg5_2 : Rv2 m c (Proc.devRef .tc main_arg5) = (RA m c).a5 :=
  (StableHlo.after_of_writes_sub Ops.ops2 (Rv1 m c) rwrites2_sub (by decide)).trans (r_arg5_1 m c)
theorem r_arg6_2 : Rv2 m c (Proc.devRef .tc main_arg6) = (RA m c).a6 :=
  (StableHlo.after_of_writes_sub Ops.ops2 (Rv1 m c) rwrites2_sub (by decide)).trans (r_arg6_1 m c)
theorem r_arg7_2 : Rv2 m c (Proc.devRef .tc main_arg7) = (RA m c).a7 :=
  (StableHlo.after_of_writes_sub Ops.ops2 (Rv1 m c) rwrites2_sub (by decide)).trans (r_arg7_1 m c)
theorem r_arg8_2 : Rv2 m c (Proc.devRef .tc main_arg8) = (RA m c).a8 :=
  (StableHlo.after_of_writes_sub Ops.ops2 (Rv1 m c) rwrites2_sub (by decide)).trans (r_arg8_1 m c)
theorem r_arg9_2 : Rv2 m c (Proc.devRef .tc main_arg9) = (RA m c).a9 :=
  (StableHlo.after_of_writes_sub Ops.ops2 (Rv1 m c) rwrites2_sub (by decide)).trans (r_arg9_1 m c)
theorem r_v59_2 : Rv2 m c (Proc.devRef .tc main_v59) = Spec.g_v59 (RA m c) :=
  (StableHlo.after_of_writes_sub Ops.ops2 (Rv1 m c) rwrites2_sub (by decide)).trans (r_v59_1 m c)
theorem r_arg10_2 : Rv2 m c (Proc.devRef .tc main_arg10) = (RA m c).a10 :=
  (StableHlo.after_of_writes_sub Ops.ops2 (Rv1 m c) rwrites2_sub (by decide)).trans (r_arg10_1 m c)
theorem r_arg11_2 : Rv2 m c (Proc.devRef .tc main_arg11) = (RA m c).a11 :=
  (StableHlo.after_of_writes_sub Ops.ops2 (Rv1 m c) rwrites2_sub (by decide)).trans (r_arg11_1 m c)
theorem r_arg12_2 : Rv2 m c (Proc.devRef .tc main_arg12) = (RA m c).a12 :=
  (StableHlo.after_of_writes_sub Ops.ops2 (Rv1 m c) rwrites2_sub (by decide)).trans (r_arg12_1 m c)
theorem r_arg13_2 : Rv2 m c (Proc.devRef .tc main_arg13) = (RA m c).a13 :=
  (StableHlo.after_of_writes_sub Ops.ops2 (Rv1 m c) rwrites2_sub (by decide)).trans (r_arg13_1 m c)
theorem r_arg14_2 : Rv2 m c (Proc.devRef .tc main_arg14) = (RA m c).a14 :=
  (StableHlo.after_of_writes_sub Ops.ops2 (Rv1 m c) rwrites2_sub (by decide)).trans (r_arg14_1 m c)
theorem r_arg15_2 : Rv2 m c (Proc.devRef .tc main_arg15) = (RA m c).a15 :=
  (StableHlo.after_of_writes_sub Ops.ops2 (Rv1 m c) rwrites2_sub (by decide)).trans (r_arg15_1 m c)
theorem r_arg20_2 : Rv2 m c (Proc.devRef .tc main_arg20) = (RA m c).a20 :=
  (StableHlo.after_of_writes_sub Ops.ops2 (Rv1 m c) rwrites2_sub (by decide)).trans (r_arg20_1 m c)
theorem r_arg22_2 : Rv2 m c (Proc.devRef .tc main_arg22) = (RA m c).a22 :=
  (StableHlo.after_of_writes_sub Ops.ops2 (Rv1 m c) rwrites2_sub (by decide)).trans (r_arg22_1 m c)
theorem r_arg21_2 : Rv2 m c (Proc.devRef .tc main_arg21) = (RA m c).a21 :=
  (StableHlo.after_of_writes_sub Ops.ops2 (Rv1 m c) rwrites2_sub (by decide)).trans (r_arg21_1 m c)
theorem r_arg23_2 : Rv2 m c (Proc.devRef .tc main_arg23) = (RA m c).a23 :=
  (StableHlo.after_of_writes_sub Ops.ops2 (Rv1 m c) rwrites2_sub (by decide)).trans (r_arg23_1 m c)
theorem r_arg16_2 : Rv2 m c (Proc.devRef .tc main_arg16) = (RA m c).a16 :=
  (StableHlo.after_of_writes_sub Ops.ops2 (Rv1 m c) rwrites2_sub (by decide)).trans (r_arg16_1 m c)
theorem r_arg17_2 : Rv2 m c (Proc.devRef .tc main_arg17) = (RA m c).a17 :=
  (StableHlo.after_of_writes_sub Ops.ops2 (Rv1 m c) rwrites2_sub (by decide)).trans (r_arg17_1 m c)
theorem r_arg18_2 : Rv2 m c (Proc.devRef .tc main_arg18) = (RA m c).a18 :=
  (StableHlo.after_of_writes_sub Ops.ops2 (Rv1 m c) rwrites2_sub (by decide)).trans (r_arg18_1 m c)
theorem r_arg19_2 : Rv2 m c (Proc.devRef .tc main_arg19) = (RA m c).a19 :=
  (StableHlo.after_of_writes_sub Ops.ops2 (Rv1 m c) rwrites2_sub (by decide)).trans (r_arg19_1 m c)
theorem r_arg0_2 : Rv2 m c (Proc.devRef .tc main_arg0) = (RA m c).a0 :=
  (StableHlo.after_of_writes_sub Ops.ops2 (Rv1 m c) rwrites2_sub (by decide)).trans (r_arg0_1 m c)
theorem r_arg1_2 : Rv2 m c (Proc.devRef .tc main_arg1) = (RA m c).a1 :=
  (StableHlo.after_of_writes_sub Ops.ops2 (Rv1 m c) rwrites2_sub (by decide)).trans (r_arg1_1 m c)
theorem r_arg2_2 : Rv2 m c (Proc.devRef .tc main_arg2) = (RA m c).a2 :=
  (StableHlo.after_of_writes_sub Ops.ops2 (Rv1 m c) rwrites2_sub (by decide)).trans (r_arg2_1 m c)
theorem r_arg3_2 : Rv2 m c (Proc.devRef .tc main_arg3) = (RA m c).a3 :=
  (StableHlo.after_of_writes_sub Ops.ops2 (Rv1 m c) rwrites2_sub (by decide)).trans (r_arg3_1 m c)

end Cert.ReferenceIdeal.Thread

end
-- ==== Proof.RThread3.lean ====
import proofs.«116822_j38594576122568_1_alg».proof.Proof.RefOps3
import proofs.«116822_j38594576122568_1_alg».proof.Proof.RThread2
import Idealize.ShloMosaic.Lib.StableHlo.Run

/-! Window 3 of the reference's run: the valuation after it, and what each buffer read again later holds there. -/

noncomputable section

namespace Cert.ReferenceIdeal.Thread

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

variable (m : (ℓ : Loc nD τ sig) → Buf (Elt F) ℓ) (c : Dev nD)

/-- The buffers' contents after window 3. -/
def Rv3 : Valuation τ sig (Elt F) := StableHlo.after Ops.ops3 (Rv2 m c)

/-- The buffers window 3 writes. -/
abbrev rwrites3 : List (Ref sig .tc) := [main_cst_19, main_v159, main_v160, main_c_20, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v161, main_v162, main_v163, main_v164, main_v165, main_v166, main_v167, main_cst_21, main_v168, main_v169, main_v170, main_v171, main_v172, main_v173, main_v174, main_v175, main_v176, main_call6_cst, main_call6_v0, main_v177, main_v178, main_v179, main_v180, main_v181, main_v182, main_v183, main_v184, main_v185, main_v186, main_v187, main_v188, main_v189, main_v190, main_v191, main_v192, main_v193, main_v194, main_v195, main_v196, main_v197, main_cst_22, main_v198, main_cst_23, main_v199, main_v200, main_c_24, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v201, main_v202, main_v203, main_v204, main_v205, main_v206, main_v207, main_cst_25, main_v208, main_v209, main_v210, main_v211]

theorem rwrites3_sub : (Ops.ops3 : List (HloOp τ sig (Elt F))).Forall fun op => op.writes ⊆ ((rwrites3).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem r_v160_3 : Rv3 m c (Proc.devRef .tc main_v160) = Spec.g_v160 (RA m c) := by
  show StableHlo.after Ops.ops3 (Rv2 m c) (Proc.devRef .tc main_v160) = _
  after_results_simp
  try simp only [r_v158_2 m c]
  rfl
theorem r_c_20_3 : Rv3 m c (Proc.devRef .tc main_c_20) = Spec.g_c_20 (RA m c) := by
  show StableHlo.after Ops.ops3 (Rv2 m c) (Proc.devRef .tc main_c_20) = _
  after_results_simp
  rfl
theorem r_v161_3 : Rv3 m c (Proc.devRef .tc main_v161) = Spec.g_v161 (RA m c) := by
  show StableHlo.after Ops.ops3 (Rv2 m c) (Proc.devRef .tc main_v161) = _
  after_results_simp
  try simp only [r_v157_2 m c]
  rfl
theorem r_v181_3 : Rv3 m c (Proc.devRef .tc main_v181) = Spec.g_v181 (RA m c) := by
  show StableHlo.after Ops.ops3 (Rv2 m c) (Proc.devRef .tc main_v181) = _
  after_results_simp
  try simp only [r_v147_2 m c, r_v157_2 m c, r_v158_2 m c, r_v149_2 m c, r_v151_2 m c, r_v153_2 m c]
  rfl
theorem r_v183_3 : Rv3 m c (Proc.devRef .tc main_v183) = Spec.g_v183 (RA m c) := by
  show StableHlo.after Ops.ops3 (Rv2 m c) (Proc.devRef .tc main_v183) = _
  after_results_simp
  try simp only [r_arg4_2 m c]
  rfl
theorem r_v185_3 : Rv3 m c (Proc.devRef .tc main_v185) = Spec.g_v185 (RA m c) := by
  show StableHlo.after Ops.ops3 (Rv2 m c) (Proc.devRef .tc main_v185) = _
  after_results_simp
  try simp only [r_arg5_2 m c]
  rfl
theorem r_v187_3 : Rv3 m c (Proc.devRef .tc main_v187) = Spec.g_v187 (RA m c) := by
  show StableHlo.after Ops.ops3 (Rv2 m c) (Proc.devRef .tc main_v187) = _
  after_results_simp
  try simp only [r_arg6_2 m c]
  rfl
theorem r_v189_3 : Rv3 m c (Proc.devRef .tc main_v189) = Spec.g_v189 (RA m c) := by
  show StableHlo.after Ops.ops3 (Rv2 m c) (Proc.devRef .tc main_v189) = _
  after_results_simp
  try simp only [r_arg7_2 m c]
  rfl
theorem r_v191_3 : Rv3 m c (Proc.devRef .tc main_v191) = Spec.g_v191 (RA m c) := by
  show StableHlo.after Ops.ops3 (Rv2 m c) (Proc.devRef .tc main_v191) = _
  after_results_simp
  try simp only [r_arg8_2 m c]
  rfl
theorem r_v193_3 : Rv3 m c (Proc.devRef .tc main_v193) = Spec.g_v193 (RA m c) := by
  show StableHlo.after Ops.ops3 (Rv2 m c) (Proc.devRef .tc main_v193) = _
  after_results_simp
  try simp only [r_arg9_2 m c]
  rfl
theorem r_v197_3 : Rv3 m c (Proc.devRef .tc main_v197) = Spec.g_v197 (RA m c) := by
  show StableHlo.after Ops.ops3 (Rv2 m c) (Proc.devRef .tc main_v197) = _
  after_results_simp
  try simp only [r_v59_2 m c, r_arg4_2 m c, r_arg5_2 m c]
  rfl
theorem r_v200_3 : Rv3 m c (Proc.devRef .tc main_v200) = Spec.g_v200 (RA m c) := by
  show StableHlo.after Ops.ops3 (Rv2 m c) (Proc.devRef .tc main_v200) = _
  after_results_simp
  try simp only [r_v59_2 m c, r_arg4_2 m c, r_arg5_2 m c]
  rfl
theorem r_c_24_3 : Rv3 m c (Proc.devRef .tc main_c_24) = Spec.g_c_24 (RA m c) := by
  show StableHlo.after Ops.ops3 (Rv2 m c) (Proc.devRef .tc main_c_24) = _
  after_results_simp
  rfl
theorem r_v201_3 : Rv3 m c (Proc.devRef .tc main_v201) = Spec.g_v201 (RA m c) := by
  show StableHlo.after Ops.ops3 (Rv2 m c) (Proc.devRef .tc main_v201) = _
  after_results_simp
  try simp only [r_v59_2 m c, r_arg4_2 m c, r_arg5_2 m c]
  rfl
theorem r_v207_3 : Rv3 m c (Proc.devRef .tc main_v207) = Spec.g_v207 (RA m c) := by
  show StableHlo.after Ops.ops3 (Rv2 m c) (Proc.devRef .tc main_v207) = _
  after_results_simp
  try simp only [r_arg6_2 m c, r_v59_2 m c, r_arg4_2 m c, r_arg5_2 m c]
  rfl
theorem r_v211_3 : Rv3 m c (Proc.devRef .tc main_v211) = Spec.g_v211 (RA m c) := by
  show StableHlo.after Ops.ops3 (Rv2 m c) (Proc.devRef .tc main_v211) = _
  after_results_simp
  try simp only [r_v59_2 m c, r_arg4_2 m c, r_arg5_2 m c]
  rfl
theorem r_arg10_3 : Rv3 m c (Proc.devRef .tc main_arg10) = (RA m c).a10 :=
  (StableHlo.after_of_writes_sub Ops.ops3 (Rv2 m c) rwrites3_sub (by decide)).trans (r_arg10_2 m c)
theorem r_arg11_3 : Rv3 m c (Proc.devRef .tc main_arg11) = (RA m c).a11 :=
  (StableHlo.after_of_writes_sub Ops.ops3 (Rv2 m c) rwrites3_sub (by decide)).trans (r_arg11_2 m c)
theorem r_arg12_3 : Rv3 m c (Proc.devRef .tc main_arg12) = (RA m c).a12 :=
  (StableHlo.after_of_writes_sub Ops.ops3 (Rv2 m c) rwrites3_sub (by decide)).trans (r_arg12_2 m c)
theorem r_arg13_3 : Rv3 m c (Proc.devRef .tc main_arg13) = (RA m c).a13 :=
  (StableHlo.after_of_writes_sub Ops.ops3 (Rv2 m c) rwrites3_sub (by decide)).trans (r_arg13_2 m c)
theorem r_arg14_3 : Rv3 m c (Proc.devRef .tc main_arg14) = (RA m c).a14 :=
  (StableHlo.after_of_writes_sub Ops.ops3 (Rv2 m c) rwrites3_sub (by decide)).trans (r_arg14_2 m c)
theorem r_arg15_3 : Rv3 m c (Proc.devRef .tc main_arg15) = (RA m c).a15 :=
  (StableHlo.after_of_writes_sub Ops.ops3 (Rv2 m c) rwrites3_sub (by decide)).trans (r_arg15_2 m c)
theorem r_arg20_3 : Rv3 m c (Proc.devRef .tc main_arg20) = (RA m c).a20 :=
  (StableHlo.after_of_writes_sub Ops.ops3 (Rv2 m c) rwrites3_sub (by decide)).trans (r_arg20_2 m c)
theorem r_v141_3 : Rv3 m c (Proc.devRef .tc main_v141) = Spec.g_v141 (RA m c) :=
  (StableHlo.after_of_writes_sub Ops.ops3 (Rv2 m c) rwrites3_sub (by decide)).trans (r_v141_2 m c)
theorem r_arg22_3 : Rv3 m c (Proc.devRef .tc main_arg22) = (RA m c).a22 :=
  (StableHlo.after_of_writes_sub Ops.ops3 (Rv2 m c) rwrites3_sub (by decide)).trans (r_arg22_2 m c)
theorem r_arg21_3 : Rv3 m c (Proc.devRef .tc main_arg21) = (RA m c).a21 :=
  (StableHlo.after_of_writes_sub Ops.ops3 (Rv2 m c) rwrites3_sub (by decide)).trans (r_arg21_2 m c)
theorem r_arg23_3 : Rv3 m c (Proc.devRef .tc main_arg23) = (RA m c).a23 :=
  (StableHlo.after_of_writes_sub Ops.ops3 (Rv2 m c) rwrites3_sub (by decide)).trans (r_arg23_2 m c)
theorem r_arg16_3 : Rv3 m c (Proc.devRef .tc main_arg16) = (RA m c).a16 :=
  (StableHlo.after_of_writes_sub Ops.ops3 (Rv2 m c) rwrites3_sub (by decide)).trans (r_arg16_2 m c)
theorem r_arg17_3 : Rv3 m c (Proc.devRef .tc main_arg17) = (RA m c).a17 :=
  (StableHlo.after_of_writes_sub Ops.ops3 (Rv2 m c) rwrites3_sub (by decide)).trans (r_arg17_2 m c)
theorem r_arg18_3 : Rv3 m c (Proc.devRef .tc main_arg18) = (RA m c).a18 :=
  (StableHlo.after_of_writes_sub Ops.ops3 (Rv2 m c) rwrites3_sub (by decide)).trans (r_arg18_2 m c)
theorem r_arg19_3 : Rv3 m c (Proc.devRef .tc main_arg19) = (RA m c).a19 :=
  (StableHlo.after_of_writes_sub Ops.ops3 (Rv2 m c) rwrites3_sub (by decide)).trans (r_arg19_2 m c)
theorem r_arg0_3 : Rv3 m c (Proc.devRef .tc main_arg0) = (RA m c).a0 :=
  (StableHlo.after_of_writes_sub Ops.ops3 (Rv2 m c) rwrites3_sub (by decide)).trans (r_arg0_2 m c)
theorem r_arg1_3 : Rv3 m c (Proc.devRef .tc main_arg1) = (RA m c).a1 :=
  (StableHlo.after_of_writes_sub Ops.ops3 (Rv2 m c) rwrites3_sub (by decide)).trans (r_arg1_2 m c)
theorem r_arg2_3 : Rv3 m c (Proc.devRef .tc main_arg2) = (RA m c).a2 :=
  (StableHlo.after_of_writes_sub Ops.ops3 (Rv2 m c) rwrites3_sub (by decide)).trans (r_arg2_2 m c)
theorem r_arg3_3 : Rv3 m c (Proc.devRef .tc main_arg3) = (RA m c).a3 :=
  (StableHlo.after_of_writes_sub Ops.ops3 (Rv2 m c) rwrites3_sub (by decide)).trans (r_arg3_2 m c)
theorem r_arg4_3 : Rv3 m c (Proc.devRef .tc main_arg4) = (RA m c).a4 :=
  (StableHlo.after_of_writes_sub Ops.ops3 (Rv2 m c) rwrites3_sub (by decide)).trans (r_arg4_2 m c)
theorem r_arg5_3 : Rv3 m c (Proc.devRef .tc main_arg5) = (RA m c).a5 :=
  (StableHlo.after_of_writes_sub Ops.ops3 (Rv2 m c) rwrites3_sub (by decide)).trans (r_arg5_2 m c)
theorem r_arg6_3 : Rv3 m c (Proc.devRef .tc main_arg6) = (RA m c).a6 :=
  (StableHlo.after_of_writes_sub Ops.ops3 (Rv2 m c) rwrites3_sub (by decide)).trans (r_arg6_2 m c)
theorem r_arg7_3 : Rv3 m c (Proc.devRef .tc main_arg7) = (RA m c).a7 :=
  (StableHlo.after_of_writes_sub Ops.ops3 (Rv2 m c) rwrites3_sub (by decide)).trans (r_arg7_2 m c)
theorem r_arg8_3 : Rv3 m c (Proc.devRef .tc main_arg8) = (RA m c).a8 :=
  (StableHlo.after_of_writes_sub Ops.ops3 (Rv2 m c) rwrites3_sub (by decide)).trans (r_arg8_2 m c)
theorem r_arg9_3 : Rv3 m c (Proc.devRef .tc main_arg9) = (RA m c).a9 :=
  (StableHlo.after_of_writes_sub Ops.ops3 (Rv2 m c) rwrites3_sub (by decide)).trans (r_arg9_2 m c)

end Cert.ReferenceIdeal.Thread

end
-- ==== Proof.RThread4.lean ====
import proofs.«116822_j38594576122568_1_alg».proof.Proof.RefOps4
import proofs.«116822_j38594576122568_1_alg».proof.Proof.RThread3
import Idealize.ShloMosaic.Lib.StableHlo.Run

/-! Window 4 of the reference's run: the valuation after it, and what each buffer read again later holds there. -/

noncomputable section

namespace Cert.ReferenceIdeal.Thread

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

variable (m : (ℓ : Loc nD τ sig) → Buf (Elt F) ℓ) (c : Dev nD)

/-- The buffers' contents after window 4. -/
def Rv4 : Valuation τ sig (Elt F) := StableHlo.after Ops.ops4 (Rv3 m c)

/-- The buffers window 4 writes. -/
abbrev rwrites4 : List (Ref sig .tc) := [main_v212, main_v213, main_v214, main_v215, main_v216, main_call8_cst, main_call8_v0, main_v217, main_v218, main_v219, main_v220, main_v221, main_v222, main_call9_cst, main_call9_v0, main_call9_v1, main_call9_cst_0, main_call9_v2, main_call9_v3, main_v223, main_v224, main_v225, main_v226, main_v227, main_v228, main_v229, main_v230, main_v231, main_v232, main_v233, main_v234, main_v235, main_v236, main_v237, main_c_26, main_v238, main_v239, main_c_27, main_v240, main_v241, main_v242, main_v243, main_v244, main_v245, main_v246, main_cst_28, main_v247, main_v248, main_v249, main_v250, main_v251, main_c_29, main_v252, main_v253, main_c_30, main_v254, main_v255, main_v256, main_v257, main_v258, main_v259, main_v260, main_cst_31, main_v261, main_v262, main_v263, main_v264, main_v265]

theorem rwrites4_sub : (Ops.ops4 : List (HloOp τ sig (Elt F))).Forall fun op => op.writes ⊆ ((rwrites4).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem r_v223_4 : Rv4 m c (Proc.devRef .tc main_v223) = Spec.g_v223 (RA m c) := by
  show StableHlo.after Ops.ops4 (Rv3 m c) (Proc.devRef .tc main_v223) = _
  after_results_simp
  try simp only [r_v181_3 m c, r_v207_3 m c, r_v211_3 m c, r_v189_3 m c, r_v191_3 m c, r_v193_3 m c]
  rfl
theorem r_v225_4 : Rv4 m c (Proc.devRef .tc main_v225) = Spec.g_v225 (RA m c) := by
  show StableHlo.after Ops.ops4 (Rv3 m c) (Proc.devRef .tc main_v225) = _
  after_results_simp
  try simp only [r_arg10_3 m c]
  rfl
theorem r_v227_4 : Rv4 m c (Proc.devRef .tc main_v227) = Spec.g_v227 (RA m c) := by
  show StableHlo.after Ops.ops4 (Rv3 m c) (Proc.devRef .tc main_v227) = _
  after_results_simp
  try simp only [r_arg11_3 m c]
  rfl
theorem r_v229_4 : Rv4 m c (Proc.devRef .tc main_v229) = Spec.g_v229 (RA m c) := by
  show StableHlo.after Ops.ops4 (Rv3 m c) (Proc.devRef .tc main_v229) = _
  after_results_simp
  try simp only [r_arg12_3 m c]
  rfl
theorem r_v231_4 : Rv4 m c (Proc.devRef .tc main_v231) = Spec.g_v231 (RA m c) := by
  show StableHlo.after Ops.ops4 (Rv3 m c) (Proc.devRef .tc main_v231) = _
  after_results_simp
  try simp only [r_arg13_3 m c]
  rfl
theorem r_v233_4 : Rv4 m c (Proc.devRef .tc main_v233) = Spec.g_v233 (RA m c) := by
  show StableHlo.after Ops.ops4 (Rv3 m c) (Proc.devRef .tc main_v233) = _
  after_results_simp
  try simp only [r_arg14_3 m c]
  rfl
theorem r_v235_4 : Rv4 m c (Proc.devRef .tc main_v235) = Spec.g_v235 (RA m c) := by
  show StableHlo.after Ops.ops4 (Rv3 m c) (Proc.devRef .tc main_v235) = _
  after_results_simp
  try simp only [r_arg15_3 m c]
  rfl
theorem r_c_26_4 : Rv4 m c (Proc.devRef .tc main_c_26) = Spec.g_c_26 (RA m c) := by
  show StableHlo.after Ops.ops4 (Rv3 m c) (Proc.devRef .tc main_c_26) = _
  after_results_simp
  rfl
theorem r_v249_4 : Rv4 m c (Proc.devRef .tc main_v249) = Spec.g_v249 (RA m c) := by
  show StableHlo.after Ops.ops4 (Rv3 m c) (Proc.devRef .tc main_v249) = _
  after_results_simp
  try simp only [r_arg20_3 m c, r_v141_3 m c]
  rfl
theorem r_c_29_4 : Rv4 m c (Proc.devRef .tc main_c_29) = Spec.g_c_29 (RA m c) := by
  show StableHlo.after Ops.ops4 (Rv3 m c) (Proc.devRef .tc main_c_29) = _
  after_results_simp
  rfl
theorem r_v263_4 : Rv4 m c (Proc.devRef .tc main_v263) = Spec.g_v263 (RA m c) := by
  show StableHlo.after Ops.ops4 (Rv3 m c) (Proc.devRef .tc main_v263) = _
  after_results_simp
  try simp only [r_arg22_3 m c, r_v181_3 m c, r_v207_3 m c, r_v211_3 m c, r_v189_3 m c, r_v191_3 m c, r_v193_3 m c]
  rfl
theorem r_v265_4 : Rv4 m c (Proc.devRef .tc main_v265) = Spec.g_v265 (RA m c) := by
  show StableHlo.after Ops.ops4 (Rv3 m c) (Proc.devRef .tc main_v265) = _
  after_results_simp
  try simp only [r_arg21_3 m c]
  rfl
theorem r_arg21_4 : Rv4 m c (Proc.devRef .tc main_arg21) = (RA m c).a21 :=
  (StableHlo.after_of_writes_sub Ops.ops4 (Rv3 m c) rwrites4_sub (by decide)).trans (r_arg21_3 m c)
theorem r_v141_4 : Rv4 m c (Proc.devRef .tc main_v141) = Spec.g_v141 (RA m c) :=
  (StableHlo.after_of_writes_sub Ops.ops4 (Rv3 m c) rwrites4_sub (by decide)).trans (r_v141_3 m c)
theorem r_arg23_4 : Rv4 m c (Proc.devRef .tc main_arg23) = (RA m c).a23 :=
  (StableHlo.after_of_writes_sub Ops.ops4 (Rv3 m c) rwrites4_sub (by decide)).trans (r_arg23_3 m c)
theorem r_arg10_4 : Rv4 m c (Proc.devRef .tc main_arg10) = (RA m c).a10 :=
  (StableHlo.after_of_writes_sub Ops.ops4 (Rv3 m c) rwrites4_sub (by decide)).trans (r_arg10_3 m c)
theorem r_arg11_4 : Rv4 m c (Proc.devRef .tc main_arg11) = (RA m c).a11 :=
  (StableHlo.after_of_writes_sub Ops.ops4 (Rv3 m c) rwrites4_sub (by decide)).trans (r_arg11_3 m c)
theorem r_arg12_4 : Rv4 m c (Proc.devRef .tc main_arg12) = (RA m c).a12 :=
  (StableHlo.after_of_writes_sub Ops.ops4 (Rv3 m c) rwrites4_sub (by decide)).trans (r_arg12_3 m c)
theorem r_arg13_4 : Rv4 m c (Proc.devRef .tc main_arg13) = (RA m c).a13 :=
  (StableHlo.after_of_writes_sub Ops.ops4 (Rv3 m c) rwrites4_sub (by decide)).trans (r_arg13_3 m c)
theorem r_arg14_4 : Rv4 m c (Proc.devRef .tc main_arg14) = (RA m c).a14 :=
  (StableHlo.after_of_writes_sub Ops.ops4 (Rv3 m c) rwrites4_sub (by decide)).trans (r_arg14_3 m c)
theorem r_arg15_4 : Rv4 m c (Proc.devRef .tc main_arg15) = (RA m c).a15 :=
  (StableHlo.after_of_writes_sub Ops.ops4 (Rv3 m c) rwrites4_sub (by decide)).trans (r_arg15_3 m c)
theorem r_arg20_4 : Rv4 m c (Proc.devRef .tc main_arg20) = (RA m c).a20 :=
  (StableHlo.after_of_writes_sub Ops.ops4 (Rv3 m c) rwrites4_sub (by decide)).trans (r_arg20_3 m c)
theorem r_arg22_4 : Rv4 m c (Proc.devRef .tc main_arg22) = (RA m c).a22 :=
  (StableHlo.after_of_writes_sub Ops.ops4 (Rv3 m c) rwrites4_sub (by decide)).trans (r_arg22_3 m c)
theorem r_arg16_4 : Rv4 m c (Proc.devRef .tc main_arg16) = (RA m c).a16 :=
  (StableHlo.after_of_writes_sub Ops.ops4 (Rv3 m c) rwrites4_sub (by decide)).trans (r_arg16_3 m c)
theorem r_arg17_4 : Rv4 m c (Proc.devRef .tc main_arg17) = (RA m c).a17 :=
  (StableHlo.after_of_writes_sub Ops.ops4 (Rv3 m c) rwrites4_sub (by decide)).trans (r_arg17_3 m c)
theorem r_arg18_4 : Rv4 m c (Proc.devRef .tc main_arg18) = (RA m c).a18 :=
  (StableHlo.after_of_writes_sub Ops.ops4 (Rv3 m c) rwrites4_sub (by decide)).trans (r_arg18_3 m c)
theorem r_arg19_4 : Rv4 m c (Proc.devRef .tc main_arg19) = (RA m c).a19 :=
  (StableHlo.after_of_writes_sub Ops.ops4 (Rv3 m c) rwrites4_sub (by decide)).trans (r_arg19_3 m c)
theorem r_arg0_4 : Rv4 m c (Proc.devRef .tc main_arg0) = (RA m c).a0 :=
  (StableHlo.after_of_writes_sub Ops.ops4 (Rv3 m c) rwrites4_sub (by decide)).trans (r_arg0_3 m c)
theorem r_arg1_4 : Rv4 m c (Proc.devRef .tc main_arg1) = (RA m c).a1 :=
  (StableHlo.after_of_writes_sub Ops.ops4 (Rv3 m c) rwrites4_sub (by decide)).trans (r_arg1_3 m c)
theorem r_arg2_4 : Rv4 m c (Proc.devRef .tc main_arg2) = (RA m c).a2 :=
  (StableHlo.after_of_writes_sub Ops.ops4 (Rv3 m c) rwrites4_sub (by decide)).trans (r_arg2_3 m c)
theorem r_arg3_4 : Rv4 m c (Proc.devRef .tc main_arg3) = (RA m c).a3 :=
  (StableHlo.after_of_writes_sub Ops.ops4 (Rv3 m c) rwrites4_sub (by decide)).trans (r_arg3_3 m c)
theorem r_arg4_4 : Rv4 m c (Proc.devRef .tc main_arg4) = (RA m c).a4 :=
  (StableHlo.after_of_writes_sub Ops.ops4 (Rv3 m c) rwrites4_sub (by decide)).trans (r_arg4_3 m c)
theorem r_arg5_4 : Rv4 m c (Proc.devRef .tc main_arg5) = (RA m c).a5 :=
  (StableHlo.after_of_writes_sub Ops.ops4 (Rv3 m c) rwrites4_sub (by decide)).trans (r_arg5_3 m c)
theorem r_arg6_4 : Rv4 m c (Proc.devRef .tc main_arg6) = (RA m c).a6 :=
  (StableHlo.after_of_writes_sub Ops.ops4 (Rv3 m c) rwrites4_sub (by decide)).trans (r_arg6_3 m c)
theorem r_arg7_4 : Rv4 m c (Proc.devRef .tc main_arg7) = (RA m c).a7 :=
  (StableHlo.after_of_writes_sub Ops.ops4 (Rv3 m c) rwrites4_sub (by decide)).trans (r_arg7_3 m c)
theorem r_arg8_4 : Rv4 m c (Proc.devRef .tc main_arg8) = (RA m c).a8 :=
  (StableHlo.after_of_writes_sub Ops.ops4 (Rv3 m c) rwrites4_sub (by decide)).trans (r_arg8_3 m c)
theorem r_arg9_4 : Rv4 m c (Proc.devRef .tc main_arg9) = (RA m c).a9 :=
  (StableHlo.after_of_writes_sub Ops.ops4 (Rv3 m c) rwrites4_sub (by decide)).trans (r_arg9_3 m c)

end Cert.ReferenceIdeal.Thread

end
-- ==== Proof.RThread5.lean ====
import proofs.«116822_j38594576122568_1_alg».proof.Proof.RefOps5
import proofs.«116822_j38594576122568_1_alg».proof.Proof.RThread4
import Idealize.ShloMosaic.Lib.StableHlo.Run

/-! Window 5 of the reference's run: the valuation after it, and what each buffer read again later holds there. -/

noncomputable section

namespace Cert.ReferenceIdeal.Thread

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

variable (m : (ℓ : Loc nD τ sig) → Buf (Elt F) ℓ) (c : Dev nD)

/-- The buffers' contents after window 5. -/
def Rv5 : Valuation τ sig (Elt F) := StableHlo.after Ops.ops5 (Rv4 m c)

/-- The buffers window 5 writes. -/
abbrev rwrites5 : List (Ref sig .tc) := [main_c_32, main_v266, main_v267, main_c_33, main_v268, main_v269, main_v270, main_v271, main_v272, main_v273, main_v274, main_cst_34, main_v275, main_v276, main_v277, main_v278, main_v279, main_c_35, main_v280, main_v281, main_c_36, main_v282, main_v283, main_v284, main_v285, main_v286, main_v287, main_v288, main_cst_37, main_v289, main_v290, main_v291, main_v292, main_v293, main_v294, main_v295, main_v296, main_v297, main_v298, main_v299, main_v300, main_v301, main_v302, main_v303, main_v304, main_v305, main_v306, main_v307, main_cst_38, main_v308, main_cst_39, main_v309, main_v310, main_c_40, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v311, main_v312, main_v313, main_v314, main_v315, main_v316]

theorem rwrites5_sub : (Ops.ops5 : List (HloOp τ sig (Elt F))).Forall fun op => op.writes ⊆ ((rwrites5).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem r_c_32_5 : Rv5 m c (Proc.devRef .tc main_c_32) = Spec.g_c_32 (RA m c) := by
  show StableHlo.after Ops.ops5 (Rv4 m c) (Proc.devRef .tc main_c_32) = _
  after_results_simp
  rfl
theorem r_v277_5 : Rv5 m c (Proc.devRef .tc main_v277) = Spec.g_v277 (RA m c) := by
  show StableHlo.after Ops.ops5 (Rv4 m c) (Proc.devRef .tc main_v277) = _
  after_results_simp
  try simp only [r_arg21_4 m c, r_v141_4 m c, r_v265_4 m c]
  rfl
theorem r_c_35_5 : Rv5 m c (Proc.devRef .tc main_c_35) = Spec.g_c_35 (RA m c) := by
  show StableHlo.after Ops.ops5 (Rv4 m c) (Proc.devRef .tc main_c_35) = _
  after_results_simp
  rfl
theorem r_v291_5 : Rv5 m c (Proc.devRef .tc main_v291) = Spec.g_v291 (RA m c) := by
  show StableHlo.after Ops.ops5 (Rv4 m c) (Proc.devRef .tc main_v291) = _
  after_results_simp
  try simp only [r_arg23_4 m c, r_v223_4 m c]
  rfl
theorem r_v293_5 : Rv5 m c (Proc.devRef .tc main_v293) = Spec.g_v293 (RA m c) := by
  show StableHlo.after Ops.ops5 (Rv4 m c) (Proc.devRef .tc main_v293) = _
  after_results_simp
  try simp only [r_v225_4 m c]
  rfl
theorem r_v295_5 : Rv5 m c (Proc.devRef .tc main_v295) = Spec.g_v295 (RA m c) := by
  show StableHlo.after Ops.ops5 (Rv4 m c) (Proc.devRef .tc main_v295) = _
  after_results_simp
  try simp only [r_v227_4 m c]
  rfl
theorem r_v297_5 : Rv5 m c (Proc.devRef .tc main_v297) = Spec.g_v297 (RA m c) := by
  show StableHlo.after Ops.ops5 (Rv4 m c) (Proc.devRef .tc main_v297) = _
  after_results_simp
  try simp only [r_v229_4 m c]
  rfl
theorem r_v299_5 : Rv5 m c (Proc.devRef .tc main_v299) = Spec.g_v299 (RA m c) := by
  show StableHlo.after Ops.ops5 (Rv4 m c) (Proc.devRef .tc main_v299) = _
  after_results_simp
  try simp only [r_v231_4 m c]
  rfl
theorem r_v301_5 : Rv5 m c (Proc.devRef .tc main_v301) = Spec.g_v301 (RA m c) := by
  show StableHlo.after Ops.ops5 (Rv4 m c) (Proc.devRef .tc main_v301) = _
  after_results_simp
  try simp only [r_v233_4 m c]
  rfl
theorem r_v303_5 : Rv5 m c (Proc.devRef .tc main_v303) = Spec.g_v303 (RA m c) := by
  show StableHlo.after Ops.ops5 (Rv4 m c) (Proc.devRef .tc main_v303) = _
  after_results_simp
  try simp only [r_v235_4 m c]
  rfl
theorem r_v307_5 : Rv5 m c (Proc.devRef .tc main_v307) = Spec.g_v307 (RA m c) := by
  show StableHlo.after Ops.ops5 (Rv4 m c) (Proc.devRef .tc main_v307) = _
  after_results_simp
  try simp only [r_v249_4 m c, r_v225_4 m c, r_v227_4 m c]
  rfl
theorem r_v310_5 : Rv5 m c (Proc.devRef .tc main_v310) = Spec.g_v310 (RA m c) := by
  show StableHlo.after Ops.ops5 (Rv4 m c) (Proc.devRef .tc main_v310) = _
  after_results_simp
  try simp only [r_v249_4 m c, r_v225_4 m c, r_v227_4 m c]
  rfl
theorem r_v311_5 : Rv5 m c (Proc.devRef .tc main_v311) = Spec.g_v311 (RA m c) := by
  show StableHlo.after Ops.ops5 (Rv4 m c) (Proc.devRef .tc main_v311) = _
  after_results_simp
  try simp only [r_v249_4 m c, r_v225_4 m c, r_v227_4 m c]
  rfl
theorem r_v314_5 : Rv5 m c (Proc.devRef .tc main_v314) = Spec.g_v314 (RA m c) := by
  show StableHlo.after Ops.ops5 (Rv4 m c) (Proc.devRef .tc main_v314) = _
  after_results_simp
  try simp only [r_v249_4 m c, r_v225_4 m c, r_v227_4 m c]
  rfl
theorem r_v316_5 : Rv5 m c (Proc.devRef .tc main_v316) = Spec.g_v316 (RA m c) := by
  show StableHlo.after Ops.ops5 (Rv4 m c) (Proc.devRef .tc main_v316) = _
  after_results_simp
  try simp only [r_v229_4 m c]
  rfl
theorem r_v225_5 : Rv5 m c (Proc.devRef .tc main_v225) = Spec.g_v225 (RA m c) :=
  (StableHlo.after_of_writes_sub Ops.ops5 (Rv4 m c) rwrites5_sub (by decide)).trans (r_v225_4 m c)
theorem r_v227_5 : Rv5 m c (Proc.devRef .tc main_v227) = Spec.g_v227 (RA m c) :=
  (StableHlo.after_of_writes_sub Ops.ops5 (Rv4 m c) rwrites5_sub (by decide)).trans (r_v227_4 m c)
theorem r_v229_5 : Rv5 m c (Proc.devRef .tc main_v229) = Spec.g_v229 (RA m c) :=
  (StableHlo.after_of_writes_sub Ops.ops5 (Rv4 m c) rwrites5_sub (by decide)).trans (r_v229_4 m c)
theorem r_v231_5 : Rv5 m c (Proc.devRef .tc main_v231) = Spec.g_v231 (RA m c) :=
  (StableHlo.after_of_writes_sub Ops.ops5 (Rv4 m c) rwrites5_sub (by decide)).trans (r_v231_4 m c)
theorem r_v233_5 : Rv5 m c (Proc.devRef .tc main_v233) = Spec.g_v233 (RA m c) :=
  (StableHlo.after_of_writes_sub Ops.ops5 (Rv4 m c) rwrites5_sub (by decide)).trans (r_v233_4 m c)
theorem r_v235_5 : Rv5 m c (Proc.devRef .tc main_v235) = Spec.g_v235 (RA m c) :=
  (StableHlo.after_of_writes_sub Ops.ops5 (Rv4 m c) rwrites5_sub (by decide)).trans (r_v235_4 m c)
theorem r_v263_5 : Rv5 m c (Proc.devRef .tc main_v263) = Spec.g_v263 (RA m c) :=
  (StableHlo.after_of_writes_sub Ops.ops5 (Rv4 m c) rwrites5_sub (by decide)).trans (r_v263_4 m c)
theorem r_arg10_5 : Rv5 m c (Proc.devRef .tc main_arg10) = (RA m c).a10 :=
  (StableHlo.after_of_writes_sub Ops.ops5 (Rv4 m c) rwrites5_sub (by decide)).trans (r_arg10_4 m c)
theorem r_arg11_5 : Rv5 m c (Proc.devRef .tc main_arg11) = (RA m c).a11 :=
  (StableHlo.after_of_writes_sub Ops.ops5 (Rv4 m c) rwrites5_sub (by decide)).trans (r_arg11_4 m c)
theorem r_arg12_5 : Rv5 m c (Proc.devRef .tc main_arg12) = (RA m c).a12 :=
  (StableHlo.after_of_writes_sub Ops.ops5 (Rv4 m c) rwrites5_sub (by decide)).trans (r_arg12_4 m c)
theorem r_arg13_5 : Rv5 m c (Proc.devRef .tc main_arg13) = (RA m c).a13 :=
  (StableHlo.after_of_writes_sub Ops.ops5 (Rv4 m c) rwrites5_sub (by decide)).trans (r_arg13_4 m c)
theorem r_arg14_5 : Rv5 m c (Proc.devRef .tc main_arg14) = (RA m c).a14 :=
  (StableHlo.after_of_writes_sub Ops.ops5 (Rv4 m c) rwrites5_sub (by decide)).trans (r_arg14_4 m c)
theorem r_arg15_5 : Rv5 m c (Proc.devRef .tc main_arg15) = (RA m c).a15 :=
  (StableHlo.after_of_writes_sub Ops.ops5 (Rv4 m c) rwrites5_sub (by decide)).trans (r_arg15_4 m c)
theorem r_arg20_5 : Rv5 m c (Proc.devRef .tc main_arg20) = (RA m c).a20 :=
  (StableHlo.after_of_writes_sub Ops.ops5 (Rv4 m c) rwrites5_sub (by decide)).trans (r_arg20_4 m c)
theorem r_arg22_5 : Rv5 m c (Proc.devRef .tc main_arg22) = (RA m c).a22 :=
  (StableHlo.after_of_writes_sub Ops.ops5 (Rv4 m c) rwrites5_sub (by decide)).trans (r_arg22_4 m c)
theorem r_arg21_5 : Rv5 m c (Proc.devRef .tc main_arg21) = (RA m c).a21 :=
  (StableHlo.after_of_writes_sub Ops.ops5 (Rv4 m c) rwrites5_sub (by decide)).trans (r_arg21_4 m c)
theorem r_arg23_5 : Rv5 m c (Proc.devRef .tc main_arg23) = (RA m c).a23 :=
  (StableHlo.after_of_writes_sub Ops.ops5 (Rv4 m c) rwrites5_sub (by decide)).trans (r_arg23_4 m c)
theorem r_arg16_5 : Rv5 m c (Proc.devRef .tc main_arg16) = (RA m c).a16 :=
  (StableHlo.after_of_writes_sub Ops.ops5 (Rv4 m c) rwrites5_sub (by decide)).trans (r_arg16_4 m c)
theorem r_arg17_5 : Rv5 m c (Proc.devRef .tc main_arg17) = (RA m c).a17 :=
  (StableHlo.after_of_writes_sub Ops.ops5 (Rv4 m c) rwrites5_sub (by decide)).trans (r_arg17_4 m c)
theorem r_arg18_5 : Rv5 m c (Proc.devRef .tc main_arg18) = (RA m c).a18 :=
  (StableHlo.after_of_writes_sub Ops.ops5 (Rv4 m c) rwrites5_sub (by decide)).trans (r_arg18_4 m c)
theorem r_arg19_5 : Rv5 m c (Proc.devRef .tc main_arg19) = (RA m c).a19 :=
  (StableHlo.after_of_writes_sub Ops.ops5 (Rv4 m c) rwrites5_sub (by decide)).trans (r_arg19_4 m c)
theorem r_arg0_5 : Rv5 m c (Proc.devRef .tc main_arg0) = (RA m c).a0 :=
  (StableHlo.after_of_writes_sub Ops.ops5 (Rv4 m c) rwrites5_sub (by decide)).trans (r_arg0_4 m c)
theorem r_arg1_5 : Rv5 m c (Proc.devRef .tc main_arg1) = (RA m c).a1 :=
  (StableHlo.after_of_writes_sub Ops.ops5 (Rv4 m c) rwrites5_sub (by decide)).trans (r_arg1_4 m c)
theorem r_arg2_5 : Rv5 m c (Proc.devRef .tc main_arg2) = (RA m c).a2 :=
  (StableHlo.after_of_writes_sub Ops.ops5 (Rv4 m c) rwrites5_sub (by decide)).trans (r_arg2_4 m c)
theorem r_arg3_5 : Rv5 m c (Proc.devRef .tc main_arg3) = (RA m c).a3 :=
  (StableHlo.after_of_writes_sub Ops.ops5 (Rv4 m c) rwrites5_sub (by decide)).trans (r_arg3_4 m c)
theorem r_arg4_5 : Rv5 m c (Proc.devRef .tc main_arg4) = (RA m c).a4 :=
  (StableHlo.after_of_writes_sub Ops.ops5 (Rv4 m c) rwrites5_sub (by decide)).trans (r_arg4_4 m c)
theorem r_arg5_5 : Rv5 m c (Proc.devRef .tc main_arg5) = (RA m c).a5 :=
  (StableHlo.after_of_writes_sub Ops.ops5 (Rv4 m c) rwrites5_sub (by decide)).trans (r_arg5_4 m c)
theorem r_arg6_5 : Rv5 m c (Proc.devRef .tc main_arg6) = (RA m c).a6 :=
  (StableHlo.after_of_writes_sub Ops.ops5 (Rv4 m c) rwrites5_sub (by decide)).trans (r_arg6_4 m c)
theorem r_arg7_5 : Rv5 m c (Proc.devRef .tc main_arg7) = (RA m c).a7 :=
  (StableHlo.after_of_writes_sub Ops.ops5 (Rv4 m c) rwrites5_sub (by decide)).trans (r_arg7_4 m c)
theorem r_arg8_5 : Rv5 m c (Proc.devRef .tc main_arg8) = (RA m c).a8 :=
  (StableHlo.after_of_writes_sub Ops.ops5 (Rv4 m c) rwrites5_sub (by decide)).trans (r_arg8_4 m c)
theorem r_arg9_5 : Rv5 m c (Proc.devRef .tc main_arg9) = (RA m c).a9 :=
  (StableHlo.after_of_writes_sub Ops.ops5 (Rv4 m c) rwrites5_sub (by decide)).trans (r_arg9_4 m c)

end Cert.ReferenceIdeal.Thread

end
-- ==== Proof.RThread6.lean ====
import proofs.«116822_j38594576122568_1_alg».proof.Proof.RefOps6
import proofs.«116822_j38594576122568_1_alg».proof.Proof.RThread5
import Idealize.ShloMosaic.Lib.StableHlo.Run

/-! Window 6 of the reference's run: the valuation after it, and what each buffer read again later holds there. -/

noncomputable section

namespace Cert.ReferenceIdeal.Thread

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

variable (m : (ℓ : Loc nD τ sig) → Buf (Elt F) ℓ) (c : Dev nD)

/-- The buffers' contents after window 6. -/
def Rv6 : Valuation τ sig (Elt F) := StableHlo.after Ops.ops6 (Rv5 m c)

/-- The buffers window 6 writes. -/
abbrev rwrites6 : List (Ref sig .tc) := [main_v317, main_cst_41, main_v318, main_v319, main_v320, main_v321, main_v322, main_v323, main_v324, main_v325, main_v326, main_call11_cst, main_call11_v0, main_v327, main_v328, main_v329, main_v330, main_v331, main_v332, main_v333, main_v334, main_v335, main_v336, main_v337, main_v338, main_v339, main_v340, main_v341, main_v342, main_v343, main_v344, main_v345, main_v346, main_v347, main_cst_42, main_v348, main_cst_43, main_v349, main_v350, main_c_44, main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v351, main_v352, main_v353, main_v354, main_v355, main_v356, main_v357, main_cst_45, main_v358, main_v359, main_v360, main_v361, main_v362, main_v363, main_v364, main_v365, main_v366, main_call13_cst, main_call13_v0, main_v367, main_v368, main_v369, main_v370, main_v371]

theorem rwrites6_sub : (Ops.ops6 : List (HloOp τ sig (Elt F))).Forall fun op => op.writes ⊆ ((rwrites6).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem r_v331_6 : Rv6 m c (Proc.devRef .tc main_v331) = Spec.g_v331 (RA m c) := by
  show StableHlo.after Ops.ops6 (Rv5 m c) (Proc.devRef .tc main_v331) = _
  after_results_simp
  try simp only [r_v316_5 m c, r_v314_5 m c, r_v311_5 m c, r_v299_5 m c, r_v301_5 m c, r_v303_5 m c]
  rfl
theorem r_v333_6 : Rv6 m c (Proc.devRef .tc main_v333) = Spec.g_v333 (RA m c) := by
  show StableHlo.after Ops.ops6 (Rv5 m c) (Proc.devRef .tc main_v333) = _
  after_results_simp
  try simp only [r_v225_5 m c]
  rfl
theorem r_v335_6 : Rv6 m c (Proc.devRef .tc main_v335) = Spec.g_v335 (RA m c) := by
  show StableHlo.after Ops.ops6 (Rv5 m c) (Proc.devRef .tc main_v335) = _
  after_results_simp
  try simp only [r_v227_5 m c]
  rfl
theorem r_v337_6 : Rv6 m c (Proc.devRef .tc main_v337) = Spec.g_v337 (RA m c) := by
  show StableHlo.after Ops.ops6 (Rv5 m c) (Proc.devRef .tc main_v337) = _
  after_results_simp
  try simp only [r_v229_5 m c]
  rfl
theorem r_v339_6 : Rv6 m c (Proc.devRef .tc main_v339) = Spec.g_v339 (RA m c) := by
  show StableHlo.after Ops.ops6 (Rv5 m c) (Proc.devRef .tc main_v339) = _
  after_results_simp
  try simp only [r_v231_5 m c]
  rfl
theorem r_v341_6 : Rv6 m c (Proc.devRef .tc main_v341) = Spec.g_v341 (RA m c) := by
  show StableHlo.after Ops.ops6 (Rv5 m c) (Proc.devRef .tc main_v341) = _
  after_results_simp
  try simp only [r_v233_5 m c]
  rfl
theorem r_v343_6 : Rv6 m c (Proc.devRef .tc main_v343) = Spec.g_v343 (RA m c) := by
  show StableHlo.after Ops.ops6 (Rv5 m c) (Proc.devRef .tc main_v343) = _
  after_results_simp
  try simp only [r_v235_5 m c]
  rfl
theorem r_v347_6 : Rv6 m c (Proc.devRef .tc main_v347) = Spec.g_v347 (RA m c) := by
  show StableHlo.after Ops.ops6 (Rv5 m c) (Proc.devRef .tc main_v347) = _
  after_results_simp
  try simp only [r_v263_5 m c, r_v225_5 m c, r_v227_5 m c]
  rfl
theorem r_v350_6 : Rv6 m c (Proc.devRef .tc main_v350) = Spec.g_v350 (RA m c) := by
  show StableHlo.after Ops.ops6 (Rv5 m c) (Proc.devRef .tc main_v350) = _
  after_results_simp
  try simp only [r_v263_5 m c, r_v225_5 m c, r_v227_5 m c]
  rfl
theorem r_v351_6 : Rv6 m c (Proc.devRef .tc main_v351) = Spec.g_v351 (RA m c) := by
  show StableHlo.after Ops.ops6 (Rv5 m c) (Proc.devRef .tc main_v351) = _
  after_results_simp
  try simp only [r_v263_5 m c, r_v225_5 m c, r_v227_5 m c]
  rfl
theorem r_v371_6 : Rv6 m c (Proc.devRef .tc main_v371) = Spec.g_v371 (RA m c) := by
  show StableHlo.after Ops.ops6 (Rv5 m c) (Proc.devRef .tc main_v371) = _
  after_results_simp
  try simp only [r_v229_5 m c, r_v263_5 m c, r_v225_5 m c, r_v227_5 m c, r_v231_5 m c, r_v233_5 m c, r_v235_5 m c]
  rfl
theorem r_v225_6 : Rv6 m c (Proc.devRef .tc main_v225) = Spec.g_v225 (RA m c) :=
  (StableHlo.after_of_writes_sub Ops.ops6 (Rv5 m c) rwrites6_sub (by decide)).trans (r_v225_5 m c)
theorem r_v227_6 : Rv6 m c (Proc.devRef .tc main_v227) = Spec.g_v227 (RA m c) :=
  (StableHlo.after_of_writes_sub Ops.ops6 (Rv5 m c) rwrites6_sub (by decide)).trans (r_v227_5 m c)
theorem r_v229_6 : Rv6 m c (Proc.devRef .tc main_v229) = Spec.g_v229 (RA m c) :=
  (StableHlo.after_of_writes_sub Ops.ops6 (Rv5 m c) rwrites6_sub (by decide)).trans (r_v229_5 m c)
theorem r_v231_6 : Rv6 m c (Proc.devRef .tc main_v231) = Spec.g_v231 (RA m c) :=
  (StableHlo.after_of_writes_sub Ops.ops6 (Rv5 m c) rwrites6_sub (by decide)).trans (r_v231_5 m c)
theorem r_v233_6 : Rv6 m c (Proc.devRef .tc main_v233) = Spec.g_v233 (RA m c) :=
  (StableHlo.after_of_writes_sub Ops.ops6 (Rv5 m c) rwrites6_sub (by decide)).trans (r_v233_5 m c)
theorem r_v235_6 : Rv6 m c (Proc.devRef .tc main_v235) = Spec.g_v235 (RA m c) :=
  (StableHlo.after_of_writes_sub Ops.ops6 (Rv5 m c) rwrites6_sub (by decide)).trans (r_v235_5 m c)
theorem r_v277_6 : Rv6 m c (Proc.devRef .tc main_v277) = Spec.g_v277 (RA m c) :=
  (StableHlo.after_of_writes_sub Ops.ops6 (Rv5 m c) rwrites6_sub (by decide)).trans (r_v277_5 m c)
theorem r_v291_6 : Rv6 m c (Proc.devRef .tc main_v291) = Spec.g_v291 (RA m c) :=
  (StableHlo.after_of_writes_sub Ops.ops6 (Rv5 m c) rwrites6_sub (by decide)).trans (r_v291_5 m c)
theorem r_arg10_6 : Rv6 m c (Proc.devRef .tc main_arg10) = (RA m c).a10 :=
  (StableHlo.after_of_writes_sub Ops.ops6 (Rv5 m c) rwrites6_sub (by decide)).trans (r_arg10_5 m c)
theorem r_arg11_6 : Rv6 m c (Proc.devRef .tc main_arg11) = (RA m c).a11 :=
  (StableHlo.after_of_writes_sub Ops.ops6 (Rv5 m c) rwrites6_sub (by decide)).trans (r_arg11_5 m c)
theorem r_arg12_6 : Rv6 m c (Proc.devRef .tc main_arg12) = (RA m c).a12 :=
  (StableHlo.after_of_writes_sub Ops.ops6 (Rv5 m c) rwrites6_sub (by decide)).trans (r_arg12_5 m c)
theorem r_arg13_6 : Rv6 m c (Proc.devRef .tc main_arg13) = (RA m c).a13 :=
  (StableHlo.after_of_writes_sub Ops.ops6 (Rv5 m c) rwrites6_sub (by decide)).trans (r_arg13_5 m c)
theorem r_arg14_6 : Rv6 m c (Proc.devRef .tc main_arg14) = (RA m c).a14 :=
  (StableHlo.after_of_writes_sub Ops.ops6 (Rv5 m c) rwrites6_sub (by decide)).trans (r_arg14_5 m c)
theorem r_arg15_6 : Rv6 m c (Proc.devRef .tc main_arg15) = (RA m c).a15 :=
  (StableHlo.after_of_writes_sub Ops.ops6 (Rv5 m c) rwrites6_sub (by decide)).trans (r_arg15_5 m c)
theorem r_arg20_6 : Rv6 m c (Proc.devRef .tc main_arg20) = (RA m c).a20 :=
  (StableHlo.after_of_writes_sub Ops.ops6 (Rv5 m c) rwrites6_sub (by decide)).trans (r_arg20_5 m c)
theorem r_arg22_6 : Rv6 m c (Proc.devRef .tc main_arg22) = (RA m c).a22 :=
  (StableHlo.after_of_writes_sub Ops.ops6 (Rv5 m c) rwrites6_sub (by decide)).trans (r_arg22_5 m c)
theorem r_arg21_6 : Rv6 m c (Proc.devRef .tc main_arg21) = (RA m c).a21 :=
  (StableHlo.after_of_writes_sub Ops.ops6 (Rv5 m c) rwrites6_sub (by decide)).trans (r_arg21_5 m c)
theorem r_arg23_6 : Rv6 m c (Proc.devRef .tc main_arg23) = (RA m c).a23 :=
  (StableHlo.after_of_writes_sub Ops.ops6 (Rv5 m c) rwrites6_sub (by decide)).trans (r_arg23_5 m c)
theorem r_arg16_6 : Rv6 m c (Proc.devRef .tc main_arg16) = (RA m c).a16 :=
  (StableHlo.after_of_writes_sub Ops.ops6 (Rv5 m c) rwrites6_sub (by decide)).trans (r_arg16_5 m c)
theorem r_arg17_6 : Rv6 m c (Proc.devRef .tc main_arg17) = (RA m c).a17 :=
  (StableHlo.after_of_writes_sub Ops.ops6 (Rv5 m c) rwrites6_sub (by decide)).trans (r_arg17_5 m c)
theorem r_arg18_6 : Rv6 m c (Proc.devRef .tc main_arg18) = (RA m c).a18 :=
  (StableHlo.after_of_writes_sub Ops.ops6 (Rv5 m c) rwrites6_sub (by decide)).trans (r_arg18_5 m c)
theorem r_arg19_6 : Rv6 m c (Proc.devRef .tc main_arg19) = (RA m c).a19 :=
  (StableHlo.after_of_writes_sub Ops.ops6 (Rv5 m c) rwrites6_sub (by decide)).trans (r_arg19_5 m c)
theorem r_arg0_6 : Rv6 m c (Proc.devRef .tc main_arg0) = (RA m c).a0 :=
  (StableHlo.after_of_writes_sub Ops.ops6 (Rv5 m c) rwrites6_sub (by decide)).trans (r_arg0_5 m c)
theorem r_arg1_6 : Rv6 m c (Proc.devRef .tc main_arg1) = (RA m c).a1 :=
  (StableHlo.after_of_writes_sub Ops.ops6 (Rv5 m c) rwrites6_sub (by decide)).trans (r_arg1_5 m c)
theorem r_arg2_6 : Rv6 m c (Proc.devRef .tc main_arg2) = (RA m c).a2 :=
  (StableHlo.after_of_writes_sub Ops.ops6 (Rv5 m c) rwrites6_sub (by decide)).trans (r_arg2_5 m c)
theorem r_arg3_6 : Rv6 m c (Proc.devRef .tc main_arg3) = (RA m c).a3 :=
  (StableHlo.after_of_writes_sub Ops.ops6 (Rv5 m c) rwrites6_sub (by decide)).trans (r_arg3_5 m c)
theorem r_arg4_6 : Rv6 m c (Proc.devRef .tc main_arg4) = (RA m c).a4 :=
  (StableHlo.after_of_writes_sub Ops.ops6 (Rv5 m c) rwrites6_sub (by decide)).trans (r_arg4_5 m c)
theorem r_arg5_6 : Rv6 m c (Proc.devRef .tc main_arg5) = (RA m c).a5 :=
  (StableHlo.after_of_writes_sub Ops.ops6 (Rv5 m c) rwrites6_sub (by decide)).trans (r_arg5_5 m c)
theorem r_arg6_6 : Rv6 m c (Proc.devRef .tc main_arg6) = (RA m c).a6 :=
  (StableHlo.after_of_writes_sub Ops.ops6 (Rv5 m c) rwrites6_sub (by decide)).trans (r_arg6_5 m c)
theorem r_arg7_6 : Rv6 m c (Proc.devRef .tc main_arg7) = (RA m c).a7 :=
  (StableHlo.after_of_writes_sub Ops.ops6 (Rv5 m c) rwrites6_sub (by decide)).trans (r_arg7_5 m c)
theorem r_arg8_6 : Rv6 m c (Proc.devRef .tc main_arg8) = (RA m c).a8 :=
  (StableHlo.after_of_writes_sub Ops.ops6 (Rv5 m c) rwrites6_sub (by decide)).trans (r_arg8_5 m c)
theorem r_arg9_6 : Rv6 m c (Proc.devRef .tc main_arg9) = (RA m c).a9 :=
  (StableHlo.after_of_writes_sub Ops.ops6 (Rv5 m c) rwrites6_sub (by decide)).trans (r_arg9_5 m c)

end Cert.ReferenceIdeal.Thread

end
-- ==== Proof.RThread7.lean ====
import proofs.«116822_j38594576122568_1_alg».proof.Proof.RefOps7
import proofs.«116822_j38594576122568_1_alg».proof.Proof.RThread6
import Idealize.ShloMosaic.Lib.StableHlo.Run

/-! Window 7 of the reference's run: the valuation after it, and what each buffer read again later holds there. -/

noncomputable section

namespace Cert.ReferenceIdeal.Thread

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

variable (m : (ℓ : Loc nD τ sig) → Buf (Elt F) ℓ) (c : Dev nD)

/-- The buffers' contents after window 7. -/
def Rv7 : Valuation τ sig (Elt F) := StableHlo.after Ops.ops7 (Rv6 m c)

/-- The buffers window 7 writes. -/
abbrev rwrites7 : List (Ref sig .tc) := [main_v372, main_call14_cst, main_call14_v0, main_call14_v1, main_call14_cst_0, main_call14_v2, main_call14_v3, main_v373, main_v374, main_v375, main_v376, main_v377, main_v378, main_v379, main_v380, main_v381, main_v382, main_v383, main_v384, main_v385, main_v386, main_v387, main_v388, main_v389, main_cst_46, main_v390, main_cst_47, main_v391, main_v392, main_c_48, main_call15_cst, main_call15_v0, main_call15_v1, main_call15_cst_0, main_call15_v2, main_call15_v3, main_call15_v4, main_call15_v5, main_call15_v6, main_call15_v7, main_call15_cst_1, main_call15_v8, main_call15_cst_2, main_call15_v9, main_call15_v10, main_call15_v11, main_call15_cst_3, main_call15_v12, main_call15_cst_4, main_call15_call0_v0, main_call15_call0_v1, main_v393, main_v394, main_v395, main_v396, main_v397, main_v398, main_v399, main_cst_49, main_v400, main_v401, main_v402, main_v403, main_v404, main_v405, main_v406, main_v407, main_v408, main_call16_cst, main_call16_v0, main_v409, main_v410, main_v411, main_v412, main_v413, main_v414, main_v415, main_v416, main_v417, main_v418, main_v419, main_v420, main_v421, main_v422, main_v423, main_v424, main_v425, main_v426, main_v427]

theorem rwrites7_sub : (Ops.ops7 : List (HloOp τ sig (Elt F))).Forall fun op => op.writes ⊆ ((rwrites7).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem r_v373_7 : Rv7 m c (Proc.devRef .tc main_v373) = Spec.g_v373 (RA m c) := by
  show StableHlo.after Ops.ops7 (Rv6 m c) (Proc.devRef .tc main_v373) = _
  after_results_simp
  try simp only [r_v331_6 m c, r_v371_6 m c]
  rfl
theorem r_v375_7 : Rv7 m c (Proc.devRef .tc main_v375) = Spec.g_v375 (RA m c) := by
  show StableHlo.after Ops.ops7 (Rv6 m c) (Proc.devRef .tc main_v375) = _
  after_results_simp
  try simp only [r_v225_6 m c]
  rfl
theorem r_v377_7 : Rv7 m c (Proc.devRef .tc main_v377) = Spec.g_v377 (RA m c) := by
  show StableHlo.after Ops.ops7 (Rv6 m c) (Proc.devRef .tc main_v377) = _
  after_results_simp
  try simp only [r_v227_6 m c]
  rfl
theorem r_v379_7 : Rv7 m c (Proc.devRef .tc main_v379) = Spec.g_v379 (RA m c) := by
  show StableHlo.after Ops.ops7 (Rv6 m c) (Proc.devRef .tc main_v379) = _
  after_results_simp
  try simp only [r_v229_6 m c]
  rfl
theorem r_v381_7 : Rv7 m c (Proc.devRef .tc main_v381) = Spec.g_v381 (RA m c) := by
  show StableHlo.after Ops.ops7 (Rv6 m c) (Proc.devRef .tc main_v381) = _
  after_results_simp
  try simp only [r_v231_6 m c]
  rfl
theorem r_v383_7 : Rv7 m c (Proc.devRef .tc main_v383) = Spec.g_v383 (RA m c) := by
  show StableHlo.after Ops.ops7 (Rv6 m c) (Proc.devRef .tc main_v383) = _
  after_results_simp
  try simp only [r_v233_6 m c]
  rfl
theorem r_v385_7 : Rv7 m c (Proc.devRef .tc main_v385) = Spec.g_v385 (RA m c) := by
  show StableHlo.after Ops.ops7 (Rv6 m c) (Proc.devRef .tc main_v385) = _
  after_results_simp
  try simp only [r_v235_6 m c]
  rfl
theorem r_v389_7 : Rv7 m c (Proc.devRef .tc main_v389) = Spec.g_v389 (RA m c) := by
  show StableHlo.after Ops.ops7 (Rv6 m c) (Proc.devRef .tc main_v389) = _
  after_results_simp
  try simp only [r_v277_6 m c, r_v225_6 m c, r_v227_6 m c]
  rfl
theorem r_v392_7 : Rv7 m c (Proc.devRef .tc main_v392) = Spec.g_v392 (RA m c) := by
  show StableHlo.after Ops.ops7 (Rv6 m c) (Proc.devRef .tc main_v392) = _
  after_results_simp
  try simp only [r_v277_6 m c, r_v225_6 m c, r_v227_6 m c]
  rfl
theorem r_v393_7 : Rv7 m c (Proc.devRef .tc main_v393) = Spec.g_v393 (RA m c) := by
  show StableHlo.after Ops.ops7 (Rv6 m c) (Proc.devRef .tc main_v393) = _
  after_results_simp
  try simp only [r_v277_6 m c, r_v225_6 m c, r_v227_6 m c]
  rfl
theorem r_v413_7 : Rv7 m c (Proc.devRef .tc main_v413) = Spec.g_v413 (RA m c) := by
  show StableHlo.after Ops.ops7 (Rv6 m c) (Proc.devRef .tc main_v413) = _
  after_results_simp
  try simp only [r_v229_6 m c, r_v277_6 m c, r_v225_6 m c, r_v227_6 m c, r_v231_6 m c, r_v233_6 m c, r_v235_6 m c]
  rfl
theorem r_v415_7 : Rv7 m c (Proc.devRef .tc main_v415) = Spec.g_v415 (RA m c) := by
  show StableHlo.after Ops.ops7 (Rv6 m c) (Proc.devRef .tc main_v415) = _
  after_results_simp
  try simp only [r_v225_6 m c]
  rfl
theorem r_v417_7 : Rv7 m c (Proc.devRef .tc main_v417) = Spec.g_v417 (RA m c) := by
  show StableHlo.after Ops.ops7 (Rv6 m c) (Proc.devRef .tc main_v417) = _
  after_results_simp
  try simp only [r_v227_6 m c]
  rfl
theorem r_v419_7 : Rv7 m c (Proc.devRef .tc main_v419) = Spec.g_v419 (RA m c) := by
  show StableHlo.after Ops.ops7 (Rv6 m c) (Proc.devRef .tc main_v419) = _
  after_results_simp
  try simp only [r_v229_6 m c]
  rfl
theorem r_v421_7 : Rv7 m c (Proc.devRef .tc main_v421) = Spec.g_v421 (RA m c) := by
  show StableHlo.after Ops.ops7 (Rv6 m c) (Proc.devRef .tc main_v421) = _
  after_results_simp
  try simp only [r_v231_6 m c]
  rfl
theorem r_v423_7 : Rv7 m c (Proc.devRef .tc main_v423) = Spec.g_v423 (RA m c) := by
  show StableHlo.after Ops.ops7 (Rv6 m c) (Proc.devRef .tc main_v423) = _
  after_results_simp
  try simp only [r_v233_6 m c]
  rfl
theorem r_v425_7 : Rv7 m c (Proc.devRef .tc main_v425) = Spec.g_v425 (RA m c) := by
  show StableHlo.after Ops.ops7 (Rv6 m c) (Proc.devRef .tc main_v425) = _
  after_results_simp
  try simp only [r_v235_6 m c]
  rfl
theorem r_v426_7 : Rv7 m c (Proc.devRef .tc main_v426) = Spec.g_v426 (RA m c) := by
  show StableHlo.after Ops.ops7 (Rv6 m c) (Proc.devRef .tc main_v426) = _
  after_results_simp
  try simp only [r_v291_6 m c, r_v225_6 m c]
  rfl
theorem r_v427_7 : Rv7 m c (Proc.devRef .tc main_v427) = Spec.g_v427 (RA m c) := by
  show StableHlo.after Ops.ops7 (Rv6 m c) (Proc.devRef .tc main_v427) = _
  after_results_simp
  try simp only [r_v227_6 m c]
  rfl
theorem r_arg10_7 : Rv7 m c (Proc.devRef .tc main_arg10) = (RA m c).a10 :=
  (StableHlo.after_of_writes_sub Ops.ops7 (Rv6 m c) rwrites7_sub (by decide)).trans (r_arg10_6 m c)
theorem r_arg11_7 : Rv7 m c (Proc.devRef .tc main_arg11) = (RA m c).a11 :=
  (StableHlo.after_of_writes_sub Ops.ops7 (Rv6 m c) rwrites7_sub (by decide)).trans (r_arg11_6 m c)
theorem r_arg12_7 : Rv7 m c (Proc.devRef .tc main_arg12) = (RA m c).a12 :=
  (StableHlo.after_of_writes_sub Ops.ops7 (Rv6 m c) rwrites7_sub (by decide)).trans (r_arg12_6 m c)
theorem r_arg13_7 : Rv7 m c (Proc.devRef .tc main_arg13) = (RA m c).a13 :=
  (StableHlo.after_of_writes_sub Ops.ops7 (Rv6 m c) rwrites7_sub (by decide)).trans (r_arg13_6 m c)
theorem r_arg14_7 : Rv7 m c (Proc.devRef .tc main_arg14) = (RA m c).a14 :=
  (StableHlo.after_of_writes_sub Ops.ops7 (Rv6 m c) rwrites7_sub (by decide)).trans (r_arg14_6 m c)
theorem r_arg15_7 : Rv7 m c (Proc.devRef .tc main_arg15) = (RA m c).a15 :=
  (StableHlo.after_of_writes_sub Ops.ops7 (Rv6 m c) rwrites7_sub (by decide)).trans (r_arg15_6 m c)
theorem r_arg20_7 : Rv7 m c (Proc.devRef .tc main_arg20) = (RA m c).a20 :=
  (StableHlo.after_of_writes_sub Ops.ops7 (Rv6 m c) rwrites7_sub (by decide)).trans (r_arg20_6 m c)
theorem r_arg22_7 : Rv7 m c (Proc.devRef .tc main_arg22) = (RA m c).a22 :=
  (StableHlo.after_of_writes_sub Ops.ops7 (Rv6 m c) rwrites7_sub (by decide)).trans (r_arg22_6 m c)
theorem r_arg21_7 : Rv7 m c (Proc.devRef .tc main_arg21) = (RA m c).a21 :=
  (StableHlo.after_of_writes_sub Ops.ops7 (Rv6 m c) rwrites7_sub (by decide)).trans (r_arg21_6 m c)
theorem r_arg23_7 : Rv7 m c (Proc.devRef .tc main_arg23) = (RA m c).a23 :=
  (StableHlo.after_of_writes_sub Ops.ops7 (Rv6 m c) rwrites7_sub (by decide)).trans (r_arg23_6 m c)
theorem r_arg16_7 : Rv7 m c (Proc.devRef .tc main_arg16) = (RA m c).a16 :=
  (StableHlo.after_of_writes_sub Ops.ops7 (Rv6 m c) rwrites7_sub (by decide)).trans (r_arg16_6 m c)
theorem r_arg17_7 : Rv7 m c (Proc.devRef .tc main_arg17) = (RA m c).a17 :=
  (StableHlo.after_of_writes_sub Ops.ops7 (Rv6 m c) rwrites7_sub (by decide)).trans (r_arg17_6 m c)
theorem r_arg18_7 : Rv7 m c (Proc.devRef .tc main_arg18) = (RA m c).a18 :=
  (StableHlo.after_of_writes_sub Ops.ops7 (Rv6 m c) rwrites7_sub (by decide)).trans (r_arg18_6 m c)
theorem r_arg19_7 : Rv7 m c (Proc.devRef .tc main_arg19) = (RA m c).a19 :=
  (StableHlo.after_of_writes_sub Ops.ops7 (Rv6 m c) rwrites7_sub (by decide)).trans (r_arg19_6 m c)
theorem r_arg0_7 : Rv7 m c (Proc.devRef .tc main_arg0) = (RA m c).a0 :=
  (StableHlo.after_of_writes_sub Ops.ops7 (Rv6 m c) rwrites7_sub (by decide)).trans (r_arg0_6 m c)
theorem r_arg1_7 : Rv7 m c (Proc.devRef .tc main_arg1) = (RA m c).a1 :=
  (StableHlo.after_of_writes_sub Ops.ops7 (Rv6 m c) rwrites7_sub (by decide)).trans (r_arg1_6 m c)
theorem r_arg2_7 : Rv7 m c (Proc.devRef .tc main_arg2) = (RA m c).a2 :=
  (StableHlo.after_of_writes_sub Ops.ops7 (Rv6 m c) rwrites7_sub (by decide)).trans (r_arg2_6 m c)
theorem r_arg3_7 : Rv7 m c (Proc.devRef .tc main_arg3) = (RA m c).a3 :=
  (StableHlo.after_of_writes_sub Ops.ops7 (Rv6 m c) rwrites7_sub (by decide)).trans (r_arg3_6 m c)
theorem r_arg4_7 : Rv7 m c (Proc.devRef .tc main_arg4) = (RA m c).a4 :=
  (StableHlo.after_of_writes_sub Ops.ops7 (Rv6 m c) rwrites7_sub (by decide)).trans (r_arg4_6 m c)
theorem r_arg5_7 : Rv7 m c (Proc.devRef .tc main_arg5) = (RA m c).a5 :=
  (StableHlo.after_of_writes_sub Ops.ops7 (Rv6 m c) rwrites7_sub (by decide)).trans (r_arg5_6 m c)
theorem r_arg6_7 : Rv7 m c (Proc.devRef .tc main_arg6) = (RA m c).a6 :=
  (StableHlo.after_of_writes_sub Ops.ops7 (Rv6 m c) rwrites7_sub (by decide)).trans (r_arg6_6 m c)
theorem r_arg7_7 : Rv7 m c (Proc.devRef .tc main_arg7) = (RA m c).a7 :=
  (StableHlo.after_of_writes_sub Ops.ops7 (Rv6 m c) rwrites7_sub (by decide)).trans (r_arg7_6 m c)
theorem r_arg8_7 : Rv7 m c (Proc.devRef .tc main_arg8) = (RA m c).a8 :=
  (StableHlo.after_of_writes_sub Ops.ops7 (Rv6 m c) rwrites7_sub (by decide)).trans (r_arg8_6 m c)
theorem r_arg9_7 : Rv7 m c (Proc.devRef .tc main_arg9) = (RA m c).a9 :=
  (StableHlo.after_of_writes_sub Ops.ops7 (Rv6 m c) rwrites7_sub (by decide)).trans (r_arg9_6 m c)

end Cert.ReferenceIdeal.Thread

end
-- ==== Proof.RThread8.lean ====
import proofs.«116822_j38594576122568_1_alg».proof.Proof.RefOps8
import proofs.«116822_j38594576122568_1_alg».proof.Proof.RThread7
import Idealize.ShloMosaic.Lib.StableHlo.Run

/-! Window 8 of the reference's run: the valuation after it, and what each buffer read again later holds there. -/

noncomputable section

namespace Cert.ReferenceIdeal.Thread

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

variable (m : (ℓ : Loc nD τ sig) → Buf (Elt F) ℓ) (c : Dev nD)

/-- The buffers' contents after window 8. -/
def Rv8 : Valuation τ sig (Elt F) := StableHlo.after Ops.ops8 (Rv7 m c)

/-- The buffers window 8 writes. -/
abbrev rwrites8 : List (Ref sig .tc) := [main_v428, main_v429, main_cst_50, main_v430, main_cst_51, main_v431, main_v432, main_c_52, main_call17_cst, main_call17_v0, main_call17_v1, main_call17_cst_0, main_call17_v2, main_call17_v3, main_call17_v4, main_call17_v5, main_call17_v6, main_call17_v7, main_call17_cst_1, main_call17_v8, main_call17_cst_2, main_call17_v9, main_call17_v10, main_call17_v11, main_call17_cst_3, main_call17_v12, main_call17_cst_4, main_call17_call0_v0, main_call17_call0_v1, main_v433, main_v434, main_v435, main_v436, main_v437, main_v438, main_v439, main_cst_53, main_v440, main_v441, main_v442, main_v443, main_v444, main_v445, main_v446, main_v447, main_v448, main_call18_cst, main_call18_v0, main_v449, main_v450, main_v451, main_v452, main_v453, main_v454, main_call19_cst, main_call19_v0, main_call19_v1, main_call19_cst_0, main_call19_v2, main_call19_v3, main_v455, main_v456, main_v457, main_v458, main_v459, main_v460, main_v461, main_v462, main_v463, main_v464, main_v465, main_v466, main_v467, main_v468, main_v469, main_c_54, main_v470, main_v471, main_c_55, main_v472, main_v473, main_v474, main_v475, main_v476, main_v477, main_v478, main_cst_56, main_v479, main_v480]

theorem rwrites8_sub : (Ops.ops8 : List (HloOp τ sig (Elt F))).Forall fun op => op.writes ⊆ ((rwrites8).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem r_v429_8 : Rv8 m c (Proc.devRef .tc main_v429) = Spec.g_v429 (RA m c) := by
  show StableHlo.after Ops.ops8 (Rv7 m c) (Proc.devRef .tc main_v429) = _
  after_results_simp
  try simp only [r_v426_7 m c, r_v427_7 m c]
  rfl
theorem r_v432_8 : Rv8 m c (Proc.devRef .tc main_v432) = Spec.g_v432 (RA m c) := by
  show StableHlo.after Ops.ops8 (Rv7 m c) (Proc.devRef .tc main_v432) = _
  after_results_simp
  try simp only [r_v426_7 m c, r_v427_7 m c]
  rfl
theorem r_v433_8 : Rv8 m c (Proc.devRef .tc main_v433) = Spec.g_v433 (RA m c) := by
  show StableHlo.after Ops.ops8 (Rv7 m c) (Proc.devRef .tc main_v433) = _
  after_results_simp
  try simp only [r_v426_7 m c, r_v427_7 m c]
  rfl
theorem r_v455_8 : Rv8 m c (Proc.devRef .tc main_v455) = Spec.g_v455 (RA m c) := by
  show StableHlo.after Ops.ops8 (Rv7 m c) (Proc.devRef .tc main_v455) = _
  after_results_simp
  try simp only [r_v413_7 m c, r_v419_7 m c, r_v426_7 m c, r_v427_7 m c, r_v421_7 m c, r_v423_7 m c, r_v425_7 m c]
  rfl
theorem r_v457_8 : Rv8 m c (Proc.devRef .tc main_v457) = Spec.g_v457 (RA m c) := by
  show StableHlo.after Ops.ops8 (Rv7 m c) (Proc.devRef .tc main_v457) = _
  after_results_simp
  try simp only [r_arg10_7 m c]
  rfl
theorem r_v459_8 : Rv8 m c (Proc.devRef .tc main_v459) = Spec.g_v459 (RA m c) := by
  show StableHlo.after Ops.ops8 (Rv7 m c) (Proc.devRef .tc main_v459) = _
  after_results_simp
  try simp only [r_arg11_7 m c]
  rfl
theorem r_v461_8 : Rv8 m c (Proc.devRef .tc main_v461) = Spec.g_v461 (RA m c) := by
  show StableHlo.after Ops.ops8 (Rv7 m c) (Proc.devRef .tc main_v461) = _
  after_results_simp
  try simp only [r_arg12_7 m c]
  rfl
theorem r_v463_8 : Rv8 m c (Proc.devRef .tc main_v463) = Spec.g_v463 (RA m c) := by
  show StableHlo.after Ops.ops8 (Rv7 m c) (Proc.devRef .tc main_v463) = _
  after_results_simp
  try simp only [r_arg13_7 m c]
  rfl
theorem r_v465_8 : Rv8 m c (Proc.devRef .tc main_v465) = Spec.g_v465 (RA m c) := by
  show StableHlo.after Ops.ops8 (Rv7 m c) (Proc.devRef .tc main_v465) = _
  after_results_simp
  try simp only [r_arg14_7 m c]
  rfl
theorem r_v467_8 : Rv8 m c (Proc.devRef .tc main_v467) = Spec.g_v467 (RA m c) := by
  show StableHlo.after Ops.ops8 (Rv7 m c) (Proc.devRef .tc main_v467) = _
  after_results_simp
  try simp only [r_arg15_7 m c]
  rfl
theorem r_v476_8 : Rv8 m c (Proc.devRef .tc main_v476) = Spec.g_v476 (RA m c) := by
  show StableHlo.after Ops.ops8 (Rv7 m c) (Proc.devRef .tc main_v476) = _
  after_results_simp
  try simp only [r_v373_7 m c, r_arg20_7 m c]
  rfl
theorem r_v479_8 : Rv8 m c (Proc.devRef .tc main_v479) = Spec.g_v479 (RA m c) := by
  show StableHlo.after Ops.ops8 (Rv7 m c) (Proc.devRef .tc main_v479) = _
  after_results_simp
  rfl
theorem r_v480_8 : Rv8 m c (Proc.devRef .tc main_v480) = Spec.g_v480 (RA m c) := by
  show StableHlo.after Ops.ops8 (Rv7 m c) (Proc.devRef .tc main_v480) = _
  after_results_simp
  try simp only [r_arg20_7 m c]
  rfl
theorem r_arg22_8 : Rv8 m c (Proc.devRef .tc main_arg22) = (RA m c).a22 :=
  (StableHlo.after_of_writes_sub Ops.ops8 (Rv7 m c) rwrites8_sub (by decide)).trans (r_arg22_7 m c)
theorem r_arg21_8 : Rv8 m c (Proc.devRef .tc main_arg21) = (RA m c).a21 :=
  (StableHlo.after_of_writes_sub Ops.ops8 (Rv7 m c) rwrites8_sub (by decide)).trans (r_arg21_7 m c)
theorem r_v373_8 : Rv8 m c (Proc.devRef .tc main_v373) = Spec.g_v373 (RA m c) :=
  (StableHlo.after_of_writes_sub Ops.ops8 (Rv7 m c) rwrites8_sub (by decide)).trans (r_v373_7 m c)
theorem r_arg23_8 : Rv8 m c (Proc.devRef .tc main_arg23) = (RA m c).a23 :=
  (StableHlo.after_of_writes_sub Ops.ops8 (Rv7 m c) rwrites8_sub (by decide)).trans (r_arg23_7 m c)
theorem r_arg16_8 : Rv8 m c (Proc.devRef .tc main_arg16) = (RA m c).a16 :=
  (StableHlo.after_of_writes_sub Ops.ops8 (Rv7 m c) rwrites8_sub (by decide)).trans (r_arg16_7 m c)
theorem r_arg17_8 : Rv8 m c (Proc.devRef .tc main_arg17) = (RA m c).a17 :=
  (StableHlo.after_of_writes_sub Ops.ops8 (Rv7 m c) rwrites8_sub (by decide)).trans (r_arg17_7 m c)
theorem r_arg18_8 : Rv8 m c (Proc.devRef .tc main_arg18) = (RA m c).a18 :=
  (StableHlo.after_of_writes_sub Ops.ops8 (Rv7 m c) rwrites8_sub (by decide)).trans (r_arg18_7 m c)
theorem r_arg19_8 : Rv8 m c (Proc.devRef .tc main_arg19) = (RA m c).a19 :=
  (StableHlo.after_of_writes_sub Ops.ops8 (Rv7 m c) rwrites8_sub (by decide)).trans (r_arg19_7 m c)
theorem r_arg0_8 : Rv8 m c (Proc.devRef .tc main_arg0) = (RA m c).a0 :=
  (StableHlo.after_of_writes_sub Ops.ops8 (Rv7 m c) rwrites8_sub (by decide)).trans (r_arg0_7 m c)
theorem r_arg1_8 : Rv8 m c (Proc.devRef .tc main_arg1) = (RA m c).a1 :=
  (StableHlo.after_of_writes_sub Ops.ops8 (Rv7 m c) rwrites8_sub (by decide)).trans (r_arg1_7 m c)
theorem r_arg2_8 : Rv8 m c (Proc.devRef .tc main_arg2) = (RA m c).a2 :=
  (StableHlo.after_of_writes_sub Ops.ops8 (Rv7 m c) rwrites8_sub (by decide)).trans (r_arg2_7 m c)
theorem r_arg3_8 : Rv8 m c (Proc.devRef .tc main_arg3) = (RA m c).a3 :=
  (StableHlo.after_of_writes_sub Ops.ops8 (Rv7 m c) rwrites8_sub (by decide)).trans (r_arg3_7 m c)
theorem r_arg4_8 : Rv8 m c (Proc.devRef .tc main_arg4) = (RA m c).a4 :=
  (StableHlo.after_of_writes_sub Ops.ops8 (Rv7 m c) rwrites8_sub (by decide)).trans (r_arg4_7 m c)
theorem r_arg5_8 : Rv8 m c (Proc.devRef .tc main_arg5) = (RA m c).a5 :=
  (StableHlo.after_of_writes_sub Ops.ops8 (Rv7 m c) rwrites8_sub (by decide)).trans (r_arg5_7 m c)
theorem r_arg6_8 : Rv8 m c (Proc.devRef .tc main_arg6) = (RA m c).a6 :=
  (StableHlo.after_of_writes_sub Ops.ops8 (Rv7 m c) rwrites8_sub (by decide)).trans (r_arg6_7 m c)
theorem r_arg7_8 : Rv8 m c (Proc.devRef .tc main_arg7) = (RA m c).a7 :=
  (StableHlo.after_of_writes_sub Ops.ops8 (Rv7 m c) rwrites8_sub (by decide)).trans (r_arg7_7 m c)
theorem r_arg8_8 : Rv8 m c (Proc.devRef .tc main_arg8) = (RA m c).a8 :=
  (StableHlo.after_of_writes_sub Ops.ops8 (Rv7 m c) rwrites8_sub (by decide)).trans (r_arg8_7 m c)
theorem r_arg9_8 : Rv8 m c (Proc.devRef .tc main_arg9) = (RA m c).a9 :=
  (StableHlo.after_of_writes_sub Ops.ops8 (Rv7 m c) rwrites8_sub (by decide)).trans (r_arg9_7 m c)
theorem r_arg10_8 : Rv8 m c (Proc.devRef .tc main_arg10) = (RA m c).a10 :=
  (StableHlo.after_of_writes_sub Ops.ops8 (Rv7 m c) rwrites8_sub (by decide)).trans (r_arg10_7 m c)
theorem r_arg11_8 : Rv8 m c (Proc.devRef .tc main_arg11) = (RA m c).a11 :=
  (StableHlo.after_of_writes_sub Ops.ops8 (Rv7 m c) rwrites8_sub (by decide)).trans (r_arg11_7 m c)
theorem r_arg12_8 : Rv8 m c (Proc.devRef .tc main_arg12) = (RA m c).a12 :=
  (StableHlo.after_of_writes_sub Ops.ops8 (Rv7 m c) rwrites8_sub (by decide)).trans (r_arg12_7 m c)
theorem r_arg13_8 : Rv8 m c (Proc.devRef .tc main_arg13) = (RA m c).a13 :=
  (StableHlo.after_of_writes_sub Ops.ops8 (Rv7 m c) rwrites8_sub (by decide)).trans (r_arg13_7 m c)
theorem r_arg14_8 : Rv8 m c (Proc.devRef .tc main_arg14) = (RA m c).a14 :=
  (StableHlo.after_of_writes_sub Ops.ops8 (Rv7 m c) rwrites8_sub (by decide)).trans (r_arg14_7 m c)
theorem r_arg15_8 : Rv8 m c (Proc.devRef .tc main_arg15) = (RA m c).a15 :=
  (StableHlo.after_of_writes_sub Ops.ops8 (Rv7 m c) rwrites8_sub (by decide)).trans (r_arg15_7 m c)
theorem r_arg20_8 : Rv8 m c (Proc.devRef .tc main_arg20) = (RA m c).a20 :=
  (StableHlo.after_of_writes_sub Ops.ops8 (Rv7 m c) rwrites8_sub (by decide)).trans (r_arg20_7 m c)

end Cert.ReferenceIdeal.Thread

end
-- ==== Proof.RThread9.lean ====
import proofs.«116822_j38594576122568_1_alg».proof.Proof.RefOps9
import proofs.«116822_j38594576122568_1_alg».proof.Proof.RThread8
import Idealize.ShloMosaic.Lib.StableHlo.Run

/-! Window 9 of the reference's run: the valuation after it, and what each buffer read again later holds there. -/

noncomputable section

namespace Cert.ReferenceIdeal.Thread

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

variable (m : (ℓ : Loc nD τ sig) → Buf (Elt F) ℓ) (c : Dev nD)

/-- The buffers' contents after window 9. -/
def Rv9 : Valuation τ sig (Elt F) := StableHlo.after Ops.ops9 (Rv8 m c)

/-- The buffers window 9 writes. -/
abbrev rwrites9 : List (Ref sig .tc) := [main_v481, main_v482, main_v483, main_c_57, main_v484, main_v485, main_c_58, main_v486, main_v487, main_v488, main_v489, main_v490, main_v491, main_v492, main_cst_59, main_v493, main_v494, main_v495, main_v496, main_v497, main_c_60, main_v498, main_v499, main_c_61, main_v500, main_v501, main_v502, main_v503, main_v504, main_v505, main_v506, main_cst_62, main_v507, main_v508, main_v509, main_v510, main_v511, main_c_63, main_v512, main_v513, main_c_64, main_v514, main_v515, main_v516, main_v517, main_v518, main_v519, main_v520, main_cst_65, main_v521, main_v522, main_v523, main_v524, main_v525, main_v526, main_v527, main_v528, main_v529, main_v530, main_v531]

theorem rwrites9_sub : (Ops.ops9 : List (HloOp τ sig (Elt F))).Forall fun op => op.writes ⊆ ((rwrites9).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem r_v481_9 : Rv9 m c (Proc.devRef .tc main_v481) = Spec.g_v481 (RA m c) := by
  show StableHlo.after Ops.ops9 (Rv8 m c) (Proc.devRef .tc main_v481) = _
  after_results_simp
  try simp only [r_v479_8 m c, r_v480_8 m c, r_v476_8 m c]
  rfl
theorem r_v495_9 : Rv9 m c (Proc.devRef .tc main_v495) = Spec.g_v495 (RA m c) := by
  show StableHlo.after Ops.ops9 (Rv8 m c) (Proc.devRef .tc main_v495) = _
  after_results_simp
  try simp only [r_arg22_8 m c, r_v455_8 m c]
  rfl
theorem r_v509_9 : Rv9 m c (Proc.devRef .tc main_v509) = Spec.g_v509 (RA m c) := by
  show StableHlo.after Ops.ops9 (Rv8 m c) (Proc.devRef .tc main_v509) = _
  after_results_simp
  try simp only [r_arg21_8 m c, r_v373_8 m c]
  rfl
theorem r_v523_9 : Rv9 m c (Proc.devRef .tc main_v523) = Spec.g_v523 (RA m c) := by
  show StableHlo.after Ops.ops9 (Rv8 m c) (Proc.devRef .tc main_v523) = _
  after_results_simp
  try simp only [r_arg23_8 m c, r_v455_8 m c]
  rfl
theorem r_v525_9 : Rv9 m c (Proc.devRef .tc main_v525) = Spec.g_v525 (RA m c) := by
  show StableHlo.after Ops.ops9 (Rv8 m c) (Proc.devRef .tc main_v525) = _
  after_results_simp
  try simp only [r_v457_8 m c]
  rfl
theorem r_v527_9 : Rv9 m c (Proc.devRef .tc main_v527) = Spec.g_v527 (RA m c) := by
  show StableHlo.after Ops.ops9 (Rv8 m c) (Proc.devRef .tc main_v527) = _
  after_results_simp
  try simp only [r_v459_8 m c]
  rfl
theorem r_v529_9 : Rv9 m c (Proc.devRef .tc main_v529) = Spec.g_v529 (RA m c) := by
  show StableHlo.after Ops.ops9 (Rv8 m c) (Proc.devRef .tc main_v529) = _
  after_results_simp
  try simp only [r_v461_8 m c]
  rfl
theorem r_v531_9 : Rv9 m c (Proc.devRef .tc main_v531) = Spec.g_v531 (RA m c) := by
  show StableHlo.after Ops.ops9 (Rv8 m c) (Proc.devRef .tc main_v531) = _
  after_results_simp
  try simp only [r_v463_8 m c]
  rfl
theorem r_v465_9 : Rv9 m c (Proc.devRef .tc main_v465) = Spec.g_v465 (RA m c) :=
  (StableHlo.after_of_writes_sub Ops.ops9 (Rv8 m c) rwrites9_sub (by decide)).trans (r_v465_8 m c)
theorem r_v467_9 : Rv9 m c (Proc.devRef .tc main_v467) = Spec.g_v467 (RA m c) :=
  (StableHlo.after_of_writes_sub Ops.ops9 (Rv8 m c) rwrites9_sub (by decide)).trans (r_v467_8 m c)
theorem r_v457_9 : Rv9 m c (Proc.devRef .tc main_v457) = Spec.g_v457 (RA m c) :=
  (StableHlo.after_of_writes_sub Ops.ops9 (Rv8 m c) rwrites9_sub (by decide)).trans (r_v457_8 m c)
theorem r_v459_9 : Rv9 m c (Proc.devRef .tc main_v459) = Spec.g_v459 (RA m c) :=
  (StableHlo.after_of_writes_sub Ops.ops9 (Rv8 m c) rwrites9_sub (by decide)).trans (r_v459_8 m c)
theorem r_v461_9 : Rv9 m c (Proc.devRef .tc main_v461) = Spec.g_v461 (RA m c) :=
  (StableHlo.after_of_writes_sub Ops.ops9 (Rv8 m c) rwrites9_sub (by decide)).trans (r_v461_8 m c)
theorem r_v463_9 : Rv9 m c (Proc.devRef .tc main_v463) = Spec.g_v463 (RA m c) :=
  (StableHlo.after_of_writes_sub Ops.ops9 (Rv8 m c) rwrites9_sub (by decide)).trans (r_v463_8 m c)
theorem r_arg16_9 : Rv9 m c (Proc.devRef .tc main_arg16) = (RA m c).a16 :=
  (StableHlo.after_of_writes_sub Ops.ops9 (Rv8 m c) rwrites9_sub (by decide)).trans (r_arg16_8 m c)
theorem r_arg17_9 : Rv9 m c (Proc.devRef .tc main_arg17) = (RA m c).a17 :=
  (StableHlo.after_of_writes_sub Ops.ops9 (Rv8 m c) rwrites9_sub (by decide)).trans (r_arg17_8 m c)
theorem r_arg18_9 : Rv9 m c (Proc.devRef .tc main_arg18) = (RA m c).a18 :=
  (StableHlo.after_of_writes_sub Ops.ops9 (Rv8 m c) rwrites9_sub (by decide)).trans (r_arg18_8 m c)
theorem r_arg19_9 : Rv9 m c (Proc.devRef .tc main_arg19) = (RA m c).a19 :=
  (StableHlo.after_of_writes_sub Ops.ops9 (Rv8 m c) rwrites9_sub (by decide)).trans (r_arg19_8 m c)
theorem r_arg0_9 : Rv9 m c (Proc.devRef .tc main_arg0) = (RA m c).a0 :=
  (StableHlo.after_of_writes_sub Ops.ops9 (Rv8 m c) rwrites9_sub (by decide)).trans (r_arg0_8 m c)
theorem r_arg1_9 : Rv9 m c (Proc.devRef .tc main_arg1) = (RA m c).a1 :=
  (StableHlo.after_of_writes_sub Ops.ops9 (Rv8 m c) rwrites9_sub (by decide)).trans (r_arg1_8 m c)
theorem r_arg2_9 : Rv9 m c (Proc.devRef .tc main_arg2) = (RA m c).a2 :=
  (StableHlo.after_of_writes_sub Ops.ops9 (Rv8 m c) rwrites9_sub (by decide)).trans (r_arg2_8 m c)
theorem r_arg3_9 : Rv9 m c (Proc.devRef .tc main_arg3) = (RA m c).a3 :=
  (StableHlo.after_of_writes_sub Ops.ops9 (Rv8 m c) rwrites9_sub (by decide)).trans (r_arg3_8 m c)
theorem r_arg4_9 : Rv9 m c (Proc.devRef .tc main_arg4) = (RA m c).a4 :=
  (StableHlo.after_of_writes_sub Ops.ops9 (Rv8 m c) rwrites9_sub (by decide)).trans (r_arg4_8 m c)
theorem r_arg5_9 : Rv9 m c (Proc.devRef .tc main_arg5) = (RA m c).a5 :=
  (StableHlo.after_of_writes_sub Ops.ops9 (Rv8 m c) rwrites9_sub (by decide)).trans (r_arg5_8 m c)
theorem r_arg6_9 : Rv9 m c (Proc.devRef .tc main_arg6) = (RA m c).a6 :=
  (StableHlo.after_of_writes_sub Ops.ops9 (Rv8 m c) rwrites9_sub (by decide)).trans (r_arg6_8 m c)
theorem r_arg7_9 : Rv9 m c (Proc.devRef .tc main_arg7) = (RA m c).a7 :=
  (StableHlo.after_of_writes_sub Ops.ops9 (Rv8 m c) rwrites9_sub (by decide)).trans (r_arg7_8 m c)
theorem r_arg8_9 : Rv9 m c (Proc.devRef .tc main_arg8) = (RA m c).a8 :=
  (StableHlo.after_of_writes_sub Ops.ops9 (Rv8 m c) rwrites9_sub (by decide)).trans (r_arg8_8 m c)
theorem r_arg9_9 : Rv9 m c (Proc.devRef .tc main_arg9) = (RA m c).a9 :=
  (StableHlo.after_of_writes_sub Ops.ops9 (Rv8 m c) rwrites9_sub (by decide)).trans (r_arg9_8 m c)
theorem r_arg10_9 : Rv9 m c (Proc.devRef .tc main_arg10) = (RA m c).a10 :=
  (StableHlo.after_of_writes_sub Ops.ops9 (Rv8 m c) rwrites9_sub (by decide)).trans (r_arg10_8 m c)
theorem r_arg11_9 : Rv9 m c (Proc.devRef .tc main_arg11) = (RA m c).a11 :=
  (StableHlo.after_of_writes_sub Ops.ops9 (Rv8 m c) rwrites9_sub (by decide)).trans (r_arg11_8 m c)
theorem r_arg12_9 : Rv9 m c (Proc.devRef .tc main_arg12) = (RA m c).a12 :=
  (StableHlo.after_of_writes_sub Ops.ops9 (Rv8 m c) rwrites9_sub (by decide)).trans (r_arg12_8 m c)
theorem r_arg13_9 : Rv9 m c (Proc.devRef .tc main_arg13) = (RA m c).a13 :=
  (StableHlo.after_of_writes_sub Ops.ops9 (Rv8 m c) rwrites9_sub (by decide)).trans (r_arg13_8 m c)
theorem r_arg14_9 : Rv9 m c (Proc.devRef .tc main_arg14) = (RA m c).a14 :=
  (StableHlo.after_of_writes_sub Ops.ops9 (Rv8 m c) rwrites9_sub (by decide)).trans (r_arg14_8 m c)
theorem r_arg15_9 : Rv9 m c (Proc.devRef .tc main_arg15) = (RA m c).a15 :=
  (StableHlo.after_of_writes_sub Ops.ops9 (Rv8 m c) rwrites9_sub (by decide)).trans (r_arg15_8 m c)
theorem r_arg20_9 : Rv9 m c (Proc.devRef .tc main_arg20) = (RA m c).a20 :=
  (StableHlo.after_of_writes_sub Ops.ops9 (Rv8 m c) rwrites9_sub (by decide)).trans (r_arg20_8 m c)
theorem r_arg21_9 : Rv9 m c (Proc.devRef .tc main_arg21) = (RA m c).a21 :=
  (StableHlo.after_of_writes_sub Ops.ops9 (Rv8 m c) rwrites9_sub (by decide)).trans (r_arg21_8 m c)
theorem r_arg22_9 : Rv9 m c (Proc.devRef .tc main_arg22) = (RA m c).a22 :=
  (StableHlo.after_of_writes_sub Ops.ops9 (Rv8 m c) rwrites9_sub (by decide)).trans (r_arg22_8 m c)
theorem r_arg23_9 : Rv9 m c (Proc.devRef .tc main_arg23) = (RA m c).a23 :=
  (StableHlo.after_of_writes_sub Ops.ops9 (Rv8 m c) rwrites9_sub (by decide)).trans (r_arg23_8 m c)

end Cert.ReferenceIdeal.Thread

end
-- ==== Proof.RThread10.lean ====
import proofs.«116822_j38594576122568_1_alg».proof.Proof.RefOps10
import proofs.«116822_j38594576122568_1_alg».proof.Proof.RThread9
import Idealize.ShloMosaic.Lib.StableHlo.Run

/-! Window 10 of the reference's run: the valuation after it, and what each buffer read again later holds there. -/

noncomputable section

namespace Cert.ReferenceIdeal.Thread

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

variable (m : (ℓ : Loc nD τ sig) → Buf (Elt F) ℓ) (c : Dev nD)

/-- The buffers' contents after window 10. -/
def Rv10 : Valuation τ sig (Elt F) := StableHlo.after Ops.ops10 (Rv9 m c)

/-- The buffers window 10 writes. -/
abbrev rwrites10 : List (Ref sig .tc) := [main_v532, main_v533, main_v534, main_v535, main_v536, main_v537, main_v538, main_v539, main_cst_66, main_v540, main_cst_67, main_v541, main_v542, main_c_68, main_call20_cst, main_call20_v0, main_call20_v1, main_call20_cst_0, main_call20_v2, main_call20_v3, main_call20_v4, main_call20_v5, main_call20_v6, main_call20_v7, main_call20_cst_1, main_call20_v8, main_call20_cst_2, main_call20_v9, main_call20_v10, main_call20_v11, main_call20_cst_3, main_call20_v12, main_call20_cst_4, main_call20_call0_v0, main_call20_call0_v1, main_v543, main_v544, main_v545, main_v546, main_v547, main_v548, main_v549, main_cst_69, main_v550, main_v551, main_v552, main_v553, main_v554, main_v555, main_v556, main_v557, main_v558, main_call21_cst, main_call21_v0, main_v559, main_v560, main_v561, main_v562, main_v563, main_v564, main_v565, main_v566, main_v567, main_v568, main_v569, main_v570, main_v571, main_v572, main_v573, main_v574, main_v575, main_v576, main_v577, main_v578, main_v579, main_cst_70, main_v580, main_cst_71, main_v581, main_v582, main_c_72, main_call22_cst, main_call22_v0, main_call22_v1, main_call22_cst_0, main_call22_v2, main_call22_v3, main_call22_v4, main_call22_v5, main_call22_v6, main_call22_v7, main_call22_cst_1, main_call22_v8, main_call22_cst_2, main_call22_v9, main_call22_v10, main_call22_v11, main_call22_cst_3, main_call22_v12, main_call22_cst_4, main_call22_call0_v0, main_call22_call0_v1, main_v583, main_v584]

theorem rwrites10_sub : (Ops.ops10 : List (HloOp τ sig (Elt F))).Forall fun op => op.writes ⊆ ((rwrites10).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem r_v533_10 : Rv10 m c (Proc.devRef .tc main_v533) = Spec.g_v533 (RA m c) := by
  show StableHlo.after Ops.ops10 (Rv9 m c) (Proc.devRef .tc main_v533) = _
  after_results_simp
  try simp only [r_v465_9 m c]
  rfl
theorem r_v535_10 : Rv10 m c (Proc.devRef .tc main_v535) = Spec.g_v535 (RA m c) := by
  show StableHlo.after Ops.ops10 (Rv9 m c) (Proc.devRef .tc main_v535) = _
  after_results_simp
  try simp only [r_v467_9 m c]
  rfl
theorem r_v539_10 : Rv10 m c (Proc.devRef .tc main_v539) = Spec.g_v539 (RA m c) := by
  show StableHlo.after Ops.ops10 (Rv9 m c) (Proc.devRef .tc main_v539) = _
  after_results_simp
  try simp only [r_v481_9 m c, r_v525_9 m c, r_v527_9 m c]
  rfl
theorem r_v542_10 : Rv10 m c (Proc.devRef .tc main_v542) = Spec.g_v542 (RA m c) := by
  show StableHlo.after Ops.ops10 (Rv9 m c) (Proc.devRef .tc main_v542) = _
  after_results_simp
  try simp only [r_v481_9 m c, r_v525_9 m c, r_v527_9 m c]
  rfl
theorem r_v543_10 : Rv10 m c (Proc.devRef .tc main_v543) = Spec.g_v543 (RA m c) := by
  show StableHlo.after Ops.ops10 (Rv9 m c) (Proc.devRef .tc main_v543) = _
  after_results_simp
  try simp only [r_v481_9 m c, r_v525_9 m c, r_v527_9 m c]
  rfl
theorem r_v563_10 : Rv10 m c (Proc.devRef .tc main_v563) = Spec.g_v563 (RA m c) := by
  show StableHlo.after Ops.ops10 (Rv9 m c) (Proc.devRef .tc main_v563) = _
  after_results_simp
  try simp only [r_v529_9 m c, r_v481_9 m c, r_v525_9 m c, r_v527_9 m c, r_v531_9 m c, r_v465_9 m c, r_v467_9 m c]
  rfl
theorem r_v565_10 : Rv10 m c (Proc.devRef .tc main_v565) = Spec.g_v565 (RA m c) := by
  show StableHlo.after Ops.ops10 (Rv9 m c) (Proc.devRef .tc main_v565) = _
  after_results_simp
  try simp only [r_v457_9 m c]
  rfl
theorem r_v567_10 : Rv10 m c (Proc.devRef .tc main_v567) = Spec.g_v567 (RA m c) := by
  show StableHlo.after Ops.ops10 (Rv9 m c) (Proc.devRef .tc main_v567) = _
  after_results_simp
  try simp only [r_v459_9 m c]
  rfl
theorem r_v569_10 : Rv10 m c (Proc.devRef .tc main_v569) = Spec.g_v569 (RA m c) := by
  show StableHlo.after Ops.ops10 (Rv9 m c) (Proc.devRef .tc main_v569) = _
  after_results_simp
  try simp only [r_v461_9 m c]
  rfl
theorem r_v571_10 : Rv10 m c (Proc.devRef .tc main_v571) = Spec.g_v571 (RA m c) := by
  show StableHlo.after Ops.ops10 (Rv9 m c) (Proc.devRef .tc main_v571) = _
  after_results_simp
  try simp only [r_v463_9 m c]
  rfl
theorem r_v573_10 : Rv10 m c (Proc.devRef .tc main_v573) = Spec.g_v573 (RA m c) := by
  show StableHlo.after Ops.ops10 (Rv9 m c) (Proc.devRef .tc main_v573) = _
  after_results_simp
  try simp only [r_v465_9 m c]
  rfl
theorem r_v575_10 : Rv10 m c (Proc.devRef .tc main_v575) = Spec.g_v575 (RA m c) := by
  show StableHlo.after Ops.ops10 (Rv9 m c) (Proc.devRef .tc main_v575) = _
  after_results_simp
  try simp only [r_v467_9 m c]
  rfl
theorem r_v579_10 : Rv10 m c (Proc.devRef .tc main_v579) = Spec.g_v579 (RA m c) := by
  show StableHlo.after Ops.ops10 (Rv9 m c) (Proc.devRef .tc main_v579) = _
  after_results_simp
  try simp only [r_v495_9 m c, r_v457_9 m c, r_v459_9 m c]
  rfl
theorem r_v582_10 : Rv10 m c (Proc.devRef .tc main_v582) = Spec.g_v582 (RA m c) := by
  show StableHlo.after Ops.ops10 (Rv9 m c) (Proc.devRef .tc main_v582) = _
  after_results_simp
  try simp only [r_v495_9 m c, r_v457_9 m c, r_v459_9 m c]
  rfl
theorem r_v583_10 : Rv10 m c (Proc.devRef .tc main_v583) = Spec.g_v583 (RA m c) := by
  show StableHlo.after Ops.ops10 (Rv9 m c) (Proc.devRef .tc main_v583) = _
  after_results_simp
  try simp only [r_v495_9 m c, r_v457_9 m c, r_v459_9 m c]
  rfl
theorem r_v584_10 : Rv10 m c (Proc.devRef .tc main_v584) = Spec.g_v584 (RA m c) := by
  show StableHlo.after Ops.ops10 (Rv9 m c) (Proc.devRef .tc main_v584) = _
  after_results_simp
  try simp only [r_v495_9 m c, r_v457_9 m c, r_v459_9 m c]
  rfl
theorem r_v457_10 : Rv10 m c (Proc.devRef .tc main_v457) = Spec.g_v457 (RA m c) :=
  (StableHlo.after_of_writes_sub Ops.ops10 (Rv9 m c) rwrites10_sub (by decide)).trans (r_v457_9 m c)
theorem r_v459_10 : Rv10 m c (Proc.devRef .tc main_v459) = Spec.g_v459 (RA m c) :=
  (StableHlo.after_of_writes_sub Ops.ops10 (Rv9 m c) rwrites10_sub (by decide)).trans (r_v459_9 m c)
theorem r_v461_10 : Rv10 m c (Proc.devRef .tc main_v461) = Spec.g_v461 (RA m c) :=
  (StableHlo.after_of_writes_sub Ops.ops10 (Rv9 m c) rwrites10_sub (by decide)).trans (r_v461_9 m c)
theorem r_v463_10 : Rv10 m c (Proc.devRef .tc main_v463) = Spec.g_v463 (RA m c) :=
  (StableHlo.after_of_writes_sub Ops.ops10 (Rv9 m c) rwrites10_sub (by decide)).trans (r_v463_9 m c)
theorem r_v465_10 : Rv10 m c (Proc.devRef .tc main_v465) = Spec.g_v465 (RA m c) :=
  (StableHlo.after_of_writes_sub Ops.ops10 (Rv9 m c) rwrites10_sub (by decide)).trans (r_v465_9 m c)
theorem r_v467_10 : Rv10 m c (Proc.devRef .tc main_v467) = Spec.g_v467 (RA m c) :=
  (StableHlo.after_of_writes_sub Ops.ops10 (Rv9 m c) rwrites10_sub (by decide)).trans (r_v467_9 m c)
theorem r_v509_10 : Rv10 m c (Proc.devRef .tc main_v509) = Spec.g_v509 (RA m c) :=
  (StableHlo.after_of_writes_sub Ops.ops10 (Rv9 m c) rwrites10_sub (by decide)).trans (r_v509_9 m c)
theorem r_v523_10 : Rv10 m c (Proc.devRef .tc main_v523) = Spec.g_v523 (RA m c) :=
  (StableHlo.after_of_writes_sub Ops.ops10 (Rv9 m c) rwrites10_sub (by decide)).trans (r_v523_9 m c)
theorem r_arg16_10 : Rv10 m c (Proc.devRef .tc main_arg16) = (RA m c).a16 :=
  (StableHlo.after_of_writes_sub Ops.ops10 (Rv9 m c) rwrites10_sub (by decide)).trans (r_arg16_9 m c)
theorem r_arg17_10 : Rv10 m c (Proc.devRef .tc main_arg17) = (RA m c).a17 :=
  (StableHlo.after_of_writes_sub Ops.ops10 (Rv9 m c) rwrites10_sub (by decide)).trans (r_arg17_9 m c)
theorem r_arg18_10 : Rv10 m c (Proc.devRef .tc main_arg18) = (RA m c).a18 :=
  (StableHlo.after_of_writes_sub Ops.ops10 (Rv9 m c) rwrites10_sub (by decide)).trans (r_arg18_9 m c)
theorem r_arg19_10 : Rv10 m c (Proc.devRef .tc main_arg19) = (RA m c).a19 :=
  (StableHlo.after_of_writes_sub Ops.ops10 (Rv9 m c) rwrites10_sub (by decide)).trans (r_arg19_9 m c)
theorem r_arg0_10 : Rv10 m c (Proc.devRef .tc main_arg0) = (RA m c).a0 :=
  (StableHlo.after_of_writes_sub Ops.ops10 (Rv9 m c) rwrites10_sub (by decide)).trans (r_arg0_9 m c)
theorem r_arg1_10 : Rv10 m c (Proc.devRef .tc main_arg1) = (RA m c).a1 :=
  (StableHlo.after_of_writes_sub Ops.ops10 (Rv9 m c) rwrites10_sub (by decide)).trans (r_arg1_9 m c)
theorem r_arg2_10 : Rv10 m c (Proc.devRef .tc main_arg2) = (RA m c).a2 :=
  (StableHlo.after_of_writes_sub Ops.ops10 (Rv9 m c) rwrites10_sub (by decide)).trans (r_arg2_9 m c)
theorem r_arg3_10 : Rv10 m c (Proc.devRef .tc main_arg3) = (RA m c).a3 :=
  (StableHlo.after_of_writes_sub Ops.ops10 (Rv9 m c) rwrites10_sub (by decide)).trans (r_arg3_9 m c)
theorem r_arg4_10 : Rv10 m c (Proc.devRef .tc main_arg4) = (RA m c).a4 :=
  (StableHlo.after_of_writes_sub Ops.ops10 (Rv9 m c) rwrites10_sub (by decide)).trans (r_arg4_9 m c)
theorem r_arg5_10 : Rv10 m c (Proc.devRef .tc main_arg5) = (RA m c).a5 :=
  (StableHlo.after_of_writes_sub Ops.ops10 (Rv9 m c) rwrites10_sub (by decide)).trans (r_arg5_9 m c)
theorem r_arg6_10 : Rv10 m c (Proc.devRef .tc main_arg6) = (RA m c).a6 :=
  (StableHlo.after_of_writes_sub Ops.ops10 (Rv9 m c) rwrites10_sub (by decide)).trans (r_arg6_9 m c)
theorem r_arg7_10 : Rv10 m c (Proc.devRef .tc main_arg7) = (RA m c).a7 :=
  (StableHlo.after_of_writes_sub Ops.ops10 (Rv9 m c) rwrites10_sub (by decide)).trans (r_arg7_9 m c)
theorem r_arg8_10 : Rv10 m c (Proc.devRef .tc main_arg8) = (RA m c).a8 :=
  (StableHlo.after_of_writes_sub Ops.ops10 (Rv9 m c) rwrites10_sub (by decide)).trans (r_arg8_9 m c)
theorem r_arg9_10 : Rv10 m c (Proc.devRef .tc main_arg9) = (RA m c).a9 :=
  (StableHlo.after_of_writes_sub Ops.ops10 (Rv9 m c) rwrites10_sub (by decide)).trans (r_arg9_9 m c)
theorem r_arg10_10 : Rv10 m c (Proc.devRef .tc main_arg10) = (RA m c).a10 :=
  (StableHlo.after_of_writes_sub Ops.ops10 (Rv9 m c) rwrites10_sub (by decide)).trans (r_arg10_9 m c)
theorem r_arg11_10 : Rv10 m c (Proc.devRef .tc main_arg11) = (RA m c).a11 :=
  (StableHlo.after_of_writes_sub Ops.ops10 (Rv9 m c) rwrites10_sub (by decide)).trans (r_arg11_9 m c)
theorem r_arg12_10 : Rv10 m c (Proc.devRef .tc main_arg12) = (RA m c).a12 :=
  (StableHlo.after_of_writes_sub Ops.ops10 (Rv9 m c) rwrites10_sub (by decide)).trans (r_arg12_9 m c)
theorem r_arg13_10 : Rv10 m c (Proc.devRef .tc main_arg13) = (RA m c).a13 :=
  (StableHlo.after_of_writes_sub Ops.ops10 (Rv9 m c) rwrites10_sub (by decide)).trans (r_arg13_9 m c)
theorem r_arg14_10 : Rv10 m c (Proc.devRef .tc main_arg14) = (RA m c).a14 :=
  (StableHlo.after_of_writes_sub Ops.ops10 (Rv9 m c) rwrites10_sub (by decide)).trans (r_arg14_9 m c)
theorem r_arg15_10 : Rv10 m c (Proc.devRef .tc main_arg15) = (RA m c).a15 :=
  (StableHlo.after_of_writes_sub Ops.ops10 (Rv9 m c) rwrites10_sub (by decide)).trans (r_arg15_9 m c)
theorem r_arg20_10 : Rv10 m c (Proc.devRef .tc main_arg20) = (RA m c).a20 :=
  (StableHlo.after_of_writes_sub Ops.ops10 (Rv9 m c) rwrites10_sub (by decide)).trans (r_arg20_9 m c)
theorem r_arg21_10 : Rv10 m c (Proc.devRef .tc main_arg21) = (RA m c).a21 :=
  (StableHlo.after_of_writes_sub Ops.ops10 (Rv9 m c) rwrites10_sub (by decide)).trans (r_arg21_9 m c)
theorem r_arg22_10 : Rv10 m c (Proc.devRef .tc main_arg22) = (RA m c).a22 :=
  (StableHlo.after_of_writes_sub Ops.ops10 (Rv9 m c) rwrites10_sub (by decide)).trans (r_arg22_9 m c)
theorem r_arg23_10 : Rv10 m c (Proc.devRef .tc main_arg23) = (RA m c).a23 :=
  (StableHlo.after_of_writes_sub Ops.ops10 (Rv9 m c) rwrites10_sub (by decide)).trans (r_arg23_9 m c)

end Cert.ReferenceIdeal.Thread

end
-- ==== Proof.RThread11.lean ====
import proofs.«116822_j38594576122568_1_alg».proof.Proof.RefOps11
import proofs.«116822_j38594576122568_1_alg».proof.Proof.RThread10
import Idealize.ShloMosaic.Lib.StableHlo.Run

/-! Window 11 of the reference's run: the valuation after it, and what each buffer read again later holds there. -/

noncomputable section

namespace Cert.ReferenceIdeal.Thread

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

variable (m : (ℓ : Loc nD τ sig) → Buf (Elt F) ℓ) (c : Dev nD)

/-- The buffers' contents after window 11. -/
def Rv11 : Valuation τ sig (Elt F) := StableHlo.after Ops.ops11 (Rv10 m c)

/-- The buffers window 11 writes. -/
abbrev rwrites11 : List (Ref sig .tc) := [main_v585, main_v586, main_v587, main_v588, main_v589, main_cst_73, main_v590, main_v591, main_v592, main_v593, main_v594, main_v595, main_v596, main_v597, main_v598, main_call23_cst, main_call23_v0, main_v599, main_v600, main_v601, main_v602, main_v603, main_v604, main_call24_cst, main_call24_v0, main_call24_v1, main_call24_cst_0, main_call24_v2, main_call24_v3, main_v605, main_v606, main_v607, main_v608, main_v609, main_v610, main_v611, main_v612, main_v613, main_v614, main_v615, main_v616, main_v617, main_v618, main_v619, main_v620, main_v621, main_cst_74, main_v622, main_cst_75, main_v623, main_v624, main_c_76, main_call25_cst, main_call25_v0, main_call25_v1, main_call25_cst_0, main_call25_v2, main_call25_v3, main_call25_v4, main_call25_v5, main_call25_v6, main_call25_v7, main_call25_cst_1, main_call25_v8, main_call25_cst_2, main_call25_v9, main_call25_v10, main_call25_v11, main_call25_cst_3, main_call25_v12, main_call25_cst_4, main_call25_call0_v0, main_call25_call0_v1, main_v625, main_v626, main_v627, main_v628, main_v629, main_v630, main_v631, main_cst_77, main_v632, main_v633, main_v634, main_v635, main_v636, main_v637, main_v638, main_v639]

theorem rwrites11_sub : (Ops.ops11 : List (HloOp τ sig (Elt F))).Forall fun op => op.writes ⊆ ((rwrites11).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem r_v605_11 : Rv11 m c (Proc.devRef .tc main_v605) = Spec.g_v605 (RA m c) := by
  show StableHlo.after Ops.ops11 (Rv10 m c) (Proc.devRef .tc main_v605) = _
  after_results_simp
  try simp only [r_v563_10 m c, r_v569_10 m c, r_v579_10 m c, r_v584_10 m c, r_v583_10 m c, r_v571_10 m c, r_v573_10 m c, r_v575_10 m c]
  rfl
theorem r_v607_11 : Rv11 m c (Proc.devRef .tc main_v607) = Spec.g_v607 (RA m c) := by
  show StableHlo.after Ops.ops11 (Rv10 m c) (Proc.devRef .tc main_v607) = _
  after_results_simp
  try simp only [r_v457_10 m c]
  rfl
theorem r_v609_11 : Rv11 m c (Proc.devRef .tc main_v609) = Spec.g_v609 (RA m c) := by
  show StableHlo.after Ops.ops11 (Rv10 m c) (Proc.devRef .tc main_v609) = _
  after_results_simp
  try simp only [r_v459_10 m c]
  rfl
theorem r_v611_11 : Rv11 m c (Proc.devRef .tc main_v611) = Spec.g_v611 (RA m c) := by
  show StableHlo.after Ops.ops11 (Rv10 m c) (Proc.devRef .tc main_v611) = _
  after_results_simp
  try simp only [r_v461_10 m c]
  rfl
theorem r_v613_11 : Rv11 m c (Proc.devRef .tc main_v613) = Spec.g_v613 (RA m c) := by
  show StableHlo.after Ops.ops11 (Rv10 m c) (Proc.devRef .tc main_v613) = _
  after_results_simp
  try simp only [r_v463_10 m c]
  rfl
theorem r_v615_11 : Rv11 m c (Proc.devRef .tc main_v615) = Spec.g_v615 (RA m c) := by
  show StableHlo.after Ops.ops11 (Rv10 m c) (Proc.devRef .tc main_v615) = _
  after_results_simp
  try simp only [r_v465_10 m c]
  rfl
theorem r_v617_11 : Rv11 m c (Proc.devRef .tc main_v617) = Spec.g_v617 (RA m c) := by
  show StableHlo.after Ops.ops11 (Rv10 m c) (Proc.devRef .tc main_v617) = _
  after_results_simp
  try simp only [r_v467_10 m c]
  rfl
theorem r_v621_11 : Rv11 m c (Proc.devRef .tc main_v621) = Spec.g_v621 (RA m c) := by
  show StableHlo.after Ops.ops11 (Rv10 m c) (Proc.devRef .tc main_v621) = _
  after_results_simp
  try simp only [r_v509_10 m c, r_v457_10 m c, r_v459_10 m c]
  rfl
theorem r_v624_11 : Rv11 m c (Proc.devRef .tc main_v624) = Spec.g_v624 (RA m c) := by
  show StableHlo.after Ops.ops11 (Rv10 m c) (Proc.devRef .tc main_v624) = _
  after_results_simp
  try simp only [r_v509_10 m c, r_v457_10 m c, r_v459_10 m c]
  rfl
theorem r_v625_11 : Rv11 m c (Proc.devRef .tc main_v625) = Spec.g_v625 (RA m c) := by
  show StableHlo.after Ops.ops11 (Rv10 m c) (Proc.devRef .tc main_v625) = _
  after_results_simp
  try simp only [r_v509_10 m c, r_v457_10 m c, r_v459_10 m c]
  rfl
theorem r_v637_11 : Rv11 m c (Proc.devRef .tc main_v637) = Spec.g_v637 (RA m c) := by
  show StableHlo.after Ops.ops11 (Rv10 m c) (Proc.devRef .tc main_v637) = _
  after_results_simp
  try simp only [r_v461_10 m c, r_v509_10 m c, r_v457_10 m c, r_v459_10 m c]
  rfl
theorem r_v639_11 : Rv11 m c (Proc.devRef .tc main_v639) = Spec.g_v639 (RA m c) := by
  show StableHlo.after Ops.ops11 (Rv10 m c) (Proc.devRef .tc main_v639) = _
  after_results_simp
  try simp only [r_v463_10 m c]
  rfl
theorem r_v457_11 : Rv11 m c (Proc.devRef .tc main_v457) = Spec.g_v457 (RA m c) :=
  (StableHlo.after_of_writes_sub Ops.ops11 (Rv10 m c) rwrites11_sub (by decide)).trans (r_v457_10 m c)
theorem r_v459_11 : Rv11 m c (Proc.devRef .tc main_v459) = Spec.g_v459 (RA m c) :=
  (StableHlo.after_of_writes_sub Ops.ops11 (Rv10 m c) rwrites11_sub (by decide)).trans (r_v459_10 m c)
theorem r_v461_11 : Rv11 m c (Proc.devRef .tc main_v461) = Spec.g_v461 (RA m c) :=
  (StableHlo.after_of_writes_sub Ops.ops11 (Rv10 m c) rwrites11_sub (by decide)).trans (r_v461_10 m c)
theorem r_v463_11 : Rv11 m c (Proc.devRef .tc main_v463) = Spec.g_v463 (RA m c) :=
  (StableHlo.after_of_writes_sub Ops.ops11 (Rv10 m c) rwrites11_sub (by decide)).trans (r_v463_10 m c)
theorem r_v465_11 : Rv11 m c (Proc.devRef .tc main_v465) = Spec.g_v465 (RA m c) :=
  (StableHlo.after_of_writes_sub Ops.ops11 (Rv10 m c) rwrites11_sub (by decide)).trans (r_v465_10 m c)
theorem r_v467_11 : Rv11 m c (Proc.devRef .tc main_v467) = Spec.g_v467 (RA m c) :=
  (StableHlo.after_of_writes_sub Ops.ops11 (Rv10 m c) rwrites11_sub (by decide)).trans (r_v467_10 m c)
theorem r_v523_11 : Rv11 m c (Proc.devRef .tc main_v523) = Spec.g_v523 (RA m c) :=
  (StableHlo.after_of_writes_sub Ops.ops11 (Rv10 m c) rwrites11_sub (by decide)).trans (r_v523_10 m c)
theorem r_arg16_11 : Rv11 m c (Proc.devRef .tc main_arg16) = (RA m c).a16 :=
  (StableHlo.after_of_writes_sub Ops.ops11 (Rv10 m c) rwrites11_sub (by decide)).trans (r_arg16_10 m c)
theorem r_arg17_11 : Rv11 m c (Proc.devRef .tc main_arg17) = (RA m c).a17 :=
  (StableHlo.after_of_writes_sub Ops.ops11 (Rv10 m c) rwrites11_sub (by decide)).trans (r_arg17_10 m c)
theorem r_arg18_11 : Rv11 m c (Proc.devRef .tc main_arg18) = (RA m c).a18 :=
  (StableHlo.after_of_writes_sub Ops.ops11 (Rv10 m c) rwrites11_sub (by decide)).trans (r_arg18_10 m c)
theorem r_arg19_11 : Rv11 m c (Proc.devRef .tc main_arg19) = (RA m c).a19 :=
  (StableHlo.after_of_writes_sub Ops.ops11 (Rv10 m c) rwrites11_sub (by decide)).trans (r_arg19_10 m c)
theorem r_arg0_11 : Rv11 m c (Proc.devRef .tc main_arg0) = (RA m c).a0 :=
  (StableHlo.after_of_writes_sub Ops.ops11 (Rv10 m c) rwrites11_sub (by decide)).trans (r_arg0_10 m c)
theorem r_arg1_11 : Rv11 m c (Proc.devRef .tc main_arg1) = (RA m c).a1 :=
  (StableHlo.after_of_writes_sub Ops.ops11 (Rv10 m c) rwrites11_sub (by decide)).trans (r_arg1_10 m c)
theorem r_arg2_11 : Rv11 m c (Proc.devRef .tc main_arg2) = (RA m c).a2 :=
  (StableHlo.after_of_writes_sub Ops.ops11 (Rv10 m c) rwrites11_sub (by decide)).trans (r_arg2_10 m c)
theorem r_arg3_11 : Rv11 m c (Proc.devRef .tc main_arg3) = (RA m c).a3 :=
  (StableHlo.after_of_writes_sub Ops.ops11 (Rv10 m c) rwrites11_sub (by decide)).trans (r_arg3_10 m c)
theorem r_arg4_11 : Rv11 m c (Proc.devRef .tc main_arg4) = (RA m c).a4 :=
  (StableHlo.after_of_writes_sub Ops.ops11 (Rv10 m c) rwrites11_sub (by decide)).trans (r_arg4_10 m c)
theorem r_arg5_11 : Rv11 m c (Proc.devRef .tc main_arg5) = (RA m c).a5 :=
  (StableHlo.after_of_writes_sub Ops.ops11 (Rv10 m c) rwrites11_sub (by decide)).trans (r_arg5_10 m c)
theorem r_arg6_11 : Rv11 m c (Proc.devRef .tc main_arg6) = (RA m c).a6 :=
  (StableHlo.after_of_writes_sub Ops.ops11 (Rv10 m c) rwrites11_sub (by decide)).trans (r_arg6_10 m c)
theorem r_arg7_11 : Rv11 m c (Proc.devRef .tc main_arg7) = (RA m c).a7 :=
  (StableHlo.after_of_writes_sub Ops.ops11 (Rv10 m c) rwrites11_sub (by decide)).trans (r_arg7_10 m c)
theorem r_arg8_11 : Rv11 m c (Proc.devRef .tc main_arg8) = (RA m c).a8 :=
  (StableHlo.after_of_writes_sub Ops.ops11 (Rv10 m c) rwrites11_sub (by decide)).trans (r_arg8_10 m c)
theorem r_arg9_11 : Rv11 m c (Proc.devRef .tc main_arg9) = (RA m c).a9 :=
  (StableHlo.after_of_writes_sub Ops.ops11 (Rv10 m c) rwrites11_sub (by decide)).trans (r_arg9_10 m c)
theorem r_arg10_11 : Rv11 m c (Proc.devRef .tc main_arg10) = (RA m c).a10 :=
  (StableHlo.after_of_writes_sub Ops.ops11 (Rv10 m c) rwrites11_sub (by decide)).trans (r_arg10_10 m c)
theorem r_arg11_11 : Rv11 m c (Proc.devRef .tc main_arg11) = (RA m c).a11 :=
  (StableHlo.after_of_writes_sub Ops.ops11 (Rv10 m c) rwrites11_sub (by decide)).trans (r_arg11_10 m c)
theorem r_arg12_11 : Rv11 m c (Proc.devRef .tc main_arg12) = (RA m c).a12 :=
  (StableHlo.after_of_writes_sub Ops.ops11 (Rv10 m c) rwrites11_sub (by decide)).trans (r_arg12_10 m c)
theorem r_arg13_11 : Rv11 m c (Proc.devRef .tc main_arg13) = (RA m c).a13 :=
  (StableHlo.after_of_writes_sub Ops.ops11 (Rv10 m c) rwrites11_sub (by decide)).trans (r_arg13_10 m c)
theorem r_arg14_11 : Rv11 m c (Proc.devRef .tc main_arg14) = (RA m c).a14 :=
  (StableHlo.after_of_writes_sub Ops.ops11 (Rv10 m c) rwrites11_sub (by decide)).trans (r_arg14_10 m c)
theorem r_arg15_11 : Rv11 m c (Proc.devRef .tc main_arg15) = (RA m c).a15 :=
  (StableHlo.after_of_writes_sub Ops.ops11 (Rv10 m c) rwrites11_sub (by decide)).trans (r_arg15_10 m c)
theorem r_arg20_11 : Rv11 m c (Proc.devRef .tc main_arg20) = (RA m c).a20 :=
  (StableHlo.after_of_writes_sub Ops.ops11 (Rv10 m c) rwrites11_sub (by decide)).trans (r_arg20_10 m c)
theorem r_arg21_11 : Rv11 m c (Proc.devRef .tc main_arg21) = (RA m c).a21 :=
  (StableHlo.after_of_writes_sub Ops.ops11 (Rv10 m c) rwrites11_sub (by decide)).trans (r_arg21_10 m c)
theorem r_arg22_11 : Rv11 m c (Proc.devRef .tc main_arg22) = (RA m c).a22 :=
  (StableHlo.after_of_writes_sub Ops.ops11 (Rv10 m c) rwrites11_sub (by decide)).trans (r_arg22_10 m c)
theorem r_arg23_11 : Rv11 m c (Proc.devRef .tc main_arg23) = (RA m c).a23 :=
  (StableHlo.after_of_writes_sub Ops.ops11 (Rv10 m c) rwrites11_sub (by decide)).trans (r_arg23_10 m c)

end Cert.ReferenceIdeal.Thread

end
-- ==== Proof.RThread12.lean ====
import proofs.«116822_j38594576122568_1_alg».proof.Proof.RefOps12
import proofs.«116822_j38594576122568_1_alg».proof.Proof.RThread11
import Idealize.ShloMosaic.Lib.StableHlo.Run

/-! Window 12 of the reference's run: the valuation after it, and what each buffer read again later holds there. -/

noncomputable section

namespace Cert.ReferenceIdeal.Thread

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

variable (m : (ℓ : Loc nD τ sig) → Buf (Elt F) ℓ) (c : Dev nD)

/-- The buffers' contents after window 12. -/
def Rv12 : Valuation τ sig (Elt F) := StableHlo.after Ops.ops12 (Rv11 m c)

/-- The buffers window 12 writes. -/
abbrev rwrites12 : List (Ref sig .tc) := [main_v640, main_call26_cst, main_call26_v0, main_v641, main_v642, main_v643, main_v644, main_v645, main_v646, main_v647, main_v648, main_v649, main_v650, main_v651, main_v652, main_v653, main_v654, main_v655, main_v656, main_v657, main_v658, main_v659, main_v660, main_v661, main_cst_78, main_v662, main_cst_79, main_v663, main_v664, main_c_80, main_call27_cst, main_call27_v0, main_call27_v1, main_call27_cst_0, main_call27_v2, main_call27_v3, main_call27_v4, main_call27_v5, main_call27_v6, main_call27_v7, main_call27_cst_1, main_call27_v8, main_call27_cst_2, main_call27_v9, main_call27_v10, main_call27_v11, main_call27_cst_3, main_call27_v12, main_call27_cst_4, main_call27_call0_v0, main_call27_call0_v1, main_v665, main_v666, main_v667, main_v668, main_v669, main_v670, main_v671, main_cst_81, main_v672, main_v673, main_v674, main_v675, main_v676, main_v677, main_v678, main_v679, main_v680, main_call28_cst, main_call28_v0, main_v681, main_v682, main_v683, main_v684, main_v685, main_v686, main_call29_cst, main_call29_v0, main_call29_v1, main_call29_cst_0, main_call29_v2, main_call29_v3, main_v687, main_v688, main_v689, main_v690, main_v691, main_v692, main_v693, main_v694, main_v695]

theorem rwrites12_sub : (Ops.ops12 : List (HloOp τ sig (Elt F))).Forall fun op => op.writes ⊆ ((rwrites12).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩

theorem r_v647_12 : Rv12 m c (Proc.devRef .tc main_v647) = Spec.g_v647 (RA m c) := by
  show StableHlo.after Ops.ops12 (Rv11 m c) (Proc.devRef .tc main_v647) = _
  after_results_simp
  try simp only [r_v457_11 m c]
  rfl
theorem r_v649_12 : Rv12 m c (Proc.devRef .tc main_v649) = Spec.g_v649 (RA m c) := by
  show StableHlo.after Ops.ops12 (Rv11 m c) (Proc.devRef .tc main_v649) = _
  after_results_simp
  try simp only [r_v459_11 m c]
  rfl
theorem r_v651_12 : Rv12 m c (Proc.devRef .tc main_v651) = Spec.g_v651 (RA m c) := by
  show StableHlo.after Ops.ops12 (Rv11 m c) (Proc.devRef .tc main_v651) = _
  after_results_simp
  try simp only [r_v461_11 m c]
  rfl
theorem r_v653_12 : Rv12 m c (Proc.devRef .tc main_v653) = Spec.g_v653 (RA m c) := by
  show StableHlo.after Ops.ops12 (Rv11 m c) (Proc.devRef .tc main_v653) = _
  after_results_simp
  try simp only [r_v463_11 m c]
  rfl
theorem r_v655_12 : Rv12 m c (Proc.devRef .tc main_v655) = Spec.g_v655 (RA m c) := by
  show StableHlo.after Ops.ops12 (Rv11 m c) (Proc.devRef .tc main_v655) = _
  after_results_simp
  try simp only [r_v465_11 m c]
  rfl
theorem r_v657_12 : Rv12 m c (Proc.devRef .tc main_v657) = Spec.g_v657 (RA m c) := by
  show StableHlo.after Ops.ops12 (Rv11 m c) (Proc.devRef .tc main_v657) = _
  after_results_simp
  try simp only [r_v467_11 m c]
  rfl
theorem r_v661_12 : Rv12 m c (Proc.devRef .tc main_v661) = Spec.g_v661 (RA m c) := by
  show StableHlo.after Ops.ops12 (Rv11 m c) (Proc.devRef .tc main_v661) = _
  after_results_simp
  try simp only [r_v523_11 m c, r_v457_11 m c, r_v459_11 m c]
  rfl
theorem r_v664_12 : Rv12 m c (Proc.devRef .tc main_v664) = Spec.g_v664 (RA m c) := by
  show StableHlo.after Ops.ops12 (Rv11 m c) (Proc.devRef .tc main_v664) = _
  after_results_simp
  try simp only [r_v523_11 m c, r_v457_11 m c, r_v459_11 m c]
  rfl
theorem r_v665_12 : Rv12 m c (Proc.devRef .tc main_v665) = Spec.g_v665 (RA m c) := by
  show StableHlo.after Ops.ops12 (Rv11 m c) (Proc.devRef .tc main_v665) = _
  after_results_simp
  try simp only [r_v523_11 m c, r_v457_11 m c, r_v459_11 m c]
  rfl
theorem r_v687_12 : Rv12 m c (Proc.devRef .tc main_v687) = Spec.g_v687 (RA m c) := by
  show StableHlo.after Ops.ops12 (Rv11 m c) (Proc.devRef .tc main_v687) = _
  after_results_simp
  try simp only [r_v637_11 m c, r_v639_11 m c, r_v615_11 m c, r_v617_11 m c, r_v461_11 m c, r_v523_11 m c, r_v457_11 m c, r_v459_11 m c, r_v463_11 m c, r_v465_11 m c, r_v467_11 m c]
  rfl
theorem r_v691_12 : Rv12 m c (Proc.devRef .tc main_v691) = Spec.g_v691 (RA m c) := by
  show StableHlo.after Ops.ops12 (Rv11 m c) (Proc.devRef .tc main_v691) = _
  after_results_simp
  try simp only [r_v605_11 m c, r_arg16_11 m c, r_arg17_11 m c]
  rfl
theorem r_v695_12 : Rv12 m c (Proc.devRef .tc main_v695) = Spec.g_v695 (RA m c) := by
  show StableHlo.after Ops.ops12 (Rv11 m c) (Proc.devRef .tc main_v695) = _
  after_results_simp
  try simp only [r_v637_11 m c, r_v639_11 m c, r_v615_11 m c, r_v617_11 m c, r_v461_11 m c, r_v523_11 m c, r_v457_11 m c, r_v459_11 m c, r_v463_11 m c, r_v465_11 m c, r_v467_11 m c, r_arg18_11 m c, r_arg19_11 m c]
  rfl
theorem r_arg0_12 : Rv12 m c (Proc.devRef .tc main_arg0) = (RA m c).a0 :=
  (StableHlo.after_of_writes_sub Ops.ops12 (Rv11 m c) rwrites12_sub (by decide)).trans (r_arg0_11 m c)
theorem r_arg1_12 : Rv12 m c (Proc.devRef .tc main_arg1) = (RA m c).a1 :=
  (StableHlo.after_of_writes_sub Ops.ops12 (Rv11 m c) rwrites12_sub (by decide)).trans (r_arg1_11 m c)
theorem r_arg2_12 : Rv12 m c (Proc.devRef .tc main_arg2) = (RA m c).a2 :=
  (StableHlo.after_of_writes_sub Ops.ops12 (Rv11 m c) rwrites12_sub (by decide)).trans (r_arg2_11 m c)
theorem r_arg3_12 : Rv12 m c (Proc.devRef .tc main_arg3) = (RA m c).a3 :=
  (StableHlo.after_of_writes_sub Ops.ops12 (Rv11 m c) rwrites12_sub (by decide)).trans (r_arg3_11 m c)
theorem r_arg4_12 : Rv12 m c (Proc.devRef .tc main_arg4) = (RA m c).a4 :=
  (StableHlo.after_of_writes_sub Ops.ops12 (Rv11 m c) rwrites12_sub (by decide)).trans (r_arg4_11 m c)
theorem r_arg5_12 : Rv12 m c (Proc.devRef .tc main_arg5) = (RA m c).a5 :=
  (StableHlo.after_of_writes_sub Ops.ops12 (Rv11 m c) rwrites12_sub (by decide)).trans (r_arg5_11 m c)
theorem r_arg6_12 : Rv12 m c (Proc.devRef .tc main_arg6) = (RA m c).a6 :=
  (StableHlo.after_of_writes_sub Ops.ops12 (Rv11 m c) rwrites12_sub (by decide)).trans (r_arg6_11 m c)
theorem r_arg7_12 : Rv12 m c (Proc.devRef .tc main_arg7) = (RA m c).a7 :=
  (StableHlo.after_of_writes_sub Ops.ops12 (Rv11 m c) rwrites12_sub (by decide)).trans (r_arg7_11 m c)
theorem r_arg8_12 : Rv12 m c (Proc.devRef .tc main_arg8) = (RA m c).a8 :=
  (StableHlo.after_of_writes_sub Ops.ops12 (Rv11 m c) rwrites12_sub (by decide)).trans (r_arg8_11 m c)
theorem r_arg9_12 : Rv12 m c (Proc.devRef .tc main_arg9) = (RA m c).a9 :=
  (StableHlo.after_of_writes_sub Ops.ops12 (Rv11 m c) rwrites12_sub (by decide)).trans (r_arg9_11 m c)
theorem r_arg10_12 : Rv12 m c (Proc.devRef .tc main_arg10) = (RA m c).a10 :=
  (StableHlo.after_of_writes_sub Ops.ops12 (Rv11 m c) rwrites12_sub (by decide)).trans (r_arg10_11 m c)
theorem r_arg11_12 : Rv12 m c (Proc.devRef .tc main_arg11) = (RA m c).a11 :=
  (StableHlo.after_of_writes_sub Ops.ops12 (Rv11 m c) rwrites12_sub (by decide)).trans (r_arg11_11 m c)
theorem r_arg12_12 : Rv12 m c (Proc.devRef .tc main_arg12) = (RA m c).a12 :=
  (StableHlo.after_of_writes_sub Ops.ops12 (Rv11 m c) rwrites12_sub (by decide)).trans (r_arg12_11 m c)
theorem r_arg13_12 : Rv12 m c (Proc.devRef .tc main_arg13) = (RA m c).a13 :=
  (StableHlo.after_of_writes_sub Ops.ops12 (Rv11 m c) rwrites12_sub (by decide)).trans (r_arg13_11 m c)
theorem r_arg14_12 : Rv12 m c (Proc.devRef .tc main_arg14) = (RA m c).a14 :=
  (StableHlo.after_of_writes_sub Ops.ops12 (Rv11 m c) rwrites12_sub (by decide)).trans (r_arg14_11 m c)
theorem r_arg15_12 : Rv12 m c (Proc.devRef .tc main_arg15) = (RA m c).a15 :=
  (StableHlo.after_of_writes_sub Ops.ops12 (Rv11 m c) rwrites12_sub (by decide)).trans (r_arg15_11 m c)
theorem r_arg16_12 : Rv12 m c (Proc.devRef .tc main_arg16) = (RA m c).a16 :=
  (StableHlo.after_of_writes_sub Ops.ops12 (Rv11 m c) rwrites12_sub (by decide)).trans (r_arg16_11 m c)
theorem r_arg17_12 : Rv12 m c (Proc.devRef .tc main_arg17) = (RA m c).a17 :=
  (StableHlo.after_of_writes_sub Ops.ops12 (Rv11 m c) rwrites12_sub (by decide)).trans (r_arg17_11 m c)
theorem r_arg18_12 : Rv12 m c (Proc.devRef .tc main_arg18) = (RA m c).a18 :=
  (StableHlo.after_of_writes_sub Ops.ops12 (Rv11 m c) rwrites12_sub (by decide)).trans (r_arg18_11 m c)
theorem r_arg19_12 : Rv12 m c (Proc.devRef .tc main_arg19) = (RA m c).a19 :=
  (StableHlo.after_of_writes_sub Ops.ops12 (Rv11 m c) rwrites12_sub (by decide)).trans (r_arg19_11 m c)
theorem r_arg20_12 : Rv12 m c (Proc.devRef .tc main_arg20) = (RA m c).a20 :=
  (StableHlo.after_of_writes_sub Ops.ops12 (Rv11 m c) rwrites12_sub (by decide)).trans (r_arg20_11 m c)
theorem r_arg21_12 : Rv12 m c (Proc.devRef .tc main_arg21) = (RA m c).a21 :=
  (StableHlo.after_of_writes_sub Ops.ops12 (Rv11 m c) rwrites12_sub (by decide)).trans (r_arg21_11 m c)
theorem r_arg22_12 : Rv12 m c (Proc.devRef .tc main_arg22) = (RA m c).a22 :=
  (StableHlo.after_of_writes_sub Ops.ops12 (Rv11 m c) rwrites12_sub (by decide)).trans (r_arg22_11 m c)
theorem r_arg23_12 : Rv12 m c (Proc.devRef .tc main_arg23) = (RA m c).a23 :=
  (StableHlo.after_of_writes_sub Ops.ops12 (Rv11 m c) rwrites12_sub (by decide)).trans (r_arg23_11 m c)

end Cert.ReferenceIdeal.Thread

end
-- ==== Proof.RThread13.lean ====
import proofs.«116822_j38594576122568_1_alg».proof.Proof.RefOps13
import proofs.«116822_j38594576122568_1_alg».proof.Proof.RThread12
import Idealize.ShloMosaic.Lib.StableHlo.Run

/-! Window 13 of the reference's run: the valuation after it, and what each buffer read again later holds there. -/

noncomputable section

namespace Cert.ReferenceIdeal.Thread

open Cert.ReferenceIdeal Idealize.ShloMosaic Idealize.ShloMosaic.TcCoe Idealize.SL.Sem Idealize.ShloMosaic.StableHlo

variable {F : FTy → Type} [FloatOps F] [Cert.ReferenceIdeal.Facts]

open Cert.ReferenceIdeal.Facts₀ Cert.ReferenceIdeal.Facts

variable (m : (ℓ : Loc nD τ sig) → Buf (Elt F) ℓ) (c : Dev nD)

/-- The buffers' contents after window 13. -/
def Rv13 : Valuation τ sig (Elt F) := StableHlo.after Ops.ops13 (Rv12 m c)

/-- The buffers window 13 writes. -/
abbrev rwrites13 : List (Ref sig .tc) := []

theorem rwrites13_sub : (Ops.ops13 : List (HloOp τ sig (Elt F))).Forall fun op => op.writes ⊆ ((rwrites13).map (Proc.devRef (τ := τ) .tc)).toFinset :=
  ⟨⟩

theorem r_v691_13 : Rv13 m c (Proc.devRef .tc main_v691) = Spec.g_v691 (RA m c) :=
  (StableHlo.after_of_writes_sub Ops.ops13 (Rv12 m c) rwrites13_sub (by decide)).trans (r_v691_12 m c)
theorem r_v695_13 : Rv13 m c (Proc.devRef .tc main_v695) = Spec.g_v695 (RA m c) :=
  (StableHlo.after_of_writes_sub Ops.ops13 (Rv12 m c) rwrites13_sub (by decide)).trans (r_v695_12 m c)
theorem r_arg0_13 : Rv13 m c (Proc.devRef .tc main_arg0) = (RA m c).a0 :=
  (StableHlo.after_of_writes_sub Ops.ops13 (Rv12 m c) rwrites13_sub (by decide)).trans (r_arg0_12 m c)
theorem r_arg1_13 : Rv13 m c (Proc.devRef .tc main_arg1) = (RA m c).a1 :=
  (StableHlo.after_of_writes_sub Ops.ops13 (Rv12 m c) rwrites13_sub (by decide)).trans (r_arg1_12 m c)
theorem r_arg2_13 : Rv13 m c (Proc.devRef .tc main_arg2) = (RA m c).a2 :=
  (StableHlo.after_of_writes_sub Ops.ops13 (Rv12 m c) rwrites13_sub (by decide)).trans (r_arg2_12 m c)
theorem r_arg3_13 : Rv13 m c (Proc.devRef .tc main_arg3) = (RA m c).a3 :=
  (StableHlo.after_of_writes_sub Ops.ops13 (Rv12 m c) rwrites13_sub (by decide)).trans (r_arg3_12 m c)
theorem r_arg4_13 : Rv13 m c (Proc.devRef .tc main_arg4) = (RA m c).a4 :=
  (StableHlo.after_of_writes_sub Ops.ops13 (Rv12 m c) rwrites13_sub (by decide)).trans (r_arg4_12 m c)
theorem r_arg5_13 : Rv13 m c (Proc.devRef .tc main_arg5) = (RA m c).a5 :=
  (StableHlo.after_of_writes_sub Ops.ops13 (Rv12 m c) rwrites13_sub (by decide)).trans (r_arg5_12 m c)
theorem r_arg6_13 : Rv13 m c (Proc.devRef .tc main_arg6) = (RA m c).a6 :=
  (StableHlo.after_of_writes_sub Ops.ops13 (Rv12 m c) rwrites13_sub (by decide)).trans (r_arg6_12 m c)
theorem r_arg7_13 : Rv13 m c (Proc.devRef .tc main_arg7) = (RA m c).a7 :=
  (StableHlo.after_of_writes_sub Ops.ops13 (Rv12 m c) rwrites13_sub (by decide)).trans (r_arg7_12 m c)
theorem r_arg8_13 : Rv13 m c (Proc.devRef .tc main_arg8) = (RA m c).a8 :=
  (StableHlo.after_of_writes_sub Ops.ops13 (Rv12 m c) rwrites13_sub (by decide)).trans (r_arg8_12 m c)
theorem r_arg9_13 : Rv13 m c (Proc.devRef .tc main_arg9) = (RA m c).a9 :=
  (StableHlo.after_of_writes_sub Ops.ops13 (Rv12 m c) rwrites13_sub (by decide)).trans (r_arg9_12 m c)
theorem r_arg10_13 : Rv13 m c (Proc.devRef .tc main_arg10) = (RA m c).a10 :=
  (StableHlo.after_of_writes_sub Ops.ops13 (Rv12 m c) rwrites13_sub (by decide)).trans (r_arg10_12 m c)
theorem r_arg11_13 : Rv13 m c (Proc.devRef .tc main_arg11) = (RA m c).a11 :=
  (StableHlo.after_of_writes_sub Ops.ops13 (Rv12 m c) rwrites13_sub (by decide)).trans (r_arg11_12 m c)
theorem r_arg12_13 : Rv13 m c (Proc.devRef .tc main_arg12) = (RA m c).a12 :=
  (StableHlo.after_of_writes_sub Ops.ops13 (Rv12 m c) rwrites13_sub (by decide)).trans (r_arg12_12 m c)
theorem r_arg13_13 : Rv13 m c (Proc.devRef .tc main_arg13) = (RA m c).a13 :=
  (StableHlo.after_of_writes_sub Ops.ops13 (Rv12 m c) rwrites13_sub (by decide)).trans (r_arg13_12 m c)
theorem r_arg14_13 : Rv13 m c (Proc.devRef .tc main_arg14) = (RA m c).a14 :=
  (StableHlo.after_of_writes_sub Ops.ops13 (Rv12 m c) rwrites13_sub (by decide)).trans (r_arg14_12 m c)
theorem r_arg15_13 : Rv13 m c (Proc.devRef .tc main_arg15) = (RA m c).a15 :=
  (StableHlo.after_of_writes_sub Ops.ops13 (Rv12 m c) rwrites13_sub (by decide)).trans (r_arg15_12 m c)
theorem r_arg16_13 : Rv13 m c (Proc.devRef .tc main_arg16) = (RA m c).a16 :=
  (StableHlo.after_of_writes_sub Ops.ops13 (Rv12 m c) rwrites13_sub (by decide)).trans (r_arg16_12 m c)
theorem r_arg17_13 : Rv13 m c (Proc.devRef .tc main_arg17) = (RA m c).a17 :=
  (StableHlo.after_of_writes_sub Ops.ops13 (Rv12 m c) rwrites13_sub (by decide)).trans (r_arg17_12 m c)
theorem r_arg18_13 : Rv13 m c (Proc.devRef .tc main_arg18) = (RA m c).a18 :=
  (StableHlo.after_of_writes_sub Ops.ops13 (Rv12 m c) rwrites13_sub (by decide)).trans (r_arg18_12 m c)
theorem r_arg19_13 : Rv13 m c (Proc.devRef .tc main_arg19) = (RA m c).a19 :=
  (StableHlo.after_of_writes_sub Ops.ops13 (Rv12 m c) rwrites13_sub (by decide)).trans (r_arg19_12 m c)
theorem r_arg20_13 : Rv13 m c (Proc.devRef .tc main_arg20) = (RA m c).a20 :=
  (StableHlo.after_of_writes_sub Ops.ops13 (Rv12 m c) rwrites13_sub (by decide)).trans (r_arg20_12 m c)
theorem r_arg21_13 : Rv13 m c (Proc.devRef .tc main_arg21) = (RA m c).a21 :=
  (StableHlo.after_of_writes_sub Ops.ops13 (Rv12 m c) rwrites13_sub (by decide)).trans (r_arg21_12 m c)
theorem r_arg22_13 : Rv13 m c (Proc.devRef .tc main_arg22) = (RA m c).a22 :=
  (StableHlo.after_of_writes_sub Ops.ops13 (Rv12 m c) rwrites13_sub (by decide)).trans (r_arg22_12 m c)
theorem r_arg23_13 : Rv13 m c (Proc.devRef .tc main_arg23) = (RA m c).a23 :=
  (StableHlo.after_of_writes_sub Ops.ops13 (Rv12 m c) rwrites13_sub (by decide)).trans (r_arg23_12 m c)

end Cert.ReferenceIdeal.Thread

end
-- ==== Proof.RRun.lean ====
import proofs.«116822_j38594576122568_1_alg».proof.Proof.RefOps0
import proofs.«116822_j38594576122568_1_alg».proof.Proof.RefOps1
import proofs.«116822_j38594576122568_1_alg».proof.Proof.RefOps2
import proofs.«116822_j38594576122568_1_alg».proof.Proof.RefOps3
import proofs.«116822_j38594576122568_1_alg».proof.Proof.RefOps4
import proofs.«116822_j38594576122568_1_alg».proof.Proof.RefOps5
import proofs.«116822_j38594576122568_1_alg».proof.Proof.RefOps6
import proofs.«116822_j38594576122568_1_alg».proof.Proof.RefOps7
import proofs.«116822_j38594576122568_1_alg».proof.Proof.RefOps8
import proofs.«116822_j38594576122568_1_alg».proof.Proof.RefOps9
import proofs.«116822_j38594576122568_1_alg».proof.Proof.RefOps10
import proofs.«116822_j38594576122568_1_alg».proof.Proof.RefOps11
import proofs.«116822_j38594576122568_1_alg».proof.Proof.RefOps12
import proofs.«116822_j38594576122568_1_alg».proof.Proof.RefOps13
import proofs.«116822_j38594576122568_1_alg».proof.Proof.RThread13
import proofs.«116822_j38594576122568_1_alg».proof.Proof.Gen.ReferenceIdeal
import Idealize.ShloMosaic.Lib.StableHlo.Run
import Mathlib.Data.List.Basic

/-! The reference's whole run: @main is the fourteen windows' operations in one line, so every weakly fair execution
    terminates with each buffer at the last window's valuation; the arguments end as launched. -/

noncomputable section

namespace Cert.ReferenceIdeal.Thread

open Cert.ReferenceIdeal Idealize.ShloMosaic Idealize.ShloMosaic.TcCoe Idealize.SL.Sem Idealize.ShloMosaic.StableHlo

variable {F : FTy → Type} [FloatOps F]

/-- Running two lines one after the other from some contents is running the second from what the first leaves. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-- All of @main's operations, window after window. -/
abbrev opsAll : List (HloOp τ sig (Elt F)) :=
  Ops.ops0 ++ (Ops.ops1 ++ (Ops.ops2 ++ (Ops.ops3 ++ (Ops.ops4 ++ (Ops.ops5 ++ (Ops.ops6 ++ (Ops.ops7 ++ (Ops.ops8 ++ (Ops.ops9 ++ (Ops.ops10 ++ (Ops.ops11 ++ (Ops.ops12 ++ (Ops.ops13)))))))))))))

/-- @main runs its windows in order, and each window is the run of its list. -/
theorem main_eq (c : Dev nD) : main (F := F) c = StableHlo.seq opsAll := by
  simp only [opsAll, StableHlo.seq_append]
  unfold main
  rw [Ops.part0_eq, Ops.part1_eq, Ops.part2_eq, Ops.part3_eq, Ops.part4_eq, Ops.part5_eq, Ops.part6_eq, Ops.part7_eq, Ops.part8_eq, Ops.part9_eq, Ops.part10_eq, Ops.part11_eq, Ops.part12_eq, Ops.part13_eq]

theorem opsAll_sub : (opsAll : List (HloOp τ sig (Elt F))).Forall fun op => op.bufs ⊆ StableHlo.tcRefs τ sig := by
  simp only [opsAll, List.forall_append]
  exact ⟨Ops.ops0_sub, Ops.ops1_sub, Ops.ops2_sub, Ops.ops3_sub, Ops.ops4_sub, Ops.ops5_sub, Ops.ops6_sub, Ops.ops7_sub, Ops.ops8_sub, Ops.ops9_sub, Ops.ops10_sub, Ops.ops11_sub, Ops.ops12_sub, Ops.ops13_sub⟩

theorem opsAll_fresh : (opsAll : List (HloOp τ sig (Elt F))).Forall fun op => op.fresh = ∅ := by
  simp only [opsAll, List.forall_append]
  exact ⟨Ops.ops0_fresh, Ops.ops1_fresh, Ops.ops2_fresh, Ops.ops3_fresh, Ops.ops4_fresh, Ops.ops5_fresh, Ops.ops6_fresh, Ops.ops7_fresh, Ops.ops8_fresh, Ops.ops9_fresh, Ops.ops10_fresh, Ops.ops11_fresh, Ops.ops12_fresh, Ops.ops13_fresh⟩

theorem scopedRefs_eq : (Finset.univ.filter fun b : Ref sig .tc => b.isScoped) = ∅ := by decide
theorem scopedSems_eq : (Finset.univ.filter fun sm : SemLoc sig => sm.isScoped .tc) = ∅ := by decide

variable (m : (ℓ : Loc nD τ sig) → Buf (Elt F) ℓ) (ρ : Dev nD → PrngReg)

/-- The last window's valuation is the whole line run from the launch contents. -/
theorem after_all (c : Dev nD) : StableHlo.after opsAll (StableHlo.launchContents m c) = Rv13 m c := by
  simp only [opsAll, after_append]
  rfl

/-- Every weakly fair execution of the reference terminates with each TensorCore buffer at the last window's valuation. -/
theorem run_all : θ_run defs (onTc (τ := τ) (main (F := F))) ⟨m, fun _ => 0, ρ⟩ fun r =>
    ∀ (c : Dev nD) (b : Ref sig .tc), r.2.mem ((c.tc : Thread nD τ).loc b) = Rv13 m c (Proc.devRef .tc b) :=
  (θ_run defs _ _).mono (fun _ h c b => (h c b).trans (congrFun (after_all m c) _))
    (StableHlo.run_seq scopedRefs_eq scopedSems_eq defs main (fun _ => opsAll) main_eq (fun _ => opsAll_sub) m ρ
      (fun _ => List.forall_iff_forall_mem.mp opsAll_fresh))

end Cert.ReferenceIdeal.Thread

end
-- ==== Proof.Assembly.lean ====
import proofs.«116822_j38594576122568_1_alg».proof.Defs
import proofs.«116822_j38594576122568_1_alg».proof.Proof.KRun
import proofs.«116822_j38594576122568_1_alg».proof.Proof.KThread5
import proofs.«116822_j38594576122568_1_alg».proof.Proof.RRun
import proofs.«116822_j38594576122568_1_alg».proof.Proof.Gen.Pre_finite_inputs

/-! The two value-bearing claims, from the two runs read against the shared values: the reference's frame (its run with the
    result dropped), and the equality of results — the kernel program's run ends with its two result buffers at the shared
    values of the argument arrays, the reference's run at the same values of ITS argument arrays, and the two records of
    argument arrays are equal because the launch memories agree on them. -/

noncomputable section

namespace Cert.Proof.Parts

open Idealize.ShloMosaic Idealize.ShloMosaic.TcCoe Idealize.SL.Sem

variable [Cert.KernelIdeal.RegionValue.RegionFacts]

/-- The reference terminates, nothing faulting, with its argument arrays as launched: each is carried through all fourteen windows. -/
theorem frame_ri : Cert.frame_ReferenceIdeal := fun m ρ _ =>
  (θ_run Cert.ReferenceIdeal.defs _ _).mono (fun r h c =>
    ⟨(h c Cert.ReferenceIdeal.main_arg0).trans (Cert.ReferenceIdeal.Thread.r_arg0_13 m c),
     (h c Cert.ReferenceIdeal.main_arg1).trans (Cert.ReferenceIdeal.Thread.r_arg1_13 m c),
     (h c Cert.ReferenceIdeal.main_arg2).trans (Cert.ReferenceIdeal.Thread.r_arg2_13 m c),
     (h c Cert.ReferenceIdeal.main_arg3).trans (Cert.ReferenceIdeal.Thread.r_arg3_13 m c),
     (h c Cert.ReferenceIdeal.main_arg4).trans (Cert.ReferenceIdeal.Thread.r_arg4_13 m c),
     (h c Cert.ReferenceIdeal.main_arg5).trans (Cert.ReferenceIdeal.Thread.r_arg5_13 m c),
     (h c Cert.ReferenceIdeal.main_arg6).trans (Cert.ReferenceIdeal.Thread.r_arg6_13 m c),
     (h c Cert.ReferenceIdeal.main_arg7).trans (Cert.ReferenceIdeal.Thread.r_arg7_13 m c),
     (h c Cert.ReferenceIdeal.main_arg8).trans (Cert.ReferenceIdeal.Thread.r_arg8_13 m c),
     (h c Cert.ReferenceIdeal.main_arg9).trans (Cert.ReferenceIdeal.Thread.r_arg9_13 m c),
     (h c Cert.ReferenceIdeal.main_arg10).trans (Cert.ReferenceIdeal.Thread.r_arg10_13 m c),
     (h c Cert.ReferenceIdeal.main_arg11).trans (Cert.ReferenceIdeal.Thread.r_arg11_13 m c),
     (h c Cert.ReferenceIdeal.main_arg12).trans (Cert.ReferenceIdeal.Thread.r_arg12_13 m c),
     (h c Cert.ReferenceIdeal.main_arg13).trans (Cert.ReferenceIdeal.Thread.r_arg13_13 m c),
     (h c Cert.ReferenceIdeal.main_arg14).trans (Cert.ReferenceIdeal.Thread.r_arg14_13 m c),
     (h c Cert.ReferenceIdeal.main_arg15).trans (Cert.ReferenceIdeal.Thread.r_arg15_13 m c),
     (h c Cert.ReferenceIdeal.main_arg16).trans (Cert.ReferenceIdeal.Thread.r_arg16_13 m c),
     (h c Cert.ReferenceIdeal.main_arg17).trans (Cert.ReferenceIdeal.Thread.r_arg17_13 m c),
     (h c Cert.ReferenceIdeal.main_arg18).trans (Cert.ReferenceIdeal.Thread.r_arg18_13 m c),
     (h c Cert.ReferenceIdeal.main_arg19).trans (Cert.ReferenceIdeal.Thread.r_arg19_13 m c),
     (h c Cert.ReferenceIdeal.main_arg20).trans (Cert.ReferenceIdeal.Thread.r_arg20_13 m c),
     (h c Cert.ReferenceIdeal.main_arg21).trans (Cert.ReferenceIdeal.Thread.r_arg21_13 m c),
     (h c Cert.ReferenceIdeal.main_arg22).trans (Cert.ReferenceIdeal.Thread.r_arg22_13 m c),
     (h c Cert.ReferenceIdeal.main_arg23).trans (Cert.ReferenceIdeal.Thread.r_arg23_13 m c)⟩)
    (Cert.ReferenceIdeal.Thread.run_all (F := Ideal) m ρ)

/-- Memories that agree on the 24 argument arrays give the same record of arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) :
    Cert.ReferenceIdeal.Thread.RA m' c = Cert.KernelIdeal.Thread.KA m c := by
  obtain ⟨h0, h1, h2, h3, h4, h5, h6, h7, h8, h9, h10, h11, h12, h13, h14, h15, h16, h17, h18, h19, h20, h21, h22, h23⟩ := h
  unfold Cert.ReferenceIdeal.Thread.RA Cert.KernelIdeal.Thread.KA
  rw [h0, h1, h2, h3, h4, h5, h6, h7, h8, h9, h10, h11, h12, h13, h14, h15, h16, h17, h18, h19, h20, h21, h22, h23]

/-- Both programs end with the same two results: the shared values of the argument arrays. -/
theorem algebraic : Cert.algebraic_KernelIdeal_ReferenceIdeal := by
  intro m ρ m' ρ' _ hagree
  refine ⟨fun c => Cert.Spec.g_v691 (Cert.KernelIdeal.Thread.KA m c), fun c => Cert.Spec.g_v695 (Cert.KernelIdeal.Thread.KA m c), ?_, ?_⟩
  · exact (θ_run Cert.KernelIdeal.defs _ _).mono (fun r h c =>
      ⟨(h c).1.trans (Cert.KernelIdeal.Thread.k_v403_63 m ρ c), (h c).2.1.trans (Cert.KernelIdeal.Thread.k_v404_63 m ρ c), (h c).2.2⟩)
      (Cert.KernelIdeal.Gen.run_results (F := Ideal) m ρ)
  · exact (θ_run Cert.ReferenceIdeal.defs _ _).mono (fun r h c =>
      ⟨(h c Cert.ReferenceIdeal.main_v691).trans ((Cert.ReferenceIdeal.Thread.r_v691_13 m' c).trans (congrArg Cert.Spec.g_v691 (args_eq m m' c (hagree c)))),
       (h c Cert.ReferenceIdeal.main_v695).trans ((Cert.ReferenceIdeal.Thread.r_v695_13 m' c).trans (congrArg Cert.Spec.g_v695 (args_eq m m' c (hagree c)))),
       (h c Cert.ReferenceIdeal.main_arg0).trans (Cert.ReferenceIdeal.Thread.r_arg0_13 m' c),
       (h c Cert.ReferenceIdeal.main_arg1).trans (Cert.ReferenceIdeal.Thread.r_arg1_13 m' c),
       (h c Cert.ReferenceIdeal.main_arg2).trans (Cert.ReferenceIdeal.Thread.r_arg2_13 m' c),
       (h c Cert.ReferenceIdeal.main_arg3).trans (Cert.ReferenceIdeal.Thread.r_arg3_13 m' c),
       (h c Cert.ReferenceIdeal.main_arg4).trans (Cert.ReferenceIdeal.Thread.r_arg4_13 m' c),
       (h c Cert.ReferenceIdeal.main_arg5).trans (Cert.ReferenceIdeal.Thread.r_arg5_13 m' c),
       (h c Cert.ReferenceIdeal.main_arg6).trans (Cert.ReferenceIdeal.Thread.r_arg6_13 m' c),
       (h c Cert.ReferenceIdeal.main_arg7).trans (Cert.ReferenceIdeal.Thread.r_arg7_13 m' c),
       (h c Cert.ReferenceIdeal.main_arg8).trans (Cert.ReferenceIdeal.Thread.r_arg8_13 m' c),
       (h c Cert.ReferenceIdeal.main_arg9).trans (Cert.ReferenceIdeal.Thread.r_arg9_13 m' c),
       (h c Cert.ReferenceIdeal.main_arg10).trans (Cert.ReferenceIdeal.Thread.r_arg10_13 m' c),
       (h c Cert.ReferenceIdeal.main_arg11).trans (Cert.ReferenceIdeal.Thread.r_arg11_13 m' c),
       (h c Cert.ReferenceIdeal.main_arg12).trans (Cert.ReferenceIdeal.Thread.r_arg12_13 m' c),
       (h c Cert.ReferenceIdeal.main_arg13).trans (Cert.ReferenceIdeal.Thread.r_arg13_13 m' c),
       (h c Cert.ReferenceIdeal.main_arg14).trans (Cert.ReferenceIdeal.Thread.r_arg14_13 m' c),
       (h c Cert.ReferenceIdeal.main_arg15).trans (Cert.ReferenceIdeal.Thread.r_arg15_13 m' c),
       (h c Cert.ReferenceIdeal.main_arg16).trans (Cert.ReferenceIdeal.Thread.r_arg16_13 m' c),
       (h c Cert.ReferenceIdeal.main_arg17).trans (Cert.ReferenceIdeal.Thread.r_arg17_13 m' c),
       (h c Cert.ReferenceIdeal.main_arg18).trans (Cert.ReferenceIdeal.Thread.r_arg18_13 m' c),
       (h c Cert.ReferenceIdeal.main_arg19).trans (Cert.ReferenceIdeal.Thread.r_arg19_13 m' c),
       (h c Cert.ReferenceIdeal.main_arg20).trans (Cert.ReferenceIdeal.Thread.r_arg20_13 m' c),
       (h c Cert.ReferenceIdeal.main_arg21).trans (Cert.ReferenceIdeal.Thread.r_arg21_13 m' c),
       (h c Cert.ReferenceIdeal.main_arg22).trans (Cert.ReferenceIdeal.Thread.r_arg22_13 m' c),
       (h c Cert.ReferenceIdeal.main_arg23).trans (Cert.ReferenceIdeal.Thread.r_arg23_13 m' c)⟩)
      (Cert.ReferenceIdeal.Thread.run_all (F := Ideal) m' ρ')

end Cert.Proof.Parts

end
-- ==== Proof.Region0.lean ====
import proofs.«116822_j38594576122568_1_alg».proof.Proof.Gen.KernelIdeal.Frame
import proofs.«116822_j38594576122568_1_alg».proof.Proof.SpecLayers
import Idealize.ShloMosaic.Lib.Pipeline.Value
import Idealize.ShloMosaic.Lib.ValueIdx
import Idealize.ShloMosaic.Lib.ValueLayout
import Idealize.ShloMosaic.PureOps.Ideal.Laws

/-! What region 0 of the kernel program leaves in its output array. The region multiplies an array of 20000 rows and 4
    columns by a 4 by 7 weight matrix and adds a bias row of 7 entries, 2000 rows per grid point. Read at an index, the
    body's stored block is (∑ k, a(p,k) · w(k,q)) + b(q) on the extended reals, and so is the reference's linear layer;
    the 10 blocks are the 10 row ranges of one whole-array function, and they fill the array. -/

noncomputable section

namespace Cert.KernelIdeal.RegionValue

open Cert.KernelIdeal Cert.KernelIdeal.Gen Idealize.ShloMosaic Idealize.ShloMosaic.TcCoe Idealize.SL.Sem
open Idealize.ShloMosaic.ValueIdx
open scoped BigOperators

-- The kernel program's side conditions are read at the instance the generated modules provide, as the generated frame
-- does; the reference's are a parameter.
variable [Cert.ReferenceIdeal.Facts]

/-! ## The block product at an index

The kernel's product contracts the left block's axis 1 with the right block's axis 0. At output index
`(p, q)` and contraction position `k` the left operand is read at `(p, k)` and the right one at `(k, q)`:
one lemma per operand axis, stated at the literal axis. -/

/-- Left operand, axis 0 (a free axis): the output's row. -/
theorem lhs_blk0_0 (i : S2000x7.Idx) (q : dot_S2000x4_S4x7_S2000x7_1_0_0_1_n_n.contr.Idx) :
    (dot_S2000x4_S4x7_S2000x7_1_0_0_1_n_n.lhsIdx i q 0).val = (i 0).val := by
  unfold DotDims.lhsIdx
  rw [dif_neg (show ¬(0 : Fin S2000x4.rank) ∈ dot_S2000x4_S4x7_S2000x7_1_0_0_1_n_n.lhsBatch by decide), dif_pos (show (0 : Fin S2000x4.rank) ∈ dot_S2000x4_S4x7_S2000x7_1_0_0_1_n_n.lhsNonContracting by decide)]
  rfl

/-- Left operand, axis 1 (the contracted axis): the contraction position. -/
theorem lhs_blk0_1 (i : S2000x7.Idx) (q : dot_S2000x4_S4x7_S2000x7_1_0_0_1_n_n.contr.Idx) :
    (dot_S2000x4_S4x7_S2000x7_1_0_0_1_n_n.lhsIdx i q 1).val = (q ⟨0, by decide⟩).val :=
  dot_S2000x4_S4x7_S2000x7_1_0_0_1_n_n.lhsIdx_val_of_single rfl i q

/-- Right operand, axis 0 (the contracted axis): the contraction position. -/
theorem rhs_blk0_0 (i : S2000x7.Idx) (q : dot_S2000x4_S4x7_S2000x7_1_0_0_1_n_n.contr.Idx) :
    (dot_S2000x4_S4x7_S2000x7_1_0_0_1_n_n.rhsIdx i q 0).val = (q ⟨0, by decide⟩).val :=
  dot_S2000x4_S4x7_S2000x7_1_0_0_1_n_n.rhsIdx_val_of_single rfl i q

/-- Right operand, axis 1 (a free axis): the output's column. -/
theorem rhs_blk0_1 (i : S2000x7.Idx) (q : dot_S2000x4_S4x7_S2000x7_1_0_0_1_n_n.contr.Idx) :
    (dot_S2000x4_S4x7_S2000x7_1_0_0_1_n_n.rhsIdx i q 1).val = (i 1).val := by
  unfold DotDims.rhsIdx
  rw [dif_neg (show ¬(1 : Fin S4x7.rank) ∈ dot_S2000x4_S4x7_S2000x7_1_0_0_1_n_n.rhsBatch by decide), dif_pos (show (1 : Fin S4x7.rank) ∈ dot_S2000x4_S4x7_S2000x7_1_0_0_1_n_n.rhsNonContracting by decide)]
  rfl

/-- The block product into a zero accumulator, at `(p, q)`: the sum over the 4 contraction positions of the
    products of the operands' entries. -/
theorem blockProduct0_apply (x : FVec Ideal S2000x4 .bf16) (y : FVec Ideal S4x7 .bf16) (p : Fin 2000) (q : Fin 7) :
    matmul (F := Ideal) dot_S2000x4_S4x7_S2000x7_1_0_0_1_n_n none x y (constant (F := Ideal) S2000x7 .f32 0x00000000#32) (ix2 p q)
      = ∑ k : Fin 4, x (ix2 p k) * y (ix2 k q) := by
  simp only [matmul]
  rw [Ideal.matmul_constant_zero_apply, ← Equiv.sum_comp (contrEquiv1 dot_S2000x4_S4x7_S2000x7_1_0_0_1_n_n 4 rfl rfl).symm]
  refine Finset.sum_congr rfl fun k _ => ?_
  have hk := contrEquiv1_symm_val dot_S2000x4_S4x7_S2000x7_1_0_0_1_n_n 4 rfl rfl k
  have el : dot_S2000x4_S4x7_S2000x7_1_0_0_1_n_n.lhsIdx (ix2 p q) ((contrEquiv1 dot_S2000x4_S4x7_S2000x7_1_0_0_1_n_n 4 rfl rfl).symm k) = ix2 p k := funext fun a => Fin.ext (by
    match a with
    | ⟨0, _⟩ => exact lhs_blk0_0 _ _
    | ⟨1, _⟩ => exact (lhs_blk0_1 _ _).trans hk)
  have er : dot_S2000x4_S4x7_S2000x7_1_0_0_1_n_n.rhsIdx (ix2 p q) ((contrEquiv1 dot_S2000x4_S4x7_S2000x7_1_0_0_1_n_n 4 rfl rfl).symm k) = ix2 k q := funext fun a => Fin.ext (by
    match a with
    | ⟨0, _⟩ => exact (rhs_blk0_0 _ _).trans hk
    | ⟨1, _⟩ => exact rhs_blk0_1 _ _)
  rw [el, er]

/-- The bias row repeated down the 2000 rows of a block, at `(p, q)`: the bias at `q`. -/
theorem blockBias0_apply (z : Vec Ideal S7 .f32) (p : Fin 2000) (q : Fin 7) :
    broadcastTo S2000x7 (shapeCast S1x7 z shapeCasts_S7_S1x7) broadcasts_S1x7_S2000x7 (ix2 p q) = z (ix1 q) := by
  rw [broadcastTo_1b_ab_apply, shapeCast_a_1a_apply]

/-- THE BODY'S RESULT AT AN INDEX: what the body stores at `(p, q)` of its output block is the row `p` of the
    left block times the column `q` of the weights, plus the bias at `q` (the narrowing of the operands to the
    product's input format is the identity on extended reals). -/
theorem blockPayload0_apply (x0 : Vec Ideal S2000x4 .f32) (x1 : Vec Ideal S4x7 .f32) (x2 : Vec Ideal S7 .f32) (p : Fin 2000) (q : Fin 7) :
    k0_pay1 (F := Ideal) x0 x1 x2 (ix2 p q) = (∑ k : Fin 4, x0 (ix2 p k) * x1 (ix2 k q)) + x2 (ix1 q) := by
  unfold k0_pay1
  rw [addf_apply, blockProduct0_apply, blockBias0_apply]
  rfl

/-! ## The reference's linear layer at an index

The host product contracts the array's axis 1 with the weights' axis 0, exactly as the block product does, over the
whole 20000 rows; the bias row is first given a leading unit axis and then repeated down the rows. -/

/-- Left operand, axis 0 (a free axis): the output's row. -/
theorem lhs_arr0_0 (i : Cert.ReferenceIdeal.S20000x7.Idx) (q : Cert.ReferenceIdeal.dot_S20000x4_S4x7_S20000x7_1_0_0_1_n_n.contr.Idx) :
    (Cert.ReferenceIdeal.dot_S20000x4_S4x7_S20000x7_1_0_0_1_n_n.lhsIdx i q 0).val = (i 0).val := by
  unfold DotDims.lhsIdx
  rw [dif_neg (show ¬(0 : Fin Cert.ReferenceIdeal.S20000x4.rank) ∈ Cert.ReferenceIdeal.dot_S20000x4_S4x7_S20000x7_1_0_0_1_n_n.lhsBatch from (by decide : ¬(0 : Fin 2) ∈ ([] : List (Fin 2)))),
    dif_pos (show (0 : Fin Cert.ReferenceIdeal.S20000x4.rank) ∈ Cert.ReferenceIdeal.dot_S20000x4_S4x7_S20000x7_1_0_0_1_n_n.lhsNonContracting from (by decide : (0 : Fin 2) ∈ ([0] : List (Fin 2))))]
  rfl

/-- Left operand, axis 1 (the contracted axis): the contraction position. -/
theorem lhs_arr0_1 (i : Cert.ReferenceIdeal.S20000x7.Idx) (q : Cert.ReferenceIdeal.dot_S20000x4_S4x7_S20000x7_1_0_0_1_n_n.contr.Idx) :
    (Cert.ReferenceIdeal.dot_S20000x4_S4x7_S20000x7_1_0_0_1_n_n.lhsIdx i q 1).val = (q ⟨0, Nat.one_pos⟩).val :=
  Cert.ReferenceIdeal.dot_S20000x4_S4x7_S20000x7_1_0_0_1_n_n.lhsIdx_val_of_single rfl i q

/-- Right operand, axis 0 (the contracted axis): the contraction position. -/
theorem rhs_arr0_0 (i : Cert.ReferenceIdeal.S20000x7.Idx) (q : Cert.ReferenceIdeal.dot_S20000x4_S4x7_S20000x7_1_0_0_1_n_n.contr.Idx) :
    (Cert.ReferenceIdeal.dot_S20000x4_S4x7_S20000x7_1_0_0_1_n_n.rhsIdx i q 0).val = (q ⟨0, Nat.one_pos⟩).val :=
  Cert.ReferenceIdeal.dot_S20000x4_S4x7_S20000x7_1_0_0_1_n_n.rhsIdx_val_of_single rfl i q

/-- Right operand, axis 1 (a free axis): the output's column. -/
theorem rhs_arr0_1 (i : Cert.ReferenceIdeal.S20000x7.Idx) (q : Cert.ReferenceIdeal.dot_S20000x4_S4x7_S20000x7_1_0_0_1_n_n.contr.Idx) :
    (Cert.ReferenceIdeal.dot_S20000x4_S4x7_S20000x7_1_0_0_1_n_n.rhsIdx i q 1).val = (i 1).val := by
  unfold DotDims.rhsIdx
  rw [dif_neg (show ¬(1 : Fin Cert.ReferenceIdeal.S4x7.rank) ∈ Cert.ReferenceIdeal.dot_S20000x4_S4x7_S20000x7_1_0_0_1_n_n.rhsBatch from (by decide : ¬(1 : Fin 2) ∈ ([] : List (Fin 2)))),
    dif_pos (show (1 : Fin Cert.ReferenceIdeal.S4x7.rank) ∈ Cert.ReferenceIdeal.dot_S20000x4_S4x7_S20000x7_1_0_0_1_n_n.rhsNonContracting from (by decide : (1 : Fin 2) ∈ ([1] : List (Fin 2))))]
  rfl

/-- The host product at `(p, q)`: the sum over the 4 contraction positions of the products of the operands' entries. -/
theorem arrayProduct0_apply (a : FVec Ideal Cert.ReferenceIdeal.S20000x4 .f32) (w : FVec Ideal Cert.ReferenceIdeal.S4x7 .f32) (p : Fin 20000) (q : Fin 7) :
    Host.dotGeneral (F := Ideal) Cert.ReferenceIdeal.dot_S20000x4_S4x7_S20000x7_1_0_0_1_n_n none a w (ix2 p q)
      = ∑ k : Fin 4, a (ix2 p k) * w (ix2 k q) := by
  simp only [Host.dotGeneral]
  rw [Ideal.dotGeneral_apply, ← Equiv.sum_comp (contrEquiv1 Cert.ReferenceIdeal.dot_S20000x4_S4x7_S20000x7_1_0_0_1_n_n 4 rfl rfl).symm]
  refine Finset.sum_congr rfl fun k _ => ?_
  have hk := contrEquiv1_symm_val Cert.ReferenceIdeal.dot_S20000x4_S4x7_S20000x7_1_0_0_1_n_n 4 rfl rfl k
  have el : Cert.ReferenceIdeal.dot_S20000x4_S4x7_S20000x7_1_0_0_1_n_n.lhsIdx (ix2 p q) ((contrEquiv1 Cert.ReferenceIdeal.dot_S20000x4_S4x7_S20000x7_1_0_0_1_n_n 4 rfl rfl).symm k) = ix2 p k := funext fun a => Fin.ext (by
    match a with
    | ⟨0, _⟩ => exact lhs_arr0_0 _ _
    | ⟨1, _⟩ => exact (lhs_arr0_1 _ _).trans hk)
  have er : Cert.ReferenceIdeal.dot_S20000x4_S4x7_S20000x7_1_0_0_1_n_n.rhsIdx (ix2 p q) ((contrEquiv1 Cert.ReferenceIdeal.dot_S20000x4_S4x7_S20000x7_1_0_0_1_n_n 4 rfl rfl).symm k) = ix2 k q := funext fun a => Fin.ext (by
    match a with
    | ⟨0, _⟩ => exact (rhs_arr0_0 _ _).trans hk
    | ⟨1, _⟩ => exact rhs_arr0_1 _ _)
  rw [el, er]

/-- The bias row given a leading unit axis and repeated down the 20000 rows, at `(p, q)`: the bias at `q`. -/
theorem arrayBias0_apply (b : (⟨Cert.ReferenceIdeal.S7, .f32⟩ : BufTy).Contents (Elt Ideal)) (p : Fin 20000) (q : Fin 7) :
    broadcastInDim Cert.ReferenceIdeal.S20000x7 ![0, 1] Cert.ReferenceIdeal.Facts₀.bcast_S1x7_S20000x7_0_1 (broadcastInDim Cert.ReferenceIdeal.S1x7 ![1] Cert.ReferenceIdeal.Facts₀.bcast_S7_S1x7_1 b) (ix2 p q) = b (ix1 q) := by
  rw [broadcastInDim_apply _ _ _ (ix2 p q) (ix2 (0 : Fin 1) q) (fun a => by match a with | ⟨0, _⟩ => rfl | ⟨1, _⟩ => rfl),
    broadcastInDim_apply _ _ _ (ix2 (0 : Fin 1) q) (ix1 q) (fun a => by match a with | ⟨0, _⟩ => rfl)]

/-- THE REFERENCE'S LINEAR LAYER AT AN INDEX: row `p` of the array times column `q` of the weights, plus the bias at `q`. -/
theorem linear0_apply (a : (⟨Cert.ReferenceIdeal.S20000x4, .f32⟩ : BufTy).Contents (Elt Ideal)) (w : (⟨Cert.ReferenceIdeal.S4x7, .f32⟩ : BufTy).Contents (Elt Ideal)) (b : (⟨Cert.ReferenceIdeal.S7, .f32⟩ : BufTy).Contents (Elt Ideal)) (p : Fin 20000) (q : Fin 7) :
    Cert.Spec.linA (F := Ideal) a w b (ix2 p q) = (∑ k : Fin 4, a (ix2 p k) * w (ix2 k q)) + b (ix1 q) := by
  unfold Cert.Spec.linA
  beta_reduce
  rw [addf_apply, arrayProduct0_apply, arrayBias0_apply]

/-! ## From the blocks to the array

Grid point `t` works on rows `2000 t … 2000 t + 1999`: its left block is those rows of the array, the weights and
the bias are read whole, and what it writes back is those rows of the linear layer of the three arrays. The 10
points' row ranges fill the 20000 rows. -/

theorem zeroOffsets2 : (![0, 0] : Fin 2 → Nat) = fun _ => 0 :=
  funext fun a => by match a with | ⟨0, _⟩ => rfl | ⟨1, _⟩ => rfl

theorem zeroOffsets1 : (![0] : Fin 1 → Nat) = fun _ => 0 :=
  funext fun a => by match a with | ⟨0, _⟩ => rfl

/-- The printed index maps, decided once over the grid: the left block moves down the rows with the output block, the
    weights' and the bias's block indices are zero, and the output's row-block index is the point's number. -/
theorem blockIndices0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_3.index t (0 : Fin 2) ≤ 9 :=
  (by decide +kernel : ∀ t : Fin grid0.N, _)

/-- ONE BLOCK OF THE LINEAR LAYER. If the left block `x0` is rows `2000 n …` of the array `A`, and the weights' and the
    bias's blocks are the arrays `W` and `B` themselves, the body's result at `(p, q)` is the linear layer of `A`, `W`, `B`
    at `(2000 n + p, q)`. -/
theorem blockOfLinear0 (A : (⟨Cert.ReferenceIdeal.S20000x4, .f32⟩ : BufTy).Contents (Elt Ideal)) (W : (⟨Cert.ReferenceIdeal.S4x7, .f32⟩ : BufTy).Contents (Elt Ideal)) (B : (⟨Cert.ReferenceIdeal.S7, .f32⟩ : BufTy).Contents (Elt Ideal))
    (x0 : Vec Ideal S2000x4 .f32) (x1 : Vec Ideal S4x7 .f32) (x2 : Vec Ideal S7 .f32) (n : Nat) (hn : n ≤ 9)
    (h0 : ∀ (p : Fin 2000) (k : Fin 4), x0 (ix2 p k) = A (ix2 (⟨n * 2000 + p.val, by have := p.isLt; omega⟩ : Fin 20000) k))
    (h1 : ∀ (k : Fin 4) (q : Fin 7), x1 (ix2 k q) = W (ix2 k q))
    (h2 : ∀ q : Fin 7, x2 (ix1 q) = B (ix1 q))
    (p : Fin 2000) (q : Fin 7) :
    k0_pay1 (F := Ideal) x0 x1 x2 (ix2 p q)
      = Cert.Spec.linA (F := Ideal) A W B (ix2 (⟨n * 2000 + p.val, by have := p.isLt; omega⟩ : Fin 20000) q) := by
  rw [blockPayload0_apply, linear0_apply]
  simp only [h0, h1, h2]

/-- WHAT POINT `t` WRITES BACK is block `t` of the linear layer of the three arrays as the region finds them. -/
theorem flushed0_eq (V : (c : Dev nD) → (b : Ref sig .tc) → Buf (Elt Ideal) ((c : Thread nD τ).loc b)) (c : Dev nD) (t : Fin cfg0.N) :
    (dat0 (F := Ideal) V c).flushed 3 t = ((cfg0.win 3).blk t).view.read (Elt Ideal)
      (Cert.Spec.linA (F := Ideal) (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero zeroOffsets2]
  simp only [View.ld_unit_zero (S := S2000x4) zeroOffsets2, View.ld_unit_zero (S := S4x7) zeroOffsets2, View.ld_unit_zero (S := S7) zeroOffsets1]
  obtain ⟨e00, e01, e10, e11, e20, e30, e31, hle⟩ := blockIndices0 t
  funext (j : S2000x7.Idx)
  obtain ⟨p, q, rfl⟩ : ∃ (p : Fin 2000) (q : Fin 7), j = ix2 p q := ⟨j 0, j 1, eq_ix2 j⟩
  show k0_pay1 (F := Ideal) (iblk0 V c 0 t) (iblk0 V c 1 t) (iblk0 V c 2 t) (ix2 p q)
    = Cert.Spec.linA (F := Ideal) (V c (Pipeline.arrRef spec0 0)) (V c (Pipeline.arrRef spec0 1)) (V c (Pipeline.arrRef spec0 2)) (((cfg0.win 3).blk t).view.emb (ix2 p q))
  refine (blockOfLinear0 (V c (Pipeline.arrRef spec0 0)) (V c (Pipeline.arrRef spec0 1)) (V c (Pipeline.arrRef spec0 2)) (iblk0 V c 0 t) (iblk0 V c 1 t) (iblk0 V c 2 t) (win0_3.index t (0 : Fin 2)) hle ?_ ?_ ?_ p q).trans ?_
  · intro p k
    show V c (Pipeline.arrRef spec0 0) (((cfg0.win 0).blk t).view.emb (ix2 p k)) = _
    refine congrArg _ (funext fun a => Fin.ext ?_)
    match a with
    | ⟨0, _⟩ => show win0_0.index t (0 : Fin 2) * 2000 + 1 * p.val = win0_3.index t (0 : Fin 2) * 2000 + p.val; omega
    | ⟨1, _⟩ => show win0_0.index t (1 : Fin 2) * 4 + 1 * k.val = k.val; omega
  · intro k q
    show V c (Pipeline.arrRef spec0 1) (((cfg0.win 1).blk t).view.emb (ix2 k q)) = _
    refine congrArg _ (funext fun a => Fin.ext ?_)
    match a with
    | ⟨0, _⟩ => show win0_1.index t (0 : Fin 2) * 4 + 1 * k.val = k.val; omega
    | ⟨1, _⟩ => show win0_1.index t (1 : Fin 2) * 7 + 1 * q.val = q.val; omega
  · intro q
    show V c (Pipeline.arrRef spec0 2) (((cfg0.win 2).blk t).view.emb (ix1 q)) = _
    refine congrArg _ (funext fun a => Fin.ext ?_)
    match a with
    | ⟨0, _⟩ => show win0_2.index t (0 : Fin 1) * 7 + 1 * q.val = q.val; omega
  · refine congrArg _ (funext fun a => Fin.ext ?_)
    match a with
    | ⟨0, _⟩ => show win0_3.index t (0 : Fin 2) * 2000 + p.val = win0_3.index t (0 : Fin 2) * 2000 + 1 * p.val; omega
    | ⟨1, _⟩ => show q.val = win0_3.index t (1 : Fin 2) * 7 + 1 * q.val; omega

/-- An index of the array is in point `t`'s output block iff each coordinate is in the block's range on its axis. -/
theorem mem_block0 (t : Fin cfg0.N) (i : S20000x7.Idx) :
    i ∈ ((cfg0.win 3).blk t).view.set ↔ ∀ a : Fin 2, win0_3.index t a * S2000x7.size a ≤ (i a).val ∧ (i a).val < win0_3.index t a * S2000x7.size a + S2000x7.size a := by
  show i ∈ ((View.whole (Pipeline.arrRef spec0 3)).slice (win0_3.rect t)).set ↔ _
  rw [View.set_slice_whole, Rect.mem_set_unit]
  exact Iff.rfl

/-- THE COVER: row `r` is in the block of point `r / 2000`. -/
theorem covered0 (i : S20000x7.Idx) :
    ∃ t : Fin cfg0.N, (cfg0.win 3).flush t = true ∧ i ∈ ((cfg0.win 3).blk t).view.set := by
  have hi0 : (i 0).val < 20000 := (i 0).isLt
  have hi1 : (i 1).val < 7 := (i 1).isLt
  obtain ⟨t, ht⟩ : ∃ t : Fin cfg0.N, t.val = (i 0).val / 2000 :=
    ⟨⟨(i 0).val / 2000, by rw [show cfg0.N = 10 from N_0]; omega⟩, rfl⟩
  obtain ⟨-, -, -, -, -, e30, e31, -⟩ := blockIndices0 t
  refine ⟨t, flush0_3 t, ?_⟩
  rw [mem_block0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 7 ≤ (i 1).val ∧ (i 1).val < win0_3.index t (1 : Fin 2) * 7 + 7; omega

/-- The array after region 0, at the generated instance of the kernel program's side conditions. -/
theorem region0_array (V : (c : Dev nD) → (b : Ref sig .tc) → Buf (Elt Ideal) ((c : Thread nD τ).loc b)) (c : Dev nD) :
    (dat0 (F := Ideal) V c).arrAt 3 cfg0.N
      = Cert.Spec.linA (F := Ideal) (V c (Pipeline.arrRef spec0 0)) (V c (Pipeline.arrRef spec0 1)) (V c (Pipeline.arrRef spec0 2)) :=
  (dat0 (F := Ideal) V c).arrAt_eq_of_cover 3 _ (fun t _ => flushed0_eq V c t) (fun i => covered0 i)

section AnyInstance

variable [Cert.KernelIdeal.Facts]

/-- THE ARRAY after region 0: the linear layer of the region's three input arrays (the kernel program's side conditions
    are propositions, so the statement at any instance of them is the one at the generated instance). -/
theorem region0_value (V : (c : Dev nD) → (b : Ref sig .tc) → Buf (Elt Ideal) ((c : Thread nD τ).loc b)) (c : Dev nD) :
    (dat0 (F := Ideal) V c).arrAt 3 cfg0.N
      = Cert.Spec.linA (F := Ideal) (V c (Pipeline.arrRef spec0 0)) (V c (Pipeline.arrRef spec0 1)) (V c (Pipeline.arrRef spec0 2)) :=
  region0_array V c

end AnyInstance

end Cert.KernelIdeal.RegionValue

end
-- ==== Proof.Region1.lean ====
import proofs.«116822_j38594576122568_1_alg».proof.Proof.Gen.KernelIdeal.Frame
import proofs.«116822_j38594576122568_1_alg».proof.Proof.SpecLayers
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

/-! Region 1 of the kernel program is a linear layer: for each block of 2000 rows of `a : [80000, 7]` it forms the
    product with the whole weight matrix `w : [7, 128]`, adds the bias row `b : [128]` to every row, and writes the block of
    the output `[80000, 128]` at the same rows. This module shows that, over the extended reals, the output array the
    region leaves is, index by index, `(∑ k, a(p,k) · w(k,q)) + b(q)`, and that this is what the reference's host
    operations (a `dot_general` over the one contracted axis plus the bias row broadcast down the rows) compute. -/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable [Cert.ReferenceIdeal.Facts]

/-! ## The linear layer, index by index -/

/-- The linear layer over the extended reals: entry `(p, q)` is the sum over the 7 contracted coordinates of
    `a(p,k) · w(k,q)`, plus `b(q)`. -/
def region1_lin (a : S80000x7.Idx → Elt Ideal .f32) (w : S7x128.Idx → Elt Ideal .f32) (b : S128.Idx → Elt Ideal .f32) :
    S80000x128.Idx → Elt Ideal .f32 :=
  fun i => (∑ k : Fin 7, a (ix2 (i 0) k) * w (ix2 k (i 1))) + b (ix1 (i 1))

/-- The linear layer at entry `(p, q)`. -/
theorem region1_lin_apply (a : S80000x7.Idx → Elt Ideal .f32) (w : S7x128.Idx → Elt Ideal .f32) (b : S128.Idx → Elt Ideal .f32) (p : Fin 80000) (q : Fin 128) :
    region1_lin a w b (ix2 p q) = (∑ k : Fin 7, a (ix2 p k) * w (ix2 k q)) + b (ix1 q) := rfl

/-! ## The kernel's product: the operand indices of its contraction, axis by axis -/

theorem region1_klhs_0 (i : S2000x128.Idx) (q : dot_S2000x7_S7x128_S2000x128_1_0_0_1_n_n.contr.Idx) :
    (dot_S2000x7_S7x128_S2000x128_1_0_0_1_n_n.lhsIdx i q 0).val = (i 0).val := by
  unfold DotDims.lhsIdx
  rw [dif_neg (show ¬(0 : Fin S2000x7.rank) ∈ dot_S2000x7_S7x128_S2000x128_1_0_0_1_n_n.lhsBatch by decide), dif_pos (show (0 : Fin S2000x7.rank) ∈ dot_S2000x7_S7x128_S2000x128_1_0_0_1_n_n.lhsNonContracting by decide)]
  rfl
theorem region1_klhs_1 (i : S2000x128.Idx) (q : dot_S2000x7_S7x128_S2000x128_1_0_0_1_n_n.contr.Idx) :
    (dot_S2000x7_S7x128_S2000x128_1_0_0_1_n_n.lhsIdx i q 1).val = (q ⟨0, by decide⟩).val :=
  dot_S2000x7_S7x128_S2000x128_1_0_0_1_n_n.lhsIdx_val_of_single rfl i q
theorem region1_krhs_0 (i : S2000x128.Idx) (q : dot_S2000x7_S7x128_S2000x128_1_0_0_1_n_n.contr.Idx) :
    (dot_S2000x7_S7x128_S2000x128_1_0_0_1_n_n.rhsIdx i q 0).val = (q ⟨0, by decide⟩).val :=
  dot_S2000x7_S7x128_S2000x128_1_0_0_1_n_n.rhsIdx_val_of_single rfl i q
theorem region1_krhs_1 (i : S2000x128.Idx) (q : dot_S2000x7_S7x128_S2000x128_1_0_0_1_n_n.contr.Idx) :
    (dot_S2000x7_S7x128_S2000x128_1_0_0_1_n_n.rhsIdx i q 1).val = (i 1).val := by
  unfold DotDims.rhsIdx
  rw [dif_neg (show ¬(1 : Fin S7x128.rank) ∈ dot_S2000x7_S7x128_S2000x128_1_0_0_1_n_n.rhsBatch by decide), dif_pos (show (1 : Fin S7x128.rank) ∈ dot_S2000x7_S7x128_S2000x128_1_0_0_1_n_n.rhsNonContracting by decide)]
  rfl

/-- The kernel's product of a block of 2000 rows with the weight matrix, accumulated into zero, at entry `(p, q)`: the
    sum over the contracted coordinate. -/
theorem region1_kmatmul_apply (x : FVec Ideal S2000x7 .bf16) (y : FVec Ideal S7x128 .bf16) (p : Fin 2000) (q : Fin 128) :
    matmul (F := Ideal) dot_S2000x7_S7x128_S2000x128_1_0_0_1_n_n none x y (constant (F := Ideal) S2000x128 .f32 0x00000000#32) (ix2 p q)
      = ∑ k : Fin 7, x (ix2 p k) * y (ix2 k q) := by
  show FloatOps.matmul dot_S2000x7_S7x128_S2000x128_1_0_0_1_n_n none x y (constant (F := Ideal) S2000x128 .f32 0x00000000#32) (ix2 p q) = _
  rw [Ideal.matmul_constant_zero_apply, ← Equiv.sum_comp (contrEquiv1 dot_S2000x7_S7x128_S2000x128_1_0_0_1_n_n 7 rfl rfl).symm]
  refine Finset.sum_congr rfl fun k _ => ?_
  have hk := contrEquiv1_symm_val dot_S2000x7_S7x128_S2000x128_1_0_0_1_n_n 7 rfl rfl k
  have el : dot_S2000x7_S7x128_S2000x128_1_0_0_1_n_n.lhsIdx (ix2 p q) ((contrEquiv1 dot_S2000x7_S7x128_S2000x128_1_0_0_1_n_n 7 rfl rfl).symm k) = ix2 p k := funext fun a => Fin.ext (by
    match a with
    | ⟨0, _⟩ => exact region1_klhs_0 _ _
    | ⟨1, _⟩ => exact (region1_klhs_1 _ _).trans hk)
  have er : dot_S2000x7_S7x128_S2000x128_1_0_0_1_n_n.rhsIdx (ix2 p q) ((contrEquiv1 dot_S2000x7_S7x128_S2000x128_1_0_0_1_n_n 7 rfl rfl).symm k) = ix2 k q := funext fun a => Fin.ext (by
    match a with
    | ⟨0, _⟩ => exact (region1_krhs_0 _ _).trans hk
    | ⟨1, _⟩ => exact region1_krhs_1 _ _)
  rw [el, er]

/-- The bias row laid along every row of the block, at entry `(p, q)`: the bias at `q`. -/
theorem region1_kbias_apply (x2 : Vec Ideal S128 .f32) (p : Fin 2000) (q : Fin 128) :
    broadcastTo S2000x128 (shapeCast S1x128 (shapeCast S128 x2 shapeCasts_S128_S128) shapeCasts_S128_S1x128) broadcasts_S1x128_S2000x128 (ix2 p q)
      = x2 (ix1 q) := by
  rw [shapeCast_self]
  have e1 := broadcastTo_apply (shapeCast S1x128 x2 shapeCasts_S128_S1x128) broadcasts_S1x128_S2000x128 (ix2 p q) (ix2 (0 : Fin 1) q) (by
    intro a
    match a with
    | ⟨0, _⟩ => rfl
    | ⟨1, _⟩ => rfl)
  have e2 := shapeCast_apply x2 shapeCasts_S128_S1x128 (ix2 (0 : Fin 1) q) (ix1 q) (by
    rw [Shape.rowMajor_val_two, Shape.rowMajor_val_one]; show q.val = 0 * 128 + q.val; omega)
  exact e1.trans e2

/-- THE BODY'S PAYLOAD at entry `(p, q)` of a block: the casts to the narrower float are the identity over the extended
    reals, the product accumulates into zero, and the bias row is added to every row. -/
theorem region1_pay_apply (x0 : Vec Ideal S2000x7 .f32) (x1 : Vec Ideal S7x128 .f32) (x2 : Vec Ideal S128 .f32) (p : Fin 2000) (q : Fin 128) :
    k1_pay1 (F := Ideal) x0 x1 x2 (ix2 p q) = (∑ k : Fin 7, x0 (ix2 p k) * x1 (ix2 k q)) + x2 (ix1 q) := by
  unfold k1_pay1
  show addf (matmul (F := Ideal) dot_S2000x7_S7x128_S2000x128_1_0_0_1_n_n none (truncf .bf16 (shapeCast S2000x7 x0 shapeCasts_S2000x7_S2000x7) bitsLt_bf16_f32) (truncf .bf16 (shapeCast S7x128 x1 shapeCasts_S7x128_S7x128) bitsLt_bf16_f32) (constant (F := Ideal) S2000x128 .f32 0x00000000#32))
      (broadcastTo S2000x128 (shapeCast S1x128 (shapeCast S128 x2 shapeCasts_S128_S128) shapeCasts_S128_S1x128) broadcasts_S1x128_S2000x128) (ix2 p q) = _
  rw [addf_apply, region1_kmatmul_apply, region1_kbias_apply]
  simp only [truncf_apply, shapeCast_self]

/-! ## The reference's product: the operand indices of its contraction, axis by axis -/

theorem region1_hlhs_0 (i : S80000x128.Idx) (q : Cert.ReferenceIdeal.dot_S80000x7_S7x128_S80000x128_1_0_0_1_n_n.contr.Idx) :
    (Cert.ReferenceIdeal.dot_S80000x7_S7x128_S80000x128_1_0_0_1_n_n.lhsIdx i q 0).val = (i 0).val := by
  unfold DotDims.lhsIdx
  rw [dif_neg (show ¬(0 : Fin S80000x7.rank) ∈ Cert.ReferenceIdeal.dot_S80000x7_S7x128_S80000x128_1_0_0_1_n_n.lhsBatch from List.not_mem_nil), dif_pos (show (0 : Fin S80000x7.rank) ∈ Cert.ReferenceIdeal.dot_S80000x7_S7x128_S80000x128_1_0_0_1_n_n.lhsNonContracting from List.mem_singleton.mpr rfl)]
  rfl
theorem region1_hlhs_1 (i : S80000x128.Idx) (q : Cert.ReferenceIdeal.dot_S80000x7_S7x128_S80000x128_1_0_0_1_n_n.contr.Idx) :
    (Cert.ReferenceIdeal.dot_S80000x7_S7x128_S80000x128_1_0_0_1_n_n.lhsIdx i q 1).val = (q ⟨0, Nat.one_pos⟩).val :=
  Cert.ReferenceIdeal.dot_S80000x7_S7x128_S80000x128_1_0_0_1_n_n.lhsIdx_val_of_single rfl i q
theorem region1_hrhs_0 (i : S80000x128.Idx) (q : Cert.ReferenceIdeal.dot_S80000x7_S7x128_S80000x128_1_0_0_1_n_n.contr.Idx) :
    (Cert.ReferenceIdeal.dot_S80000x7_S7x128_S80000x128_1_0_0_1_n_n.rhsIdx i q 0).val = (q ⟨0, Nat.one_pos⟩).val :=
  Cert.ReferenceIdeal.dot_S80000x7_S7x128_S80000x128_1_0_0_1_n_n.rhsIdx_val_of_single rfl i q
theorem region1_hrhs_1 (i : S80000x128.Idx) (q : Cert.ReferenceIdeal.dot_S80000x7_S7x128_S80000x128_1_0_0_1_n_n.contr.Idx) :
    (Cert.ReferenceIdeal.dot_S80000x7_S7x128_S80000x128_1_0_0_1_n_n.rhsIdx i q 1).val = (i 1).val := by
  unfold DotDims.rhsIdx
  rw [dif_neg (show ¬(1 : Fin S7x128.rank) ∈ Cert.ReferenceIdeal.dot_S80000x7_S7x128_S80000x128_1_0_0_1_n_n.rhsBatch from List.not_mem_nil), dif_pos (show (1 : Fin S7x128.rank) ∈ Cert.ReferenceIdeal.dot_S80000x7_S7x128_S80000x128_1_0_0_1_n_n.rhsNonContracting from List.mem_singleton.mpr rfl)]
  rfl

/-- The reference's product of the whole array with the weight matrix at entry `(p, q)`: the sum over the contracted
    coordinate. -/
theorem region1_hdot_apply (a : FVec Ideal S80000x7 .f32) (w : FVec Ideal S7x128 .f32) (p : Fin 80000) (q : Fin 128) :
    Host.dotGeneral (F := Ideal) Cert.ReferenceIdeal.dot_S80000x7_S7x128_S80000x128_1_0_0_1_n_n none a w (ix2 p q)
      = ∑ k : Fin 7, a (ix2 p k) * w (ix2 k q) := by
  show FloatOps.dotGeneral Cert.ReferenceIdeal.dot_S80000x7_S7x128_S80000x128_1_0_0_1_n_n none _ a w (ix2 p q) = _
  rw [Ideal.dotGeneral_apply, ← Equiv.sum_comp (contrEquiv1 Cert.ReferenceIdeal.dot_S80000x7_S7x128_S80000x128_1_0_0_1_n_n 7 rfl rfl).symm]
  refine Finset.sum_congr rfl fun k _ => ?_
  have hk := contrEquiv1_symm_val Cert.ReferenceIdeal.dot_S80000x7_S7x128_S80000x128_1_0_0_1_n_n 7 rfl rfl k
  have el : Cert.ReferenceIdeal.dot_S80000x7_S7x128_S80000x128_1_0_0_1_n_n.lhsIdx (ix2 p q) ((contrEquiv1 Cert.ReferenceIdeal.dot_S80000x7_S7x128_S80000x128_1_0_0_1_n_n 7 rfl rfl).symm k) = ix2 p k := funext fun a => Fin.ext (by
    match a with
    | ⟨0, _⟩ => exact region1_hlhs_0 _ _
    | ⟨1, _⟩ => exact (region1_hlhs_1 _ _).trans hk)
  have er : Cert.ReferenceIdeal.dot_S80000x7_S7x128_S80000x128_1_0_0_1_n_n.rhsIdx (ix2 p q) ((contrEquiv1 Cert.ReferenceIdeal.dot_S80000x7_S7x128_S80000x128_1_0_0_1_n_n 7 rfl rfl).symm k) = ix2 k q := funext fun a => Fin.ext (by
    match a with
    | ⟨0, _⟩ => exact (region1_hrhs_0 _ _).trans hk
    | ⟨1, _⟩ => exact region1_hrhs_1 _ _)
  rw [el, er]

/-- The reference's bias: the row `b` made a one-row matrix and repeated down the 80000 rows, at entry `(p, q)`: the bias
    at `q`. -/
theorem region1_hbias_apply (b : S128.Idx → Elt Ideal .f32) (p : Fin 80000) (q : Fin 128) :
    broadcastInDim S80000x128 ![0, 1] Cert.ReferenceIdeal.Facts₀.bcast_S1x128_S80000x128_0_1 (broadcastInDim S1x128 ![1] Cert.ReferenceIdeal.Facts₀.bcast_S128_S1x128_1 b) (ix2 p q)
      = b (ix1 q) := by
  have e1 := broadcastInDim_oneRow_apply (m := 80000) (n := 128) Cert.ReferenceIdeal.Facts₀.bcast_S1x128_S80000x128_0_1
    (broadcastInDim S1x128 ![1] Cert.ReferenceIdeal.Facts₀.bcast_S128_S1x128_1 b) p q
  have e2 := broadcastInDim_apply ![1] Cert.ReferenceIdeal.Facts₀.bcast_S128_S1x128_1 b (ix2 (0 : Fin 1) q) (ix1 q) (by
    intro a
    match a with
    | ⟨0, _⟩ => rfl)
  exact e1.trans e2

/-- THE REFERENCE'S LINEAR LAYER is the linear layer over the extended reals. -/
theorem region1_linB_eq (a : S80000x7.Idx → Elt Ideal .f32) (w : S7x128.Idx → Elt Ideal .f32) (b : S128.Idx → Elt Ideal .f32) :
    Cert.Spec.linB (F := Ideal) a w b = region1_lin a w b := by
  funext i
  obtain ⟨p, q, rfl⟩ : ∃ (p : Fin 80000) (q : Fin 128), i = ix2 p q := ⟨i 0, i 1, eq_ix2 i⟩
  rw [region1_lin_apply]
  show Host.dotGeneral (F := Ideal) Cert.ReferenceIdeal.dot_S80000x7_S7x128_S80000x128_1_0_0_1_n_n none a w (ix2 p q)
      + broadcastInDim S80000x128 ![0, 1] Cert.ReferenceIdeal.Facts₀.bcast_S1x128_S80000x128_0_1 (broadcastInDim S1x128 ![1] Cert.ReferenceIdeal.Facts₀.bcast_S128_S1x128_1 b) (ix2 p q) = _
  rw [region1_hdot_apply, region1_hbias_apply]

/-! ## From blocks to the array -/

theorem region1_zero2 : (![0, 0] : Fin 2 → Nat) = fun _ => 0 := funext fun a => by fin_cases a <;> rfl
theorem region1_zero1 : (![0] : Fin 1 → Nat) = fun _ => 0 := funext fun a => by fin_cases a <;> rfl

/-- The printed index maps, decided over the 40 grid points: point `t` reads block `t` of the rows of `a`, the whole of
    `w` and of `b`, and writes block `t` of the rows of the output. -/
theorem region1_idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = t.val
    ∧ win1_3.index t (1 : Fin 2) = 0 :=
  (by decide +kernel : ∀ t : Fin grid1.N, _)

/-- ONE store of the payload through the whole block, of loads through the whole blocks: what the body leaves in the output
    window's buffer is the payload of the three input blocks. -/
theorem region1_out_eq (x0 : Vec Ideal S2000x7 .f32) (x1 : Vec Ideal S7x128 .f32) (x2 : Vec Ideal S128 .f32) :
    out1_3 (F := Ideal) x0 x1 x2 = k1_pay1 (F := Ideal) x0 x1 x2 := by
  unfold out1_3
  rw [View.canon_unit_zero region1_zero2, View.ld_unit_zero region1_zero2, View.ld_unit_zero region1_zero2,
    View.ld_unit_zero region1_zero1]

/-- What the body leaves in the output window's buffer, at entry `(p, q)` of the block. -/
theorem region1_out_apply (x0 : Vec Ideal S2000x7 .f32) (x1 : Vec Ideal S7x128 .f32) (x2 : Vec Ideal S128 .f32) (p : Fin 2000) (q : Fin 128) :
    out1_3 (F := Ideal) x0 x1 x2 (ix2 p q) = (∑ k : Fin 7, x0 (ix2 p k) * x1 (ix2 k q)) + x2 (ix1 q) := by
  rw [region1_out_eq, region1_pay_apply]

/-- WHAT POINT `t` WRITES BACK is block `t` of the linear layer of the three input arrays as the region finds them. -/
theorem region1_flushed_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (region1_lin (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  obtain ⟨e0, e1, e2, e3, e4, e5, e6⟩ := region1_idx_facts t
  refine funext fun (j : S2000x128.Idx) => ?_
  obtain ⟨p, q, rfl⟩ : ∃ (p : Fin 2000) (q : Fin 128), j = ix2 p q := ⟨j 0, j 1, eq_ix2 j⟩
  have hp : p.val < 2000 := p.isLt
  have hq : q.val < 128 := q.isLt
  have ht : t.val < 40 := t.isLt
  -- the output entry this block entry lands on: row `t · 2000 + p`, column `q`
  have hout : ((cfg1.win 3).blk t).view.emb (ix2 p q) = ix2 (⟨t.val * 2000 + p.val, by omega⟩ : Fin 80000) q := by
    funext a; apply Fin.ext
    match a with
    | ⟨0, _⟩ => show win1_3.index t (0 : Fin 2) * 2000 + 1 * p.val = t.val * 2000 + p.val; omega
    | ⟨1, _⟩ => show win1_3.index t (1 : Fin 2) * 128 + 1 * q.val = q.val; omega
  -- the input entries the block entry reads: the same row of `a`, and `w`, `b` whole
  have h0 : ∀ k : Fin 7, iblk1 V c 0 t (ix2 p k) = V c (Pipeline.arrRef spec1 0) (ix2 (⟨t.val * 2000 + p.val, by omega⟩ : Fin 80000) k) := fun k => by
    show V c (Pipeline.arrRef spec1 0) (((cfg1.win 0).blk t).view.emb (ix2 p k)) = _
    refine congrArg _ (funext fun a => Fin.ext ?_)
    have hk : k.val < 7 := k.isLt
    match a with
    | ⟨0, _⟩ => show win1_0.index t (0 : Fin 2) * 2000 + 1 * p.val = t.val * 2000 + p.val; omega
    | ⟨1, _⟩ => show win1_0.index t (1 : Fin 2) * 7 + 1 * k.val = k.val; omega
  have h1 : ∀ k : Fin 7, iblk1 V c 1 t (ix2 k q) = V c (Pipeline.arrRef spec1 1) (ix2 k q) := fun k => by
    show V c (Pipeline.arrRef spec1 1) (((cfg1.win 1).blk t).view.emb (ix2 k q)) = _
    refine congrArg _ (funext fun a => Fin.ext ?_)
    have hk : k.val < 7 := k.isLt
    match a with
    | ⟨0, _⟩ => show win1_1.index t (0 : Fin 2) * 7 + 1 * k.val = k.val; omega
    | ⟨1, _⟩ => show win1_1.index t (1 : Fin 2) * 128 + 1 * q.val = q.val; omega
  have h2 : iblk1 V c 2 t (ix1 q) = V c (Pipeline.arrRef spec1 2) (ix1 q) := by
    show V c (Pipeline.arrRef spec1 2) (((cfg1.win 2).blk t).view.emb (ix1 q)) = _
    refine congrArg _ (funext fun a => Fin.ext ?_)
    match a with
    | ⟨0, _⟩ => show win1_2.index t (0 : Fin 1) * 128 + 1 * q.val = q.val; omega
  show out1_3 (F := Ideal) (iblk1 V c 0 t) (iblk1 V c 1 t) (iblk1 V c 2 t) (ix2 p q)
      = region1_lin (V c (Pipeline.arrRef spec1 0)) (V c (Pipeline.arrRef spec1 1)) (V c (Pipeline.arrRef spec1 2)) (((cfg1.win 3).blk t).view.emb (ix2 p q))
  rw [hout, region1_lin_apply]
  refine (region1_out_apply _ _ _ p q).trans ?_
  rw [h2]
  exact congrArg (· + _) (Finset.sum_congr rfl fun k _ => by rw [h0 k, h1 k])

/-- An index of the output array is in point `t`'s block iff each coordinate is in the block's range on its axis. -/
theorem region1_mem_blk (t : Fin cfg1.N) (i : S80000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole (Pipeline.arrRef spec1 3)).slice (win1_3.rect t)).set ↔ _
  rw [View.set_slice_whole, Rect.mem_set_unit]
  exact Iff.rfl

/-- THE COVER: row `r` of the output is in the block of point `r / 2000`, which writes its block back. -/
theorem region1_cover (i : S80000x128.Idx) :
    ∃ t : Fin cfg1.N, (cfg1.win 3).flush t = true ∧ i ∈ ((cfg1.win 3).blk t).view.set := by
  have hi0 : (i 0).val < 80000 := (i 0).isLt
  have hi1 : (i 1).val < 128 := (i 1).isLt
  obtain ⟨t, ht⟩ : ∃ t : Fin cfg1.N, t.val = (i 0).val / 2000 := ⟨⟨(i 0).val / 2000, show _ < 40 by omega⟩, rfl⟩
  obtain ⟨e0, e1, e2, e3, e4, e5, e6⟩ := region1_idx_facts t
  refine ⟨t, flush1_3 t, ?_⟩
  rw [region1_mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-! ## The region's output array -/

/-- The output array at the program's own facts: the linear layer over the extended reals. -/
theorem region1_value_lin (V : (c : Dev nD) → (b : Ref sig .tc) → Buf (Elt Ideal) ((c : Thread nD τ).loc b)) (c : Dev nD) :
    (dat1 (F := Ideal) V c).arrAt 3 cfg1.N
      = region1_lin (V c (Pipeline.arrRef spec1 0)) (V c (Pipeline.arrRef spec1 1)) (V c (Pipeline.arrRef spec1 2)) :=
  (dat1 (F := Ideal) V c).arrAt_eq_of_cover 3 _ (fun t _ => region1_flushed_eq V c t) region1_cover

variable [Cert.KernelIdeal.Facts]

/-- WHAT REGION 1 LEAVES in its output array: the reference's linear layer of the region's three input arrays. -/
theorem region1_value (V : (c : Dev nD) → (b : Ref sig .tc) → Buf (Elt Ideal) ((c : Thread nD τ).loc b)) (c : Dev nD) :
    (dat1 (F := Ideal) V c).arrAt 3 cfg1.N
      = Cert.Spec.linB (F := Ideal) (V c (Pipeline.arrRef spec1 0)) (V c (Pipeline.arrRef spec1 1)) (V c (Pipeline.arrRef spec1 2)) := by
  rw [region1_linB_eq]
  exact region1_value_lin V c

end Cert.KernelIdeal.RegionValue

end
-- ==== Proof.Region2.lean ====
import proofs.«116822_j38594576122568_1_alg».proof.Proof.Gen.KernelIdeal.Frame
import proofs.«116822_j38594576122568_1_alg».proof.Proof.SpecLayers
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

/-! Region 2 of the kernel program is a linear layer: for each block of 2000 rows of `a : [80000, 7]` it forms the
    product with the whole weight matrix `w : [7, 128]`, adds the bias row `b : [128]` to every row, and writes the block of
    the output `[80000, 128]` at the same rows. This module shows that, over the extended reals, the output array the
    region leaves is, index by index, `(∑ k, a(p,k) · w(k,q)) + b(q)`, and that this is what the reference's host
    operations (a `dot_general` over the one contracted axis plus the bias row broadcast down the rows) compute. -/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable [Cert.ReferenceIdeal.Facts]

/-! ## The linear layer, index by index -/

/-- The linear layer over the extended reals: entry `(p, q)` is the sum over the 7 contracted coordinates of
    `a(p,k) · w(k,q)`, plus `b(q)`. -/
def region2_lin (a : S80000x7.Idx → Elt Ideal .f32) (w : S7x128.Idx → Elt Ideal .f32) (b : S128.Idx → Elt Ideal .f32) :
    S80000x128.Idx → Elt Ideal .f32 :=
  fun i => (∑ k : Fin 7, a (ix2 (i 0) k) * w (ix2 k (i 1))) + b (ix1 (i 1))

/-- The linear layer at entry `(p, q)`. -/
theorem region2_lin_apply (a : S80000x7.Idx → Elt Ideal .f32) (w : S7x128.Idx → Elt Ideal .f32) (b : S128.Idx → Elt Ideal .f32) (p : Fin 80000) (q : Fin 128) :
    region2_lin a w b (ix2 p q) = (∑ k : Fin 7, a (ix2 p k) * w (ix2 k q)) + b (ix1 q) := rfl

/-! ## The kernel's product: the operand indices of its contraction, axis by axis -/

theorem region2_klhs_0 (i : S2000x128.Idx) (q : dot_S2000x7_S7x128_S2000x128_1_0_0_1_n_n.contr.Idx) :
    (dot_S2000x7_S7x128_S2000x128_1_0_0_1_n_n.lhsIdx i q 0).val = (i 0).val := by
  unfold DotDims.lhsIdx
  rw [dif_neg (show ¬(0 : Fin S2000x7.rank) ∈ dot_S2000x7_S7x128_S2000x128_1_0_0_1_n_n.lhsBatch by decide), dif_pos (show (0 : Fin S2000x7.rank) ∈ dot_S2000x7_S7x128_S2000x128_1_0_0_1_n_n.lhsNonContracting by decide)]
  rfl
theorem region2_klhs_1 (i : S2000x128.Idx) (q : dot_S2000x7_S7x128_S2000x128_1_0_0_1_n_n.contr.Idx) :
    (dot_S2000x7_S7x128_S2000x128_1_0_0_1_n_n.lhsIdx i q 1).val = (q ⟨0, by decide⟩).val :=
  dot_S2000x7_S7x128_S2000x128_1_0_0_1_n_n.lhsIdx_val_of_single rfl i q
theorem region2_krhs_0 (i : S2000x128.Idx) (q : dot_S2000x7_S7x128_S2000x128_1_0_0_1_n_n.contr.Idx) :
    (dot_S2000x7_S7x128_S2000x128_1_0_0_1_n_n.rhsIdx i q 0).val = (q ⟨0, by decide⟩).val :=
  dot_S2000x7_S7x128_S2000x128_1_0_0_1_n_n.rhsIdx_val_of_single rfl i q
theorem region2_krhs_1 (i : S2000x128.Idx) (q : dot_S2000x7_S7x128_S2000x128_1_0_0_1_n_n.contr.Idx) :
    (dot_S2000x7_S7x128_S2000x128_1_0_0_1_n_n.rhsIdx i q 1).val = (i 1).val := by
  unfold DotDims.rhsIdx
  rw [dif_neg (show ¬(1 : Fin S7x128.rank) ∈ dot_S2000x7_S7x128_S2000x128_1_0_0_1_n_n.rhsBatch by decide), dif_pos (show (1 : Fin S7x128.rank) ∈ dot_S2000x7_S7x128_S2000x128_1_0_0_1_n_n.rhsNonContracting by decide)]
  rfl

/-- The kernel's product of a block of 2000 rows with the weight matrix, accumulated into zero, at entry `(p, q)`: the
    sum over the contracted coordinate. -/
theorem region2_kmatmul_apply (x : FVec Ideal S2000x7 .bf16) (y : FVec Ideal S7x128 .bf16) (p : Fin 2000) (q : Fin 128) :
    matmul (F := Ideal) dot_S2000x7_S7x128_S2000x128_1_0_0_1_n_n none x y (constant (F := Ideal) S2000x128 .f32 0x00000000#32) (ix2 p q)
      = ∑ k : Fin 7, x (ix2 p k) * y (ix2 k q) := by
  show FloatOps.matmul dot_S2000x7_S7x128_S2000x128_1_0_0_1_n_n none x y (constant (F := Ideal) S2000x128 .f32 0x00000000#32) (ix2 p q) = _
  rw [Ideal.matmul_constant_zero_apply, ← Equiv.sum_comp (contrEquiv1 dot_S2000x7_S7x128_S2000x128_1_0_0_1_n_n 7 rfl rfl).symm]
  refine Finset.sum_congr rfl fun k _ => ?_
  have hk := contrEquiv1_symm_val dot_S2000x7_S7x128_S2000x128_1_0_0_1_n_n 7 rfl rfl k
  have el : dot_S2000x7_S7x128_S2000x128_1_0_0_1_n_n.lhsIdx (ix2 p q) ((contrEquiv1 dot_S2000x7_S7x128_S2000x128_1_0_0_1_n_n 7 rfl rfl).symm k) = ix2 p k := funext fun a => Fin.ext (by
    match a with
    | ⟨0, _⟩ => exact region2_klhs_0 _ _
    | ⟨1, _⟩ => exact (region2_klhs_1 _ _).trans hk)
  have er : dot_S2000x7_S7x128_S2000x128_1_0_0_1_n_n.rhsIdx (ix2 p q) ((contrEquiv1 dot_S2000x7_S7x128_S2000x128_1_0_0_1_n_n 7 rfl rfl).symm k) = ix2 k q := funext fun a => Fin.ext (by
    match a with
    | ⟨0, _⟩ => exact (region2_krhs_0 _ _).trans hk
    | ⟨1, _⟩ => exact region2_krhs_1 _ _)
  rw [el, er]

/-- The bias row laid along every row of the block, at entry `(p, q)`: the bias at `q`. -/
theorem region2_kbias_apply (x2 : Vec Ideal S128 .f32) (p : Fin 2000) (q : Fin 128) :
    broadcastTo S2000x128 (shapeCast S1x128 (shapeCast S128 x2 shapeCasts_S128_S128) shapeCasts_S128_S1x128) broadcasts_S1x128_S2000x128 (ix2 p q)
      = x2 (ix1 q) := by
  rw [shapeCast_self]
  have e1 := broadcastTo_apply (shapeCast S1x128 x2 shapeCasts_S128_S1x128) broadcasts_S1x128_S2000x128 (ix2 p q) (ix2 (0 : Fin 1) q) (by
    intro a
    match a with
    | ⟨0, _⟩ => rfl
    | ⟨1, _⟩ => rfl)
  have e2 := shapeCast_apply x2 shapeCasts_S128_S1x128 (ix2 (0 : Fin 1) q) (ix1 q) (by
    rw [Shape.rowMajor_val_two, Shape.rowMajor_val_one]; show q.val = 0 * 128 + q.val; omega)
  exact e1.trans e2

/-- THE BODY'S PAYLOAD at entry `(p, q)` of a block: the casts to the narrower float are the identity over the extended
    reals, the product accumulates into zero, and the bias row is added to every row. -/
theorem region2_pay_apply (x0 : Vec Ideal S2000x7 .f32) (x1 : Vec Ideal S7x128 .f32) (x2 : Vec Ideal S128 .f32) (p : Fin 2000) (q : Fin 128) :
    k2_pay1 (F := Ideal) x0 x1 x2 (ix2 p q) = (∑ k : Fin 7, x0 (ix2 p k) * x1 (ix2 k q)) + x2 (ix1 q) := by
  unfold k2_pay1
  show addf (matmul (F := Ideal) dot_S2000x7_S7x128_S2000x128_1_0_0_1_n_n none (truncf .bf16 (shapeCast S2000x7 x0 shapeCasts_S2000x7_S2000x7) bitsLt_bf16_f32) (truncf .bf16 (shapeCast S7x128 x1 shapeCasts_S7x128_S7x128) bitsLt_bf16_f32) (constant (F := Ideal) S2000x128 .f32 0x00000000#32))
      (broadcastTo S2000x128 (shapeCast S1x128 (shapeCast S128 x2 shapeCasts_S128_S128) shapeCasts_S128_S1x128) broadcasts_S1x128_S2000x128) (ix2 p q) = _
  rw [addf_apply, region2_kmatmul_apply, region2_kbias_apply]
  simp only [truncf_apply, shapeCast_self]

/-! ## The reference's product: the operand indices of its contraction, axis by axis -/

theorem region2_hlhs_0 (i : S80000x128.Idx) (q : Cert.ReferenceIdeal.dot_S80000x7_S7x128_S80000x128_1_0_0_1_n_n.contr.Idx) :
    (Cert.ReferenceIdeal.dot_S80000x7_S7x128_S80000x128_1_0_0_1_n_n.lhsIdx i q 0).val = (i 0).val := by
  unfold DotDims.lhsIdx
  rw [dif_neg (show ¬(0 : Fin S80000x7.rank) ∈ Cert.ReferenceIdeal.dot_S80000x7_S7x128_S80000x128_1_0_0_1_n_n.lhsBatch from List.not_mem_nil), dif_pos (show (0 : Fin S80000x7.rank) ∈ Cert.ReferenceIdeal.dot_S80000x7_S7x128_S80000x128_1_0_0_1_n_n.lhsNonContracting from List.mem_singleton.mpr rfl)]
  rfl
theorem region2_hlhs_1 (i : S80000x128.Idx) (q : Cert.ReferenceIdeal.dot_S80000x7_S7x128_S80000x128_1_0_0_1_n_n.contr.Idx) :
    (Cert.ReferenceIdeal.dot_S80000x7_S7x128_S80000x128_1_0_0_1_n_n.lhsIdx i q 1).val = (q ⟨0, Nat.one_pos⟩).val :=
  Cert.ReferenceIdeal.dot_S80000x7_S7x128_S80000x128_1_0_0_1_n_n.lhsIdx_val_of_single rfl i q
theorem region2_hrhs_0 (i : S80000x128.Idx) (q : Cert.ReferenceIdeal.dot_S80000x7_S7x128_S80000x128_1_0_0_1_n_n.contr.Idx) :
    (Cert.ReferenceIdeal.dot_S80000x7_S7x128_S80000x128_1_0_0_1_n_n.rhsIdx i q 0).val = (q ⟨0, Nat.one_pos⟩).val :=
  Cert.ReferenceIdeal.dot_S80000x7_S7x128_S80000x128_1_0_0_1_n_n.rhsIdx_val_of_single rfl i q
theorem region2_hrhs_1 (i : S80000x128.Idx) (q : Cert.ReferenceIdeal.dot_S80000x7_S7x128_S80000x128_1_0_0_1_n_n.contr.Idx) :
    (Cert.ReferenceIdeal.dot_S80000x7_S7x128_S80000x128_1_0_0_1_n_n.rhsIdx i q 1).val = (i 1).val := by
  unfold DotDims.rhsIdx
  rw [dif_neg (show ¬(1 : Fin S7x128.rank) ∈ Cert.ReferenceIdeal.dot_S80000x7_S7x128_S80000x128_1_0_0_1_n_n.rhsBatch from List.not_mem_nil), dif_pos (show (1 : Fin S7x128.rank) ∈ Cert.ReferenceIdeal.dot_S80000x7_S7x128_S80000x128_1_0_0_1_n_n.rhsNonContracting from List.mem_singleton.mpr rfl)]
  rfl

/-- The reference's product of the whole array with the weight matrix at entry `(p, q)`: the sum over the contracted
    coordinate. -/
theorem region2_hdot_apply (a : FVec Ideal S80000x7 .f32) (w : FVec Ideal S7x128 .f32) (p : Fin 80000) (q : Fin 128) :
    Host.dotGeneral (F := Ideal) Cert.ReferenceIdeal.dot_S80000x7_S7x128_S80000x128_1_0_0_1_n_n none a w (ix2 p q)
      = ∑ k : Fin 7, a (ix2 p k) * w (ix2 k q) := by
  show FloatOps.dotGeneral Cert.ReferenceIdeal.dot_S80000x7_S7x128_S80000x128_1_0_0_1_n_n none _ a w (ix2 p q) = _
  rw [Ideal.dotGeneral_apply, ← Equiv.sum_comp (contrEquiv1 Cert.ReferenceIdeal.dot_S80000x7_S7x128_S80000x128_1_0_0_1_n_n 7 rfl rfl).symm]
  refine Finset.sum_congr rfl fun k _ => ?_
  have hk := contrEquiv1_symm_val Cert.ReferenceIdeal.dot_S80000x7_S7x128_S80000x128_1_0_0_1_n_n 7 rfl rfl k
  have el : Cert.ReferenceIdeal.dot_S80000x7_S7x128_S80000x128_1_0_0_1_n_n.lhsIdx (ix2 p q) ((contrEquiv1 Cert.ReferenceIdeal.dot_S80000x7_S7x128_S80000x128_1_0_0_1_n_n 7 rfl rfl).symm k) = ix2 p k := funext fun a => Fin.ext (by
    match a with
    | ⟨0, _⟩ => exact region2_hlhs_0 _ _
    | ⟨1, _⟩ => exact (region2_hlhs_1 _ _).trans hk)
  have er : Cert.ReferenceIdeal.dot_S80000x7_S7x128_S80000x128_1_0_0_1_n_n.rhsIdx (ix2 p q) ((contrEquiv1 Cert.ReferenceIdeal.dot_S80000x7_S7x128_S80000x128_1_0_0_1_n_n 7 rfl rfl).symm k) = ix2 k q := funext fun a => Fin.ext (by
    match a with
    | ⟨0, _⟩ => exact (region2_hrhs_0 _ _).trans hk
    | ⟨1, _⟩ => exact region2_hrhs_1 _ _)
  rw [el, er]

/-- The reference's bias: the row `b` made a one-row matrix and repeated down the 80000 rows, at entry `(p, q)`: the bias
    at `q`. -/
theorem region2_hbias_apply (b : S128.Idx → Elt Ideal .f32) (p : Fin 80000) (q : Fin 128) :
    broadcastInDim S80000x128 ![0, 1] Cert.ReferenceIdeal.Facts₀.bcast_S1x128_S80000x128_0_1 (broadcastInDim S1x128 ![1] Cert.ReferenceIdeal.Facts₀.bcast_S128_S1x128_1 b) (ix2 p q)
      = b (ix1 q) := by
  have e1 := broadcastInDim_oneRow_apply (m := 80000) (n := 128) Cert.ReferenceIdeal.Facts₀.bcast_S1x128_S80000x128_0_1
    (broadcastInDim S1x128 ![1] Cert.ReferenceIdeal.Facts₀.bcast_S128_S1x128_1 b) p q
  have e2 := broadcastInDim_apply ![1] Cert.ReferenceIdeal.Facts₀.bcast_S128_S1x128_1 b (ix2 (0 : Fin 1) q) (ix1 q) (by
    intro a
    match a with
    | ⟨0, _⟩ => rfl)
  exact e1.trans e2

/-- THE REFERENCE'S LINEAR LAYER is the linear layer over the extended reals. -/
theorem region2_linB_eq (a : S80000x7.Idx → Elt Ideal .f32) (w : S7x128.Idx → Elt Ideal .f32) (b : S128.Idx → Elt Ideal .f32) :
    Cert.Spec.linB (F := Ideal) a w b = region2_lin a w b := by
  funext i
  obtain ⟨p, q, rfl⟩ : ∃ (p : Fin 80000) (q : Fin 128), i = ix2 p q := ⟨i 0, i 1, eq_ix2 i⟩
  rw [region2_lin_apply]
  show Host.dotGeneral (F := Ideal) Cert.ReferenceIdeal.dot_S80000x7_S7x128_S80000x128_1_0_0_1_n_n none a w (ix2 p q)
      + broadcastInDim S80000x128 ![0, 1] Cert.ReferenceIdeal.Facts₀.bcast_S1x128_S80000x128_0_1 (broadcastInDim S1x128 ![1] Cert.ReferenceIdeal.Facts₀.bcast_S128_S1x128_1 b) (ix2 p q) = _
  rw [region2_hdot_apply, region2_hbias_apply]

/-! ## From blocks to the array -/

theorem region2_zero2 : (![0, 0] : Fin 2 → Nat) = fun _ => 0 := funext fun a => by fin_cases a <;> rfl
theorem region2_zero1 : (![0] : Fin 1 → Nat) = fun _ => 0 := funext fun a => by fin_cases a <;> rfl

/-- The printed index maps, decided over the 40 grid points: point `t` reads block `t` of the rows of `a`, the whole of
    `w` and of `b`, and writes block `t` of the rows of the output. -/
theorem region2_idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 2) = t.val
    ∧ win2_3.index t (1 : Fin 2) = 0 :=
  (by decide +kernel : ∀ t : Fin grid2.N, _)

/-- ONE store of the payload through the whole block, of loads through the whole blocks: what the body leaves in the output
    window's buffer is the payload of the three input blocks. -/
theorem region2_out_eq (x0 : Vec Ideal S2000x7 .f32) (x1 : Vec Ideal S7x128 .f32) (x2 : Vec Ideal S128 .f32) :
    out2_3 (F := Ideal) x0 x1 x2 = k2_pay1 (F := Ideal) x0 x1 x2 := by
  unfold out2_3
  rw [View.canon_unit_zero region2_zero2, View.ld_unit_zero region2_zero2, View.ld_unit_zero region2_zero2,
    View.ld_unit_zero region2_zero1]

/-- What the body leaves in the output window's buffer, at entry `(p, q)` of the block. -/
theorem region2_out_apply (x0 : Vec Ideal S2000x7 .f32) (x1 : Vec Ideal S7x128 .f32) (x2 : Vec Ideal S128 .f32) (p : Fin 2000) (q : Fin 128) :
    out2_3 (F := Ideal) x0 x1 x2 (ix2 p q) = (∑ k : Fin 7, x0 (ix2 p k) * x1 (ix2 k q)) + x2 (ix1 q) := by
  rw [region2_out_eq, region2_pay_apply]

/-- WHAT POINT `t` WRITES BACK is block `t` of the linear layer of the three input arrays as the region finds them. -/
theorem region2_flushed_eq (V : (c : Dev nD) → (b : Ref sig .tc) → Buf (Elt Ideal) ((c : Thread nD τ).loc b)) (c : Dev nD) (t : Fin cfg2.N) :
    (dat2 (F := Ideal) V c).flushed 3 t
      = ((cfg2.win 3).blk t).view.read (Elt Ideal) (region2_lin (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  obtain ⟨e0, e1, e2, e3, e4, e5, e6⟩ := region2_idx_facts t
  refine funext fun (j : S2000x128.Idx) => ?_
  obtain ⟨p, q, rfl⟩ : ∃ (p : Fin 2000) (q : Fin 128), j = ix2 p q := ⟨j 0, j 1, eq_ix2 j⟩
  have hp : p.val < 2000 := p.isLt
  have hq : q.val < 128 := q.isLt
  have ht : t.val < 40 := t.isLt
  -- the output entry this block entry lands on: row `t · 2000 + p`, column `q`
  have hout : ((cfg2.win 3).blk t).view.emb (ix2 p q) = ix2 (⟨t.val * 2000 + p.val, by omega⟩ : Fin 80000) q := by
    funext a; apply Fin.ext
    match a with
    | ⟨0, _⟩ => show win2_3.index t (0 : Fin 2) * 2000 + 1 * p.val = t.val * 2000 + p.val; omega
    | ⟨1, _⟩ => show win2_3.index t (1 : Fin 2) * 128 + 1 * q.val = q.val; omega
  -- the input entries the block entry reads: the same row of `a`, and `w`, `b` whole
  have h0 : ∀ k : Fin 7, iblk2 V c 0 t (ix2 p k) = V c (Pipeline.arrRef spec2 0) (ix2 (⟨t.val * 2000 + p.val, by omega⟩ : Fin 80000) k) := fun k => by
    show V c (Pipeline.arrRef spec2 0) (((cfg2.win 0).blk t).view.emb (ix2 p k)) = _
    refine congrArg _ (funext fun a => Fin.ext ?_)
    have hk : k.val < 7 := k.isLt
    match a with
    | ⟨0, _⟩ => show win2_0.index t (0 : Fin 2) * 2000 + 1 * p.val = t.val * 2000 + p.val; omega
    | ⟨1, _⟩ => show win2_0.index t (1 : Fin 2) * 7 + 1 * k.val = k.val; omega
  have h1 : ∀ k : Fin 7, iblk2 V c 1 t (ix2 k q) = V c (Pipeline.arrRef spec2 1) (ix2 k q) := fun k => by
    show V c (Pipeline.arrRef spec2 1) (((cfg2.win 1).blk t).view.emb (ix2 k q)) = _
    refine congrArg _ (funext fun a => Fin.ext ?_)
    have hk : k.val < 7 := k.isLt
    match a with
    | ⟨0, _⟩ => show win2_1.index t (0 : Fin 2) * 7 + 1 * k.val = k.val; omega
    | ⟨1, _⟩ => show win2_1.index t (1 : Fin 2) * 128 + 1 * q.val = q.val; omega
  have h2 : iblk2 V c 2 t (ix1 q) = V c (Pipeline.arrRef spec2 2) (ix1 q) := by
    show V c (Pipeline.arrRef spec2 2) (((cfg2.win 2).blk t).view.emb (ix1 q)) = _
    refine congrArg _ (funext fun a => Fin.ext ?_)
    match a with
    | ⟨0, _⟩ => show win2_2.index t (0 : Fin 1) * 128 + 1 * q.val = q.val; omega
  show out2_3 (F := Ideal) (iblk2 V c 0 t) (iblk2 V c 1 t) (iblk2 V c 2 t) (ix2 p q)
      = region2_lin (V c (Pipeline.arrRef spec2 0)) (V c (Pipeline.arrRef spec2 1)) (V c (Pipeline.arrRef spec2 2)) (((cfg2.win 3).blk t).view.emb (ix2 p q))
  rw [hout, region2_lin_apply]
  refine (region2_out_apply _ _ _ p q).trans ?_
  rw [h2]
  exact congrArg (· + _) (Finset.sum_congr rfl fun k _ => by rw [h0 k, h1 k])

/-- An index of the output array is in point `t`'s block iff each coordinate is in the block's range on its axis. -/
theorem region2_mem_blk (t : Fin cfg2.N) (i : S80000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole (Pipeline.arrRef spec2 3)).slice (win2_3.rect t)).set ↔ _
  rw [View.set_slice_whole, Rect.mem_set_unit]
  exact Iff.rfl

/-- THE COVER: row `r` of the output is in the block of point `r / 2000`, which writes its block back. -/
theorem region2_cover (i : S80000x128.Idx) :
    ∃ t : Fin cfg2.N, (cfg2.win 3).flush t = true ∧ i ∈ ((cfg2.win 3).blk t).view.set := by
  have hi0 : (i 0).val < 80000 := (i 0).isLt
  have hi1 : (i 1).val < 128 := (i 1).isLt
  obtain ⟨t, ht⟩ : ∃ t : Fin cfg2.N, t.val = (i 0).val / 2000 := ⟨⟨(i 0).val / 2000, show _ < 40 by omega⟩, rfl⟩
  obtain ⟨e0, e1, e2, e3, e4, e5, e6⟩ := region2_idx_facts t
  refine ⟨t, flush2_3 t, ?_⟩
  rw [region2_mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-! ## The region's output array -/

/-- The output array at the program's own facts: the linear layer over the extended reals. -/
theorem region2_value_lin (V : (c : Dev nD) → (b : Ref sig .tc) → Buf (Elt Ideal) ((c : Thread nD τ).loc b)) (c : Dev nD) :
    (dat2 (F := Ideal) V c).arrAt 3 cfg2.N
      = region2_lin (V c (Pipeline.arrRef spec2 0)) (V c (Pipeline.arrRef spec2 1)) (V c (Pipeline.arrRef spec2 2)) :=
  (dat2 (F := Ideal) V c).arrAt_eq_of_cover 3 _ (fun t _ => region2_flushed_eq V c t) region2_cover

variable [Cert.KernelIdeal.Facts]

/-- WHAT REGION 2 LEAVES in its output array: the reference's linear layer of the region's three input arrays. -/
theorem region2_value (V : (c : Dev nD) → (b : Ref sig .tc) → Buf (Elt Ideal) ((c : Thread nD τ).loc b)) (c : Dev nD) :
    (dat2 (F := Ideal) V c).arrAt 3 cfg2.N
      = Cert.Spec.linB (F := Ideal) (V c (Pipeline.arrRef spec2 0)) (V c (Pipeline.arrRef spec2 1)) (V c (Pipeline.arrRef spec2 2)) := by
  rw [region2_linB_eq]
  exact region2_value_lin V c

end Cert.KernelIdeal.RegionValue

end
-- ==== Proof.Region3.lean ====
import proofs.«116822_j38594576122568_1_alg».proof.Proof.Gen.KernelIdeal.Frame
import proofs.«116822_j38594576122568_1_alg».proof.Proof.SpecLayers
import Idealize.ShloMosaic.Lib.Pipeline.Value
import Idealize.ShloMosaic.Lib.ValueIdx
import Idealize.ShloMosaic.Lib.ValueLayout
import Idealize.ShloMosaic.PureOps.Ideal.Laws

/-! What region 3 of the kernel program leaves in its output array. The region multiplies an array of 20000 rows and 7
    columns by a 7 by 128 weight matrix and adds a bias row of 128 entries, 2000 rows per grid point. Read at an index, the
    body's stored block is (∑ k, a(p,k) · w(k,q)) + b(q) on the extended reals, and so is the reference's linear layer;
    the 10 blocks are the 10 row ranges of one whole-array function, and they fill the array. -/

noncomputable section

namespace Cert.KernelIdeal.RegionValue

open Cert.KernelIdeal Cert.KernelIdeal.Gen Idealize.ShloMosaic Idealize.ShloMosaic.TcCoe Idealize.SL.Sem
open Idealize.ShloMosaic.ValueIdx
open scoped BigOperators

-- The kernel program's side conditions are read at the instance the generated modules provide, as the generated frame
-- does; the reference's are a parameter.
variable [Cert.ReferenceIdeal.Facts]

/-! ## The block product at an index

The kernel's product contracts the left block's axis 1 with the right block's axis 0. At output index
`(p, q)` and contraction position `k` the left operand is read at `(p, k)` and the right one at `(k, q)`:
one lemma per operand axis, stated at the literal axis. -/

/-- Left operand, axis 0 (a free axis): the output's row. -/
theorem lhs_blk3_0 (i : S2000x128.Idx) (q : dot_S2000x7_S7x128_S2000x128_1_0_0_1_n_n.contr.Idx) :
    (dot_S2000x7_S7x128_S2000x128_1_0_0_1_n_n.lhsIdx i q 0).val = (i 0).val := by
  unfold DotDims.lhsIdx
  rw [dif_neg (show ¬(0 : Fin S2000x7.rank) ∈ dot_S2000x7_S7x128_S2000x128_1_0_0_1_n_n.lhsBatch by decide), dif_pos (show (0 : Fin S2000x7.rank) ∈ dot_S2000x7_S7x128_S2000x128_1_0_0_1_n_n.lhsNonContracting by decide)]
  rfl

/-- Left operand, axis 1 (the contracted axis): the contraction position. -/
theorem lhs_blk3_1 (i : S2000x128.Idx) (q : dot_S2000x7_S7x128_S2000x128_1_0_0_1_n_n.contr.Idx) :
    (dot_S2000x7_S7x128_S2000x128_1_0_0_1_n_n.lhsIdx i q 1).val = (q ⟨0, by decide⟩).val :=
  dot_S2000x7_S7x128_S2000x128_1_0_0_1_n_n.lhsIdx_val_of_single rfl i q

/-- Right operand, axis 0 (the contracted axis): the contraction position. -/
theorem rhs_blk3_0 (i : S2000x128.Idx) (q : dot_S2000x7_S7x128_S2000x128_1_0_0_1_n_n.contr.Idx) :
    (dot_S2000x7_S7x128_S2000x128_1_0_0_1_n_n.rhsIdx i q 0).val = (q ⟨0, by decide⟩).val :=
  dot_S2000x7_S7x128_S2000x128_1_0_0_1_n_n.rhsIdx_val_of_single rfl i q

/-- Right operand, axis 1 (a free axis): the output's column. -/
theorem rhs_blk3_1 (i : S2000x128.Idx) (q : dot_S2000x7_S7x128_S2000x128_1_0_0_1_n_n.contr.Idx) :
    (dot_S2000x7_S7x128_S2000x128_1_0_0_1_n_n.rhsIdx i q 1).val = (i 1).val := by
  unfold DotDims.rhsIdx
  rw [dif_neg (show ¬(1 : Fin S7x128.rank) ∈ dot_S2000x7_S7x128_S2000x128_1_0_0_1_n_n.rhsBatch by decide), dif_pos (show (1 : Fin S7x128.rank) ∈ dot_S2000x7_S7x128_S2000x128_1_0_0_1_n_n.rhsNonContracting by decide)]
  rfl

/-- The block product into a zero accumulator, at `(p, q)`: the sum over the 7 contraction positions of the
    products of the operands' entries. -/
theorem blockProduct3_apply (x : FVec Ideal S2000x7 .bf16) (y : FVec Ideal S7x128 .bf16) (p : Fin 2000) (q : Fin 128) :
    matmul (F := Ideal) dot_S2000x7_S7x128_S2000x128_1_0_0_1_n_n none x y (constant (F := Ideal) S2000x128 .f32 0x00000000#32) (ix2 p q)
      = ∑ k : Fin 7, x (ix2 p k) * y (ix2 k q) := by
  simp only [matmul]
  rw [Ideal.matmul_constant_zero_apply, ← Equiv.sum_comp (contrEquiv1 dot_S2000x7_S7x128_S2000x128_1_0_0_1_n_n 7 rfl rfl).symm]
  refine Finset.sum_congr rfl fun k _ => ?_
  have hk := contrEquiv1_symm_val dot_S2000x7_S7x128_S2000x128_1_0_0_1_n_n 7 rfl rfl k
  have el : dot_S2000x7_S7x128_S2000x128_1_0_0_1_n_n.lhsIdx (ix2 p q) ((contrEquiv1 dot_S2000x7_S7x128_S2000x128_1_0_0_1_n_n 7 rfl rfl).symm k) = ix2 p k := funext fun a => Fin.ext (by
    match a with
    | ⟨0, _⟩ => exact lhs_blk3_0 _ _
    | ⟨1, _⟩ => exact (lhs_blk3_1 _ _).trans hk)
  have er : dot_S2000x7_S7x128_S2000x128_1_0_0_1_n_n.rhsIdx (ix2 p q) ((contrEquiv1 dot_S2000x7_S7x128_S2000x128_1_0_0_1_n_n 7 rfl rfl).symm k) = ix2 k q := funext fun a => Fin.ext (by
    match a with
    | ⟨0, _⟩ => exact (rhs_blk3_0 _ _).trans hk
    | ⟨1, _⟩ => exact rhs_blk3_1 _ _)
  rw [el, er]

/-- The bias row repeated down the 2000 rows of a block, at `(p, q)`: the bias at `q`. -/
theorem blockBias3_apply (z : Vec Ideal S128 .f32) (p : Fin 2000) (q : Fin 128) :
    broadcastTo S2000x128 (shapeCast S1x128 z shapeCasts_S128_S1x128) broadcasts_S1x128_S2000x128 (ix2 p q) = z (ix1 q) := by
  rw [broadcastTo_1b_ab_apply, shapeCast_a_1a_apply]

/-- THE BODY'S RESULT AT AN INDEX: what the body stores at `(p, q)` of its output block is the row `p` of the
    left block times the column `q` of the weights, plus the bias at `q` (the body first recasts each block to
    its own shape, which changes nothing, and the narrowing of the operands to the product's input format is the identity
    on extended reals). -/
theorem blockPayload3_apply (x0 : Vec Ideal S2000x7 .f32) (x1 : Vec Ideal S7x128 .f32) (x2 : Vec Ideal S128 .f32) (p : Fin 2000) (q : Fin 128) :
    k3_pay1 (F := Ideal) x0 x1 x2 (ix2 p q) = (∑ k : Fin 7, x0 (ix2 p k) * x1 (ix2 k q)) + x2 (ix1 q) := by
  unfold k3_pay1
  simp only [shapeCast_self]
  rw [addf_apply, blockProduct3_apply, blockBias3_apply]
  rfl

/-! ## The reference's linear layer at an index

The host product contracts the array's axis 1 with the weights' axis 0, exactly as the block product does, over the
whole 20000 rows; the bias row is first given a leading unit axis and then repeated down the rows. -/

/-- Left operand, axis 0 (a free axis): the output's row. -/
theorem lhs_arr3_0 (i : Cert.ReferenceIdeal.S20000x128.Idx) (q : Cert.ReferenceIdeal.dot_S20000x7_S7x128_S20000x128_1_0_0_1_n_n.contr.Idx) :
    (Cert.ReferenceIdeal.dot_S20000x7_S7x128_S20000x128_1_0_0_1_n_n.lhsIdx i q 0).val = (i 0).val := by
  unfold DotDims.lhsIdx
  rw [dif_neg (show ¬(0 : Fin Cert.ReferenceIdeal.S20000x7.rank) ∈ Cert.ReferenceIdeal.dot_S20000x7_S7x128_S20000x128_1_0_0_1_n_n.lhsBatch from (by decide : ¬(0 : Fin 2) ∈ ([] : List (Fin 2)))),
    dif_pos (show (0 : Fin Cert.ReferenceIdeal.S20000x7.rank) ∈ Cert.ReferenceIdeal.dot_S20000x7_S7x128_S20000x128_1_0_0_1_n_n.lhsNonContracting from (by decide : (0 : Fin 2) ∈ ([0] : List (Fin 2))))]
  rfl

/-- Left operand, axis 1 (the contracted axis): the contraction position. -/
theorem lhs_arr3_1 (i : Cert.ReferenceIdeal.S20000x128.Idx) (q : Cert.ReferenceIdeal.dot_S20000x7_S7x128_S20000x128_1_0_0_1_n_n.contr.Idx) :
    (Cert.ReferenceIdeal.dot_S20000x7_S7x128_S20000x128_1_0_0_1_n_n.lhsIdx i q 1).val = (q ⟨0, Nat.one_pos⟩).val :=
  Cert.ReferenceIdeal.dot_S20000x7_S7x128_S20000x128_1_0_0_1_n_n.lhsIdx_val_of_single rfl i q

/-- Right operand, axis 0 (the contracted axis): the contraction position. -/
theorem rhs_arr3_0 (i : Cert.ReferenceIdeal.S20000x128.Idx) (q : Cert.ReferenceIdeal.dot_S20000x7_S7x128_S20000x128_1_0_0_1_n_n.contr.Idx) :
    (Cert.ReferenceIdeal.dot_S20000x7_S7x128_S20000x128_1_0_0_1_n_n.rhsIdx i q 0).val = (q ⟨0, Nat.one_pos⟩).val :=
  Cert.ReferenceIdeal.dot_S20000x7_S7x128_S20000x128_1_0_0_1_n_n.rhsIdx_val_of_single rfl i q

/-- Right operand, axis 1 (a free axis): the output's column. -/
theorem rhs_arr3_1 (i : Cert.ReferenceIdeal.S20000x128.Idx) (q : Cert.ReferenceIdeal.dot_S20000x7_S7x128_S20000x128_1_0_0_1_n_n.contr.Idx) :
    (Cert.ReferenceIdeal.dot_S20000x7_S7x128_S20000x128_1_0_0_1_n_n.rhsIdx i q 1).val = (i 1).val := by
  unfold DotDims.rhsIdx
  rw [dif_neg (show ¬(1 : Fin Cert.ReferenceIdeal.S7x128.rank) ∈ Cert.ReferenceIdeal.dot_S20000x7_S7x128_S20000x128_1_0_0_1_n_n.rhsBatch from (by decide : ¬(1 : Fin 2) ∈ ([] : List (Fin 2)))),
    dif_pos (show (1 : Fin Cert.ReferenceIdeal.S7x128.rank) ∈ Cert.ReferenceIdeal.dot_S20000x7_S7x128_S20000x128_1_0_0_1_n_n.rhsNonContracting from (by decide : (1 : Fin 2) ∈ ([1] : List (Fin 2))))]
  rfl

/-- The host product at `(p, q)`: the sum over the 7 contraction positions of the products of the operands' entries. -/
theorem arrayProduct3_apply (a : FVec Ideal Cert.ReferenceIdeal.S20000x7 .f32) (w : FVec Ideal Cert.ReferenceIdeal.S7x128 .f32) (p : Fin 20000) (q : Fin 128) :
    Host.dotGeneral (F := Ideal) Cert.ReferenceIdeal.dot_S20000x7_S7x128_S20000x128_1_0_0_1_n_n none a w (ix2 p q)
      = ∑ k : Fin 7, a (ix2 p k) * w (ix2 k q) := by
  simp only [Host.dotGeneral]
  rw [Ideal.dotGeneral_apply, ← Equiv.sum_comp (contrEquiv1 Cert.ReferenceIdeal.dot_S20000x7_S7x128_S20000x128_1_0_0_1_n_n 7 rfl rfl).symm]
  refine Finset.sum_congr rfl fun k _ => ?_
  have hk := contrEquiv1_symm_val Cert.ReferenceIdeal.dot_S20000x7_S7x128_S20000x128_1_0_0_1_n_n 7 rfl rfl k
  have el : Cert.ReferenceIdeal.dot_S20000x7_S7x128_S20000x128_1_0_0_1_n_n.lhsIdx (ix2 p q) ((contrEquiv1 Cert.ReferenceIdeal.dot_S20000x7_S7x128_S20000x128_1_0_0_1_n_n 7 rfl rfl).symm k) = ix2 p k := funext fun a => Fin.ext (by
    match a with
    | ⟨0, _⟩ => exact lhs_arr3_0 _ _
    | ⟨1, _⟩ => exact (lhs_arr3_1 _ _).trans hk)
  have er : Cert.ReferenceIdeal.dot_S20000x7_S7x128_S20000x128_1_0_0_1_n_n.rhsIdx (ix2 p q) ((contrEquiv1 Cert.ReferenceIdeal.dot_S20000x7_S7x128_S20000x128_1_0_0_1_n_n 7 rfl rfl).symm k) = ix2 k q := funext fun a => Fin.ext (by
    match a with
    | ⟨0, _⟩ => exact (rhs_arr3_0 _ _).trans hk
    | ⟨1, _⟩ => exact rhs_arr3_1 _ _)
  rw [el, er]

/-- The bias row given a leading unit axis and repeated down the 20000 rows, at `(p, q)`: the bias at `q`. -/
theorem arrayBias3_apply (b : (⟨Cert.ReferenceIdeal.S128, .f32⟩ : BufTy).Contents (Elt Ideal)) (p : Fin 20000) (q : Fin 128) :
    broadcastInDim Cert.ReferenceIdeal.S20000x128 ![0, 1] Cert.ReferenceIdeal.Facts₀.bcast_S1x128_S20000x128_0_1 (broadcastInDim Cert.ReferenceIdeal.S1x128 ![1] Cert.ReferenceIdeal.Facts₀.bcast_S128_S1x128_1 b) (ix2 p q) = b (ix1 q) := by
  rw [broadcastInDim_apply _ _ _ (ix2 p q) (ix2 (0 : Fin 1) q) (fun a => by match a with | ⟨0, _⟩ => rfl | ⟨1, _⟩ => rfl),
    broadcastInDim_apply _ _ _ (ix2 (0 : Fin 1) q) (ix1 q) (fun a => by match a with | ⟨0, _⟩ => rfl)]

/-- THE REFERENCE'S LINEAR LAYER AT AN INDEX: row `p` of the array times column `q` of the weights, plus the bias at `q`. -/
theorem linear3_apply (a : (⟨Cert.ReferenceIdeal.S20000x7, .f32⟩ : BufTy).Contents (Elt Ideal)) (w : (⟨Cert.ReferenceIdeal.S7x128, .f32⟩ : BufTy).Contents (Elt Ideal)) (b : (⟨Cert.ReferenceIdeal.S128, .f32⟩ : BufTy).Contents (Elt Ideal)) (p : Fin 20000) (q : Fin 128) :
    Cert.Spec.linC (F := Ideal) a w b (ix2 p q) = (∑ k : Fin 7, a (ix2 p k) * w (ix2 k q)) + b (ix1 q) := by
  unfold Cert.Spec.linC
  beta_reduce
  rw [addf_apply, arrayProduct3_apply, arrayBias3_apply]

/-! ## From the blocks to the array

Grid point `t` works on rows `2000 t … 2000 t + 1999`: its left block is those rows of the array, the weights and
the bias are read whole, and what it writes back is those rows of the linear layer of the three arrays. The 10
points' row ranges fill the 20000 rows. -/

theorem zeroOffsets3_2 : (![0, 0] : Fin 2 → Nat) = fun _ => 0 :=
  funext fun a => by match a with | ⟨0, _⟩ => rfl | ⟨1, _⟩ => rfl

theorem zeroOffsets3_1 : (![0] : Fin 1 → Nat) = fun _ => 0 :=
  funext fun a => by match a with | ⟨0, _⟩ => rfl

/-- The printed index maps, decided once over the grid: the left block moves down the rows with the output block, the
    weights' and the bias's block indices are zero, and the output's row-block index is the point's number. -/
theorem blockIndices3 : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0
    ∧ win3_3.index t (0 : Fin 2) ≤ 9 :=
  (by decide +kernel : ∀ t : Fin grid3.N, _)

/-- ONE BLOCK OF THE LINEAR LAYER. If the left block `x0` is rows `2000 n …` of the array `A`, and the weights' and the
    bias's blocks are the arrays `W` and `B` themselves, the body's result at `(p, q)` is the linear layer of `A`, `W`, `B`
    at `(2000 n + p, q)`. -/
theorem blockOfLinear3 (A : (⟨Cert.ReferenceIdeal.S20000x7, .f32⟩ : BufTy).Contents (Elt Ideal)) (W : (⟨Cert.ReferenceIdeal.S7x128, .f32⟩ : BufTy).Contents (Elt Ideal)) (B : (⟨Cert.ReferenceIdeal.S128, .f32⟩ : BufTy).Contents (Elt Ideal))
    (x0 : Vec Ideal S2000x7 .f32) (x1 : Vec Ideal S7x128 .f32) (x2 : Vec Ideal S128 .f32) (n : Nat) (hn : n ≤ 9)
    (h0 : ∀ (p : Fin 2000) (k : Fin 7), x0 (ix2 p k) = A (ix2 (⟨n * 2000 + p.val, by have := p.isLt; omega⟩ : Fin 20000) k))
    (h1 : ∀ (k : Fin 7) (q : Fin 128), x1 (ix2 k q) = W (ix2 k q))
    (h2 : ∀ q : Fin 128, x2 (ix1 q) = B (ix1 q))
    (p : Fin 2000) (q : Fin 128) :
    k3_pay1 (F := Ideal) x0 x1 x2 (ix2 p q)
      = Cert.Spec.linC (F := Ideal) A W B (ix2 (⟨n * 2000 + p.val, by have := p.isLt; omega⟩ : Fin 20000) q) := by
  rw [blockPayload3_apply, linear3_apply]
  simp only [h0, h1, h2]

-- reading an array's shape off the program's buffer table costs more the later the buffer stands in it
set_option maxHeartbeats 4000000 in
/-- WHAT POINT `t` WRITES BACK is block `t` of the linear layer of the three arrays as the region finds them. -/
theorem flushed3_eq (V : (c : Dev nD) → (b : Ref sig .tc) → Buf (Elt Ideal) ((c : Thread nD τ).loc b)) (c : Dev nD) (t : Fin cfg3.N) :
    (dat3 (F := Ideal) V c).flushed 3 t = ((cfg3.win 3).blk t).view.read (Elt Ideal)
      (Cert.Spec.linC (F := Ideal) (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero zeroOffsets3_2]
  simp only [View.ld_unit_zero (S := S2000x7) zeroOffsets3_2, View.ld_unit_zero (S := S7x128) zeroOffsets3_2, View.ld_unit_zero (S := S128) zeroOffsets3_1]
  obtain ⟨e00, e01, e10, e11, e20, e30, e31, hle⟩ := blockIndices3 t
  funext (j : S2000x128.Idx)
  obtain ⟨p, q, rfl⟩ : ∃ (p : Fin 2000) (q : Fin 128), j = ix2 p q := ⟨j 0, j 1, eq_ix2 j⟩
  show k3_pay1 (F := Ideal) (iblk3 V c 0 t) (iblk3 V c 1 t) (iblk3 V c 2 t) (ix2 p q)
    = Cert.Spec.linC (F := Ideal) (V c (Pipeline.arrRef spec3 0)) (V c (Pipeline.arrRef spec3 1)) (V c (Pipeline.arrRef spec3 2)) (((cfg3.win 3).blk t).view.emb (ix2 p q))
  refine (blockOfLinear3 (V c (Pipeline.arrRef spec3 0)) (V c (Pipeline.arrRef spec3 1)) (V c (Pipeline.arrRef spec3 2)) (iblk3 V c 0 t) (iblk3 V c 1 t) (iblk3 V c 2 t) (win3_3.index t (0 : Fin 2)) hle ?_ ?_ ?_ p q).trans ?_
  · intro p k
    show V c (Pipeline.arrRef spec3 0) (((cfg3.win 0).blk t).view.emb (ix2 p k)) = _
    refine congrArg _ (funext fun a => Fin.ext ?_)
    match a with
    | ⟨0, _⟩ => show win3_0.index t (0 : Fin 2) * 2000 + 1 * p.val = win3_3.index t (0 : Fin 2) * 2000 + p.val; omega
    | ⟨1, _⟩ => show win3_0.index t (1 : Fin 2) * 7 + 1 * k.val = k.val; omega
  · intro k q
    show V c (Pipeline.arrRef spec3 1) (((cfg3.win 1).blk t).view.emb (ix2 k q)) = _
    refine congrArg _ (funext fun a => Fin.ext ?_)
    match a with
    | ⟨0, _⟩ => show win3_1.index t (0 : Fin 2) * 7 + 1 * k.val = k.val; omega
    | ⟨1, _⟩ => show win3_1.index t (1 : Fin 2) * 128 + 1 * q.val = q.val; omega
  · intro q
    show V c (Pipeline.arrRef spec3 2) (((cfg3.win 2).blk t).view.emb (ix1 q)) = _
    refine congrArg _ (funext fun a => Fin.ext ?_)
    match a with
    | ⟨0, _⟩ => show win3_2.index t (0 : Fin 1) * 128 + 1 * q.val = q.val; omega
  · refine congrArg _ (funext fun a => Fin.ext ?_)
    match a with
    | ⟨0, _⟩ => show win3_3.index t (0 : Fin 2) * 2000 + p.val = win3_3.index t (0 : Fin 2) * 2000 + 1 * p.val; omega
    | ⟨1, _⟩ => show q.val = win3_3.index t (1 : Fin 2) * 128 + 1 * q.val; omega

/-- An index of the array is in point `t`'s output block iff each coordinate is in the block's range on its axis. -/
theorem mem_block3 (t : Fin cfg3.N) (i : S20000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole (Pipeline.arrRef spec3 3)).slice (win3_3.rect t)).set ↔ _
  rw [View.set_slice_whole, Rect.mem_set_unit]
  exact Iff.rfl

/-- THE COVER: row `r` is in the block of point `r / 2000`. -/
theorem covered3 (i : S20000x128.Idx) :
    ∃ t : Fin cfg3.N, (cfg3.win 3).flush t = true ∧ i ∈ ((cfg3.win 3).blk t).view.set := by
  have hi0 : (i 0).val < 20000 := (i 0).isLt
  have hi1 : (i 1).val < 128 := (i 1).isLt
  obtain ⟨t, ht⟩ : ∃ t : Fin cfg3.N, t.val = (i 0).val / 2000 :=
    ⟨⟨(i 0).val / 2000, by rw [show cfg3.N = 10 from N_3]; omega⟩, rfl⟩
  obtain ⟨-, -, -, -, -, e30, e31, -⟩ := blockIndices3 t
  refine ⟨t, flush3_3 t, ?_⟩
  rw [mem_block3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

/-- The array after region 3, at the generated instance of the kernel program's side conditions. -/
theorem region3_array (V : (c : Dev nD) → (b : Ref sig .tc) → Buf (Elt Ideal) ((c : Thread nD τ).loc b)) (c : Dev nD) :
    (dat3 (F := Ideal) V c).arrAt 3 cfg3.N
      = Cert.Spec.linC (F := Ideal) (V c (Pipeline.arrRef spec3 0)) (V c (Pipeline.arrRef spec3 1)) (V c (Pipeline.arrRef spec3 2)) :=
  (dat3 (F := Ideal) V c).arrAt_eq_of_cover 3 _ (fun t _ => flushed3_eq V c t) (fun i => covered3 i)

section AnyInstance

variable [Cert.KernelIdeal.Facts]

/-- THE ARRAY after region 3: the linear layer of the region's three input arrays (the kernel program's side conditions
    are propositions, so the statement at any instance of them is the one at the generated instance). -/
theorem region3_value (V : (c : Dev nD) → (b : Ref sig .tc) → Buf (Elt Ideal) ((c : Thread nD τ).loc b)) (c : Dev nD) :
    (dat3 (F := Ideal) V c).arrAt 3 cfg3.N
      = Cert.Spec.linC (F := Ideal) (V c (Pipeline.arrRef spec3 0)) (V c (Pipeline.arrRef spec3 1)) (V c (Pipeline.arrRef spec3 2)) :=
  region3_array V c

end AnyInstance

end Cert.KernelIdeal.RegionValue

end
-- ==== Proof.Region4.lean ====
import proofs.«116822_j38594576122568_1_alg».proof.Proof.Gen.KernelIdeal.Frame
import proofs.«116822_j38594576122568_1_alg».proof.Proof.SpecLayers
import Idealize.ShloMosaic.Lib.Pipeline.Value
import Idealize.ShloMosaic.Lib.ValueIdx
import Idealize.ShloMosaic.Lib.ValueLayout
import Idealize.ShloMosaic.PureOps.Ideal.Laws

/-! What region 4 of the kernel program leaves in its output array. The region multiplies an array of 20000 rows and 7
    columns by a 7 by 128 weight matrix and adds a bias row of 128 entries, 2000 rows per grid point. Read at an index, the
    body's stored block is (∑ k, a(p,k) · w(k,q)) + b(q) on the extended reals, and so is the reference's linear layer;
    the 10 blocks are the 10 row ranges of one whole-array function, and they fill the array. -/

noncomputable section

namespace Cert.KernelIdeal.RegionValue

open Cert.KernelIdeal Cert.KernelIdeal.Gen Idealize.ShloMosaic Idealize.ShloMosaic.TcCoe Idealize.SL.Sem
open Idealize.ShloMosaic.ValueIdx
open scoped BigOperators

-- The kernel program's side conditions are read at the instance the generated modules provide, as the generated frame
-- does; the reference's are a parameter.
variable [Cert.ReferenceIdeal.Facts]

/-! ## The block product at an index

The kernel's product contracts the left block's axis 1 with the right block's axis 0. At output index
`(p, q)` and contraction position `k` the left operand is read at `(p, k)` and the right one at `(k, q)`:
one lemma per operand axis, stated at the literal axis. -/

/-- Left operand, axis 0 (a free axis): the output's row. -/
theorem lhs_blk4_0 (i : S2000x128.Idx) (q : dot_S2000x7_S7x128_S2000x128_1_0_0_1_n_n.contr.Idx) :
    (dot_S2000x7_S7x128_S2000x128_1_0_0_1_n_n.lhsIdx i q 0).val = (i 0).val := by
  unfold DotDims.lhsIdx
  rw [dif_neg (show ¬(0 : Fin S2000x7.rank) ∈ dot_S2000x7_S7x128_S2000x128_1_0_0_1_n_n.lhsBatch by decide), dif_pos (show (0 : Fin S2000x7.rank) ∈ dot_S2000x7_S7x128_S2000x128_1_0_0_1_n_n.lhsNonContracting by decide)]
  rfl

/-- Left operand, axis 1 (the contracted axis): the contraction position. -/
theorem lhs_blk4_1 (i : S2000x128.Idx) (q : dot_S2000x7_S7x128_S2000x128_1_0_0_1_n_n.contr.Idx) :
    (dot_S2000x7_S7x128_S2000x128_1_0_0_1_n_n.lhsIdx i q 1).val = (q ⟨0, by decide⟩).val :=
  dot_S2000x7_S7x128_S2000x128_1_0_0_1_n_n.lhsIdx_val_of_single rfl i q

/-- Right operand, axis 0 (the contracted axis): the contraction position. -/
theorem rhs_blk4_0 (i : S2000x128.Idx) (q : dot_S2000x7_S7x128_S2000x128_1_0_0_1_n_n.contr.Idx) :
    (dot_S2000x7_S7x128_S2000x128_1_0_0_1_n_n.rhsIdx i q 0).val = (q ⟨0, by decide⟩).val :=
  dot_S2000x7_S7x128_S2000x128_1_0_0_1_n_n.rhsIdx_val_of_single rfl i q

/-- Right operand, axis 1 (a free axis): the output's column. -/
theorem rhs_blk4_1 (i : S2000x128.Idx) (q : dot_S2000x7_S7x128_S2000x128_1_0_0_1_n_n.contr.Idx) :
    (dot_S2000x7_S7x128_S2000x128_1_0_0_1_n_n.rhsIdx i q 1).val = (i 1).val := by
  unfold DotDims.rhsIdx
  rw [dif_neg (show ¬(1 : Fin S7x128.rank) ∈ dot_S2000x7_S7x128_S2000x128_1_0_0_1_n_n.rhsBatch by decide), dif_pos (show (1 : Fin S7x128.rank) ∈ dot_S2000x7_S7x128_S2000x128_1_0_0_1_n_n.rhsNonContracting by decide)]
  rfl

/-- The block product into a zero accumulator, at `(p, q)`: the sum over the 7 contraction positions of the
    products of the operands' entries. -/
theorem blockProduct4_apply (x : FVec Ideal S2000x7 .bf16) (y : FVec Ideal S7x128 .bf16) (p : Fin 2000) (q : Fin 128) :
    matmul (F := Ideal) dot_S2000x7_S7x128_S2000x128_1_0_0_1_n_n none x y (constant (F := Ideal) S2000x128 .f32 0x00000000#32) (ix2 p q)
      = ∑ k : Fin 7, x (ix2 p k) * y (ix2 k q) := by
  simp only [matmul]
  rw [Ideal.matmul_constant_zero_apply, ← Equiv.sum_comp (contrEquiv1 dot_S2000x7_S7x128_S2000x128_1_0_0_1_n_n 7 rfl rfl).symm]
  refine Finset.sum_congr rfl fun k _ => ?_
  have hk := contrEquiv1_symm_val dot_S2000x7_S7x128_S2000x128_1_0_0_1_n_n 7 rfl rfl k
  have el : dot_S2000x7_S7x128_S2000x128_1_0_0_1_n_n.lhsIdx (ix2 p q) ((contrEquiv1 dot_S2000x7_S7x128_S2000x128_1_0_0_1_n_n 7 rfl rfl).symm k) = ix2 p k := funext fun a => Fin.ext (by
    match a with
    | ⟨0, _⟩ => exact lhs_blk4_0 _ _
    | ⟨1, _⟩ => exact (lhs_blk4_1 _ _).trans hk)
  have er : dot_S2000x7_S7x128_S2000x128_1_0_0_1_n_n.rhsIdx (ix2 p q) ((contrEquiv1 dot_S2000x7_S7x128_S2000x128_1_0_0_1_n_n 7 rfl rfl).symm k) = ix2 k q := funext fun a => Fin.ext (by
    match a with
    | ⟨0, _⟩ => exact (rhs_blk4_0 _ _).trans hk
    | ⟨1, _⟩ => exact rhs_blk4_1 _ _)
  rw [el, er]

/-- The bias row repeated down the 2000 rows of a block, at `(p, q)`: the bias at `q`. -/
theorem blockBias4_apply (z : Vec Ideal S128 .f32) (p : Fin 2000) (q : Fin 128) :
    broadcastTo S2000x128 (shapeCast S1x128 z shapeCasts_S128_S1x128) broadcasts_S1x128_S2000x128 (ix2 p q) = z (ix1 q) := by
  rw [broadcastTo_1b_ab_apply, shapeCast_a_1a_apply]

/-- THE BODY'S RESULT AT AN INDEX: what the body stores at `(p, q)` of its output block is the row `p` of the
    left block times the column `q` of the weights, plus the bias at `q` (the body first recasts each block to
    its own shape, which changes nothing, and the narrowing of the operands to the product's input format is the identity
    on extended reals). -/
theorem blockPayload4_apply (x0 : Vec Ideal S2000x7 .f32) (x1 : Vec Ideal S7x128 .f32) (x2 : Vec Ideal S128 .f32) (p : Fin 2000) (q : Fin 128) :
    k4_pay1 (F := Ideal) x0 x1 x2 (ix2 p q) = (∑ k : Fin 7, x0 (ix2 p k) * x1 (ix2 k q)) + x2 (ix1 q) := by
  unfold k4_pay1
  simp only [shapeCast_self]
  rw [addf_apply, blockProduct4_apply, blockBias4_apply]
  rfl

/-! ## The reference's linear layer at an index

The host product contracts the array's axis 1 with the weights' axis 0, exactly as the block product does, over the
whole 20000 rows; the bias row is first given a leading unit axis and then repeated down the rows. -/

/-- Left operand, axis 0 (a free axis): the output's row. -/
theorem lhs_arr4_0 (i : Cert.ReferenceIdeal.S20000x128.Idx) (q : Cert.ReferenceIdeal.dot_S20000x7_S7x128_S20000x128_1_0_0_1_n_n.contr.Idx) :
    (Cert.ReferenceIdeal.dot_S20000x7_S7x128_S20000x128_1_0_0_1_n_n.lhsIdx i q 0).val = (i 0).val := by
  unfold DotDims.lhsIdx
  rw [dif_neg (show ¬(0 : Fin Cert.ReferenceIdeal.S20000x7.rank) ∈ Cert.ReferenceIdeal.dot_S20000x7_S7x128_S20000x128_1_0_0_1_n_n.lhsBatch from (by decide : ¬(0 : Fin 2) ∈ ([] : List (Fin 2)))),
    dif_pos (show (0 : Fin Cert.ReferenceIdeal.S20000x7.rank) ∈ Cert.ReferenceIdeal.dot_S20000x7_S7x128_S20000x128_1_0_0_1_n_n.lhsNonContracting from (by decide : (0 : Fin 2) ∈ ([0] : List (Fin 2))))]
  rfl

/-- Left operand, axis 1 (the contracted axis): the contraction position. -/
theorem lhs_arr4_1 (i : Cert.ReferenceIdeal.S20000x128.Idx) (q : Cert.ReferenceIdeal.dot_S20000x7_S7x128_S20000x128_1_0_0_1_n_n.contr.Idx) :
    (Cert.ReferenceIdeal.dot_S20000x7_S7x128_S20000x128_1_0_0_1_n_n.lhsIdx i q 1).val = (q ⟨0, Nat.one_pos⟩).val :=
  Cert.ReferenceIdeal.dot_S20000x7_S7x128_S20000x128_1_0_0_1_n_n.lhsIdx_val_of_single rfl i q

/-- Right operand, axis 0 (the contracted axis): the contraction position. -/
theorem rhs_arr4_0 (i : Cert.ReferenceIdeal.S20000x128.Idx) (q : Cert.ReferenceIdeal.dot_S20000x7_S7x128_S20000x128_1_0_0_1_n_n.contr.Idx) :
    (Cert.ReferenceIdeal.dot_S20000x7_S7x128_S20000x128_1_0_0_1_n_n.rhsIdx i q 0).val = (q ⟨0, Nat.one_pos⟩).val :=
  Cert.ReferenceIdeal.dot_S20000x7_S7x128_S20000x128_1_0_0_1_n_n.rhsIdx_val_of_single rfl i q

/-- Right operand, axis 1 (a free axis): the output's column. -/
theorem rhs_arr4_1 (i : Cert.ReferenceIdeal.S20000x128.Idx) (q : Cert.ReferenceIdeal.dot_S20000x7_S7x128_S20000x128_1_0_0_1_n_n.contr.Idx) :
    (Cert.ReferenceIdeal.dot_S20000x7_S7x128_S20000x128_1_0_0_1_n_n.rhsIdx i q 1).val = (i 1).val := by
  unfold DotDims.rhsIdx
  rw [dif_neg (show ¬(1 : Fin Cert.ReferenceIdeal.S7x128.rank) ∈ Cert.ReferenceIdeal.dot_S20000x7_S7x128_S20000x128_1_0_0_1_n_n.rhsBatch from (by decide : ¬(1 : Fin 2) ∈ ([] : List (Fin 2)))),
    dif_pos (show (1 : Fin Cert.ReferenceIdeal.S7x128.rank) ∈ Cert.ReferenceIdeal.dot_S20000x7_S7x128_S20000x128_1_0_0_1_n_n.rhsNonContracting from (by decide : (1 : Fin 2) ∈ ([1] : List (Fin 2))))]
  rfl

/-- The host product at `(p, q)`: the sum over the 7 contraction positions of the products of the operands' entries. -/
theorem arrayProduct4_apply (a : FVec Ideal Cert.ReferenceIdeal.S20000x7 .f32) (w : FVec Ideal Cert.ReferenceIdeal.S7x128 .f32) (p : Fin 20000) (q : Fin 128) :
    Host.dotGeneral (F := Ideal) Cert.ReferenceIdeal.dot_S20000x7_S7x128_S20000x128_1_0_0_1_n_n none a w (ix2 p q)
      = ∑ k : Fin 7, a (ix2 p k) * w (ix2 k q) := by
  simp only [Host.dotGeneral]
  rw [Ideal.dotGeneral_apply, ← Equiv.sum_comp (contrEquiv1 Cert.ReferenceIdeal.dot_S20000x7_S7x128_S20000x128_1_0_0_1_n_n 7 rfl rfl).symm]
  refine Finset.sum_congr rfl fun k _ => ?_
  have hk := contrEquiv1_symm_val Cert.ReferenceIdeal.dot_S20000x7_S7x128_S20000x128_1_0_0_1_n_n 7 rfl rfl k
  have el : Cert.ReferenceIdeal.dot_S20000x7_S7x128_S20000x128_1_0_0_1_n_n.lhsIdx (ix2 p q) ((contrEquiv1 Cert.ReferenceIdeal.dot_S20000x7_S7x128_S20000x128_1_0_0_1_n_n 7 rfl rfl).symm k) = ix2 p k := funext fun a => Fin.ext (by
    match a with
    | ⟨0, _⟩ => exact lhs_arr4_0 _ _
    | ⟨1, _⟩ => exact (lhs_arr4_1 _ _).trans hk)
  have er : Cert.ReferenceIdeal.dot_S20000x7_S7x128_S20000x128_1_0_0_1_n_n.rhsIdx (ix2 p q) ((contrEquiv1 Cert.ReferenceIdeal.dot_S20000x7_S7x128_S20000x128_1_0_0_1_n_n 7 rfl rfl).symm k) = ix2 k q := funext fun a => Fin.ext (by
    match a with
    | ⟨0, _⟩ => exact (rhs_arr4_0 _ _).trans hk
    | ⟨1, _⟩ => exact rhs_arr4_1 _ _)
  rw [el, er]

/-- The bias row given a leading unit axis and repeated down the 20000 rows, at `(p, q)`: the bias at `q`. -/
theorem arrayBias4_apply (b : (⟨Cert.ReferenceIdeal.S128, .f32⟩ : BufTy).Contents (Elt Ideal)) (p : Fin 20000) (q : Fin 128) :
    broadcastInDim Cert.ReferenceIdeal.S20000x128 ![0, 1] Cert.ReferenceIdeal.Facts₀.bcast_S1x128_S20000x128_0_1 (broadcastInDim Cert.ReferenceIdeal.S1x128 ![1] Cert.ReferenceIdeal.Facts₀.bcast_S128_S1x128_1 b) (ix2 p q) = b (ix1 q) := by
  rw [broadcastInDim_apply _ _ _ (ix2 p q) (ix2 (0 : Fin 1) q) (fun a => by match a with | ⟨0, _⟩ => rfl | ⟨1, _⟩ => rfl),
    broadcastInDim_apply _ _ _ (ix2 (0 : Fin 1) q) (ix1 q) (fun a => by match a with | ⟨0, _⟩ => rfl)]

/-- THE REFERENCE'S LINEAR LAYER AT AN INDEX: row `p` of the array times column `q` of the weights, plus the bias at `q`. -/
theorem linear4_apply (a : (⟨Cert.ReferenceIdeal.S20000x7, .f32⟩ : BufTy).Contents (Elt Ideal)) (w : (⟨Cert.ReferenceIdeal.S7x128, .f32⟩ : BufTy).Contents (Elt Ideal)) (b : (⟨Cert.ReferenceIdeal.S128, .f32⟩ : BufTy).Contents (Elt Ideal)) (p : Fin 20000) (q : Fin 128) :
    Cert.Spec.linC (F := Ideal) a w b (ix2 p q) = (∑ k : Fin 7, a (ix2 p k) * w (ix2 k q)) + b (ix1 q) := by
  unfold Cert.Spec.linC
  beta_reduce
  rw [addf_apply, arrayProduct4_apply, arrayBias4_apply]

/-! ## From the blocks to the array

Grid point `t` works on rows `2000 t … 2000 t + 1999`: its left block is those rows of the array, the weights and
the bias are read whole, and what it writes back is those rows of the linear layer of the three arrays. The 10
points' row ranges fill the 20000 rows. -/

theorem zeroOffsets4_2 : (![0, 0] : Fin 2 → Nat) = fun _ => 0 :=
  funext fun a => by match a with | ⟨0, _⟩ => rfl | ⟨1, _⟩ => rfl

theorem zeroOffsets4_1 : (![0] : Fin 1 → Nat) = fun _ => 0 :=
  funext fun a => by match a with | ⟨0, _⟩ => rfl

/-- The printed index maps, decided once over the grid: the left block moves down the rows with the output block, the
    weights' and the bias's block indices are zero, and the output's row-block index is the point's number. -/
theorem blockIndices4 : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0
    ∧ win4_3.index t (0 : Fin 2) ≤ 9 :=
  (by decide +kernel : ∀ t : Fin grid4.N, _)

/-- ONE BLOCK OF THE LINEAR LAYER. If the left block `x0` is rows `2000 n …` of the array `A`, and the weights' and the
    bias's blocks are the arrays `W` and `B` themselves, the body's result at `(p, q)` is the linear layer of `A`, `W`, `B`
    at `(2000 n + p, q)`. -/
theorem blockOfLinear4 (A : (⟨Cert.ReferenceIdeal.S20000x7, .f32⟩ : BufTy).Contents (Elt Ideal)) (W : (⟨Cert.ReferenceIdeal.S7x128, .f32⟩ : BufTy).Contents (Elt Ideal)) (B : (⟨Cert.ReferenceIdeal.S128, .f32⟩ : BufTy).Contents (Elt Ideal))
    (x0 : Vec Ideal S2000x7 .f32) (x1 : Vec Ideal S7x128 .f32) (x2 : Vec Ideal S128 .f32) (n : Nat) (hn : n ≤ 9)
    (h0 : ∀ (p : Fin 2000) (k : Fin 7), x0 (ix2 p k) = A (ix2 (⟨n * 2000 + p.val, by have := p.isLt; omega⟩ : Fin 20000) k))
    (h1 : ∀ (k : Fin 7) (q : Fin 128), x1 (ix2 k q) = W (ix2 k q))
    (h2 : ∀ q : Fin 128, x2 (ix1 q) = B (ix1 q))
    (p : Fin 2000) (q : Fin 128) :
    k4_pay1 (F := Ideal) x0 x1 x2 (ix2 p q)
      = Cert.Spec.linC (F := Ideal) A W B (ix2 (⟨n * 2000 + p.val, by have := p.isLt; omega⟩ : Fin 20000) q) := by
  rw [blockPayload4_apply, linear4_apply]
  simp only [h0, h1, h2]

-- reading an array's shape off the program's buffer table costs more the later the buffer stands in it
set_option maxHeartbeats 4000000 in
/-- WHAT POINT `t` WRITES BACK is block `t` of the linear layer of the three arrays as the region finds them. -/
theorem flushed4_eq (V : (c : Dev nD) → (b : Ref sig .tc) → Buf (Elt Ideal) ((c : Thread nD τ).loc b)) (c : Dev nD) (t : Fin cfg4.N) :
    (dat4 (F := Ideal) V c).flushed 3 t = ((cfg4.win 3).blk t).view.read (Elt Ideal)
      (Cert.Spec.linC (F := Ideal) (V c (Pipeline.arrRef spec4 0)) (V c (Pipeline.arrRef spec4 1)) (V c (Pipeline.arrRef spec4 2))) := by
  show (cfg4.win 3).cut (grid4.coords t) ((dat4 (F := Ideal) V c).after 3 t) = _
  rw [after4_3]
  unfold out4_3
  rw [View.canon_unit_zero zeroOffsets4_2]
  simp only [View.ld_unit_zero (S := S2000x7) zeroOffsets4_2, View.ld_unit_zero (S := S7x128) zeroOffsets4_2, View.ld_unit_zero (S := S128) zeroOffsets4_1]
  obtain ⟨e00, e01, e10, e11, e20, e30, e31, hle⟩ := blockIndices4 t
  funext (j : S2000x128.Idx)
  obtain ⟨p, q, rfl⟩ : ∃ (p : Fin 2000) (q : Fin 128), j = ix2 p q := ⟨j 0, j 1, eq_ix2 j⟩
  show k4_pay1 (F := Ideal) (iblk4 V c 0 t) (iblk4 V c 1 t) (iblk4 V c 2 t) (ix2 p q)
    = Cert.Spec.linC (F := Ideal) (V c (Pipeline.arrRef spec4 0)) (V c (Pipeline.arrRef spec4 1)) (V c (Pipeline.arrRef spec4 2)) (((cfg4.win 3).blk t).view.emb (ix2 p q))
  refine (blockOfLinear4 (V c (Pipeline.arrRef spec4 0)) (V c (Pipeline.arrRef spec4 1)) (V c (Pipeline.arrRef spec4 2)) (iblk4 V c 0 t) (iblk4 V c 1 t) (iblk4 V c 2 t) (win4_3.index t (0 : Fin 2)) hle ?_ ?_ ?_ p q).trans ?_
  · intro p k
    show V c (Pipeline.arrRef spec4 0) (((cfg4.win 0).blk t).view.emb (ix2 p k)) = _
    refine congrArg _ (funext fun a => Fin.ext ?_)
    match a with
    | ⟨0, _⟩ => show win4_0.index t (0 : Fin 2) * 2000 + 1 * p.val = win4_3.index t (0 : Fin 2) * 2000 + p.val; omega
    | ⟨1, _⟩ => show win4_0.index t (1 : Fin 2) * 7 + 1 * k.val = k.val; omega
  · intro k q
    show V c (Pipeline.arrRef spec4 1) (((cfg4.win 1).blk t).view.emb (ix2 k q)) = _
    refine congrArg _ (funext fun a => Fin.ext ?_)
    match a with
    | ⟨0, _⟩ => show win4_1.index t (0 : Fin 2) * 7 + 1 * k.val = k.val; omega
    | ⟨1, _⟩ => show win4_1.index t (1 : Fin 2) * 128 + 1 * q.val = q.val; omega
  · intro q
    show V c (Pipeline.arrRef spec4 2) (((cfg4.win 2).blk t).view.emb (ix1 q)) = _
    refine congrArg _ (funext fun a => Fin.ext ?_)
    match a with
    | ⟨0, _⟩ => show win4_2.index t (0 : Fin 1) * 128 + 1 * q.val = q.val; omega
  · refine congrArg _ (funext fun a => Fin.ext ?_)
    match a with
    | ⟨0, _⟩ => show win4_3.index t (0 : Fin 2) * 2000 + p.val = win4_3.index t (0 : Fin 2) * 2000 + 1 * p.val; omega
    | ⟨1, _⟩ => show q.val = win4_3.index t (1 : Fin 2) * 128 + 1 * q.val; omega

/-- An index of the array is in point `t`'s output block iff each coordinate is in the block's range on its axis. -/
theorem mem_block4 (t : Fin cfg4.N) (i : S20000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole (Pipeline.arrRef spec4 3)).slice (win4_3.rect t)).set ↔ _
  rw [View.set_slice_whole, Rect.mem_set_unit]
  exact Iff.rfl

/-- THE COVER: row `r` is in the block of point `r / 2000`. -/
theorem covered4 (i : S20000x128.Idx) :
    ∃ t : Fin cfg4.N, (cfg4.win 3).flush t = true ∧ i ∈ ((cfg4.win 3).blk t).view.set := by
  have hi0 : (i 0).val < 20000 := (i 0).isLt
  have hi1 : (i 1).val < 128 := (i 1).isLt
  obtain ⟨t, ht⟩ : ∃ t : Fin cfg4.N, t.val = (i 0).val / 2000 :=
    ⟨⟨(i 0).val / 2000, by rw [show cfg4.N = 10 from N_4]; omega⟩, rfl⟩
  obtain ⟨-, -, -, -, -, e30, e31, -⟩ := blockIndices4 t
  refine ⟨t, flush4_3 t, ?_⟩
  rw [mem_block4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 128 ≤ (i 1).val ∧ (i 1).val < win4_3.index t (1 : Fin 2) * 128 + 128; omega

/-- The array after region 4, at the generated instance of the kernel program's side conditions. -/
theorem region4_array (V : (c : Dev nD) → (b : Ref sig .tc) → Buf (Elt Ideal) ((c : Thread nD τ).loc b)) (c : Dev nD) :
    (dat4 (F := Ideal) V c).arrAt 3 cfg4.N
      = Cert.Spec.linC (F := Ideal) (V c (Pipeline.arrRef spec4 0)) (V c (Pipeline.arrRef spec4 1)) (V c (Pipeline.arrRef spec4 2)) :=
  (dat4 (F := Ideal) V c).arrAt_eq_of_cover 3 _ (fun t _ => flushed4_eq V c t) (fun i => covered4 i)

section AnyInstance

variable [Cert.KernelIdeal.Facts]

/-- THE ARRAY after region 4: the linear layer of the region's three input arrays (the kernel program's side conditions
    are propositions, so the statement at any instance of them is the one at the generated instance). -/
theorem region4_value (V : (c : Dev nD) → (b : Ref sig .tc) → Buf (Elt Ideal) ((c : Thread nD τ).loc b)) (c : Dev nD) :
    (dat4 (F := Ideal) V c).arrAt 3 cfg4.N
      = Cert.Spec.linC (F := Ideal) (V c (Pipeline.arrRef spec4 0)) (V c (Pipeline.arrRef spec4 1)) (V c (Pipeline.arrRef spec4 2)) :=
  region4_array V c

end AnyInstance

end Cert.KernelIdeal.RegionValue

end
-- ==== Proof.Region5.lean ====
import proofs.«116822_j38594576122568_1_alg».proof.Proof.Gen.KernelIdeal.Frame
import proofs.«116822_j38594576122568_1_alg».proof.Proof.SpecLayers
import Idealize.ShloMosaic.Lib.ValueIdx
import Idealize.ShloMosaic.Lib.ValueLayout
import Idealize.ShloMosaic.Lib.Pipeline.Value
import Idealize.ShloMosaic.PureOps.Ideal.Laws

/-! Region 5 of the kernel program: the two-branch normalise / clamp / linear / sum / leaky-clamp step over 80000 rows,
    run in 40 blocks of 2000 rows. This module shows that the region leaves in its output array the host form
    of the same step applied to its fourteen input arrays.

    At entry (P, q) both sides are
      leaky( Σ_k max(g1 k · (h1 (P, k) − mu1 k) · rsqrt(var1 k + ε) + be1 k, 0) · w1 (k, q) + b1 q
             + the same for the second branch )
    on the extended reals. The kernel's clamp tests s > 0 and the host form's tests s ≥ 0; they agree because at
    s = 0 the other arm is slope · 0 = 0. The block at grid point t holds rows 2000 t … 2000 t + 1999, so the
    ten blocks cover the array and row P is in block P / 2000. -/

noncomputable section

open scoped BigOperators

namespace Cert.KernelIdeal.RegionValue

open Idealize.ShloMosaic Idealize.ShloMosaic.ValueIdx Idealize.SL.Sem

/-- One branch at one output entry, on the extended reals: the row h normalised by the column statistics
    (scale g, shift be), clamped below at zero, contracted with the weight column w, plus the bias entry b. -/
def branch5 (h mu var g be w : Fin 128 → EReal) (b : EReal) : EReal :=
  (∑ k : Fin 128, max (g k * (h k - mu k) * Ideal.rsqrt (var k + Ideal.ofBits .f32 0x3727C5AC#32) + be k)
      (Ideal.ofBits .f32 0x00000000#32) * w k) + b

/-- The leaky clamp with the strict test: s where s is above zero, slope times s elsewhere. -/
def leakyGt5 (s : EReal) : EReal :=
  Scalar.select (Ideal.cmp .ogt s (Ideal.ofBits .f32 0x00000000#32)) s (Ideal.ofBits .f32 0x3C23D70A#32 * s)

/-- The leaky clamp with the weak test: s where s is at least zero, slope times s elsewhere. -/
def leakyGe5 (s : EReal) : EReal :=
  Scalar.select (Ideal.cmp .oge s (Ideal.ofBits .f32 0x00000000#32)) s (Ideal.ofBits .f32 0x3C23D70A#32 * s)

/-- The two clamps agree: they differ only at s = 0, where slope times 0 is 0. -/
theorem leakyGt5_eq_leakyGe5 (s : EReal) : leakyGt5 s = leakyGe5 s := by
  unfold leakyGt5 leakyGe5
  rw [Ideal.ofBits_zero_f32]
  by_cases h : 0 < s
  · simp [Scalar.select, Ideal.cmp, h, h.le]
  · by_cases h0 : s = 0
    · subst h0; simp [Scalar.select, Ideal.cmp]
    · have hlt : s < 0 := lt_of_le_of_ne (not_lt.mp h) h0
      simp [Scalar.select, Ideal.cmp, h, not_le.mpr hlt]

/-- A branch depends on its seven arguments only through their values. -/
theorem branch5_ext {h h' mu mu' var var' g g' be be' w w' : Fin 128 → EReal} {b b' : EReal}
    (e0 : ∀ k, h k = h' k) (e1 : ∀ k, mu k = mu' k) (e2 : ∀ k, var k = var' k) (e3 : ∀ k, g k = g' k)
    (e4 : ∀ k, be k = be' k) (e5 : ∀ k, w k = w' k) (e6 : b = b') :
    branch5 h mu var g be w b = branch5 h' mu' var' g' be' w' b' := by
  obtain rfl : h = h' := funext e0
  obtain rfl : mu = mu' := funext e1
  obtain rfl : var = var' := funext e2
  obtain rfl : g = g' := funext e3
  obtain rfl : be = be' := funext e4
  obtain rfl : w = w' := funext e5
  subst e6
  rfl

section Kernel
open Cert.KernelIdeal Cert.KernelIdeal.Gen
variable [Cert.KernelIdeal.Facts]

theorem lhs_k5_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_k5_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_k5_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_k5_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at an entry: the sum over the 128 contracted columns. -/
theorem matmul_k5 (a : FVec Ideal S2000x128 .bf16) (w : FVec Ideal S128x128 .bf16) (p : Fin 2000) (q : Fin 128) :
    matmul (F := Ideal) dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_k5_0 _ _
    | ⟨1, _⟩ => exact (lhs_k5_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_k5_0 _ _).trans hk
    | ⟨1, _⟩ => exact rhs_k5_1 _ _)
  rw [el, er]

/-- A 128-vector laid as one row and repeated down the 2000 rows reads, at (p, k), the vector at k. -/
theorem row_k5 {α : Type} (x : S128.Idx → α) (p : Fin 2000) (k : Fin 128) :
    broadcastTo S2000x128 (shapeCast S1x128 x shapeCasts_S128_S1x128) broadcasts_S1x128_S2000x128 (ix2 p k) = x (ix1 k) :=
  (broadcastTo_1b_ab_apply _ _ p k).trans (shapeCast_a_1a_apply x _ 0 k)

/-- The first branch's payload at an entry of the block. -/
theorem pay5_2_at (v0 : Vec Ideal S2000x128 .f32) (v2 v4 v12 v20 : Vec Ideal S128 .f32) (v28 : Vec Ideal S128x128 .f32) (v32 : Vec Ideal S128 .f32)
    (p : Fin 2000) (q : Fin 128) :
    k5_pay2 (F := Ideal) v0 v2 v4 v12 v20 v28 v32 (ix2 p q)
      = branch5 (fun k => v0 (ix2 p k)) (fun k => v4 (ix1 k)) (fun k => v12 (ix1 k)) (fun k => v2 (ix1 k)) (fun k => v20 (ix1 k)) (fun k => v28 (ix2 k q)) (v32 (ix1 q)) := by
  unfold k5_pay2 branch5
  simp only [shapeCast_self]
  rw [addf_apply, matmul_k5, row_k5]
  refine congrArg (· + _) (Finset.sum_congr rfl fun k _ => ?_)
  rw [truncf_apply, truncf_apply, maximumf_apply, addf_apply, mulf_apply, mulf_apply, subf_apply, row_k5, row_k5, row_k5, row_k5]
  rfl

/-- The leaky clamp of a block, read at an entry. -/
theorem leaky_k5 (s : FVec Ideal S2000x128 .f32) (i : S2000x128.Idx) :
    select (cmpf .ogt s (broadcast S2000x128 (Scalar.ofBits (F := Ideal) .f32 0x00000000#32))) s
        (mulf (broadcast S2000x128 (Scalar.ofBits (F := Ideal) .f32 0x3C23D70A#32)) s) i = leakyGt5 (s i) := rfl

/-- The stored payload at an entry of the block: the first branch's value plus the second branch, through the clamp. -/
theorem pay5_1_at (v36 v38 : FVec Ideal S2000x128 .f32) (v40 v42 : FVec Ideal S128 .f32) (v49 v57 : Vec Ideal S128 .f32) (v65 : Vec Ideal S128x128 .f32) (v69 : Vec Ideal S128 .f32)
    (p : Fin 2000) (q : Fin 128) :
    k5_pay1 (F := Ideal) v36 v38 v40 v42 v49 v57 v65 v69 (ix2 p q)
      = leakyGt5 (v36 (ix2 p q) + branch5 (fun k => v38 (ix2 p k)) (fun k => v42 (ix1 k)) (fun k => v49 (ix1 k)) (fun k => v40 (ix1 k)) (fun k => v57 (ix1 k)) (fun k => v65 (ix2 k q)) (v69 (ix1 q))) := by
  unfold k5_pay1 branch5
  simp only [shapeCast_self]
  rw [leaky_k5, addf_apply, addf_apply, matmul_k5, row_k5]
  refine congrArg (fun z => leakyGt5 (v36 (ix2 p q) + (z + _))) (Finset.sum_congr rfl fun k _ => ?_)
  rw [truncf_apply, truncf_apply, maximumf_apply, addf_apply, mulf_apply, mulf_apply, subf_apply, row_k5, row_k5, row_k5, row_k5]
  rfl

theorem hz2_5 : (![0, 0] : Fin 2 → Nat) = fun _ => 0 := funext fun a => by match a with | ⟨0, _⟩ => rfl | ⟨1, _⟩ => rfl
theorem hz1_5 : (![0] : Fin 1 → Nat) = fun _ => 0 := funext fun a => by match a with | ⟨0, _⟩ => rfl

/-- What the body leaves in the output block, at an entry, from the fourteen input blocks: the two branches' sum
    through the clamp with the strict test. -/
theorem out5_14_at (x0 : Vec Ideal S2000x128 .f32) (x1 x2 x3 x4 : Vec Ideal S128 .f32) (x5 : Vec Ideal S128x128 .f32) (x6 : Vec Ideal S128 .f32)
    (x7 : Vec Ideal S2000x128 .f32) (x8 x9 x10 x11 : Vec Ideal S128 .f32) (x12 : Vec Ideal S128x128 .f32) (x13 : Vec Ideal S128 .f32)
    (p : Fin 2000) (q : Fin 128) :
    out5_14 (F := Ideal) x0 x1 x2 x3 x4 x5 x6 x7 x8 x9 x10 x11 x12 x13 (ix2 p q)
      = leakyGt5 (branch5 (fun k => x0 (ix2 p k)) (fun k => x1 (ix1 k)) (fun k => x2 (ix1 k)) (fun k => x3 (ix1 k)) (fun k => x4 (ix1 k)) (fun k => x5 (ix2 k q)) (x6 (ix1 q))
          + branch5 (fun k => x7 (ix2 p k)) (fun k => x8 (ix1 k)) (fun k => x9 (ix1 k)) (fun k => x10 (ix1 k)) (fun k => x11 (ix1 k)) (fun k => x12 (ix2 k q)) (x13 (ix1 q))) := by
  unfold out5_14
  rw [View.canon_unit_zero hz2_5]
  simp only [View.ld_unit_zero (S := S2000x128) hz2_5, View.ld_unit_zero (S := S128) hz1_5, View.ld_unit_zero (S := S128x128) hz2_5]
  rw [pay5_1_at, pay5_2_at]
  unfold k5_pay3 k5_pay4 k5_pay5
  simp only [shapeCast_self]

end Kernel

end Cert.KernelIdeal.RegionValue

namespace Cert.Spec.Region5

open Idealize.ShloMosaic Idealize.ShloMosaic.ValueIdx Idealize.SL.Sem
open Cert.KernelIdeal.RegionValue (branch5 leakyGe5)

section Reference
open Cert.ReferenceIdeal Cert.ReferenceIdeal.Facts₀ Cert.ReferenceIdeal.Facts
variable [Cert.ReferenceIdeal.Facts]

theorem lhs_r5_0 (i : S80000x128.Idx) (q : dot_S80000x128_S128x128_S80000x128_1_0_0_1_n_n.contr.Idx) :
    (dot_S80000x128_S128x128_S80000x128_1_0_0_1_n_n.lhsIdx i q 0).val = (i 0).val := by
  unfold DotDims.lhsIdx
  rw [dif_neg (show ¬(0 : Fin S80000x128.rank) ∈ dot_S80000x128_S128x128_S80000x128_1_0_0_1_n_n.lhsBatch from List.not_mem_nil), dif_pos (show (0 : Fin S80000x128.rank) ∈ dot_S80000x128_S128x128_S80000x128_1_0_0_1_n_n.lhsNonContracting from List.mem_singleton.mpr rfl)]
  rfl
theorem lhs_r5_1 (i : S80000x128.Idx) (q : dot_S80000x128_S128x128_S80000x128_1_0_0_1_n_n.contr.Idx) :
    (dot_S80000x128_S128x128_S80000x128_1_0_0_1_n_n.lhsIdx i q 1).val = (q ⟨0, Nat.one_pos⟩).val :=
  dot_S80000x128_S128x128_S80000x128_1_0_0_1_n_n.lhsIdx_val_of_single rfl i q
theorem rhs_r5_0 (i : S80000x128.Idx) (q : dot_S80000x128_S128x128_S80000x128_1_0_0_1_n_n.contr.Idx) :
    (dot_S80000x128_S128x128_S80000x128_1_0_0_1_n_n.rhsIdx i q 0).val = (q ⟨0, Nat.one_pos⟩).val :=
  dot_S80000x128_S128x128_S80000x128_1_0_0_1_n_n.rhsIdx_val_of_single rfl i q
theorem rhs_r5_1 (i : S80000x128.Idx) (q : dot_S80000x128_S128x128_S80000x128_1_0_0_1_n_n.contr.Idx) :
    (dot_S80000x128_S128x128_S80000x128_1_0_0_1_n_n.rhsIdx i q 1).val = (i 1).val := by
  unfold DotDims.rhsIdx
  rw [dif_neg (show ¬(1 : Fin S128x128.rank) ∈ dot_S80000x128_S128x128_S80000x128_1_0_0_1_n_n.rhsBatch from List.not_mem_nil), dif_pos (show (1 : Fin S128x128.rank) ∈ dot_S80000x128_S128x128_S80000x128_1_0_0_1_n_n.rhsNonContracting from List.mem_singleton.mpr rfl)]
  rfl

/-- The host product at an entry: the sum over the 128 contracted columns. -/
theorem dot_r5 (a : FVec Ideal S80000x128 .f32) (w : FVec Ideal S128x128 .f32) (P : Fin 80000) (q : Fin 128) :
    Host.dotGeneral (F := Ideal) dot_S80000x128_S128x128_S80000x128_1_0_0_1_n_n none a w (ix2 P q)
      = ∑ k : Fin 128, a (ix2 P k) * w (ix2 k q) := by
  simp only [Host.dotGeneral]
  rw [Ideal.dotGeneral_apply, ← Equiv.sum_comp (contrEquiv1 dot_S80000x128_S128x128_S80000x128_1_0_0_1_n_n 128 rfl rfl).symm]
  refine Finset.sum_congr rfl fun k _ => ?_
  have hk := contrEquiv1_symm_val dot_S80000x128_S128x128_S80000x128_1_0_0_1_n_n 128 rfl rfl k
  have el : dot_S80000x128_S128x128_S80000x128_1_0_0_1_n_n.lhsIdx (ix2 P q) ((contrEquiv1 dot_S80000x128_S128x128_S80000x128_1_0_0_1_n_n 128 rfl rfl).symm k) = ix2 P k := funext fun a => Fin.ext (by
    match a with
    | ⟨0, _⟩ => exact lhs_r5_0 _ _
    | ⟨1, _⟩ => exact (lhs_r5_1 _ _).trans hk)
  have er : dot_S80000x128_S128x128_S80000x128_1_0_0_1_n_n.rhsIdx (ix2 P q) ((contrEquiv1 dot_S80000x128_S128x128_S80000x128_1_0_0_1_n_n 128 rfl rfl).symm k) = ix2 k q := funext fun a => Fin.ext (by
    match a with
    | ⟨0, _⟩ => exact (rhs_r5_0 _ _).trans hk
    | ⟨1, _⟩ => exact rhs_r5_1 _ _)
  rw [el, er]

/-- A 128-vector laid as one row and repeated down the 80000 rows reads, at (P, k), the vector at k. -/
theorem row_r5 {α : Type} (x : S128.Idx → α) (P : Fin 80000) (k : Fin 128) :
    broadcastInDim S80000x128 ![0, 1] bcast_S1x128_S80000x128_0_1 (broadcastInDim S1x128 ![1] bcast_S128_S1x128_1 x) (ix2 P k) = x (ix1 k) :=
  (broadcastInDim_apply _ _ _ (ix2 P k) (ix2 (0 : Fin 1) k) (fun a => by match a with | ⟨0, _⟩ => rfl | ⟨1, _⟩ => rfl)).trans
    (broadcastInDim_apply _ _ x (ix2 (0 : Fin 1) k) (ix1 k) (fun a => by match a with | ⟨0, _⟩ => rfl))

/-- A scalar constant repeated over the 80000 x 128 array reads its value everywhere. -/
theorem splat_r5 (b : BitVec 32) (j : S80000x128.Idx) :
    broadcastInDim S80000x128 ![] bcast_S_S80000x128 (constant (F := Ideal) S_ .f32 b) j = Ideal.ofBits .f32 b := rfl
/-- A scalar constant repeated over a 128-vector reads its value everywhere. -/
theorem splat_v5 (b : BitVec 32) (j : S128.Idx) :
    broadcastInDim S128 ![] bcast_S_S128 (constant (F := Ideal) S_ .f32 b) j = Ideal.ofBits .f32 b := rfl

/-- One branch of the host form at an entry. -/
theorem branch_r5 (h : FVec Ideal S80000x128 .f32) (mu var g be : FVec Ideal S128 .f32) (w : FVec Ideal S128x128 .f32) (b : FVec Ideal S128 .f32)
    (P : Fin 80000) (q : Fin 128) :
    (addf (Host.dotGeneral (F := Ideal) dot_S80000x128_S128x128_S80000x128_1_0_0_1_n_n none (maximumf (addf (mulf (mulf (broadcastInDim S80000x128 ![0, 1] bcast_S1x128_S80000x128_0_1 (broadcastInDim S1x128 ![1] bcast_S128_S1x128_1 g)) (subf h (broadcastInDim S80000x128 ![0, 1] bcast_S1x128_S80000x128_0_1 (broadcastInDim S1x128 ![1] bcast_S128_S1x128_1 mu)))) (broadcastInDim S80000x128 ![0, 1] bcast_S1x128_S80000x128_0_1 (broadcastInDim S1x128 ![1] bcast_S128_S1x128_1 (Host.rsqrt (addf var (broadcastInDim S128 ![] bcast_S_S128 (constant (F := Ideal) S_ .f32 0x3727C5AC#32))))))) (broadcastInDim S80000x128 ![0, 1] bcast_S1x128_S80000x128_0_1 (broadcastInDim S1x128 ![1] bcast_S128_S1x128_1 be))) ((broadcastInDim S80000x128 ![] bcast_S_S80000x128) (constant (F := Ideal) S_ .f32 0x00000000#32))) w) (broadcastInDim S80000x128 ![0, 1] bcast_S1x128_S80000x128_0_1 (broadcastInDim S1x128 ![1] bcast_S128_S1x128_1 b))) (ix2 P q)
      = branch5 (fun k => h (ix2 P k)) (fun k => mu (ix1 k)) (fun k => var (ix1 k)) (fun k => g (ix1 k)) (fun k => be (ix1 k)) (fun k => w (ix2 k q)) (b (ix1 q)) := by
  unfold branch5
  rw [addf_apply, dot_r5, row_r5]
  refine congrArg (· + _) (Finset.sum_congr rfl fun k _ => ?_)
  rw [maximumf_apply, addf_apply, mulf_apply, mulf_apply, subf_apply, row_r5, row_r5, row_r5, row_r5, splat_r5]
  rfl

/-- The host form of the whole step at an entry: the two branches' sum through the clamp with the weak test. -/
theorem combOp_at5 (h1 : FVec Ideal S80000x128 .f32) (mu1 var1 g1 be1 : FVec Ideal S128 .f32) (w1 : FVec Ideal S128x128 .f32) (b1 : FVec Ideal S128 .f32)
    (h2 : FVec Ideal S80000x128 .f32) (mu2 var2 g2 be2 : FVec Ideal S128 .f32) (w2 : FVec Ideal S128x128 .f32) (b2 : FVec Ideal S128 .f32)
    (P : Fin 80000) (q : Fin 128) :
    Cert.Spec.combOp (F := Ideal) h1 mu1 var1 g1 be1 w1 b1 h2 mu2 var2 g2 be2 w2 b2 (ix2 P q)
      = leakyGe5 (branch5 (fun k => h1 (ix2 P k)) (fun k => mu1 (ix1 k)) (fun k => var1 (ix1 k)) (fun k => g1 (ix1 k)) (fun k => be1 (ix1 k)) (fun k => w1 (ix2 k q)) (b1 (ix1 q))
          + branch5 (fun k => h2 (ix2 P k)) (fun k => mu2 (ix1 k)) (fun k => var2 (ix1 k)) (fun k => g2 (ix1 k)) (fun k => be2 (ix1 k)) (fun k => w2 (ix2 k q)) (b2 (ix1 q))) := by
  unfold Cert.Spec.combOp leakyGe5
  beta_reduce
  rw [select_apply, cmpf_apply, mulf_apply, splat_r5, splat_r5, addf_apply, branch_r5, branch_r5]
  rfl

end Reference

end Cert.Spec.Region5

namespace Cert.KernelIdeal.RegionValue

open Idealize.ShloMosaic Idealize.ShloMosaic.ValueIdx Idealize.ShloMosaic.TcCoe Idealize.SL.Sem

section Blocks
open Cert.KernelIdeal Cert.KernelIdeal.Gen
open Idealize.ShloMosaic.Pipeline (Dat)
variable [Cert.KernelIdeal.Facts] [Cert.ReferenceIdeal.Facts]
variable (V : (c : Dev nD) → (b : Ref sig .tc) → Buf (Elt Ideal) ((c : Thread nD τ).loc b))

/-! ## The windows' block indices over the grid: windows 0, 7 and 14 move down the rows with the point, the others stay -/

theorem idx5_0 : ∀ t : Fin cfg5.N, win5_0.index t (0 : Fin 2) = t.val ∧ win5_0.index t (1 : Fin 2) = 0 :=
  (by decide +kernel : ∀ t : Fin grid5.N, win5_0.index t (0 : Fin 2) = t.val ∧ win5_0.index t (1 : Fin 2) = 0)
theorem idx5_7 : ∀ t : Fin cfg5.N, win5_7.index t (0 : Fin 2) = t.val ∧ win5_7.index t (1 : Fin 2) = 0 :=
  (by decide +kernel : ∀ t : Fin grid5.N, win5_7.index t (0 : Fin 2) = t.val ∧ win5_7.index t (1 : Fin 2) = 0)
theorem idx5_14 : ∀ t : Fin cfg5.N, win5_14.index t (0 : Fin 2) = t.val ∧ win5_14.index t (1 : Fin 2) = 0 :=
  (by decide +kernel : ∀ t : Fin grid5.N, win5_14.index t (0 : Fin 2) = t.val ∧ win5_14.index t (1 : Fin 2) = 0)
theorem idx5_1 : ∀ t : Fin cfg5.N, win5_1.index t (0 : Fin 1) = 0 :=
  (by decide +kernel : ∀ t : Fin grid5.N, win5_1.index t (0 : Fin 1) = 0)
theorem idx5_2 : ∀ t : Fin cfg5.N, win5_2.index t (0 : Fin 1) = 0 :=
  (by decide +kernel : ∀ t : Fin grid5.N, win5_2.index t (0 : Fin 1) = 0)
theorem idx5_3 : ∀ t : Fin cfg5.N, win5_3.index t (0 : Fin 1) = 0 :=
  (by decide +kernel : ∀ t : Fin grid5.N, win5_3.index t (0 : Fin 1) = 0)
theorem idx5_4 : ∀ t : Fin cfg5.N, win5_4.index t (0 : Fin 1) = 0 :=
  (by decide +kernel : ∀ t : Fin grid5.N, win5_4.index t (0 : Fin 1) = 0)
theorem idx5_6 : ∀ t : Fin cfg5.N, win5_6.index t (0 : Fin 1) = 0 :=
  (by decide +kernel : ∀ t : Fin grid5.N, win5_6.index t (0 : Fin 1) = 0)
theorem idx5_8 : ∀ t : Fin cfg5.N, win5_8.index t (0 : Fin 1) = 0 :=
  (by decide +kernel : ∀ t : Fin grid5.N, win5_8.index t (0 : Fin 1) = 0)
theorem idx5_9 : ∀ t : Fin cfg5.N, win5_9.index t (0 : Fin 1) = 0 :=
  (by decide +kernel : ∀ t : Fin grid5.N, win5_9.index t (0 : Fin 1) = 0)
theorem idx5_10 : ∀ t : Fin cfg5.N, win5_10.index t (0 : Fin 1) = 0 :=
  (by decide +kernel : ∀ t : Fin grid5.N, win5_10.index t (0 : Fin 1) = 0)
theorem idx5_11 : ∀ t : Fin cfg5.N, win5_11.index t (0 : Fin 1) = 0 :=
  (by decide +kernel : ∀ t : Fin grid5.N, win5_11.index t (0 : Fin 1) = 0)
theorem idx5_13 : ∀ t : Fin cfg5.N, win5_13.index t (0 : Fin 1) = 0 :=
  (by decide +kernel : ∀ t : Fin grid5.N, win5_13.index t (0 : Fin 1) = 0)
theorem idx5_5 : ∀ t : Fin cfg5.N, win5_5.index t (0 : Fin 2) = 0 ∧ win5_5.index t (1 : Fin 2) = 0 :=
  (by decide +kernel : ∀ t : Fin grid5.N, win5_5.index t (0 : Fin 2) = 0 ∧ win5_5.index t (1 : Fin 2) = 0)
theorem idx5_12 : ∀ t : Fin cfg5.N, win5_12.index t (0 : Fin 2) = 0 ∧ win5_12.index t (1 : Fin 2) = 0 :=
  (by decide +kernel : ∀ t : Fin grid5.N, win5_12.index t (0 : Fin 2) = 0 ∧ win5_12.index t (1 : Fin 2) = 0)

/-! ## Each input block read off its array -/

/-- Window 0's block at point t is rows 2000 t … 2000 t + 1999 of its array. -/
theorem blk5_0 (c : Dev nD) (t : Fin cfg5.N) (p : Fin 2000) (P : Fin 80000) (hP : P.val = 2000 * t.val + p.val) (k : Fin 128) :
    (iblk5 V c 0 t : Vec Ideal S2000x128 .f32) (ix2 p k) = (V c (Pipeline.arrRef spec5 0) : Vec Ideal S80000x128 .f32) (ix2 P k) := by
  obtain ⟨h0, h1⟩ := idx5_0 t
  unfold iblk5
  rw [View.read_apply]
  show V c (Pipeline.arrRef spec5 0) _ = V c (Pipeline.arrRef spec5 0) _
  refine congrArg (V c (Pipeline.arrRef spec5 0)) (funext fun a => Fin.ext ?_)
  match a with
  | ⟨0, _⟩ => show win5_0.index t (0 : Fin 2) * 2000 + 1 * p.val = P.val; omega
  | ⟨1, _⟩ => show win5_0.index t (1 : Fin 2) * 128 + 1 * k.val = k.val; omega
/-- Window 7's block at point t is rows 2000 t … 2000 t + 1999 of its array. -/
theorem blk5_7 (c : Dev nD) (t : Fin cfg5.N) (p : Fin 2000) (P : Fin 80000) (hP : P.val = 2000 * t.val + p.val) (k : Fin 128) :
    (iblk5 V c 7 t : Vec Ideal S2000x128 .f32) (ix2 p k) = (V c (Pipeline.arrRef spec5 7) : Vec Ideal S80000x128 .f32) (ix2 P k) := by
  obtain ⟨h0, h1⟩ := idx5_7 t
  unfold iblk5
  rw [View.read_apply]
  show V c (Pipeline.arrRef spec5 7) _ = V c (Pipeline.arrRef spec5 7) _
  refine congrArg (V c (Pipeline.arrRef spec5 7)) (funext fun a => Fin.ext ?_)
  match a with
  | ⟨0, _⟩ => show win5_7.index t (0 : Fin 2) * 2000 + 1 * p.val = P.val; omega
  | ⟨1, _⟩ => show win5_7.index t (1 : Fin 2) * 128 + 1 * k.val = k.val; omega
/-- Window 1's block at every point is its whole 128-vector. -/
theorem blk5_1 (c : Dev nD) (t : Fin cfg5.N) (k : Fin 128) :
    (iblk5 V c 1 t : Vec Ideal S128 .f32) (ix1 k) = (V c (Pipeline.arrRef spec5 1) : Vec Ideal S128 .f32) (ix1 k) := by
  have h0 := idx5_1 t
  unfold iblk5
  rw [View.read_apply]
  show V c (Pipeline.arrRef spec5 1) _ = V c (Pipeline.arrRef spec5 1) _
  refine congrArg (V c (Pipeline.arrRef spec5 1)) (funext fun a => Fin.ext ?_)
  match a with
  | ⟨0, _⟩ => show win5_1.index t (0 : Fin 1) * 128 + 1 * k.val = k.val; omega
/-- Window 2's block at every point is its whole 128-vector. -/
theorem blk5_2 (c : Dev nD) (t : Fin cfg5.N) (k : Fin 128) :
    (iblk5 V c 2 t : Vec Ideal S128 .f32) (ix1 k) = (V c (Pipeline.arrRef spec5 2) : Vec Ideal S128 .f32) (ix1 k) := by
  have h0 := idx5_2 t
  unfold iblk5
  rw [View.read_apply]
  show V c (Pipeline.arrRef spec5 2) _ = V c (Pipeline.arrRef spec5 2) _
  refine congrArg (V c (Pipeline.arrRef spec5 2)) (funext fun a => Fin.ext ?_)
  match a with
  | ⟨0, _⟩ => show win5_2.index t (0 : Fin 1) * 128 + 1 * k.val = k.val; omega
/-- Window 3's block at every point is its whole 128-vector. -/
theorem blk5_3 (c : Dev nD) (t : Fin cfg5.N) (k : Fin 128) :
    (iblk5 V c 3 t : Vec Ideal S128 .f32) (ix1 k) = (V c (Pipeline.arrRef spec5 3) : Vec Ideal S128 .f32) (ix1 k) := by
  have h0 := idx5_3 t
  unfold iblk5
  rw [View.read_apply]
  show V c (Pipeline.arrRef spec5 3) _ = V c (Pipeline.arrRef spec5 3) _
  refine congrArg (V c (Pipeline.arrRef spec5 3)) (funext fun a => Fin.ext ?_)
  match a with
  | ⟨0, _⟩ => show win5_3.index t (0 : Fin 1) * 128 + 1 * k.val = k.val; omega
/-- Window 4's block at every point is its whole 128-vector. -/
theorem blk5_4 (c : Dev nD) (t : Fin cfg5.N) (k : Fin 128) :
    (iblk5 V c 4 t : Vec Ideal S128 .f32) (ix1 k) = (V c (Pipeline.arrRef spec5 4) : Vec Ideal S128 .f32) (ix1 k) := by
  have h0 := idx5_4 t
  unfold iblk5
  rw [View.read_apply]
  show V c (Pipeline.arrRef spec5 4) _ = V c (Pipeline.arrRef spec5 4) _
  refine congrArg (V c (Pipeline.arrRef spec5 4)) (funext fun a => Fin.ext ?_)
  match a with
  | ⟨0, _⟩ => show win5_4.index t (0 : Fin 1) * 128 + 1 * k.val = k.val; omega
/-- Window 6's block at every point is its whole 128-vector. -/
theorem blk5_6 (c : Dev nD) (t : Fin cfg5.N) (k : Fin 128) :
    (iblk5 V c 6 t : Vec Ideal S128 .f32) (ix1 k) = (V c (Pipeline.arrRef spec5 6) : Vec Ideal S128 .f32) (ix1 k) := by
  have h0 := idx5_6 t
  unfold iblk5
  rw [View.read_apply]
  show V c (Pipeline.arrRef spec5 6) _ = V c (Pipeline.arrRef spec5 6) _
  refine congrArg (V c (Pipeline.arrRef spec5 6)) (funext fun a => Fin.ext ?_)
  match a with
  | ⟨0, _⟩ => show win5_6.index t (0 : Fin 1) * 128 + 1 * k.val = k.val; omega
/-- Window 8's block at every point is its whole 128-vector. -/
theorem blk5_8 (c : Dev nD) (t : Fin cfg5.N) (k : Fin 128) :
    (iblk5 V c 8 t : Vec Ideal S128 .f32) (ix1 k) = (V c (Pipeline.arrRef spec5 8) : Vec Ideal S128 .f32) (ix1 k) := by
  have h0 := idx5_8 t
  unfold iblk5
  rw [View.read_apply]
  show V c (Pipeline.arrRef spec5 8) _ = V c (Pipeline.arrRef spec5 8) _
  refine congrArg (V c (Pipeline.arrRef spec5 8)) (funext fun a => Fin.ext ?_)
  match a with
  | ⟨0, _⟩ => show win5_8.index t (0 : Fin 1) * 128 + 1 * k.val = k.val; omega
/-- Window 9's block at every point is its whole 128-vector. -/
theorem blk5_9 (c : Dev nD) (t : Fin cfg5.N) (k : Fin 128) :
    (iblk5 V c 9 t : Vec Ideal S128 .f32) (ix1 k) = (V c (Pipeline.arrRef spec5 9) : Vec Ideal S128 .f32) (ix1 k) := by
  have h0 := idx5_9 t
  unfold iblk5
  rw [View.read_apply]
  show V c (Pipeline.arrRef spec5 9) _ = V c (Pipeline.arrRef spec5 9) _
  refine congrArg (V c (Pipeline.arrRef spec5 9)) (funext fun a => Fin.ext ?_)
  match a with
  | ⟨0, _⟩ => show win5_9.index t (0 : Fin 1) * 128 + 1 * k.val = k.val; omega
/-- Window 10's block at every point is its whole 128-vector. -/
theorem blk5_10 (c : Dev nD) (t : Fin cfg5.N) (k : Fin 128) :
    (iblk5 V c 10 t : Vec Ideal S128 .f32) (ix1 k) = (V c (Pipeline.arrRef spec5 10) : Vec Ideal S128 .f32) (ix1 k) := by
  have h0 := idx5_10 t
  unfold iblk5
  rw [View.read_apply]
  show V c (Pipeline.arrRef spec5 10) _ = V c (Pipeline.arrRef spec5 10) _
  refine congrArg (V c (Pipeline.arrRef spec5 10)) (funext fun a => Fin.ext ?_)
  match a with
  | ⟨0, _⟩ => show win5_10.index t (0 : Fin 1) * 128 + 1 * k.val = k.val; omega
/-- Window 11's block at every point is its whole 128-vector. -/
theorem blk5_11 (c : Dev nD) (t : Fin cfg5.N) (k : Fin 128) :
    (iblk5 V c 11 t : Vec Ideal S128 .f32) (ix1 k) = (V c (Pipeline.arrRef spec5 11) : Vec Ideal S128 .f32) (ix1 k) := by
  have h0 := idx5_11 t
  unfold iblk5
  rw [View.read_apply]
  show V c (Pipeline.arrRef spec5 11) _ = V c (Pipeline.arrRef spec5 11) _
  refine congrArg (V c (Pipeline.arrRef spec5 11)) (funext fun a => Fin.ext ?_)
  match a with
  | ⟨0, _⟩ => show win5_11.index t (0 : Fin 1) * 128 + 1 * k.val = k.val; omega
/-- Window 13's block at every point is its whole 128-vector. -/
theorem blk5_13 (c : Dev nD) (t : Fin cfg5.N) (k : Fin 128) :
    (iblk5 V c 13 t : Vec Ideal S128 .f32) (ix1 k) = (V c (Pipeline.arrRef spec5 13) : Vec Ideal S128 .f32) (ix1 k) := by
  have h0 := idx5_13 t
  unfold iblk5
  rw [View.read_apply]
  show V c (Pipeline.arrRef spec5 13) _ = V c (Pipeline.arrRef spec5 13) _
  refine congrArg (V c (Pipeline.arrRef spec5 13)) (funext fun a => Fin.ext ?_)
  match a with
  | ⟨0, _⟩ => show win5_13.index t (0 : Fin 1) * 128 + 1 * k.val = k.val; omega
/-- Window 5's block at every point is its whole 128 x 128 matrix. -/
theorem blk5_5 (c : Dev nD) (t : Fin cfg5.N) (k : Fin 128) (q : Fin 128) :
    (iblk5 V c 5 t : Vec Ideal S128x128 .f32) (ix2 k q) = (V c (Pipeline.arrRef spec5 5) : Vec Ideal S128x128 .f32) (ix2 k q) := by
  obtain ⟨h0, h1⟩ := idx5_5 t
  unfold iblk5
  rw [View.read_apply]
  show V c (Pipeline.arrRef spec5 5) _ = V c (Pipeline.arrRef spec5 5) _
  refine congrArg (V c (Pipeline.arrRef spec5 5)) (funext fun a => Fin.ext ?_)
  match a with
  | ⟨0, _⟩ => show win5_5.index t (0 : Fin 2) * 128 + 1 * k.val = k.val; omega
  | ⟨1, _⟩ => show win5_5.index t (1 : Fin 2) * 128 + 1 * q.val = q.val; omega
/-- Window 12's block at every point is its whole 128 x 128 matrix. -/
theorem blk5_12 (c : Dev nD) (t : Fin cfg5.N) (k : Fin 128) (q : Fin 128) :
    (iblk5 V c 12 t : Vec Ideal S128x128 .f32) (ix2 k q) = (V c (Pipeline.arrRef spec5 12) : Vec Ideal S128x128 .f32) (ix2 k q) := by
  obtain ⟨h0, h1⟩ := idx5_12 t
  unfold iblk5
  rw [View.read_apply]
  show V c (Pipeline.arrRef spec5 12) _ = V c (Pipeline.arrRef spec5 12) _
  refine congrArg (V c (Pipeline.arrRef spec5 12)) (funext fun a => Fin.ext ?_)
  match a with
  | ⟨0, _⟩ => show win5_12.index t (0 : Fin 2) * 128 + 1 * k.val = k.val; omega
  | ⟨1, _⟩ => show win5_12.index t (1 : Fin 2) * 128 + 1 * q.val = q.val; omega

/-- The host form of the step applied to the region's fourteen input arrays as the region finds them. -/
abbrev G5 (c : Dev nD) : Vec Ideal S80000x128 .f32 :=
  Cert.Spec.combOp (F := Ideal) (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) (V c (Pipeline.arrRef spec5 13))

/-- What the body leaves in the output window's buffer at point t: the body's result on the fourteen input blocks. -/
theorem wb5_after (c : Dev nD) (t : Fin cfg5.N) :
    (dat5 (F := Ideal) V c).flushed 14 t = (out5_14 (F := Ideal) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) : Vec Ideal S2000x128 .f32) := by
  show (cfg5.win 14).cut (grid5.coords t) ((dat5 V c).after 14 t) = _
  rw [after5_14]
  rfl

/-- Entry (p, q) of the output block at point t sits at row 2000 t + p of the output array. -/
theorem wb5_emb (c : Dev nD) (t : Fin cfg5.N) (p : Fin 2000) (q : Fin 128) (P : Fin 80000) (hP : P.val = 2000 * t.val + p.val) :
    ((cfg5.win 14).blk t).view.emb (ix2 p q) = ix2 P q := by
  obtain ⟨h0, h1⟩ := idx5_14 t
  refine funext fun a => Fin.ext ?_
  match a with
  | ⟨0, _⟩ => show win5_14.index t (0 : Fin 2) * 2000 + 1 * p.val = P.val; omega
  | ⟨1, _⟩ => show win5_14.index t (1 : Fin 2) * 128 + 1 * q.val = q.val; omega

set_option maxHeartbeats 1000000 in
/-- The body's result at entry (p, q) of block t is the host form of the step at row 2000 t + p, column q. -/
theorem wb5_point (c : Dev nD) (t : Fin cfg5.N) (p : Fin 2000) (q : Fin 128) (P : Fin 80000) (hP : P.val = 2000 * t.val + p.val) :
    out5_14 (F := Ideal) (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) (ix2 p q) = G5 V c (ix2 P q) := by
  refine (out5_14_at (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) p q).trans ?_
  rw [leakyGt5_eq_leakyGe5]
  refine Eq.trans ?_ (Cert.Spec.Region5.combOp_at5 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) (V c (Pipeline.arrRef spec5 13)) P q).symm
  exact congrArg leakyGe5 (congrArg₂ (· + ·)
    (branch5_ext (fun k => blk5_0 V c t p P hP k) (fun k => blk5_1 V c t k) (fun k => blk5_2 V c t k) (fun k => blk5_3 V c t k)
      (fun k => blk5_4 V c t k) (fun k => blk5_5 V c t k q) (blk5_6 V c t q))
    (branch5_ext (fun k => blk5_7 V c t p P hP k) (fun k => blk5_8 V c t k) (fun k => blk5_9 V c t k) (fun k => blk5_10 V c t k)
      (fun k => blk5_11 V c t k) (fun k => blk5_12 V c t k q) (blk5_13 V c t q)))

set_option maxHeartbeats 1000000 in
/-- What point t writes back is block t of the host form of the step on the input arrays. -/
theorem writeback5_14 (c : Dev nD) (t : Fin cfg5.N) :
    (dat5 (F := Ideal) V c).flushed 14 t = ((cfg5.win 14).blk t).view.read (Elt Ideal) (G5 V c) := by
  rw [wb5_after]
  refine funext fun (j : S2000x128.Idx) => ?_
  obtain ⟨p, q, rfl⟩ : ∃ (p : Fin 2000) (q : Fin 128), j = ix2 p q := ⟨j 0, j 1, eq_ix2 j⟩
  have hN : t.val < 40 := Nat.lt_of_lt_of_eq t.isLt (show cfg5.N = 40 from N_5)
  obtain ⟨P, hP⟩ : ∃ P : Fin 80000, P.val = 2000 * t.val + p.val := ⟨⟨2000 * t.val + p.val, by have := p.isLt; omega⟩, rfl⟩
  show _ = G5 V c (((cfg5.win 14).blk t).view.emb (ix2 p q))
  exact (wb5_point V c t p q P hP).trans (congrArg (G5 V c) (wb5_emb c t p q P hP)).symm

/-- Every row of the output array lies in some point's block: row P in block P / 2000. -/
theorem rows_cover5_14 (c : Dev nD) (i : S80000x128.Idx) :
    ∃ t : Fin cfg5.N, (cfg5.win 14).flush t = true ∧ i ∈ ((cfg5.win 14).blk t).view.set := by
  have hi0 : (i 0).val < 80000 := (i 0).isLt
  have hi1 : (i 1).val < 128 := (i 1).isLt
  obtain ⟨t, ht⟩ : ∃ t : Fin cfg5.N, t.val = (i 0).val / 2000 :=
    ⟨⟨(i 0).val / 2000, by rw [show cfg5.N = 40 from N_5]; omega⟩, rfl⟩
  obtain ⟨h0, h1⟩ := idx5_14 t
  refine ⟨t, flush5_14 t, ?_⟩
  show i ∈ ((View.whole (Pipeline.arrRef spec5 14)).slice (win5_14.rect t)).set
  rw [View.set_slice_whole, Rect.mem_set_unit]
  intro a
  match a with
  | ⟨0, _⟩ => show win5_14.index t (0 : Fin 2) * 2000 ≤ (i 0).val ∧ (i 0).val < win5_14.index t (0 : Fin 2) * 2000 + 2000; omega
  | ⟨1, _⟩ => show win5_14.index t (1 : Fin 2) * 128 ≤ (i 1).val ∧ (i 1).val < win5_14.index t (1 : Fin 2) * 128 + 128; omega

end Blocks

open Cert.KernelIdeal Cert.KernelIdeal.Gen Idealize.ShloMosaic Idealize.ShloMosaic.TcCoe Idealize.SL.Sem
variable [Cert.KernelIdeal.Facts] [Cert.ReferenceIdeal.Facts]

/-- After the region's forty points the output array holds the host form of the step on the fourteen input arrays. -/
theorem region5_value (V : (c : Dev nD) → (b : Ref sig .tc) → Buf (Elt Ideal) ((c : Thread nD τ).loc b)) (c : Dev nD) :
    (dat5 (F := Ideal) V c).arrAt 14 cfg5.N
      = Cert.Spec.combOp (F := Ideal) (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (V c (Pipeline.arrRef spec5 9)) (V c (Pipeline.arrRef spec5 10)) (V c (Pipeline.arrRef spec5 11)) (V c (Pipeline.arrRef spec5 12)) (V c (Pipeline.arrRef spec5 13)) :=
  (dat5 (F := Ideal) V c).arrAt_eq_of_cover 14 (G5 V c) (fun t _ => writeback5_14 V c t) (rows_cover5_14 c)

end Cert.KernelIdeal.RegionValue

end
-- ==== Proof.Region6.lean ====
import proofs.«116822_j38594576122568_1_alg».proof.Proof.Gen.KernelIdeal.Frame
import proofs.«116822_j38594576122568_1_alg».proof.Proof.SpecLayers
import Idealize.ShloMosaic.Lib.ValueIdx
import Idealize.ShloMosaic.Lib.ValueLayout
import Idealize.ShloMosaic.Lib.Pipeline.Value
import Idealize.ShloMosaic.PureOps.Ideal.Laws

/-! Region 6 of the kernel program: the two-branch normalise / clamp / linear / sum / leaky-clamp step over 20000 rows,
    run in 10 blocks of 2000 rows. This module shows that the region leaves in its output array the host form
    of the same step applied to its fourteen input arrays.

    At entry (P, q) both sides are
      leaky( Σ_k max(g1 k · (h1 (P, k) − mu1 k) · rsqrt(var1 k + ε) + be1 k, 0) · w1 (k, q) + b1 q
             + the same for the second branch )
    on the extended reals. The kernel's clamp tests s > 0 and the host form's tests s ≥ 0; they agree because at
    s = 0 the other arm is slope · 0 = 0. The block at grid point t holds rows 2000 t … 2000 t + 1999, so the
    ten blocks cover the array and row P is in block P / 2000. -/

noncomputable section

open scoped BigOperators

namespace Cert.KernelIdeal.RegionValue

open Idealize.ShloMosaic Idealize.ShloMosaic.ValueIdx Idealize.SL.Sem

/-- One branch at one output entry, on the extended reals: the row h normalised by the column statistics
    (scale g, shift be), clamped below at zero, contracted with the weight column w, plus the bias entry b. -/
def branch6 (h mu var g be w : Fin 128 → EReal) (b : EReal) : EReal :=
  (∑ k : Fin 128, max (g k * (h k - mu k) * Ideal.rsqrt (var k + Ideal.ofBits .f32 0x3727C5AC#32) + be k)
      (Ideal.ofBits .f32 0x00000000#32) * w k) + b

/-- The leaky clamp with the strict test: s where s is above zero, slope times s elsewhere. -/
def leakyGt6 (s : EReal) : EReal :=
  Scalar.select (Ideal.cmp .ogt s (Ideal.ofBits .f32 0x00000000#32)) s (Ideal.ofBits .f32 0x3C23D70A#32 * s)

/-- The leaky clamp with the weak test: s where s is at least zero, slope times s elsewhere. -/
def leakyGe6 (s : EReal) : EReal :=
  Scalar.select (Ideal.cmp .oge s (Ideal.ofBits .f32 0x00000000#32)) s (Ideal.ofBits .f32 0x3C23D70A#32 * s)

/-- The two clamps agree: they differ only at s = 0, where slope times 0 is 0. -/
theorem leakyGt6_eq_leakyGe6 (s : EReal) : leakyGt6 s = leakyGe6 s := by
  unfold leakyGt6 leakyGe6
  rw [Ideal.ofBits_zero_f32]
  by_cases h : 0 < s
  · simp [Scalar.select, Ideal.cmp, h, h.le]
  · by_cases h0 : s = 0
    · subst h0; simp [Scalar.select, Ideal.cmp]
    · have hlt : s < 0 := lt_of_le_of_ne (not_lt.mp h) h0
      simp [Scalar.select, Ideal.cmp, h, not_le.mpr hlt]

/-- A branch depends on its seven arguments only through their values. -/
theorem branch6_ext {h h' mu mu' var var' g g' be be' w w' : Fin 128 → EReal} {b b' : EReal}
    (e0 : ∀ k, h k = h' k) (e1 : ∀ k, mu k = mu' k) (e2 : ∀ k, var k = var' k) (e3 : ∀ k, g k = g' k)
    (e4 : ∀ k, be k = be' k) (e5 : ∀ k, w k = w' k) (e6 : b = b') :
    branch6 h mu var g be w b = branch6 h' mu' var' g' be' w' b' := by
  obtain rfl : h = h' := funext e0
  obtain rfl : mu = mu' := funext e1
  obtain rfl : var = var' := funext e2
  obtain rfl : g = g' := funext e3
  obtain rfl : be = be' := funext e4
  obtain rfl : w = w' := funext e5
  subst e6
  rfl

section Kernel
open Cert.KernelIdeal Cert.KernelIdeal.Gen
variable [Cert.KernelIdeal.Facts]

theorem lhs_k6_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_k6_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_k6_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_k6_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at an entry: the sum over the 128 contracted columns. -/
theorem matmul_k6 (a : FVec Ideal S2000x128 .bf16) (w : FVec Ideal S128x128 .bf16) (p : Fin 2000) (q : Fin 128) :
    matmul (F := Ideal) dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_k6_0 _ _
    | ⟨1, _⟩ => exact (lhs_k6_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_k6_0 _ _).trans hk
    | ⟨1, _⟩ => exact rhs_k6_1 _ _)
  rw [el, er]

/-- A 128-vector laid as one row and repeated down the 2000 rows reads, at (p, k), the vector at k. -/
theorem row_k6 {α : Type} (x : S128.Idx → α) (p : Fin 2000) (k : Fin 128) :
    broadcastTo S2000x128 (shapeCast S1x128 x shapeCasts_S128_S1x128) broadcasts_S1x128_S2000x128 (ix2 p k) = x (ix1 k) :=
  (broadcastTo_1b_ab_apply _ _ p k).trans (shapeCast_a_1a_apply x _ 0 k)

/-- The first branch's payload at an entry of the block. -/
theorem pay6_2_at (v0 : Vec Ideal S2000x128 .f32) (v2 v4 v12 v20 : Vec Ideal S128 .f32) (v28 : Vec Ideal S128x128 .f32) (v32 : Vec Ideal S128 .f32)
    (p : Fin 2000) (q : Fin 128) :
    k6_pay2 (F := Ideal) v0 v2 v4 v12 v20 v28 v32 (ix2 p q)
      = branch6 (fun k => v0 (ix2 p k)) (fun k => v4 (ix1 k)) (fun k => v12 (ix1 k)) (fun k => v2 (ix1 k)) (fun k => v20 (ix1 k)) (fun k => v28 (ix2 k q)) (v32 (ix1 q)) := by
  unfold k6_pay2 branch6
  simp only [shapeCast_self]
  rw [addf_apply, matmul_k6, row_k6]
  refine congrArg (· + _) (Finset.sum_congr rfl fun k _ => ?_)
  rw [truncf_apply, truncf_apply, maximumf_apply, addf_apply, mulf_apply, mulf_apply, subf_apply, row_k6, row_k6, row_k6, row_k6]
  rfl

/-- The leaky clamp of a block, read at an entry. -/
theorem leaky_k6 (s : FVec Ideal S2000x128 .f32) (i : S2000x128.Idx) :
    select (cmpf .ogt s (broadcast S2000x128 (Scalar.ofBits (F := Ideal) .f32 0x00000000#32))) s
        (mulf (broadcast S2000x128 (Scalar.ofBits (F := Ideal) .f32 0x3C23D70A#32)) s) i = leakyGt6 (s i) := rfl

/-- The stored payload at an entry of the block: the first branch's value plus the second branch, through the clamp. -/
theorem pay6_1_at (v36 v38 : FVec Ideal S2000x128 .f32) (v40 v42 : FVec Ideal S128 .f32) (v49 v57 : Vec Ideal S128 .f32) (v65 : Vec Ideal S128x128 .f32) (v69 : Vec Ideal S128 .f32)
    (p : Fin 2000) (q : Fin 128) :
    k6_pay1 (F := Ideal) v36 v38 v40 v42 v49 v57 v65 v69 (ix2 p q)
      = leakyGt6 (v36 (ix2 p q) + branch6 (fun k => v38 (ix2 p k)) (fun k => v42 (ix1 k)) (fun k => v49 (ix1 k)) (fun k => v40 (ix1 k)) (fun k => v57 (ix1 k)) (fun k => v65 (ix2 k q)) (v69 (ix1 q))) := by
  unfold k6_pay1 branch6
  simp only [shapeCast_self]
  rw [leaky_k6, addf_apply, addf_apply, matmul_k6, row_k6]
  refine congrArg (fun z => leakyGt6 (v36 (ix2 p q) + (z + _))) (Finset.sum_congr rfl fun k _ => ?_)
  rw [truncf_apply, truncf_apply, maximumf_apply, addf_apply, mulf_apply, mulf_apply, subf_apply, row_k6, row_k6, row_k6, row_k6]
  rfl

theorem hz2_6 : (![0, 0] : Fin 2 → Nat) = fun _ => 0 := funext fun a => by match a with | ⟨0, _⟩ => rfl | ⟨1, _⟩ => rfl
theorem hz1_6 : (![0] : Fin 1 → Nat) = fun _ => 0 := funext fun a => by match a with | ⟨0, _⟩ => rfl

/-- What the body leaves in the output block, at an entry, from the fourteen input blocks: the two branches' sum
    through the clamp with the strict test. -/
theorem out6_14_at (x0 : Vec Ideal S2000x128 .f32) (x1 x2 x3 x4 : Vec Ideal S128 .f32) (x5 : Vec Ideal S128x128 .f32) (x6 : Vec Ideal S128 .f32)
    (x7 : Vec Ideal S2000x128 .f32) (x8 x9 x10 x11 : Vec Ideal S128 .f32) (x12 : Vec Ideal S128x128 .f32) (x13 : Vec Ideal S128 .f32)
    (p : Fin 2000) (q : Fin 128) :
    out6_14 (F := Ideal) x0 x1 x2 x3 x4 x5 x6 x7 x8 x9 x10 x11 x12 x13 (ix2 p q)
      = leakyGt6 (branch6 (fun k => x0 (ix2 p k)) (fun k => x1 (ix1 k)) (fun k => x2 (ix1 k)) (fun k => x3 (ix1 k)) (fun k => x4 (ix1 k)) (fun k => x5 (ix2 k q)) (x6 (ix1 q))
          + branch6 (fun k => x7 (ix2 p k)) (fun k => x8 (ix1 k)) (fun k => x9 (ix1 k)) (fun k => x10 (ix1 k)) (fun k => x11 (ix1 k)) (fun k => x12 (ix2 k q)) (x13 (ix1 q))) := by
  unfold out6_14
  rw [View.canon_unit_zero hz2_6]
  simp only [View.ld_unit_zero (S := S2000x128) hz2_6, View.ld_unit_zero (S := S128) hz1_6, View.ld_unit_zero (S := S128x128) hz2_6]
  rw [pay6_1_at, pay6_2_at]
  unfold k6_pay3 k6_pay4 k6_pay5
  simp only [shapeCast_self]

end Kernel

end Cert.KernelIdeal.RegionValue

namespace Cert.Spec.Region6

open Idealize.ShloMosaic Idealize.ShloMosaic.ValueIdx Idealize.SL.Sem
open Cert.KernelIdeal.RegionValue (branch6 leakyGe6)

section Reference
open Cert.ReferenceIdeal Cert.ReferenceIdeal.Facts₀ Cert.ReferenceIdeal.Facts
variable [Cert.ReferenceIdeal.Facts]

theorem lhs_r6_0 (i : S20000x128.Idx) (q : dot_S20000x128_S128x128_S20000x128_1_0_0_1_n_n.contr.Idx) :
    (dot_S20000x128_S128x128_S20000x128_1_0_0_1_n_n.lhsIdx i q 0).val = (i 0).val := by
  unfold DotDims.lhsIdx
  rw [dif_neg (show ¬(0 : Fin S20000x128.rank) ∈ dot_S20000x128_S128x128_S20000x128_1_0_0_1_n_n.lhsBatch from List.not_mem_nil), dif_pos (show (0 : Fin S20000x128.rank) ∈ dot_S20000x128_S128x128_S20000x128_1_0_0_1_n_n.lhsNonContracting from List.mem_singleton.mpr rfl)]
  rfl
theorem lhs_r6_1 (i : S20000x128.Idx) (q : dot_S20000x128_S128x128_S20000x128_1_0_0_1_n_n.contr.Idx) :
    (dot_S20000x128_S128x128_S20000x128_1_0_0_1_n_n.lhsIdx i q 1).val = (q ⟨0, Nat.one_pos⟩).val :=
  dot_S20000x128_S128x128_S20000x128_1_0_0_1_n_n.lhsIdx_val_of_single rfl i q
theorem rhs_r6_0 (i : S20000x128.Idx) (q : dot_S20000x128_S128x128_S20000x128_1_0_0_1_n_n.contr.Idx) :
    (dot_S20000x128_S128x128_S20000x128_1_0_0_1_n_n.rhsIdx i q 0).val = (q ⟨0, Nat.one_pos⟩).val :=
  dot_S20000x128_S128x128_S20000x128_1_0_0_1_n_n.rhsIdx_val_of_single rfl i q
theorem rhs_r6_1 (i : S20000x128.Idx) (q : dot_S20000x128_S128x128_S20000x128_1_0_0_1_n_n.contr.Idx) :
    (dot_S20000x128_S128x128_S20000x128_1_0_0_1_n_n.rhsIdx i q 1).val = (i 1).val := by
  unfold DotDims.rhsIdx
  rw [dif_neg (show ¬(1 : Fin S128x128.rank) ∈ dot_S20000x128_S128x128_S20000x128_1_0_0_1_n_n.rhsBatch from List.not_mem_nil), dif_pos (show (1 : Fin S128x128.rank) ∈ dot_S20000x128_S128x128_S20000x128_1_0_0_1_n_n.rhsNonContracting from List.mem_singleton.mpr rfl)]
  rfl

/-- The host product at an entry: the sum over the 128 contracted columns. -/
theorem dot_r6 (a : FVec Ideal S20000x128 .f32) (w : FVec Ideal S128x128 .f32) (P : Fin 20000) (q : Fin 128) :
    Host.dotGeneral (F := Ideal) dot_S20000x128_S128x128_S20000x128_1_0_0_1_n_n none a w (ix2 P q)
      = ∑ k : Fin 128, a (ix2 P k) * w (ix2 k q) := by
  simp only [Host.dotGeneral]
  rw [Ideal.dotGeneral_apply, ← Equiv.sum_comp (contrEquiv1 dot_S20000x128_S128x128_S20000x128_1_0_0_1_n_n 128 rfl rfl).symm]
  refine Finset.sum_congr rfl fun k _ => ?_
  have hk := contrEquiv1_symm_val dot_S20000x128_S128x128_S20000x128_1_0_0_1_n_n 128 rfl rfl k
  have el : dot_S20000x128_S128x128_S20000x128_1_0_0_1_n_n.lhsIdx (ix2 P q) ((contrEquiv1 dot_S20000x128_S128x128_S20000x128_1_0_0_1_n_n 128 rfl rfl).symm k) = ix2 P k := funext fun a => Fin.ext (by
    match a with
    | ⟨0, _⟩ => exact lhs_r6_0 _ _
    | ⟨1, _⟩ => exact (lhs_r6_1 _ _).trans hk)
  have er : dot_S20000x128_S128x128_S20000x128_1_0_0_1_n_n.rhsIdx (ix2 P q) ((contrEquiv1 dot_S20000x128_S128x128_S20000x128_1_0_0_1_n_n 128 rfl rfl).symm k) = ix2 k q := funext fun a => Fin.ext (by
    match a with
    | ⟨0, _⟩ => exact (rhs_r6_0 _ _).trans hk
    | ⟨1, _⟩ => exact rhs_r6_1 _ _)
  rw [el, er]

/-- A 128-vector laid as one row and repeated down the 20000 rows reads, at (P, k), the vector at k. -/
theorem row_r6 {α : Type} (x : S128.Idx → α) (P : Fin 20000) (k : Fin 128) :
    broadcastInDim S20000x128 ![0, 1] bcast_S1x128_S20000x128_0_1 (broadcastInDim S1x128 ![1] bcast_S128_S1x128_1 x) (ix2 P k) = x (ix1 k) :=
  (broadcastInDim_apply _ _ _ (ix2 P k) (ix2 (0 : Fin 1) k) (fun a => by match a with | ⟨0, _⟩ => rfl | ⟨1, _⟩ => rfl)).trans
    (broadcastInDim_apply _ _ x (ix2 (0 : Fin 1) k) (ix1 k) (fun a => by match a with | ⟨0, _⟩ => rfl))

/-- A scalar constant repeated over the 20000 x 128 array reads its value everywhere. -/
theorem splat_r6 (b : BitVec 32) (j : S20000x128.Idx) :
    broadcastInDim S20000x128 ![] bcast_S_S20000x128 (constant (F := Ideal) S_ .f32 b) j = Ideal.ofBits .f32 b := rfl
/-- A scalar constant repeated over a 128-vector reads its value everywhere. -/
theorem splat_v6 (b : BitVec 32) (j : S128.Idx) :
    broadcastInDim S128 ![] bcast_S_S128 (constant (F := Ideal) S_ .f32 b) j = Ideal.ofBits .f32 b := rfl

/-- One branch of the host form at an entry. -/
theorem branch_r6 (h : FVec Ideal S20000x128 .f32) (mu var g be : FVec Ideal S128 .f32) (w : FVec Ideal S128x128 .f32) (b : FVec Ideal S128 .f32)
    (P : Fin 20000) (q : Fin 128) :
    (addf (Host.dotGeneral (F := Ideal) dot_S20000x128_S128x128_S20000x128_1_0_0_1_n_n none (maximumf (addf (mulf (mulf (broadcastInDim S20000x128 ![0, 1] bcast_S1x128_S20000x128_0_1 (broadcastInDim S1x128 ![1] bcast_S128_S1x128_1 g)) (subf h (broadcastInDim S20000x128 ![0, 1] bcast_S1x128_S20000x128_0_1 (broadcastInDim S1x128 ![1] bcast_S128_S1x128_1 mu)))) (broadcastInDim S20000x128 ![0, 1] bcast_S1x128_S20000x128_0_1 (broadcastInDim S1x128 ![1] bcast_S128_S1x128_1 (Host.rsqrt (addf var (broadcastInDim S128 ![] bcast_S_S128 (constant (F := Ideal) S_ .f32 0x3727C5AC#32))))))) (broadcastInDim S20000x128 ![0, 1] bcast_S1x128_S20000x128_0_1 (broadcastInDim S1x128 ![1] bcast_S128_S1x128_1 be))) ((broadcastInDim S20000x128 ![] bcast_S_S20000x128) (constant (F := Ideal) S_ .f32 0x00000000#32))) w) (broadcastInDim S20000x128 ![0, 1] bcast_S1x128_S20000x128_0_1 (broadcastInDim S1x128 ![1] bcast_S128_S1x128_1 b))) (ix2 P q)
      = branch6 (fun k => h (ix2 P k)) (fun k => mu (ix1 k)) (fun k => var (ix1 k)) (fun k => g (ix1 k)) (fun k => be (ix1 k)) (fun k => w (ix2 k q)) (b (ix1 q)) := by
  unfold branch6
  rw [addf_apply, dot_r6, row_r6]
  refine congrArg (· + _) (Finset.sum_congr rfl fun k _ => ?_)
  rw [maximumf_apply, addf_apply, mulf_apply, mulf_apply, subf_apply, row_r6, row_r6, row_r6, row_r6, splat_r6]
  rfl

/-- The host form of the whole step at an entry: the two branches' sum through the clamp with the weak test. -/
theorem combM_at6 (h1 : FVec Ideal S20000x128 .f32) (mu1 var1 g1 be1 : FVec Ideal S128 .f32) (w1 : FVec Ideal S128x128 .f32) (b1 : FVec Ideal S128 .f32)
    (h2 : FVec Ideal S20000x128 .f32) (mu2 var2 g2 be2 : FVec Ideal S128 .f32) (w2 : FVec Ideal S128x128 .f32) (b2 : FVec Ideal S128 .f32)
    (P : Fin 20000) (q : Fin 128) :
    Cert.Spec.combM (F := Ideal) h1 mu1 var1 g1 be1 w1 b1 h2 mu2 var2 g2 be2 w2 b2 (ix2 P q)
      = leakyGe6 (branch6 (fun k => h1 (ix2 P k)) (fun k => mu1 (ix1 k)) (fun k => var1 (ix1 k)) (fun k => g1 (ix1 k)) (fun k => be1 (ix1 k)) (fun k => w1 (ix2 k q)) (b1 (ix1 q))
          + branch6 (fun k => h2 (ix2 P k)) (fun k => mu2 (ix1 k)) (fun k => var2 (ix1 k)) (fun k => g2 (ix1 k)) (fun k => be2 (ix1 k)) (fun k => w2 (ix2 k q)) (b2 (ix1 q))) := by
  unfold Cert.Spec.combM leakyGe6
  beta_reduce
  rw [select_apply, cmpf_apply, mulf_apply, splat_r6, splat_r6, addf_apply, branch_r6, branch_r6]
  rfl

end Reference

end Cert.Spec.Region6

namespace Cert.KernelIdeal.RegionValue

open Idealize.ShloMosaic Idealize.ShloMosaic.ValueIdx Idealize.ShloMosaic.TcCoe Idealize.SL.Sem

section Blocks
open Cert.KernelIdeal Cert.KernelIdeal.Gen
open Idealize.ShloMosaic.Pipeline (Dat)
variable [Cert.KernelIdeal.Facts] [Cert.ReferenceIdeal.Facts]
variable (V : (c : Dev nD) → (b : Ref sig .tc) → Buf (Elt Ideal) ((c : Thread nD τ).loc b))

/-! ## The windows' block indices over the grid: windows 0, 7 and 14 move down the rows with the point, the others stay -/

theorem idx6_0 : ∀ t : Fin cfg6.N, win6_0.index t (0 : Fin 2) = t.val ∧ win6_0.index t (1 : Fin 2) = 0 :=
  (by decide +kernel : ∀ t : Fin grid6.N, win6_0.index t (0 : Fin 2) = t.val ∧ win6_0.index t (1 : Fin 2) = 0)
theorem idx6_7 : ∀ t : Fin cfg6.N, win6_7.index t (0 : Fin 2) = t.val ∧ win6_7.index t (1 : Fin 2) = 0 :=
  (by decide +kernel : ∀ t : Fin grid6.N, win6_7.index t (0 : Fin 2) = t.val ∧ win6_7.index t (1 : Fin 2) = 0)
theorem idx6_14 : ∀ t : Fin cfg6.N, win6_14.index t (0 : Fin 2) = t.val ∧ win6_14.index t (1 : Fin 2) = 0 :=
  (by decide +kernel : ∀ t : Fin grid6.N, win6_14.index t (0 : Fin 2) = t.val ∧ win6_14.index t (1 : Fin 2) = 0)
theorem idx6_1 : ∀ t : Fin cfg6.N, win6_1.index t (0 : Fin 1) = 0 :=
  (by decide +kernel : ∀ t : Fin grid6.N, win6_1.index t (0 : Fin 1) = 0)
theorem idx6_2 : ∀ t : Fin cfg6.N, win6_2.index t (0 : Fin 1) = 0 :=
  (by decide +kernel : ∀ t : Fin grid6.N, win6_2.index t (0 : Fin 1) = 0)
theorem idx6_3 : ∀ t : Fin cfg6.N, win6_3.index t (0 : Fin 1) = 0 :=
  (by decide +kernel : ∀ t : Fin grid6.N, win6_3.index t (0 : Fin 1) = 0)
theorem idx6_4 : ∀ t : Fin cfg6.N, win6_4.index t (0 : Fin 1) = 0 :=
  (by decide +kernel : ∀ t : Fin grid6.N, win6_4.index t (0 : Fin 1) = 0)
theorem idx6_6 : ∀ t : Fin cfg6.N, win6_6.index t (0 : Fin 1) = 0 :=
  (by decide +kernel : ∀ t : Fin grid6.N, win6_6.index t (0 : Fin 1) = 0)
theorem idx6_8 : ∀ t : Fin cfg6.N, win6_8.index t (0 : Fin 1) = 0 :=
  (by decide +kernel : ∀ t : Fin grid6.N, win6_8.index t (0 : Fin 1) = 0)
theorem idx6_9 : ∀ t : Fin cfg6.N, win6_9.index t (0 : Fin 1) = 0 :=
  (by decide +kernel : ∀ t : Fin grid6.N, win6_9.index t (0 : Fin 1) = 0)
theorem idx6_10 : ∀ t : Fin cfg6.N, win6_10.index t (0 : Fin 1) = 0 :=
  (by decide +kernel : ∀ t : Fin grid6.N, win6_10.index t (0 : Fin 1) = 0)
theorem idx6_11 : ∀ t : Fin cfg6.N, win6_11.index t (0 : Fin 1) = 0 :=
  (by decide +kernel : ∀ t : Fin grid6.N, win6_11.index t (0 : Fin 1) = 0)
theorem idx6_13 : ∀ t : Fin cfg6.N, win6_13.index t (0 : Fin 1) = 0 :=
  (by decide +kernel : ∀ t : Fin grid6.N, win6_13.index t (0 : Fin 1) = 0)
theorem idx6_5 : ∀ t : Fin cfg6.N, win6_5.index t (0 : Fin 2) = 0 ∧ win6_5.index t (1 : Fin 2) = 0 :=
  (by decide +kernel : ∀ t : Fin grid6.N, win6_5.index t (0 : Fin 2) = 0 ∧ win6_5.index t (1 : Fin 2) = 0)
theorem idx6_12 : ∀ t : Fin cfg6.N, win6_12.index t (0 : Fin 2) = 0 ∧ win6_12.index t (1 : Fin 2) = 0 :=
  (by decide +kernel : ∀ t : Fin grid6.N, win6_12.index t (0 : Fin 2) = 0 ∧ win6_12.index t (1 : Fin 2) = 0)

/-! ## Each input block read off its array -/

/-- Window 0's block at point t is rows 2000 t … 2000 t + 1999 of its array. -/
theorem blk6_0 (c : Dev nD) (t : Fin cfg6.N) (p : Fin 2000) (P : Fin 20000) (hP : P.val = 2000 * t.val + p.val) (k : Fin 128) :
    (iblk6 V c 0 t : Vec Ideal S2000x128 .f32) (ix2 p k) = (V c (Pipeline.arrRef spec6 0) : Vec Ideal S20000x128 .f32) (ix2 P k) := by
  obtain ⟨h0, h1⟩ := idx6_0 t
  unfold iblk6
  rw [View.read_apply]
  show V c (Pipeline.arrRef spec6 0) _ = V c (Pipeline.arrRef spec6 0) _
  refine congrArg (V c (Pipeline.arrRef spec6 0)) (funext fun a => Fin.ext ?_)
  match a with
  | ⟨0, _⟩ => show win6_0.index t (0 : Fin 2) * 2000 + 1 * p.val = P.val; omega
  | ⟨1, _⟩ => show win6_0.index t (1 : Fin 2) * 128 + 1 * k.val = k.val; omega
/-- Window 7's block at point t is rows 2000 t … 2000 t + 1999 of its array. -/
theorem blk6_7 (c : Dev nD) (t : Fin cfg6.N) (p : Fin 2000) (P : Fin 20000) (hP : P.val = 2000 * t.val + p.val) (k : Fin 128) :
    (iblk6 V c 7 t : Vec Ideal S2000x128 .f32) (ix2 p k) = (V c (Pipeline.arrRef spec6 7) : Vec Ideal S20000x128 .f32) (ix2 P k) := by
  obtain ⟨h0, h1⟩ := idx6_7 t
  unfold iblk6
  rw [View.read_apply]
  show V c (Pipeline.arrRef spec6 7) _ = V c (Pipeline.arrRef spec6 7) _
  refine congrArg (V c (Pipeline.arrRef spec6 7)) (funext fun a => Fin.ext ?_)
  match a with
  | ⟨0, _⟩ => show win6_7.index t (0 : Fin 2) * 2000 + 1 * p.val = P.val; omega
  | ⟨1, _⟩ => show win6_7.index t (1 : Fin 2) * 128 + 1 * k.val = k.val; omega
/-- Window 1's block at every point is its whole 128-vector. -/
theorem blk6_1 (c : Dev nD) (t : Fin cfg6.N) (k : Fin 128) :
    (iblk6 V c 1 t : Vec Ideal S128 .f32) (ix1 k) = (V c (Pipeline.arrRef spec6 1) : Vec Ideal S128 .f32) (ix1 k) := by
  have h0 := idx6_1 t
  unfold iblk6
  rw [View.read_apply]
  show V c (Pipeline.arrRef spec6 1) _ = V c (Pipeline.arrRef spec6 1) _
  refine congrArg (V c (Pipeline.arrRef spec6 1)) (funext fun a => Fin.ext ?_)
  match a with
  | ⟨0, _⟩ => show win6_1.index t (0 : Fin 1) * 128 + 1 * k.val = k.val; omega
/-- Window 2's block at every point is its whole 128-vector. -/
theorem blk6_2 (c : Dev nD) (t : Fin cfg6.N) (k : Fin 128) :
    (iblk6 V c 2 t : Vec Ideal S128 .f32) (ix1 k) = (V c (Pipeline.arrRef spec6 2) : Vec Ideal S128 .f32) (ix1 k) := by
  have h0 := idx6_2 t
  unfold iblk6
  rw [View.read_apply]
  show V c (Pipeline.arrRef spec6 2) _ = V c (Pipeline.arrRef spec6 2) _
  refine congrArg (V c (Pipeline.arrRef spec6 2)) (funext fun a => Fin.ext ?_)
  match a with
  | ⟨0, _⟩ => show win6_2.index t (0 : Fin 1) * 128 + 1 * k.val = k.val; omega
/-- Window 3's block at every point is its whole 128-vector. -/
theorem blk6_3 (c : Dev nD) (t : Fin cfg6.N) (k : Fin 128) :
    (iblk6 V c 3 t : Vec Ideal S128 .f32) (ix1 k) = (V c (Pipeline.arrRef spec6 3) : Vec Ideal S128 .f32) (ix1 k) := by
  have h0 := idx6_3 t
  unfold iblk6
  rw [View.read_apply]
  show V c (Pipeline.arrRef spec6 3) _ = V c (Pipeline.arrRef spec6 3) _
  refine congrArg (V c (Pipeline.arrRef spec6 3)) (funext fun a => Fin.ext ?_)
  match a with
  | ⟨0, _⟩ => show win6_3.index t (0 : Fin 1) * 128 + 1 * k.val = k.val; omega
/-- Window 4's block at every point is its whole 128-vector. -/
theorem blk6_4 (c : Dev nD) (t : Fin cfg6.N) (k : Fin 128) :
    (iblk6 V c 4 t : Vec Ideal S128 .f32) (ix1 k) = (V c (Pipeline.arrRef spec6 4) : Vec Ideal S128 .f32) (ix1 k) := by
  have h0 := idx6_4 t
  unfold iblk6
  rw [View.read_apply]
  show V c (Pipeline.arrRef spec6 4) _ = V c (Pipeline.arrRef spec6 4) _
  refine congrArg (V c (Pipeline.arrRef spec6 4)) (funext fun a => Fin.ext ?_)
  match a with
  | ⟨0, _⟩ => show win6_4.index t (0 : Fin 1) * 128 + 1 * k.val = k.val; omega
/-- Window 6's block at every point is its whole 128-vector. -/
theorem blk6_6 (c : Dev nD) (t : Fin cfg6.N) (k : Fin 128) :
    (iblk6 V c 6 t : Vec Ideal S128 .f32) (ix1 k) = (V c (Pipeline.arrRef spec6 6) : Vec Ideal S128 .f32) (ix1 k) := by
  have h0 := idx6_6 t
  unfold iblk6
  rw [View.read_apply]
  show V c (Pipeline.arrRef spec6 6) _ = V c (Pipeline.arrRef spec6 6) _
  refine congrArg (V c (Pipeline.arrRef spec6 6)) (funext fun a => Fin.ext ?_)
  match a with
  | ⟨0, _⟩ => show win6_6.index t (0 : Fin 1) * 128 + 1 * k.val = k.val; omega
/-- Window 8's block at every point is its whole 128-vector. -/
theorem blk6_8 (c : Dev nD) (t : Fin cfg6.N) (k : Fin 128) :
    (iblk6 V c 8 t : Vec Ideal S128 .f32) (ix1 k) = (V c (Pipeline.arrRef spec6 8) : Vec Ideal S128 .f32) (ix1 k) := by
  have h0 := idx6_8 t
  unfold iblk6
  rw [View.read_apply]
  show V c (Pipeline.arrRef spec6 8) _ = V c (Pipeline.arrRef spec6 8) _
  refine congrArg (V c (Pipeline.arrRef spec6 8)) (funext fun a => Fin.ext ?_)
  match a with
  | ⟨0, _⟩ => show win6_8.index t (0 : Fin 1) * 128 + 1 * k.val = k.val; omega
/-- Window 9's block at every point is its whole 128-vector. -/
theorem blk6_9 (c : Dev nD) (t : Fin cfg6.N) (k : Fin 128) :
    (iblk6 V c 9 t : Vec Ideal S128 .f32) (ix1 k) = (V c (Pipeline.arrRef spec6 9) : Vec Ideal S128 .f32) (ix1 k) := by
  have h0 := idx6_9 t
  unfold iblk6
  rw [View.read_apply]
  show V c (Pipeline.arrRef spec6 9) _ = V c (Pipeline.arrRef spec6 9) _
  refine congrArg (V c (Pipeline.arrRef spec6 9)) (funext fun a => Fin.ext ?_)
  match a with
  | ⟨0, _⟩ => show win6_9.index t (0 : Fin 1) * 128 + 1 * k.val = k.val; omega
/-- Window 10's block at every point is its whole 128-vector. -/
theorem blk6_10 (c : Dev nD) (t : Fin cfg6.N) (k : Fin 128) :
    (iblk6 V c 10 t : Vec Ideal S128 .f32) (ix1 k) = (V c (Pipeline.arrRef spec6 10) : Vec Ideal S128 .f32) (ix1 k) := by
  have h0 := idx6_10 t
  unfold iblk6
  rw [View.read_apply]
  show V c (Pipeline.arrRef spec6 10) _ = V c (Pipeline.arrRef spec6 10) _
  refine congrArg (V c (Pipeline.arrRef spec6 10)) (funext fun a => Fin.ext ?_)
  match a with
  | ⟨0, _⟩ => show win6_10.index t (0 : Fin 1) * 128 + 1 * k.val = k.val; omega
/-- Window 11's block at every point is its whole 128-vector. -/
theorem blk6_11 (c : Dev nD) (t : Fin cfg6.N) (k : Fin 128) :
    (iblk6 V c 11 t : Vec Ideal S128 .f32) (ix1 k) = (V c (Pipeline.arrRef spec6 11) : Vec Ideal S128 .f32) (ix1 k) := by
  have h0 := idx6_11 t
  unfold iblk6
  rw [View.read_apply]
  show V c (Pipeline.arrRef spec6 11) _ = V c (Pipeline.arrRef spec6 11) _
  refine congrArg (V c (Pipeline.arrRef spec6 11)) (funext fun a => Fin.ext ?_)
  match a with
  | ⟨0, _⟩ => show win6_11.index t (0 : Fin 1) * 128 + 1 * k.val = k.val; omega
/-- Window 13's block at every point is its whole 128-vector. -/
theorem blk6_13 (c : Dev nD) (t : Fin cfg6.N) (k : Fin 128) :
    (iblk6 V c 13 t : Vec Ideal S128 .f32) (ix1 k) = (V c (Pipeline.arrRef spec6 13) : Vec Ideal S128 .f32) (ix1 k) := by
  have h0 := idx6_13 t
  unfold iblk6
  rw [View.read_apply]
  show V c (Pipeline.arrRef spec6 13) _ = V c (Pipeline.arrRef spec6 13) _
  refine congrArg (V c (Pipeline.arrRef spec6 13)) (funext fun a => Fin.ext ?_)
  match a with
  | ⟨0, _⟩ => show win6_13.index t (0 : Fin 1) * 128 + 1 * k.val = k.val; omega
/-- Window 5's block at every point is its whole 128 x 128 matrix. -/
theorem blk6_5 (c : Dev nD) (t : Fin cfg6.N) (k : Fin 128) (q : Fin 128) :
    (iblk6 V c 5 t : Vec Ideal S128x128 .f32) (ix2 k q) = (V c (Pipeline.arrRef spec6 5) : Vec Ideal S128x128 .f32) (ix2 k q) := by
  obtain ⟨h0, h1⟩ := idx6_5 t
  unfold iblk6
  rw [View.read_apply]
  show V c (Pipeline.arrRef spec6 5) _ = V c (Pipeline.arrRef spec6 5) _
  refine congrArg (V c (Pipeline.arrRef spec6 5)) (funext fun a => Fin.ext ?_)
  match a with
  | ⟨0, _⟩ => show win6_5.index t (0 : Fin 2) * 128 + 1 * k.val = k.val; omega
  | ⟨1, _⟩ => show win6_5.index t (1 : Fin 2) * 128 + 1 * q.val = q.val; omega
/-- Window 12's block at every point is its whole 128 x 128 matrix. -/
theorem blk6_12 (c : Dev nD) (t : Fin cfg6.N) (k : Fin 128) (q : Fin 128) :
    (iblk6 V c 12 t : Vec Ideal S128x128 .f32) (ix2 k q) = (V c (Pipeline.arrRef spec6 12) : Vec Ideal S128x128 .f32) (ix2 k q) := by
  obtain ⟨h0, h1⟩ := idx6_12 t
  unfold iblk6
  rw [View.read_apply]
  show V c (Pipeline.arrRef spec6 12) _ = V c (Pipeline.arrRef spec6 12) _
  refine congrArg (V c (Pipeline.arrRef spec6 12)) (funext fun a => Fin.ext ?_)
  match a with
  | ⟨0, _⟩ => show win6_12.index t (0 : Fin 2) * 128 + 1 * k.val = k.val; omega
  | ⟨1, _⟩ => show win6_12.index t (1 : Fin 2) * 128 + 1 * q.val = q.val; omega

/-- The host form of the step applied to the region's fourteen input arrays as the region finds them. -/
abbrev G6 (c : Dev nD) : Vec Ideal S20000x128 .f32 :=
  Cert.Spec.combM (F := Ideal) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10)) (V c (Pipeline.arrRef spec6 11)) (V c (Pipeline.arrRef spec6 12)) (V c (Pipeline.arrRef spec6 13))

/-- What the body leaves in the output window's buffer at point t: the body's result on the fourteen input blocks. -/
theorem wb6_after (c : Dev nD) (t : Fin cfg6.N) :
    (dat6 (F := Ideal) V c).flushed 14 t = (out6_14 (F := Ideal) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) : Vec Ideal S2000x128 .f32) := by
  show (cfg6.win 14).cut (grid6.coords t) ((dat6 V c).after 14 t) = _
  rw [after6_14]
  rfl

/-- Entry (p, q) of the output block at point t sits at row 2000 t + p of the output array. -/
theorem wb6_emb (c : Dev nD) (t : Fin cfg6.N) (p : Fin 2000) (q : Fin 128) (P : Fin 20000) (hP : P.val = 2000 * t.val + p.val) :
    ((cfg6.win 14).blk t).view.emb (ix2 p q) = ix2 P q := by
  obtain ⟨h0, h1⟩ := idx6_14 t
  refine funext fun a => Fin.ext ?_
  match a with
  | ⟨0, _⟩ => show win6_14.index t (0 : Fin 2) * 2000 + 1 * p.val = P.val; omega
  | ⟨1, _⟩ => show win6_14.index t (1 : Fin 2) * 128 + 1 * q.val = q.val; omega

set_option maxHeartbeats 1000000 in
/-- The body's result at entry (p, q) of block t is the host form of the step at row 2000 t + p, column q. -/
theorem wb6_point (c : Dev nD) (t : Fin cfg6.N) (p : Fin 2000) (q : Fin 128) (P : Fin 20000) (hP : P.val = 2000 * t.val + p.val) :
    out6_14 (F := Ideal) (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) (ix2 p q) = G6 V c (ix2 P q) := by
  refine (out6_14_at (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) (iblk6 V c 11 t) (iblk6 V c 12 t) (iblk6 V c 13 t) p q).trans ?_
  rw [leakyGt6_eq_leakyGe6]
  refine Eq.trans ?_ (Cert.Spec.Region6.combM_at6 (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10)) (V c (Pipeline.arrRef spec6 11)) (V c (Pipeline.arrRef spec6 12)) (V c (Pipeline.arrRef spec6 13)) P q).symm
  exact congrArg leakyGe6 (congrArg₂ (· + ·)
    (branch6_ext (fun k => blk6_0 V c t p P hP k) (fun k => blk6_1 V c t k) (fun k => blk6_2 V c t k) (fun k => blk6_3 V c t k)
      (fun k => blk6_4 V c t k) (fun k => blk6_5 V c t k q) (blk6_6 V c t q))
    (branch6_ext (fun k => blk6_7 V c t p P hP k) (fun k => blk6_8 V c t k) (fun k => blk6_9 V c t k) (fun k => blk6_10 V c t k)
      (fun k => blk6_11 V c t k) (fun k => blk6_12 V c t k q) (blk6_13 V c t q)))

set_option maxHeartbeats 1000000 in
/-- What point t writes back is block t of the host form of the step on the input arrays. -/
theorem writeback6_14 (c : Dev nD) (t : Fin cfg6.N) :
    (dat6 (F := Ideal) V c).flushed 14 t = ((cfg6.win 14).blk t).view.read (Elt Ideal) (G6 V c) := by
  rw [wb6_after]
  refine funext fun (j : S2000x128.Idx) => ?_
  obtain ⟨p, q, rfl⟩ : ∃ (p : Fin 2000) (q : Fin 128), j = ix2 p q := ⟨j 0, j 1, eq_ix2 j⟩
  have hN : t.val < 10 := Nat.lt_of_lt_of_eq t.isLt (show cfg6.N = 10 from N_6)
  obtain ⟨P, hP⟩ : ∃ P : Fin 20000, P.val = 2000 * t.val + p.val := ⟨⟨2000 * t.val + p.val, by have := p.isLt; omega⟩, rfl⟩
  show _ = G6 V c (((cfg6.win 14).blk t).view.emb (ix2 p q))
  exact (wb6_point V c t p q P hP).trans (congrArg (G6 V c) (wb6_emb c t p q P hP)).symm

/-- Every row of the output array lies in some point's block: row P in block P / 2000. -/
theorem rows_cover6_14 (c : Dev nD) (i : S20000x128.Idx) :
    ∃ t : Fin cfg6.N, (cfg6.win 14).flush t = true ∧ i ∈ ((cfg6.win 14).blk t).view.set := by
  have hi0 : (i 0).val < 20000 := (i 0).isLt
  have hi1 : (i 1).val < 128 := (i 1).isLt
  obtain ⟨t, ht⟩ : ∃ t : Fin cfg6.N, t.val = (i 0).val / 2000 :=
    ⟨⟨(i 0).val / 2000, by rw [show cfg6.N = 10 from N_6]; omega⟩, rfl⟩
  obtain ⟨h0, h1⟩ := idx6_14 t
  refine ⟨t, flush6_14 t, ?_⟩
  show i ∈ ((View.whole (Pipeline.arrRef spec6 14)).slice (win6_14.rect t)).set
  rw [View.set_slice_whole, Rect.mem_set_unit]
  intro a
  match a with
  | ⟨0, _⟩ => show win6_14.index t (0 : Fin 2) * 2000 ≤ (i 0).val ∧ (i 0).val < win6_14.index t (0 : Fin 2) * 2000 + 2000; omega
  | ⟨1, _⟩ => show win6_14.index t (1 : Fin 2) * 128 ≤ (i 1).val ∧ (i 1).val < win6_14.index t (1 : Fin 2) * 128 + 128; omega

end Blocks

open Cert.KernelIdeal Cert.KernelIdeal.Gen Idealize.ShloMosaic Idealize.ShloMosaic.TcCoe Idealize.SL.Sem
variable [Cert.KernelIdeal.Facts] [Cert.ReferenceIdeal.Facts]

/-- After the region's ten points the output array holds the host form of the step on the fourteen input arrays. -/
theorem region6_value (V : (c : Dev nD) → (b : Ref sig .tc) → Buf (Elt Ideal) ((c : Thread nD τ).loc b)) (c : Dev nD) :
    (dat6 (F := Ideal) V c).arrAt 14 cfg6.N
      = Cert.Spec.combM (F := Ideal) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10)) (V c (Pipeline.arrRef spec6 11)) (V c (Pipeline.arrRef spec6 12)) (V c (Pipeline.arrRef spec6 13)) :=
  (dat6 (F := Ideal) V c).arrAt_eq_of_cover 14 (G6 V c) (fun t _ => writeback6_14 V c t) (rows_cover6_14 c)

end Cert.KernelIdeal.RegionValue

end
-- ==== Proof.Region7.lean ====
import proofs.«116822_j38594576122568_1_alg».proof.Proof.Gen.KernelIdeal.Frame
import proofs.«116822_j38594576122568_1_alg».proof.Proof.SpecLayers
import Idealize.ShloMosaic.PureOps.Ideal.Laws
import Idealize.ShloMosaic.Lib.ValueIdx
import Idealize.ShloMosaic.Lib.ValueLayout
import Idealize.ShloMosaic.Lib.Pipeline.Value

/-! Region 7 of the kernel program: one linear layer, rows [80000] × features [128] times a [128, 128] weight matrix
    plus a bias row, computed 2000 rows per grid point over 40 points. This module shows that the region leaves in its
    output array, as ONE function of its three input arrays, exactly the reference's host form of that layer: at row
    `p` and column `q` both are `(∑ k, a(p,k) · w(k,q)) + b(q)` on the extended reals. -/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Idealize.ShloMosaic.Pipeline
open scoped BigOperators

namespace Region7

variable [Cert.ReferenceIdeal.Facts]

/-! ## The two contractions as plain sums

  The kernel's product (2000 rows per block) and the reference's product (all 80000 rows) both contract the left
  operand's axis 1 against the right operand's axis 0. Read at an output index `(p, q)` and a contraction position
  `k`, the operand indices are `(p, k)` and `(k, q)`; the four coordinate facts of each are kept apart. -/

/-- The block product's left operand index, row coordinate: the output's row. -/
theorem lhs_blockdot_0 (j : S2000x128.Idx) (k : dot_S2000x128_S128x128_S2000x128_1_0_0_1_n_n.contr.Idx) :
    (dot_S2000x128_S128x128_S2000x128_1_0_0_1_n_n.lhsIdx j k (0 : Fin S2000x128.rank)).val = (j 0).val := by
  unfold DotDims.lhsIdx
  rw [dif_neg (show ¬ (0 : Fin S2000x128.rank) ∈ dot_S2000x128_S128x128_S2000x128_1_0_0_1_n_n.lhsBatch from fun h => nomatch h),
    dif_pos (show (0 : Fin S2000x128.rank) ∈ dot_S2000x128_S128x128_S2000x128_1_0_0_1_n_n.lhsNonContracting from List.mem_singleton.mpr rfl)]
  rfl

/-- The block product's left operand index, column coordinate: the contraction position. -/
theorem lhs_blockdot_1 (j : S2000x128.Idx) (k : dot_S2000x128_S128x128_S2000x128_1_0_0_1_n_n.contr.Idx) :
    (dot_S2000x128_S128x128_S2000x128_1_0_0_1_n_n.lhsIdx j k (1 : Fin S2000x128.rank)).val = (k ⟨0, Nat.one_pos⟩).val :=
  dot_S2000x128_S128x128_S2000x128_1_0_0_1_n_n.lhsIdx_val_of_single rfl j k

/-- The block product's right operand index, row coordinate: the contraction position. -/
theorem rhs_blockdot_0 (j : S2000x128.Idx) (k : dot_S2000x128_S128x128_S2000x128_1_0_0_1_n_n.contr.Idx) :
    (dot_S2000x128_S128x128_S2000x128_1_0_0_1_n_n.rhsIdx j k (0 : Fin S128x128.rank)).val = (k ⟨0, Nat.one_pos⟩).val :=
  dot_S2000x128_S128x128_S2000x128_1_0_0_1_n_n.rhsIdx_val_of_single rfl j k

/-- The block product's right operand index, column coordinate: the output's column. -/
theorem rhs_blockdot_1 (j : S2000x128.Idx) (k : dot_S2000x128_S128x128_S2000x128_1_0_0_1_n_n.contr.Idx) :
    (dot_S2000x128_S128x128_S2000x128_1_0_0_1_n_n.rhsIdx j k (1 : Fin S128x128.rank)).val = (j 1).val := by
  unfold DotDims.rhsIdx
  rw [dif_neg (show ¬ (1 : Fin S128x128.rank) ∈ dot_S2000x128_S128x128_S2000x128_1_0_0_1_n_n.rhsBatch from fun h => nomatch h),
    dif_pos (show (1 : Fin S128x128.rank) ∈ dot_S2000x128_S128x128_S2000x128_1_0_0_1_n_n.rhsNonContracting from List.mem_singleton.mpr rfl)]
  rfl

/-- The block product at row `r`, column `q`, into a zero accumulator: the sum over the 128 contraction positions. -/
theorem blockdot_apply (x : FVec Ideal S2000x128 .bf16) (y : FVec Ideal S128x128 .bf16) (r : Fin 2000) (q : Fin 128) :
    matmul (F := Ideal) dot_S2000x128_S128x128_S2000x128_1_0_0_1_n_n none x y (constant (F := Ideal) S2000x128 .f32 0x00000000#32) (ix2 r q)
      = ∑ k : Fin 128, x (ix2 r k) * y (ix2 k q) := by
  refine (Ideal.matmul_constant_zero_apply dot_S2000x128_S128x128_S2000x128_1_0_0_1_n_n none x y (ix2 r q)).trans ?_
  refine (Equiv.sum_comp (contrEquiv1 dot_S2000x128_S128x128_S2000x128_1_0_0_1_n_n 128 rfl rfl).symm _).symm.trans ?_
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 r q) ((contrEquiv1 dot_S2000x128_S128x128_S2000x128_1_0_0_1_n_n 128 rfl rfl).symm k) = ix2 r k := by
    funext a; apply Fin.ext
    match a with
    | ⟨0, _⟩ => exact lhs_blockdot_0 _ _
    | ⟨1, _⟩ => exact (lhs_blockdot_1 _ _).trans hk
  have hr : dot_S2000x128_S128x128_S2000x128_1_0_0_1_n_n.rhsIdx (ix2 r q) ((contrEquiv1 dot_S2000x128_S128x128_S2000x128_1_0_0_1_n_n 128 rfl rfl).symm k) = ix2 k q := by
    funext a; apply Fin.ext
    match a with
    | ⟨0, _⟩ => exact (rhs_blockdot_0 _ _).trans hk
    | ⟨1, _⟩ => exact rhs_blockdot_1 _ _
  rw [hl, hr]

/-- The whole-array product's left operand index, row coordinate: the output's row. -/
theorem lhs_arraydot_0 (j : S80000x128.Idx) (k : Cert.ReferenceIdeal.dot_S80000x128_S128x128_S80000x128_1_0_0_1_n_n.contr.Idx) :
    (Cert.ReferenceIdeal.dot_S80000x128_S128x128_S80000x128_1_0_0_1_n_n.lhsIdx j k (0 : Fin S80000x128.rank)).val = (j 0).val := by
  unfold DotDims.lhsIdx
  rw [dif_neg (show ¬ (0 : Fin S80000x128.rank) ∈ Cert.ReferenceIdeal.dot_S80000x128_S128x128_S80000x128_1_0_0_1_n_n.lhsBatch from fun h => nomatch h),
    dif_pos (show (0 : Fin S80000x128.rank) ∈ Cert.ReferenceIdeal.dot_S80000x128_S128x128_S80000x128_1_0_0_1_n_n.lhsNonContracting from List.mem_singleton.mpr rfl)]
  rfl

/-- The whole-array product's left operand index, column coordinate: the contraction position. -/
theorem lhs_arraydot_1 (j : S80000x128.Idx) (k : Cert.ReferenceIdeal.dot_S80000x128_S128x128_S80000x128_1_0_0_1_n_n.contr.Idx) :
    (Cert.ReferenceIdeal.dot_S80000x128_S128x128_S80000x128_1_0_0_1_n_n.lhsIdx j k (1 : Fin S80000x128.rank)).val = (k ⟨0, Nat.one_pos⟩).val :=
  Cert.ReferenceIdeal.dot_S80000x128_S128x128_S80000x128_1_0_0_1_n_n.lhsIdx_val_of_single rfl j k

/-- The whole-array product's right operand index, row coordinate: the contraction position. -/
theorem rhs_arraydot_0 (j : S80000x128.Idx) (k : Cert.ReferenceIdeal.dot_S80000x128_S128x128_S80000x128_1_0_0_1_n_n.contr.Idx) :
    (Cert.ReferenceIdeal.dot_S80000x128_S128x128_S80000x128_1_0_0_1_n_n.rhsIdx j k (0 : Fin S128x128.rank)).val = (k ⟨0, Nat.one_pos⟩).val :=
  Cert.ReferenceIdeal.dot_S80000x128_S128x128_S80000x128_1_0_0_1_n_n.rhsIdx_val_of_single rfl j k

/-- The whole-array product's right operand index, column coordinate: the output's column. -/
theorem rhs_arraydot_1 (j : S80000x128.Idx) (k : Cert.ReferenceIdeal.dot_S80000x128_S128x128_S80000x128_1_0_0_1_n_n.contr.Idx) :
    (Cert.ReferenceIdeal.dot_S80000x128_S128x128_S80000x128_1_0_0_1_n_n.rhsIdx j k (1 : Fin S128x128.rank)).val = (j 1).val := by
  unfold DotDims.rhsIdx
  rw [dif_neg (show ¬ (1 : Fin S128x128.rank) ∈ Cert.ReferenceIdeal.dot_S80000x128_S128x128_S80000x128_1_0_0_1_n_n.rhsBatch from fun h => nomatch h),
    dif_pos (show (1 : Fin S128x128.rank) ∈ Cert.ReferenceIdeal.dot_S80000x128_S128x128_S80000x128_1_0_0_1_n_n.rhsNonContracting from List.mem_singleton.mpr rfl)]
  rfl

/-- The reference's product at row `p`, column `q`: the sum over the 128 contraction positions. -/
theorem arraydot_apply (a : FVec Ideal S80000x128 .f32) (w : FVec Ideal S128x128 .f32) (p : Fin 80000) (q : Fin 128) :
    Host.dotGeneral (F := Ideal) Cert.ReferenceIdeal.dot_S80000x128_S128x128_S80000x128_1_0_0_1_n_n none a w (ix2 p q)
      = ∑ k : Fin 128, a (ix2 p k) * w (ix2 k q) := by
  simp only [Host.dotGeneral]
  refine (Ideal.dotGeneral_apply Cert.ReferenceIdeal.dot_S80000x128_S128x128_S80000x128_1_0_0_1_n_n none _ a w (ix2 p q)).trans ?_
  refine (Equiv.sum_comp (contrEquiv1 Cert.ReferenceIdeal.dot_S80000x128_S128x128_S80000x128_1_0_0_1_n_n 128 rfl rfl).symm _).symm.trans ?_
  refine Finset.sum_congr rfl fun k _ => ?_
  have hk := contrEquiv1_symm_val Cert.ReferenceIdeal.dot_S80000x128_S128x128_S80000x128_1_0_0_1_n_n 128 rfl rfl k
  have hl : Cert.ReferenceIdeal.dot_S80000x128_S128x128_S80000x128_1_0_0_1_n_n.lhsIdx (ix2 p q) ((contrEquiv1 Cert.ReferenceIdeal.dot_S80000x128_S128x128_S80000x128_1_0_0_1_n_n 128 rfl rfl).symm k) = ix2 p k := by
    funext x; apply Fin.ext
    match x with
    | ⟨0, _⟩ => exact lhs_arraydot_0 _ _
    | ⟨1, _⟩ => exact (lhs_arraydot_1 _ _).trans hk
  have hr : Cert.ReferenceIdeal.dot_S80000x128_S128x128_S80000x128_1_0_0_1_n_n.rhsIdx (ix2 p q) ((contrEquiv1 Cert.ReferenceIdeal.dot_S80000x128_S128x128_S80000x128_1_0_0_1_n_n 128 rfl rfl).symm k) = ix2 k q := by
    funext x; apply Fin.ext
    match x with
    | ⟨0, _⟩ => exact (rhs_arraydot_0 _ _).trans hk
    | ⟨1, _⟩ => exact rhs_arraydot_1 _ _
  rw [hl, hr]

/-! ## The bias row, repeated down the rows -/

/-- The kernel's bias term: the row `b`, given a leading unit axis and repeated over the block's 2000 rows, read at
    row `r`, column `q`, is `b q`. -/
theorem blockbias_apply (b : Vec Ideal S128 .f32) (r : Fin 2000) (q : Fin 128) :
    broadcastTo S2000x128 (shapeCast S1x128 (shapeCast S128 b shapeCasts_S128_S128) shapeCasts_S128_S1x128) broadcasts_S1x128_S2000x128 (ix2 r q)
      = b (ix1 q) := by
  refine (broadcastTo_apply _ broadcasts_S1x128_S2000x128 (ix2 r q) (ix2 (0 : Fin 1) q)
    (fun a => by match a with | ⟨0, _⟩ => rfl | ⟨1, _⟩ => rfl)).trans ?_
  refine (shapeCast_addUnit_apply ![128] _ shapeCasts_S128_S1x128 (ix2 (0 : Fin 1) q)).trans ?_
  rw [shapeCast_self]
  exact congrArg b (funext fun a => by match a with | ⟨0, _⟩ => rfl)

/-- The reference's bias term: the row `b`, given a leading unit axis and repeated over all 80000 rows, read at row
    `p`, column `q`, is `b q`. -/
theorem arraybias_apply (b : Vec Ideal S128 .f32) (p : Fin 80000) (q : Fin 128) :
    broadcastInDim S80000x128 ![0, 1] Cert.ReferenceIdeal.Facts₀.bcast_S1x128_S80000x128_0_1
        (broadcastInDim S1x128 ![1] Cert.ReferenceIdeal.Facts₀.bcast_S128_S1x128_1 b) (ix2 p q)
      = b (ix1 q) := by
  refine (broadcastInDim_apply ![0, 1] Cert.ReferenceIdeal.Facts₀.bcast_S1x128_S80000x128_0_1 _ (ix2 p q) (ix2 (0 : Fin 1) q)
    (fun a => by match a with | ⟨0, _⟩ => rfl | ⟨1, _⟩ => rfl)).trans ?_
  exact broadcastInDim_apply ![1] Cert.ReferenceIdeal.Facts₀.bcast_S128_S1x128_1 b (ix2 (0 : Fin 1) q) (ix1 q)
    (fun a => by match a with | ⟨0, _⟩ => rfl)

/-! ## The body's stored value and the reference's layer, index by index -/

/-- What the body stores at row `r`, column `q` of its block: the casts to the narrower format and back are the
    identity on the extended reals, the product starts from a zero accumulator, and the bias row is added. -/
theorem payload_apply (x : Vec Ideal S2000x128 .f32) (w : Vec Ideal S128x128 .f32) (b : Vec Ideal S128 .f32) (r : Fin 2000) (q : Fin 128) :
    k7_pay1 (F := Ideal) x w b (ix2 r q) = (∑ k : Fin 128, x (ix2 r k) * w (ix2 k q)) + b (ix1 q) := by
  unfold k7_pay1
  refine congrArg₂ (· + ·) ?_ (blockbias_apply b r q)
  refine (blockdot_apply _ _ r q).trans ?_
  refine Finset.sum_congr rfl fun k _ => ?_
  refine congrArg₂ (· * ·) ?_ ?_
  · exact congrFun (shapeCast_self x shapeCasts_S2000x128_S2000x128) (ix2 r k)
  · exact congrFun (shapeCast_self w shapeCasts_S128x128_S128x128) (ix2 k q)

/-- The reference's layer at row `p`, column `q`. -/
theorem layer_apply (a : Vec Ideal S80000x128 .f32) (w : Vec Ideal S128x128 .f32) (b : Vec Ideal S128 .f32) (p : Fin 80000) (q : Fin 128) :
    Cert.Spec.linD (F := Ideal) a w b (ix2 p q) = (∑ k : Fin 128, a (ix2 p k) * w (ix2 k q)) + b (ix1 q) := by
  unfold Cert.Spec.linD
  exact congrArg₂ (· + ·) (arraydot_apply a w p q) (arraybias_apply b p q)

/-- One stored entry against the layer: where row `r` of a block holds row `2000 n + r` of the array `a`, the body's
    stored value at `(r, q)` is the layer's value at `(2000 n + r, q)`. -/
theorem stored_eq_layer (x : Vec Ideal S2000x128 .f32) (w : Vec Ideal S128x128 .f32) (b : Vec Ideal S128 .f32)
    (a : Vec Ideal S80000x128 .f32) (n : Nat) (hn : n < 40) (r : Fin 2000) (q : Fin 128)
    (hrow : ∀ k : Fin 128, x (ix2 r k) = a (ix2 (⟨n * 2000 + r.val, by have := r.isLt; omega⟩ : Fin 80000) k)) :
    k7_pay1 (F := Ideal) x w b (ix2 r q)
      = Cert.Spec.linD (F := Ideal) a w b (ix2 (⟨n * 2000 + r.val, by have := r.isLt; omega⟩ : Fin 80000) q) := by
  rw [payload_apply, layer_apply]
  exact congrArg (· + b (ix1 q)) (Finset.sum_congr rfl fun k _ => by rw [hrow k])

/-! ## From the blocks to the array

  Grid point `t` reads rows `2000 t … 2000 t + 1999` of `a`, the whole of `w` and `b`, and writes the same rows of the
  output. So what each point writes back is its block of the layer applied to the whole arrays, and the 40 blocks
  tile the 80000 rows. -/

/-- The body's loads and its one store all start at the origin of their blocks. -/
theorem origin2 : (![0, 0] : Fin 2 → Nat) = fun _ => 0 := funext fun a => by match a with | ⟨0, _⟩ => rfl | ⟨1, _⟩ => rfl
theorem origin1 : (![0] : Fin 1 → Nat) = fun _ => 0 := funext fun a => by match a with | ⟨0, _⟩ => rfl

/-- The printed index maps, decided over the 40 grid points: the row-block index of `a` and of the output is the
    point's number, every other block index is 0. -/
theorem index_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 1) = 0
    ∧ win7_3.index t (0 : Fin 2) = t.val ∧ win7_3.index t (1 : Fin 2) = 0 :=
  (by decide +kernel : ∀ t : Fin grid7.N, _)

set_option maxHeartbeats 1000000 in
/-- WHAT POINT `t` WRITES BACK is block `t` of the layer applied to the three input arrays as the region finds them. -/
theorem flushed_eq (V : (c : Dev nD) → (b : Ref sig .tc) → Buf (Elt Ideal) ((c : Thread nD τ).loc b)) (c : Dev nD) (t : Fin cfg7.N) :
    (dat7 (F := Ideal) V c).flushed 3 t = ((cfg7.win 3).blk t).view.read (Elt Ideal)
      (Cert.Spec.linD (F := Ideal) (V c (Pipeline.arrRef spec7 0)) (V c (Pipeline.arrRef spec7 1)) (V c (Pipeline.arrRef spec7 2))) := by
  show (cfg7.win 3).cut (grid7.coords t) ((dat7 (F := Ideal) V c).after 3 t) = _
  rw [after7_3]
  unfold out7_3
  rw [View.canon_unit_zero origin2]
  simp only [View.ld_unit_zero (S := S2000x128) origin2, View.ld_unit_zero (S := S128x128) origin2, View.ld_unit_zero (S := S128) origin1]
  obtain ⟨e00, e01, e10, e11, e20, e30, e31⟩ := index_facts t
  have hw : (iblk7 (F := Ideal) V c 1 t : Vec Ideal S128x128 .f32) = (V c (Pipeline.arrRef spec7 1)) := by
    funext y
    show (V c (Pipeline.arrRef spec7 1)) (((cfg7.win 1).blk t).view.emb y) = (V c (Pipeline.arrRef spec7 1)) y
    refine congrArg (V c (Pipeline.arrRef spec7 1)) (funext fun a => Fin.ext ?_)
    match a with
    | ⟨0, _⟩ => show win7_1.index t (0 : Fin 2) * 128 + 1 * (y 0).val = (y 0).val; omega
    | ⟨1, _⟩ => show win7_1.index t (1 : Fin 2) * 128 + 1 * (y 1).val = (y 1).val; omega
  have hb : (iblk7 (F := Ideal) V c 2 t : Vec Ideal S128 .f32) = (V c (Pipeline.arrRef spec7 2)) := by
    funext y
    show (V c (Pipeline.arrRef spec7 2)) (((cfg7.win 2).blk t).view.emb y) = (V c (Pipeline.arrRef spec7 2)) y
    refine congrArg (V c (Pipeline.arrRef spec7 2)) (funext fun a => Fin.ext ?_)
    match a with
    | ⟨0, _⟩ => show win7_2.index t (0 : Fin 1) * 128 + 1 * (y 0).val = (y 0).val; omega
  funext (j : S2000x128.Idx)
  obtain ⟨r, q, rfl⟩ : ∃ (r : Fin 2000) (q : Fin 128), j = ix2 r q := ⟨j 0, j 1, eq_ix2 j⟩
  show k7_pay1 (F := Ideal) (iblk7 (F := Ideal) V c 0 t) (iblk7 (F := Ideal) V c 1 t) (iblk7 (F := Ideal) V c 2 t) (ix2 r q)
    = Cert.Spec.linD (F := Ideal) (V c (Pipeline.arrRef spec7 0)) (V c (Pipeline.arrRef spec7 1)) (V c (Pipeline.arrRef spec7 2)) (((cfg7.win 3).blk t).view.emb (ix2 r q))
  refine (congrArg₂ (fun w b => k7_pay1 (F := Ideal) (iblk7 (F := Ideal) V c 0 t) w b (ix2 r q)) hw hb).trans ?_
  refine (stored_eq_layer (iblk7 (F := Ideal) V c 0 t) (V c (Pipeline.arrRef spec7 1)) (V c (Pipeline.arrRef spec7 2)) (V c (Pipeline.arrRef spec7 0)) t.val (show t.val < 40 from t.isLt) r q ?_).trans ?_
  · intro k
    show (V c (Pipeline.arrRef spec7 0)) (((cfg7.win 0).blk t).view.emb (ix2 r k)) = _
    refine congrArg _ (funext fun a => Fin.ext ?_)
    match a with
    | ⟨0, _⟩ => show win7_0.index t (0 : Fin 2) * 2000 + 1 * r.val = t.val * 2000 + r.val; omega
    | ⟨1, _⟩ => show win7_0.index t (1 : Fin 2) * 128 + 1 * k.val = k.val; omega
  · refine congrArg _ (funext fun a => Fin.ext ?_)
    match a with
    | ⟨0, _⟩ => show t.val * 2000 + r.val = win7_3.index t (0 : Fin 2) * 2000 + 1 * r.val; omega
    | ⟨1, _⟩ => show q.val = win7_3.index t (1 : Fin 2) * 128 + 1 * q.val; omega

/-- An index of the output array is in point `t`'s block iff each coordinate is in the block's range on its axis. -/
theorem mem_block (t : Fin cfg7.N) (i : S80000x128.Idx) :
    i ∈ ((cfg7.win 3).blk t).view.set ↔ ∀ a : Fin 2, win7_3.index t a * S2000x128.size a ≤ (i a).val ∧ (i a).val < win7_3.index t a * S2000x128.size a + S2000x128.size a := by
  show i ∈ ((View.whole (Pipeline.arrRef spec7 3)).slice (win7_3.rect t)).set ↔ _
  rw [View.set_slice_whole, Rect.mem_set_unit]
  exact Iff.rfl

/-- THE COVER: row `p` of the output is written by point `p / 2000`. -/
theorem cover (i : S80000x128.Idx) : ∃ t : Fin cfg7.N, (cfg7.win 3).flush t = true ∧ i ∈ ((cfg7.win 3).blk t).view.set := by
  have h0 : (i 0).val < 80000 := (i 0).isLt
  have h1 : (i 1).val < 128 := (i 1).isLt
  have ht : (i 0).val / 2000 < cfg7.N := by show (i 0).val / 2000 < 40; omega
  obtain ⟨-, -, -, -, -, e30, e31⟩ := index_facts ⟨(i 0).val / 2000, ht⟩
  have e30' : win7_3.index ⟨(i 0).val / 2000, ht⟩ (0 : Fin 2) = (i 0).val / 2000 := e30
  refine ⟨⟨(i 0).val / 2000, ht⟩, flush7_3 _, ?_⟩
  rw [mem_block]
  intro a
  match a with
  | ⟨0, _⟩ =>
    show win7_3.index ⟨(i 0).val / 2000, ht⟩ (0 : Fin 2) * 2000 ≤ (i 0).val ∧ (i 0).val < win7_3.index ⟨(i 0).val / 2000, ht⟩ (0 : Fin 2) * 2000 + 2000
    omega
  | ⟨1, _⟩ =>
    show win7_3.index ⟨(i 0).val / 2000, ht⟩ (1 : Fin 2) * 128 ≤ (i 1).val ∧ (i 1).val < win7_3.index ⟨(i 0).val / 2000, ht⟩ (1 : Fin 2) * 128 + 128
    omega

end Region7

variable [Cert.KernelIdeal.Facts] [Cert.ReferenceIdeal.Facts]

/-- THE OUTPUT ARRAY of region 7 after its 40 grid points: the reference's linear layer of the three input arrays as
    the region finds them. -/
theorem region7_value (V : (c : Dev nD) → (b : Ref sig .tc) → Buf (Elt Ideal) ((c : Thread nD τ).loc b)) (c : Dev nD) :
    (dat7 (F := Ideal) V c).arrAt 3 cfg7.N
      = Cert.Spec.linD (F := Ideal) (V c (Pipeline.arrRef spec7 0)) (V c (Pipeline.arrRef spec7 1)) (V c (Pipeline.arrRef spec7 2)) :=
  (dat7 (F := Ideal) V c).arrAt_eq_of_cover 3 _ (fun t _ => Region7.flushed_eq V c t) Region7.cover

end Cert.KernelIdeal.RegionValue
-- ==== Proof.Region8.lean ====
import proofs.«116822_j38594576122568_1_alg».proof.Proof.Gen.KernelIdeal.Frame
import proofs.«116822_j38594576122568_1_alg».proof.Proof.SpecLayers
import Idealize.ShloMosaic.PureOps.Ideal.Laws
import Idealize.ShloMosaic.Lib.ValueIdx
import Idealize.ShloMosaic.Lib.ValueLayout
import Idealize.ShloMosaic.Lib.Pipeline.Value

/-! Region 8 of the kernel program: one linear layer, rows [80000] × features [128] times a [128, 128] weight matrix
    plus a bias row, computed 2000 rows per grid point over 40 points. This module shows that the region leaves in its
    output array, as ONE function of its three input arrays, exactly the reference's host form of that layer: at row
    `p` and column `q` both are `(∑ k, a(p,k) · w(k,q)) + b(q)` on the extended reals. -/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Idealize.ShloMosaic.Pipeline
open scoped BigOperators

namespace Region8

variable [Cert.ReferenceIdeal.Facts]

/-! ## The two contractions as plain sums

  The kernel's product (2000 rows per block) and the reference's product (all 80000 rows) both contract the left
  operand's axis 1 against the right operand's axis 0. Read at an output index `(p, q)` and a contraction position
  `k`, the operand indices are `(p, k)` and `(k, q)`; the four coordinate facts of each are kept apart. -/

/-- The block product's left operand index, row coordinate: the output's row. -/
theorem lhs_blockdot_0 (j : S2000x128.Idx) (k : dot_S2000x128_S128x128_S2000x128_1_0_0_1_n_n.contr.Idx) :
    (dot_S2000x128_S128x128_S2000x128_1_0_0_1_n_n.lhsIdx j k (0 : Fin S2000x128.rank)).val = (j 0).val := by
  unfold DotDims.lhsIdx
  rw [dif_neg (show ¬ (0 : Fin S2000x128.rank) ∈ dot_S2000x128_S128x128_S2000x128_1_0_0_1_n_n.lhsBatch from fun h => nomatch h),
    dif_pos (show (0 : Fin S2000x128.rank) ∈ dot_S2000x128_S128x128_S2000x128_1_0_0_1_n_n.lhsNonContracting from List.mem_singleton.mpr rfl)]
  rfl

/-- The block product's left operand index, column coordinate: the contraction position. -/
theorem lhs_blockdot_1 (j : S2000x128.Idx) (k : dot_S2000x128_S128x128_S2000x128_1_0_0_1_n_n.contr.Idx) :
    (dot_S2000x128_S128x128_S2000x128_1_0_0_1_n_n.lhsIdx j k (1 : Fin S2000x128.rank)).val = (k ⟨0, Nat.one_pos⟩).val :=
  dot_S2000x128_S128x128_S2000x128_1_0_0_1_n_n.lhsIdx_val_of_single rfl j k

/-- The block product's right operand index, row coordinate: the contraction position. -/
theorem rhs_blockdot_0 (j : S2000x128.Idx) (k : dot_S2000x128_S128x128_S2000x128_1_0_0_1_n_n.contr.Idx) :
    (dot_S2000x128_S128x128_S2000x128_1_0_0_1_n_n.rhsIdx j k (0 : Fin S128x128.rank)).val = (k ⟨0, Nat.one_pos⟩).val :=
  dot_S2000x128_S128x128_S2000x128_1_0_0_1_n_n.rhsIdx_val_of_single rfl j k

/-- The block product's right operand index, column coordinate: the output's column. -/
theorem rhs_blockdot_1 (j : S2000x128.Idx) (k : dot_S2000x128_S128x128_S2000x128_1_0_0_1_n_n.contr.Idx) :
    (dot_S2000x128_S128x128_S2000x128_1_0_0_1_n_n.rhsIdx j k (1 : Fin S128x128.rank)).val = (j 1).val := by
  unfold DotDims.rhsIdx
  rw [dif_neg (show ¬ (1 : Fin S128x128.rank) ∈ dot_S2000x128_S128x128_S2000x128_1_0_0_1_n_n.rhsBatch from fun h => nomatch h),
    dif_pos (show (1 : Fin S128x128.rank) ∈ dot_S2000x128_S128x128_S2000x128_1_0_0_1_n_n.rhsNonContracting from List.mem_singleton.mpr rfl)]
  rfl

/-- The block product at row `r`, column `q`, into a zero accumulator: the sum over the 128 contraction positions. -/
theorem blockdot_apply (x : FVec Ideal S2000x128 .bf16) (y : FVec Ideal S128x128 .bf16) (r : Fin 2000) (q : Fin 128) :
    matmul (F := Ideal) dot_S2000x128_S128x128_S2000x128_1_0_0_1_n_n none x y (constant (F := Ideal) S2000x128 .f32 0x00000000#32) (ix2 r q)
      = ∑ k : Fin 128, x (ix2 r k) * y (ix2 k q) := by
  refine (Ideal.matmul_constant_zero_apply dot_S2000x128_S128x128_S2000x128_1_0_0_1_n_n none x y (ix2 r q)).trans ?_
  refine (Equiv.sum_comp (contrEquiv1 dot_S2000x128_S128x128_S2000x128_1_0_0_1_n_n 128 rfl rfl).symm _).symm.trans ?_
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 r q) ((contrEquiv1 dot_S2000x128_S128x128_S2000x128_1_0_0_1_n_n 128 rfl rfl).symm k) = ix2 r k := by
    funext a; apply Fin.ext
    match a with
    | ⟨0, _⟩ => exact lhs_blockdot_0 _ _
    | ⟨1, _⟩ => exact (lhs_blockdot_1 _ _).trans hk
  have hr : dot_S2000x128_S128x128_S2000x128_1_0_0_1_n_n.rhsIdx (ix2 r q) ((contrEquiv1 dot_S2000x128_S128x128_S2000x128_1_0_0_1_n_n 128 rfl rfl).symm k) = ix2 k q := by
    funext a; apply Fin.ext
    match a with
    | ⟨0, _⟩ => exact (rhs_blockdot_0 _ _).trans hk
    | ⟨1, _⟩ => exact rhs_blockdot_1 _ _
  rw [hl, hr]

/-- The whole-array product's left operand index, row coordinate: the output's row. -/
theorem lhs_arraydot_0 (j : S80000x128.Idx) (k : Cert.ReferenceIdeal.dot_S80000x128_S128x128_S80000x128_1_0_0_1_n_n.contr.Idx) :
    (Cert.ReferenceIdeal.dot_S80000x128_S128x128_S80000x128_1_0_0_1_n_n.lhsIdx j k (0 : Fin S80000x128.rank)).val = (j 0).val := by
  unfold DotDims.lhsIdx
  rw [dif_neg (show ¬ (0 : Fin S80000x128.rank) ∈ Cert.ReferenceIdeal.dot_S80000x128_S128x128_S80000x128_1_0_0_1_n_n.lhsBatch from fun h => nomatch h),
    dif_pos (show (0 : Fin S80000x128.rank) ∈ Cert.ReferenceIdeal.dot_S80000x128_S128x128_S80000x128_1_0_0_1_n_n.lhsNonContracting from List.mem_singleton.mpr rfl)]
  rfl

/-- The whole-array product's left operand index, column coordinate: the contraction position. -/
theorem lhs_arraydot_1 (j : S80000x128.Idx) (k : Cert.ReferenceIdeal.dot_S80000x128_S128x128_S80000x128_1_0_0_1_n_n.contr.Idx) :
    (Cert.ReferenceIdeal.dot_S80000x128_S128x128_S80000x128_1_0_0_1_n_n.lhsIdx j k (1 : Fin S80000x128.rank)).val = (k ⟨0, Nat.one_pos⟩).val :=
  Cert.ReferenceIdeal.dot_S80000x128_S128x128_S80000x128_1_0_0_1_n_n.lhsIdx_val_of_single rfl j k

/-- The whole-array product's right operand index, row coordinate: the contraction position. -/
theorem rhs_arraydot_0 (j : S80000x128.Idx) (k : Cert.ReferenceIdeal.dot_S80000x128_S128x128_S80000x128_1_0_0_1_n_n.contr.Idx) :
    (Cert.ReferenceIdeal.dot_S80000x128_S128x128_S80000x128_1_0_0_1_n_n.rhsIdx j k (0 : Fin S128x128.rank)).val = (k ⟨0, Nat.one_pos⟩).val :=
  Cert.ReferenceIdeal.dot_S80000x128_S128x128_S80000x128_1_0_0_1_n_n.rhsIdx_val_of_single rfl j k

/-- The whole-array product's right operand index, column coordinate: the output's column. -/
theorem rhs_arraydot_1 (j : S80000x128.Idx) (k : Cert.ReferenceIdeal.dot_S80000x128_S128x128_S80000x128_1_0_0_1_n_n.contr.Idx) :
    (Cert.ReferenceIdeal.dot_S80000x128_S128x128_S80000x128_1_0_0_1_n_n.rhsIdx j k (1 : Fin S128x128.rank)).val = (j 1).val := by
  unfold DotDims.rhsIdx
  rw [dif_neg (show ¬ (1 : Fin S128x128.rank) ∈ Cert.ReferenceIdeal.dot_S80000x128_S128x128_S80000x128_1_0_0_1_n_n.rhsBatch from fun h => nomatch h),
    dif_pos (show (1 : Fin S128x128.rank) ∈ Cert.ReferenceIdeal.dot_S80000x128_S128x128_S80000x128_1_0_0_1_n_n.rhsNonContracting from List.mem_singleton.mpr rfl)]
  rfl

/-- The reference's product at row `p`, column `q`: the sum over the 128 contraction positions. -/
theorem arraydot_apply (a : FVec Ideal S80000x128 .f32) (w : FVec Ideal S128x128 .f32) (p : Fin 80000) (q : Fin 128) :
    Host.dotGeneral (F := Ideal) Cert.ReferenceIdeal.dot_S80000x128_S128x128_S80000x128_1_0_0_1_n_n none a w (ix2 p q)
      = ∑ k : Fin 128, a (ix2 p k) * w (ix2 k q) := by
  simp only [Host.dotGeneral]
  refine (Ideal.dotGeneral_apply Cert.ReferenceIdeal.dot_S80000x128_S128x128_S80000x128_1_0_0_1_n_n none _ a w (ix2 p q)).trans ?_
  refine (Equiv.sum_comp (contrEquiv1 Cert.ReferenceIdeal.dot_S80000x128_S128x128_S80000x128_1_0_0_1_n_n 128 rfl rfl).symm _).symm.trans ?_
  refine Finset.sum_congr rfl fun k _ => ?_
  have hk := contrEquiv1_symm_val Cert.ReferenceIdeal.dot_S80000x128_S128x128_S80000x128_1_0_0_1_n_n 128 rfl rfl k
  have hl : Cert.ReferenceIdeal.dot_S80000x128_S128x128_S80000x128_1_0_0_1_n_n.lhsIdx (ix2 p q) ((contrEquiv1 Cert.ReferenceIdeal.dot_S80000x128_S128x128_S80000x128_1_0_0_1_n_n 128 rfl rfl).symm k) = ix2 p k := by
    funext x; apply Fin.ext
    match x with
    | ⟨0, _⟩ => exact lhs_arraydot_0 _ _
    | ⟨1, _⟩ => exact (lhs_arraydot_1 _ _).trans hk
  have hr : Cert.ReferenceIdeal.dot_S80000x128_S128x128_S80000x128_1_0_0_1_n_n.rhsIdx (ix2 p q) ((contrEquiv1 Cert.ReferenceIdeal.dot_S80000x128_S128x128_S80000x128_1_0_0_1_n_n 128 rfl rfl).symm k) = ix2 k q := by
    funext x; apply Fin.ext
    match x with
    | ⟨0, _⟩ => exact (rhs_arraydot_0 _ _).trans hk
    | ⟨1, _⟩ => exact rhs_arraydot_1 _ _
  rw [hl, hr]

/-! ## The bias row, repeated down the rows -/

/-- The kernel's bias term: the row `b`, given a leading unit axis and repeated over the block's 2000 rows, read at
    row `r`, column `q`, is `b q`. -/
theorem blockbias_apply (b : Vec Ideal S128 .f32) (r : Fin 2000) (q : Fin 128) :
    broadcastTo S2000x128 (shapeCast S1x128 (shapeCast S128 b shapeCasts_S128_S128) shapeCasts_S128_S1x128) broadcasts_S1x128_S2000x128 (ix2 r q)
      = b (ix1 q) := by
  refine (broadcastTo_apply _ broadcasts_S1x128_S2000x128 (ix2 r q) (ix2 (0 : Fin 1) q)
    (fun a => by match a with | ⟨0, _⟩ => rfl | ⟨1, _⟩ => rfl)).trans ?_
  refine (shapeCast_addUnit_apply ![128] _ shapeCasts_S128_S1x128 (ix2 (0 : Fin 1) q)).trans ?_
  rw [shapeCast_self]
  exact congrArg b (funext fun a => by match a with | ⟨0, _⟩ => rfl)

/-- The reference's bias term: the row `b`, given a leading unit axis and repeated over all 80000 rows, read at row
    `p`, column `q`, is `b q`. -/
theorem arraybias_apply (b : Vec Ideal S128 .f32) (p : Fin 80000) (q : Fin 128) :
    broadcastInDim S80000x128 ![0, 1] Cert.ReferenceIdeal.Facts₀.bcast_S1x128_S80000x128_0_1
        (broadcastInDim S1x128 ![1] Cert.ReferenceIdeal.Facts₀.bcast_S128_S1x128_1 b) (ix2 p q)
      = b (ix1 q) := by
  refine (broadcastInDim_apply ![0, 1] Cert.ReferenceIdeal.Facts₀.bcast_S1x128_S80000x128_0_1 _ (ix2 p q) (ix2 (0 : Fin 1) q)
    (fun a => by match a with | ⟨0, _⟩ => rfl | ⟨1, _⟩ => rfl)).trans ?_
  exact broadcastInDim_apply ![1] Cert.ReferenceIdeal.Facts₀.bcast_S128_S1x128_1 b (ix2 (0 : Fin 1) q) (ix1 q)
    (fun a => by match a with | ⟨0, _⟩ => rfl)

/-! ## The body's stored value and the reference's layer, index by index -/

/-- What the body stores at row `r`, column `q` of its block: the casts to the narrower format and back are the
    identity on the extended reals, the product starts from a zero accumulator, and the bias row is added. -/
theorem payload_apply (x : Vec Ideal S2000x128 .f32) (w : Vec Ideal S128x128 .f32) (b : Vec Ideal S128 .f32) (r : Fin 2000) (q : Fin 128) :
    k8_pay1 (F := Ideal) x w b (ix2 r q) = (∑ k : Fin 128, x (ix2 r k) * w (ix2 k q)) + b (ix1 q) := by
  unfold k8_pay1
  refine congrArg₂ (· + ·) ?_ (blockbias_apply b r q)
  refine (blockdot_apply _ _ r q).trans ?_
  refine Finset.sum_congr rfl fun k _ => ?_
  refine congrArg₂ (· * ·) ?_ ?_
  · exact congrFun (shapeCast_self x shapeCasts_S2000x128_S2000x128) (ix2 r k)
  · exact congrFun (shapeCast_self w shapeCasts_S128x128_S128x128) (ix2 k q)

/-- The reference's layer at row `p`, column `q`. -/
theorem layer_apply (a : Vec Ideal S80000x128 .f32) (w : Vec Ideal S128x128 .f32) (b : Vec Ideal S128 .f32) (p : Fin 80000) (q : Fin 128) :
    Cert.Spec.linD (F := Ideal) a w b (ix2 p q) = (∑ k : Fin 128, a (ix2 p k) * w (ix2 k q)) + b (ix1 q) := by
  unfold Cert.Spec.linD
  exact congrArg₂ (· + ·) (arraydot_apply a w p q) (arraybias_apply b p q)

/-- One stored entry against the layer: where row `r` of a block holds row `2000 n + r` of the array `a`, the body's
    stored value at `(r, q)` is the layer's value at `(2000 n + r, q)`. -/
theorem stored_eq_layer (x : Vec Ideal S2000x128 .f32) (w : Vec Ideal S128x128 .f32) (b : Vec Ideal S128 .f32)
    (a : Vec Ideal S80000x128 .f32) (n : Nat) (hn : n < 40) (r : Fin 2000) (q : Fin 128)
    (hrow : ∀ k : Fin 128, x (ix2 r k) = a (ix2 (⟨n * 2000 + r.val, by have := r.isLt; omega⟩ : Fin 80000) k)) :
    k8_pay1 (F := Ideal) x w b (ix2 r q)
      = Cert.Spec.linD (F := Ideal) a w b (ix2 (⟨n * 2000 + r.val, by have := r.isLt; omega⟩ : Fin 80000) q) := by
  rw [payload_apply, layer_apply]
  exact congrArg (· + b (ix1 q)) (Finset.sum_congr rfl fun k _ => by rw [hrow k])

/-! ## From the blocks to the array

  Grid point `t` reads rows `2000 t … 2000 t + 1999` of `a`, the whole of `w` and `b`, and writes the same rows of the
  output. So what each point writes back is its block of the layer applied to the whole arrays, and the 40 blocks
  tile the 80000 rows. -/

/-- The body's loads and its one store all start at the origin of their blocks. -/
theorem origin2 : (![0, 0] : Fin 2 → Nat) = fun _ => 0 := funext fun a => by match a with | ⟨0, _⟩ => rfl | ⟨1, _⟩ => rfl
theorem origin1 : (![0] : Fin 1 → Nat) = fun _ => 0 := funext fun a => by match a with | ⟨0, _⟩ => rfl

/-- The printed index maps, decided over the 40 grid points: the row-block index of `a` and of the output is the
    point's number, every other block index is 0. -/
theorem index_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 1) = 0
    ∧ win8_3.index t (0 : Fin 2) = t.val ∧ win8_3.index t (1 : Fin 2) = 0 :=
  (by decide +kernel : ∀ t : Fin grid8.N, _)

set_option maxHeartbeats 1000000 in
/-- WHAT POINT `t` WRITES BACK is block `t` of the layer applied to the three input arrays as the region finds them. -/
theorem flushed_eq (V : (c : Dev nD) → (b : Ref sig .tc) → Buf (Elt Ideal) ((c : Thread nD τ).loc b)) (c : Dev nD) (t : Fin cfg8.N) :
    (dat8 (F := Ideal) V c).flushed 3 t = ((cfg8.win 3).blk t).view.read (Elt Ideal)
      (Cert.Spec.linD (F := Ideal) (V c (Pipeline.arrRef spec8 0)) (V c (Pipeline.arrRef spec8 1)) (V c (Pipeline.arrRef spec8 2))) := by
  show (cfg8.win 3).cut (grid8.coords t) ((dat8 (F := Ideal) V c).after 3 t) = _
  rw [after8_3]
  unfold out8_3
  rw [View.canon_unit_zero origin2]
  simp only [View.ld_unit_zero (S := S2000x128) origin2, View.ld_unit_zero (S := S128x128) origin2, View.ld_unit_zero (S := S128) origin1]
  obtain ⟨e00, e01, e10, e11, e20, e30, e31⟩ := index_facts t
  have hw : (iblk8 (F := Ideal) V c 1 t : Vec Ideal S128x128 .f32) = (V c (Pipeline.arrRef spec8 1)) := by
    funext y
    show (V c (Pipeline.arrRef spec8 1)) (((cfg8.win 1).blk t).view.emb y) = (V c (Pipeline.arrRef spec8 1)) y
    refine congrArg (V c (Pipeline.arrRef spec8 1)) (funext fun a => Fin.ext ?_)
    match a with
    | ⟨0, _⟩ => show win8_1.index t (0 : Fin 2) * 128 + 1 * (y 0).val = (y 0).val; omega
    | ⟨1, _⟩ => show win8_1.index t (1 : Fin 2) * 128 + 1 * (y 1).val = (y 1).val; omega
  have hb : (iblk8 (F := Ideal) V c 2 t : Vec Ideal S128 .f32) = (V c (Pipeline.arrRef spec8 2)) := by
    funext y
    show (V c (Pipeline.arrRef spec8 2)) (((cfg8.win 2).blk t).view.emb y) = (V c (Pipeline.arrRef spec8 2)) y
    refine congrArg (V c (Pipeline.arrRef spec8 2)) (funext fun a => Fin.ext ?_)
    match a with
    | ⟨0, _⟩ => show win8_2.index t (0 : Fin 1) * 128 + 1 * (y 0).val = (y 0).val; omega
  funext (j : S2000x128.Idx)
  obtain ⟨r, q, rfl⟩ : ∃ (r : Fin 2000) (q : Fin 128), j = ix2 r q := ⟨j 0, j 1, eq_ix2 j⟩
  show k8_pay1 (F := Ideal) (iblk8 (F := Ideal) V c 0 t) (iblk8 (F := Ideal) V c 1 t) (iblk8 (F := Ideal) V c 2 t) (ix2 r q)
    = Cert.Spec.linD (F := Ideal) (V c (Pipeline.arrRef spec8 0)) (V c (Pipeline.arrRef spec8 1)) (V c (Pipeline.arrRef spec8 2)) (((cfg8.win 3).blk t).view.emb (ix2 r q))
  refine (congrArg₂ (fun w b => k8_pay1 (F := Ideal) (iblk8 (F := Ideal) V c 0 t) w b (ix2 r q)) hw hb).trans ?_
  refine (stored_eq_layer (iblk8 (F := Ideal) V c 0 t) (V c (Pipeline.arrRef spec8 1)) (V c (Pipeline.arrRef spec8 2)) (V c (Pipeline.arrRef spec8 0)) t.val (show t.val < 40 from t.isLt) r q ?_).trans ?_
  · intro k
    show (V c (Pipeline.arrRef spec8 0)) (((cfg8.win 0).blk t).view.emb (ix2 r k)) = _
    refine congrArg _ (funext fun a => Fin.ext ?_)
    match a with
    | ⟨0, _⟩ => show win8_0.index t (0 : Fin 2) * 2000 + 1 * r.val = t.val * 2000 + r.val; omega
    | ⟨1, _⟩ => show win8_0.index t (1 : Fin 2) * 128 + 1 * k.val = k.val; omega
  · refine congrArg _ (funext fun a => Fin.ext ?_)
    match a with
    | ⟨0, _⟩ => show t.val * 2000 + r.val = win8_3.index t (0 : Fin 2) * 2000 + 1 * r.val; omega
    | ⟨1, _⟩ => show q.val = win8_3.index t (1 : Fin 2) * 128 + 1 * q.val; omega

/-- An index of the output array is in point `t`'s block iff each coordinate is in the block's range on its axis. -/
theorem mem_block (t : Fin cfg8.N) (i : S80000x128.Idx) :
    i ∈ ((cfg8.win 3).blk t).view.set ↔ ∀ a : Fin 2, win8_3.index t a * S2000x128.size a ≤ (i a).val ∧ (i a).val < win8_3.index t a * S2000x128.size a + S2000x128.size a := by
  show i ∈ ((View.whole (Pipeline.arrRef spec8 3)).slice (win8_3.rect t)).set ↔ _
  rw [View.set_slice_whole, Rect.mem_set_unit]
  exact Iff.rfl

/-- THE COVER: row `p` of the output is written by point `p / 2000`. -/
theorem cover (i : S80000x128.Idx) : ∃ t : Fin cfg8.N, (cfg8.win 3).flush t = true ∧ i ∈ ((cfg8.win 3).blk t).view.set := by
  have h0 : (i 0).val < 80000 := (i 0).isLt
  have h1 : (i 1).val < 128 := (i 1).isLt
  have ht : (i 0).val / 2000 < cfg8.N := by show (i 0).val / 2000 < 40; omega
  obtain ⟨-, -, -, -, -, e30, e31⟩ := index_facts ⟨(i 0).val / 2000, ht⟩
  have e30' : win8_3.index ⟨(i 0).val / 2000, ht⟩ (0 : Fin 2) = (i 0).val / 2000 := e30
  refine ⟨⟨(i 0).val / 2000, ht⟩, flush8_3 _, ?_⟩
  rw [mem_block]
  intro a
  match a with
  | ⟨0, _⟩ =>
    show win8_3.index ⟨(i 0).val / 2000, ht⟩ (0 : Fin 2) * 2000 ≤ (i 0).val ∧ (i 0).val < win8_3.index ⟨(i 0).val / 2000, ht⟩ (0 : Fin 2) * 2000 + 2000
    omega
  | ⟨1, _⟩ =>
    show win8_3.index ⟨(i 0).val / 2000, ht⟩ (1 : Fin 2) * 128 ≤ (i 1).val ∧ (i 1).val < win8_3.index ⟨(i 0).val / 2000, ht⟩ (1 : Fin 2) * 128 + 128
    omega

end Region8

variable [Cert.KernelIdeal.Facts] [Cert.ReferenceIdeal.Facts]

/-- THE OUTPUT ARRAY of region 8 after its 40 grid points: the reference's linear layer of the three input arrays as
    the region finds them. -/
theorem region8_value (V : (c : Dev nD) → (b : Ref sig .tc) → Buf (Elt Ideal) ((c : Thread nD τ).loc b)) (c : Dev nD) :
    (dat8 (F := Ideal) V c).arrAt 3 cfg8.N
      = Cert.Spec.linD (F := Ideal) (V c (Pipeline.arrRef spec8 0)) (V c (Pipeline.arrRef spec8 1)) (V c (Pipeline.arrRef spec8 2)) :=
  (dat8 (F := Ideal) V c).arrAt_eq_of_cover 3 _ (fun t _ => Region8.flushed_eq V c t) Region8.cover

end Cert.KernelIdeal.RegionValue
-- ==== Proof.Region9.lean ====
import proofs.«116822_j38594576122568_1_alg».proof.Proof.Gen.KernelIdeal.Frame
import proofs.«116822_j38594576122568_1_alg».proof.Proof.SpecLayers
import Idealize.ShloMosaic.Lib.Pipeline.Value
import Idealize.ShloMosaic.Lib.ValueIdx
import Idealize.ShloMosaic.Lib.ValueLayout
import Idealize.ShloMosaic.PureOps.Ideal.Laws

/-! What region 9 of the kernel program leaves in its output array. The region multiplies an array of 20000 rows and 128
    columns by a 128 by 128 weight matrix and adds a bias row of 128 entries, 2000 rows per grid point. Read at an index, the
    body's stored block is (∑ k, a(p,k) · w(k,q)) + b(q) on the extended reals, and so is the reference's linear layer;
    the 10 blocks are the 10 row ranges of one whole-array function, and they fill the array. -/

noncomputable section

namespace Cert.KernelIdeal.RegionValue

open Cert.KernelIdeal Cert.KernelIdeal.Gen Idealize.ShloMosaic Idealize.ShloMosaic.TcCoe Idealize.SL.Sem
open Idealize.ShloMosaic.ValueIdx
open scoped BigOperators

-- The kernel program's side conditions are read at the instance the generated modules provide, as the generated frame
-- does; the reference's are a parameter.
variable [Cert.ReferenceIdeal.Facts]

/-! ## The block product at an index

The kernel's product contracts the left block's axis 1 with the right block's axis 0. At output index
`(p, q)` and contraction position `k` the left operand is read at `(p, k)` and the right one at `(k, q)`:
one lemma per operand axis, stated at the literal axis. -/

/-- Left operand, axis 0 (a free axis): the output's row. -/
theorem lhs_blk9_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- Left operand, axis 1 (the contracted axis): the contraction position. -/
theorem lhs_blk9_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- Right operand, axis 0 (the contracted axis): the contraction position. -/
theorem rhs_blk9_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- Right operand, axis 1 (a free axis): the output's column. -/
theorem rhs_blk9_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at `(p, q)`: the sum over the 128 contraction positions of the
    products of the operands' entries. -/
theorem blockProduct9_apply (x : FVec Ideal S2000x128 .bf16) (y : FVec Ideal S128x128 .bf16) (p : Fin 2000) (q : Fin 128) :
    matmul (F := Ideal) dot_S2000x128_S128x128_S2000x128_1_0_0_1_n_n none x y (constant (F := Ideal) S2000x128 .f32 0x00000000#32) (ix2 p q)
      = ∑ k : Fin 128, x (ix2 p k) * y (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_blk9_0 _ _
    | ⟨1, _⟩ => exact (lhs_blk9_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_blk9_0 _ _).trans hk
    | ⟨1, _⟩ => exact rhs_blk9_1 _ _)
  rw [el, er]

/-- The bias row repeated down the 2000 rows of a block, at `(p, q)`: the bias at `q`. -/
theorem blockBias9_apply (z : Vec Ideal S128 .f32) (p : Fin 2000) (q : Fin 128) :
    broadcastTo S2000x128 (shapeCast S1x128 z shapeCasts_S128_S1x128) broadcasts_S1x128_S2000x128 (ix2 p q) = z (ix1 q) := by
  rw [broadcastTo_1b_ab_apply, shapeCast_a_1a_apply]

/-- THE BODY'S RESULT AT AN INDEX: what the body stores at `(p, q)` of its output block is the row `p` of the
    left block times the column `q` of the weights, plus the bias at `q` (the body first recasts each block to
    its own shape, which changes nothing, and the narrowing of the operands to the product's input format is the identity
    on extended reals). -/
theorem blockPayload9_apply (x0 : Vec Ideal S2000x128 .f32) (x1 : Vec Ideal S128x128 .f32) (x2 : Vec Ideal S128 .f32) (p : Fin 2000) (q : Fin 128) :
    k9_pay1 (F := Ideal) x0 x1 x2 (ix2 p q) = (∑ k : Fin 128, x0 (ix2 p k) * x1 (ix2 k q)) + x2 (ix1 q) := by
  unfold k9_pay1
  simp only [shapeCast_self]
  rw [addf_apply, blockProduct9_apply, blockBias9_apply]
  rfl

/-! ## The reference's linear layer at an index

The host product contracts the array's axis 1 with the weights' axis 0, exactly as the block product does, over the
whole 20000 rows; the bias row is first given a leading unit axis and then repeated down the rows. -/

/-- Left operand, axis 0 (a free axis): the output's row. -/
theorem lhs_arr9_0 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.lhsIdx i q 0).val = (i 0).val := by
  unfold DotDims.lhsIdx
  rw [dif_neg (show ¬(0 : Fin Cert.ReferenceIdeal.S20000x128.rank) ∈ Cert.ReferenceIdeal.dot_S20000x128_S128x128_S20000x128_1_0_0_1_n_n.lhsBatch from (by decide : ¬(0 : Fin 2) ∈ ([] : List (Fin 2)))),
    dif_pos (show (0 : Fin Cert.ReferenceIdeal.S20000x128.rank) ∈ Cert.ReferenceIdeal.dot_S20000x128_S128x128_S20000x128_1_0_0_1_n_n.lhsNonContracting from (by decide : (0 : Fin 2) ∈ ([0] : List (Fin 2))))]
  rfl

/-- Left operand, axis 1 (the contracted axis): the contraction position. -/
theorem lhs_arr9_1 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.lhsIdx i q 1).val = (q ⟨0, Nat.one_pos⟩).val :=
  Cert.ReferenceIdeal.dot_S20000x128_S128x128_S20000x128_1_0_0_1_n_n.lhsIdx_val_of_single rfl i q

/-- Right operand, axis 0 (the contracted axis): the contraction position. -/
theorem rhs_arr9_0 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.rhsIdx i q 0).val = (q ⟨0, Nat.one_pos⟩).val :=
  Cert.ReferenceIdeal.dot_S20000x128_S128x128_S20000x128_1_0_0_1_n_n.rhsIdx_val_of_single rfl i q

/-- Right operand, axis 1 (a free axis): the output's column. -/
theorem rhs_arr9_1 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.rhsIdx i q 1).val = (i 1).val := by
  unfold DotDims.rhsIdx
  rw [dif_neg (show ¬(1 : Fin Cert.ReferenceIdeal.S128x128.rank) ∈ Cert.ReferenceIdeal.dot_S20000x128_S128x128_S20000x128_1_0_0_1_n_n.rhsBatch from (by decide : ¬(1 : Fin 2) ∈ ([] : List (Fin 2)))),
    dif_pos (show (1 : Fin Cert.ReferenceIdeal.S128x128.rank) ∈ Cert.ReferenceIdeal.dot_S20000x128_S128x128_S20000x128_1_0_0_1_n_n.rhsNonContracting from (by decide : (1 : Fin 2) ∈ ([1] : List (Fin 2))))]
  rfl

/-- The host product at `(p, q)`: the sum over the 128 contraction positions of the products of the operands' entries. -/
theorem arrayProduct9_apply (a : FVec Ideal Cert.ReferenceIdeal.S20000x128 .f32) (w : FVec Ideal Cert.ReferenceIdeal.S128x128 .f32) (p : Fin 20000) (q : Fin 128) :
    Host.dotGeneral (F := Ideal) Cert.ReferenceIdeal.dot_S20000x128_S128x128_S20000x128_1_0_0_1_n_n none a w (ix2 p q)
      = ∑ k : Fin 128, a (ix2 p k) * w (ix2 k q) := by
  simp only [Host.dotGeneral]
  rw [Ideal.dotGeneral_apply, ← Equiv.sum_comp (contrEquiv1 Cert.ReferenceIdeal.dot_S20000x128_S128x128_S20000x128_1_0_0_1_n_n 128 rfl rfl).symm]
  refine Finset.sum_congr rfl fun k _ => ?_
  have hk := contrEquiv1_symm_val Cert.ReferenceIdeal.dot_S20000x128_S128x128_S20000x128_1_0_0_1_n_n 128 rfl rfl k
  have el : Cert.ReferenceIdeal.dot_S20000x128_S128x128_S20000x128_1_0_0_1_n_n.lhsIdx (ix2 p q) ((contrEquiv1 Cert.ReferenceIdeal.dot_S20000x128_S128x128_S20000x128_1_0_0_1_n_n 128 rfl rfl).symm k) = ix2 p k := funext fun a => Fin.ext (by
    match a with
    | ⟨0, _⟩ => exact lhs_arr9_0 _ _
    | ⟨1, _⟩ => exact (lhs_arr9_1 _ _).trans hk)
  have er : Cert.ReferenceIdeal.dot_S20000x128_S128x128_S20000x128_1_0_0_1_n_n.rhsIdx (ix2 p q) ((contrEquiv1 Cert.ReferenceIdeal.dot_S20000x128_S128x128_S20000x128_1_0_0_1_n_n 128 rfl rfl).symm k) = ix2 k q := funext fun a => Fin.ext (by
    match a with
    | ⟨0, _⟩ => exact (rhs_arr9_0 _ _).trans hk
    | ⟨1, _⟩ => exact rhs_arr9_1 _ _)
  rw [el, er]

/-- The bias row given a leading unit axis and repeated down the 20000 rows, at `(p, q)`: the bias at `q`. -/
theorem arrayBias9_apply (b : (⟨Cert.ReferenceIdeal.S128, .f32⟩ : BufTy).Contents (Elt Ideal)) (p : Fin 20000) (q : Fin 128) :
    broadcastInDim Cert.ReferenceIdeal.S20000x128 ![0, 1] Cert.ReferenceIdeal.Facts₀.bcast_S1x128_S20000x128_0_1 (broadcastInDim Cert.ReferenceIdeal.S1x128 ![1] Cert.ReferenceIdeal.Facts₀.bcast_S128_S1x128_1 b) (ix2 p q) = b (ix1 q) := by
  rw [broadcastInDim_apply _ _ _ (ix2 p q) (ix2 (0 : Fin 1) q) (fun a => by match a with | ⟨0, _⟩ => rfl | ⟨1, _⟩ => rfl),
    broadcastInDim_apply _ _ _ (ix2 (0 : Fin 1) q) (ix1 q) (fun a => by match a with | ⟨0, _⟩ => rfl)]

/-- THE REFERENCE'S LINEAR LAYER AT AN INDEX: row `p` of the array times column `q` of the weights, plus the bias at `q`. -/
theorem linear9_apply (a : (⟨Cert.ReferenceIdeal.S20000x128, .f32⟩ : BufTy).Contents (Elt Ideal)) (w : (⟨Cert.ReferenceIdeal.S128x128, .f32⟩ : BufTy).Contents (Elt Ideal)) (b : (⟨Cert.ReferenceIdeal.S128, .f32⟩ : BufTy).Contents (Elt Ideal)) (p : Fin 20000) (q : Fin 128) :
    Cert.Spec.linE (F := Ideal) a w b (ix2 p q) = (∑ k : Fin 128, a (ix2 p k) * w (ix2 k q)) + b (ix1 q) := by
  unfold Cert.Spec.linE
  beta_reduce
  rw [addf_apply, arrayProduct9_apply, arrayBias9_apply]

/-! ## From the blocks to the array

Grid point `t` works on rows `2000 t … 2000 t + 1999`: its left block is those rows of the array, the weights and
the bias are read whole, and what it writes back is those rows of the linear layer of the three arrays. The 10
points' row ranges fill the 20000 rows. -/

theorem zeroOffsets9_2 : (![0, 0] : Fin 2 → Nat) = fun _ => 0 :=
  funext fun a => by match a with | ⟨0, _⟩ => rfl | ⟨1, _⟩ => rfl

theorem zeroOffsets9_1 : (![0] : Fin 1 → Nat) = fun _ => 0 :=
  funext fun a => by match a with | ⟨0, _⟩ => rfl

/-- The printed index maps, decided once over the grid: the left block moves down the rows with the output block, the
    weights' and the bias's block indices are zero, and the output's row-block index is the point's number. -/
theorem blockIndices9 : ∀ t : Fin cfg9.N,
    win9_0.index t (0 : Fin 2) = win9_3.index t (0 : Fin 2) ∧ win9_0.index t (1 : Fin 2) = 0
    ∧ win9_1.index t (0 : Fin 2) = 0 ∧ win9_1.index t (1 : Fin 2) = 0
    ∧ win9_2.index t (0 : Fin 1) = 0
    ∧ win9_3.index t (0 : Fin 2) = t.val ∧ win9_3.index t (1 : Fin 2) = 0
    ∧ win9_3.index t (0 : Fin 2) ≤ 9 :=
  (by decide +kernel : ∀ t : Fin grid9.N, _)

/-- ONE BLOCK OF THE LINEAR LAYER. If the left block `x0` is rows `2000 n …` of the array `A`, and the weights' and the
    bias's blocks are the arrays `W` and `B` themselves, the body's result at `(p, q)` is the linear layer of `A`, `W`, `B`
    at `(2000 n + p, q)`. -/
theorem blockOfLinear9 (A : (⟨Cert.ReferenceIdeal.S20000x128, .f32⟩ : BufTy).Contents (Elt Ideal)) (W : (⟨Cert.ReferenceIdeal.S128x128, .f32⟩ : BufTy).Contents (Elt Ideal)) (B : (⟨Cert.ReferenceIdeal.S128, .f32⟩ : BufTy).Contents (Elt Ideal))
    (x0 : Vec Ideal S2000x128 .f32) (x1 : Vec Ideal S128x128 .f32) (x2 : Vec Ideal S128 .f32) (n : Nat) (hn : n ≤ 9)
    (h0 : ∀ (p : Fin 2000) (k : Fin 128), x0 (ix2 p k) = A (ix2 (⟨n * 2000 + p.val, by have := p.isLt; omega⟩ : Fin 20000) k))
    (h1 : ∀ (k : Fin 128) (q : Fin 128), x1 (ix2 k q) = W (ix2 k q))
    (h2 : ∀ q : Fin 128, x2 (ix1 q) = B (ix1 q))
    (p : Fin 2000) (q : Fin 128) :
    k9_pay1 (F := Ideal) x0 x1 x2 (ix2 p q)
      = Cert.Spec.linE (F := Ideal) A W B (ix2 (⟨n * 2000 + p.val, by have := p.isLt; omega⟩ : Fin 20000) q) := by
  rw [blockPayload9_apply, linear9_apply]
  simp only [h0, h1, h2]

-- reading an array's shape off the program's buffer table costs more the later the buffer stands in it
set_option maxHeartbeats 4000000 in
/-- WHAT POINT `t` WRITES BACK is block `t` of the linear layer of the three arrays as the region finds them. -/
theorem flushed9_eq (V : (c : Dev nD) → (b : Ref sig .tc) → Buf (Elt Ideal) ((c : Thread nD τ).loc b)) (c : Dev nD) (t : Fin cfg9.N) :
    (dat9 (F := Ideal) V c).flushed 3 t = ((cfg9.win 3).blk t).view.read (Elt Ideal)
      (Cert.Spec.linE (F := Ideal) (V c (Pipeline.arrRef spec9 0)) (V c (Pipeline.arrRef spec9 1)) (V c (Pipeline.arrRef spec9 2))) := by
  show (cfg9.win 3).cut (grid9.coords t) ((dat9 (F := Ideal) V c).after 3 t) = _
  rw [after9_3]
  unfold out9_3
  rw [View.canon_unit_zero zeroOffsets9_2]
  simp only [View.ld_unit_zero (S := S2000x128) zeroOffsets9_2, View.ld_unit_zero (S := S128x128) zeroOffsets9_2, View.ld_unit_zero (S := S128) zeroOffsets9_1]
  obtain ⟨e00, e01, e10, e11, e20, e30, e31, hle⟩ := blockIndices9 t
  funext (j : S2000x128.Idx)
  obtain ⟨p, q, rfl⟩ : ∃ (p : Fin 2000) (q : Fin 128), j = ix2 p q := ⟨j 0, j 1, eq_ix2 j⟩
  show k9_pay1 (F := Ideal) (iblk9 V c 0 t) (iblk9 V c 1 t) (iblk9 V c 2 t) (ix2 p q)
    = Cert.Spec.linE (F := Ideal) (V c (Pipeline.arrRef spec9 0)) (V c (Pipeline.arrRef spec9 1)) (V c (Pipeline.arrRef spec9 2)) (((cfg9.win 3).blk t).view.emb (ix2 p q))
  refine (blockOfLinear9 (V c (Pipeline.arrRef spec9 0)) (V c (Pipeline.arrRef spec9 1)) (V c (Pipeline.arrRef spec9 2)) (iblk9 V c 0 t) (iblk9 V c 1 t) (iblk9 V c 2 t) (win9_3.index t (0 : Fin 2)) hle ?_ ?_ ?_ p q).trans ?_
  · intro p k
    show V c (Pipeline.arrRef spec9 0) (((cfg9.win 0).blk t).view.emb (ix2 p k)) = _
    refine congrArg _ (funext fun a => Fin.ext ?_)
    match a with
    | ⟨0, _⟩ => show win9_0.index t (0 : Fin 2) * 2000 + 1 * p.val = win9_3.index t (0 : Fin 2) * 2000 + p.val; omega
    | ⟨1, _⟩ => show win9_0.index t (1 : Fin 2) * 128 + 1 * k.val = k.val; omega
  · intro k q
    show V c (Pipeline.arrRef spec9 1) (((cfg9.win 1).blk t).view.emb (ix2 k q)) = _
    refine congrArg _ (funext fun a => Fin.ext ?_)
    match a with
    | ⟨0, _⟩ => show win9_1.index t (0 : Fin 2) * 128 + 1 * k.val = k.val; omega
    | ⟨1, _⟩ => show win9_1.index t (1 : Fin 2) * 128 + 1 * q.val = q.val; omega
  · intro q
    show V c (Pipeline.arrRef spec9 2) (((cfg9.win 2).blk t).view.emb (ix1 q)) = _
    refine congrArg _ (funext fun a => Fin.ext ?_)
    match a with
    | ⟨0, _⟩ => show win9_2.index t (0 : Fin 1) * 128 + 1 * q.val = q.val; omega
  · refine congrArg _ (funext fun a => Fin.ext ?_)
    match a with
    | ⟨0, _⟩ => show win9_3.index t (0 : Fin 2) * 2000 + p.val = win9_3.index t (0 : Fin 2) * 2000 + 1 * p.val; omega
    | ⟨1, _⟩ => show q.val = win9_3.index t (1 : Fin 2) * 128 + 1 * q.val; omega

/-- An index of the array is in point `t`'s output block iff each coordinate is in the block's range on its axis. -/
theorem mem_block9 (t : Fin cfg9.N) (i : S20000x128.Idx) :
    i ∈ ((cfg9.win 3).blk t).view.set ↔ ∀ a : Fin 2, win9_3.index t a * S2000x128.size a ≤ (i a).val ∧ (i a).val < win9_3.index t a * S2000x128.size a + S2000x128.size a := by
  show i ∈ ((View.whole (Pipeline.arrRef spec9 3)).slice (win9_3.rect t)).set ↔ _
  rw [View.set_slice_whole, Rect.mem_set_unit]
  exact Iff.rfl

/-- THE COVER: row `r` is in the block of point `r / 2000`. -/
theorem covered9 (i : S20000x128.Idx) :
    ∃ t : Fin cfg9.N, (cfg9.win 3).flush t = true ∧ i ∈ ((cfg9.win 3).blk t).view.set := by
  have hi0 : (i 0).val < 20000 := (i 0).isLt
  have hi1 : (i 1).val < 128 := (i 1).isLt
  obtain ⟨t, ht⟩ : ∃ t : Fin cfg9.N, t.val = (i 0).val / 2000 :=
    ⟨⟨(i 0).val / 2000, by rw [show cfg9.N = 10 from N_9]; omega⟩, rfl⟩
  obtain ⟨-, -, -, -, -, e30, e31, -⟩ := blockIndices9 t
  refine ⟨t, flush9_3 t, ?_⟩
  rw [mem_block9]
  intro a
  match a with
  | ⟨0, _⟩ => show win9_3.index t (0 : Fin 2) * 2000 ≤ (i 0).val ∧ (i 0).val < win9_3.index t (0 : Fin 2) * 2000 + 2000; omega
  | ⟨1, _⟩ => show win9_3.index t (1 : Fin 2) * 128 ≤ (i 1).val ∧ (i 1).val < win9_3.index t (1 : Fin 2) * 128 + 128; omega

/-- The array after region 9, at the generated instance of the kernel program's side conditions. -/
theorem region9_array (V : (c : Dev nD) → (b : Ref sig .tc) → Buf (Elt Ideal) ((c : Thread nD τ).loc b)) (c : Dev nD) :
    (dat9 (F := Ideal) V c).arrAt 3 cfg9.N
      = Cert.Spec.linE (F := Ideal) (V c (Pipeline.arrRef spec9 0)) (V c (Pipeline.arrRef spec9 1)) (V c (Pipeline.arrRef spec9 2)) :=
  (dat9 (F := Ideal) V c).arrAt_eq_of_cover 3 _ (fun t _ => flushed9_eq V c t) (fun i => covered9 i)

section AnyInstance

variable [Cert.KernelIdeal.Facts]

/-- THE ARRAY after region 9: the linear layer of the region's three input arrays (the kernel program's side conditions
    are propositions, so the statement at any instance of them is the one at the generated instance). -/
theorem region9_value (V : (c : Dev nD) → (b : Ref sig .tc) → Buf (Elt Ideal) ((c : Thread nD τ).loc b)) (c : Dev nD) :
    (dat9 (F := Ideal) V c).arrAt 3 cfg9.N
      = Cert.Spec.linE (F := Ideal) (V c (Pipeline.arrRef spec9 0)) (V c (Pipeline.arrRef spec9 1)) (V c (Pipeline.arrRef spec9 2)) :=
  region9_array V c

end AnyInstance

end Cert.KernelIdeal.RegionValue

end
-- ==== Proof.Region10.lean ====
import proofs.«116822_j38594576122568_1_alg».proof.Proof.Gen.KernelIdeal.Frame
import proofs.«116822_j38594576122568_1_alg».proof.Proof.SpecLayers
import Idealize.ShloMosaic.Lib.Pipeline.Value
import Idealize.ShloMosaic.Lib.ValueIdx
import Idealize.ShloMosaic.Lib.ValueLayout
import Idealize.ShloMosaic.PureOps.Ideal.Laws

/-! What region 10 of the kernel program leaves in its output array. The region multiplies an array of 20000 rows and 128
    columns by a 128 by 128 weight matrix and adds a bias row of 128 entries, 2000 rows per grid point. Read at an index, the
    body's stored block is (∑ k, a(p,k) · w(k,q)) + b(q) on the extended reals, and so is the reference's linear layer;
    the 10 blocks are the 10 row ranges of one whole-array function, and they fill the array. -/

noncomputable section

namespace Cert.KernelIdeal.RegionValue

open Cert.KernelIdeal Cert.KernelIdeal.Gen Idealize.ShloMosaic Idealize.ShloMosaic.TcCoe Idealize.SL.Sem
open Idealize.ShloMosaic.ValueIdx
open scoped BigOperators

-- The kernel program's side conditions are read at the instance the generated modules provide, as the generated frame
-- does; the reference's are a parameter.
variable [Cert.ReferenceIdeal.Facts]

/-! ## The block product at an index

The kernel's product contracts the left block's axis 1 with the right block's axis 0. At output index
`(p, q)` and contraction position `k` the left operand is read at `(p, k)` and the right one at `(k, q)`:
one lemma per operand axis, stated at the literal axis. -/

/-- Left operand, axis 0 (a free axis): the output's row. -/
theorem lhs_blk10_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- Left operand, axis 1 (the contracted axis): the contraction position. -/
theorem lhs_blk10_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- Right operand, axis 0 (the contracted axis): the contraction position. -/
theorem rhs_blk10_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- Right operand, axis 1 (a free axis): the output's column. -/
theorem rhs_blk10_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at `(p, q)`: the sum over the 128 contraction positions of the
    products of the operands' entries. -/
theorem blockProduct10_apply (x : FVec Ideal S2000x128 .bf16) (y : FVec Ideal S128x128 .bf16) (p : Fin 2000) (q : Fin 128) :
    matmul (F := Ideal) dot_S2000x128_S128x128_S2000x128_1_0_0_1_n_n none x y (constant (F := Ideal) S2000x128 .f32 0x00000000#32) (ix2 p q)
      = ∑ k : Fin 128, x (ix2 p k) * y (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_blk10_0 _ _
    | ⟨1, _⟩ => exact (lhs_blk10_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_blk10_0 _ _).trans hk
    | ⟨1, _⟩ => exact rhs_blk10_1 _ _)
  rw [el, er]

/-- The bias row repeated down the 2000 rows of a block, at `(p, q)`: the bias at `q`. -/
theorem blockBias10_apply (z : Vec Ideal S128 .f32) (p : Fin 2000) (q : Fin 128) :
    broadcastTo S2000x128 (shapeCast S1x128 z shapeCasts_S128_S1x128) broadcasts_S1x128_S2000x128 (ix2 p q) = z (ix1 q) := by
  rw [broadcastTo_1b_ab_apply, shapeCast_a_1a_apply]

/-- THE BODY'S RESULT AT AN INDEX: what the body stores at `(p, q)` of its output block is the row `p` of the
    left block times the column `q` of the weights, plus the bias at `q` (the body first recasts each block to
    its own shape, which changes nothing, and the narrowing of the operands to the product's input format is the identity
    on extended reals). -/
theorem blockPayload10_apply (x0 : Vec Ideal S2000x128 .f32) (x1 : Vec Ideal S128x128 .f32) (x2 : Vec Ideal S128 .f32) (p : Fin 2000) (q : Fin 128) :
    k10_pay1 (F := Ideal) x0 x1 x2 (ix2 p q) = (∑ k : Fin 128, x0 (ix2 p k) * x1 (ix2 k q)) + x2 (ix1 q) := by
  unfold k10_pay1
  simp only [shapeCast_self]
  rw [addf_apply, blockProduct10_apply, blockBias10_apply]
  rfl

/-! ## The reference's linear layer at an index

The host product contracts the array's axis 1 with the weights' axis 0, exactly as the block product does, over the
whole 20000 rows; the bias row is first given a leading unit axis and then repeated down the rows. -/

/-- Left operand, axis 0 (a free axis): the output's row. -/
theorem lhs_arr10_0 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.lhsIdx i q 0).val = (i 0).val := by
  unfold DotDims.lhsIdx
  rw [dif_neg (show ¬(0 : Fin Cert.ReferenceIdeal.S20000x128.rank) ∈ Cert.ReferenceIdeal.dot_S20000x128_S128x128_S20000x128_1_0_0_1_n_n.lhsBatch from (by decide : ¬(0 : Fin 2) ∈ ([] : List (Fin 2)))),
    dif_pos (show (0 : Fin Cert.ReferenceIdeal.S20000x128.rank) ∈ Cert.ReferenceIdeal.dot_S20000x128_S128x128_S20000x128_1_0_0_1_n_n.lhsNonContracting from (by decide : (0 : Fin 2) ∈ ([0] : List (Fin 2))))]
  rfl

/-- Left operand, axis 1 (the contracted axis): the contraction position. -/
theorem lhs_arr10_1 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.lhsIdx i q 1).val = (q ⟨0, Nat.one_pos⟩).val :=
  Cert.ReferenceIdeal.dot_S20000x128_S128x128_S20000x128_1_0_0_1_n_n.lhsIdx_val_of_single rfl i q

/-- Right operand, axis 0 (the contracted axis): the contraction position. -/
theorem rhs_arr10_0 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.rhsIdx i q 0).val = (q ⟨0, Nat.one_pos⟩).val :=
  Cert.ReferenceIdeal.dot_S20000x128_S128x128_S20000x128_1_0_0_1_n_n.rhsIdx_val_of_single rfl i q

/-- Right operand, axis 1 (a free axis): the output's column. -/
theorem rhs_arr10_1 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.rhsIdx i q 1).val = (i 1).val := by
  unfold DotDims.rhsIdx
  rw [dif_neg (show ¬(1 : Fin Cert.ReferenceIdeal.S128x128.rank) ∈ Cert.ReferenceIdeal.dot_S20000x128_S128x128_S20000x128_1_0_0_1_n_n.rhsBatch from (by decide : ¬(1 : Fin 2) ∈ ([] : List (Fin 2)))),
    dif_pos (show (1 : Fin Cert.ReferenceIdeal.S128x128.rank) ∈ Cert.ReferenceIdeal.dot_S20000x128_S128x128_S20000x128_1_0_0_1_n_n.rhsNonContracting from (by decide : (1 : Fin 2) ∈ ([1] : List (Fin 2))))]
  rfl

/-- The host product at `(p, q)`: the sum over the 128 contraction positions of the products of the operands' entries. -/
theorem arrayProduct10_apply (a : FVec Ideal Cert.ReferenceIdeal.S20000x128 .f32) (w : FVec Ideal Cert.ReferenceIdeal.S128x128 .f32) (p : Fin 20000) (q : Fin 128) :
    Host.dotGeneral (F := Ideal) Cert.ReferenceIdeal.dot_S20000x128_S128x128_S20000x128_1_0_0_1_n_n none a w (ix2 p q)
      = ∑ k : Fin 128, a (ix2 p k) * w (ix2 k q) := by
  simp only [Host.dotGeneral]
  rw [Ideal.dotGeneral_apply, ← Equiv.sum_comp (contrEquiv1 Cert.ReferenceIdeal.dot_S20000x128_S128x128_S20000x128_1_0_0_1_n_n 128 rfl rfl).symm]
  refine Finset.sum_congr rfl fun k _ => ?_
  have hk := contrEquiv1_symm_val Cert.ReferenceIdeal.dot_S20000x128_S128x128_S20000x128_1_0_0_1_n_n 128 rfl rfl k
  have el : Cert.ReferenceIdeal.dot_S20000x128_S128x128_S20000x128_1_0_0_1_n_n.lhsIdx (ix2 p q) ((contrEquiv1 Cert.ReferenceIdeal.dot_S20000x128_S128x128_S20000x128_1_0_0_1_n_n 128 rfl rfl).symm k) = ix2 p k := funext fun a => Fin.ext (by
    match a with
    | ⟨0, _⟩ => exact lhs_arr10_0 _ _
    | ⟨1, _⟩ => exact (lhs_arr10_1 _ _).trans hk)
  have er : Cert.ReferenceIdeal.dot_S20000x128_S128x128_S20000x128_1_0_0_1_n_n.rhsIdx (ix2 p q) ((contrEquiv1 Cert.ReferenceIdeal.dot_S20000x128_S128x128_S20000x128_1_0_0_1_n_n 128 rfl rfl).symm k) = ix2 k q := funext fun a => Fin.ext (by
    match a with
    | ⟨0, _⟩ => exact (rhs_arr10_0 _ _).trans hk
    | ⟨1, _⟩ => exact rhs_arr10_1 _ _)
  rw [el, er]

/-- The bias row given a leading unit axis and repeated down the 20000 rows, at `(p, q)`: the bias at `q`. -/
theorem arrayBias10_apply (b : (⟨Cert.ReferenceIdeal.S128, .f32⟩ : BufTy).Contents (Elt Ideal)) (p : Fin 20000) (q : Fin 128) :
    broadcastInDim Cert.ReferenceIdeal.S20000x128 ![0, 1] Cert.ReferenceIdeal.Facts₀.bcast_S1x128_S20000x128_0_1 (broadcastInDim Cert.ReferenceIdeal.S1x128 ![1] Cert.ReferenceIdeal.Facts₀.bcast_S128_S1x128_1 b) (ix2 p q) = b (ix1 q) := by
  rw [broadcastInDim_apply _ _ _ (ix2 p q) (ix2 (0 : Fin 1) q) (fun a => by match a with | ⟨0, _⟩ => rfl | ⟨1, _⟩ => rfl),
    broadcastInDim_apply _ _ _ (ix2 (0 : Fin 1) q) (ix1 q) (fun a => by match a with | ⟨0, _⟩ => rfl)]

/-- THE REFERENCE'S LINEAR LAYER AT AN INDEX: row `p` of the array times column `q` of the weights, plus the bias at `q`. -/
theorem linear10_apply (a : (⟨Cert.ReferenceIdeal.S20000x128, .f32⟩ : BufTy).Contents (Elt Ideal)) (w : (⟨Cert.ReferenceIdeal.S128x128, .f32⟩ : BufTy).Contents (Elt Ideal)) (b : (⟨Cert.ReferenceIdeal.S128, .f32⟩ : BufTy).Contents (Elt Ideal)) (p : Fin 20000) (q : Fin 128) :
    Cert.Spec.linE (F := Ideal) a w b (ix2 p q) = (∑ k : Fin 128, a (ix2 p k) * w (ix2 k q)) + b (ix1 q) := by
  unfold Cert.Spec.linE
  beta_reduce
  rw [addf_apply, arrayProduct10_apply, arrayBias10_apply]

/-! ## From the blocks to the array

Grid point `t` works on rows `2000 t … 2000 t + 1999`: its left block is those rows of the array, the weights and
the bias are read whole, and what it writes back is those rows of the linear layer of the three arrays. The 10
points' row ranges fill the 20000 rows. -/

theorem zeroOffsets10_2 : (![0, 0] : Fin 2 → Nat) = fun _ => 0 :=
  funext fun a => by match a with | ⟨0, _⟩ => rfl | ⟨1, _⟩ => rfl

theorem zeroOffsets10_1 : (![0] : Fin 1 → Nat) = fun _ => 0 :=
  funext fun a => by match a with | ⟨0, _⟩ => rfl

/-- The printed index maps, decided once over the grid: the left block moves down the rows with the output block, the
    weights' and the bias's block indices are zero, and the output's row-block index is the point's number. -/
theorem blockIndices10 : ∀ t : Fin cfg10.N,
    win10_0.index t (0 : Fin 2) = win10_3.index t (0 : Fin 2) ∧ win10_0.index t (1 : Fin 2) = 0
    ∧ win10_1.index t (0 : Fin 2) = 0 ∧ win10_1.index t (1 : Fin 2) = 0
    ∧ win10_2.index t (0 : Fin 1) = 0
    ∧ win10_3.index t (0 : Fin 2) = t.val ∧ win10_3.index t (1 : Fin 2) = 0
    ∧ win10_3.index t (0 : Fin 2) ≤ 9 :=
  (by decide +kernel : ∀ t : Fin grid10.N, _)

/-- ONE BLOCK OF THE LINEAR LAYER. If the left block `x0` is rows `2000 n …` of the array `A`, and the weights' and the
    bias's blocks are the arrays `W` and `B` themselves, the body's result at `(p, q)` is the linear layer of `A`, `W`, `B`
    at `(2000 n + p, q)`. -/
theorem blockOfLinear10 (A : (⟨Cert.ReferenceIdeal.S20000x128, .f32⟩ : BufTy).Contents (Elt Ideal)) (W : (⟨Cert.ReferenceIdeal.S128x128, .f32⟩ : BufTy).Contents (Elt Ideal)) (B : (⟨Cert.ReferenceIdeal.S128, .f32⟩ : BufTy).Contents (Elt Ideal))
    (x0 : Vec Ideal S2000x128 .f32) (x1 : Vec Ideal S128x128 .f32) (x2 : Vec Ideal S128 .f32) (n : Nat) (hn : n ≤ 9)
    (h0 : ∀ (p : Fin 2000) (k : Fin 128), x0 (ix2 p k) = A (ix2 (⟨n * 2000 + p.val, by have := p.isLt; omega⟩ : Fin 20000) k))
    (h1 : ∀ (k : Fin 128) (q : Fin 128), x1 (ix2 k q) = W (ix2 k q))
    (h2 : ∀ q : Fin 128, x2 (ix1 q) = B (ix1 q))
    (p : Fin 2000) (q : Fin 128) :
    k10_pay1 (F := Ideal) x0 x1 x2 (ix2 p q)
      = Cert.Spec.linE (F := Ideal) A W B (ix2 (⟨n * 2000 + p.val, by have := p.isLt; omega⟩ : Fin 20000) q) := by
  rw [blockPayload10_apply, linear10_apply]
  simp only [h0, h1, h2]

-- reading an array's shape off the program's buffer table costs more the later the buffer stands in it
set_option maxHeartbeats 4000000 in
/-- WHAT POINT `t` WRITES BACK is block `t` of the linear layer of the three arrays as the region finds them. -/
theorem flushed10_eq (V : (c : Dev nD) → (b : Ref sig .tc) → Buf (Elt Ideal) ((c : Thread nD τ).loc b)) (c : Dev nD) (t : Fin cfg10.N) :
    (dat10 (F := Ideal) V c).flushed 3 t = ((cfg10.win 3).blk t).view.read (Elt Ideal)
      (Cert.Spec.linE (F := Ideal) (V c (Pipeline.arrRef spec10 0)) (V c (Pipeline.arrRef spec10 1)) (V c (Pipeline.arrRef spec10 2))) := by
  show (cfg10.win 3).cut (grid10.coords t) ((dat10 (F := Ideal) V c).after 3 t) = _
  rw [after10_3]
  unfold out10_3
  rw [View.canon_unit_zero zeroOffsets10_2]
  simp only [View.ld_unit_zero (S := S2000x128) zeroOffsets10_2, View.ld_unit_zero (S := S128x128) zeroOffsets10_2, View.ld_unit_zero (S := S128) zeroOffsets10_1]
  obtain ⟨e00, e01, e10, e11, e20, e30, e31, hle⟩ := blockIndices10 t
  funext (j : S2000x128.Idx)
  obtain ⟨p, q, rfl⟩ : ∃ (p : Fin 2000) (q : Fin 128), j = ix2 p q := ⟨j 0, j 1, eq_ix2 j⟩
  show k10_pay1 (F := Ideal) (iblk10 V c 0 t) (iblk10 V c 1 t) (iblk10 V c 2 t) (ix2 p q)
    = Cert.Spec.linE (F := Ideal) (V c (Pipeline.arrRef spec10 0)) (V c (Pipeline.arrRef spec10 1)) (V c (Pipeline.arrRef spec10 2)) (((cfg10.win 3).blk t).view.emb (ix2 p q))
  refine (blockOfLinear10 (V c (Pipeline.arrRef spec10 0)) (V c (Pipeline.arrRef spec10 1)) (V c (Pipeline.arrRef spec10 2)) (iblk10 V c 0 t) (iblk10 V c 1 t) (iblk10 V c 2 t) (win10_3.index t (0 : Fin 2)) hle ?_ ?_ ?_ p q).trans ?_
  · intro p k
    show V c (Pipeline.arrRef spec10 0) (((cfg10.win 0).blk t).view.emb (ix2 p k)) = _
    refine congrArg _ (funext fun a => Fin.ext ?_)
    match a with
    | ⟨0, _⟩ => show win10_0.index t (0 : Fin 2) * 2000 + 1 * p.val = win10_3.index t (0 : Fin 2) * 2000 + p.val; omega
    | ⟨1, _⟩ => show win10_0.index t (1 : Fin 2) * 128 + 1 * k.val = k.val; omega
  · intro k q
    show V c (Pipeline.arrRef spec10 1) (((cfg10.win 1).blk t).view.emb (ix2 k q)) = _
    refine congrArg _ (funext fun a => Fin.ext ?_)
    match a with
    | ⟨0, _⟩ => show win10_1.index t (0 : Fin 2) * 128 + 1 * k.val = k.val; omega
    | ⟨1, _⟩ => show win10_1.index t (1 : Fin 2) * 128 + 1 * q.val = q.val; omega
  · intro q
    show V c (Pipeline.arrRef spec10 2) (((cfg10.win 2).blk t).view.emb (ix1 q)) = _
    refine congrArg _ (funext fun a => Fin.ext ?_)
    match a with
    | ⟨0, _⟩ => show win10_2.index t (0 : Fin 1) * 128 + 1 * q.val = q.val; omega
  · refine congrArg _ (funext fun a => Fin.ext ?_)
    match a with
    | ⟨0, _⟩ => show win10_3.index t (0 : Fin 2) * 2000 + p.val = win10_3.index t (0 : Fin 2) * 2000 + 1 * p.val; omega
    | ⟨1, _⟩ => show q.val = win10_3.index t (1 : Fin 2) * 128 + 1 * q.val; omega

/-- An index of the array is in point `t`'s output block iff each coordinate is in the block's range on its axis. -/
theorem mem_block10 (t : Fin cfg10.N) (i : S20000x128.Idx) :
    i ∈ ((cfg10.win 3).blk t).view.set ↔ ∀ a : Fin 2, win10_3.index t a * S2000x128.size a ≤ (i a).val ∧ (i a).val < win10_3.index t a * S2000x128.size a + S2000x128.size a := by
  show i ∈ ((View.whole (Pipeline.arrRef spec10 3)).slice (win10_3.rect t)).set ↔ _
  rw [View.set_slice_whole, Rect.mem_set_unit]
  exact Iff.rfl

/-- THE COVER: row `r` is in the block of point `r / 2000`. -/
theorem covered10 (i : S20000x128.Idx) :
    ∃ t : Fin cfg10.N, (cfg10.win 3).flush t = true ∧ i ∈ ((cfg10.win 3).blk t).view.set := by
  have hi0 : (i 0).val < 20000 := (i 0).isLt
  have hi1 : (i 1).val < 128 := (i 1).isLt
  obtain ⟨t, ht⟩ : ∃ t : Fin cfg10.N, t.val = (i 0).val / 2000 :=
    ⟨⟨(i 0).val / 2000, by rw [show cfg10.N = 10 from N_10]; omega⟩, rfl⟩
  obtain ⟨-, -, -, -, -, e30, e31, -⟩ := blockIndices10 t
  refine ⟨t, flush10_3 t, ?_⟩
  rw [mem_block10]
  intro a
  match a with
  | ⟨0, _⟩ => show win10_3.index t (0 : Fin 2) * 2000 ≤ (i 0).val ∧ (i 0).val < win10_3.index t (0 : Fin 2) * 2000 + 2000; omega
  | ⟨1, _⟩ => show win10_3.index t (1 : Fin 2) * 128 ≤ (i 1).val ∧ (i 1).val < win10_3.index t (1 : Fin 2) * 128 + 128; omega

/-- The array after region 10, at the generated instance of the kernel program's side conditions. -/
theorem region10_array (V : (c : Dev nD) → (b : Ref sig .tc) → Buf (Elt Ideal) ((c : Thread nD τ).loc b)) (c : Dev nD) :
    (dat10 (F := Ideal) V c).arrAt 3 cfg10.N
      = Cert.Spec.linE (F := Ideal) (V c (Pipeline.arrRef spec10 0)) (V c (Pipeline.arrRef spec10 1)) (V c (Pipeline.arrRef spec10 2)) :=
  (dat10 (F := Ideal) V c).arrAt_eq_of_cover 3 _ (fun t _ => flushed10_eq V c t) (fun i => covered10 i)

section AnyInstance

variable [Cert.KernelIdeal.Facts]

/-- THE ARRAY after region 10: the linear layer of the region's three input arrays (the kernel program's side conditions
    are propositions, so the statement at any instance of them is the one at the generated instance). -/
theorem region10_value (V : (c : Dev nD) → (b : Ref sig .tc) → Buf (Elt Ideal) ((c : Thread nD τ).loc b)) (c : Dev nD) :
    (dat10 (F := Ideal) V c).arrAt 3 cfg10.N
      = Cert.Spec.linE (F := Ideal) (V c (Pipeline.arrRef spec10 0)) (V c (Pipeline.arrRef spec10 1)) (V c (Pipeline.arrRef spec10 2)) :=
  region10_array V c

end AnyInstance

end Cert.KernelIdeal.RegionValue

end
-- ==== Proof.Region11.lean ====
import proofs.«116822_j38594576122568_1_alg».proof.Proof.Gen.KernelIdeal.Frame
import proofs.«116822_j38594576122568_1_alg».proof.Proof.SpecLayers
import Idealize.ShloMosaic.Lib.ValueIdx
import Idealize.ShloMosaic.Lib.ValueLayout
import Idealize.ShloMosaic.Lib.Pipeline.Value
import Idealize.ShloMosaic.PureOps.Ideal.Laws

/-! Region 11 of the kernel program: the two-branch normalise / clamp / linear / sum / leaky-clamp step over 80000 rows,
    run in 40 blocks of 2000 rows. This module shows that the region leaves in its output array the host form
    of the same step applied to its fourteen input arrays.

    At entry (P, q) both sides are
      leaky( Σ_k max(g1 k · (h1 (P, k) − mu1 k) · rsqrt(var1 k + ε) + be1 k, 0) · w1 (k, q) + b1 q
             + the same for the second branch )
    on the extended reals. The kernel's clamp tests s > 0 and the host form's tests s ≥ 0; they agree because at
    s = 0 the other arm is slope · 0 = 0. The block at grid point t holds rows 2000 t … 2000 t + 1999, so the
    forty blocks cover the array and row P is in block P / 2000. -/

noncomputable section

open scoped BigOperators

namespace Cert.KernelIdeal.RegionValue

open Idealize.ShloMosaic Idealize.ShloMosaic.ValueIdx Idealize.SL.Sem

/-- One branch at one output entry, on the extended reals: the row h normalised by the column statistics
    (scale g, shift be), clamped below at zero, contracted with the weight column w, plus the bias entry b. -/
def branch11 (h mu var g be w : Fin 128 → EReal) (b : EReal) : EReal :=
  (∑ k : Fin 128, max (g k * (h k - mu k) * Ideal.rsqrt (var k + Ideal.ofBits .f32 0x3727C5AC#32) + be k)
      (Ideal.ofBits .f32 0x00000000#32) * w k) + b

/-- The leaky clamp with the strict test: s where s is above zero, slope times s elsewhere. -/
def leakyGt11 (s : EReal) : EReal :=
  Scalar.select (Ideal.cmp .ogt s (Ideal.ofBits .f32 0x00000000#32)) s (Ideal.ofBits .f32 0x3C23D70A#32 * s)

/-- The leaky clamp with the weak test: s where s is at least zero, slope times s elsewhere. -/
def leakyGe11 (s : EReal) : EReal :=
  Scalar.select (Ideal.cmp .oge s (Ideal.ofBits .f32 0x00000000#32)) s (Ideal.ofBits .f32 0x3C23D70A#32 * s)

/-- The two clamps agree: they differ only at s = 0, where slope times 0 is 0. -/
theorem leakyGt11_eq_leakyGe11 (s : EReal) : leakyGt11 s = leakyGe11 s := by
  unfold leakyGt11 leakyGe11
  rw [Ideal.ofBits_zero_f32]
  by_cases h : 0 < s
  · simp [Scalar.select, Ideal.cmp, h, h.le]
  · by_cases h0 : s = 0
    · subst h0; simp [Scalar.select, Ideal.cmp]
    · have hlt : s < 0 := lt_of_le_of_ne (not_lt.mp h) h0
      simp [Scalar.select, Ideal.cmp, h, not_le.mpr hlt]

/-- A branch depends on its seven arguments only through their values. -/
theorem branch11_ext {h h' mu mu' var var' g g' be be' w w' : Fin 128 → EReal} {b b' : EReal}
    (e0 : ∀ k, h k = h' k) (e1 : ∀ k, mu k = mu' k) (e2 : ∀ k, var k = var' k) (e3 : ∀ k, g k = g' k)
    (e4 : ∀ k, be k = be' k) (e5 : ∀ k, w k = w' k) (e6 : b = b') :
    branch11 h mu var g be w b = branch11 h' mu' var' g' be' w' b' := by
  obtain rfl : h = h' := funext e0
  obtain rfl : mu = mu' := funext e1
  obtain rfl : var = var' := funext e2
  obtain rfl : g = g' := funext e3
  obtain rfl : be = be' := funext e4
  obtain rfl : w = w' := funext e5
  subst e6
  rfl

section Kernel
open Cert.KernelIdeal Cert.KernelIdeal.Gen
variable [Cert.KernelIdeal.Facts]

theorem lhs_k11_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_k11_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_k11_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_k11_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at an entry: the sum over the 128 contracted columns. -/
theorem matmul_k11 (a : FVec Ideal S2000x128 .bf16) (w : FVec Ideal S128x128 .bf16) (p : Fin 2000) (q : Fin 128) :
    matmul (F := Ideal) dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_k11_0 _ _
    | ⟨1, _⟩ => exact (lhs_k11_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_k11_0 _ _).trans hk
    | ⟨1, _⟩ => exact rhs_k11_1 _ _)
  rw [el, er]

/-- A 128-vector laid as one row and repeated down the 2000 rows reads, at (p, k), the vector at k. -/
theorem row_k11 {α : Type} (x : S128.Idx → α) (p : Fin 2000) (k : Fin 128) :
    broadcastTo S2000x128 (shapeCast S1x128 x shapeCasts_S128_S1x128) broadcasts_S1x128_S2000x128 (ix2 p k) = x (ix1 k) :=
  (broadcastTo_1b_ab_apply _ _ p k).trans (shapeCast_a_1a_apply x _ 0 k)

/-- The first branch's payload at an entry of the block. -/
theorem pay11_2_at (v0 : Vec Ideal S2000x128 .f32) (v2 v4 v12 v20 : Vec Ideal S128 .f32) (v28 : Vec Ideal S128x128 .f32) (v32 : Vec Ideal S128 .f32)
    (p : Fin 2000) (q : Fin 128) :
    k11_pay2 (F := Ideal) v0 v2 v4 v12 v20 v28 v32 (ix2 p q)
      = branch11 (fun k => v0 (ix2 p k)) (fun k => v4 (ix1 k)) (fun k => v12 (ix1 k)) (fun k => v2 (ix1 k)) (fun k => v20 (ix1 k)) (fun k => v28 (ix2 k q)) (v32 (ix1 q)) := by
  unfold k11_pay2 branch11
  simp only [shapeCast_self]
  rw [addf_apply, matmul_k11, row_k11]
  refine congrArg (· + _) (Finset.sum_congr rfl fun k _ => ?_)
  rw [truncf_apply, truncf_apply, maximumf_apply, addf_apply, mulf_apply, mulf_apply, subf_apply, row_k11, row_k11, row_k11, row_k11]
  rfl

/-- The leaky clamp of a block, read at an entry. -/
theorem leaky_k11 (s : FVec Ideal S2000x128 .f32) (i : S2000x128.Idx) :
    select (cmpf .ogt s (broadcast S2000x128 (Scalar.ofBits (F := Ideal) .f32 0x00000000#32))) s
        (mulf (broadcast S2000x128 (Scalar.ofBits (F := Ideal) .f32 0x3C23D70A#32)) s) i = leakyGt11 (s i) := rfl

/-- The stored payload at an entry of the block: the first branch's value plus the second branch, through the clamp. -/
theorem pay11_1_at (v36 v38 : FVec Ideal S2000x128 .f32) (v40 v42 : FVec Ideal S128 .f32) (v49 v57 : Vec Ideal S128 .f32) (v65 : Vec Ideal S128x128 .f32) (v69 : Vec Ideal S128 .f32)
    (p : Fin 2000) (q : Fin 128) :
    k11_pay1 (F := Ideal) v36 v38 v40 v42 v49 v57 v65 v69 (ix2 p q)
      = leakyGt11 (v36 (ix2 p q) + branch11 (fun k => v38 (ix2 p k)) (fun k => v42 (ix1 k)) (fun k => v49 (ix1 k)) (fun k => v40 (ix1 k)) (fun k => v57 (ix1 k)) (fun k => v65 (ix2 k q)) (v69 (ix1 q))) := by
  unfold k11_pay1 branch11
  simp only [shapeCast_self]
  rw [leaky_k11, addf_apply, addf_apply, matmul_k11, row_k11]
  refine congrArg (fun z => leakyGt11 (v36 (ix2 p q) + (z + _))) (Finset.sum_congr rfl fun k _ => ?_)
  rw [truncf_apply, truncf_apply, maximumf_apply, addf_apply, mulf_apply, mulf_apply, subf_apply, row_k11, row_k11, row_k11, row_k11]
  rfl

theorem hz2_11 : (![0, 0] : Fin 2 → Nat) = fun _ => 0 := funext fun a => by match a with | ⟨0, _⟩ => rfl | ⟨1, _⟩ => rfl
theorem hz1_11 : (![0] : Fin 1 → Nat) = fun _ => 0 := funext fun a => by match a with | ⟨0, _⟩ => rfl

/-- What the body leaves in the output block, at an entry, from the fourteen input blocks: the two branches' sum
    through the clamp with the strict test. -/
theorem out11_14_at (x0 : Vec Ideal S2000x128 .f32) (x1 x2 x3 x4 : Vec Ideal S128 .f32) (x5 : Vec Ideal S128x128 .f32) (x6 : Vec Ideal S128 .f32)
    (x7 : Vec Ideal S2000x128 .f32) (x8 x9 x10 x11 : Vec Ideal S128 .f32) (x12 : Vec Ideal S128x128 .f32) (x13 : Vec Ideal S128 .f32)
    (p : Fin 2000) (q : Fin 128) :
    out11_14 (F := Ideal) x0 x1 x2 x3 x4 x5 x6 x7 x8 x9 x10 x11 x12 x13 (ix2 p q)
      = leakyGt11 (branch11 (fun k => x0 (ix2 p k)) (fun k => x1 (ix1 k)) (fun k => x2 (ix1 k)) (fun k => x3 (ix1 k)) (fun k => x4 (ix1 k)) (fun k => x5 (ix2 k q)) (x6 (ix1 q))
          + branch11 (fun k => x7 (ix2 p k)) (fun k => x8 (ix1 k)) (fun k => x9 (ix1 k)) (fun k => x10 (ix1 k)) (fun k => x11 (ix1 k)) (fun k => x12 (ix2 k q)) (x13 (ix1 q))) := by
  unfold out11_14
  rw [View.canon_unit_zero hz2_11]
  simp only [View.ld_unit_zero (S := S2000x128) hz2_11, View.ld_unit_zero (S := S128) hz1_11, View.ld_unit_zero (S := S128x128) hz2_11]
  rw [pay11_1_at, pay11_2_at]
  unfold k11_pay3 k11_pay4 k11_pay5
  simp only [shapeCast_self]

end Kernel

end Cert.KernelIdeal.RegionValue

namespace Cert.Spec.Region11

open Idealize.ShloMosaic Idealize.ShloMosaic.ValueIdx Idealize.SL.Sem
open Cert.KernelIdeal.RegionValue (branch11 leakyGe11)

section Reference
open Cert.ReferenceIdeal Cert.ReferenceIdeal.Facts₀ Cert.ReferenceIdeal.Facts
variable [Cert.ReferenceIdeal.Facts]

theorem lhs_r11_0 (i : S80000x128.Idx) (q : dot_S80000x128_S128x128_S80000x128_1_0_0_1_n_n.contr.Idx) :
    (dot_S80000x128_S128x128_S80000x128_1_0_0_1_n_n.lhsIdx i q 0).val = (i 0).val := by
  unfold DotDims.lhsIdx
  rw [dif_neg (show ¬(0 : Fin S80000x128.rank) ∈ dot_S80000x128_S128x128_S80000x128_1_0_0_1_n_n.lhsBatch from List.not_mem_nil), dif_pos (show (0 : Fin S80000x128.rank) ∈ dot_S80000x128_S128x128_S80000x128_1_0_0_1_n_n.lhsNonContracting from List.mem_singleton.mpr rfl)]
  rfl
theorem lhs_r11_1 (i : S80000x128.Idx) (q : dot_S80000x128_S128x128_S80000x128_1_0_0_1_n_n.contr.Idx) :
    (dot_S80000x128_S128x128_S80000x128_1_0_0_1_n_n.lhsIdx i q 1).val = (q ⟨0, Nat.one_pos⟩).val :=
  dot_S80000x128_S128x128_S80000x128_1_0_0_1_n_n.lhsIdx_val_of_single rfl i q
theorem rhs_r11_0 (i : S80000x128.Idx) (q : dot_S80000x128_S128x128_S80000x128_1_0_0_1_n_n.contr.Idx) :
    (dot_S80000x128_S128x128_S80000x128_1_0_0_1_n_n.rhsIdx i q 0).val = (q ⟨0, Nat.one_pos⟩).val :=
  dot_S80000x128_S128x128_S80000x128_1_0_0_1_n_n.rhsIdx_val_of_single rfl i q
theorem rhs_r11_1 (i : S80000x128.Idx) (q : dot_S80000x128_S128x128_S80000x128_1_0_0_1_n_n.contr.Idx) :
    (dot_S80000x128_S128x128_S80000x128_1_0_0_1_n_n.rhsIdx i q 1).val = (i 1).val := by
  unfold DotDims.rhsIdx
  rw [dif_neg (show ¬(1 : Fin S128x128.rank) ∈ dot_S80000x128_S128x128_S80000x128_1_0_0_1_n_n.rhsBatch from List.not_mem_nil), dif_pos (show (1 : Fin S128x128.rank) ∈ dot_S80000x128_S128x128_S80000x128_1_0_0_1_n_n.rhsNonContracting from List.mem_singleton.mpr rfl)]
  rfl

/-- The host product at an entry: the sum over the 128 contracted columns. -/
theorem dot_r11 (a : FVec Ideal S80000x128 .f32) (w : FVec Ideal S128x128 .f32) (P : Fin 80000) (q : Fin 128) :
    Host.dotGeneral (F := Ideal) dot_S80000x128_S128x128_S80000x128_1_0_0_1_n_n none a w (ix2 P q)
      = ∑ k : Fin 128, a (ix2 P k) * w (ix2 k q) := by
  simp only [Host.dotGeneral]
  rw [Ideal.dotGeneral_apply, ← Equiv.sum_comp (contrEquiv1 dot_S80000x128_S128x128_S80000x128_1_0_0_1_n_n 128 rfl rfl).symm]
  refine Finset.sum_congr rfl fun k _ => ?_
  have hk := contrEquiv1_symm_val dot_S80000x128_S128x128_S80000x128_1_0_0_1_n_n 128 rfl rfl k
  have el : dot_S80000x128_S128x128_S80000x128_1_0_0_1_n_n.lhsIdx (ix2 P q) ((contrEquiv1 dot_S80000x128_S128x128_S80000x128_1_0_0_1_n_n 128 rfl rfl).symm k) = ix2 P k := funext fun a => Fin.ext (by
    match a with
    | ⟨0, _⟩ => exact lhs_r11_0 _ _
    | ⟨1, _⟩ => exact (lhs_r11_1 _ _).trans hk)
  have er : dot_S80000x128_S128x128_S80000x128_1_0_0_1_n_n.rhsIdx (ix2 P q) ((contrEquiv1 dot_S80000x128_S128x128_S80000x128_1_0_0_1_n_n 128 rfl rfl).symm k) = ix2 k q := funext fun a => Fin.ext (by
    match a with
    | ⟨0, _⟩ => exact (rhs_r11_0 _ _).trans hk
    | ⟨1, _⟩ => exact rhs_r11_1 _ _)
  rw [el, er]

/-- A 128-vector laid as one row and repeated down the 80000 rows reads, at (P, k), the vector at k. -/
theorem row_r11 {α : Type} (x : S128.Idx → α) (P : Fin 80000) (k : Fin 128) :
    broadcastInDim S80000x128 ![0, 1] bcast_S1x128_S80000x128_0_1 (broadcastInDim S1x128 ![1] bcast_S128_S1x128_1 x) (ix2 P k) = x (ix1 k) :=
  (broadcastInDim_apply _ _ _ (ix2 P k) (ix2 (0 : Fin 1) k) (fun a => by match a with | ⟨0, _⟩ => rfl | ⟨1, _⟩ => rfl)).trans
    (broadcastInDim_apply _ _ x (ix2 (0 : Fin 1) k) (ix1 k) (fun a => by match a with | ⟨0, _⟩ => rfl))

/-- A scalar constant repeated over the 80000 x 128 array reads its value everywhere. -/
theorem splat_r11 (b : BitVec 32) (j : S80000x128.Idx) :
    broadcastInDim S80000x128 ![] bcast_S_S80000x128 (constant (F := Ideal) S_ .f32 b) j = Ideal.ofBits .f32 b := rfl
/-- A scalar constant repeated over a 128-vector reads its value everywhere. -/
theorem splat_v11 (b : BitVec 32) (j : S128.Idx) :
    broadcastInDim S128 ![] bcast_S_S128 (constant (F := Ideal) S_ .f32 b) j = Ideal.ofBits .f32 b := rfl

/-- One branch of the host form at an entry. -/
theorem branch_r11 (h : FVec Ideal S80000x128 .f32) (mu var g be : FVec Ideal S128 .f32) (w : FVec Ideal S128x128 .f32) (b : FVec Ideal S128 .f32)
    (P : Fin 80000) (q : Fin 128) :
    (addf (Host.dotGeneral (F := Ideal) dot_S80000x128_S128x128_S80000x128_1_0_0_1_n_n none (maximumf (addf (mulf (mulf (broadcastInDim S80000x128 ![0, 1] bcast_S1x128_S80000x128_0_1 (broadcastInDim S1x128 ![1] bcast_S128_S1x128_1 g)) (subf h (broadcastInDim S80000x128 ![0, 1] bcast_S1x128_S80000x128_0_1 (broadcastInDim S1x128 ![1] bcast_S128_S1x128_1 mu)))) (broadcastInDim S80000x128 ![0, 1] bcast_S1x128_S80000x128_0_1 (broadcastInDim S1x128 ![1] bcast_S128_S1x128_1 (Host.rsqrt (addf var (broadcastInDim S128 ![] bcast_S_S128 (constant (F := Ideal) S_ .f32 0x3727C5AC#32))))))) (broadcastInDim S80000x128 ![0, 1] bcast_S1x128_S80000x128_0_1 (broadcastInDim S1x128 ![1] bcast_S128_S1x128_1 be))) ((broadcastInDim S80000x128 ![] bcast_S_S80000x128) (constant (F := Ideal) S_ .f32 0x00000000#32))) w) (broadcastInDim S80000x128 ![0, 1] bcast_S1x128_S80000x128_0_1 (broadcastInDim S1x128 ![1] bcast_S128_S1x128_1 b))) (ix2 P q)
      = branch11 (fun k => h (ix2 P k)) (fun k => mu (ix1 k)) (fun k => var (ix1 k)) (fun k => g (ix1 k)) (fun k => be (ix1 k)) (fun k => w (ix2 k q)) (b (ix1 q)) := by
  unfold branch11
  rw [addf_apply, dot_r11, row_r11]
  refine congrArg (· + _) (Finset.sum_congr rfl fun k _ => ?_)
  rw [maximumf_apply, addf_apply, mulf_apply, mulf_apply, subf_apply, row_r11, row_r11, row_r11, row_r11, splat_r11]
  rfl

/-- The host form of the whole step at an entry: the two branches' sum through the clamp with the weak test. -/
theorem combOp_at11 (h1 : FVec Ideal S80000x128 .f32) (mu1 var1 g1 be1 : FVec Ideal S128 .f32) (w1 : FVec Ideal S128x128 .f32) (b1 : FVec Ideal S128 .f32)
    (h2 : FVec Ideal S80000x128 .f32) (mu2 var2 g2 be2 : FVec Ideal S128 .f32) (w2 : FVec Ideal S128x128 .f32) (b2 : FVec Ideal S128 .f32)
    (P : Fin 80000) (q : Fin 128) :
    Cert.Spec.combOp (F := Ideal) h1 mu1 var1 g1 be1 w1 b1 h2 mu2 var2 g2 be2 w2 b2 (ix2 P q)
      = leakyGe11 (branch11 (fun k => h1 (ix2 P k)) (fun k => mu1 (ix1 k)) (fun k => var1 (ix1 k)) (fun k => g1 (ix1 k)) (fun k => be1 (ix1 k)) (fun k => w1 (ix2 k q)) (b1 (ix1 q))
          + branch11 (fun k => h2 (ix2 P k)) (fun k => mu2 (ix1 k)) (fun k => var2 (ix1 k)) (fun k => g2 (ix1 k)) (fun k => be2 (ix1 k)) (fun k => w2 (ix2 k q)) (b2 (ix1 q))) := by
  unfold Cert.Spec.combOp leakyGe11
  beta_reduce
  rw [select_apply, cmpf_apply, mulf_apply, splat_r11, splat_r11, addf_apply, branch_r11, branch_r11]
  rfl

end Reference

end Cert.Spec.Region11

namespace Cert.KernelIdeal.RegionValue

open Idealize.ShloMosaic Idealize.ShloMosaic.ValueIdx Idealize.ShloMosaic.TcCoe Idealize.SL.Sem

section Blocks
open Cert.KernelIdeal Cert.KernelIdeal.Gen
open Idealize.ShloMosaic.Pipeline (Dat)
variable [Cert.KernelIdeal.Facts] [Cert.ReferenceIdeal.Facts]
variable (V : (c : Dev nD) → (b : Ref sig .tc) → Buf (Elt Ideal) ((c : Thread nD τ).loc b))

/-! ## The windows' block indices over the grid: windows 0, 7 and 14 move down the rows with the point, the others stay -/

theorem idx11_0 : ∀ t : Fin cfg11.N, win11_0.index t (0 : Fin 2) = t.val ∧ win11_0.index t (1 : Fin 2) = 0 :=
  (by decide +kernel : ∀ t : Fin grid11.N, win11_0.index t (0 : Fin 2) = t.val ∧ win11_0.index t (1 : Fin 2) = 0)
theorem idx11_7 : ∀ t : Fin cfg11.N, win11_7.index t (0 : Fin 2) = t.val ∧ win11_7.index t (1 : Fin 2) = 0 :=
  (by decide +kernel : ∀ t : Fin grid11.N, win11_7.index t (0 : Fin 2) = t.val ∧ win11_7.index t (1 : Fin 2) = 0)
theorem idx11_14 : ∀ t : Fin cfg11.N, win11_14.index t (0 : Fin 2) = t.val ∧ win11_14.index t (1 : Fin 2) = 0 :=
  (by decide +kernel : ∀ t : Fin grid11.N, win11_14.index t (0 : Fin 2) = t.val ∧ win11_14.index t (1 : Fin 2) = 0)
theorem idx11_1 : ∀ t : Fin cfg11.N, win11_1.index t (0 : Fin 1) = 0 :=
  (by decide +kernel : ∀ t : Fin grid11.N, win11_1.index t (0 : Fin 1) = 0)
theorem idx11_2 : ∀ t : Fin cfg11.N, win11_2.index t (0 : Fin 1) = 0 :=
  (by decide +kernel : ∀ t : Fin grid11.N, win11_2.index t (0 : Fin 1) = 0)
theorem idx11_3 : ∀ t : Fin cfg11.N, win11_3.index t (0 : Fin 1) = 0 :=
  (by decide +kernel : ∀ t : Fin grid11.N, win11_3.index t (0 : Fin 1) = 0)
theorem idx11_4 : ∀ t : Fin cfg11.N, win11_4.index t (0 : Fin 1) = 0 :=
  (by decide +kernel : ∀ t : Fin grid11.N, win11_4.index t (0 : Fin 1) = 0)
theorem idx11_6 : ∀ t : Fin cfg11.N, win11_6.index t (0 : Fin 1) = 0 :=
  (by decide +kernel : ∀ t : Fin grid11.N, win11_6.index t (0 : Fin 1) = 0)
theorem idx11_8 : ∀ t : Fin cfg11.N, win11_8.index t (0 : Fin 1) = 0 :=
  (by decide +kernel : ∀ t : Fin grid11.N, win11_8.index t (0 : Fin 1) = 0)
theorem idx11_9 : ∀ t : Fin cfg11.N, win11_9.index t (0 : Fin 1) = 0 :=
  (by decide +kernel : ∀ t : Fin grid11.N, win11_9.index t (0 : Fin 1) = 0)
theorem idx11_10 : ∀ t : Fin cfg11.N, win11_10.index t (0 : Fin 1) = 0 :=
  (by decide +kernel : ∀ t : Fin grid11.N, win11_10.index t (0 : Fin 1) = 0)
theorem idx11_11 : ∀ t : Fin cfg11.N, win11_11.index t (0 : Fin 1) = 0 :=
  (by decide +kernel : ∀ t : Fin grid11.N, win11_11.index t (0 : Fin 1) = 0)
theorem idx11_13 : ∀ t : Fin cfg11.N, win11_13.index t (0 : Fin 1) = 0 :=
  (by decide +kernel : ∀ t : Fin grid11.N, win11_13.index t (0 : Fin 1) = 0)
theorem idx11_5 : ∀ t : Fin cfg11.N, win11_5.index t (0 : Fin 2) = 0 ∧ win11_5.index t (1 : Fin 2) = 0 :=
  (by decide +kernel : ∀ t : Fin grid11.N, win11_5.index t (0 : Fin 2) = 0 ∧ win11_5.index t (1 : Fin 2) = 0)
theorem idx11_12 : ∀ t : Fin cfg11.N, win11_12.index t (0 : Fin 2) = 0 ∧ win11_12.index t (1 : Fin 2) = 0 :=
  (by decide +kernel : ∀ t : Fin grid11.N, win11_12.index t (0 : Fin 2) = 0 ∧ win11_12.index t (1 : Fin 2) = 0)

/-! ## Each input block read off its array -/

/-- Window 0's block at point t is rows 2000 t … 2000 t + 1999 of its array. -/
theorem blk11_0 (c : Dev nD) (t : Fin cfg11.N) (p : Fin 2000) (P : Fin 80000) (hP : P.val = 2000 * t.val + p.val) (k : Fin 128) :
    (iblk11 V c 0 t : Vec Ideal S2000x128 .f32) (ix2 p k) = (V c (Pipeline.arrRef spec11 0) : Vec Ideal S80000x128 .f32) (ix2 P k) := by
  obtain ⟨h0, h1⟩ := idx11_0 t
  unfold iblk11
  rw [View.read_apply]
  show V c (Pipeline.arrRef spec11 0) _ = V c (Pipeline.arrRef spec11 0) _
  refine congrArg (V c (Pipeline.arrRef spec11 0)) (funext fun a => Fin.ext ?_)
  match a with
  | ⟨0, _⟩ => show win11_0.index t (0 : Fin 2) * 2000 + 1 * p.val = P.val; omega
  | ⟨1, _⟩ => show win11_0.index t (1 : Fin 2) * 128 + 1 * k.val = k.val; omega
/-- Window 7's block at point t is rows 2000 t … 2000 t + 1999 of its array. -/
theorem blk11_7 (c : Dev nD) (t : Fin cfg11.N) (p : Fin 2000) (P : Fin 80000) (hP : P.val = 2000 * t.val + p.val) (k : Fin 128) :
    (iblk11 V c 7 t : Vec Ideal S2000x128 .f32) (ix2 p k) = (V c (Pipeline.arrRef spec11 7) : Vec Ideal S80000x128 .f32) (ix2 P k) := by
  obtain ⟨h0, h1⟩ := idx11_7 t
  unfold iblk11
  rw [View.read_apply]
  show V c (Pipeline.arrRef spec11 7) _ = V c (Pipeline.arrRef spec11 7) _
  refine congrArg (V c (Pipeline.arrRef spec11 7)) (funext fun a => Fin.ext ?_)
  match a with
  | ⟨0, _⟩ => show win11_7.index t (0 : Fin 2) * 2000 + 1 * p.val = P.val; omega
  | ⟨1, _⟩ => show win11_7.index t (1 : Fin 2) * 128 + 1 * k.val = k.val; omega
/-- Window 1's block at every point is its whole 128-vector. -/
theorem blk11_1 (c : Dev nD) (t : Fin cfg11.N) (k : Fin 128) :
    (iblk11 V c 1 t : Vec Ideal S128 .f32) (ix1 k) = (V c (Pipeline.arrRef spec11 1) : Vec Ideal S128 .f32) (ix1 k) := by
  have h0 := idx11_1 t
  unfold iblk11
  rw [View.read_apply]
  show V c (Pipeline.arrRef spec11 1) _ = V c (Pipeline.arrRef spec11 1) _
  refine congrArg (V c (Pipeline.arrRef spec11 1)) (funext fun a => Fin.ext ?_)
  match a with
  | ⟨0, _⟩ => show win11_1.index t (0 : Fin 1) * 128 + 1 * k.val = k.val; omega
/-- Window 2's block at every point is its whole 128-vector. -/
theorem blk11_2 (c : Dev nD) (t : Fin cfg11.N) (k : Fin 128) :
    (iblk11 V c 2 t : Vec Ideal S128 .f32) (ix1 k) = (V c (Pipeline.arrRef spec11 2) : Vec Ideal S128 .f32) (ix1 k) := by
  have h0 := idx11_2 t
  unfold iblk11
  rw [View.read_apply]
  show V c (Pipeline.arrRef spec11 2) _ = V c (Pipeline.arrRef spec11 2) _
  refine congrArg (V c (Pipeline.arrRef spec11 2)) (funext fun a => Fin.ext ?_)
  match a with
  | ⟨0, _⟩ => show win11_2.index t (0 : Fin 1) * 128 + 1 * k.val = k.val; omega
/-- Window 3's block at every point is its whole 128-vector. -/
theorem blk11_3 (c : Dev nD) (t : Fin cfg11.N) (k : Fin 128) :
    (iblk11 V c 3 t : Vec Ideal S128 .f32) (ix1 k) = (V c (Pipeline.arrRef spec11 3) : Vec Ideal S128 .f32) (ix1 k) := by
  have h0 := idx11_3 t
  unfold iblk11
  rw [View.read_apply]
  show V c (Pipeline.arrRef spec11 3) _ = V c (Pipeline.arrRef spec11 3) _
  refine congrArg (V c (Pipeline.arrRef spec11 3)) (funext fun a => Fin.ext ?_)
  match a with
  | ⟨0, _⟩ => show win11_3.index t (0 : Fin 1) * 128 + 1 * k.val = k.val; omega
/-- Window 4's block at every point is its whole 128-vector. -/
theorem blk11_4 (c : Dev nD) (t : Fin cfg11.N) (k : Fin 128) :
    (iblk11 V c 4 t : Vec Ideal S128 .f32) (ix1 k) = (V c (Pipeline.arrRef spec11 4) : Vec Ideal S128 .f32) (ix1 k) := by
  have h0 := idx11_4 t
  unfold iblk11
  rw [View.read_apply]
  show V c (Pipeline.arrRef spec11 4) _ = V c (Pipeline.arrRef spec11 4) _
  refine congrArg (V c (Pipeline.arrRef spec11 4)) (funext fun a => Fin.ext ?_)
  match a with
  | ⟨0, _⟩ => show win11_4.index t (0 : Fin 1) * 128 + 1 * k.val = k.val; omega
/-- Window 6's block at every point is its whole 128-vector. -/
theorem blk11_6 (c : Dev nD) (t : Fin cfg11.N) (k : Fin 128) :
    (iblk11 V c 6 t : Vec Ideal S128 .f32) (ix1 k) = (V c (Pipeline.arrRef spec11 6) : Vec Ideal S128 .f32) (ix1 k) := by
  have h0 := idx11_6 t
  unfold iblk11
  rw [View.read_apply]
  show V c (Pipeline.arrRef spec11 6) _ = V c (Pipeline.arrRef spec11 6) _
  refine congrArg (V c (Pipeline.arrRef spec11 6)) (funext fun a => Fin.ext ?_)
  match a with
  | ⟨0, _⟩ => show win11_6.index t (0 : Fin 1) * 128 + 1 * k.val = k.val; omega
/-- Window 8's block at every point is its whole 128-vector. -/
theorem blk11_8 (c : Dev nD) (t : Fin cfg11.N) (k : Fin 128) :
    (iblk11 V c 8 t : Vec Ideal S128 .f32) (ix1 k) = (V c (Pipeline.arrRef spec11 8) : Vec Ideal S128 .f32) (ix1 k) := by
  have h0 := idx11_8 t
  unfold iblk11
  rw [View.read_apply]
  show V c (Pipeline.arrRef spec11 8) _ = V c (Pipeline.arrRef spec11 8) _
  refine congrArg (V c (Pipeline.arrRef spec11 8)) (funext fun a => Fin.ext ?_)
  match a with
  | ⟨0, _⟩ => show win11_8.index t (0 : Fin 1) * 128 + 1 * k.val = k.val; omega
/-- Window 9's block at every point is its whole 128-vector. -/
theorem blk11_9 (c : Dev nD) (t : Fin cfg11.N) (k : Fin 128) :
    (iblk11 V c 9 t : Vec Ideal S128 .f32) (ix1 k) = (V c (Pipeline.arrRef spec11 9) : Vec Ideal S128 .f32) (ix1 k) := by
  have h0 := idx11_9 t
  unfold iblk11
  rw [View.read_apply]
  show V c (Pipeline.arrRef spec11 9) _ = V c (Pipeline.arrRef spec11 9) _
  refine congrArg (V c (Pipeline.arrRef spec11 9)) (funext fun a => Fin.ext ?_)
  match a with
  | ⟨0, _⟩ => show win11_9.index t (0 : Fin 1) * 128 + 1 * k.val = k.val; omega
/-- Window 10's block at every point is its whole 128-vector. -/
theorem blk11_10 (c : Dev nD) (t : Fin cfg11.N) (k : Fin 128) :
    (iblk11 V c 10 t : Vec Ideal S128 .f32) (ix1 k) = (V c (Pipeline.arrRef spec11 10) : Vec Ideal S128 .f32) (ix1 k) := by
  have h0 := idx11_10 t
  unfold iblk11
  rw [View.read_apply]
  show V c (Pipeline.arrRef spec11 10) _ = V c (Pipeline.arrRef spec11 10) _
  refine congrArg (V c (Pipeline.arrRef spec11 10)) (funext fun a => Fin.ext ?_)
  match a with
  | ⟨0, _⟩ => show win11_10.index t (0 : Fin 1) * 128 + 1 * k.val = k.val; omega
/-- Window 11's block at every point is its whole 128-vector. -/
theorem blk11_11 (c : Dev nD) (t : Fin cfg11.N) (k : Fin 128) :
    (iblk11 V c 11 t : Vec Ideal S128 .f32) (ix1 k) = (V c (Pipeline.arrRef spec11 11) : Vec Ideal S128 .f32) (ix1 k) := by
  have h0 := idx11_11 t
  unfold iblk11
  rw [View.read_apply]
  show V c (Pipeline.arrRef spec11 11) _ = V c (Pipeline.arrRef spec11 11) _
  refine congrArg (V c (Pipeline.arrRef spec11 11)) (funext fun a => Fin.ext ?_)
  match a with
  | ⟨0, _⟩ => show win11_11.index t (0 : Fin 1) * 128 + 1 * k.val = k.val; omega
/-- Window 13's block at every point is its whole 128-vector. -/
theorem blk11_13 (c : Dev nD) (t : Fin cfg11.N) (k : Fin 128) :
    (iblk11 V c 13 t : Vec Ideal S128 .f32) (ix1 k) = (V c (Pipeline.arrRef spec11 13) : Vec Ideal S128 .f32) (ix1 k) := by
  have h0 := idx11_13 t
  unfold iblk11
  rw [View.read_apply]
  show V c (Pipeline.arrRef spec11 13) _ = V c (Pipeline.arrRef spec11 13) _
  refine congrArg (V c (Pipeline.arrRef spec11 13)) (funext fun a => Fin.ext ?_)
  match a with
  | ⟨0, _⟩ => show win11_13.index t (0 : Fin 1) * 128 + 1 * k.val = k.val; omega
/-- Window 5's block at every point is its whole 128 x 128 matrix. -/
theorem blk11_5 (c : Dev nD) (t : Fin cfg11.N) (k : Fin 128) (q : Fin 128) :
    (iblk11 V c 5 t : Vec Ideal S128x128 .f32) (ix2 k q) = (V c (Pipeline.arrRef spec11 5) : Vec Ideal S128x128 .f32) (ix2 k q) := by
  obtain ⟨h0, h1⟩ := idx11_5 t
  unfold iblk11
  rw [View.read_apply]
  show V c (Pipeline.arrRef spec11 5) _ = V c (Pipeline.arrRef spec11 5) _
  refine congrArg (V c (Pipeline.arrRef spec11 5)) (funext fun a => Fin.ext ?_)
  match a with
  | ⟨0, _⟩ => show win11_5.index t (0 : Fin 2) * 128 + 1 * k.val = k.val; omega
  | ⟨1, _⟩ => show win11_5.index t (1 : Fin 2) * 128 + 1 * q.val = q.val; omega
/-- Window 12's block at every point is its whole 128 x 128 matrix. -/
theorem blk11_12 (c : Dev nD) (t : Fin cfg11.N) (k : Fin 128) (q : Fin 128) :
    (iblk11 V c 12 t : Vec Ideal S128x128 .f32) (ix2 k q) = (V c (Pipeline.arrRef spec11 12) : Vec Ideal S128x128 .f32) (ix2 k q) := by
  obtain ⟨h0, h1⟩ := idx11_12 t
  unfold iblk11
  rw [View.read_apply]
  show V c (Pipeline.arrRef spec11 12) _ = V c (Pipeline.arrRef spec11 12) _
  refine congrArg (V c (Pipeline.arrRef spec11 12)) (funext fun a => Fin.ext ?_)
  match a with
  | ⟨0, _⟩ => show win11_12.index t (0 : Fin 2) * 128 + 1 * k.val = k.val; omega
  | ⟨1, _⟩ => show win11_12.index t (1 : Fin 2) * 128 + 1 * q.val = q.val; omega

/-- The host form of the step applied to the region's fourteen input arrays as the region finds them. -/
abbrev G11 (c : Dev nD) : Vec Ideal S80000x128 .f32 :=
  Cert.Spec.combOp (F := Ideal) (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (V c (Pipeline.arrRef spec11 6)) (V c (Pipeline.arrRef spec11 7)) (V c (Pipeline.arrRef spec11 8)) (V c (Pipeline.arrRef spec11 9)) (V c (Pipeline.arrRef spec11 10)) (V c (Pipeline.arrRef spec11 11)) (V c (Pipeline.arrRef spec11 12)) (V c (Pipeline.arrRef spec11 13))

/-- What the body leaves in the output window's buffer at point t: the body's result on the fourteen input blocks. -/
theorem wb11_after (c : Dev nD) (t : Fin cfg11.N) :
    (dat11 (F := Ideal) V c).flushed 14 t = (out11_14 (F := Ideal) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (iblk11 V c 11 t) (iblk11 V c 12 t) (iblk11 V c 13 t) : Vec Ideal S2000x128 .f32) := by
  show (cfg11.win 14).cut (grid11.coords t) ((dat11 V c).after 14 t) = _
  rw [after11_14]
  rfl

/-- Entry (p, q) of the output block at point t sits at row 2000 t + p of the output array. -/
theorem wb11_emb (c : Dev nD) (t : Fin cfg11.N) (p : Fin 2000) (q : Fin 128) (P : Fin 80000) (hP : P.val = 2000 * t.val + p.val) :
    ((cfg11.win 14).blk t).view.emb (ix2 p q) = ix2 P q := by
  obtain ⟨h0, h1⟩ := idx11_14 t
  refine funext fun a => Fin.ext ?_
  match a with
  | ⟨0, _⟩ => show win11_14.index t (0 : Fin 2) * 2000 + 1 * p.val = P.val; omega
  | ⟨1, _⟩ => show win11_14.index t (1 : Fin 2) * 128 + 1 * q.val = q.val; omega

set_option maxHeartbeats 1000000 in
/-- The body's result at entry (p, q) of block t is the host form of the step at row 2000 t + p, column q. -/
theorem wb11_point (c : Dev nD) (t : Fin cfg11.N) (p : Fin 2000) (q : Fin 128) (P : Fin 80000) (hP : P.val = 2000 * t.val + p.val) :
    out11_14 (F := Ideal) (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (iblk11 V c 11 t) (iblk11 V c 12 t) (iblk11 V c 13 t) (ix2 p q) = G11 V c (ix2 P q) := by
  refine (out11_14_at (iblk11 V c 0 t) (iblk11 V c 1 t) (iblk11 V c 2 t) (iblk11 V c 3 t) (iblk11 V c 4 t) (iblk11 V c 5 t) (iblk11 V c 6 t) (iblk11 V c 7 t) (iblk11 V c 8 t) (iblk11 V c 9 t) (iblk11 V c 10 t) (iblk11 V c 11 t) (iblk11 V c 12 t) (iblk11 V c 13 t) p q).trans ?_
  rw [leakyGt11_eq_leakyGe11]
  refine Eq.trans ?_ (Cert.Spec.Region11.combOp_at11 (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (V c (Pipeline.arrRef spec11 6)) (V c (Pipeline.arrRef spec11 7)) (V c (Pipeline.arrRef spec11 8)) (V c (Pipeline.arrRef spec11 9)) (V c (Pipeline.arrRef spec11 10)) (V c (Pipeline.arrRef spec11 11)) (V c (Pipeline.arrRef spec11 12)) (V c (Pipeline.arrRef spec11 13)) P q).symm
  exact congrArg leakyGe11 (congrArg₂ (· + ·)
    (branch11_ext (fun k => blk11_0 V c t p P hP k) (fun k => blk11_1 V c t k) (fun k => blk11_2 V c t k) (fun k => blk11_3 V c t k)
      (fun k => blk11_4 V c t k) (fun k => blk11_5 V c t k q) (blk11_6 V c t q))
    (branch11_ext (fun k => blk11_7 V c t p P hP k) (fun k => blk11_8 V c t k) (fun k => blk11_9 V c t k) (fun k => blk11_10 V c t k)
      (fun k => blk11_11 V c t k) (fun k => blk11_12 V c t k q) (blk11_13 V c t q)))

set_option maxHeartbeats 1000000 in
/-- What point t writes back is block t of the host form of the step on the input arrays. -/
theorem writeback11_14 (c : Dev nD) (t : Fin cfg11.N) :
    (dat11 (F := Ideal) V c).flushed 14 t = ((cfg11.win 14).blk t).view.read (Elt Ideal) (G11 V c) := by
  rw [wb11_after]
  refine funext fun (j : S2000x128.Idx) => ?_
  obtain ⟨p, q, rfl⟩ : ∃ (p : Fin 2000) (q : Fin 128), j = ix2 p q := ⟨j 0, j 1, eq_ix2 j⟩
  have hN : t.val < 40 := Nat.lt_of_lt_of_eq t.isLt (show cfg11.N = 40 from N_11)
  obtain ⟨P, hP⟩ : ∃ P : Fin 80000, P.val = 2000 * t.val + p.val := ⟨⟨2000 * t.val + p.val, by have := p.isLt; omega⟩, rfl⟩
  show _ = G11 V c (((cfg11.win 14).blk t).view.emb (ix2 p q))
  exact (wb11_point V c t p q P hP).trans (congrArg (G11 V c) (wb11_emb c t p q P hP)).symm

/-- Every row of the output array lies in some point's block: row P in block P / 2000. -/
theorem rows_cover11_14 (c : Dev nD) (i : S80000x128.Idx) :
    ∃ t : Fin cfg11.N, (cfg11.win 14).flush t = true ∧ i ∈ ((cfg11.win 14).blk t).view.set := by
  have hi0 : (i 0).val < 80000 := (i 0).isLt
  have hi1 : (i 1).val < 128 := (i 1).isLt
  obtain ⟨t, ht⟩ : ∃ t : Fin cfg11.N, t.val = (i 0).val / 2000 :=
    ⟨⟨(i 0).val / 2000, by rw [show cfg11.N = 40 from N_11]; omega⟩, rfl⟩
  obtain ⟨h0, h1⟩ := idx11_14 t
  refine ⟨t, flush11_14 t, ?_⟩
  show i ∈ ((View.whole (Pipeline.arrRef spec11 14)).slice (win11_14.rect t)).set
  rw [View.set_slice_whole, Rect.mem_set_unit]
  intro a
  match a with
  | ⟨0, _⟩ => show win11_14.index t (0 : Fin 2) * 2000 ≤ (i 0).val ∧ (i 0).val < win11_14.index t (0 : Fin 2) * 2000 + 2000; omega
  | ⟨1, _⟩ => show win11_14.index t (1 : Fin 2) * 128 ≤ (i 1).val ∧ (i 1).val < win11_14.index t (1 : Fin 2) * 128 + 128; omega

end Blocks

open Cert.KernelIdeal Cert.KernelIdeal.Gen Idealize.ShloMosaic Idealize.ShloMosaic.TcCoe Idealize.SL.Sem
variable [Cert.KernelIdeal.Facts] [Cert.ReferenceIdeal.Facts]

/-- After the region's forty points the output array holds the host form of the step on the fourteen input arrays. -/
theorem region11_value (V : (c : Dev nD) → (b : Ref sig .tc) → Buf (Elt Ideal) ((c : Thread nD τ).loc b)) (c : Dev nD) :
    (dat11 (F := Ideal) V c).arrAt 14 cfg11.N
      = Cert.Spec.combOp (F := Ideal) (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (V c (Pipeline.arrRef spec11 6)) (V c (Pipeline.arrRef spec11 7)) (V c (Pipeline.arrRef spec11 8)) (V c (Pipeline.arrRef spec11 9)) (V c (Pipeline.arrRef spec11 10)) (V c (Pipeline.arrRef spec11 11)) (V c (Pipeline.arrRef spec11 12)) (V c (Pipeline.arrRef spec11 13)) :=
  (dat11 (F := Ideal) V c).arrAt_eq_of_cover 14 (G11 V c) (fun t _ => writeback11_14 V c t) (rows_cover11_14 c)

end Cert.KernelIdeal.RegionValue

end
-- ==== Proof.Region12.lean ====
import proofs.«116822_j38594576122568_1_alg».proof.Proof.Gen.KernelIdeal.Frame
import proofs.«116822_j38594576122568_1_alg».proof.Proof.SpecLayers
import Idealize.ShloMosaic.Lib.ValueIdx
import Idealize.ShloMosaic.Lib.ValueLayout
import Idealize.ShloMosaic.Lib.Pipeline.Value
import Idealize.ShloMosaic.PureOps.Ideal.Laws

/-! Region 12 of the kernel program: the two-branch normalise / clamp / linear / sum / leaky-clamp step over 20000 rows,
    run in 10 blocks of 2000 rows. This module shows that the region leaves in its output array the host form
    of the same step applied to its fourteen input arrays.

    At entry (P, q) both sides are
      leaky( Σ_k max(g1 k · (h1 (P, k) − mu1 k) · rsqrt(var1 k + ε) + be1 k, 0) · w1 (k, q) + b1 q
             + the same for the second branch )
    on the extended reals. The kernel's clamp tests s > 0 and the host form's tests s ≥ 0; they agree because at
    s = 0 the other arm is slope · 0 = 0. The block at grid point t holds rows 2000 t … 2000 t + 1999, so the
    ten blocks cover the array and row P is in block P / 2000. -/

noncomputable section

open scoped BigOperators

namespace Cert.KernelIdeal.RegionValue

open Idealize.ShloMosaic Idealize.ShloMosaic.ValueIdx Idealize.SL.Sem

/-- One branch at one output entry, on the extended reals: the row h normalised by the column statistics
    (scale g, shift be), clamped below at zero, contracted with the weight column w, plus the bias entry b. -/
def branch12 (h mu var g be w : Fin 128 → EReal) (b : EReal) : EReal :=
  (∑ k : Fin 128, max (g k * (h k - mu k) * Ideal.rsqrt (var k + Ideal.ofBits .f32 0x3727C5AC#32) + be k)
      (Ideal.ofBits .f32 0x00000000#32) * w k) + b

/-- The leaky clamp with the strict test: s where s is above zero, slope times s elsewhere. -/
def leakyGt12 (s : EReal) : EReal :=
  Scalar.select (Ideal.cmp .ogt s (Ideal.ofBits .f32 0x00000000#32)) s (Ideal.ofBits .f32 0x3C23D70A#32 * s)

/-- The leaky clamp with the weak test: s where s is at least zero, slope times s elsewhere. -/
def leakyGe12 (s : EReal) : EReal :=
  Scalar.select (Ideal.cmp .oge s (Ideal.ofBits .f32 0x00000000#32)) s (Ideal.ofBits .f32 0x3C23D70A#32 * s)

/-- The two clamps agree: they differ only at s = 0, where slope times 0 is 0. -/
theorem leakyGt12_eq_leakyGe12 (s : EReal) : leakyGt12 s = leakyGe12 s := by
  unfold leakyGt12 leakyGe12
  rw [Ideal.ofBits_zero_f32]
  by_cases h : 0 < s
  · simp [Scalar.select, Ideal.cmp, h, h.le]
  · by_cases h0 : s = 0
    · subst h0; simp [Scalar.select, Ideal.cmp]
    · have hlt : s < 0 := lt_of_le_of_ne (not_lt.mp h) h0
      simp [Scalar.select, Ideal.cmp, h, not_le.mpr hlt]

/-- A branch depends on its seven arguments only through their values. -/
theorem branch12_ext {h h' mu mu' var var' g g' be be' w w' : Fin 128 → EReal} {b b' : EReal}
    (e0 : ∀ k, h k = h' k) (e1 : ∀ k, mu k = mu' k) (e2 : ∀ k, var k = var' k) (e3 : ∀ k, g k = g' k)
    (e4 : ∀ k, be k = be' k) (e5 : ∀ k, w k = w' k) (e6 : b = b') :
    branch12 h mu var g be w b = branch12 h' mu' var' g' be' w' b' := by
  obtain rfl : h = h' := funext e0
  obtain rfl : mu = mu' := funext e1
  obtain rfl : var = var' := funext e2
  obtain rfl : g = g' := funext e3
  obtain rfl : be = be' := funext e4
  obtain rfl : w = w' := funext e5
  subst e6
  rfl

section Kernel
open Cert.KernelIdeal Cert.KernelIdeal.Gen
variable [Cert.KernelIdeal.Facts]

theorem lhs_k12_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_k12_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_k12_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_k12_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at an entry: the sum over the 128 contracted columns. -/
theorem matmul_k12 (a : FVec Ideal S2000x128 .bf16) (w : FVec Ideal S128x128 .bf16) (p : Fin 2000) (q : Fin 128) :
    matmul (F := Ideal) dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_k12_0 _ _
    | ⟨1, _⟩ => exact (lhs_k12_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_k12_0 _ _).trans hk
    | ⟨1, _⟩ => exact rhs_k12_1 _ _)
  rw [el, er]

/-- A 128-vector laid as one row and repeated down the 2000 rows reads, at (p, k), the vector at k. -/
theorem row_k12 {α : Type} (x : S128.Idx → α) (p : Fin 2000) (k : Fin 128) :
    broadcastTo S2000x128 (shapeCast S1x128 x shapeCasts_S128_S1x128) broadcasts_S1x128_S2000x128 (ix2 p k) = x (ix1 k) :=
  (broadcastTo_1b_ab_apply _ _ p k).trans (shapeCast_a_1a_apply x _ 0 k)

/-- The first branch's payload at an entry of the block. -/
theorem pay12_2_at (v0 : Vec Ideal S2000x128 .f32) (v2 v4 v12 v20 : Vec Ideal S128 .f32) (v28 : Vec Ideal S128x128 .f32) (v32 : Vec Ideal S128 .f32)
    (p : Fin 2000) (q : Fin 128) :
    k12_pay2 (F := Ideal) v0 v2 v4 v12 v20 v28 v32 (ix2 p q)
      = branch12 (fun k => v0 (ix2 p k)) (fun k => v4 (ix1 k)) (fun k => v12 (ix1 k)) (fun k => v2 (ix1 k)) (fun k => v20 (ix1 k)) (fun k => v28 (ix2 k q)) (v32 (ix1 q)) := by
  unfold k12_pay2 branch12
  simp only [shapeCast_self]
  rw [addf_apply, matmul_k12, row_k12]
  refine congrArg (· + _) (Finset.sum_congr rfl fun k _ => ?_)
  rw [truncf_apply, truncf_apply, maximumf_apply, addf_apply, mulf_apply, mulf_apply, subf_apply, row_k12, row_k12, row_k12, row_k12]
  rfl

/-- The leaky clamp of a block, read at an entry. -/
theorem leaky_k12 (s : FVec Ideal S2000x128 .f32) (i : S2000x128.Idx) :
    select (cmpf .ogt s (broadcast S2000x128 (Scalar.ofBits (F := Ideal) .f32 0x00000000#32))) s
        (mulf (broadcast S2000x128 (Scalar.ofBits (F := Ideal) .f32 0x3C23D70A#32)) s) i = leakyGt12 (s i) := rfl

/-- The stored payload at an entry of the block: the first branch's value plus the second branch, through the clamp. -/
theorem pay12_1_at (v36 v38 : FVec Ideal S2000x128 .f32) (v40 v42 : FVec Ideal S128 .f32) (v49 v57 : Vec Ideal S128 .f32) (v65 : Vec Ideal S128x128 .f32) (v69 : Vec Ideal S128 .f32)
    (p : Fin 2000) (q : Fin 128) :
    k12_pay1 (F := Ideal) v36 v38 v40 v42 v49 v57 v65 v69 (ix2 p q)
      = leakyGt12 (v36 (ix2 p q) + branch12 (fun k => v38 (ix2 p k)) (fun k => v42 (ix1 k)) (fun k => v49 (ix1 k)) (fun k => v40 (ix1 k)) (fun k => v57 (ix1 k)) (fun k => v65 (ix2 k q)) (v69 (ix1 q))) := by
  unfold k12_pay1 branch12
  simp only [shapeCast_self]
  rw [leaky_k12, addf_apply, addf_apply, matmul_k12, row_k12]
  refine congrArg (fun z => leakyGt12 (v36 (ix2 p q) + (z + _))) (Finset.sum_congr rfl fun k _ => ?_)
  rw [truncf_apply, truncf_apply, maximumf_apply, addf_apply, mulf_apply, mulf_apply, subf_apply, row_k12, row_k12, row_k12, row_k12]
  rfl

theorem hz2_12 : (![0, 0] : Fin 2 → Nat) = fun _ => 0 := funext fun a => by match a with | ⟨0, _⟩ => rfl | ⟨1, _⟩ => rfl
theorem hz1_12 : (![0] : Fin 1 → Nat) = fun _ => 0 := funext fun a => by match a with | ⟨0, _⟩ => rfl

/-- What the body leaves in the output block, at an entry, from the fourteen input blocks: the two branches' sum
    through the clamp with the strict test. -/
theorem out12_14_at (x0 : Vec Ideal S2000x128 .f32) (x1 x2 x3 x4 : Vec Ideal S128 .f32) (x5 : Vec Ideal S128x128 .f32) (x6 : Vec Ideal S128 .f32)
    (x7 : Vec Ideal S2000x128 .f32) (x8 x9 x10 x11 : Vec Ideal S128 .f32) (x12 : Vec Ideal S128x128 .f32) (x13 : Vec Ideal S128 .f32)
    (p : Fin 2000) (q : Fin 128) :
    out12_14 (F := Ideal) x0 x1 x2 x3 x4 x5 x6 x7 x8 x9 x10 x11 x12 x13 (ix2 p q)
      = leakyGt12 (branch12 (fun k => x0 (ix2 p k)) (fun k => x1 (ix1 k)) (fun k => x2 (ix1 k)) (fun k => x3 (ix1 k)) (fun k => x4 (ix1 k)) (fun k => x5 (ix2 k q)) (x6 (ix1 q))
          + branch12 (fun k => x7 (ix2 p k)) (fun k => x8 (ix1 k)) (fun k => x9 (ix1 k)) (fun k => x10 (ix1 k)) (fun k => x11 (ix1 k)) (fun k => x12 (ix2 k q)) (x13 (ix1 q))) := by
  unfold out12_14
  rw [View.canon_unit_zero hz2_12]
  simp only [View.ld_unit_zero (S := S2000x128) hz2_12, View.ld_unit_zero (S := S128) hz1_12, View.ld_unit_zero (S := S128x128) hz2_12]
  rw [pay12_1_at, pay12_2_at]
  unfold k12_pay3 k12_pay4 k12_pay5
  simp only [shapeCast_self]

end Kernel

end Cert.KernelIdeal.RegionValue

namespace Cert.Spec.Region12

open Idealize.ShloMosaic Idealize.ShloMosaic.ValueIdx Idealize.SL.Sem
open Cert.KernelIdeal.RegionValue (branch12 leakyGe12)

section Reference
open Cert.ReferenceIdeal Cert.ReferenceIdeal.Facts₀ Cert.ReferenceIdeal.Facts
variable [Cert.ReferenceIdeal.Facts]

theorem lhs_r12_0 (i : S20000x128.Idx) (q : dot_S20000x128_S128x128_S20000x128_1_0_0_1_n_n.contr.Idx) :
    (dot_S20000x128_S128x128_S20000x128_1_0_0_1_n_n.lhsIdx i q 0).val = (i 0).val := by
  unfold DotDims.lhsIdx
  rw [dif_neg (show ¬(0 : Fin S20000x128.rank) ∈ dot_S20000x128_S128x128_S20000x128_1_0_0_1_n_n.lhsBatch from List.not_mem_nil), dif_pos (show (0 : Fin S20000x128.rank) ∈ dot_S20000x128_S128x128_S20000x128_1_0_0_1_n_n.lhsNonContracting from List.mem_singleton.mpr rfl)]
  rfl
theorem lhs_r12_1 (i : S20000x128.Idx) (q : dot_S20000x128_S128x128_S20000x128_1_0_0_1_n_n.contr.Idx) :
    (dot_S20000x128_S128x128_S20000x128_1_0_0_1_n_n.lhsIdx i q 1).val = (q ⟨0, Nat.one_pos⟩).val :=
  dot_S20000x128_S128x128_S20000x128_1_0_0_1_n_n.lhsIdx_val_of_single rfl i q
theorem rhs_r12_0 (i : S20000x128.Idx) (q : dot_S20000x128_S128x128_S20000x128_1_0_0_1_n_n.contr.Idx) :
    (dot_S20000x128_S128x128_S20000x128_1_0_0_1_n_n.rhsIdx i q 0).val = (q ⟨0, Nat.one_pos⟩).val :=
  dot_S20000x128_S128x128_S20000x128_1_0_0_1_n_n.rhsIdx_val_of_single rfl i q
theorem rhs_r12_1 (i : S20000x128.Idx) (q : dot_S20000x128_S128x128_S20000x128_1_0_0_1_n_n.contr.Idx) :
    (dot_S20000x128_S128x128_S20000x128_1_0_0_1_n_n.rhsIdx i q 1).val = (i 1).val := by
  unfold DotDims.rhsIdx
  rw [dif_neg (show ¬(1 : Fin S128x128.rank) ∈ dot_S20000x128_S128x128_S20000x128_1_0_0_1_n_n.rhsBatch from List.not_mem_nil), dif_pos (show (1 : Fin S128x128.rank) ∈ dot_S20000x128_S128x128_S20000x128_1_0_0_1_n_n.rhsNonContracting from List.mem_singleton.mpr rfl)]
  rfl

/-- The host product at an entry: the sum over the 128 contracted columns. -/
theorem dot_r12 (a : FVec Ideal S20000x128 .f32) (w : FVec Ideal S128x128 .f32) (P : Fin 20000) (q : Fin 128) :
    Host.dotGeneral (F := Ideal) dot_S20000x128_S128x128_S20000x128_1_0_0_1_n_n none a w (ix2 P q)
      = ∑ k : Fin 128, a (ix2 P k) * w (ix2 k q) := by
  simp only [Host.dotGeneral]
  rw [Ideal.dotGeneral_apply, ← Equiv.sum_comp (contrEquiv1 dot_S20000x128_S128x128_S20000x128_1_0_0_1_n_n 128 rfl rfl).symm]
  refine Finset.sum_congr rfl fun k _ => ?_
  have hk := contrEquiv1_symm_val dot_S20000x128_S128x128_S20000x128_1_0_0_1_n_n 128 rfl rfl k
  have el : dot_S20000x128_S128x128_S20000x128_1_0_0_1_n_n.lhsIdx (ix2 P q) ((contrEquiv1 dot_S20000x128_S128x128_S20000x128_1_0_0_1_n_n 128 rfl rfl).symm k) = ix2 P k := funext fun a => Fin.ext (by
    match a with
    | ⟨0, _⟩ => exact lhs_r12_0 _ _
    | ⟨1, _⟩ => exact (lhs_r12_1 _ _).trans hk)
  have er : dot_S20000x128_S128x128_S20000x128_1_0_0_1_n_n.rhsIdx (ix2 P q) ((contrEquiv1 dot_S20000x128_S128x128_S20000x128_1_0_0_1_n_n 128 rfl rfl).symm k) = ix2 k q := funext fun a => Fin.ext (by
    match a with
    | ⟨0, _⟩ => exact (rhs_r12_0 _ _).trans hk
    | ⟨1, _⟩ => exact rhs_r12_1 _ _)
  rw [el, er]

/-- A 128-vector laid as one row and repeated down the 20000 rows reads, at (P, k), the vector at k. -/
theorem row_r12 {α : Type} (x : S128.Idx → α) (P : Fin 20000) (k : Fin 128) :
    broadcastInDim S20000x128 ![0, 1] bcast_S1x128_S20000x128_0_1 (broadcastInDim S1x128 ![1] bcast_S128_S1x128_1 x) (ix2 P k) = x (ix1 k) :=
  (broadcastInDim_apply _ _ _ (ix2 P k) (ix2 (0 : Fin 1) k) (fun a => by match a with | ⟨0, _⟩ => rfl | ⟨1, _⟩ => rfl)).trans
    (broadcastInDim_apply _ _ x (ix2 (0 : Fin 1) k) (ix1 k) (fun a => by match a with | ⟨0, _⟩ => rfl))

/-- A scalar constant repeated over the 20000 x 128 array reads its value everywhere. -/
theorem splat_r12 (b : BitVec 32) (j : S20000x128.Idx) :
    broadcastInDim S20000x128 ![] bcast_S_S20000x128 (constant (F := Ideal) S_ .f32 b) j = Ideal.ofBits .f32 b := rfl
/-- A scalar constant repeated over a 128-vector reads its value everywhere. -/
theorem splat_v12 (b : BitVec 32) (j : S128.Idx) :
    broadcastInDim S128 ![] bcast_S_S128 (constant (F := Ideal) S_ .f32 b) j = Ideal.ofBits .f32 b := rfl

/-- One branch of the host form at an entry. -/
theorem branch_r12 (h : FVec Ideal S20000x128 .f32) (mu var g be : FVec Ideal S128 .f32) (w : FVec Ideal S128x128 .f32) (b : FVec Ideal S128 .f32)
    (P : Fin 20000) (q : Fin 128) :
    (addf (Host.dotGeneral (F := Ideal) dot_S20000x128_S128x128_S20000x128_1_0_0_1_n_n none (maximumf (addf (mulf (mulf (broadcastInDim S20000x128 ![0, 1] bcast_S1x128_S20000x128_0_1 (broadcastInDim S1x128 ![1] bcast_S128_S1x128_1 g)) (subf h (broadcastInDim S20000x128 ![0, 1] bcast_S1x128_S20000x128_0_1 (broadcastInDim S1x128 ![1] bcast_S128_S1x128_1 mu)))) (broadcastInDim S20000x128 ![0, 1] bcast_S1x128_S20000x128_0_1 (broadcastInDim S1x128 ![1] bcast_S128_S1x128_1 (Host.rsqrt (addf var (broadcastInDim S128 ![] bcast_S_S128 (constant (F := Ideal) S_ .f32 0x3727C5AC#32))))))) (broadcastInDim S20000x128 ![0, 1] bcast_S1x128_S20000x128_0_1 (broadcastInDim S1x128 ![1] bcast_S128_S1x128_1 be))) ((broadcastInDim S20000x128 ![] bcast_S_S20000x128) (constant (F := Ideal) S_ .f32 0x00000000#32))) w) (broadcastInDim S20000x128 ![0, 1] bcast_S1x128_S20000x128_0_1 (broadcastInDim S1x128 ![1] bcast_S128_S1x128_1 b))) (ix2 P q)
      = branch12 (fun k => h (ix2 P k)) (fun k => mu (ix1 k)) (fun k => var (ix1 k)) (fun k => g (ix1 k)) (fun k => be (ix1 k)) (fun k => w (ix2 k q)) (b (ix1 q)) := by
  unfold branch12
  rw [addf_apply, dot_r12, row_r12]
  refine congrArg (· + _) (Finset.sum_congr rfl fun k _ => ?_)
  rw [maximumf_apply, addf_apply, mulf_apply, mulf_apply, subf_apply, row_r12, row_r12, row_r12, row_r12, splat_r12]
  rfl

/-- The host form of the whole step at an entry: the two branches' sum through the clamp with the weak test. -/
theorem combM_at12 (h1 : FVec Ideal S20000x128 .f32) (mu1 var1 g1 be1 : FVec Ideal S128 .f32) (w1 : FVec Ideal S128x128 .f32) (b1 : FVec Ideal S128 .f32)
    (h2 : FVec Ideal S20000x128 .f32) (mu2 var2 g2 be2 : FVec Ideal S128 .f32) (w2 : FVec Ideal S128x128 .f32) (b2 : FVec Ideal S128 .f32)
    (P : Fin 20000) (q : Fin 128) :
    Cert.Spec.combM (F := Ideal) h1 mu1 var1 g1 be1 w1 b1 h2 mu2 var2 g2 be2 w2 b2 (ix2 P q)
      = leakyGe12 (branch12 (fun k => h1 (ix2 P k)) (fun k => mu1 (ix1 k)) (fun k => var1 (ix1 k)) (fun k => g1 (ix1 k)) (fun k => be1 (ix1 k)) (fun k => w1 (ix2 k q)) (b1 (ix1 q))
          + branch12 (fun k => h2 (ix2 P k)) (fun k => mu2 (ix1 k)) (fun k => var2 (ix1 k)) (fun k => g2 (ix1 k)) (fun k => be2 (ix1 k)) (fun k => w2 (ix2 k q)) (b2 (ix1 q))) := by
  unfold Cert.Spec.combM leakyGe12
  beta_reduce
  rw [select_apply, cmpf_apply, mulf_apply, splat_r12, splat_r12, addf_apply, branch_r12, branch_r12]
  rfl

end Reference

end Cert.Spec.Region12

namespace Cert.KernelIdeal.RegionValue

open Idealize.ShloMosaic Idealize.ShloMosaic.ValueIdx Idealize.ShloMosaic.TcCoe Idealize.SL.Sem

section Blocks
open Cert.KernelIdeal Cert.KernelIdeal.Gen
open Idealize.ShloMosaic.Pipeline (Dat)
variable [Cert.KernelIdeal.Facts] [Cert.ReferenceIdeal.Facts]
variable (V : (c : Dev nD) → (b : Ref sig .tc) → Buf (Elt Ideal) ((c : Thread nD τ).loc b))

/-! ## The windows' block indices over the grid: windows 0, 7 and 14 move down the rows with the point, the others stay -/

theorem idx12_0 : ∀ t : Fin cfg12.N, win12_0.index t (0 : Fin 2) = t.val ∧ win12_0.index t (1 : Fin 2) = 0 :=
  (by decide +kernel : ∀ t : Fin grid12.N, win12_0.index t (0 : Fin 2) = t.val ∧ win12_0.index t (1 : Fin 2) = 0)
theorem idx12_7 : ∀ t : Fin cfg12.N, win12_7.index t (0 : Fin 2) = t.val ∧ win12_7.index t (1 : Fin 2) = 0 :=
  (by decide +kernel : ∀ t : Fin grid12.N, win12_7.index t (0 : Fin 2) = t.val ∧ win12_7.index t (1 : Fin 2) = 0)
theorem idx12_14 : ∀ t : Fin cfg12.N, win12_14.index t (0 : Fin 2) = t.val ∧ win12_14.index t (1 : Fin 2) = 0 :=
  (by decide +kernel : ∀ t : Fin grid12.N, win12_14.index t (0 : Fin 2) = t.val ∧ win12_14.index t (1 : Fin 2) = 0)
theorem idx12_1 : ∀ t : Fin cfg12.N, win12_1.index t (0 : Fin 1) = 0 :=
  (by decide +kernel : ∀ t : Fin grid12.N, win12_1.index t (0 : Fin 1) = 0)
theorem idx12_2 : ∀ t : Fin cfg12.N, win12_2.index t (0 : Fin 1) = 0 :=
  (by decide +kernel : ∀ t : Fin grid12.N, win12_2.index t (0 : Fin 1) = 0)
theorem idx12_3 : ∀ t : Fin cfg12.N, win12_3.index t (0 : Fin 1) = 0 :=
  (by decide +kernel : ∀ t : Fin grid12.N, win12_3.index t (0 : Fin 1) = 0)
theorem idx12_4 : ∀ t : Fin cfg12.N, win12_4.index t (0 : Fin 1) = 0 :=
  (by decide +kernel : ∀ t : Fin grid12.N, win12_4.index t (0 : Fin 1) = 0)
theorem idx12_6 : ∀ t : Fin cfg12.N, win12_6.index t (0 : Fin 1) = 0 :=
  (by decide +kernel : ∀ t : Fin grid12.N, win12_6.index t (0 : Fin 1) = 0)
theorem idx12_8 : ∀ t : Fin cfg12.N, win12_8.index t (0 : Fin 1) = 0 :=
  (by decide +kernel : ∀ t : Fin grid12.N, win12_8.index t (0 : Fin 1) = 0)
theorem idx12_9 : ∀ t : Fin cfg12.N, win12_9.index t (0 : Fin 1) = 0 :=
  (by decide +kernel : ∀ t : Fin grid12.N, win12_9.index t (0 : Fin 1) = 0)
theorem idx12_10 : ∀ t : Fin cfg12.N, win12_10.index t (0 : Fin 1) = 0 :=
  (by decide +kernel : ∀ t : Fin grid12.N, win12_10.index t (0 : Fin 1) = 0)
theorem idx12_11 : ∀ t : Fin cfg12.N, win12_11.index t (0 : Fin 1) = 0 :=
  (by decide +kernel : ∀ t : Fin grid12.N, win12_11.index t (0 : Fin 1) = 0)
theorem idx12_13 : ∀ t : Fin cfg12.N, win12_13.index t (0 : Fin 1) = 0 :=
  (by decide +kernel : ∀ t : Fin grid12.N, win12_13.index t (0 : Fin 1) = 0)
theorem idx12_5 : ∀ t : Fin cfg12.N, win12_5.index t (0 : Fin 2) = 0 ∧ win12_5.index t (1 : Fin 2) = 0 :=
  (by decide +kernel : ∀ t : Fin grid12.N, win12_5.index t (0 : Fin 2) = 0 ∧ win12_5.index t (1 : Fin 2) = 0)
theorem idx12_12 : ∀ t : Fin cfg12.N, win12_12.index t (0 : Fin 2) = 0 ∧ win12_12.index t (1 : Fin 2) = 0 :=
  (by decide +kernel : ∀ t : Fin grid12.N, win12_12.index t (0 : Fin 2) = 0 ∧ win12_12.index t (1 : Fin 2) = 0)

/-! ## Each input block read off its array -/

/-- Window 0's block at point t is rows 2000 t … 2000 t + 1999 of its array. -/
theorem blk12_0 (c : Dev nD) (t : Fin cfg12.N) (p : Fin 2000) (P : Fin 20000) (hP : P.val = 2000 * t.val + p.val) (k : Fin 128) :
    (iblk12 V c 0 t : Vec Ideal S2000x128 .f32) (ix2 p k) = (V c (Pipeline.arrRef spec12 0) : Vec Ideal S20000x128 .f32) (ix2 P k) := by
  obtain ⟨h0, h1⟩ := idx12_0 t
  unfold iblk12
  rw [View.read_apply]
  show V c (Pipeline.arrRef spec12 0) _ = V c (Pipeline.arrRef spec12 0) _
  refine congrArg (V c (Pipeline.arrRef spec12 0)) (funext fun a => Fin.ext ?_)
  match a with
  | ⟨0, _⟩ => show win12_0.index t (0 : Fin 2) * 2000 + 1 * p.val = P.val; omega
  | ⟨1, _⟩ => show win12_0.index t (1 : Fin 2) * 128 + 1 * k.val = k.val; omega
/-- Window 7's block at point t is rows 2000 t … 2000 t + 1999 of its array. -/
theorem blk12_7 (c : Dev nD) (t : Fin cfg12.N) (p : Fin 2000) (P : Fin 20000) (hP : P.val = 2000 * t.val + p.val) (k : Fin 128) :
    (iblk12 V c 7 t : Vec Ideal S2000x128 .f32) (ix2 p k) = (V c (Pipeline.arrRef spec12 7) : Vec Ideal S20000x128 .f32) (ix2 P k) := by
  obtain ⟨h0, h1⟩ := idx12_7 t
  unfold iblk12
  rw [View.read_apply]
  show V c (Pipeline.arrRef spec12 7) _ = V c (Pipeline.arrRef spec12 7) _
  refine congrArg (V c (Pipeline.arrRef spec12 7)) (funext fun a => Fin.ext ?_)
  match a with
  | ⟨0, _⟩ => show win12_7.index t (0 : Fin 2) * 2000 + 1 * p.val = P.val; omega
  | ⟨1, _⟩ => show win12_7.index t (1 : Fin 2) * 128 + 1 * k.val = k.val; omega
/-- Window 1's block at every point is its whole 128-vector. -/
theorem blk12_1 (c : Dev nD) (t : Fin cfg12.N) (k : Fin 128) :
    (iblk12 V c 1 t : Vec Ideal S128 .f32) (ix1 k) = (V c (Pipeline.arrRef spec12 1) : Vec Ideal S128 .f32) (ix1 k) := by
  have h0 := idx12_1 t
  unfold iblk12
  rw [View.read_apply]
  show V c (Pipeline.arrRef spec12 1) _ = V c (Pipeline.arrRef spec12 1) _
  refine congrArg (V c (Pipeline.arrRef spec12 1)) (funext fun a => Fin.ext ?_)
  match a with
  | ⟨0, _⟩ => show win12_1.index t (0 : Fin 1) * 128 + 1 * k.val = k.val; omega
/-- Window 2's block at every point is its whole 128-vector. -/
theorem blk12_2 (c : Dev nD) (t : Fin cfg12.N) (k : Fin 128) :
    (iblk12 V c 2 t : Vec Ideal S128 .f32) (ix1 k) = (V c (Pipeline.arrRef spec12 2) : Vec Ideal S128 .f32) (ix1 k) := by
  have h0 := idx12_2 t
  unfold iblk12
  rw [View.read_apply]
  show V c (Pipeline.arrRef spec12 2) _ = V c (Pipeline.arrRef spec12 2) _
  refine congrArg (V c (Pipeline.arrRef spec12 2)) (funext fun a => Fin.ext ?_)
  match a with
  | ⟨0, _⟩ => show win12_2.index t (0 : Fin 1) * 128 + 1 * k.val = k.val; omega
/-- Window 3's block at every point is its whole 128-vector. -/
theorem blk12_3 (c : Dev nD) (t : Fin cfg12.N) (k : Fin 128) :
    (iblk12 V c 3 t : Vec Ideal S128 .f32) (ix1 k) = (V c (Pipeline.arrRef spec12 3) : Vec Ideal S128 .f32) (ix1 k) := by
  have h0 := idx12_3 t
  unfold iblk12
  rw [View.read_apply]
  show V c (Pipeline.arrRef spec12 3) _ = V c (Pipeline.arrRef spec12 3) _
  refine congrArg (V c (Pipeline.arrRef spec12 3)) (funext fun a => Fin.ext ?_)
  match a with
  | ⟨0, _⟩ => show win12_3.index t (0 : Fin 1) * 128 + 1 * k.val = k.val; omega
/-- Window 4's block at every point is its whole 128-vector. -/
theorem blk12_4 (c : Dev nD) (t : Fin cfg12.N) (k : Fin 128) :
    (iblk12 V c 4 t : Vec Ideal S128 .f32) (ix1 k) = (V c (Pipeline.arrRef spec12 4) : Vec Ideal S128 .f32) (ix1 k) := by
  have h0 := idx12_4 t
  unfold iblk12
  rw [View.read_apply]
  show V c (Pipeline.arrRef spec12 4) _ = V c (Pipeline.arrRef spec12 4) _
  refine congrArg (V c (Pipeline.arrRef spec12 4)) (funext fun a => Fin.ext ?_)
  match a with
  | ⟨0, _⟩ => show win12_4.index t (0 : Fin 1) * 128 + 1 * k.val = k.val; omega
/-- Window 6's block at every point is its whole 128-vector. -/
theorem blk12_6 (c : Dev nD) (t : Fin cfg12.N) (k : Fin 128) :
    (iblk12 V c 6 t : Vec Ideal S128 .f32) (ix1 k) = (V c (Pipeline.arrRef spec12 6) : Vec Ideal S128 .f32) (ix1 k) := by
  have h0 := idx12_6 t
  unfold iblk12
  rw [View.read_apply]
  show V c (Pipeline.arrRef spec12 6) _ = V c (Pipeline.arrRef spec12 6) _
  refine congrArg (V c (Pipeline.arrRef spec12 6)) (funext fun a => Fin.ext ?_)
  match a with
  | ⟨0, _⟩ => show win12_6.index t (0 : Fin 1) * 128 + 1 * k.val = k.val; omega
/-- Window 8's block at every point is its whole 128-vector. -/
theorem blk12_8 (c : Dev nD) (t : Fin cfg12.N) (k : Fin 128) :
    (iblk12 V c 8 t : Vec Ideal S128 .f32) (ix1 k) = (V c (Pipeline.arrRef spec12 8) : Vec Ideal S128 .f32) (ix1 k) := by
  have h0 := idx12_8 t
  unfold iblk12
  rw [View.read_apply]
  show V c (Pipeline.arrRef spec12 8) _ = V c (Pipeline.arrRef spec12 8) _
  refine congrArg (V c (Pipeline.arrRef spec12 8)) (funext fun a => Fin.ext ?_)
  match a with
  | ⟨0, _⟩ => show win12_8.index t (0 : Fin 1) * 128 + 1 * k.val = k.val; omega
/-- Window 9's block at every point is its whole 128-vector. -/
theorem blk12_9 (c : Dev nD) (t : Fin cfg12.N) (k : Fin 128) :
    (iblk12 V c 9 t : Vec Ideal S128 .f32) (ix1 k) = (V c (Pipeline.arrRef spec12 9) : Vec Ideal S128 .f32) (ix1 k) := by
  have h0 := idx12_9 t
  unfold iblk12
  rw [View.read_apply]
  show V c (Pipeline.arrRef spec12 9) _ = V c (Pipeline.arrRef spec12 9) _
  refine congrArg (V c (Pipeline.arrRef spec12 9)) (funext fun a => Fin.ext ?_)
  match a with
  | ⟨0, _⟩ => show win12_9.index t (0 : Fin 1) * 128 + 1 * k.val = k.val; omega
/-- Window 10's block at every point is its whole 128-vector. -/
theorem blk12_10 (c : Dev nD) (t : Fin cfg12.N) (k : Fin 128) :
    (iblk12 V c 10 t : Vec Ideal S128 .f32) (ix1 k) = (V c (Pipeline.arrRef spec12 10) : Vec Ideal S128 .f32) (ix1 k) := by
  have h0 := idx12_10 t
  unfold iblk12
  rw [View.read_apply]
  show V c (Pipeline.arrRef spec12 10) _ = V c (Pipeline.arrRef spec12 10) _
  refine congrArg (V c (Pipeline.arrRef spec12 10)) (funext fun a => Fin.ext ?_)
  match a with
  | ⟨0, _⟩ => show win12_10.index t (0 : Fin 1) * 128 + 1 * k.val = k.val; omega
/-- Window 11's block at every point is its whole 128-vector. -/
theorem blk12_11 (c : Dev nD) (t : Fin cfg12.N) (k : Fin 128) :
    (iblk12 V c 11 t : Vec Ideal S128 .f32) (ix1 k) = (V c (Pipeline.arrRef spec12 11) : Vec Ideal S128 .f32) (ix1 k) := by
  have h0 := idx12_11 t
  unfold iblk12
  rw [View.read_apply]
  show V c (Pipeline.arrRef spec12 11) _ = V c (Pipeline.arrRef spec12 11) _
  refine congrArg (V c (Pipeline.arrRef spec12 11)) (funext fun a => Fin.ext ?_)
  match a with
  | ⟨0, _⟩ => show win12_11.index t (0 : Fin 1) * 128 + 1 * k.val = k.val; omega
/-- Window 13's block at every point is its whole 128-vector. -/
theorem blk12_13 (c : Dev nD) (t : Fin cfg12.N) (k : Fin 128) :
    (iblk12 V c 13 t : Vec Ideal S128 .f32) (ix1 k) = (V c (Pipeline.arrRef spec12 13) : Vec Ideal S128 .f32) (ix1 k) := by
  have h0 := idx12_13 t
  unfold iblk12
  rw [View.read_apply]
  show V c (Pipeline.arrRef spec12 13) _ = V c (Pipeline.arrRef spec12 13) _
  refine congrArg (V c (Pipeline.arrRef spec12 13)) (funext fun a => Fin.ext ?_)
  match a with
  | ⟨0, _⟩ => show win12_13.index t (0 : Fin 1) * 128 + 1 * k.val = k.val; omega
/-- Window 5's block at every point is its whole 128 x 128 matrix. -/
theorem blk12_5 (c : Dev nD) (t : Fin cfg12.N) (k : Fin 128) (q : Fin 128) :
    (iblk12 V c 5 t : Vec Ideal S128x128 .f32) (ix2 k q) = (V c (Pipeline.arrRef spec12 5) : Vec Ideal S128x128 .f32) (ix2 k q) := by
  obtain ⟨h0, h1⟩ := idx12_5 t
  unfold iblk12
  rw [View.read_apply]
  show V c (Pipeline.arrRef spec12 5) _ = V c (Pipeline.arrRef spec12 5) _
  refine congrArg (V c (Pipeline.arrRef spec12 5)) (funext fun a => Fin.ext ?_)
  match a with
  | ⟨0, _⟩ => show win12_5.index t (0 : Fin 2) * 128 + 1 * k.val = k.val; omega
  | ⟨1, _⟩ => show win12_5.index t (1 : Fin 2) * 128 + 1 * q.val = q.val; omega
/-- Window 12's block at every point is its whole 128 x 128 matrix. -/
theorem blk12_12 (c : Dev nD) (t : Fin cfg12.N) (k : Fin 128) (q : Fin 128) :
    (iblk12 V c 12 t : Vec Ideal S128x128 .f32) (ix2 k q) = (V c (Pipeline.arrRef spec12 12) : Vec Ideal S128x128 .f32) (ix2 k q) := by
  obtain ⟨h0, h1⟩ := idx12_12 t
  unfold iblk12
  rw [View.read_apply]
  show V c (Pipeline.arrRef spec12 12) _ = V c (Pipeline.arrRef spec12 12) _
  refine congrArg (V c (Pipeline.arrRef spec12 12)) (funext fun a => Fin.ext ?_)
  match a with
  | ⟨0, _⟩ => show win12_12.index t (0 : Fin 2) * 128 + 1 * k.val = k.val; omega
  | ⟨1, _⟩ => show win12_12.index t (1 : Fin 2) * 128 + 1 * q.val = q.val; omega

/-- The host form of the step applied to the region's fourteen input arrays as the region finds them. -/
abbrev G12 (c : Dev nD) : Vec Ideal S20000x128 .f32 :=
  Cert.Spec.combM (F := Ideal) (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) (V c (Pipeline.arrRef spec12 7)) (V c (Pipeline.arrRef spec12 8)) (V c (Pipeline.arrRef spec12 9)) (V c (Pipeline.arrRef spec12 10)) (V c (Pipeline.arrRef spec12 11)) (V c (Pipeline.arrRef spec12 12)) (V c (Pipeline.arrRef spec12 13))

/-- What the body leaves in the output window's buffer at point t: the body's result on the fourteen input blocks. -/
theorem wb12_after (c : Dev nD) (t : Fin cfg12.N) :
    (dat12 (F := Ideal) V c).flushed 14 t = (out12_14 (F := Ideal) (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t) (iblk12 V c 11 t) (iblk12 V c 12 t) (iblk12 V c 13 t) : Vec Ideal S2000x128 .f32) := by
  show (cfg12.win 14).cut (grid12.coords t) ((dat12 V c).after 14 t) = _
  rw [after12_14]
  rfl

/-- Entry (p, q) of the output block at point t sits at row 2000 t + p of the output array. -/
theorem wb12_emb (c : Dev nD) (t : Fin cfg12.N) (p : Fin 2000) (q : Fin 128) (P : Fin 20000) (hP : P.val = 2000 * t.val + p.val) :
    ((cfg12.win 14).blk t).view.emb (ix2 p q) = ix2 P q := by
  obtain ⟨h0, h1⟩ := idx12_14 t
  refine funext fun a => Fin.ext ?_
  match a with
  | ⟨0, _⟩ => show win12_14.index t (0 : Fin 2) * 2000 + 1 * p.val = P.val; omega
  | ⟨1, _⟩ => show win12_14.index t (1 : Fin 2) * 128 + 1 * q.val = q.val; omega

set_option maxHeartbeats 1000000 in
/-- The body's result at entry (p, q) of block t is the host form of the step at row 2000 t + p, column q. -/
theorem wb12_point (c : Dev nD) (t : Fin cfg12.N) (p : Fin 2000) (q : Fin 128) (P : Fin 20000) (hP : P.val = 2000 * t.val + p.val) :
    out12_14 (F := Ideal) (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t) (iblk12 V c 11 t) (iblk12 V c 12 t) (iblk12 V c 13 t) (ix2 p q) = G12 V c (ix2 P q) := by
  refine (out12_14_at (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t) (iblk12 V c 11 t) (iblk12 V c 12 t) (iblk12 V c 13 t) p q).trans ?_
  rw [leakyGt12_eq_leakyGe12]
  refine Eq.trans ?_ (Cert.Spec.Region12.combM_at12 (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) (V c (Pipeline.arrRef spec12 7)) (V c (Pipeline.arrRef spec12 8)) (V c (Pipeline.arrRef spec12 9)) (V c (Pipeline.arrRef spec12 10)) (V c (Pipeline.arrRef spec12 11)) (V c (Pipeline.arrRef spec12 12)) (V c (Pipeline.arrRef spec12 13)) P q).symm
  exact congrArg leakyGe12 (congrArg₂ (· + ·)
    (branch12_ext (fun k => blk12_0 V c t p P hP k) (fun k => blk12_1 V c t k) (fun k => blk12_2 V c t k) (fun k => blk12_3 V c t k)
      (fun k => blk12_4 V c t k) (fun k => blk12_5 V c t k q) (blk12_6 V c t q))
    (branch12_ext (fun k => blk12_7 V c t p P hP k) (fun k => blk12_8 V c t k) (fun k => blk12_9 V c t k) (fun k => blk12_10 V c t k)
      (fun k => blk12_11 V c t k) (fun k => blk12_12 V c t k q) (blk12_13 V c t q)))

set_option maxHeartbeats 1000000 in
/-- What point t writes back is block t of the host form of the step on the input arrays. -/
theorem writeback12_14 (c : Dev nD) (t : Fin cfg12.N) :
    (dat12 (F := Ideal) V c).flushed 14 t = ((cfg12.win 14).blk t).view.read (Elt Ideal) (G12 V c) := by
  rw [wb12_after]
  refine funext fun (j : S2000x128.Idx) => ?_
  obtain ⟨p, q, rfl⟩ : ∃ (p : Fin 2000) (q : Fin 128), j = ix2 p q := ⟨j 0, j 1, eq_ix2 j⟩
  have hN : t.val < 10 := Nat.lt_of_lt_of_eq t.isLt (show cfg12.N = 10 from N_12)
  obtain ⟨P, hP⟩ : ∃ P : Fin 20000, P.val = 2000 * t.val + p.val := ⟨⟨2000 * t.val + p.val, by have := p.isLt; omega⟩, rfl⟩
  show _ = G12 V c (((cfg12.win 14).blk t).view.emb (ix2 p q))
  exact (wb12_point V c t p q P hP).trans (congrArg (G12 V c) (wb12_emb c t p q P hP)).symm

/-- Every row of the output array lies in some point's block: row P in block P / 2000. -/
theorem rows_cover12_14 (c : Dev nD) (i : S20000x128.Idx) :
    ∃ t : Fin cfg12.N, (cfg12.win 14).flush t = true ∧ i ∈ ((cfg12.win 14).blk t).view.set := by
  have hi0 : (i 0).val < 20000 := (i 0).isLt
  have hi1 : (i 1).val < 128 := (i 1).isLt
  obtain ⟨t, ht⟩ : ∃ t : Fin cfg12.N, t.val = (i 0).val / 2000 :=
    ⟨⟨(i 0).val / 2000, by rw [show cfg12.N = 10 from N_12]; omega⟩, rfl⟩
  obtain ⟨h0, h1⟩ := idx12_14 t
  refine ⟨t, flush12_14 t, ?_⟩
  show i ∈ ((View.whole (Pipeline.arrRef spec12 14)).slice (win12_14.rect t)).set
  rw [View.set_slice_whole, Rect.mem_set_unit]
  intro a
  match a with
  | ⟨0, _⟩ => show win12_14.index t (0 : Fin 2) * 2000 ≤ (i 0).val ∧ (i 0).val < win12_14.index t (0 : Fin 2) * 2000 + 2000; omega
  | ⟨1, _⟩ => show win12_14.index t (1 : Fin 2) * 128 ≤ (i 1).val ∧ (i 1).val < win12_14.index t (1 : Fin 2) * 128 + 128; omega

end Blocks

open Cert.KernelIdeal Cert.KernelIdeal.Gen Idealize.ShloMosaic Idealize.ShloMosaic.TcCoe Idealize.SL.Sem
variable [Cert.KernelIdeal.Facts] [Cert.ReferenceIdeal.Facts]

/-- After the region's ten points the output array holds the host form of the step on the fourteen input arrays. -/
theorem region12_value (V : (c : Dev nD) → (b : Ref sig .tc) → Buf (Elt Ideal) ((c : Thread nD τ).loc b)) (c : Dev nD) :
    (dat12 (F := Ideal) V c).arrAt 14 cfg12.N
      = Cert.Spec.combM (F := Ideal) (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) (V c (Pipeline.arrRef spec12 7)) (V c (Pipeline.arrRef spec12 8)) (V c (Pipeline.arrRef spec12 9)) (V c (Pipeline.arrRef spec12 10)) (V c (Pipeline.arrRef spec12 11)) (V c (Pipeline.arrRef spec12 12)) (V c (Pipeline.arrRef spec12 13)) :=
  (dat12 (F := Ideal) V c).arrAt_eq_of_cover 14 (G12 V c) (fun t _ => writeback12_14 V c t) (rows_cover12_14 c)

end Cert.KernelIdeal.RegionValue

end
-- ==== Proof.Region13.lean ====
import proofs.«116822_j38594576122568_1_alg».proof.Proof.Gen.KernelIdeal.Frame
import proofs.«116822_j38594576122568_1_alg».proof.Proof.SpecLayers
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

/-! Region 13 of the kernel program is a linear layer: for each block of 2000 rows of `a : [80000, 128]` it forms the
    product with the whole weight matrix `w : [128, 128]`, adds the bias row `b : [128]` to every row, and writes the block of
    the output `[80000, 128]` at the same rows. This module shows that, over the extended reals, the output array the
    region leaves is, index by index, `(∑ k, a(p,k) · w(k,q)) + b(q)`, and that this is what the reference's host
    operations (a `dot_general` over the one contracted axis plus the bias row broadcast down the rows) compute. -/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable [Cert.ReferenceIdeal.Facts]

/-! ## The linear layer, index by index -/

/-- The linear layer over the extended reals: entry `(p, q)` is the sum over the 128 contracted coordinates of
    `a(p,k) · w(k,q)`, plus `b(q)`. -/
def region13_lin (a : S80000x128.Idx → Elt Ideal .f32) (w : S128x128.Idx → Elt Ideal .f32) (b : S128.Idx → Elt Ideal .f32) :
    S80000x128.Idx → Elt Ideal .f32 :=
  fun i => (∑ k : Fin 128, a (ix2 (i 0) k) * w (ix2 k (i 1))) + b (ix1 (i 1))

/-- The linear layer at entry `(p, q)`. -/
theorem region13_lin_apply (a : S80000x128.Idx → Elt Ideal .f32) (w : S128x128.Idx → Elt Ideal .f32) (b : S128.Idx → Elt Ideal .f32) (p : Fin 80000) (q : Fin 128) :
    region13_lin a w b (ix2 p q) = (∑ k : Fin 128, a (ix2 p k) * w (ix2 k q)) + b (ix1 q) := rfl

/-! ## The kernel's product: the operand indices of its contraction, axis by axis -/

theorem region13_klhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem region13_klhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem region13_krhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem region13_krhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The kernel's product of a block of 2000 rows with the weight matrix, accumulated into zero, at entry `(p, q)`: the
    sum over the contracted coordinate. -/
theorem region13_kmatmul_apply (x : FVec Ideal S2000x128 .bf16) (y : FVec Ideal S128x128 .bf16) (p : Fin 2000) (q : Fin 128) :
    matmul (F := Ideal) dot_S2000x128_S128x128_S2000x128_1_0_0_1_n_n none x y (constant (F := Ideal) S2000x128 .f32 0x00000000#32) (ix2 p q)
      = ∑ k : Fin 128, x (ix2 p k) * y (ix2 k q) := by
  show FloatOps.matmul dot_S2000x128_S128x128_S2000x128_1_0_0_1_n_n none x y (constant (F := Ideal) S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact region13_klhs_0 _ _
    | ⟨1, _⟩ => exact (region13_klhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (region13_krhs_0 _ _).trans hk
    | ⟨1, _⟩ => exact region13_krhs_1 _ _)
  rw [el, er]

/-- The bias row laid along every row of the block, at entry `(p, q)`: the bias at `q`. -/
theorem region13_kbias_apply (x2 : Vec Ideal S128 .f32) (p : Fin 2000) (q : Fin 128) :
    broadcastTo S2000x128 (shapeCast S1x128 (shapeCast S128 x2 shapeCasts_S128_S128) shapeCasts_S128_S1x128) broadcasts_S1x128_S2000x128 (ix2 p q)
      = x2 (ix1 q) := by
  rw [shapeCast_self]
  have e1 := broadcastTo_apply (shapeCast S1x128 x2 shapeCasts_S128_S1x128) broadcasts_S1x128_S2000x128 (ix2 p q) (ix2 (0 : Fin 1) q) (by
    intro a
    match a with
    | ⟨0, _⟩ => rfl
    | ⟨1, _⟩ => rfl)
  have e2 := shapeCast_apply x2 shapeCasts_S128_S1x128 (ix2 (0 : Fin 1) q) (ix1 q) (by
    rw [Shape.rowMajor_val_two, Shape.rowMajor_val_one]; show q.val = 0 * 128 + q.val; omega)
  exact e1.trans e2

/-- THE BODY'S PAYLOAD at entry `(p, q)` of a block: the casts to the narrower float are the identity over the extended
    reals, the product accumulates into zero, and the bias row is added to every row. -/
theorem region13_pay_apply (x0 : Vec Ideal S2000x128 .f32) (x1 : Vec Ideal S128x128 .f32) (x2 : Vec Ideal S128 .f32) (p : Fin 2000) (q : Fin 128) :
    k13_pay1 (F := Ideal) x0 x1 x2 (ix2 p q) = (∑ k : Fin 128, x0 (ix2 p k) * x1 (ix2 k q)) + x2 (ix1 q) := by
  unfold k13_pay1
  show addf (matmul (F := Ideal) dot_S2000x128_S128x128_S2000x128_1_0_0_1_n_n none (truncf .bf16 (shapeCast S2000x128 x0 shapeCasts_S2000x128_S2000x128) bitsLt_bf16_f32) (truncf .bf16 (shapeCast S128x128 x1 shapeCasts_S128x128_S128x128) bitsLt_bf16_f32) (constant (F := Ideal) S2000x128 .f32 0x00000000#32))
      (broadcastTo S2000x128 (shapeCast S1x128 (shapeCast S128 x2 shapeCasts_S128_S128) shapeCasts_S128_S1x128) broadcasts_S1x128_S2000x128) (ix2 p q) = _
  rw [addf_apply, region13_kmatmul_apply, region13_kbias_apply]
  simp only [truncf_apply, shapeCast_self]

/-! ## The reference's product: the operand indices of its contraction, axis by axis -/

theorem region13_hlhs_0 (i : S80000x128.Idx) (q : Cert.ReferenceIdeal.dot_S80000x128_S128x128_S80000x128_1_0_0_1_n_n.contr.Idx) :
    (Cert.ReferenceIdeal.dot_S80000x128_S128x128_S80000x128_1_0_0_1_n_n.lhsIdx i q 0).val = (i 0).val := by
  unfold DotDims.lhsIdx
  rw [dif_neg (show ¬(0 : Fin S80000x128.rank) ∈ Cert.ReferenceIdeal.dot_S80000x128_S128x128_S80000x128_1_0_0_1_n_n.lhsBatch from List.not_mem_nil), dif_pos (show (0 : Fin S80000x128.rank) ∈ Cert.ReferenceIdeal.dot_S80000x128_S128x128_S80000x128_1_0_0_1_n_n.lhsNonContracting from List.mem_singleton.mpr rfl)]
  rfl
theorem region13_hlhs_1 (i : S80000x128.Idx) (q : Cert.ReferenceIdeal.dot_S80000x128_S128x128_S80000x128_1_0_0_1_n_n.contr.Idx) :
    (Cert.ReferenceIdeal.dot_S80000x128_S128x128_S80000x128_1_0_0_1_n_n.lhsIdx i q 1).val = (q ⟨0, Nat.one_pos⟩).val :=
  Cert.ReferenceIdeal.dot_S80000x128_S128x128_S80000x128_1_0_0_1_n_n.lhsIdx_val_of_single rfl i q
theorem region13_hrhs_0 (i : S80000x128.Idx) (q : Cert.ReferenceIdeal.dot_S80000x128_S128x128_S80000x128_1_0_0_1_n_n.contr.Idx) :
    (Cert.ReferenceIdeal.dot_S80000x128_S128x128_S80000x128_1_0_0_1_n_n.rhsIdx i q 0).val = (q ⟨0, Nat.one_pos⟩).val :=
  Cert.ReferenceIdeal.dot_S80000x128_S128x128_S80000x128_1_0_0_1_n_n.rhsIdx_val_of_single rfl i q
theorem region13_hrhs_1 (i : S80000x128.Idx) (q : Cert.ReferenceIdeal.dot_S80000x128_S128x128_S80000x128_1_0_0_1_n_n.contr.Idx) :
    (Cert.ReferenceIdeal.dot_S80000x128_S128x128_S80000x128_1_0_0_1_n_n.rhsIdx i q 1).val = (i 1).val := by
  unfold DotDims.rhsIdx
  rw [dif_neg (show ¬(1 : Fin S128x128.rank) ∈ Cert.ReferenceIdeal.dot_S80000x128_S128x128_S80000x128_1_0_0_1_n_n.rhsBatch from List.not_mem_nil), dif_pos (show (1 : Fin S128x128.rank) ∈ Cert.ReferenceIdeal.dot_S80000x128_S128x128_S80000x128_1_0_0_1_n_n.rhsNonContracting from List.mem_singleton.mpr rfl)]
  rfl

/-- The reference's product of the whole array with the weight matrix at entry `(p, q)`: the sum over the contracted
    coordinate. -/
theorem region13_hdot_apply (a : FVec Ideal S80000x128 .f32) (w : FVec Ideal S128x128 .f32) (p : Fin 80000) (q : Fin 128) :
    Host.dotGeneral (F := Ideal) Cert.ReferenceIdeal.dot_S80000x128_S128x128_S80000x128_1_0_0_1_n_n none a w (ix2 p q)
      = ∑ k : Fin 128, a (ix2 p k) * w (ix2 k q) := by
  show FloatOps.dotGeneral Cert.ReferenceIdeal.dot_S80000x128_S128x128_S80000x128_1_0_0_1_n_n none _ a w (ix2 p q) = _
  rw [Ideal.dotGeneral_apply, ← Equiv.sum_comp (contrEquiv1 Cert.ReferenceIdeal.dot_S80000x128_S128x128_S80000x128_1_0_0_1_n_n 128 rfl rfl).symm]
  refine Finset.sum_congr rfl fun k _ => ?_
  have hk := contrEquiv1_symm_val Cert.ReferenceIdeal.dot_S80000x128_S128x128_S80000x128_1_0_0_1_n_n 128 rfl rfl k
  have el : Cert.ReferenceIdeal.dot_S80000x128_S128x128_S80000x128_1_0_0_1_n_n.lhsIdx (ix2 p q) ((contrEquiv1 Cert.ReferenceIdeal.dot_S80000x128_S128x128_S80000x128_1_0_0_1_n_n 128 rfl rfl).symm k) = ix2 p k := funext fun a => Fin.ext (by
    match a with
    | ⟨0, _⟩ => exact region13_hlhs_0 _ _
    | ⟨1, _⟩ => exact (region13_hlhs_1 _ _).trans hk)
  have er : Cert.ReferenceIdeal.dot_S80000x128_S128x128_S80000x128_1_0_0_1_n_n.rhsIdx (ix2 p q) ((contrEquiv1 Cert.ReferenceIdeal.dot_S80000x128_S128x128_S80000x128_1_0_0_1_n_n 128 rfl rfl).symm k) = ix2 k q := funext fun a => Fin.ext (by
    match a with
    | ⟨0, _⟩ => exact (region13_hrhs_0 _ _).trans hk
    | ⟨1, _⟩ => exact region13_hrhs_1 _ _)
  rw [el, er]

/-- The reference's bias: the row `b` made a one-row matrix and repeated down the 80000 rows, at entry `(p, q)`: the bias
    at `q`. -/
theorem region13_hbias_apply (b : S128.Idx → Elt Ideal .f32) (p : Fin 80000) (q : Fin 128) :
    broadcastInDim S80000x128 ![0, 1] Cert.ReferenceIdeal.Facts₀.bcast_S1x128_S80000x128_0_1 (broadcastInDim S1x128 ![1] Cert.ReferenceIdeal.Facts₀.bcast_S128_S1x128_1 b) (ix2 p q)
      = b (ix1 q) := by
  have e1 := broadcastInDim_oneRow_apply (m := 80000) (n := 128) Cert.ReferenceIdeal.Facts₀.bcast_S1x128_S80000x128_0_1
    (broadcastInDim S1x128 ![1] Cert.ReferenceIdeal.Facts₀.bcast_S128_S1x128_1 b) p q
  have e2 := broadcastInDim_apply ![1] Cert.ReferenceIdeal.Facts₀.bcast_S128_S1x128_1 b (ix2 (0 : Fin 1) q) (ix1 q) (by
    intro a
    match a with
    | ⟨0, _⟩ => rfl)
  exact e1.trans e2

/-- THE REFERENCE'S LINEAR LAYER is the linear layer over the extended reals. -/
theorem region13_linD_eq (a : S80000x128.Idx → Elt Ideal .f32) (w : S128x128.Idx → Elt Ideal .f32) (b : S128.Idx → Elt Ideal .f32) :
    Cert.Spec.linD (F := Ideal) a w b = region13_lin a w b := by
  funext i
  obtain ⟨p, q, rfl⟩ : ∃ (p : Fin 80000) (q : Fin 128), i = ix2 p q := ⟨i 0, i 1, eq_ix2 i⟩
  rw [region13_lin_apply]
  show Host.dotGeneral (F := Ideal) Cert.ReferenceIdeal.dot_S80000x128_S128x128_S80000x128_1_0_0_1_n_n none a w (ix2 p q)
      + broadcastInDim S80000x128 ![0, 1] Cert.ReferenceIdeal.Facts₀.bcast_S1x128_S80000x128_0_1 (broadcastInDim S1x128 ![1] Cert.ReferenceIdeal.Facts₀.bcast_S128_S1x128_1 b) (ix2 p q) = _
  rw [region13_hdot_apply, region13_hbias_apply]

/-! ## From blocks to the array -/

theorem region13_zero2 : (![0, 0] : Fin 2 → Nat) = fun _ => 0 := funext fun a => by fin_cases a <;> rfl
theorem region13_zero1 : (![0] : Fin 1 → Nat) = fun _ => 0 := funext fun a => by fin_cases a <;> rfl

/-- The printed index maps, decided over the 40 grid points: point `t` reads block `t` of the rows of `a`, the whole of
    `w` and of `b`, and writes block `t` of the rows of the output. -/
theorem region13_idx_facts : ∀ t : Fin cfg13.N, win13_0.index t (0 : Fin 2) = t.val
    ∧ win13_0.index t (1 : Fin 2) = 0
    ∧ win13_1.index t (0 : Fin 2) = 0
    ∧ win13_1.index t (1 : Fin 2) = 0
    ∧ win13_2.index t (0 : Fin 1) = 0
    ∧ win13_3.index t (0 : Fin 2) = t.val
    ∧ win13_3.index t (1 : Fin 2) = 0 :=
  (by decide +kernel : ∀ t : Fin grid13.N, _)

/-- ONE store of the payload through the whole block, of loads through the whole blocks: what the body leaves in the output
    window's buffer is the payload of the three input blocks. -/
theorem region13_out_eq (x0 : Vec Ideal S2000x128 .f32) (x1 : Vec Ideal S128x128 .f32) (x2 : Vec Ideal S128 .f32) :
    out13_3 (F := Ideal) x0 x1 x2 = k13_pay1 (F := Ideal) x0 x1 x2 := by
  unfold out13_3
  rw [View.canon_unit_zero region13_zero2, View.ld_unit_zero region13_zero2, View.ld_unit_zero region13_zero2,
    View.ld_unit_zero region13_zero1]

/-- What the body leaves in the output window's buffer, at entry `(p, q)` of the block. -/
theorem region13_out_apply (x0 : Vec Ideal S2000x128 .f32) (x1 : Vec Ideal S128x128 .f32) (x2 : Vec Ideal S128 .f32) (p : Fin 2000) (q : Fin 128) :
    out13_3 (F := Ideal) x0 x1 x2 (ix2 p q) = (∑ k : Fin 128, x0 (ix2 p k) * x1 (ix2 k q)) + x2 (ix1 q) := by
  rw [region13_out_eq, region13_pay_apply]

/-- WHAT POINT `t` WRITES BACK is block `t` of the linear layer of the three input arrays as the region finds them. -/
theorem region13_flushed_eq (V : (c : Dev nD) → (b : Ref sig .tc) → Buf (Elt Ideal) ((c : Thread nD τ).loc b)) (c : Dev nD) (t : Fin cfg13.N) :
    (dat13 (F := Ideal) V c).flushed 3 t
      = ((cfg13.win 3).blk t).view.read (Elt Ideal) (region13_lin (V c (Pipeline.arrRef spec13 0)) (V c (Pipeline.arrRef spec13 1)) (V c (Pipeline.arrRef spec13 2))) := by
  show (cfg13.win 3).cut (grid13.coords t) ((dat13 (F := Ideal) V c).after 3 t) = _
  rw [after13_3]
  obtain ⟨e0, e1, e2, e3, e4, e5, e6⟩ := region13_idx_facts t
  refine funext fun (j : S2000x128.Idx) => ?_
  obtain ⟨p, q, rfl⟩ : ∃ (p : Fin 2000) (q : Fin 128), j = ix2 p q := ⟨j 0, j 1, eq_ix2 j⟩
  have hp : p.val < 2000 := p.isLt
  have hq : q.val < 128 := q.isLt
  have ht : t.val < 40 := t.isLt
  -- the output entry this block entry lands on: row `t · 2000 + p`, column `q`
  have hout : ((cfg13.win 3).blk t).view.emb (ix2 p q) = ix2 (⟨t.val * 2000 + p.val, by omega⟩ : Fin 80000) q := by
    funext a; apply Fin.ext
    match a with
    | ⟨0, _⟩ => show win13_3.index t (0 : Fin 2) * 2000 + 1 * p.val = t.val * 2000 + p.val; omega
    | ⟨1, _⟩ => show win13_3.index t (1 : Fin 2) * 128 + 1 * q.val = q.val; omega
  -- the input entries the block entry reads: the same row of `a`, and `w`, `b` whole
  have h0 : ∀ k : Fin 128, iblk13 V c 0 t (ix2 p k) = V c (Pipeline.arrRef spec13 0) (ix2 (⟨t.val * 2000 + p.val, by omega⟩ : Fin 80000) k) := fun k => by
    show V c (Pipeline.arrRef spec13 0) (((cfg13.win 0).blk t).view.emb (ix2 p k)) = _
    refine congrArg _ (funext fun a => Fin.ext ?_)
    have hk : k.val < 128 := k.isLt
    match a with
    | ⟨0, _⟩ => show win13_0.index t (0 : Fin 2) * 2000 + 1 * p.val = t.val * 2000 + p.val; omega
    | ⟨1, _⟩ => show win13_0.index t (1 : Fin 2) * 128 + 1 * k.val = k.val; omega
  have h1 : ∀ k : Fin 128, iblk13 V c 1 t (ix2 k q) = V c (Pipeline.arrRef spec13 1) (ix2 k q) := fun k => by
    show V c (Pipeline.arrRef spec13 1) (((cfg13.win 1).blk t).view.emb (ix2 k q)) = _
    refine congrArg _ (funext fun a => Fin.ext ?_)
    have hk : k.val < 128 := k.isLt
    match a with
    | ⟨0, _⟩ => show win13_1.index t (0 : Fin 2) * 128 + 1 * k.val = k.val; omega
    | ⟨1, _⟩ => show win13_1.index t (1 : Fin 2) * 128 + 1 * q.val = q.val; omega
  have h2 : iblk13 V c 2 t (ix1 q) = V c (Pipeline.arrRef spec13 2) (ix1 q) := by
    show V c (Pipeline.arrRef spec13 2) (((cfg13.win 2).blk t).view.emb (ix1 q)) = _
    refine congrArg _ (funext fun a => Fin.ext ?_)
    match a with
    | ⟨0, _⟩ => show win13_2.index t (0 : Fin 1) * 128 + 1 * q.val = q.val; omega
  show out13_3 (F := Ideal) (iblk13 V c 0 t) (iblk13 V c 1 t) (iblk13 V c 2 t) (ix2 p q)
      = region13_lin (V c (Pipeline.arrRef spec13 0)) (V c (Pipeline.arrRef spec13 1)) (V c (Pipeline.arrRef spec13 2)) (((cfg13.win 3).blk t).view.emb (ix2 p q))
  rw [hout, region13_lin_apply]
  refine (region13_out_apply _ _ _ p q).trans ?_
  rw [h2]
  exact congrArg (· + _) (Finset.sum_congr rfl fun k _ => by rw [h0 k, h1 k])

/-- An index of the output array is in point `t`'s block iff each coordinate is in the block's range on its axis. -/
theorem region13_mem_blk (t : Fin cfg13.N) (i : S80000x128.Idx) :
    i ∈ ((cfg13.win 3).blk t).view.set ↔ ∀ a : Fin 2, win13_3.index t a * S2000x128.size a ≤ (i a).val ∧ (i a).val < win13_3.index t a * S2000x128.size a + S2000x128.size a := by
  show i ∈ ((View.whole (Pipeline.arrRef spec13 3)).slice (win13_3.rect t)).set ↔ _
  rw [View.set_slice_whole, Rect.mem_set_unit]
  exact Iff.rfl

/-- THE COVER: row `r` of the output is in the block of point `r / 2000`, which writes its block back. -/
theorem region13_cover (i : S80000x128.Idx) :
    ∃ t : Fin cfg13.N, (cfg13.win 3).flush t = true ∧ i ∈ ((cfg13.win 3).blk t).view.set := by
  have hi0 : (i 0).val < 80000 := (i 0).isLt
  have hi1 : (i 1).val < 128 := (i 1).isLt
  obtain ⟨t, ht⟩ : ∃ t : Fin cfg13.N, t.val = (i 0).val / 2000 := ⟨⟨(i 0).val / 2000, show _ < 40 by omega⟩, rfl⟩
  obtain ⟨e0, e1, e2, e3, e4, e5, e6⟩ := region13_idx_facts t
  refine ⟨t, flush13_3 t, ?_⟩
  rw [region13_mem_blk]
  intro a
  match a with
  | ⟨0, _⟩ => show win13_3.index t (0 : Fin 2) * 2000 ≤ (i 0).val ∧ (i 0).val < win13_3.index t (0 : Fin 2) * 2000 + 2000; omega
  | ⟨1, _⟩ => show win13_3.index t (1 : Fin 2) * 128 ≤ (i 1).val ∧ (i 1).val < win13_3.index t (1 : Fin 2) * 128 + 128; omega

/-! ## The region's output array -/

/-- The output array at the program's own facts: the linear layer over the extended reals. -/
theorem region13_value_lin (V : (c : Dev nD) → (b : Ref sig .tc) → Buf (Elt Ideal) ((c : Thread nD τ).loc b)) (c : Dev nD) :
    (dat13 (F := Ideal) V c).arrAt 3 cfg13.N
      = region13_lin (V c (Pipeline.arrRef spec13 0)) (V c (Pipeline.arrRef spec13 1)) (V c (Pipeline.arrRef spec13 2)) :=
  (dat13 (F := Ideal) V c).arrAt_eq_of_cover 3 _ (fun t _ => region13_flushed_eq V c t) region13_cover

variable [Cert.KernelIdeal.Facts]

/-- WHAT REGION 13 LEAVES in its output array: the reference's linear layer of the region's three input arrays. -/
theorem region13_value (V : (c : Dev nD) → (b : Ref sig .tc) → Buf (Elt Ideal) ((c : Thread nD τ).loc b)) (c : Dev nD) :
    (dat13 (F := Ideal) V c).arrAt 3 cfg13.N
      = Cert.Spec.linD (F := Ideal) (V c (Pipeline.arrRef spec13 0)) (V c (Pipeline.arrRef spec13 1)) (V c (Pipeline.arrRef spec13 2)) := by
  rw [region13_linD_eq]
  exact region13_value_lin V c

end Cert.KernelIdeal.RegionValue

end
-- ==== Proof.Region14.lean ====
import proofs.«116822_j38594576122568_1_alg».proof.Proof.Gen.KernelIdeal.Frame
import proofs.«116822_j38594576122568_1_alg».proof.Proof.SpecLayers
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

/-! Region 14 of the kernel program is a linear layer: for each block of 2000 rows of `a : [80000, 128]` it forms the
    product with the whole weight matrix `w : [128, 128]`, adds the bias row `b : [128]` to every row, and writes the block of
    the output `[80000, 128]` at the same rows. This module shows that, over the extended reals, the output array the
    region leaves is, index by index, `(∑ k, a(p,k) · w(k,q)) + b(q)`, and that this is what the reference's host
    operations (a `dot_general` over the one contracted axis plus the bias row broadcast down the rows) compute. -/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable [Cert.ReferenceIdeal.Facts]

/-! ## The linear layer, index by index -/

/-- The linear layer over the extended reals: entry `(p, q)` is the sum over the 128 contracted coordinates of
    `a(p,k) · w(k,q)`, plus `b(q)`. -/
def region14_lin (a : S80000x128.Idx → Elt Ideal .f32) (w : S128x128.Idx → Elt Ideal .f32) (b : S128.Idx → Elt Ideal .f32) :
    S80000x128.Idx → Elt Ideal .f32 :=
  fun i => (∑ k : Fin 128, a (ix2 (i 0) k) * w (ix2 k (i 1))) + b (ix1 (i 1))

/-- The linear layer at entry `(p, q)`. -/
theorem region14_lin_apply (a : S80000x128.Idx → Elt Ideal .f32) (w : S128x128.Idx → Elt Ideal .f32) (b : S128.Idx → Elt Ideal .f32) (p : Fin 80000) (q : Fin 128) :
    region14_lin a w b (ix2 p q) = (∑ k : Fin 128, a (ix2 p k) * w (ix2 k q)) + b (ix1 q) := rfl

/-! ## The kernel's product: the operand indices of its contraction, axis by axis -/

theorem region14_klhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem region14_klhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem region14_krhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem region14_krhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The kernel's product of a block of 2000 rows with the weight matrix, accumulated into zero, at entry `(p, q)`: the
    sum over the contracted coordinate. -/
theorem region14_kmatmul_apply (x : FVec Ideal S2000x128 .bf16) (y : FVec Ideal S128x128 .bf16) (p : Fin 2000) (q : Fin 128) :
    matmul (F := Ideal) dot_S2000x128_S128x128_S2000x128_1_0_0_1_n_n none x y (constant (F := Ideal) S2000x128 .f32 0x00000000#32) (ix2 p q)
      = ∑ k : Fin 128, x (ix2 p k) * y (ix2 k q) := by
  show FloatOps.matmul dot_S2000x128_S128x128_S2000x128_1_0_0_1_n_n none x y (constant (F := Ideal) S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact region14_klhs_0 _ _
    | ⟨1, _⟩ => exact (region14_klhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (region14_krhs_0 _ _).trans hk
    | ⟨1, _⟩ => exact region14_krhs_1 _ _)
  rw [el, er]

/-- The bias row laid along every row of the block, at entry `(p, q)`: the bias at `q`. -/
theorem region14_kbias_apply (x2 : Vec Ideal S128 .f32) (p : Fin 2000) (q : Fin 128) :
    broadcastTo S2000x128 (shapeCast S1x128 (shapeCast S128 x2 shapeCasts_S128_S128) shapeCasts_S128_S1x128) broadcasts_S1x128_S2000x128 (ix2 p q)
      = x2 (ix1 q) := by
  rw [shapeCast_self]
  have e1 := broadcastTo_apply (shapeCast S1x128 x2 shapeCasts_S128_S1x128) broadcasts_S1x128_S2000x128 (ix2 p q) (ix2 (0 : Fin 1) q) (by
    intro a
    match a with
    | ⟨0, _⟩ => rfl
    | ⟨1, _⟩ => rfl)
  have e2 := shapeCast_apply x2 shapeCasts_S128_S1x128 (ix2 (0 : Fin 1) q) (ix1 q) (by
    rw [Shape.rowMajor_val_two, Shape.rowMajor_val_one]; show q.val = 0 * 128 + q.val; omega)
  exact e1.trans e2

/-- THE BODY'S PAYLOAD at entry `(p, q)` of a block: the casts to the narrower float are the identity over the extended
    reals, the product accumulates into zero, and the bias row is added to every row. -/
theorem region14_pay_apply (x0 : Vec Ideal S2000x128 .f32) (x1 : Vec Ideal S128x128 .f32) (x2 : Vec Ideal S128 .f32) (p : Fin 2000) (q : Fin 128) :
    k14_pay1 (F := Ideal) x0 x1 x2 (ix2 p q) = (∑ k : Fin 128, x0 (ix2 p k) * x1 (ix2 k q)) + x2 (ix1 q) := by
  unfold k14_pay1
  show addf (matmul (F := Ideal) dot_S2000x128_S128x128_S2000x128_1_0_0_1_n_n none (truncf .bf16 (shapeCast S2000x128 x0 shapeCasts_S2000x128_S2000x128) bitsLt_bf16_f32) (truncf .bf16 (shapeCast S128x128 x1 shapeCasts_S128x128_S128x128) bitsLt_bf16_f32) (constant (F := Ideal) S2000x128 .f32 0x00000000#32))
      (broadcastTo S2000x128 (shapeCast S1x128 (shapeCast S128 x2 shapeCasts_S128_S128) shapeCasts_S128_S1x128) broadcasts_S1x128_S2000x128) (ix2 p q) = _
  rw [addf_apply, region14_kmatmul_apply, region14_kbias_apply]
  simp only [truncf_apply, shapeCast_self]

/-! ## The reference's product: the operand indices of its contraction, axis by axis -/

theorem region14_hlhs_0 (i : S80000x128.Idx) (q : Cert.ReferenceIdeal.dot_S80000x128_S128x128_S80000x128_1_0_0_1_n_n.contr.Idx) :
    (Cert.ReferenceIdeal.dot_S80000x128_S128x128_S80000x128_1_0_0_1_n_n.lhsIdx i q 0).val = (i 0).val := by
  unfold DotDims.lhsIdx
  rw [dif_neg (show ¬(0 : Fin S80000x128.rank) ∈ Cert.ReferenceIdeal.dot_S80000x128_S128x128_S80000x128_1_0_0_1_n_n.lhsBatch from List.not_mem_nil), dif_pos (show (0 : Fin S80000x128.rank) ∈ Cert.ReferenceIdeal.dot_S80000x128_S128x128_S80000x128_1_0_0_1_n_n.lhsNonContracting from List.mem_singleton.mpr rfl)]
  rfl
theorem region14_hlhs_1 (i : S80000x128.Idx) (q : Cert.ReferenceIdeal.dot_S80000x128_S128x128_S80000x128_1_0_0_1_n_n.contr.Idx) :
    (Cert.ReferenceIdeal.dot_S80000x128_S128x128_S80000x128_1_0_0_1_n_n.lhsIdx i q 1).val = (q ⟨0, Nat.one_pos⟩).val :=
  Cert.ReferenceIdeal.dot_S80000x128_S128x128_S80000x128_1_0_0_1_n_n.lhsIdx_val_of_single rfl i q
theorem region14_hrhs_0 (i : S80000x128.Idx) (q : Cert.ReferenceIdeal.dot_S80000x128_S128x128_S80000x128_1_0_0_1_n_n.contr.Idx) :
    (Cert.ReferenceIdeal.dot_S80000x128_S128x128_S80000x128_1_0_0_1_n_n.rhsIdx i q 0).val = (q ⟨0, Nat.one_pos⟩).val :=
  Cert.ReferenceIdeal.dot_S80000x128_S128x128_S80000x128_1_0_0_1_n_n.rhsIdx_val_of_single rfl i q
theorem region14_hrhs_1 (i : S80000x128.Idx) (q : Cert.ReferenceIdeal.dot_S80000x128_S128x128_S80000x128_1_0_0_1_n_n.contr.Idx) :
    (Cert.ReferenceIdeal.dot_S80000x128_S128x128_S80000x128_1_0_0_1_n_n.rhsIdx i q 1).val = (i 1).val := by
  unfold DotDims.rhsIdx
  rw [dif_neg (show ¬(1 : Fin S128x128.rank) ∈ Cert.ReferenceIdeal.dot_S80000x128_S128x128_S80000x128_1_0_0_1_n_n.rhsBatch from List.not_mem_nil), dif_pos (show (1 : Fin S128x128.rank) ∈ Cert.ReferenceIdeal.dot_S80000x128_S128x128_S80000x128_1_0_0_1_n_n.rhsNonContracting from List.mem_singleton.mpr rfl)]
  rfl

/-- The reference's product of the whole array with the weight matrix at entry `(p, q)`: the sum over the contracted
    coordinate. -/
theorem region14_hdot_apply (a : FVec Ideal S80000x128 .f32) (w : FVec Ideal S128x128 .f32) (p : Fin 80000) (q : Fin 128) :
    Host.dotGeneral (F := Ideal) Cert.ReferenceIdeal.dot_S80000x128_S128x128_S80000x128_1_0_0_1_n_n none a w (ix2 p q)
      = ∑ k : Fin 128, a (ix2 p k) * w (ix2 k q) := by
  show FloatOps.dotGeneral Cert.ReferenceIdeal.dot_S80000x128_S128x128_S80000x128_1_0_0_1_n_n none _ a w (ix2 p q) = _
  rw [Ideal.dotGeneral_apply, ← Equiv.sum_comp (contrEquiv1 Cert.ReferenceIdeal.dot_S80000x128_S128x128_S80000x128_1_0_0_1_n_n 128 rfl rfl).symm]
  refine Finset.sum_congr rfl fun k _ => ?_
  have hk := contrEquiv1_symm_val Cert.ReferenceIdeal.dot_S80000x128_S128x128_S80000x128_1_0_0_1_n_n 128 rfl rfl k
  have el : Cert.ReferenceIdeal.dot_S80000x128_S128x128_S80000x128_1_0_0_1_n_n.lhsIdx (ix2 p q) ((contrEquiv1 Cert.ReferenceIdeal.dot_S80000x128_S128x128_S80000x128_1_0_0_1_n_n 128 rfl rfl).symm k) = ix2 p k := funext fun a => Fin.ext (by
    match a with
    | ⟨0, _⟩ => exact region14_hlhs_0 _ _
    | ⟨1, _⟩ => exact (region14_hlhs_1 _ _).trans hk)
  have er : Cert.ReferenceIdeal.dot_S80000x128_S128x128_S80000x128_1_0_0_1_n_n.rhsIdx (ix2 p q) ((contrEquiv1 Cert.ReferenceIdeal.dot_S80000x128_S128x128_S80000x128_1_0_0_1_n_n 128 rfl rfl).symm k) = ix2 k q := funext fun a => Fin.ext (by
    match a with
    | ⟨0, _⟩ => exact (region14_hrhs_0 _ _).trans hk
    | ⟨1, _⟩ => exact region14_hrhs_1 _ _)
  rw [el, er]

/-- The reference's bias: the row `b` made a one-row matrix and repeated down the 80000 rows, at entry `(p, q)`: the bias
    at `q`. -/
theorem region14_hbias_apply (b : S128.Idx → Elt Ideal .f32) (p : Fin 80000) (q : Fin 128) :
    broadcastInDim S80000x128 ![0, 1] Cert.ReferenceIdeal.Facts₀.bcast_S1x128_S80000x128_0_1 (broadcastInDim S1x128 ![1] Cert.ReferenceIdeal.Facts₀.bcast_S128_S1x128_1 b) (ix2 p q)
      = b (ix1 q) := by
  have e1 := broadcastInDim_oneRow_apply (m := 80000) (n := 128) Cert.ReferenceIdeal.Facts₀.bcast_S1x128_S80000x128_0_1
    (broadcastInDim S1x128 ![1] Cert.ReferenceIdeal.Facts₀.bcast_S128_S1x128_1 b) p q
  have e2 := broadcastInDim_apply ![1] Cert.ReferenceIdeal.Facts₀.bcast_S128_S1x128_1 b (ix2 (0 : Fin 1) q) (ix1 q) (by
    intro a
    match a with
    | ⟨0, _⟩ => rfl)
  exact e1.trans e2

/-- THE REFERENCE'S LINEAR LAYER is the linear layer over the extended reals. -/
theorem region14_linD_eq (a : S80000x128.Idx → Elt Ideal .f32) (w : S128x128.Idx → Elt Ideal .f32) (b : S128.Idx → Elt Ideal .f32) :
    Cert.Spec.linD (F := Ideal) a w b = region14_lin a w b := by
  funext i
  obtain ⟨p, q, rfl⟩ : ∃ (p : Fin 80000) (q : Fin 128), i = ix2 p q := ⟨i 0, i 1, eq_ix2 i⟩
  rw [region14_lin_apply]
  show Host.dotGeneral (F := Ideal) Cert.ReferenceIdeal.dot_S80000x128_S128x128_S80000x128_1_0_0_1_n_n none a w (ix2 p q)
      + broadcastInDim S80000x128 ![0, 1] Cert.ReferenceIdeal.Facts₀.bcast_S1x128_S80000x128_0_1 (broadcastInDim S1x128 ![1] Cert.ReferenceIdeal.Facts₀.bcast_S128_S1x128_1 b) (ix2 p q) = _
  rw [region14_hdot_apply, region14_hbias_apply]

/-! ## From blocks to the array -/

theorem region14_zero2 : (![0, 0] : Fin 2 → Nat) = fun _ => 0 := funext fun a => by fin_cases a <;> rfl
theorem region14_zero1 : (![0] : Fin 1 → Nat) = fun _ => 0 := funext fun a => by fin_cases a <;> rfl

/-- The printed index maps, decided over the 40 grid points: point `t` reads block `t` of the rows of `a`, the whole of
    `w` and of `b`, and writes block `t` of the rows of the output. -/
theorem region14_idx_facts : ∀ t : Fin cfg14.N, win14_0.index t (0 : Fin 2) = t.val
    ∧ win14_0.index t (1 : Fin 2) = 0
    ∧ win14_1.index t (0 : Fin 2) = 0
    ∧ win14_1.index t (1 : Fin 2) = 0
    ∧ win14_2.index t (0 : Fin 1) = 0
    ∧ win14_3.index t (0 : Fin 2) = t.val
    ∧ win14_3.index t (1 : Fin 2) = 0 :=
  (by decide +kernel : ∀ t : Fin grid14.N, _)

/-- ONE store of the payload through the whole block, of loads through the whole blocks: what the body leaves in the output
    window's buffer is the payload of the three input blocks. -/
theorem region14_out_eq (x0 : Vec Ideal S2000x128 .f32) (x1 : Vec Ideal S128x128 .f32) (x2 : Vec Ideal S128 .f32) :
    out14_3 (F := Ideal) x0 x1 x2 = k14_pay1 (F := Ideal) x0 x1 x2 := by
  unfold out14_3
  rw [View.canon_unit_zero region14_zero2, View.ld_unit_zero region14_zero2, View.ld_unit_zero region14_zero2,
    View.ld_unit_zero region14_zero1]

/-- What the body leaves in the output window's buffer, at entry `(p, q)` of the block. -/
theorem region14_out_apply (x0 : Vec Ideal S2000x128 .f32) (x1 : Vec Ideal S128x128 .f32) (x2 : Vec Ideal S128 .f32) (p : Fin 2000) (q : Fin 128) :
    out14_3 (F := Ideal) x0 x1 x2 (ix2 p q) = (∑ k : Fin 128, x0 (ix2 p k) * x1 (ix2 k q)) + x2 (ix1 q) := by
  rw [region14_out_eq, region14_pay_apply]

/-- WHAT POINT `t` WRITES BACK is block `t` of the linear layer of the three input arrays as the region finds them. -/
theorem region14_flushed_eq (V : (c : Dev nD) → (b : Ref sig .tc) → Buf (Elt Ideal) ((c : Thread nD τ).loc b)) (c : Dev nD) (t : Fin cfg14.N) :
    (dat14 (F := Ideal) V c).flushed 3 t
      = ((cfg14.win 3).blk t).view.read (Elt Ideal) (region14_lin (V c (Pipeline.arrRef spec14 0)) (V c (Pipeline.arrRef spec14 1)) (V c (Pipeline.arrRef spec14 2))) := by
  show (cfg14.win 3).cut (grid14.coords t) ((dat14 (F := Ideal) V c).after 3 t) = _
  rw [after14_3]
  obtain ⟨e0, e1, e2, e3, e4, e5, e6⟩ := region14_idx_facts t
  refine funext fun (j : S2000x128.Idx) => ?_
  obtain ⟨p, q, rfl⟩ : ∃ (p : Fin 2000) (q : Fin 128), j = ix2 p q := ⟨j 0, j 1, eq_ix2 j⟩
  have hp : p.val < 2000 := p.isLt
  have hq : q.val < 128 := q.isLt
  have ht : t.val < 40 := t.isLt
  -- the output entry this block entry lands on: row `t · 2000 + p`, column `q`
  have hout : ((cfg14.win 3).blk t).view.emb (ix2 p q) = ix2 (⟨t.val * 2000 + p.val, by omega⟩ : Fin 80000) q := by
    funext a; apply Fin.ext
    match a with
    | ⟨0, _⟩ => show win14_3.index t (0 : Fin 2) * 2000 + 1 * p.val = t.val * 2000 + p.val; omega
    | ⟨1, _⟩ => show win14_3.index t (1 : Fin 2) * 128 + 1 * q.val = q.val; omega
  -- the input entries the block entry reads: the same row of `a`, and `w`, `b` whole
  have h0 : ∀ k : Fin 128, iblk14 V c 0 t (ix2 p k) = V c (Pipeline.arrRef spec14 0) (ix2 (⟨t.val * 2000 + p.val, by omega⟩ : Fin 80000) k) := fun k => by
    show V c (Pipeline.arrRef spec14 0) (((cfg14.win 0).blk t).view.emb (ix2 p k)) = _
    refine congrArg _ (funext fun a => Fin.ext ?_)
    have hk : k.val < 128 := k.isLt
    match a with
    | ⟨0, _⟩ => show win14_0.index t (0 : Fin 2) * 2000 + 1 * p.val = t.val * 2000 + p.val; omega
    | ⟨1, _⟩ => show win14_0.index t (1 : Fin 2) * 128 + 1 * k.val = k.val; omega
  have h1 : ∀ k : Fin 128, iblk14 V c 1 t (ix2 k q) = V c (Pipeline.arrRef spec14 1) (ix2 k q) := fun k => by
    show V c (Pipeline.arrRef spec14 1) (((cfg14.win 1).blk t).view.emb (ix2 k q)) = _
    refine congrArg _ (funext fun a => Fin.ext ?_)
    have hk : k.val < 128 := k.isLt
    match a with
    | ⟨0, _⟩ => show win14_1.index t (0 : Fin 2) * 128 + 1 * k.val = k.val; omega
    | ⟨1, _⟩ => show win14_1.index t (1 : Fin 2) * 128 + 1 * q.val = q.val; omega
  have h2 : iblk14 V c 2 t (ix1 q) = V c (Pipeline.arrRef spec14 2) (ix1 q) := by
    show V c (Pipeline.arrRef spec14 2) (((cfg14.win 2).blk t).view.emb (ix1 q)) = _
    refine congrArg _ (funext fun a => Fin.ext ?_)
    match a with
    | ⟨0, _⟩ => show win14_2.index t (0 : Fin 1) * 128 + 1 * q.val = q.val; omega
  show out14_3 (F := Ideal) (iblk14 V c 0 t) (iblk14 V c 1 t) (iblk14 V c 2 t) (ix2 p q)
      = region14_lin (V c (Pipeline.arrRef spec14 0)) (V c (Pipeline.arrRef spec14 1)) (V c (Pipeline.arrRef spec14 2)) (((cfg14.win 3).blk t).view.emb (ix2 p q))
  rw [hout, region14_lin_apply]
  refine (region14_out_apply _ _ _ p q).trans ?_
  rw [h2]
  exact congrArg (· + _) (Finset.sum_congr rfl fun k _ => by rw [h0 k, h1 k])

/-- An index of the output array is in point `t`'s block iff each coordinate is in the block's range on its axis. -/
theorem region14_mem_blk (t : Fin cfg14.N) (i : S80000x128.Idx) :
    i ∈ ((cfg14.win 3).blk t).view.set ↔ ∀ a : Fin 2, win14_3.index t a * S2000x128.size a ≤ (i a).val ∧ (i a).val < win14_3.index t a * S2000x128.size a + S2000x128.size a := by
  show i ∈ ((View.whole (Pipeline.arrRef spec14 3)).slice (win14_3.rect t)).set ↔ _
  rw [View.set_slice_whole, Rect.mem_set_unit]
  exact Iff.rfl

/-- THE COVER: row `r` of the output is in the block of point `r / 2000`, which writes its block back. -/
theorem region14_cover (i : S80000x128.Idx) :
    ∃ t : Fin cfg14.N, (cfg14.win 3).flush t = true ∧ i ∈ ((cfg14.win 3).blk t).view.set := by
  have hi0 : (i 0).val < 80000 := (i 0).isLt
  have hi1 : (i 1).val < 128 := (i 1).isLt
  obtain ⟨t, ht⟩ : ∃ t : Fin cfg14.N, t.val = (i 0).val / 2000 := ⟨⟨(i 0).val / 2000, show _ < 40 by omega⟩, rfl⟩
  obtain ⟨e0, e1, e2, e3, e4, e5, e6⟩ := region14_idx_facts t
  refine ⟨t, flush14_3 t, ?_⟩
  rw [region14_mem_blk]
  intro a
  match a with
  | ⟨0, _⟩ => show win14_3.index t (0 : Fin 2) * 2000 ≤ (i 0).val ∧ (i 0).val < win14_3.index t (0 : Fin 2) * 2000 + 2000; omega
  | ⟨1, _⟩ => show win14_3.index t (1 : Fin 2) * 128 ≤ (i 1).val ∧ (i 1).val < win14_3.index t (1 : Fin 2) * 128 + 128; omega

/-! ## The region's output array -/

/-- The output array at the program's own facts: the linear layer over the extended reals. -/
theorem region14_value_lin (V : (c : Dev nD) → (b : Ref sig .tc) → Buf (Elt Ideal) ((c : Thread nD τ).loc b)) (c : Dev nD) :
    (dat14 (F := Ideal) V c).arrAt 3 cfg14.N
      = region14_lin (V c (Pipeline.arrRef spec14 0)) (V c (Pipeline.arrRef spec14 1)) (V c (Pipeline.arrRef spec14 2)) :=
  (dat14 (F := Ideal) V c).arrAt_eq_of_cover 3 _ (fun t _ => region14_flushed_eq V c t) region14_cover

variable [Cert.KernelIdeal.Facts]

/-- WHAT REGION 14 LEAVES in its output array: the reference's linear layer of the region's three input arrays. -/
theorem region14_value (V : (c : Dev nD) → (b : Ref sig .tc) → Buf (Elt Ideal) ((c : Thread nD τ).loc b)) (c : Dev nD) :
    (dat14 (F := Ideal) V c).arrAt 3 cfg14.N
      = Cert.Spec.linD (F := Ideal) (V c (Pipeline.arrRef spec14 0)) (V c (Pipeline.arrRef spec14 1)) (V c (Pipeline.arrRef spec14 2)) := by
  rw [region14_linD_eq]
  exact region14_value_lin V c

end Cert.KernelIdeal.RegionValue

end
-- ==== Proof.Region15.lean ====
import proofs.«116822_j38594576122568_1_alg».proof.Proof.Gen.KernelIdeal.Frame
import proofs.«116822_j38594576122568_1_alg».proof.Proof.SpecLayers
import Idealize.ShloMosaic.PureOps.Ideal.Laws
import Idealize.ShloMosaic.Lib.ValueIdx
import Idealize.ShloMosaic.Lib.ValueLayout
import Idealize.ShloMosaic.Lib.Pipeline.Value

/-! Region 15 of the kernel program: one linear layer, rows [20000] × features [128] times a [128, 128] weight matrix
    plus a bias row, computed 2000 rows per grid point over 10 points. This module shows that the region leaves in its
    output array, as ONE function of its three input arrays, exactly the reference's host form of that layer: at row
    `p` and column `q` both are `(∑ k, a(p,k) · w(k,q)) + b(q)` on the extended reals. -/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Idealize.ShloMosaic.Pipeline
open scoped BigOperators

namespace Region15

variable [Cert.ReferenceIdeal.Facts]

/-! ## The two contractions as plain sums

  The kernel's product (2000 rows per block) and the reference's product (all 20000 rows) both contract the left
  operand's axis 1 against the right operand's axis 0. Read at an output index `(p, q)` and a contraction position
  `k`, the operand indices are `(p, k)` and `(k, q)`; the four coordinate facts of each are kept apart. -/

/-- The block product's left operand index, row coordinate: the output's row. -/
theorem lhs_blockdot_0 (j : S2000x128.Idx) (k : dot_S2000x128_S128x128_S2000x128_1_0_0_1_n_n.contr.Idx) :
    (dot_S2000x128_S128x128_S2000x128_1_0_0_1_n_n.lhsIdx j k (0 : Fin S2000x128.rank)).val = (j 0).val := by
  unfold DotDims.lhsIdx
  rw [dif_neg (show ¬ (0 : Fin S2000x128.rank) ∈ dot_S2000x128_S128x128_S2000x128_1_0_0_1_n_n.lhsBatch from fun h => nomatch h),
    dif_pos (show (0 : Fin S2000x128.rank) ∈ dot_S2000x128_S128x128_S2000x128_1_0_0_1_n_n.lhsNonContracting from List.mem_singleton.mpr rfl)]
  rfl

/-- The block product's left operand index, column coordinate: the contraction position. -/
theorem lhs_blockdot_1 (j : S2000x128.Idx) (k : dot_S2000x128_S128x128_S2000x128_1_0_0_1_n_n.contr.Idx) :
    (dot_S2000x128_S128x128_S2000x128_1_0_0_1_n_n.lhsIdx j k (1 : Fin S2000x128.rank)).val = (k ⟨0, Nat.one_pos⟩).val :=
  dot_S2000x128_S128x128_S2000x128_1_0_0_1_n_n.lhsIdx_val_of_single rfl j k

/-- The block product's right operand index, row coordinate: the contraction position. -/
theorem rhs_blockdot_0 (j : S2000x128.Idx) (k : dot_S2000x128_S128x128_S2000x128_1_0_0_1_n_n.contr.Idx) :
    (dot_S2000x128_S128x128_S2000x128_1_0_0_1_n_n.rhsIdx j k (0 : Fin S128x128.rank)).val = (k ⟨0, Nat.one_pos⟩).val :=
  dot_S2000x128_S128x128_S2000x128_1_0_0_1_n_n.rhsIdx_val_of_single rfl j k

/-- The block product's right operand index, column coordinate: the output's column. -/
theorem rhs_blockdot_1 (j : S2000x128.Idx) (k : dot_S2000x128_S128x128_S2000x128_1_0_0_1_n_n.contr.Idx) :
    (dot_S2000x128_S128x128_S2000x128_1_0_0_1_n_n.rhsIdx j k (1 : Fin S128x128.rank)).val = (j 1).val := by
  unfold DotDims.rhsIdx
  rw [dif_neg (show ¬ (1 : Fin S128x128.rank) ∈ dot_S2000x128_S128x128_S2000x128_1_0_0_1_n_n.rhsBatch from fun h => nomatch h),
    dif_pos (show (1 : Fin S128x128.rank) ∈ dot_S2000x128_S128x128_S2000x128_1_0_0_1_n_n.rhsNonContracting from List.mem_singleton.mpr rfl)]
  rfl

/-- The block product at row `r`, column `q`, into a zero accumulator: the sum over the 128 contraction positions. -/
theorem blockdot_apply (x : FVec Ideal S2000x128 .bf16) (y : FVec Ideal S128x128 .bf16) (r : Fin 2000) (q : Fin 128) :
    matmul (F := Ideal) dot_S2000x128_S128x128_S2000x128_1_0_0_1_n_n none x y (constant (F := Ideal) S2000x128 .f32 0x00000000#32) (ix2 r q)
      = ∑ k : Fin 128, x (ix2 r k) * y (ix2 k q) := by
  refine (Ideal.matmul_constant_zero_apply dot_S2000x128_S128x128_S2000x128_1_0_0_1_n_n none x y (ix2 r q)).trans ?_
  refine (Equiv.sum_comp (contrEquiv1 dot_S2000x128_S128x128_S2000x128_1_0_0_1_n_n 128 rfl rfl).symm _).symm.trans ?_
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 r q) ((contrEquiv1 dot_S2000x128_S128x128_S2000x128_1_0_0_1_n_n 128 rfl rfl).symm k) = ix2 r k := by
    funext a; apply Fin.ext
    match a with
    | ⟨0, _⟩ => exact lhs_blockdot_0 _ _
    | ⟨1, _⟩ => exact (lhs_blockdot_1 _ _).trans hk
  have hr : dot_S2000x128_S128x128_S2000x128_1_0_0_1_n_n.rhsIdx (ix2 r q) ((contrEquiv1 dot_S2000x128_S128x128_S2000x128_1_0_0_1_n_n 128 rfl rfl).symm k) = ix2 k q := by
    funext a; apply Fin.ext
    match a with
    | ⟨0, _⟩ => exact (rhs_blockdot_0 _ _).trans hk
    | ⟨1, _⟩ => exact rhs_blockdot_1 _ _
  rw [hl, hr]

/-- The whole-array product's left operand index, row coordinate: the output's row. -/
theorem lhs_arraydot_0 (j : S20000x128.Idx) (k : Cert.ReferenceIdeal.dot_S20000x128_S128x128_S20000x128_1_0_0_1_n_n.contr.Idx) :
    (Cert.ReferenceIdeal.dot_S20000x128_S128x128_S20000x128_1_0_0_1_n_n.lhsIdx j k (0 : Fin S20000x128.rank)).val = (j 0).val := by
  unfold DotDims.lhsIdx
  rw [dif_neg (show ¬ (0 : Fin S20000x128.rank) ∈ Cert.ReferenceIdeal.dot_S20000x128_S128x128_S20000x128_1_0_0_1_n_n.lhsBatch from fun h => nomatch h),
    dif_pos (show (0 : Fin S20000x128.rank) ∈ Cert.ReferenceIdeal.dot_S20000x128_S128x128_S20000x128_1_0_0_1_n_n.lhsNonContracting from List.mem_singleton.mpr rfl)]
  rfl

/-- The whole-array product's left operand index, column coordinate: the contraction position. -/
theorem lhs_arraydot_1 (j : S20000x128.Idx) (k : Cert.ReferenceIdeal.dot_S20000x128_S128x128_S20000x128_1_0_0_1_n_n.contr.Idx) :
    (Cert.ReferenceIdeal.dot_S20000x128_S128x128_S20000x128_1_0_0_1_n_n.lhsIdx j k (1 : Fin S20000x128.rank)).val = (k ⟨0, Nat.one_pos⟩).val :=
  Cert.ReferenceIdeal.dot_S20000x128_S128x128_S20000x128_1_0_0_1_n_n.lhsIdx_val_of_single rfl j k

/-- The whole-array product's right operand index, row coordinate: the contraction position. -/
theorem rhs_arraydot_0 (j : S20000x128.Idx) (k : Cert.ReferenceIdeal.dot_S20000x128_S128x128_S20000x128_1_0_0_1_n_n.contr.Idx) :
    (Cert.ReferenceIdeal.dot_S20000x128_S128x128_S20000x128_1_0_0_1_n_n.rhsIdx j k (0 : Fin S128x128.rank)).val = (k ⟨0, Nat.one_pos⟩).val :=
  Cert.ReferenceIdeal.dot_S20000x128_S128x128_S20000x128_1_0_0_1_n_n.rhsIdx_val_of_single rfl j k

/-- The whole-array product's right operand index, column coordinate: the output's column. -/
theorem rhs_arraydot_1 (j : S20000x128.Idx) (k : Cert.ReferenceIdeal.dot_S20000x128_S128x128_S20000x128_1_0_0_1_n_n.contr.Idx) :
    (Cert.ReferenceIdeal.dot_S20000x128_S128x128_S20000x128_1_0_0_1_n_n.rhsIdx j k (1 : Fin S128x128.rank)).val = (j 1).val := by
  unfold DotDims.rhsIdx
  rw [dif_neg (show ¬ (1 : Fin S128x128.rank) ∈ Cert.ReferenceIdeal.dot_S20000x128_S128x128_S20000x128_1_0_0_1_n_n.rhsBatch from fun h => nomatch h),
    dif_pos (show (1 : Fin S128x128.rank) ∈ Cert.ReferenceIdeal.dot_S20000x128_S128x128_S20000x128_1_0_0_1_n_n.rhsNonContracting from List.mem_singleton.mpr rfl)]
  rfl

/-- The reference's product at row `p`, column `q`: the sum over the 128 contraction positions. -/
theorem arraydot_apply (a : FVec Ideal S20000x128 .f32) (w : FVec Ideal S128x128 .f32) (p : Fin 20000) (q : Fin 128) :
    Host.dotGeneral (F := Ideal) Cert.ReferenceIdeal.dot_S20000x128_S128x128_S20000x128_1_0_0_1_n_n none a w (ix2 p q)
      = ∑ k : Fin 128, a (ix2 p k) * w (ix2 k q) := by
  simp only [Host.dotGeneral]
  refine (Ideal.dotGeneral_apply Cert.ReferenceIdeal.dot_S20000x128_S128x128_S20000x128_1_0_0_1_n_n none _ a w (ix2 p q)).trans ?_
  refine (Equiv.sum_comp (contrEquiv1 Cert.ReferenceIdeal.dot_S20000x128_S128x128_S20000x128_1_0_0_1_n_n 128 rfl rfl).symm _).symm.trans ?_
  refine Finset.sum_congr rfl fun k _ => ?_
  have hk := contrEquiv1_symm_val Cert.ReferenceIdeal.dot_S20000x128_S128x128_S20000x128_1_0_0_1_n_n 128 rfl rfl k
  have hl : Cert.ReferenceIdeal.dot_S20000x128_S128x128_S20000x128_1_0_0_1_n_n.lhsIdx (ix2 p q) ((contrEquiv1 Cert.ReferenceIdeal.dot_S20000x128_S128x128_S20000x128_1_0_0_1_n_n 128 rfl rfl).symm k) = ix2 p k := by
    funext x; apply Fin.ext
    match x with
    | ⟨0, _⟩ => exact lhs_arraydot_0 _ _
    | ⟨1, _⟩ => exact (lhs_arraydot_1 _ _).trans hk
  have hr : Cert.ReferenceIdeal.dot_S20000x128_S128x128_S20000x128_1_0_0_1_n_n.rhsIdx (ix2 p q) ((contrEquiv1 Cert.ReferenceIdeal.dot_S20000x128_S128x128_S20000x128_1_0_0_1_n_n 128 rfl rfl).symm k) = ix2 k q := by
    funext x; apply Fin.ext
    match x with
    | ⟨0, _⟩ => exact (rhs_arraydot_0 _ _).trans hk
    | ⟨1, _⟩ => exact rhs_arraydot_1 _ _
  rw [hl, hr]

/-! ## The bias row, repeated down the rows -/

/-- The kernel's bias term: the row `b`, given a leading unit axis and repeated over the block's 2000 rows, read at
    row `r`, column `q`, is `b q`. -/
theorem blockbias_apply (b : Vec Ideal S128 .f32) (r : Fin 2000) (q : Fin 128) :
    broadcastTo S2000x128 (shapeCast S1x128 (shapeCast S128 b shapeCasts_S128_S128) shapeCasts_S128_S1x128) broadcasts_S1x128_S2000x128 (ix2 r q)
      = b (ix1 q) := by
  refine (broadcastTo_apply _ broadcasts_S1x128_S2000x128 (ix2 r q) (ix2 (0 : Fin 1) q)
    (fun a => by match a with | ⟨0, _⟩ => rfl | ⟨1, _⟩ => rfl)).trans ?_
  refine (shapeCast_addUnit_apply ![128] _ shapeCasts_S128_S1x128 (ix2 (0 : Fin 1) q)).trans ?_
  rw [shapeCast_self]
  exact congrArg b (funext fun a => by match a with | ⟨0, _⟩ => rfl)

/-- The reference's bias term: the row `b`, given a leading unit axis and repeated over all 20000 rows, read at row
    `p`, column `q`, is `b q`. -/
theorem arraybias_apply (b : Vec Ideal S128 .f32) (p : Fin 20000) (q : Fin 128) :
    broadcastInDim S20000x128 ![0, 1] Cert.ReferenceIdeal.Facts₀.bcast_S1x128_S20000x128_0_1
        (broadcastInDim S1x128 ![1] Cert.ReferenceIdeal.Facts₀.bcast_S128_S1x128_1 b) (ix2 p q)
      = b (ix1 q) := by
  refine (broadcastInDim_apply ![0, 1] Cert.ReferenceIdeal.Facts₀.bcast_S1x128_S20000x128_0_1 _ (ix2 p q) (ix2 (0 : Fin 1) q)
    (fun a => by match a with | ⟨0, _⟩ => rfl | ⟨1, _⟩ => rfl)).trans ?_
  exact broadcastInDim_apply ![1] Cert.ReferenceIdeal.Facts₀.bcast_S128_S1x128_1 b (ix2 (0 : Fin 1) q) (ix1 q)
    (fun a => by match a with | ⟨0, _⟩ => rfl)

/-! ## The body's stored value and the reference's layer, index by index -/

/-- What the body stores at row `r`, column `q` of its block: the casts to the narrower format and back are the
    identity on the extended reals, the product starts from a zero accumulator, and the bias row is added. -/
theorem payload_apply (x : Vec Ideal S2000x128 .f32) (w : Vec Ideal S128x128 .f32) (b : Vec Ideal S128 .f32) (r : Fin 2000) (q : Fin 128) :
    k15_pay1 (F := Ideal) x w b (ix2 r q) = (∑ k : Fin 128, x (ix2 r k) * w (ix2 k q)) + b (ix1 q) := by
  unfold k15_pay1
  refine congrArg₂ (· + ·) ?_ (blockbias_apply b r q)
  refine (blockdot_apply _ _ r q).trans ?_
  refine Finset.sum_congr rfl fun k _ => ?_
  refine congrArg₂ (· * ·) ?_ ?_
  · exact congrFun (shapeCast_self x shapeCasts_S2000x128_S2000x128) (ix2 r k)
  · exact congrFun (shapeCast_self w shapeCasts_S128x128_S128x128) (ix2 k q)

/-- The reference's layer at row `p`, column `q`. -/
theorem layer_apply (a : Vec Ideal S20000x128 .f32) (w : Vec Ideal S128x128 .f32) (b : Vec Ideal S128 .f32) (p : Fin 20000) (q : Fin 128) :
    Cert.Spec.linE (F := Ideal) a w b (ix2 p q) = (∑ k : Fin 128, a (ix2 p k) * w (ix2 k q)) + b (ix1 q) := by
  unfold Cert.Spec.linE
  exact congrArg₂ (· + ·) (arraydot_apply a w p q) (arraybias_apply b p q)

/-- One stored entry against the layer: where row `r` of a block holds row `2000 n + r` of the array `a`, the body's
    stored value at `(r, q)` is the layer's value at `(2000 n + r, q)`. -/
theorem stored_eq_layer (x : Vec Ideal S2000x128 .f32) (w : Vec Ideal S128x128 .f32) (b : Vec Ideal S128 .f32)
    (a : Vec Ideal S20000x128 .f32) (n : Nat) (hn : n < 10) (r : Fin 2000) (q : Fin 128)
    (hrow : ∀ k : Fin 128, x (ix2 r k) = a (ix2 (⟨n * 2000 + r.val, by have := r.isLt; omega⟩ : Fin 20000) k)) :
    k15_pay1 (F := Ideal) x w b (ix2 r q)
      = Cert.Spec.linE (F := Ideal) a w b (ix2 (⟨n * 2000 + r.val, by have := r.isLt; omega⟩ : Fin 20000) q) := by
  rw [payload_apply, layer_apply]
  exact congrArg (· + b (ix1 q)) (Finset.sum_congr rfl fun k _ => by rw [hrow k])

/-! ## From the blocks to the array

  Grid point `t` reads rows `2000 t … 2000 t + 1999` of `a`, the whole of `w` and `b`, and writes the same rows of the
  output. So what each point writes back is its block of the layer applied to the whole arrays, and the 10 blocks
  tile the 20000 rows. -/

/-- The body's loads and its one store all start at the origin of their blocks. -/
theorem origin2 : (![0, 0] : Fin 2 → Nat) = fun _ => 0 := funext fun a => by match a with | ⟨0, _⟩ => rfl | ⟨1, _⟩ => rfl
theorem origin1 : (![0] : Fin 1 → Nat) = fun _ => 0 := funext fun a => by match a with | ⟨0, _⟩ => rfl

/-- The printed index maps, decided over the 10 grid points: the row-block index of `a` and of the output is the
    point's number, every other block index is 0. -/
theorem index_facts : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 1) = 0
    ∧ win15_3.index t (0 : Fin 2) = t.val ∧ win15_3.index t (1 : Fin 2) = 0 :=
  (by decide +kernel : ∀ t : Fin grid15.N, _)

set_option maxHeartbeats 1000000 in
/-- WHAT POINT `t` WRITES BACK is block `t` of the layer applied to the three input arrays as the region finds them. -/
theorem flushed_eq (V : (c : Dev nD) → (b : Ref sig .tc) → Buf (Elt Ideal) ((c : Thread nD τ).loc b)) (c : Dev nD) (t : Fin cfg15.N) :
    (dat15 (F := Ideal) V c).flushed 3 t = ((cfg15.win 3).blk t).view.read (Elt Ideal)
      (Cert.Spec.linE (F := Ideal) (V c (Pipeline.arrRef spec15 0)) (V c (Pipeline.arrRef spec15 1)) (V c (Pipeline.arrRef spec15 2))) := by
  show (cfg15.win 3).cut (grid15.coords t) ((dat15 (F := Ideal) V c).after 3 t) = _
  rw [after15_3]
  unfold out15_3
  rw [View.canon_unit_zero origin2]
  simp only [View.ld_unit_zero (S := S2000x128) origin2, View.ld_unit_zero (S := S128x128) origin2, View.ld_unit_zero (S := S128) origin1]
  obtain ⟨e00, e01, e10, e11, e20, e30, e31⟩ := index_facts t
  have hw : (iblk15 (F := Ideal) V c 1 t : Vec Ideal S128x128 .f32) = (V c (Pipeline.arrRef spec15 1)) := by
    funext y
    show (V c (Pipeline.arrRef spec15 1)) (((cfg15.win 1).blk t).view.emb y) = (V c (Pipeline.arrRef spec15 1)) y
    refine congrArg (V c (Pipeline.arrRef spec15 1)) (funext fun a => Fin.ext ?_)
    match a with
    | ⟨0, _⟩ => show win15_1.index t (0 : Fin 2) * 128 + 1 * (y 0).val = (y 0).val; omega
    | ⟨1, _⟩ => show win15_1.index t (1 : Fin 2) * 128 + 1 * (y 1).val = (y 1).val; omega
  have hb : (iblk15 (F := Ideal) V c 2 t : Vec Ideal S128 .f32) = (V c (Pipeline.arrRef spec15 2)) := by
    funext y
    show (V c (Pipeline.arrRef spec15 2)) (((cfg15.win 2).blk t).view.emb y) = (V c (Pipeline.arrRef spec15 2)) y
    refine congrArg (V c (Pipeline.arrRef spec15 2)) (funext fun a => Fin.ext ?_)
    match a with
    | ⟨0, _⟩ => show win15_2.index t (0 : Fin 1) * 128 + 1 * (y 0).val = (y 0).val; omega
  funext (j : S2000x128.Idx)
  obtain ⟨r, q, rfl⟩ : ∃ (r : Fin 2000) (q : Fin 128), j = ix2 r q := ⟨j 0, j 1, eq_ix2 j⟩
  show k15_pay1 (F := Ideal) (iblk15 (F := Ideal) V c 0 t) (iblk15 (F := Ideal) V c 1 t) (iblk15 (F := Ideal) V c 2 t) (ix2 r q)
    = Cert.Spec.linE (F := Ideal) (V c (Pipeline.arrRef spec15 0)) (V c (Pipeline.arrRef spec15 1)) (V c (Pipeline.arrRef spec15 2)) (((cfg15.win 3).blk t).view.emb (ix2 r q))
  refine (congrArg₂ (fun w b => k15_pay1 (F := Ideal) (iblk15 (F := Ideal) V c 0 t) w b (ix2 r q)) hw hb).trans ?_
  refine (stored_eq_layer (iblk15 (F := Ideal) V c 0 t) (V c (Pipeline.arrRef spec15 1)) (V c (Pipeline.arrRef spec15 2)) (V c (Pipeline.arrRef spec15 0)) t.val (show t.val < 10 from t.isLt) r q ?_).trans ?_
  · intro k
    show (V c (Pipeline.arrRef spec15 0)) (((cfg15.win 0).blk t).view.emb (ix2 r k)) = _
    refine congrArg _ (funext fun a => Fin.ext ?_)
    match a with
    | ⟨0, _⟩ => show win15_0.index t (0 : Fin 2) * 2000 + 1 * r.val = t.val * 2000 + r.val; omega
    | ⟨1, _⟩ => show win15_0.index t (1 : Fin 2) * 128 + 1 * k.val = k.val; omega
  · refine congrArg _ (funext fun a => Fin.ext ?_)
    match a with
    | ⟨0, _⟩ => show t.val * 2000 + r.val = win15_3.index t (0 : Fin 2) * 2000 + 1 * r.val; omega
    | ⟨1, _⟩ => show q.val = win15_3.index t (1 : Fin 2) * 128 + 1 * q.val; omega

/-- An index of the output array is in point `t`'s block iff each coordinate is in the block's range on its axis. -/
theorem mem_block (t : Fin cfg15.N) (i : S20000x128.Idx) :
    i ∈ ((cfg15.win 3).blk t).view.set ↔ ∀ a : Fin 2, win15_3.index t a * S2000x128.size a ≤ (i a).val ∧ (i a).val < win15_3.index t a * S2000x128.size a + S2000x128.size a := by
  show i ∈ ((View.whole (Pipeline.arrRef spec15 3)).slice (win15_3.rect t)).set ↔ _
  rw [View.set_slice_whole, Rect.mem_set_unit]
  exact Iff.rfl

/-- THE COVER: row `p` of the output is written by point `p / 2000`. -/
theorem cover (i : S20000x128.Idx) : ∃ t : Fin cfg15.N, (cfg15.win 3).flush t = true ∧ i ∈ ((cfg15.win 3).blk t).view.set := by
  have h0 : (i 0).val < 20000 := (i 0).isLt
  have h1 : (i 1).val < 128 := (i 1).isLt
  have ht : (i 0).val / 2000 < cfg15.N := by show (i 0).val / 2000 < 10; omega
  obtain ⟨-, -, -, -, -, e30, e31⟩ := index_facts ⟨(i 0).val / 2000, ht⟩
  have e30' : win15_3.index ⟨(i 0).val / 2000, ht⟩ (0 : Fin 2) = (i 0).val / 2000 := e30
  refine ⟨⟨(i 0).val / 2000, ht⟩, flush15_3 _, ?_⟩
  rw [mem_block]
  intro a
  match a with
  | ⟨0, _⟩ =>
    show win15_3.index ⟨(i 0).val / 2000, ht⟩ (0 : Fin 2) * 2000 ≤ (i 0).val ∧ (i 0).val < win15_3.index ⟨(i 0).val / 2000, ht⟩ (0 : Fin 2) * 2000 + 2000
    omega
  | ⟨1, _⟩ =>
    show win15_3.index ⟨(i 0).val / 2000, ht⟩ (1 : Fin 2) * 128 ≤ (i 1).val ∧ (i 1).val < win15_3.index ⟨(i 0).val / 2000, ht⟩ (1 : Fin 2) * 128 + 128
    omega

end Region15

variable [Cert.KernelIdeal.Facts] [Cert.ReferenceIdeal.Facts]

/-- THE OUTPUT ARRAY of region 15 after its 10 grid points: the reference's linear layer of the three input arrays as
    the region finds them. -/
theorem region15_value (V : (c : Dev nD) → (b : Ref sig .tc) → Buf (Elt Ideal) ((c : Thread nD τ).loc b)) (c : Dev nD) :
    (dat15 (F := Ideal) V c).arrAt 3 cfg15.N
      = Cert.Spec.linE (F := Ideal) (V c (Pipeline.arrRef spec15 0)) (V c (Pipeline.arrRef spec15 1)) (V c (Pipeline.arrRef spec15 2)) :=
  (dat15 (F := Ideal) V c).arrAt_eq_of_cover 3 _ (fun t _ => Region15.flushed_eq V c t) Region15.cover

end Cert.KernelIdeal.RegionValue
-- ==== Proof.Region16.lean ====
import proofs.«116822_j38594576122568_1_alg».proof.Proof.Gen.KernelIdeal.Frame
import proofs.«116822_j38594576122568_1_alg».proof.Proof.SpecLayers
import Idealize.ShloMosaic.PureOps.Ideal.Laws
import Idealize.ShloMosaic.Lib.ValueIdx
import Idealize.ShloMosaic.Lib.ValueLayout
import Idealize.ShloMosaic.Lib.Pipeline.Value

/-! Region 16 of the kernel program: one linear layer, rows [20000] × features [128] times a [128, 128] weight matrix
    plus a bias row, computed 2000 rows per grid point over 10 points. This module shows that the region leaves in its
    output array, as ONE function of its three input arrays, exactly the reference's host form of that layer: at row
    `p` and column `q` both are `(∑ k, a(p,k) · w(k,q)) + b(q)` on the extended reals. -/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Idealize.ShloMosaic.Pipeline
open scoped BigOperators

namespace Region16

variable [Cert.ReferenceIdeal.Facts]

/-! ## The two contractions as plain sums

  The kernel's product (2000 rows per block) and the reference's product (all 20000 rows) both contract the left
  operand's axis 1 against the right operand's axis 0. Read at an output index `(p, q)` and a contraction position
  `k`, the operand indices are `(p, k)` and `(k, q)`; the four coordinate facts of each are kept apart. -/

/-- The block product's left operand index, row coordinate: the output's row. -/
theorem lhs_blockdot_0 (j : S2000x128.Idx) (k : dot_S2000x128_S128x128_S2000x128_1_0_0_1_n_n.contr.Idx) :
    (dot_S2000x128_S128x128_S2000x128_1_0_0_1_n_n.lhsIdx j k (0 : Fin S2000x128.rank)).val = (j 0).val := by
  unfold DotDims.lhsIdx
  rw [dif_neg (show ¬ (0 : Fin S2000x128.rank) ∈ dot_S2000x128_S128x128_S2000x128_1_0_0_1_n_n.lhsBatch from fun h => nomatch h),
    dif_pos (show (0 : Fin S2000x128.rank) ∈ dot_S2000x128_S128x128_S2000x128_1_0_0_1_n_n.lhsNonContracting from List.mem_singleton.mpr rfl)]
  rfl

/-- The block product's left operand index, column coordinate: the contraction position. -/
theorem lhs_blockdot_1 (j : S2000x128.Idx) (k : dot_S2000x128_S128x128_S2000x128_1_0_0_1_n_n.contr.Idx) :
    (dot_S2000x128_S128x128_S2000x128_1_0_0_1_n_n.lhsIdx j k (1 : Fin S2000x128.rank)).val = (k ⟨0, Nat.one_pos⟩).val :=
  dot_S2000x128_S128x128_S2000x128_1_0_0_1_n_n.lhsIdx_val_of_single rfl j k

/-- The block product's right operand index, row coordinate: the contraction position. -/
theorem rhs_blockdot_0 (j : S2000x128.Idx) (k : dot_S2000x128_S128x128_S2000x128_1_0_0_1_n_n.contr.Idx) :
    (dot_S2000x128_S128x128_S2000x128_1_0_0_1_n_n.rhsIdx j k (0 : Fin S128x128.rank)).val = (k ⟨0, Nat.one_pos⟩).val :=
  dot_S2000x128_S128x128_S2000x128_1_0_0_1_n_n.rhsIdx_val_of_single rfl j k

/-- The block product's right operand index, column coordinate: the output's column. -/
theorem rhs_blockdot_1 (j : S2000x128.Idx) (k : dot_S2000x128_S128x128_S2000x128_1_0_0_1_n_n.contr.Idx) :
    (dot_S2000x128_S128x128_S2000x128_1_0_0_1_n_n.rhsIdx j k (1 : Fin S128x128.rank)).val = (j 1).val := by
  unfold DotDims.rhsIdx
  rw [dif_neg (show ¬ (1 : Fin S128x128.rank) ∈ dot_S2000x128_S128x128_S2000x128_1_0_0_1_n_n.rhsBatch from fun h => nomatch h),
    dif_pos (show (1 : Fin S128x128.rank) ∈ dot_S2000x128_S128x128_S2000x128_1_0_0_1_n_n.rhsNonContracting from List.mem_singleton.mpr rfl)]
  rfl

/-- The block product at row `r`, column `q`, into a zero accumulator: the sum over the 128 contraction positions. -/
theorem blockdot_apply (x : FVec Ideal S2000x128 .bf16) (y : FVec Ideal S128x128 .bf16) (r : Fin 2000) (q : Fin 128) :
    matmul (F := Ideal) dot_S2000x128_S128x128_S2000x128_1_0_0_1_n_n none x y (constant (F := Ideal) S2000x128 .f32 0x00000000#32) (ix2 r q)
      = ∑ k : Fin 128, x (ix2 r k) * y (ix2 k q) := by
  refine (Ideal.matmul_constant_zero_apply dot_S2000x128_S128x128_S2000x128_1_0_0_1_n_n none x y (ix2 r q)).trans ?_
  refine (Equiv.sum_comp (contrEquiv1 dot_S2000x128_S128x128_S2000x128_1_0_0_1_n_n 128 rfl rfl).symm _).symm.trans ?_
  refine Finset.sum_congr rfl fun k _ => ?_
  have hk := contrEquiv1_symm_val dot_S2000x128_S128x128_S2000x128_1_0_0_1_n_n 128 rfl rfl k
  have hl : dot_S2000x128_S128x128_S2000x128_1_0_0_1_n_n.lhsIdx (ix2 r q) ((contrEquiv1 dot_S2000x128_S128x128_S2000x128_1_0_0_1_n_n 128 rfl rfl).symm k) = ix2 r k := by
    funext a; apply Fin.ext
    match a with
    | ⟨0, _⟩ => exact lhs_blockdot_0 _ _
    | ⟨1, _⟩ => exact (lhs_blockdot_1 _ _).trans hk
  have hr : dot_S2000x128_S128x128_S2000x128_1_0_0_1_n_n.rhsIdx (ix2 r q) ((contrEquiv1 dot_S2000x128_S128x128_S2000x128_1_0_0_1_n_n 128 rfl rfl).symm k) = ix2 k q := by
    funext a; apply Fin.ext
    match a with
    | ⟨0, _⟩ => exact (rhs_blockdot_0 _ _).trans hk
    | ⟨1, _⟩ => exact rhs_blockdot_1 _ _
  rw [hl, hr]

/-- The whole-array product's left operand index, row coordinate: the output's row. -/
theorem lhs_arraydot_0 (j : S20000x128.Idx) (k : Cert.ReferenceIdeal.dot_S20000x128_S128x128_S20000x128_1_0_0_1_n_n.contr.Idx) :
    (Cert.ReferenceIdeal.dot_S20000x128_S128x128_S20000x128_1_0_0_1_n_n.lhsIdx j k (0 : Fin S20000x128.rank)).val = (j 0).val := by
  unfold DotDims.lhsIdx
  rw [dif_neg (show ¬ (0 : Fin S20000x128.rank) ∈ Cert.ReferenceIdeal.dot_S20000x128_S128x128_S20000x128_1_0_0_1_n_n.lhsBatch from fun h => nomatch h),
    dif_pos (show (0 : Fin S20000x128.rank) ∈ Cert.ReferenceIdeal.dot_S20000x128_S128x128_S20000x128_1_0_0_1_n_n.lhsNonContracting from List.mem_singleton.mpr rfl)]
  rfl

/-- The whole-array product's left operand index, column coordinate: the contraction position. -/
theorem lhs_arraydot_1 (j : S20000x128.Idx) (k : Cert.ReferenceIdeal.dot_S20000x128_S128x128_S20000x128_1_0_0_1_n_n.contr.Idx) :
    (Cert.ReferenceIdeal.dot_S20000x128_S128x128_S20000x128_1_0_0_1_n_n.lhsIdx j k (1 : Fin S20000x128.rank)).val = (k ⟨0, Nat.one_pos⟩).val :=
  Cert.ReferenceIdeal.dot_S20000x128_S128x128_S20000x128_1_0_0_1_n_n.lhsIdx_val_of_single rfl j k

/-- The whole-array product's right operand index, row coordinate: the contraction position. -/
theorem rhs_arraydot_0 (j : S20000x128.Idx) (k : Cert.ReferenceIdeal.dot_S20000x128_S128x128_S20000x128_1_0_0_1_n_n.contr.Idx) :
    (Cert.ReferenceIdeal.dot_S20000x128_S128x128_S20000x128_1_0_0_1_n_n.rhsIdx j k (0 : Fin S128x128.rank)).val = (k ⟨0, Nat.one_pos⟩).val :=
  Cert.ReferenceIdeal.dot_S20000x128_S128x128_S20000x128_1_0_0_1_n_n.rhsIdx_val_of_single rfl j k

/-- The whole-array product's right operand index, column coordinate: the output's column. -/
theorem rhs_arraydot_1 (j : S20000x128.Idx) (k : Cert.ReferenceIdeal.dot_S20000x128_S128x128_S20000x128_1_0_0_1_n_n.contr.Idx) :
    (Cert.ReferenceIdeal.dot_S20000x128_S128x128_S20000x128_1_0_0_1_n_n.rhsIdx j k (1 : Fin S128x128.rank)).val = (j 1).val := by
  unfold DotDims.rhsIdx
  rw [dif_neg (show ¬ (1 : Fin S128x128.rank) ∈ Cert.ReferenceIdeal.dot_S20000x128_S128x128_S20000x128_1_0_0_1_n_n.rhsBatch from fun h => nomatch h),
    dif_pos (show (1 : Fin S128x128.rank) ∈ Cert.ReferenceIdeal.dot_S20000x128_S128x128_S20000x128_1_0_0_1_n_n.rhsNonContracting from List.mem_singleton.mpr rfl)]
  rfl

/-- The reference's product at row `p`, column `q`: the sum over the 128 contraction positions. -/
theorem arraydot_apply (a : FVec Ideal S20000x128 .f32) (w : FVec Ideal S128x128 .f32) (p : Fin 20000) (q : Fin 128) :
    Host.dotGeneral (F := Ideal) Cert.ReferenceIdeal.dot_S20000x128_S128x128_S20000x128_1_0_0_1_n_n none a w (ix2 p q)
      = ∑ k : Fin 128, a (ix2 p k) * w (ix2 k q) := by
  simp only [Host.dotGeneral]
  refine (Ideal.dotGeneral_apply Cert.ReferenceIdeal.dot_S20000x128_S128x128_S20000x128_1_0_0_1_n_n none _ a w (ix2 p q)).trans ?_
  refine (Equiv.sum_comp (contrEquiv1 Cert.ReferenceIdeal.dot_S20000x128_S128x128_S20000x128_1_0_0_1_n_n 128 rfl rfl).symm _).symm.trans ?_
  refine Finset.sum_congr rfl fun k _ => ?_
  have hk := contrEquiv1_symm_val Cert.ReferenceIdeal.dot_S20000x128_S128x128_S20000x128_1_0_0_1_n_n 128 rfl rfl k
  have hl : Cert.ReferenceIdeal.dot_S20000x128_S128x128_S20000x128_1_0_0_1_n_n.lhsIdx (ix2 p q) ((contrEquiv1 Cert.ReferenceIdeal.dot_S20000x128_S128x128_S20000x128_1_0_0_1_n_n 128 rfl rfl).symm k) = ix2 p k := by
    funext x; apply Fin.ext
    match x with
    | ⟨0, _⟩ => exact lhs_arraydot_0 _ _
    | ⟨1, _⟩ => exact (lhs_arraydot_1 _ _).trans hk
  have hr : Cert.ReferenceIdeal.dot_S20000x128_S128x128_S20000x128_1_0_0_1_n_n.rhsIdx (ix2 p q) ((contrEquiv1 Cert.ReferenceIdeal.dot_S20000x128_S128x128_S20000x128_1_0_0_1_n_n 128 rfl rfl).symm k) = ix2 k q := by
    funext x; apply Fin.ext
    match x with
    | ⟨0, _⟩ => exact (rhs_arraydot_0 _ _).trans hk
    | ⟨1, _⟩ => exact rhs_arraydot_1 _ _
  rw [hl, hr]

/-! ## The bias row, repeated down the rows -/

/-- The kernel's bias term: the row `b`, given a leading unit axis and repeated over the block's 2000 rows, read at
    row `r`, column `q`, is `b q`. -/
theorem blockbias_apply (b : Vec Ideal S128 .f32) (r : Fin 2000) (q : Fin 128) :
    broadcastTo S2000x128 (shapeCast S1x128 (shapeCast S128 b shapeCasts_S128_S128) shapeCasts_S128_S1x128) broadcasts_S1x128_S2000x128 (ix2 r q)
      = b (ix1 q) := by
  refine (broadcastTo_apply _ broadcasts_S1x128_S2000x128 (ix2 r q) (ix2 (0 : Fin 1) q)
    (fun a => by match a with | ⟨0, _⟩ => rfl | ⟨1, _⟩ => rfl)).trans ?_
  refine (shapeCast_addUnit_apply ![128] _ shapeCasts_S128_S1x128 (ix2 (0 : Fin 1) q)).trans ?_
  rw [shapeCast_self]
  exact congrArg b (funext fun a => by match a with | ⟨0, _⟩ => rfl)

/-- The reference's bias term: the row `b`, given a leading unit axis and repeated over all 20000 rows, read at row
    `p`, column `q`, is `b q`. -/
theorem arraybias_apply (b : Vec Ideal S128 .f32) (p : Fin 20000) (q : Fin 128) :
    broadcastInDim S20000x128 ![0, 1] Cert.ReferenceIdeal.Facts₀.bcast_S1x128_S20000x128_0_1
        (broadcastInDim S1x128 ![1] Cert.ReferenceIdeal.Facts₀.bcast_S128_S1x128_1 b) (ix2 p q)
      = b (ix1 q) := by
  refine (broadcastInDim_apply ![0, 1] Cert.ReferenceIdeal.Facts₀.bcast_S1x128_S20000x128_0_1 _ (ix2 p q) (ix2 (0 : Fin 1) q)
    (fun a => by match a with | ⟨0, _⟩ => rfl | ⟨1, _⟩ => rfl)).trans ?_
  exact broadcastInDim_apply ![1] Cert.ReferenceIdeal.Facts₀.bcast_S128_S1x128_1 b (ix2 (0 : Fin 1) q) (ix1 q)
    (fun a => by match a with | ⟨0, _⟩ => rfl)

/-! ## The body's stored value and the reference's layer, index by index -/

/-- What the body stores at row `r`, column `q` of its block: the casts to the narrower format and back are the
    identity on the extended reals, the product starts from a zero accumulator, and the bias row is added. -/
theorem payload_apply (x : Vec Ideal S2000x128 .f32) (w : Vec Ideal S128x128 .f32) (b : Vec Ideal S128 .f32) (r : Fin 2000) (q : Fin 128) :
    k16_pay1 (F := Ideal) x w b (ix2 r q) = (∑ k : Fin 128, x (ix2 r k) * w (ix2 k q)) + b (ix1 q) := by
  unfold k16_pay1
  refine congrArg₂ (· + ·) ?_ (blockbias_apply b r q)
  refine (blockdot_apply _ _ r q).trans ?_
  refine Finset.sum_congr rfl fun k _ => ?_
  refine congrArg₂ (· * ·) ?_ ?_
  · exact congrFun (shapeCast_self x shapeCasts_S2000x128_S2000x128) (ix2 r k)
  · exact congrFun (shapeCast_self w shapeCasts_S128x128_S128x128) (ix2 k q)

/-- The reference's layer at row `p`, column `q`. -/
theorem layer_apply (a : Vec Ideal S20000x128 .f32) (w : Vec Ideal S128x128 .f32) (b : Vec Ideal S128 .f32) (p : Fin 20000) (q : Fin 128) :
    Cert.Spec.linE (F := Ideal) a w b (ix2 p q) = (∑ k : Fin 128, a (ix2 p k) * w (ix2 k q)) + b (ix1 q) := by
  unfold Cert.Spec.linE
  exact congrArg₂ (· + ·) (arraydot_apply a w p q) (arraybias_apply b p q)

/-- One stored entry against the layer: where row `r` of a block holds row `2000 n + r` of the array `a`, the body's
    stored value at `(r, q)` is the layer's value at `(2000 n + r, q)`. -/
theorem stored_eq_layer (x : Vec Ideal S2000x128 .f32) (w : Vec Ideal S128x128 .f32) (b : Vec Ideal S128 .f32)
    (a : Vec Ideal S20000x128 .f32) (n : Nat) (hn : n < 10) (r : Fin 2000) (q : Fin 128)
    (hrow : ∀ k : Fin 128, x (ix2 r k) = a (ix2 (⟨n * 2000 + r.val, by have := r.isLt; omega⟩ : Fin 20000) k)) :
    k16_pay1 (F := Ideal) x w b (ix2 r q)
      = Cert.Spec.linE (F := Ideal) a w b (ix2 (⟨n * 2000 + r.val, by have := r.isLt; omega⟩ : Fin 20000) q) := by
  rw [payload_apply, layer_apply]
  exact congrArg (· + b (ix1 q)) (Finset.sum_congr rfl fun k _ => by rw [hrow k])

/-! ## From the blocks to the array

  Grid point `t` reads rows `2000 t … 2000 t + 1999` of `a`, the whole of `w` and `b`, and writes the same rows of the
  output. So what each point writes back is its block of the layer applied to the whole arrays, and the 10 blocks
  tile the 20000 rows. -/

/-- The body's loads and its one store all start at the origin of their blocks. -/
theorem origin2 : (![0, 0] : Fin 2 → Nat) = fun _ => 0 := funext fun a => by match a with | ⟨0, _⟩ => rfl | ⟨1, _⟩ => rfl
theorem origin1 : (![0] : Fin 1 → Nat) = fun _ => 0 := funext fun a => by match a with | ⟨0, _⟩ => rfl

/-- The printed index maps, decided over the 10 grid points: the row-block index of `a` and of the output is the
    point's number, every other block index is 0. -/
theorem index_facts : ∀ t : Fin cfg16.N,
    win16_0.index t (0 : Fin 2) = t.val ∧ win16_0.index t (1 : Fin 2) = 0
    ∧ win16_1.index t (0 : Fin 2) = 0 ∧ win16_1.index t (1 : Fin 2) = 0
    ∧ win16_2.index t (0 : Fin 1) = 0
    ∧ win16_3.index t (0 : Fin 2) = t.val ∧ win16_3.index t (1 : Fin 2) = 0 :=
  (by decide +kernel : ∀ t : Fin grid16.N, _)

set_option maxHeartbeats 1000000 in
/-- WHAT POINT `t` WRITES BACK is block `t` of the layer applied to the three input arrays as the region finds them. -/
theorem flushed_eq (V : (c : Dev nD) → (b : Ref sig .tc) → Buf (Elt Ideal) ((c : Thread nD τ).loc b)) (c : Dev nD) (t : Fin cfg16.N) :
    (dat16 (F := Ideal) V c).flushed 3 t = ((cfg16.win 3).blk t).view.read (Elt Ideal)
      (Cert.Spec.linE (F := Ideal) (V c (Pipeline.arrRef spec16 0)) (V c (Pipeline.arrRef spec16 1)) (V c (Pipeline.arrRef spec16 2))) := by
  show (cfg16.win 3).cut (grid16.coords t) ((dat16 (F := Ideal) V c).after 3 t) = _
  rw [after16_3]
  unfold out16_3
  rw [View.canon_unit_zero origin2]
  simp only [View.ld_unit_zero (S := S2000x128) origin2, View.ld_unit_zero (S := S128x128) origin2, View.ld_unit_zero (S := S128) origin1]
  obtain ⟨e00, e01, e10, e11, e20, e30, e31⟩ := index_facts t
  have hw : (iblk16 (F := Ideal) V c 1 t : Vec Ideal S128x128 .f32) = (V c (Pipeline.arrRef spec16 1)) := by
    funext y
    show (V c (Pipeline.arrRef spec16 1)) (((cfg16.win 1).blk t).view.emb y) = (V c (Pipeline.arrRef spec16 1)) y
    refine congrArg (V c (Pipeline.arrRef spec16 1)) (funext fun a => Fin.ext ?_)
    match a with
    | ⟨0, _⟩ => show win16_1.index t (0 : Fin 2) * 128 + 1 * (y 0).val = (y 0).val; omega
    | ⟨1, _⟩ => show win16_1.index t (1 : Fin 2) * 128 + 1 * (y 1).val = (y 1).val; omega
  have hb : (iblk16 (F := Ideal) V c 2 t : Vec Ideal S128 .f32) = (V c (Pipeline.arrRef spec16 2)) := by
    funext y
    show (V c (Pipeline.arrRef spec16 2)) (((cfg16.win 2).blk t).view.emb y) = (V c (Pipeline.arrRef spec16 2)) y
    refine congrArg (V c (Pipeline.arrRef spec16 2)) (funext fun a => Fin.ext ?_)
    match a with
    | ⟨0, _⟩ => show win16_2.index t (0 : Fin 1) * 128 + 1 * (y 0).val = (y 0).val; omega
  funext (j : S2000x128.Idx)
  obtain ⟨r, q, rfl⟩ : ∃ (r : Fin 2000) (q : Fin 128), j = ix2 r q := ⟨j 0, j 1, eq_ix2 j⟩
  show k16_pay1 (F := Ideal) (iblk16 (F := Ideal) V c 0 t) (iblk16 (F := Ideal) V c 1 t) (iblk16 (F := Ideal) V c 2 t) (ix2 r q)
    = Cert.Spec.linE (F := Ideal) (V c (Pipeline.arrRef spec16 0)) (V c (Pipeline.arrRef spec16 1)) (V c (Pipeline.arrRef spec16 2)) (((cfg16.win 3).blk t).view.emb (ix2 r q))
  refine (congrArg₂ (fun w b => k16_pay1 (F := Ideal) (iblk16 (F := Ideal) V c 0 t) w b (ix2 r q)) hw hb).trans ?_
  refine (stored_eq_layer (iblk16 (F := Ideal) V c 0 t) (V c (Pipeline.arrRef spec16 1)) (V c (Pipeline.arrRef spec16 2)) (V c (Pipeline.arrRef spec16 0)) t.val (show t.val < 10 from t.isLt) r q ?_).trans ?_
  · intro k
    show (V c (Pipeline.arrRef spec16 0)) (((cfg16.win 0).blk t).view.emb (ix2 r k)) = _
    refine congrArg _ (funext fun a => Fin.ext ?_)
    match a with
    | ⟨0, _⟩ => show win16_0.index t (0 : Fin 2) * 2000 + 1 * r.val = t.val * 2000 + r.val; omega
    | ⟨1, _⟩ => show win16_0.index t (1 : Fin 2) * 128 + 1 * k.val = k.val; omega
  · refine congrArg _ (funext fun a => Fin.ext ?_)
    match a with
    | ⟨0, _⟩ => show t.val * 2000 + r.val = win16_3.index t (0 : Fin 2) * 2000 + 1 * r.val; omega
    | ⟨1, _⟩ => show q.val = win16_3.index t (1 : Fin 2) * 128 + 1 * q.val; omega

/-- An index of the output array is in point `t`'s block iff each coordinate is in the block's range on its axis. -/
theorem mem_block (t : Fin cfg16.N) (i : S20000x128.Idx) :
    i ∈ ((cfg16.win 3).blk t).view.set ↔ ∀ a : Fin 2, win16_3.index t a * S2000x128.size a ≤ (i a).val ∧ (i a).val < win16_3.index t a * S2000x128.size a + S2000x128.size a := by
  show i ∈ ((View.whole (Pipeline.arrRef spec16 3)).slice (win16_3.rect t)).set ↔ _
  rw [View.set_slice_whole, Rect.mem_set_unit]
  exact Iff.rfl

/-- THE COVER: row `p` of the output is written by point `p / 2000`. -/
theorem cover (i : S20000x128.Idx) : ∃ t : Fin cfg16.N, (cfg16.win 3).flush t = true ∧ i ∈ ((cfg16.win 3).blk t).view.set := by
  have h0 : (i 0).val < 20000 := (i 0).isLt
  have h1 : (i 1).val < 128 := (i 1).isLt
  have ht : (i 0).val / 2000 < cfg16.N := by show (i 0).val / 2000 < 10; omega
  obtain ⟨-, -, -, -, -, e30, e31⟩ := index_facts ⟨(i 0).val / 2000, ht⟩
  have e30' : win16_3.index ⟨(i 0).val / 2000, ht⟩ (0 : Fin 2) = (i 0).val / 2000 := e30
  refine ⟨⟨(i 0).val / 2000, ht⟩, flush16_3 _, ?_⟩
  rw [mem_block]
  intro a
  match a with
  | ⟨0, _⟩ =>
    show win16_3.index ⟨(i 0).val / 2000, ht⟩ (0 : Fin 2) * 2000 ≤ (i 0).val ∧ (i 0).val < win16_3.index ⟨(i 0).val / 2000, ht⟩ (0 : Fin 2) * 2000 + 2000
    omega
  | ⟨1, _⟩ =>
    show win16_3.index ⟨(i 0).val / 2000, ht⟩ (1 : Fin 2) * 128 ≤ (i 1).val ∧ (i 1).val < win16_3.index ⟨(i 0).val / 2000, ht⟩ (1 : Fin 2) * 128 + 128
    omega

end Region16

variable [Cert.KernelIdeal.Facts] [Cert.ReferenceIdeal.Facts]

/-- THE OUTPUT ARRAY of region 16 after its 10 grid points: the reference's linear layer of the three input arrays as
    the region finds them. -/
theorem region16_value (V : (c : Dev nD) → (b : Ref sig .tc) → Buf (Elt Ideal) ((c : Thread nD τ).loc b)) (c : Dev nD) :
    (dat16 (F := Ideal) V c).arrAt 3 cfg16.N
      = Cert.Spec.linE (F := Ideal) (V c (Pipeline.arrRef spec16 0)) (V c (Pipeline.arrRef spec16 1)) (V c (Pipeline.arrRef spec16 2)) :=
  (dat16 (F := Ideal) V c).arrAt_eq_of_cover 3 _ (fun t _ => Region16.flushed_eq V c t) Region16.cover

end Cert.KernelIdeal.RegionValue
-- ==== Proof.Region17.lean ====
import proofs.«116822_j38594576122568_1_alg».proof.Proof.Gen.KernelIdeal.Frame
import proofs.«116822_j38594576122568_1_alg».proof.Proof.SpecLayers
import Idealize.ShloMosaic.Lib.ValueIdx
import Idealize.ShloMosaic.Lib.ValueLayout
import Idealize.ShloMosaic.Lib.Pipeline.Value
import Idealize.ShloMosaic.PureOps.Ideal.Laws

/-! Region 17 of the kernel program: the two-branch normalise / clamp / linear / sum / leaky-clamp step over 80000 rows,
    run in 40 blocks of 2000 rows. This module shows that the region leaves in its output array the host form
    of the same step applied to its fourteen input arrays.

    At entry (P, q) both sides are
      leaky( Σ_k max(g1 k · (h1 (P, k) − mu1 k) · rsqrt(var1 k + ε) + be1 k, 0) · w1 (k, q) + b1 q
             + the same for the second branch )
    on the extended reals. The kernel's clamp tests s > 0 and the host form's tests s ≥ 0; they agree because at
    s = 0 the other arm is slope · 0 = 0. The block at grid point t holds rows 2000 t … 2000 t + 1999, so the
    forty blocks cover the array and row P is in block P / 2000. -/

noncomputable section

open scoped BigOperators

namespace Cert.KernelIdeal.RegionValue

open Idealize.ShloMosaic Idealize.ShloMosaic.ValueIdx Idealize.SL.Sem

/-- One branch at one output entry, on the extended reals: the row h normalised by the column statistics
    (scale g, shift be), clamped below at zero, contracted with the weight column w, plus the bias entry b. -/
def branch17 (h mu var g be w : Fin 128 → EReal) (b : EReal) : EReal :=
  (∑ k : Fin 128, max (g k * (h k - mu k) * Ideal.rsqrt (var k + Ideal.ofBits .f32 0x3727C5AC#32) + be k)
      (Ideal.ofBits .f32 0x00000000#32) * w k) + b

/-- The leaky clamp with the strict test: s where s is above zero, slope times s elsewhere. -/
def leakyGt17 (s : EReal) : EReal :=
  Scalar.select (Ideal.cmp .ogt s (Ideal.ofBits .f32 0x00000000#32)) s (Ideal.ofBits .f32 0x3C23D70A#32 * s)

/-- The leaky clamp with the weak test: s where s is at least zero, slope times s elsewhere. -/
def leakyGe17 (s : EReal) : EReal :=
  Scalar.select (Ideal.cmp .oge s (Ideal.ofBits .f32 0x00000000#32)) s (Ideal.ofBits .f32 0x3C23D70A#32 * s)

/-- The two clamps agree: they differ only at s = 0, where slope times 0 is 0. -/
theorem leakyGt17_eq_leakyGe17 (s : EReal) : leakyGt17 s = leakyGe17 s := by
  unfold leakyGt17 leakyGe17
  rw [Ideal.ofBits_zero_f32]
  by_cases h : 0 < s
  · simp [Scalar.select, Ideal.cmp, h, h.le]
  · by_cases h0 : s = 0
    · subst h0; simp [Scalar.select, Ideal.cmp]
    · have hlt : s < 0 := lt_of_le_of_ne (not_lt.mp h) h0
      simp [Scalar.select, Ideal.cmp, h, not_le.mpr hlt]

/-- A branch depends on its seven arguments only through their values. -/
theorem branch17_ext {h h' mu mu' var var' g g' be be' w w' : Fin 128 → EReal} {b b' : EReal}
    (e0 : ∀ k, h k = h' k) (e1 : ∀ k, mu k = mu' k) (e2 : ∀ k, var k = var' k) (e3 : ∀ k, g k = g' k)
    (e4 : ∀ k, be k = be' k) (e5 : ∀ k, w k = w' k) (e6 : b = b') :
    branch17 h mu var g be w b = branch17 h' mu' var' g' be' w' b' := by
  obtain rfl : h = h' := funext e0
  obtain rfl : mu = mu' := funext e1
  obtain rfl : var = var' := funext e2
  obtain rfl : g = g' := funext e3
  obtain rfl : be = be' := funext e4
  obtain rfl : w = w' := funext e5
  subst e6
  rfl

section Kernel
open Cert.KernelIdeal Cert.KernelIdeal.Gen
variable [Cert.KernelIdeal.Facts]

theorem lhs_k17_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_k17_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_k17_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_k17_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at an entry: the sum over the 128 contracted columns. -/
theorem matmul_k17 (a : FVec Ideal S2000x128 .bf16) (w : FVec Ideal S128x128 .bf16) (p : Fin 2000) (q : Fin 128) :
    matmul (F := Ideal) dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_k17_0 _ _
    | ⟨1, _⟩ => exact (lhs_k17_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_k17_0 _ _).trans hk
    | ⟨1, _⟩ => exact rhs_k17_1 _ _)
  rw [el, er]

/-- A 128-vector laid as one row and repeated down the 2000 rows reads, at (p, k), the vector at k. -/
theorem row_k17 {α : Type} (x : S128.Idx → α) (p : Fin 2000) (k : Fin 128) :
    broadcastTo S2000x128 (shapeCast S1x128 x shapeCasts_S128_S1x128) broadcasts_S1x128_S2000x128 (ix2 p k) = x (ix1 k) :=
  (broadcastTo_1b_ab_apply _ _ p k).trans (shapeCast_a_1a_apply x _ 0 k)

/-- The first branch's payload at an entry of the block. -/
theorem pay17_2_at (v0 : Vec Ideal S2000x128 .f32) (v2 v4 v12 v20 : Vec Ideal S128 .f32) (v28 : Vec Ideal S128x128 .f32) (v32 : Vec Ideal S128 .f32)
    (p : Fin 2000) (q : Fin 128) :
    k17_pay2 (F := Ideal) v0 v2 v4 v12 v20 v28 v32 (ix2 p q)
      = branch17 (fun k => v0 (ix2 p k)) (fun k => v4 (ix1 k)) (fun k => v12 (ix1 k)) (fun k => v2 (ix1 k)) (fun k => v20 (ix1 k)) (fun k => v28 (ix2 k q)) (v32 (ix1 q)) := by
  unfold k17_pay2 branch17
  simp only [shapeCast_self]
  rw [addf_apply, matmul_k17, row_k17]
  refine congrArg (· + _) (Finset.sum_congr rfl fun k _ => ?_)
  rw [truncf_apply, truncf_apply, maximumf_apply, addf_apply, mulf_apply, mulf_apply, subf_apply, row_k17, row_k17, row_k17, row_k17]
  rfl

/-- The leaky clamp of a block, read at an entry. -/
theorem leaky_k17 (s : FVec Ideal S2000x128 .f32) (i : S2000x128.Idx) :
    select (cmpf .ogt s (broadcast S2000x128 (Scalar.ofBits (F := Ideal) .f32 0x00000000#32))) s
        (mulf (broadcast S2000x128 (Scalar.ofBits (F := Ideal) .f32 0x3C23D70A#32)) s) i = leakyGt17 (s i) := rfl

/-- The stored payload at an entry of the block: the first branch's value plus the second branch, through the clamp. -/
theorem pay17_1_at (v36 v38 : FVec Ideal S2000x128 .f32) (v40 v42 : FVec Ideal S128 .f32) (v49 v57 : Vec Ideal S128 .f32) (v65 : Vec Ideal S128x128 .f32) (v69 : Vec Ideal S128 .f32)
    (p : Fin 2000) (q : Fin 128) :
    k17_pay1 (F := Ideal) v36 v38 v40 v42 v49 v57 v65 v69 (ix2 p q)
      = leakyGt17 (v36 (ix2 p q) + branch17 (fun k => v38 (ix2 p k)) (fun k => v42 (ix1 k)) (fun k => v49 (ix1 k)) (fun k => v40 (ix1 k)) (fun k => v57 (ix1 k)) (fun k => v65 (ix2 k q)) (v69 (ix1 q))) := by
  unfold k17_pay1 branch17
  simp only [shapeCast_self]
  rw [leaky_k17, addf_apply, addf_apply, matmul_k17, row_k17]
  refine congrArg (fun z => leakyGt17 (v36 (ix2 p q) + (z + _))) (Finset.sum_congr rfl fun k _ => ?_)
  rw [truncf_apply, truncf_apply, maximumf_apply, addf_apply, mulf_apply, mulf_apply, subf_apply, row_k17, row_k17, row_k17, row_k17]
  rfl

theorem hz2_17 : (![0, 0] : Fin 2 → Nat) = fun _ => 0 := funext fun a => by match a with | ⟨0, _⟩ => rfl | ⟨1, _⟩ => rfl
theorem hz1_17 : (![0] : Fin 1 → Nat) = fun _ => 0 := funext fun a => by match a with | ⟨0, _⟩ => rfl

/-- What the body leaves in the output block, at an entry, from the fourteen input blocks: the two branches' sum
    through the clamp with the strict test. -/
theorem out17_14_at (x0 : Vec Ideal S2000x128 .f32) (x1 x2 x3 x4 : Vec Ideal S128 .f32) (x5 : Vec Ideal S128x128 .f32) (x6 : Vec Ideal S128 .f32)
    (x7 : Vec Ideal S2000x128 .f32) (x8 x9 x10 x11 : Vec Ideal S128 .f32) (x12 : Vec Ideal S128x128 .f32) (x13 : Vec Ideal S128 .f32)
    (p : Fin 2000) (q : Fin 128) :
    out17_14 (F := Ideal) x0 x1 x2 x3 x4 x5 x6 x7 x8 x9 x10 x11 x12 x13 (ix2 p q)
      = leakyGt17 (branch17 (fun k => x0 (ix2 p k)) (fun k => x1 (ix1 k)) (fun k => x2 (ix1 k)) (fun k => x3 (ix1 k)) (fun k => x4 (ix1 k)) (fun k => x5 (ix2 k q)) (x6 (ix1 q))
          + branch17 (fun k => x7 (ix2 p k)) (fun k => x8 (ix1 k)) (fun k => x9 (ix1 k)) (fun k => x10 (ix1 k)) (fun k => x11 (ix1 k)) (fun k => x12 (ix2 k q)) (x13 (ix1 q))) := by
  unfold out17_14
  rw [View.canon_unit_zero hz2_17]
  simp only [View.ld_unit_zero (S := S2000x128) hz2_17, View.ld_unit_zero (S := S128) hz1_17, View.ld_unit_zero (S := S128x128) hz2_17]
  rw [pay17_1_at, pay17_2_at]
  unfold k17_pay3 k17_pay4 k17_pay5
  simp only [shapeCast_self]

end Kernel

end Cert.KernelIdeal.RegionValue

namespace Cert.Spec.Region17

open Idealize.ShloMosaic Idealize.ShloMosaic.ValueIdx Idealize.SL.Sem
open Cert.KernelIdeal.RegionValue (branch17 leakyGe17)

section Reference
open Cert.ReferenceIdeal Cert.ReferenceIdeal.Facts₀ Cert.ReferenceIdeal.Facts
variable [Cert.ReferenceIdeal.Facts]

theorem lhs_r17_0 (i : S80000x128.Idx) (q : dot_S80000x128_S128x128_S80000x128_1_0_0_1_n_n.contr.Idx) :
    (dot_S80000x128_S128x128_S80000x128_1_0_0_1_n_n.lhsIdx i q 0).val = (i 0).val := by
  unfold DotDims.lhsIdx
  rw [dif_neg (show ¬(0 : Fin S80000x128.rank) ∈ dot_S80000x128_S128x128_S80000x128_1_0_0_1_n_n.lhsBatch from List.not_mem_nil), dif_pos (show (0 : Fin S80000x128.rank) ∈ dot_S80000x128_S128x128_S80000x128_1_0_0_1_n_n.lhsNonContracting from List.mem_singleton.mpr rfl)]
  rfl
theorem lhs_r17_1 (i : S80000x128.Idx) (q : dot_S80000x128_S128x128_S80000x128_1_0_0_1_n_n.contr.Idx) :
    (dot_S80000x128_S128x128_S80000x128_1_0_0_1_n_n.lhsIdx i q 1).val = (q ⟨0, Nat.one_pos⟩).val :=
  dot_S80000x128_S128x128_S80000x128_1_0_0_1_n_n.lhsIdx_val_of_single rfl i q
theorem rhs_r17_0 (i : S80000x128.Idx) (q : dot_S80000x128_S128x128_S80000x128_1_0_0_1_n_n.contr.Idx) :
    (dot_S80000x128_S128x128_S80000x128_1_0_0_1_n_n.rhsIdx i q 0).val = (q ⟨0, Nat.one_pos⟩).val :=
  dot_S80000x128_S128x128_S80000x128_1_0_0_1_n_n.rhsIdx_val_of_single rfl i q
theorem rhs_r17_1 (i : S80000x128.Idx) (q : dot_S80000x128_S128x128_S80000x128_1_0_0_1_n_n.contr.Idx) :
    (dot_S80000x128_S128x128_S80000x128_1_0_0_1_n_n.rhsIdx i q 1).val = (i 1).val := by
  unfold DotDims.rhsIdx
  rw [dif_neg (show ¬(1 : Fin S128x128.rank) ∈ dot_S80000x128_S128x128_S80000x128_1_0_0_1_n_n.rhsBatch from List.not_mem_nil), dif_pos (show (1 : Fin S128x128.rank) ∈ dot_S80000x128_S128x128_S80000x128_1_0_0_1_n_n.rhsNonContracting from List.mem_singleton.mpr rfl)]
  rfl

/-- The host product at an entry: the sum over the 128 contracted columns. -/
theorem dot_r17 (a : FVec Ideal S80000x128 .f32) (w : FVec Ideal S128x128 .f32) (P : Fin 80000) (q : Fin 128) :
    Host.dotGeneral (F := Ideal) dot_S80000x128_S128x128_S80000x128_1_0_0_1_n_n none a w (ix2 P q)
      = ∑ k : Fin 128, a (ix2 P k) * w (ix2 k q) := by
  simp only [Host.dotGeneral]
  rw [Ideal.dotGeneral_apply, ← Equiv.sum_comp (contrEquiv1 dot_S80000x128_S128x128_S80000x128_1_0_0_1_n_n 128 rfl rfl).symm]
  refine Finset.sum_congr rfl fun k _ => ?_
  have hk := contrEquiv1_symm_val dot_S80000x128_S128x128_S80000x128_1_0_0_1_n_n 128 rfl rfl k
  have el : dot_S80000x128_S128x128_S80000x128_1_0_0_1_n_n.lhsIdx (ix2 P q) ((contrEquiv1 dot_S80000x128_S128x128_S80000x128_1_0_0_1_n_n 128 rfl rfl).symm k) = ix2 P k := funext fun a => Fin.ext (by
    match a with
    | ⟨0, _⟩ => exact lhs_r17_0 _ _
    | ⟨1, _⟩ => exact (lhs_r17_1 _ _).trans hk)
  have er : dot_S80000x128_S128x128_S80000x128_1_0_0_1_n_n.rhsIdx (ix2 P q) ((contrEquiv1 dot_S80000x128_S128x128_S80000x128_1_0_0_1_n_n 128 rfl rfl).symm k) = ix2 k q := funext fun a => Fin.ext (by
    match a with
    | ⟨0, _⟩ => exact (rhs_r17_0 _ _).trans hk
    | ⟨1, _⟩ => exact rhs_r17_1 _ _)
  rw [el, er]

/-- A 128-vector laid as one row and repeated down the 80000 rows reads, at (P, k), the vector at k. -/
theorem row_r17 {α : Type} (x : S128.Idx → α) (P : Fin 80000) (k : Fin 128) :
    broadcastInDim S80000x128 ![0, 1] bcast_S1x128_S80000x128_0_1 (broadcastInDim S1x128 ![1] bcast_S128_S1x128_1 x) (ix2 P k) = x (ix1 k) :=
  (broadcastInDim_apply _ _ _ (ix2 P k) (ix2 (0 : Fin 1) k) (fun a => by match a with | ⟨0, _⟩ => rfl | ⟨1, _⟩ => rfl)).trans
    (broadcastInDim_apply _ _ x (ix2 (0 : Fin 1) k) (ix1 k) (fun a => by match a with | ⟨0, _⟩ => rfl))

/-- A scalar constant repeated over the 80000 x 128 array reads its value everywhere. -/
theorem splat_r17 (b : BitVec 32) (j : S80000x128.Idx) :
    broadcastInDim S80000x128 ![] bcast_S_S80000x128 (constant (F := Ideal) S_ .f32 b) j = Ideal.ofBits .f32 b := rfl
/-- A scalar constant repeated over a 128-vector reads its value everywhere. -/
theorem splat_v17 (b : BitVec 32) (j : S128.Idx) :
    broadcastInDim S128 ![] bcast_S_S128 (constant (F := Ideal) S_ .f32 b) j = Ideal.ofBits .f32 b := rfl

/-- One branch of the host form at an entry. -/
theorem branch_r17 (h : FVec Ideal S80000x128 .f32) (mu var g be : FVec Ideal S128 .f32) (w : FVec Ideal S128x128 .f32) (b : FVec Ideal S128 .f32)
    (P : Fin 80000) (q : Fin 128) :
    (addf (Host.dotGeneral (F := Ideal) dot_S80000x128_S128x128_S80000x128_1_0_0_1_n_n none (maximumf (addf (mulf (mulf (broadcastInDim S80000x128 ![0, 1] bcast_S1x128_S80000x128_0_1 (broadcastInDim S1x128 ![1] bcast_S128_S1x128_1 g)) (subf h (broadcastInDim S80000x128 ![0, 1] bcast_S1x128_S80000x128_0_1 (broadcastInDim S1x128 ![1] bcast_S128_S1x128_1 mu)))) (broadcastInDim S80000x128 ![0, 1] bcast_S1x128_S80000x128_0_1 (broadcastInDim S1x128 ![1] bcast_S128_S1x128_1 (Host.rsqrt (addf var (broadcastInDim S128 ![] bcast_S_S128 (constant (F := Ideal) S_ .f32 0x3727C5AC#32))))))) (broadcastInDim S80000x128 ![0, 1] bcast_S1x128_S80000x128_0_1 (broadcastInDim S1x128 ![1] bcast_S128_S1x128_1 be))) ((broadcastInDim S80000x128 ![] bcast_S_S80000x128) (constant (F := Ideal) S_ .f32 0x00000000#32))) w) (broadcastInDim S80000x128 ![0, 1] bcast_S1x128_S80000x128_0_1 (broadcastInDim S1x128 ![1] bcast_S128_S1x128_1 b))) (ix2 P q)
      = branch17 (fun k => h (ix2 P k)) (fun k => mu (ix1 k)) (fun k => var (ix1 k)) (fun k => g (ix1 k)) (fun k => be (ix1 k)) (fun k => w (ix2 k q)) (b (ix1 q)) := by
  unfold branch17
  rw [addf_apply, dot_r17, row_r17]
  refine congrArg (· + _) (Finset.sum_congr rfl fun k _ => ?_)
  rw [maximumf_apply, addf_apply, mulf_apply, mulf_apply, subf_apply, row_r17, row_r17, row_r17, row_r17, splat_r17]
  rfl

/-- The host form of the whole step at an entry: the two branches' sum through the clamp with the weak test. -/
theorem combOp_at17 (h1 : FVec Ideal S80000x128 .f32) (mu1 var1 g1 be1 : FVec Ideal S128 .f32) (w1 : FVec Ideal S128x128 .f32) (b1 : FVec Ideal S128 .f32)
    (h2 : FVec Ideal S80000x128 .f32) (mu2 var2 g2 be2 : FVec Ideal S128 .f32) (w2 : FVec Ideal S128x128 .f32) (b2 : FVec Ideal S128 .f32)
    (P : Fin 80000) (q : Fin 128) :
    Cert.Spec.combOp (F := Ideal) h1 mu1 var1 g1 be1 w1 b1 h2 mu2 var2 g2 be2 w2 b2 (ix2 P q)
      = leakyGe17 (branch17 (fun k => h1 (ix2 P k)) (fun k => mu1 (ix1 k)) (fun k => var1 (ix1 k)) (fun k => g1 (ix1 k)) (fun k => be1 (ix1 k)) (fun k => w1 (ix2 k q)) (b1 (ix1 q))
          + branch17 (fun k => h2 (ix2 P k)) (fun k => mu2 (ix1 k)) (fun k => var2 (ix1 k)) (fun k => g2 (ix1 k)) (fun k => be2 (ix1 k)) (fun k => w2 (ix2 k q)) (b2 (ix1 q))) := by
  unfold Cert.Spec.combOp leakyGe17
  beta_reduce
  rw [select_apply, cmpf_apply, mulf_apply, splat_r17, splat_r17, addf_apply, branch_r17, branch_r17]
  rfl

end Reference

end Cert.Spec.Region17

namespace Cert.KernelIdeal.RegionValue

open Idealize.ShloMosaic Idealize.ShloMosaic.ValueIdx Idealize.ShloMosaic.TcCoe Idealize.SL.Sem

section Blocks
open Cert.KernelIdeal Cert.KernelIdeal.Gen
open Idealize.ShloMosaic.Pipeline (Dat)
variable [Cert.KernelIdeal.Facts] [Cert.ReferenceIdeal.Facts]
variable (V : (c : Dev nD) → (b : Ref sig .tc) → Buf (Elt Ideal) ((c : Thread nD τ).loc b))

/-! ## The windows' block indices over the grid: windows 0, 7 and 14 move down the rows with the point, the others stay -/

theorem idx17_0 : ∀ t : Fin cfg17.N, win17_0.index t (0 : Fin 2) = t.val ∧ win17_0.index t (1 : Fin 2) = 0 :=
  (by decide +kernel : ∀ t : Fin grid17.N, win17_0.index t (0 : Fin 2) = t.val ∧ win17_0.index t (1 : Fin 2) = 0)
theorem idx17_7 : ∀ t : Fin cfg17.N, win17_7.index t (0 : Fin 2) = t.val ∧ win17_7.index t (1 : Fin 2) = 0 :=
  (by decide +kernel : ∀ t : Fin grid17.N, win17_7.index t (0 : Fin 2) = t.val ∧ win17_7.index t (1 : Fin 2) = 0)
theorem idx17_14 : ∀ t : Fin cfg17.N, win17_14.index t (0 : Fin 2) = t.val ∧ win17_14.index t (1 : Fin 2) = 0 :=
  (by decide +kernel : ∀ t : Fin grid17.N, win17_14.index t (0 : Fin 2) = t.val ∧ win17_14.index t (1 : Fin 2) = 0)
theorem idx17_1 : ∀ t : Fin cfg17.N, win17_1.index t (0 : Fin 1) = 0 :=
  (by decide +kernel : ∀ t : Fin grid17.N, win17_1.index t (0 : Fin 1) = 0)
theorem idx17_2 : ∀ t : Fin cfg17.N, win17_2.index t (0 : Fin 1) = 0 :=
  (by decide +kernel : ∀ t : Fin grid17.N, win17_2.index t (0 : Fin 1) = 0)
theorem idx17_3 : ∀ t : Fin cfg17.N, win17_3.index t (0 : Fin 1) = 0 :=
  (by decide +kernel : ∀ t : Fin grid17.N, win17_3.index t (0 : Fin 1) = 0)
theorem idx17_4 : ∀ t : Fin cfg17.N, win17_4.index t (0 : Fin 1) = 0 :=
  (by decide +kernel : ∀ t : Fin grid17.N, win17_4.index t (0 : Fin 1) = 0)
theorem idx17_6 : ∀ t : Fin cfg17.N, win17_6.index t (0 : Fin 1) = 0 :=
  (by decide +kernel : ∀ t : Fin grid17.N, win17_6.index t (0 : Fin 1) = 0)
theorem idx17_8 : ∀ t : Fin cfg17.N, win17_8.index t (0 : Fin 1) = 0 :=
  (by decide +kernel : ∀ t : Fin grid17.N, win17_8.index t (0 : Fin 1) = 0)
theorem idx17_9 : ∀ t : Fin cfg17.N, win17_9.index t (0 : Fin 1) = 0 :=
  (by decide +kernel : ∀ t : Fin grid17.N, win17_9.index t (0 : Fin 1) = 0)
theorem idx17_10 : ∀ t : Fin cfg17.N, win17_10.index t (0 : Fin 1) = 0 :=
  (by decide +kernel : ∀ t : Fin grid17.N, win17_10.index t (0 : Fin 1) = 0)
theorem idx17_11 : ∀ t : Fin cfg17.N, win17_11.index t (0 : Fin 1) = 0 :=
  (by decide +kernel : ∀ t : Fin grid17.N, win17_11.index t (0 : Fin 1) = 0)
theorem idx17_13 : ∀ t : Fin cfg17.N, win17_13.index t (0 : Fin 1) = 0 :=
  (by decide +kernel : ∀ t : Fin grid17.N, win17_13.index t (0 : Fin 1) = 0)
theorem idx17_5 : ∀ t : Fin cfg17.N, win17_5.index t (0 : Fin 2) = 0 ∧ win17_5.index t (1 : Fin 2) = 0 :=
  (by decide +kernel : ∀ t : Fin grid17.N, win17_5.index t (0 : Fin 2) = 0 ∧ win17_5.index t (1 : Fin 2) = 0)
theorem idx17_12 : ∀ t : Fin cfg17.N, win17_12.index t (0 : Fin 2) = 0 ∧ win17_12.index t (1 : Fin 2) = 0 :=
  (by decide +kernel : ∀ t : Fin grid17.N, win17_12.index t (0 : Fin 2) = 0 ∧ win17_12.index t (1 : Fin 2) = 0)

/-! ## Each input block read off its array -/

/-- Window 0's block at point t is rows 2000 t … 2000 t + 1999 of its array. -/
theorem blk17_0 (c : Dev nD) (t : Fin cfg17.N) (p : Fin 2000) (P : Fin 80000) (hP : P.val = 2000 * t.val + p.val) (k : Fin 128) :
    (iblk17 V c 0 t : Vec Ideal S2000x128 .f32) (ix2 p k) = (V c (Pipeline.arrRef spec17 0) : Vec Ideal S80000x128 .f32) (ix2 P k) := by
  obtain ⟨h0, h1⟩ := idx17_0 t
  unfold iblk17
  rw [View.read_apply]
  show V c (Pipeline.arrRef spec17 0) _ = V c (Pipeline.arrRef spec17 0) _
  refine congrArg (V c (Pipeline.arrRef spec17 0)) (funext fun a => Fin.ext ?_)
  match a with
  | ⟨0, _⟩ => show win17_0.index t (0 : Fin 2) * 2000 + 1 * p.val = P.val; omega
  | ⟨1, _⟩ => show win17_0.index t (1 : Fin 2) * 128 + 1 * k.val = k.val; omega
/-- Window 7's block at point t is rows 2000 t … 2000 t + 1999 of its array. -/
theorem blk17_7 (c : Dev nD) (t : Fin cfg17.N) (p : Fin 2000) (P : Fin 80000) (hP : P.val = 2000 * t.val + p.val) (k : Fin 128) :
    (iblk17 V c 7 t : Vec Ideal S2000x128 .f32) (ix2 p k) = (V c (Pipeline.arrRef spec17 7) : Vec Ideal S80000x128 .f32) (ix2 P k) := by
  obtain ⟨h0, h1⟩ := idx17_7 t
  unfold iblk17
  rw [View.read_apply]
  show V c (Pipeline.arrRef spec17 7) _ = V c (Pipeline.arrRef spec17 7) _
  refine congrArg (V c (Pipeline.arrRef spec17 7)) (funext fun a => Fin.ext ?_)
  match a with
  | ⟨0, _⟩ => show win17_7.index t (0 : Fin 2) * 2000 + 1 * p.val = P.val; omega
  | ⟨1, _⟩ => show win17_7.index t (1 : Fin 2) * 128 + 1 * k.val = k.val; omega
/-- Window 1's block at every point is its whole 128-vector. -/
theorem blk17_1 (c : Dev nD) (t : Fin cfg17.N) (k : Fin 128) :
    (iblk17 V c 1 t : Vec Ideal S128 .f32) (ix1 k) = (V c (Pipeline.arrRef spec17 1) : Vec Ideal S128 .f32) (ix1 k) := by
  have h0 := idx17_1 t
  unfold iblk17
  rw [View.read_apply]
  show V c (Pipeline.arrRef spec17 1) _ = V c (Pipeline.arrRef spec17 1) _
  refine congrArg (V c (Pipeline.arrRef spec17 1)) (funext fun a => Fin.ext ?_)
  match a with
  | ⟨0, _⟩ => show win17_1.index t (0 : Fin 1) * 128 + 1 * k.val = k.val; omega
/-- Window 2's block at every point is its whole 128-vector. -/
theorem blk17_2 (c : Dev nD) (t : Fin cfg17.N) (k : Fin 128) :
    (iblk17 V c 2 t : Vec Ideal S128 .f32) (ix1 k) = (V c (Pipeline.arrRef spec17 2) : Vec Ideal S128 .f32) (ix1 k) := by
  have h0 := idx17_2 t
  unfold iblk17
  rw [View.read_apply]
  show V c (Pipeline.arrRef spec17 2) _ = V c (Pipeline.arrRef spec17 2) _
  refine congrArg (V c (Pipeline.arrRef spec17 2)) (funext fun a => Fin.ext ?_)
  match a with
  | ⟨0, _⟩ => show win17_2.index t (0 : Fin 1) * 128 + 1 * k.val = k.val; omega
/-- Window 3's block at every point is its whole 128-vector. -/
theorem blk17_3 (c : Dev nD) (t : Fin cfg17.N) (k : Fin 128) :
    (iblk17 V c 3 t : Vec Ideal S128 .f32) (ix1 k) = (V c (Pipeline.arrRef spec17 3) : Vec Ideal S128 .f32) (ix1 k) := by
  have h0 := idx17_3 t
  unfold iblk17
  rw [View.read_apply]
  show V c (Pipeline.arrRef spec17 3) _ = V c (Pipeline.arrRef spec17 3) _
  refine congrArg (V c (Pipeline.arrRef spec17 3)) (funext fun a => Fin.ext ?_)
  match a with
  | ⟨0, _⟩ => show win17_3.index t (0 : Fin 1) * 128 + 1 * k.val = k.val; omega
/-- Window 4's block at every point is its whole 128-vector. -/
theorem blk17_4 (c : Dev nD) (t : Fin cfg17.N) (k : Fin 128) :
    (iblk17 V c 4 t : Vec Ideal S128 .f32) (ix1 k) = (V c (Pipeline.arrRef spec17 4) : Vec Ideal S128 .f32) (ix1 k) := by
  have h0 := idx17_4 t
  unfold iblk17
  rw [View.read_apply]
  show V c (Pipeline.arrRef spec17 4) _ = V c (Pipeline.arrRef spec17 4) _
  refine congrArg (V c (Pipeline.arrRef spec17 4)) (funext fun a => Fin.ext ?_)
  match a with
  | ⟨0, _⟩ => show win17_4.index t (0 : Fin 1) * 128 + 1 * k.val = k.val; omega
/-- Window 6's block at every point is its whole 128-vector. -/
theorem blk17_6 (c : Dev nD) (t : Fin cfg17.N) (k : Fin 128) :
    (iblk17 V c 6 t : Vec Ideal S128 .f32) (ix1 k) = (V c (Pipeline.arrRef spec17 6) : Vec Ideal S128 .f32) (ix1 k) := by
  have h0 := idx17_6 t
  unfold iblk17
  rw [View.read_apply]
  show V c (Pipeline.arrRef spec17 6) _ = V c (Pipeline.arrRef spec17 6) _
  refine congrArg (V c (Pipeline.arrRef spec17 6)) (funext fun a => Fin.ext ?_)
  match a with
  | ⟨0, _⟩ => show win17_6.index t (0 : Fin 1) * 128 + 1 * k.val = k.val; omega
/-- Window 8's block at every point is its whole 128-vector. -/
theorem blk17_8 (c : Dev nD) (t : Fin cfg17.N) (k : Fin 128) :
    (iblk17 V c 8 t : Vec Ideal S128 .f32) (ix1 k) = (V c (Pipeline.arrRef spec17 8) : Vec Ideal S128 .f32) (ix1 k) := by
  have h0 := idx17_8 t
  unfold iblk17
  rw [View.read_apply]
  show V c (Pipeline.arrRef spec17 8) _ = V c (Pipeline.arrRef spec17 8) _
  refine congrArg (V c (Pipeline.arrRef spec17 8)) (funext fun a => Fin.ext ?_)
  match a with
  | ⟨0, _⟩ => show win17_8.index t (0 : Fin 1) * 128 + 1 * k.val = k.val; omega
/-- Window 9's block at every point is its whole 128-vector. -/
theorem blk17_9 (c : Dev nD) (t : Fin cfg17.N) (k : Fin 128) :
    (iblk17 V c 9 t : Vec Ideal S128 .f32) (ix1 k) = (V c (Pipeline.arrRef spec17 9) : Vec Ideal S128 .f32) (ix1 k) := by
  have h0 := idx17_9 t
  unfold iblk17
  rw [View.read_apply]
  show V c (Pipeline.arrRef spec17 9) _ = V c (Pipeline.arrRef spec17 9) _
  refine congrArg (V c (Pipeline.arrRef spec17 9)) (funext fun a => Fin.ext ?_)
  match a with
  | ⟨0, _⟩ => show win17_9.index t (0 : Fin 1) * 128 + 1 * k.val = k.val; omega
/-- Window 10's block at every point is its whole 128-vector. -/
theorem blk17_10 (c : Dev nD) (t : Fin cfg17.N) (k : Fin 128) :
    (iblk17 V c 10 t : Vec Ideal S128 .f32) (ix1 k) = (V c (Pipeline.arrRef spec17 10) : Vec Ideal S128 .f32) (ix1 k) := by
  have h0 := idx17_10 t
  unfold iblk17
  rw [View.read_apply]
  show V c (Pipeline.arrRef spec17 10) _ = V c (Pipeline.arrRef spec17 10) _
  refine congrArg (V c (Pipeline.arrRef spec17 10)) (funext fun a => Fin.ext ?_)
  match a with
  | ⟨0, _⟩ => show win17_10.index t (0 : Fin 1) * 128 + 1 * k.val = k.val; omega
/-- Window 11's block at every point is its whole 128-vector. -/
theorem blk17_11 (c : Dev nD) (t : Fin cfg17.N) (k : Fin 128) :
    (iblk17 V c 11 t : Vec Ideal S128 .f32) (ix1 k) = (V c (Pipeline.arrRef spec17 11) : Vec Ideal S128 .f32) (ix1 k) := by
  have h0 := idx17_11 t
  unfold iblk17
  rw [View.read_apply]
  show V c (Pipeline.arrRef spec17 11) _ = V c (Pipeline.arrRef spec17 11) _
  refine congrArg (V c (Pipeline.arrRef spec17 11)) (funext fun a => Fin.ext ?_)
  match a with
  | ⟨0, _⟩ => show win17_11.index t (0 : Fin 1) * 128 + 1 * k.val = k.val; omega
/-- Window 13's block at every point is its whole 128-vector. -/
theorem blk17_13 (c : Dev nD) (t : Fin cfg17.N) (k : Fin 128) :
    (iblk17 V c 13 t : Vec Ideal S128 .f32) (ix1 k) = (V c (Pipeline.arrRef spec17 13) : Vec Ideal S128 .f32) (ix1 k) := by
  have h0 := idx17_13 t
  unfold iblk17
  rw [View.read_apply]
  show V c (Pipeline.arrRef spec17 13) _ = V c (Pipeline.arrRef spec17 13) _
  refine congrArg (V c (Pipeline.arrRef spec17 13)) (funext fun a => Fin.ext ?_)
  match a with
  | ⟨0, _⟩ => show win17_13.index t (0 : Fin 1) * 128 + 1 * k.val = k.val; omega
/-- Window 5's block at every point is its whole 128 x 128 matrix. -/
theorem blk17_5 (c : Dev nD) (t : Fin cfg17.N) (k : Fin 128) (q : Fin 128) :
    (iblk17 V c 5 t : Vec Ideal S128x128 .f32) (ix2 k q) = (V c (Pipeline.arrRef spec17 5) : Vec Ideal S128x128 .f32) (ix2 k q) := by
  obtain ⟨h0, h1⟩ := idx17_5 t
  unfold iblk17
  rw [View.read_apply]
  show V c (Pipeline.arrRef spec17 5) _ = V c (Pipeline.arrRef spec17 5) _
  refine congrArg (V c (Pipeline.arrRef spec17 5)) (funext fun a => Fin.ext ?_)
  match a with
  | ⟨0, _⟩ => show win17_5.index t (0 : Fin 2) * 128 + 1 * k.val = k.val; omega
  | ⟨1, _⟩ => show win17_5.index t (1 : Fin 2) * 128 + 1 * q.val = q.val; omega
/-- Window 12's block at every point is its whole 128 x 128 matrix. -/
theorem blk17_12 (c : Dev nD) (t : Fin cfg17.N) (k : Fin 128) (q : Fin 128) :
    (iblk17 V c 12 t : Vec Ideal S128x128 .f32) (ix2 k q) = (V c (Pipeline.arrRef spec17 12) : Vec Ideal S128x128 .f32) (ix2 k q) := by
  obtain ⟨h0, h1⟩ := idx17_12 t
  unfold iblk17
  rw [View.read_apply]
  show V c (Pipeline.arrRef spec17 12) _ = V c (Pipeline.arrRef spec17 12) _
  refine congrArg (V c (Pipeline.arrRef spec17 12)) (funext fun a => Fin.ext ?_)
  match a with
  | ⟨0, _⟩ => show win17_12.index t (0 : Fin 2) * 128 + 1 * k.val = k.val; omega
  | ⟨1, _⟩ => show win17_12.index t (1 : Fin 2) * 128 + 1 * q.val = q.val; omega

/-- The host form of the step applied to the region's fourteen input arrays as the region finds them. -/
abbrev G17 (c : Dev nD) : Vec Ideal S80000x128 .f32 :=
  Cert.Spec.combOp (F := Ideal) (V c (Pipeline.arrRef spec17 0)) (V c (Pipeline.arrRef spec17 1)) (V c (Pipeline.arrRef spec17 2)) (V c (Pipeline.arrRef spec17 3)) (V c (Pipeline.arrRef spec17 4)) (V c (Pipeline.arrRef spec17 5)) (V c (Pipeline.arrRef spec17 6)) (V c (Pipeline.arrRef spec17 7)) (V c (Pipeline.arrRef spec17 8)) (V c (Pipeline.arrRef spec17 9)) (V c (Pipeline.arrRef spec17 10)) (V c (Pipeline.arrRef spec17 11)) (V c (Pipeline.arrRef spec17 12)) (V c (Pipeline.arrRef spec17 13))

/-- What the body leaves in the output window's buffer at point t: the body's result on the fourteen input blocks. -/
theorem wb17_after (c : Dev nD) (t : Fin cfg17.N) :
    (dat17 (F := Ideal) V c).flushed 14 t = (out17_14 (F := Ideal) (iblk17 V c 0 t) (iblk17 V c 1 t) (iblk17 V c 2 t) (iblk17 V c 3 t) (iblk17 V c 4 t) (iblk17 V c 5 t) (iblk17 V c 6 t) (iblk17 V c 7 t) (iblk17 V c 8 t) (iblk17 V c 9 t) (iblk17 V c 10 t) (iblk17 V c 11 t) (iblk17 V c 12 t) (iblk17 V c 13 t) : Vec Ideal S2000x128 .f32) := by
  show (cfg17.win 14).cut (grid17.coords t) ((dat17 V c).after 14 t) = _
  rw [after17_14]
  rfl

/-- Entry (p, q) of the output block at point t sits at row 2000 t + p of the output array. -/
theorem wb17_emb (c : Dev nD) (t : Fin cfg17.N) (p : Fin 2000) (q : Fin 128) (P : Fin 80000) (hP : P.val = 2000 * t.val + p.val) :
    ((cfg17.win 14).blk t).view.emb (ix2 p q) = ix2 P q := by
  obtain ⟨h0, h1⟩ := idx17_14 t
  refine funext fun a => Fin.ext ?_
  match a with
  | ⟨0, _⟩ => show win17_14.index t (0 : Fin 2) * 2000 + 1 * p.val = P.val; omega
  | ⟨1, _⟩ => show win17_14.index t (1 : Fin 2) * 128 + 1 * q.val = q.val; omega

set_option maxHeartbeats 1000000 in
/-- The body's result at entry (p, q) of block t is the host form of the step at row 2000 t + p, column q. -/
theorem wb17_point (c : Dev nD) (t : Fin cfg17.N) (p : Fin 2000) (q : Fin 128) (P : Fin 80000) (hP : P.val = 2000 * t.val + p.val) :
    out17_14 (F := Ideal) (iblk17 V c 0 t) (iblk17 V c 1 t) (iblk17 V c 2 t) (iblk17 V c 3 t) (iblk17 V c 4 t) (iblk17 V c 5 t) (iblk17 V c 6 t) (iblk17 V c 7 t) (iblk17 V c 8 t) (iblk17 V c 9 t) (iblk17 V c 10 t) (iblk17 V c 11 t) (iblk17 V c 12 t) (iblk17 V c 13 t) (ix2 p q) = G17 V c (ix2 P q) := by
  refine (out17_14_at (iblk17 V c 0 t) (iblk17 V c 1 t) (iblk17 V c 2 t) (iblk17 V c 3 t) (iblk17 V c 4 t) (iblk17 V c 5 t) (iblk17 V c 6 t) (iblk17 V c 7 t) (iblk17 V c 8 t) (iblk17 V c 9 t) (iblk17 V c 10 t) (iblk17 V c 11 t) (iblk17 V c 12 t) (iblk17 V c 13 t) p q).trans ?_
  rw [leakyGt17_eq_leakyGe17]
  refine Eq.trans ?_ (Cert.Spec.Region17.combOp_at17 (V c (Pipeline.arrRef spec17 0)) (V c (Pipeline.arrRef spec17 1)) (V c (Pipeline.arrRef spec17 2)) (V c (Pipeline.arrRef spec17 3)) (V c (Pipeline.arrRef spec17 4)) (V c (Pipeline.arrRef spec17 5)) (V c (Pipeline.arrRef spec17 6)) (V c (Pipeline.arrRef spec17 7)) (V c (Pipeline.arrRef spec17 8)) (V c (Pipeline.arrRef spec17 9)) (V c (Pipeline.arrRef spec17 10)) (V c (Pipeline.arrRef spec17 11)) (V c (Pipeline.arrRef spec17 12)) (V c (Pipeline.arrRef spec17 13)) P q).symm
  exact congrArg leakyGe17 (congrArg₂ (· + ·)
    (branch17_ext (fun k => blk17_0 V c t p P hP k) (fun k => blk17_1 V c t k) (fun k => blk17_2 V c t k) (fun k => blk17_3 V c t k)
      (fun k => blk17_4 V c t k) (fun k => blk17_5 V c t k q) (blk17_6 V c t q))
    (branch17_ext (fun k => blk17_7 V c t p P hP k) (fun k => blk17_8 V c t k) (fun k => blk17_9 V c t k) (fun k => blk17_10 V c t k)
      (fun k => blk17_11 V c t k) (fun k => blk17_12 V c t k q) (blk17_13 V c t q)))

set_option maxHeartbeats 1000000 in
/-- What point t writes back is block t of the host form of the step on the input arrays. -/
theorem writeback17_14 (c : Dev nD) (t : Fin cfg17.N) :
    (dat17 (F := Ideal) V c).flushed 14 t = ((cfg17.win 14).blk t).view.read (Elt Ideal) (G17 V c) := by
  rw [wb17_after]
  refine funext fun (j : S2000x128.Idx) => ?_
  obtain ⟨p, q, rfl⟩ : ∃ (p : Fin 2000) (q : Fin 128), j = ix2 p q := ⟨j 0, j 1, eq_ix2 j⟩
  have hN : t.val < 40 := Nat.lt_of_lt_of_eq t.isLt (show cfg17.N = 40 from N_17)
  obtain ⟨P, hP⟩ : ∃ P : Fin 80000, P.val = 2000 * t.val + p.val := ⟨⟨2000 * t.val + p.val, by have := p.isLt; omega⟩, rfl⟩
  show _ = G17 V c (((cfg17.win 14).blk t).view.emb (ix2 p q))
  exact (wb17_point V c t p q P hP).trans (congrArg (G17 V c) (wb17_emb c t p q P hP)).symm

/-- Every row of the output array lies in some point's block: row P in block P / 2000. -/
theorem rows_cover17_14 (c : Dev nD) (i : S80000x128.Idx) :
    ∃ t : Fin cfg17.N, (cfg17.win 14).flush t = true ∧ i ∈ ((cfg17.win 14).blk t).view.set := by
  have hi0 : (i 0).val < 80000 := (i 0).isLt
  have hi1 : (i 1).val < 128 := (i 1).isLt
  obtain ⟨t, ht⟩ : ∃ t : Fin cfg17.N, t.val = (i 0).val / 2000 :=
    ⟨⟨(i 0).val / 2000, by rw [show cfg17.N = 40 from N_17]; omega⟩, rfl⟩
  obtain ⟨h0, h1⟩ := idx17_14 t
  refine ⟨t, flush17_14 t, ?_⟩
  show i ∈ ((View.whole (Pipeline.arrRef spec17 14)).slice (win17_14.rect t)).set
  rw [View.set_slice_whole, Rect.mem_set_unit]
  intro a
  match a with
  | ⟨0, _⟩ => show win17_14.index t (0 : Fin 2) * 2000 ≤ (i 0).val ∧ (i 0).val < win17_14.index t (0 : Fin 2) * 2000 + 2000; omega
  | ⟨1, _⟩ => show win17_14.index t (1 : Fin 2) * 128 ≤ (i 1).val ∧ (i 1).val < win17_14.index t (1 : Fin 2) * 128 + 128; omega

end Blocks

open Cert.KernelIdeal Cert.KernelIdeal.Gen Idealize.ShloMosaic Idealize.ShloMosaic.TcCoe Idealize.SL.Sem
variable [Cert.KernelIdeal.Facts] [Cert.ReferenceIdeal.Facts]

/-- After the region's forty points the output array holds the host form of the step on the fourteen input arrays. -/
theorem region17_value (V : (c : Dev nD) → (b : Ref sig .tc) → Buf (Elt Ideal) ((c : Thread nD τ).loc b)) (c : Dev nD) :
    (dat17 (F := Ideal) V c).arrAt 14 cfg17.N
      = Cert.Spec.combOp (F := Ideal) (V c (Pipeline.arrRef spec17 0)) (V c (Pipeline.arrRef spec17 1)) (V c (Pipeline.arrRef spec17 2)) (V c (Pipeline.arrRef spec17 3)) (V c (Pipeline.arrRef spec17 4)) (V c (Pipeline.arrRef spec17 5)) (V c (Pipeline.arrRef spec17 6)) (V c (Pipeline.arrRef spec17 7)) (V c (Pipeline.arrRef spec17 8)) (V c (Pipeline.arrRef spec17 9)) (V c (Pipeline.arrRef spec17 10)) (V c (Pipeline.arrRef spec17 11)) (V c (Pipeline.arrRef spec17 12)) (V c (Pipeline.arrRef spec17 13)) :=
  (dat17 (F := Ideal) V c).arrAt_eq_of_cover 14 (G17 V c) (fun t _ => writeback17_14 V c t) (rows_cover17_14 c)

end Cert.KernelIdeal.RegionValue

end
-- ==== Proof.Region18.lean ====
import proofs.«116822_j38594576122568_1_alg».proof.Proof.Gen.KernelIdeal.Frame
import proofs.«116822_j38594576122568_1_alg».proof.Proof.SpecLayers
import Idealize.ShloMosaic.Lib.ValueIdx
import Idealize.ShloMosaic.Lib.ValueLayout
import Idealize.ShloMosaic.Lib.Pipeline.Value
import Idealize.ShloMosaic.PureOps.Ideal.Laws

/-! Region 18 of the kernel program: the two-branch normalise / clamp / linear / sum / leaky-clamp step over 20000 rows,
    run in 10 blocks of 2000 rows. This module shows that the region leaves in its output array the host form
    of the same step applied to its fourteen input arrays.

    At entry (P, q) both sides are
      leaky( Σ_k max(g1 k · (h1 (P, k) − mu1 k) · rsqrt(var1 k + ε) + be1 k, 0) · w1 (k, q) + b1 q
             + the same for the second branch )
    on the extended reals. The kernel's clamp tests s > 0 and the host form's tests s ≥ 0; they agree because at
    s = 0 the other arm is slope · 0 = 0. The block at grid point t holds rows 2000 t … 2000 t + 1999, so the
    ten blocks cover the array and row P is in block P / 2000. -/

noncomputable section

open scoped BigOperators

namespace Cert.KernelIdeal.RegionValue

open Idealize.ShloMosaic Idealize.ShloMosaic.ValueIdx Idealize.SL.Sem

/-- One branch at one output entry, on the extended reals: the row h normalised by the column statistics
    (scale g, shift be), clamped below at zero, contracted with the weight column w, plus the bias entry b. -/
def branch18 (h mu var g be w : Fin 128 → EReal) (b : EReal) : EReal :=
  (∑ k : Fin 128, max (g k * (h k - mu k) * Ideal.rsqrt (var k + Ideal.ofBits .f32 0x3727C5AC#32) + be k)
      (Ideal.ofBits .f32 0x00000000#32) * w k) + b

/-- The leaky clamp with the strict test: s where s is above zero, slope times s elsewhere. -/
def leakyGt18 (s : EReal) : EReal :=
  Scalar.select (Ideal.cmp .ogt s (Ideal.ofBits .f32 0x00000000#32)) s (Ideal.ofBits .f32 0x3C23D70A#32 * s)

/-- The leaky clamp with the weak test: s where s is at least zero, slope times s elsewhere. -/
def leakyGe18 (s : EReal) : EReal :=
  Scalar.select (Ideal.cmp .oge s (Ideal.ofBits .f32 0x00000000#32)) s (Ideal.ofBits .f32 0x3C23D70A#32 * s)

/-- The two clamps agree: they differ only at s = 0, where slope times 0 is 0. -/
theorem leakyGt18_eq_leakyGe18 (s : EReal) : leakyGt18 s = leakyGe18 s := by
  unfold leakyGt18 leakyGe18
  rw [Ideal.ofBits_zero_f32]
  by_cases h : 0 < s
  · simp [Scalar.select, Ideal.cmp, h, h.le]
  · by_cases h0 : s = 0
    · subst h0; simp [Scalar.select, Ideal.cmp]
    · have hlt : s < 0 := lt_of_le_of_ne (not_lt.mp h) h0
      simp [Scalar.select, Ideal.cmp, h, not_le.mpr hlt]

/-- A branch depends on its seven arguments only through their values. -/
theorem branch18_ext {h h' mu mu' var var' g g' be be' w w' : Fin 128 → EReal} {b b' : EReal}
    (e0 : ∀ k, h k = h' k) (e1 : ∀ k, mu k = mu' k) (e2 : ∀ k, var k = var' k) (e3 : ∀ k, g k = g' k)
    (e4 : ∀ k, be k = be' k) (e5 : ∀ k, w k = w' k) (e6 : b = b') :
    branch18 h mu var g be w b = branch18 h' mu' var' g' be' w' b' := by
  obtain rfl : h = h' := funext e0
  obtain rfl : mu = mu' := funext e1
  obtain rfl : var = var' := funext e2
  obtain rfl : g = g' := funext e3
  obtain rfl : be = be' := funext e4
  obtain rfl : w = w' := funext e5
  subst e6
  rfl

section Kernel
open Cert.KernelIdeal Cert.KernelIdeal.Gen
variable [Cert.KernelIdeal.Facts]

theorem lhs_k18_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_k18_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_k18_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_k18_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at an entry: the sum over the 128 contracted columns. -/
theorem matmul_k18 (a : FVec Ideal S2000x128 .bf16) (w : FVec Ideal S128x128 .bf16) (p : Fin 2000) (q : Fin 128) :
    matmul (F := Ideal) dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_k18_0 _ _
    | ⟨1, _⟩ => exact (lhs_k18_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_k18_0 _ _).trans hk
    | ⟨1, _⟩ => exact rhs_k18_1 _ _)
  rw [el, er]

/-- A 128-vector laid as one row and repeated down the 2000 rows reads, at (p, k), the vector at k. -/
theorem row_k18 {α : Type} (x : S128.Idx → α) (p : Fin 2000) (k : Fin 128) :
    broadcastTo S2000x128 (shapeCast S1x128 x shapeCasts_S128_S1x128) broadcasts_S1x128_S2000x128 (ix2 p k) = x (ix1 k) :=
  (broadcastTo_1b_ab_apply _ _ p k).trans (shapeCast_a_1a_apply x _ 0 k)

/-- The first branch's payload at an entry of the block. -/
theorem pay18_2_at (v0 : Vec Ideal S2000x128 .f32) (v2 v4 v12 v20 : Vec Ideal S128 .f32) (v28 : Vec Ideal S128x128 .f32) (v32 : Vec Ideal S128 .f32)
    (p : Fin 2000) (q : Fin 128) :
    k18_pay2 (F := Ideal) v0 v2 v4 v12 v20 v28 v32 (ix2 p q)
      = branch18 (fun k => v0 (ix2 p k)) (fun k => v4 (ix1 k)) (fun k => v12 (ix1 k)) (fun k => v2 (ix1 k)) (fun k => v20 (ix1 k)) (fun k => v28 (ix2 k q)) (v32 (ix1 q)) := by
  unfold k18_pay2 branch18
  simp only [shapeCast_self]
  rw [addf_apply, matmul_k18, row_k18]
  refine congrArg (· + _) (Finset.sum_congr rfl fun k _ => ?_)
  rw [truncf_apply, truncf_apply, maximumf_apply, addf_apply, mulf_apply, mulf_apply, subf_apply, row_k18, row_k18, row_k18, row_k18]
  rfl

/-- The leaky clamp of a block, read at an entry. -/
theorem leaky_k18 (s : FVec Ideal S2000x128 .f32) (i : S2000x128.Idx) :
    select (cmpf .ogt s (broadcast S2000x128 (Scalar.ofBits (F := Ideal) .f32 0x00000000#32))) s
        (mulf (broadcast S2000x128 (Scalar.ofBits (F := Ideal) .f32 0x3C23D70A#32)) s) i = leakyGt18 (s i) := rfl

/-- The stored payload at an entry of the block: the first branch's value plus the second branch, through the clamp. -/
theorem pay18_1_at (v36 v38 : FVec Ideal S2000x128 .f32) (v40 v42 : FVec Ideal S128 .f32) (v49 v57 : Vec Ideal S128 .f32) (v65 : Vec Ideal S128x128 .f32) (v69 : Vec Ideal S128 .f32)
    (p : Fin 2000) (q : Fin 128) :
    k18_pay1 (F := Ideal) v36 v38 v40 v42 v49 v57 v65 v69 (ix2 p q)
      = leakyGt18 (v36 (ix2 p q) + branch18 (fun k => v38 (ix2 p k)) (fun k => v42 (ix1 k)) (fun k => v49 (ix1 k)) (fun k => v40 (ix1 k)) (fun k => v57 (ix1 k)) (fun k => v65 (ix2 k q)) (v69 (ix1 q))) := by
  unfold k18_pay1 branch18
  simp only [shapeCast_self]
  rw [leaky_k18, addf_apply, addf_apply, matmul_k18, row_k18]
  refine congrArg (fun z => leakyGt18 (v36 (ix2 p q) + (z + _))) (Finset.sum_congr rfl fun k _ => ?_)
  rw [truncf_apply, truncf_apply, maximumf_apply, addf_apply, mulf_apply, mulf_apply, subf_apply, row_k18, row_k18, row_k18, row_k18]
  rfl

theorem hz2_18 : (![0, 0] : Fin 2 → Nat) = fun _ => 0 := funext fun a => by match a with | ⟨0, _⟩ => rfl | ⟨1, _⟩ => rfl
theorem hz1_18 : (![0] : Fin 1 → Nat) = fun _ => 0 := funext fun a => by match a with | ⟨0, _⟩ => rfl

/-- What the body leaves in the output block, at an entry, from the fourteen input blocks: the two branches' sum
    through the clamp with the strict test. -/
theorem out18_14_at (x0 : Vec Ideal S2000x128 .f32) (x1 x2 x3 x4 : Vec Ideal S128 .f32) (x5 : Vec Ideal S128x128 .f32) (x6 : Vec Ideal S128 .f32)
    (x7 : Vec Ideal S2000x128 .f32) (x8 x9 x10 x11 : Vec Ideal S128 .f32) (x12 : Vec Ideal S128x128 .f32) (x13 : Vec Ideal S128 .f32)
    (p : Fin 2000) (q : Fin 128) :
    out18_14 (F := Ideal) x0 x1 x2 x3 x4 x5 x6 x7 x8 x9 x10 x11 x12 x13 (ix2 p q)
      = leakyGt18 (branch18 (fun k => x0 (ix2 p k)) (fun k => x1 (ix1 k)) (fun k => x2 (ix1 k)) (fun k => x3 (ix1 k)) (fun k => x4 (ix1 k)) (fun k => x5 (ix2 k q)) (x6 (ix1 q))
          + branch18 (fun k => x7 (ix2 p k)) (fun k => x8 (ix1 k)) (fun k => x9 (ix1 k)) (fun k => x10 (ix1 k)) (fun k => x11 (ix1 k)) (fun k => x12 (ix2 k q)) (x13 (ix1 q))) := by
  unfold out18_14
  rw [View.canon_unit_zero hz2_18]
  simp only [View.ld_unit_zero (S := S2000x128) hz2_18, View.ld_unit_zero (S := S128) hz1_18, View.ld_unit_zero (S := S128x128) hz2_18]
  rw [pay18_1_at, pay18_2_at]
  unfold k18_pay3 k18_pay4 k18_pay5
  simp only [shapeCast_self]

end Kernel

end Cert.KernelIdeal.RegionValue

namespace Cert.Spec.Region18

open Idealize.ShloMosaic Idealize.ShloMosaic.ValueIdx Idealize.SL.Sem
open Cert.KernelIdeal.RegionValue (branch18 leakyGe18)

section Reference
open Cert.ReferenceIdeal Cert.ReferenceIdeal.Facts₀ Cert.ReferenceIdeal.Facts
variable [Cert.ReferenceIdeal.Facts]

theorem lhs_r18_0 (i : S20000x128.Idx) (q : dot_S20000x128_S128x128_S20000x128_1_0_0_1_n_n.contr.Idx) :
    (dot_S20000x128_S128x128_S20000x128_1_0_0_1_n_n.lhsIdx i q 0).val = (i 0).val := by
  unfold DotDims.lhsIdx
  rw [dif_neg (show ¬(0 : Fin S20000x128.rank) ∈ dot_S20000x128_S128x128_S20000x128_1_0_0_1_n_n.lhsBatch from List.not_mem_nil), dif_pos (show (0 : Fin S20000x128.rank) ∈ dot_S20000x128_S128x128_S20000x128_1_0_0_1_n_n.lhsNonContracting from List.mem_singleton.mpr rfl)]
  rfl
theorem lhs_r18_1 (i : S20000x128.Idx) (q : dot_S20000x128_S128x128_S20000x128_1_0_0_1_n_n.contr.Idx) :
    (dot_S20000x128_S128x128_S20000x128_1_0_0_1_n_n.lhsIdx i q 1).val = (q ⟨0, Nat.one_pos⟩).val :=
  dot_S20000x128_S128x128_S20000x128_1_0_0_1_n_n.lhsIdx_val_of_single rfl i q
theorem rhs_r18_0 (i : S20000x128.Idx) (q : dot_S20000x128_S128x128_S20000x128_1_0_0_1_n_n.contr.Idx) :
    (dot_S20000x128_S128x128_S20000x128_1_0_0_1_n_n.rhsIdx i q 0).val = (q ⟨0, Nat.one_pos⟩).val :=
  dot_S20000x128_S128x128_S20000x128_1_0_0_1_n_n.rhsIdx_val_of_single rfl i q
theorem rhs_r18_1 (i : S20000x128.Idx) (q : dot_S20000x128_S128x128_S20000x128_1_0_0_1_n_n.contr.Idx) :
    (dot_S20000x128_S128x128_S20000x128_1_0_0_1_n_n.rhsIdx i q 1).val = (i 1).val := by
  unfold DotDims.rhsIdx
  rw [dif_neg (show ¬(1 : Fin S128x128.rank) ∈ dot_S20000x128_S128x128_S20000x128_1_0_0_1_n_n.rhsBatch from List.not_mem_nil), dif_pos (show (1 : Fin S128x128.rank) ∈ dot_S20000x128_S128x128_S20000x128_1_0_0_1_n_n.rhsNonContracting from List.mem_singleton.mpr rfl)]
  rfl

/-- The host product at an entry: the sum over the 128 contracted columns. -/
theorem dot_r18 (a : FVec Ideal S20000x128 .f32) (w : FVec Ideal S128x128 .f32) (P : Fin 20000) (q : Fin 128) :
    Host.dotGeneral (F := Ideal) dot_S20000x128_S128x128_S20000x128_1_0_0_1_n_n none a w (ix2 P q)
      = ∑ k : Fin 128, a (ix2 P k) * w (ix2 k q) := by
  simp only [Host.dotGeneral]
  rw [Ideal.dotGeneral_apply, ← Equiv.sum_comp (contrEquiv1 dot_S20000x128_S128x128_S20000x128_1_0_0_1_n_n 128 rfl rfl).symm]
  refine Finset.sum_congr rfl fun k _ => ?_
  have hk := contrEquiv1_symm_val dot_S20000x128_S128x128_S20000x128_1_0_0_1_n_n 128 rfl rfl k
  have el : dot_S20000x128_S128x128_S20000x128_1_0_0_1_n_n.lhsIdx (ix2 P q) ((contrEquiv1 dot_S20000x128_S128x128_S20000x128_1_0_0_1_n_n 128 rfl rfl).symm k) = ix2 P k := funext fun a => Fin.ext (by
    match a with
    | ⟨0, _⟩ => exact lhs_r18_0 _ _
    | ⟨1, _⟩ => exact (lhs_r18_1 _ _).trans hk)
  have er : dot_S20000x128_S128x128_S20000x128_1_0_0_1_n_n.rhsIdx (ix2 P q) ((contrEquiv1 dot_S20000x128_S128x128_S20000x128_1_0_0_1_n_n 128 rfl rfl).symm k) = ix2 k q := funext fun a => Fin.ext (by
    match a with
    | ⟨0, _⟩ => exact (rhs_r18_0 _ _).trans hk
    | ⟨1, _⟩ => exact rhs_r18_1 _ _)
  rw [el, er]

/-- A 128-vector laid as one row and repeated down the 20000 rows reads, at (P, k), the vector at k. -/
theorem row_r18 {α : Type} (x : S128.Idx → α) (P : Fin 20000) (k : Fin 128) :
    broadcastInDim S20000x128 ![0, 1] bcast_S1x128_S20000x128_0_1 (broadcastInDim S1x128 ![1] bcast_S128_S1x128_1 x) (ix2 P k) = x (ix1 k) :=
  (broadcastInDim_apply _ _ _ (ix2 P k) (ix2 (0 : Fin 1) k) (fun a => by match a with | ⟨0, _⟩ => rfl | ⟨1, _⟩ => rfl)).trans
    (broadcastInDim_apply _ _ x (ix2 (0 : Fin 1) k) (ix1 k) (fun a => by match a with | ⟨0, _⟩ => rfl))

/-- A scalar constant repeated over the 20000 x 128 array reads its value everywhere. -/
theorem splat_r18 (b : BitVec 32) (j : S20000x128.Idx) :
    broadcastInDim S20000x128 ![] bcast_S_S20000x128 (constant (F := Ideal) S_ .f32 b) j = Ideal.ofBits .f32 b := rfl
/-- A scalar constant repeated over a 128-vector reads its value everywhere. -/
theorem splat_v18 (b : BitVec 32) (j : S128.Idx) :
    broadcastInDim S128 ![] bcast_S_S128 (constant (F := Ideal) S_ .f32 b) j = Ideal.ofBits .f32 b := rfl

/-- One branch of the host form at an entry. -/
theorem branch_r18 (h : FVec Ideal S20000x128 .f32) (mu var g be : FVec Ideal S128 .f32) (w : FVec Ideal S128x128 .f32) (b : FVec Ideal S128 .f32)
    (P : Fin 20000) (q : Fin 128) :
    (addf (Host.dotGeneral (F := Ideal) dot_S20000x128_S128x128_S20000x128_1_0_0_1_n_n none (maximumf (addf (mulf (mulf (broadcastInDim S20000x128 ![0, 1] bcast_S1x128_S20000x128_0_1 (broadcastInDim S1x128 ![1] bcast_S128_S1x128_1 g)) (subf h (broadcastInDim S20000x128 ![0, 1] bcast_S1x128_S20000x128_0_1 (broadcastInDim S1x128 ![1] bcast_S128_S1x128_1 mu)))) (broadcastInDim S20000x128 ![0, 1] bcast_S1x128_S20000x128_0_1 (broadcastInDim S1x128 ![1] bcast_S128_S1x128_1 (Host.rsqrt (addf var (broadcastInDim S128 ![] bcast_S_S128 (constant (F := Ideal) S_ .f32 0x3727C5AC#32))))))) (broadcastInDim S20000x128 ![0, 1] bcast_S1x128_S20000x128_0_1 (broadcastInDim S1x128 ![1] bcast_S128_S1x128_1 be))) ((broadcastInDim S20000x128 ![] bcast_S_S20000x128) (constant (F := Ideal) S_ .f32 0x00000000#32))) w) (broadcastInDim S20000x128 ![0, 1] bcast_S1x128_S20000x128_0_1 (broadcastInDim S1x128 ![1] bcast_S128_S1x128_1 b))) (ix2 P q)
      = branch18 (fun k => h (ix2 P k)) (fun k => mu (ix1 k)) (fun k => var (ix1 k)) (fun k => g (ix1 k)) (fun k => be (ix1 k)) (fun k => w (ix2 k q)) (b (ix1 q)) := by
  unfold branch18
  rw [addf_apply, dot_r18, row_r18]
  refine congrArg (· + _) (Finset.sum_congr rfl fun k _ => ?_)
  rw [maximumf_apply, addf_apply, mulf_apply, mulf_apply, subf_apply, row_r18, row_r18, row_r18, row_r18, splat_r18]
  rfl

/-- The host form of the whole step at an entry: the two branches' sum through the clamp with the weak test. -/
theorem combM_at18 (h1 : FVec Ideal S20000x128 .f32) (mu1 var1 g1 be1 : FVec Ideal S128 .f32) (w1 : FVec Ideal S128x128 .f32) (b1 : FVec Ideal S128 .f32)
    (h2 : FVec Ideal S20000x128 .f32) (mu2 var2 g2 be2 : FVec Ideal S128 .f32) (w2 : FVec Ideal S128x128 .f32) (b2 : FVec Ideal S128 .f32)
    (P : Fin 20000) (q : Fin 128) :
    Cert.Spec.combM (F := Ideal) h1 mu1 var1 g1 be1 w1 b1 h2 mu2 var2 g2 be2 w2 b2 (ix2 P q)
      = leakyGe18 (branch18 (fun k => h1 (ix2 P k)) (fun k => mu1 (ix1 k)) (fun k => var1 (ix1 k)) (fun k => g1 (ix1 k)) (fun k => be1 (ix1 k)) (fun k => w1 (ix2 k q)) (b1 (ix1 q))
          + branch18 (fun k => h2 (ix2 P k)) (fun k => mu2 (ix1 k)) (fun k => var2 (ix1 k)) (fun k => g2 (ix1 k)) (fun k => be2 (ix1 k)) (fun k => w2 (ix2 k q)) (b2 (ix1 q))) := by
  unfold Cert.Spec.combM leakyGe18
  beta_reduce
  rw [select_apply, cmpf_apply, mulf_apply, splat_r18, splat_r18, addf_apply, branch_r18, branch_r18]
  rfl

end Reference

end Cert.Spec.Region18

namespace Cert.KernelIdeal.RegionValue

open Idealize.ShloMosaic Idealize.ShloMosaic.ValueIdx Idealize.ShloMosaic.TcCoe Idealize.SL.Sem

section Blocks
open Cert.KernelIdeal Cert.KernelIdeal.Gen
open Idealize.ShloMosaic.Pipeline (Dat)
variable [Cert.KernelIdeal.Facts] [Cert.ReferenceIdeal.Facts]
variable (V : (c : Dev nD) → (b : Ref sig .tc) → Buf (Elt Ideal) ((c : Thread nD τ).loc b))

/-! ## The windows' block indices over the grid: windows 0, 7 and 14 move down the rows with the point, the others stay -/

theorem idx18_0 : ∀ t : Fin cfg18.N, win18_0.index t (0 : Fin 2) = t.val ∧ win18_0.index t (1 : Fin 2) = 0 :=
  (by decide +kernel : ∀ t : Fin grid18.N, win18_0.index t (0 : Fin 2) = t.val ∧ win18_0.index t (1 : Fin 2) = 0)
theorem idx18_7 : ∀ t : Fin cfg18.N, win18_7.index t (0 : Fin 2) = t.val ∧ win18_7.index t (1 : Fin 2) = 0 :=
  (by decide +kernel : ∀ t : Fin grid18.N, win18_7.index t (0 : Fin 2) = t.val ∧ win18_7.index t (1 : Fin 2) = 0)
theorem idx18_14 : ∀ t : Fin cfg18.N, win18_14.index t (0 : Fin 2) = t.val ∧ win18_14.index t (1 : Fin 2) = 0 :=
  (by decide +kernel : ∀ t : Fin grid18.N, win18_14.index t (0 : Fin 2) = t.val ∧ win18_14.index t (1 : Fin 2) = 0)
theorem idx18_1 : ∀ t : Fin cfg18.N, win18_1.index t (0 : Fin 1) = 0 :=
  (by decide +kernel : ∀ t : Fin grid18.N, win18_1.index t (0 : Fin 1) = 0)
theorem idx18_2 : ∀ t : Fin cfg18.N, win18_2.index t (0 : Fin 1) = 0 :=
  (by decide +kernel : ∀ t : Fin grid18.N, win18_2.index t (0 : Fin 1) = 0)
theorem idx18_3 : ∀ t : Fin cfg18.N, win18_3.index t (0 : Fin 1) = 0 :=
  (by decide +kernel : ∀ t : Fin grid18.N, win18_3.index t (0 : Fin 1) = 0)
theorem idx18_4 : ∀ t : Fin cfg18.N, win18_4.index t (0 : Fin 1) = 0 :=
  (by decide +kernel : ∀ t : Fin grid18.N, win18_4.index t (0 : Fin 1) = 0)
theorem idx18_6 : ∀ t : Fin cfg18.N, win18_6.index t (0 : Fin 1) = 0 :=
  (by decide +kernel : ∀ t : Fin grid18.N, win18_6.index t (0 : Fin 1) = 0)
theorem idx18_8 : ∀ t : Fin cfg18.N, win18_8.index t (0 : Fin 1) = 0 :=
  (by decide +kernel : ∀ t : Fin grid18.N, win18_8.index t (0 : Fin 1) = 0)
theorem idx18_9 : ∀ t : Fin cfg18.N, win18_9.index t (0 : Fin 1) = 0 :=
  (by decide +kernel : ∀ t : Fin grid18.N, win18_9.index t (0 : Fin 1) = 0)
theorem idx18_10 : ∀ t : Fin cfg18.N, win18_10.index t (0 : Fin 1) = 0 :=
  (by decide +kernel : ∀ t : Fin grid18.N, win18_10.index t (0 : Fin 1) = 0)
theorem idx18_11 : ∀ t : Fin cfg18.N, win18_11.index t (0 : Fin 1) = 0 :=
  (by decide +kernel : ∀ t : Fin grid18.N, win18_11.index t (0 : Fin 1) = 0)
theorem idx18_13 : ∀ t : Fin cfg18.N, win18_13.index t (0 : Fin 1) = 0 :=
  (by decide +kernel : ∀ t : Fin grid18.N, win18_13.index t (0 : Fin 1) = 0)
theorem idx18_5 : ∀ t : Fin cfg18.N, win18_5.index t (0 : Fin 2) = 0 ∧ win18_5.index t (1 : Fin 2) = 0 :=
  (by decide +kernel : ∀ t : Fin grid18.N, win18_5.index t (0 : Fin 2) = 0 ∧ win18_5.index t (1 : Fin 2) = 0)
theorem idx18_12 : ∀ t : Fin cfg18.N, win18_12.index t (0 : Fin 2) = 0 ∧ win18_12.index t (1 : Fin 2) = 0 :=
  (by decide +kernel : ∀ t : Fin grid18.N, win18_12.index t (0 : Fin 2) = 0 ∧ win18_12.index t (1 : Fin 2) = 0)

/-! ## Each input block read off its array -/

/-- Window 0's block at point t is rows 2000 t … 2000 t + 1999 of its array. -/
theorem blk18_0 (c : Dev nD) (t : Fin cfg18.N) (p : Fin 2000) (P : Fin 20000) (hP : P.val = 2000 * t.val + p.val) (k : Fin 128) :
    (iblk18 V c 0 t : Vec Ideal S2000x128 .f32) (ix2 p k) = (V c (Pipeline.arrRef spec18 0) : Vec Ideal S20000x128 .f32) (ix2 P k) := by
  obtain ⟨h0, h1⟩ := idx18_0 t
  unfold iblk18
  rw [View.read_apply]
  show V c (Pipeline.arrRef spec18 0) _ = V c (Pipeline.arrRef spec18 0) _
  refine congrArg (V c (Pipeline.arrRef spec18 0)) (funext fun a => Fin.ext ?_)
  match a with
  | ⟨0, _⟩ => show win18_0.index t (0 : Fin 2) * 2000 + 1 * p.val = P.val; omega
  | ⟨1, _⟩ => show win18_0.index t (1 : Fin 2) * 128 + 1 * k.val = k.val; omega
/-- Window 7's block at point t is rows 2000 t … 2000 t + 1999 of its array. -/
theorem blk18_7 (c : Dev nD) (t : Fin cfg18.N) (p : Fin 2000) (P : Fin 20000) (hP : P.val = 2000 * t.val + p.val) (k : Fin 128) :
    (iblk18 V c 7 t : Vec Ideal S2000x128 .f32) (ix2 p k) = (V c (Pipeline.arrRef spec18 7) : Vec Ideal S20000x128 .f32) (ix2 P k) := by
  obtain ⟨h0, h1⟩ := idx18_7 t
  unfold iblk18
  rw [View.read_apply]
  show V c (Pipeline.arrRef spec18 7) _ = V c (Pipeline.arrRef spec18 7) _
  refine congrArg (V c (Pipeline.arrRef spec18 7)) (funext fun a => Fin.ext ?_)
  match a with
  | ⟨0, _⟩ => show win18_7.index t (0 : Fin 2) * 2000 + 1 * p.val = P.val; omega
  | ⟨1, _⟩ => show win18_7.index t (1 : Fin 2) * 128 + 1 * k.val = k.val; omega
/-- Window 1's block at every point is its whole 128-vector. -/
theorem blk18_1 (c : Dev nD) (t : Fin cfg18.N) (k : Fin 128) :
    (iblk18 V c 1 t : Vec Ideal S128 .f32) (ix1 k) = (V c (Pipeline.arrRef spec18 1) : Vec Ideal S128 .f32) (ix1 k) := by
  have h0 := idx18_1 t
  unfold iblk18
  rw [View.read_apply]
  show V c (Pipeline.arrRef spec18 1) _ = V c (Pipeline.arrRef spec18 1) _
  refine congrArg (V c (Pipeline.arrRef spec18 1)) (funext fun a => Fin.ext ?_)
  match a with
  | ⟨0, _⟩ => show win18_1.index t (0 : Fin 1) * 128 + 1 * k.val = k.val; omega
/-- Window 2's block at every point is its whole 128-vector. -/
theorem blk18_2 (c : Dev nD) (t : Fin cfg18.N) (k : Fin 128) :
    (iblk18 V c 2 t : Vec Ideal S128 .f32) (ix1 k) = (V c (Pipeline.arrRef spec18 2) : Vec Ideal S128 .f32) (ix1 k) := by
  have h0 := idx18_2 t
  unfold iblk18
  rw [View.read_apply]
  show V c (Pipeline.arrRef spec18 2) _ = V c (Pipeline.arrRef spec18 2) _
  refine congrArg (V c (Pipeline.arrRef spec18 2)) (funext fun a => Fin.ext ?_)
  match a with
  | ⟨0, _⟩ => show win18_2.index t (0 : Fin 1) * 128 + 1 * k.val = k.val; omega
/-- Window 3's block at every point is its whole 128-vector. -/
theorem blk18_3 (c : Dev nD) (t : Fin cfg18.N) (k : Fin 128) :
    (iblk18 V c 3 t : Vec Ideal S128 .f32) (ix1 k) = (V c (Pipeline.arrRef spec18 3) : Vec Ideal S128 .f32) (ix1 k) := by
  have h0 := idx18_3 t
  unfold iblk18
  rw [View.read_apply]
  show V c (Pipeline.arrRef spec18 3) _ = V c (Pipeline.arrRef spec18 3) _
  refine congrArg (V c (Pipeline.arrRef spec18 3)) (funext fun a => Fin.ext ?_)
  match a with
  | ⟨0, _⟩ => show win18_3.index t (0 : Fin 1) * 128 + 1 * k.val = k.val; omega
/-- Window 4's block at every point is its whole 128-vector. -/
theorem blk18_4 (c : Dev nD) (t : Fin cfg18.N) (k : Fin 128) :
    (iblk18 V c 4 t : Vec Ideal S128 .f32) (ix1 k) = (V c (Pipeline.arrRef spec18 4) : Vec Ideal S128 .f32) (ix1 k) := by
  have h0 := idx18_4 t
  unfold iblk18
  rw [View.read_apply]
  show V c (Pipeline.arrRef spec18 4) _ = V c (Pipeline.arrRef spec18 4) _
  refine congrArg (V c (Pipeline.arrRef spec18 4)) (funext fun a => Fin.ext ?_)
  match a with
  | ⟨0, _⟩ => show win18_4.index t (0 : Fin 1) * 128 + 1 * k.val = k.val; omega
/-- Window 6's block at every point is its whole 128-vector. -/
theorem blk18_6 (c : Dev nD) (t : Fin cfg18.N) (k : Fin 128) :
    (iblk18 V c 6 t : Vec Ideal S128 .f32) (ix1 k) = (V c (Pipeline.arrRef spec18 6) : Vec Ideal S128 .f32) (ix1 k) := by
  have h0 := idx18_6 t
  unfold iblk18
  rw [View.read_apply]
  show V c (Pipeline.arrRef spec18 6) _ = V c (Pipeline.arrRef spec18 6) _
  refine congrArg (V c (Pipeline.arrRef spec18 6)) (funext fun a => Fin.ext ?_)
  match a with
  | ⟨0, _⟩ => show win18_6.index t (0 : Fin 1) * 128 + 1 * k.val = k.val; omega
/-- Window 8's block at every point is its whole 128-vector. -/
theorem blk18_8 (c : Dev nD) (t : Fin cfg18.N) (k : Fin 128) :
    (iblk18 V c 8 t : Vec Ideal S128 .f32) (ix1 k) = (V c (Pipeline.arrRef spec18 8) : Vec Ideal S128 .f32) (ix1 k) := by
  have h0 := idx18_8 t
  unfold iblk18
  rw [View.read_apply]
  show V c (Pipeline.arrRef spec18 8) _ = V c (Pipeline.arrRef spec18 8) _
  refine congrArg (V c (Pipeline.arrRef spec18 8)) (funext fun a => Fin.ext ?_)
  match a with
  | ⟨0, _⟩ => show win18_8.index t (0 : Fin 1) * 128 + 1 * k.val = k.val; omega
/-- Window 9's block at every point is its whole 128-vector. -/
theorem blk18_9 (c : Dev nD) (t : Fin cfg18.N) (k : Fin 128) :
    (iblk18 V c 9 t : Vec Ideal S128 .f32) (ix1 k) = (V c (Pipeline.arrRef spec18 9) : Vec Ideal S128 .f32) (ix1 k) := by
  have h0 := idx18_9 t
  unfold iblk18
  rw [View.read_apply]
  show V c (Pipeline.arrRef spec18 9) _ = V c (Pipeline.arrRef spec18 9) _
  refine congrArg (V c (Pipeline.arrRef spec18 9)) (funext fun a => Fin.ext ?_)
  match a with
  | ⟨0, _⟩ => show win18_9.index t (0 : Fin 1) * 128 + 1 * k.val = k.val; omega
/-- Window 10's block at every point is its whole 128-vector. -/
theorem blk18_10 (c : Dev nD) (t : Fin cfg18.N) (k : Fin 128) :
    (iblk18 V c 10 t : Vec Ideal S128 .f32) (ix1 k) = (V c (Pipeline.arrRef spec18 10) : Vec Ideal S128 .f32) (ix1 k) := by
  have h0 := idx18_10 t
  unfold iblk18
  rw [View.read_apply]
  show V c (Pipeline.arrRef spec18 10) _ = V c (Pipeline.arrRef spec18 10) _
  refine congrArg (V c (Pipeline.arrRef spec18 10)) (funext fun a => Fin.ext ?_)
  match a with
  | ⟨0, _⟩ => show win18_10.index t (0 : Fin 1) * 128 + 1 * k.val = k.val; omega
/-- Window 11's block at every point is its whole 128-vector. -/
theorem blk18_11 (c : Dev nD) (t : Fin cfg18.N) (k : Fin 128) :
    (iblk18 V c 11 t : Vec Ideal S128 .f32) (ix1 k) = (V c (Pipeline.arrRef spec18 11) : Vec Ideal S128 .f32) (ix1 k) := by
  have h0 := idx18_11 t
  unfold iblk18
  rw [View.read_apply]
  show V c (Pipeline.arrRef spec18 11) _ = V c (Pipeline.arrRef spec18 11) _
  refine congrArg (V c (Pipeline.arrRef spec18 11)) (funext fun a => Fin.ext ?_)
  match a with
  | ⟨0, _⟩ => show win18_11.index t (0 : Fin 1) * 128 + 1 * k.val = k.val; omega
/-- Window 13's block at every point is its whole 128-vector. -/
theorem blk18_13 (c : Dev nD) (t : Fin cfg18.N) (k : Fin 128) :
    (iblk18 V c 13 t : Vec Ideal S128 .f32) (ix1 k) = (V c (Pipeline.arrRef spec18 13) : Vec Ideal S128 .f32) (ix1 k) := by
  have h0 := idx18_13 t
  unfold iblk18
  rw [View.read_apply]
  show V c (Pipeline.arrRef spec18 13) _ = V c (Pipeline.arrRef spec18 13) _
  refine congrArg (V c (Pipeline.arrRef spec18 13)) (funext fun a => Fin.ext ?_)
  match a with
  | ⟨0, _⟩ => show win18_13.index t (0 : Fin 1) * 128 + 1 * k.val = k.val; omega
/-- Window 5's block at every point is its whole 128 x 128 matrix. -/
theorem blk18_5 (c : Dev nD) (t : Fin cfg18.N) (k : Fin 128) (q : Fin 128) :
    (iblk18 V c 5 t : Vec Ideal S128x128 .f32) (ix2 k q) = (V c (Pipeline.arrRef spec18 5) : Vec Ideal S128x128 .f32) (ix2 k q) := by
  obtain ⟨h0, h1⟩ := idx18_5 t
  unfold iblk18
  rw [View.read_apply]
  show V c (Pipeline.arrRef spec18 5) _ = V c (Pipeline.arrRef spec18 5) _
  refine congrArg (V c (Pipeline.arrRef spec18 5)) (funext fun a => Fin.ext ?_)
  match a with
  | ⟨0, _⟩ => show win18_5.index t (0 : Fin 2) * 128 + 1 * k.val = k.val; omega
  | ⟨1, _⟩ => show win18_5.index t (1 : Fin 2) * 128 + 1 * q.val = q.val; omega
/-- Window 12's block at every point is its whole 128 x 128 matrix. -/
theorem blk18_12 (c : Dev nD) (t : Fin cfg18.N) (k : Fin 128) (q : Fin 128) :
    (iblk18 V c 12 t : Vec Ideal S128x128 .f32) (ix2 k q) = (V c (Pipeline.arrRef spec18 12) : Vec Ideal S128x128 .f32) (ix2 k q) := by
  obtain ⟨h0, h1⟩ := idx18_12 t
  unfold iblk18
  rw [View.read_apply]
  show V c (Pipeline.arrRef spec18 12) _ = V c (Pipeline.arrRef spec18 12) _
  refine congrArg (V c (Pipeline.arrRef spec18 12)) (funext fun a => Fin.ext ?_)
  match a with
  | ⟨0, _⟩ => show win18_12.index t (0 : Fin 2) * 128 + 1 * k.val = k.val; omega
  | ⟨1, _⟩ => show win18_12.index t (1 : Fin 2) * 128 + 1 * q.val = q.val; omega

/-- The host form of the step applied to the region's fourteen input arrays as the region finds them. -/
abbrev G18 (c : Dev nD) : Vec Ideal S20000x128 .f32 :=
  Cert.Spec.combM (F := Ideal) (V c (Pipeline.arrRef spec18 0)) (V c (Pipeline.arrRef spec18 1)) (V c (Pipeline.arrRef spec18 2)) (V c (Pipeline.arrRef spec18 3)) (V c (Pipeline.arrRef spec18 4)) (V c (Pipeline.arrRef spec18 5)) (V c (Pipeline.arrRef spec18 6)) (V c (Pipeline.arrRef spec18 7)) (V c (Pipeline.arrRef spec18 8)) (V c (Pipeline.arrRef spec18 9)) (V c (Pipeline.arrRef spec18 10)) (V c (Pipeline.arrRef spec18 11)) (V c (Pipeline.arrRef spec18 12)) (V c (Pipeline.arrRef spec18 13))

/-- What the body leaves in the output window's buffer at point t: the body's result on the fourteen input blocks. -/
theorem wb18_after (c : Dev nD) (t : Fin cfg18.N) :
    (dat18 (F := Ideal) V c).flushed 14 t = (out18_14 (F := Ideal) (iblk18 V c 0 t) (iblk18 V c 1 t) (iblk18 V c 2 t) (iblk18 V c 3 t) (iblk18 V c 4 t) (iblk18 V c 5 t) (iblk18 V c 6 t) (iblk18 V c 7 t) (iblk18 V c 8 t) (iblk18 V c 9 t) (iblk18 V c 10 t) (iblk18 V c 11 t) (iblk18 V c 12 t) (iblk18 V c 13 t) : Vec Ideal S2000x128 .f32) := by
  show (cfg18.win 14).cut (grid18.coords t) ((dat18 V c).after 14 t) = _
  rw [after18_14]
  rfl

/-- Entry (p, q) of the output block at point t sits at row 2000 t + p of the output array. -/
theorem wb18_emb (c : Dev nD) (t : Fin cfg18.N) (p : Fin 2000) (q : Fin 128) (P : Fin 20000) (hP : P.val = 2000 * t.val + p.val) :
    ((cfg18.win 14).blk t).view.emb (ix2 p q) = ix2 P q := by
  obtain ⟨h0, h1⟩ := idx18_14 t
  refine funext fun a => Fin.ext ?_
  match a with
  | ⟨0, _⟩ => show win18_14.index t (0 : Fin 2) * 2000 + 1 * p.val = P.val; omega
  | ⟨1, _⟩ => show win18_14.index t (1 : Fin 2) * 128 + 1 * q.val = q.val; omega

set_option maxHeartbeats 1000000 in
/-- The body's result at entry (p, q) of block t is the host form of the step at row 2000 t + p, column q. -/
theorem wb18_point (c : Dev nD) (t : Fin cfg18.N) (p : Fin 2000) (q : Fin 128) (P : Fin 20000) (hP : P.val = 2000 * t.val + p.val) :
    out18_14 (F := Ideal) (iblk18 V c 0 t) (iblk18 V c 1 t) (iblk18 V c 2 t) (iblk18 V c 3 t) (iblk18 V c 4 t) (iblk18 V c 5 t) (iblk18 V c 6 t) (iblk18 V c 7 t) (iblk18 V c 8 t) (iblk18 V c 9 t) (iblk18 V c 10 t) (iblk18 V c 11 t) (iblk18 V c 12 t) (iblk18 V c 13 t) (ix2 p q) = G18 V c (ix2 P q) := by
  refine (out18_14_at (iblk18 V c 0 t) (iblk18 V c 1 t) (iblk18 V c 2 t) (iblk18 V c 3 t) (iblk18 V c 4 t) (iblk18 V c 5 t) (iblk18 V c 6 t) (iblk18 V c 7 t) (iblk18 V c 8 t) (iblk18 V c 9 t) (iblk18 V c 10 t) (iblk18 V c 11 t) (iblk18 V c 12 t) (iblk18 V c 13 t) p q).trans ?_
  rw [leakyGt18_eq_leakyGe18]
  refine Eq.trans ?_ (Cert.Spec.Region18.combM_at18 (V c (Pipeline.arrRef spec18 0)) (V c (Pipeline.arrRef spec18 1)) (V c (Pipeline.arrRef spec18 2)) (V c (Pipeline.arrRef spec18 3)) (V c (Pipeline.arrRef spec18 4)) (V c (Pipeline.arrRef spec18 5)) (V c (Pipeline.arrRef spec18 6)) (V c (Pipeline.arrRef spec18 7)) (V c (Pipeline.arrRef spec18 8)) (V c (Pipeline.arrRef spec18 9)) (V c (Pipeline.arrRef spec18 10)) (V c (Pipeline.arrRef spec18 11)) (V c (Pipeline.arrRef spec18 12)) (V c (Pipeline.arrRef spec18 13)) P q).symm
  exact congrArg leakyGe18 (congrArg₂ (· + ·)
    (branch18_ext (fun k => blk18_0 V c t p P hP k) (fun k => blk18_1 V c t k) (fun k => blk18_2 V c t k) (fun k => blk18_3 V c t k)
      (fun k => blk18_4 V c t k) (fun k => blk18_5 V c t k q) (blk18_6 V c t q))
    (branch18_ext (fun k => blk18_7 V c t p P hP k) (fun k => blk18_8 V c t k) (fun k => blk18_9 V c t k) (fun k => blk18_10 V c t k)
      (fun k => blk18_11 V c t k) (fun k => blk18_12 V c t k q) (blk18_13 V c t q)))

set_option maxHeartbeats 1000000 in
/-- What point t writes back is block t of the host form of the step on the input arrays. -/
theorem writeback18_14 (c : Dev nD) (t : Fin cfg18.N) :
    (dat18 (F := Ideal) V c).flushed 14 t = ((cfg18.win 14).blk t).view.read (Elt Ideal) (G18 V c) := by
  rw [wb18_after]
  refine funext fun (j : S2000x128.Idx) => ?_
  obtain ⟨p, q, rfl⟩ : ∃ (p : Fin 2000) (q : Fin 128), j = ix2 p q := ⟨j 0, j 1, eq_ix2 j⟩
  have hN : t.val < 10 := Nat.lt_of_lt_of_eq t.isLt (show cfg18.N = 10 from N_18)
  obtain ⟨P, hP⟩ : ∃ P : Fin 20000, P.val = 2000 * t.val + p.val := ⟨⟨2000 * t.val + p.val, by have := p.isLt; omega⟩, rfl⟩
  show _ = G18 V c (((cfg18.win 14).blk t).view.emb (ix2 p q))
  exact (wb18_point V c t p q P hP).trans (congrArg (G18 V c) (wb18_emb c t p q P hP)).symm

/-- Every row of the output array lies in some point's block: row P in block P / 2000. -/
theorem rows_cover18_14 (c : Dev nD) (i : S20000x128.Idx) :
    ∃ t : Fin cfg18.N, (cfg18.win 14).flush t = true ∧ i ∈ ((cfg18.win 14).blk t).view.set := by
  have hi0 : (i 0).val < 20000 := (i 0).isLt
  have hi1 : (i 1).val < 128 := (i 1).isLt
  obtain ⟨t, ht⟩ : ∃ t : Fin cfg18.N, t.val = (i 0).val / 2000 :=
    ⟨⟨(i 0).val / 2000, by rw [show cfg18.N = 10 from N_18]; omega⟩, rfl⟩
  obtain ⟨h0, h1⟩ := idx18_14 t
  refine ⟨t, flush18_14 t, ?_⟩
  show i ∈ ((View.whole (Pipeline.arrRef spec18 14)).slice (win18_14.rect t)).set
  rw [View.set_slice_whole, Rect.mem_set_unit]
  intro a
  match a with
  | ⟨0, _⟩ => show win18_14.index t (0 : Fin 2) * 2000 ≤ (i 0).val ∧ (i 0).val < win18_14.index t (0 : Fin 2) * 2000 + 2000; omega
  | ⟨1, _⟩ => show win18_14.index t (1 : Fin 2) * 128 ≤ (i 1).val ∧ (i 1).val < win18_14.index t (1 : Fin 2) * 128 + 128; omega

end Blocks

open Cert.KernelIdeal Cert.KernelIdeal.Gen Idealize.ShloMosaic Idealize.ShloMosaic.TcCoe Idealize.SL.Sem
variable [Cert.KernelIdeal.Facts] [Cert.ReferenceIdeal.Facts]

/-- After the region's ten points the output array holds the host form of the step on the fourteen input arrays. -/
theorem region18_value (V : (c : Dev nD) → (b : Ref sig .tc) → Buf (Elt Ideal) ((c : Thread nD τ).loc b)) (c : Dev nD) :
    (dat18 (F := Ideal) V c).arrAt 14 cfg18.N
      = Cert.Spec.combM (F := Ideal) (V c (Pipeline.arrRef spec18 0)) (V c (Pipeline.arrRef spec18 1)) (V c (Pipeline.arrRef spec18 2)) (V c (Pipeline.arrRef spec18 3)) (V c (Pipeline.arrRef spec18 4)) (V c (Pipeline.arrRef spec18 5)) (V c (Pipeline.arrRef spec18 6)) (V c (Pipeline.arrRef spec18 7)) (V c (Pipeline.arrRef spec18 8)) (V c (Pipeline.arrRef spec18 9)) (V c (Pipeline.arrRef spec18 10)) (V c (Pipeline.arrRef spec18 11)) (V c (Pipeline.arrRef spec18 12)) (V c (Pipeline.arrRef spec18 13)) :=
  (dat18 (F := Ideal) V c).arrAt_eq_of_cover 14 (G18 V c) (fun t _ => writeback18_14 V c t) (rows_cover18_14 c)

end Cert.KernelIdeal.RegionValue

end
-- ==== Proof.Region19.lean ====
import proofs.«116822_j38594576122568_1_alg».proof.Proof.Gen.KernelIdeal.Frame
import proofs.«116822_j38594576122568_1_alg».proof.Proof.SpecLayers
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

/-! Region 19 of the kernel program is a linear layer: for each block of 2000 rows of `a : [80000, 128]` it forms the
    product with the whole weight matrix `w : [128, 128]`, adds the bias row `b : [128]` to every row, and writes the block of
    the output `[80000, 128]` at the same rows. This module shows that, over the extended reals, the output array the
    region leaves is, index by index, `(∑ k, a(p,k) · w(k,q)) + b(q)`, and that this is what the reference's host
    operations (a `dot_general` over the one contracted axis plus the bias row broadcast down the rows) compute. -/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable [Cert.ReferenceIdeal.Facts]

/-! ## The linear layer, index by index -/

/-- The linear layer over the extended reals: entry `(p, q)` is the sum over the 128 contracted coordinates of
    `a(p,k) · w(k,q)`, plus `b(q)`. -/
def region19_lin (a : S80000x128.Idx → Elt Ideal .f32) (w : S128x128.Idx → Elt Ideal .f32) (b : S128.Idx → Elt Ideal .f32) :
    S80000x128.Idx → Elt Ideal .f32 :=
  fun i => (∑ k : Fin 128, a (ix2 (i 0) k) * w (ix2 k (i 1))) + b (ix1 (i 1))

/-- The linear layer at entry `(p, q)`. -/
theorem region19_lin_apply (a : S80000x128.Idx → Elt Ideal .f32) (w : S128x128.Idx → Elt Ideal .f32) (b : S128.Idx → Elt Ideal .f32) (p : Fin 80000) (q : Fin 128) :
    region19_lin a w b (ix2 p q) = (∑ k : Fin 128, a (ix2 p k) * w (ix2 k q)) + b (ix1 q) := rfl

/-! ## The kernel's product: the operand indices of its contraction, axis by axis -/

theorem region19_klhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem region19_klhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem region19_krhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem region19_krhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The kernel's product of a block of 2000 rows with the weight matrix, accumulated into zero, at entry `(p, q)`: the
    sum over the contracted coordinate. -/
theorem region19_kmatmul_apply (x : FVec Ideal S2000x128 .bf16) (y : FVec Ideal S128x128 .bf16) (p : Fin 2000) (q : Fin 128) :
    matmul (F := Ideal) dot_S2000x128_S128x128_S2000x128_1_0_0_1_n_n none x y (constant (F := Ideal) S2000x128 .f32 0x00000000#32) (ix2 p q)
      = ∑ k : Fin 128, x (ix2 p k) * y (ix2 k q) := by
  show FloatOps.matmul dot_S2000x128_S128x128_S2000x128_1_0_0_1_n_n none x y (constant (F := Ideal) S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact region19_klhs_0 _ _
    | ⟨1, _⟩ => exact (region19_klhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (region19_krhs_0 _ _).trans hk
    | ⟨1, _⟩ => exact region19_krhs_1 _ _)
  rw [el, er]

/-- The bias row laid along every row of the block, at entry `(p, q)`: the bias at `q`. -/
theorem region19_kbias_apply (x2 : Vec Ideal S128 .f32) (p : Fin 2000) (q : Fin 128) :
    broadcastTo S2000x128 (shapeCast S1x128 x2 shapeCasts_S128_S1x128) broadcasts_S1x128_S2000x128 (ix2 p q)
      = x2 (ix1 q) := by
  have e1 := broadcastTo_apply (shapeCast S1x128 x2 shapeCasts_S128_S1x128) broadcasts_S1x128_S2000x128 (ix2 p q) (ix2 (0 : Fin 1) q) (by
    intro a
    match a with
    | ⟨0, _⟩ => rfl
    | ⟨1, _⟩ => rfl)
  have e2 := shapeCast_apply x2 shapeCasts_S128_S1x128 (ix2 (0 : Fin 1) q) (ix1 q) (by
    rw [Shape.rowMajor_val_two, Shape.rowMajor_val_one]; show q.val = 0 * 128 + q.val; omega)
  exact e1.trans e2

/-- THE BODY'S PAYLOAD at entry `(p, q)` of a block: the casts to the narrower float are the identity over the extended
    reals, the product accumulates into zero, and the bias row is added to every row. -/
theorem region19_pay_apply (x0 : Vec Ideal S2000x128 .f32) (x1 : Vec Ideal S128x128 .f32) (x2 : Vec Ideal S128 .f32) (p : Fin 2000) (q : Fin 128) :
    k19_pay1 (F := Ideal) x0 x1 x2 (ix2 p q) = (∑ k : Fin 128, x0 (ix2 p k) * x1 (ix2 k q)) + x2 (ix1 q) := by
  unfold k19_pay1
  show addf (matmul (F := Ideal) dot_S2000x128_S128x128_S2000x128_1_0_0_1_n_n none (truncf .bf16 (shapeCast S2000x128 x0 shapeCasts_S2000x128_S2000x128) bitsLt_bf16_f32) (truncf .bf16 x1 bitsLt_bf16_f32) (constant (F := Ideal) S2000x128 .f32 0x00000000#32))
      (broadcastTo S2000x128 (shapeCast S1x128 x2 shapeCasts_S128_S1x128) broadcasts_S1x128_S2000x128) (ix2 p q) = _
  rw [addf_apply, region19_kmatmul_apply, region19_kbias_apply]
  simp only [truncf_apply, shapeCast_self]

/-! ## The reference's product: the operand indices of its contraction, axis by axis -/

theorem region19_hlhs_0 (i : S80000x128.Idx) (q : Cert.ReferenceIdeal.dot_S80000x128_S128x128_S80000x128_1_0_0_1_n_n.contr.Idx) :
    (Cert.ReferenceIdeal.dot_S80000x128_S128x128_S80000x128_1_0_0_1_n_n.lhsIdx i q 0).val = (i 0).val := by
  unfold DotDims.lhsIdx
  rw [dif_neg (show ¬(0 : Fin S80000x128.rank) ∈ Cert.ReferenceIdeal.dot_S80000x128_S128x128_S80000x128_1_0_0_1_n_n.lhsBatch from List.not_mem_nil), dif_pos (show (0 : Fin S80000x128.rank) ∈ Cert.ReferenceIdeal.dot_S80000x128_S128x128_S80000x128_1_0_0_1_n_n.lhsNonContracting from List.mem_singleton.mpr rfl)]
  rfl
theorem region19_hlhs_1 (i : S80000x128.Idx) (q : Cert.ReferenceIdeal.dot_S80000x128_S128x128_S80000x128_1_0_0_1_n_n.contr.Idx) :
    (Cert.ReferenceIdeal.dot_S80000x128_S128x128_S80000x128_1_0_0_1_n_n.lhsIdx i q 1).val = (q ⟨0, Nat.one_pos⟩).val :=
  Cert.ReferenceIdeal.dot_S80000x128_S128x128_S80000x128_1_0_0_1_n_n.lhsIdx_val_of_single rfl i q
theorem region19_hrhs_0 (i : S80000x128.Idx) (q : Cert.ReferenceIdeal.dot_S80000x128_S128x128_S80000x128_1_0_0_1_n_n.contr.Idx) :
    (Cert.ReferenceIdeal.dot_S80000x128_S128x128_S80000x128_1_0_0_1_n_n.rhsIdx i q 0).val = (q ⟨0, Nat.one_pos⟩).val :=
  Cert.ReferenceIdeal.dot_S80000x128_S128x128_S80000x128_1_0_0_1_n_n.rhsIdx_val_of_single rfl i q
theorem region19_hrhs_1 (i : S80000x128.Idx) (q : Cert.ReferenceIdeal.dot_S80000x128_S128x128_S80000x128_1_0_0_1_n_n.contr.Idx) :
    (Cert.ReferenceIdeal.dot_S80000x128_S128x128_S80000x128_1_0_0_1_n_n.rhsIdx i q 1).val = (i 1).val := by
  unfold DotDims.rhsIdx
  rw [dif_neg (show ¬(1 : Fin S128x128.rank) ∈ Cert.ReferenceIdeal.dot_S80000x128_S128x128_S80000x128_1_0_0_1_n_n.rhsBatch from List.not_mem_nil), dif_pos (show (1 : Fin S128x128.rank) ∈ Cert.ReferenceIdeal.dot_S80000x128_S128x128_S80000x128_1_0_0_1_n_n.rhsNonContracting from List.mem_singleton.mpr rfl)]
  rfl

/-- The reference's product of the whole array with the weight matrix at entry `(p, q)`: the sum over the contracted
    coordinate. -/
theorem region19_hdot_apply (a : FVec Ideal S80000x128 .f32) (w : FVec Ideal S128x128 .f32) (p : Fin 80000) (q : Fin 128) :
    Host.dotGeneral (F := Ideal) Cert.ReferenceIdeal.dot_S80000x128_S128x128_S80000x128_1_0_0_1_n_n none a w (ix2 p q)
      = ∑ k : Fin 128, a (ix2 p k) * w (ix2 k q) := by
  show FloatOps.dotGeneral Cert.ReferenceIdeal.dot_S80000x128_S128x128_S80000x128_1_0_0_1_n_n none _ a w (ix2 p q) = _
  rw [Ideal.dotGeneral_apply, ← Equiv.sum_comp (contrEquiv1 Cert.ReferenceIdeal.dot_S80000x128_S128x128_S80000x128_1_0_0_1_n_n 128 rfl rfl).symm]
  refine Finset.sum_congr rfl fun k _ => ?_
  have hk := contrEquiv1_symm_val Cert.ReferenceIdeal.dot_S80000x128_S128x128_S80000x128_1_0_0_1_n_n 128 rfl rfl k
  have el : Cert.ReferenceIdeal.dot_S80000x128_S128x128_S80000x128_1_0_0_1_n_n.lhsIdx (ix2 p q) ((contrEquiv1 Cert.ReferenceIdeal.dot_S80000x128_S128x128_S80000x128_1_0_0_1_n_n 128 rfl rfl).symm k) = ix2 p k := funext fun a => Fin.ext (by
    match a with
    | ⟨0, _⟩ => exact region19_hlhs_0 _ _
    | ⟨1, _⟩ => exact (region19_hlhs_1 _ _).trans hk)
  have er : Cert.ReferenceIdeal.dot_S80000x128_S128x128_S80000x128_1_0_0_1_n_n.rhsIdx (ix2 p q) ((contrEquiv1 Cert.ReferenceIdeal.dot_S80000x128_S128x128_S80000x128_1_0_0_1_n_n 128 rfl rfl).symm k) = ix2 k q := funext fun a => Fin.ext (by
    match a with
    | ⟨0, _⟩ => exact (region19_hrhs_0 _ _).trans hk
    | ⟨1, _⟩ => exact region19_hrhs_1 _ _)
  rw [el, er]

/-- The reference's bias: the row `b` made a one-row matrix and repeated down the 80000 rows, at entry `(p, q)`: the bias
    at `q`. -/
theorem region19_hbias_apply (b : S128.Idx → Elt Ideal .f32) (p : Fin 80000) (q : Fin 128) :
    broadcastInDim S80000x128 ![0, 1] Cert.ReferenceIdeal.Facts₀.bcast_S1x128_S80000x128_0_1 (broadcastInDim S1x128 ![1] Cert.ReferenceIdeal.Facts₀.bcast_S128_S1x128_1 b) (ix2 p q)
      = b (ix1 q) := by
  have e1 := broadcastInDim_oneRow_apply (m := 80000) (n := 128) Cert.ReferenceIdeal.Facts₀.bcast_S1x128_S80000x128_0_1
    (broadcastInDim S1x128 ![1] Cert.ReferenceIdeal.Facts₀.bcast_S128_S1x128_1 b) p q
  have e2 := broadcastInDim_apply ![1] Cert.ReferenceIdeal.Facts₀.bcast_S128_S1x128_1 b (ix2 (0 : Fin 1) q) (ix1 q) (by
    intro a
    match a with
    | ⟨0, _⟩ => rfl)
  exact e1.trans e2

/-- THE REFERENCE'S LINEAR LAYER is the linear layer over the extended reals. -/
theorem region19_linD_eq (a : S80000x128.Idx → Elt Ideal .f32) (w : S128x128.Idx → Elt Ideal .f32) (b : S128.Idx → Elt Ideal .f32) :
    Cert.Spec.linD (F := Ideal) a w b = region19_lin a w b := by
  funext i
  obtain ⟨p, q, rfl⟩ : ∃ (p : Fin 80000) (q : Fin 128), i = ix2 p q := ⟨i 0, i 1, eq_ix2 i⟩
  rw [region19_lin_apply]
  show Host.dotGeneral (F := Ideal) Cert.ReferenceIdeal.dot_S80000x128_S128x128_S80000x128_1_0_0_1_n_n none a w (ix2 p q)
      + broadcastInDim S80000x128 ![0, 1] Cert.ReferenceIdeal.Facts₀.bcast_S1x128_S80000x128_0_1 (broadcastInDim S1x128 ![1] Cert.ReferenceIdeal.Facts₀.bcast_S128_S1x128_1 b) (ix2 p q) = _
  rw [region19_hdot_apply, region19_hbias_apply]

/-! ## From blocks to the array -/

theorem region19_zero2 : (![0, 0] : Fin 2 → Nat) = fun _ => 0 := funext fun a => by fin_cases a <;> rfl
theorem region19_zero1 : (![0] : Fin 1 → Nat) = fun _ => 0 := funext fun a => by fin_cases a <;> rfl

/-- The printed index maps, decided over the 40 grid points: point `t` reads block `t` of the rows of `a`, the whole of
    `w` and of `b`, and writes block `t` of the rows of the output. -/
theorem region19_idx_facts : ∀ t : Fin cfg19.N, win19_0.index t (0 : Fin 2) = t.val
    ∧ win19_0.index t (1 : Fin 2) = 0
    ∧ win19_1.index t (0 : Fin 2) = 0
    ∧ win19_1.index t (1 : Fin 2) = 0
    ∧ win19_2.index t (0 : Fin 1) = 0
    ∧ win19_3.index t (0 : Fin 2) = t.val
    ∧ win19_3.index t (1 : Fin 2) = 0 :=
  (by decide +kernel : ∀ t : Fin grid19.N, _)

/-- ONE store of the payload through the whole block, of loads through the whole blocks: what the body leaves in the output
    window's buffer is the payload of the three input blocks. -/
theorem region19_out_eq (x0 : Vec Ideal S2000x128 .f32) (x1 : Vec Ideal S128x128 .f32) (x2 : Vec Ideal S128 .f32) :
    out19_3 (F := Ideal) x0 x1 x2 = k19_pay1 (F := Ideal) x0 x1 x2 := by
  unfold out19_3
  rw [View.canon_unit_zero region19_zero2, View.ld_unit_zero region19_zero2, View.ld_unit_zero region19_zero2,
    View.ld_unit_zero region19_zero1]

/-- What the body leaves in the output window's buffer, at entry `(p, q)` of the block. -/
theorem region19_out_apply (x0 : Vec Ideal S2000x128 .f32) (x1 : Vec Ideal S128x128 .f32) (x2 : Vec Ideal S128 .f32) (p : Fin 2000) (q : Fin 128) :
    out19_3 (F := Ideal) x0 x1 x2 (ix2 p q) = (∑ k : Fin 128, x0 (ix2 p k) * x1 (ix2 k q)) + x2 (ix1 q) := by
  rw [region19_out_eq, region19_pay_apply]

/-- WHAT POINT `t` WRITES BACK is block `t` of the linear layer of the three input arrays as the region finds them. -/
theorem region19_flushed_eq (V : (c : Dev nD) → (b : Ref sig .tc) → Buf (Elt Ideal) ((c : Thread nD τ).loc b)) (c : Dev nD) (t : Fin cfg19.N) :
    (dat19 (F := Ideal) V c).flushed 3 t
      = ((cfg19.win 3).blk t).view.read (Elt Ideal) (region19_lin (V c (Pipeline.arrRef spec19 0)) (V c (Pipeline.arrRef spec19 1)) (V c (Pipeline.arrRef spec19 2))) := by
  show (cfg19.win 3).cut (grid19.coords t) ((dat19 (F := Ideal) V c).after 3 t) = _
  rw [after19_3]
  obtain ⟨e0, e1, e2, e3, e4, e5, e6⟩ := region19_idx_facts t
  refine funext fun (j : S2000x128.Idx) => ?_
  obtain ⟨p, q, rfl⟩ : ∃ (p : Fin 2000) (q : Fin 128), j = ix2 p q := ⟨j 0, j 1, eq_ix2 j⟩
  have hp : p.val < 2000 := p.isLt
  have hq : q.val < 128 := q.isLt
  have ht : t.val < 40 := t.isLt
  -- the output entry this block entry lands on: row `t · 2000 + p`, column `q`
  have hout : ((cfg19.win 3).blk t).view.emb (ix2 p q) = ix2 (⟨t.val * 2000 + p.val, by omega⟩ : Fin 80000) q := by
    funext a; apply Fin.ext
    match a with
    | ⟨0, _⟩ => show win19_3.index t (0 : Fin 2) * 2000 + 1 * p.val = t.val * 2000 + p.val; omega
    | ⟨1, _⟩ => show win19_3.index t (1 : Fin 2) * 128 + 1 * q.val = q.val; omega
  -- the input entries the block entry reads: the same row of `a`, and `w`, `b` whole
  have h0 : ∀ k : Fin 128, iblk19 V c 0 t (ix2 p k) = V c (Pipeline.arrRef spec19 0) (ix2 (⟨t.val * 2000 + p.val, by omega⟩ : Fin 80000) k) := fun k => by
    show V c (Pipeline.arrRef spec19 0) (((cfg19.win 0).blk t).view.emb (ix2 p k)) = _
    refine congrArg _ (funext fun a => Fin.ext ?_)
    have hk : k.val < 128 := k.isLt
    match a with
    | ⟨0, _⟩ => show win19_0.index t (0 : Fin 2) * 2000 + 1 * p.val = t.val * 2000 + p.val; omega
    | ⟨1, _⟩ => show win19_0.index t (1 : Fin 2) * 128 + 1 * k.val = k.val; omega
  have h1 : ∀ k : Fin 128, iblk19 V c 1 t (ix2 k q) = V c (Pipeline.arrRef spec19 1) (ix2 k q) := fun k => by
    show V c (Pipeline.arrRef spec19 1) (((cfg19.win 1).blk t).view.emb (ix2 k q)) = _
    refine congrArg _ (funext fun a => Fin.ext ?_)
    have hk : k.val < 128 := k.isLt
    match a with
    | ⟨0, _⟩ => show win19_1.index t (0 : Fin 2) * 128 + 1 * k.val = k.val; omega
    | ⟨1, _⟩ => show win19_1.index t (1 : Fin 2) * 128 + 1 * q.val = q.val; omega
  have h2 : iblk19 V c 2 t (ix1 q) = V c (Pipeline.arrRef spec19 2) (ix1 q) := by
    show V c (Pipeline.arrRef spec19 2) (((cfg19.win 2).blk t).view.emb (ix1 q)) = _
    refine congrArg _ (funext fun a => Fin.ext ?_)
    match a with
    | ⟨0, _⟩ => show win19_2.index t (0 : Fin 1) * 128 + 1 * q.val = q.val; omega
  show out19_3 (F := Ideal) (iblk19 V c 0 t) (iblk19 V c 1 t) (iblk19 V c 2 t) (ix2 p q)
      = region19_lin (V c (Pipeline.arrRef spec19 0)) (V c (Pipeline.arrRef spec19 1)) (V c (Pipeline.arrRef spec19 2)) (((cfg19.win 3).blk t).view.emb (ix2 p q))
  rw [hout, region19_lin_apply]
  refine (region19_out_apply _ _ _ p q).trans ?_
  rw [h2]
  exact congrArg (· + _) (Finset.sum_congr rfl fun k _ => by rw [h0 k, h1 k])

/-- An index of the output array is in point `t`'s block iff each coordinate is in the block's range on its axis. -/
theorem region19_mem_blk (t : Fin cfg19.N) (i : S80000x128.Idx) :
    i ∈ ((cfg19.win 3).blk t).view.set ↔ ∀ a : Fin 2, win19_3.index t a * S2000x128.size a ≤ (i a).val ∧ (i a).val < win19_3.index t a * S2000x128.size a + S2000x128.size a := by
  show i ∈ ((View.whole (Pipeline.arrRef spec19 3)).slice (win19_3.rect t)).set ↔ _
  rw [View.set_slice_whole, Rect.mem_set_unit]
  exact Iff.rfl

/-- THE COVER: row `r` of the output is in the block of point `r / 2000`, which writes its block back. -/
theorem region19_cover (i : S80000x128.Idx) :
    ∃ t : Fin cfg19.N, (cfg19.win 3).flush t = true ∧ i ∈ ((cfg19.win 3).blk t).view.set := by
  have hi0 : (i 0).val < 80000 := (i 0).isLt
  have hi1 : (i 1).val < 128 := (i 1).isLt
  obtain ⟨t, ht⟩ : ∃ t : Fin cfg19.N, t.val = (i 0).val / 2000 := ⟨⟨(i 0).val / 2000, show _ < 40 by omega⟩, rfl⟩
  obtain ⟨e0, e1, e2, e3, e4, e5, e6⟩ := region19_idx_facts t
  refine ⟨t, flush19_3 t, ?_⟩
  rw [region19_mem_blk]
  intro a
  match a with
  | ⟨0, _⟩ => show win19_3.index t (0 : Fin 2) * 2000 ≤ (i 0).val ∧ (i 0).val < win19_3.index t (0 : Fin 2) * 2000 + 2000; omega
  | ⟨1, _⟩ => show win19_3.index t (1 : Fin 2) * 128 ≤ (i 1).val ∧ (i 1).val < win19_3.index t (1 : Fin 2) * 128 + 128; omega

/-! ## The region's output array -/

/-- The output array at the program's own facts: the linear layer over the extended reals. -/
theorem region19_value_lin (V : (c : Dev nD) → (b : Ref sig .tc) → Buf (Elt Ideal) ((c : Thread nD τ).loc b)) (c : Dev nD) :
    (dat19 (F := Ideal) V c).arrAt 3 cfg19.N
      = region19_lin (V c (Pipeline.arrRef spec19 0)) (V c (Pipeline.arrRef spec19 1)) (V c (Pipeline.arrRef spec19 2)) :=
  (dat19 (F := Ideal) V c).arrAt_eq_of_cover 3 _ (fun t _ => region19_flushed_eq V c t) region19_cover

variable [Cert.KernelIdeal.Facts]

/-- WHAT REGION 19 LEAVES in its output array: the reference's linear layer of the region's three input arrays. -/
theorem region19_value (V : (c : Dev nD) → (b : Ref sig .tc) → Buf (Elt Ideal) ((c : Thread nD τ).loc b)) (c : Dev nD) :
    (dat19 (F := Ideal) V c).arrAt 3 cfg19.N
      = Cert.Spec.linD (F := Ideal) (V c (Pipeline.arrRef spec19 0)) (V c (Pipeline.arrRef spec19 1)) (V c (Pipeline.arrRef spec19 2)) := by
  rw [region19_linD_eq]
  exact region19_value_lin V c

end Cert.KernelIdeal.RegionValue

end
-- ==== Proof.Region20.lean ====
import proofs.«116822_j38594576122568_1_alg».proof.Proof.Gen.KernelIdeal.Frame
import proofs.«116822_j38594576122568_1_alg».proof.Proof.SpecLayers
import Idealize.ShloMosaic.Lib.Pipeline.Value
import Idealize.ShloMosaic.Lib.ValueIdx
import Idealize.ShloMosaic.Lib.ValueLayout
import Idealize.ShloMosaic.PureOps.Ideal.Laws

/-! What region 20 of the kernel program leaves in its output array. The region multiplies an array of 20000 rows and 128
    columns by a 128 by 128 weight matrix and adds a bias row of 128 entries, 2000 rows per grid point. Read at an index, the
    body's stored block is (∑ k, a(p,k) · w(k,q)) + b(q) on the extended reals, and so is the reference's linear layer;
    the 10 blocks are the 10 row ranges of one whole-array function, and they fill the array. -/

noncomputable section

namespace Cert.KernelIdeal.RegionValue

open Cert.KernelIdeal Cert.KernelIdeal.Gen Idealize.ShloMosaic Idealize.ShloMosaic.TcCoe Idealize.SL.Sem
open Idealize.ShloMosaic.ValueIdx
open scoped BigOperators

-- The kernel program's side conditions are read at the instance the generated modules provide, as the generated frame
-- does; the reference's are a parameter.
variable [Cert.ReferenceIdeal.Facts]

/-! ## The block product at an index

The kernel's product contracts the left block's axis 1 with the right block's axis 0. At output index
`(p, q)` and contraction position `k` the left operand is read at `(p, k)` and the right one at `(k, q)`:
one lemma per operand axis, stated at the literal axis. -/

/-- Left operand, axis 0 (a free axis): the output's row. -/
theorem lhs_blk20_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- Left operand, axis 1 (the contracted axis): the contraction position. -/
theorem lhs_blk20_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- Right operand, axis 0 (the contracted axis): the contraction position. -/
theorem rhs_blk20_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- Right operand, axis 1 (a free axis): the output's column. -/
theorem rhs_blk20_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into a zero accumulator, at `(p, q)`: the sum over the 128 contraction positions of the
    products of the operands' entries. -/
theorem blockProduct20_apply (x : FVec Ideal S2000x128 .bf16) (y : FVec Ideal S128x128 .bf16) (p : Fin 2000) (q : Fin 128) :
    matmul (F := Ideal) dot_S2000x128_S128x128_S2000x128_1_0_0_1_n_n none x y (constant (F := Ideal) S2000x128 .f32 0x00000000#32) (ix2 p q)
      = ∑ k : Fin 128, x (ix2 p k) * y (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_blk20_0 _ _
    | ⟨1, _⟩ => exact (lhs_blk20_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_blk20_0 _ _).trans hk
    | ⟨1, _⟩ => exact rhs_blk20_1 _ _)
  rw [el, er]

/-- The bias row repeated down the 2000 rows of a block, at `(p, q)`: the bias at `q`. -/
theorem blockBias20_apply (z : Vec Ideal S128 .f32) (p : Fin 2000) (q : Fin 128) :
    broadcastTo S2000x128 (shapeCast S1x128 z shapeCasts_S128_S1x128) broadcasts_S1x128_S2000x128 (ix2 p q) = z (ix1 q) := by
  rw [broadcastTo_1b_ab_apply, shapeCast_a_1a_apply]

/-- THE BODY'S RESULT AT AN INDEX: what the body stores at `(p, q)` of its output block is the row `p` of the
    left block times the column `q` of the weights, plus the bias at `q` (the body first recasts each block to
    its own shape, which changes nothing, and the narrowing of the operands to the product's input format is the identity
    on extended reals). -/
theorem blockPayload20_apply (x0 : Vec Ideal S2000x128 .f32) (x1 : Vec Ideal S128x128 .f32) (x2 : Vec Ideal S128 .f32) (p : Fin 2000) (q : Fin 128) :
    k20_pay1 (F := Ideal) x0 x1 x2 (ix2 p q) = (∑ k : Fin 128, x0 (ix2 p k) * x1 (ix2 k q)) + x2 (ix1 q) := by
  unfold k20_pay1
  simp only [shapeCast_self]
  rw [addf_apply, blockProduct20_apply, blockBias20_apply]
  rfl

/-! ## The reference's linear layer at an index

The host product contracts the array's axis 1 with the weights' axis 0, exactly as the block product does, over the
whole 20000 rows; the bias row is first given a leading unit axis and then repeated down the rows. -/

/-- Left operand, axis 0 (a free axis): the output's row. -/
theorem lhs_arr20_0 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.lhsIdx i q 0).val = (i 0).val := by
  unfold DotDims.lhsIdx
  rw [dif_neg (show ¬(0 : Fin Cert.ReferenceIdeal.S20000x128.rank) ∈ Cert.ReferenceIdeal.dot_S20000x128_S128x128_S20000x128_1_0_0_1_n_n.lhsBatch from (by decide : ¬(0 : Fin 2) ∈ ([] : List (Fin 2)))),
    dif_pos (show (0 : Fin Cert.ReferenceIdeal.S20000x128.rank) ∈ Cert.ReferenceIdeal.dot_S20000x128_S128x128_S20000x128_1_0_0_1_n_n.lhsNonContracting from (by decide : (0 : Fin 2) ∈ ([0] : List (Fin 2))))]
  rfl

/-- Left operand, axis 1 (the contracted axis): the contraction position. -/
theorem lhs_arr20_1 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.lhsIdx i q 1).val = (q ⟨0, Nat.one_pos⟩).val :=
  Cert.ReferenceIdeal.dot_S20000x128_S128x128_S20000x128_1_0_0_1_n_n.lhsIdx_val_of_single rfl i q

/-- Right operand, axis 0 (the contracted axis): the contraction position. -/
theorem rhs_arr20_0 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.rhsIdx i q 0).val = (q ⟨0, Nat.one_pos⟩).val :=
  Cert.ReferenceIdeal.dot_S20000x128_S128x128_S20000x128_1_0_0_1_n_n.rhsIdx_val_of_single rfl i q

/-- Right operand, axis 1 (a free axis): the output's column. -/
theorem rhs_arr20_1 (i : Cert.ReferenceIdeal.S20000x128.Idx) (q : Cert.ReferenceIdeal.dot_S20000x128_S128x128_S20000x128_1_0_0_1_n_n.contr.Idx) :
    (Cert.ReferenceIdeal.dot_S20000x128_S128x128_S20000x128_1_0_0_1_n_n.rhsIdx i q 1).val = (i 1).val := by
  unfold DotDims.rhsIdx
  rw [dif_neg (show ¬(1 : Fin Cert.ReferenceIdeal.S128x128.rank) ∈ Cert.ReferenceIdeal.dot_S20000x128_S128x128_S20000x128_1_0_0_1_n_n.rhsBatch from (by decide : ¬(1 : Fin 2) ∈ ([] : List (Fin 2)))),
    dif_pos (show (1 : Fin Cert.ReferenceIdeal.S128x128.rank) ∈ Cert.ReferenceIdeal.dot_S20000x128_S128x128_S20000x128_1_0_0_1_n_n.rhsNonContracting from (by decide : (1 : Fin 2) ∈ ([1] : List (Fin 2))))]
  rfl

/-- The host product at `(p, q)`: the sum over the 128 contraction positions of the products of the operands' entries. -/
theorem arrayProduct20_apply (a : FVec Ideal Cert.ReferenceIdeal.S20000x128 .f32) (w : FVec Ideal Cert.ReferenceIdeal.S128x128 .f32) (p : Fin 20000) (q : Fin 128) :
    Host.dotGeneral (F := Ideal) Cert.ReferenceIdeal.dot_S20000x128_S128x128_S20000x128_1_0_0_1_n_n none a w (ix2 p q)
      = ∑ k : Fin 128, a (ix2 p k) * w (ix2 k q) := by
  simp only [Host.dotGeneral]
  rw [Ideal.dotGeneral_apply, ← Equiv.sum_comp (contrEquiv1 Cert.ReferenceIdeal.dot_S20000x128_S128x128_S20000x128_1_0_0_1_n_n 128 rfl rfl).symm]
  refine Finset.sum_congr rfl fun k _ => ?_
  have hk := contrEquiv1_symm_val Cert.ReferenceIdeal.dot_S20000x128_S128x128_S20000x128_1_0_0_1_n_n 128 rfl rfl k
  have el : Cert.ReferenceIdeal.dot_S20000x128_S128x128_S20000x128_1_0_0_1_n_n.lhsIdx (ix2 p q) ((contrEquiv1 Cert.ReferenceIdeal.dot_S20000x128_S128x128_S20000x128_1_0_0_1_n_n 128 rfl rfl).symm k) = ix2 p k := funext fun a => Fin.ext (by
    match a with
    | ⟨0, _⟩ => exact lhs_arr20_0 _ _
    | ⟨1, _⟩ => exact (lhs_arr20_1 _ _).trans hk)
  have er : Cert.ReferenceIdeal.dot_S20000x128_S128x128_S20000x128_1_0_0_1_n_n.rhsIdx (ix2 p q) ((contrEquiv1 Cert.ReferenceIdeal.dot_S20000x128_S128x128_S20000x128_1_0_0_1_n_n 128 rfl rfl).symm k) = ix2 k q := funext fun a => Fin.ext (by
    match a with
    | ⟨0, _⟩ => exact (rhs_arr20_0 _ _).trans hk
    | ⟨1, _⟩ => exact rhs_arr20_1 _ _)
  rw [el, er]

/-- The bias row given a leading unit axis and repeated down the 20000 rows, at `(p, q)`: the bias at `q`. -/
theorem arrayBias20_apply (b : (⟨Cert.ReferenceIdeal.S128, .f32⟩ : BufTy).Contents (Elt Ideal)) (p : Fin 20000) (q : Fin 128) :
    broadcastInDim Cert.ReferenceIdeal.S20000x128 ![0, 1] Cert.ReferenceIdeal.Facts₀.bcast_S1x128_S20000x128_0_1 (broadcastInDim Cert.ReferenceIdeal.S1x128 ![1] Cert.ReferenceIdeal.Facts₀.bcast_S128_S1x128_1 b) (ix2 p q) = b (ix1 q) := by
  rw [broadcastInDim_apply _ _ _ (ix2 p q) (ix2 (0 : Fin 1) q) (fun a => by match a with | ⟨0, _⟩ => rfl | ⟨1, _⟩ => rfl),
    broadcastInDim_apply _ _ _ (ix2 (0 : Fin 1) q) (ix1 q) (fun a => by match a with | ⟨0, _⟩ => rfl)]

/-- THE REFERENCE'S LINEAR LAYER AT AN INDEX: row `p` of the array times column `q` of the weights, plus the bias at `q`. -/
theorem linear20_apply (a : (⟨Cert.ReferenceIdeal.S20000x128, .f32⟩ : BufTy).Contents (Elt Ideal)) (w : (⟨Cert.ReferenceIdeal.S128x128, .f32⟩ : BufTy).Contents (Elt Ideal)) (b : (⟨Cert.ReferenceIdeal.S128, .f32⟩ : BufTy).Contents (Elt Ideal)) (p : Fin 20000) (q : Fin 128) :
    Cert.Spec.linE (F := Ideal) a w b (ix2 p q) = (∑ k : Fin 128, a (ix2 p k) * w (ix2 k q)) + b (ix1 q) := by
  unfold Cert.Spec.linE
  beta_reduce
  rw [addf_apply, arrayProduct20_apply, arrayBias20_apply]

/-! ## From the blocks to the array

Grid point `t` works on rows `2000 t … 2000 t + 1999`: its left block is those rows of the array, the weights and
the bias are read whole, and what it writes back is those rows of the linear layer of the three arrays. The 10
points' row ranges fill the 20000 rows. -/

theorem zeroOffsets20_2 : (![0, 0] : Fin 2 → Nat) = fun _ => 0 :=
  funext fun a => by match a with | ⟨0, _⟩ => rfl | ⟨1, _⟩ => rfl

theorem zeroOffsets20_1 : (![0] : Fin 1 → Nat) = fun _ => 0 :=
  funext fun a => by match a with | ⟨0, _⟩ => rfl

/-- The printed index maps, decided once over the grid: the left block moves down the rows with the output block, the
    weights' and the bias's block indices are zero, and the output's row-block index is the point's number. -/
theorem blockIndices20 : ∀ t : Fin cfg20.N,
    win20_0.index t (0 : Fin 2) = win20_3.index t (0 : Fin 2) ∧ win20_0.index t (1 : Fin 2) = 0
    ∧ win20_1.index t (0 : Fin 2) = 0 ∧ win20_1.index t (1 : Fin 2) = 0
    ∧ win20_2.index t (0 : Fin 1) = 0
    ∧ win20_3.index t (0 : Fin 2) = t.val ∧ win20_3.index t (1 : Fin 2) = 0
    ∧ win20_3.index t (0 : Fin 2) ≤ 9 :=
  (by decide +kernel : ∀ t : Fin grid20.N, _)

/-- ONE BLOCK OF THE LINEAR LAYER. If the left block `x0` is rows `2000 n …` of the array `A`, and the weights' and the
    bias's blocks are the arrays `W` and `B` themselves, the body's result at `(p, q)` is the linear layer of `A`, `W`, `B`
    at `(2000 n + p, q)`. -/
theorem blockOfLinear20 (A : (⟨Cert.ReferenceIdeal.S20000x128, .f32⟩ : BufTy).Contents (Elt Ideal)) (W : (⟨Cert.ReferenceIdeal.S128x128, .f32⟩ : BufTy).Contents (Elt Ideal)) (B : (⟨Cert.ReferenceIdeal.S128, .f32⟩ : BufTy).Contents (Elt Ideal))
    (x0 : Vec Ideal S2000x128 .f32) (x1 : Vec Ideal S128x128 .f32) (x2 : Vec Ideal S128 .f32) (n : Nat) (hn : n ≤ 9)
    (h0 : ∀ (p : Fin 2000) (k : Fin 128), x0 (ix2 p k) = A (ix2 (⟨n * 2000 + p.val, by have := p.isLt; omega⟩ : Fin 20000) k))
    (h1 : ∀ (k : Fin 128) (q : Fin 128), x1 (ix2 k q) = W (ix2 k q))
    (h2 : ∀ q : Fin 128, x2 (ix1 q) = B (ix1 q))
    (p : Fin 2000) (q : Fin 128) :
    k20_pay1 (F := Ideal) x0 x1 x2 (ix2 p q)
      = Cert.Spec.linE (F := Ideal) A W B (ix2 (⟨n * 2000 + p.val, by have := p.isLt; omega⟩ : Fin 20000) q) := by
  rw [blockPayload20_apply, linear20_apply]
  simp only [h0, h1, h2]

-- reading an array's shape off the program's buffer table costs more the later the buffer stands in it
set_option maxHeartbeats 4000000 in
/-- WHAT POINT `t` WRITES BACK is block `t` of the linear layer of the three arrays as the region finds them. -/
theorem flushed20_eq (V : (c : Dev nD) → (b : Ref sig .tc) → Buf (Elt Ideal) ((c : Thread nD τ).loc b)) (c : Dev nD) (t : Fin cfg20.N) :
    (dat20 (F := Ideal) V c).flushed 3 t = ((cfg20.win 3).blk t).view.read (Elt Ideal)
      (Cert.Spec.linE (F := Ideal) (V c (Pipeline.arrRef spec20 0)) (V c (Pipeline.arrRef spec20 1)) (V c (Pipeline.arrRef spec20 2))) := by
  show (cfg20.win 3).cut (grid20.coords t) ((dat20 (F := Ideal) V c).after 3 t) = _
  rw [after20_3]
  unfold out20_3
  rw [View.canon_unit_zero zeroOffsets20_2]
  simp only [View.ld_unit_zero (S := S2000x128) zeroOffsets20_2, View.ld_unit_zero (S := S128x128) zeroOffsets20_2, View.ld_unit_zero (S := S128) zeroOffsets20_1]
  obtain ⟨e00, e01, e10, e11, e20, e30, e31, hle⟩ := blockIndices20 t
  funext (j : S2000x128.Idx)
  obtain ⟨p, q, rfl⟩ : ∃ (p : Fin 2000) (q : Fin 128), j = ix2 p q := ⟨j 0, j 1, eq_ix2 j⟩
  show k20_pay1 (F := Ideal) (iblk20 V c 0 t) (iblk20 V c 1 t) (iblk20 V c 2 t) (ix2 p q)
    = Cert.Spec.linE (F := Ideal) (V c (Pipeline.arrRef spec20 0)) (V c (Pipeline.arrRef spec20 1)) (V c (Pipeline.arrRef spec20 2)) (((cfg20.win 3).blk t).view.emb (ix2 p q))
  refine (blockOfLinear20 (V c (Pipeline.arrRef spec20 0)) (V c (Pipeline.arrRef spec20 1)) (V c (Pipeline.arrRef spec20 2)) (iblk20 V c 0 t) (iblk20 V c 1 t) (iblk20 V c 2 t) (win20_3.index t (0 : Fin 2)) hle ?_ ?_ ?_ p q).trans ?_
  · intro p k
    show V c (Pipeline.arrRef spec20 0) (((cfg20.win 0).blk t).view.emb (ix2 p k)) = _
    refine congrArg _ (funext fun a => Fin.ext ?_)
    match a with
    | ⟨0, _⟩ => show win20_0.index t (0 : Fin 2) * 2000 + 1 * p.val = win20_3.index t (0 : Fin 2) * 2000 + p.val; omega
    | ⟨1, _⟩ => show win20_0.index t (1 : Fin 2) * 128 + 1 * k.val = k.val; omega
  · intro k q
    show V c (Pipeline.arrRef spec20 1) (((cfg20.win 1).blk t).view.emb (ix2 k q)) = _
    refine congrArg _ (funext fun a => Fin.ext ?_)
    match a with
    | ⟨0, _⟩ => show win20_1.index t (0 : Fin 2) * 128 + 1 * k.val = k.val; omega
    | ⟨1, _⟩ => show win20_1.index t (1 : Fin 2) * 128 + 1 * q.val = q.val; omega
  · intro q
    show V c (Pipeline.arrRef spec20 2) (((cfg20.win 2).blk t).view.emb (ix1 q)) = _
    refine congrArg _ (funext fun a => Fin.ext ?_)
    match a with
    | ⟨0, _⟩ => show win20_2.index t (0 : Fin 1) * 128 + 1 * q.val = q.val; omega
  · refine congrArg _ (funext fun a => Fin.ext ?_)
    match a with
    | ⟨0, _⟩ => show win20_3.index t (0 : Fin 2) * 2000 + p.val = win20_3.index t (0 : Fin 2) * 2000 + 1 * p.val; omega
    | ⟨1, _⟩ => show q.val = win20_3.index t (1 : Fin 2) * 128 + 1 * q.val; omega

/-- An index of the array is in point `t`'s output block iff each coordinate is in the block's range on its axis. -/
theorem mem_block20 (t : Fin cfg20.N) (i : S20000x128.Idx) :
    i ∈ ((cfg20.win 3).blk t).view.set ↔ ∀ a : Fin 2, win20_3.index t a * S2000x128.size a ≤ (i a).val ∧ (i a).val < win20_3.index t a * S2000x128.size a + S2000x128.size a := by
  show i ∈ ((View.whole (Pipeline.arrRef spec20 3)).slice (win20_3.rect t)).set ↔ _
  rw [View.set_slice_whole, Rect.mem_set_unit]
  exact Iff.rfl

/-- THE COVER: row `r` is in the block of point `r / 2000`. -/
theorem covered20 (i : S20000x128.Idx) :
    ∃ t : Fin cfg20.N, (cfg20.win 3).flush t = true ∧ i ∈ ((cfg20.win 3).blk t).view.set := by
  have hi0 : (i 0).val < 20000 := (i 0).isLt
  have hi1 : (i 1).val < 128 := (i 1).isLt
  obtain ⟨t, ht⟩ : ∃ t : Fin cfg20.N, t.val = (i 0).val / 2000 :=
    ⟨⟨(i 0).val / 2000, by rw [show cfg20.N = 10 from N_20]; omega⟩, rfl⟩
  obtain ⟨-, -, -, -, -, e30, e31, -⟩ := blockIndices20 t
  refine ⟨t, flush20_3 t, ?_⟩
  rw [mem_block20]
  intro a
  match a with
  | ⟨0, _⟩ => show win20_3.index t (0 : Fin 2) * 2000 ≤ (i 0).val ∧ (i 0).val < win20_3.index t (0 : Fin 2) * 2000 + 2000; omega
  | ⟨1, _⟩ => show win20_3.index t (1 : Fin 2) * 128 ≤ (i 1).val ∧ (i 1).val < win20_3.index t (1 : Fin 2) * 128 + 128; omega

/-- The array after region 20, at the generated instance of the kernel program's side conditions. -/
theorem region20_array (V : (c : Dev nD) → (b : Ref sig .tc) → Buf (Elt Ideal) ((c : Thread nD τ).loc b)) (c : Dev nD) :
    (dat20 (F := Ideal) V c).arrAt 3 cfg20.N
      = Cert.Spec.linE (F := Ideal) (V c (Pipeline.arrRef spec20 0)) (V c (Pipeline.arrRef spec20 1)) (V c (Pipeline.arrRef spec20 2)) :=
  (dat20 (F := Ideal) V c).arrAt_eq_of_cover 3 _ (fun t _ => flushed20_eq V c t) (fun i => covered20 i)

section AnyInstance

variable [Cert.KernelIdeal.Facts]

/-- THE ARRAY after region 20: the linear layer of the region's three input arrays (the kernel program's side conditions
    are propositions, so the statement at any instance of them is the one at the generated instance). -/
theorem region20_value (V : (c : Dev nD) → (b : Ref sig .tc) → Buf (Elt Ideal) ((c : Thread nD τ).loc b)) (c : Dev nD) :
    (dat20 (F := Ideal) V c).arrAt 3 cfg20.N
      = Cert.Spec.linE (F := Ideal) (V c (Pipeline.arrRef spec20 0)) (V c (Pipeline.arrRef spec20 1)) (V c (Pipeline.arrRef spec20 2)) :=
  region20_array V c

end AnyInstance

end Cert.KernelIdeal.RegionValue

end
-- ==== Proof.lean ====
/- The certificate of a three-layer heterogeneous graph network whose dense steps run as 21 accelerator regions (15 linear
   layers, 6 two-branch normalise-and-combine steps) between stretches of host operations (the edge aggregations and the
   batch statistics), against the plain host program that computes the same network.
   The frames of the two kernel programs are the generated ones. The reference's run is its 14 windows of host operations
   run as one line. The results agree because (1) every region's output array is the reference's own host form of that layer
   applied to the region's input arrays — one module per region, index by index: a sum of products plus a bias; the
   normalise / clamp / product / sum / leaky clamp step — and (2) every other value of either run is the same host term of
   earlier values, so both runs, read boundary by boundary, hold the same named values, down to the two results. -/
import proofs.«116822_j38594576122568_1_alg».proof.Defs
import proofs.«116822_j38594576122568_1_alg».proof.Proof.Gen.Kernel
import proofs.«116822_j38594576122568_1_alg».proof.Proof.Gen.Kernel.Frame
import proofs.«116822_j38594576122568_1_alg».proof.Proof.Gen.KernelIdeal
import proofs.«116822_j38594576122568_1_alg».proof.Proof.Gen.KernelIdeal.Frame
import proofs.«116822_j38594576122568_1_alg».proof.Proof.Gen.ReferenceIdeal
import proofs.«116822_j38594576122568_1_alg».proof.Proof.Gen.Pre_finite_inputs
import proofs.«116822_j38594576122568_1_alg».proof.Proof.Assembly
import proofs.«116822_j38594576122568_1_alg».proof.Proof.Region0
import proofs.«116822_j38594576122568_1_alg».proof.Proof.Region1
import proofs.«116822_j38594576122568_1_alg».proof.Proof.Region2
import proofs.«116822_j38594576122568_1_alg».proof.Proof.Region3
import proofs.«116822_j38594576122568_1_alg».proof.Proof.Region4
import proofs.«116822_j38594576122568_1_alg».proof.Proof.Region5
import proofs.«116822_j38594576122568_1_alg».proof.Proof.Region6
import proofs.«116822_j38594576122568_1_alg».proof.Proof.Region7
import proofs.«116822_j38594576122568_1_alg».proof.Proof.Region8
import proofs.«116822_j38594576122568_1_alg».proof.Proof.Region9
import proofs.«116822_j38594576122568_1_alg».proof.Proof.Region10
import proofs.«116822_j38594576122568_1_alg».proof.Proof.Region11
import proofs.«116822_j38594576122568_1_alg».proof.Proof.Region12
import proofs.«116822_j38594576122568_1_alg».proof.Proof.Region13
import proofs.«116822_j38594576122568_1_alg».proof.Proof.Region14
import proofs.«116822_j38594576122568_1_alg».proof.Proof.Region15
import proofs.«116822_j38594576122568_1_alg».proof.Proof.Region16
import proofs.«116822_j38594576122568_1_alg».proof.Proof.Region17
import proofs.«116822_j38594576122568_1_alg».proof.Proof.Region18
import proofs.«116822_j38594576122568_1_alg».proof.Proof.Region19
import proofs.«116822_j38594576122568_1_alg».proof.Proof.Region20
import Idealize.ShloMosaic.Adequacy
import Idealize.ShloMosaic.Init

noncomputable section

namespace Cert.Proof

open Idealize.ShloMosaic Idealize.SL.Sem

/-- The 21 regions' output arrays, each proved in its own module. -/
instance regionFacts : Cert.KernelIdeal.RegionValue.RegionFacts :=
  ⟨Cert.KernelIdeal.RegionValue.region0_value,
   Cert.KernelIdeal.RegionValue.region1_value,
   Cert.KernelIdeal.RegionValue.region2_value,
   Cert.KernelIdeal.RegionValue.region3_value,
   Cert.KernelIdeal.RegionValue.region4_value,
   Cert.KernelIdeal.RegionValue.region5_value,
   Cert.KernelIdeal.RegionValue.region6_value,
   Cert.KernelIdeal.RegionValue.region7_value,
   Cert.KernelIdeal.RegionValue.region8_value,
   Cert.KernelIdeal.RegionValue.region9_value,
   Cert.KernelIdeal.RegionValue.region10_value,
   Cert.KernelIdeal.RegionValue.region11_value,
   Cert.KernelIdeal.RegionValue.region12_value,
   Cert.KernelIdeal.RegionValue.region13_value,
   Cert.KernelIdeal.RegionValue.region14_value,
   Cert.KernelIdeal.RegionValue.region15_value,
   Cert.KernelIdeal.RegionValue.region16_value,
   Cert.KernelIdeal.RegionValue.region17_value,
   Cert.KernelIdeal.RegionValue.region18_value,
   Cert.KernelIdeal.RegionValue.region19_value,
   Cert.KernelIdeal.RegionValue.region20_value⟩

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.Proof.Parts.frame_ri,
    trivial,
    Cert.Proof.Parts.algebraic⟩

end Cert.Proof

end
